-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S256x768 .f32 .bf16
  ∧ IdealRules.truncf_extf.Statement Cert.KernelIdeal.S256x768 .f32 .bf16
  ∧ IdealRules.truncf_extf.Statement Cert.KernelIdeal.S256x768 .f32 .bf16
  ∧ IdealRules.truncf_extf.Statement Cert.KernelIdeal.S256x768 .f32 .bf16

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x512x768 : Shape := ⟨3, ![2, 512, 768]⟩
abbrev S768x384 : Shape := ⟨2, ![768, 384]⟩
abbrev S384x768 : Shape := ⟨2, ![384, 768]⟩
abbrev S2x128 : Shape := ⟨2, ![2, 128]⟩
abbrev S128x4608 : Shape := ⟨2, ![128, 4608]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x384 : S_.BroadcastsInDim S768x384 (![] : Fin 0 → Fin S768x384.rank)
  reducesTo_S768x384_S_d0_1 : S768x384.ReducesTo [0, 1] S_
  bcast_S_S384x768 : S_.BroadcastsInDim S384x768 (![] : Fin 0 → Fin S384x768.rank)
  reducesTo_S384x768_S_d0_1 : S384x768.ReducesTo [0, 1] S_
  bcast_S_S2x128 : S_.BroadcastsInDim S2x128 (![] : Fin 0 → Fin S2x128.rank)
  reducesTo_S2x128_S_d0_1 : S2x128.ReducesTo [0, 1] S_
  bcast_S_S128x4608 : S_.BroadcastsInDim S128x4608 (![] : Fin 0 → Fin S128x4608.rank)
  reducesTo_S128x4608_S_d0_1 : S128x4608.ReducesTo [0, 1] S_

variable [Facts]

def fn_part2 {F : FTy → Type} [FloatOps F] (main_arg7 : FVec F S768x384 .f32) (main_arg8 : FVec F S384x768 .f32) (main_v33 : IVec S_ 1) : IVec S_ 1 :=
  let main_v34 : FVec F S768x384 .f32 := Host.absf main_arg7
  let main_cst_12 : FVec F S_ .f32 := constant S_ .f32 0x7F800000#32
  let main_v35 : FVec F S768x384 .f32 := broadcastInDim S768x384 ![] bcast_S_S768x384 main_cst_12
  let main_v36 : IVec S768x384 1 := cmpf .olt main_v34 main_v35
  let main_c_13 : IVec S_ 1 := constantI S_ 1 1#1
  let main_v37 : IVec S_ 1 := (fun x v => Host.reduce IntOp.andi x v reducesTo_S768x384_S_d0_1 h_S_) main_v36 main_c_13
  let main_v38 : IVec S_ 1 := andi main_v33 main_v37
  let main_v39 : FVec F S384x768 .f32 := Host.absf main_arg8
  let main_cst_14 : FVec F S_ .f32 := constant S_ .f32 0x7F800000#32
  let main_v40 : FVec F S384x768 .f32 := broadcastInDim S384x768 ![] bcast_S_S384x768 main_cst_14
  let main_v41 : IVec S384x768 1 := cmpf .olt main_v39 main_v40
  let main_c_15 : IVec S_ 1 := constantI S_ 1 1#1
  let main_v42 : IVec S_ 1 := (fun x v => Host.reduce IntOp.andi x v reducesTo_S384x768_S_d0_1 h_S_) main_v41 main_c_15
  let main_v43 : IVec S_ 1 := andi main_v38 main_v42
  main_v43

def fn_part1 {F : FTy → Type} [FloatOps F] (main_arg4 : FVec F S384x768 .f32) (main_arg5 : FVec F S2x128 .f32) (main_arg6 : FVec F S128x4608 .f32) (main_arg7 : FVec F S768x384 .f32) (main_arg8 : FVec F S384x768 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S384x768 .f32 := Host.absf main_arg4
  let main_cst_6 : FVec F S_ .f32 := constant S_ .f32 0x7F800000#32
  let main_v20 : FVec F S384x768 .f32 := broadcastInDim S384x768 ![] bcast_S_S384x768 main_cst_6
  let main_v21 : IVec S384x768 1 := cmpf .olt main_v19 main_v20
  let main_c_7 : IVec S_ 1 := constantI S_ 1 1#1
  let main_v22 : IVec S_ 1 := (fun x v => Host.reduce IntOp.andi x v reducesTo_S384x768_S_d0_1 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x4608 .f32 := Host.absf main_arg6
  let main_cst_10 : FVec F S_ .f32 := constant S_ .f32 0x7F800000#32
  let main_v30 : FVec F S128x4608 .f32 := broadcastInDim S128x4608 ![] bcast_S_S128x4608 main_cst_10
  let main_v31 : IVec S128x4608 1 := cmpf .olt main_v29 main_v30
  let main_c_11 : IVec S_ 1 := constantI S_ 1 1#1
  let main_v32 : IVec S_ 1 := (fun x v => Host.reduce IntOp.andi x v reducesTo_S128x4608_S_d0_1 h_S_) main_v31 main_c_11
  let main_v33 : IVec S_ 1 := andi main_v28 main_v32
  fn_part2 (F := F) main_arg7 main_arg8 main_v33

def fn {F : FTy → Type} [FloatOps F] (main_arg0 : FVec F S2x512x768 .f32) (main_arg1 : FVec F S768x384 .f32) (main_arg2 : FVec F S768x384 .f32) (main_arg3 : FVec F S768x384 .f32) (main_arg4 : FVec F S384x768 .f32) (main_arg5 : FVec F S2x128 .f32) (main_arg6 : FVec F S128x4608 .f32) (main_arg7 : FVec F S768x384 .f32) (main_arg8 : FVec F S384x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S768x384 .f32 := Host.absf main_arg2
  let main_cst_2 : FVec F S_ .f32 := constant S_ .f32 0x7F800000#32
  let main_v10 : FVec F S768x384 .f32 := broadcastInDim S768x384 ![] bcast_S_S768x384 main_cst_2
  let main_v11 : IVec S768x384 1 := cmpf .olt main_v9 main_v10
  let main_c_3 : IVec S_ 1 := constantI S_ 1 1#1
  let main_v12 : IVec S_ 1 := (fun x v => Host.reduce IntOp.andi x v reducesTo_S768x384_S_d0_1 h_S_) main_v11 main_c_3
  let main_v13 : IVec S_ 1 := andi main_v8 main_v12
  let main_v14 : FVec F S768x384 .f32 := Host.absf main_arg3
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg4 main_arg5 main_arg6 main_arg7 main_arg8 main_v13 main_v16
-- ==== Pre_finite_inputs_ReferenceIdeal.lean ====
abbrev S2x512x768 : Shape := ⟨3, ![2, 512, 768]⟩
abbrev S768x3072 : Shape := ⟨2, ![768, 3072]⟩
abbrev S3072x768 : Shape := ⟨2, ![3072, 768]⟩
abbrev S2x128 : Shape := ⟨2, ![2, 128]⟩
abbrev S128x4608 : Shape := ⟨2, ![128, 4608]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x3072 : S_.BroadcastsInDim S768x3072 (![] : Fin 0 → Fin S768x3072.rank)
  reducesTo_S768x3072_S_d0_1 : S768x3072.ReducesTo [0, 1] S_
  bcast_S_S3072x768 : S_.BroadcastsInDim S3072x768 (![] : Fin 0 → Fin S3072x768.rank)
  reducesTo_S3072x768_S_d0_1 : S3072x768.ReducesTo [0, 1] S_
  bcast_S_S2x128 : S_.BroadcastsInDim S2x128 (![] : Fin 0 → Fin S2x128.rank)
  reducesTo_S2x128_S_d0_1 : S2x128.ReducesTo [0, 1] S_
  bcast_S_S128x4608 : S_.BroadcastsInDim S128x4608 (![] : Fin 0 → Fin S128x4608.rank)
  reducesTo_S128x4608_S_d0_1 : S128x4608.ReducesTo [0, 1] S_

variable [Facts]

def fn_part2 {F : FTy → Type} [FloatOps F] (main_arg7 : FVec F S768x3072 .f32) (main_arg8 : FVec F S3072x768 .f32) (main_v33 : IVec S_ 1) : IVec S_ 1 :=
  let main_v34 : FVec F S768x3072 .f32 := Host.absf main_arg7
  let main_cst_12 : FVec F S_ .f32 := constant S_ .f32 0x7F800000#32
  let main_v35 : FVec F S768x3072 .f32 := broadcastInDim S768x3072 ![] bcast_S_S768x3072 main_cst_12
  let main_v36 : IVec S768x3072 1 := cmpf .olt main_v34 main_v35
  let main_c_13 : IVec S_ 1 := constantI S_ 1 1#1
  let main_v37 : IVec S_ 1 := (fun x v => Host.reduce IntOp.andi x v reducesTo_S768x3072_S_d0_1 h_S_) main_v36 main_c_13
  let main_v38 : IVec S_ 1 := andi main_v33 main_v37
  let main_v39 : FVec F S3072x768 .f32 := Host.absf main_arg8
  let main_cst_14 : FVec F S_ .f32 := constant S_ .f32 0x7F800000#32
  let main_v40 : FVec F S3072x768 .f32 := broadcastInDim S3072x768 ![] bcast_S_S3072x768 main_cst_14
  let main_v41 : IVec S3072x768 1 := cmpf .olt main_v39 main_v40
  let main_c_15 : IVec S_ 1 := constantI S_ 1 1#1
  let main_v42 : IVec S_ 1 := (fun x v => Host.reduce IntOp.andi x v reducesTo_S3072x768_S_d0_1 h_S_) main_v41 main_c_15
  let main_v43 : IVec S_ 1 := andi main_v38 main_v42
  main_v43

def fn_part1 {F : FTy → Type} [FloatOps F] (main_arg4 : FVec F S3072x768 .f32) (main_arg5 : FVec F S2x128 .f32) (main_arg6 : FVec F S128x4608 .f32) (main_arg7 : FVec F S768x3072 .f32) (main_arg8 : FVec F S3072x768 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S3072x768 .f32 := Host.absf main_arg4
  let main_cst_6 : FVec F S_ .f32 := constant S_ .f32 0x7F800000#32
  let main_v20 : FVec F S3072x768 .f32 := broadcastInDim S3072x768 ![] bcast_S_S3072x768 main_cst_6
  let main_v21 : IVec S3072x768 1 := cmpf .olt main_v19 main_v20
  let main_c_7 : IVec S_ 1 := constantI S_ 1 1#1
  let main_v22 : IVec S_ 1 := (fun x v => Host.reduce IntOp.andi x v reducesTo_S3072x768_S_d0_1 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x4608 .f32 := Host.absf main_arg6
  let main_cst_10 : FVec F S_ .f32 := constant S_ .f32 0x7F800000#32
  let main_v30 : FVec F S128x4608 .f32 := broadcastInDim S128x4608 ![] bcast_S_S128x4608 main_cst_10
  let main_v31 : IVec S128x4608 1 := cmpf .olt main_v29 main_v30
  let main_c_11 : IVec S_ 1 := constantI S_ 1 1#1
  let main_v32 : IVec S_ 1 := (fun x v => Host.reduce IntOp.andi x v reducesTo_S128x4608_S_d0_1 h_S_) main_v31 main_c_11
  let main_v33 : IVec S_ 1 := andi main_v28 main_v32
  fn_part2 (F := F) main_arg7 main_arg8 main_v33

def fn {F : FTy → Type} [FloatOps F] (main_arg0 : FVec F S2x512x768 .f32) (main_arg1 : FVec F S768x3072 .f32) (main_arg2 : FVec F S768x3072 .f32) (main_arg3 : FVec F S768x3072 .f32) (main_arg4 : FVec F S3072x768 .f32) (main_arg5 : FVec F S2x128 .f32) (main_arg6 : FVec F S128x4608 .f32) (main_arg7 : FVec F S768x3072 .f32) (main_arg8 : FVec F S3072x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x3072 .f32 := Host.absf main_arg1
  let main_cst_0 : FVec F S_ .f32 := constant S_ .f32 0x7F800000#32
  let main_v5 : FVec F S768x3072 .f32 := broadcastInDim S768x3072 ![] bcast_S_S768x3072 main_cst_0
  let main_v6 : IVec S768x3072 1 := cmpf .olt main_v4 main_v5
  let main_c_1 : IVec S_ 1 := constantI S_ 1 1#1
  let main_v7 : IVec S_ 1 := (fun x v => Host.reduce IntOp.andi x v reducesTo_S768x3072_S_d0_1 h_S_) main_v6 main_c_1
  let main_v8 : IVec S_ 1 := andi main_v3 main_v7
  let main_v9 : FVec F S768x3072 .f32 := Host.absf main_arg2
  let main_cst_2 : FVec F S_ .f32 := constant S_ .f32 0x7F800000#32
  let main_v10 : FVec F S768x3072 .f32 := broadcastInDim S768x3072 ![] bcast_S_S768x3072 main_cst_2
  let main_v11 : IVec S768x3072 1 := cmpf .olt main_v9 main_v10
  let main_c_3 : IVec S_ 1 := constantI S_ 1 1#1
  let main_v12 : IVec S_ 1 := (fun x v => Host.reduce IntOp.andi x v reducesTo_S768x3072_S_d0_1 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg4 main_arg5 main_arg6 main_arg7 main_arg8 main_v13 main_v16
-- ==== Kernel.lean ====
abbrev S2x512x768 : Shape := ⟨3, ![2, 512, 768]⟩
abbrev S768x384 : Shape := ⟨2, ![768, 384]⟩
abbrev S384x768 : Shape := ⟨2, ![384, 768]⟩
abbrev S2x128 : Shape := ⟨2, ![2, 128]⟩
abbrev S128x4608 : Shape := ⟨2, ![128, 4608]⟩
abbrev S4x3x256x256 : Shape := ⟨4, ![4, 3, 256, 256]⟩
abbrev S8x3x3x256x256 : Shape := ⟨5, ![8, 3, 3, 256, 256]⟩
abbrev S24 : Shape := ⟨1, ![24]⟩
abbrev S_ : Shape := ⟨0, ![]⟩
abbrev S2x4608 : Shape := ⟨2, ![2, 4608]⟩
abbrev S2x768 : Shape := ⟨2, ![2, 768]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S1x768 : Shape := ⟨2, ![1, 768]⟩
abbrev S768 : Shape := ⟨1, ![768]⟩
abbrev S512x384 : Shape := ⟨2, ![512, 384]⟩
abbrev S256x768 : Shape := ⟨2, ![256, 768]⟩
abbrev S256x384 : Shape := ⟨2, ![256, 384]⟩
abbrev S256x96 : Shape := ⟨2, ![256, 96]⟩
abbrev S512x96 : Shape := ⟨2, ![512, 96]⟩
abbrev S96x512 : Shape := ⟨2, ![96, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x1x256x256 : Shape := ⟨4, ![1, 1, 256, 256]⟩
abbrev S1 : Shape := ⟨1, ![1]⟩
abbrev S1x1x1x256x256 : Shape := ⟨5, ![1, 1, 1, 256, 256]⟩
abbrev S1x256x768 : Shape := ⟨3, ![1, 256, 768]⟩

abbrev nBuf : Space → Nat
  | .hbm => 10
  | .vmem => 12
  | .smem => 0
  | _ => 0

abbrev bufTy : (tb : Table) → Fin (tcTables nBuf tb) → BufTy
  | .hbm, ⟨0, _⟩ => ⟨S2x512x768, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S384x768, .f32⟩
  | .hbm, ⟨5, _⟩ => ⟨S2x128, .f32⟩
  | .hbm, ⟨6, _⟩ => ⟨S128x4608, .f32⟩
  | .hbm, ⟨7, _⟩ => ⟨S768x384, .f32⟩
  | .hbm, ⟨8, _⟩ => ⟨S384x768, .f32⟩
  | .hbm, ⟨9, _⟩ => ⟨S2x512x768, .f32⟩
  | .local _ .vmem, ⟨0, _⟩ => ⟨S2x512x768, .f32⟩
  | .local _ .vmem, ⟨1, _⟩ => ⟨S768x384, .f32⟩
  | .local _ .vmem, ⟨2, _⟩ => ⟨S768x384, .f32⟩
  | .local _ .vmem, ⟨3, _⟩ => ⟨S768x384, .f32⟩
  | .local _ .vmem, ⟨4, _⟩ => ⟨S384x768, .f32⟩
  | .local _ .vmem, ⟨5, _⟩ => ⟨S2x128, .f32⟩
  | .local _ .vmem, ⟨6, _⟩ => ⟨S128x4608, .f32⟩
  | .local _ .vmem, ⟨7, _⟩ => ⟨S768x384, .f32⟩
  | .local _ .vmem, ⟨8, _⟩ => ⟨S384x768, .f32⟩
  | .local _ .vmem, ⟨9, _⟩ => ⟨S2x512x768, .f32⟩
  | .local _ .vmem, ⟨10, _⟩ => ⟨S4x3x256x256, .bf16⟩
  | .local _ .vmem, ⟨11, _⟩ => ⟨S8x3x3x256x256, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 2 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v154 : BitVec 32 := Scalar.xori v2 c1_i32_61
  let c1_i32_69 : BitVec 32 := 1#32
  let v155 : BitVec 32 := Scalar.muli v154 c1_i32_69
  let v156 : BitVec 32 := Scalar.addi c0_i32_70 v155
  v156.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_75 : BitVec 32 := 3#32
  let v165 : BitVec 32 := Scalar.xori v2 c3_i32_75
  let c1_i32_83 : BitVec 32 := 1#32
  let v166 : BitVec 32 := Scalar.muli v165 c1_i32_83
  let v167 : BitVec 32 := Scalar.addi c0_i32_84 v166
  v167.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_89 : BitVec 32 := 4#32
  let v176 : BitVec 32 := Scalar.xori v2 c4_i32_89
  let c1_i32_96 : BitVec 32 := 1#32
  let v177 : BitVec 32 := Scalar.muli v176 c1_i32_96
  let v178 : BitVec 32 := Scalar.addi c0_i32_97 v177
  v178.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_129 : BitVec 32 := 1#32
  let v257 : BitVec 32 := Scalar.xori v2 c1_i32_129
  let c1_i32_137 : BitVec 32 := 1#32
  let v258 : BitVec 32 := Scalar.muli v257 c1_i32_137
  let v259 : BitVec 32 := Scalar.addi c0_i32_138 v258
  v259.toNat
def k0_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_143 : BitVec 32 := 3#32
  let v268 : BitVec 32 := Scalar.xori v2 c3_i32_143
  let c1_i32_151 : BitVec 32 := 1#32
  let v269 : BitVec 32 := Scalar.muli v268 c1_i32_151
  let v270 : BitVec 32 := Scalar.addi c0_i32_152 v269
  v270.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_157 : BitVec 32 := 4#32
  let v279 : BitVec 32 := Scalar.xori v2 c4_i32_157
  let c1_i32_165 : BitVec 32 := 1#32
  let v280 : BitVec 32 := Scalar.muli v279 c1_i32_165
  let v281 : BitVec 32 := Scalar.addi c0_i32_166 v280
  v281.toNat
def k0_dev10 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_285 : BitVec 32 := 3#32
  let v356 : BitVec 32 := Scalar.xori v2 c3_i32_285
  let c1_i32_293 : BitVec 32 := 1#32
  let v357 : BitVec 32 := Scalar.muli v356 c1_i32_293
  let v358 : BitVec 32 := Scalar.addi c0_i32_294 v357
  v358.toNat
def k0_dev11 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_299 : BitVec 32 := 4#32
  let v367 : BitVec 32 := Scalar.xori v2 c4_i32_299
  let c1_i32_307 : BitVec 32 := 1#32
  let v368 : BitVec 32 := Scalar.muli v367 c1_i32_307
  let v369 : BitVec 32 := Scalar.addi c0_i32_308 v368
  v369.toNat
def k0_dev12 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  let v378 : BitVec 32 := Scalar.xori v2 c1_i32_313
  let c1_i32_321 : BitVec 32 := 1#32
  let v379 : BitVec 32 := Scalar.muli v378 c1_i32_321
  let v380 : BitVec 32 := Scalar.addi c0_i32_322 v379
  v380.toNat
def k0_dev13 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_447 : BitVec 32 := 3#32
  let v489 : BitVec 32 := Scalar.xori v2 c3_i32_447
  let c1_i32_455 : BitVec 32 := 1#32
  let v490 : BitVec 32 := Scalar.muli v489 c1_i32_455
  let v491 : BitVec 32 := Scalar.addi c0_i32_456 v490
  v491.toNat
def k0_dev14 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_461 : BitVec 32 := 4#32
  let v500 : BitVec 32 := Scalar.xori v2 c4_i32_461
  let c1_i32_469 : BitVec 32 := 1#32
  let v501 : BitVec 32 := Scalar.muli v500 c1_i32_469
  let v502 : BitVec 32 := Scalar.addi c0_i32_470 v501
  v502.toNat
def k0_dev15 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_475 : BitVec 32 := 1#32
  let v511 : BitVec 32 := Scalar.xori v2 c1_i32_475
  let c1_i32_483 : BitVec 32 := 1#32
  let v512 : BitVec 32 := Scalar.muli v511 c1_i32_483
  let v513 : BitVec 32 := Scalar.addi c0_i32_484 v512
  v513.toNat
def k0_dev16 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_603 : BitVec 32 := 4#32
  let v588 : BitVec 32 := Scalar.xori v2 c4_i32_603
  let c1_i32_611 : BitVec 32 := 1#32
  let v589 : BitVec 32 := Scalar.muli v588 c1_i32_611
  let v590 : BitVec 32 := Scalar.addi c0_i32_612 v589
  v590.toNat
def k0_dev17 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_617 : BitVec 32 := 1#32
  let v599 : BitVec 32 := Scalar.xori v2 c1_i32_617
  let c1_i32_625 : BitVec 32 := 1#32
  let v600 : BitVec 32 := Scalar.muli v599 c1_i32_625
  let v601 : BitVec 32 := Scalar.addi c0_i32_626 v600
  v601.toNat
def k0_dev18 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_631 : BitVec 32 := 3#32
  let v610 : BitVec 32 := Scalar.xori v2 c3_i32_631
  let c1_i32_639 : BitVec 32 := 1#32
  let v611 : BitVec 32 := Scalar.muli v610 c1_i32_639
  let v612 : BitVec 32 := Scalar.addi c0_i32_640 v611
  v612.toNat
def k0_dev19 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_761 : BitVec 32 := 4#32
  let v693 : BitVec 32 := Scalar.xori v2 c4_i32_761
  let c1_i32_768 : BitVec 32 := 1#32
  let v694 : BitVec 32 := Scalar.muli v693 c1_i32_768
  let v695 : BitVec 32 := Scalar.addi c0_i32_769 v694
  v695.toNat
def k0_dev20 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_774 : BitVec 32 := 1#32
  let v704 : BitVec 32 := Scalar.xori v2 c1_i32_774
  let c1_i32_782 : BitVec 32 := 1#32
  let v705 : BitVec 32 := Scalar.muli v704 c1_i32_782
  let v706 : BitVec 32 := Scalar.addi c0_i32_783 v705
  v706.toNat
def k0_dev21 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_788 : BitVec 32 := 3#32
  let v715 : BitVec 32 := Scalar.xori v2 c3_i32_788
  let c1_i32_796 : BitVec 32 := 1#32
  let v716 : BitVec 32 := Scalar.muli v715 c1_i32_796
  let v717 : BitVec 32 := Scalar.addi c0_i32_797 v716
  v717.toNat
def k0_dev22 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_904 : BitVec 32 := 1#32
  let v838 : BitVec 32 := Scalar.xori v2 c1_i32_904
  let c1_i32_911 : BitVec 32 := 1#32
  let v839 : BitVec 32 := Scalar.muli v838 c1_i32_911
  let v840 : BitVec 32 := Scalar.addi c0_i32_912 v839
  v840.toNat
def k0_dev23 (d0 : Dev nD) : Nat :=
  let c0_i32_926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_917 : BitVec 32 := 3#32
  let v849 : BitVec 32 := Scalar.xori v2 c3_i32_917
  let c1_i32_925 : BitVec 32 := 1#32
  let v850 : BitVec 32 := Scalar.muli v849 c1_i32_925
  let v851 : BitVec 32 := Scalar.addi c0_i32_926 v850
  v851.toNat
def k0_dev24 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_931 : BitVec 32 := 4#32
  let v860 : BitVec 32 := Scalar.xori v2 c4_i32_931
  let c1_i32_939 : BitVec 32 := 1#32
  let v861 : BitVec 32 := Scalar.muli v860 c1_i32_939
  let v862 : BitVec 32 := Scalar.addi c0_i32_940 v861
  v862.toNat
def k0_dev25 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1046 : BitVec 32 := 1#32
  let v983 : BitVec 32 := Scalar.xori v2 c1_i32_1046
  let c1_i32_1053 : BitVec 32 := 1#32
  let v984 : BitVec 32 := Scalar.muli v983 c1_i32_1053
  let v985 : BitVec 32 := Scalar.addi c0_i32_1054 v984
  v985.toNat
def k0_dev26 (d0 : Dev nD) : Nat :=
  let c0_i32_1068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1059 : BitVec 32 := 3#32
  let v994 : BitVec 32 := Scalar.xori v2 c3_i32_1059
  let c1_i32_1067 : BitVec 32 := 1#32
  let v995 : BitVec 32 := Scalar.muli v994 c1_i32_1067
  let v996 : BitVec 32 := Scalar.addi c0_i32_1068 v995
  v996.toNat
def k0_dev27 (d0 : Dev nD) : Nat :=
  let c0_i32_1082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1073 : BitVec 32 := 4#32
  let v1005 : BitVec 32 := Scalar.xori v2 c4_i32_1073
  let c1_i32_1081 : BitVec 32 := 1#32
  let v1006 : BitVec 32 := Scalar.muli v1005 c1_i32_1081
  let v1007 : BitVec 32 := Scalar.addi c0_i32_1082 v1006
  v1007.toNat
def k0_dev28 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1201 : BitVec 32 := 3#32
  let v1082 : BitVec 32 := Scalar.xori v2 c3_i32_1201
  let c1_i32_1208 : BitVec 32 := 1#32
  let v1083 : BitVec 32 := Scalar.muli v1082 c1_i32_1208
  let v1084 : BitVec 32 := Scalar.addi c0_i32_1209 v1083
  v1084.toNat
def k0_dev29 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1214 : BitVec 32 := 4#32
  let v1093 : BitVec 32 := Scalar.xori v2 c4_i32_1214
  let c1_i32_1222 : BitVec 32 := 1#32
  let v1094 : BitVec 32 := Scalar.muli v1093 c1_i32_1222
  let v1095 : BitVec 32 := Scalar.addi c0_i32_1223 v1094
  v1095.toNat
def k0_dev30 (d0 : Dev nD) : Nat :=
  let c0_i32_1237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1228 : BitVec 32 := 1#32
  let v1104 : BitVec 32 := Scalar.xori v2 c1_i32_1228
  let c1_i32_1236 : BitVec 32 := 1#32
  let v1105 : BitVec 32 := Scalar.muli v1104 c1_i32_1236
  let v1106 : BitVec 32 := Scalar.addi c0_i32_1237 v1105
  v1106.toNat
def k0_dev31 (d0 : Dev nD) : Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1291 : BitVec 32 := 1#32
  let v1196 : BitVec 32 := Scalar.xori v2 c1_i32_1291
  let c1_i32_1298 : BitVec 32 := 1#32
  let v1197 : BitVec 32 := Scalar.muli v1196 c1_i32_1298
  let v1198 : BitVec 32 := Scalar.addi c0_i32_1299 v1197
  v1198.toNat
def k0_dev32 (d0 : Dev nD) : Nat :=
  let c0_i32_1313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1304 : BitVec 32 := 3#32
  let v1207 : BitVec 32 := Scalar.xori v2 c3_i32_1304
  let c1_i32_1312 : BitVec 32 := 1#32
  let v1208 : BitVec 32 := Scalar.muli v1207 c1_i32_1312
  let v1209 : BitVec 32 := Scalar.addi c0_i32_1313 v1208
  v1209.toNat
def k0_dev33 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1318 : BitVec 32 := 4#32
  let v1218 : BitVec 32 := Scalar.xori v2 c4_i32_1318
  let c1_i32_1326 : BitVec 32 := 1#32
  let v1219 : BitVec 32 := Scalar.muli v1218 c1_i32_1326
  let v1220 : BitVec 32 := Scalar.addi c0_i32_1327 v1219
  v1220.toNat
def k0_dev34 (d0 : Dev nD) : Nat :=
  let c0_i32_1454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1446 : BitVec 32 := 3#32
  let v1295 : BitVec 32 := Scalar.xori v2 c3_i32_1446
  let c1_i32_1453 : BitVec 32 := 1#32
  let v1296 : BitVec 32 := Scalar.muli v1295 c1_i32_1453
  let v1297 : BitVec 32 := Scalar.addi c0_i32_1454 v1296
  v1297.toNat
def k0_dev35 (d0 : Dev nD) : Nat :=
  let c0_i32_1468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1459 : BitVec 32 := 4#32
  let v1306 : BitVec 32 := Scalar.xori v2 c4_i32_1459
  let c1_i32_1467 : BitVec 32 := 1#32
  let v1307 : BitVec 32 := Scalar.muli v1306 c1_i32_1467
  let v1308 : BitVec 32 := Scalar.addi c0_i32_1468 v1307
  v1308.toNat
def k0_dev36 (d0 : Dev nD) : Nat :=
  let c0_i32_1482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1473 : BitVec 32 := 1#32
  let v1317 : BitVec 32 := Scalar.xori v2 c1_i32_1473
  let c1_i32_1481 : BitVec 32 := 1#32
  let v1318 : BitVec 32 := Scalar.muli v1317 c1_i32_1481
  let v1319 : BitVec 32 := Scalar.addi c0_i32_1482 v1318
  v1319.toNat
def k0_dev37 (d0 : Dev nD) : Nat :=
  let c0_i32_1610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1601 : BitVec 32 := 4#32
  let v1394 : BitVec 32 := Scalar.xori v2 c4_i32_1601
  let c1_i32_1609 : BitVec 32 := 1#32
  let v1395 : BitVec 32 := Scalar.muli v1394 c1_i32_1609
  let v1396 : BitVec 32 := Scalar.addi c0_i32_1610 v1395
  v1396.toNat
def k0_dev38 (d0 : Dev nD) : Nat :=
  let c0_i32_1624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1615 : BitVec 32 := 1#32
  let v1405 : BitVec 32 := Scalar.xori v2 c1_i32_1615
  let c1_i32_1623 : BitVec 32 := 1#32
  let v1406 : BitVec 32 := Scalar.muli v1405 c1_i32_1623
  let v1407 : BitVec 32 := Scalar.addi c0_i32_1624 v1406
  v1407.toNat
def k0_dev39 (d0 : Dev nD) : Nat :=
  let c0_i32_1638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1629 : BitVec 32 := 3#32
  let v1416 : BitVec 32 := Scalar.xori v2 c3_i32_1629
  let c1_i32_1637 : BitVec 32 := 1#32
  let v1417 : BitVec 32 := Scalar.muli v1416 c1_i32_1637
  let v1418 : BitVec 32 := Scalar.addi c0_i32_1638 v1417
  v1418.toNat
def k0_dev40 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1692 : BitVec 32 := 1#32
  let v1508 : BitVec 32 := Scalar.xori v2 c1_i32_1692
  let c1_i32_1699 : BitVec 32 := 1#32
  let v1509 : BitVec 32 := Scalar.muli v1508 c1_i32_1699
  let v1510 : BitVec 32 := Scalar.addi c0_i32_1700 v1509
  v1510.toNat
def k0_dev41 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1705 : BitVec 32 := 3#32
  let v1519 : BitVec 32 := Scalar.xori v2 c3_i32_1705
  let c1_i32_1713 : BitVec 32 := 1#32
  let v1520 : BitVec 32 := Scalar.muli v1519 c1_i32_1713
  let v1521 : BitVec 32 := Scalar.addi c0_i32_1714 v1520
  v1521.toNat
def k0_dev42 (d0 : Dev nD) : Nat :=
  let c0_i32_1728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1719 : BitVec 32 := 4#32
  let v1530 : BitVec 32 := Scalar.xori v2 c4_i32_1719
  let c1_i32_1727 : BitVec 32 := 1#32
  let v1531 : BitVec 32 := Scalar.muli v1530 c1_i32_1727
  let v1532 : BitVec 32 := Scalar.addi c0_i32_1728 v1531
  v1532.toNat
def k0_dev43 (d0 : Dev nD) : Nat :=
  let c0_i32_1854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1846 : BitVec 32 := 3#32
  let v1607 : BitVec 32 := Scalar.xori v2 c3_i32_1846
  let c1_i32_1853 : BitVec 32 := 1#32
  let v1608 : BitVec 32 := Scalar.muli v1607 c1_i32_1853
  let v1609 : BitVec 32 := Scalar.addi c0_i32_1854 v1608
  v1609.toNat
def k0_dev44 (d0 : Dev nD) : Nat :=
  let c0_i32_1868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1859 : BitVec 32 := 4#32
  let v1618 : BitVec 32 := Scalar.xori v2 c4_i32_1859
  let c1_i32_1867 : BitVec 32 := 1#32
  let v1619 : BitVec 32 := Scalar.muli v1618 c1_i32_1867
  let v1620 : BitVec 32 := Scalar.addi c0_i32_1868 v1619
  v1620.toNat
def k0_dev45 (d0 : Dev nD) : Nat :=
  let c0_i32_1882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1873 : BitVec 32 := 1#32
  let v1629 : BitVec 32 := Scalar.xori v2 c1_i32_1873
  let c1_i32_1881 : BitVec 32 := 1#32
  let v1630 : BitVec 32 := Scalar.muli v1629 c1_i32_1881
  let v1631 : BitVec 32 := Scalar.addi c0_i32_1882 v1630
  v1631.toNat
def k0_dev46 (d0 : Dev nD) : Nat :=
  let c0_i32_2009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2001 : BitVec 32 := 4#32
  let v1706 : BitVec 32 := Scalar.xori v2 c4_i32_2001
  let c1_i32_2008 : BitVec 32 := 1#32
  let v1707 : BitVec 32 := Scalar.muli v1706 c1_i32_2008
  let v1708 : BitVec 32 := Scalar.addi c0_i32_2009 v1707
  v1708.toNat
def k0_dev47 (d0 : Dev nD) : Nat :=
  let c0_i32_2023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2014 : BitVec 32 := 1#32
  let v1717 : BitVec 32 := Scalar.xori v2 c1_i32_2014
  let c1_i32_2022 : BitVec 32 := 1#32
  let v1718 : BitVec 32 := Scalar.muli v1717 c1_i32_2022
  let v1719 : BitVec 32 := Scalar.addi c0_i32_2023 v1718
  v1719.toNat
def k0_dev48 (d0 : Dev nD) : Nat :=
  let c0_i32_2037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2028 : BitVec 32 := 3#32
  let v1728 : BitVec 32 := Scalar.xori v2 c3_i32_2028
  let c1_i32_2036 : BitVec 32 := 1#32
  let v1729 : BitVec 32 := Scalar.muli v1728 c1_i32_2036
  let v1730 : BitVec 32 := Scalar.addi c0_i32_2037 v1729
  v1730.toNat
def k0_dev49 (d0 : Dev nD) : Nat :=
  let c0_i32_2174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2166 : BitVec 32 := 1#32
  let v1862 : BitVec 32 := Scalar.xori v2 c1_i32_2166
  let c1_i32_2173 : BitVec 32 := 1#32
  let v1863 : BitVec 32 := Scalar.muli v1862 c1_i32_2173
  let v1864 : BitVec 32 := Scalar.addi c0_i32_2174 v1863
  v1864.toNat
def k0_dev50 (d0 : Dev nD) : Nat :=
  let c0_i32_2188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2179 : BitVec 32 := 3#32
  let v1873 : BitVec 32 := Scalar.xori v2 c3_i32_2179
  let c1_i32_2187 : BitVec 32 := 1#32
  let v1874 : BitVec 32 := Scalar.muli v1873 c1_i32_2187
  let v1875 : BitVec 32 := Scalar.addi c0_i32_2188 v1874
  v1875.toNat
def k0_dev51 (d0 : Dev nD) : Nat :=
  let c0_i32_2202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2193 : BitVec 32 := 4#32
  let v1884 : BitVec 32 := Scalar.xori v2 c4_i32_2193
  let c1_i32_2201 : BitVec 32 := 1#32
  let v1885 : BitVec 32 := Scalar.muli v1884 c1_i32_2201
  let v1886 : BitVec 32 := Scalar.addi c0_i32_2202 v1885
  v1886.toNat
def k0_dev52 (d0 : Dev nD) : Nat :=
  let c0_i32_2328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2320 : BitVec 32 := 3#32
  let v1961 : BitVec 32 := Scalar.xori v2 c3_i32_2320
  let c1_i32_2327 : BitVec 32 := 1#32
  let v1962 : BitVec 32 := Scalar.muli v1961 c1_i32_2327
  let v1963 : BitVec 32 := Scalar.addi c0_i32_2328 v1962
  v1963.toNat
def k0_dev53 (d0 : Dev nD) : Nat :=
  let c0_i32_2342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2333 : BitVec 32 := 4#32
  let v1972 : BitVec 32 := Scalar.xori v2 c4_i32_2333
  let c1_i32_2341 : BitVec 32 := 1#32
  let v1973 : BitVec 32 := Scalar.muli v1972 c1_i32_2341
  let v1974 : BitVec 32 := Scalar.addi c0_i32_2342 v1973
  v1974.toNat
def k0_dev54 (d0 : Dev nD) : Nat :=
  let c0_i32_2356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2347 : BitVec 32 := 1#32
  let v1983 : BitVec 32 := Scalar.xori v2 c1_i32_2347
  let c1_i32_2355 : BitVec 32 := 1#32
  let v1984 : BitVec 32 := Scalar.muli v1983 c1_i32_2355
  let v1985 : BitVec 32 := Scalar.addi c0_i32_2356 v1984
  v1985.toNat
def k0_dev55 (d0 : Dev nD) : Nat :=
  let c0_i32_2483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2475 : BitVec 32 := 4#32
  let v2060 : BitVec 32 := Scalar.xori v2 c4_i32_2475
  let c1_i32_2482 : BitVec 32 := 1#32
  let v2061 : BitVec 32 := Scalar.muli v2060 c1_i32_2482
  let v2062 : BitVec 32 := Scalar.addi c0_i32_2483 v2061
  v2062.toNat
def k0_dev56 (d0 : Dev nD) : Nat :=
  let c0_i32_2497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2488 : BitVec 32 := 1#32
  let v2071 : BitVec 32 := Scalar.xori v2 c1_i32_2488
  let c1_i32_2496 : BitVec 32 := 1#32
  let v2072 : BitVec 32 := Scalar.muli v2071 c1_i32_2496
  let v2073 : BitVec 32 := Scalar.addi c0_i32_2497 v2072
  v2073.toNat
def k0_dev57 (d0 : Dev nD) : Nat :=
  let c0_i32_2511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2502 : BitVec 32 := 3#32
  let v2082 : BitVec 32 := Scalar.xori v2 c3_i32_2502
  let c1_i32_2510 : BitVec 32 := 1#32
  let v2083 : BitVec 32 := Scalar.muli v2082 c1_i32_2510
  let v2084 : BitVec 32 := Scalar.addi c0_i32_2511 v2083
  v2084.toNat
def k0_dev58 (d0 : Dev nD) : Nat :=
  let c0_i32_2648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2640 : BitVec 32 := 1#32
  let v2216 : BitVec 32 := Scalar.xori v2 c1_i32_2640
  let c1_i32_2647 : BitVec 32 := 1#32
  let v2217 : BitVec 32 := Scalar.muli v2216 c1_i32_2647
  let v2218 : BitVec 32 := Scalar.addi c0_i32_2648 v2217
  v2218.toNat
def k0_dev59 (d0 : Dev nD) : Nat :=
  let c0_i32_2662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2653 : BitVec 32 := 3#32
  let v2227 : BitVec 32 := Scalar.xori v2 c3_i32_2653
  let c1_i32_2661 : BitVec 32 := 1#32
  let v2228 : BitVec 32 := Scalar.muli v2227 c1_i32_2661
  let v2229 : BitVec 32 := Scalar.addi c0_i32_2662 v2228
  v2229.toNat
def k0_dev60 (d0 : Dev nD) : Nat :=
  let c0_i32_2676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2667 : BitVec 32 := 4#32
  let v2238 : BitVec 32 := Scalar.xori v2 c4_i32_2667
  let c1_i32_2675 : BitVec 32 := 1#32
  let v2239 : BitVec 32 := Scalar.muli v2238 c1_i32_2675
  let v2240 : BitVec 32 := Scalar.addi c0_i32_2676 v2239
  v2240.toNat
def k0_dev61 (d0 : Dev nD) : Nat :=
  let c0_i32_2802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2794 : BitVec 32 := 3#32
  let v2315 : BitVec 32 := Scalar.xori v2 c3_i32_2794
  let c1_i32_2801 : BitVec 32 := 1#32
  let v2316 : BitVec 32 := Scalar.muli v2315 c1_i32_2801
  let v2317 : BitVec 32 := Scalar.addi c0_i32_2802 v2316
  v2317.toNat
def k0_dev62 (d0 : Dev nD) : Nat :=
  let c0_i32_2816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2807 : BitVec 32 := 4#32
  let v2326 : BitVec 32 := Scalar.xori v2 c4_i32_2807
  let c1_i32_2815 : BitVec 32 := 1#32
  let v2327 : BitVec 32 := Scalar.muli v2326 c1_i32_2815
  let v2328 : BitVec 32 := Scalar.addi c0_i32_2816 v2327
  v2328.toNat
def k0_dev63 (d0 : Dev nD) : Nat :=
  let c0_i32_2830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2821 : BitVec 32 := 1#32
  let v2337 : BitVec 32 := Scalar.xori v2 c1_i32_2821
  let c1_i32_2829 : BitVec 32 := 1#32
  let v2338 : BitVec 32 := Scalar.muli v2337 c1_i32_2829
  let v2339 : BitVec 32 := Scalar.addi c0_i32_2830 v2338
  v2339.toNat
def k0_dev64 (d0 : Dev nD) : Nat :=
  let c0_i32_2957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2949 : BitVec 32 := 4#32
  let v2414 : BitVec 32 := Scalar.xori v2 c4_i32_2949
  let c1_i32_2956 : BitVec 32 := 1#32
  let v2415 : BitVec 32 := Scalar.muli v2414 c1_i32_2956
  let v2416 : BitVec 32 := Scalar.addi c0_i32_2957 v2415
  v2416.toNat
def k0_dev65 (d0 : Dev nD) : Nat :=
  let c0_i32_2971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2962 : BitVec 32 := 1#32
  let v2425 : BitVec 32 := Scalar.xori v2 c1_i32_2962
  let c1_i32_2970 : BitVec 32 := 1#32
  let v2426 : BitVec 32 := Scalar.muli v2425 c1_i32_2970
  let v2427 : BitVec 32 := Scalar.addi c0_i32_2971 v2426
  v2427.toNat
def k0_dev66 (d0 : Dev nD) : Nat :=
  let c0_i32_2985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2976 : BitVec 32 := 3#32
  let v2436 : BitVec 32 := Scalar.xori v2 c3_i32_2976
  let c1_i32_2984 : BitVec 32 := 1#32
  let v2437 : BitVec 32 := Scalar.muli v2436 c1_i32_2984
  let v2438 : BitVec 32 := Scalar.addi c0_i32_2985 v2437
  v2438.toNat
def k0_dev67 (d0 : Dev nD) : Nat :=
  let c0_i32_3216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3208 : BitVec 32 := 3#32
  let v2582 : BitVec 32 := Scalar.xori v2 c3_i32_3208
  let c1_i32_3215 : BitVec 32 := 1#32
  let v2583 : BitVec 32 := Scalar.muli v2582 c1_i32_3215
  let v2584 : BitVec 32 := Scalar.addi c0_i32_3216 v2583
  v2584.toNat
def k0_dev68 (d0 : Dev nD) : Nat :=
  let c0_i32_3230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3221 : BitVec 32 := 4#32
  let v2593 : BitVec 32 := Scalar.xori v2 c4_i32_3221
  let c1_i32_3229 : BitVec 32 := 1#32
  let v2594 : BitVec 32 := Scalar.muli v2593 c1_i32_3229
  let v2595 : BitVec 32 := Scalar.addi c0_i32_3230 v2594
  v2595.toNat
def k0_dev69 (d0 : Dev nD) : Nat :=
  let c0_i32_3244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3235 : BitVec 32 := 1#32
  let v2604 : BitVec 32 := Scalar.xori v2 c1_i32_3235
  let c1_i32_3243 : BitVec 32 := 1#32
  let v2605 : BitVec 32 := Scalar.muli v2604 c1_i32_3243
  let v2606 : BitVec 32 := Scalar.addi c0_i32_3244 v2605
  v2606.toNat
def k0_dev70 (d0 : Dev nD) : Nat :=
  let c0_i32_3371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3363 : BitVec 32 := 4#32
  let v2681 : BitVec 32 := Scalar.xori v2 c4_i32_3363
  let c1_i32_3370 : BitVec 32 := 1#32
  let v2682 : BitVec 32 := Scalar.muli v2681 c1_i32_3370
  let v2683 : BitVec 32 := Scalar.addi c0_i32_3371 v2682
  v2683.toNat
def k0_dev71 (d0 : Dev nD) : Nat :=
  let c0_i32_3385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3376 : BitVec 32 := 1#32
  let v2692 : BitVec 32 := Scalar.xori v2 c1_i32_3376
  let c1_i32_3384 : BitVec 32 := 1#32
  let v2693 : BitVec 32 := Scalar.muli v2692 c1_i32_3384
  let v2694 : BitVec 32 := Scalar.addi c0_i32_3385 v2693
  v2694.toNat
def k0_dev72 (d0 : Dev nD) : Nat :=
  let c0_i32_3399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3390 : BitVec 32 := 3#32
  let v2703 : BitVec 32 := Scalar.xori v2 c3_i32_3390
  let c1_i32_3398 : BitVec 32 := 1#32
  let v2704 : BitVec 32 := Scalar.muli v2703 c1_i32_3398
  let v2705 : BitVec 32 := Scalar.addi c0_i32_3399 v2704
  v2705.toNat
def k0_dev73 (d0 : Dev nD) : Nat :=
  let c0_i32_3630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3622 : BitVec 32 := 4#32
  let v2849 : BitVec 32 := Scalar.xori v2 c4_i32_3622
  let c1_i32_3629 : BitVec 32 := 1#32
  let v2850 : BitVec 32 := Scalar.muli v2849 c1_i32_3629
  let v2851 : BitVec 32 := Scalar.addi c0_i32_3630 v2850
  v2851.toNat
def k0_dev74 (d0 : Dev nD) : Nat :=
  let c0_i32_3644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3635 : BitVec 32 := 1#32
  let v2860 : BitVec 32 := Scalar.xori v2 c1_i32_3635
  let c1_i32_3643 : BitVec 32 := 1#32
  let v2861 : BitVec 32 := Scalar.muli v2860 c1_i32_3643
  let v2862 : BitVec 32 := Scalar.addi c0_i32_3644 v2861
  v2862.toNat
def k0_dev75 (d0 : Dev nD) : Nat :=
  let c0_i32_3658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3649 : BitVec 32 := 3#32
  let v2871 : BitVec 32 := Scalar.xori v2 c3_i32_3649
  let c1_i32_3657 : BitVec 32 := 1#32
  let v2872 : BitVec 32 := Scalar.muli v2871 c1_i32_3657
  let v2873 : BitVec 32 := Scalar.addi c0_i32_3658 v2872
  v2873.toNat
def k0_dev76 (d0 : Dev nD) : Nat :=
  let c0_i32_3876_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3873_r0 : BitVec 32 := 1#32
  let v3021_r0 : BitVec 32 := Scalar.xori v2 c1_i32_3873_r0
  let c1_i32_3875_r0 : BitVec 32 := 1#32
  let v3022_r0 : BitVec 32 := Scalar.muli v3021_r0 c1_i32_3875_r0
  let v3023_r0 : BitVec 32 := Scalar.addi c0_i32_3876_r0 v3022_r0
  v3023_r0.toNat
def k0_dev77 (d0 : Dev nD) : Nat :=
  let c0_i32_3880_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3877_r0 : BitVec 32 := 3#32
  let v3024_r0 : BitVec 32 := Scalar.xori v2 c3_i32_3877_r0
  let c1_i32_3879_r0 : BitVec 32 := 1#32
  let v3025_r0 : BitVec 32 := Scalar.muli v3024_r0 c1_i32_3879_r0
  let v3026_r0 : BitVec 32 := Scalar.addi c0_i32_3880_r0 v3025_r0
  v3026_r0.toNat
def k0_dev78 (d0 : Dev nD) : Nat :=
  let c0_i32_3884_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3881_r0 : BitVec 32 := 4#32
  let v3027_r0 : BitVec 32 := Scalar.xori v2 c4_i32_3881_r0
  let c1_i32_3883_r0 : BitVec 32 := 1#32
  let v3028_r0 : BitVec 32 := Scalar.muli v3027_r0 c1_i32_3883_r0
  let v3029_r0 : BitVec 32 := Scalar.addi c0_i32_3884_r0 v3028_r0
  v3029_r0.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

class Facts₀ : Prop where
  hamt_1 : (1#32 : BitVec 32).msb = false
  hamt_3 : (3#32 : BitVec 32).msb = false
  inb_S2x512x768_S2x512x768_0_0_0 : ∀ a, (![0, 0, 0] : Fin 3 → Nat) a + S2x512x768.size a ≤ S2x512x768.size a
  h_S2x512x768 : 0 < S2x512x768.numel
  shapeCasts_S2x512x768_S2x512x768 : S2x512x768.ShapeCasts S2x512x768
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x4608_S128x4608_0_0 : ∀ a, (![0, 0] : Fin 2 → Nat) a + S128x4608.size a ≤ S128x4608.size a
  h_S128x4608 : 0 < S128x4608.numel
  shapeCasts_S128x4608_S128x4608 : S128x4608.ShapeCasts S128x4608
  slices_S2x4608_o0_0_S2x768 : S2x4608.Slices ![0, 0] S2x768
  slices_S2x4608_o0_768_S2x768 : S2x4608.Slices ![0, 768] S2x768
  slices_S2x4608_o0_1536_S2x768 : S2x4608.Slices ![0, 1536] S2x768
  slices_S2x4608_o0_2304_S2x768 : S2x4608.Slices ![0, 2304] S2x768
  slices_S2x4608_o0_3072_S2x768 : S2x4608.Slices ![0, 3072] S2x768
  slices_S2x4608_o0_3840_S2x768 : S2x4608.Slices ![0, 3840] S2x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  bitsLt_bf16_f32 : FTy.bits .bf16 < FTy.bits .f32
  inb_S384x768_S384x768_0_0 : ∀ a, (![0, 0] : Fin 2 → Nat) a + S384x768.size a ≤ S384x768.size a
  h_S384x768 : 0 < S384x768.numel
  shapeCasts_S384x768_S384x768 : S384x768.ShapeCasts S384x768
  slices_S2x512x768_o0_0_0_S1x512x768 : S2x512x768.Slices ![0, 0, 0] S1x512x768
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  slices_S2x768_o0_0_S1x768 : S2x768.Slices ![0, 0] S1x768
  shapeCasts_S1x768_S768 : S1x768.ShapeCasts S768
  shapeCasts_S768_S1x768 : S768.ShapeCasts S1x768
  broadcasts_S1x768_S512x768 : S1x768.Broadcasts S512x768
  slices_S512x768_o0_0_S256x768 : S512x768.Slices ![0, 0] S256x768
  slices_S256x384_o0_0_S256x96 : S256x384.Slices ![0, 0] S256x96
  slices_S512x384_o0_0_S512x96 : S512x384.Slices ![0, 0] S512x96
  transposes_S512x96_p1_0_S96x512 : S512x96.Transposes [1, 0] S96x512
  reduces_S256x512_S256 : S256x512.Reduces [1] S256
  shapeCasts_S256_S256x1 : S256.ShapeCasts S256x1
  broadcasts_S256x1_S256x96 : S256x1.Broadcasts S256x96
  slices_S256x384_o0_96_S256x96 : S256x384.Slices ![0, 96] S256x96
  slices_S512x384_o0_96_S512x96 : S512x384.Slices ![0, 96] S512x96
  slices_S256x384_o0_192_S256x96 : S256x384.Slices ![0, 192] S256x96
  slices_S512x384_o0_192_S512x96 : S512x384.Slices ![0, 192] S512x96
  slices_S256x384_o0_288_S256x96 : S256x384.Slices ![0, 288] S256x96
  slices_S512x384_o0_288_S512x96 : S512x384.Slices ![0, 288] S512x96
  concatenates_S256x96_S256x96_S256x96_S256x96_S256x384_d1 : Shape.Concatenates [S256x96, S256x96, S256x96, S256x96] S256x384 1
  slices_S256x768_o0_0_S256x256 : S256x768.Slices ![0, 0] S256x256
  inb_S4x3x256x256_S1x1x256x256_0_0_0_0 : ∀ a, (![0, 0, 0, 0] : Fin 4 → Nat) a + S1x1x256x256.size a ≤ S4x3x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  packedbf16_S4x3x256x256_S1x1x256x256_0_0_0_0 : (Rect.unit (s := S4x3x256x256) ![0, 0, 0, 0] S1x1x256x256.size inb_S4x3x256x256_S1x1x256x256_0_0_0_0).PackedRows (EltTy.packing .bf16)
  slices_S256x768_o0_256_S256x256 : S256x768.Slices ![0, 256] S256x256
  inb_S4x3x256x256_S1x1x256x256_0_1_0_0 : ∀ a, (![0, 1, 0, 0] : Fin 4 → Nat) a + S1x1x256x256.size a ≤ S4x3x256x256.size a
  packedbf16_S4x3x256x256_S1x1x256x256_0_1_0_0 : (Rect.unit (s := S4x3x256x256) ![0, 1, 0, 0] S1x1x256x256.size inb_S4x3x256x256_S1x1x256x256_0_1_0_0).PackedRows (EltTy.packing .bf16)
  slices_S256x768_o0_512_S256x256 : S256x768.Slices ![0, 512] S256x256
  inb_S4x3x256x256_S1x1x256x256_0_2_0_0 : ∀ a, (![0, 2, 0, 0] : Fin 4 → Nat) a + S1x1x256x256.size a ≤ S4x3x256x256.size a
  packedbf16_S4x3x256x256_S1x1x256x256_0_2_0_0 : (Rect.unit (s := S4x3x256x256) ![0, 2, 0, 0] S1x1x256x256.size inb_S4x3x256x256_S1x1x256x256_0_2_0_0).PackedRows (EltTy.packing .bf16)
  inb_S24_S1_0 : ∀ a, (![0] : Fin 1 → Nat) a + S1.size a ≤ S24.size a
  squeezes_S1_S_ : S1.Squeezes S_
  inb_S8x3x3x256x256_S1x1x1x256x256_0_0_0_0_0 : ∀ a, (![0, 0, 0, 0, 0] : Fin 5 → Nat) a + S1x1x1x256x256.size a ≤ S8x3x3x256x256.size a
  squeezes_S1x1x1x256x256_S256x256 : S1x1x1x256x256.Squeezes S256x256
  squeezes_S1x1x256x256_S256x256 : S1x1x256x256.Squeezes S256x256
  wordsbf16_S4x3x256x256_S1x1x256x256_0_0_0_0 : (Rect.unit (s := S4x3x256x256) ![0, 0, 0, 0] S1x1x256x256.size inb_S4x3x256x256_S1x1x256x256_0_0_0_0).WholeWords (EltTy.packing .bf16)
  wordsbf16_S8x3x3x256x256_S1x1x1x256x256_0_0_0_0_0 : (Rect.unit (s := S8x3x3x256x256) ![0, 0, 0, 0, 0] S1x1x1x256x256.size inb_S8x3x3x256x256_S1x1x1x256x256_0_0_0_0_0).WholeWords (EltTy.packing .bf16)
  inb_S8x3x3x256x256_S1x1x1x256x256_0_1_0_0_0 : ∀ a, (![0, 1, 0, 0, 0] : Fin 5 → Nat) a + S1x1x1x256x256.size a ≤ S8x3x3x256x256.size a
  wordsbf16_S4x3x256x256_S1x1x256x256_0_1_0_0 : (Rect.unit (s := S4x3x256x256) ![0, 1, 0, 0] S1x1x256x256.size inb_S4x3x256x256_S1x1x256x256_0_1_0_0).WholeWords (EltTy.packing .bf16)
  wordsbf16_S8x3x3x256x256_S1x1x1x256x256_0_1_0_0_0 : (Rect.unit (s := S8x3x3x256x256) ![0, 1, 0, 0, 0] S1x1x1x256x256.size inb_S8x3x3x256x256_S1x1x1x256x256_0_1_0_0_0).WholeWords (EltTy.packing .bf16)
  inb_S8x3x3x256x256_S1x1x1x256x256_0_2_0_0_0 : ∀ a, (![0, 2, 0, 0, 0] : Fin 5 → Nat) a + S1x1x1x256x256.size a ≤ S8x3x3x256x256.size a
  wordsbf16_S4x3x256x256_S1x1x256x256_0_2_0_0 : (Rect.unit (s := S4x3x256x256) ![0, 2, 0, 0] S1x1x256x256.size inb_S4x3x256x256_S1x1x256x256_0_2_0_0).WholeWords (EltTy.packing .bf16)
  wordsbf16_S8x3x3x256x256_S1x1x1x256x256_0_2_0_0_0 : (Rect.unit (s := S8x3x3x256x256) ![0, 2, 0, 0, 0] S1x1x1x256x256.size inb_S8x3x3x256x256_S1x1x1x256x256_0_2_0_0_0).WholeWords (EltTy.packing .bf16)
  slices_S512x768_o256_0_S256x768 : S512x768.Slices ![256, 0] S256x768
  inb_S4x3x256x256_S1x1x256x256_1_0_0_0 : ∀ a, (![1, 0, 0, 0] : Fin 4 → Nat) a + S1x1x256x256.size a ≤ S4x3x256x256.size a
  packedbf16_S4x3x256x256_S1x1x256x256_1_0_0_0 : (Rect.unit (s := S4x3x256x256) ![1, 0, 0, 0] S1x1x256x256.size inb_S4x3x256x256_S1x1x256x256_1_0_0_0).PackedRows (EltTy.packing .bf16)
  inb_S4x3x256x256_S1x1x256x256_1_1_0_0 : ∀ a, (![1, 1, 0, 0] : Fin 4 → Nat) a + S1x1x256x256.size a ≤ S4x3x256x256.size a
  packedbf16_S4x3x256x256_S1x1x256x256_1_1_0_0 : (Rect.unit (s := S4x3x256x256) ![1, 1, 0, 0] S1x1x256x256.size inb_S4x3x256x256_S1x1x256x256_1_1_0_0).PackedRows (EltTy.packing .bf16)
  inb_S4x3x256x256_S1x1x256x256_1_2_0_0 : ∀ a, (![1, 2, 0, 0] : Fin 4 → Nat) a + S1x1x256x256.size a ≤ S4x3x256x256.size a
  packedbf16_S4x3x256x256_S1x1x256x256_1_2_0_0 : (Rect.unit (s := S4x3x256x256) ![1, 2, 0, 0] S1x1x256x256.size inb_S4x3x256x256_S1x1x256x256_1_2_0_0).PackedRows (EltTy.packing .bf16)
  inb_S24_S1_3 : ∀ a, (![3] : Fin 1 → Nat) a + S1.size a ≤ S24.size a
  inb_S8x3x3x256x256_S1x1x1x256x256_1_0_0_0_0 : ∀ a, (![1, 0, 0, 0, 0] : Fin 5 → Nat) a + S1x1x1x256x256.size a ≤ S8x3x3x256x256.size a
  wordsbf16_S4x3x256x256_S1x1x256x256_1_0_0_0 : (Rect.unit (s := S4x3x256x256) ![1, 0, 0, 0] S1x1x256x256.size inb_S4x3x256x256_S1x1x256x256_1_0_0_0).WholeWords (EltTy.packing .bf16)
  wordsbf16_S8x3x3x256x256_S1x1x1x256x256_1_0_0_0_0 : (Rect.unit (s := S8x3x3x256x256) ![1, 0, 0, 0, 0] S1x1x1x256x256.size inb_S8x3x3x256x256_S1x1x1x256x256_1_0_0_0_0).WholeWords (EltTy.packing .bf16)
  inb_S8x3x3x256x256_S1x1x1x256x256_1_1_0_0_0 : ∀ a, (![1, 1, 0, 0, 0] : Fin 5 → Nat) a + S1x1x1x256x256.size a ≤ S8x3x3x256x256.size a
  wordsbf16_S4x3x256x256_S1x1x256x256_1_1_0_0 : (Rect.unit (s := S4x3x256x256) ![1, 1, 0, 0] S1x1x256x256.size inb_S4x3x256x256_S1x1x256x256_1_1_0_0).WholeWords (EltTy.packing .bf16)
  wordsbf16_S8x3x3x256x256_S1x1x1x256x256_1_1_0_0_0 : (Rect.unit (s := S8x3x3x256x256) ![1, 1, 0, 0, 0] S1x1x1x256x256.size inb_S8x3x3x256x256_S1x1x1x256x256_1_1_0_0_0).WholeWords (EltTy.packing .bf16)
  inb_S8x3x3x256x256_S1x1x1x256x256_1_2_0_0_0 : ∀ a, (![1, 2, 0, 0, 0] : Fin 5 → Nat) a + S1x1x1x256x256.size a ≤ S8x3x3x256x256.size a
  wordsbf16_S4x3x256x256_S1x1x256x256_1_2_0_0 : (Rect.unit (s := S4x3x256x256) ![1, 2, 0, 0] S1x1x256x256.size inb_S4x3x256x256_S1x1x256x256_1_2_0_0).WholeWords (EltTy.packing .bf16)
  wordsbf16_S8x3x3x256x256_S1x1x1x256x256_1_2_0_0_0 : (Rect.unit (s := S8x3x3x256x256) ![1, 2, 0, 0, 0] S1x1x1x256x256.size inb_S8x3x3x256x256_S1x1x1x256x256_1_2_0_0_0).WholeWords (EltTy.packing .bf16)
  h_S1x1x1x256x256 : 0 < S1x1x1x256x256.numel
  shapeCasts_S1x1x1x256x256_S256x256 : S1x1x1x256x256.ShapeCasts S256x256
  inb_S24_S1_1 : ∀ a, (![1] : Fin 1 → Nat) a + S1.size a ≤ S24.size a
  inb_S8x3x3x256x256_S1x1x1x256x256_0_0_1_0_0 : ∀ a, (![0, 0, 1, 0, 0] : Fin 5 → Nat) a + S1x1x1x256x256.size a ≤ S8x3x3x256x256.size a
  wordsbf16_S8x3x3x256x256_S1x1x1x256x256_0_0_1_0_0 : (Rect.unit (s := S8x3x3x256x256) ![0, 0, 1, 0, 0] S1x1x1x256x256.size inb_S8x3x3x256x256_S1x1x1x256x256_0_0_1_0_0).WholeWords (EltTy.packing .bf16)
  inb_S8x3x3x256x256_S1x1x1x256x256_0_1_1_0_0 : ∀ a, (![0, 1, 1, 0, 0] : Fin 5 → Nat) a + S1x1x1x256x256.size a ≤ S8x3x3x256x256.size a
  wordsbf16_S8x3x3x256x256_S1x1x1x256x256_0_1_1_0_0 : (Rect.unit (s := S8x3x3x256x256) ![0, 1, 1, 0, 0] S1x1x1x256x256.size inb_S8x3x3x256x256_S1x1x1x256x256_0_1_1_0_0).WholeWords (EltTy.packing .bf16)
  inb_S8x3x3x256x256_S1x1x1x256x256_0_2_1_0_0 : ∀ a, (![0, 2, 1, 0, 0] : Fin 5 → Nat) a + S1x1x1x256x256.size a ≤ S8x3x3x256x256.size a
  wordsbf16_S8x3x3x256x256_S1x1x1x256x256_0_2_1_0_0 : (Rect.unit (s := S8x3x3x256x256) ![0, 2, 1, 0, 0] S1x1x1x256x256.size inb_S8x3x3x256x256_S1x1x1x256x256_0_2_1_0_0).WholeWords (EltTy.packing .bf16)
  slices_S2x512x768_o1_0_0_S1x512x768 : S2x512x768.Slices ![1, 0, 0] S1x512x768
  slices_S2x768_o1_0_S1x768 : S2x768.Slices ![1, 0] S1x768
  inb_S24_S1_4 : ∀ a, (![4] : Fin 1 → Nat) a + S1.size a ≤ S24.size a
  inb_S8x3x3x256x256_S1x1x1x256x256_1_0_1_0_0 : ∀ a, (![1, 0, 1, 0, 0] : Fin 5 → Nat) a + S1x1x1x256x256.size a ≤ S8x3x3x256x256.size a
  wordsbf16_S8x3x3x256x256_S1x1x1x256x256_1_0_1_0_0 : (Rect.unit (s := S8x3x3x256x256) ![1, 0, 1, 0, 0] S1x1x1x256x256.size inb_S8x3x3x256x256_S1x1x1x256x256_1_0_1_0_0).WholeWords (EltTy.packing .bf16)
  inb_S8x3x3x256x256_S1x1x1x256x256_1_1_1_0_0 : ∀ a, (![1, 1, 1, 0, 0] : Fin 5 → Nat) a + S1x1x1x256x256.size a ≤ S8x3x3x256x256.size a
  wordsbf16_S8x3x3x256x256_S1x1x1x256x256_1_1_1_0_0 : (Rect.unit (s := S8x3x3x256x256) ![1, 1, 1, 0, 0] S1x1x1x256x256.size inb_S8x3x3x256x256_S1x1x1x256x256_1_1_1_0_0).WholeWords (EltTy.packing .bf16)
  inb_S8x3x3x256x256_S1x1x1x256x256_1_2_1_0_0 : ∀ a, (![1, 2, 1, 0, 0] : Fin 5 → Nat) a + S1x1x1x256x256.size a ≤ S8x3x3x256x256.size a
  wordsbf16_S8x3x3x256x256_S1x1x1x256x256_1_2_1_0_0 : (Rect.unit (s := S8x3x3x256x256) ![1, 2, 1, 0, 0] S1x1x1x256x256.size inb_S8x3x3x256x256_S1x1x1x256x256_1_2_1_0_0).WholeWords (EltTy.packing .bf16)
  inb_S24_S1_2 : ∀ a, (![2] : Fin 1 → Nat) a + S1.size a ≤ S24.size a
  inb_S8x3x3x256x256_S1x1x1x256x256_0_0_2_0_0 : ∀ a, (![0, 0, 2, 0, 0] : Fin 5 → Nat) a + S1x1x1x256x256.size a ≤ S8x3x3x256x256.size a
  wordsbf16_S8x3x3x256x256_S1x1x1x256x256_0_0_2_0_0 : (Rect.unit (s := S8x3x3x256x256) ![0, 0, 2, 0, 0] S1x1x1x256x256.size inb_S8x3x3x256x256_S1x1x1x256x256_0_0_2_0_0).WholeWords (EltTy.packing .bf16)
  inb_S8x3x3x256x256_S1x1x1x256x256_0_1_2_0_0 : ∀ a, (![0, 1, 2, 0, 0] : Fin 5 → Nat) a + S1x1x1x256x256.size a ≤ S8x3x3x256x256.size a
  wordsbf16_S8x3x3x256x256_S1x1x1x256x256_0_1_2_0_0 : (Rect.unit (s := S8x3x3x256x256) ![0, 1, 2, 0, 0] S1x1x1x256x256.size inb_S8x3x3x256x256_S1x1x1x256x256_0_1_2_0_0).WholeWords (EltTy.packing .bf16)
  inb_S8x3x3x256x256_S1x1x1x256x256_0_2_2_0_0 : ∀ a, (![0, 2, 2, 0, 0] : Fin 5 → Nat) a + S1x1x1x256x256.size a ≤ S8x3x3x256x256.size a
  wordsbf16_S8x3x3x256x256_S1x1x1x256x256_0_2_2_0_0 : (Rect.unit (s := S8x3x3x256x256) ![0, 2, 2, 0, 0] S1x1x1x256x256.size inb_S8x3x3x256x256_S1x1x1x256x256_0_2_2_0_0).WholeWords (EltTy.packing .bf16)
  inb_S24_S1_5 : ∀ a, (![5] : Fin 1 → Nat) a + S1.size a ≤ S24.size a
  inb_S8x3x3x256x256_S1x1x1x256x256_1_0_2_0_0 : ∀ a, (![1, 0, 2, 0, 0] : Fin 5 → Nat) a + S1x1x1x256x256.size a ≤ S8x3x3x256x256.size a
  wordsbf16_S8x3x3x256x256_S1x1x1x256x256_1_0_2_0_0 : (Rect.unit (s := S8x3x3x256x256) ![1, 0, 2, 0, 0] S1x1x1x256x256.size inb_S8x3x3x256x256_S1x1x1x256x256_1_0_2_0_0).WholeWords (EltTy.packing .bf16)
  inb_S8x3x3x256x256_S1x1x1x256x256_1_1_2_0_0 : ∀ a, (![1, 1, 2, 0, 0] : Fin 5 → Nat) a + S1x1x1x256x256.size a ≤ S8x3x3x256x256.size a
  wordsbf16_S8x3x3x256x256_S1x1x1x256x256_1_1_2_0_0 : (Rect.unit (s := S8x3x3x256x256) ![1, 1, 2, 0, 0] S1x1x1x256x256.size inb_S8x3x3x256x256_S1x1x1x256x256_1_1_2_0_0).WholeWords (EltTy.packing .bf16)
  inb_S8x3x3x256x256_S1x1x1x256x256_1_2_2_0_0 : ∀ a, (![1, 2, 2, 0, 0] : Fin 5 → Nat) a + S1x1x1x256x256.size a ≤ S8x3x3x256x256.size a
  wordsbf16_S8x3x3x256x256_S1x1x1x256x256_1_2_2_0_0 : (Rect.unit (s := S8x3x3x256x256) ![1, 2, 2, 0, 0] S1x1x1x256x256.size inb_S8x3x3x256x256_S1x1x1x256x256_1_2_2_0_0).WholeWords (EltTy.packing .bf16)
  inb_S4x3x256x256_S1x1x256x256_2_0_0_0 : ∀ a, (![2, 0, 0, 0] : Fin 4 → Nat) a + S1x1x256x256.size a ≤ S4x3x256x256.size a
  packedbf16_S4x3x256x256_S1x1x256x256_2_0_0_0 : (Rect.unit (s := S4x3x256x256) ![2, 0, 0, 0] S1x1x256x256.size inb_S4x3x256x256_S1x1x256x256_2_0_0_0).PackedRows (EltTy.packing .bf16)
  inb_S4x3x256x256_S1x1x256x256_2_1_0_0 : ∀ a, (![2, 1, 0, 0] : Fin 4 → Nat) a + S1x1x256x256.size a ≤ S4x3x256x256.size a
  packedbf16_S4x3x256x256_S1x1x256x256_2_1_0_0 : (Rect.unit (s := S4x3x256x256) ![2, 1, 0, 0] S1x1x256x256.size inb_S4x3x256x256_S1x1x256x256_2_1_0_0).PackedRows (EltTy.packing .bf16)
  inb_S4x3x256x256_S1x1x256x256_2_2_0_0 : ∀ a, (![2, 2, 0, 0] : Fin 4 → Nat) a + S1x1x256x256.size a ≤ S4x3x256x256.size a
  packedbf16_S4x3x256x256_S1x1x256x256_2_2_0_0 : (Rect.unit (s := S4x3x256x256) ![2, 2, 0, 0] S1x1x256x256.size inb_S4x3x256x256_S1x1x256x256_2_2_0_0).PackedRows (EltTy.packing .bf16)
  inb_S24_S1_6 : ∀ a, (![6] : Fin 1 → Nat) a + S1.size a ≤ S24.size a
  inb_S8x3x3x256x256_S1x1x1x256x256_2_0_0_0_0 : ∀ a, (![2, 0, 0, 0, 0] : Fin 5 → Nat) a + S1x1x1x256x256.size a ≤ S8x3x3x256x256.size a
  wordsbf16_S4x3x256x256_S1x1x256x256_2_0_0_0 : (Rect.unit (s := S4x3x256x256) ![2, 0, 0, 0] S1x1x256x256.size inb_S4x3x256x256_S1x1x256x256_2_0_0_0).WholeWords (EltTy.packing .bf16)
  wordsbf16_S8x3x3x256x256_S1x1x1x256x256_2_0_0_0_0 : (Rect.unit (s := S8x3x3x256x256) ![2, 0, 0, 0, 0] S1x1x1x256x256.size inb_S8x3x3x256x256_S1x1x1x256x256_2_0_0_0_0).WholeWords (EltTy.packing .bf16)
  inb_S8x3x3x256x256_S1x1x1x256x256_2_1_0_0_0 : ∀ a, (![2, 1, 0, 0, 0] : Fin 5 → Nat) a + S1x1x1x256x256.size a ≤ S8x3x3x256x256.size a
  wordsbf16_S4x3x256x256_S1x1x256x256_2_1_0_0 : (Rect.unit (s := S4x3x256x256) ![2, 1, 0, 0] S1x1x256x256.size inb_S4x3x256x256_S1x1x256x256_2_1_0_0).WholeWords (EltTy.packing .bf16)
  wordsbf16_S8x3x3x256x256_S1x1x1x256x256_2_1_0_0_0 : (Rect.unit (s := S8x3x3x256x256) ![2, 1, 0, 0, 0] S1x1x1x256x256.size inb_S8x3x3x256x256_S1x1x1x256x256_2_1_0_0_0).WholeWords (EltTy.packing .bf16)
  inb_S8x3x3x256x256_S1x1x1x256x256_2_2_0_0_0 : ∀ a, (![2, 2, 0, 0, 0] : Fin 5 → Nat) a + S1x1x1x256x256.size a ≤ S8x3x3x256x256.size a
  wordsbf16_S4x3x256x256_S1x1x256x256_2_2_0_0 : (Rect.unit (s := S4x3x256x256) ![2, 2, 0, 0] S1x1x256x256.size inb_S4x3x256x256_S1x1x256x256_2_2_0_0).WholeWords (EltTy.packing .bf16)
  wordsbf16_S8x3x3x256x256_S1x1x1x256x256_2_2_0_0_0 : (Rect.unit (s := S8x3x3x256x256) ![2, 2, 0, 0, 0] S1x1x1x256x256.size inb_S8x3x3x256x256_S1x1x1x256x256_2_2_0_0_0).WholeWords (EltTy.packing .bf16)
  inb_S4x3x256x256_S1x1x256x256_3_0_0_0 : ∀ a, (![3, 0, 0, 0] : Fin 4 → Nat) a + S1x1x256x256.size a ≤ S4x3x256x256.size a
  packedbf16_S4x3x256x256_S1x1x256x256_3_0_0_0 : (Rect.unit (s := S4x3x256x256) ![3, 0, 0, 0] S1x1x256x256.size inb_S4x3x256x256_S1x1x256x256_3_0_0_0).PackedRows (EltTy.packing .bf16)
  inb_S4x3x256x256_S1x1x256x256_3_1_0_0 : ∀ a, (![3, 1, 0, 0] : Fin 4 → Nat) a + S1x1x256x256.size a ≤ S4x3x256x256.size a
  packedbf16_S4x3x256x256_S1x1x256x256_3_1_0_0 : (Rect.unit (s := S4x3x256x256) ![3, 1, 0, 0] S1x1x256x256.size inb_S4x3x256x256_S1x1x256x256_3_1_0_0).PackedRows (EltTy.packing .bf16)
  inb_S4x3x256x256_S1x1x256x256_3_2_0_0 : ∀ a, (![3, 2, 0, 0] : Fin 4 → Nat) a + S1x1x256x256.size a ≤ S4x3x256x256.size a
  packedbf16_S4x3x256x256_S1x1x256x256_3_2_0_0 : (Rect.unit (s := S4x3x256x256) ![3, 2, 0, 0] S1x1x256x256.size inb_S4x3x256x256_S1x1x256x256_3_2_0_0).PackedRows (EltTy.packing .bf16)
  inb_S24_S1_9 : ∀ a, (![9] : Fin 1 → Nat) a + S1.size a ≤ S24.size a
  inb_S8x3x3x256x256_S1x1x1x256x256_3_0_0_0_0 : ∀ a, (![3, 0, 0, 0, 0] : Fin 5 → Nat) a + S1x1x1x256x256.size a ≤ S8x3x3x256x256.size a
  wordsbf16_S4x3x256x256_S1x1x256x256_3_0_0_0 : (Rect.unit (s := S4x3x256x256) ![3, 0, 0, 0] S1x1x256x256.size inb_S4x3x256x256_S1x1x256x256_3_0_0_0).WholeWords (EltTy.packing .bf16)
  wordsbf16_S8x3x3x256x256_S1x1x1x256x256_3_0_0_0_0 : (Rect.unit (s := S8x3x3x256x256) ![3, 0, 0, 0, 0] S1x1x1x256x256.size inb_S8x3x3x256x256_S1x1x1x256x256_3_0_0_0_0).WholeWords (EltTy.packing .bf16)
  inb_S8x3x3x256x256_S1x1x1x256x256_3_1_0_0_0 : ∀ a, (![3, 1, 0, 0, 0] : Fin 5 → Nat) a + S1x1x1x256x256.size a ≤ S8x3x3x256x256.size a
  wordsbf16_S4x3x256x256_S1x1x256x256_3_1_0_0 : (Rect.unit (s := S4x3x256x256) ![3, 1, 0, 0] S1x1x256x256.size inb_S4x3x256x256_S1x1x256x256_3_1_0_0).WholeWords (EltTy.packing .bf16)
  wordsbf16_S8x3x3x256x256_S1x1x1x256x256_3_1_0_0_0 : (Rect.unit (s := S8x3x3x256x256) ![3, 1, 0, 0, 0] S1x1x1x256x256.size inb_S8x3x3x256x256_S1x1x1x256x256_3_1_0_0_0).WholeWords (EltTy.packing .bf16)
  inb_S8x3x3x256x256_S1x1x1x256x256_3_2_0_0_0 : ∀ a, (![3, 2, 0, 0, 0] : Fin 5 → Nat) a + S1x1x1x256x256.size a ≤ S8x3x3x256x256.size a
  wordsbf16_S4x3x256x256_S1x1x256x256_3_2_0_0 : (Rect.unit (s := S4x3x256x256) ![3, 2, 0, 0] S1x1x256x256.size inb_S4x3x256x256_S1x1x256x256_3_2_0_0).WholeWords (EltTy.packing .bf16)
  wordsbf16_S8x3x3x256x256_S1x1x1x256x256_3_2_0_0_0 : (Rect.unit (s := S8x3x3x256x256) ![3, 2, 0, 0, 0] S1x1x1x256x256.size inb_S8x3x3x256x256_S1x1x1x256x256_3_2_0_0_0).WholeWords (EltTy.packing .bf16)
  inb_S24_S1_7 : ∀ a, (![7] : Fin 1 → Nat) a + S1.size a ≤ S24.size a
  inb_S8x3x3x256x256_S1x1x1x256x256_2_0_1_0_0 : ∀ a, (![2, 0, 1, 0, 0] : Fin 5 → Nat) a + S1x1x1x256x256.size a ≤ S8x3x3x256x256.size a
  wordsbf16_S8x3x3x256x256_S1x1x1x256x256_2_0_1_0_0 : (Rect.unit (s := S8x3x3x256x256) ![2, 0, 1, 0, 0] S1x1x1x256x256.size inb_S8x3x3x256x256_S1x1x1x256x256_2_0_1_0_0).WholeWords (EltTy.packing .bf16)
  inb_S8x3x3x256x256_S1x1x1x256x256_2_1_1_0_0 : ∀ a, (![2, 1, 1, 0, 0] : Fin 5 → Nat) a + S1x1x1x256x256.size a ≤ S8x3x3x256x256.size a
  wordsbf16_S8x3x3x256x256_S1x1x1x256x256_2_1_1_0_0 : (Rect.unit (s := S8x3x3x256x256) ![2, 1, 1, 0, 0] S1x1x1x256x256.size inb_S8x3x3x256x256_S1x1x1x256x256_2_1_1_0_0).WholeWords (EltTy.packing .bf16)
  inb_S8x3x3x256x256_S1x1x1x256x256_2_2_1_0_0 : ∀ a, (![2, 2, 1, 0, 0] : Fin 5 → Nat) a + S1x1x1x256x256.size a ≤ S8x3x3x256x256.size a
  wordsbf16_S8x3x3x256x256_S1x1x1x256x256_2_2_1_0_0 : (Rect.unit (s := S8x3x3x256x256) ![2, 2, 1, 0, 0] S1x1x1x256x256.size inb_S8x3x3x256x256_S1x1x1x256x256_2_2_1_0_0).WholeWords (EltTy.packing .bf16)
  concatenates_S256x256_S256x256_S256x256_S256x768_d1 : Shape.Concatenates [S256x256, S256x256, S256x256] S256x768 1
  slices_S2x512x768_o0_0_0_S1x256x768 : S2x512x768.Slices ![0, 0, 0] S1x256x768
  shapeCasts_S1x256x768_S256x768 : S1x256x768.ShapeCasts S256x768
  broadcasts_S1x768_S256x768 : S1x768.Broadcasts S256x768
  reduces_S256x768_S256 : S256x768.Reduces [1] S256
  broadcasts_S256x1_S256x768 : S256x1.Broadcasts S256x768
  inb_S24_S1_12 : ∀ a, (![12] : Fin 1 → Nat) a + S1.size a ≤ S24.size a
  inb_S8x3x3x256x256_S1x1x1x256x256_4_0_0_0_0 : ∀ a, (![4, 0, 0, 0, 0] : Fin 5 → Nat) a + S1x1x1x256x256.size a ≤ S8x3x3x256x256.size a
  wordsbf16_S8x3x3x256x256_S1x1x1x256x256_4_0_0_0_0 : (Rect.unit (s := S8x3x3x256x256) ![4, 0, 0, 0, 0] S1x1x1x256x256.size inb_S8x3x3x256x256_S1x1x1x256x256_4_0_0_0_0).WholeWords (EltTy.packing .bf16)
  inb_S8x3x3x256x256_S1x1x1x256x256_4_1_0_0_0 : ∀ a, (![4, 1, 0, 0, 0] : Fin 5 → Nat) a + S1x1x1x256x256.size a ≤ S8x3x3x256x256.size a
  wordsbf16_S8x3x3x256x256_S1x1x1x256x256_4_1_0_0_0 : (Rect.unit (s := S8x3x3x256x256) ![4, 1, 0, 0, 0] S1x1x1x256x256.size inb_S8x3x3x256x256_S1x1x1x256x256_4_1_0_0_0).WholeWords (EltTy.packing .bf16)
  inb_S8x3x3x256x256_S1x1x1x256x256_4_2_0_0_0 : ∀ a, (![4, 2, 0, 0, 0] : Fin 5 → Nat) a + S1x1x1x256x256.size a ≤ S8x3x3x256x256.size a
  wordsbf16_S8x3x3x256x256_S1x1x1x256x256_4_2_0_0_0 : (Rect.unit (s := S8x3x3x256x256) ![4, 2, 0, 0, 0] S1x1x1x256x256.size inb_S8x3x3x256x256_S1x1x1x256x256_4_2_0_0_0).WholeWords (EltTy.packing .bf16)
  inb_S24_S1_10 : ∀ a, (![10] : Fin 1 → Nat) a + S1.size a ≤ S24.size a
  inb_S8x3x3x256x256_S1x1x1x256x256_3_0_1_0_0 : ∀ a, (![3, 0, 1, 0, 0] : Fin 5 → Nat) a + S1x1x1x256x256.size a ≤ S8x3x3x256x256.size a
  wordsbf16_S8x3x3x256x256_S1x1x1x256x256_3_0_1_0_0 : (Rect.unit (s := S8x3x3x256x256) ![3, 0, 1, 0, 0] S1x1x1x256x256.size inb_S8x3x3x256x256_S1x1x1x256x256_3_0_1_0_0).WholeWords (EltTy.packing .bf16)
  inb_S8x3x3x256x256_S1x1x1x256x256_3_1_1_0_0 : ∀ a, (![3, 1, 1, 0, 0] : Fin 5 → Nat) a + S1x1x1x256x256.size a ≤ S8x3x3x256x256.size a
  wordsbf16_S8x3x3x256x256_S1x1x1x256x256_3_1_1_0_0 : (Rect.unit (s := S8x3x3x256x256) ![3, 1, 1, 0, 0] S1x1x1x256x256.size inb_S8x3x3x256x256_S1x1x1x256x256_3_1_1_0_0).WholeWords (EltTy.packing .bf16)
  inb_S8x3x3x256x256_S1x1x1x256x256_3_2_1_0_0 : ∀ a, (![3, 2, 1, 0, 0] : Fin 5 → Nat) a + S1x1x1x256x256.size a ≤ S8x3x3x256x256.size a
  wordsbf16_S8x3x3x256x256_S1x1x1x256x256_3_2_1_0_0 : (Rect.unit (s := S8x3x3x256x256) ![3, 2, 1, 0, 0] S1x1x1x256x256.size inb_S8x3x3x256x256_S1x1x1x256x256_3_2_1_0_0).WholeWords (EltTy.packing .bf16)
  inb_S24_S1_8 : ∀ a, (![8] : Fin 1 → Nat) a + S1.size a ≤ S24.size a
  inb_S8x3x3x256x256_S1x1x1x256x256_2_0_2_0_0 : ∀ a, (![2, 0, 2, 0, 0] : Fin 5 → Nat) a + S1x1x1x256x256.size a ≤ S8x3x3x256x256.size a
  wordsbf16_S8x3x3x256x256_S1x1x1x256x256_2_0_2_0_0 : (Rect.unit (s := S8x3x3x256x256) ![2, 0, 2, 0, 0] S1x1x1x256x256.size inb_S8x3x3x256x256_S1x1x1x256x256_2_0_2_0_0).WholeWords (EltTy.packing .bf16)
  inb_S8x3x3x256x256_S1x1x1x256x256_2_1_2_0_0 : ∀ a, (![2, 1, 2, 0, 0] : Fin 5 → Nat) a + S1x1x1x256x256.size a ≤ S8x3x3x256x256.size a
  wordsbf16_S8x3x3x256x256_S1x1x1x256x256_2_1_2_0_0 : (Rect.unit (s := S8x3x3x256x256) ![2, 1, 2, 0, 0] S1x1x1x256x256.size inb_S8x3x3x256x256_S1x1x1x256x256_2_1_2_0_0).WholeWords (EltTy.packing .bf16)
  inb_S8x3x3x256x256_S1x1x1x256x256_2_2_2_0_0 : ∀ a, (![2, 2, 2, 0, 0] : Fin 5 → Nat) a + S1x1x1x256x256.size a ≤ S8x3x3x256x256.size a
  wordsbf16_S8x3x3x256x256_S1x1x1x256x256_2_2_2_0_0 : (Rect.unit (s := S8x3x3x256x256) ![2, 2, 2, 0, 0] S1x1x1x256x256.size inb_S8x3x3x256x256_S1x1x1x256x256_2_2_2_0_0).WholeWords (EltTy.packing .bf16)
  slices_S2x512x768_o0_256_0_S1x256x768 : S2x512x768.Slices ![0, 256, 0] S1x256x768
  inb_S24_S1_15 : ∀ a, (![15] : Fin 1 → Nat) a + S1.size a ≤ S24.size a
  inb_S8x3x3x256x256_S1x1x1x256x256_5_0_0_0_0 : ∀ a, (![5, 0, 0, 0, 0] : Fin 5 → Nat) a + S1x1x1x256x256.size a ≤ S8x3x3x256x256.size a
  wordsbf16_S8x3x3x256x256_S1x1x1x256x256_5_0_0_0_0 : (Rect.unit (s := S8x3x3x256x256) ![5, 0, 0, 0, 0] S1x1x1x256x256.size inb_S8x3x3x256x256_S1x1x1x256x256_5_0_0_0_0).WholeWords (EltTy.packing .bf16)
  inb_S8x3x3x256x256_S1x1x1x256x256_5_1_0_0_0 : ∀ a, (![5, 1, 0, 0, 0] : Fin 5 → Nat) a + S1x1x1x256x256.size a ≤ S8x3x3x256x256.size a
  wordsbf16_S8x3x3x256x256_S1x1x1x256x256_5_1_0_0_0 : (Rect.unit (s := S8x3x3x256x256) ![5, 1, 0, 0, 0] S1x1x1x256x256.size inb_S8x3x3x256x256_S1x1x1x256x256_5_1_0_0_0).WholeWords (EltTy.packing .bf16)
  inb_S8x3x3x256x256_S1x1x1x256x256_5_2_0_0_0 : ∀ a, (![5, 2, 0, 0, 0] : Fin 5 → Nat) a + S1x1x1x256x256.size a ≤ S8x3x3x256x256.size a
  wordsbf16_S8x3x3x256x256_S1x1x1x256x256_5_2_0_0_0 : (Rect.unit (s := S8x3x3x256x256) ![5, 2, 0, 0, 0] S1x1x1x256x256.size inb_S8x3x3x256x256_S1x1x1x256x256_5_2_0_0_0).WholeWords (EltTy.packing .bf16)
  inb_S24_S1_13 : ∀ a, (![13] : Fin 1 → Nat) a + S1.size a ≤ S24.size a
  inb_S8x3x3x256x256_S1x1x1x256x256_4_0_1_0_0 : ∀ a, (![4, 0, 1, 0, 0] : Fin 5 → Nat) a + S1x1x1x256x256.size a ≤ S8x3x3x256x256.size a
  wordsbf16_S8x3x3x256x256_S1x1x1x256x256_4_0_1_0_0 : (Rect.unit (s := S8x3x3x256x256) ![4, 0, 1, 0, 0] S1x1x1x256x256.size inb_S8x3x3x256x256_S1x1x1x256x256_4_0_1_0_0).WholeWords (EltTy.packing .bf16)
  inb_S8x3x3x256x256_S1x1x1x256x256_4_1_1_0_0 : ∀ a, (![4, 1, 1, 0, 0] : Fin 5 → Nat) a + S1x1x1x256x256.size a ≤ S8x3x3x256x256.size a
  wordsbf16_S8x3x3x256x256_S1x1x1x256x256_4_1_1_0_0 : (Rect.unit (s := S8x3x3x256x256) ![4, 1, 1, 0, 0] S1x1x1x256x256.size inb_S8x3x3x256x256_S1x1x1x256x256_4_1_1_0_0).WholeWords (EltTy.packing .bf16)
  inb_S8x3x3x256x256_S1x1x1x256x256_4_2_1_0_0 : ∀ a, (![4, 2, 1, 0, 0] : Fin 5 → Nat) a + S1x1x1x256x256.size a ≤ S8x3x3x256x256.size a
  wordsbf16_S8x3x3x256x256_S1x1x1x256x256_4_2_1_0_0 : (Rect.unit (s := S8x3x3x256x256) ![4, 2, 1, 0, 0] S1x1x1x256x256.size inb_S8x3x3x256x256_S1x1x1x256x256_4_2_1_0_0).WholeWords (EltTy.packing .bf16)
  inb_S24_S1_11 : ∀ a, (![11] : Fin 1 → Nat) a + S1.size a ≤ S24.size a
  inb_S8x3x3x256x256_S1x1x1x256x256_3_0_2_0_0 : ∀ a, (![3, 0, 2, 0, 0] : Fin 5 → Nat) a + S1x1x1x256x256.size a ≤ S8x3x3x256x256.size a
  wordsbf16_S8x3x3x256x256_S1x1x1x256x256_3_0_2_0_0 : (Rect.unit (s := S8x3x3x256x256) ![3, 0, 2, 0, 0] S1x1x1x256x256.size inb_S8x3x3x256x256_S1x1x1x256x256_3_0_2_0_0).WholeWords (EltTy.packing .bf16)
  inb_S8x3x3x256x256_S1x1x1x256x256_3_1_2_0_0 : ∀ a, (![3, 1, 2, 0, 0] : Fin 5 → Nat) a + S1x1x1x256x256.size a ≤ S8x3x3x256x256.size a
  wordsbf16_S8x3x3x256x256_S1x1x1x256x256_3_1_2_0_0 : (Rect.unit (s := S8x3x3x256x256) ![3, 1, 2, 0, 0] S1x1x1x256x256.size inb_S8x3x3x256x256_S1x1x1x256x256_3_1_2_0_0).WholeWords (EltTy.packing .bf16)
  inb_S8x3x3x256x256_S1x1x1x256x256_3_2_2_0_0 : ∀ a, (![3, 2, 2, 0, 0] : Fin 5 → Nat) a + S1x1x1x256x256.size a ≤ S8x3x3x256x256.size a
  wordsbf16_S8x3x3x256x256_S1x1x1x256x256_3_2_2_0_0 : (Rect.unit (s := S8x3x3x256x256) ![3, 2, 2, 0, 0] S1x1x1x256x256.size inb_S8x3x3x256x256_S1x1x1x256x256_3_2_2_0_0).WholeWords (EltTy.packing .bf16)
  slices_S2x512x768_o1_0_0_S1x256x768 : S2x512x768.Slices ![1, 0, 0] S1x256x768
  inb_S24_S1_18 : ∀ a, (![18] : Fin 1 → Nat) a + S1.size a ≤ S24.size a
  inb_S8x3x3x256x256_S1x1x1x256x256_6_0_0_0_0 : ∀ a, (![6, 0, 0, 0, 0] : Fin 5 → Nat) a + S1x1x1x256x256.size a ≤ S8x3x3x256x256.size a
  wordsbf16_S8x3x3x256x256_S1x1x1x256x256_6_0_0_0_0 : (Rect.unit (s := S8x3x3x256x256) ![6, 0, 0, 0, 0] S1x1x1x256x256.size inb_S8x3x3x256x256_S1x1x1x256x256_6_0_0_0_0).WholeWords (EltTy.packing .bf16)
  inb_S8x3x3x256x256_S1x1x1x256x256_6_1_0_0_0 : ∀ a, (![6, 1, 0, 0, 0] : Fin 5 → Nat) a + S1x1x1x256x256.size a ≤ S8x3x3x256x256.size a
  wordsbf16_S8x3x3x256x256_S1x1x1x256x256_6_1_0_0_0 : (Rect.unit (s := S8x3x3x256x256) ![6, 1, 0, 0, 0] S1x1x1x256x256.size inb_S8x3x3x256x256_S1x1x1x256x256_6_1_0_0_0).WholeWords (EltTy.packing .bf16)
  inb_S8x3x3x256x256_S1x1x1x256x256_6_2_0_0_0 : ∀ a, (![6, 2, 0, 0, 0] : Fin 5 → Nat) a + S1x1x1x256x256.size a ≤ S8x3x3x256x256.size a
  wordsbf16_S8x3x3x256x256_S1x1x1x256x256_6_2_0_0_0 : (Rect.unit (s := S8x3x3x256x256) ![6, 2, 0, 0, 0] S1x1x1x256x256.size inb_S8x3x3x256x256_S1x1x1x256x256_6_2_0_0_0).WholeWords (EltTy.packing .bf16)
  inb_S24_S1_16 : ∀ a, (![16] : Fin 1 → Nat) a + S1.size a ≤ S24.size a
  inb_S8x3x3x256x256_S1x1x1x256x256_5_0_1_0_0 : ∀ a, (![5, 0, 1, 0, 0] : Fin 5 → Nat) a + S1x1x1x256x256.size a ≤ S8x3x3x256x256.size a
  wordsbf16_S8x3x3x256x256_S1x1x1x256x256_5_0_1_0_0 : (Rect.unit (s := S8x3x3x256x256) ![5, 0, 1, 0, 0] S1x1x1x256x256.size inb_S8x3x3x256x256_S1x1x1x256x256_5_0_1_0_0).WholeWords (EltTy.packing .bf16)
  inb_S8x3x3x256x256_S1x1x1x256x256_5_1_1_0_0 : ∀ a, (![5, 1, 1, 0, 0] : Fin 5 → Nat) a + S1x1x1x256x256.size a ≤ S8x3x3x256x256.size a
  wordsbf16_S8x3x3x256x256_S1x1x1x256x256_5_1_1_0_0 : (Rect.unit (s := S8x3x3x256x256) ![5, 1, 1, 0, 0] S1x1x1x256x256.size inb_S8x3x3x256x256_S1x1x1x256x256_5_1_1_0_0).WholeWords (EltTy.packing .bf16)
  inb_S8x3x3x256x256_S1x1x1x256x256_5_2_1_0_0 : ∀ a, (![5, 2, 1, 0, 0] : Fin 5 → Nat) a + S1x1x1x256x256.size a ≤ S8x3x3x256x256.size a
  wordsbf16_S8x3x3x256x256_S1x1x1x256x256_5_2_1_0_0 : (Rect.unit (s := S8x3x3x256x256) ![5, 2, 1, 0, 0] S1x1x1x256x256.size inb_S8x3x3x256x256_S1x1x1x256x256_5_2_1_0_0).WholeWords (EltTy.packing .bf16)
  inb_S24_S1_14 : ∀ a, (![14] : Fin 1 → Nat) a + S1.size a ≤ S24.size a
  inb_S8x3x3x256x256_S1x1x1x256x256_4_0_2_0_0 : ∀ a, (![4, 0, 2, 0, 0] : Fin 5 → Nat) a + S1x1x1x256x256.size a ≤ S8x3x3x256x256.size a
  wordsbf16_S8x3x3x256x256_S1x1x1x256x256_4_0_2_0_0 : (Rect.unit (s := S8x3x3x256x256) ![4, 0, 2, 0, 0] S1x1x1x256x256.size inb_S8x3x3x256x256_S1x1x1x256x256_4_0_2_0_0).WholeWords (EltTy.packing .bf16)
  inb_S8x3x3x256x256_S1x1x1x256x256_4_1_2_0_0 : ∀ a, (![4, 1, 2, 0, 0] : Fin 5 → Nat) a + S1x1x1x256x256.size a ≤ S8x3x3x256x256.size a
  wordsbf16_S8x3x3x256x256_S1x1x1x256x256_4_1_2_0_0 : (Rect.unit (s := S8x3x3x256x256) ![4, 1, 2, 0, 0] S1x1x1x256x256.size inb_S8x3x3x256x256_S1x1x1x256x256_4_1_2_0_0).WholeWords (EltTy.packing .bf16)
  inb_S8x3x3x256x256_S1x1x1x256x256_4_2_2_0_0 : ∀ a, (![4, 2, 2, 0, 0] : Fin 5 → Nat) a + S1x1x1x256x256.size a ≤ S8x3x3x256x256.size a
  wordsbf16_S8x3x3x256x256_S1x1x1x256x256_4_2_2_0_0 : (Rect.unit (s := S8x3x3x256x256) ![4, 2, 2, 0, 0] S1x1x1x256x256.size inb_S8x3x3x256x256_S1x1x1x256x256_4_2_2_0_0).WholeWords (EltTy.packing .bf16)
  slices_S2x512x768_o1_256_0_S1x256x768 : S2x512x768.Slices ![1, 256, 0] S1x256x768
  inb_S24_S1_21 : ∀ a, (![21] : Fin 1 → Nat) a + S1.size a ≤ S24.size a
  inb_S8x3x3x256x256_S1x1x1x256x256_7_0_0_0_0 : ∀ a, (![7, 0, 0, 0, 0] : Fin 5 → Nat) a + S1x1x1x256x256.size a ≤ S8x3x3x256x256.size a
  wordsbf16_S8x3x3x256x256_S1x1x1x256x256_7_0_0_0_0 : (Rect.unit (s := S8x3x3x256x256) ![7, 0, 0, 0, 0] S1x1x1x256x256.size inb_S8x3x3x256x256_S1x1x1x256x256_7_0_0_0_0).WholeWords (EltTy.packing .bf16)
  inb_S8x3x3x256x256_S1x1x1x256x256_7_1_0_0_0 : ∀ a, (![7, 1, 0, 0, 0] : Fin 5 → Nat) a + S1x1x1x256x256.size a ≤ S8x3x3x256x256.size a
  wordsbf16_S8x3x3x256x256_S1x1x1x256x256_7_1_0_0_0 : (Rect.unit (s := S8x3x3x256x256) ![7, 1, 0, 0, 0] S1x1x1x256x256.size inb_S8x3x3x256x256_S1x1x1x256x256_7_1_0_0_0).WholeWords (EltTy.packing .bf16)
  inb_S8x3x3x256x256_S1x1x1x256x256_7_2_0_0_0 : ∀ a, (![7, 2, 0, 0, 0] : Fin 5 → Nat) a + S1x1x1x256x256.size a ≤ S8x3x3x256x256.size a
  wordsbf16_S8x3x3x256x256_S1x1x1x256x256_7_2_0_0_0 : (Rect.unit (s := S8x3x3x256x256) ![7, 2, 0, 0, 0] S1x1x1x256x256.size inb_S8x3x3x256x256_S1x1x1x256x256_7_2_0_0_0).WholeWords (EltTy.packing .bf16)
  inb_S24_S1_19 : ∀ a, (![19] : Fin 1 → Nat) a + S1.size a ≤ S24.size a
  inb_S8x3x3x256x256_S1x1x1x256x256_6_0_1_0_0 : ∀ a, (![6, 0, 1, 0, 0] : Fin 5 → Nat) a + S1x1x1x256x256.size a ≤ S8x3x3x256x256.size a
  wordsbf16_S8x3x3x256x256_S1x1x1x256x256_6_0_1_0_0 : (Rect.unit (s := S8x3x3x256x256) ![6, 0, 1, 0, 0] S1x1x1x256x256.size inb_S8x3x3x256x256_S1x1x1x256x256_6_0_1_0_0).WholeWords (EltTy.packing .bf16)
  inb_S8x3x3x256x256_S1x1x1x256x256_6_1_1_0_0 : ∀ a, (![6, 1, 1, 0, 0] : Fin 5 → Nat) a + S1x1x1x256x256.size a ≤ S8x3x3x256x256.size a
  wordsbf16_S8x3x3x256x256_S1x1x1x256x256_6_1_1_0_0 : (Rect.unit (s := S8x3x3x256x256) ![6, 1, 1, 0, 0] S1x1x1x256x256.size inb_S8x3x3x256x256_S1x1x1x256x256_6_1_1_0_0).WholeWords (EltTy.packing .bf16)
  inb_S8x3x3x256x256_S1x1x1x256x256_6_2_1_0_0 : ∀ a, (![6, 2, 1, 0, 0] : Fin 5 → Nat) a + S1x1x1x256x256.size a ≤ S8x3x3x256x256.size a
  wordsbf16_S8x3x3x256x256_S1x1x1x256x256_6_2_1_0_0 : (Rect.unit (s := S8x3x3x256x256) ![6, 2, 1, 0, 0] S1x1x1x256x256.size inb_S8x3x3x256x256_S1x1x1x256x256_6_2_1_0_0).WholeWords (EltTy.packing .bf16)
  inb_S24_S1_17 : ∀ a, (![17] : Fin 1 → Nat) a + S1.size a ≤ S24.size a
  inb_S8x3x3x256x256_S1x1x1x256x256_5_0_2_0_0 : ∀ a, (![5, 0, 2, 0, 0] : Fin 5 → Nat) a + S1x1x1x256x256.size a ≤ S8x3x3x256x256.size a
  wordsbf16_S8x3x3x256x256_S1x1x1x256x256_5_0_2_0_0 : (Rect.unit (s := S8x3x3x256x256) ![5, 0, 2, 0, 0] S1x1x1x256x256.size inb_S8x3x3x256x256_S1x1x1x256x256_5_0_2_0_0).WholeWords (EltTy.packing .bf16)
  inb_S8x3x3x256x256_S1x1x1x256x256_5_1_2_0_0 : ∀ a, (![5, 1, 2, 0, 0] : Fin 5 → Nat) a + S1x1x1x256x256.size a ≤ S8x3x3x256x256.size a
  wordsbf16_S8x3x3x256x256_S1x1x1x256x256_5_1_2_0_0 : (Rect.unit (s := S8x3x3x256x256) ![5, 1, 2, 0, 0] S1x1x1x256x256.size inb_S8x3x3x256x256_S1x1x1x256x256_5_1_2_0_0).WholeWords (EltTy.packing .bf16)
  inb_S8x3x3x256x256_S1x1x1x256x256_5_2_2_0_0 : ∀ a, (![5, 2, 2, 0, 0] : Fin 5 → Nat) a + S1x1x1x256x256.size a ≤ S8x3x3x256x256.size a
  wordsbf16_S8x3x3x256x256_S1x1x1x256x256_5_2_2_0_0 : (Rect.unit (s := S8x3x3x256x256) ![5, 2, 2, 0, 0] S1x1x1x256x256.size inb_S8x3x3x256x256_S1x1x1x256x256_5_2_2_0_0).WholeWords (EltTy.packing .bf16)
  inb_S2x512x768_S1x256x768_0_0_0 : ∀ a, (![0, 0, 0] : Fin 3 → Nat) a + S1x256x768.size a ≤ S2x512x768.size a
  h_S1x256x768 : 0 < S1x256x768.numel
  shapeCasts_S256x768_S1x256x768 : S256x768.ShapeCasts S1x256x768
  inb_S24_S1_22 : ∀ a, (![22] : Fin 1 → Nat) a + S1.size a ≤ S24.size a
  inb_S8x3x3x256x256_S1x1x1x256x256_7_0_1_0_0 : ∀ a, (![7, 0, 1, 0, 0] : Fin 5 → Nat) a + S1x1x1x256x256.size a ≤ S8x3x3x256x256.size a
  wordsbf16_S8x3x3x256x256_S1x1x1x256x256_7_0_1_0_0 : (Rect.unit (s := S8x3x3x256x256) ![7, 0, 1, 0, 0] S1x1x1x256x256.size inb_S8x3x3x256x256_S1x1x1x256x256_7_0_1_0_0).WholeWords (EltTy.packing .bf16)
  inb_S8x3x3x256x256_S1x1x1x256x256_7_1_1_0_0 : ∀ a, (![7, 1, 1, 0, 0] : Fin 5 → Nat) a + S1x1x1x256x256.size a ≤ S8x3x3x256x256.size a
  wordsbf16_S8x3x3x256x256_S1x1x1x256x256_7_1_1_0_0 : (Rect.unit (s := S8x3x3x256x256) ![7, 1, 1, 0, 0] S1x1x1x256x256.size inb_S8x3x3x256x256_S1x1x1x256x256_7_1_1_0_0).WholeWords (EltTy.packing .bf16)
  inb_S8x3x3x256x256_S1x1x1x256x256_7_2_1_0_0 : ∀ a, (![7, 2, 1, 0, 0] : Fin 5 → Nat) a + S1x1x1x256x256.size a ≤ S8x3x3x256x256.size a
  wordsbf16_S8x3x3x256x256_S1x1x1x256x256_7_2_1_0_0 : (Rect.unit (s := S8x3x3x256x256) ![7, 2, 1, 0, 0] S1x1x1x256x256.size inb_S8x3x3x256x256_S1x1x1x256x256_7_2_1_0_0).WholeWords (EltTy.packing .bf16)
  inb_S24_S1_20 : ∀ a, (![20] : Fin 1 → Nat) a + S1.size a ≤ S24.size a
  inb_S8x3x3x256x256_S1x1x1x256x256_6_0_2_0_0 : ∀ a, (![6, 0, 2, 0, 0] : Fin 5 → Nat) a + S1x1x1x256x256.size a ≤ S8x3x3x256x256.size a
  wordsbf16_S8x3x3x256x256_S1x1x1x256x256_6_0_2_0_0 : (Rect.unit (s := S8x3x3x256x256) ![6, 0, 2, 0, 0] S1x1x1x256x256.size inb_S8x3x3x256x256_S1x1x1x256x256_6_0_2_0_0).WholeWords (EltTy.packing .bf16)
  inb_S8x3x3x256x256_S1x1x1x256x256_6_1_2_0_0 : ∀ a, (![6, 1, 2, 0, 0] : Fin 5 → Nat) a + S1x1x1x256x256.size a ≤ S8x3x3x256x256.size a
  wordsbf16_S8x3x3x256x256_S1x1x1x256x256_6_1_2_0_0 : (Rect.unit (s := S8x3x3x256x256) ![6, 1, 2, 0, 0] S1x1x1x256x256.size inb_S8x3x3x256x256_S1x1x1x256x256_6_1_2_0_0).WholeWords (EltTy.packing .bf16)
  inb_S8x3x3x256x256_S1x1x1x256x256_6_2_2_0_0 : ∀ a, (![6, 2, 2, 0, 0] : Fin 5 → Nat) a + S1x1x1x256x256.size a ≤ S8x3x3x256x256.size a
  wordsbf16_S8x3x3x256x256_S1x1x1x256x256_6_2_2_0_0 : (Rect.unit (s := S8x3x3x256x256) ![6, 2, 2, 0, 0] S1x1x1x256x256.size inb_S8x3x3x256x256_S1x1x1x256x256_6_2_2_0_0).WholeWords (EltTy.packing .bf16)
  inb_S2x512x768_S1x256x768_0_256_0 : ∀ a, (![0, 256, 0] : Fin 3 → Nat) a + S1x256x768.size a ≤ S2x512x768.size a
  inb_S24_S1_23 : ∀ a, (![23] : Fin 1 → Nat) a + S1.size a ≤ S24.size a
  inb_S8x3x3x256x256_S1x1x1x256x256_7_0_2_0_0 : ∀ a, (![7, 0, 2, 0, 0] : Fin 5 → Nat) a + S1x1x1x256x256.size a ≤ S8x3x3x256x256.size a
  wordsbf16_S8x3x3x256x256_S1x1x1x256x256_7_0_2_0_0 : (Rect.unit (s := S8x3x3x256x256) ![7, 0, 2, 0, 0] S1x1x1x256x256.size inb_S8x3x3x256x256_S1x1x1x256x256_7_0_2_0_0).WholeWords (EltTy.packing .bf16)
  inb_S8x3x3x256x256_S1x1x1x256x256_7_1_2_0_0 : ∀ a, (![7, 1, 2, 0, 0] : Fin 5 → Nat) a + S1x1x1x256x256.size a ≤ S8x3x3x256x256.size a
  wordsbf16_S8x3x3x256x256_S1x1x1x256x256_7_1_2_0_0 : (Rect.unit (s := S8x3x3x256x256) ![7, 1, 2, 0, 0] S1x1x1x256x256.size inb_S8x3x3x256x256_S1x1x1x256x256_7_1_2_0_0).WholeWords (EltTy.packing .bf16)
  inb_S8x3x3x256x256_S1x1x1x256x256_7_2_2_0_0 : ∀ a, (![7, 2, 2, 0, 0] : Fin 5 → Nat) a + S1x1x1x256x256.size a ≤ S8x3x3x256x256.size a
  wordsbf16_S8x3x3x256x256_S1x1x1x256x256_7_2_2_0_0 : (Rect.unit (s := S8x3x3x256x256) ![7, 2, 2, 0, 0] S1x1x1x256x256.size inb_S8x3x3x256x256_S1x1x1x256x256_7_2_2_0_0).WholeWords (EltTy.packing .bf16)
  inb_S2x512x768_S1x256x768_1_0_0 : ∀ a, (![1, 0, 0] : Fin 3 → Nat) a + S1x256x768.size a ≤ S2x512x768.size a
  inb_S2x512x768_S1x256x768_1_256_0 : ∀ a, (![1, 256, 0] : Fin 3 → Nat) a + S1x256x768.size a ≤ S2x512x768.size a
  dot_S2x128_S128x4608_S2x4608_1_0_0_1_n_n_wf : DotDims.WF S2x128 S128x4608 S2x4608 [1] [0] [0] [1] [] []
  dot_S512x768_S768x384_S512x384_1_0_0_1_n_n_wf : DotDims.WF S512x768 S768x384 S512x384 [1] [0] [0] [1] [] []
  dot_S256x768_S768x384_S256x384_1_0_0_1_n_n_wf : DotDims.WF S256x768 S768x384 S256x384 [1] [0] [0] [1] [] []
  dot_S256x96_S96x512_S256x512_1_0_0_1_n_n_wf : DotDims.WF S256x96 S96x512 S256x512 [1] [0] [0] [1] [] []
  dot_S256x512_S512x96_S256x96_1_0_0_1_n_n_wf : DotDims.WF S256x512 S512x96 S256x96 [1] [0] [0] [1] [] []
  dot_S256x384_S384x768_S256x768_1_0_0_1_n_n_wf : DotDims.WF S256x384 S384x768 S256x768 [1] [0] [0] [1] [] []
  hcc0_scoped0 : 1 + S_.numel ≤ 2
  hcc0_scratch2 : 10 + S24.numel ≤ 58
  hcc0_scratch3 : 34 + S24.numel ≤ 58
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole

variable [Facts₀]

abbrev cc0_scoped0 : Sems sig S_ := SemArray.consecutive 1 S_ hcc0_scoped0
abbrev cc0_scratch2 : DmaSems sig S24 := SemArray.consecutive 10 S24 hcc0_scratch2
abbrev cc0_scratch3 : DmaSems sig S24 := SemArray.consecutive 34 S24 hcc0_scratch3
def dot_S2x128_S128x4608_S2x4608_1_0_0_1_n_n : DotDims S2x128 S128x4608 S2x4608 where
  lhsContracting := [1]
  rhsContracting := [0]
  lhsNonContracting := [0]
  rhsNonContracting := [1]
  lhsBatch := []
  rhsBatch := []
  wf := dot_S2x128_S128x4608_S2x4608_1_0_0_1_n_n_wf
def dot_S512x768_S768x384_S512x384_1_0_0_1_n_n : DotDims S512x768 S768x384 S512x384 where
  lhsContracting := [1]
  rhsContracting := [0]
  lhsNonContracting := [0]
  rhsNonContracting := [1]
  lhsBatch := []
  rhsBatch := []
  wf := dot_S512x768_S768x384_S512x384_1_0_0_1_n_n_wf
def dot_S256x768_S768x384_S256x384_1_0_0_1_n_n : DotDims S256x768 S768x384 S256x384 where
  lhsContracting := [1]
  rhsContracting := [0]
  lhsNonContracting := [0]
  rhsNonContracting := [1]
  lhsBatch := []
  rhsBatch := []
  wf := dot_S256x768_S768x384_S256x384_1_0_0_1_n_n_wf
def dot_S256x96_S96x512_S256x512_1_0_0_1_n_n : DotDims S256x96 S96x512 S256x512 where
  lhsContracting := [1]
  rhsContracting := [0]
  lhsNonContracting := [0]
  rhsNonContracting := [1]
  lhsBatch := []
  rhsBatch := []
  wf := dot_S256x96_S96x512_S256x512_1_0_0_1_n_n_wf
def dot_S256x512_S512x96_S256x96_1_0_0_1_n_n : DotDims S256x512 S512x96 S256x96 where
  lhsContracting := [1]
  rhsContracting := [0]
  lhsNonContracting := [0]
  rhsNonContracting := [1]
  lhsBatch := []
  rhsBatch := []
  wf := dot_S256x512_S512x96_S256x96_1_0_0_1_n_n_wf
def dot_S256x384_S384x768_S256x768_1_0_0_1_n_n : DotDims S256x384 S384x768 S256x768 where
  lhsContracting := [1]
  rhsContracting := [0]
  lhsNonContracting := [0]
  rhsNonContracting := [1]
  lhsBatch := []
  rhsBatch := []
  wf := dot_S256x384_S384x768_S256x768_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v1) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x512x768 : Shape := ⟨3, ![2, 512, 768]⟩
abbrev S768x3072 : Shape := ⟨2, ![768, 3072]⟩
abbrev S3072x768 : Shape := ⟨2, ![3072, 768]⟩
abbrev S2x128 : Shape := ⟨2, ![2, 128]⟩
abbrev S128x4608 : Shape := ⟨2, ![128, 4608]⟩
abbrev S2x4608 : Shape := ⟨2, ![2, 4608]⟩
abbrev S2x768 : Shape := ⟨2, ![2, 768]⟩
abbrev S_ : Shape := ⟨0, ![]⟩
abbrev S2x512 : Shape := ⟨2, ![2, 512]⟩
abbrev S2x512x1 : Shape := ⟨3, ![2, 512, 1]⟩
abbrev S2x1x768 : Shape := ⟨3, ![2, 1, 768]⟩
abbrev S2x512x3072 : Shape := ⟨3, ![2, 512, 3072]⟩
abbrev S2x512x32x96 : Shape := ⟨4, ![2, 512, 32, 96]⟩
abbrev S2x32x512x1 : Shape := ⟨4, ![2, 32, 512, 1]⟩
abbrev S2x32x512x512 : Shape := ⟨4, ![2, 32, 512, 512]⟩
abbrev S2x32x512 : Shape := ⟨3, ![2, 32, 512]⟩
abbrev S2x512x32x1 : Shape := ⟨4, ![2, 512, 32, 1]⟩
abbrev S2x32x96x512 : Shape := ⟨4, ![2, 32, 96, 512]⟩

abbrev nBuf : Space → Nat
  | .hbm => 167
  | .vmem => 0
  | .smem => 0
  | _ => 0

abbrev hbmTy0_0 (i : Nat) : BufTy := match i % 128 with
  | 0 => ⟨S2x512x768, .f32⟩
  | 1 => ⟨S768x3072, .f32⟩
  | 2 => ⟨S768x3072, .f32⟩
  | 3 => ⟨S768x3072, .f32⟩
  | 4 => ⟨S3072x768, .f32⟩
  | 5 => ⟨S2x128, .f32⟩
  | 6 => ⟨S128x4608, .f32⟩
  | 7 => ⟨S768x3072, .f32⟩
  | 8 => ⟨S3072x768, .f32⟩
  | 9 => ⟨S2x4608, .f32⟩
  | 10 => ⟨S2x768, .f32⟩
  | 11 => ⟨S2x768, .f32⟩
  | 12 => ⟨S2x768, .f32⟩
  | 13 => ⟨S2x768, .f32⟩
  | 14 => ⟨S2x768, .f32⟩
  | 15 => ⟨S2x768, .f32⟩
  | 16 => ⟨S_, .f32⟩
  | 17 => ⟨S2x512, .f32⟩
  | 18 => ⟨S2x512x1, .f32⟩
  | 19 => ⟨S_, .f32⟩
  | 20 => ⟨S2x512x1, .f32⟩
  | 21 => ⟨S2x512x1, .f32⟩
  | 22 => ⟨S_, .i32⟩
  | 23 => ⟨S_, .f32⟩
  | 24 => ⟨S2x512, .f32⟩
  | 25 => ⟨S2x512x1, .f32⟩
  | 26 => ⟨S_, .f32⟩
  | 27 => ⟨S2x512x1, .f32⟩
  | 28 => ⟨S2x512x1, .f32⟩
  | 29 => ⟨S2x512x768, .f32⟩
  | 30 => ⟨S2x512x768, .f32⟩
  | 31 => ⟨S2x512x768, .f32⟩
  | 32 => ⟨S_, .f32⟩
  | 33 => ⟨S_, .f32⟩
  | 34 => ⟨S_, .f32⟩
  | 35 => ⟨S_, .f32⟩
  | 36 => ⟨S2x512, .f32⟩
  | 37 => ⟨S2x512x1, .f32⟩
  | 38 => ⟨S2x512x1, .f32⟩
  | 39 => ⟨S2x512x1, .f32⟩
  | 40 => ⟨S_, .f32⟩
  | 41 => ⟨S_, .i1⟩
  | 42 => ⟨S_, .f32⟩
  | 43 => ⟨S_, .f32⟩
  | 44 => ⟨S2x512x1, .f32⟩
  | 45 => ⟨S2x512x1, .f32⟩
  | 46 => ⟨S2x512x768, .f32⟩
  | 47 => ⟨S2x512x768, .f32⟩
  | 48 => ⟨S_, .f32⟩
  | 49 => ⟨S2x512x1, .f32⟩
  | 50 => ⟨S2x512x1, .f32⟩
  | 51 => ⟨S2x512x1, .f32⟩
  | 52 => ⟨S2x512x768, .f32⟩
  | 53 => ⟨S2x512x768, .f32⟩
  | 54 => ⟨S2x1x768, .f32⟩
  | 55 => ⟨S_, .f32⟩
  | 56 => ⟨S2x1x768, .f32⟩
  | 57 => ⟨S2x1x768, .f32⟩
  | 58 => ⟨S2x512x768, .f32⟩
  | 59 => ⟨S2x512x768, .f32⟩
  | 60 => ⟨S2x1x768, .f32⟩
  | 61 => ⟨S2x512x768, .f32⟩
  | 62 => ⟨S2x512x768, .f32⟩
  | 63 => ⟨S2x512x3072, .f32⟩
  | 64 => ⟨S2x512x32x96, .f32⟩
  | 65 => ⟨S2x512x3072, .f32⟩
  | 66 => ⟨S2x512x32x96, .f32⟩
  | 67 => ⟨S2x512x3072, .f32⟩
  | 68 => ⟨S2x512x32x96, .f32⟩
  | 69 => ⟨S_, .f32⟩
  | 70 => ⟨S2x512x32x96, .f32⟩
  | 71 => ⟨S_, .f32⟩
  | 72 => ⟨S2x32x512x1, .f32⟩
  | 73 => ⟨S_, .f32⟩
  | 74 => ⟨S2x32x512x1, .f32⟩
  | 75 => ⟨S2x32x512x512, .f32⟩
  | 76 => ⟨S_, .f32⟩
  | 77 => ⟨S2x32x512x512, .f32⟩
  | 78 => ⟨S2x32x512x512, .f32⟩
  | 79 => ⟨S_, .f32⟩
  | 80 => ⟨S2x32x512, .f32⟩
  | 81 => ⟨S2x32x512x1, .f32⟩
  | 82 => ⟨S2x32x512x1, .f32⟩
  | 83 => ⟨S2x32x512x1, .f32⟩
  | 84 => ⟨S2x32x512x1, .f32⟩
  | 85 => ⟨S2x32x512x512, .f32⟩
  | 86 => ⟨S2x32x512x512, .f32⟩
  | 87 => ⟨S2x32x512x512, .f32⟩
  | 88 => ⟨S2x32x512x1, .f32⟩
  | 89 => ⟨S_, .f32⟩
  | 90 => ⟨S2x32x512, .f32⟩
  | 91 => ⟨S2x32x512x1, .f32⟩
  | 92 => ⟨S2x32x512x1, .f32⟩
  | 93 => ⟨S2x512x32x1, .f32⟩
  | 94 => ⟨S2x512x32x96, .f32⟩
  | 95 => ⟨S2x512x32x96, .f32⟩
  | 96 => ⟨S2x32x96x512, .f32⟩
  | 97 => ⟨S2x512x32x96, .f32⟩
  | 98 => ⟨S2x512x32x96, .f32⟩
  | 99 => ⟨S2x512x32x1, .f32⟩
  | 100 => ⟨S2x512x32x96, .f32⟩
  | 101 => ⟨S2x512x32x96, .f32⟩
  | 102 => ⟨S2x512x3072, .f32⟩
  | 103 => ⟨S2x512x768, .f32⟩
  | 104 => ⟨S2x1x768, .f32⟩
  | 105 => ⟨S2x512x768, .f32⟩
  | 106 => ⟨S2x512x768, .f32⟩
  | 107 => ⟨S2x512x768, .f32⟩
  | 108 => ⟨S_, .f32⟩
  | 109 => ⟨S2x512, .f32⟩
  | 110 => ⟨S2x512x1, .f32⟩
  | 111 => ⟨S_, .f32⟩
  | 112 => ⟨S2x512x1, .f32⟩
  | 113 => ⟨S2x512x1, .f32⟩
  | 114 => ⟨S_, .i32⟩
  | 115 => ⟨S_, .f32⟩
  | 116 => ⟨S2x512, .f32⟩
  | 117 => ⟨S2x512x1, .f32⟩
  | 118 => ⟨S_, .f32⟩
  | 119 => ⟨S2x512x1, .f32⟩
  | 120 => ⟨S2x512x1, .f32⟩
  | 121 => ⟨S2x512x768, .f32⟩
  | 122 => ⟨S2x512x768, .f32⟩
  | 123 => ⟨S2x512x768, .f32⟩
  | 124 => ⟨S_, .f32⟩
  | 125 => ⟨S_, .f32⟩
  | 126 => ⟨S_, .f32⟩
  | 127 => ⟨S_, .f32⟩
  | _ => ⟨S2x512x768, .f32⟩

abbrev hbmTy0_1 (i : Nat) : BufTy := match i % 128 with
  | 0 => ⟨S2x512, .f32⟩
  | 1 => ⟨S2x512x1, .f32⟩
  | 2 => ⟨S2x512x1, .f32⟩
  | 3 => ⟨S2x512x1, .f32⟩
  | 4 => ⟨S_, .f32⟩
  | 5 => ⟨S_, .i1⟩
  | 6 => ⟨S_, .f32⟩
  | 7 => ⟨S_, .f32⟩
  | 8 => ⟨S2x512x1, .f32⟩
  | 9 => ⟨S2x512x1, .f32⟩
  | 10 => ⟨S2x512x768, .f32⟩
  | 11 => ⟨S2x512x768, .f32⟩
  | 12 => ⟨S_, .f32⟩
  | 13 => ⟨S2x512x1, .f32⟩
  | 14 => ⟨S2x512x1, .f32⟩
  | 15 => ⟨S2x512x1, .f32⟩
  | 16 => ⟨S2x512x768, .f32⟩
  | 17 => ⟨S2x512x768, .f32⟩
  | 18 => ⟨S2x1x768, .f32⟩
  | 19 => ⟨S_, .f32⟩
  | 20 => ⟨S2x1x768, .f32⟩
  | 21 => ⟨S2x1x768, .f32⟩
  | 22 => ⟨S2x512x768, .f32⟩
  | 23 => ⟨S2x512x768, .f32⟩
  | 24 => ⟨S2x1x768, .f32⟩
  | 25 => ⟨S2x512x768, .f32⟩
  | 26 => ⟨S2x512x768, .f32⟩
  | 27 => ⟨S2x512x3072, .f32⟩
  | 28 => ⟨S2x512x3072, .f32⟩
  | 29 => ⟨S2x512x3072, .f32⟩
  | 30 => ⟨S_, .f32⟩
  | 31 => ⟨S2x512x3072, .f32⟩
  | 32 => ⟨S2x512x3072, .f32⟩
  | 33 => ⟨S2x512x3072, .f32⟩
  | 34 => ⟨S2x1x768, .f32⟩
  | 35 => ⟨S2x512x768, .f32⟩
  | 36 => ⟨S2x512x768, .f32⟩
  | 37 => ⟨S2x512x768, .f32⟩
  | 38 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_9 : Ref sig .tc := ⟨.hbm, 108, rfl⟩
abbrev main_v66 : Ref sig .tc := ⟨.hbm, 109, rfl⟩
abbrev main_v67 : Ref sig .tc := ⟨.hbm, 110, rfl⟩
abbrev main_cst_10 : Ref sig .tc := ⟨.hbm, 111, rfl⟩
abbrev main_v68 : Ref sig .tc := ⟨.hbm, 112, rfl⟩
abbrev main_v69 : Ref sig .tc := ⟨.hbm, 113, rfl⟩
abbrev main_c_11 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_cst_3 : Ref sig .tc := ⟨.hbm, 132, rfl⟩
abbrev main_call1_v13 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_13 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_14 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩

abbrev nD : Nat := 1
abbrev τ : Topo := Topo.v7x

variable {F : FTy → Type} [FloatOps F]

class Facts₀ : Prop where
  slices_S2x4608_S2x768_0_0 : S2x4608.Slices ![0, 0] S2x768
  slices_S2x4608_S2x768_0_768 : S2x4608.Slices ![0, 768] S2x768
  slices_S2x4608_S2x768_0_1536 : S2x4608.Slices ![0, 1536] S2x768
  slices_S2x4608_S2x768_0_2304 : S2x4608.Slices ![0, 2304] S2x768
  slices_S2x4608_S2x768_0_3072 : S2x4608.Slices ![0, 3072] S2x768
  slices_S2x4608_S2x768_0_3840 : S2x4608.Slices ![0, 3840] S2x768
  reducesTo_S2x512x768_S2x512_d2 : S2x512x768.ReducesTo [2] S2x512
  h_S_ : 0 < S_.numel
  bcast_S2x512_S2x512x1_0_1 : S2x512.BroadcastsInDim S2x512x1 (![0, 1] : Fin 2 → Fin S2x512x1.rank)
  bcast_S_S2x512x1 : S_.BroadcastsInDim S2x512x1 (![] : Fin 0 → Fin S2x512x1.rank)
  bcast_S2x512x1_S2x512x768_0_1_2 : S2x512x1.BroadcastsInDim S2x512x768 (![0, 1, 2] : Fin 3 → Fin S2x512x768.rank)
  bcast_S2x768_S2x1x768_0_2 : S2x768.BroadcastsInDim S2x1x768 (![0, 2] : Fin 2 → Fin S2x1x768.rank)
  bcast_S_S2x1x768 : S_.BroadcastsInDim S2x1x768 (![] : Fin 0 → Fin S2x1x768.rank)
  bcast_S2x1x768_S2x512x768_0_1_2 : S2x1x768.BroadcastsInDim S2x512x768 (![0, 1, 2] : Fin 3 → Fin S2x512x768.rank)
  shapeCasts_S2x512x3072_S2x512x32x96 : S2x512x3072.ShapeCasts S2x512x32x96
  bcast_S_S2x512x32x96 : S_.BroadcastsInDim S2x512x32x96 (![] : Fin 0 → Fin S2x512x32x96.rank)
  bcast_S_S2x32x512x1 : S_.BroadcastsInDim S2x32x512x1 (![] : Fin 0 → Fin S2x32x512x1.rank)
  bcast_S_S2x32x512x512 : S_.BroadcastsInDim S2x32x512x512 (![] : Fin 0 → Fin S2x32x512x512.rank)
  reducesTo_S2x32x512x512_S2x32x512_d3 : S2x32x512x512.ReducesTo [3] S2x32x512
  bcast_S2x32x512_S2x32x512x1_0_1_2 : S2x32x512.BroadcastsInDim S2x32x512x1 (![0, 1, 2] : Fin 3 → Fin S2x32x512x1.rank)
  bcast_S2x32x512x1_S2x32x512x512_0_1_2_3 : S2x32x512x1.BroadcastsInDim S2x32x512x512 (![0, 1, 2, 3] : Fin 4 → Fin S2x32x512x512.rank)
  transposes_S2x32x512x1_S2x512x32x1_0_2_1_3 : S2x32x512x1.Transposes [0, 2, 1, 3] S2x512x32x1
  bcast_S2x512x32x1_S2x512x32x96_0_1_2_3 : S2x512x32x1.BroadcastsInDim S2x512x32x96 (![0, 1, 2, 3] : Fin 4 → Fin S2x512x32x96.rank)
  transposes_S2x32x96x512_S2x512x32x96_0_3_1_2 : S2x32x96x512.Transposes [0, 3, 1, 2] S2x512x32x96
  shapeCasts_S2x512x32x96_S2x512x3072 : S2x512x32x96.ShapeCasts S2x512x3072
  bcast_S_S2x512x3072 : S_.BroadcastsInDim S2x512x3072 (![] : Fin 0 → Fin S2x512x3072.rank)
  dot_S2x128_S128x4608_S2x4608_1_0_0_1_n_n_wf : DotDims.WF S2x128 S128x4608 S2x4608 [1] [0] [0] [1] [] []
  dot_S2x512x768_S768x3072_S2x512x3072_2_0_01_1_n_n_wf : DotDims.WF S2x512x768 S768x3072 S2x512x3072 [2] [0] [0, 1] [1] [] []
  dot_S2x512x32x96_S2x512x32x96_S2x32x512x512_3_3_1_1_02_02_wf : DotDims.WF S2x512x32x96 S2x512x32x96 S2x32x512x512 [3] [3] [1] [1] [0, 2] [0, 2]
  dot_S2x512x32x96_S2x32x512x512_S2x32x96x512_1_3_3_2_02_01_wf : DotDims.WF S2x512x32x96 S2x32x512x512 S2x32x96x512 [1] [3] [3] [2] [0, 2] [0, 1]
  dot_S2x512x3072_S3072x768_S2x512x768_2_0_01_1_n_n_wf : DotDims.WF S2x512x3072 S3072x768 S2x512x768 [2] [0] [0, 1] [1] [] []

variable [Facts₀]

def dot_S2x128_S128x4608_S2x4608_1_0_0_1_n_n : DotDims S2x128 S128x4608 S2x4608 where
  lhsContracting := [1]
  rhsContracting := [0]
  lhsNonContracting := [0]
  rhsNonContracting := [1]
  lhsBatch := []
  rhsBatch := []
  wf := dot_S2x128_S128x4608_S2x4608_1_0_0_1_n_n_wf
def dot_S2x512x768_S768x3072_S2x512x3072_2_0_01_1_n_n : DotDims S2x512x768 S768x3072 S2x512x3072 where
  lhsContracting := [2]
  rhsContracting := [0]
  lhsNonContracting := [0, 1]
  rhsNonContracting := [1]
  lhsBatch := []
  rhsBatch := []
  wf := dot_S2x512x768_S768x3072_S2x512x3072_2_0_01_1_n_n_wf
def dot_S2x512x32x96_S2x512x32x96_S2x32x512x512_3_3_1_1_02_02 : DotDims S2x512x32x96 S2x512x32x96 S2x32x512x512 where
  lhsContracting := [3]
  rhsContracting := [3]
  lhsNonContracting := [1]
  rhsNonContracting := [1]
  lhsBatch := [0, 2]
  rhsBatch := [0, 2]
  wf := dot_S2x512x32x96_S2x512x32x96_S2x32x512x512_3_3_1_1_02_02_wf
def dot_S2x512x32x96_S2x32x512x512_S2x32x96x512_1_3_3_2_02_01 : DotDims S2x512x32x96 S2x32x512x512 S2x32x96x512 where
  lhsContracting := [1]
  rhsContracting := [3]
  lhsNonContracting := [3]
  rhsNonContracting := [2]
  lhsBatch := [0, 2]
  rhsBatch := [0, 1]
  wf := dot_S2x512x32x96_S2x32x512x512_S2x32x96x512_1_3_3_2_02_01_wf
def dot_S2x512x3072_S3072x768_S2x512x768_2_0_01_1_n_n : DotDims S2x512x3072 S3072x768 S2x512x768 where
  lhsContracting := [2]
  rhsContracting := [0]
  lhsNonContracting := [0, 1]
  rhsNonContracting := [1]
  lhsBatch := []
  rhsBatch := []
  wf := dot_S2x512x3072_S3072x768_S2x512x768_2_0_01_1_n_n_wf

class Facts : Prop extends Facts₀ where

variable [Facts]
-- ==== Proof.Preserves.lean ====
/-
  The idealized kernel differs from the printed one at four sites, each the same rewrite: a 256x768 tile of the
  residual stream is narrowed from f32 to bf16 and widened back before it is added to the gated block output.
  Over the extended reals a change of float format is the identity, so the round trip is dropped; at the word
  level it is the rounding through bf16, element by element. Each ledger entry is that one statement.
-/
import proofs.«900775_g7700000000000776_dist_diff_dit_htp_i_b2_s512_d768_hq4_v7x_i8_f32_1_alg».proof.Defs

namespace Cert.Proof.Preserves

open Idealize.ShloMosaic

/-- One entry of the ledger: the f32 → bf16 → f32 round trip at a 256x768 tile. -/
theorem entry : IdealRules.truncf_extf.Statement Cert.KernelIdeal.S256x768 .f32 .bf16 :=
  IdealRules.truncf_extf.statement Cert.KernelIdeal.S256x768 .f32 .bf16

/-- The four entries, in the ledger's order. -/
theorem preserves : Cert.preserves_Kernel_KernelIdeal := ⟨entry, entry, entry, entry⟩

end Cert.Proof.Preserves
-- ==== Proof.RefRunOut.lean ====
/-
  The reference program computes, from nine argument arrays, one adaptive-layer-norm transformer block:
  six modulation rows cut out of one small matrix product; a layer norm of the input (mean, variance by the
  two-pass formula with divisor 768 - 0, the guarded select of the variance helper, square root of variance plus
  epsilon, division), scaled and shifted by two of the rows; the three projections, the 32-head attention in its
  running-maximum form over a single key block (maximum against -inf, exponentials, the sum, the weighted values,
  the final division), the output projection gated by the third row and added to the input; then the same layer
  norm of that sum with rows four and five, the gated unit x / (1 + exp (-x)) between the two feed-forward
  products, gated by row six and added again.

  Every value of the program is named here as a function of the nine arrays (bundled as `x : Args F`), one
  definition per value, each the program's own operation applied to the names of its operands: `s_v7` is the value
  the program calls %7, `s_call0_v3` the value %3 of the first variance helper, `s_call0_call0_v1` the value %1 of the
  select helper called inside it; a value that depends on no argument (a constant, a constant's broadcast) takes
  none. Nothing is simplified: a stage is the operation, its operands are stages. `out` is the last one at the bundle
  of its nine arguments.
-/
import proofs.«900775_g7700000000000776_dist_diff_dit_htp_i_b2_s512_d768_hq4_v7x_i8_f32_1_alg».proof.ReferenceIdeal

noncomputable section

namespace Cert.ReferenceIdeal.RefRun

open Cert.ReferenceIdeal Idealize.ShloMosaic Idealize.SL.Sem

variable {F : FTy → Type} [FloatOps F] [Facts]
open Facts₀ Facts

/-- The nine argument arrays. -/
structure Args (F : FTy → Type) where
  a0 : Vec F S2x512x768 .f32
  a1 : Vec F S768x3072 .f32
  a2 : Vec F S768x3072 .f32
  a3 : Vec F S768x3072 .f32
  a4 : Vec F S3072x768 .f32
  a5 : Vec F S2x128 .f32
  a6 : Vec F S128x4608 .f32
  a7 : Vec F S768x3072 .f32
  a8 : Vec F S3072x768 .f32

variable (x : Args F)

/-! ### The six modulation rows -/

def s_v0 : Vec F S2x4608 .f32 := Host.dotGeneral dot_S2x128_S128x4608_S2x4608_1_0_0_1_n_n none x.a5 x.a6
def s_v1 : Vec F S2x768 .f32 := extractStridedSlice S2x768 ![0, 0] (s_v0 x) slices_S2x4608_S2x768_0_0
def s_v2 : Vec F S2x768 .f32 := extractStridedSlice S2x768 ![0, 768] (s_v0 x) slices_S2x4608_S2x768_0_768
def s_v3 : Vec F S2x768 .f32 := extractStridedSlice S2x768 ![0, 1536] (s_v0 x) slices_S2x4608_S2x768_0_1536
def s_v4 : Vec F S2x768 .f32 := extractStridedSlice S2x768 ![0, 2304] (s_v0 x) slices_S2x4608_S2x768_0_2304
def s_v5 : Vec F S2x768 .f32 := extractStridedSlice S2x768 ![0, 3072] (s_v0 x) slices_S2x4608_S2x768_0_3072
def s_v6 : Vec F S2x768 .f32 := extractStridedSlice S2x768 ![0, 3840] (s_v0 x) slices_S2x4608_S2x768_0_3840

/-! ### The first layer norm: the mean -/

def s_cst : Vec F S_ .f32 := constant S_ .f32 0x00000000#32
def s_v7 : Vec F S2x512 .f32 := Host.reduceAdd x.a0 (s_cst (F := F)) reducesTo_S2x512x768_S2x512_d2 h_S_
def s_v8 : Vec F S2x512x1 .f32 := broadcastInDim S2x512x1 ![0, 1] bcast_S2x512_S2x512x1_0_1 (s_v7 x)
def s_cst_0 : Vec F S_ .f32 := constant S_ .f32 0x44400000#32
def s_v9 : Vec F S2x512x1 .f32 := broadcastInDim S2x512x1 ![] bcast_S_S2x512x1 (s_cst_0 (F := F))
def s_v10 : Vec F S2x512x1 .f32 := Host.divf (s_v8 x) (s_v9 (F := F))
def s_c : Vec F S_ .i32 := constantI S_ 32 0#32

/-! ### The first variance helper, on the input -/

def s_call0_cst : Vec F S_ .f32 := constant S_ .f32 0x00000000#32
def s_call0_v0 : Vec F S2x512 .f32 := Host.reduceAdd x.a0 (s_call0_cst (F := F)) reducesTo_S2x512x768_S2x512_d2 h_S_
def s_call0_v1 : Vec F S2x512x1 .f32 := broadcastInDim S2x512x1 ![0, 1] bcast_S2x512_S2x512x1_0_1 (s_call0_v0 x)
def s_call0_cst_0 : Vec F S_ .f32 := constant S_ .f32 0x44400000#32
def s_call0_v2 : Vec F S2x512x1 .f32 := broadcastInDim S2x512x1 ![] bcast_S_S2x512x1 (s_call0_cst_0 (F := F))
def s_call0_v3 : Vec F S2x512x1 .f32 := Host.divf (s_call0_v1 x) (s_call0_v2 (F := F))
def s_call0_v4 : Vec F S2x512x768 .f32 := broadcastInDim S2x512x768 ![0, 1, 2] bcast_S2x512x1_S2x512x768_0_1_2 (s_call0_v3 x)
def s_call0_v5 : Vec F S2x512x768 .f32 := subf x.a0 (s_call0_v4 x)
def s_call0_v6 : Vec F S2x512x768 .f32 := mulf (s_call0_v5 x) (s_call0_v5 x)
def s_call0_v7 : Vec F S_ .f32 := sitofp .f32 (s_c (F := F))
def s_call0_cst_1 : Vec F S_ .f32 := constant S_ .f32 0x44400000#32
def s_call0_v8 : Vec F S_ .f32 := subf (s_call0_cst_1 (F := F)) (s_call0_v7 (F := F))
def s_call0_cst_2 : Vec F S_ .f32 := constant S_ .f32 0x00000000#32
def s_call0_v9 : Vec F S2x512 .f32 := Host.reduceAdd (s_call0_v6 x) (s_call0_cst_2 (F := F)) reducesTo_S2x512x768_S2x512_d2 h_S_
def s_call0_v10 : Vec F S2x512x1 .f32 := broadcastInDim S2x512x1 ![0, 1] bcast_S2x512_S2x512x1_0_1 (s_call0_v9 x)
def s_call0_v11 : Vec F S2x512x1 .f32 := broadcastInDim S2x512x1 ![] bcast_S_S2x512x1 (s_call0_v8 (F := F))
def s_call0_v12 : Vec F S2x512x1 .f32 := Host.divf (s_call0_v10 x) (s_call0_v11 (F := F))
def s_call0_cst_3 : Vec F S_ .f32 := constant S_ .f32 0x00000000#32
def s_call0_v13 : Vec F S_ .i1 := cmpf .ogt (s_call0_v8 (F := F)) (s_call0_cst_3 (F := F))
def s_call0_cst_4 : Vec F S_ .f32 := constant S_ .f32 0x7FC00000#32
def s_call0_call0_v0 : Vec F S_ .f32 := s_call0_cst_4 (F := F)
def s_call0_call0_v1 : Vec F S2x512x1 .f32 := broadcastInDim S2x512x1 ![] bcast_S_S2x512x1 (s_call0_call0_v0 (F := F))
def s_v11 : Vec F S2x512x1 .f32 :=
  select (broadcastInDim S2x512x1 ![] bcast_S_S2x512x1 (s_call0_v13 (F := F))) (s_call0_v12 x) (s_call0_call0_v1 (F := F))

/-! ### The first layer norm: centred, divided, scaled and shifted -/

def s_v12 : Vec F S2x512x768 .f32 := broadcastInDim S2x512x768 ![0, 1, 2] bcast_S2x512x1_S2x512x768_0_1_2 (s_v10 x)
def s_v13 : Vec F S2x512x768 .f32 := subf x.a0 (s_v12 x)
def s_cst_1 : Vec F S_ .f32 := constant S_ .f32 0x3727C5AC#32
def s_v14 : Vec F S2x512x1 .f32 := broadcastInDim S2x512x1 ![] bcast_S_S2x512x1 (s_cst_1 (F := F))
def s_v15 : Vec F S2x512x1 .f32 := addf (s_v11 x) (s_v14 (F := F))
def s_v16 : Vec F S2x512x1 .f32 := Host.sqrt (s_v15 x)
def s_v17 : Vec F S2x512x768 .f32 := broadcastInDim S2x512x768 ![0, 1, 2] bcast_S2x512x1_S2x512x768_0_1_2 (s_v16 x)
def s_v18 : Vec F S2x512x768 .f32 := Host.divf (s_v13 x) (s_v17 x)
def s_v19 : Vec F S2x1x768 .f32 := broadcastInDim S2x1x768 ![0, 2] bcast_S2x768_S2x1x768_0_2 (s_v1 x)
def s_cst_2 : Vec F S_ .f32 := constant S_ .f32 0x3F800000#32
def s_v20 : Vec F S2x1x768 .f32 := broadcastInDim S2x1x768 ![] bcast_S_S2x1x768 (s_cst_2 (F := F))
def s_v21 : Vec F S2x1x768 .f32 := addf (s_v20 (F := F)) (s_v19 x)
def s_v22 : Vec F S2x512x768 .f32 := broadcastInDim S2x512x768 ![0, 1, 2] bcast_S2x1x768_S2x512x768_0_1_2 (s_v21 x)
def s_v23 : Vec F S2x512x768 .f32 := mulf (s_v18 x) (s_v22 x)
def s_v24 : Vec F S2x1x768 .f32 := broadcastInDim S2x1x768 ![0, 2] bcast_S2x768_S2x1x768_0_2 (s_v2 x)
def s_v25 : Vec F S2x512x768 .f32 := broadcastInDim S2x512x768 ![0, 1, 2] bcast_S2x1x768_S2x512x768_0_1_2 (s_v24 x)
def s_v26 : Vec F S2x512x768 .f32 := addf (s_v23 x) (s_v25 x)

/-! ### The three projections, split into 32 heads of 96 -/

def s_v27 : Vec F S2x512x3072 .f32 := Host.dotGeneral dot_S2x512x768_S768x3072_S2x512x3072_2_0_01_1_n_n none (s_v26 x) x.a1
def s_v28 : Vec F S2x512x32x96 .f32 := shapeCast S2x512x32x96 (s_v27 x) shapeCasts_S2x512x3072_S2x512x32x96
def s_v29 : Vec F S2x512x3072 .f32 := Host.dotGeneral dot_S2x512x768_S768x3072_S2x512x3072_2_0_01_1_n_n none (s_v26 x) x.a2
def s_v30 : Vec F S2x512x32x96 .f32 := shapeCast S2x512x32x96 (s_v29 x) shapeCasts_S2x512x3072_S2x512x32x96
def s_v31 : Vec F S2x512x3072 .f32 := Host.dotGeneral dot_S2x512x768_S768x3072_S2x512x3072_2_0_01_1_n_n none (s_v26 x) x.a3
def s_v32 : Vec F S2x512x32x96 .f32 := shapeCast S2x512x32x96 (s_v31 x) shapeCasts_S2x512x3072_S2x512x32x96

/-! ### Attention in running-maximum form, one key block -/

def s_cst_3 : Vec F S_ .f32 := constant S_ .f32 0x00000000#32
def s_v33 : Vec F S2x512x32x96 .f32 := broadcastInDim S2x512x32x96 ![] bcast_S_S2x512x32x96 (s_cst_3 (F := F))
def s_cst_4 : Vec F S_ .f32 := constant S_ .f32 0xFF800000#32
def s_v34 : Vec F S2x32x512x1 .f32 := broadcastInDim S2x32x512x1 ![] bcast_S_S2x32x512x1 (s_cst_4 (F := F))
def s_cst_5 : Vec F S_ .f32 := constant S_ .f32 0x00000000#32
def s_v35 : Vec F S2x32x512x1 .f32 := broadcastInDim S2x32x512x1 ![] bcast_S_S2x32x512x1 (s_cst_5 (F := F))
def s_v36 : Vec F S2x32x512x512 .f32 :=
  Host.dotGeneral dot_S2x512x32x96_S2x512x32x96_S2x32x512x512_3_3_1_1_02_02 none (s_v28 x) (s_v30 x)
def s_cst_6 : Vec F S_ .f32 := constant S_ .f32 0x3DD105EC#32
def s_v37 : Vec F S2x32x512x512 .f32 := broadcastInDim S2x32x512x512 ![] bcast_S_S2x32x512x512 (s_cst_6 (F := F))
def s_v38 : Vec F S2x32x512x512 .f32 := mulf (s_v36 x) (s_v37 (F := F))
def s_cst_7 : Vec F S_ .f32 := constant S_ .f32 0xFF800000#32
def s_v39 : Vec F S2x32x512 .f32 :=
  Host.reduce FloatOps.maximumf (s_v38 x) (s_cst_7 (F := F)) reducesTo_S2x32x512x512_S2x32x512_d3 h_S_
def s_v40 : Vec F S2x32x512x1 .f32 := broadcastInDim S2x32x512x1 ![0, 1, 2] bcast_S2x32x512_S2x32x512x1_0_1_2 (s_v39 x)
def s_v41 : Vec F S2x32x512x1 .f32 := maximumf (s_v34 (F := F)) (s_v40 x)
def s_v42 : Vec F S2x32x512x1 .f32 := subf (s_v34 (F := F)) (s_v41 x)
def s_v43 : Vec F S2x32x512x1 .f32 := Host.exp (s_v42 x)
def s_v44 : Vec F S2x32x512x512 .f32 := broadcastInDim S2x32x512x512 ![0, 1, 2, 3] bcast_S2x32x512x1_S2x32x512x512_0_1_2_3 (s_v41 x)
def s_v45 : Vec F S2x32x512x512 .f32 := subf (s_v38 x) (s_v44 x)
def s_v46 : Vec F S2x32x512x512 .f32 := Host.exp (s_v45 x)
def s_v47 : Vec F S2x32x512x1 .f32 := mulf (s_v35 (F := F)) (s_v43 x)
def s_cst_8 : Vec F S_ .f32 := constant S_ .f32 0x00000000#32
def s_v48 : Vec F S2x32x512 .f32 := Host.reduceAdd (s_v46 x) (s_cst_8 (F := F)) reducesTo_S2x32x512x512_S2x32x512_d3 h_S_
def s_v49 : Vec F S2x32x512x1 .f32 := broadcastInDim S2x32x512x1 ![0, 1, 2] bcast_S2x32x512_S2x32x512x1_0_1_2 (s_v48 x)
def s_v50 : Vec F S2x32x512x1 .f32 := addf (s_v47 x) (s_v49 x)
def s_v51 : Vec F S2x512x32x1 .f32 := transpose S2x512x32x1 [0, 2, 1, 3] (s_v43 x) transposes_S2x32x512x1_S2x512x32x1_0_2_1_3
def s_v52 : Vec F S2x512x32x96 .f32 := broadcastInDim S2x512x32x96 ![0, 1, 2, 3] bcast_S2x512x32x1_S2x512x32x96_0_1_2_3 (s_v51 x)
def s_v53 : Vec F S2x512x32x96 .f32 := mulf (s_v33 (F := F)) (s_v52 x)
def s_v54 : Vec F S2x32x96x512 .f32 :=
  Host.dotGeneral dot_S2x512x32x96_S2x32x512x512_S2x32x96x512_1_3_3_2_02_01 none (s_v32 x) (s_v46 x)
def s_v55 : Vec F S2x512x32x96 .f32 := transpose S2x512x32x96 [0, 3, 1, 2] (s_v54 x) transposes_S2x32x96x512_S2x512x32x96_0_3_1_2
def s_v56 : Vec F S2x512x32x96 .f32 := addf (s_v53 x) (s_v55 x)
def s_v57 : Vec F S2x512x32x1 .f32 := transpose S2x512x32x1 [0, 2, 1, 3] (s_v50 x) transposes_S2x32x512x1_S2x512x32x1_0_2_1_3
def s_v58 : Vec F S2x512x32x96 .f32 := broadcastInDim S2x512x32x96 ![0, 1, 2, 3] bcast_S2x512x32x1_S2x512x32x96_0_1_2_3 (s_v57 x)
def s_v59 : Vec F S2x512x32x96 .f32 := Host.divf (s_v56 x) (s_v58 x)
def s_v60 : Vec F S2x512x3072 .f32 := shapeCast S2x512x3072 (s_v59 x) shapeCasts_S2x512x32x96_S2x512x3072

/-! ### The output projection, gated, added to the input -/

def s_v61 : Vec F S2x512x768 .f32 := Host.dotGeneral dot_S2x512x3072_S3072x768_S2x512x768_2_0_01_1_n_n none (s_v60 x) x.a4
def s_v62 : Vec F S2x1x768 .f32 := broadcastInDim S2x1x768 ![0, 2] bcast_S2x768_S2x1x768_0_2 (s_v3 x)
def s_v63 : Vec F S2x512x768 .f32 := broadcastInDim S2x512x768 ![0, 1, 2] bcast_S2x1x768_S2x512x768_0_1_2 (s_v62 x)
def s_v64 : Vec F S2x512x768 .f32 := mulf (s_v63 x) (s_v61 x)
def s_v65 : Vec F S2x512x768 .f32 := addf x.a0 (s_v64 x)

/-! ### The second layer norm: the mean of the sum -/

def s_cst_9 : Vec F S_ .f32 := constant S_ .f32 0x00000000#32
def s_v66 : Vec F S2x512 .f32 := Host.reduceAdd (s_v65 x) (s_cst_9 (F := F)) reducesTo_S2x512x768_S2x512_d2 h_S_
def s_v67 : Vec F S2x512x1 .f32 := broadcastInDim S2x512x1 ![0, 1] bcast_S2x512_S2x512x1_0_1 (s_v66 x)
def s_cst_10 : Vec F S_ .f32 := constant S_ .f32 0x44400000#32
def s_v68 : Vec F S2x512x1 .f32 := broadcastInDim S2x512x1 ![] bcast_S_S2x512x1 (s_cst_10 (F := F))
def s_v69 : Vec F S2x512x1 .f32 := Host.divf (s_v67 x) (s_v68 (F := F))
def s_c_11 : Vec F S_ .i32 := constantI S_ 32 0#32

/-! ### The second variance helper, on the sum -/

def s_call1_cst : Vec F S_ .f32 := constant S_ .f32 0x00000000#32
def s_call1_v0 : Vec F S2x512 .f32 := Host.reduceAdd (s_v65 x) (s_call1_cst (F := F)) reducesTo_S2x512x768_S2x512_d2 h_S_
def s_call1_v1 : Vec F S2x512x1 .f32 := broadcastInDim S2x512x1 ![0, 1] bcast_S2x512_S2x512x1_0_1 (s_call1_v0 x)
def s_call1_cst_0 : Vec F S_ .f32 := constant S_ .f32 0x44400000#32
def s_call1_v2 : Vec F S2x512x1 .f32 := broadcastInDim S2x512x1 ![] bcast_S_S2x512x1 (s_call1_cst_0 (F := F))
def s_call1_v3 : Vec F S2x512x1 .f32 := Host.divf (s_call1_v1 x) (s_call1_v2 (F := F))
def s_call1_v4 : Vec F S2x512x768 .f32 := broadcastInDim S2x512x768 ![0, 1, 2] bcast_S2x512x1_S2x512x768_0_1_2 (s_call1_v3 x)
def s_call1_v5 : Vec F S2x512x768 .f32 := subf (s_v65 x) (s_call1_v4 x)
def s_call1_v6 : Vec F S2x512x768 .f32 := mulf (s_call1_v5 x) (s_call1_v5 x)
def s_call1_v7 : Vec F S_ .f32 := sitofp .f32 (s_c_11 (F := F))
def s_call1_cst_1 : Vec F S_ .f32 := constant S_ .f32 0x44400000#32
def s_call1_v8 : Vec F S_ .f32 := subf (s_call1_cst_1 (F := F)) (s_call1_v7 (F := F))
def s_call1_cst_2 : Vec F S_ .f32 := constant S_ .f32 0x00000000#32
def s_call1_v9 : Vec F S2x512 .f32 := Host.reduceAdd (s_call1_v6 x) (s_call1_cst_2 (F := F)) reducesTo_S2x512x768_S2x512_d2 h_S_
def s_call1_v10 : Vec F S2x512x1 .f32 := broadcastInDim S2x512x1 ![0, 1] bcast_S2x512_S2x512x1_0_1 (s_call1_v9 x)
def s_call1_v11 : Vec F S2x512x1 .f32 := broadcastInDim S2x512x1 ![] bcast_S_S2x512x1 (s_call1_v8 (F := F))
def s_call1_v12 : Vec F S2x512x1 .f32 := Host.divf (s_call1_v10 x) (s_call1_v11 (F := F))
def s_call1_cst_3 : Vec F S_ .f32 := constant S_ .f32 0x00000000#32
def s_call1_v13 : Vec F S_ .i1 := cmpf .ogt (s_call1_v8 (F := F)) (s_call1_cst_3 (F := F))
def s_call1_cst_4 : Vec F S_ .f32 := constant S_ .f32 0x7FC00000#32
def s_call1_call0_v0 : Vec F S_ .f32 := s_call1_cst_4 (F := F)
def s_call1_call0_v1 : Vec F S2x512x1 .f32 := broadcastInDim S2x512x1 ![] bcast_S_S2x512x1 (s_call1_call0_v0 (F := F))
def s_v70 : Vec F S2x512x1 .f32 :=
  select (broadcastInDim S2x512x1 ![] bcast_S_S2x512x1 (s_call1_v13 (F := F))) (s_call1_v12 x) (s_call1_call0_v1 (F := F))

/-! ### The second layer norm: centred, divided, scaled and shifted -/

def s_v71 : Vec F S2x512x768 .f32 := broadcastInDim S2x512x768 ![0, 1, 2] bcast_S2x512x1_S2x512x768_0_1_2 (s_v69 x)
def s_v72 : Vec F S2x512x768 .f32 := subf (s_v65 x) (s_v71 x)
def s_cst_12 : Vec F S_ .f32 := constant S_ .f32 0x3727C5AC#32
def s_v73 : Vec F S2x512x1 .f32 := broadcastInDim S2x512x1 ![] bcast_S_S2x512x1 (s_cst_12 (F := F))
def s_v74 : Vec F S2x512x1 .f32 := addf (s_v70 x) (s_v73 (F := F))
def s_v75 : Vec F S2x512x1 .f32 := Host.sqrt (s_v74 x)
def s_v76 : Vec F S2x512x768 .f32 := broadcastInDim S2x512x768 ![0, 1, 2] bcast_S2x512x1_S2x512x768_0_1_2 (s_v75 x)
def s_v77 : Vec F S2x512x768 .f32 := Host.divf (s_v72 x) (s_v76 x)
def s_v78 : Vec F S2x1x768 .f32 := broadcastInDim S2x1x768 ![0, 2] bcast_S2x768_S2x1x768_0_2 (s_v4 x)
def s_cst_13 : Vec F S_ .f32 := constant S_ .f32 0x3F800000#32
def s_v79 : Vec F S2x1x768 .f32 := broadcastInDim S2x1x768 ![] bcast_S_S2x1x768 (s_cst_13 (F := F))
def s_v80 : Vec F S2x1x768 .f32 := addf (s_v79 (F := F)) (s_v78 x)
def s_v81 : Vec F S2x512x768 .f32 := broadcastInDim S2x512x768 ![0, 1, 2] bcast_S2x1x768_S2x512x768_0_1_2 (s_v80 x)
def s_v82 : Vec F S2x512x768 .f32 := mulf (s_v77 x) (s_v81 x)
def s_v83 : Vec F S2x1x768 .f32 := broadcastInDim S2x1x768 ![0, 2] bcast_S2x768_S2x1x768_0_2 (s_v5 x)
def s_v84 : Vec F S2x512x768 .f32 := broadcastInDim S2x512x768 ![0, 1, 2] bcast_S2x1x768_S2x512x768_0_1_2 (s_v83 x)
def s_v85 : Vec F S2x512x768 .f32 := addf (s_v82 x) (s_v84 x)

/-! ### The feed-forward with its gated unit, gated by the sixth row, added to the sum -/

def s_v86 : Vec F S2x512x3072 .f32 := Host.dotGeneral dot_S2x512x768_S768x3072_S2x512x3072_2_0_01_1_n_n none (s_v85 x) x.a7
def s_v87 : Vec F S2x512x3072 .f32 := Host.negf (s_v86 x)
def s_v88 : Vec F S2x512x3072 .f32 := Host.exp (s_v87 x)
def s_cst_14 : Vec F S_ .f32 := constant S_ .f32 0x3F800000#32
def s_v89 : Vec F S2x512x3072 .f32 := broadcastInDim S2x512x3072 ![] bcast_S_S2x512x3072 (s_cst_14 (F := F))
def s_v90 : Vec F S2x512x3072 .f32 := addf (s_v89 (F := F)) (s_v88 x)
def s_v91 : Vec F S2x512x3072 .f32 := Host.divf (s_v86 x) (s_v90 x)
def s_v92 : Vec F S2x1x768 .f32 := broadcastInDim S2x1x768 ![0, 2] bcast_S2x768_S2x1x768_0_2 (s_v6 x)
def s_v93 : Vec F S2x512x768 .f32 := Host.dotGeneral dot_S2x512x3072_S3072x768_S2x512x768_2_0_01_1_n_n none (s_v91 x) x.a8
def s_v94 : Vec F S2x512x768 .f32 := broadcastInDim S2x512x768 ![0, 1, 2] bcast_S2x1x768_S2x512x768_0_1_2 (s_v92 x)
def s_v95 : Vec F S2x512x768 .f32 := mulf (s_v94 x) (s_v93 x)
def s_v96 : Vec F S2x512x768 .f32 := addf (s_v65 x) (s_v95 x)

/-- The program's result as a function of its nine argument arrays: the last stage. -/
def out (a0 : Vec F S2x512x768 .f32) (a1 a2 a3 : Vec F S768x3072 .f32) (a4 : Vec F S3072x768 .f32)
    (a5 : Vec F S2x128 .f32) (a6 : Vec F S128x4608 .f32) (a7 : Vec F S768x3072 .f32) (a8 : Vec F S3072x768 .f32) :
    Vec F S2x512x768 .f32 :=
  s_v96 ⟨a0, a1, a2, a3, a4, a5, a6, a7, a8⟩

end Cert.ReferenceIdeal.RefRun

end
-- ==== Proof.RefRunOps.lean ====
/-
  The reference's @main is a straight line of host operations: no loop, no kernel, every value written once into a
  buffer of its own. Its two windows are listed here as the operations they run, in order, the two variance helpers
  (and the select helper each calls) written out where they are called, over the buffers their call records name.
  Running the line is folding the operations over the launch contents; what the fold leaves in the result buffer
  is the composition of the operations' functions along the program's data flow, which is `out` of the nine
  argument arrays by unfolding both sides; an argument buffer is written by no operation and keeps its contents.
-/
import proofs.«900775_g7700000000000776_dist_diff_dit_htp_i_b2_s512_d768_hq4_v7x_i8_f32_1_alg».proof.Proof.RefRunOut
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The first window's 82 operations: @main's statements 1 to 60, the first variance helper's 23 in place of its call. -/
abbrev ops0 : List (HloOp τ sig (Elt F)) :=
  [ binary main_arg5 main_arg6 main_v0 (fun l r => Host.dotGeneral dot_S2x128_S128x4608_S2x4608_1_0_0_1_n_n none l r),
    unary main_v0 main_v1 (extractStridedSlice S2x768 ![0, 0] · slices_S2x4608_S2x768_0_0),
    unary main_v0 main_v2 (extractStridedSlice S2x768 ![0, 768] · slices_S2x4608_S2x768_0_768),
    unary main_v0 main_v3 (extractStridedSlice S2x768 ![0, 1536] · slices_S2x4608_S2x768_0_1536),
    unary main_v0 main_v4 (extractStridedSlice S2x768 ![0, 2304] · slices_S2x4608_S2x768_0_2304),
    unary main_v0 main_v5 (extractStridedSlice S2x768 ![0, 3072] · slices_S2x4608_S2x768_0_3072),
    unary main_v0 main_v6 (extractStridedSlice S2x768 ![0, 3840] · slices_S2x4608_S2x768_0_3840),
    nullary main_cst (constant S_ .f32 0x00000000#32),
    binary main_arg0 main_cst main_v7 (fun x v => Host.reduceAdd x v reducesTo_S2x512x768_S2x512_d2 h_S_),
    unary main_v7 main_v8 (broadcastInDim S2x512x1 ![0, 1] bcast_S2x512_S2x512x1_0_1),
    nullary main_cst_0 (constant S_ .f32 0x44400000#32),
    unary main_cst_0 main_v9 (broadcastInDim S2x512x1 ![] bcast_S_S2x512x1),
    binary main_v8 main_v9 main_v10 Host.divf,
    nullary main_c (constantI S_ 32 0#32),
    TRef.nullary main_call0.cst (constant S_ .f32 0x00000000#32),
    TRef.binary (.of main_arg0) main_call0.cst main_call0.v0 (fun x v => Host.reduceAdd x v reducesTo_S2x512x768_S2x512_d2 h_S_),
    TRef.unary main_call0.v0 main_call0.v1 (broadcastInDim S2x512x1 ![0, 1] bcast_S2x512_S2x512x1_0_1),
    TRef.nullary main_call0.cst_0 (constant S_ .f32 0x44400000#32),
    TRef.unary main_call0.cst_0 main_call0.v2 (broadcastInDim S2x512x1 ![] bcast_S_S2x512x1),
    TRef.binary main_call0.v1 main_call0.v2 main_call0.v3 Host.divf,
    TRef.unary main_call0.v3 main_call0.v4 (broadcastInDim S2x512x768 ![0, 1, 2] bcast_S2x512x1_S2x512x768_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44400000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x512x768_S2x512_d2 h_S_),
    TRef.unary main_call0.v9 main_call0.v10 (broadcastInDim S2x512x1 ![0, 1] bcast_S2x512_S2x512x1_0_1),
    TRef.unary main_call0.v8 main_call0.v11 (broadcastInDim S2x512x1 ![] bcast_S_S2x512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x512x1 ![] bcast_S_S2x512x1),
    TRef.ternary main_call0.v13 main_call0.v12 main_call0.call0.v1 main_call0.call0.v2
      (fun p a b => select (broadcastInDim S2x512x1 ![] bcast_S_S2x512x1 p) a b),
    unary main_v10 main_v12 (broadcastInDim S2x512x768 ![0, 1, 2] bcast_S2x512x1_S2x512x768_0_1_2),
    binary main_arg0 main_v12 main_v13 subf,
    nullary main_cst_1 (constant S_ .f32 0x3727C5AC#32),
    unary main_cst_1 main_v14 (broadcastInDim S2x512x1 ![] bcast_S_S2x512x1),
    binary main_v11 main_v14 main_v15 addf,
    unary main_v15 main_v16 Host.sqrt,
    unary main_v16 main_v17 (broadcastInDim S2x512x768 ![0, 1, 2] bcast_S2x512x1_S2x512x768_0_1_2),
    binary main_v13 main_v17 main_v18 Host.divf,
    unary main_v1 main_v19 (broadcastInDim S2x1x768 ![0, 2] bcast_S2x768_S2x1x768_0_2),
    nullary main_cst_2 (constant S_ .f32 0x3F800000#32),
    unary main_cst_2 main_v20 (broadcastInDim S2x1x768 ![] bcast_S_S2x1x768),
    binary main_v20 main_v19 main_v21 addf,
    unary main_v21 main_v22 (broadcastInDim S2x512x768 ![0, 1, 2] bcast_S2x1x768_S2x512x768_0_1_2),
    binary main_v18 main_v22 main_v23 mulf,
    unary main_v2 main_v24 (broadcastInDim S2x1x768 ![0, 2] bcast_S2x768_S2x1x768_0_2),
    unary main_v24 main_v25 (broadcastInDim S2x512x768 ![0, 1, 2] bcast_S2x1x768_S2x512x768_0_1_2),
    binary main_v23 main_v25 main_v26 addf,
    binary main_v26 main_arg1 main_v27 (fun l r => Host.dotGeneral dot_S2x512x768_S768x3072_S2x512x3072_2_0_01_1_n_n none l r),
    reshape main_v27 main_v28 rfl shapeCasts_S2x512x3072_S2x512x32x96,
    binary main_v26 main_arg2 main_v29 (fun l r => Host.dotGeneral dot_S2x512x768_S768x3072_S2x512x3072_2_0_01_1_n_n none l r),
    reshape main_v29 main_v30 rfl shapeCasts_S2x512x3072_S2x512x32x96,
    binary main_v26 main_arg3 main_v31 (fun l r => Host.dotGeneral dot_S2x512x768_S768x3072_S2x512x3072_2_0_01_1_n_n none l r),
    reshape main_v31 main_v32 rfl shapeCasts_S2x512x3072_S2x512x32x96,
    nullary main_cst_3 (constant S_ .f32 0x00000000#32),
    unary main_cst_3 main_v33 (broadcastInDim S2x512x32x96 ![] bcast_S_S2x512x32x96),
    nullary main_cst_4 (constant S_ .f32 0xFF800000#32),
    unary main_cst_4 main_v34 (broadcastInDim S2x32x512x1 ![] bcast_S_S2x32x512x1),
    nullary main_cst_5 (constant S_ .f32 0x00000000#32),
    unary main_cst_5 main_v35 (broadcastInDim S2x32x512x1 ![] bcast_S_S2x32x512x1),
    binary main_v28 main_v30 main_v36 (fun l r => Host.dotGeneral dot_S2x512x32x96_S2x512x32x96_S2x32x512x512_3_3_1_1_02_02 none l r),
    nullary main_cst_6 (constant S_ .f32 0x3DD105EC#32),
    unary main_cst_6 main_v37 (broadcastInDim S2x32x512x512 ![] bcast_S_S2x32x512x512),
    binary main_v36 main_v37 main_v38 mulf,
    nullary main_cst_7 (constant S_ .f32 0xFF800000#32),
    binary main_v38 main_cst_7 main_v39 (fun x v => Host.reduce FloatOps.maximumf x v reducesTo_S2x32x512x512_S2x32x512_d3 h_S_),
    unary main_v39 main_v40 (broadcastInDim S2x32x512x1 ![0, 1, 2] bcast_S2x32x512_S2x32x512x1_0_1_2),
    binary main_v34 main_v40 main_v41 maximumf,
    binary main_v34 main_v41 main_v42 subf,
    unary main_v42 main_v43 Host.exp,
    unary main_v41 main_v44 (broadcastInDim S2x32x512x512 ![0, 1, 2, 3] bcast_S2x32x512x1_S2x32x512x512_0_1_2_3),
    binary main_v38 main_v44 main_v45 subf,
    unary main_v45 main_v46 Host.exp,
    binary main_v35 main_v43 main_v47 mulf,
    nullary main_cst_8 (constant S_ .f32 0x00000000#32),
    binary main_v46 main_cst_8 main_v48 (fun x v => Host.reduceAdd x v reducesTo_S2x32x512x512_S2x32x512_d3 h_S_) ]

/-- The second window's 76 operations: @main's statements 61 to 114, the second variance helper's 23 in place of its call. -/
abbrev ops1 : List (HloOp τ sig (Elt F)) :=
  [ unary main_v48 main_v49 (broadcastInDim S2x32x512x1 ![0, 1, 2] bcast_S2x32x512_S2x32x512x1_0_1_2),
    binary main_v47 main_v49 main_v50 addf,
    unary main_v43 main_v51 (transpose S2x512x32x1 [0, 2, 1, 3] · transposes_S2x32x512x1_S2x512x32x1_0_2_1_3),
    unary main_v51 main_v52 (broadcastInDim S2x512x32x96 ![0, 1, 2, 3] bcast_S2x512x32x1_S2x512x32x96_0_1_2_3),
    binary main_v33 main_v52 main_v53 mulf,
    binary main_v32 main_v46 main_v54 (fun l r => Host.dotGeneral dot_S2x512x32x96_S2x32x512x512_S2x32x96x512_1_3_3_2_02_01 none l r),
    unary main_v54 main_v55 (transpose S2x512x32x96 [0, 3, 1, 2] · transposes_S2x32x96x512_S2x512x32x96_0_3_1_2),
    binary main_v53 main_v55 main_v56 addf,
    unary main_v50 main_v57 (transpose S2x512x32x1 [0, 2, 1, 3] · transposes_S2x32x512x1_S2x512x32x1_0_2_1_3),
    unary main_v57 main_v58 (broadcastInDim S2x512x32x96 ![0, 1, 2, 3] bcast_S2x512x32x1_S2x512x32x96_0_1_2_3),
    binary main_v56 main_v58 main_v59 Host.divf,
    reshape main_v59 main_v60 rfl shapeCasts_S2x512x32x96_S2x512x3072,
    binary main_v60 main_arg4 main_v61 (fun l r => Host.dotGeneral dot_S2x512x3072_S3072x768_S2x512x768_2_0_01_1_n_n none l r),
    unary main_v3 main_v62 (broadcastInDim S2x1x768 ![0, 2] bcast_S2x768_S2x1x768_0_2),
    unary main_v62 main_v63 (broadcastInDim S2x512x768 ![0, 1, 2] bcast_S2x1x768_S2x512x768_0_1_2),
    binary main_v63 main_v61 main_v64 mulf,
    binary main_arg0 main_v64 main_v65 addf,
    nullary main_cst_9 (constant S_ .f32 0x00000000#32),
    binary main_v65 main_cst_9 main_v66 (fun x v => Host.reduceAdd x v reducesTo_S2x512x768_S2x512_d2 h_S_),
    unary main_v66 main_v67 (broadcastInDim S2x512x1 ![0, 1] bcast_S2x512_S2x512x1_0_1),
    nullary main_cst_10 (constant S_ .f32 0x44400000#32),
    unary main_cst_10 main_v68 (broadcastInDim S2x512x1 ![] bcast_S_S2x512x1),
    binary main_v67 main_v68 main_v69 Host.divf,
    nullary main_c_11 (constantI S_ 32 0#32),
    TRef.nullary main_call1.cst (constant S_ .f32 0x00000000#32),
    TRef.binary (.of main_v65) main_call1.cst main_call1.v0 (fun x v => Host.reduceAdd x v reducesTo_S2x512x768_S2x512_d2 h_S_),
    TRef.unary main_call1.v0 main_call1.v1 (broadcastInDim S2x512x1 ![0, 1] bcast_S2x512_S2x512x1_0_1),
    TRef.nullary main_call1.cst_0 (constant S_ .f32 0x44400000#32),
    TRef.unary main_call1.cst_0 main_call1.v2 (broadcastInDim S2x512x1 ![] bcast_S_S2x512x1),
    TRef.binary main_call1.v1 main_call1.v2 main_call1.v3 Host.divf,
    TRef.unary main_call1.v3 main_call1.v4 (broadcastInDim S2x512x768 ![0, 1, 2] bcast_S2x512x1_S2x512x768_0_1_2),
    TRef.binary (.of main_v65) main_call1.v4 main_call1.v5 subf,
    TRef.binary main_call1.v5 main_call1.v5 main_call1.v6 mulf,
    TRef.unary (.of main_c_11) main_call1.v7 (sitofp .f32),
    TRef.nullary main_call1.cst_1 (constant S_ .f32 0x44400000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S2x512x768_S2x512_d2 h_S_),
    TRef.unary main_call1.v9 main_call1.v10 (broadcastInDim S2x512x1 ![0, 1] bcast_S2x512_S2x512x1_0_1),
    TRef.unary main_call1.v8 main_call1.v11 (broadcastInDim S2x512x1 ![] bcast_S_S2x512x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S2x512x1 ![] bcast_S_S2x512x1),
    TRef.ternary main_call1.v13 main_call1.v12 main_call1.call0.v1 main_call1.call0.v2
      (fun p a b => select (broadcastInDim S2x512x1 ![] bcast_S_S2x512x1 p) a b),
    unary main_v69 main_v71 (broadcastInDim S2x512x768 ![0, 1, 2] bcast_S2x512x1_S2x512x768_0_1_2),
    binary main_v65 main_v71 main_v72 subf,
    nullary main_cst_12 (constant S_ .f32 0x3727C5AC#32),
    unary main_cst_12 main_v73 (broadcastInDim S2x512x1 ![] bcast_S_S2x512x1),
    binary main_v70 main_v73 main_v74 addf,
    unary main_v74 main_v75 Host.sqrt,
    unary main_v75 main_v76 (broadcastInDim S2x512x768 ![0, 1, 2] bcast_S2x512x1_S2x512x768_0_1_2),
    binary main_v72 main_v76 main_v77 Host.divf,
    unary main_v4 main_v78 (broadcastInDim S2x1x768 ![0, 2] bcast_S2x768_S2x1x768_0_2),
    nullary main_cst_13 (constant S_ .f32 0x3F800000#32),
    unary main_cst_13 main_v79 (broadcastInDim S2x1x768 ![] bcast_S_S2x1x768),
    binary main_v79 main_v78 main_v80 addf,
    unary main_v80 main_v81 (broadcastInDim S2x512x768 ![0, 1, 2] bcast_S2x1x768_S2x512x768_0_1_2),
    binary main_v77 main_v81 main_v82 mulf,
    unary main_v5 main_v83 (broadcastInDim S2x1x768 ![0, 2] bcast_S2x768_S2x1x768_0_2),
    unary main_v83 main_v84 (broadcastInDim S2x512x768 ![0, 1, 2] bcast_S2x1x768_S2x512x768_0_1_2),
    binary main_v82 main_v84 main_v85 addf,
    binary main_v85 main_arg7 main_v86 (fun l r => Host.dotGeneral dot_S2x512x768_S768x3072_S2x512x3072_2_0_01_1_n_n none l r),
    unary main_v86 main_v87 Host.negf,
    unary main_v87 main_v88 Host.exp,
    nullary main_cst_14 (constant S_ .f32 0x3F800000#32),
    unary main_cst_14 main_v89 (broadcastInDim S2x512x3072 ![] bcast_S_S2x512x3072),
    binary main_v89 main_v88 main_v90 addf,
    binary main_v86 main_v90 main_v91 Host.divf,
    unary main_v6 main_v92 (broadcastInDim S2x1x768 ![0, 2] bcast_S2x768_S2x1x768_0_2),
    binary main_v91 main_arg8 main_v93 (fun l r => Host.dotGeneral dot_S2x512x3072_S3072x768_S2x512x768_2_0_01_1_n_n none l r),
    unary main_v92 main_v94 (broadcastInDim S2x512x768 ![0, 1, 2] bcast_S2x1x768_S2x512x768_0_1_2),
    binary main_v94 main_v93 main_v95 mulf,
    binary main_v65 main_v95 main_v96 addf ]

/-! ### @main is that line -/

set_option maxRecDepth 8192 in
set_option maxHeartbeats 4000000 in
/-- The first window is its operations in order: the helper's definition unfolds at its call, sequencing reassociates. -/
theorem part0_eq (c : Dev nD) : main_part0 (F := F) c = seq ops0 := rfl

set_option maxRecDepth 8192 in
set_option maxHeartbeats 4000000 in
/-- The second window likewise; its closing return is the line's. -/
theorem part1_eq (c : Dev nD) : main_part1 (F := F) c = seq ops1 := rfl

/-- @main runs the two windows one after the other: the line of both lists. -/
theorem main_eq (c : Dev nD) : main (F := F) c = seq (ops0 ++ ops1) := by
  rw [seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation of the first window touches TensorCore buffers only: one fact per operation, in order. -/
theorem ops0_sub : (ops0 : List (HloOp τ sig (Elt F))).Forall fun op => op.bufs ⊆ tcRefs τ sig :=
  ⟨binary_bufs_sub .., unary_bufs_sub .., unary_bufs_sub .., unary_bufs_sub .., unary_bufs_sub .., unary_bufs_sub ..,
    unary_bufs_sub .., nullary_bufs_sub .., binary_bufs_sub .., unary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., nullary_bufs_sub .., unary_bufs_sub .., binary_bufs_sub ..,
    unary_bufs_sub .., binary_bufs_sub .., unary_bufs_sub .., unary_bufs_sub .., binary_bufs_sub .., binary_bufs_sub ..,
    reshape_bufs_sub .., binary_bufs_sub .., reshape_bufs_sub .., binary_bufs_sub .., reshape_bufs_sub .., nullary_bufs_sub ..,
    unary_bufs_sub .., nullary_bufs_sub .., unary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., unary_bufs_sub .., binary_bufs_sub .., unary_bufs_sub ..,
    binary_bufs_sub .., nullary_bufs_sub .., binary_bufs_sub ..⟩

set_option maxRecDepth 8192 in
/-- The same for the second window. -/
theorem ops1_sub : (ops1 : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., binary_bufs_sub .., unary_bufs_sub .., unary_bufs_sub .., binary_bufs_sub .., reshape_bufs_sub ..,
    binary_bufs_sub .., unary_bufs_sub .., unary_bufs_sub .., binary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., nullary_bufs_sub .., unary_bufs_sub .., binary_bufs_sub ..,
    unary_bufs_sub .., binary_bufs_sub .., unary_bufs_sub .., unary_bufs_sub .., binary_bufs_sub .., binary_bufs_sub ..,
    unary_bufs_sub .., unary_bufs_sub .., nullary_bufs_sub .., unary_bufs_sub .., binary_bufs_sub .., binary_bufs_sub ..,
    unary_bufs_sub .., binary_bufs_sub .., unary_bufs_sub .., binary_bufs_sub .., binary_bufs_sub ..⟩

/-- Every operation of the line touches TensorCore buffers only. -/
theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

/-- Every operation determines its result. -/
theorem ops_fresh : ∀ op ∈ (ops0 ++ ops1 : List (HloOp τ sig (Elt F))), op.fresh = ∅ :=
  fun op h => (List.mem_append.mp h).elim (ops0_fresh op) (ops1_fresh op)

/-! ### The fold read back -/

set_option maxRecDepth 65536 in
set_option maxHeartbeats 64000000 in
/-- What the line leaves in the result buffer: each operation's result read at its own buffer is its function of its
    operands' contents, an operand's contents are what the operation before left there, down to the launch contents of
    the argument buffers; that composition is `out`, stage by stage, by unfolding. -/
theorem after_v96 (V : Valuation τ sig (Elt F)) :
    after (ops0 ++ ops1) V (main_v96 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [ops0, ops1, List.cons_append, List.nil_append]
  after_results_simp
  rfl

/-! An argument buffer is the result buffer of no operation: the fold leaves it as it was. -/

set_option maxRecDepth 65536 in
set_option maxHeartbeats 16000000 in
theorem after_arg0 (V : Valuation τ sig (Elt F)) :
    after (ops0 ++ ops1) V (main_arg0 : DevRef τ sig) = V (main_arg0 : DevRef τ sig) := by
  simp only [ops0, ops1, List.cons_append, List.nil_append]
  after_results_simp

set_option maxRecDepth 65536 in
set_option maxHeartbeats 16000000 in
theorem after_arg1 (V : Valuation τ sig (Elt F)) :
    after (ops0 ++ ops1) V (main_arg1 : DevRef τ sig) = V (main_arg1 : DevRef τ sig) := by
  simp only [ops0, ops1, List.cons_append, List.nil_append]
  after_results_simp

set_option maxRecDepth 65536 in
set_option maxHeartbeats 16000000 in
theorem after_arg2 (V : Valuation τ sig (Elt F)) :
    after (ops0 ++ ops1) V (main_arg2 : DevRef τ sig) = V (main_arg2 : DevRef τ sig) := by
  simp only [ops0, ops1, List.cons_append, List.nil_append]
  after_results_simp

set_option maxRecDepth 65536 in
set_option maxHeartbeats 16000000 in
theorem after_arg3 (V : Valuation τ sig (Elt F)) :
    after (ops0 ++ ops1) V (main_arg3 : DevRef τ sig) = V (main_arg3 : DevRef τ sig) := by
  simp only [ops0, ops1, List.cons_append, List.nil_append]
  after_results_simp

set_option maxRecDepth 65536 in
set_option maxHeartbeats 16000000 in
theorem after_arg4 (V : Valuation τ sig (Elt F)) :
    after (ops0 ++ ops1) V (main_arg4 : DevRef τ sig) = V (main_arg4 : DevRef τ sig) := by
  simp only [ops0, ops1, List.cons_append, List.nil_append]
  after_results_simp

set_option maxRecDepth 65536 in
set_option maxHeartbeats 16000000 in
theorem after_arg5 (V : Valuation τ sig (Elt F)) :
    after (ops0 ++ ops1) V (main_arg5 : DevRef τ sig) = V (main_arg5 : DevRef τ sig) := by
  simp only [ops0, ops1, List.cons_append, List.nil_append]
  after_results_simp

set_option maxRecDepth 65536 in
set_option maxHeartbeats 16000000 in
theorem after_arg6 (V : Valuation τ sig (Elt F)) :
    after (ops0 ++ ops1) V (main_arg6 : DevRef τ sig) = V (main_arg6 : DevRef τ sig) := by
  simp only [ops0, ops1, List.cons_append, List.nil_append]
  after_results_simp

set_option maxRecDepth 65536 in
set_option maxHeartbeats 16000000 in
theorem after_arg7 (V : Valuation τ sig (Elt F)) :
    after (ops0 ++ ops1) V (main_arg7 : DevRef τ sig) = V (main_arg7 : DevRef τ sig) := by
  simp only [ops0, ops1, List.cons_append, List.nil_append]
  after_results_simp

set_option maxRecDepth 65536 in
set_option maxHeartbeats 16000000 in
theorem after_arg8 (V : Valuation τ sig (Elt F)) :
    after (ops0 ++ ops1) V (main_arg8 : DevRef τ sig) = V (main_arg8 : DevRef τ sig) := by
  simp only [ops0, ops1, List.cons_append, List.nil_append]
  after_results_simp

/-! ### The run -/

/-- On every device, for any float values, from any memory with zero counters: every weakly fair execution of @main
    terminates, the result buffer holding `out` of the nine argument arrays' launch contents, the nine unchanged. -/
theorem run_all (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v96)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v96).trans (after_v96 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _)⟩)
    (run_seq scopedRefs_eq scopedSems_eq defs main (fun _ => ops0 ++ ops1) main_eq (fun _ => ops_sub) m ρ
      (fun _ => ops_fresh))

end Cert.ReferenceIdeal.RefRun

end
-- ==== Proof.RefRun.lean ====
/-
  The reference's run in the two forms the certificate asks for. On the one device the reference is compiled for,
  every weakly fair execution of @main ends with the result buffer holding `out` of the nine argument arrays as
  they stood at launch and with the nine arrays untouched: this is the general run at device 0. Dropping the
  sentence about the result leaves the frame; the precondition plays no part, a straight line of total host
  operations runs from any memory.
-/
import proofs.«900775_g7700000000000776_dist_diff_dit_htp_i_b2_s512_d768_hq4_v7x_i8_f32_1_alg».proof.Defs
import proofs.«900775_g7700000000000776_dist_diff_dit_htp_i_b2_s512_d768_hq4_v7x_i8_f32_1_alg».proof.Proof.RefRunOps

noncomputable section

namespace Cert.ReferenceIdeal.RefRun

open Cert.ReferenceIdeal Idealize.ShloMosaic Idealize.ShloMosaic.TcCoe Idealize.SL.Sem Idealize.ShloMosaic.StableHlo

variable [Facts]

/-- The reference's run at the ideal instance, on its device: the result is `out` of the launch contents of the nine
    argument arrays, which end unchanged. -/
theorem run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r =>
      r.2.mem (((0 : Dev nD).tc : Thread nD τ).loc main_v96)
          = out (m' (((0 : Dev nD).tc : Thread nD τ).loc main_arg0)) (m' (((0 : Dev nD).tc : Thread nD τ).loc main_arg1))
              (m' (((0 : Dev nD).tc : Thread nD τ).loc main_arg2)) (m' (((0 : Dev nD).tc : Thread nD τ).loc main_arg3))
              (m' (((0 : Dev nD).tc : Thread nD τ).loc main_arg4)) (m' (((0 : Dev nD).tc : Thread nD τ).loc main_arg5))
              (m' (((0 : Dev nD).tc : Thread nD τ).loc main_arg6)) (m' (((0 : Dev nD).tc : Thread nD τ).loc main_arg7))
              (m' (((0 : Dev nD).tc : Thread nD τ).loc main_arg8))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)
      ∧ r.2.mem (((0 : Dev nD).tc : Thread nD τ).loc main_arg2) = m' (((0 : Dev nD).tc : Thread nD τ).loc main_arg2)
      ∧ r.2.mem (((0 : Dev nD).tc : Thread nD τ).loc main_arg3) = m' (((0 : Dev nD).tc : Thread nD τ).loc main_arg3)
      ∧ r.2.mem (((0 : Dev nD).tc : Thread nD τ).loc main_arg4) = m' (((0 : Dev nD).tc : Thread nD τ).loc main_arg4)
      ∧ r.2.mem (((0 : Dev nD).tc : Thread nD τ).loc main_arg5) = m' (((0 : Dev nD).tc : Thread nD τ).loc main_arg5)
      ∧ r.2.mem (((0 : Dev nD).tc : Thread nD τ).loc main_arg6) = m' (((0 : Dev nD).tc : Thread nD τ).loc main_arg6)
      ∧ r.2.mem (((0 : Dev nD).tc : Thread nD τ).loc main_arg7) = m' (((0 : Dev nD).tc : Thread nD τ).loc main_arg7)
      ∧ r.2.mem (((0 : Dev nD).tc : Thread nD τ).loc main_arg8) = m' (((0 : Dev nD).tc : Thread nD τ).loc main_arg8)) :=
  (θ_run _ _ _).mono (fun _ h => h 0) (run_all m' ρ')

/-- The reference runs to its end, faults nowhere and leaves its argument arrays as they were. -/
theorem frame [Cert.Pre_finite_inputs_ReferenceIdeal.Facts] : Cert.frame_ReferenceIdeal :=
  fun m g _ => (θ_run _ _ _).mono (fun _ h c => (h c).2) (run_all m g)

/-- info: 'Cert.ReferenceIdeal.RefRun.run' depends on axioms: [propext, Classical.choice, Quot.sound] -/
#guard_msgs in #print axioms run
/-- info: 'Cert.ReferenceIdeal.RefRun.frame' depends on axioms: [propext, Classical.choice, Quot.sound] -/
#guard_msgs in #print axioms frame

end Cert.ReferenceIdeal.RefRun

end
-- ==== Proof.Spec.lean ====
/-
  The specification of the block: the result of one adaptive-layer-norm transformer block (attention, then a gated
  feed-forward part) as ONE function of its nine argument arrays, index by index, over the extended reals.

  Every stage is a function of literal coordinates (`Fin 2`, `Fin 512`, `Fin 768`, …); an argument array is read at an
  index built from coordinates (`ix2`, `ix3`). Float literals stay the extended reals their f32 words denote
  (`Ideal.ofBits .f32 …`); the zero word is written `0`.

  The stages, in order:
    mod            the modulation row  temb · Wmod  (per batch entry, 4608 wide) and its six 768-wide slices
                   sa, sha (scale and shift before attention), ga (gate of attention),
                   sm, shm (scale and shift before the feed-forward part), gm (its gate);
    mean, var, ln  the layer norm over the last axis:  (h - mean) / sqrt (var + eps),  var the mean of squares of h - mean;
    xa             ln x · (1 + sa) + sha;
    Q, K, V        xa · Wq, xa · Wk, xa · Wv, the 3072 columns read as 32 heads of 96;
    scores         (Q · Kᵀ) · c, per batch entry and head, c the literal for 1 / sqrt 96;
    the softmax in one-block online form: the running maximum starts at -∞, `mNew` is its maximum with the row maximum,
                   `alpha = exp (-∞ - mNew)`, `p = exp (scores - mNew)`, `l = 0 · alpha + Σ p`,
                   `acc = 0 · alpha + Σ V · p`, and the head's result is `acc / l`;
    attn           the heads side by side (column 96 · head + e), times Wo;
    x1             x + ga · attn;
    xm             ln x1 · (1 + sm) + shm;
    hpre, act      xm · Wff1, and  h / (1 + exp (-h))  of it;
    ff             act · Wff2;
    the result     x1 + gm · ff.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals of rank 2 with literal extents. -/
abbrev T2 (a b : Nat) : Type := (⟨2, ![a, b]⟩ : Shape).Idx → EReal
/-- An array of extended reals of rank 3 with literal extents. -/
abbrev T3 (a b c : Nat) : Type := (⟨3, ![a, b, c]⟩ : Shape).Idx → EReal

/-- The nine argument arrays of the block. -/
structure Inputs where
  x : T3 2 512 768
  Wq : T2 768 3072
  Wk : T2 768 3072
  Wv : T2 768 3072
  Wo : T2 3072 768
  temb : T2 2 128
  Wmod : T2 128 4608
  Wff1 : T2 768 3072
  Wff2 : T2 3072 768

/-! ## The literals -/

/-- The layer norm's ε: the f32 nearest 1e-5. -/
def eps : EReal := Ideal.ofBits .f32 0x3727C5AC#32
/-- The f32 one. -/
def one : EReal := Ideal.ofBits .f32 0x3F800000#32
/-- The width of the normalized axis, 768, as the f32 the mean and the variance divide by. -/
def width : EReal := Ideal.ofBits .f32 0x44400000#32
/-- The score scale: the f32 nearest 1 / sqrt 96. -/
def scale : EReal := Ideal.ofBits .f32 0x3DD105EC#32
/-- The f32 -∞, where the running maximum starts. -/
def negInf : EReal := Ideal.ofBits .f32 0xFF800000#32

/-! ## The modulation row and its six slices -/

/-- `temb · Wmod`: one row of 4608 per batch entry. -/
def mod (A : Inputs) (b : Fin 2) (j : Fin 4608) : EReal := ∑ k : Fin 128, A.temb (ix2 b k) * A.Wmod (ix2 k j)

/-- The 768 columns of the modulation row from column `o` on. -/
def modSlice (A : Inputs) (o : Nat) (ho : o + 768 ≤ 4608) (b : Fin 2) (d : Fin 768) : EReal :=
  mod A b ⟨o + d.val, by omega⟩

/-- Scale before attention. -/
def sa (A : Inputs) : Fin 2 → Fin 768 → EReal := modSlice A 0 (by omega)
/-- Shift before attention. -/
def sha (A : Inputs) : Fin 2 → Fin 768 → EReal := modSlice A 768 (by omega)
/-- Gate of the attention part. -/
def ga (A : Inputs) : Fin 2 → Fin 768 → EReal := modSlice A 1536 (by omega)
/-- Scale before the feed-forward part. -/
def sm (A : Inputs) : Fin 2 → Fin 768 → EReal := modSlice A 2304 (by omega)
/-- Shift before the feed-forward part. -/
def shm (A : Inputs) : Fin 2 → Fin 768 → EReal := modSlice A 3072 (by omega)
/-- Gate of the feed-forward part. -/
def gm (A : Inputs) : Fin 2 → Fin 768 → EReal := modSlice A 3840 (by omega)

/-! ## The layer norm over the last axis -/

/-- The mean of a row of 768. -/
def mean (h : Fin 2 → Fin 512 → Fin 768 → EReal) (b : Fin 2) (s : Fin 512) : EReal :=
  Ideal.div (∑ k : Fin 768, h b s k) width

/-- The variance of a row of 768: the mean of the squares of the row less its mean. -/
def var (h : Fin 2 → Fin 512 → Fin 768 → EReal) (b : Fin 2) (s : Fin 512) : EReal :=
  Ideal.div (∑ k : Fin 768, (h b s k - mean h b s) * (h b s k - mean h b s)) width

/-- The row less its mean, over the square root of its variance plus ε. -/
def ln (h : Fin 2 → Fin 512 → Fin 768 → EReal) (b : Fin 2) (s : Fin 512) (d : Fin 768) : EReal :=
  Ideal.div (h b s d - mean h b s) (Ideal.sqrt (var h b s + eps))

/-- A normalized row, scaled by `1 + sc` and shifted by `sh`, both per batch entry. -/
def modulate (h : Fin 2 → Fin 512 → Fin 768 → EReal) (sc sh : Fin 2 → Fin 768 → EReal)
    (b : Fin 2) (s : Fin 512) (d : Fin 768) : EReal :=
  ln h b s d * (one + sc b d) + sh b d

/-! ## Attention -/

/-- The input read by coordinates. -/
def x0 (A : Inputs) (b : Fin 2) (s : Fin 512) (d : Fin 768) : EReal := A.x (ix3 b s d)

/-- The input of the attention part: the normalized input, scaled and shifted. -/
def xa (A : Inputs) : Fin 2 → Fin 512 → Fin 768 → EReal := modulate (x0 A) (sa A) (sha A)

/-- A row of `xa` times a weight, the 3072 columns read as 32 heads of 96: column `96 · h + e`. -/
def proj (A : Inputs) (W : T2 768 3072) (b : Fin 2) (s : Fin 512) (h : Fin 32) (e : Fin 96) : EReal :=
  ∑ k : Fin 768, xa A b s k * W (ix2 k ⟨96 * h.val + e.val, by omega⟩)

/-- The queries. -/
def Q (A : Inputs) : Fin 2 → Fin 512 → Fin 32 → Fin 96 → EReal := proj A A.Wq
/-- The keys. -/
def K (A : Inputs) : Fin 2 → Fin 512 → Fin 32 → Fin 96 → EReal := proj A A.Wk
/-- The values. -/
def V (A : Inputs) : Fin 2 → Fin 512 → Fin 32 → Fin 96 → EReal := proj A A.Wv

/-- The scaled scores of query row `i` against key row `j`, per batch entry and head. -/
def scores (A : Inputs) (b : Fin 2) (h : Fin 32) (i j : Fin 512) : EReal :=
  (∑ e : Fin 96, Q A b i h e * K A b j h e) * scale

/-- The maximum of a row of scores, from -∞. -/
def rowMax (A : Inputs) (b : Fin 2) (h : Fin 32) (i : Fin 512) : EReal :=
  (Finset.univ : Finset (Fin 512)).fold max negInf (fun j => scores A b h i j)

/-- The running maximum after the one block: the maximum of -∞ and the row maximum. -/
def mNew (A : Inputs) (b : Fin 2) (h : Fin 32) (i : Fin 512) : EReal := max negInf (rowMax A b h i)

/-- The factor the earlier blocks' sums are rescaled by: `exp (-∞ - mNew)`. -/
def alpha (A : Inputs) (b : Fin 2) (h : Fin 32) (i : Fin 512) : EReal := Ideal.exp (negInf - mNew A b h i)

/-- The unnormalized weights: `exp (scores - mNew)`. -/
def p (A : Inputs) (b : Fin 2) (h : Fin 32) (i j : Fin 512) : EReal := Ideal.exp (scores A b h i j - mNew A b h i)

/-- The normalizer: the earlier (empty) sum rescaled, plus the row's sum of weights. -/
def l (A : Inputs) (b : Fin 2) (h : Fin 32) (i : Fin 512) : EReal := 0 * alpha A b h i + ∑ j : Fin 512, p A b h i j

/-- The weighted values: the earlier (empty) sum rescaled, plus the values summed under the row's weights. -/
def acc (A : Inputs) (b : Fin 2) (i : Fin 512) (h : Fin 32) (e : Fin 96) : EReal :=
  0 * alpha A b h i + ∑ j : Fin 512, V A b j h e * p A b h i j

/-- One head's result: the weighted values over the normalizer. -/
def heads (A : Inputs) (b : Fin 2) (i : Fin 512) (h : Fin 32) (e : Fin 96) : EReal :=
  Ideal.div (acc A b i h e) (l A b h i)

/-- The heads side by side: column `c` is entry `c % 96` of head `c / 96`. -/
def headsCat (A : Inputs) (b : Fin 2) (s : Fin 512) (c : Fin 3072) : EReal :=
  heads A b s ⟨c.val / 96, by omega⟩ ⟨c.val % 96, by omega⟩

/-- The attention part's result: the heads side by side, times `Wo`. -/
def attn (A : Inputs) (b : Fin 2) (s : Fin 512) (d : Fin 768) : EReal :=
  ∑ c : Fin 3072, headsCat A b s c * A.Wo (ix2 c d)

/-- The input plus the gated attention result. -/
def x1 (A : Inputs) (b : Fin 2) (s : Fin 512) (d : Fin 768) : EReal := x0 A b s d + ga A b d * attn A b s d

/-! ## The feed-forward part -/

/-- Its input: `x1` normalized, scaled and shifted. -/
def xm (A : Inputs) : Fin 2 → Fin 512 → Fin 768 → EReal := modulate (x1 A) (sm A) (shm A)

/-- `xm · Wff1`. -/
def hpre (A : Inputs) (b : Fin 2) (s : Fin 512) (c : Fin 3072) : EReal := ∑ k : Fin 768, xm A b s k * A.Wff1 (ix2 k c)

/-- `h / (1 + exp (-h))` of it. -/
def act (A : Inputs) (b : Fin 2) (s : Fin 512) (c : Fin 3072) : EReal :=
  Ideal.div (hpre A b s c) (one + Ideal.exp (-(hpre A b s c)))

/-- `act · Wff2`. -/
def ff (A : Inputs) (b : Fin 2) (s : Fin 512) (d : Fin 768) : EReal := ∑ c : Fin 3072, act A b s c * A.Wff2 (ix2 c d)

/-! ## The result -/

/-- The block's result by coordinates: `x1` plus the gated feed-forward result. -/
def outAt (A : Inputs) (b : Fin 2) (s : Fin 512) (d : Fin 768) : EReal := x1 A b s d + gm A b d * ff A b s d

/-- The block's result as one array of the nine argument arrays. -/
def out (x : T3 2 512 768) (Wq Wk Wv : T2 768 3072) (Wo : T2 3072 768) (temb : T2 2 128) (Wmod : T2 128 4608)
    (Wff1 : T2 768 3072) (Wff2 : T2 3072 768) : T3 2 512 768 :=
  fun i => outAt ⟨x, Wq, Wk, Wv, Wo, temb, Wmod, Wff1, Wff2⟩ (i 0) (i 1) (i 2)

/-- The result at an index given by coordinates. -/
theorem out_ix3 (x : T3 2 512 768) (Wq Wk Wv : T2 768 3072) (Wo : T2 3072 768) (temb : T2 2 128) (Wmod : T2 128 4608)
    (Wff1 : T2 768 3072) (Wff2 : T2 3072 768) (b : Fin 2) (s : Fin 512) (d : Fin 768) :
    out x Wq Wk Wv Wo temb Wmod Wff1 Wff2 (ix3 b s d) = outAt ⟨x, Wq, Wk, Wv, Wo, temb, Wmod, Wff1, Wff2⟩ b s d := rfl

/-- The f32 -∞ is the bottom of the extended reals. -/
theorem negInf_eq_bot : negInf = ⊥ := by
  simp [negInf, Ideal.ofBits, Ideal.ieee]

end Cert.Spec

end
-- ==== Proof.RefValueDots.lean ====
/-
  The reference's five kinds of contraction, each read at an index given by coordinates: the host's product at the
  extended reals is the sum, over the one contracted coordinate, of the products of the two operands' entries.
-/
import proofs.«900775_g7700000000000776_dist_diff_dit_htp_i_b2_s512_d768_hq4_v7x_i8_f32_1_alg».proof.ReferenceIdeal
import Idealize.ShloMosaic.PureOps.Ideal.Laws
import Idealize.ShloMosaic.Lib.ValueIdx

noncomputable section

open scoped BigOperators

namespace Cert.RefValue

open Idealize.ShloMosaic Idealize.ShloMosaic.ValueIdx Cert.ReferenceIdeal

variable [Cert.ReferenceIdeal.Facts]

/-- [2,128] times [128,4608]: entry (b, j) is the sum over k of l(b,k) · r(k,j). -/
theorem dot_mod_apply (l : FVec Ideal S2x128 .f32) (r : FVec Ideal S128x4608 .f32) (b : Fin 2) (j : Fin 4608) :
    Host.dotGeneral dot_S2x128_S128x4608_S2x4608_1_0_0_1_n_n none l r (ix2 b j)
      = ∑ k : Fin 128, l (ix2 b k) * r (ix2 k j) := by
  show FloatOps.dotGeneral _ none _ l r (ix2 b j) = _
  rw [Ideal.dotGeneral_apply,
    ← Equiv.sum_comp (contrEquiv1 dot_S2x128_S128x4608_S2x4608_1_0_0_1_n_n 128 rfl rfl).symm]
  refine Finset.sum_congr rfl fun k _ => ?_
  have ck := contrEquiv1_symm_val dot_S2x128_S128x4608_S2x4608_1_0_0_1_n_n 128 rfl rfl k
  have hl : dot_S2x128_S128x4608_S2x4608_1_0_0_1_n_n.lhsIdx (ix2 b j) ((contrEquiv1 _ 128 rfl rfl).symm k) = ix2 b k := by
    funext ax; apply Fin.ext
    match ax with
    | ⟨0, _⟩ => simp [DotDims.lhsIdx, dot_S2x128_S128x4608_S2x4608_1_0_0_1_n_n]; rfl
    | ⟨1, _⟩ => simp [DotDims.lhsIdx, dot_S2x128_S128x4608_S2x4608_1_0_0_1_n_n]; exact ck
  have hr : dot_S2x128_S128x4608_S2x4608_1_0_0_1_n_n.rhsIdx (ix2 b j) ((contrEquiv1 _ 128 rfl rfl).symm k) = ix2 k j := by
    funext ax; apply Fin.ext
    match ax with
    | ⟨0, _⟩ => simp [DotDims.rhsIdx, dot_S2x128_S128x4608_S2x4608_1_0_0_1_n_n]; exact ck
    | ⟨1, _⟩ => simp [DotDims.rhsIdx, dot_S2x128_S128x4608_S2x4608_1_0_0_1_n_n]; rfl
  rw [hl, hr]

/-- [2,512,768] times [768,3072]: entry (b, s, c) is the sum over k of l(b,s,k) · r(k,c). -/
theorem dot_in_apply (l : FVec Ideal S2x512x768 .f32) (r : FVec Ideal S768x3072 .f32) (b : Fin 2) (s : Fin 512) (c : Fin 3072) :
    Host.dotGeneral dot_S2x512x768_S768x3072_S2x512x3072_2_0_01_1_n_n none l r (ix3 b s c)
      = ∑ k : Fin 768, l (ix3 b s k) * r (ix2 k c) := by
  show FloatOps.dotGeneral _ none _ l r (ix3 b s c) = _
  rw [Ideal.dotGeneral_apply,
    ← Equiv.sum_comp (contrEquiv1 dot_S2x512x768_S768x3072_S2x512x3072_2_0_01_1_n_n 768 rfl rfl).symm]
  refine Finset.sum_congr rfl fun k _ => ?_
  have ck := contrEquiv1_symm_val dot_S2x512x768_S768x3072_S2x512x3072_2_0_01_1_n_n 768 rfl rfl k
  have hl : dot_S2x512x768_S768x3072_S2x512x3072_2_0_01_1_n_n.lhsIdx (ix3 b s c) ((contrEquiv1 _ 768 rfl rfl).symm k) = ix3 b s k := by
    funext ax; apply Fin.ext
    match ax with
    | ⟨0, _⟩ => simp [DotDims.lhsIdx, dot_S2x512x768_S768x3072_S2x512x3072_2_0_01_1_n_n]; rfl
    | ⟨1, _⟩ => simp [DotDims.lhsIdx, dot_S2x512x768_S768x3072_S2x512x3072_2_0_01_1_n_n]; rfl
    | ⟨2, _⟩ => simp [DotDims.lhsIdx, dot_S2x512x768_S768x3072_S2x512x3072_2_0_01_1_n_n]; exact ck
  have hr : dot_S2x512x768_S768x3072_S2x512x3072_2_0_01_1_n_n.rhsIdx (ix3 b s c) ((contrEquiv1 _ 768 rfl rfl).symm k) = ix2 k c := by
    funext ax; apply Fin.ext
    match ax with
    | ⟨0, _⟩ => simp [DotDims.rhsIdx, dot_S2x512x768_S768x3072_S2x512x3072_2_0_01_1_n_n]; exact ck
    | ⟨1, _⟩ => simp [DotDims.rhsIdx, dot_S2x512x768_S768x3072_S2x512x3072_2_0_01_1_n_n]; rfl
  rw [hl, hr]

/-- [2,512,3072] times [3072,768]: entry (b, s, d) is the sum over c of l(b,s,c) · r(c,d). -/
theorem dot_out_apply (l : FVec Ideal S2x512x3072 .f32) (r : FVec Ideal S3072x768 .f32) (b : Fin 2) (s : Fin 512) (d : Fin 768) :
    Host.dotGeneral dot_S2x512x3072_S3072x768_S2x512x768_2_0_01_1_n_n none l r (ix3 b s d)
      = ∑ c : Fin 3072, l (ix3 b s c) * r (ix2 c d) := by
  show FloatOps.dotGeneral _ none _ l r (ix3 b s d) = _
  rw [Ideal.dotGeneral_apply,
    ← Equiv.sum_comp (contrEquiv1 dot_S2x512x3072_S3072x768_S2x512x768_2_0_01_1_n_n 3072 rfl rfl).symm]
  refine Finset.sum_congr rfl fun c _ => ?_
  have ck := contrEquiv1_symm_val dot_S2x512x3072_S3072x768_S2x512x768_2_0_01_1_n_n 3072 rfl rfl c
  have hl : dot_S2x512x3072_S3072x768_S2x512x768_2_0_01_1_n_n.lhsIdx (ix3 b s d) ((contrEquiv1 _ 3072 rfl rfl).symm c) = ix3 b s c := by
    funext ax; apply Fin.ext
    match ax with
    | ⟨0, _⟩ => simp [DotDims.lhsIdx, dot_S2x512x3072_S3072x768_S2x512x768_2_0_01_1_n_n]; rfl
    | ⟨1, _⟩ => simp [DotDims.lhsIdx, dot_S2x512x3072_S3072x768_S2x512x768_2_0_01_1_n_n]; rfl
    | ⟨2, _⟩ => simp [DotDims.lhsIdx, dot_S2x512x3072_S3072x768_S2x512x768_2_0_01_1_n_n]; exact ck
  have hr : dot_S2x512x3072_S3072x768_S2x512x768_2_0_01_1_n_n.rhsIdx (ix3 b s d) ((contrEquiv1 _ 3072 rfl rfl).symm c) = ix2 c d := by
    funext ax; apply Fin.ext
    match ax with
    | ⟨0, _⟩ => simp [DotDims.rhsIdx, dot_S2x512x3072_S3072x768_S2x512x768_2_0_01_1_n_n]; exact ck
    | ⟨1, _⟩ => simp [DotDims.rhsIdx, dot_S2x512x3072_S3072x768_S2x512x768_2_0_01_1_n_n]; rfl
  rw [hl, hr]

/-- Queries against keys, per batch entry and head: entry (b, h, i, j) is the sum over e of l(b,i,h,e) · r(b,j,h,e). -/
theorem dot_qk_apply (l : FVec Ideal S2x512x32x96 .f32) (r : FVec Ideal S2x512x32x96 .f32) (b : Fin 2) (h : Fin 32) (i j : Fin 512) :
    Host.dotGeneral dot_S2x512x32x96_S2x512x32x96_S2x32x512x512_3_3_1_1_02_02 none l r (ix4 b h i j)
      = ∑ e : Fin 96, l (ix4 b i h e) * r (ix4 b j h e) := by
  show FloatOps.dotGeneral _ none _ l r (ix4 b h i j) = _
  rw [Ideal.dotGeneral_apply,
    ← Equiv.sum_comp (contrEquiv1 dot_S2x512x32x96_S2x512x32x96_S2x32x512x512_3_3_1_1_02_02 96 rfl rfl).symm]
  refine Finset.sum_congr rfl fun e _ => ?_
  have ck := contrEquiv1_symm_val dot_S2x512x32x96_S2x512x32x96_S2x32x512x512_3_3_1_1_02_02 96 rfl rfl e
  have hl : dot_S2x512x32x96_S2x512x32x96_S2x32x512x512_3_3_1_1_02_02.lhsIdx (ix4 b h i j) ((contrEquiv1 _ 96 rfl rfl).symm e) = ix4 b i h e := by
    funext ax; apply Fin.ext
    match ax with
    | ⟨0, _⟩ => simp [DotDims.lhsIdx, dot_S2x512x32x96_S2x512x32x96_S2x32x512x512_3_3_1_1_02_02]; rfl
    | ⟨1, _⟩ => simp [DotDims.lhsIdx, dot_S2x512x32x96_S2x512x32x96_S2x32x512x512_3_3_1_1_02_02]; rfl
    | ⟨2, _⟩ => simp [DotDims.lhsIdx, dot_S2x512x32x96_S2x512x32x96_S2x32x512x512_3_3_1_1_02_02]; rfl
    | ⟨3, _⟩ => simp [DotDims.lhsIdx, dot_S2x512x32x96_S2x512x32x96_S2x32x512x512_3_3_1_1_02_02]; exact ck
  have hr : dot_S2x512x32x96_S2x512x32x96_S2x32x512x512_3_3_1_1_02_02.rhsIdx (ix4 b h i j) ((contrEquiv1 _ 96 rfl rfl).symm e) = ix4 b j h e := by
    funext ax; apply Fin.ext
    match ax with
    | ⟨0, _⟩ => simp [DotDims.rhsIdx, dot_S2x512x32x96_S2x512x32x96_S2x32x512x512_3_3_1_1_02_02]; rfl
    | ⟨1, _⟩ => simp [DotDims.rhsIdx, dot_S2x512x32x96_S2x512x32x96_S2x32x512x512_3_3_1_1_02_02]; rfl
    | ⟨2, _⟩ => simp [DotDims.rhsIdx, dot_S2x512x32x96_S2x512x32x96_S2x32x512x512_3_3_1_1_02_02]; rfl
    | ⟨3, _⟩ => simp [DotDims.rhsIdx, dot_S2x512x32x96_S2x512x32x96_S2x32x512x512_3_3_1_1_02_02]; exact ck
  rw [hl, hr]

/-- Values under the weights, per batch entry and head: entry (b, h, e, i) is the sum over j of l(b,j,h,e) · r(b,h,i,j). -/
theorem dot_pv_apply (l : FVec Ideal S2x512x32x96 .f32) (r : FVec Ideal S2x32x512x512 .f32) (b : Fin 2) (h : Fin 32) (e : Fin 96) (i : Fin 512) :
    Host.dotGeneral dot_S2x512x32x96_S2x32x512x512_S2x32x96x512_1_3_3_2_02_01 none l r (ix4 b h e i)
      = ∑ j : Fin 512, l (ix4 b j h e) * r (ix4 b h i j) := by
  show FloatOps.dotGeneral _ none _ l r (ix4 b h e i) = _
  rw [Ideal.dotGeneral_apply,
    ← Equiv.sum_comp (contrEquiv1 dot_S2x512x32x96_S2x32x512x512_S2x32x96x512_1_3_3_2_02_01 512 rfl rfl).symm]
  refine Finset.sum_congr rfl fun j _ => ?_
  have ck := contrEquiv1_symm_val dot_S2x512x32x96_S2x32x512x512_S2x32x96x512_1_3_3_2_02_01 512 rfl rfl j
  have hl : dot_S2x512x32x96_S2x32x512x512_S2x32x96x512_1_3_3_2_02_01.lhsIdx (ix4 b h e i) ((contrEquiv1 _ 512 rfl rfl).symm j) = ix4 b j h e := by
    funext ax; apply Fin.ext
    match ax with
    | ⟨0, _⟩ => simp [DotDims.lhsIdx, dot_S2x512x32x96_S2x32x512x512_S2x32x96x512_1_3_3_2_02_01]; rfl
    | ⟨1, _⟩ => simp [DotDims.lhsIdx, dot_S2x512x32x96_S2x32x512x512_S2x32x96x512_1_3_3_2_02_01]; exact ck
    | ⟨2, _⟩ => simp [DotDims.lhsIdx, dot_S2x512x32x96_S2x32x512x512_S2x32x96x512_1_3_3_2_02_01]; rfl
    | ⟨3, _⟩ => simp [DotDims.lhsIdx, dot_S2x512x32x96_S2x32x512x512_S2x32x96x512_1_3_3_2_02_01]; rfl
  have hr : dot_S2x512x32x96_S2x32x512x512_S2x32x96x512_1_3_3_2_02_01.rhsIdx (ix4 b h e i) ((contrEquiv1 _ 512 rfl rfl).symm j) = ix4 b h i j := by
    funext ax; apply Fin.ext
    match ax with
    | ⟨0, _⟩ => simp [DotDims.rhsIdx, dot_S2x512x32x96_S2x32x512x512_S2x32x96x512_1_3_3_2_02_01]; rfl
    | ⟨1, _⟩ => simp [DotDims.rhsIdx, dot_S2x512x32x96_S2x32x512x512_S2x32x96x512_1_3_3_2_02_01]; rfl
    | ⟨2, _⟩ => simp [DotDims.rhsIdx, dot_S2x512x32x96_S2x32x512x512_S2x32x96x512_1_3_3_2_02_01]; rfl
    | ⟨3, _⟩ => simp [DotDims.rhsIdx, dot_S2x512x32x96_S2x32x512x512_S2x32x96x512_1_3_3_2_02_01]; exact ck
  rw [hl, hr]

end Cert.RefValue

end
-- ==== Proof.RefValueLayout.lean ====
/-
  The reference's layout operations, reductions and pointwise host operations, each read at an index given by
  coordinates: a slice of the modulation row, the broadcasts that re-insert a reduced axis or spread a row or a scalar,
  the two reshapes between 3072 columns and 32 heads of 96, the two transposes of the attention part, the row sums,
  the row maximum, and the host's square root, exponential, negation and quotient.
-/
import proofs.«900775_g7700000000000776_dist_diff_dit_htp_i_b2_s512_d768_hq4_v7x_i8_f32_1_alg».proof.ReferenceIdeal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

open scoped BigOperators

namespace Cert.RefValue

open Idealize.ShloMosaic Idealize.ShloMosaic.ValueIdx Cert.ReferenceIdeal

variable [Cert.ReferenceIdeal.Facts]

open Cert.ReferenceIdeal.Facts₀

/-! ## Pointwise host operations -/

section Pointwise
variable {s : Shape} {φ : FTy}

/-- The host's square root at an index. -/
theorem hostSqrt_apply (a : FVec Ideal s φ) (i : s.Idx) : Host.sqrt a i = Ideal.sqrt (a i) := rfl
/-- The host's exponential at an index. -/
theorem hostExp_apply (a : FVec Ideal s φ) (i : s.Idx) : Host.exp a i = Ideal.exp (a i) := rfl
/-- The host's negation at an index. -/
theorem hostNegf_apply (a : FVec Ideal s φ) (i : s.Idx) : Host.negf a i = -(a i) := rfl

end Pointwise

/-! ## Slices of the modulation row -/

/-- The 768 columns from column `o` on, read at (b, d): the row at column `o + d`. -/
theorem slice_mod_apply {α : Type} (o : Nat) (x : S2x4608.Idx → α) (h : S2x4608.Slices ![0, o] S2x768) (b : Fin 2) (d : Fin 768)
    (ho : o + 768 ≤ 4608) :
    extractStridedSlice S2x768 ![0, o] x h (ix2 b d) = x (ix2 b ⟨o + d.val, by omega⟩) :=
  slice2_axis1_apply o x h b d _ rfl

/-! ## Broadcasts -/

section Broadcasts
variable {α : Type}

/-- A scalar spread over any shape. -/
theorem bcast_scalar_apply {T : Shape} (h : S_.BroadcastsInDim T ![]) (x : S_.Idx → α) (j : T.Idx) :
    broadcastInDim T ![] h x j = x ix0 := broadcastInDim_scalar_apply h x j

/-- A reduced last axis put back as a unit axis: [2,512] to [2,512,1]. -/
theorem bcast_keep_row_apply (x : S2x512.Idx → α) (b : Fin 2) (s : Fin 512) (u : Fin 1) :
    broadcastInDim S2x512x1 ![0, 1] bcast_S2x512_S2x512x1_0_1 x (ix3 b s u) = x (ix2 b s) :=
  broadcastInDim_apply _ _ x _ (ix2 b s) (fun a => by
    match a with
    | ⟨0, _⟩ => rfl
    | ⟨1, _⟩ => rfl)

/-- A per-row value spread along the row: [2,512,1] to [2,512,768]. -/
theorem bcast_row_apply (x : S2x512x1.Idx → α) (b : Fin 2) (s : Fin 512) (d : Fin 768) :
    broadcastInDim S2x512x768 ![0, 1, 2] bcast_S2x512x1_S2x512x768_0_1_2 x (ix3 b s d) = x (ix3 b s (0 : Fin 1)) :=
  broadcastInDim_apply _ _ x _ (ix3 b s (0 : Fin 1)) (fun a => by
    match a with
    | ⟨0, _⟩ => rfl
    | ⟨1, _⟩ => rfl
    | ⟨2, _⟩ => rfl)

/-- A per-batch row given a unit middle axis: [2,768] to [2,1,768]. -/
theorem bcast_mid_apply (x : S2x768.Idx → α) (b : Fin 2) (u : Fin 1) (d : Fin 768) :
    broadcastInDim S2x1x768 ![0, 2] bcast_S2x768_S2x1x768_0_2 x (ix3 b u d) = x (ix2 b d) :=
  broadcastInDim_apply _ _ x _ (ix2 b d) (fun a => by
    match a with
    | ⟨0, _⟩ => rfl
    | ⟨1, _⟩ => rfl)

/-- A per-batch row spread over the 512 positions: [2,1,768] to [2,512,768]. -/
theorem bcast_batch_apply (x : S2x1x768.Idx → α) (b : Fin 2) (s : Fin 512) (d : Fin 768) :
    broadcastInDim S2x512x768 ![0, 1, 2] bcast_S2x1x768_S2x512x768_0_1_2 x (ix3 b s d) = x (ix3 b (0 : Fin 1) d) :=
  broadcastInDim_apply _ _ x _ (ix3 b (0 : Fin 1) d) (fun a => by
    match a with
    | ⟨0, _⟩ => rfl
    | ⟨1, _⟩ => rfl
    | ⟨2, _⟩ => rfl)

/-- A reduced last axis of the scores put back as a unit axis: [2,32,512] to [2,32,512,1]. -/
theorem bcast_keep_sc_apply (x : S2x32x512.Idx → α) (b : Fin 2) (h : Fin 32) (i : Fin 512) (u : Fin 1) :
    broadcastInDim S2x32x512x1 ![0, 1, 2] bcast_S2x32x512_S2x32x512x1_0_1_2 x (ix4 b h i u) = x (ix3 b h i) :=
  broadcastInDim_apply _ _ x _ (ix3 b h i) (fun a => by
    match a with
    | ⟨0, _⟩ => rfl
    | ⟨1, _⟩ => rfl
    | ⟨2, _⟩ => rfl)

/-- A per-row value of the scores spread along the row: [2,32,512,1] to [2,32,512,512]. -/
theorem bcast_sc_apply (x : S2x32x512x1.Idx → α) (b : Fin 2) (h : Fin 32) (i j : Fin 512) :
    broadcastInDim S2x32x512x512 ![0, 1, 2, 3] bcast_S2x32x512x1_S2x32x512x512_0_1_2_3 x (ix4 b h i j) = x (ix4 b h i (0 : Fin 1)) :=
  broadcastInDim_apply _ _ x _ (ix4 b h i (0 : Fin 1)) (fun a => by
    match a with
    | ⟨0, _⟩ => rfl
    | ⟨1, _⟩ => rfl
    | ⟨2, _⟩ => rfl
    | ⟨3, _⟩ => rfl)

/-- A per-(position, head) value spread over the head's 96 entries: [2,512,32,1] to [2,512,32,96]. -/
theorem bcast_head_apply (x : S2x512x32x1.Idx → α) (b : Fin 2) (i : Fin 512) (h : Fin 32) (e : Fin 96) :
    broadcastInDim S2x512x32x96 ![0, 1, 2, 3] bcast_S2x512x32x1_S2x512x32x96_0_1_2_3 x (ix4 b i h e) = x (ix4 b i h (0 : Fin 1)) :=
  broadcastInDim_apply _ _ x _ (ix4 b i h (0 : Fin 1)) (fun a => by
    match a with
    | ⟨0, _⟩ => rfl
    | ⟨1, _⟩ => rfl
    | ⟨2, _⟩ => rfl
    | ⟨3, _⟩ => rfl)

end Broadcasts

/-! ## Reshapes between 3072 columns and 32 heads of 96 -/

section Reshapes
variable {α : Type}

/-- Columns read as heads: entry (b, s, h, e) is column `96 · h + e`. -/
theorem split_heads_apply (x : S2x512x3072.Idx → α) (b : Fin 2) (s : Fin 512) (h : Fin 32) (e : Fin 96) :
    shapeCast S2x512x32x96 x shapeCasts_S2x512x3072_S2x512x32x96 (ix4 b s h e)
      = x (ix3 b s ⟨96 * h.val + e.val, by omega⟩) :=
  shapeCast_apply x _ _ (ix3 b s ⟨96 * h.val + e.val, by omega⟩) (by
    rw [Shape.rowMajor_val_three, Shape.rowMajor_val_four]
    show (b.val * 512 + s.val) * 3072 + (96 * h.val + e.val) = ((b.val * 512 + s.val) * 32 + h.val) * 96 + e.val
    omega)

/-- Heads laid side by side: column `c` is entry `c % 96` of head `c / 96`. -/
theorem join_heads_apply (x : S2x512x32x96.Idx → α) (b : Fin 2) (s : Fin 512) (c : Fin 3072) :
    shapeCast S2x512x3072 x shapeCasts_S2x512x32x96_S2x512x3072 (ix3 b s c)
      = x (ix4 b s ⟨c.val / 96, by omega⟩ ⟨c.val % 96, by omega⟩) :=
  shapeCast_apply x _ _ (ix4 b s ⟨c.val / 96, by omega⟩ ⟨c.val % 96, by omega⟩) (by
    rw [Shape.rowMajor_val_three, Shape.rowMajor_val_four]
    show ((b.val * 512 + s.val) * 32 + c.val / 96) * 96 + c.val % 96 = (b.val * 512 + s.val) * 3072 + c.val
    omega)

end Reshapes

/-! ## Transposes of the attention part -/

section Transposes
variable {α : Type}

/-- Heads and positions exchanged: entry (b, i, h, u) of the result is entry (b, h, i, u) of the operand. -/
theorem swap_head_pos_apply (x : S2x32x512x1.Idx → α) (b : Fin 2) (i : Fin 512) (h : Fin 32) (u : Fin 1) :
    transpose S2x512x32x1 [0, 2, 1, 3] x transposes_S2x32x512x1_S2x512x32x1_0_2_1_3 (ix4 b i h u) = x (ix4 b h i u) :=
  transpose_apply _ x _ _ (ix4 b h i u) (fun a => by
    match a with
    | ⟨0, _⟩ => rfl
    | ⟨1, _⟩ => rfl
    | ⟨2, _⟩ => rfl
    | ⟨3, _⟩ => rfl)

/-- The weighted values brought to (batch, position, head, entry): entry (b, i, h, e) of the result is entry
    (b, h, e, i) of the operand. -/
theorem to_pos_head_apply (x : S2x32x96x512.Idx → α) (b : Fin 2) (i : Fin 512) (h : Fin 32) (e : Fin 96) :
    transpose S2x512x32x96 [0, 3, 1, 2] x transposes_S2x32x96x512_S2x512x32x96_0_3_1_2 (ix4 b i h e) = x (ix4 b h e i) :=
  transpose_apply _ x _ _ (ix4 b h e i) (fun a => by
    match a with
    | ⟨0, _⟩ => rfl
    | ⟨1, _⟩ => rfl
    | ⟨2, _⟩ => rfl
    | ⟨3, _⟩ => rfl)

end Transposes

/-! ## Reductions over the last axis -/

/-- The rows of a [2,512,768] array reduce to [2,512]. -/
theorem reduces_row : S2x512x768.Reduces [2] S2x512 := by decide
/-- The rows of the scores reduce to [2,32,512]. -/
theorem reduces_sc : S2x32x512x512.Reduces [3] S2x32x512 := by decide

/-- A row sum: the initial value plus the sum of the row's 768 entries. -/
theorem sum_row_apply (x : FVec Ideal S2x512x768 .f32) (init : FVec Ideal S_ .f32) (b : Fin 2) (s : Fin 512) :
    Host.reduceAdd x init reducesTo_S2x512x768_S2x512_d2 h_S_ (ix2 b s) = init ix0 + ∑ k : Fin 768, x (ix3 b s k) := by
  rw [hostReduceAdd_apply, Ideal.hostReduceAdd_single _ reduces_row]
  have e1 : init (Shape.Idx.first h_S_) = init ix0 := congrArg init (eq_ix0 _)
  rw [e1]
  refine congrArg (init ix0 + ·) (Finset.sum_congr rfl fun k _ => congrArg x ?_)
  funext a; apply Fin.ext
  match a with
  | ⟨0, _⟩ => rfl
  | ⟨1, _⟩ => rfl
  | ⟨2, _⟩ => rfl

/-- A row sum of the scores' shape: the initial value plus the sum of the row's 512 entries. -/
theorem sum_sc_apply (x : FVec Ideal S2x32x512x512 .f32) (init : FVec Ideal S_ .f32) (b : Fin 2) (h : Fin 32) (i : Fin 512) :
    Host.reduceAdd x init reducesTo_S2x32x512x512_S2x32x512_d3 h_S_ (ix3 b h i) = init ix0 + ∑ j : Fin 512, x (ix4 b h i j) := by
  rw [hostReduceAdd_apply, Ideal.hostReduceAdd_single _ reduces_sc]
  have e1 : init (Shape.Idx.first h_S_) = init ix0 := congrArg init (eq_ix0 _)
  rw [e1]
  refine congrArg (init ix0 + ·) (Finset.sum_congr rfl fun j _ => congrArg x ?_)
  funext a; apply Fin.ext
  match a with
  | ⟨0, _⟩ => rfl
  | ⟨1, _⟩ => rfl
  | ⟨2, _⟩ => rfl
  | ⟨3, _⟩ => rfl

/-- A row maximum of the scores' shape: the fold of `max`, from the initial value, over the row's 512 entries. -/
theorem max_sc_apply (x : FVec Ideal S2x32x512x512 .f32) (init : FVec Ideal S_ .f32) (b : Fin 2) (h : Fin 32) (i : Fin 512) :
    Host.reduce FloatOps.maximumf x init reducesTo_S2x32x512x512_S2x32x512_d3 h_S_ (ix3 b h i)
      = (Finset.univ : Finset (Fin 512)).fold max (init ix0) (fun j => x (ix4 b h i j)) := by
  rw [Host.reduce_eq_fold_single FloatOps.maximumf x init _ reduces_sc]
  have e1 : init (Shape.Idx.first h_S_) = init ix0 := congrArg init (eq_ix0 _)
  have e2 : (x ∘ reduces_sc.lift (ix3 b h i)) = fun j : Fin 512 => x (ix4 b h i j) := by
    funext j
    refine congrArg x ?_
    funext a; apply Fin.ext
    match a with
    | ⟨0, _⟩ => rfl
    | ⟨1, _⟩ => rfl
    | ⟨2, _⟩ => rfl
    | ⟨3, _⟩ => rfl
  rw [e1, e2]
  rfl

end Cert.RefValue

end
-- ==== Proof.RefValueMod.lean ====
/-
  The reference's modulation rows, read at an index: the small matrix product `temb · Wmod` is the specification's
  modulation row, and its six slices are the six per-batch rows (two scales, two shifts, two gates).
-/
import proofs.«900775_g7700000000000776_dist_diff_dit_htp_i_b2_s512_d768_hq4_v7x_i8_f32_1_alg».proof.ReferenceIdeal
import proofs.«900775_g7700000000000776_dist_diff_dit_htp_i_b2_s512_d768_hq4_v7x_i8_f32_1_alg».proof.Proof.Spec
import proofs.«900775_g7700000000000776_dist_diff_dit_htp_i_b2_s512_d768_hq4_v7x_i8_f32_1_alg».proof.Proof.RefRunOut
import proofs.«900775_g7700000000000776_dist_diff_dit_htp_i_b2_s512_d768_hq4_v7x_i8_f32_1_alg».proof.Proof.RefValueDots
import proofs.«900775_g7700000000000776_dist_diff_dit_htp_i_b2_s512_d768_hq4_v7x_i8_f32_1_alg».proof.Proof.RefValueLayout

noncomputable section

open scoped BigOperators

namespace Cert.RefValue

open Idealize.ShloMosaic Idealize.ShloMosaic.ValueIdx Cert.ReferenceIdeal

variable [Cert.ReferenceIdeal.Facts]

open Cert.ReferenceIdeal.Facts₀ Cert.ReferenceIdeal.RefRun

/-- The reference's nine argument arrays as the specification's inputs. -/
abbrev inp (x : Args Ideal) : Spec.Inputs := ⟨x.a0, x.a1, x.a2, x.a3, x.a4, x.a5, x.a6, x.a7, x.a8⟩

/-- The modulation row. -/
theorem v0_apply (x : Args Ideal) (b : Fin 2) (j : Fin 4608) : s_v0 x (ix2 b j) = Spec.mod (inp x) b j := by
  unfold s_v0
  exact dot_mod_apply x.a5 x.a6 b j

/-- Scale before attention. -/
theorem v1_apply (x : Args Ideal) (b : Fin 2) (d : Fin 768) : s_v1 x (ix2 b d) = Spec.sa (inp x) b d := by
  unfold s_v1
  rw [slice_mod_apply 0 _ _ b d (by omega), v0_apply]
  rfl

/-- Shift before attention. -/
theorem v2_apply (x : Args Ideal) (b : Fin 2) (d : Fin 768) : s_v2 x (ix2 b d) = Spec.sha (inp x) b d := by
  unfold s_v2
  rw [slice_mod_apply 768 _ _ b d (by omega), v0_apply]
  rfl

/-- Gate of the attention part. -/
theorem v3_apply (x : Args Ideal) (b : Fin 2) (d : Fin 768) : s_v3 x (ix2 b d) = Spec.ga (inp x) b d := by
  unfold s_v3
  rw [slice_mod_apply 1536 _ _ b d (by omega), v0_apply]
  rfl

/-- Scale before the feed-forward part. -/
theorem v4_apply (x : Args Ideal) (b : Fin 2) (d : Fin 768) : s_v4 x (ix2 b d) = Spec.sm (inp x) b d := by
  unfold s_v4
  rw [slice_mod_apply 2304 _ _ b d (by omega), v0_apply]
  rfl

/-- Shift before the feed-forward part. -/
theorem v5_apply (x : Args Ideal) (b : Fin 2) (d : Fin 768) : s_v5 x (ix2 b d) = Spec.shm (inp x) b d := by
  unfold s_v5
  rw [slice_mod_apply 3072 _ _ b d (by omega), v0_apply]
  rfl

/-- Gate of the feed-forward part. -/
theorem v6_apply (x : Args Ideal) (b : Fin 2) (d : Fin 768) : s_v6 x (ix2 b d) = Spec.gm (inp x) b d := by
  unfold s_v6
  rw [slice_mod_apply 3840 _ _ b d (by omega), v0_apply]
  rfl

end Cert.RefValue

end
-- ==== Proof.RefValueNorm.lean ====
/-
  The reference's layer norm, read at an index. The printed program computes, of a [2,512,768] array `h`: the row mean
  (row sum over 768); the variance by the variance helper (the mean again, the squares of the row less its mean, their
  sum over `768 - 0`, kept where `768 - 0 > 0` and replaced by a not-a-number pattern elsewhere); the row less its mean
  over the square root of the variance plus ε; and that scaled by one plus a per-batch row and shifted by another.
  Each of these terms is stated here over a variable array and read at coordinates as the specification's stage:
  the divisor `768 - 0` is 768 and the helper's guard holds, so the helper's result is the plain variance.
-/
import proofs.«900775_g7700000000000776_dist_diff_dit_htp_i_b2_s512_d768_hq4_v7x_i8_f32_1_alg».proof.ReferenceIdeal
import proofs.«900775_g7700000000000776_dist_diff_dit_htp_i_b2_s512_d768_hq4_v7x_i8_f32_1_alg».proof.Proof.Spec
import proofs.«900775_g7700000000000776_dist_diff_dit_htp_i_b2_s512_d768_hq4_v7x_i8_f32_1_alg».proof.Proof.RefValueLayout

noncomputable section

open scoped BigOperators

namespace Cert.RefValue

open Idealize.ShloMosaic Idealize.ShloMosaic.ValueIdx Cert.ReferenceIdeal

variable [Cert.ReferenceIdeal.Facts]

open Cert.ReferenceIdeal.Facts₀

/-- An array of the input's shape read by coordinates. -/
abbrev coords3 (h : FVec Ideal S2x512x768 .f32) : Fin 2 → Fin 512 → Fin 768 → EReal := fun b s d => h (ix3 b s d)
/-- A per-batch row read by coordinates. -/
abbrev coords2 (r : FVec Ideal S2x768 .f32) : Fin 2 → Fin 768 → EReal := fun b d => r (ix2 b d)

/-! ## The literal 768 -/

/-- The f32 word of the row width denotes 768. -/
theorem width_eq : Spec.width = ((768 : ℝ) : EReal) := by
  simp [Spec.width, Ideal.ofBits, Ideal.ieee, -EReal.coe_mul]; norm_num

/-- The variance helper's divisor: 768 less the integer 0 read as a float. -/
def dofT : FVec Ideal S_ .f32 :=
  subf (constant S_ .f32 0x44400000#32) (sitofp .f32 (constantI S_ 32 0#32) : FVec Ideal S_ .f32)

/-- It is the row width. -/
theorem dofT_apply : dofT ix0 = Spec.width := by
  show Spec.width - (((0#32 : BitVec 32).toInt : ℝ) : EReal) = Spec.width
  simp

/-- The helper's guard `768 - 0 > 0` holds. -/
theorem guard_apply : (cmpf .ogt dofT (constant (F := Ideal) S_ .f32 0x00000000#32)) ix0 = 1#1 := by
  show Ideal.cmp .ogt (dofT ix0) (Ideal.ofBits .f32 0x00000000#32) = 1#1
  rw [dofT_apply, Ideal.ofBits_zero_f32, width_eq]
  have h : (0 : EReal) < ((768 : ℝ) : EReal) := by exact_mod_cast (by norm_num : (0 : ℝ) < 768)
  simp [Ideal.cmp, h]

/-! ## The mean -/

/-- The printed row mean, with the reduced axis kept as a unit axis. -/
def meanT (h : FVec Ideal S2x512x768 .f32) : FVec Ideal S2x512x1 .f32 :=
  Host.divf
    (broadcastInDim S2x512x1 ![0, 1] bcast_S2x512_S2x512x1_0_1
      (Host.reduceAdd h (constant (F := Ideal) S_ .f32 0x00000000#32) reducesTo_S2x512x768_S2x512_d2 h_S_))
    (broadcastInDim S2x512x1 ![] bcast_S_S2x512x1 (constant (F := Ideal) S_ .f32 0x44400000#32))

/-- It is the specification's mean. -/
theorem meanT_apply (h : FVec Ideal S2x512x768 .f32) (b : Fin 2) (s : Fin 512) (u : Fin 1) :
    meanT h (ix3 b s u) = Spec.mean (coords3 h) b s := by
  unfold meanT
  rw [hostDivf_apply, bcast_keep_row_apply, bcast_scalar_apply, sum_row_apply, constant_apply, constant_apply,
    Ideal.ofBits_zero_f32, zero_add]
  rfl

/-! ## The variance helper -/

/-- The row less its mean. -/
def centredT (h : FVec Ideal S2x512x768 .f32) : FVec Ideal S2x512x768 .f32 :=
  subf h (broadcastInDim S2x512x768 ![0, 1, 2] bcast_S2x512x1_S2x512x768_0_1_2 (meanT h))

/-- It is, at coordinates, the entry less the specification's mean. -/
theorem centredT_apply (h : FVec Ideal S2x512x768 .f32) (b : Fin 2) (s : Fin 512) (d : Fin 768) :
    centredT h (ix3 b s d) = h (ix3 b s d) - Spec.mean (coords3 h) b s := by
  unfold centredT
  rw [subf_apply, bcast_row_apply, meanT_apply]

/-- The printed variance helper's result, with the reduced axis kept as a unit axis. -/
def varT (h : FVec Ideal S2x512x768 .f32) : FVec Ideal S2x512x1 .f32 :=
  select
    (broadcastInDim S2x512x1 ![] bcast_S_S2x512x1 (cmpf .ogt dofT (constant (F := Ideal) S_ .f32 0x00000000#32)))
    (Host.divf
      (broadcastInDim S2x512x1 ![0, 1] bcast_S2x512_S2x512x1_0_1
        (Host.reduceAdd (mulf (centredT h) (centredT h)) (constant (F := Ideal) S_ .f32 0x00000000#32)
          reducesTo_S2x512x768_S2x512_d2 h_S_))
      (broadcastInDim S2x512x1 ![] bcast_S_S2x512x1 dofT))
    (broadcastInDim S2x512x1 ![] bcast_S_S2x512x1 (constant (F := Ideal) S_ .f32 0x7FC00000#32))

/-- It is the specification's variance. -/
theorem varT_apply (h : FVec Ideal S2x512x768 .f32) (b : Fin 2) (s : Fin 512) (u : Fin 1) :
    varT h (ix3 b s u) = Spec.var (coords3 h) b s := by
  unfold varT
  rw [select_apply, bcast_scalar_apply, guard_apply, select_one, hostDivf_apply, bcast_keep_row_apply,
    bcast_scalar_apply, dofT_apply, sum_row_apply, constant_apply, Ideal.ofBits_zero_f32, zero_add]
  unfold Spec.var
  refine congrArg (Ideal.div · Spec.width) (Finset.sum_congr rfl fun k _ => ?_)
  rw [mulf_apply, centredT_apply]

/-! ## The normalized row, scaled and shifted -/

/-- The printed normalized array: the row less its mean over the square root of the variance plus ε. -/
def lnT (h : FVec Ideal S2x512x768 .f32) : FVec Ideal S2x512x768 .f32 :=
  Host.divf
    (subf h (broadcastInDim S2x512x768 ![0, 1, 2] bcast_S2x512x1_S2x512x768_0_1_2 (meanT h)))
    (broadcastInDim S2x512x768 ![0, 1, 2] bcast_S2x512x1_S2x512x768_0_1_2
      (Host.sqrt (addf (varT h)
        (broadcastInDim S2x512x1 ![] bcast_S_S2x512x1 (constant (F := Ideal) S_ .f32 0x3727C5AC#32)))))

/-- It is the specification's normalized row. -/
theorem lnT_apply (h : FVec Ideal S2x512x768 .f32) (b : Fin 2) (s : Fin 512) (d : Fin 768) :
    lnT h (ix3 b s d) = Spec.ln (coords3 h) b s d := by
  unfold lnT
  rw [hostDivf_apply, subf_apply, bcast_row_apply, meanT_apply, bcast_row_apply, hostSqrt_apply, addf_apply,
    varT_apply, bcast_scalar_apply, constant_apply]
  rfl

/-- The printed scale-and-shift of the normalized array by two per-batch rows. -/
def modulateT (h : FVec Ideal S2x512x768 .f32) (sc sh : FVec Ideal S2x768 .f32) : FVec Ideal S2x512x768 .f32 :=
  addf
    (mulf (lnT h)
      (broadcastInDim S2x512x768 ![0, 1, 2] bcast_S2x1x768_S2x512x768_0_1_2
        (addf (broadcastInDim S2x1x768 ![] bcast_S_S2x1x768 (constant (F := Ideal) S_ .f32 0x3F800000#32))
          (broadcastInDim S2x1x768 ![0, 2] bcast_S2x768_S2x1x768_0_2 sc))))
    (broadcastInDim S2x512x768 ![0, 1, 2] bcast_S2x1x768_S2x512x768_0_1_2
      (broadcastInDim S2x1x768 ![0, 2] bcast_S2x768_S2x1x768_0_2 sh))

/-- It is the specification's scale-and-shift. -/
theorem modulateT_apply (h : FVec Ideal S2x512x768 .f32) (sc sh : FVec Ideal S2x768 .f32) (b : Fin 2) (s : Fin 512) (d : Fin 768) :
    modulateT h sc sh (ix3 b s d) = Spec.modulate (coords3 h) (coords2 sc) (coords2 sh) b s d := by
  unfold modulateT
  rw [addf_apply, mulf_apply, lnT_apply, bcast_batch_apply, addf_apply, bcast_scalar_apply, constant_apply,
    bcast_mid_apply, bcast_batch_apply, bcast_mid_apply]
  rfl

end Cert.RefValue

end
-- ==== Proof.RefValueAttn.lean ====
/-
  The reference's attention part, read at an index, stage by stage: the normalized, scaled and shifted input; the three
  projections in 32 heads of 96; the scaled scores; the softmax in the reference's own one-block running-maximum form
  (row maximum from -∞, the maximum against -∞, the rescaling factor, the weights, the normalizer, the weighted values,
  the quotient); the heads laid side by side; the output projection; and the input plus the gated result.
-/
import proofs.«900775_g7700000000000776_dist_diff_dit_htp_i_b2_s512_d768_hq4_v7x_i8_f32_1_alg».proof.ReferenceIdeal
import proofs.«900775_g7700000000000776_dist_diff_dit_htp_i_b2_s512_d768_hq4_v7x_i8_f32_1_alg».proof.Proof.Spec
import proofs.«900775_g7700000000000776_dist_diff_dit_htp_i_b2_s512_d768_hq4_v7x_i8_f32_1_alg».proof.Proof.RefRunOut
import proofs.«900775_g7700000000000776_dist_diff_dit_htp_i_b2_s512_d768_hq4_v7x_i8_f32_1_alg».proof.Proof.RefValueDots
import proofs.«900775_g7700000000000776_dist_diff_dit_htp_i_b2_s512_d768_hq4_v7x_i8_f32_1_alg».proof.Proof.RefValueLayout
import proofs.«900775_g7700000000000776_dist_diff_dit_htp_i_b2_s512_d768_hq4_v7x_i8_f32_1_alg».proof.Proof.RefValueNorm
import proofs.«900775_g7700000000000776_dist_diff_dit_htp_i_b2_s512_d768_hq4_v7x_i8_f32_1_alg».proof.Proof.RefValueMod

noncomputable section

open scoped BigOperators

namespace Cert.RefValue

open Idealize.ShloMosaic Idealize.ShloMosaic.ValueIdx Cert.ReferenceIdeal

variable [Cert.ReferenceIdeal.Facts]

open Cert.ReferenceIdeal.Facts₀ Cert.ReferenceIdeal.RefRun

/-- The input of the attention part. -/
theorem v26_apply (x : Args Ideal) (b : Fin 2) (s : Fin 512) (d : Fin 768) : s_v26 x (ix3 b s d) = Spec.xa (inp x) b s d := by
  have e : s_v26 x = modulateT x.a0 (s_v1 x) (s_v2 x) := rfl
  have h1 : coords2 (s_v1 x) = Spec.sa (inp x) := funext fun b => funext fun d => v1_apply x b d
  have h2 : coords2 (s_v2 x) = Spec.sha (inp x) := funext fun b => funext fun d => v2_apply x b d
  rw [e, modulateT_apply, h1, h2]
  rfl

/-- A projection of the attention part's input by a [768,3072] weight, read as 32 heads of 96. -/
theorem proj_apply (x : Args Ideal) (W : FVec Ideal S768x3072 .f32) (b : Fin 2) (s : Fin 512) (h : Fin 32) (e : Fin 96) :
    shapeCast S2x512x32x96 (Host.dotGeneral dot_S2x512x768_S768x3072_S2x512x3072_2_0_01_1_n_n none (s_v26 x) W)
        shapeCasts_S2x512x3072_S2x512x32x96 (ix4 b s h e)
      = Spec.proj (inp x) W b s h e := by
  rw [split_heads_apply, dot_in_apply]
  unfold Spec.proj
  refine Finset.sum_congr rfl fun k _ => ?_
  rw [v26_apply]

/-- The queries. -/
theorem v28_apply (x : Args Ideal) (b : Fin 2) (s : Fin 512) (h : Fin 32) (e : Fin 96) :
    s_v28 x (ix4 b s h e) = Spec.Q (inp x) b s h e := by
  unfold s_v28 s_v27
  exact proj_apply x x.a1 b s h e

/-- The keys. -/
theorem v30_apply (x : Args Ideal) (b : Fin 2) (s : Fin 512) (h : Fin 32) (e : Fin 96) :
    s_v30 x (ix4 b s h e) = Spec.K (inp x) b s h e := by
  unfold s_v30 s_v29
  exact proj_apply x x.a2 b s h e

/-- The values. -/
theorem v32_apply (x : Args Ideal) (b : Fin 2) (s : Fin 512) (h : Fin 32) (e : Fin 96) :
    s_v32 x (ix4 b s h e) = Spec.V (inp x) b s h e := by
  unfold s_v32 s_v31
  exact proj_apply x x.a3 b s h e

/-- The scaled scores. -/
theorem v38_apply (x : Args Ideal) (b : Fin 2) (h : Fin 32) (i j : Fin 512) :
    s_v38 x (ix4 b h i j) = Spec.scores (inp x) b h i j := by
  unfold s_v38 s_v36 s_v37 s_cst_6
  rw [mulf_apply, dot_qk_apply, bcast_scalar_apply, constant_apply]
  unfold Spec.scores
  refine congrArg (· * Spec.scale) (Finset.sum_congr rfl fun e _ => ?_)
  rw [v28_apply, v30_apply]

/-- The row maximum, from -∞. -/
theorem v39_apply (x : Args Ideal) (b : Fin 2) (h : Fin 32) (i : Fin 512) :
    s_v39 x (ix3 b h i) = Spec.rowMax (inp x) b h i := by
  unfold s_v39 s_cst_7
  rw [max_sc_apply, constant_apply,
    show (fun j => s_v38 x (ix4 b h i j)) = (fun j => Spec.scores (inp x) b h i j) from
      funext fun j => v38_apply x b h i j]
  rfl

/-- The running maximum after the one block. -/
theorem v41_apply (x : Args Ideal) (b : Fin 2) (h : Fin 32) (i : Fin 512) (u : Fin 1) :
    s_v41 x (ix4 b h i u) = Spec.mNew (inp x) b h i := by
  unfold s_v41 s_v34 s_v40 s_cst_4
  rw [maximumf_apply, bcast_scalar_apply, constant_apply, bcast_keep_sc_apply, v39_apply]
  rfl

/-- The rescaling factor. -/
theorem v43_apply (x : Args Ideal) (b : Fin 2) (h : Fin 32) (i : Fin 512) (u : Fin 1) :
    s_v43 x (ix4 b h i u) = Spec.alpha (inp x) b h i := by
  unfold s_v43 s_v42 s_v34 s_cst_4
  rw [hostExp_apply, subf_apply, bcast_scalar_apply, constant_apply, v41_apply]
  rfl

/-- The unnormalized weights. -/
theorem v46_apply (x : Args Ideal) (b : Fin 2) (h : Fin 32) (i j : Fin 512) :
    s_v46 x (ix4 b h i j) = Spec.p (inp x) b h i j := by
  unfold s_v46 s_v45 s_v44
  rw [hostExp_apply, subf_apply, v38_apply, bcast_sc_apply, v41_apply]
  rfl

/-- The normalizer. -/
theorem v50_apply (x : Args Ideal) (b : Fin 2) (h : Fin 32) (i : Fin 512) (u : Fin 1) :
    s_v50 x (ix4 b h i u) = Spec.l (inp x) b h i := by
  unfold s_v50 s_v47 s_v49 s_v48 s_v35 s_cst_5 s_cst_8
  rw [addf_apply, mulf_apply, bcast_scalar_apply, v43_apply, bcast_keep_sc_apply, sum_sc_apply]
  simp only [constant_apply, Ideal.ofBits_zero_f32, zero_add]
  unfold Spec.l
  exact congrArg (0 * Spec.alpha (inp x) b h i + ·) (Finset.sum_congr rfl fun j _ => v46_apply x b h i j)

/-- The weighted values. -/
theorem v56_apply (x : Args Ideal) (b : Fin 2) (i : Fin 512) (h : Fin 32) (e : Fin 96) :
    s_v56 x (ix4 b i h e) = Spec.acc (inp x) b i h e := by
  unfold s_v56 s_v53 s_v55 s_v54 s_v52 s_v51 s_v33 s_cst_3
  rw [addf_apply, mulf_apply, bcast_scalar_apply, bcast_head_apply, swap_head_pos_apply, v43_apply, to_pos_head_apply,
    dot_pv_apply]
  simp only [constant_apply, Ideal.ofBits_zero_f32]
  unfold Spec.acc
  refine congrArg (0 * Spec.alpha (inp x) b h i + ·) (Finset.sum_congr rfl fun j _ => ?_)
  rw [v32_apply, v46_apply]

/-- One head's result. -/
theorem v59_apply (x : Args Ideal) (b : Fin 2) (i : Fin 512) (h : Fin 32) (e : Fin 96) :
    s_v59 x (ix4 b i h e) = Spec.heads (inp x) b i h e := by
  unfold s_v59 s_v58 s_v57
  rw [hostDivf_apply, v56_apply, bcast_head_apply, swap_head_pos_apply, v50_apply]
  rfl

/-- The heads side by side. -/
theorem v60_apply (x : Args Ideal) (b : Fin 2) (s : Fin 512) (c : Fin 3072) :
    s_v60 x (ix3 b s c) = Spec.headsCat (inp x) b s c := by
  unfold s_v60
  rw [join_heads_apply, v59_apply]
  rfl

/-- The attention part's result. -/
theorem v61_apply (x : Args Ideal) (b : Fin 2) (s : Fin 512) (d : Fin 768) :
    s_v61 x (ix3 b s d) = Spec.attn (inp x) b s d := by
  unfold s_v61
  rw [dot_out_apply]
  unfold Spec.attn
  refine Finset.sum_congr rfl fun c _ => ?_
  rw [v60_apply]

/-- The input plus the gated attention result. -/
theorem v65_apply (x : Args Ideal) (b : Fin 2) (s : Fin 512) (d : Fin 768) :
    s_v65 x (ix3 b s d) = Spec.x1 (inp x) b s d := by
  unfold s_v65 s_v64 s_v63 s_v62
  rw [addf_apply, mulf_apply, bcast_batch_apply, bcast_mid_apply, v3_apply, v61_apply]
  rfl

end Cert.RefValue

end
-- ==== Proof.RefValueFf.lean ====
/-
  The reference's feed-forward part, read at an index: the second layer norm with its scale and shift, the first
  product, the unit  h / (1 + exp (-h)), the second product, and the block's result, the first sum plus the gated
  feed-forward result.
-/
import proofs.«900775_g7700000000000776_dist_diff_dit_htp_i_b2_s512_d768_hq4_v7x_i8_f32_1_alg».proof.ReferenceIdeal
import proofs.«900775_g7700000000000776_dist_diff_dit_htp_i_b2_s512_d768_hq4_v7x_i8_f32_1_alg».proof.Proof.Spec
import proofs.«900775_g7700000000000776_dist_diff_dit_htp_i_b2_s512_d768_hq4_v7x_i8_f32_1_alg».proof.Proof.RefRunOut
import proofs.«900775_g7700000000000776_dist_diff_dit_htp_i_b2_s512_d768_hq4_v7x_i8_f32_1_alg».proof.Proof.RefValueDots
import proofs.«900775_g7700000000000776_dist_diff_dit_htp_i_b2_s512_d768_hq4_v7x_i8_f32_1_alg».proof.Proof.RefValueLayout
import proofs.«900775_g7700000000000776_dist_diff_dit_htp_i_b2_s512_d768_hq4_v7x_i8_f32_1_alg».proof.Proof.RefValueNorm
import proofs.«900775_g7700000000000776_dist_diff_dit_htp_i_b2_s512_d768_hq4_v7x_i8_f32_1_alg».proof.Proof.RefValueMod
import proofs.«900775_g7700000000000776_dist_diff_dit_htp_i_b2_s512_d768_hq4_v7x_i8_f32_1_alg».proof.Proof.RefValueAttn

noncomputable section

open scoped BigOperators

namespace Cert.RefValue

open Idealize.ShloMosaic Idealize.ShloMosaic.ValueIdx Cert.ReferenceIdeal

variable [Cert.ReferenceIdeal.Facts]

open Cert.ReferenceIdeal.Facts₀ Cert.ReferenceIdeal.RefRun

/-- The input of the feed-forward part. -/
theorem v85_apply (x : Args Ideal) (b : Fin 2) (s : Fin 512) (d : Fin 768) : s_v85 x (ix3 b s d) = Spec.xm (inp x) b s d := by
  have e : s_v85 x = modulateT (s_v65 x) (s_v4 x) (s_v5 x) := rfl
  have h0 : coords3 (s_v65 x) = Spec.x1 (inp x) := funext fun b => funext fun s => funext fun d => v65_apply x b s d
  have h1 : coords2 (s_v4 x) = Spec.sm (inp x) := funext fun b => funext fun d => v4_apply x b d
  have h2 : coords2 (s_v5 x) = Spec.shm (inp x) := funext fun b => funext fun d => v5_apply x b d
  rw [e, modulateT_apply, h0, h1, h2]
  rfl

/-- The first product. -/
theorem v86_apply (x : Args Ideal) (b : Fin 2) (s : Fin 512) (c : Fin 3072) : s_v86 x (ix3 b s c) = Spec.hpre (inp x) b s c := by
  unfold s_v86
  rw [dot_in_apply]
  unfold Spec.hpre
  refine Finset.sum_congr rfl fun k _ => ?_
  rw [v85_apply]

/-- The unit  h / (1 + exp (-h)). -/
theorem v91_apply (x : Args Ideal) (b : Fin 2) (s : Fin 512) (c : Fin 3072) : s_v91 x (ix3 b s c) = Spec.act (inp x) b s c := by
  unfold s_v91 s_v90 s_v89 s_v88 s_v87 s_cst_14
  rw [hostDivf_apply, addf_apply, bcast_scalar_apply, constant_apply, hostExp_apply, hostNegf_apply, v86_apply]
  rfl

/-- The second product. -/
theorem v93_apply (x : Args Ideal) (b : Fin 2) (s : Fin 512) (d : Fin 768) : s_v93 x (ix3 b s d) = Spec.ff (inp x) b s d := by
  unfold s_v93
  rw [dot_out_apply]
  unfold Spec.ff
  refine Finset.sum_congr rfl fun c _ => ?_
  rw [v91_apply]

/-- The block's result by coordinates. -/
theorem v96_apply (x : Args Ideal) (b : Fin 2) (s : Fin 512) (d : Fin 768) : s_v96 x (ix3 b s d) = Spec.outAt (inp x) b s d := by
  unfold s_v96 s_v95 s_v94 s_v92
  rw [addf_apply, v65_apply, mulf_apply, bcast_batch_apply, bcast_mid_apply, v6_apply, v93_apply]
  rfl

end Cert.RefValue

end
-- ==== Proof.RefValue.lean ====
/-
  The reference's result is the specification: the last stage of the printed reference program, as a function of the
  nine argument arrays, equals the specification's result at every index.
-/
import proofs.«900775_g7700000000000776_dist_diff_dit_htp_i_b2_s512_d768_hq4_v7x_i8_f32_1_alg».proof.ReferenceIdeal
import proofs.«900775_g7700000000000776_dist_diff_dit_htp_i_b2_s512_d768_hq4_v7x_i8_f32_1_alg».proof.Proof.Spec
import proofs.«900775_g7700000000000776_dist_diff_dit_htp_i_b2_s512_d768_hq4_v7x_i8_f32_1_alg».proof.Proof.RefRunOut
import proofs.«900775_g7700000000000776_dist_diff_dit_htp_i_b2_s512_d768_hq4_v7x_i8_f32_1_alg».proof.Proof.RefValueMod
import proofs.«900775_g7700000000000776_dist_diff_dit_htp_i_b2_s512_d768_hq4_v7x_i8_f32_1_alg».proof.Proof.RefValueFf

noncomputable section

open scoped BigOperators

namespace Cert.RefValue

open Idealize.ShloMosaic Idealize.ShloMosaic.ValueIdx Cert.ReferenceIdeal

variable [Cert.ReferenceIdeal.Facts]

open Cert.ReferenceIdeal.RefRun

/-- The reference's result, read over the extended reals, is the specification's, index by index. -/
theorem out_eq (a0 : Vec Ideal S2x512x768 .f32) (a1 a2 a3 : Vec Ideal S768x3072 .f32) (a4 : Vec Ideal S3072x768 .f32)
    (a5 : Vec Ideal S2x128 .f32) (a6 : Vec Ideal S128x4608 .f32) (a7 : Vec Ideal S768x3072 .f32)
    (a8 : Vec Ideal S3072x768 .f32) :
    Cert.ReferenceIdeal.RefRun.out (F := Ideal) a0 a1 a2 a3 a4 a5 a6 a7 a8 = Cert.Spec.out a0 a1 a2 a3 a4 a5 a6 a7 a8 := by
  funext i
  obtain ⟨b, s, d, rfl⟩ : ∃ (b : Fin 2) (s : Fin 512) (d : Fin 768), i = ix3 b s d := ⟨i 0, i 1, i 2, eq_ix3 i⟩
  rw [Spec.out_ix3]
  exact v96_apply ⟨a0, a1, a2, a3, a4, a5, a6, a7, a8⟩ b s d

end Cert.RefValue

/-- info: 'Cert.RefValue.out_eq' depends on axioms: [propext, Classical.choice, Quot.sound] -/
#guard_msgs in #print axioms Cert.RefValue.out_eq

end
-- ==== Proof.MathReal.lean ====
/-
  Pure mathematics, independent of any program: the extended reals that are real numbers, and
  the laws two formulas for one transformer block meet at.

  * `IsReal x`: the extended real `x` is a real number.  Every operation of the block sends
    real operands to a real result (one lemma each), and on real operands each is the coercion
    of the operation on the reals (the `…_coe` lemmas), so an expression over real inputs is
    the coercion of a real expression.
  * SOFTMAX SHIFT: the softmax-weighted mean does not change when a constant is subtracted from
    every logit; and the one-block "online" form, started at running maximum `-∞`, running
    sum `0` and running numerator `0`, is that shifted form (its rescaling factor
    `exp (-∞ - M)` is `0`).
  * LAYERNORM: multiplying by the reciprocal square root is dividing by the square root, at a
    positive argument; a variance plus a positive `ε` is positive.
  * SCALE THROUGH A DOT PRODUCT: a constant factor on one operand's entries comes out of the sum.
-/
import Idealize.ShloMosaic.PureOps.Ideal
import Mathlib.Algebra.BigOperators.Field
import Mathlib.Algebra.BigOperators.Ring.Finset
import Mathlib.Algebra.Order.BigOperators.Group.Finset

namespace Cert.Math

open Idealize.ShloMosaic
open scoped BigOperators

/-! ### Real-valued extended reals -/

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- Real: neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

/-- An extended real whose absolute value `max x (-x)` is below `+∞` is real. -/
theorem isReal_of_abs_lt_top {x : EReal} (h : max x (-x) < ⊤) : IsReal x := by
  induction x using EReal.rec with
  | bot => exact absurd h (by simp)
  | top => exact absurd h (by simp)
  | coe r => exact ⟨r, rfl⟩

/-- A real extended real is the coercion of its real part. -/
theorem IsReal.eq_coe_toReal {x : EReal} (h : IsReal x) : x = ((x.toReal : ℝ) : EReal) := by
  obtain ⟨r, rfl⟩ := h; rfl

/-- A family of real extended reals is the coercion of a family of reals. -/
theorem exists_real_fun {ι : Type*} {X : ι → EReal} (h : ∀ i, IsReal (X i)) :
    ∃ f : ι → ℝ, X = fun i => (f i : EReal) :=
  ⟨fun i => (X i).toReal, funext fun i => (h i).eq_coe_toReal⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx; obtain ⟨b, rfl⟩ := hy; exact ⟨_, max_coe a b⟩

/-- The maximum with `-∞` is the other operand. -/
theorem max_bot_left' (x : EReal) : max ⊥ x = x := max_eq_right bot_le

/-! ### Division -/

/-- The quotient of two reals, the divisor not zero, is the real quotient. -/
theorem div_coe_coe (a b : ℝ) (hb : b ≠ 0) : Ideal.div (a : EReal) (b : EReal) = ((a / b : ℝ) : EReal) := by
  rw [Ideal.div, if_neg (EReal.coe_ne_zero.mpr hb), ← EReal.coe_inv, ← EReal.coe_mul, div_eq_mul_inv]

theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a b (EReal.coe_ne_zero.mp h0)⟩

/-! ### Finite sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.sum_univ {ι : Type*} [Fintype ι] (f : ι → EReal) (h : ∀ i, IsReal (f i)) : IsReal (∑ i, f i) :=
  IsReal.sum Finset.univ f fun i _ => h i

/-- A dot product of real entries is the real dot product. -/
theorem dot_coe {ι : Type*} (s : Finset ι) (a b : ι → ℝ) :
    ∑ d ∈ s, (a d : EReal) * (b d : EReal) = ((∑ d ∈ s, a d * b d : ℝ) : EReal) := by
  rw [coe_sum]; exact Finset.sum_congr rfl fun d _ => (EReal.coe_mul _ _).symm

/-! ### Exponential, square root, reciprocal square root -/

theorem IsReal.exp {x : EReal} (hx : IsReal x) : IsReal (Ideal.exp x) := by
  obtain ⟨a, rfl⟩ := hx; exact ⟨Real.exp a, rfl⟩

theorem exp_pos_coe (r : ℝ) : (0 : EReal) < Ideal.exp (r : EReal) :=
  EReal.coe_pos.mpr (Real.exp_pos r)

/-- At a real that is not negative the square root is the real square root. -/
theorem sqrt_coe_of_nonneg (r : ℝ) (h : 0 ≤ r) : Ideal.sqrt (r : EReal) = ((Real.sqrt r : ℝ) : EReal) := by
  rw [Ideal.sqrt_coe, if_neg (not_lt.mpr h)]

/-- At a positive real the reciprocal square root is the reciprocal of the real square root. -/
theorem rsqrt_coe_of_pos (r : ℝ) (h : 0 < r) : Ideal.rsqrt (r : EReal) = (((Real.sqrt r)⁻¹ : ℝ) : EReal) := by
  rw [Ideal.rsqrt_coe, if_neg (not_lt.mpr h.le), if_neg h.ne']

theorem IsReal.sqrt {x : EReal} (hx : IsReal x) (h0 : 0 ≤ x) : IsReal (Ideal.sqrt x) := by
  obtain ⟨a, rfl⟩ := hx; exact ⟨_, sqrt_coe_of_nonneg a (EReal.coe_nonneg.mp h0)⟩

theorem IsReal.rsqrt {x : EReal} (hx : IsReal x) (h0 : 0 < x) : IsReal (Ideal.rsqrt x) := by
  obtain ⟨a, rfl⟩ := hx; exact ⟨_, rsqrt_coe_of_pos a (EReal.coe_pos.mp h0)⟩

/-- The square root of a positive real is not zero. -/
theorem sqrt_ne_zero_of_pos (r : ℝ) (h : 0 < r) : Ideal.sqrt (r : EReal) ≠ 0 := by
  rw [sqrt_coe_of_nonneg r h.le]; exact EReal.coe_ne_zero.mpr (Real.sqrt_pos.mpr h).ne'

/-! ### `x / (1 + exp (-x))` -/

theorem one_add_exp_neg_coe (r : ℝ) :
    (1 : EReal) + Ideal.exp (-(r : EReal)) = ((1 + Real.exp (-r) : ℝ) : EReal) := by
  rw [← EReal.coe_neg, Ideal.exp_coe, ← EReal.coe_one, ← EReal.coe_add]

theorem one_add_exp_neg_ne_zero (r : ℝ) : (1 : EReal) + Ideal.exp (-(r : EReal)) ≠ 0 := by
  rw [one_add_exp_neg_coe]
  exact EReal.coe_ne_zero.mpr (add_pos one_pos (Real.exp_pos _)).ne'

/-- `x / (1 + exp (-x))` at a real `x` is the real expression. -/
theorem silu_coe (r : ℝ) :
    Ideal.div (r : EReal) (1 + Ideal.exp (-(r : EReal))) = ((r / (1 + Real.exp (-r)) : ℝ) : EReal) := by
  rw [one_add_exp_neg_coe, div_coe_coe _ _ (add_pos one_pos (Real.exp_pos _)).ne']

theorem IsReal.silu {x : EReal} (hx : IsReal x) : IsReal (Ideal.div x (1 + Ideal.exp (-x))) := by
  obtain ⟨a, rfl⟩ := hx; exact ⟨_, silu_coe a⟩

theorem IsReal.logistic {x : EReal} (hx : IsReal x) : IsReal (Ideal.logistic x) := by
  obtain ⟨a, rfl⟩ := hx; exact ⟨_, Ideal.logistic_coe a⟩

/-! ### Scale through a dot product -/

section
variable {ι : Type*} [Fintype ι]

/-- A constant factor on the first operand's entries comes out of the dot product. -/
theorem sum_scale_real (q k : ι → ℝ) (c : ℝ) : ∑ d, (q d * c) * k d = (∑ d, q d * k d) * c := by
  rw [Finset.sum_mul]; exact Finset.sum_congr rfl fun d _ => mul_right_comm _ _ _

/-- The same over the extended reals, for real entries and a real factor. -/
theorem sum_scale (q k : ι → ℝ) (c : ℝ) :
    ∑ d, ((q d : EReal) * (c : EReal)) * (k d : EReal) = (∑ d, (q d : EReal) * (k d : EReal)) * (c : EReal) := by
  rw [dot_coe, ← EReal.coe_mul, ← sum_scale_real, coe_sum]
  exact Finset.sum_congr rfl fun d _ => by rw [EReal.coe_mul, EReal.coe_mul]

/-! ### Softmax shift -/

/-- SOFTMAX SHIFT over the reals: subtracting `M` from every logit changes neither side's quotient. -/
theorem softmax_shift_real (s v : ι → ℝ) (M : ℝ) :
    (∑ j, Real.exp (s j - M) * v j) / (∑ j, Real.exp (s j - M))
      = (∑ j, Real.exp (s j) * v j) / ∑ j, Real.exp (s j) := by
  have h1 : ∀ j, Real.exp (s j - M) = Real.exp (s j) * Real.exp (-M) := fun j => by
    rw [sub_eq_add_neg, Real.exp_add]
  have h2 : ∀ j, Real.exp (s j) * Real.exp (-M) * v j = Real.exp (s j) * v j * Real.exp (-M) := fun j =>
    mul_right_comm _ _ _
  simp only [h1, h2]
  rw [← Finset.sum_mul, ← Finset.sum_mul, mul_div_mul_right _ _ (Real.exp_pos _).ne']

/-- A sum of exponentials over a nonempty index set is positive. -/
theorem sum_exp_pos [Nonempty ι] (s : ι → ℝ) : 0 < ∑ j, Real.exp (s j) :=
  Finset.sum_pos (fun j _ => Real.exp_pos _) Finset.univ_nonempty

theorem exp_sub_coe (a M : ℝ) : Ideal.exp ((a : EReal) - (M : EReal)) = ((Real.exp (a - M) : ℝ) : EReal) := by
  rw [← EReal.coe_sub, Ideal.exp_coe]

/-- The rescaling factor of the first block: `exp (-∞ - x) = 0`. -/
theorem exp_bot_sub (x : EReal) : Ideal.exp (⊥ - x) = 0 := by rw [EReal.bot_sub, Ideal.exp_bot]

/-- The running value `0` rescaled by that factor is `0`. -/
theorem zero_mul_exp_bot_sub (x : EReal) : (0 : EReal) * Ideal.exp (⊥ - x) = 0 := by
  rw [exp_bot_sub, mul_zero]

/-- The plain denominator: the sum of the exponentials of real logits. -/
theorem plain_l (s : ι → ℝ) : ∑ j, Ideal.exp (s j : EReal) = ((∑ j, Real.exp (s j) : ℝ) : EReal) := by
  rw [coe_sum]; rfl

/-- The plain numerator. -/
theorem plain_acc (s v : ι → ℝ) :
    ∑ j, Ideal.exp (s j : EReal) * (v j : EReal) = ((∑ j, Real.exp (s j) * v j : ℝ) : EReal) := by
  rw [coe_sum]; exact Finset.sum_congr rfl fun j _ => by rw [EReal.coe_mul]; rfl

/-- The one-block online denominator `l = 0 · α + ∑ exp (s - M)` with `α = exp (-∞ - M)`. -/
theorem online_l (s : ι → ℝ) (M : ℝ) :
    (0 : EReal) * Ideal.exp (⊥ - (M : EReal)) + ∑ j, Ideal.exp ((s j : EReal) - (M : EReal))
      = ((∑ j, Real.exp (s j - M) : ℝ) : EReal) := by
  rw [zero_mul_exp_bot_sub, zero_add, coe_sum]
  exact Finset.sum_congr rfl fun j _ => exp_sub_coe _ _

/-- The one-block online numerator `acc = 0 · α + ∑ exp (s - M) · v`. -/
theorem online_acc (s v : ι → ℝ) (M : ℝ) :
    (0 : EReal) * Ideal.exp (⊥ - (M : EReal)) + ∑ j, Ideal.exp ((s j : EReal) - (M : EReal)) * (v j : EReal)
      = ((∑ j, Real.exp (s j - M) * v j : ℝ) : EReal) := by
  rw [zero_mul_exp_bot_sub, zero_add, coe_sum]
  exact Finset.sum_congr rfl fun j _ => by rw [exp_sub_coe, EReal.coe_mul]

/-- The plain softmax-weighted mean of real values at real logits is the real one. -/
theorem softmax_plain_coe [Nonempty ι] (s v : ι → ℝ) :
    Ideal.div (∑ j, Ideal.exp (s j : EReal) * (v j : EReal)) (∑ j, Ideal.exp (s j : EReal))
      = (((∑ j, Real.exp (s j) * v j) / ∑ j, Real.exp (s j) : ℝ) : EReal) := by
  rw [plain_l, plain_acc, div_coe_coe _ _ (sum_exp_pos s).ne']

/-- SOFTMAX SHIFT over the extended reals: the one-block online form at any real `M` is the plain
    softmax-weighted mean. -/
theorem softmax_online_eq_plain [Nonempty ι] (s v : ι → ℝ) (M : ℝ) :
    Ideal.div
        ((0 : EReal) * Ideal.exp (⊥ - (M : EReal)) + ∑ j, Ideal.exp ((s j : EReal) - (M : EReal)) * (v j : EReal))
        ((0 : EReal) * Ideal.exp (⊥ - (M : EReal)) + ∑ j, Ideal.exp ((s j : EReal) - (M : EReal)))
      = Ideal.div (∑ j, Ideal.exp (s j : EReal) * (v j : EReal)) (∑ j, Ideal.exp (s j : EReal)) := by
  rw [online_l, online_acc, softmax_plain_coe, div_coe_coe _ _ (sum_exp_pos fun j => s j - M).ne',
    softmax_shift_real]

end

/-! ### LayerNorm -/

/-- A sum of squares of deviations is not negative. -/
theorem sum_sq_dev_nonneg {ι : Type*} (s : Finset ι) (h : ι → ℝ) (μ : ℝ) :
    0 ≤ ∑ i ∈ s, (h i - μ) * (h i - μ) :=
  Finset.sum_nonneg fun i _ => mul_self_nonneg _

/-- A variance (the sum of squared deviations over a count that is not negative) plus a positive
    `ε` is positive. -/
theorem var_add_eps_pos {ι : Type*} (s : Finset ι) (h : ι → ℝ) (μ n ε : ℝ) (hn : 0 ≤ n) (hε : 0 < ε) :
    0 < (∑ i ∈ s, (h i - μ) * (h i - μ)) / n + ε :=
  add_pos_of_nonneg_of_pos (div_nonneg (sum_sq_dev_nonneg s h μ) hn) hε

/-- LAYERNORM over the reals: times the reciprocal of the square root is divided by it. -/
theorem mul_inv_sqrt_real (x y : ℝ) : x * (Real.sqrt y)⁻¹ = x / Real.sqrt y := (div_eq_mul_inv _ _).symm

/-- LAYERNORM: at a positive real argument, multiplying by the reciprocal square root is dividing
    by the square root. -/
theorem mul_rsqrt_eq_div_sqrt (x y : ℝ) (hy : 0 < y) :
    (x : EReal) * Ideal.rsqrt (y : EReal) = Ideal.div (x : EReal) (Ideal.sqrt (y : EReal)) := by
  rw [rsqrt_coe_of_pos y hy, ← EReal.coe_mul, sqrt_coe_of_nonneg y hy.le,
    div_coe_coe _ _ (Real.sqrt_pos.mpr hy).ne', div_eq_mul_inv]

/-- Both forms are the real quotient. -/
theorem mul_rsqrt_coe (x y : ℝ) (hy : 0 < y) :
    (x : EReal) * Ideal.rsqrt (y : EReal) = ((x / Real.sqrt y : ℝ) : EReal) := by
  rw [rsqrt_coe_of_pos y hy, ← EReal.coe_mul, div_eq_mul_inv]

theorem div_sqrt_coe (x y : ℝ) (hy : 0 < y) :
    Ideal.div (x : EReal) (Ideal.sqrt (y : EReal)) = ((x / Real.sqrt y : ℝ) : EReal) := by
  rw [← mul_rsqrt_eq_div_sqrt x y hy, mul_rsqrt_coe x y hy]

/-- info: 'Cert.Math.softmax_online_eq_plain' depends on axioms: [propext, Classical.choice, Quot.sound] -/
#guard_msgs in #print axioms Cert.Math.softmax_online_eq_plain

/-- info: 'Cert.Math.mul_rsqrt_eq_div_sqrt' depends on axioms: [propext, Classical.choice, Quot.sound] -/
#guard_msgs in #print axioms Cert.Math.mul_rsqrt_eq_div_sqrt

/-- info: 'Cert.Math.sum_scale' depends on axioms: [propext, Classical.choice, Quot.sound] -/
#guard_msgs in #print axioms Cert.Math.sum_scale

/-- info: 'Cert.Math.IsReal.silu' depends on axioms: [propext, Classical.choice, Quot.sound] -/
#guard_msgs in #print axioms Cert.Math.IsReal.silu

end Cert.Math
-- ==== Proof.PreReal.lean ====
/-
  From the printed precondition to real entries.  The precondition says, of each of the nine
  argument arrays, that every entry's absolute value is below `+∞`; an extended real whose
  absolute value is below `+∞` is a real number.  So under the precondition every entry of every
  argument array of every device is real.
-/
import proofs.«900775_g7700000000000776_dist_diff_dit_htp_i_b2_s512_d768_hq4_v7x_i8_f32_1_alg».proof.Defs
import proofs.«900775_g7700000000000776_dist_diff_dit_htp_i_b2_s512_d768_hq4_v7x_i8_f32_1_alg».proof.Proof.MathReal
import Idealize.ShloMosaic.Lib.ReduceAll
import Idealize.ShloMosaic.Lib.ValueIdx

namespace Cert.PreReal

open Idealize.ShloMosaic Cert.Math Cert.Pre_finite_inputs_Kernel

/-- The shape of no axes has one index. -/
instance : Subsingleton S_.Idx := ⟨fun _ _ => funext fun d => d.elim0⟩

/-- The f32 word of `+∞` is the top of the extended reals. -/
theorem posInf_eq_top : Ideal.ofBits .f32 0x7F800000#32 = ⊤ := by
  simp [Ideal.ofBits, Ideal.ieee]

/-- An ordered less-than that answers 1 holds. -/
theorem lt_of_cmp_olt {a b : EReal} (h : Ideal.cmp .olt a b = 1#1) : a < b := by
  unfold Ideal.cmp at h
  by_contra hn
  simp [hn] at h

/-- ONE ARRAY. If "every entry's absolute value is below `+∞`", reduced by `and` over all axes, is 1,
    then every entry is real. -/
theorem real_of_all {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi
          (cmpf .olt (Host.absf x) (broadcastInDim S ![] hb (constant (F := Ideal) S_ .f32 0x7F800000#32)))
          (constantI S_ 1 1#1) hr hu j = 1#1) (i : S.Idx) : IsReal (x i) := by
  have h := Host.reduce_andi_all _ _ hr hu j e i
  have h' : Ideal.cmp .olt (max (x i) (-(x i))) (Ideal.ofBits .f32 0x7F800000#32) = 1#1 := h
  rw [posInf_eq_top] at h'
  exact isReal_of_abs_lt_top (lt_of_cmp_olt h')

/-- Every entry of each of nine arrays of the argument shapes is real. -/
structure RealArgs (a0 : FVec Ideal S2x512x768 .f32) (a1 : FVec Ideal S768x384 .f32) (a2 : FVec Ideal S768x384 .f32) (a3 : FVec Ideal S768x384 .f32) (a4 : FVec Ideal S384x768 .f32) (a5 : FVec Ideal S2x128 .f32) (a6 : FVec Ideal S128x4608 .f32) (a7 : FVec Ideal S768x384 .f32) (a8 : FVec Ideal S384x768 .f32) : Prop where
  arg0 : ∀ i, IsReal (a0 i)
  arg1 : ∀ i, IsReal (a1 i)
  arg2 : ∀ i, IsReal (a2 i)
  arg3 : ∀ i, IsReal (a3 i)
  arg4 : ∀ i, IsReal (a4 i)
  arg5 : ∀ i, IsReal (a5 i)
  arg6 : ∀ i, IsReal (a6 i)
  arg7 : ∀ i, IsReal (a7 i)
  arg8 : ∀ i, IsReal (a8 i)

variable [Facts]

/-- THE NINE ARRAYS. The printed predicate, all ones, makes every entry of its nine operands real. -/
theorem realArgs_of_fn (a0 : FVec Ideal S2x512x768 .f32) (a1 : FVec Ideal S768x384 .f32) (a2 : FVec Ideal S768x384 .f32) (a3 : FVec Ideal S768x384 .f32) (a4 : FVec Ideal S384x768 .f32) (a5 : FVec Ideal S2x128 .f32) (a6 : FVec Ideal S128x4608 .f32) (a7 : FVec Ideal S768x384 .f32) (a8 : FVec Ideal S384x768 .f32)
    (h : fn (F := Ideal) a0 a1 a2 a3 a4 a5 a6 a7 a8 = fun _ => 1#1) : RealArgs a0 a1 a2 a3 a4 a5 a6 a7 a8 := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8⟩

/-- EVERY DEVICE. Under the idealized kernel's precondition every entry of each of the nine argument
    buffers of every device is real. -/
theorem realArgs_of_pre (m : (ℓ : Loc Cert.KernelIdeal.nD Cert.KernelIdeal.τ Cert.KernelIdeal.sig) → Buf (Elt Ideal) ℓ)
    (h : Cert.Pre_KernelIdeal m) (c : Dev Cert.KernelIdeal.nD) :
    RealArgs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) :=
  realArgs_of_fn _ _ _ _ _ _ _ _ _ (h c)

/-- info: 'Cert.PreReal.realArgs_of_pre' depends on axioms: [propext, Classical.choice, Quot.sound] -/
#guard_msgs in #print axioms realArgs_of_pre

end Cert.PreReal
-- ==== Proof.MathRealE.lean ====
/-
  Pure mathematics, independent of any program: the laws of the real-valued extended reals stated
  over extended-real operands known to be real (rather than over coercions of reals), as a formula
  over arrays of extended reals meets them; the maximum of finitely many reals from `-∞`; and the
  mean, the variance and the normalization of a row of reals.
-/
import proofs.«900775_g7700000000000776_dist_diff_dit_htp_i_b2_s512_d768_hq4_v7x_i8_f32_1_alg».proof.Proof.MathReal

namespace Cert.Math

open Idealize.ShloMosaic
open scoped BigOperators

/-- LAYERNORM, over real operands: times the reciprocal square root is divided by the square root. -/
theorem IsReal.mul_rsqrt_eq_div_sqrt {x y : EReal} (hx : IsReal x) (hy : IsReal y) (h0 : 0 < y) :
    x * Ideal.rsqrt y = Ideal.div x (Ideal.sqrt y) := by
  obtain ⟨a, rfl⟩ := hx; obtain ⟨b, rfl⟩ := hy
  exact Cert.Math.mul_rsqrt_eq_div_sqrt a b (EReal.coe_pos.mp h0)

theorem IsReal.div_sqrt {x y : EReal} (hx : IsReal x) (hy : IsReal y) (h0 : 0 < y) :
    IsReal (Ideal.div x (Ideal.sqrt y)) := by
  obtain ⟨a, rfl⟩ := hx; obtain ⟨b, rfl⟩ := hy
  exact ⟨_, div_sqrt_coe a b (EReal.coe_pos.mp h0)⟩

section
variable {ι : Type*} [Fintype ι]

/-- SCALE THROUGH A DOT PRODUCT, over real operands. -/
theorem sum_scale_of_isReal (q k : ι → EReal) (c : EReal) (hq : ∀ d, IsReal (q d)) (hk : ∀ d, IsReal (k d))
    (hc : IsReal c) : ∑ d, (q d * c) * k d = (∑ d, q d * k d) * c := by
  obtain ⟨q', rfl⟩ := exists_real_fun hq; obtain ⟨k', rfl⟩ := exists_real_fun hk; obtain ⟨c', rfl⟩ := hc
  exact sum_scale q' k' c'

/-- The plain softmax-weighted mean of real values at real logits is real. -/
theorem isReal_softmax_plain [Nonempty ι] (s v : ι → EReal) (hs : ∀ j, IsReal (s j)) (hv : ∀ j, IsReal (v j)) :
    IsReal (Ideal.div (∑ j, Ideal.exp (s j) * v j) (∑ j, Ideal.exp (s j))) := by
  obtain ⟨s', rfl⟩ := exists_real_fun hs; obtain ⟨v', rfl⟩ := exists_real_fun hv
  exact ⟨_, softmax_plain_coe s' v'⟩

/-- SOFTMAX SHIFT, over real operands: the one-block online form at any real `M`, the values
    written before the weights as a reference writes them, is the plain softmax-weighted mean. -/
theorem softmax_online_eq_plain_of_isReal [Nonempty ι] (s v : ι → EReal) (M : EReal) (hs : ∀ j, IsReal (s j))
    (hv : ∀ j, IsReal (v j)) (hM : IsReal M) :
    Ideal.div ((0 : EReal) * Ideal.exp (⊥ - M) + ∑ j, v j * Ideal.exp (s j - M))
        ((0 : EReal) * Ideal.exp (⊥ - M) + ∑ j, Ideal.exp (s j - M))
      = Ideal.div (∑ j, Ideal.exp (s j) * v j) (∑ j, Ideal.exp (s j)) := by
  obtain ⟨s', rfl⟩ := exists_real_fun hs; obtain ⟨v', rfl⟩ := exists_real_fun hv; obtain ⟨M', rfl⟩ := hM
  have hcomm : ∑ j, (v' j : EReal) * Ideal.exp ((s' j : EReal) - (M' : EReal))
      = ∑ j, Ideal.exp ((s' j : EReal) - (M' : EReal)) * (v' j : EReal) :=
    Finset.sum_congr rfl fun j _ => mul_comm _ _
  rw [hcomm]; exact softmax_online_eq_plain s' v' M'

end

/-! ### The maximum of finitely many reals, from `-∞` -/

/-- Folding `max` from `-∞` over real values gives `-∞` on the empty set and a real otherwise. -/
theorem fold_max_bot {ι : Type*} (s : Finset ι) (f : ι → EReal) (hf : ∀ j ∈ s, IsReal (f j)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    have hfa : IsReal (f a) := hf a (Finset.mem_insert_self a s)
    rcases ih fun j hj => hf j (Finset.mem_insert_of_mem hj) with ⟨_, h⟩ | h
    · rw [h, max_eq_left bot_le]; exact hfa
    · exact hfa.max h

/-- The maximum of a nonempty row of reals, folded from `-∞`, is real. -/
theorem isReal_fold_max_bot {ι : Type*} [Fintype ι] [Nonempty ι] (f : ι → EReal) (hf : ∀ j, IsReal (f j)) :
    IsReal ((Finset.univ : Finset ι).fold max ⊥ f) := by
  rcases fold_max_bot Finset.univ f fun j _ => hf j with ⟨h, _⟩ | h
  · exact absurd h Finset.univ_nonempty.ne_empty
  · exact h

/-! ### Mean, variance, normalization of a row of reals -/

section
variable {ι : Type*} [Fintype ι]

/-- The mean of a row of reals over a real width that is not zero is real. -/
theorem isReal_mean (f : ι → EReal) (w : EReal) (hf : ∀ k, IsReal (f k)) (hw : IsReal w) (hw0 : w ≠ 0) :
    IsReal (Ideal.div (∑ k, f k) w) :=
  (IsReal.sum_univ f hf).div hw hw0

/-- The mean of the squares of a row of reals less a real, over a positive real width, plus a
    positive real `ε`, is real and positive. -/
theorem var_add_eps (f : ι → EReal) (μ w e : EReal) (hf : ∀ k, IsReal (f k)) (hμ : IsReal μ) (hw : IsReal w)
    (hw0 : 0 < w) (he : IsReal e) (he0 : 0 < e) :
    IsReal (Ideal.div (∑ k, (f k - μ) * (f k - μ)) w) ∧ IsReal (Ideal.div (∑ k, (f k - μ) * (f k - μ)) w + e)
      ∧ 0 < Ideal.div (∑ k, (f k - μ) * (f k - μ)) w + e := by
  obtain ⟨f', rfl⟩ := exists_real_fun hf; obtain ⟨μ', rfl⟩ := hμ; obtain ⟨w', rfl⟩ := hw; obtain ⟨e', rfl⟩ := he
  have hw' : 0 < w' := EReal.coe_pos.mp hw0
  have he' : 0 < e' := EReal.coe_pos.mp he0
  have hsum : ∑ k, ((f' k : EReal) - (μ' : EReal)) * ((f' k : EReal) - (μ' : EReal))
      = ((∑ k, (f' k - μ') * (f' k - μ') : ℝ) : EReal) := by
    rw [coe_sum]; exact Finset.sum_congr rfl fun k _ => by rw [EReal.coe_mul, EReal.coe_sub]
  rw [hsum, div_coe_coe _ _ hw'.ne', ← EReal.coe_add]
  exact ⟨⟨_, rfl⟩, ⟨_, rfl⟩, EReal.coe_pos.mpr (var_add_eps_pos Finset.univ f' μ' w' e' hw'.le he')⟩

end

/-- info: 'Cert.Math.softmax_online_eq_plain_of_isReal' depends on axioms: [propext, Classical.choice, Quot.sound] -/
#guard_msgs in #print axioms softmax_online_eq_plain_of_isReal
/-- info: 'Cert.Math.var_add_eps' depends on axioms: [propext, Classical.choice, Quot.sound] -/
#guard_msgs in #print axioms var_add_eps

end Cert.Math
-- ==== Proof.MathBlocked.lean ====
/-
  Pure mathematics, independent of any program: a sum over `m * n` consecutive indices is the
  sum over `m` blocks of the sum over the `n` indices of each block, block `c` holding the
  indices `c * n + k` (the place, along the cut axis, of element `k` of block `c` of an array
  cut into `m` equal blocks).
-/
import Mathlib.Algebra.BigOperators.Group.Finset.Basic
import Mathlib.Data.Fintype.BigOperators
import Mathlib.Logic.Equiv.Fin.Basic

namespace Cert.Math

open scoped BigOperators

/-- Element `k` of block `c` lies inside the whole. -/
theorem blk_lt {m n : ℕ} (c : Fin m) (k : Fin n) : c.val * n + k.val < m * n :=
  calc c.val * n + k.val < c.val * n + n := Nat.add_lt_add_left k.isLt _
    _ = (c.val + 1) * n := (Nat.succ_mul _ _).symm
    _ ≤ m * n := Nat.mul_le_mul_right _ c.isLt

/-- The index, in the whole, of element `k` of block `c`. -/
def blkIdx {m n : ℕ} (c : Fin m) (k : Fin n) : Fin (m * n) := ⟨c.val * n + k.val, blk_lt c k⟩

@[simp] theorem blkIdx_val {m n : ℕ} (c : Fin m) (k : Fin n) : (blkIdx c k).val = c.val * n + k.val := rfl

section
variable {M : Type*} [AddCommMonoid M]

/-- BLOCKED SUM. A sum over `m * n` indices, block by block. -/
theorem sum_blocks (m n : ℕ) (g : Fin (m * n) → M) :
    ∑ k, g k = ∑ c : Fin m, ∑ k : Fin n, g (blkIdx c k) := by
  rw [← finProdFinEquiv.sum_comp g, Fintype.sum_prod_type]
  refine Finset.sum_congr rfl fun c _ => Finset.sum_congr rfl fun k _ => congrArg g (Fin.ext ?_)
  show k.val + n * c.val = c.val * n + k.val
  rw [Nat.add_comm, Nat.mul_comm]

/-- The contraction over 3072 = 8 · 384 indices, by its eight blocks of 384. -/
theorem sum_3072_blocks (g : Fin 3072 → M) :
    ∑ k, g k = ∑ c : Fin 8, ∑ k : Fin 384, g ⟨c.val * 384 + k.val, blk_lt (m := 8) (n := 384) c k⟩ :=
  sum_blocks 8 384 g

end

/-- BLOCKED MATMUL. The dot product over 3072 indices is the sum over eight blocks of the
    dot products over each block's 384 indices. -/
theorem dot_3072_blocks {R : Type*} [AddCommMonoid R] [Mul R] (a b : Fin 3072 → R) :
    ∑ k, a k * b k = ∑ c : Fin 8, ∑ k : Fin 384,
      a ⟨c.val * 384 + k.val, blk_lt (m := 8) (n := 384) c k⟩ * b ⟨c.val * 384 + k.val, blk_lt (m := 8) (n := 384) c k⟩ :=
  sum_3072_blocks fun k => a k * b k

/-- The same at any cut: `m` blocks of `n`. -/
theorem dot_blocks {R : Type*} [AddCommMonoid R] [Mul R] (m n : ℕ) (a b : Fin (m * n) → R) :
    ∑ k, a k * b k = ∑ c : Fin m, ∑ k : Fin n, a (blkIdx c k) * b (blkIdx c k) :=
  sum_blocks m n fun k => a k * b k

/-- info: 'Cert.Math.dot_3072_blocks' depends on axioms: [propext, Classical.choice, Quot.sound] -/
#guard_msgs in #print axioms Cert.Math.dot_3072_blocks

end Cert.Math
-- ==== Proof.KSpec.lean ====
/-
  The block as the eight-device kernel computes it, as ONE function of the nine argument arrays over the
  extended reals, and the proof that on real arguments it is the specification's result.

  What differs from the specification's formula:
    * the layer norm multiplies by the reciprocal square root of the variance plus ε where the
      specification divides by the square root;
    * device `c` of eight owns the 384 columns `384 c + k` of Wq, Wk, Wv and Wff1 (for the attention
      weights: its four heads, head `h` of the device being head `4 c + h` of the 32) and the 384 rows
      `384 c + k` of Wo and Wff2; it computes its heads' attention and its slice of the feed-forward
      part, multiplies by its rows of Wo and of Wff2, and the eight partial products are summed;
    * the score scale is applied to the queries before the product with the keys, not to the product;
    * the softmax takes no maximum: the weights are `exp` of the scores themselves.

  On real arguments every stage is real, the reciprocal square root of a positive real is the
  reciprocal of its square root, a real factor comes out of a dot product, the softmax-weighted mean
  does not change under a shift of the logits (the one-block online form with running maximum from
  `-∞` is a shifted form), and a sum over 3072 = 8 · 384 indices is the sum of its eight blocks' sums.
-/
import proofs.«900775_g7700000000000776_dist_diff_dit_htp_i_b2_s512_d768_hq4_v7x_i8_f32_1_alg».proof.Proof.Spec
import proofs.«900775_g7700000000000776_dist_diff_dit_htp_i_b2_s512_d768_hq4_v7x_i8_f32_1_alg».proof.Proof.MathRealE
import proofs.«900775_g7700000000000776_dist_diff_dit_htp_i_b2_s512_d768_hq4_v7x_i8_f32_1_alg».proof.Proof.MathBlocked

noncomputable section

open scoped BigOperators

namespace Cert.KSpec

open Idealize.ShloMosaic Idealize.ShloMosaic.ValueIdx Cert.Math Cert.Spec

/-! ## The literals are reals -/

theorem one_eq : Spec.one = 1 := by
  unfold Spec.one
  simp [Ideal.ofBits, Ideal.ieee]
  rw [← EReal.coe_mul, ← EReal.coe_one]; congr 1; norm_num

theorem width_eq : Spec.width = ((768 : ℝ) : EReal) := by
  unfold Spec.width
  simp [Ideal.ofBits, Ideal.ieee]
  rw [← EReal.coe_mul]; congr 1; norm_num

theorem eps_eq : Spec.eps = ((10995116 * (2 ^ 40)⁻¹ : ℝ) : EReal) := by
  unfold Spec.eps
  simp [Ideal.ofBits, Ideal.ieee]

theorem isReal_scale : IsReal Spec.scale := by
  unfold Spec.scale
  simp [Ideal.ofBits, Ideal.ieee]
  rw [← EReal.coe_mul]; exact ⟨_, rfl⟩

theorem isReal_one : IsReal Spec.one := one_eq ▸ Cert.Math.isReal_one
theorem isReal_width : IsReal Spec.width := ⟨_, width_eq⟩
theorem width_pos : 0 < Spec.width := by rw [width_eq]; exact EReal.coe_pos.mpr (by norm_num)
theorem width_ne_zero : Spec.width ≠ 0 := width_pos.ne'
theorem isReal_eps : IsReal Spec.eps := ⟨_, eps_eq⟩
theorem eps_pos : 0 < Spec.eps := by rw [eps_eq]; exact EReal.coe_pos.mpr (by positivity)

/-! ## Real arguments -/

/-- Every entry of each of the nine argument arrays is real. -/
structure RealInputs (A : Inputs) : Prop where
  x : ∀ i, IsReal (A.x i)
  Wq : ∀ i, IsReal (A.Wq i)
  Wk : ∀ i, IsReal (A.Wk i)
  Wv : ∀ i, IsReal (A.Wv i)
  Wo : ∀ i, IsReal (A.Wo i)
  temb : ∀ i, IsReal (A.temb i)
  Wmod : ∀ i, IsReal (A.Wmod i)
  Wff1 : ∀ i, IsReal (A.Wff1 i)
  Wff2 : ∀ i, IsReal (A.Wff2 i)

/-! ## The layer norm: both forms, on a real array -/

section Norm
variable (h : Fin 2 → Fin 512 → Fin 768 → EReal) (hh : ∀ b s d, IsReal (h b s d))
include hh

theorem isReal_mean (b : Fin 2) (s : Fin 512) : IsReal (mean h b s) :=
  Cert.Math.isReal_mean (fun k => h b s k) width (hh b s) isReal_width width_ne_zero

theorem var_facts (b : Fin 2) (s : Fin 512) :
    IsReal (var h b s) ∧ IsReal (var h b s + eps) ∧ 0 < var h b s + eps :=
  var_add_eps (fun k => h b s k) (mean h b s) width eps (hh b s) (isReal_mean h hh b s) isReal_width width_pos
    isReal_eps eps_pos

theorem isReal_ln (b : Fin 2) (s : Fin 512) (d : Fin 768) : IsReal (ln h b s d) :=
  ((hh b s d).sub (isReal_mean h hh b s)).div_sqrt (var_facts h hh b s).2.1 (var_facts h hh b s).2.2

theorem isReal_modulate (sc sh : Fin 2 → Fin 768 → EReal) (hsc : ∀ b d, IsReal (sc b d)) (hsh : ∀ b d, IsReal (sh b d))
    (b : Fin 2) (s : Fin 512) (d : Fin 768) : IsReal (modulate h sc sh b s d) :=
  ((isReal_ln h hh b s d).mul (isReal_one.add (hsc b d))).add (hsh b d)

end Norm

/-- The kernel's layer norm: the row less its mean, times the reciprocal square root of its variance plus ε. -/
def lnK (h : Fin 2 → Fin 512 → Fin 768 → EReal) (b : Fin 2) (s : Fin 512) (d : Fin 768) : EReal :=
  (h b s d - mean h b s) * Ideal.rsqrt (var h b s + eps)

/-- A row normalized the kernel's way, scaled by `1 + sc` and shifted by `sh`. -/
def modulateK (h : Fin 2 → Fin 512 → Fin 768 → EReal) (sc sh : Fin 2 → Fin 768 → EReal)
    (b : Fin 2) (s : Fin 512) (d : Fin 768) : EReal :=
  lnK h b s d * (one + sc b d) + sh b d

theorem lnK_eq_ln (h : Fin 2 → Fin 512 → Fin 768 → EReal) (hh : ∀ b s d, IsReal (h b s d))
    (b : Fin 2) (s : Fin 512) (d : Fin 768) : lnK h b s d = ln h b s d :=
  ((hh b s d).sub (isReal_mean h hh b s)).mul_rsqrt_eq_div_sqrt (var_facts h hh b s).2.1 (var_facts h hh b s).2.2

theorem modulateK_eq (h : Fin 2 → Fin 512 → Fin 768 → EReal) (hh : ∀ b s d, IsReal (h b s d))
    (sc sh : Fin 2 → Fin 768 → EReal) : modulateK h sc sh = modulate h sc sh := by
  funext b s d; unfold modulateK modulate; rw [lnK_eq_ln h hh]

/-! ## Where a device's columns and heads are in the whole -/

/-- Column (or row) `k` of device `c`'s block of 384 among 3072. -/
abbrev col (c : Fin 8) (k : Fin 384) : Fin 3072 := ⟨c.val * 384 + k.val, blk_lt (m := 8) (n := 384) c k⟩

/-- Entry `e` of the device's head `h` among its 384 columns. -/
abbrev hcol (h : Fin 4) (e : Fin 96) : Fin 384 := ⟨96 * h.val + e.val, by omega⟩

/-- Head `h` of device `c` among the 32 heads. -/
abbrev gh (c : Fin 8) (h : Fin 4) : Fin 32 := ⟨4 * c.val + h.val, by omega⟩

/-! ## The kernel's formula -/

/-- The input of the attention part, normalized the kernel's way. -/
def xaK (A : Inputs) : Fin 2 → Fin 512 → Fin 768 → EReal := modulateK (x0 A) (sa A) (sha A)

/-- A row of `xaK` times the device's block of a weight: its four heads of 96. -/
def projK (A : Inputs) (W : T2 768 3072) (c : Fin 8) (b : Fin 2) (s : Fin 512) (h : Fin 4) (e : Fin 96) : EReal :=
  ∑ k : Fin 768, xaK A b s k * W (ix2 k (col c (hcol h e)))

/-- The device's queries, scaled. -/
def qK (A : Inputs) (c : Fin 8) (b : Fin 2) (s : Fin 512) (h : Fin 4) (e : Fin 96) : EReal :=
  projK A A.Wq c b s h e * scale
/-- The device's keys. -/
def kK (A : Inputs) : Fin 8 → Fin 2 → Fin 512 → Fin 4 → Fin 96 → EReal := projK A A.Wk
/-- The device's values. -/
def vK (A : Inputs) : Fin 8 → Fin 2 → Fin 512 → Fin 4 → Fin 96 → EReal := projK A A.Wv

/-- The scores: scaled queries against keys. -/
def sK (A : Inputs) (c : Fin 8) (b : Fin 2) (h : Fin 4) (i j : Fin 512) : EReal :=
  ∑ e : Fin 96, qK A c b i h e * kK A c b j h e

/-- The weights: `exp` of the scores, no maximum taken. -/
def pK (A : Inputs) (c : Fin 8) (b : Fin 2) (h : Fin 4) (i j : Fin 512) : EReal := Ideal.exp (sK A c b h i j)

/-- The normalizer. -/
def lK (A : Inputs) (c : Fin 8) (b : Fin 2) (h : Fin 4) (i : Fin 512) : EReal := ∑ j : Fin 512, pK A c b h i j

/-- One head's result. -/
def oK (A : Inputs) (c : Fin 8) (b : Fin 2) (i : Fin 512) (h : Fin 4) (e : Fin 96) : EReal :=
  Ideal.div (∑ j : Fin 512, pK A c b h i j * vK A c b j h e) (lK A c b h i)

/-- The device's four heads side by side. -/
def oCat (A : Inputs) (c : Fin 8) (b : Fin 2) (s : Fin 512) (k : Fin 384) : EReal :=
  oK A c b s ⟨k.val / 96, by omega⟩ ⟨k.val % 96, by omega⟩

/-- The device's partial attention result: its heads times its rows of `Wo`. -/
def attPart (A : Inputs) (c : Fin 8) (b : Fin 2) (s : Fin 512) (d : Fin 768) : EReal :=
  ∑ k : Fin 384, oCat A c b s k * A.Wo (ix2 (col c k) d)

/-- The attention result: the eight partial results summed. -/
def attnK (A : Inputs) (b : Fin 2) (s : Fin 512) (d : Fin 768) : EReal := ∑ c : Fin 8, attPart A c b s d

/-- The input plus the gated attention result. -/
def x1K (A : Inputs) (b : Fin 2) (s : Fin 512) (d : Fin 768) : EReal := x0 A b s d + ga A b d * attnK A b s d

/-- The input of the feed-forward part, normalized the kernel's way. -/
def xmK (A : Inputs) : Fin 2 → Fin 512 → Fin 768 → EReal := modulateK (x1K A) (sm A) (shm A)

/-- `xmK` times the device's columns of `Wff1`. -/
def hK (A : Inputs) (c : Fin 8) (b : Fin 2) (s : Fin 512) (k : Fin 384) : EReal :=
  ∑ j : Fin 768, xmK A b s j * A.Wff1 (ix2 j (col c k))

/-- `h / (1 + exp (-h))` of it. -/
def actK (A : Inputs) (c : Fin 8) (b : Fin 2) (s : Fin 512) (k : Fin 384) : EReal :=
  Ideal.div (hK A c b s k) (one + Ideal.exp (-(hK A c b s k)))

/-- The device's partial feed-forward result: its slice times its rows of `Wff2`. -/
def mlpPart (A : Inputs) (c : Fin 8) (b : Fin 2) (s : Fin 512) (d : Fin 768) : EReal :=
  ∑ k : Fin 384, actK A c b s k * A.Wff2 (ix2 (col c k) d)

/-- The feed-forward result: the eight partial results summed. -/
def ffK (A : Inputs) (b : Fin 2) (s : Fin 512) (d : Fin 768) : EReal := ∑ c : Fin 8, mlpPart A c b s d

/-- The kernel's result by coordinates. -/
def outK (A : Inputs) (b : Fin 2) (s : Fin 512) (d : Fin 768) : EReal := x1K A b s d + gm A b d * ffK A b s d

/-! ## On real arguments every stage of the specification is real, and the two formulas agree -/

section Real
variable {A : Inputs} (hA : RealInputs A)
include hA

theorem isReal_mod (b : Fin 2) (j : Fin 4608) : IsReal (mod A b j) :=
  IsReal.sum_univ _ fun _ => (hA.temb _).mul (hA.Wmod _)

theorem isReal_modSlice (o : Nat) (ho : o + 768 ≤ 4608) (b : Fin 2) (d : Fin 768) : IsReal (modSlice A o ho b d) :=
  isReal_mod hA b _

theorem isReal_sa (b : Fin 2) (d : Fin 768) : IsReal (sa A b d) := isReal_modSlice hA _ _ b d
theorem isReal_sha (b : Fin 2) (d : Fin 768) : IsReal (sha A b d) := isReal_modSlice hA _ _ b d
theorem isReal_ga (b : Fin 2) (d : Fin 768) : IsReal (ga A b d) := isReal_modSlice hA _ _ b d
theorem isReal_sm (b : Fin 2) (d : Fin 768) : IsReal (sm A b d) := isReal_modSlice hA _ _ b d
theorem isReal_shm (b : Fin 2) (d : Fin 768) : IsReal (shm A b d) := isReal_modSlice hA _ _ b d
theorem isReal_gm (b : Fin 2) (d : Fin 768) : IsReal (gm A b d) := isReal_modSlice hA _ _ b d

theorem isReal_x0 (b : Fin 2) (s : Fin 512) (d : Fin 768) : IsReal (x0 A b s d) := hA.x _

theorem isReal_xa (b : Fin 2) (s : Fin 512) (d : Fin 768) : IsReal (xa A b s d) :=
  isReal_modulate (x0 A) (isReal_x0 hA) (sa A) (sha A) (isReal_sa hA) (isReal_sha hA) b s d

theorem xaK_eq : xaK A = xa A := modulateK_eq (x0 A) (isReal_x0 hA) (sa A) (sha A)

theorem isReal_proj (W : T2 768 3072) (hW : ∀ i, IsReal (W i)) (b : Fin 2) (s : Fin 512) (h : Fin 32) (e : Fin 96) :
    IsReal (proj A W b s h e) :=
  IsReal.sum_univ _ fun k => (isReal_xa hA b s k).mul (hW _)

theorem isReal_Q (b : Fin 2) (s : Fin 512) (h : Fin 32) (e : Fin 96) : IsReal (Q A b s h e) := isReal_proj hA _ hA.Wq b s h e
theorem isReal_K (b : Fin 2) (s : Fin 512) (h : Fin 32) (e : Fin 96) : IsReal (K A b s h e) := isReal_proj hA _ hA.Wk b s h e
theorem isReal_V (b : Fin 2) (s : Fin 512) (h : Fin 32) (e : Fin 96) : IsReal (V A b s h e) := isReal_proj hA _ hA.Wv b s h e

/-- The device's block of a projection is the specification's, at the device's heads. -/
theorem projK_eq (W : T2 768 3072) (c : Fin 8) (b : Fin 2) (s : Fin 512) (h : Fin 4) (e : Fin 96) :
    projK A W c b s h e = proj A W b s (gh c h) e := by
  unfold projK proj
  rw [xaK_eq hA]
  have hc : col c (hcol h e) = ⟨96 * (gh c h).val + e.val, by omega⟩ :=
    Fin.ext (by show c.val * 384 + (96 * h.val + e.val) = 96 * (4 * c.val + h.val) + e.val; omega)
  rw [hc]

theorem isReal_scores (b : Fin 2) (h : Fin 32) (i j : Fin 512) : IsReal (scores A b h i j) :=
  (IsReal.sum_univ _ fun e => (isReal_Q hA b i h e).mul (isReal_K hA b j h e)).mul isReal_scale

/-- SCALE THROUGH THE DOT PRODUCT: the kernel's scores are the specification's. -/
theorem sK_eq (c : Fin 8) (b : Fin 2) (h : Fin 4) (i j : Fin 512) : sK A c b h i j = scores A b (gh c h) i j := by
  unfold sK qK kK scores
  simp only [projK_eq hA]
  exact sum_scale_of_isReal (fun e => Q A b i (gh c h) e) (fun e => K A b j (gh c h) e) scale
    (fun e => isReal_Q hA b i (gh c h) e) (fun e => isReal_K hA b j (gh c h) e) isReal_scale

theorem isReal_rowMax (b : Fin 2) (h : Fin 32) (i : Fin 512) : IsReal (rowMax A b h i) := by
  unfold rowMax; rw [negInf_eq_bot]
  exact isReal_fold_max_bot _ fun j => isReal_scores hA b h i j

theorem isReal_mNew (b : Fin 2) (h : Fin 32) (i : Fin 512) : IsReal (mNew A b h i) := by
  unfold mNew; rw [negInf_eq_bot, max_bot_left']; exact isReal_rowMax hA b h i

/-- SOFTMAX SHIFT: the specification's head, in one-block online form, is the plain softmax-weighted mean. -/
theorem heads_eq_plain (b : Fin 2) (i : Fin 512) (h : Fin 32) (e : Fin 96) :
    heads A b i h e
      = Ideal.div (∑ j : Fin 512, Ideal.exp (scores A b h i j) * V A b j h e) (∑ j : Fin 512, Ideal.exp (scores A b h i j)) := by
  unfold heads acc l alpha p
  rw [negInf_eq_bot]
  exact softmax_online_eq_plain_of_isReal (fun j => scores A b h i j) (fun j => V A b j h e) (mNew A b h i)
    (fun j => isReal_scores hA b h i j) (fun j => isReal_V hA b j h e) (isReal_mNew hA b h i)

theorem isReal_heads (b : Fin 2) (i : Fin 512) (h : Fin 32) (e : Fin 96) : IsReal (heads A b i h e) := by
  rw [heads_eq_plain hA]
  exact isReal_softmax_plain (fun j => scores A b h i j) (fun j => V A b j h e)
    (fun j => isReal_scores hA b h i j) (fun j => isReal_V hA b j h e)

/-- The kernel's head is the specification's. -/
theorem oK_eq (c : Fin 8) (b : Fin 2) (i : Fin 512) (h : Fin 4) (e : Fin 96) : oK A c b i h e = heads A b i (gh c h) e := by
  rw [heads_eq_plain hA]
  unfold oK lK pK vK
  simp only [sK_eq hA, projK_eq hA]
  rfl

theorem isReal_headsCat (b : Fin 2) (s : Fin 512) (c : Fin 3072) : IsReal (headsCat A b s c) := isReal_heads hA b s _ _

theorem oCat_eq (c : Fin 8) (b : Fin 2) (s : Fin 512) (k : Fin 384) : oCat A c b s k = headsCat A b s (col c k) := by
  unfold oCat headsCat
  rw [oK_eq hA]
  have e1 : gh c ⟨k.val / 96, by omega⟩ = (⟨(col c k).val / 96, by omega⟩ : Fin 32) :=
    Fin.ext (by show 4 * c.val + k.val / 96 = (c.val * 384 + k.val) / 96; omega)
  have e2 : (⟨k.val % 96, by omega⟩ : Fin 96) = ⟨(col c k).val % 96, by omega⟩ :=
    Fin.ext (by show k.val % 96 = (c.val * 384 + k.val) % 96; omega)
  rw [e1, e2]

theorem isReal_attn (b : Fin 2) (s : Fin 512) (d : Fin 768) : IsReal (attn A b s d) :=
  IsReal.sum_univ _ fun c => (isReal_headsCat hA b s c).mul (hA.Wo _)

/-- BLOCKED MATMUL: the eight partial attention results sum to the specification's. -/
theorem attnK_eq (b : Fin 2) (s : Fin 512) (d : Fin 768) : attnK A b s d = attn A b s d := by
  unfold attnK attPart attn
  simp only [oCat_eq hA]
  exact (sum_3072_blocks fun cc => headsCat A b s cc * A.Wo (ix2 cc d)).symm

theorem isReal_x1 (b : Fin 2) (s : Fin 512) (d : Fin 768) : IsReal (x1 A b s d) :=
  (isReal_x0 hA b s d).add ((isReal_ga hA b d).mul (isReal_attn hA b s d))

theorem x1K_eq : x1K A = x1 A := by
  funext b s d; unfold x1K x1; rw [attnK_eq hA]

theorem isReal_xm (b : Fin 2) (s : Fin 512) (d : Fin 768) : IsReal (xm A b s d) :=
  isReal_modulate (x1 A) (isReal_x1 hA) (sm A) (shm A) (isReal_sm hA) (isReal_shm hA) b s d

theorem xmK_eq : xmK A = xm A := by
  unfold xmK xm; rw [x1K_eq hA]; exact modulateK_eq (x1 A) (isReal_x1 hA) (sm A) (shm A)

theorem isReal_hpre (b : Fin 2) (s : Fin 512) (c : Fin 3072) : IsReal (hpre A b s c) :=
  IsReal.sum_univ _ fun k => (isReal_xm hA b s k).mul (hA.Wff1 _)

theorem isReal_act (b : Fin 2) (s : Fin 512) (c : Fin 3072) : IsReal (act A b s c) := by
  unfold act; rw [one_eq]; exact (isReal_hpre hA b s c).silu

theorem isReal_ff (b : Fin 2) (s : Fin 512) (d : Fin 768) : IsReal (ff A b s d) :=
  IsReal.sum_univ _ fun c => (isReal_act hA b s c).mul (hA.Wff2 _)

theorem isReal_outAt (b : Fin 2) (s : Fin 512) (d : Fin 768) : IsReal (outAt A b s d) :=
  (isReal_x1 hA b s d).add ((isReal_gm hA b d).mul (isReal_ff hA b s d))

theorem hK_eq (c : Fin 8) (b : Fin 2) (s : Fin 512) (k : Fin 384) : hK A c b s k = hpre A b s (col c k) := by
  unfold hK hpre; rw [xmK_eq hA]

theorem actK_eq (c : Fin 8) (b : Fin 2) (s : Fin 512) (k : Fin 384) : actK A c b s k = act A b s (col c k) := by
  unfold actK act; rw [hK_eq hA]

/-- BLOCKED MATMUL: the eight partial feed-forward results sum to the specification's. -/
theorem ffK_eq (b : Fin 2) (s : Fin 512) (d : Fin 768) : ffK A b s d = ff A b s d := by
  unfold ffK mlpPart ff
  simp only [actK_eq hA]
  exact (sum_3072_blocks fun cc => act A b s cc * A.Wff2 (ix2 cc d)).symm

/-- THE KERNEL'S FORMULA IS THE SPECIFICATION'S, on real arguments. -/
theorem kspec_eq_spec (b : Fin 2) (s : Fin 512) (d : Fin 768) : outK A b s d = outAt A b s d := by
  unfold outK outAt; rw [x1K_eq hA, ffK_eq hA]

/-! ## Every stage of the kernel's formula is real too -/

theorem isReal_xaK (b : Fin 2) (s : Fin 512) (d : Fin 768) : IsReal (xaK A b s d) := by
  rw [xaK_eq hA]; exact isReal_xa hA b s d

theorem isReal_projK (W : T2 768 3072) (hW : ∀ i, IsReal (W i)) (c : Fin 8) (b : Fin 2) (s : Fin 512) (h : Fin 4) (e : Fin 96) :
    IsReal (projK A W c b s h e) := by
  rw [projK_eq hA]; exact isReal_proj hA W hW b s _ e

theorem isReal_qK (c : Fin 8) (b : Fin 2) (s : Fin 512) (h : Fin 4) (e : Fin 96) : IsReal (qK A c b s h e) :=
  (isReal_projK hA _ hA.Wq c b s h e).mul isReal_scale
theorem isReal_kK (c : Fin 8) (b : Fin 2) (s : Fin 512) (h : Fin 4) (e : Fin 96) : IsReal (kK A c b s h e) :=
  isReal_projK hA _ hA.Wk c b s h e
theorem isReal_vK (c : Fin 8) (b : Fin 2) (s : Fin 512) (h : Fin 4) (e : Fin 96) : IsReal (vK A c b s h e) :=
  isReal_projK hA _ hA.Wv c b s h e

theorem isReal_sK (c : Fin 8) (b : Fin 2) (h : Fin 4) (i j : Fin 512) : IsReal (sK A c b h i j) := by
  rw [sK_eq hA]; exact isReal_scores hA b _ i j
theorem isReal_pK (c : Fin 8) (b : Fin 2) (h : Fin 4) (i j : Fin 512) : IsReal (pK A c b h i j) :=
  (isReal_sK hA c b h i j).exp
theorem isReal_lK (c : Fin 8) (b : Fin 2) (h : Fin 4) (i : Fin 512) : IsReal (lK A c b h i) :=
  IsReal.sum_univ _ fun j => isReal_pK hA c b h i j
theorem isReal_oK (c : Fin 8) (b : Fin 2) (i : Fin 512) (h : Fin 4) (e : Fin 96) : IsReal (oK A c b i h e) := by
  rw [oK_eq hA]; exact isReal_heads hA b i _ e
theorem isReal_oCat (c : Fin 8) (b : Fin 2) (s : Fin 512) (k : Fin 384) : IsReal (oCat A c b s k) :=
  isReal_oK hA c b s _ _
theorem isReal_attPart (c : Fin 8) (b : Fin 2) (s : Fin 512) (d : Fin 768) : IsReal (attPart A c b s d) :=
  IsReal.sum_univ _ fun k => (isReal_oCat hA c b s k).mul (hA.Wo _)
theorem isReal_attnK (b : Fin 2) (s : Fin 512) (d : Fin 768) : IsReal (attnK A b s d) :=
  IsReal.sum_univ _ fun c => isReal_attPart hA c b s d
theorem isReal_x1K (b : Fin 2) (s : Fin 512) (d : Fin 768) : IsReal (x1K A b s d) := by
  rw [x1K_eq hA]; exact isReal_x1 hA b s d
theorem isReal_xmK (b : Fin 2) (s : Fin 512) (d : Fin 768) : IsReal (xmK A b s d) := by
  rw [xmK_eq hA]; exact isReal_xm hA b s d
theorem isReal_hK (c : Fin 8) (b : Fin 2) (s : Fin 512) (k : Fin 384) : IsReal (hK A c b s k) := by
  rw [hK_eq hA]; exact isReal_hpre hA b s _
theorem isReal_actK (c : Fin 8) (b : Fin 2) (s : Fin 512) (k : Fin 384) : IsReal (actK A c b s k) := by
  rw [actK_eq hA]; exact isReal_act hA b s _
theorem isReal_mlpPart (c : Fin 8) (b : Fin 2) (s : Fin 512) (d : Fin 768) : IsReal (mlpPart A c b s d) :=
  IsReal.sum_univ _ fun k => (isReal_actK hA c b s k).mul (hA.Wff2 _)
theorem isReal_ffK (b : Fin 2) (s : Fin 512) (d : Fin 768) : IsReal (ffK A b s d) :=
  IsReal.sum_univ _ fun c => isReal_mlpPart hA c b s d
theorem isReal_outK (b : Fin 2) (s : Fin 512) (d : Fin 768) : IsReal (outK A b s d) := by
  rw [kspec_eq_spec hA]; exact isReal_outAt hA b s d

end Real

/-- info: 'Cert.KSpec.kspec_eq_spec' depends on axioms: [propext, Classical.choice, Quot.sound] -/
#guard_msgs in #print axioms kspec_eq_spec

end Cert.KSpec

end
-- ==== Proof.Vals.Base.lean ====
import proofs.«900775_g7700000000000776_dist_diff_dit_htp_i_b2_s512_d768_hq4_v7x_i8_f32_1_alg».proof.Proof.Gen.KernelIdeal.Skeleton

/-! The shapes of what the body's buffers hold: a device's argument blocks, one accumulator slice, one receive slice.
    Generic in the float instance. -/

noncomputable section

namespace Cert.KernelIdeal.Vals

open Idealize.ShloMosaic Cert.KernelIdeal Cert.KernelIdeal.Gen

/-- One device's argument blocks, as the body loads them whole: `wK` is window `K`. -/
structure Ins (F : FTy → Type) where
  w0 : Vec F S2x512x768 .f32
  w1 : Vec F S768x384 .f32
  w2 : Vec F S768x384 .f32
  w3 : Vec F S768x384 .f32
  w4 : Vec F S384x768 .f32
  w5 : Vec F S2x128 .f32
  w6 : Vec F S128x4608 .f32
  w7 : Vec F S768x384 .f32
  w8 : Vec F S384x768 .f32

/-- The contents of one slice `[g, p]` of the accumulator scratch. -/
abbrev Acc (F : FTy → Type) : Type := Vec F S1x1x256x256 .bf16

/-- The contents of one slice `[4 r + g, p, s]` of the receive scratch. -/
abbrev Rs (F : FTy → Type) : Type := Vec F S1x1x1x256x256 .bf16

theorem shapeCasts_acc_rs : S1x1x256x256.ShapeCasts S1x1x1x256x256 := by decide

/-- The same 256 × 256 words under the receive slice's shape: what a landed copy of an accumulator slice reads as. -/
def toRs {F : FTy → Type} (v : Acc F) : Rs F := shapeCast S1x1x1x256x256 v shapeCasts_acc_rs

end Cert.KernelIdeal.Vals
-- ==== Proof.KIns.lean ====
/-
  One device's argument blocks as blocks of the whole arrays: device `c` of eight holds the whole of the
  input, of the time embedding and of the modulation weight, the column block `c` (384 of 3072 columns) of the
  query, key, value and first feed-forward weights, and the row block `c` (384 of 3072 rows) of the output and
  second feed-forward weights.  Read at coordinates, an entry of a block is the entry of the whole at column
  (or row) `384 c + k`.
-/
import proofs.«900775_g7700000000000776_dist_diff_dit_htp_i_b2_s512_d768_hq4_v7x_i8_f32_1_alg».proof.Proof.KSpec
import proofs.«900775_g7700000000000776_dist_diff_dit_htp_i_b2_s512_d768_hq4_v7x_i8_f32_1_alg».proof.Proof.Vals.Base
import Idealize.ShloMosaic.Lib.Layout

noncomputable section

namespace Cert.KIns

open Idealize.ShloMosaic Idealize.ShloMosaic.ValueIdx Cert.KSpec

/-- Where entry `(k, j)` of column block `c` is in the whole: column `384 c + j`. -/
theorem idx_cols (h : Layout.Tiles ⟨2, ![768, 384]⟩ ⟨2, ![768, 3072]⟩ 1 8) (c : Fin 8) (k : Fin 768) (j : Fin 384) :
    h.idx c (ix2 k j) = ix2 k (col c j) := by
  funext a
  match a with
  | ⟨0, _⟩ => exact Fin.ext rfl
  | ⟨1, _⟩ => exact Fin.ext rfl

/-- Where entry `(k, d)` of row block `c` is in the whole: row `384 c + k`. -/
theorem idx_rows (h : Layout.Tiles ⟨2, ![384, 768]⟩ ⟨2, ![3072, 768]⟩ 0 8) (c : Fin 8) (k : Fin 384) (d : Fin 768) :
    h.idx c (ix2 k d) = ix2 (col c k) d := by
  funext a
  match a with
  | ⟨0, _⟩ => exact Fin.ext rfl
  | ⟨1, _⟩ => exact Fin.ext rfl

/-- Device `c`'s argument blocks, cut from the whole arrays. -/
def insA (A : Cert.Spec.Inputs) (c : Fin 8) : Cert.KernelIdeal.Vals.Ins Ideal where
  w0 := A.x
  w1 := Layout.block ⟨2, ![768, 384]⟩ ⟨2, ![768, 3072]⟩ 1 8 c A.Wq
  w2 := Layout.block ⟨2, ![768, 384]⟩ ⟨2, ![768, 3072]⟩ 1 8 c A.Wk
  w3 := Layout.block ⟨2, ![768, 384]⟩ ⟨2, ![768, 3072]⟩ 1 8 c A.Wv
  w4 := Layout.block ⟨2, ![384, 768]⟩ ⟨2, ![3072, 768]⟩ 0 8 c A.Wo
  w5 := A.temb
  w6 := A.Wmod
  w7 := Layout.block ⟨2, ![768, 384]⟩ ⟨2, ![768, 3072]⟩ 1 8 c A.Wff1
  w8 := Layout.block ⟨2, ![384, 768]⟩ ⟨2, ![3072, 768]⟩ 0 8 c A.Wff2

variable (A : Cert.Spec.Inputs) (c : Fin 8)

theorem insA_w0 : (insA A c).w0 = A.x := rfl
theorem insA_w5 : (insA A c).w5 = A.temb := rfl
theorem insA_w6 : (insA A c).w6 = A.Wmod := rfl

theorem insA_w1 (k : Fin 768) (j : Fin 384) : (insA A c).w1 (ix2 k j) = A.Wq (ix2 k (col c j)) :=
  congrArg A.Wq (idx_cols _ c k j)
theorem insA_w2 (k : Fin 768) (j : Fin 384) : (insA A c).w2 (ix2 k j) = A.Wk (ix2 k (col c j)) :=
  congrArg A.Wk (idx_cols _ c k j)
theorem insA_w3 (k : Fin 768) (j : Fin 384) : (insA A c).w3 (ix2 k j) = A.Wv (ix2 k (col c j)) :=
  congrArg A.Wv (idx_cols _ c k j)
theorem insA_w4 (k : Fin 384) (d : Fin 768) : (insA A c).w4 (ix2 k d) = A.Wo (ix2 (col c k) d) :=
  congrArg A.Wo (idx_rows _ c k d)
theorem insA_w7 (k : Fin 768) (j : Fin 384) : (insA A c).w7 (ix2 k j) = A.Wff1 (ix2 k (col c j)) :=
  congrArg A.Wff1 (idx_cols _ c k j)
theorem insA_w8 (k : Fin 384) (d : Fin 768) : (insA A c).w8 (ix2 k d) = A.Wff2 (ix2 (col c k) d) :=
  congrArg A.Wff2 (idx_rows _ c k d)

/-- Every column of the whole is a column of some device's block. -/
theorem col_div_mod (cc : Fin 3072) : col ⟨cc.val / 384, by omega⟩ ⟨cc.val % 384, by omega⟩ = cc :=
  Fin.ext (by show cc.val / 384 * 384 + cc.val % 384 = cc.val; omega)

end Cert.KIns

end
-- ==== Proof.Vals.Tables.lean ====
import proofs.«900775_g7700000000000776_dist_diff_dit_htp_i_b2_s512_d768_hq4_v7x_i8_f32_1_alg».proof.Proof.Vals.Base

/-! The values of a device's own arguments, one definition per printed value, and the per-site tables: what each store of the
    body writes, as a composition of the skeleton's own payloads over the contents its loads read. -/

noncomputable section

namespace Cert.KernelIdeal.Vals

open Idealize.ShloMosaic Cert.KernelIdeal Cert.KernelIdeal.Gen

variable {F : FTy → Type} [FloatOps F]

/-! ## Values of a device's own arguments (`vN` is the printed value `%N`) -/

def v14 (i : Ins F) : FVec F S2x512x768 .f32 := k0_pay2 i.w0
def v20 (i : Ins F) : FVec F S2x768 .f32 := k0_pay4 i.w5 i.w6
def v21 (i : Ins F) : FVec F S2x768 .f32 := k0_pay5 i.w5 i.w6
def v22 (i : Ins F) : FVec F S2x768 .f32 := k0_pay6 i.w5 i.w6
def v23 (i : Ins F) : FVec F S2x768 .f32 := k0_pay7 i.w5 i.w6
def v24 (i : Ins F) : FVec F S2x768 .f32 := k0_pay8 i.w5 i.w6
def v25 (i : Ins F) : FVec F S2x768 .f32 := k0_pay9 i.w5 i.w6
def v28 (i : Ins F) : FVec F S768x384 .bf16 := k0_pay10 i.w1
def v31 (i : Ins F) : FVec F S768x384 .bf16 := k0_pay11 i.w2
def v34 (i : Ins F) : FVec F S768x384 .bf16 := k0_pay12 i.w3
def v37 (i : Ins F) : FVec F S384x768 .bf16 := k0_pay13 i.w4
def v40 (i : Ins F) : FVec F S768x384 .bf16 := k0_pay14 i.w7
def v43 (i : Ins F) : FVec F S384x768 .bf16 := k0_pay15 i.w8
def v72 (i : Ins F) : FVec F S512x768 .f32 := k0_pay16 (v14 i) (v20 i)
def v77 (i : Ins F) : FVec F S512x768 .f32 := k0_pay17 (v21 i) (v72 i)
def v80 (i : Ins F) : FVec F S512x384 .bf16 := k0_pay18 (v21 i) (v31 i) (v72 i)
def v83 (i : Ins F) : FVec F S512x384 .bf16 := k0_pay19 (v21 i) (v34 i) (v72 i)
def v89 (i : Ins F) : FVec F S256x384 .bf16 := k0_pay20 (v21 i) (v28 i) (v72 i)
def v101 (i : Ins F) : FVec F S256x96 .f32 := k0_pay21 (v21 i) (v28 i) (v31 i) (v34 i) (v72 i)
def v113 (i : Ins F) : FVec F S256x96 .f32 := k0_pay22 (v21 i) (v28 i) (v31 i) (v34 i) (v72 i)
def v116 (i : Ins F) : FVec F S512x96 .bf16 := k0_pay23 (v21 i) (v34 i) (v72 i)
def v119 (i : Ins F) : FVec F S256x512 .f32 := k0_pay24 (v21 i) (v28 i) (v31 i) (v72 i)
def v120 (i : Ins F) : FVec F S256 .f32 := k0_pay25 (v21 i) (v28 i) (v31 i) (v72 i)
def v192 (i : Ins F) : FVec F S256x384 .bf16 := k0_pay30 (v28 i) (v77 i)
def v204 (i : Ins F) : FVec F S256x96 .f32 := k0_pay31 (v28 i) (v77 i) (v80 i) (v83 i)
def v216 (i : Ins F) : FVec F S256x96 .f32 := k0_pay32 (v28 i) (v77 i) (v80 i) (v83 i)
def v219 (i : Ins F) : FVec F S512x96 .bf16 := k0_pay33 (v83 i)
def v224 (i : Ins F) : FVec F S256x1 .f32 := k0_pay35 (v28 i) (v77 i) (v80 i)
def v225 (i : Ins F) : FVec F S256x512 .bf16 := k0_pay36 (v28 i) (v77 i) (v80 i)
def v405 (i : Ins F) : FVec F S512x768 .f32 := k0_pay46 (v14 i)
def v407 (i : Ins F) : FVec F S512x1 .f32 := k0_pay47 (v14 i)
def v422 (i : Ins F) : FVec F S512x768 .f32 := k0_pay48 (v20 i) (v21 i) (v405 i) (v407 i)
def v623 (i : Ins F) : FVec F S512x384 .bf16 := k0_pay57 (v31 i) (v422 i)
def v626 (i : Ins F) : FVec F S512x384 .bf16 := k0_pay58 (v34 i) (v422 i)
def v773 (i : Ins F) : FVec F S256x384 .bf16 := k0_pay63 (v28 i) (v422 i)
def v774 (i : Ins F) : FVec F S256x96 .bf16 := k0_pay64 (v28 i) (v422 i)
def v776 (i : Ins F) : FVec F S512x96 .bf16 := k0_pay65 (v626 i)
def v777 (i : Ins F) : FVec F S96x512 .bf16 := k0_pay66 (v623 i)
def v824 (i : Ins F) : FVec F S256x768 .f32 := k0_pay67 (v37 i) (v623 i) (v626 i) (v773 i) (v774 i) (v776 i) (v777 i)
def v918 (i : Ins F) : FVec F S256x384 .bf16 := k0_pay72 (v28 i) (v422 i)
def v919 (i : Ins F) : FVec F S256x96 .bf16 := k0_pay73 (v28 i) (v422 i)
def v920 (i : Ins F) : FVec F S512x96 .bf16 := k0_pay74 (v623 i)
def v921 (i : Ins F) : FVec F S512x96 .bf16 := k0_pay75 (v626 i)
def v968 (i : Ins F) : FVec F S256x384 .bf16 := k0_pay76 (v623 i) (v626 i) (v918 i) (v919 i) (v920 i) (v921 i)
def v1133 (i : Ins F) : FVec F S256x768 .f32 := k0_pay86 (v14 i)
def v1474 (i : Ins F) : FVec F S1x768 .f32 := k0_pay104 (v23 i)
def v2757 (i : Ins F) : FVec F S1x768 .f32 := k0_pay154 (v25 i)
def v2927 (i : Ins F) : FVec F S1x768 .f32 := k0_pay161 (v25 i)
def v2996 (i : Ins F) : FVec F S1x768 .f32 := k0_pay166 (v25 i)

/-! ## The per-site tables -/

/-- Part `p` of group `g`'s attention partial product, as first stored into the accumulator. -/
def att0 : Fin 4 → Fin 3 → Ins F → Acc F :=
  ![![fun i => (k0_pay27 (v37 i) (v80 i) (v83 i) (v89 i) (v101 i) (v113 i) (v116 i) (v119 i) (v120 i)),
      fun i => (k0_pay28 (v37 i) (v80 i) (v83 i) (v89 i) (v101 i) (v113 i) (v116 i) (v119 i) (v120 i)),
      fun i => (k0_pay29 (v37 i) (v80 i) (v83 i) (v89 i) (v101 i) (v113 i) (v116 i) (v119 i) (v120 i))],
    ![fun i => (k0_pay38 (v37 i) (v80 i) (v83 i) (v192 i) (v204 i) (v216 i) (v219 i) (v224 i) (v225 i)),
      fun i => (k0_pay39 (v37 i) (v80 i) (v83 i) (v192 i) (v204 i) (v216 i) (v219 i) (v224 i) (v225 i)),
      fun i => (k0_pay40 (v37 i) (v80 i) (v83 i) (v192 i) (v204 i) (v216 i) (v219 i) (v224 i) (v225 i))],
    ![fun i => (k0_pay69 (v824 i)),
      fun i => (k0_pay70 (v824 i)),
      fun i => (k0_pay71 (v824 i))],
    ![fun i => (k0_pay78 (v37 i) (v968 i) (constant S256x768 .f32 0x00000000#32)),
      fun i => (k0_pay79 (v37 i) (v968 i) (constant S256x768 .f32 0x00000000#32)),
      fun i => (k0_pay80 (v37 i) (v968 i) (constant S256x768 .f32 0x00000000#32))]]

/-- The add of step `s → s + 1` of round `r` on slice `[g, p]`: own contents `a`, received contents `b`. -/
def step : Fin 2 → Fin 4 → Fin 3 → Fin 2 → Acc F → Rs F → Acc F :=
  ![![![![fun a b => (k0_pay41 a b),
          fun a b => (k0_pay54 (k0_pay53 a b))],
        ![fun a b => (k0_pay42 a b),
          fun a b => (k0_pay55 a b)],
        ![fun a b => (k0_pay43 a b),
          fun a b => (k0_pay56 a b)]],
      ![![fun a b => (k0_pay49 a b),
          fun a b => (k0_pay59 a b)],
        ![fun a b => (k0_pay51 (k0_pay50 a b)),
          fun a b => (k0_pay61 (k0_pay60 a b))],
        ![fun a b => (k0_pay52 a b),
          fun a b => (k0_pay62 a b)]],
      ![![fun a b => (k0_pay82 (k0_pay81 a) b),
          fun a b => (k0_pay97 a b)],
        ![fun a b => (k0_pay83 a b),
          fun a b => (k0_pay98 a b)],
        ![fun a b => (k0_pay84 a b),
          fun a b => (k0_pay99 a b)]],
      ![![fun a b => (k0_pay94 (k0_pay93 a) b),
          fun a b => (k0_pay113 (k0_pay112 a b))],
        ![fun a b => (k0_pay95 a b),
          fun a b => (k0_pay114 a b)],
        ![fun a b => (k0_pay96 a b),
          fun a b => (k0_pay115 a b)]]],
    ![![![fun a b => (k0_pay109 a b),
          fun a b => (k0_pay125 a b)],
        ![fun a b => (k0_pay110 a b),
          fun a b => (k0_pay126 a b)],
        ![fun a b => (k0_pay111 a b),
          fun a b => (k0_pay128 (k0_pay127 a) b)]],
      ![![fun a b => (k0_pay122 (k0_pay121 a b)),
          fun a b => (k0_pay141 a b)],
        ![fun a b => (k0_pay123 a b),
          fun a b => (k0_pay142 a b)],
        ![fun a b => (k0_pay124 a b),
          fun a b => (k0_pay143 a b)]],
      ![![fun a b => (k0_pay137 a b),
          fun a b => (k0_pay149 a b)],
        ![fun a b => (k0_pay138 a b),
          fun a b => (k0_pay151 (k0_pay150 a) b)],
        ![fun a b => (k0_pay140 (k0_pay139 a) b),
          fun a b => (k0_pay152 a b)]],
      ![![fun a b => (k0_pay145 a b),
          fun a b => (k0_pay156 a b)],
        ![fun a b => (k0_pay146 a b),
          fun a b => (k0_pay157 a b)],
        ![fun a b => (k0_pay148 (k0_pay147 a) b),
          fun a b => (k0_pay159 (k0_pay158 a b))]]]]

/-- Group `g`'s residual stream after attention, from the own (`a`) and received (`b`) last-level slices of round 0. -/
def x1 : Fin 4 → Ins F → (Fin 3 → Acc F) → (Fin 3 → Rs F) → FVec F S256x768 .f32 :=
  ![fun i a b => (k0_pay87 (v22 i) (k0_pay85 (a 0) (b 0) (a 1) (b 1) (a 2) (b 2)) (v1133 i)),
    fun i a b => (k0_pay102 (v14 i) (v22 i) (k0_pay100 (a 0) (b 0)) (k0_pay101 (a 1)) (b 1) (a 2) (b 2)),
    fun i a b => (k0_pay116 (v14 i) (v22 i) (a 0) (b 0) (a 1) (b 1) (a 2) (b 2)),
    fun i a b => (k0_pay131 (v14 i) (v22 i) (k0_pay129 (a 0) (b 0)) (k0_pay130 (a 1)) (b 1) (a 2) (b 2))]

/-- Part `p` of group `g`'s feed-forward partial product, as stored into the accumulator for round 1. -/
def mlp0 : Fin 4 → Fin 3 → Ins F → (Fin 3 → Acc F) → (Fin 3 → Rs F) → Acc F :=
  ![![fun i a b => (k0_pay90 (k0_pay89 (v22 i) (v23 i) (v24 i) (v40 i) (v43 i) (k0_pay85 (a 0) (b 0) (a 1) (b 1) (a 2) (b 2)) (v1133 i))),
      fun i a b => (k0_pay91 (k0_pay88 (v22 i) (v23 i) (v24 i) (v40 i) (v43 i) (k0_pay85 (a 0) (b 0) (a 1) (b 1) (a 2) (b 2)) (v1133 i))),
      fun i a b => (k0_pay92 (k0_pay88 (v22 i) (v23 i) (v24 i) (v40 i) (v43 i) (k0_pay85 (a 0) (b 0) (a 1) (b 1) (a 2) (b 2)) (v1133 i)))],
    ![fun i a b => (k0_pay106 (v24 i) (v40 i) (v43 i) (k0_pay103 (v14 i) (v22 i) (k0_pay100 (a 0) (b 0)) (k0_pay101 (a 1)) (b 1) (a 2) (b 2)) (v1474 i) (Scalar.ofBits .f32 0x3F800000#32)),
      fun i a b => (k0_pay107 (v24 i) (v40 i) (v43 i) (k0_pay103 (v14 i) (v22 i) (k0_pay100 (a 0) (b 0)) (k0_pay101 (a 1)) (b 1) (a 2) (b 2)) (v1474 i) (Scalar.ofBits .f32 0x3F800000#32)),
      fun i a b => (k0_pay108 (v24 i) (v40 i) (v43 i) (k0_pay103 (v14 i) (v22 i) (k0_pay100 (a 0) (b 0)) (k0_pay101 (a 1)) (b 1) (a 2) (b 2)) (v1474 i) (Scalar.ofBits .f32 0x3F800000#32))],
    ![fun i a b => (k0_pay118 (v23 i) (v24 i) (v40 i) (v43 i) (k0_pay116 (v14 i) (v22 i) (a 0) (b 0) (a 1) (b 1) (a 2) (b 2))),
      fun i a b => (k0_pay119 (k0_pay117 (v23 i) (v24 i) (v40 i) (v43 i) (k0_pay116 (v14 i) (v22 i) (a 0) (b 0) (a 1) (b 1) (a 2) (b 2)))),
      fun i a b => (k0_pay120 (k0_pay117 (v23 i) (v24 i) (v40 i) (v43 i) (k0_pay116 (v14 i) (v22 i) (a 0) (b 0) (a 1) (b 1) (a 2) (b 2))))],
    ![fun i a b => (k0_pay134 (v24 i) (v40 i) (v43 i) (k0_pay132 (v14 i) (v22 i) (v23 i) (k0_pay129 (a 0) (b 0)) (k0_pay130 (a 1)) (b 1) (a 2) (b 2))),
      fun i a b => (k0_pay135 (v24 i) (v40 i) (v43 i) (k0_pay132 (v14 i) (v22 i) (v23 i) (k0_pay129 (a 0) (b 0)) (k0_pay130 (a 1)) (b 1) (a 2) (b 2))),
      fun i a b => (k0_pay136 (v24 i) (v40 i) (v43 i) (k0_pay132 (v14 i) (v22 i) (v23 i) (k0_pay129 (a 0) (b 0)) (k0_pay130 (a 1)) (b 1) (a 2) (b 2)))]]

/-- Group `g`'s output block from round 0's (`a`, `b`) and round 1's (`a'`, `b'`) last-level slices. -/
def outSite : Fin 4 → Ins F → (Fin 3 → Acc F) → (Fin 3 → Rs F) → (Fin 3 → Acc F) → (Fin 3 → Rs F) → FVec F S1x256x768 .f32 :=
  ![fun i a b a' b' => (k0_pay144 (v25 i) (k0_pay87 (v22 i) (k0_pay85 (a 0) (b 0) (a 1) (b 1) (a 2) (b 2)) (v1133 i)) (a' 0) (b' 0) (a' 1) (b' 1) (a' 2) (b' 2)),
    fun i a b a' b' => (k0_pay155 (k0_pay153 (k0_pay102 (v14 i) (v22 i) (k0_pay100 (a 0) (b 0)) (k0_pay101 (a 1)) (b 1) (a 2) (b 2))) (v2757 i) (a' 0) (b' 0) (a' 1) (b' 1) (a' 2) (b' 2)),
    fun i a b a' b' => (k0_pay164 (k0_pay160 (k0_pay116 (v14 i) (v22 i) (a 0) (b 0) (a 1) (b 1) (a 2) (b 2))) (v2927 i) (k0_pay162 (a' 0) (b' 0)) (k0_pay163 (a' 1) (b' 1)) (a' 2) (b' 2)),
    fun i a b a' b' => (k0_pay1 (k0_pay165 (k0_pay131 (v14 i) (v22 i) (k0_pay129 (a 0) (b 0)) (k0_pay130 (a 1)) (b 1) (a 2) (b 2))) (v2996 i) (k0_pay167 (a' 0) (b' 0)) (k0_pay168 (a' 1) (b' 1)) (a' 2) (b' 2))]

/-! ## Each table read at its literal site -/

theorem att0_0_0 (i : Ins F) : att0 0 0 i = k0_pay27 (v37 i) (v80 i) (v83 i) (v89 i) (v101 i) (v113 i) (v116 i) (v119 i) (v120 i) := rfl
theorem att0_0_1 (i : Ins F) : att0 0 1 i = k0_pay28 (v37 i) (v80 i) (v83 i) (v89 i) (v101 i) (v113 i) (v116 i) (v119 i) (v120 i) := rfl
theorem att0_0_2 (i : Ins F) : att0 0 2 i = k0_pay29 (v37 i) (v80 i) (v83 i) (v89 i) (v101 i) (v113 i) (v116 i) (v119 i) (v120 i) := rfl
theorem att0_1_0 (i : Ins F) : att0 1 0 i = k0_pay38 (v37 i) (v80 i) (v83 i) (v192 i) (v204 i) (v216 i) (v219 i) (v224 i) (v225 i) := rfl
theorem att0_1_1 (i : Ins F) : att0 1 1 i = k0_pay39 (v37 i) (v80 i) (v83 i) (v192 i) (v204 i) (v216 i) (v219 i) (v224 i) (v225 i) := rfl
theorem att0_1_2 (i : Ins F) : att0 1 2 i = k0_pay40 (v37 i) (v80 i) (v83 i) (v192 i) (v204 i) (v216 i) (v219 i) (v224 i) (v225 i) := rfl
theorem att0_2_0 (i : Ins F) : att0 2 0 i = k0_pay69 (v824 i) := rfl
theorem att0_2_1 (i : Ins F) : att0 2 1 i = k0_pay70 (v824 i) := rfl
theorem att0_2_2 (i : Ins F) : att0 2 2 i = k0_pay71 (v824 i) := rfl
theorem att0_3_0 (i : Ins F) : att0 3 0 i = k0_pay78 (v37 i) (v968 i) (constant S256x768 .f32 0x00000000#32) := rfl
theorem att0_3_1 (i : Ins F) : att0 3 1 i = k0_pay79 (v37 i) (v968 i) (constant S256x768 .f32 0x00000000#32) := rfl
theorem att0_3_2 (i : Ins F) : att0 3 2 i = k0_pay80 (v37 i) (v968 i) (constant S256x768 .f32 0x00000000#32) := rfl
theorem step_0_0_0_0 (a : Acc F) (b : Rs F) : step 0 0 0 0 a b = k0_pay41 a b := rfl
theorem step_0_0_1_0 (a : Acc F) (b : Rs F) : step 0 0 1 0 a b = k0_pay42 a b := rfl
theorem step_0_0_2_0 (a : Acc F) (b : Rs F) : step 0 0 2 0 a b = k0_pay43 a b := rfl
theorem step_0_1_0_0 (a : Acc F) (b : Rs F) : step 0 1 0 0 a b = k0_pay49 a b := rfl
theorem step_0_1_1_0 (a : Acc F) (b : Rs F) : step 0 1 1 0 a b = k0_pay51 (k0_pay50 a b) := rfl
theorem step_0_1_2_0 (a : Acc F) (b : Rs F) : step 0 1 2 0 a b = k0_pay52 a b := rfl
theorem step_0_0_0_1 (a : Acc F) (b : Rs F) : step 0 0 0 1 a b = k0_pay54 (k0_pay53 a b) := rfl
theorem step_0_0_1_1 (a : Acc F) (b : Rs F) : step 0 0 1 1 a b = k0_pay55 a b := rfl
theorem step_0_0_2_1 (a : Acc F) (b : Rs F) : step 0 0 2 1 a b = k0_pay56 a b := rfl
theorem step_0_1_0_1 (a : Acc F) (b : Rs F) : step 0 1 0 1 a b = k0_pay59 a b := rfl
theorem step_0_1_1_1 (a : Acc F) (b : Rs F) : step 0 1 1 1 a b = k0_pay61 (k0_pay60 a b) := rfl
theorem step_0_1_2_1 (a : Acc F) (b : Rs F) : step 0 1 2 1 a b = k0_pay62 a b := rfl
theorem step_0_2_0_0 (a : Acc F) (b : Rs F) : step 0 2 0 0 a b = k0_pay82 (k0_pay81 a) b := rfl
theorem step_0_2_1_0 (a : Acc F) (b : Rs F) : step 0 2 1 0 a b = k0_pay83 a b := rfl
theorem step_0_2_2_0 (a : Acc F) (b : Rs F) : step 0 2 2 0 a b = k0_pay84 a b := rfl
theorem step_0_3_0_0 (a : Acc F) (b : Rs F) : step 0 3 0 0 a b = k0_pay94 (k0_pay93 a) b := rfl
theorem step_0_3_1_0 (a : Acc F) (b : Rs F) : step 0 3 1 0 a b = k0_pay95 a b := rfl
theorem step_0_3_2_0 (a : Acc F) (b : Rs F) : step 0 3 2 0 a b = k0_pay96 a b := rfl
theorem step_0_2_0_1 (a : Acc F) (b : Rs F) : step 0 2 0 1 a b = k0_pay97 a b := rfl
theorem step_0_2_1_1 (a : Acc F) (b : Rs F) : step 0 2 1 1 a b = k0_pay98 a b := rfl
theorem step_0_2_2_1 (a : Acc F) (b : Rs F) : step 0 2 2 1 a b = k0_pay99 a b := rfl
theorem step_1_0_0_0 (a : Acc F) (b : Rs F) : step 1 0 0 0 a b = k0_pay109 a b := rfl
theorem step_1_0_1_0 (a : Acc F) (b : Rs F) : step 1 0 1 0 a b = k0_pay110 a b := rfl
theorem step_1_0_2_0 (a : Acc F) (b : Rs F) : step 1 0 2 0 a b = k0_pay111 a b := rfl
theorem step_0_3_0_1 (a : Acc F) (b : Rs F) : step 0 3 0 1 a b = k0_pay113 (k0_pay112 a b) := rfl
theorem step_0_3_1_1 (a : Acc F) (b : Rs F) : step 0 3 1 1 a b = k0_pay114 a b := rfl
theorem step_0_3_2_1 (a : Acc F) (b : Rs F) : step 0 3 2 1 a b = k0_pay115 a b := rfl
theorem step_1_1_0_0 (a : Acc F) (b : Rs F) : step 1 1 0 0 a b = k0_pay122 (k0_pay121 a b) := rfl
theorem step_1_1_1_0 (a : Acc F) (b : Rs F) : step 1 1 1 0 a b = k0_pay123 a b := rfl
theorem step_1_1_2_0 (a : Acc F) (b : Rs F) : step 1 1 2 0 a b = k0_pay124 a b := rfl
theorem step_1_0_0_1 (a : Acc F) (b : Rs F) : step 1 0 0 1 a b = k0_pay125 a b := rfl
theorem step_1_0_1_1 (a : Acc F) (b : Rs F) : step 1 0 1 1 a b = k0_pay126 a b := rfl
theorem step_1_0_2_1 (a : Acc F) (b : Rs F) : step 1 0 2 1 a b = k0_pay128 (k0_pay127 a) b := rfl
theorem step_1_2_0_0 (a : Acc F) (b : Rs F) : step 1 2 0 0 a b = k0_pay137 a b := rfl
theorem step_1_2_1_0 (a : Acc F) (b : Rs F) : step 1 2 1 0 a b = k0_pay138 a b := rfl
theorem step_1_2_2_0 (a : Acc F) (b : Rs F) : step 1 2 2 0 a b = k0_pay140 (k0_pay139 a) b := rfl
theorem step_1_1_0_1 (a : Acc F) (b : Rs F) : step 1 1 0 1 a b = k0_pay141 a b := rfl
theorem step_1_1_1_1 (a : Acc F) (b : Rs F) : step 1 1 1 1 a b = k0_pay142 a b := rfl
theorem step_1_1_2_1 (a : Acc F) (b : Rs F) : step 1 1 2 1 a b = k0_pay143 a b := rfl
theorem step_1_3_0_0 (a : Acc F) (b : Rs F) : step 1 3 0 0 a b = k0_pay145 a b := rfl
theorem step_1_3_1_0 (a : Acc F) (b : Rs F) : step 1 3 1 0 a b = k0_pay146 a b := rfl
theorem step_1_3_2_0 (a : Acc F) (b : Rs F) : step 1 3 2 0 a b = k0_pay148 (k0_pay147 a) b := rfl
theorem step_1_2_0_1 (a : Acc F) (b : Rs F) : step 1 2 0 1 a b = k0_pay149 a b := rfl
theorem step_1_2_1_1 (a : Acc F) (b : Rs F) : step 1 2 1 1 a b = k0_pay151 (k0_pay150 a) b := rfl
theorem step_1_2_2_1 (a : Acc F) (b : Rs F) : step 1 2 2 1 a b = k0_pay152 a b := rfl
theorem step_1_3_0_1 (a : Acc F) (b : Rs F) : step 1 3 0 1 a b = k0_pay156 a b := rfl
theorem step_1_3_1_1 (a : Acc F) (b : Rs F) : step 1 3 1 1 a b = k0_pay157 a b := rfl
theorem step_1_3_2_1 (a : Acc F) (b : Rs F) : step 1 3 2 1 a b = k0_pay159 (k0_pay158 a b) := rfl
theorem x1_0 (i : Ins F) (a : Fin 3 → Acc F) (b : Fin 3 → Rs F) : x1 0 i a b = k0_pay87 (v22 i) (k0_pay85 (a 0) (b 0) (a 1) (b 1) (a 2) (b 2)) (v1133 i) := rfl
theorem x1_1 (i : Ins F) (a : Fin 3 → Acc F) (b : Fin 3 → Rs F) : x1 1 i a b = k0_pay102 (v14 i) (v22 i) (k0_pay100 (a 0) (b 0)) (k0_pay101 (a 1)) (b 1) (a 2) (b 2) := rfl
theorem x1_2 (i : Ins F) (a : Fin 3 → Acc F) (b : Fin 3 → Rs F) : x1 2 i a b = k0_pay116 (v14 i) (v22 i) (a 0) (b 0) (a 1) (b 1) (a 2) (b 2) := rfl
theorem x1_3 (i : Ins F) (a : Fin 3 → Acc F) (b : Fin 3 → Rs F) : x1 3 i a b = k0_pay131 (v14 i) (v22 i) (k0_pay129 (a 0) (b 0)) (k0_pay130 (a 1)) (b 1) (a 2) (b 2) := rfl
theorem mlp0_0_0 (i : Ins F) (a : Fin 3 → Acc F) (b : Fin 3 → Rs F) : mlp0 0 0 i a b = k0_pay90 (k0_pay89 (v22 i) (v23 i) (v24 i) (v40 i) (v43 i) (k0_pay85 (a 0) (b 0) (a 1) (b 1) (a 2) (b 2)) (v1133 i)) := rfl
theorem mlp0_0_1 (i : Ins F) (a : Fin 3 → Acc F) (b : Fin 3 → Rs F) : mlp0 0 1 i a b = k0_pay91 (k0_pay88 (v22 i) (v23 i) (v24 i) (v40 i) (v43 i) (k0_pay85 (a 0) (b 0) (a 1) (b 1) (a 2) (b 2)) (v1133 i)) := rfl
theorem mlp0_0_2 (i : Ins F) (a : Fin 3 → Acc F) (b : Fin 3 → Rs F) : mlp0 0 2 i a b = k0_pay92 (k0_pay88 (v22 i) (v23 i) (v24 i) (v40 i) (v43 i) (k0_pay85 (a 0) (b 0) (a 1) (b 1) (a 2) (b 2)) (v1133 i)) := rfl
theorem mlp0_1_0 (i : Ins F) (a : Fin 3 → Acc F) (b : Fin 3 → Rs F) : mlp0 1 0 i a b = k0_pay106 (v24 i) (v40 i) (v43 i) (k0_pay103 (v14 i) (v22 i) (k0_pay100 (a 0) (b 0)) (k0_pay101 (a 1)) (b 1) (a 2) (b 2)) (v1474 i) (Scalar.ofBits .f32 0x3F800000#32) := rfl
theorem mlp0_1_1 (i : Ins F) (a : Fin 3 → Acc F) (b : Fin 3 → Rs F) : mlp0 1 1 i a b = k0_pay107 (v24 i) (v40 i) (v43 i) (k0_pay103 (v14 i) (v22 i) (k0_pay100 (a 0) (b 0)) (k0_pay101 (a 1)) (b 1) (a 2) (b 2)) (v1474 i) (Scalar.ofBits .f32 0x3F800000#32) := rfl
theorem mlp0_1_2 (i : Ins F) (a : Fin 3 → Acc F) (b : Fin 3 → Rs F) : mlp0 1 2 i a b = k0_pay108 (v24 i) (v40 i) (v43 i) (k0_pay103 (v14 i) (v22 i) (k0_pay100 (a 0) (b 0)) (k0_pay101 (a 1)) (b 1) (a 2) (b 2)) (v1474 i) (Scalar.ofBits .f32 0x3F800000#32) := rfl
theorem mlp0_2_0 (i : Ins F) (a : Fin 3 → Acc F) (b : Fin 3 → Rs F) : mlp0 2 0 i a b = k0_pay118 (v23 i) (v24 i) (v40 i) (v43 i) (k0_pay116 (v14 i) (v22 i) (a 0) (b 0) (a 1) (b 1) (a 2) (b 2)) := rfl
theorem mlp0_2_1 (i : Ins F) (a : Fin 3 → Acc F) (b : Fin 3 → Rs F) : mlp0 2 1 i a b = k0_pay119 (k0_pay117 (v23 i) (v24 i) (v40 i) (v43 i) (k0_pay116 (v14 i) (v22 i) (a 0) (b 0) (a 1) (b 1) (a 2) (b 2))) := rfl
theorem mlp0_2_2 (i : Ins F) (a : Fin 3 → Acc F) (b : Fin 3 → Rs F) : mlp0 2 2 i a b = k0_pay120 (k0_pay117 (v23 i) (v24 i) (v40 i) (v43 i) (k0_pay116 (v14 i) (v22 i) (a 0) (b 0) (a 1) (b 1) (a 2) (b 2))) := rfl
theorem mlp0_3_0 (i : Ins F) (a : Fin 3 → Acc F) (b : Fin 3 → Rs F) : mlp0 3 0 i a b = k0_pay134 (v24 i) (v40 i) (v43 i) (k0_pay132 (v14 i) (v22 i) (v23 i) (k0_pay129 (a 0) (b 0)) (k0_pay130 (a 1)) (b 1) (a 2) (b 2)) := rfl
theorem mlp0_3_1 (i : Ins F) (a : Fin 3 → Acc F) (b : Fin 3 → Rs F) : mlp0 3 1 i a b = k0_pay135 (v24 i) (v40 i) (v43 i) (k0_pay132 (v14 i) (v22 i) (v23 i) (k0_pay129 (a 0) (b 0)) (k0_pay130 (a 1)) (b 1) (a 2) (b 2)) := rfl
theorem mlp0_3_2 (i : Ins F) (a : Fin 3 → Acc F) (b : Fin 3 → Rs F) : mlp0 3 2 i a b = k0_pay136 (v24 i) (v40 i) (v43 i) (k0_pay132 (v14 i) (v22 i) (v23 i) (k0_pay129 (a 0) (b 0)) (k0_pay130 (a 1)) (b 1) (a 2) (b 2)) := rfl
theorem outSite_0 (i : Ins F) (a : Fin 3 → Acc F) (b : Fin 3 → Rs F) (a' : Fin 3 → Acc F) (b' : Fin 3 → Rs F) : outSite 0 i a b a' b' = k0_pay144 (v25 i) (k0_pay87 (v22 i) (k0_pay85 (a 0) (b 0) (a 1) (b 1) (a 2) (b 2)) (v1133 i)) (a' 0) (b' 0) (a' 1) (b' 1) (a' 2) (b' 2) := rfl
theorem outSite_1 (i : Ins F) (a : Fin 3 → Acc F) (b : Fin 3 → Rs F) (a' : Fin 3 → Acc F) (b' : Fin 3 → Rs F) : outSite 1 i a b a' b' = k0_pay155 (k0_pay153 (k0_pay102 (v14 i) (v22 i) (k0_pay100 (a 0) (b 0)) (k0_pay101 (a 1)) (b 1) (a 2) (b 2))) (v2757 i) (a' 0) (b' 0) (a' 1) (b' 1) (a' 2) (b' 2) := rfl
theorem outSite_2 (i : Ins F) (a : Fin 3 → Acc F) (b : Fin 3 → Rs F) (a' : Fin 3 → Acc F) (b' : Fin 3 → Rs F) : outSite 2 i a b a' b' = k0_pay164 (k0_pay160 (k0_pay116 (v14 i) (v22 i) (a 0) (b 0) (a 1) (b 1) (a 2) (b 2))) (v2927 i) (k0_pay162 (a' 0) (b' 0)) (k0_pay163 (a' 1) (b' 1)) (a' 2) (b' 2) := rfl
theorem outSite_3 (i : Ins F) (a : Fin 3 → Acc F) (b : Fin 3 → Rs F) (a' : Fin 3 → Acc F) (b' : Fin 3 → Rs F) : outSite 3 i a b a' b' = k0_pay1 (k0_pay165 (k0_pay131 (v14 i) (v22 i) (k0_pay129 (a 0) (b 0)) (k0_pay130 (a 1)) (b 1) (a 2) (b 2))) (v2996 i) (k0_pay167 (a' 0) (b' 0)) (k0_pay168 (a' 1) (b' 1)) (a' 2) (b' 2) := rfl

end Cert.KernelIdeal.Vals
-- ==== Proof.Mesh.lean ====
import proofs.«900775_g7700000000000776_dist_diff_dit_htp_i_b2_s512_d768_hq4_v7x_i8_f32_1_alg».proof.Proof.Gen.KernelIdeal

/-! The eight devices are the vertices of a cube: a device's id is three bits, and the kernel talks to the three
    devices whose id differs from its own by one of the masks 1, 3, 4. These three masks are a basis of the
    three-bit vectors over the field of two elements, so exchanging along them in any order reaches every device.
    Each exchange is with `peer j c`, the device `c XOR mask j`; exchanging twice along one mask returns to `c`. -/

namespace Cert.KernelIdeal.Mesh

open Idealize.ShloMosaic Cert.KernelIdeal Cert.KernelIdeal.Gen

/-- The three masks, in the order the kernel lists them. -/
def mask : Fin 3 → Nat := ![1, 3, 4]
theorem xor_lt : ∀ (j : Fin 3) (c : Dev nD), c.val ^^^ mask j < nD := by decide
/-- The device across mask `j` from `c`. -/
def peer (j : Fin 3) (c : Dev nD) : Dev nD := ⟨c.val ^^^ mask j, xor_lt j c⟩
theorem peer_peer : ∀ (j : Fin 3) (c : Dev nD), peer j (peer j c) = c := by decide
theorem peer_ne : ∀ (j : Fin 3) (c : Dev nD), peer j c ≠ c := by decide
theorem peer_ne_peer : ∀ (j j' : Fin 3) (c : Dev nD), j ≠ j' → peer j c ≠ peer j' c := by decide
theorem peer_comm : ∀ (j j' : Fin 3) (c : Dev nD), peer j (peer j' c) = peer j' (peer j c) := by decide
/-- Every device is reached from `c` by a subset of the three exchanges: the masks span the cube. -/
theorem span : ∀ c e : Dev nD, ∃ b0 b1 b2 : Bool, e = (if b2 then peer 2 else id) ((if b1 then peer 1 else id) ((if b0 then peer 0 else id) c)) := by decide
/-- Part `p` exchanges along mask `(p + s) mod 3` at step `s`: the three parts use the three masks in rotated orders. -/
def axisOf (p s : Fin 3) : Fin 3 := ⟨(p.val + s.val) % 3, Nat.mod_lt _ (by decide)⟩
theorem axisOf_inj_p : ∀ (s p p' : Fin 3), axisOf p s = axisOf p' s → p = p' := by decide
theorem axisOf_inj_s : ∀ (p s s' : Fin 3), axisOf p s = axisOf p s' → s = s' := by decide
/-- The device part `p` is exchanged with at step `s`. -/
def partner (p s : Fin 3) (c : Dev nD) : Dev nD := peer (axisOf p s) c
theorem partner_partner (p s : Fin 3) (c : Dev nD) : partner p s (partner p s c) = c := peer_peer _ c

/-! The printed device chains: each computes `(c mod 8) XOR mask` on 32-bit words. -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 2 c := by revert c; decide +kernel
theorem dev10_eq (c : Dev nD) : (⟨k0_dev10 c, k0_dev10_lt c⟩ : Dev nD) = peer 1 c := by revert c; decide +kernel
theorem dev11_eq (c : Dev nD) : (⟨k0_dev11 c, k0_dev11_lt c⟩ : Dev nD) = peer 2 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 1 c := by revert c; decide +kernel
theorem dev14_eq (c : Dev nD) : (⟨k0_dev14 c, k0_dev14_lt c⟩ : Dev nD) = peer 2 c := by revert c; decide +kernel
theorem dev15_eq (c : Dev nD) : (⟨k0_dev15 c, k0_dev15_lt c⟩ : Dev nD) = peer 0 c := by revert c; decide +kernel
theorem dev16_eq (c : Dev nD) : (⟨k0_dev16 c, k0_dev16_lt c⟩ : Dev nD) = peer 2 c := by revert c; decide +kernel
theorem dev17_eq (c : Dev nD) : (⟨k0_dev17 c, k0_dev17_lt c⟩ : Dev nD) = peer 0 c := by revert c; decide +kernel
theorem dev18_eq (c : Dev nD) : (⟨k0_dev18 c, k0_dev18_lt c⟩ : Dev nD) = peer 1 c := by revert c; decide +kernel
theorem dev19_eq (c : Dev nD) : (⟨k0_dev19 c, k0_dev19_lt c⟩ : Dev nD) = peer 2 c := by revert c; decide +kernel
theorem dev20_eq (c : Dev nD) : (⟨k0_dev20 c, k0_dev20_lt c⟩ : Dev nD) = peer 0 c := by revert c; decide +kernel
theorem dev21_eq (c : Dev nD) : (⟨k0_dev21 c, k0_dev21_lt c⟩ : Dev nD) = peer 1 c := by revert c; decide +kernel
theorem dev22_eq (c : Dev nD) : (⟨k0_dev22 c, k0_dev22_lt c⟩ : Dev nD) = peer 0 c := by revert c; decide +kernel
theorem dev23_eq (c : Dev nD) : (⟨k0_dev23 c, k0_dev23_lt c⟩ : Dev nD) = peer 1 c := by revert c; decide +kernel
theorem dev24_eq (c : Dev nD) : (⟨k0_dev24 c, k0_dev24_lt c⟩ : Dev nD) = peer 2 c := by revert c; decide +kernel
theorem dev25_eq (c : Dev nD) : (⟨k0_dev25 c, k0_dev25_lt c⟩ : Dev nD) = peer 0 c := by revert c; decide +kernel
theorem dev26_eq (c : Dev nD) : (⟨k0_dev26 c, k0_dev26_lt c⟩ : Dev nD) = peer 1 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 1 c := by revert c; decide +kernel
theorem dev29_eq (c : Dev nD) : (⟨k0_dev29 c, k0_dev29_lt c⟩ : Dev nD) = peer 2 c := by revert c; decide +kernel
theorem dev30_eq (c : Dev nD) : (⟨k0_dev30 c, k0_dev30_lt c⟩ : Dev nD) = peer 0 c := by revert c; decide +kernel
theorem dev31_eq (c : Dev nD) : (⟨k0_dev31 c, k0_dev31_lt c⟩ : Dev nD) = peer 0 c := by revert c; decide +kernel
theorem dev32_eq (c : Dev nD) : (⟨k0_dev32 c, k0_dev32_lt c⟩ : Dev nD) = peer 1 c := by revert c; decide +kernel
theorem dev33_eq (c : Dev nD) : (⟨k0_dev33 c, k0_dev33_lt c⟩ : Dev nD) = peer 2 c := by revert c; decide +kernel
theorem dev34_eq (c : Dev nD) : (⟨k0_dev34 c, k0_dev34_lt c⟩ : Dev nD) = peer 1 c := by revert c; decide +kernel
theorem dev35_eq (c : Dev nD) : (⟨k0_dev35 c, k0_dev35_lt c⟩ : Dev nD) = peer 2 c := by revert c; decide +kernel
theorem dev36_eq (c : Dev nD) : (⟨k0_dev36 c, k0_dev36_lt c⟩ : Dev nD) = peer 0 c := by revert c; decide +kernel
theorem dev37_eq (c : Dev nD) : (⟨k0_dev37 c, k0_dev37_lt c⟩ : Dev nD) = peer 2 c := by revert c; decide +kernel
theorem dev38_eq (c : Dev nD) : (⟨k0_dev38 c, k0_dev38_lt c⟩ : Dev nD) = peer 0 c := by revert c; decide +kernel
theorem dev39_eq (c : Dev nD) : (⟨k0_dev39 c, k0_dev39_lt c⟩ : Dev nD) = peer 1 c := by revert c; decide +kernel
theorem dev40_eq (c : Dev nD) : (⟨k0_dev40 c, k0_dev40_lt c⟩ : Dev nD) = peer 0 c := by revert c; decide +kernel
theorem dev41_eq (c : Dev nD) : (⟨k0_dev41 c, k0_dev41_lt c⟩ : Dev nD) = peer 1 c := by revert c; decide +kernel
theorem dev42_eq (c : Dev nD) : (⟨k0_dev42 c, k0_dev42_lt c⟩ : Dev nD) = peer 2 c := by revert c; decide +kernel
theorem dev43_eq (c : Dev nD) : (⟨k0_dev43 c, k0_dev43_lt c⟩ : Dev nD) = peer 1 c := by revert c; decide +kernel
theorem dev44_eq (c : Dev nD) : (⟨k0_dev44 c, k0_dev44_lt c⟩ : Dev nD) = peer 2 c := by revert c; decide +kernel
theorem dev45_eq (c : Dev nD) : (⟨k0_dev45 c, k0_dev45_lt c⟩ : Dev nD) = peer 0 c := by revert c; decide +kernel
theorem dev46_eq (c : Dev nD) : (⟨k0_dev46 c, k0_dev46_lt c⟩ : Dev nD) = peer 2 c := by revert c; decide +kernel
theorem dev47_eq (c : Dev nD) : (⟨k0_dev47 c, k0_dev47_lt c⟩ : Dev nD) = peer 0 c := by revert c; decide +kernel
theorem dev48_eq (c : Dev nD) : (⟨k0_dev48 c, k0_dev48_lt c⟩ : Dev nD) = peer 1 c := by revert c; decide +kernel
theorem dev49_eq (c : Dev nD) : (⟨k0_dev49 c, k0_dev49_lt c⟩ : Dev nD) = peer 0 c := by revert c; decide +kernel
theorem dev50_eq (c : Dev nD) : (⟨k0_dev50 c, k0_dev50_lt c⟩ : Dev nD) = peer 1 c := by revert c; decide +kernel
theorem dev51_eq (c : Dev nD) : (⟨k0_dev51 c, k0_dev51_lt c⟩ : Dev nD) = peer 2 c := by revert c; decide +kernel
theorem dev52_eq (c : Dev nD) : (⟨k0_dev52 c, k0_dev52_lt c⟩ : Dev nD) = peer 1 c := by revert c; decide +kernel
theorem dev53_eq (c : Dev nD) : (⟨k0_dev53 c, k0_dev53_lt c⟩ : Dev nD) = peer 2 c := by revert c; decide +kernel
theorem dev54_eq (c : Dev nD) : (⟨k0_dev54 c, k0_dev54_lt c⟩ : Dev nD) = peer 0 c := by revert c; decide +kernel
theorem dev55_eq (c : Dev nD) : (⟨k0_dev55 c, k0_dev55_lt c⟩ : Dev nD) = peer 2 c := by revert c; decide +kernel
theorem dev56_eq (c : Dev nD) : (⟨k0_dev56 c, k0_dev56_lt c⟩ : Dev nD) = peer 0 c := by revert c; decide +kernel
theorem dev57_eq (c : Dev nD) : (⟨k0_dev57 c, k0_dev57_lt c⟩ : Dev nD) = peer 1 c := by revert c; decide +kernel
theorem dev58_eq (c : Dev nD) : (⟨k0_dev58 c, k0_dev58_lt c⟩ : Dev nD) = peer 0 c := by revert c; decide +kernel
theorem dev59_eq (c : Dev nD) : (⟨k0_dev59 c, k0_dev59_lt c⟩ : Dev nD) = peer 1 c := by revert c; decide +kernel
theorem dev60_eq (c : Dev nD) : (⟨k0_dev60 c, k0_dev60_lt c⟩ : Dev nD) = peer 2 c := by revert c; decide +kernel
theorem dev61_eq (c : Dev nD) : (⟨k0_dev61 c, k0_dev61_lt c⟩ : Dev nD) = peer 1 c := by revert c; decide +kernel
theorem dev62_eq (c : Dev nD) : (⟨k0_dev62 c, k0_dev62_lt c⟩ : Dev nD) = peer 2 c := by revert c; decide +kernel
theorem dev63_eq (c : Dev nD) : (⟨k0_dev63 c, k0_dev63_lt c⟩ : Dev nD) = peer 0 c := by revert c; decide +kernel
theorem dev64_eq (c : Dev nD) : (⟨k0_dev64 c, k0_dev64_lt c⟩ : Dev nD) = peer 2 c := by revert c; decide +kernel
theorem dev65_eq (c : Dev nD) : (⟨k0_dev65 c, k0_dev65_lt c⟩ : Dev nD) = peer 0 c := by revert c; decide +kernel
theorem dev66_eq (c : Dev nD) : (⟨k0_dev66 c, k0_dev66_lt c⟩ : Dev nD) = peer 1 c := by revert c; decide +kernel
theorem dev67_eq (c : Dev nD) : (⟨k0_dev67 c, k0_dev67_lt c⟩ : Dev nD) = peer 1 c := by revert c; decide +kernel
theorem dev68_eq (c : Dev nD) : (⟨k0_dev68 c, k0_dev68_lt c⟩ : Dev nD) = peer 2 c := by revert c; decide +kernel
theorem dev69_eq (c : Dev nD) : (⟨k0_dev69 c, k0_dev69_lt c⟩ : Dev nD) = peer 0 c := by revert c; decide +kernel
theorem dev70_eq (c : Dev nD) : (⟨k0_dev70 c, k0_dev70_lt c⟩ : Dev nD) = peer 2 c := by revert c; decide +kernel
theorem dev71_eq (c : Dev nD) : (⟨k0_dev71 c, k0_dev71_lt c⟩ : Dev nD) = peer 0 c := by revert c; decide +kernel
theorem dev72_eq (c : Dev nD) : (⟨k0_dev72 c, k0_dev72_lt c⟩ : Dev nD) = peer 1 c := by revert c; decide +kernel
theorem dev73_eq (c : Dev nD) : (⟨k0_dev73 c, k0_dev73_lt c⟩ : Dev nD) = peer 2 c := by revert c; decide +kernel
theorem dev74_eq (c : Dev nD) : (⟨k0_dev74 c, k0_dev74_lt c⟩ : Dev nD) = peer 0 c := by revert c; decide +kernel
theorem dev75_eq (c : Dev nD) : (⟨k0_dev75 c, k0_dev75_lt c⟩ : Dev nD) = peer 1 c := by revert c; decide +kernel
theorem dev76_eq (c : Dev nD) : (⟨k0_dev76 c, k0_dev76_lt c⟩ : Dev nD) = peer 0 c := by revert c; decide +kernel
theorem dev77_eq (c : Dev nD) : (⟨k0_dev77 c, k0_dev77_lt c⟩ : Dev nD) = peer 1 c := by revert c; decide +kernel
theorem dev78_eq (c : Dev nD) : (⟨k0_dev78 c, k0_dev78_lt c⟩ : Dev nD) = peer 2 c := by revert c; decide +kernel

end Cert.KernelIdeal.Mesh
-- ==== Proof.Vals.lean ====
import proofs.«900775_g7700000000000776_dist_diff_dit_htp_i_b2_s512_d768_hq4_v7x_i8_f32_1_alg».proof.Proof.Vals.Tables
import proofs.«900775_g7700000000000776_dist_diff_dit_htp_i_b2_s512_d768_hq4_v7x_i8_f32_1_alg».proof.Proof.Mesh
import Idealize.ShloMosaic.Lib.ValueIdx

/-! What each scratch slice and the output window hold at each stage of the body, across the mesh: six levels, each a
    per-site composition of the skeleton's own payloads over the level before. The mesh's argument blocks are a family
    `I : Dev nD → Ins F`. Every equation here is by unfolding a definition of this file. -/

noncomputable section

namespace Cert.KernelIdeal.Vals

open Idealize.ShloMosaic Cert.KernelIdeal Cert.KernelIdeal.Gen Cert.KernelIdeal.Mesh
open Idealize.ShloMosaic.ValueIdx (ix3)

variable {F : FTy → Type} [FloatOps F]

/-! ## Names for the first values of a device's own arguments -/

/-- The whole modulation table; its six slices follow. -/
abbrev modAll (i : Ins F) : FVec F S2x4608 .f32 := k0_pay3 i.w5 i.w6
abbrev mod0 (i : Ins F) : FVec F S2x768 .f32 := v20 i
abbrev mod1 (i : Ins F) : FVec F S2x768 .f32 := v21 i
abbrev mod2 (i : Ins F) : FVec F S2x768 .f32 := v22 i
abbrev mod3 (i : Ins F) : FVec F S2x768 .f32 := v23 i
abbrev mod4 (i : Ins F) : FVec F S2x768 .f32 := v24 i
abbrev mod5 (i : Ins F) : FVec F S2x768 .f32 := v25 i
/-- Batch row 0 after the first normalisation and modulation, and its key and value projections. -/
abbrev xa0 (i : Ins F) : FVec F S512x768 .f32 := v77 i
abbrev kk0 (i : Ins F) : FVec F S512x384 .bf16 := v80 i
abbrev vv0 (i : Ins F) : FVec F S512x384 .bf16 := v83 i
/-- The same for batch row 1. -/
abbrev xa1 (i : Ins F) : FVec F S512x768 .f32 := v422 i
abbrev kk1 (i : Ins F) : FVec F S512x384 .bf16 := v623 i
abbrev vv1 (i : Ins F) : FVec F S512x384 .bf16 := v626 i

/-! ## The six levels -/

variable (I : Dev nD → Ins F)

/-- Round 0, before any exchange: the attention partial product's part. -/
def A00 (c : Dev nD) (g : Fin 4) (p : Fin 3) : Acc F := att0 g p (I c)
/-- Round 0 after one exchange: own contents plus the first partner's. -/
def A01 (c : Dev nD) (g : Fin 4) (p : Fin 3) : Acc F := step 0 g p 0 (A00 I c g p) (toRs (A00 I (partner p 0 c) g p))
/-- Round 0 after two exchanges. -/
def A02 (c : Dev nD) (g : Fin 4) (p : Fin 3) : Acc F := step 0 g p 1 (A01 I c g p) (toRs (A01 I (partner p 1 c) g p))
/-- Round 1, before any exchange: the feed-forward partial product's part, over round 0's last level and its last partner's. -/
def A10 (c : Dev nD) (g : Fin 4) (p : Fin 3) : Acc F :=
  mlp0 g p (I c) (fun q => A02 I c g q) (fun q => toRs (A02 I (partner q 2 c) g q))
/-- Round 1 after one exchange. -/
def A11 (c : Dev nD) (g : Fin 4) (p : Fin 3) : Acc F := step 1 g p 0 (A10 I c g p) (toRs (A10 I (partner p 0 c) g p))
/-- Round 1 after two exchanges. -/
def A12 (c : Dev nD) (g : Fin 4) (p : Fin 3) : Acc F := step 1 g p 1 (A11 I c g p) (toRs (A11 I (partner p 1 c) g p))

/-- The contents of device `c`'s accumulator slice `[g, p]` when step `(r, g, s)` fires. -/
def A (r : Fin 2) (c : Dev nD) (g : Fin 4) (p : Fin 3) (s : Fin 3) : Acc F :=
  (![![A00 I c g p, A01 I c g p, A02 I c g p], ![A10 I c g p, A11 I c g p, A12 I c g p]] r) s

/-- The contents of device `c`'s receive slice `[4 r + g, p, s]` once step `(r, g, s)`'s copy has landed: what the
    partner's accumulator slice held when it fired. -/
def R (r : Fin 2) (c : Dev nD) (g : Fin 4) (p : Fin 3) (s : Fin 3) : Rs F := toRs (A I r (partner p s c) g p s)

/-- Group `g`'s residual stream after attention on device `c`. -/
def x1C (c : Dev nD) (g : Fin 4) : FVec F S256x768 .f32 :=
  x1 g (I c) (fun q => A I 0 c g q 2) (fun q => R I 0 c g q 2)

/-- Group `g`'s output block on device `c`. -/
def outBlk (c : Dev nD) (g : Fin 4) : FVec F S1x256x768 .f32 :=
  outSite g (I c) (fun q => A I 0 c g q 2) (fun q => R I 0 c g q 2) (fun q => A I 1 c g q 2) (fun q => R I 1 c g q 2)

/-- The output window's final contents on device `c`: group `g`'s block sits at batch row `g / 2`, rows `256 (g % 2)` on. -/
def outC (c : Dev nD) : Vec F S2x512x768 .f32 := fun j =>
  have h0 : (j 0).val < 2 := (j 0).isLt
  have h1 : (j 1).val < 512 := (j 1).isLt
  have h2 : (j 2).val < 768 := (j 2).isLt
  outBlk I c ⟨2 * (j 0).val + (j 1).val / 256, by omega⟩
    (ix3 (0 : Fin 1) (⟨(j 1).val % 256, Nat.mod_lt _ (by decide)⟩ : Fin 256) (⟨(j 2).val, h2⟩ : Fin 768))

/-! ## The levels read at a literal round and step -/

theorem A_0_0 (c : Dev nD) (g : Fin 4) (p : Fin 3) : A I 0 c g p 0 = att0 g p (I c) := rfl
theorem A_0_1 (c : Dev nD) (g : Fin 4) (p : Fin 3) : A I 0 c g p 1 = step 0 g p 0 (A I 0 c g p 0) (R I 0 c g p 0) := rfl
theorem A_0_2 (c : Dev nD) (g : Fin 4) (p : Fin 3) : A I 0 c g p 2 = step 0 g p 1 (A I 0 c g p 1) (R I 0 c g p 1) := rfl
theorem A_1_0 (c : Dev nD) (g : Fin 4) (p : Fin 3) :
    A I 1 c g p 0 = mlp0 g p (I c) (fun q => A I 0 c g q 2) (fun q => R I 0 c g q 2) := rfl
theorem A_1_1 (c : Dev nD) (g : Fin 4) (p : Fin 3) : A I 1 c g p 1 = step 1 g p 0 (A I 1 c g p 0) (R I 1 c g p 0) := rfl
theorem A_1_2 (c : Dev nD) (g : Fin 4) (p : Fin 3) : A I 1 c g p 2 = step 1 g p 1 (A I 1 c g p 1) (R I 1 c g p 1) := rfl

/-- A step's add, at any round and step below the last. -/
theorem A_succ (r : Fin 2) (c : Dev nD) (g : Fin 4) (p : Fin 3) (s : Fin 2) :
    A I r c g p s.succ = step r g p s (A I r c g p s.castSucc) (R I r c g p s.castSucc) := by
  fin_cases r <;> fin_cases s <;> rfl

theorem R_eq (r : Fin 2) (c : Dev nD) (g : Fin 4) (p : Fin 3) (s : Fin 3) :
    R I r c g p s = toRs (A I r (partner p s c) g p s) := rfl

theorem x1C_eq (c : Dev nD) (g : Fin 4) :
    x1C I c g = x1 g (I c) (fun q => A I 0 c g q 2) (fun q => R I 0 c g q 2) := rfl

theorem outBlk_eq (c : Dev nD) (g : Fin 4) :
    outBlk I c g = outSite g (I c) (fun q => A I 0 c g q 2) (fun q => R I 0 c g q 2)
      (fun q => A I 1 c g q 2) (fun q => R I 1 c g q 2) := rfl

/-- The output window read at an index of group `g`'s block. -/
theorem outC_apply (c : Dev nD) (b : Fin 2) (h : Fin 2) (i : Fin 256) (k : Fin 768) :
    outC I c (ix3 b (⟨256 * h.val + i.val, by omega⟩ : Fin 512) k)
      = outBlk I c ⟨2 * b.val + h.val, by omega⟩ (ix3 (0 : Fin 1) i k) := by
  unfold outC
  have e1 : (256 * h.val + i.val) / 256 = h.val := by omega
  have e2 : (256 * h.val + i.val) % 256 = i.val := by omega
  simp only [ix3, e1, e2, Fin.eta]

end Cert.KernelIdeal.Vals
-- ==== Proof.Assemble.lean ====
/-
  The value conjunct assembled: from memories in which each of the eight devices holds its part of the one-device
  program's nine arrays, both programs run and every device's result is the one-device program's.
  The pieces: the one-device program's run and its result as the specification; the eight-device program's run and its
  result as the kernel's formula of the whole arrays; under the precondition every entry is real; on real arrays the
  kernel's formula is the specification.
-/
import proofs.«900775_g7700000000000776_dist_diff_dit_htp_i_b2_s512_d768_hq4_v7x_i8_f32_1_alg».proof.Defs
import proofs.«900775_g7700000000000776_dist_diff_dit_htp_i_b2_s512_d768_hq4_v7x_i8_f32_1_alg».proof.Proof.PreReal
import proofs.«900775_g7700000000000776_dist_diff_dit_htp_i_b2_s512_d768_hq4_v7x_i8_f32_1_alg».proof.Proof.KSpec
import proofs.«900775_g7700000000000776_dist_diff_dit_htp_i_b2_s512_d768_hq4_v7x_i8_f32_1_alg».proof.Proof.KIns
import proofs.«900775_g7700000000000776_dist_diff_dit_htp_i_b2_s512_d768_hq4_v7x_i8_f32_1_alg».proof.Proof.Vals

noncomputable section

namespace Cert.Assemble

open Idealize.ShloMosaic Idealize.ShloMosaic.ValueIdx Idealize.SL.Sem Cert.Math Cert.KSpec Cert.KIns

/-- A memory of the eight-device program. -/
abbrev KMem : Type := (ℓ : Loc Cert.KernelIdeal.nD Cert.KernelIdeal.τ Cert.KernelIdeal.sig) → Buf (Elt Ideal) ℓ
/-- A memory of the one-device program. -/
abbrev RMem : Type := (ℓ : Loc Cert.ReferenceIdeal.nD Cert.ReferenceIdeal.τ Cert.ReferenceIdeal.sig) → Buf (Elt Ideal) ℓ

/-- The nine whole argument arrays, as the one-device program's memory holds them. -/
def inputsOf (m' : RMem) : Cert.Spec.Inputs where
  x := (m' (((0 : Dev Cert.ReferenceIdeal.nD).tc : Thread Cert.ReferenceIdeal.nD Cert.ReferenceIdeal.τ).loc Cert.ReferenceIdeal.main_arg0))
  Wq := (m' (((0 : Dev Cert.ReferenceIdeal.nD).tc : Thread Cert.ReferenceIdeal.nD Cert.ReferenceIdeal.τ).loc Cert.ReferenceIdeal.main_arg1))
  Wk := (m' (((0 : Dev Cert.ReferenceIdeal.nD).tc : Thread Cert.ReferenceIdeal.nD Cert.ReferenceIdeal.τ).loc Cert.ReferenceIdeal.main_arg2))
  Wv := (m' (((0 : Dev Cert.ReferenceIdeal.nD).tc : Thread Cert.ReferenceIdeal.nD Cert.ReferenceIdeal.τ).loc Cert.ReferenceIdeal.main_arg3))
  Wo := (m' (((0 : Dev Cert.ReferenceIdeal.nD).tc : Thread Cert.ReferenceIdeal.nD Cert.ReferenceIdeal.τ).loc Cert.ReferenceIdeal.main_arg4))
  temb := (m' (((0 : Dev Cert.ReferenceIdeal.nD).tc : Thread Cert.ReferenceIdeal.nD Cert.ReferenceIdeal.τ).loc Cert.ReferenceIdeal.main_arg5))
  Wmod := (m' (((0 : Dev Cert.ReferenceIdeal.nD).tc : Thread Cert.ReferenceIdeal.nD Cert.ReferenceIdeal.τ).loc Cert.ReferenceIdeal.main_arg6))
  Wff1 := (m' (((0 : Dev Cert.ReferenceIdeal.nD).tc : Thread Cert.ReferenceIdeal.nD Cert.ReferenceIdeal.τ).loc Cert.ReferenceIdeal.main_arg7))
  Wff2 := (m' (((0 : Dev Cert.ReferenceIdeal.nD).tc : Thread Cert.ReferenceIdeal.nD Cert.ReferenceIdeal.τ).loc Cert.ReferenceIdeal.main_arg8))

/-- Device `c`'s nine argument buffers, as the eight-device program's memory holds them. -/
def insOf (m : KMem) (c : Dev Cert.KernelIdeal.nD) : Cert.KernelIdeal.Vals.Ins Ideal where
  w0 := (m ((c.tc : Thread Cert.KernelIdeal.nD Cert.KernelIdeal.τ).loc Cert.KernelIdeal.main_arg0))
  w1 := (m ((c.tc : Thread Cert.KernelIdeal.nD Cert.KernelIdeal.τ).loc Cert.KernelIdeal.main_arg1))
  w2 := (m ((c.tc : Thread Cert.KernelIdeal.nD Cert.KernelIdeal.τ).loc Cert.KernelIdeal.main_arg2))
  w3 := (m ((c.tc : Thread Cert.KernelIdeal.nD Cert.KernelIdeal.τ).loc Cert.KernelIdeal.main_arg3))
  w4 := (m ((c.tc : Thread Cert.KernelIdeal.nD Cert.KernelIdeal.τ).loc Cert.KernelIdeal.main_arg4))
  w5 := (m ((c.tc : Thread Cert.KernelIdeal.nD Cert.KernelIdeal.τ).loc Cert.KernelIdeal.main_arg5))
  w6 := (m ((c.tc : Thread Cert.KernelIdeal.nD Cert.KernelIdeal.τ).loc Cert.KernelIdeal.main_arg6))
  w7 := (m ((c.tc : Thread Cert.KernelIdeal.nD Cert.KernelIdeal.τ).loc Cert.KernelIdeal.main_arg7))
  w8 := (m ((c.tc : Thread Cert.KernelIdeal.nD Cert.KernelIdeal.τ).loc Cert.KernelIdeal.main_arg8))

/-- Each device's argument buffers hold their part of the whole arrays: a copy, or block `c`. -/
def Agrees (m : KMem) (m' : RMem) : Prop :=
  ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg8))

/-- Under the agreement a device's buffers are the blocks cut from the whole arrays. -/
theorem insOf_eq (m : KMem) (m' : RMem) (h : Agrees m m') (c : Dev Cert.KernelIdeal.nD) : insOf m c = insA (inputsOf m') c := by
  obtain ⟨h0, h1, h2, h3, h4, h5, h6, h7, h8⟩ := h c
  unfold insOf insA inputsOf
  congr 1

variable [Cert.KernelIdeal.Facts] [Cert.ReferenceIdeal.Facts] [Cert.Pre_finite_inputs_Kernel.Facts]

/-- Under the precondition on every device's buffers and the agreement, every entry of every whole array is real:
    it is an entry of some device's block. -/
theorem realInputs (m : KMem) (m' : RMem) (hpre : Cert.Pre_KernelIdeal m) (h : Agrees m m') :
    RealInputs (inputsOf m') := by
  have hI : ∀ c, insOf m c = insA (inputsOf m') c := insOf_eq m m' h
  have hR := fun c => Cert.PreReal.realArgs_of_pre m hpre c
  -- a replicated array is device 0's buffer
  have rep0 : ∀ i, IsReal ((inputsOf m').x i) := fun i => by
    have := (hR 0).arg0 i; rw [show (m (((0 : Dev Cert.KernelIdeal.nD).tc : Thread Cert.KernelIdeal.nD Cert.KernelIdeal.τ).loc Cert.KernelIdeal.main_arg0)) = (insOf m 0).w0 from rfl, hI 0] at this; exact this
  have rep5 : ∀ i, IsReal ((inputsOf m').temb i) := fun i => by
    have := (hR 0).arg5 i; rw [show (m (((0 : Dev Cert.KernelIdeal.nD).tc : Thread Cert.KernelIdeal.nD Cert.KernelIdeal.τ).loc Cert.KernelIdeal.main_arg5)) = (insOf m 0).w5 from rfl, hI 0] at this; exact this
  have rep6 : ∀ i, IsReal ((inputsOf m').Wmod i) := fun i => by
    have := (hR 0).arg6 i; rw [show (m (((0 : Dev Cert.KernelIdeal.nD).tc : Thread Cert.KernelIdeal.nD Cert.KernelIdeal.τ).loc Cert.KernelIdeal.main_arg6)) = (insOf m 0).w6 from rfl, hI 0] at this; exact this
  -- a column of a column-cut array, a row of a row-cut array, is some device's
  have colsReal : ∀ (W : Cert.Spec.T2 768 3072) (w : Cert.KernelIdeal.Vals.Ins Ideal → Vec Ideal Cert.KernelIdeal.S768x384 .f32),
      (∀ c k j, w (insA (inputsOf m') c) (ix2 k j) = W (ix2 k (col c j))) →
      (∀ c i, IsReal (w (insOf m c) i)) → ∀ i, IsReal (W i) := fun W w hw hr i => by
    obtain ⟨k, cc, rfl⟩ : ∃ (k : Fin 768) (cc : Fin 3072), i = ix2 k cc := ⟨i 0, i 1, eq_ix2 i⟩
    have e := hw ⟨cc.val / 384, by omega⟩ k ⟨cc.val % 384, by omega⟩
    rw [col_div_mod cc, ← hI] at e
    rw [← e]; exact hr _ _
  have rowsReal : ∀ (W : Cert.Spec.T2 3072 768) (w : Cert.KernelIdeal.Vals.Ins Ideal → Vec Ideal Cert.KernelIdeal.S384x768 .f32),
      (∀ c k d, w (insA (inputsOf m') c) (ix2 k d) = W (ix2 (col c k) d)) →
      (∀ c i, IsReal (w (insOf m c) i)) → ∀ i, IsReal (W i) := fun W w hw hr i => by
    obtain ⟨cc, d, rfl⟩ : ∃ (cc : Fin 3072) (d : Fin 768), i = ix2 cc d := ⟨i 0, i 1, eq_ix2 i⟩
    have e := hw ⟨cc.val / 384, by omega⟩ ⟨cc.val % 384, by omega⟩ d
    rw [col_div_mod cc, ← hI] at e
    rw [← e]; exact hr _ _
  exact ⟨rep0,
    colsReal _ (·.w1) (insA_w1 _) fun c i => (hR c).arg1 i,
    colsReal _ (·.w2) (insA_w2 _) fun c i => (hR c).arg2 i,
    colsReal _ (·.w3) (insA_w3 _) fun c i => (hR c).arg3 i,
    rowsReal _ (·.w4) (insA_w4 _) fun c i => (hR c).arg4 i,
    rep5, rep6,
    colsReal _ (·.w7) (insA_w7 _) fun c i => (hR c).arg7 i,
    rowsReal _ (·.w8) (insA_w8 _) fun c i => (hR c).arg8 i⟩

/-- THE VALUE CONJUNCT, from: the one-device program's run, whose result is `refOut` of its nine arrays; `refOut` is
    the specification; the eight-device program's run, whose result on device `c` is `outC` of the devices' buffers;
    and `outC` of the blocks cut from whole arrays is the kernel's formula of the whole arrays. -/
theorem algebraic
    (refOut : Vec Ideal Cert.ReferenceIdeal.S2x512x768 .f32 → Vec Ideal Cert.ReferenceIdeal.S768x3072 .f32 → Vec Ideal Cert.ReferenceIdeal.S768x3072 .f32 →
      Vec Ideal Cert.ReferenceIdeal.S768x3072 .f32 → Vec Ideal Cert.ReferenceIdeal.S3072x768 .f32 → Vec Ideal Cert.ReferenceIdeal.S2x128 .f32 →
      Vec Ideal Cert.ReferenceIdeal.S128x4608 .f32 → Vec Ideal Cert.ReferenceIdeal.S768x3072 .f32 → Vec Ideal Cert.ReferenceIdeal.S3072x768 .f32 →
      Vec Ideal Cert.ReferenceIdeal.S2x512x768 .f32)
    (hrefrun : ∀ (m' : RMem) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ (fun r =>
        r.2.mem (((0 : Dev Cert.ReferenceIdeal.nD).tc : Thread Cert.ReferenceIdeal.nD Cert.ReferenceIdeal.τ).loc Cert.ReferenceIdeal.main_v96)
            = refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) (m' (((0 : Dev Cert.ReferenceIdeal.nD).tc : Thread Cert.ReferenceIdeal.nD Cert.ReferenceIdeal.τ).loc Cert.ReferenceIdeal.main_arg8))
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
        ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
        ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
        ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
        ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
        ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
        ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
        ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)))
    (hrefval : ∀ a0 a1 a2 a3 a4 a5 a6 a7 a8, refOut a0 a1 a2 a3 a4 a5 a6 a7 a8 = Cert.Spec.out a0 a1 a2 a3 a4 a5 a6 a7 a8)
    (hrun : ∀ (m : KMem) (ρ : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, ρ⟩ (fun r =>
        ∀ c : Dev Cert.KernelIdeal.nD,
          r.2.mem ((c.tc : Thread Cert.KernelIdeal.nD Cert.KernelIdeal.τ).loc Cert.KernelIdeal.main_v1) = Cert.KernelIdeal.Vals.outC (insOf m) c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)))
    (hK : ∀ A : Cert.Spec.Inputs, RealInputs A → ∀ (c : Dev Cert.KernelIdeal.nD) (b : Fin 2) (s : Fin 512) (d : Fin 768),
      Cert.KernelIdeal.Vals.outC (fun c => insA A c) c (ix3 b s d) = outK A b s d) :
    Cert.algebraic_KernelIdeal_ReferenceIdeal := by
  intro m g m' g' hpre hagree
  have hreal : RealInputs (inputsOf m') := realInputs m m' hpre hagree
  have hI : insOf m = fun c => insA (inputsOf m') c := funext (insOf_eq m m' hagree)
  refine ⟨refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) (m' (((0 : Dev Cert.ReferenceIdeal.nD).tc : Thread Cert.ReferenceIdeal.nD Cert.ReferenceIdeal.τ).loc Cert.ReferenceIdeal.main_arg8)), ?_, hrefrun m' g'⟩
  refine (θ_run _ _ _).mono (fun r h c => ⟨?_, (h c).2⟩) (hrun m g hpre)
  rw [(h c).1, hI, hrefval]
  funext i
  obtain ⟨b, s, d, rfl⟩ : ∃ (b : Fin 2) (s : Fin 512) (d : Fin 768), i = ix3 b s d := ⟨i 0, i 1, i 2, eq_ix3 i⟩
  rw [hK _ hreal, kspec_eq_spec hreal]
  exact (Cert.Spec.out_ix3 _ _ _ _ _ _ _ _ _ b s d).symm

/-- info: 'Cert.Assemble.algebraic' depends on axioms: [propext, Classical.choice, Quot.sound] -/
#guard_msgs in #print axioms algebraic

end Cert.Assemble

end
-- ==== Proof.Vals.Add.lean ====
import proofs.«900775_g7700000000000776_dist_diff_dit_htp_i_b2_s512_d768_hq4_v7x_i8_f32_1_alg».proof.Proof.Vals

/-! The add of every exchange step as ONE function of the two slices: each site's own payloads unfold to it. -/

noncomputable section

namespace Cert.KernelIdeal.Vals

open Idealize.ShloMosaic Cert.KernelIdeal Cert.KernelIdeal.Gen Cert.KernelIdeal.Mesh

variable {F : FTy → Type} [FloatOps F]

/-- The add every exchange step performs: the two slices as 256 × 256 matrices, added, under the accumulator slice's shape. -/
def addSl (a : Acc F) (b : Rs F) : Acc F :=
  shapeCast S1x1x256x256
    (addf (shapeCast S256x256 a shapeCasts_S1x1x256x256_S256x256 : FVec F S256x256 .bf16)
      (shapeCast S256x256 b shapeCasts_S1x1x1x256x256_S256x256 : FVec F S256x256 .bf16))
    shapeCasts_S256x256_S1x1x256x256

/-- Every site's add is that one function. -/
theorem step_eq_addSl (r : Fin 2) (g : Fin 4) (p : Fin 3) (s : Fin 2) (a : Acc F) (b : Rs F) :
    step r g p s a b = addSl a b := by
  fin_cases r <;> fin_cases g <;> fin_cases p <;> fin_cases s <;> rfl

/-- The levels as one recursion: each exchange adds the partner's slice of the level before. -/
theorem A_succ_addSl (I : Dev nD → Ins F) (r : Fin 2) (c : Dev nD) (g : Fin 4) (p : Fin 3) (s : Fin 2) :
    A I r c g p s.succ = addSl (A I r c g p s.castSucc) (toRs (A I r (partner p s.castSucc c) g p s.castSucc)) := by
  rw [A_succ, step_eq_addSl, R_eq]

/-- info: 'Cert.KernelIdeal.Vals.A_succ_addSl' depends on axioms: [propext, Classical.choice, Quot.sound] -/
#guard_msgs in #print axioms A_succ_addSl

end Cert.KernelIdeal.Vals
-- ==== Proof.MathAllReduce.lean ====
/-
  Pure mathematics, independent of any program: three exchange stages over eight places.
  At every stage each place adds to its own value the value held by its partner.  When the
  three partner maps, each applied or not, reach every place exactly once from every start
  (as the exclusive-or maps by the masks 1, 3, 4 do, in any order, because these three masks
  are a basis of the three-bit vectors), every place ends with the sum over all eight.
-/
import Mathlib.Algebra.BigOperators.Fin
import Mathlib.Algebra.BigOperators.Group.Finset.Basic
import Mathlib.Data.Fintype.BigOperators
import Mathlib.Data.Fintype.Prod

namespace Cert.Math

open scoped BigOperators

/-- Bitwise exclusive or of two places among eight (three-bit vectors). -/
def xr (d a : Fin 8) : Fin 8 :=
  ⟨d.val ^^^ a.val, Nat.xor_lt_two_pow (n := 3) d.isLt a.isLt⟩

@[simp] theorem xr_val (d a : Fin 8) : (xr d a).val = d.val ^^^ a.val := rfl

theorem xr_zero (d : Fin 8) : xr d 0 = d := by revert d; decide

/-- Exclusive or by a fixed mask is an involution: the partner's partner is oneself. -/
theorem xr_xr_cancel (d a : Fin 8) : xr (xr d a) a = d := by revert d a; decide

theorem xr_comm (d a : Fin 8) : xr d a = xr a d := by revert d a; decide

/-- A partner map applied (bit 1) or not (bit 0). -/
def opt (σ : Fin 8 → Fin 8) (ε : Fin 2) (d : Fin 8) : Fin 8 := if ε = 0 then d else σ d

@[simp] theorem opt_zero (σ : Fin 8 → Fin 8) (d : Fin 8) : opt σ 0 d = d := rfl
@[simp] theorem opt_one (σ : Fin 8 → Fin 8) (d : Fin 8) : opt σ 1 d = σ d := rfl

/-- The three partner maps reach every place exactly once from every start. -/
def Spans (σ₁ σ₂ σ₃ : Fin 8 → Fin 8) : Prop :=
  ∀ d : Fin 8, Function.Bijective fun p : Fin 2 × Fin 2 × Fin 2 =>
    opt σ₁ p.2.2 (opt σ₂ p.2.1 (opt σ₃ p.1 d))

section
variable {M : Type*} [AddCommMonoid M]

/-- One exchange stage with partner map `σ`: every place adds its partner's value to its own. -/
def stage (σ : Fin 8 → Fin 8) (x : Fin 8 → M) : Fin 8 → M := fun d => x d + x (σ d)

theorem stage_apply (σ : Fin 8 → Fin 8) (x : Fin 8 → M) (d : Fin 8) : stage σ x d = x d + x (σ d) := rfl

/-- A stage is the sum over the two choices "stay" and "go to the partner". -/
theorem stage_eq_sum (σ : Fin 8 → Fin 8) (x : Fin 8 → M) (d : Fin 8) :
    stage σ x d = ∑ ε : Fin 2, x (opt σ ε d) := by
  rw [Fin.sum_univ_two, opt_zero, opt_one, stage_apply]

/-- THE ALL-REDUCE. Three stages whose partner maps span the eight places leave at every place
    the sum of the eight starting values. -/
theorem stage3_eq_sum (σ₁ σ₂ σ₃ : Fin 8 → Fin 8) (h : Spans σ₁ σ₂ σ₃) (f : Fin 8 → M) (d : Fin 8) :
    stage σ₃ (stage σ₂ (stage σ₁ f)) d = ∑ e, f e := by
  rw [← (h d).sum_comp f]
  simp only [stage_eq_sum, Fintype.sum_prod_type]

/-- The same from the three step equations, as a run states them: `x₁ d = x₀ d + x₀ (σ₁ d)` and so on. -/
theorem allreduce_of_steps (σ₁ σ₂ σ₃ : Fin 8 → Fin 8) (h : Spans σ₁ σ₂ σ₃) (x₀ x₁ x₂ x₃ : Fin 8 → M)
    (h₁ : ∀ d, x₁ d = x₀ d + x₀ (σ₁ d)) (h₂ : ∀ d, x₂ d = x₁ d + x₁ (σ₂ d))
    (h₃ : ∀ d, x₃ d = x₂ d + x₂ (σ₃ d)) (d : Fin 8) : x₃ d = ∑ e, x₀ e := by
  have e₁ : x₁ = stage σ₁ x₀ := funext h₁
  have e₂ : x₂ = stage σ₂ x₁ := funext h₂
  have e₃ : x₃ = stage σ₃ x₂ := funext h₃
  rw [e₃, e₂, e₁]; exact stage3_eq_sum σ₁ σ₂ σ₃ h x₀ d

end

/-! ### The masks 1, 3, 4 in every order -/

theorem spans_134 : Spans (xr · 1) (xr · 3) (xr · 4) := by unfold Spans; decide
theorem spans_143 : Spans (xr · 1) (xr · 4) (xr · 3) := by unfold Spans; decide
theorem spans_314 : Spans (xr · 3) (xr · 1) (xr · 4) := by unfold Spans; decide
theorem spans_341 : Spans (xr · 3) (xr · 4) (xr · 1) := by unfold Spans; decide
theorem spans_413 : Spans (xr · 4) (xr · 1) (xr · 3) := by unfold Spans; decide
theorem spans_431 : Spans (xr · 4) (xr · 3) (xr · 1) := by unfold Spans; decide

section
variable {M : Type*} [AddCommMonoid M]

/-- Stages by the masks 1, 3, 4 in this order (first stage 1, then 3, then 4). -/
theorem allreduce_134 (f : Fin 8 → M) (d : Fin 8) :
    stage (xr · 4) (stage (xr · 3) (stage (xr · 1) f)) d = ∑ e, f e := stage3_eq_sum _ _ _ spans_134 f d
/-- Stages by the masks 3, 4, 1 in this order. -/
theorem allreduce_341 (f : Fin 8 → M) (d : Fin 8) :
    stage (xr · 1) (stage (xr · 4) (stage (xr · 3) f)) d = ∑ e, f e := stage3_eq_sum _ _ _ spans_341 f d
/-- Stages by the masks 4, 1, 3 in this order. -/
theorem allreduce_413 (f : Fin 8 → M) (d : Fin 8) :
    stage (xr · 3) (stage (xr · 1) (stage (xr · 4) f)) d = ∑ e, f e := stage3_eq_sum _ _ _ spans_413 f d
theorem allreduce_143 (f : Fin 8 → M) (d : Fin 8) :
    stage (xr · 3) (stage (xr · 4) (stage (xr · 1) f)) d = ∑ e, f e := stage3_eq_sum _ _ _ spans_143 f d
theorem allreduce_314 (f : Fin 8 → M) (d : Fin 8) :
    stage (xr · 4) (stage (xr · 1) (stage (xr · 3) f)) d = ∑ e, f e := stage3_eq_sum _ _ _ spans_314 f d
theorem allreduce_431 (f : Fin 8 → M) (d : Fin 8) :
    stage (xr · 1) (stage (xr · 3) (stage (xr · 4) f)) d = ∑ e, f e := stage3_eq_sum _ _ _ spans_431 f d

end

/-- info: 'Cert.Math.allreduce_of_steps' depends on axioms: [propext, Classical.choice, Quot.sound] -/
#guard_msgs in #print axioms Cert.Math.allreduce_of_steps

/-- info: 'Cert.Math.allreduce_134' depends on axioms: [propext, Classical.choice, Quot.sound] -/
#guard_msgs in #print axioms Cert.Math.allreduce_134

end Cert.Math
-- ==== Proof.KValue.Reduce.lean ====
import proofs.«900775_g7700000000000776_dist_diff_dit_htp_i_b2_s512_d768_hq4_v7x_i8_f32_1_alg».proof.Proof.Vals.Add
import proofs.«900775_g7700000000000776_dist_diff_dit_htp_i_b2_s512_d768_hq4_v7x_i8_f32_1_alg».proof.Proof.MathAllReduce
import Idealize.ShloMosaic.Lib.ValueIdx
import Idealize.ShloMosaic.Lib.Pipeline.Value

/-! The exchange of partial products across the eight devices, read at an index over the extended reals.

    Every exchange step adds, entry by entry, the partner's slice to the own slice. After the three steps of a round every
    device's slice plus the last partner's is, at every entry, the sum over the eight devices of what they first stored:
    the three partners of a part are the devices across the three masks, which span the cube. The sums are formed in a
    different order on different devices; over the extended reals the result is the same. -/

noncomputable section

open scoped BigOperators

namespace Cert.KValue

open Idealize.ShloMosaic Cert.KernelIdeal Cert.KernelIdeal.Gen Cert.KernelIdeal.Mesh Cert.KernelIdeal.Vals
open Idealize.ShloMosaic.ValueIdx

/-! ## A slice as a 256 × 256 matrix -/

/-- An accumulator slice viewed as a matrix reads entry `(i, j)` at `(0, 0, i, j)`. -/
theorem cast_acc_at (a : Acc Ideal) (i j : Fin 256) :
    (shapeCast S256x256 a shapeCasts_S1x1x256x256_S256x256 : FVec Ideal S256x256 .bf16) (ix2 i j) = a (ix4 0 0 i j) := by
  refine shapeCast_apply a _ (ix2 i j) (ix4 0 0 i j) ?_
  rw [Shape.rowMajor_val_four, Shape.rowMajor_val_two]
  simp [ix4, ix2]

/-- A receive slice viewed as a matrix reads entry `(i, j)` at `(0, 0, 0, i, j)`. -/
theorem cast_rs_at (b : Rs Ideal) (i j : Fin 256) :
    (shapeCast S256x256 b shapeCasts_S1x1x1x256x256_S256x256 : FVec Ideal S256x256 .bf16) (ix2 i j) = b (ix5 0 0 0 i j) := by
  refine shapeCast_apply b _ (ix2 i j) (ix5 0 0 0 i j) ?_
  rw [Shape.rowMajor_val_five, Shape.rowMajor_val_two]
  simp [ix5, ix2]

/-- A matrix stored as an accumulator slice reads `(0, 0, i, j)` at `(i, j)`. -/
theorem cast_mat_at (x : FVec Ideal S256x256 .bf16) (i j : Fin 256) :
    (shapeCast S1x1x256x256 x shapeCasts_S256x256_S1x1x256x256 : Acc Ideal) (ix4 0 0 i j) = x (ix2 i j) := by
  refine shapeCast_apply x _ (ix4 0 0 i j) (ix2 i j) ?_
  rw [Shape.rowMajor_val_four, Shape.rowMajor_val_two]
  simp [ix4, ix2]

/-- A landed copy of an accumulator slice reads, entry by entry, what the slice held. -/
theorem toRs_at (a : Acc Ideal) (i j : Fin 256) : toRs a (ix5 0 0 0 i j) = a (ix4 0 0 i j) := by
  unfold toRs
  refine shapeCast_apply a _ (ix5 0 0 0 i j) (ix4 0 0 i j) ?_
  rw [Shape.rowMajor_val_five, Shape.rowMajor_val_four]
  simp [ix5, ix4]

/-- The sum of an own and a received slice, as the body forms it inside every payload that reads the two: entry by entry. -/
theorem add_casts_at (a : Acc Ideal) (b : Rs Ideal) (i j : Fin 256) :
    (addf (shapeCast S256x256 a shapeCasts_S1x1x256x256_S256x256 : FVec Ideal S256x256 .bf16)
        (shapeCast S256x256 b shapeCasts_S1x1x1x256x256_S256x256 : FVec Ideal S256x256 .bf16)) (ix2 i j)
      = (a (ix4 0 0 i j) + b (ix5 0 0 0 i j) : EReal) := by
  rw [addf_apply, cast_acc_at, cast_rs_at]

/-- An exchange step's add, entry by entry. -/
theorem addSl_at (a : Acc Ideal) (b : Rs Ideal) (i j : Fin 256) :
    addSl a b (ix4 0 0 i j) = (a (ix4 0 0 i j) + b (ix5 0 0 0 i j) : EReal) := by
  unfold addSl
  rw [cast_mat_at, add_casts_at]

/-! ## The three partners of a part span the eight devices -/

theorem spans_partner (p : Fin 3) : Cert.Math.Spans (partner p 0) (partner p 1) (partner p 2) := by
  unfold Cert.Math.Spans
  revert p
  decide

/-! ## The all-reduce -/

variable (I : Dev nD → Ins Ideal)

/-- Entry `(i, j)` of part `p` of group `g` after round `r`'s three exchanges, as every reader of the two last slices forms
    it: the own slice's entry plus the last received slice's. -/
def full (r : Fin 2) (c : Dev nD) (g : Fin 4) (p : Fin 3) (i j : Fin 256) : EReal :=
  A I r c g p 2 (ix4 0 0 i j) + R I r c g p 2 (ix5 0 0 0 i j)

/-- One exchange, entry by entry: the own entry plus the partner's. -/
theorem A_succ_at (r : Fin 2) (c : Dev nD) (g : Fin 4) (p : Fin 3) (s : Fin 2) (i j : Fin 256) :
    A I r c g p s.succ (ix4 0 0 i j)
      = (A I r c g p s.castSucc (ix4 0 0 i j) + A I r (partner p s.castSucc c) g p s.castSucc (ix4 0 0 i j) : EReal) := by
  rw [A_succ_addSl, addSl_at, toRs_at]

/-- THE ALL-REDUCE: on every device the entry is the sum over the eight devices of the entries first stored. -/
theorem full_eq_sum (r : Fin 2) (c : Dev nD) (g : Fin 4) (p : Fin 3) (i j : Fin 256) :
    full I r c g p i j = ∑ e : Dev nD, (A I r e g p 0 (ix4 0 0 i j) : EReal) := by
  refine Cert.Math.allreduce_of_steps (M := EReal) (partner p 0) (partner p 1) (partner p 2) (spans_partner p)
    (fun e => A I r e g p 0 (ix4 0 0 i j)) (fun e => A I r e g p 1 (ix4 0 0 i j)) (fun e => A I r e g p 2 (ix4 0 0 i j))
    (fun e => full I r e g p i j) ?_ ?_ ?_ c
  · intro d; exact A_succ_at I r d g p 0 i j
  · intro d; exact A_succ_at I r d g p 1 i j
  · intro d
    show full I r d g p i j = _
    unfold full
    rw [R_eq, toRs_at]

/-- info: 'Cert.KValue.full_eq_sum' depends on axioms: [propext, Classical.choice, Quot.sound] -/
#guard_msgs in #print axioms full_eq_sum

end Cert.KValue

end
-- ==== Proof.KValue.Out.lean ====
import proofs.«900775_g7700000000000776_dist_diff_dit_htp_i_b2_s512_d768_hq4_v7x_i8_f32_1_alg».proof.Proof.KValue.Reduce
import proofs.«900775_g7700000000000776_dist_diff_dit_htp_i_b2_s512_d768_hq4_v7x_i8_f32_1_alg».proof.Proof.KIns

/-! The output window's final contents on every device, read at an index, against the kernel-shaped formula.

    Group `g` of four is batch entry `g / 2`, rows `256 (g % 2)` on; part `p` of three is columns `256 p` on. At an entry of
    group `g`, part `p`, the residual stream after attention is the input plus the attention gate times the sum over the
    eight devices of their partial attention products, and the output is that plus the feed-forward gate times the sum over
    the eight devices of their partial feed-forward products. -/

noncomputable section

open scoped BigOperators

namespace Cert.KValue

open Idealize.ShloMosaic Cert.KernelIdeal Cert.KernelIdeal.Gen Cert.KernelIdeal.Mesh Cert.KernelIdeal.Vals
open Idealize.ShloMosaic.ValueIdx

/-! ## Coordinates of a group and of a part -/

/-- Column `j` of part `p` among the 768 columns. -/
abbrev pcol (p : Fin 3) (j : Fin 256) : Fin 768 := ⟨256 * p.val + j.val, by omega⟩
/-- Group `g`'s batch entry. -/
abbrev gB (g : Fin 4) : Fin 2 := ⟨g.val / 2, by omega⟩
/-- Row `r` of group `g` among the 512 rows of its batch entry. -/
abbrev gRow (g : Fin 4) (r : Fin 256) : Fin 512 := ⟨256 * (g.val % 2) + r.val, by omega⟩

/-! ## What the two kinds of reading site compute, entry by entry -/

/-- The residual-stream site of every group: the input's entry plus the attention gate's entry times the entry of the own
    last slice plus the last received slice. -/
def X1Site : Prop :=
  ∀ (g : Fin 4) (i : Ins Ideal) (a : Fin 3 → Acc Ideal) (b : Fin 3 → Rs Ideal) (r : Fin 256) (p : Fin 3) (j : Fin 256),
    x1 g i a b (ix2 r (pcol p j))
      = (i.w0 (ix3 (gB g) (gRow g r) (pcol p j))
          + v22 i (ix2 (gB g) (pcol p j)) * (a p (ix4 0 0 r j) + b p (ix5 0 0 0 r j)) : EReal)

/-- The output site of every group: the residual stream's entry plus the feed-forward gate's entry times the entry of round
    1's own last slice plus its last received slice. -/
def OutSiteAt : Prop :=
  ∀ (g : Fin 4) (i : Ins Ideal) (a : Fin 3 → Acc Ideal) (b : Fin 3 → Rs Ideal) (a' : Fin 3 → Acc Ideal) (b' : Fin 3 → Rs Ideal)
    (r : Fin 256) (p : Fin 3) (j : Fin 256),
    outSite g i a b a' b' (ix3 (0 : Fin 1) r (pcol p j))
      = (x1 g i a b (ix2 r (pcol p j))
          + v25 i (ix2 (gB g) (pcol p j)) * (a' p (ix4 0 0 r j) + b' p (ix5 0 0 0 r j)) : EReal)

section Mesh
variable (I : Dev nD → Ins Ideal)

/-- The residual stream after attention on device `c`, at an entry: the input plus the gate times the sum over the eight
    devices of the entries they first stored. The same on every device. -/
theorem x1C_at (hx1 : X1Site) (c : Dev nD) (g : Fin 4) (r : Fin 256) (p : Fin 3) (j : Fin 256) :
    x1C I c g (ix2 r (pcol p j))
      = ((I c).w0 (ix3 (gB g) (gRow g r) (pcol p j))
          + v22 (I c) (ix2 (gB g) (pcol p j)) * ∑ e : Dev nD, (A I 0 e g p 0 (ix4 0 0 r j) : EReal) : EReal) := by
  rw [x1C_eq, hx1, ← full_eq_sum I 0 c g p r j]
  rfl

/-- Group `g`'s output block on device `c`, at an entry. -/
theorem outBlk_at (ho : OutSiteAt) (c : Dev nD) (g : Fin 4) (r : Fin 256) (p : Fin 3) (j : Fin 256) :
    outBlk I c g (ix3 (0 : Fin 1) r (pcol p j))
      = (x1C I c g (ix2 r (pcol p j))
          + v25 (I c) (ix2 (gB g) (pcol p j)) * ∑ e : Dev nD, (A I 1 e g p 0 (ix4 0 0 r j) : EReal) : EReal) := by
  rw [outBlk_eq, ho, ← full_eq_sum I 1 c g p r j, x1C_eq]
  rfl

/-- The output window on device `c`, at the entry of batch entry `b`, half `h`, row `r`, part `p`, column `j`. -/
theorem outC_at (hx1 : X1Site) (ho : OutSiteAt) (c : Dev nD) (b : Fin 2) (h : Fin 2) (r : Fin 256) (p : Fin 3) (j : Fin 256) :
    outC I c (ix3 b (⟨256 * h.val + r.val, by omega⟩ : Fin 512) (pcol p j))
      = (((I c).w0 (ix3 b (⟨256 * h.val + r.val, by omega⟩ : Fin 512) (pcol p j))
            + v22 (I c) (ix2 b (pcol p j))
              * ∑ e : Dev nD, (A I 0 e (⟨2 * b.val + h.val, by omega⟩ : Fin 4) p 0 (ix4 0 0 r j) : EReal))
          + v25 (I c) (ix2 b (pcol p j))
              * ∑ e : Dev nD, (A I 1 e (⟨2 * b.val + h.val, by omega⟩ : Fin 4) p 0 (ix4 0 0 r j) : EReal) : EReal) := by
  rw [outC_apply, outBlk_at I ho, x1C_at I hx1]
  have e1 : gB (⟨2 * b.val + h.val, by omega⟩ : Fin 4) = b := Fin.ext (by show (2 * b.val + h.val) / 2 = b.val; omega)
  have e2 : gRow (⟨2 * b.val + h.val, by omega⟩ : Fin 4) r = (⟨256 * h.val + r.val, by omega⟩ : Fin 512) :=
    Fin.ext (by show 256 * ((2 * b.val + h.val) % 2) + r.val = 256 * h.val + r.val; omega)
  rw [e1, e2]

end Mesh

/-! ## Against the kernel-shaped formula -/

open Cert.Spec Cert.KSpec Cert.KIns

/-- The residual stream after attention, on every device and at every entry of group `g`, is the kernel-shaped formula's:
    the input plus the attention gate times the sum of the eight devices' partial attention products. -/
theorem x1C_eq_x1K (A : Cert.Spec.Inputs) (hx1 : X1Site)
    (hga : ∀ (c : Fin 8) (b : Fin 2) (d : Fin 768), (v22 (insA A c) (ix2 b d) : EReal) = ga A b d)
    (hatt : ∀ (e : Fin 8) (g : Fin 4) (p : Fin 3) (r j : Fin 256),
      (att0 g p (insA A e) (ix4 0 0 r j) : EReal) = attPart A e (gB g) (gRow g r) (pcol p j))
    (c : Dev nD) (g : Fin 4) (r : Fin 256) (d : Fin 768) :
    (x1C (fun c => insA A c) c g (ix2 r d) : EReal) = x1K A (gB g) (gRow g r) d := by
  obtain ⟨p, j, rfl⟩ : ∃ (p : Fin 3) (j : Fin 256), d = pcol p j := by
    have hd := d.isLt
    exact ⟨⟨d.val / 256, by omega⟩, ⟨d.val % 256, by omega⟩,
      Fin.ext (by show d.val = 256 * (d.val / 256) + d.val % 256; omega)⟩
  rw [x1C_at (fun c => insA A c) hx1 c g r p j]
  simp only [A_0_0, hatt, hga]
  rfl

/-- THE KERNEL'S VALUE: on every device the output window holds, entry by entry, the kernel-shaped formula of the nine
    argument arrays — given the two site readings, the two gates' readings, and the first stored slices of both rounds as
    the devices' partial attention and feed-forward products. -/
theorem out_eq_of (A : Cert.Spec.Inputs) (hx1 : X1Site) (ho : OutSiteAt)
    (hga : ∀ (c : Fin 8) (b : Fin 2) (d : Fin 768), (v22 (insA A c) (ix2 b d) : EReal) = ga A b d)
    (hgm : ∀ (c : Fin 8) (b : Fin 2) (d : Fin 768), (v25 (insA A c) (ix2 b d) : EReal) = gm A b d)
    (hatt : ∀ (e : Fin 8) (g : Fin 4) (p : Fin 3) (r j : Fin 256),
      (att0 g p (insA A e) (ix4 0 0 r j) : EReal) = attPart A e (gB g) (gRow g r) (pcol p j))
    (hmlp : ∀ (e : Fin 8) (g : Fin 4) (p : Fin 3) (r j : Fin 256),
      (mlp0 g p (insA A e) (fun q => Vals.A (fun c => insA A c) 0 e g q 2) (fun q => Vals.R (fun c => insA A c) 0 e g q 2)
          (ix4 0 0 r j) : EReal) = mlpPart A e (gB g) (gRow g r) (pcol p j))
    (c : Dev nD) (b : Fin 2) (s : Fin 512) (d : Fin 768) :
    outC (fun c => insA A c) c (ix3 b s d) = outK A b s d := by
  obtain ⟨h, r, rfl⟩ : ∃ (h : Fin 2) (r : Fin 256), s = (⟨256 * h.val + r.val, by omega⟩ : Fin 512) := by
    have hs := s.isLt
    exact ⟨⟨s.val / 256, by omega⟩, ⟨s.val % 256, by omega⟩,
      Fin.ext (by show s.val = 256 * (s.val / 256) + s.val % 256; omega)⟩
  obtain ⟨p, j, rfl⟩ : ∃ (p : Fin 3) (j : Fin 256), d = pcol p j := by
    have hd := d.isLt
    exact ⟨⟨d.val / 256, by omega⟩, ⟨d.val % 256, by omega⟩,
      Fin.ext (by show d.val = 256 * (d.val / 256) + d.val % 256; omega)⟩
  rw [outC_at (fun c => insA A c) hx1 ho c b h r p j]
  have e1 : gB (⟨2 * b.val + h.val, by omega⟩ : Fin 4) = b := Fin.ext (by show (2 * b.val + h.val) / 2 = b.val; omega)
  have e2 : gRow (⟨2 * b.val + h.val, by omega⟩ : Fin 4) r = (⟨256 * h.val + r.val, by omega⟩ : Fin 512) :=
    Fin.ext (by show 256 * ((2 * b.val + h.val) % 2) + r.val = 256 * h.val + r.val; omega)
  have hA0 : ∀ e : Fin 8, (Vals.A (fun c => insA A c) 0 e (⟨2 * b.val + h.val, by omega⟩ : Fin 4) p 0 (ix4 0 0 r j) : EReal)
      = attPart A e b (⟨256 * h.val + r.val, by omega⟩ : Fin 512) (pcol p j) := fun e => by
    rw [A_0_0, hatt, e1, e2]
  have hA1 : ∀ e : Fin 8, (Vals.A (fun c => insA A c) 1 e (⟨2 * b.val + h.val, by omega⟩ : Fin 4) p 0 (ix4 0 0 r j) : EReal)
      = mlpPart A e b (⟨256 * h.val + r.val, by omega⟩ : Fin 512) (pcol p j) := fun e => by
    rw [A_1_0, hmlp, e1, e2]
  simp only [hA0, hA1, hga, hgm]
  rfl

/-- info: 'Cert.KValue.out_eq_of' depends on axioms: [propext, Classical.choice, Quot.sound] -/
#guard_msgs in #print axioms out_eq_of

/-- info: 'Cert.KValue.x1C_eq_x1K' depends on axioms: [propext, Classical.choice, Quot.sound] -/
#guard_msgs in #print axioms x1C_eq_x1K

end Cert.KValue

end
-- ==== Proof.KValue.Sites.lean ====
/-
  Two families of values of the kernel's body, read at an index over the extended reals.

  The residual stream after attention, for row group `g` of four (batch entry `g / 2`, rows `256 (g % 2)` on): at row `r`
  and column `256 p + j` it is the input's entry plus the attention gate's entry for that batch entry and column times
  the sum of the own and the received slice of part `p` at `(r, j)` — the three parts of 256 columns lie side by side.

  The block's result for the same row group: the residual stream's entry plus the feed-forward gate's entry times the sum
  of the own and the received slice of the second round. The narrowing and widening of the residual stream between the
  two is no operation over the extended reals and is absent from the idealized program.

  The four row groups are one function of `(g / 2, g % 2)`; each literal site of the body is an instance.
-/
import proofs.«900775_g7700000000000776_dist_diff_dit_htp_i_b2_s512_d768_hq4_v7x_i8_f32_1_alg».proof.Proof.KValue.Reduce
import Idealize.ShloMosaic.Lib.ValueLayout

noncomputable section

open scoped BigOperators

namespace Cert.KValue

open Idealize.ShloMosaic Cert.KernelIdeal Cert.KernelIdeal.Gen Cert.KernelIdeal.Vals
open Idealize.ShloMosaic.ValueIdx

/-! ## The pieces -/

/-- The device's own copy of the input is the input window's block. -/
theorem v14_at (i : Ins Ideal) (k : S2x512x768.Idx) : v14 i k = i.w0 k := by
  unfold v14 k0_pay2
  exact shapeCast_apply i.w0 _ k k rfl

/-- Three 256-column blocks side by side: column `256 p + j` is column `j` of block `p`. -/
theorem cat3_at (x : Fin 3 → FVec Ideal S256x256 .bf16) (r : Fin 256) (p : Fin 3) (j : Fin 256) :
    concatenate S256x768 1 [⟨S256x256, x 0⟩, ⟨S256x256, x 1⟩, ⟨S256x256, x 2⟩]
        concatenates_S256x256_S256x256_S256x256_S256x768_d1 (ix2 r (⟨256 * p.val + j.val, by omega⟩ : Fin 768))
      = x p (ix2 r j) := by
  have hi : ∀ b : Fin S256x256.rank, b.cast (rfl : S256x256.rank = S256x768.rank) ≠ (1 : Fin S256x768.rank) →
      ((ix2 r j : S256x256.Idx) b).val
        = ((ix2 r (⟨256 * p.val + j.val, by omega⟩ : Fin 768) : S256x768.Idx) (b.cast rfl)).val := fun b hb => by
    match b with
    | ⟨0, _⟩ => rfl
    | ⟨1, _⟩ => exact absurd rfl hb
  fin_cases p
  · exact concatenate_apply_piece (1 : Fin S256x768.rank) _ _ _ 0 (by show 0 < 3; omega) S256x256 (x 0) rfl rfl 0 rfl (ix2 r j) hi
      (by show 0 + j.val = 256 * 0 + j.val; omega)
  · exact concatenate_apply_piece (1 : Fin S256x768.rank) _ _ _ 1 (by show 1 < 3; omega) S256x256 (x 1) rfl rfl 256 rfl (ix2 r j) hi
      (by show 256 + j.val = 256 * 1 + j.val; omega)
  · exact concatenate_apply_piece (1 : Fin S256x768.rank) _ _ _ 2 (by show 2 < 3; omega) S256x256 (x 2) rfl rfl 512 rfl (ix2 r j) hi
      (by show 512 + j.val = 256 * 2 + j.val; omega)

/-- A gate's row for batch entry `bo`, spread over the 256 rows of a group. -/
def gateRows (G : FVec Ideal S2x768 .f32) (bo : Nat) (hs : S2x768.Slices ![bo, 0] S1x768) : FVec Ideal S256x768 .f32 :=
  broadcastTo S256x768
    (shapeCast S1x768
      (shapeCast S768 (extractStridedSlice S1x768 ![bo, 0] G hs : FVec Ideal S1x768 .f32) shapeCasts_S1x768_S768 :
        FVec Ideal S768 .f32)
      shapeCasts_S768_S1x768 : FVec Ideal S1x768 .f32)
    broadcasts_S1x768_S256x768

/-- It reads the gate at the batch entry and the column, whatever the row. -/
theorem gateRows_at (G : FVec Ideal S2x768 .f32) (bo : Nat) (hb : bo < 2) (hs : S2x768.Slices ![bo, 0] S1x768)
    (r : Fin 256) (c : Fin 768) : gateRows G bo hs (ix2 r c) = G (ix2 (⟨bo, hb⟩ : Fin 2) c) := by
  unfold gateRows
  refine (broadcastTo_1b_ab_apply _ _ r c).trans ?_
  refine (shapeCast_a_1a_apply _ _ (0 : Fin 1) c).trans ?_
  refine (shapeCast_1a_a_apply _ _ c).trans ?_
  exact extractStridedSlice_apply _ G hs _ (ix2 (⟨bo, hb⟩ : Fin 2) c) (fun a => by
    match a with
    | ⟨0, _⟩ => show bo = bo + 0; rfl
    | ⟨1, _⟩ => show c.val = 0 + c.val; omega)

/-- The 256 rows from row `ro` on of batch entry `bo` of an array of the input's shape. -/
def rowBlock (X : FVec Ideal S2x512x768 .f32) (bo ro : Nat) (hs : S2x512x768.Slices ![bo, ro, 0] S1x256x768) :
    FVec Ideal S256x768 .f32 :=
  shapeCast S256x768 (extractStridedSlice S1x256x768 ![bo, ro, 0] X hs : FVec Ideal S1x256x768 .f32)
    shapeCasts_S1x256x768_S256x768

/-- It reads the array at the batch entry, the shifted row and the column. -/
theorem rowBlock_at (X : FVec Ideal S2x512x768 .f32) (bo ro : Nat) (hb : bo < 2) (hr : ro + 256 ≤ 512)
    (hs : S2x512x768.Slices ![bo, ro, 0] S1x256x768) (r : Fin 256) (c : Fin 768) :
    rowBlock X bo ro hs (ix2 r c) = X (ix3 (⟨bo, hb⟩ : Fin 2) (⟨ro + r.val, by omega⟩ : Fin 512) c) := by
  unfold rowBlock
  refine (shapeCast_1ab_ab_apply _ _ r c).trans ?_
  exact extractStridedSlice_apply _ X hs _ (ix3 (⟨bo, hb⟩ : Fin 2) (⟨ro + r.val, by omega⟩ : Fin 512) c) (fun a => by
    match a with
    | ⟨0, _⟩ => show bo = bo + 0; rfl
    | ⟨1, _⟩ => rfl
    | ⟨2, _⟩ => show c.val = 0 + c.val; omega)

/-- The three parts' sums of own and received slice, side by side and widened: at column `256 p + j`, part `p`'s sum. -/
def partSums (a : Fin 3 → Acc Ideal) (b : Fin 3 → Rs Ideal) : FVec Ideal S256x768 .f32 :=
  extf .f32
    (concatenate S256x768 1
      [⟨S256x256, addf (shapeCast S256x256 (a 0) shapeCasts_S1x1x256x256_S256x256 : FVec Ideal S256x256 .bf16)
          (shapeCast S256x256 (b 0) shapeCasts_S1x1x1x256x256_S256x256 : FVec Ideal S256x256 .bf16)⟩,
        ⟨S256x256, addf (shapeCast S256x256 (a 1) shapeCasts_S1x1x256x256_S256x256 : FVec Ideal S256x256 .bf16)
          (shapeCast S256x256 (b 1) shapeCasts_S1x1x1x256x256_S256x256 : FVec Ideal S256x256 .bf16)⟩,
        ⟨S256x256, addf (shapeCast S256x256 (a 2) shapeCasts_S1x1x256x256_S256x256 : FVec Ideal S256x256 .bf16)
          (shapeCast S256x256 (b 2) shapeCasts_S1x1x1x256x256_S256x256 : FVec Ideal S256x256 .bf16)⟩]
      concatenates_S256x256_S256x256_S256x256_S256x768_d1 : FVec Ideal S256x768 .bf16)
    bitsLt_bf16_f32

/-- It reads part `p`'s own entry plus its received entry. -/
theorem partSums_at (a : Fin 3 → Acc Ideal) (b : Fin 3 → Rs Ideal) (r : Fin 256) (p : Fin 3) (j : Fin 256) :
    partSums a b (ix2 r (⟨256 * p.val + j.val, by omega⟩ : Fin 768))
      = (a p (ix4 0 0 r j) + b p (ix5 0 0 0 r j) : EReal) := by
  unfold partSums
  exact (cat3_at (fun q => addf (shapeCast S256x256 (a q) shapeCasts_S1x1x256x256_S256x256 : FVec Ideal S256x256 .bf16)
      (shapeCast S256x256 (b q) shapeCasts_S1x1x1x256x256_S256x256 : FVec Ideal S256x256 .bf16)) r p j).trans
    (add_casts_at (a p) (b p) r j)

/-! ## The residual stream after attention -/

/-- One row group's residual stream as a function of its batch entry `bo` and its first row `ro`. -/
def x1Form (bo ro : Nat) (hsx : S2x512x768.Slices ![bo, ro, 0] S1x256x768) (hsg : S2x768.Slices ![bo, 0] S1x768)
    (X : FVec Ideal S2x512x768 .f32) (G : FVec Ideal S2x768 .f32) (a : Fin 3 → Acc Ideal) (b : Fin 3 → Rs Ideal) :
    FVec Ideal S256x768 .f32 :=
  addf (rowBlock X bo ro hsx) (mulf (gateRows G bo hsg) (partSums a b))

/-- Read at row `r` and column `256 p + j`. -/
theorem x1Form_at (bo ro : Nat) (hb : bo < 2) (hr : ro + 256 ≤ 512) (hsx : S2x512x768.Slices ![bo, ro, 0] S1x256x768)
    (hsg : S2x768.Slices ![bo, 0] S1x768) (X : FVec Ideal S2x512x768 .f32) (G : FVec Ideal S2x768 .f32)
    (a : Fin 3 → Acc Ideal) (b : Fin 3 → Rs Ideal) (r : Fin 256) (p : Fin 3) (j : Fin 256) :
    x1Form bo ro hsx hsg X G a b (ix2 r (⟨256 * p.val + j.val, by omega⟩ : Fin 768))
      = (X (ix3 (⟨bo, hb⟩ : Fin 2) (⟨ro + r.val, by omega⟩ : Fin 512) (⟨256 * p.val + j.val, by omega⟩ : Fin 768))
          + G (ix2 (⟨bo, hb⟩ : Fin 2) (⟨256 * p.val + j.val, by omega⟩ : Fin 768))
            * (a p (ix4 0 0 r j) + b p (ix5 0 0 0 r j)) : EReal) := by
  unfold x1Form
  rw [addf_apply, mulf_apply, rowBlock_at X bo ro hb hr, gateRows_at G bo hb, partSums_at]

/-- The four sites of the body are that function at `(g / 2, 256 (g % 2))`. -/
theorem x1_0_eq (i : Ins Ideal) (a : Fin 3 → Acc Ideal) (b : Fin 3 → Rs Ideal) :
    x1 0 i a b = x1Form 0 0 slices_S2x512x768_o0_0_0_S1x256x768 slices_S2x768_o0_0_S1x768 (v14 i) (v22 i) a b := by
  rw [x1_0]; rfl
theorem x1_1_eq (i : Ins Ideal) (a : Fin 3 → Acc Ideal) (b : Fin 3 → Rs Ideal) :
    x1 1 i a b = x1Form 0 256 slices_S2x512x768_o0_256_0_S1x256x768 slices_S2x768_o0_0_S1x768 (v14 i) (v22 i) a b := by
  rw [x1_1]; rfl
theorem x1_2_eq (i : Ins Ideal) (a : Fin 3 → Acc Ideal) (b : Fin 3 → Rs Ideal) :
    x1 2 i a b = x1Form 1 0 slices_S2x512x768_o1_0_0_S1x256x768 slices_S2x768_o1_0_S1x768 (v14 i) (v22 i) a b := by
  rw [x1_2]; rfl
theorem x1_3_eq (i : Ins Ideal) (a : Fin 3 → Acc Ideal) (b : Fin 3 → Rs Ideal) :
    x1 3 i a b = x1Form 1 256 slices_S2x512x768_o1_256_0_S1x256x768 slices_S2x768_o1_0_S1x768 (v14 i) (v22 i) a b := by
  rw [x1_3]; rfl

/-- **The residual stream after attention, read at an index**, for any row group. -/
theorem x1_at (g : Fin 4) (i : Ins Ideal) (a : Fin 3 → Acc Ideal) (b : Fin 3 → Rs Ideal) (r : Fin 256) (p : Fin 3)
    (j : Fin 256) :
    x1 g i a b (ix2 r (⟨256 * p.val + j.val, by omega⟩ : Fin 768))
      = (i.w0 (ix3 (⟨g.val / 2, by omega⟩ : Fin 2) (⟨256 * (g.val % 2) + r.val, by omega⟩ : Fin 512)
            (⟨256 * p.val + j.val, by omega⟩ : Fin 768))
          + v22 i (ix2 (⟨g.val / 2, by omega⟩ : Fin 2) (⟨256 * p.val + j.val, by omega⟩ : Fin 768))
            * (a p (ix4 0 0 r j) + b p (ix5 0 0 0 r j)) : EReal) := by
  fin_cases g
  · show x1 0 i a b _ = _
    rw [x1_0_eq, x1Form_at 0 0 (by omega) (by omega), v14_at]; rfl
  · show x1 1 i a b _ = _
    rw [x1_1_eq, x1Form_at 0 256 (by omega) (by omega), v14_at]; rfl
  · show x1 2 i a b _ = _
    rw [x1_2_eq, x1Form_at 1 0 (by omega) (by omega), v14_at]; rfl
  · show x1 3 i a b _ = _
    rw [x1_3_eq, x1Form_at 1 256 (by omega) (by omega), v14_at]; rfl

/-! ## The block's result -/

/-- One row group's result as a function of its batch entry `bo`, over the group's residual stream `x1v`. -/
def outForm (bo : Nat) (hsg : S2x768.Slices ![bo, 0] S1x768) (x1v : FVec Ideal S256x768 .f32) (G : FVec Ideal S2x768 .f32)
    (a' : Fin 3 → Acc Ideal) (b' : Fin 3 → Rs Ideal) : FVec Ideal S1x256x768 .f32 :=
  shapeCast S1x256x768 (addf x1v (mulf (gateRows G bo hsg) (partSums a' b'))) shapeCasts_S256x768_S1x256x768

/-- Read at row `r` and column `256 p + j`. -/
theorem outForm_at (bo : Nat) (hb : bo < 2) (hsg : S2x768.Slices ![bo, 0] S1x768) (x1v : FVec Ideal S256x768 .f32)
    (G : FVec Ideal S2x768 .f32) (a' : Fin 3 → Acc Ideal) (b' : Fin 3 → Rs Ideal) (r : Fin 256) (p : Fin 3) (j : Fin 256) :
    outForm bo hsg x1v G a' b' (ix3 (0 : Fin 1) r (⟨256 * p.val + j.val, by omega⟩ : Fin 768))
      = (x1v (ix2 r (⟨256 * p.val + j.val, by omega⟩ : Fin 768))
          + G (ix2 (⟨bo, hb⟩ : Fin 2) (⟨256 * p.val + j.val, by omega⟩ : Fin 768))
            * (a' p (ix4 0 0 r j) + b' p (ix5 0 0 0 r j)) : EReal) := by
  unfold outForm
  refine (shapeCast_ab_1ab_apply _ _ (0 : Fin 1) r _).trans ?_
  rw [addf_apply, mulf_apply, gateRows_at G bo hb, partSums_at]

/-- The four sites of the body are that function at `g / 2`, over the same group's residual stream. -/
theorem outSite_0_eq (i : Ins Ideal) (a : Fin 3 → Acc Ideal) (b : Fin 3 → Rs Ideal) (a' : Fin 3 → Acc Ideal)
    (b' : Fin 3 → Rs Ideal) :
    outSite 0 i a b a' b' = outForm 0 slices_S2x768_o0_0_S1x768 (x1 0 i a b) (v25 i) a' b' := by
  rw [outSite_0, x1_0]; rfl
theorem outSite_1_eq (i : Ins Ideal) (a : Fin 3 → Acc Ideal) (b : Fin 3 → Rs Ideal) (a' : Fin 3 → Acc Ideal)
    (b' : Fin 3 → Rs Ideal) :
    outSite 1 i a b a' b' = outForm 0 slices_S2x768_o0_0_S1x768 (x1 1 i a b) (v25 i) a' b' := by
  rw [outSite_1, x1_1]; rfl
theorem outSite_2_eq (i : Ins Ideal) (a : Fin 3 → Acc Ideal) (b : Fin 3 → Rs Ideal) (a' : Fin 3 → Acc Ideal)
    (b' : Fin 3 → Rs Ideal) :
    outSite 2 i a b a' b' = outForm 1 slices_S2x768_o1_0_S1x768 (x1 2 i a b) (v25 i) a' b' := by
  rw [outSite_2, x1_2]; rfl
theorem outSite_3_eq (i : Ins Ideal) (a : Fin 3 → Acc Ideal) (b : Fin 3 → Rs Ideal) (a' : Fin 3 → Acc Ideal)
    (b' : Fin 3 → Rs Ideal) :
    outSite 3 i a b a' b' = outForm 1 slices_S2x768_o1_0_S1x768 (x1 3 i a b) (v25 i) a' b' := by
  rw [outSite_3, x1_3]; rfl

/-- **The block's result, read at an index**, for any row group: the group's residual stream plus the gated sum. -/
theorem outSite_at (g : Fin 4) (i : Ins Ideal) (a : Fin 3 → Acc Ideal) (b : Fin 3 → Rs Ideal) (a' : Fin 3 → Acc Ideal)
    (b' : Fin 3 → Rs Ideal) (r : Fin 256) (p : Fin 3) (j : Fin 256) :
    outSite g i a b a' b' (ix3 (0 : Fin 1) r (⟨256 * p.val + j.val, by omega⟩ : Fin 768))
      = (x1 g i a b (ix2 r (⟨256 * p.val + j.val, by omega⟩ : Fin 768))
          + v25 i (ix2 (⟨g.val / 2, by omega⟩ : Fin 2) (⟨256 * p.val + j.val, by omega⟩ : Fin 768))
            * (a' p (ix4 0 0 r j) + b' p (ix5 0 0 0 r j)) : EReal) := by
  fin_cases g
  · show outSite 0 i a b a' b' _ = _
    rw [outSite_0_eq, outForm_at 0 (by omega)]; rfl
  · show outSite 1 i a b a' b' _ = _
    rw [outSite_1_eq, outForm_at 0 (by omega)]; rfl
  · show outSite 2 i a b a' b' _ = _
    rw [outSite_2_eq, outForm_at 1 (by omega)]; rfl
  · show outSite 3 i a b a' b' _ = _
    rw [outSite_3_eq, outForm_at 1 (by omega)]; rfl

end Cert.KValue

/-- info: 'Cert.KValue.x1_at' depends on axioms: [propext, Classical.choice, Quot.sound] -/
#guard_msgs in #print axioms Cert.KValue.x1_at
/-- info: 'Cert.KValue.outSite_at' depends on axioms: [propext, Classical.choice, Quot.sound] -/
#guard_msgs in #print axioms Cert.KValue.outSite_at

end
-- ==== Proof.KValue.Stage0.lean ====
/-
  The first values a device computes from its own arguments, read at an index over the extended reals:
  the modulation row (the time embedding times the modulation weight) and its six slices of 768; the input of
  the attention part for each of the two batch entries (the row less its mean, times the reciprocal square root
  of its variance plus ε, scaled by one plus the first slice and shifted by the second); and that input's key
  and value projections on the device's 384 columns.

  The normalisation of a block of rows is stated once, for any number of rows of 768, as a vector built from
  the same operations the body applies; the feed-forward part normalises its own blocks with it.
-/
import proofs.«900775_g7700000000000776_dist_diff_dit_htp_i_b2_s512_d768_hq4_v7x_i8_f32_1_alg».proof.Proof.Vals
import proofs.«900775_g7700000000000776_dist_diff_dit_htp_i_b2_s512_d768_hq4_v7x_i8_f32_1_alg».proof.Proof.KSpec
import proofs.«900775_g7700000000000776_dist_diff_dit_htp_i_b2_s512_d768_hq4_v7x_i8_f32_1_alg».proof.Proof.KIns
import Idealize.ShloMosaic.PureOps.Ideal.Laws
import Idealize.ShloMosaic.Lib.ValueIdx
import Idealize.ShloMosaic.Lib.ValueLayout

noncomputable section

open scoped BigOperators

namespace Cert.KValue

open Idealize.ShloMosaic Idealize.ShloMosaic.ValueIdx Cert.KernelIdeal Cert.KernelIdeal.Gen Cert.KernelIdeal.Vals
open Cert.KIns (insA)

/-! ## One row's mean, variance and normalisation -/

/-- The mean of a row of 768. -/
def meanR (r : Fin 768 → EReal) : EReal := Ideal.div (∑ k : Fin 768, r k) Spec.width

/-- The variance of a row of 768: the mean of the squares of the row less its mean. -/
def varR (r : Fin 768 → EReal) : EReal := Ideal.div (∑ k : Fin 768, (r k - meanR r) * (r k - meanR r)) Spec.width

/-- The row less its mean, times the reciprocal square root of its variance plus ε. -/
def lnR (r : Fin 768 → EReal) (d : Fin 768) : EReal := (r d - meanR r) * Ideal.rsqrt (varR r + Spec.eps)

theorem mean_eq_meanR (h : Fin 2 → Fin 512 → Fin 768 → EReal) (b : Fin 2) (s : Fin 512) :
    Spec.mean h b s = meanR (h b s) := rfl

theorem var_eq_varR (h : Fin 2 → Fin 512 → Fin 768 → EReal) (b : Fin 2) (s : Fin 512) :
    Spec.var h b s = varR (h b s) := rfl

theorem lnK_eq_lnR (h : Fin 2 → Fin 512 → Fin 768 → EReal) (b : Fin 2) (s : Fin 512) (d : Fin 768) :
    KSpec.lnK h b s d = lnR (h b s) d := rfl

/-! ## Three layout operations read at an index given by coordinates -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rank-3 array cut along axis 0 from `o` reads, at `(j, b, e)`, the source at `(k, b, e)` with `k = o + j`. -/
theorem slice3_axis0_apply {α : Type} {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The sum along the rows of an `[n, w]` block, read at row `s`. -/
theorem rowSum_apply {n w : ℕ} (X : FVec Ideal (⟨2, ![n, w]⟩ : Shape) .f32)
    (hred : (⟨2, ![n, w]⟩ : Shape).Reduces [1] ⟨1, ![n]⟩) (hφ : FKind.Formats .f32)
    (hacc : (0x00000000#32 : BitVec FTy.f32.bits) = FKind.add.neutral .f32 hφ) (s : Fin n) :
    multiReduction .add [1] ⟨1, ![n]⟩ X 0x00000000#32 hred hφ hacc (ix1 s) = ∑ k : Fin w, X (ix2 s k) := by
  refine (Ideal.multiReduction_add_single X _ hred hφ hacc (ix1 s)).trans ?_
  refine Finset.sum_congr rfl fun k _ => congrArg X ?_
  funext ax
  match ax with
  | ⟨0, _⟩ => rfl
  | ⟨1, _⟩ => rfl

/-! ## The normalisation of a block of rows of 768, as the body computes it -/

section Norm

variable {n : ℕ} (X : FVec Ideal (⟨2, ![n, 768]⟩ : Shape) .f32)
  (hred : (⟨2, ![n, 768]⟩ : Shape).Reduces [1] ⟨1, ![n]⟩)
  (hcast : (⟨1, ![n]⟩ : Shape).ShapeCasts ⟨2, ![n, 1]⟩)
  (hbc : (⟨2, ![n, 1]⟩ : Shape).Broadcasts ⟨2, ![n, 768]⟩)

/-- The column of row means: the row sums over the width. -/
def meanVec : FVec Ideal (⟨2, ![n, 1]⟩ : Shape) .f32 :=
  divf (shapeCast ⟨2, ![n, 1]⟩ (multiReduction .add [1] ⟨1, ![n]⟩ X 0x00000000#32 hred (.inl rfl) rfl) hcast)
    (broadcast ⟨2, ![n, 1]⟩ (Scalar.ofBits .f32 0x44400000#32))

/-- The block less its row means. -/
def cenVec : FVec Ideal (⟨2, ![n, 768]⟩ : Shape) .f32 :=
  subf X (broadcastTo ⟨2, ![n, 768]⟩ (meanVec X hred hcast) hbc)

/-- The column of row variances plus ε. -/
def varEpsVec : FVec Ideal (⟨2, ![n, 1]⟩ : Shape) .f32 :=
  addf
    (divf
      (shapeCast ⟨2, ![n, 1]⟩
        (multiReduction .add [1] ⟨1, ![n]⟩ (mulf (cenVec X hred hcast hbc) (cenVec X hred hcast hbc)) 0x00000000#32 hred
          (.inl rfl) rfl) hcast)
      (broadcast ⟨2, ![n, 1]⟩ (Scalar.ofBits .f32 0x44400000#32)))
    (broadcast ⟨2, ![n, 1]⟩ (Scalar.ofBits .f32 0x3727C5AC#32))

/-- The normalised block: the centred block times the reciprocal square roots of the variances plus ε. -/
def lnVec : FVec Ideal (⟨2, ![n, 768]⟩ : Shape) .f32 :=
  mulf (cenVec X hred hcast hbc) (broadcastTo ⟨2, ![n, 768]⟩ (rsqrt (varEpsVec X hred hcast hbc)) hbc)

theorem meanVec_apply (s : Fin n) (u : Fin 1) :
    meanVec X hred hcast (ix2 s u) = meanR fun k => X (ix2 s k) := by
  show Ideal.div (shapeCast ⟨2, ![n, 1]⟩ (multiReduction .add [1] ⟨1, ![n]⟩ X 0x00000000#32 hred (.inl rfl) rfl) hcast (ix2 s u))
      (Ideal.ofBits .f32 0x44400000#32) = _
  exact congrArg (fun t => Ideal.div t Spec.width)
    ((shapeCast_a_a1_apply _ hcast s u).trans (rowSum_apply X hred _ _ s))

theorem cenVec_apply (s : Fin n) (d : Fin 768) :
    cenVec X hred hcast hbc (ix2 s d) = X (ix2 s d) - meanR fun k => X (ix2 s k) := by
  show X (ix2 s d) - broadcastTo ⟨2, ![n, 768]⟩ (meanVec X hred hcast) hbc (ix2 s d) = _
  rw [broadcastTo_a1_ab_apply, meanVec_apply]

theorem varEpsVec_apply (s : Fin n) (u : Fin 1) :
    varEpsVec X hred hcast hbc (ix2 s u) = varR (fun k => X (ix2 s k)) + Spec.eps := by
  show Ideal.div
      (shapeCast ⟨2, ![n, 1]⟩
        (multiReduction .add [1] ⟨1, ![n]⟩ (mulf (cenVec X hred hcast hbc) (cenVec X hred hcast hbc)) 0x00000000#32 hred
          (.inl rfl) rfl) hcast (ix2 s u))
      (Ideal.ofBits .f32 0x44400000#32) + Ideal.ofBits .f32 0x3727C5AC#32 = _
  refine congrArg (fun t => Ideal.div t Spec.width + Spec.eps)
    (((shapeCast_a_a1_apply _ hcast s u).trans
      (rowSum_apply (mulf (cenVec X hred hcast hbc) (cenVec X hred hcast hbc)) hred _ _ s)).trans
      (Finset.sum_congr rfl fun k _ => ?_))
  show cenVec X hred hcast hbc (ix2 s k) * cenVec X hred hcast hbc (ix2 s k) = _
  rw [cenVec_apply]

/-- THE NORMALISATION AT AN INDEX: entry `(s, d)` of the normalised block is row `s` normalised, at `d`. -/
theorem lnVec_apply (s : Fin n) (d : Fin 768) :
    lnVec X hred hcast hbc (ix2 s d) = lnR (fun k => X (ix2 s k)) d := by
  show cenVec X hred hcast hbc (ix2 s d)
      * broadcastTo ⟨2, ![n, 768]⟩ (rsqrt (varEpsVec X hred hcast hbc)) hbc (ix2 s d) = _
  rw [broadcastTo_a1_ab_apply, cenVec_apply]
  show _ * Ideal.rsqrt (varEpsVec X hred hcast hbc (ix2 s (0 : Fin 1))) = _
  rw [varEpsVec_apply]
  rfl

end Norm

/-! ## A modulation row's scale and shift, and a batch entry's rows, read at an index -/

/-- Batch entry `b`'s rows of the input: the slice of one entry along axis 0, its unit axis dropped. -/
theorem batchRows_apply (o : ℕ) (v : FVec Ideal S2x512x768 .f32) (hs : S2x512x768.Slices ![o, 0, 0] S1x512x768)
    (hc : S1x512x768.ShapeCasts S512x768) (b : Fin 2) (hb : b.val = o) (s : Fin 512) (k : Fin 768) :
    shapeCast S512x768 (extractStridedSlice S1x512x768 ![o, 0, 0] v hs) hc (ix2 s k) = v (ix3 b s k) := by
  rw [shapeCast_1ab_ab_apply]
  exact slice3_axis0_apply o v hs (0 : Fin 1) s k b (by show b.val = o + 0; omega)

/-- One plus batch entry `b`'s row of a modulation slice, over every row of a block. -/
theorem gainRow_apply {n : ℕ} (o : ℕ) (v : FVec Ideal S2x768 .f32) (hs : S2x768.Slices ![o, 0] S1x768)
    (h1 : S1x768.ShapeCasts S768) (h2 : S768.ShapeCasts S1x768) (hbc : S1x768.Broadcasts ⟨2, ![n, 768]⟩)
    (b : Fin 2) (hb : b.val = o) (s : Fin n) (d : Fin 768) :
    broadcastTo ⟨2, ![n, 768]⟩
        (shapeCast S1x768
          (addf (broadcast S768 (Scalar.ofBits .f32 0x3F800000#32))
            (shapeCast S768 (extractStridedSlice S1x768 ![o, 0] v hs) h1)) h2) hbc (ix2 s d)
      = Spec.one + v (ix2 b d) := by
  rw [broadcastTo_1b_ab_apply, shapeCast_a_1a_apply]
  show Ideal.ofBits .f32 0x3F800000#32 + shapeCast S768 (extractStridedSlice S1x768 ![o, 0] v hs) h1 (ix1 d) = _
  rw [shapeCast_1a_a_apply]
  exact congrArg (Spec.one + ·) (slice2_axis0_apply o v hs (0 : Fin 1) d b (by show b.val = o + 0; omega))

/-- Batch entry `b`'s row of a modulation slice, over every row of a block. -/
theorem shiftRow_apply {n : ℕ} (o : ℕ) (v : FVec Ideal S2x768 .f32) (hs : S2x768.Slices ![o, 0] S1x768)
    (h1 : S1x768.ShapeCasts S768) (h2 : S768.ShapeCasts S1x768) (hbc : S1x768.Broadcasts ⟨2, ![n, 768]⟩)
    (b : Fin 2) (hb : b.val = o) (s : Fin n) (d : Fin 768) :
    broadcastTo ⟨2, ![n, 768]⟩
        (shapeCast S1x768 (shapeCast S768 (extractStridedSlice S1x768 ![o, 0] v hs) h1) h2) hbc (ix2 s d)
      = v (ix2 b d) := by
  rw [broadcastTo_1b_ab_apply, shapeCast_a_1a_apply, shapeCast_1a_a_apply]
  exact slice2_axis0_apply o v hs (0 : Fin 1) d b (by show b.val = o + 0; omega)

/-! ## The two matrix products of this stage, read at an index -/

/-- [2,128] times [128,4608] into zero: entry (b, j) is the sum over k of l(b,k) · r(k,j). -/
theorem matmul_mod_apply {φ₁ φ₂ : FTy} (l : FVec Ideal S2x128 φ₁) (r : FVec Ideal S128x4608 φ₂) (b : Fin 2) (j : Fin 4608) :
    matmul dot_S2x128_S128x4608_S2x4608_1_0_0_1_n_n none l r (constant (F := Ideal) S2x4608 .f32 0x00000000#32) (ix2 b j)
      = ∑ k : Fin 128, l (ix2 b k) * r (ix2 k j) := by
  show FloatOps.matmul dot_S2x128_S128x4608_S2x4608_1_0_0_1_n_n none l r (constant (F := Ideal) S2x4608 .f32 0x00000000#32) (ix2 b j) = _
  rw [Ideal.matmul_constant_zero_apply, ← Equiv.sum_comp (contrEquiv1 dot_S2x128_S128x4608_S2x4608_1_0_0_1_n_n 128 rfl rfl).symm]
  refine Finset.sum_congr rfl fun k _ => ?_
  have ck := contrEquiv1_symm_val dot_S2x128_S128x4608_S2x4608_1_0_0_1_n_n 128 rfl rfl k
  have hl : dot_S2x128_S128x4608_S2x4608_1_0_0_1_n_n.lhsIdx (ix2 b j) ((contrEquiv1 _ 128 rfl rfl).symm k) = ix2 b k := by
    funext ax; apply Fin.ext
    match ax with
    | ⟨0, _⟩ => simp [DotDims.lhsIdx, dot_S2x128_S128x4608_S2x4608_1_0_0_1_n_n]; rfl
    | ⟨1, _⟩ => simp [DotDims.lhsIdx, dot_S2x128_S128x4608_S2x4608_1_0_0_1_n_n]; exact ck
  have hr : dot_S2x128_S128x4608_S2x4608_1_0_0_1_n_n.rhsIdx (ix2 b j) ((contrEquiv1 _ 128 rfl rfl).symm k) = ix2 k j := by
    funext ax; apply Fin.ext
    match ax with
    | ⟨0, _⟩ => simp [DotDims.rhsIdx, dot_S2x128_S128x4608_S2x4608_1_0_0_1_n_n]; exact ck
    | ⟨1, _⟩ => simp [DotDims.rhsIdx, dot_S2x128_S128x4608_S2x4608_1_0_0_1_n_n]; rfl
  rw [hl, hr]

/-- [512,768] times [768,384] into zero: entry (s, j) is the sum over k of l(s,k) · r(k,j). -/
theorem matmul_proj_apply {φ₁ φ₂ : FTy} (l : FVec Ideal S512x768 φ₁) (r : FVec Ideal S768x384 φ₂) (s : Fin 512) (j : Fin 384) :
    matmul dot_S512x768_S768x384_S512x384_1_0_0_1_n_n none l r (constant (F := Ideal) S512x384 .f32 0x00000000#32) (ix2 s j)
      = ∑ k : Fin 768, l (ix2 s k) * r (ix2 k j) := by
  show FloatOps.matmul dot_S512x768_S768x384_S512x384_1_0_0_1_n_n none l r (constant (F := Ideal) S512x384 .f32 0x00000000#32) (ix2 s j) = _
  rw [Ideal.matmul_constant_zero_apply, ← Equiv.sum_comp (contrEquiv1 dot_S512x768_S768x384_S512x384_1_0_0_1_n_n 768 rfl rfl).symm]
  refine Finset.sum_congr rfl fun k _ => ?_
  have ck := contrEquiv1_symm_val dot_S512x768_S768x384_S512x384_1_0_0_1_n_n 768 rfl rfl k
  have hl : dot_S512x768_S768x384_S512x384_1_0_0_1_n_n.lhsIdx (ix2 s j) ((contrEquiv1 _ 768 rfl rfl).symm k) = ix2 s k := by
    funext ax; apply Fin.ext
    match ax with
    | ⟨0, _⟩ => simp [DotDims.lhsIdx, dot_S512x768_S768x384_S512x384_1_0_0_1_n_n]; rfl
    | ⟨1, _⟩ => simp [DotDims.lhsIdx, dot_S512x768_S768x384_S512x384_1_0_0_1_n_n]; exact ck
  have hr : dot_S512x768_S768x384_S512x384_1_0_0_1_n_n.rhsIdx (ix2 s j) ((contrEquiv1 _ 768 rfl rfl).symm k) = ix2 k j := by
    funext ax; apply Fin.ext
    match ax with
    | ⟨0, _⟩ => simp [DotDims.rhsIdx, dot_S512x768_S768x384_S512x384_1_0_0_1_n_n]; exact ck
    | ⟨1, _⟩ => simp [DotDims.rhsIdx, dot_S512x768_S768x384_S512x384_1_0_0_1_n_n]; rfl
  rw [hl, hr]

/-! ## The device's arguments as first read: format changes and same-shape casts are the identity -/

theorem v14_apply (i : Ins Ideal) (j : S2x512x768.Idx) : v14 i j = i.w0 j := by
  show shapeCast S2x512x768 i.w0 _ j = _; rw [shapeCast_self]
theorem v28_apply (i : Ins Ideal) (j : S768x384.Idx) : v28 i j = i.w1 j := by
  show shapeCast S768x384 i.w1 _ j = _; rw [shapeCast_self]
theorem v31_apply (i : Ins Ideal) (j : S768x384.Idx) : v31 i j = i.w2 j := by
  show shapeCast S768x384 i.w2 _ j = _; rw [shapeCast_self]
theorem v34_apply (i : Ins Ideal) (j : S768x384.Idx) : v34 i j = i.w3 j := by
  show shapeCast S768x384 i.w3 _ j = _; rw [shapeCast_self]
theorem v37_apply (i : Ins Ideal) (j : S384x768.Idx) : v37 i j = i.w4 j := by
  show shapeCast S384x768 i.w4 _ j = _; rw [shapeCast_self]
theorem v40_apply (i : Ins Ideal) (j : S768x384.Idx) : v40 i j = i.w7 j := by
  show shapeCast S768x384 i.w7 _ j = _; rw [shapeCast_self]
theorem v43_apply (i : Ins Ideal) (j : S384x768.Idx) : v43 i j = i.w8 j := by
  show shapeCast S384x768 i.w8 _ j = _; rw [shapeCast_self]

/-! ## The modulation row and its six slices -/

/-- The modulation row at an index: the time embedding's row times the modulation weight's column. -/
theorem modAll_apply (t : FVec Ideal S2x128 .f32) (W : FVec Ideal S128x4608 .f32) (b : Fin 2) (j : Fin 4608) :
    k0_pay3 t W (ix2 b j) = ∑ k : Fin 128, t (ix2 b k) * W (ix2 k j) := by
  unfold k0_pay3
  simp only [shapeCast_self]
  exact matmul_mod_apply t W b j

/-- The 768 columns of the modulation row from column `o` on. -/
theorem modSlice_apply (o : ℕ) (ho : o + 768 ≤ 4608) (M : FVec Ideal S2x4608 .f32) (hs : S2x4608.Slices ![0, o] S2x768)
    (b : Fin 2) (d : Fin 768) :
    extractStridedSlice S2x768 ![0, o] M hs (ix2 b d) = M (ix2 b ⟨o + d.val, by omega⟩) :=
  slice2_axis1_apply o M hs b d _ rfl

variable (A : Spec.Inputs) (c : Fin 8)

/-- The modulation row of the whole arrays. -/
theorem modAll_insA (b : Fin 2) (j : Fin 4608) : modAll (insA A c) (ix2 b j) = Spec.mod A b j :=
  modAll_apply A.temb A.Wmod b j

theorem mod0_eq (b : Fin 2) (d : Fin 768) : v20 (insA A c) (ix2 b d) = Spec.sa A b d :=
  (modSlice_apply 0 (by omega) (modAll (insA A c)) slices_S2x4608_o0_0_S2x768 b d).trans (modAll_insA A c b _)
theorem mod1_eq (b : Fin 2) (d : Fin 768) : v21 (insA A c) (ix2 b d) = Spec.sha A b d :=
  (modSlice_apply 768 (by omega) (modAll (insA A c)) slices_S2x4608_o0_768_S2x768 b d).trans (modAll_insA A c b _)
theorem mod2_eq (b : Fin 2) (d : Fin 768) : v22 (insA A c) (ix2 b d) = Spec.ga A b d :=
  (modSlice_apply 1536 (by omega) (modAll (insA A c)) slices_S2x4608_o0_1536_S2x768 b d).trans (modAll_insA A c b _)
theorem mod3_eq (b : Fin 2) (d : Fin 768) : v23 (insA A c) (ix2 b d) = Spec.sm A b d :=
  (modSlice_apply 2304 (by omega) (modAll (insA A c)) slices_S2x4608_o0_2304_S2x768 b d).trans (modAll_insA A c b _)
theorem mod4_eq (b : Fin 2) (d : Fin 768) : v24 (insA A c) (ix2 b d) = Spec.shm A b d :=
  (modSlice_apply 3072 (by omega) (modAll (insA A c)) slices_S2x4608_o0_3072_S2x768 b d).trans (modAll_insA A c b _)
theorem mod5_eq (b : Fin 2) (d : Fin 768) : v25 (insA A c) (ix2 b d) = Spec.gm A b d :=
  (modSlice_apply 3840 (by omega) (modAll (insA A c)) slices_S2x4608_o0_3840_S2x768 b d).trans (modAll_insA A c b _)

/-! ## The input of the attention part -/

/-- Batch entry 0: the normalised rows, scaled and shifted by the first two modulation slices. -/
theorem xa0_apply (i : Ins Ideal) (s : Fin 512) (d : Fin 768) :
    xa0 i (ix2 s d)
      = lnR (fun k => i.w0 (ix3 (0 : Fin 2) s k)) d * (Spec.one + v20 i (ix2 (0 : Fin 2) d)) + v21 i (ix2 (0 : Fin 2) d) := by
  have hX : ∀ k : Fin 768,
      shapeCast S512x768 (extractStridedSlice S1x512x768 ![0, 0, 0] (v14 i) slices_S2x512x768_o0_0_0_S1x512x768)
        shapeCasts_S1x512x768_S512x768 (ix2 s k) = i.w0 (ix3 (0 : Fin 2) s k) := fun k =>
    (batchRows_apply 0 (v14 i) _ _ (0 : Fin 2) rfl s k).trans (v14_apply i _)
  show lnVec
        (shapeCast S512x768 (extractStridedSlice S1x512x768 ![0, 0, 0] (v14 i) slices_S2x512x768_o0_0_0_S1x512x768)
          shapeCasts_S1x512x768_S512x768)
        reduces_S512x768_S512 shapeCasts_S512_S512x1 broadcasts_S512x1_S512x768 (ix2 s d)
      * broadcastTo S512x768
          (shapeCast S1x768
            (addf (broadcast S768 (Scalar.ofBits .f32 0x3F800000#32))
              (shapeCast S768 (extractStridedSlice S1x768 ![0, 0] (v20 i) slices_S2x768_o0_0_S1x768) shapeCasts_S1x768_S768))
            shapeCasts_S768_S1x768) broadcasts_S1x768_S512x768 (ix2 s d)
      + broadcastTo S512x768
          (shapeCast S1x768
            (shapeCast S768 (extractStridedSlice S1x768 ![0, 0] (v21 i) slices_S2x768_o0_0_S1x768) shapeCasts_S1x768_S768)
            shapeCasts_S768_S1x768) broadcasts_S1x768_S512x768 (ix2 s d) = _
  rw [lnVec_apply, gainRow_apply 0 (v20 i) _ _ _ _ (0 : Fin 2) rfl, shiftRow_apply 0 (v21 i) _ _ _ _ (0 : Fin 2) rfl]
  simp only [hX]

/-- Batch entry 1 likewise. -/
theorem xa1_apply (i : Ins Ideal) (s : Fin 512) (d : Fin 768) :
    xa1 i (ix2 s d)
      = lnR (fun k => i.w0 (ix3 (1 : Fin 2) s k)) d * (Spec.one + v20 i (ix2 (1 : Fin 2) d)) + v21 i (ix2 (1 : Fin 2) d) := by
  have hX : ∀ k : Fin 768,
      shapeCast S512x768 (extractStridedSlice S1x512x768 ![1, 0, 0] (v14 i) slices_S2x512x768_o1_0_0_S1x512x768)
        shapeCasts_S1x512x768_S512x768 (ix2 s k) = i.w0 (ix3 (1 : Fin 2) s k) := fun k =>
    (batchRows_apply 1 (v14 i) _ _ (1 : Fin 2) rfl s k).trans (v14_apply i _)
  show lnVec
        (shapeCast S512x768 (extractStridedSlice S1x512x768 ![1, 0, 0] (v14 i) slices_S2x512x768_o1_0_0_S1x512x768)
          shapeCasts_S1x512x768_S512x768)
        reduces_S512x768_S512 shapeCasts_S512_S512x1 broadcasts_S512x1_S512x768 (ix2 s d)
      * broadcastTo S512x768
          (shapeCast S1x768
            (addf (broadcast S768 (Scalar.ofBits .f32 0x3F800000#32))
              (shapeCast S768 (extractStridedSlice S1x768 ![1, 0] (v20 i) slices_S2x768_o1_0_S1x768) shapeCasts_S1x768_S768))
            shapeCasts_S768_S1x768) broadcasts_S1x768_S512x768 (ix2 s d)
      + broadcastTo S512x768
          (shapeCast S1x768
            (shapeCast S768 (extractStridedSlice S1x768 ![1, 0] (v21 i) slices_S2x768_o1_0_S1x768) shapeCasts_S1x768_S768)
            shapeCasts_S768_S1x768) broadcasts_S1x768_S512x768 (ix2 s d) = _
  rw [lnVec_apply, gainRow_apply 1 (v20 i) _ _ _ _ (1 : Fin 2) rfl, shiftRow_apply 1 (v21 i) _ _ _ _ (1 : Fin 2) rfl]
  simp only [hX]

theorem xa0_insA (s : Fin 512) (d : Fin 768) : xa0 (insA A c) (ix2 s d) = KSpec.xaK A 0 s d := by
  rw [xa0_apply, mod0_eq, mod1_eq]; rfl

theorem xa1_insA (s : Fin 512) (d : Fin 768) : xa1 (insA A c) (ix2 s d) = KSpec.xaK A 1 s d := by
  rw [xa1_apply, mod0_eq, mod1_eq]; rfl

/-- The same two, stated under the hypothesis that every argument entry is real; the hypothesis is not used. -/
theorem xa0_eq (hA : KSpec.RealInputs A) (e : Fin 8) (s : Fin 512) (k : Fin 768) :
    xa0 (insA A e) (ix2 s k) = KSpec.xaK A 0 s k := xa0_insA A e s k
theorem xa1_eq (hA : KSpec.RealInputs A) (e : Fin 8) (s : Fin 512) (k : Fin 768) :
    xa1 (insA A e) (ix2 s k) = KSpec.xaK A 1 s k := xa1_insA A e s k

/-! ## The key and value projections on the device's columns -/

theorem kk0_apply (i : Ins Ideal) (s : Fin 512) (j : Fin 384) :
    kk0 i (ix2 s j) = ∑ k : Fin 768, xa0 i (ix2 s k) * v31 i (ix2 k j) :=
  matmul_proj_apply (truncf .bf16 (xa0 i) bitsLt_bf16_f32) (v31 i) s j
theorem vv0_apply (i : Ins Ideal) (s : Fin 512) (j : Fin 384) :
    vv0 i (ix2 s j) = ∑ k : Fin 768, xa0 i (ix2 s k) * v34 i (ix2 k j) :=
  matmul_proj_apply (truncf .bf16 (xa0 i) bitsLt_bf16_f32) (v34 i) s j
theorem kk1_apply (i : Ins Ideal) (s : Fin 512) (j : Fin 384) :
    kk1 i (ix2 s j) = ∑ k : Fin 768, xa1 i (ix2 s k) * v31 i (ix2 k j) :=
  matmul_proj_apply (truncf .bf16 (xa1 i) bitsLt_bf16_f32) (v31 i) s j
theorem vv1_apply (i : Ins Ideal) (s : Fin 512) (j : Fin 384) :
    vv1 i (ix2 s j) = ∑ k : Fin 768, xa1 i (ix2 s k) * v34 i (ix2 k j) :=
  matmul_proj_apply (truncf .bf16 (xa1 i) bitsLt_bf16_f32) (v34 i) s j

/-- Batch entry 0's keys on device `c`'s column `j`. -/
theorem kk0_col (s : Fin 512) (j : Fin 384) :
    kk0 (insA A c) (ix2 s j) = ∑ k : Fin 768, KSpec.xaK A 0 s k * A.Wk (ix2 k (KSpec.col c j)) := by
  rw [kk0_apply]
  refine Finset.sum_congr rfl fun k _ => ?_
  rw [xa0_insA, v31_apply, Cert.KIns.insA_w2]
theorem vv0_col (s : Fin 512) (j : Fin 384) :
    vv0 (insA A c) (ix2 s j) = ∑ k : Fin 768, KSpec.xaK A 0 s k * A.Wv (ix2 k (KSpec.col c j)) := by
  rw [vv0_apply]
  refine Finset.sum_congr rfl fun k _ => ?_
  rw [xa0_insA, v34_apply, Cert.KIns.insA_w3]
theorem kk1_col (s : Fin 512) (j : Fin 384) :
    kk1 (insA A c) (ix2 s j) = ∑ k : Fin 768, KSpec.xaK A 1 s k * A.Wk (ix2 k (KSpec.col c j)) := by
  rw [kk1_apply]
  refine Finset.sum_congr rfl fun k _ => ?_
  rw [xa1_insA, v31_apply, Cert.KIns.insA_w2]
theorem vv1_col (s : Fin 512) (j : Fin 384) :
    vv1 (insA A c) (ix2 s j) = ∑ k : Fin 768, KSpec.xaK A 1 s k * A.Wv (ix2 k (KSpec.col c j)) := by
  rw [vv1_apply]
  refine Finset.sum_congr rfl fun k _ => ?_
  rw [xa1_insA, v34_apply, Cert.KIns.insA_w3]

/-- The device's keys and values at head `h`, entry `e`. -/
theorem kk0_eq (s : Fin 512) (h : Fin 4) (e : Fin 96) :
    kk0 (insA A c) (ix2 s (KSpec.hcol h e)) = KSpec.kK A c 0 s h e := kk0_col A c s _
theorem vv0_eq (s : Fin 512) (h : Fin 4) (e : Fin 96) :
    vv0 (insA A c) (ix2 s (KSpec.hcol h e)) = KSpec.vK A c 0 s h e := vv0_col A c s _
theorem kk1_eq (s : Fin 512) (h : Fin 4) (e : Fin 96) :
    kk1 (insA A c) (ix2 s (KSpec.hcol h e)) = KSpec.kK A c 1 s h e := kk1_col A c s _
theorem vv1_eq (s : Fin 512) (h : Fin 4) (e : Fin 96) :
    vv1 (insA A c) (ix2 s (KSpec.hcol h e)) = KSpec.vK A c 1 s h e := vv1_col A c s _

/-- info: 'Cert.KValue.mod0_eq' depends on axioms: [propext, Classical.choice, Quot.sound] -/
#guard_msgs in #print axioms mod0_eq

/-- info: 'Cert.KValue.mod5_eq' depends on axioms: [propext, Classical.choice, Quot.sound] -/
#guard_msgs in #print axioms mod5_eq

/-- info: 'Cert.KValue.xa0_eq' depends on axioms: [propext, Classical.choice, Quot.sound] -/
#guard_msgs in #print axioms xa0_eq

/-- info: 'Cert.KValue.xa1_eq' depends on axioms: [propext, Classical.choice, Quot.sound] -/
#guard_msgs in #print axioms xa1_eq

/-- info: 'Cert.KValue.kk0_eq' depends on axioms: [propext, Classical.choice, Quot.sound] -/
#guard_msgs in #print axioms kk0_eq

/-- info: 'Cert.KValue.vv0_eq' depends on axioms: [propext, Classical.choice, Quot.sound] -/
#guard_msgs in #print axioms vv0_eq

/-- info: 'Cert.KValue.kk1_eq' depends on axioms: [propext, Classical.choice, Quot.sound] -/
#guard_msgs in #print axioms kk1_eq

/-- info: 'Cert.KValue.vv1_eq' depends on axioms: [propext, Classical.choice, Quot.sound] -/
#guard_msgs in #print axioms vv1_eq

/-- info: 'Cert.KValue.lnVec_apply' depends on axioms: [propext, Classical.choice, Quot.sound] -/
#guard_msgs in #print axioms lnVec_apply

/-- info: 'Cert.KValue.gainRow_apply' depends on axioms: [propext, Classical.choice, Quot.sound] -/
#guard_msgs in #print axioms gainRow_apply

/-- info: 'Cert.KValue.shiftRow_apply' depends on axioms: [propext, Classical.choice, Quot.sound] -/
#guard_msgs in #print axioms shiftRow_apply

end Cert.KValue

end
-- ==== Proof.KValue.Attn.lean ====
import proofs.«900775_g7700000000000776_dist_diff_dit_htp_i_b2_s512_d768_hq4_v7x_i8_f32_1_alg».proof.Proof.Vals
import proofs.«900775_g7700000000000776_dist_diff_dit_htp_i_b2_s512_d768_hq4_v7x_i8_f32_1_alg».proof.Proof.KSpec
import proofs.«900775_g7700000000000776_dist_diff_dit_htp_i_b2_s512_d768_hq4_v7x_i8_f32_1_alg».proof.Proof.KIns
import proofs.«900775_g7700000000000776_dist_diff_dit_htp_i_b2_s512_d768_hq4_v7x_i8_f32_1_alg».proof.Proof.KValue.Stage0
import Idealize.ShloMosaic.Lib.ValueIdx
import Idealize.ShloMosaic.Lib.ValueLayout
import Idealize.ShloMosaic.Lib.Pipeline.Value
import Idealize.ShloMosaic.PureOps.Ideal.Laws

/-!
  The attention partial product as first stored into the accumulator, read at an index.

  Group `g = 2 b + h2` of four takes the 256 rows from `256 h2` on of batch entry `b`. Its queries are those rows of the
  modulated input times the device's block of `Wq`, scaled; keys and values are all 512 rows times the blocks of `Wk` and
  `Wv`. Per head `h` of four (the 96 columns from `96 h` on) the scores are queries against keys, the weights their
  exponentials, the normalizer the weights' row sum, and the head's result the weighted values over the normalizer. The
  four heads side by side, times the device's rows of `Wo`, give a 256 × 768 product whose columns from `256 p` on are
  part `p`.

  The four groups' stored terms are ONE composition of vector operations (the definitions of the first section, generic in
  the float instance); each site is an instance of it by unfolding. At the extended reals the composition is read at an
  index, one operation at a time, as the sums above.
-/

noncomputable section

open scoped BigOperators

namespace Cert.KValue.Attn

open Idealize.ShloMosaic Idealize.ShloMosaic.ValueIdx Cert.KernelIdeal Cert.KernelIdeal.Gen Cert.KernelIdeal.Vals
open Cert.KSpec (hcol)

/-! ## The one composition, generic in the float instance -/

section Generic
variable {F : FTy → Type} [FloatOps F]

theorem slices_rows (h2 : Fin 2) : S512x768.Slices ![256 * h2.val, 0] S256x768 := by
  fin_cases h2 <;> decide
theorem slices_q (h : Fin 4) : S256x384.Slices ![0, 96 * h.val] S256x96 := by
  fin_cases h <;> decide
theorem slices_kv (h : Fin 4) : S512x384.Slices ![0, 96 * h.val] S512x96 := by
  fin_cases h <;> decide
theorem slices_part (p : Fin 3) : S256x768.Slices ![0, 256 * p.val] S256x256 := by
  fin_cases p <;> decide

/-- Keys or values: all 512 rows of the modulated input times a weight block. -/
def kvProj (xa : FVec F S512x768 .f32) (w : FVec F S768x384 .bf16) : FVec F S512x384 .bf16 :=
  truncf .bf16 (matmul dot_S512x768_S768x384_S512x384_1_0_0_1_n_n none (truncf .bf16 xa bitsLt_bf16_f32) w
    (constant S512x384 .f32 0x00000000#32)) bitsLt_bf16_f32

/-- Queries: the 256 rows from `256 h2` on times the weight block, scaled. -/
def qRows (h2 : Fin 2) (xa : FVec F S512x768 .f32) (w : FVec F S768x384 .bf16) : FVec F S256x384 .bf16 :=
  truncf .bf16 (mulf (matmul dot_S256x768_S768x384_S256x384_1_0_0_1_n_n none
      (truncf .bf16 (extractStridedSlice S256x768 ![256 * h2.val, 0] xa (slices_rows h2)) bitsLt_bf16_f32) w
      (constant S256x384 .f32 0x00000000#32))
    (broadcast S256x384 (Scalar.ofBits .f32 0x3DD105EC#32))) bitsLt_bf16_f32

/-- Head `h`'s weights: the exponentials of its queries against its keys. -/
def headP (h : Fin 4) (q : FVec F S256x384 .bf16) (k : FVec F S512x384 .bf16) : FVec F S256x512 .f32 :=
  exp (matmul dot_S256x96_S96x512_S256x512_1_0_0_1_n_n none
    (extractStridedSlice S256x96 ![0, 96 * h.val] q (slices_q h))
    (transpose S96x512 [1, 0] (extractStridedSlice S512x96 ![0, 96 * h.val] k (slices_kv h)) transposes_S512x96_p1_0_S96x512)
    (constant S256x512 .f32 0x00000000#32))

/-- Head `h`'s result: the weighted values over the weights' row sum. -/
def headO (h : Fin 4) (q : FVec F S256x384 .bf16) (k v : FVec F S512x384 .bf16) : FVec F S256x96 .f32 :=
  divf (matmul dot_S256x512_S512x96_S256x96_1_0_0_1_n_n none (truncf .bf16 (headP h q k) bitsLt_bf16_f32)
      (extractStridedSlice S512x96 ![0, 96 * h.val] v (slices_kv h)) (constant S256x96 .f32 0x00000000#32))
    (broadcastTo S256x96
      (shapeCast S256x1 (multiReduction .add [1] S256 (headP h q k) 0x00000000#32 reduces_S256x512_S256 (.inl rfl) rfl)
        shapeCasts_S256_S256x1) broadcasts_S256x1_S256x96)

/-- The four heads side by side. -/
def attCat (q : FVec F S256x384 .bf16) (k v : FVec F S512x384 .bf16) : FVec F S256x384 .f32 :=
  concatenate S256x384 1 [⟨S256x96, headO 0 q k v⟩, ⟨S256x96, headO 1 q k v⟩, ⟨S256x96, headO 2 q k v⟩, ⟨S256x96, headO 3 q k v⟩]
    concatenates_S256x96_S256x96_S256x96_S256x96_S256x384_d1

/-- The heads times the device's rows of the output weight. -/
def attOut (q : FVec F S256x384 .bf16) (k v : FVec F S512x384 .bf16) (wo : FVec F S384x768 .bf16) : FVec F S256x768 .bf16 :=
  truncf .bf16 (matmul dot_S256x384_S384x768_S256x768_1_0_0_1_n_n none (truncf .bf16 (attCat q k v) bitsLt_bf16_f32) wo
    (constant S256x768 .f32 0x00000000#32)) bitsLt_bf16_f32

/-- Part `p`: the 256 columns from `256 p` on, under the accumulator slice's shape. -/
def accPart (p : Fin 3) (y : FVec F S256x768 .bf16) : Acc F :=
  shapeCast S1x1x256x256 (extractStridedSlice S256x256 ![0, 256 * p.val] y (slices_part p)) shapeCasts_S256x256_S1x1x256x256

/-- The modulated input of batch entry `b`. -/
def xaB (b : Fin 2) (i : Ins F) : FVec F S512x768 .f32 :=
  match b with
  | ⟨0, _⟩ => xa0 i
  | ⟨1, _⟩ => xa1 i

theorem xaB_zero (i : Ins F) : xaB 0 i = xa0 i := rfl
theorem xaB_one (i : Ins F) : xaB 1 i = xa1 i := rfl

/-- The group index of batch entry `b`, half `h2`. -/
abbrev grp (b h2 : Fin 2) : Fin 4 := ⟨2 * b.val + h2.val, by omega⟩

/-- EVERY SITE IS THE ONE COMPOSITION: part `p` of group `2 b + h2`, as stored. -/
theorem att0_site (b h2 : Fin 2) (p : Fin 3) (i : Ins F) :
    att0 (grp b h2) p i
      = accPart p (attOut (qRows h2 (xaB b i) (v28 i)) (kvProj (xaB b i) (v31 i)) (kvProj (xaB b i) (v34 i)) (v37 i)) := by
  fin_cases b <;> fin_cases h2 <;> fin_cases p <;> rfl

end Generic

/-! ## The composition read at an index, at the extended reals -/

section Reading

/-- A rows-by-columns product into the zero accumulator, read at `(i, j)`: the sum over the one contracted coordinate. -/
theorem mm_apply {m n p : ℕ} (D : DotDims ⟨2, ![m, n]⟩ ⟨2, ![n, p]⟩ ⟨2, ![m, p]⟩)
    (h1 : D.lhsContracting = [1]) (h2 : D.rhsContracting = [0]) (h3 : D.lhsNonContracting = [0])
    (h4 : D.rhsNonContracting = [1]) (h5 : D.lhsBatch = []) (h6 : D.rhsBatch = [])
    {φ₁ φ₂ : FTy} (l : FVec Ideal ⟨2, ![m, n]⟩ φ₁) (r : FVec Ideal ⟨2, ![n, p]⟩ φ₂) (i : Fin m) (j : Fin p) :
    matmul D none l r (constant (F := Ideal) ⟨2, ![m, p]⟩ .f32 0x00000000#32) (ix2 i j)
      = ∑ t : Fin n, l (ix2 i t) * r (ix2 t j) := by
  obtain ⟨lc, rc, ln, rn, lb, rb, wf⟩ := D
  simp only at h1 h2 h3 h4 h5 h6
  subst h1 h2 h3 h4 h5 h6
  refine (Ideal.matmul_constant_zero_apply _ none l r (ix2 i j)).trans ?_
  rw [← Equiv.sum_comp (contrEquiv1 (⟨[1], [0], [0], [1], [], [], wf⟩ : DotDims ⟨2, ![m, n]⟩ ⟨2, ![n, p]⟩ ⟨2, ![m, p]⟩) n rfl rfl).symm]
  refine Finset.sum_congr rfl fun t _ => ?_
  have ck := contrEquiv1_symm_val (⟨[1], [0], [0], [1], [], [], wf⟩ : DotDims ⟨2, ![m, n]⟩ ⟨2, ![n, p]⟩ ⟨2, ![m, p]⟩) n rfl rfl t
  have hl : (⟨[1], [0], [0], [1], [], [], wf⟩ : DotDims ⟨2, ![m, n]⟩ ⟨2, ![n, p]⟩ ⟨2, ![m, p]⟩).lhsIdx (ix2 i j)
      ((contrEquiv1 _ n rfl rfl).symm t) = ix2 i t := by
    funext ax; apply Fin.ext
    match ax with
    | ⟨0, _⟩ => simp [DotDims.lhsIdx]; rfl
    | ⟨1, _⟩ => simp [DotDims.lhsIdx]; exact ck
  have hr : (⟨[1], [0], [0], [1], [], [], wf⟩ : DotDims ⟨2, ![m, n]⟩ ⟨2, ![n, p]⟩ ⟨2, ![m, p]⟩).rhsIdx (ix2 i j)
      ((contrEquiv1 _ n rfl rfl).symm t) = ix2 t j := by
    funext ax; apply Fin.ext
    match ax with
    | ⟨0, _⟩ => simp [DotDims.rhsIdx]; exact ck
    | ⟨1, _⟩ => simp [DotDims.rhsIdx]; rfl
  rw [hl, hr]

/-- Keys or values at `(s, j)`: row `s` of the input against column `j` of the weight block. -/
theorem kvProj_apply (xa : FVec Ideal S512x768 .f32) (w : FVec Ideal S768x384 .bf16) (s : Fin 512) (j : Fin 384) :
    kvProj xa w (ix2 s j) = ∑ t : Fin 768, xa (ix2 s t) * w (ix2 t j) := by
  unfold kvProj
  exact mm_apply dot_S512x768_S768x384_S512x384_1_0_0_1_n_n rfl rfl rfl rfl rfl rfl (truncf .bf16 xa bitsLt_bf16_f32) w s j

/-- Queries at `(row, j)`: row `256 h2 + row` of the input against column `j` of the weight block, times the score scale. -/
theorem qRows_apply (h2 : Fin 2) (xa : FVec Ideal S512x768 .f32) (w : FVec Ideal S768x384 .bf16) (row : Fin 256) (j : Fin 384) :
    qRows h2 xa w (ix2 row j)
      = (∑ t : Fin 768, xa (ix2 (⟨256 * h2.val + row.val, by omega⟩ : Fin 512) t) * w (ix2 t j)) * Spec.scale := by
  unfold qRows
  show (matmul dot_S256x768_S768x384_S256x384_1_0_0_1_n_n none _ w _ (ix2 row j)) * Ideal.ofBits .f32 0x3DD105EC#32 = _
  rw [mm_apply dot_S256x768_S768x384_S256x384_1_0_0_1_n_n rfl rfl rfl rfl rfl rfl]
  refine congrArg (· * Spec.scale) (Finset.sum_congr rfl fun t _ => congrArg (· * w (ix2 t j)) ?_)
  exact slice2_axis0_apply (256 * h2.val) xa (slices_rows h2) row t _ rfl

/-- Head `h`'s weight of query row `i` against key row `j`. -/
theorem headP_apply (h : Fin 4) (q : FVec Ideal S256x384 .bf16) (k : FVec Ideal S512x384 .bf16) (i : Fin 256) (j : Fin 512) :
    headP h q k (ix2 i j) = Ideal.exp (∑ e : Fin 96, q (ix2 i (hcol h e)) * k (ix2 j (hcol h e))) := by
  unfold headP
  show Ideal.exp (matmul (F := Ideal) dot_S256x96_S96x512_S256x512_1_0_0_1_n_n none _ _ _ (ix2 i j)) = _
  rw [mm_apply dot_S256x96_S96x512_S256x512_1_0_0_1_n_n rfl rfl rfl rfl rfl rfl]
  refine congrArg Ideal.exp (Finset.sum_congr rfl fun e _ => ?_)
  rw [slice2_axis1_apply (96 * h.val) q (slices_q h) i e (hcol h e) rfl,
    transpose_ix2_apply _ transposes_S512x96_p1_0_S96x512 e j,
    slice2_axis1_apply (96 * h.val) k (slices_kv h) j e (hcol h e) rfl]

/-- The weights' row sum, reshaped to a column and broadcast over a head's 96 entries. -/
theorem rowSumB_apply (P : FVec Ideal S256x512 .f32) (i : Fin 256) (e : Fin 96) :
    broadcastTo S256x96
      (shapeCast S256x1 (multiReduction .add [1] S256 P 0x00000000#32 reduces_S256x512_S256 (.inl rfl) rfl)
        shapeCasts_S256_S256x1) broadcasts_S256x1_S256x96 (ix2 i e)
      = ∑ j : Fin 512, P (ix2 i j) :=
  (broadcastTo_a1_ab_apply _ broadcasts_S256x1_S256x96 i e).trans
    ((shapeCast_a_a1_apply _ shapeCasts_S256_S256x1 i (0 : Fin 1)).trans
      (rowSum_apply P reduces_S256x512_S256 _ _ i))

/-- Head `h`'s result at `(i, e)`: the weighted values over the weights' row sum. -/
theorem headO_apply (h : Fin 4) (q : FVec Ideal S256x384 .bf16) (k v : FVec Ideal S512x384 .bf16) (i : Fin 256) (e : Fin 96) :
    headO h q k v (ix2 i e)
      = Ideal.div (∑ j : Fin 512, headP h q k (ix2 i j) * v (ix2 j (hcol h e))) (∑ j : Fin 512, headP h q k (ix2 i j)) := by
  unfold headO
  show Ideal.div (matmul (F := Ideal) dot_S256x512_S512x96_S256x96_1_0_0_1_n_n none _ _ _ (ix2 i e)) (broadcastTo S256x96 _ _ (ix2 i e)) = _
  rw [mm_apply dot_S256x512_S512x96_S256x96_1_0_0_1_n_n rfl rfl rfl rfl rfl rfl, rowSumB_apply]
  refine congrArg (fun z => Ideal.div z _) (Finset.sum_congr rfl fun j _ => ?_)
  rw [slice2_axis1_apply (96 * h.val) v (slices_kv h) j e (hcol h e) rfl]
  rfl

/-- The heads side by side at column `96 h + e`: head `h` at entry `e`. -/
theorem attCat_apply (q : FVec Ideal S256x384 .bf16) (k v : FVec Ideal S512x384 .bf16) (i : Fin 256) (h : Fin 4) (e : Fin 96) :
    attCat q k v (ix2 i (hcol h e)) = headO h q k v (ix2 i e) := by
  unfold attCat
  fin_cases h
  · exact concatenate_apply_piece 1
      [⟨S256x96, headO 0 q k v⟩, ⟨S256x96, headO 1 q k v⟩, ⟨S256x96, headO 2 q k v⟩, ⟨S256x96, headO 3 q k v⟩]
      concatenates_S256x96_S256x96_S256x96_S256x96_S256x384_d1 (ix2 i (hcol ⟨0, by omega⟩ e))
      0 (by show 0 < 4; omega) S256x96 (headO 0 q k v) rfl rfl (96 * 0) rfl (ix2 i e)
      (fun b hb => by
        match b with
        | ⟨0, _⟩ => rfl
        | ⟨1, _⟩ => exact absurd rfl hb) rfl
  · exact concatenate_apply_piece 1
      [⟨S256x96, headO 0 q k v⟩, ⟨S256x96, headO 1 q k v⟩, ⟨S256x96, headO 2 q k v⟩, ⟨S256x96, headO 3 q k v⟩]
      concatenates_S256x96_S256x96_S256x96_S256x96_S256x384_d1 (ix2 i (hcol ⟨1, by omega⟩ e))
      1 (by show 1 < 4; omega) S256x96 (headO 1 q k v) rfl rfl (96 * 1) rfl (ix2 i e)
      (fun b hb => by
        match b with
        | ⟨0, _⟩ => rfl
        | ⟨1, _⟩ => exact absurd rfl hb) rfl
  · exact concatenate_apply_piece 1
      [⟨S256x96, headO 0 q k v⟩, ⟨S256x96, headO 1 q k v⟩, ⟨S256x96, headO 2 q k v⟩, ⟨S256x96, headO 3 q k v⟩]
      concatenates_S256x96_S256x96_S256x96_S256x96_S256x384_d1 (ix2 i (hcol ⟨2, by omega⟩ e))
      2 (by show 2 < 4; omega) S256x96 (headO 2 q k v) rfl rfl (96 * 2) rfl (ix2 i e)
      (fun b hb => by
        match b with
        | ⟨0, _⟩ => rfl
        | ⟨1, _⟩ => exact absurd rfl hb) rfl
  · exact concatenate_apply_piece 1
      [⟨S256x96, headO 0 q k v⟩, ⟨S256x96, headO 1 q k v⟩, ⟨S256x96, headO 2 q k v⟩, ⟨S256x96, headO 3 q k v⟩]
      concatenates_S256x96_S256x96_S256x96_S256x96_S256x384_d1 (ix2 i (hcol ⟨3, by omega⟩ e))
      3 (by show 3 < 4; omega) S256x96 (headO 3 q k v) rfl rfl (96 * 3) rfl (ix2 i e)
      (fun b hb => by
        match b with
        | ⟨0, _⟩ => rfl
        | ⟨1, _⟩ => exact absurd rfl hb) rfl

/-- The product with the output weight block at `(i, d)`. -/
theorem attOut_apply (q : FVec Ideal S256x384 .bf16) (k v : FVec Ideal S512x384 .bf16) (wo : FVec Ideal S384x768 .bf16)
    (i : Fin 256) (d : Fin 768) :
    attOut q k v wo (ix2 i d) = ∑ kk : Fin 384, attCat q k v (ix2 i kk) * wo (ix2 kk d) := by
  unfold attOut
  exact mm_apply dot_S256x384_S384x768_S256x768_1_0_0_1_n_n rfl rfl rfl rfl rfl rfl (truncf .bf16 (attCat q k v) bitsLt_bf16_f32) wo i d

/-- Part `p` at `(row, col)`: the product at column `256 p + col`. -/
theorem accPart_apply (p : Fin 3) (y : FVec Ideal S256x768 .bf16) (row col : Fin 256) :
    accPart p y (ix4 (0 : Fin 1) (0 : Fin 1) row col) = y (ix2 row (⟨256 * p.val + col.val, by omega⟩ : Fin 768)) := by
  unfold accPart
  refine (shapeCast_apply _ shapeCasts_S256x256_S1x1x256x256 (ix4 (0 : Fin 1) (0 : Fin 1) row col) (ix2 row col) (by
    rw [Shape.rowMajor_val_two, Shape.rowMajor_val_four]
    show row.val * 256 + col.val = ((0 * 1 + 0) * 256 + row.val) * 256 + col.val
    omega)).trans ?_
  exact slice2_axis1_apply (256 * p.val) y (slices_part p) row col _ rfl

/-- A row of `X` times column `j` of a weight block. -/
def projN (X : Fin 512 → Fin 768 → EReal) (w : Fin 768 → Fin 384 → EReal) (s : Fin 512) (j : Fin 384) : EReal :=
  ∑ t : Fin 768, X s t * w t j

/-- Head `h`'s score of query row `i` against key row `j`, the queries scaled by `sc`. -/
def scoreN (X : Fin 512 → Fin 768 → EReal) (wq wk : Fin 768 → Fin 384 → EReal) (sc : EReal) (h : Fin 4) (i j : Fin 512) : EReal :=
  ∑ e : Fin 96, (projN X wq i (hcol h e) * sc) * projN X wk j (hcol h e)

/-- Head `h`'s result at row `i`, entry `e`. -/
def headN (X : Fin 512 → Fin 768 → EReal) (wq wk wv : Fin 768 → Fin 384 → EReal) (sc : EReal) (i : Fin 512) (h : Fin 4) (e : Fin 96) : EReal :=
  Ideal.div (∑ j : Fin 512, Ideal.exp (scoreN X wq wk sc h i j) * projN X wv j (hcol h e))
    (∑ j : Fin 512, Ideal.exp (scoreN X wq wk sc h i j))

/-- The four heads side by side: column `k` is entry `k % 96` of head `k / 96`. -/
def catN (X : Fin 512 → Fin 768 → EReal) (wq wk wv : Fin 768 → Fin 384 → EReal) (sc : EReal) (s : Fin 512) (k : Fin 384) : EReal :=
  headN X wq wk wv sc s ⟨k.val / 96, by omega⟩ ⟨k.val % 96, Nat.mod_lt _ (by decide)⟩

/-- The heads times the rows of the output weight block. -/
def attN (X : Fin 512 → Fin 768 → EReal) (wq wk wv : Fin 768 → Fin 384 → EReal) (wo : Fin 384 → Fin 768 → EReal) (sc : EReal)
    (s : Fin 512) (d : Fin 768) : EReal :=
  ∑ k : Fin 384, catN X wq wk wv sc s k * wo k d

/-- A head's result over queries, keys and values that are the projections of `X`. -/
theorem headO_eq_headN (X : Fin 512 → Fin 768 → EReal) (wq wk wv : Fin 768 → Fin 384 → EReal) (sc : EReal) (h2 : Fin 2)
    (q : FVec Ideal S256x384 .bf16) (k v : FVec Ideal S512x384 .bf16)
    (hq : ∀ (row : Fin 256) (j : Fin 384), q (ix2 row j) = projN X wq (⟨256 * h2.val + row.val, by omega⟩ : Fin 512) j * sc)
    (hk : ∀ (s : Fin 512) (j : Fin 384), k (ix2 s j) = projN X wk s j)
    (hv : ∀ (s : Fin 512) (j : Fin 384), v (ix2 s j) = projN X wv s j)
    (h : Fin 4) (row : Fin 256) (e : Fin 96) :
    headO h q k v (ix2 row e) = headN X wq wk wv sc (⟨256 * h2.val + row.val, by omega⟩ : Fin 512) h e := by
  rw [headO_apply]
  unfold headN scoreN
  simp only [headP_apply, hq, hk, hv]

/-- THE STAGE AT AN INDEX, over a device's own argument blocks: element `(row, col)` of part `p` of group `2 b + h2` is the
    attention partial product at row `256 h2 + row` of batch entry `b`, column `256 p + col`. -/
theorem att0_apply (i : Ins Ideal) (b h2 : Fin 2) (p : Fin 3) (row col : Fin 256) :
    att0 (grp b h2) p i (ix4 (0 : Fin 1) (0 : Fin 1) row col)
      = attN (fun s t => xaB b i (ix2 s t)) (fun t j => i.w1 (ix2 t j)) (fun t j => i.w2 (ix2 t j)) (fun t j => i.w3 (ix2 t j))
          (fun k d => i.w4 (ix2 k d)) Spec.scale
          ⟨256 * h2.val + row.val, by omega⟩ ⟨256 * p.val + col.val, by omega⟩ := by
  rw [att0_site, accPart_apply, attOut_apply]
  unfold attN
  refine Finset.sum_congr rfl fun kk _ => ?_
  rw [v37_apply]
  refine congrArg (· * i.w4 (ix2 kk _)) ?_
  have hkk : kk = hcol ⟨kk.val / 96, by omega⟩ ⟨kk.val % 96, Nat.mod_lt _ (by decide)⟩ :=
    Fin.ext (by show kk.val = 96 * (kk.val / 96) + kk.val % 96; omega)
  unfold catN
  conv_lhs => rw [hkk]
  rw [attCat_apply]
  refine headO_eq_headN _ _ _ _ Spec.scale h2 _ _ _ (fun row j => ?_) (fun s j => ?_) (fun s j => ?_) _ row _
  · rw [qRows_apply]; unfold projN; simp only [v28_apply]
  · rw [kvProj_apply]; unfold projN; simp only [v31_apply]
  · rw [kvProj_apply]; unfold projN; simp only [v34_apply]

/-- The natural form over a device's blocks of the whole arrays is the kernel-shaped formula's partial product. -/
theorem attN_eq_attPart (A : Spec.Inputs) (c : Fin 8) (b : Fin 2) (s : Fin 512) (d : Fin 768) :
    attN (KSpec.xaK A b) (fun t j => A.Wq (ix2 t (KSpec.col c j))) (fun t j => A.Wk (ix2 t (KSpec.col c j)))
        (fun t j => A.Wv (ix2 t (KSpec.col c j))) (fun k d => A.Wo (ix2 (KSpec.col c k) d)) Spec.scale s d
      = KSpec.attPart A c b s d := rfl

end Reading

end Cert.KValue.Attn

namespace Cert.KValue

open Idealize.ShloMosaic Idealize.ShloMosaic.ValueIdx Cert.KernelIdeal Cert.KernelIdeal.Gen Cert.KernelIdeal.Vals
open Cert.KIns (insA)

/-- THE STAGE AGAINST THE KERNEL-SHAPED FORMULA: on device `e`'s blocks of the whole arrays, element `(r, j)` of part `p` of
    group `g` as first stored is the device's partial attention result of batch entry `g / 2` at row `256 (g % 2) + r`,
    column `256 p + j`. -/
theorem att0_eq (A : Spec.Inputs) (hA : KSpec.RealInputs A) (e : Fin 8) (g : Fin 4) (p : Fin 3) (r j : Fin 256) :
    att0 g p (insA A e) (ix4 (0 : Fin 1) (0 : Fin 1) r j)
      = KSpec.attPart A e ⟨g.val / 2, by omega⟩ ⟨256 * (g.val % 2) + r.val, by omega⟩ ⟨256 * p.val + j.val, by omega⟩ := by
  obtain ⟨b, h2, rfl⟩ : ∃ b h2 : Fin 2, g = Attn.grp b h2 :=
    ⟨⟨g.val / 2, by omega⟩, ⟨g.val % 2, by omega⟩, Fin.ext (by show g.val = 2 * (g.val / 2) + g.val % 2; omega)⟩
  have hb : (⟨(Attn.grp b h2).val / 2, by omega⟩ : Fin 2) = b :=
    Fin.ext (by show (2 * b.val + h2.val) / 2 = b.val; omega)
  have hs : (⟨256 * ((Attn.grp b h2).val % 2) + r.val, by omega⟩ : Fin 512) = ⟨256 * h2.val + r.val, by omega⟩ :=
    Fin.ext (by show 256 * ((2 * b.val + h2.val) % 2) + r.val = 256 * h2.val + r.val; omega)
  rw [hb, hs, Attn.att0_apply, ← Attn.attN_eq_attPart]
  have h0 : (fun s t => Attn.xaB b (insA A e) (ix2 s t)) = KSpec.xaK A b := by
    funext s t
    fin_cases b
    · exact xa0_eq A hA e s t
    · exact xa1_eq A hA e s t
  have h1 : (fun t j => (insA A e).w1 (ix2 t j)) = fun t j => A.Wq (ix2 t (KSpec.col e j)) :=
    funext fun t => funext fun j => KIns.insA_w1 A e t j
  have h2' : (fun t j => (insA A e).w2 (ix2 t j)) = fun t j => A.Wk (ix2 t (KSpec.col e j)) :=
    funext fun t => funext fun j => KIns.insA_w2 A e t j
  have h3 : (fun t j => (insA A e).w3 (ix2 t j)) = fun t j => A.Wv (ix2 t (KSpec.col e j)) :=
    funext fun t => funext fun j => KIns.insA_w3 A e t j
  have h4 : (fun k d => (insA A e).w4 (ix2 k d)) = fun k d => A.Wo (ix2 (KSpec.col e k) d) :=
    funext fun k => funext fun d => KIns.insA_w4 A e k d
  rw [h0, h1, h2', h3, h4]

/-- info: 'Cert.KValue.att0_eq' depends on axioms: [propext, Classical.choice, Quot.sound] -/
#guard_msgs in #print axioms att0_eq

end Cert.KValue
-- ==== Proof.KValue.Mlp.lean ====
import proofs.«900775_g7700000000000776_dist_diff_dit_htp_i_b2_s512_d768_hq4_v7x_i8_f32_1_alg».proof.Proof.Vals
import proofs.«900775_g7700000000000776_dist_diff_dit_htp_i_b2_s512_d768_hq4_v7x_i8_f32_1_alg».proof.Proof.KSpec
import proofs.«900775_g7700000000000776_dist_diff_dit_htp_i_b2_s512_d768_hq4_v7x_i8_f32_1_alg».proof.Proof.KIns
import proofs.«900775_g7700000000000776_dist_diff_dit_htp_i_b2_s512_d768_hq4_v7x_i8_f32_1_alg».proof.Proof.KValue.Out
import proofs.«900775_g7700000000000776_dist_diff_dit_htp_i_b2_s512_d768_hq4_v7x_i8_f32_1_alg».proof.Proof.KValue.Sites
import proofs.«900775_g7700000000000776_dist_diff_dit_htp_i_b2_s512_d768_hq4_v7x_i8_f32_1_alg».proof.Proof.KValue.Stage0
import Idealize.ShloMosaic.PureOps.Ideal.Laws
import Idealize.ShloMosaic.Lib.ValueIdx
import Idealize.ShloMosaic.Lib.ValueLayout
import Idealize.ShloMosaic.Lib.Pipeline.Value

/-! The feed-forward partial product a device stores for round 1, read at an index.

    For group `g` (batch entry `g / 2`, rows `256 (g % 2)` on) the device takes its 256 × 768 block `X` of the residual
    stream after attention, normalizes each row (mean, variance as the mean of squared deviations, times the reciprocal
    square root of variance plus ε), scales by `1 + sm` and shifts by `shm` (the batch entry's rows of two modulation
    tables), multiplies by its 768 × 384 block of the first feed-forward weight, applies `h / (1 + exp (-h))`, multiplies
    by its 384 × 768 block of the second weight, and stores columns `256 p …` of the product as part `p`.

    The four groups print this with different sharing of subterms; each is, by unfolding, ONE function of the block,
    the two modulation rows and the two weights (`mlp0_eq`). That function is then read at an index over the extended
    reals (`ffG_apply`, `mlp0_apply`), and at a device's blocks of the whole arrays it is the device's partial
    feed-forward result of the kernel-shaped formula (`mlp0_eq_of`, `mlp0_eq`). -/

noncomputable section

open scoped BigOperators

namespace Cert.KValue

open Idealize.ShloMosaic Idealize.ShloMosaic.ValueIdx Cert.KernelIdeal Cert.KernelIdeal.Gen Cert.KernelIdeal.Vals

/-! ## The stage as one function, generic in the float instance -/

section Generic
variable {F : FTy → Type} [FloatOps F]

/-- Batch entry 0's row of a [2, 768] table, as a [1, 768] vector. -/
def ffRow0 (m : FVec F S2x768 .f32) : FVec F S1x768 .f32 :=
  shapeCast S1x768
    (shapeCast S768 (extractStridedSlice S1x768 ![0, 0] m slices_S2x768_o0_0_S1x768 : FVec F S1x768 .f32)
      shapeCasts_S1x768_S768 : FVec F S768 .f32)
    shapeCasts_S768_S1x768

/-- Batch entry 1's row. -/
def ffRow1 (m : FVec F S2x768 .f32) : FVec F S1x768 .f32 :=
  shapeCast S1x768
    (shapeCast S768 (extractStridedSlice S1x768 ![1, 0] m slices_S2x768_o1_0_S1x768 : FVec F S1x768 .f32)
      shapeCasts_S1x768_S768 : FVec F S768 .f32)
    shapeCasts_S768_S1x768

/-- Group `g`'s row of a modulation table: groups 0, 1 are batch entry 0, groups 2, 3 batch entry 1. -/
def ffRowT : Fin 4 → FVec F S2x768 .f32 → FVec F S1x768 .f32 := ![ffRow0, ffRow0, ffRow1, ffRow1]

/-- Each row's sum over its 768 entries, over 768: a [256, 1] column. -/
def ffMean (X : FVec F S256x768 .f32) : FVec F S256x1 .f32 :=
  divf
    (shapeCast S256x1
      (multiReduction .add [1] S256 X 0x00000000#32 reduces_S256x768_S256 (.inl rfl) rfl : FVec F S256 .f32)
      shapeCasts_S256_S256x1 : FVec F S256x1 .f32)
    (broadcast S256x1 (Scalar.ofBits .f32 0x44400000#32 : F .f32))

/-- Each row less its mean. -/
def ffCen (X : FVec F S256x768 .f32) : FVec F S256x768 .f32 :=
  subf X (broadcastTo S256x768 (ffMean X) broadcasts_S256x1_S256x768)

/-- Each row normalized: less its mean, times the reciprocal square root of its variance plus ε. -/
def ffLn (X : FVec F S256x768 .f32) : FVec F S256x768 .f32 :=
  mulf (ffCen X)
    (broadcastTo S256x768
      (rsqrt (addf (ffMean (mulf (ffCen X) (ffCen X))) (broadcast S256x1 (Scalar.ofBits .f32 0x3727C5AC#32 : F .f32))))
      broadcasts_S256x1_S256x768)

/-- The normalized block scaled by `1 + smR` and shifted by `shmR`. -/
def ffXm (smR shmR : FVec F S1x768 .f32) (X : FVec F S256x768 .f32) : FVec F S256x768 .f32 :=
  addf
    (mulf (ffLn X)
      (broadcastTo S256x768 (addf (broadcast S1x768 (Scalar.ofBits .f32 0x3F800000#32 : F .f32)) smR)
        broadcasts_S1x768_S256x768))
    (broadcastTo S256x768 shmR broadcasts_S1x768_S256x768)

/-- Times the device's block of the first feed-forward weight. -/
def ffH (smR shmR : FVec F S1x768 .f32) (W1 : FVec F S768x384 .bf16) (X : FVec F S256x768 .f32) : FVec F S256x384 .f32 :=
  matmul dot_S256x768_S768x384_S256x384_1_0_0_1_n_n none (truncf .bf16 (ffXm smR shmR X) bitsLt_bf16_f32) W1
    (constant S256x384 .f32 0x00000000#32)

/-- `h / (1 + exp (0 - h))`. -/
def ffAct (H : FVec F S256x384 .f32) : FVec F S256x384 .f32 :=
  divf H
    (addf (broadcast S256x384 (Scalar.ofBits .f32 0x3F800000#32 : F .f32))
      (exp (subf (broadcast S256x384 (Scalar.ofBits .f32 0x00000000#32 : F .f32)) H)))

/-- The device's whole partial feed-forward product for the block, 256 × 768. -/
def ffG (smR shmR : FVec F S1x768 .f32) (W1 : FVec F S768x384 .bf16) (W2 : FVec F S384x768 .bf16)
    (X : FVec F S256x768 .f32) : FVec F S256x768 .bf16 :=
  truncf .bf16
    (matmul dot_S256x384_S384x768_S256x768_1_0_0_1_n_n none
      (truncf .bf16 (ffAct (ffH smR shmR W1 X)) bitsLt_bf16_f32) W2 (constant S256x768 .f32 0x00000000#32))
    bitsLt_bf16_f32

/-- Columns `256 p …` of a 256 × 768 product, under the accumulator slice's shape. -/
def ffPart : Fin 3 → FVec F S256x768 .bf16 → Acc F :=
  ![fun Y => shapeCast S1x1x256x256
      (extractStridedSlice S256x256 ![0, 0] Y slices_S256x768_o0_0_S256x256 : FVec F S256x256 .bf16)
      shapeCasts_S256x256_S1x1x256x256,
    fun Y => shapeCast S1x1x256x256
      (extractStridedSlice S256x256 ![0, 256] Y slices_S256x768_o0_256_S256x256 : FVec F S256x256 .bf16)
      shapeCasts_S256x256_S1x1x256x256,
    fun Y => shapeCast S1x1x256x256
      (extractStridedSlice S256x256 ![0, 512] Y slices_S256x768_o0_512_S256x256 : FVec F S256x256 .bf16)
      shapeCasts_S256x256_S1x1x256x256]

/-- Every group's and part's stored term is that one function of the group's block of the residual stream. -/
theorem mlp0_eq_ffG (g : Fin 4) (p : Fin 3) (i : Ins F) (a : Fin 3 → Acc F) (b : Fin 3 → Rs F) :
    mlp0 g p i a b = ffPart p (ffG (ffRowT g (v23 i)) (ffRowT g (v24 i)) (v40 i) (v43 i) (x1 g i a b)) := by
  fin_cases g <;> fin_cases p <;> rfl

end Generic

/-! ## Layout and contraction readings at the shapes of this stage -/

section Reads
variable {α : Type}

/-- A [256] vector as a [256, 1] column. -/
theorem ff_col_of_vec_apply (v : S256.Idx → α) (r : Fin 256) (u : Fin 1) :
    shapeCast S256x1 v shapeCasts_S256_S256x1 (ix2 r u) = v (ix1 r) :=
  shapeCast_apply v _ _ _ (by
    have hu : u.val = 0 := by omega
    rw [Shape.rowMajor_val_one, Shape.rowMajor_val_two]
    show r.val = r.val * 1 + u.val
    omega)

/-- A [256, 1] column broadcast along the rows. -/
theorem ff_bcol_apply (v : S256x1.Idx → α) (r : Fin 256) (d : Fin 768) :
    broadcastTo S256x768 v broadcasts_S256x1_S256x768 (ix2 r d) = v (ix2 r (0 : Fin 1)) := by
  refine broadcastTo_apply v _ (ix2 r d) (ix2 r (0 : Fin 1)) fun ax => ?_
  match ax with
  | ⟨0, _⟩ =>
    show r.val = if (256 : Nat) = 1 then 0 else r.val
    rw [if_neg (by decide)]
  | ⟨1, _⟩ =>
    show (0 : Nat) = if (1 : Nat) = 1 then 0 else d.val
    rw [if_pos rfl]

/-- A 256 × 256 matrix under the accumulator slice's shape. -/
theorem ff_to_acc_apply (v : S256x256.Idx → α) (r e : Fin 256) :
    shapeCast S1x1x256x256 v shapeCasts_S256x256_S1x1x256x256 (ix4 (0 : Fin 1) (0 : Fin 1) r e) = v (ix2 r e) :=
  shapeCast_apply v _ _ _ (by
    rw [Shape.rowMajor_val_two, Shape.rowMajor_val_four]
    show r.val * 256 + e.val = (((0 : Nat) * 1 + 0) * 256 + r.val) * 256 + e.val
    omega)

end Reads

/-- A row's sum over its 768 entries. -/
theorem ff_rowsum_apply (X : FVec Ideal S256x768 .f32) (r : Fin 256) :
    (multiReduction .add [1] S256 X 0x00000000#32 reduces_S256x768_S256 (.inl rfl) rfl : FVec Ideal S256 .f32) (ix1 r)
      = ∑ k : Fin 768, X (ix2 r k) := by
  refine (Ideal.multiReduction_add_single X 0x00000000#32 reduces_S256x768_S256 _ _ (ix1 r)).trans ?_
  refine Finset.sum_congr rfl fun k _ => congrArg X ?_
  funext a; apply Fin.ext
  match a with
  | ⟨0, _⟩ => rfl
  | ⟨1, _⟩ => rfl

/-- [256, 768] times [768, 384], into the zero accumulator. -/
theorem ff_mm1_apply (l : FVec Ideal S256x768 .bf16) (w : FVec Ideal S768x384 .bf16) (r : Fin 256) (k : Fin 384) :
    (matmul dot_S256x768_S768x384_S256x384_1_0_0_1_n_n none l w (constant S256x384 .f32 0x00000000#32) : FVec Ideal S256x384 .f32) (ix2 r k)
      = ∑ j : Fin 768, l (ix2 r j) * w (ix2 j k) := by
  show FloatOps.matmul _ none l w _ (ix2 r k) = _
  rw [Ideal.matmul_constant_zero_apply, ← Equiv.sum_comp (contrEquiv1 dot_S256x768_S768x384_S256x384_1_0_0_1_n_n 768 rfl rfl).symm]
  refine Finset.sum_congr rfl fun j _ => ?_
  have ck := contrEquiv1_symm_val dot_S256x768_S768x384_S256x384_1_0_0_1_n_n 768 rfl rfl j
  have hl : dot_S256x768_S768x384_S256x384_1_0_0_1_n_n.lhsIdx (ix2 r k) ((contrEquiv1 _ 768 rfl rfl).symm j) = ix2 r j := by
    funext ax; apply Fin.ext
    match ax with
    | ⟨0, _⟩ => simp [DotDims.lhsIdx, dot_S256x768_S768x384_S256x384_1_0_0_1_n_n]; rfl
    | ⟨1, _⟩ => simp [DotDims.lhsIdx, dot_S256x768_S768x384_S256x384_1_0_0_1_n_n]; exact ck
  have hr : dot_S256x768_S768x384_S256x384_1_0_0_1_n_n.rhsIdx (ix2 r k) ((contrEquiv1 _ 768 rfl rfl).symm j) = ix2 j k := by
    funext ax; apply Fin.ext
    match ax with
    | ⟨0, _⟩ => simp [DotDims.rhsIdx, dot_S256x768_S768x384_S256x384_1_0_0_1_n_n]; exact ck
    | ⟨1, _⟩ => simp [DotDims.rhsIdx, dot_S256x768_S768x384_S256x384_1_0_0_1_n_n]; rfl
  rw [hl, hr]

/-- [256, 384] times [384, 768], into the zero accumulator. -/
theorem ff_mm2_apply (l : FVec Ideal S256x384 .bf16) (w : FVec Ideal S384x768 .bf16) (r : Fin 256) (d : Fin 768) :
    (matmul dot_S256x384_S384x768_S256x768_1_0_0_1_n_n none l w (constant S256x768 .f32 0x00000000#32) : FVec Ideal S256x768 .f32) (ix2 r d)
      = ∑ k : Fin 384, l (ix2 r k) * w (ix2 k d) := by
  show FloatOps.matmul _ none l w _ (ix2 r d) = _
  rw [Ideal.matmul_constant_zero_apply, ← Equiv.sum_comp (contrEquiv1 dot_S256x384_S384x768_S256x768_1_0_0_1_n_n 384 rfl rfl).symm]
  refine Finset.sum_congr rfl fun k _ => ?_
  have ck := contrEquiv1_symm_val dot_S256x384_S384x768_S256x768_1_0_0_1_n_n 384 rfl rfl k
  have hl : dot_S256x384_S384x768_S256x768_1_0_0_1_n_n.lhsIdx (ix2 r d) ((contrEquiv1 _ 384 rfl rfl).symm k) = ix2 r k := by
    funext ax; apply Fin.ext
    match ax with
    | ⟨0, _⟩ => simp [DotDims.lhsIdx, dot_S256x384_S384x768_S256x768_1_0_0_1_n_n]; rfl
    | ⟨1, _⟩ => simp [DotDims.lhsIdx, dot_S256x384_S384x768_S256x768_1_0_0_1_n_n]; exact ck
  have hr : dot_S256x384_S384x768_S256x768_1_0_0_1_n_n.rhsIdx (ix2 r d) ((contrEquiv1 _ 384 rfl rfl).symm k) = ix2 k d := by
    funext ax; apply Fin.ext
    match ax with
    | ⟨0, _⟩ => simp [DotDims.rhsIdx, dot_S256x384_S384x768_S256x768_1_0_0_1_n_n]; exact ck
    | ⟨1, _⟩ => simp [DotDims.rhsIdx, dot_S256x384_S384x768_S256x768_1_0_0_1_n_n]; rfl
  rw [hl, hr]

/-! ## The stage read at an index, over the extended reals -/

/-- Group `g`'s batch entry. -/
def ffB (g : Fin 4) : Fin 2 := ⟨g.val / 2, by omega⟩

/-- Part `p`'s column `e` among the 768. -/
def ffCol (p : Fin 3) (e : Fin 256) : Fin 768 := ⟨256 * p.val + e.val, by omega⟩

theorem ffRow0_apply (m : FVec Ideal S2x768 .f32) (d : Fin 768) : ffRow0 m (ix2 (0 : Fin 1) d) = m (ix2 (0 : Fin 2) d) := by
  unfold ffRow0
  refine (shapeCast_a_1a_apply _ shapeCasts_S768_S1x768 0 d).trans ?_
  refine (shapeCast_1a_a_apply _ shapeCasts_S1x768_S768 d).trans ?_
  exact slice2_axis0_apply 0 m slices_S2x768_o0_0_S1x768 (0 : Fin 1) d (0 : Fin 2) rfl

theorem ffRow1_apply (m : FVec Ideal S2x768 .f32) (d : Fin 768) : ffRow1 m (ix2 (0 : Fin 1) d) = m (ix2 (1 : Fin 2) d) := by
  unfold ffRow1
  refine (shapeCast_a_1a_apply _ shapeCasts_S768_S1x768 0 d).trans ?_
  refine (shapeCast_1a_a_apply _ shapeCasts_S1x768_S768 d).trans ?_
  exact slice2_axis0_apply 1 m slices_S2x768_o1_0_S1x768 (0 : Fin 1) d (1 : Fin 2) rfl

/-- Group `g`'s row of a modulation table is the table's row of the group's batch entry. -/
theorem ffRowT_apply (g : Fin 4) (m : FVec Ideal S2x768 .f32) (d : Fin 768) :
    ffRowT g m (ix2 (0 : Fin 1) d) = m (ix2 (ffB g) d) := by
  fin_cases g
  · exact ffRow0_apply m d
  · exact ffRow0_apply m d
  · exact ffRow1_apply m d
  · exact ffRow1_apply m d

/-- The mean of a row of 768. -/
def rowMean (f : Fin 768 → EReal) : EReal := Ideal.div (∑ k : Fin 768, f k) Spec.width

/-- The variance of a row of 768: the mean of the squares of the row less its mean. -/
def rowVar (f : Fin 768 → EReal) : EReal :=
  Ideal.div (∑ k : Fin 768, (f k - rowMean f) * (f k - rowMean f)) Spec.width

/-- A row normalized: less its mean, times the reciprocal square root of its variance plus ε. -/
def rowLn (f : Fin 768 → EReal) (d : Fin 768) : EReal := (f d - rowMean f) * Ideal.rsqrt (rowVar f + Spec.eps)

/-- The kernel-shaped layer norm is the row's, row by row. -/
theorem lnK_eq_rowLn (h : Fin 2 → Fin 512 → Fin 768 → EReal) (b : Fin 2) (s : Fin 512) (d : Fin 768) :
    KSpec.lnK h b s d = rowLn (h b s) d := rfl

theorem ffMean_apply (X : FVec Ideal S256x768 .f32) (r : Fin 256) (u : Fin 1) :
    ffMean X (ix2 r u) = rowMean fun k => X (ix2 r k) := by
  unfold ffMean rowMean
  refine (divf_apply _ _ _).trans ?_
  rw [ff_col_of_vec_apply, ff_rowsum_apply]
  rfl

theorem ffCen_apply (X : FVec Ideal S256x768 .f32) (r : Fin 256) (d : Fin 768) :
    ffCen X (ix2 r d) = X (ix2 r d) - rowMean fun k => X (ix2 r k) := by
  unfold ffCen
  refine (subf_apply _ _ _).trans ?_
  rw [ff_bcol_apply, ffMean_apply]

theorem ffLn_apply (X : FVec Ideal S256x768 .f32) (r : Fin 256) (d : Fin 768) :
    ffLn X (ix2 r d) = rowLn (fun k => X (ix2 r k)) d := by
  unfold ffLn
  refine (mulf_apply _ _ _).trans ?_
  rw [ff_bcol_apply, ffCen_apply]
  show _ * Ideal.rsqrt (ffMean (mulf (ffCen X) (ffCen X)) (ix2 r (0 : Fin 1)) + Ideal.ofBits .f32 0x3727C5AC#32) = _
  rw [ffMean_apply]
  simp only [mulf_apply, ffCen_apply]
  rfl

theorem ffXm_apply (smR shmR : FVec Ideal S1x768 .f32) (X : FVec Ideal S256x768 .f32) (r : Fin 256) (d : Fin 768) :
    ffXm smR shmR X (ix2 r d)
      = rowLn (fun k => X (ix2 r k)) d * (Spec.one + smR (ix2 (0 : Fin 1) d)) + shmR (ix2 (0 : Fin 1) d) := by
  unfold ffXm
  refine (addf_apply _ _ _).trans ?_
  rw [mulf_apply, ffLn_apply, broadcastTo_1b_ab_apply, broadcastTo_1b_ab_apply, addf_apply, broadcast_apply]
  rfl

theorem ffH_apply (smR shmR : FVec Ideal S1x768 .f32) (W1 : FVec Ideal S768x384 .bf16) (X : FVec Ideal S256x768 .f32)
    (r : Fin 256) (k : Fin 384) :
    ffH smR shmR W1 X (ix2 r k) = ∑ j : Fin 768, ffXm smR shmR X (ix2 r j) * W1 (ix2 j k) := by
  unfold ffH
  refine (ff_mm1_apply _ _ r k).trans ?_
  simp only [truncf_apply]

theorem ffAct_apply (H : FVec Ideal S256x384 .f32) (r : Fin 256) (k : Fin 384) :
    ffAct H (ix2 r k) = Ideal.div (H (ix2 r k)) (Spec.one + Ideal.exp (-(H (ix2 r k)))) := by
  unfold ffAct
  refine (divf_apply _ _ _).trans ?_
  show Ideal.div _ (Ideal.ofBits .f32 0x3F800000#32 + Ideal.exp (Ideal.ofBits .f32 0x00000000#32 - H (ix2 r k))) = _
  rw [Ideal.ofBits_zero_f32, zero_sub]
  rfl

theorem ffG_apply (smR shmR : FVec Ideal S1x768 .f32) (W1 : FVec Ideal S768x384 .bf16) (W2 : FVec Ideal S384x768 .bf16)
    (X : FVec Ideal S256x768 .f32) (r : Fin 256) (d : Fin 768) :
    ffG smR shmR W1 W2 X (ix2 r d) = ∑ k : Fin 384, ffAct (ffH smR shmR W1 X) (ix2 r k) * W2 (ix2 k d) := by
  unfold ffG
  show (matmul dot_S256x384_S384x768_S256x768_1_0_0_1_n_n none (truncf .bf16 (ffAct (ffH smR shmR W1 X)) bitsLt_bf16_f32) W2
      (constant S256x768 .f32 0x00000000#32) : FVec Ideal S256x768 .f32) (ix2 r d) = _
  refine (ff_mm2_apply _ _ r d).trans ?_
  simp only [truncf_apply]

theorem ffPart_apply (p : Fin 3) (Y : FVec Ideal S256x768 .bf16) (r e : Fin 256) :
    ffPart p Y (ix4 (0 : Fin 1) (0 : Fin 1) r e) = Y (ix2 r (ffCol p e)) := by
  match p with
  | ⟨0, _⟩ =>
    show shapeCast S1x1x256x256 (extractStridedSlice S256x256 ![0, 0] Y slices_S256x768_o0_0_S256x256)
      shapeCasts_S256x256_S1x1x256x256 (ix4 (0 : Fin 1) (0 : Fin 1) r e) = _
    rw [ff_to_acc_apply]
    exact slice2_axis1_apply 0 Y slices_S256x768_o0_0_S256x256 r e _ (by simp [ffCol])
  | ⟨1, _⟩ =>
    show shapeCast S1x1x256x256 (extractStridedSlice S256x256 ![0, 256] Y slices_S256x768_o0_256_S256x256)
      shapeCasts_S256x256_S1x1x256x256 (ix4 (0 : Fin 1) (0 : Fin 1) r e) = _
    rw [ff_to_acc_apply]
    exact slice2_axis1_apply 256 Y slices_S256x768_o0_256_S256x256 r e _ (by simp [ffCol])
  | ⟨2, _⟩ =>
    show shapeCast S1x1x256x256 (extractStridedSlice S256x256 ![0, 512] Y slices_S256x768_o0_512_S256x256)
      shapeCasts_S256x256_S1x1x256x256 (ix4 (0 : Fin 1) (0 : Fin 1) r e) = _
    rw [ff_to_acc_apply]
    exact slice2_axis1_apply 512 Y slices_S256x768_o0_512_S256x256 r e _ (by simp [ffCol])

/-! ## The stored term read at an index -/

/-- Entry `(r, e)` of part `p` of group `g`'s stored term: row `r` of the group's block of the residual stream, normalized,
    modulated by the batch entry's rows, through the two weights, at column `256 p + e`. -/
theorem mlp0_apply (g : Fin 4) (p : Fin 3) (i : Ins Ideal) (a : Fin 3 → Acc Ideal) (b : Fin 3 → Rs Ideal) (r e : Fin 256) :
    mlp0 g p i a b (ix4 (0 : Fin 1) (0 : Fin 1) r e)
      = ∑ k : Fin 384,
          (let h : EReal := ∑ j : Fin 768,
              (rowLn (fun j' => x1 g i a b (ix2 r j')) j * (Spec.one + v23 i (ix2 (ffB g) j)) + v24 i (ix2 (ffB g) j))
                * v40 i (ix2 j k)
           Ideal.div h (Spec.one + Ideal.exp (-h))) * v43 i (ix2 k (ffCol p e)) := by
  rw [mlp0_eq_ffG, ffPart_apply, ffG_apply]
  refine Finset.sum_congr rfl fun k _ => ?_
  rw [ffAct_apply, ffH_apply]
  simp only [ffXm_apply, ffRowT_apply]

/-! ## At a device's blocks of the whole arrays -/

theorem v40_insA (A : Spec.Inputs) (c : Fin 8) (j : Fin 768) (k : Fin 384) :
    v40 (Cert.KIns.insA A c) (ix2 j k) = A.Wff1 (ix2 j (KSpec.col c k)) := by
  show truncf .bf16 (shapeCast S768x384 (Cert.KIns.insA A c).w7 shapeCasts_S768x384_S768x384 : FVec Ideal S768x384 .f32)
    bitsLt_bf16_f32 (ix2 j k) = _
  rw [truncf_apply, shapeCast_self]
  exact Cert.KIns.insA_w7 A c j k

theorem v43_insA (A : Spec.Inputs) (c : Fin 8) (k : Fin 384) (d : Fin 768) :
    v43 (Cert.KIns.insA A c) (ix2 k d) = A.Wff2 (ix2 (KSpec.col c k) d) := by
  show truncf .bf16 (shapeCast S384x768 (Cert.KIns.insA A c).w8 shapeCasts_S384x768_S384x768 : FVec Ideal S384x768 .f32)
    bitsLt_bf16_f32 (ix2 k d) = _
  rw [truncf_apply, shapeCast_self]
  exact Cert.KIns.insA_w8 A c k d

/-- The stage from its three inputs: on device `e`, entry `(r, j)` of part `p` of group `g`'s term stored for round 1 is the device's partial
    feed-forward result of the kernel-shaped formula at batch entry `g / 2`, row `256 (g % 2) + r`, column `256 p + j`,
    given the two modulation rows and the group's block of the residual stream after attention at that row. -/
theorem mlp0_eq_of (A : Spec.Inputs) (e : Dev nD) (g : Fin 4) (p : Fin 3) (r j : Fin 256)
    (hsm : ∀ d : Fin 768, v23 (Cert.KIns.insA A e) (ix2 (⟨g.val / 2, by omega⟩ : Fin 2) d)
        = Spec.sm A ⟨g.val / 2, by omega⟩ d)
    (hshm : ∀ d : Fin 768, v24 (Cert.KIns.insA A e) (ix2 (⟨g.val / 2, by omega⟩ : Fin 2) d)
        = Spec.shm A ⟨g.val / 2, by omega⟩ d)
    (hx : ∀ d : Fin 768, x1C (fun c => Cert.KIns.insA A c) e g (ix2 r d)
        = KSpec.x1K A ⟨g.val / 2, by omega⟩ ⟨256 * (g.val % 2) + r.val, by omega⟩ d) :
    mlp0 g p (Cert.KIns.insA A e)
        (fun q => Cert.KernelIdeal.Vals.A (fun c => Cert.KIns.insA A c) 0 e g q 2)
        (fun q => Cert.KernelIdeal.Vals.R (fun c => Cert.KIns.insA A c) 0 e g q 2)
        (ix4 (0 : Fin 1) (0 : Fin 1) r j)
      = KSpec.mlpPart A e ⟨g.val / 2, by omega⟩ ⟨256 * (g.val % 2) + r.val, by omega⟩ ⟨256 * p.val + j.val, by omega⟩ := by
  rw [mlp0_apply]
  unfold KSpec.mlpPart KSpec.actK
  refine Finset.sum_congr rfl fun k _ => ?_
  have hX : ∀ d : Fin 768,
      x1 g (Cert.KIns.insA A e) (fun q => Cert.KernelIdeal.Vals.A (fun c => Cert.KIns.insA A c) 0 e g q 2)
        (fun q => Cert.KernelIdeal.Vals.R (fun c => Cert.KIns.insA A c) 0 e g q 2) (ix2 r d)
        = KSpec.x1K A ⟨g.val / 2, by omega⟩ ⟨256 * (g.val % 2) + r.val, by omega⟩ d := hx
  have hh : (∑ j' : Fin 768,
        (rowLn (fun j'' => x1 g (Cert.KIns.insA A e)
            (fun q => Cert.KernelIdeal.Vals.A (fun c => Cert.KIns.insA A c) 0 e g q 2)
            (fun q => Cert.KernelIdeal.Vals.R (fun c => Cert.KIns.insA A c) 0 e g q 2) (ix2 r j'')) j'
          * (Spec.one + v23 (Cert.KIns.insA A e) (ix2 (ffB g) j')) + v24 (Cert.KIns.insA A e) (ix2 (ffB g) j'))
          * v40 (Cert.KIns.insA A e) (ix2 j' k))
      = KSpec.hK A e ⟨g.val / 2, by omega⟩ ⟨256 * (g.val % 2) + r.val, by omega⟩ k := by
    unfold KSpec.hK
    refine Finset.sum_congr rfl fun j' _ => ?_
    rw [v40_insA]
    simp only [hX]
    show (_ * (Spec.one + v23 (Cert.KIns.insA A e) (ix2 (⟨g.val / 2, by omega⟩ : Fin 2) j'))
      + v24 (Cert.KIns.insA A e) (ix2 (⟨g.val / 2, by omega⟩ : Fin 2) j')) * _ = _
    rw [hsm, hshm]
    rfl
  simp only [hh]
  rw [v43_insA]
  rfl

/-- THE STAGE: on device `e`, entry `(r, j)` of part `p` of group `g`'s term stored for round 1 is the device's partial
    feed-forward result of the kernel-shaped formula — the residual stream after attention being the input plus the gated
    sum over the eight devices of their partial attention products (`hatt`: what each device first stored in round 0). -/
theorem mlp0_eq (A : Spec.Inputs) (hA : KSpec.RealInputs A)
    (hatt : ∀ (e : Fin 8) (g : Fin 4) (p : Fin 3) (r j : Fin 256),
      (att0 g p (Cert.KIns.insA A e) (ix4 0 0 r j) : EReal) = KSpec.attPart A e (gB g) (gRow g r) (pcol p j))
    (e : Fin 8) (g : Fin 4) (p : Fin 3) (r j : Fin 256) :
    (mlp0 g p (Cert.KIns.insA A e)
        (fun q => Cert.KernelIdeal.Vals.A (fun c => Cert.KIns.insA A c) 0 e g q 2)
        (fun q => Cert.KernelIdeal.Vals.R (fun c => Cert.KIns.insA A c) 0 e g q 2)
        (ix4 0 0 r j) : EReal)
      = KSpec.mlpPart A e (gB g) (gRow g r) (pcol p j) :=
  mlp0_eq_of A e g p r j (fun d => mod3_eq A e (gB g) d) (fun d => mod4_eq A e (gB g) d)
    (fun d => x1C_eq_x1K A x1_at (fun c b d => mod2_eq A c b d) hatt e g r d)

/-- info: 'Cert.KValue.mlp0_eq' depends on axioms: [propext, Classical.choice, Quot.sound] -/
#guard_msgs in #print axioms mlp0_eq

end Cert.KValue

end
-- ==== Proof.KValue.OutEq.lean ====
import proofs.«900775_g7700000000000776_dist_diff_dit_htp_i_b2_s512_d768_hq4_v7x_i8_f32_1_alg».proof.Proof.KValue.Out
import proofs.«900775_g7700000000000776_dist_diff_dit_htp_i_b2_s512_d768_hq4_v7x_i8_f32_1_alg».proof.Proof.KValue.Sites
import proofs.«900775_g7700000000000776_dist_diff_dit_htp_i_b2_s512_d768_hq4_v7x_i8_f32_1_alg».proof.Proof.KValue.Stage0
import proofs.«900775_g7700000000000776_dist_diff_dit_htp_i_b2_s512_d768_hq4_v7x_i8_f32_1_alg».proof.Proof.KValue.Attn
import proofs.«900775_g7700000000000776_dist_diff_dit_htp_i_b2_s512_d768_hq4_v7x_i8_f32_1_alg».proof.Proof.KValue.Mlp

/-! The kernel's value on the eight devices: every device's output window ends holding, entry by entry, the kernel-shaped
    formula of the nine argument arrays. The two reading sites, the two gates, and the first stored slices of both rounds
    are read in their own modules; here they meet the all-reduce and the output window's layout. -/

noncomputable section

open scoped BigOperators

namespace Cert.KValue

open Idealize.ShloMosaic Cert.KernelIdeal Cert.KernelIdeal.Gen Cert.KernelIdeal.Mesh Cert.KernelIdeal.Vals
open Idealize.ShloMosaic.ValueIdx

/-- THE KERNEL'S VALUE AT THE IDEAL INSTANCE. -/
theorem out_eq : ∀ A : Cert.Spec.Inputs, Cert.KSpec.RealInputs A → ∀ (c : Dev nD) (b : Fin 2) (s : Fin 512) (d : Fin 768),
    Vals.outC (fun c => Cert.KIns.insA A c) c (ix3 b s d) = Cert.KSpec.outK A b s d :=
  fun A hA c b s d =>
    out_eq_of A x1_at outSite_at (fun c b d => mod2_eq A c b d) (fun c b d => mod5_eq A c b d)
      (fun e g p r j => att0_eq A hA e g p r j)
      (fun e g p r j => mlp0_eq A hA (fun e g p r j => att0_eq A hA e g p r j) e g p r j) c b s d

/-- info: 'Cert.KValue.out_eq' depends on axioms: [propext, Classical.choice, Quot.sound] -/
#guard_msgs in #print axioms out_eq

end Cert.KValue

end
-- ==== Proof.LaunchK.lean ====
import proofs.«900775_g7700000000000776_dist_diff_dit_htp_i_b2_s512_d768_hq4_v7x_i8_f32_1_alg».proof.Proof.Gen.KernelIdeal.Frame
import Idealize.ShloMosaic.Lib.Pipeline.Launch
import Idealize.ShloMosaic.Lib.Pipeline.Kit
import Idealize.ShloMosaic.Lib.Tactic

/-! # The launch of the one region on the eight devices

The region's own semaphores on a device are 24 send cells, 24 receive cells and one exit cell; the barrier
semaphore is the runtime's and is not scoped to the region. Every cell has ONE round of THREE duties. The
cells' ghost state lives in a second copy of the rounds algebra (duty names `Fin 3`) beside the pipeline's
own copy. This module states the proof data of the one grid point and derives the run of @main from the body
obligation, for ANY schedule over these cells whose duties are dealt to the devices by a bijection per
(cell, duty) (`Iface`). -/

noncomputable section

namespace Cert.KernelIdeal.LaunchK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore of collective id 0 (not scoped), and the region's exit semaphore (scoped). -/
abbrev barS : Sem sig := (SemArray.scalar (sig.barrier 0 rfl) : Sems sig S_).sem
abbrev exitS : Sem sig := cc0_scoped0.sem
/-- The `k`-th send and receive DMA semaphores: the `k`-th of the 24 consecutive ones from 10, from 34. -/
def sendS (k : Fin 24) : DmaSem sig := ⟨10 + k.val, by have := k.isLt; show 10 + k.val < 58; omega⟩
def recvS (k : Fin 24) : DmaSem sig := ⟨34 + k.val, by have := k.isLt; show 34 + k.val < 58; omega⟩

/-- The region's own cells on a device: send `k`, receive `k`, exit. -/
abbrev Own : Type := Fin 24 ⊕ Fin 24 ⊕ Unit
/-- All the protocol's cells on a device: the barrier cell and the own ones. -/
abbrev Cell : Type := Unit ⊕ Own

abbrev Cell.bar : Cell := .inl ()
abbrev Cell.send (k : Fin 24) : Cell := .inr (.inl k)
abbrev Cell.recv (k : Fin 24) : Cell := .inr (.inr (.inl k))
abbrev Cell.exit : Cell := .inr (.inr (.inr ()))

def osem : Own → SemLoc sig
  | .inl k => .dma (sendS k)
  | .inr (.inl k) => .dma (recvS k)
  | .inr (.inr _) => .reg exitS

def csem : Cell → SemLoc sig
  | .inl _ => .reg barS
  | .inr o => osem o

abbrev kcell (ck : Dev nD × Cell) : GSem nD τ sig := ((ck.1 : Thread nD τ), csem ck.2)

abbrev barCell (c : Dev nD) : GSem nD τ sig := kcell (c, Cell.bar)
abbrev sendCell (c : Dev nD) (k : Fin 24) : GSem nD τ sig := kcell (c, Cell.send k)
abbrev recvCell (c : Dev nD) (k : Fin 24) : GSem nD τ sig := kcell (c, Cell.recv k)
abbrev exitCell (c : Dev nD) : GSem nD τ sig := kcell (c, Cell.exit)

theorem csem_injective : Function.Injective csem := by decide
theorem kcell_injective : Function.Injective (kcell : Dev nD × Cell → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
theorem ownSemFacts : Pipeline.OwnSemFacts cfg0.spec osem := by decide

/-! ## What the launch deals each device -/

section Deal

variable (Rd : Rounds.Schedule (GSem nD τ sig) (Fin 3) (MT nD τ sig Unit (Elt F) ℕ UU ℕ))

/-- The persistent records every device is handed: every cell's invariant, under the names `K` the launch allocated
    them at, and that round 0 of every cell is reached. One family: `inv_at` / `reached_at` read a member off. -/
def records (K : Dev nD × Cell → ℕ) : sProp 𝕄 :=
  iprop((bigSep Finset.univ fun ck : Dev nD × Cell => cellInv ER Rd (K ck) (kcell ck))
    ∗ bigSep Finset.univ fun ck : Dev nD × Cell => reached ER (kcell ck) 0)

instance records_persistent (K : Dev nD × Cell → ℕ) : BI.Persistent (records (F := F) Rd K) := by unfold records; infer_instance

omit [FloatOps F] in
theorem inv_at (K : Dev nD × Cell → ℕ) (ck : Dev nD × Cell) : records (F := F) Rd K ⊢ cellInv ER Rd (K ck) (kcell ck) :=
  (show records (F := F) Rd K ⊢ (bigSep Finset.univ fun ck : Dev nD × Cell => cellInv ER Rd (K ck) (kcell ck)) from by
    unfold records; iintro ⟨#HI, -⟩; iexact HI).trans (bigSep_elim (Finset.mem_univ ck))
omit [FloatOps F] in
theorem reached_at (K : Dev nD × Cell → ℕ) (ck : Dev nD × Cell) : records (F := F) Rd K ⊢ reached ER (kcell ck) 0 :=
  (show records (F := F) Rd K ⊢ (bigSep Finset.univ fun ck : Dev nD × Cell => (reached ER (kcell ck) 0 : sProp 𝕄)) from by
    unfold records; iintro ⟨-, #HR⟩; iexact HR).trans (bigSep_elim (Finset.mem_univ ck))

end Deal

/-- A device's positions: at round 0 of each of its cells, no payload taken, no unit consumed. -/
def positions (c : Dev nD) : sProp 𝕄 := bigSep Finset.univ fun k : Cell => atPos ER (kcell (c, k)) 0 ∅ 0

/-- The tokens of the duties device `c` pays: duty `d` of cell `k` on the device `owner k d c`. -/
def payToks (owner : Cell → Fin 3 → Dev nD ≃ Dev nD) (c : Dev nD) : sProp 𝕄 :=
  bigSep Finset.univ fun kd : Cell × Fin 3 => dutyTok ER (kcell (owner kd.1 kd.2 c, kd.1)) 0 kd.2

/-- All the ghost state device `c` starts from, at the names `K`. -/
def dealt (Rd : Rounds.Schedule (GSem nD τ sig) (Fin 3) (MT nD τ sig Unit (Elt F) ℕ UU ℕ)) (owner : Cell → Fin 3 → Dev nD ≃ Dev nD)
    (K : Dev nD × Cell → ℕ) (c : Dev nD) : sProp 𝕄 :=
  iprop(records Rd K ∗ positions c ∗ payToks owner c)

/-! ## What the launch needs of the protocol -/

/-- The protocol as the launch sees it: a schedule over the cells (every cell: one round, the three duties), which
    device pays each duty, what each device owes at launch, the levels, and what a device's body starts from —
    made of the dealt ghost state, the level facts and the launch's credit tokens. -/
structure Iface (F : FTy → Type) [FloatOps F] where
  Rd : Rounds.Schedule (GSem nD τ sig) (Fin 3) (MT nD τ sig Unit (Elt F) ℕ UU ℕ)
  storable : ∀ g r d, BI.Storable (upEmb : UEmb _ (MT nD τ sig Unit (Elt F) ℕ UU ℕ)) (Rd.payload g r d)
  /-- Device `c` pays duty `d` of cell `k` of device `owner k d c`. -/
  owner : Cell → Fin 3 → Dev nD ≃ Dev nD
  O₀ : Dev nD → CellTallies nD τ sig Unit
  L : GSem nD τ sig → Finset Unit
  lv : GSem nD τ sig → Unit → ℕ
  hL : ∀ g : GSem nD τ sig, g.1.2 ≠ .tc → L g = ∅
  start : Dev nD → sProp (MT nD τ sig Unit (Elt F) ℕ UU ℕ)
  hstart : ∀ c, iprop((∃ K, dealt Rd owner K c) ∗ levAts L lv ∗ Pipeline.launchCred O₀ c) ⊢ start c
  /-- The pipeline's staging cells sit below everything a device owes at launch. -/
  hstage : ∀ (c : Dev nD) (w : Fin cfg0.W) (s : Fin (cfg0.win w).nbuf),
    (levAts L lv : sProp (MT nD τ sig Unit (Elt F) ℕ UU ℕ)) ⊢ MayWait (c : Thread nD τ) (.dma ((cfg0.win w).sem s)) () (O₀ c)

instance (I : Iface F) (g : GSem nD τ sig) (r : ℕ) (d : Fin 3) : BI.Storable (upEmb : UEmb _ 𝕄) (I.Rd.payload g r d) := I.storable g r d

/-! ## The proof data of the one grid point -/

variable (m : (ℓ : Loc nD τ sig) → Buf (Elt F) ℓ) (ρ : Dev nD → PrngReg)

/-- The two scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The region's own cells closed: their counters at zero are the device's again. -/
def ownZero (c : Dev nD) : sProp 𝕄 :=
  iprop((bigSep Finset.univ fun k : Fin 24 => semVal (sendCell c k) 0)
    ∗ (bigSep Finset.univ fun k : Fin 24 => semVal (recvCell c k) 0) ∗ semVal (exitCell c) 0)

/-- Before the point: what the body starts from, and the scratch buffers. -/
def Φ₀ (start : Dev nD → sProp 𝕄) (c : Dev nD) : sProp 𝕄 := iprop(start c ∗ scr c)
/-- After it: the scratch buffers and the own cells closed. -/
def Φ₁ (c : Dev nD) : sProp 𝕄 := iprop(scr c ∗ ownZero c)

/-- The proof data: the arrays as launched; every input window's staging buffer left at its block; the output window's at
    `outC c`; before the point the device owes `O₀ c`, after it nothing. -/
def dats (start : Dev nD → sProp 𝕄) (O₀ : Dev nD → CellTallies nD τ sig Unit)
    (outC : (c : Dev nD) → (cc0_stg9_0 : Ref sig .tc).ty.Contents (Elt F)) (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outC c
  Φ t := match t with
    | ⟨0, _⟩ => Φ₀ start c
    | ⟨_ + 1, _⟩ => Φ₁ c
  q _ := fullShare
  owed t := match t with
    | ⟨0, _⟩ => O₀ c
    | ⟨_ + 1, _⟩ => 0

abbrev 𝒱₀ : Variants := Variants.none

/-! ## The launch -/

theorem share_eq (start : Dev nD → sProp 𝕄) (O₀ : Dev nD → CellTallies nD τ sig Unit)
    (outC : (c : Dev nD) → (cc0_stg9_0 : Ref sig .tc).ty.Contents (Elt F)) (c : Dev nD) (w : Fin cfg0.W) :
    (dats m start O₀ outC 0 c).share w = fullShare := by unfold Dat.share; split <;> rfl

/-- The protocol's cells, and a token per (cell, round 0, duty). -/
def allCells : Finset (GSem nD τ sig) := Finset.univ.map ⟨kcell, kcell_injective⟩
abbrev tokOf (x : Dev nD × Cell × Fin 3) : GSem nD τ sig × ℕ × Fin 3 := (kcell (x.1, x.2.1), 0, x.2.2)
theorem tokOf_injective : Function.Injective tokOf := by
  rintro ⟨c, k, d⟩ ⟨c', k', d'⟩ h
  have h1 := kcell_injective (congrArg (fun x : GSem nD τ sig × ℕ × Fin 3 => x.1) h)
  have h2 : d = d' := congrArg (fun x : GSem nD τ sig × ℕ × Fin 3 => x.2.2) h
  cases h1; cases h2; rfl
def allToks : Finset (GSem nD τ sig × ℕ × Fin 3) := Finset.univ.map ⟨tokOf, tokOf_injective⟩

/-- The launch element: the pipeline's, and the protocol's cells and tokens. -/
def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun kd : Cell × Fin 3 => dutyTok ER (kcell (c, kd.1)) 0 kd.2

section Glob

variable (Rd : Rounds.Schedule (GSem nD τ sig) (Fin 3) (MT nD τ sig Unit (Elt F) ℕ UU ℕ))
  [∀ g r d, BI.Storable (upEmb : UEmb _ (MT nD τ sig Unit (Elt F) ℕ UU ℕ)) (Rd.payload g r d)]
  (owner : Cell → Fin 3 → Dev nD ≃ Dev nD)

/-- What the launch element deals device `c`. -/
def G (c : Dev nD) : sProp 𝕄 :=
  iprop((bigSep Finset.univ fun k : Cell => roundState ER Rd (kcell (c, k)) 0)
    ∗ (bigSep Finset.univ fun k : Cell => iprop(atPos ER (kcell (c, k)) 0 ∅ 0 ∗ reached ER (kcell (c, k)) 0)) ∗ toks c)

/-- What the global step makes of it. -/
def G' (c : Dev nD) : sProp 𝕄 := iprop(∃ K, dealt Rd owner K c)

omit [FloatOps F] in
theorem fund_cells : BI.own (ER (initOf allCells allToks)) ⊢ (|==> bigSep Finset.univ (G Rd) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER Rd allCells allToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's cells' counters: the barrier's, and the own ones. -/
theorem sems_eq (c : Dev nD) : (bigSep Finset.univ fun k : Cell => semVal (kcell (c, k)) 0 : sProp 𝕄)
    = iprop(semVal (barCell c) 0 ∗ Pipeline.ownSems0 (Ix := Unit) (Name := ℕ) (U := UU) (Lvl := ℕ) (Val := Elt F) (τ := τ) osem c) := by
  rw [bigSep_univ_sum, bigSep_univ_of_subsingleton ()]; rfl

omit [FloatOps F] in
theorem ownZero_eq (c : Dev nD) : (Pipeline.ownSems0 (Ix := Unit) (Name := ℕ) (U := UU) (Lvl := ℕ) (Val := Elt F) (τ := τ) osem c : sProp 𝕄) = ownZero c := by
  unfold Pipeline.ownSems0 ownZero
  rw [bigSep_univ_sum, bigSep_univ_sum, bigSep_univ_of_subsingleton ()]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k => iprop(∃ κ : ℕ, cellInv ER Rd κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) from by
        rw [sems_eq, unscopedSems0_eq]; iintro ⟨H1, H2⟩; isplitl [H2] <;> iassumption) $$ [Hos Hus]
  · isplitl [Hos] <;> iassumption
  imod (show iprop((bigSep Finset.univ fun k : Cell => semVal (kcell (c, k)) 0) ∗ bigSep Finset.univ fun k : Cell => roundState ER Rd (kcell (c, k)) 0)
      ⊢ (|={Set.univ}=> bigSep Finset.univ fun k => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers: duty `d` of cell `k` of a device goes to the device that pays it. -/
theorem toks_around : (bigSep Finset.univ fun c : Dev nD => (toks c : sProp 𝕄)) ⊢ bigSep Finset.univ fun c : Dev nD => payToks owner c := by
  unfold toks payToks
  rw [bigSep_univ_comm (fun (c : Dev nD) (kd : Cell × Fin 3) => (dutyTok ER (kcell (c, kd.1)) 0 kd.2 : sProp 𝕄)),
    bigSep_univ_comm (fun (c : Dev nD) (kd : Cell × Fin 3) => (dutyTok ER (kcell (owner kd.1 kd.2 c, kd.1)) 0 kd.2 : sProp 𝕄))]
  exact Entails.of_eq (bigSep_congr fun kd _ =>
    bigSep_univ_equiv (owner kd.1 kd.2) (fun c : Dev nD => (dutyTok ER (kcell (c, kd.1)) 0 kd.2 : sProp 𝕄)))

omit [FloatOps F] in
theorem regroup :
    (bigSep Finset.univ fun c : Dev nD => iprop((bigSep Finset.univ fun k => iprop(∃ κ : ℕ, cellInv ER Rd κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' Rd owner) := by
  rw [bigSep_sep', bigSep_sep', ← bigSep_univ_prod (fun ck : Dev nD × Cell => iprop(∃ κ : ℕ, cellInv ER Rd κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER Rd κ (kcell ck) : sProp 𝕄))) $$ HI
  icases HK with ⟨%K, #HI⟩
  ihave Htk := (toks_around (F := F) owner) $$ Htok
  iapply (BI.bigSep_with_persistent (R := records Rd K) fun c _ =>
    show iprop(records Rd K ∗ iprop(positions c ∗ payToks owner c)) ⊢ G' Rd owner c from by
      unfold G' dealt; iintro ⟨#HR, HP⟩; iexists K; isplitr; · iexact HR
      iexact HP)
  isplitr
  · unfold records; isplitl; · iexact HI
    iexact HR
  · rw [bigSep_sep']
    isplitl [Hat]; · unfold positions; iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd owner) :=
  ((bigSep_mono fun c _ => core_alloc Rd c).trans (bigSep_fupd _ _)).trans (BI.fupd_mono (regroup Rd owner))

end Glob

/-! ### The theorem's side conditions -/

section Side

variable (I : Iface F) (outC : (c : Dev nD) → (cc0_stg9_0 : Ref sig .tc).ty.Contents (Elt F))

theorem start_intro (c : Dev nD) :
    iprop(Pipeline.unscopedRestP Pipeline.Prefetch.none cfg0.spec c (fun b => m ((c : Thread nD τ).loc b)) ∗ levAts I.L I.lv
        ∗ Pipeline.launchCred I.O₀ c ∗ prngReg c (ρ c) ∗ G' I.Rd I.owner c)
      ⊢ |={Set.univ}=> iprop(I.start c ∗ emp) := by
  iintro ⟨-, Hlev, Hcr, -, HG⟩
  imodintro
  isplitl
  · iapply (I.hstart c)
    unfold G'
    isplitl [HG]; · iexact HG
    isplitl [Hlev] <;> iassumption
  · iempintro

theorem phi0_intro (c : Dev nD) :
    iprop(I.start c ∗ Pipeline.prefHeld Pipeline.Prefetch.none c (fun _ => fullShare.right) (fun k => k.elim0) ∗ Pipeline.scopedRest cfg0.spec c)
      ⊢ (dats m I.start I.O₀ outC 0 c).Φ 0 := by
  rw [show (dats m I.start I.O₀ outC 0 c).Φ 0 = Φ₀ I.start c from rfl, scopedRest0_eq]
  unfold Φ₀ scr
  iintro ⟨Hs, -, Hr⟩
  isplitl [Hs] <;> iassumption

theorem phi1_exit (c : Dev nD) :
    (dats m I.start I.O₀ outC 0 c).Φ (Fin.last cfg0.N) ⊢ iprop(emp ∗ Pipeline.ownSems0 osem c ∗ Pipeline.scopedRest cfg0.spec c) := by
  rw [show (dats m I.start I.O₀ outC 0 c).Φ (Fin.last cfg0.N) = Φ₁ c from rfl, scopedRest0_eq, ownZero_eq]
  unfold Φ₁ scr
  iintro ⟨Hr, Hz⟩
  isplitr; · iempintro
  isplitl [Hz] <;> iassumption

theorem waits (c : Dev nD) : (levAts I.L I.lv : sProp 𝕄) ⊢ Pipeline.cellsWaits cfgs (dats m I.start I.O₀ outC) () 0 c :=
  Pipeline.cellsWaits_intro cfgs (dats m I.start I.O₀ outC) () 0 c fun w s t => by
    rcases t with ⟨_ | _, ht⟩
    · exact I.hstage c w s
    · rw [show (dats m I.start I.O₀ outC 0 c).owed ⟨_ + 1, ht⟩ = 0 from rfl, MayWait_zero]; iintro -; iempintro

end Side

/-! ## The run -/

/-- An input window's array after the run: as launched. -/
theorem finalIn (start : Dev nD → sProp 𝕄) (O₀ : Dev nD → CellTallies nD τ sig Unit)
    (outC : (c : Dev nD) → (cc0_stg9_0 : Ref sig .tc).ty.Contents (Elt F)) (c : Dev nD) (w : Fin 10) (hw : (cfg0.win w).isOut = false) :
    (dats m start O₀ outC 0 c).arrAt w cfg0.N = m ((cfg0.win w).arr.view.loc (c : Thread nD τ)) :=
  (dats m start O₀ outC 0 c).arrAt_in w hw _

/-- The output window's array after the run: the staging buffer's contents. -/
theorem finalOut (start : Dev nD → sProp 𝕄) (O₀ : Dev nD → CellTallies nD τ sig Unit)
    (outC : (c : Dev nD) → (cc0_stg9_0 : Ref sig .tc).ty.Contents (Elt F)) (c : Dev nD) :
    (dats m start O₀ outC 0 c).arrAt (9 : Fin 10) cfg0.N = outC c := by
  have h := (dats m start O₀ outC 0 c).arrAt_succ (9 : Fin 10) t0_0
  rw [if_pos (flush0_9 t0_0)] at h
  have hN : cfg0.N = t0_0.val + 1 := N_0
  rw [hN, h]
  have hz : (fun a => (win0_9.index t0_0) a * main_v1.ty.shape.size a) = fun _ => 0 := funext fun a => by fin_cases a <;> decide
  have hr := fun f => Memref.read_access_unit_zero (Elt F) main_v1 hz (fun a => by fin_cases a <;> decide) f
  have h1 := View.read_write_univ (v := ((cfg0.win 9).blk t0_0).view) (Val := Elt F) ((dats m start O₀ outC 0 c).arrAt 9 t0_0.val) ((dats m start O₀ outC 0 c).flushed 9 t0_0)
  have h2 := hr (View.write (Elt F) ((cfg0.win 9).blk t0_0).view ((dats m start O₀ outC 0 c).arrAt 9 t0_0.val) ((dats m start O₀ outC 0 c).flushed 9 t0_0) Finset.univ)
  exact h2.symm.trans (h1.trans rfl)

set_option maxRecDepth 16000 in
/-- At the compiled mesh of eight devices, from any memory with zero counters: if on every device the body, run from
    `Φ₀` owing `O₀ c` with every staging buffer at its block, ends at `Φ₁` owing nothing with the output staging
    buffer at `outC c`, then every weakly fair execution of @main terminates, and in every final state each device's
    result array holds `outC c` and its nine argument arrays what they held. -/
theorem run_main (I : Iface F) (outC : (c : Dev nD) → (cc0_stg9_0 : Ref sig .tc).ty.Contents (Elt F))
    (hbody : ∀ c, BodyObligation (dats m I.start I.O₀ outC 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outC c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  by
  have hb : ∀ c, Pipeline.BodyObligationLoose (dats m I.start I.O₀ outC 0 c) (defs₀ (F := F)) 𝒱₀ () Set.univ := fun c => (hbody c).loose
  exact Pipeline.θ_run_region_owing_glob_pf (fun p => (cfgs p).toPCfg) (fun p => (cfgs p).toPCfg_adm) (dats m I.start I.O₀ outC) () cellOf_inj (0 : Fin 1)
    winFacts0.to₀ ownSemFacts (Pipeline.PreFacts.none _) EP defs₀ 𝒱₀ m ρ main
    (hmain := fun _ => rfl)
    (hbody := hb) (hne := block_pos0) (harr := arr_whole0) (hstage := stage_whole0) (hshare := share_eq m I.start I.O₀ outC)
    (hdistinct := winFacts0.arr_inj)
    (O₀ := I.O₀) (howed₀ := fun _ => rfl) (howedN := fun _ => rfl)
    (L := I.L) (lv := I.lv) (hL := I.hL) (hwaits := waits m I outC)
    (G := G I.Rd) (G' := G' I.Rd I.owner) (u₀ := u₀)
    (hu₀ := by
      unfold u₀
      iintro Hu
      ihave H := (ownU_pair _ _) $$ Hu
      icases H with ⟨HP, HX⟩
      imod (fund_cells I.Rd) $$ HX with HG
      imodintro
      isplitl [HP] <;> iassumption)
    (hglob := glob I.Rd I.owner)
    (hA := fun _ _ => rfl) (hpf := fun _ k => k.elim0)
    (X := I.start) (Y := fun _ => iprop(emp)) (Z := fun _ => iprop(emp))
    (hX := start_intro m ρ I) (hin := phi0_intro m I outC) (hout := phi1_exit m I outC)
    (QY := fun _ _ => True)
    (hY := fun c s' => by
      iintro ⟨-, -, HSI⟩
      imodintro
      isplitr; · ipureintro; trivial
      iexact HSI)
    (hQ := fun s h c => by
      have h9 := (h c).1 9
      have h0 := (h c).1 0
      have h1 := (h c).1 1
      have h2 := (h c).1 2
      have h3 := (h c).1 3
      have h4 := (h c).1 4
      have h5 := (h c).1 5
      have h6 := (h c).1 6
      have h7 := (h c).1 7
      have h8 := (h c).1 8
      refine ⟨?_, ?_, ?_, ?_, ?_, ?_, ?_, ?_, ?_, ?_⟩
      · exact h9.trans (finalOut m I.start I.O₀ outC c)
      · exact h0.trans (finalIn m I.start I.O₀ outC c 0 rfl)
      · exact h1.trans (finalIn m I.start I.O₀ outC c 1 rfl)
      · exact h2.trans (finalIn m I.start I.O₀ outC c 2 rfl)
      · exact h3.trans (finalIn m I.start I.O₀ outC c 3 rfl)
      · exact h4.trans (finalIn m I.start I.O₀ outC c 4 rfl)
      · exact h5.trans (finalIn m I.start I.O₀ outC c 5 rfl)
      · exact h6.trans (finalIn m I.start I.O₀ outC c 6 rfl)
      · exact h7.trans (finalIn m I.start I.O₀ outC c 7 rfl)
      · exact h8.trans (finalIn m I.start I.O₀ outC c 8 rfl))

/-- info: 'Cert.KernelIdeal.LaunchK.run_main' depends on axioms: [propext, Classical.choice, Quot.sound] -/
#guard_msgs in #print axioms run_main

end Cert.KernelIdeal.LaunchK

end
-- ==== Proof.BodyStep.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Gen.KernelIdeal.Skeleton

/-! # Running a sequence of parts

The body is a sequence of parts, each a program of its own that takes the values live at its start and returns
the values live at its end. Every one of those values is a fixed function of the device's inputs, so a part's run
says: from the state before it, the part ends in the state after it AND returns exactly the named tuple. Running
`p` and then `k` on what it returned is then running `k` at the named tuple (`seq_step`); a part that returns
nothing needs no equation (`seq_step_unit`); a sequence ends by returning its own named tuple (`seq_ret`). -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

local notation "𝕄" => MT nD τ sig Unit (Elt F) ℕ UU ℕ

/-- `p`, which returns `a`, then `k`: `k` at `a`. -/
theorem seq_step {α β : Type} (c : Dev nD) (p : Prog (TpuEff nD τ sig (Elt F) Λ₀ .tc) α) (k : α → Prog (TpuEff nD τ sig (Elt F) Λ₀ .tc) β)
    (P P' : sProp 𝕄) (a : α) (Q : β → sProp 𝕄)
    (hp : P ⊢ wp frame (wpE (defs₀ (F := F)) 𝒱₀ (c : Thread nD τ) none) Set.univ p (fun x => iprop(⌜x = a⌝ ∗ P')))
    (hk : P' ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]
  refine hp.trans (wp_mono _ _ _ fun x => ?_)
  iintro ⟨%e, H⟩
  subst e
  iapply hk
  iexact H

/-- What follows a part that returned `a`: whatever holds at `a` of the state after it. -/
theorem seq_post {α : Type} (a : α) (P' : sProp (MT nD τ sig Unit (Elt F) ℕ UU ℕ)) (R : α → sProp (MT nD τ sig Unit (Elt F) ℕ UU ℕ))
    (h : P' ⊢ R a) : ∀ x, iprop(⌜x = a⌝ ∗ P') ⊢ R x := fun x => by
  iintro ⟨%e, H⟩
  subst e
  iapply h
  iexact H

/-- `p`, which returns nothing, then `k`. -/
theorem seq_step_unit {β : Type} (c : Dev nD) (p : Prog (TpuEff nD τ sig (Elt F) Λ₀ .tc) PUnit) (k : PUnit → Prog (TpuEff nD τ sig (Elt F) Λ₀ .tc) β)
    (P P' : sProp 𝕄) (Q : β → sProp 𝕄)
    (hp : P ⊢ wp frame (wpE (defs₀ (F := F)) 𝒱₀ (c : Thread nD τ) none) Set.univ p (fun _ => P'))
    (hk : P' ⊢ wp frame (wpE (defs₀ (F := F)) 𝒱₀ (c : Thread nD τ) none) Set.univ (k ⟨⟩) Q) :
    P ⊢ wp frame (wpE (defs₀ (F := F)) 𝒱₀ (c : Thread nD τ) none) Set.univ (p >>= k) Q := by
  rw [wp_bind]
  refine hp.trans (wp_mono _ _ _ fun x => ?_)
  cases x
  exact hk

/-- The end of a sequence: it returns its named tuple, the state as it is. -/
theorem seq_ret {α : Type} (c : Dev nD) (a : α) (P : sProp 𝕄) :
    P ⊢ wp frame (wpE (defs₀ (F := F)) 𝒱₀ (c : Thread nD τ) none) Set.univ (pure a : Prog (TpuEff nD τ sig (Elt F) Λ₀ .tc) α)
      (fun x => iprop(⌜x = a⌝ ∗ P)) := by
  rw [wp_pure]
  iintro H
  imodintro
  isplitr
  · ipureintro; rfl
  · iexact H

/-- The body's own last statements, after its two halves: two loads from the scratch buffers, the store of the last row block of
    the output (the stored block a function `w` of the two slices read), the three exit signals, the exit wait. -/
def spineTail (arg9 : Memref sig .tc .vmem S2x512x768 .f32) (arg10 : Memref sig .tc .vmem S4x3x256x256 .bf16)
    (arg11 : Memref sig .tc .vmem S8x3x3x256x256 .bf16) (v3020_r0 : Sems sig S_) (d0 : Dev nD)
    (w : Vec F S1x1x256x256 .bf16 → Vec F S1x1x1x256x256 .bf16 → FVec F S1x256x768 .f32) :
    Prog (TpuEff nD τ sig (Elt F) Λ₀ .tc) PUnit := do
  let v3007 : Vec F S1x1x256x256 .bf16 ← Prog.lift (.load arg10 (Rect.unit (s := S4x3x256x256) ![3, 2, 0, 0] S1x1x256x256.size inb_S4x3x256x256_S1x1x256x256_3_2_0_0).toLoadRect (View.loadsAt_vmem h_S1x1x256x256))
  let v3009 : Vec F S1x1x1x256x256 .bf16 ← Prog.lift (.load arg11 (Rect.unit (s := S8x3x3x256x256) ![7, 2, 2, 0, 0] S1x1x1x256x256.size inb_S8x3x3x256x256_S1x1x1x256x256_7_2_2_0_0).toLoadRect (View.loadsAt_vmem h_S1x1x1x256x256))
  let v3017 : Vec F S1x256x768 .f32 ← Prog.lift (.load arg9 (Rect.unit (s := S2x512x768) ![1, 256, 0] S1x256x768.size inb_S2x512x768_S1x256x768_1_256_0).toLoadRect (View.loadsAt_vmem h_S1x256x768))
  Prog.lift (.store arg9 (Rect.unit (s := S2x512x768) ![1, 256, 0] S1x256x768.size inb_S2x512x768_S1x256x768_1_256_0) (w v3007 v3009) Finset.univ (View.stores_vmem_bits_univ h_S1x256x768 rfl) (.inl rfl))
  semSignalWord (⟨k0_dev76 d0, k0_dev76_lt d0⟩ : Dev nD) v3020_r0.sem 1#32 hamt_1
  semSignalWord (⟨k0_dev77 d0, k0_dev77_lt d0⟩ : Dev nD) v3020_r0.sem 1#32 hamt_1
  semSignalWord (⟨k0_dev78 d0, k0_dev78_lt d0⟩ : Dev nD) v3020_r0.sem 1#32 hamt_1
  semWaitWord v3020_r0.sem 3#32 hamt_3
  pure ⟨⟩

end Cert.KernelIdeal.Body

end
-- ==== Proof.Vals.Live.lean ====
import proofs.«900775_g7700000000000776_dist_diff_dit_htp_i_b2_s512_d768_hq4_v7x_i8_f32_1_alg».proof.Proof.Vals

/-! One name for every value that is live where one printed part of the body ends and the next begins: `lvN I c` is the printed
    value `%N` on device `c` of the mesh `I` (a float vector), `lwN c` the printed word `%N`; the device itself is `c`. Each is the
    skeleton's own payload over the names before it, and reads back by unfolding. -/

noncomputable section

namespace Cert.KernelIdeal.Vals

open Idealize.ShloMosaic Cert.KernelIdeal Cert.KernelIdeal.Gen Cert.KernelIdeal.Mesh

variable {F : FTy → Type} [FloatOps F]

/-! ## Words -/

def lw2 (c : Dev nD) : BitVec 32 := Scalar.remsi (Scalar.divsi (Dev.word c) 1#32) 8#32
theorem lw2_eq (c : Dev nD) : lw2 c = Scalar.remsi (Scalar.divsi (Dev.word c) 1#32) 8#32 := rfl
def lw154 (c : Dev nD) : BitVec 32 := Scalar.xori (lw2 c) 1#32
theorem lw154_eq (c : Dev nD) : lw154 c = Scalar.xori (lw2 c) 1#32 := rfl
def lw165 (c : Dev nD) : BitVec 32 := Scalar.xori (lw2 c) 3#32
theorem lw165_eq (c : Dev nD) : lw165 c = Scalar.xori (lw2 c) 3#32 := rfl
def lw176 (c : Dev nD) : BitVec 32 := Scalar.xori (lw2 c) 4#32
theorem lw176_eq (c : Dev nD) : lw176 c = Scalar.xori (lw2 c) 4#32 := rfl
def lwc0_i32_241 (c : Dev nD) : BitVec 32 := 0#32
theorem lwc0_i32_241_eq (c : Dev nD) : lwc0_i32_241 c = 0#32 := rfl
def lw257 (c : Dev nD) : BitVec 32 := Scalar.xori (lw2 c) 1#32
theorem lw257_eq (c : Dev nD) : lw257 c = Scalar.xori (lw2 c) 1#32 := rfl
def lw268 (c : Dev nD) : BitVec 32 := Scalar.xori (lw2 c) 3#32
theorem lw268_eq (c : Dev nD) : lw268 c = Scalar.xori (lw2 c) 3#32 := rfl
def lw279 (c : Dev nD) : BitVec 32 := Scalar.xori (lw2 c) 4#32
theorem lw279_eq (c : Dev nD) : lw279 c = Scalar.xori (lw2 c) 4#32 := rfl
def lw324 (c : Dev nD) : BitVec 32 := Scalar.muli (lw176 c) 1#32
theorem lw324_eq (c : Dev nD) : lw324 c = Scalar.muli (lw176 c) 1#32 := rfl
def lw356 (c : Dev nD) : BitVec 32 := Scalar.xori (lw2 c) 3#32
theorem lw356_eq (c : Dev nD) : lw356 c = Scalar.xori (lw2 c) 3#32 := rfl
def lw367 (c : Dev nD) : BitVec 32 := Scalar.xori (lw2 c) 4#32
theorem lw367_eq (c : Dev nD) : lw367 c = Scalar.xori (lw2 c) 4#32 := rfl
def lw378 (c : Dev nD) : BitVec 32 := Scalar.xori (lw2 c) 1#32
theorem lw378_eq (c : Dev nD) : lw378 c = Scalar.xori (lw2 c) 1#32 := rfl
def lw489 (c : Dev nD) : BitVec 32 := Scalar.xori (lw2 c) 3#32
theorem lw489_eq (c : Dev nD) : lw489 c = Scalar.xori (lw2 c) 3#32 := rfl
def lw500 (c : Dev nD) : BitVec 32 := Scalar.xori (lw2 c) 4#32
theorem lw500_eq (c : Dev nD) : lw500 c = Scalar.xori (lw2 c) 4#32 := rfl
def lw511 (c : Dev nD) : BitVec 32 := Scalar.xori (lw2 c) 1#32
theorem lw511_eq (c : Dev nD) : lw511 c = Scalar.xori (lw2 c) 1#32 := rfl
def lw588 (c : Dev nD) : BitVec 32 := Scalar.xori (lw2 c) 4#32
theorem lw588_eq (c : Dev nD) : lw588 c = Scalar.xori (lw2 c) 4#32 := rfl
def lw599 (c : Dev nD) : BitVec 32 := Scalar.xori (lw2 c) 1#32
theorem lw599_eq (c : Dev nD) : lw599 c = Scalar.xori (lw2 c) 1#32 := rfl
def lw610 (c : Dev nD) : BitVec 32 := Scalar.xori (lw2 c) 3#32
theorem lw610_eq (c : Dev nD) : lw610 c = Scalar.xori (lw2 c) 3#32 := rfl
def lw693 (c : Dev nD) : BitVec 32 := Scalar.xori (lw2 c) 4#32
theorem lw693_eq (c : Dev nD) : lw693 c = Scalar.xori (lw2 c) 4#32 := rfl
def lw704 (c : Dev nD) : BitVec 32 := Scalar.xori (lw2 c) 1#32
theorem lw704_eq (c : Dev nD) : lw704 c = Scalar.xori (lw2 c) 1#32 := rfl
def lw715 (c : Dev nD) : BitVec 32 := Scalar.xori (lw2 c) 3#32
theorem lw715_eq (c : Dev nD) : lw715 c = Scalar.xori (lw2 c) 3#32 := rfl
def lw838 (c : Dev nD) : BitVec 32 := Scalar.xori (lw2 c) 1#32
theorem lw838_eq (c : Dev nD) : lw838 c = Scalar.xori (lw2 c) 1#32 := rfl
def lw849 (c : Dev nD) : BitVec 32 := Scalar.xori (lw2 c) 3#32
theorem lw849_eq (c : Dev nD) : lw849 c = Scalar.xori (lw2 c) 3#32 := rfl
def lw860 (c : Dev nD) : BitVec 32 := Scalar.xori (lw2 c) 4#32
theorem lw860_eq (c : Dev nD) : lw860 c = Scalar.xori (lw2 c) 4#32 := rfl
def lw983 (c : Dev nD) : BitVec 32 := Scalar.xori (lw2 c) 1#32
theorem lw983_eq (c : Dev nD) : lw983 c = Scalar.xori (lw2 c) 1#32 := rfl
def lw994 (c : Dev nD) : BitVec 32 := Scalar.xori (lw2 c) 3#32
theorem lw994_eq (c : Dev nD) : lw994 c = Scalar.xori (lw2 c) 3#32 := rfl
def lw1005 (c : Dev nD) : BitVec 32 := Scalar.xori (lw2 c) 4#32
theorem lw1005_eq (c : Dev nD) : lw1005 c = Scalar.xori (lw2 c) 4#32 := rfl
def lw1082 (c : Dev nD) : BitVec 32 := Scalar.xori (lw2 c) 3#32
theorem lw1082_eq (c : Dev nD) : lw1082 c = Scalar.xori (lw2 c) 3#32 := rfl
def lw1093 (c : Dev nD) : BitVec 32 := Scalar.xori (lw2 c) 4#32
theorem lw1093_eq (c : Dev nD) : lw1093 c = Scalar.xori (lw2 c) 4#32 := rfl
def lw1104 (c : Dev nD) : BitVec 32 := Scalar.xori (lw2 c) 1#32
theorem lw1104_eq (c : Dev nD) : lw1104 c = Scalar.xori (lw2 c) 1#32 := rfl
def lw1105 (c : Dev nD) : BitVec 32 := Scalar.muli (lw1104 c) 1#32
theorem lw1105_eq (c : Dev nD) : lw1105 c = Scalar.muli (lw1104 c) 1#32 := rfl
def lw1196 (c : Dev nD) : BitVec 32 := Scalar.xori (lw2 c) 1#32
theorem lw1196_eq (c : Dev nD) : lw1196 c = Scalar.xori (lw2 c) 1#32 := rfl
def lw1207 (c : Dev nD) : BitVec 32 := Scalar.xori (lw2 c) 3#32
theorem lw1207_eq (c : Dev nD) : lw1207 c = Scalar.xori (lw2 c) 3#32 := rfl
def lw1218 (c : Dev nD) : BitVec 32 := Scalar.xori (lw2 c) 4#32
theorem lw1218_eq (c : Dev nD) : lw1218 c = Scalar.xori (lw2 c) 4#32 := rfl
def lwc0_i32_1237 (c : Dev nD) : BitVec 32 := 0#32
theorem lwc0_i32_1237_eq (c : Dev nD) : lwc0_i32_1237 c = 0#32 := rfl
def lw1295 (c : Dev nD) : BitVec 32 := Scalar.xori (lw2 c) 3#32
theorem lw1295_eq (c : Dev nD) : lw1295 c = Scalar.xori (lw2 c) 3#32 := rfl
def lw1306 (c : Dev nD) : BitVec 32 := Scalar.xori (lw2 c) 4#32
theorem lw1306_eq (c : Dev nD) : lw1306 c = Scalar.xori (lw2 c) 4#32 := rfl
def lw1317 (c : Dev nD) : BitVec 32 := Scalar.xori (lw2 c) 1#32
theorem lw1317_eq (c : Dev nD) : lw1317 c = Scalar.xori (lw2 c) 1#32 := rfl
def lw1394 (c : Dev nD) : BitVec 32 := Scalar.xori (lw2 c) 4#32
theorem lw1394_eq (c : Dev nD) : lw1394 c = Scalar.xori (lw2 c) 4#32 := rfl
def lw1405 (c : Dev nD) : BitVec 32 := Scalar.xori (lw2 c) 1#32
theorem lw1405_eq (c : Dev nD) : lw1405 c = Scalar.xori (lw2 c) 1#32 := rfl
def lw1416 (c : Dev nD) : BitVec 32 := Scalar.xori (lw2 c) 3#32
theorem lw1416_eq (c : Dev nD) : lw1416 c = Scalar.xori (lw2 c) 3#32 := rfl
def lw1508 (c : Dev nD) : BitVec 32 := Scalar.xori (lw2 c) 1#32
theorem lw1508_eq (c : Dev nD) : lw1508 c = Scalar.xori (lw2 c) 1#32 := rfl
def lw1519 (c : Dev nD) : BitVec 32 := Scalar.xori (lw2 c) 3#32
theorem lw1519_eq (c : Dev nD) : lw1519 c = Scalar.xori (lw2 c) 3#32 := rfl
def lw1530 (c : Dev nD) : BitVec 32 := Scalar.xori (lw2 c) 4#32
theorem lw1530_eq (c : Dev nD) : lw1530 c = Scalar.xori (lw2 c) 4#32 := rfl
def lw1575 (c : Dev nD) : BitVec 32 := Scalar.muli (lw1218 c) 1#32
theorem lw1575_eq (c : Dev nD) : lw1575 c = Scalar.muli (lw1218 c) 1#32 := rfl
def lw1607 (c : Dev nD) : BitVec 32 := Scalar.xori (lw2 c) 3#32
theorem lw1607_eq (c : Dev nD) : lw1607 c = Scalar.xori (lw2 c) 3#32 := rfl
def lw1618 (c : Dev nD) : BitVec 32 := Scalar.xori (lw2 c) 4#32
theorem lw1618_eq (c : Dev nD) : lw1618 c = Scalar.xori (lw2 c) 4#32 := rfl
def lw1629 (c : Dev nD) : BitVec 32 := Scalar.xori (lw2 c) 1#32
theorem lw1629_eq (c : Dev nD) : lw1629 c = Scalar.xori (lw2 c) 1#32 := rfl
def lw1706 (c : Dev nD) : BitVec 32 := Scalar.xori (lw2 c) 4#32
theorem lw1706_eq (c : Dev nD) : lw1706 c = Scalar.xori (lw2 c) 4#32 := rfl
def lw1717 (c : Dev nD) : BitVec 32 := Scalar.xori (lw2 c) 1#32
theorem lw1717_eq (c : Dev nD) : lw1717 c = Scalar.xori (lw2 c) 1#32 := rfl
def lw1728 (c : Dev nD) : BitVec 32 := Scalar.xori (lw2 c) 3#32
theorem lw1728_eq (c : Dev nD) : lw1728 c = Scalar.xori (lw2 c) 3#32 := rfl
def lw1862 (c : Dev nD) : BitVec 32 := Scalar.xori (lw2 c) 1#32
theorem lw1862_eq (c : Dev nD) : lw1862 c = Scalar.xori (lw2 c) 1#32 := rfl
def lw1873 (c : Dev nD) : BitVec 32 := Scalar.xori (lw2 c) 3#32
theorem lw1873_eq (c : Dev nD) : lw1873 c = Scalar.xori (lw2 c) 3#32 := rfl
def lw1884 (c : Dev nD) : BitVec 32 := Scalar.xori (lw2 c) 4#32
theorem lw1884_eq (c : Dev nD) : lw1884 c = Scalar.xori (lw2 c) 4#32 := rfl
def lw1961 (c : Dev nD) : BitVec 32 := Scalar.xori (lw2 c) 3#32
theorem lw1961_eq (c : Dev nD) : lw1961 c = Scalar.xori (lw2 c) 3#32 := rfl
def lw1972 (c : Dev nD) : BitVec 32 := Scalar.xori (lw2 c) 4#32
theorem lw1972_eq (c : Dev nD) : lw1972 c = Scalar.xori (lw2 c) 4#32 := rfl
def lw1983 (c : Dev nD) : BitVec 32 := Scalar.xori (lw2 c) 1#32
theorem lw1983_eq (c : Dev nD) : lw1983 c = Scalar.xori (lw2 c) 1#32 := rfl
def lw2060 (c : Dev nD) : BitVec 32 := Scalar.xori (lw2 c) 4#32
theorem lw2060_eq (c : Dev nD) : lw2060 c = Scalar.xori (lw2 c) 4#32 := rfl
def lw2071 (c : Dev nD) : BitVec 32 := Scalar.xori (lw2 c) 1#32
theorem lw2071_eq (c : Dev nD) : lw2071 c = Scalar.xori (lw2 c) 1#32 := rfl
def lw2082 (c : Dev nD) : BitVec 32 := Scalar.xori (lw2 c) 3#32
theorem lw2082_eq (c : Dev nD) : lw2082 c = Scalar.xori (lw2 c) 3#32 := rfl
def lw2099 (c : Dev nD) : BitVec 32 := Scalar.muli (lw1706 c) 1#32
theorem lw2099_eq (c : Dev nD) : lw2099 c = Scalar.muli (lw1706 c) 1#32 := rfl
def lw2216 (c : Dev nD) : BitVec 32 := Scalar.xori (lw2 c) 1#32
theorem lw2216_eq (c : Dev nD) : lw2216 c = Scalar.xori (lw2 c) 1#32 := rfl
def lw2217 (c : Dev nD) : BitVec 32 := Scalar.muli (lw2216 c) 1#32
theorem lw2217_eq (c : Dev nD) : lw2217 c = Scalar.muli (lw2216 c) 1#32 := rfl
def lw2227 (c : Dev nD) : BitVec 32 := Scalar.xori (lw2 c) 3#32
theorem lw2227_eq (c : Dev nD) : lw2227 c = Scalar.xori (lw2 c) 3#32 := rfl
def lw2238 (c : Dev nD) : BitVec 32 := Scalar.xori (lw2 c) 4#32
theorem lw2238_eq (c : Dev nD) : lw2238 c = Scalar.xori (lw2 c) 4#32 := rfl
def lw2315 (c : Dev nD) : BitVec 32 := Scalar.xori (lw2 c) 3#32
theorem lw2315_eq (c : Dev nD) : lw2315 c = Scalar.xori (lw2 c) 3#32 := rfl
def lw2326 (c : Dev nD) : BitVec 32 := Scalar.xori (lw2 c) 4#32
theorem lw2326_eq (c : Dev nD) : lw2326 c = Scalar.xori (lw2 c) 4#32 := rfl
def lw2337 (c : Dev nD) : BitVec 32 := Scalar.xori (lw2 c) 1#32
theorem lw2337_eq (c : Dev nD) : lw2337 c = Scalar.xori (lw2 c) 1#32 := rfl
def lw2414 (c : Dev nD) : BitVec 32 := Scalar.xori (lw2 c) 4#32
theorem lw2414_eq (c : Dev nD) : lw2414 c = Scalar.xori (lw2 c) 4#32 := rfl
def lw2425 (c : Dev nD) : BitVec 32 := Scalar.xori (lw2 c) 1#32
theorem lw2425_eq (c : Dev nD) : lw2425 c = Scalar.xori (lw2 c) 1#32 := rfl
def lw2436 (c : Dev nD) : BitVec 32 := Scalar.xori (lw2 c) 3#32
theorem lw2436_eq (c : Dev nD) : lw2436 c = Scalar.xori (lw2 c) 3#32 := rfl
def lw2582 (c : Dev nD) : BitVec 32 := Scalar.xori (lw2 c) 3#32
theorem lw2582_eq (c : Dev nD) : lw2582 c = Scalar.xori (lw2 c) 3#32 := rfl
def lw2593 (c : Dev nD) : BitVec 32 := Scalar.xori (lw2 c) 4#32
theorem lw2593_eq (c : Dev nD) : lw2593 c = Scalar.xori (lw2 c) 4#32 := rfl
def lw2604 (c : Dev nD) : BitVec 32 := Scalar.xori (lw2 c) 1#32
theorem lw2604_eq (c : Dev nD) : lw2604 c = Scalar.xori (lw2 c) 1#32 := rfl
def lwc0_i32_2648 (c : Dev nD) : BitVec 32 := 0#32
theorem lwc0_i32_2648_eq (c : Dev nD) : lwc0_i32_2648 c = 0#32 := rfl
def lw2681 (c : Dev nD) : BitVec 32 := Scalar.xori (lw2 c) 4#32
theorem lw2681_eq (c : Dev nD) : lw2681 c = Scalar.xori (lw2 c) 4#32 := rfl
def lw2692 (c : Dev nD) : BitVec 32 := Scalar.xori (lw2 c) 1#32
theorem lw2692_eq (c : Dev nD) : lw2692 c = Scalar.xori (lw2 c) 1#32 := rfl
def lw2703 (c : Dev nD) : BitVec 32 := Scalar.xori (lw2 c) 3#32
theorem lw2703_eq (c : Dev nD) : lw2703 c = Scalar.xori (lw2 c) 3#32 := rfl
def lw2849 (c : Dev nD) : BitVec 32 := Scalar.xori (lw2 c) 4#32
theorem lw2849_eq (c : Dev nD) : lw2849 c = Scalar.xori (lw2 c) 4#32 := rfl
def lwc1_i32_2854 (c : Dev nD) : BitVec 32 := 1#32
theorem lwc1_i32_2854_eq (c : Dev nD) : lwc1_i32_2854 c = 1#32 := rfl
def lw2860 (c : Dev nD) : BitVec 32 := Scalar.xori (lw2 c) 1#32
theorem lw2860_eq (c : Dev nD) : lw2860 c = Scalar.xori (lw2 c) 1#32 := rfl
def lw2871 (c : Dev nD) : BitVec 32 := Scalar.xori (lw2 c) 3#32
theorem lw2871_eq (c : Dev nD) : lw2871 c = Scalar.xori (lw2 c) 3#32 := rfl

/-! ## Float vectors -/

def lv14 (I : Dev nD → Ins F) (c : Dev nD) : FVec F S2x512x768 .f32 := v14 (I c)
theorem lv14_eq (I : Dev nD → Ins F) (c : Dev nD) : lv14 I c = v14 (I c) := rfl
def lv20 (I : Dev nD → Ins F) (c : Dev nD) : FVec F S2x768 .f32 := v20 (I c)
theorem lv20_eq (I : Dev nD → Ins F) (c : Dev nD) : lv20 I c = v20 (I c) := rfl
def lv21 (I : Dev nD → Ins F) (c : Dev nD) : FVec F S2x768 .f32 := v21 (I c)
theorem lv21_eq (I : Dev nD → Ins F) (c : Dev nD) : lv21 I c = v21 (I c) := rfl
def lv22 (I : Dev nD → Ins F) (c : Dev nD) : FVec F S2x768 .f32 := v22 (I c)
theorem lv22_eq (I : Dev nD → Ins F) (c : Dev nD) : lv22 I c = v22 (I c) := rfl
def lv23 (I : Dev nD → Ins F) (c : Dev nD) : FVec F S2x768 .f32 := v23 (I c)
theorem lv23_eq (I : Dev nD → Ins F) (c : Dev nD) : lv23 I c = v23 (I c) := rfl
def lv24 (I : Dev nD → Ins F) (c : Dev nD) : FVec F S2x768 .f32 := v24 (I c)
theorem lv24_eq (I : Dev nD → Ins F) (c : Dev nD) : lv24 I c = v24 (I c) := rfl
def lv25 (I : Dev nD → Ins F) (c : Dev nD) : FVec F S2x768 .f32 := v25 (I c)
theorem lv25_eq (I : Dev nD → Ins F) (c : Dev nD) : lv25 I c = v25 (I c) := rfl
def lv28 (I : Dev nD → Ins F) (c : Dev nD) : FVec F S768x384 .bf16 := v28 (I c)
theorem lv28_eq (I : Dev nD → Ins F) (c : Dev nD) : lv28 I c = v28 (I c) := rfl
def lv31 (I : Dev nD → Ins F) (c : Dev nD) : FVec F S768x384 .bf16 := v31 (I c)
theorem lv31_eq (I : Dev nD → Ins F) (c : Dev nD) : lv31 I c = v31 (I c) := rfl
def lv34 (I : Dev nD → Ins F) (c : Dev nD) : FVec F S768x384 .bf16 := v34 (I c)
theorem lv34_eq (I : Dev nD → Ins F) (c : Dev nD) : lv34 I c = v34 (I c) := rfl
def lv37 (I : Dev nD → Ins F) (c : Dev nD) : FVec F S384x768 .bf16 := v37 (I c)
theorem lv37_eq (I : Dev nD → Ins F) (c : Dev nD) : lv37 I c = v37 (I c) := rfl
def lv40 (I : Dev nD → Ins F) (c : Dev nD) : FVec F S768x384 .bf16 := v40 (I c)
theorem lv40_eq (I : Dev nD → Ins F) (c : Dev nD) : lv40 I c = v40 (I c) := rfl
def lv43 (I : Dev nD → Ins F) (c : Dev nD) : FVec F S384x768 .bf16 := v43 (I c)
theorem lv43_eq (I : Dev nD → Ins F) (c : Dev nD) : lv43 I c = v43 (I c) := rfl
def lv72 (I : Dev nD → Ins F) (c : Dev nD) : FVec F S512x768 .f32 := v72 (I c)
theorem lv72_eq (I : Dev nD → Ins F) (c : Dev nD) : lv72 I c = v72 (I c) := rfl
def lv77 (I : Dev nD → Ins F) (c : Dev nD) : FVec F S512x768 .f32 := v77 (I c)
theorem lv77_eq (I : Dev nD → Ins F) (c : Dev nD) : lv77 I c = v77 (I c) := rfl
def lv80 (I : Dev nD → Ins F) (c : Dev nD) : FVec F S512x384 .bf16 := v80 (I c)
theorem lv80_eq (I : Dev nD → Ins F) (c : Dev nD) : lv80 I c = v80 (I c) := rfl
def lv83 (I : Dev nD → Ins F) (c : Dev nD) : FVec F S512x384 .bf16 := v83 (I c)
theorem lv83_eq (I : Dev nD → Ins F) (c : Dev nD) : lv83 I c = v83 (I c) := rfl
def lv89 (I : Dev nD → Ins F) (c : Dev nD) : FVec F S256x384 .bf16 := v89 (I c)
theorem lv89_eq (I : Dev nD → Ins F) (c : Dev nD) : lv89 I c = v89 (I c) := rfl
def lv101 (I : Dev nD → Ins F) (c : Dev nD) : FVec F S256x96 .f32 := v101 (I c)
theorem lv101_eq (I : Dev nD → Ins F) (c : Dev nD) : lv101 I c = v101 (I c) := rfl
def lv113 (I : Dev nD → Ins F) (c : Dev nD) : FVec F S256x96 .f32 := v113 (I c)
theorem lv113_eq (I : Dev nD → Ins F) (c : Dev nD) : lv113 I c = v113 (I c) := rfl
def lv116 (I : Dev nD → Ins F) (c : Dev nD) : FVec F S512x96 .bf16 := v116 (I c)
theorem lv116_eq (I : Dev nD → Ins F) (c : Dev nD) : lv116 I c = v116 (I c) := rfl
def lv119 (I : Dev nD → Ins F) (c : Dev nD) : FVec F S256x512 .f32 := v119 (I c)
theorem lv119_eq (I : Dev nD → Ins F) (c : Dev nD) : lv119 I c = v119 (I c) := rfl
def lv120 (I : Dev nD → Ins F) (c : Dev nD) : FVec F S256 .f32 := v120 (I c)
theorem lv120_eq (I : Dev nD → Ins F) (c : Dev nD) : lv120 I c = v120 (I c) := rfl
def lv192 (I : Dev nD → Ins F) (c : Dev nD) : FVec F S256x384 .bf16 := v192 (I c)
theorem lv192_eq (I : Dev nD → Ins F) (c : Dev nD) : lv192 I c = v192 (I c) := rfl
def lv204 (I : Dev nD → Ins F) (c : Dev nD) : FVec F S256x96 .f32 := v204 (I c)
theorem lv204_eq (I : Dev nD → Ins F) (c : Dev nD) : lv204 I c = v204 (I c) := rfl
def lv216 (I : Dev nD → Ins F) (c : Dev nD) : FVec F S256x96 .f32 := v216 (I c)
theorem lv216_eq (I : Dev nD → Ins F) (c : Dev nD) : lv216 I c = v216 (I c) := rfl
def lv219 (I : Dev nD → Ins F) (c : Dev nD) : FVec F S512x96 .bf16 := v219 (I c)
theorem lv219_eq (I : Dev nD → Ins F) (c : Dev nD) : lv219 I c = v219 (I c) := rfl
def lv224 (I : Dev nD → Ins F) (c : Dev nD) : FVec F S256x1 .f32 := v224 (I c)
theorem lv224_eq (I : Dev nD → Ins F) (c : Dev nD) : lv224 I c = v224 (I c) := rfl
def lv225 (I : Dev nD → Ins F) (c : Dev nD) : FVec F S256x512 .bf16 := v225 (I c)
theorem lv225_eq (I : Dev nD → Ins F) (c : Dev nD) : lv225 I c = v225 (I c) := rfl
def lv405 (I : Dev nD → Ins F) (c : Dev nD) : FVec F S512x768 .f32 := v405 (I c)
theorem lv405_eq (I : Dev nD → Ins F) (c : Dev nD) : lv405 I c = v405 (I c) := rfl
def lv407 (I : Dev nD → Ins F) (c : Dev nD) : FVec F S512x1 .f32 := v407 (I c)
theorem lv407_eq (I : Dev nD → Ins F) (c : Dev nD) : lv407 I c = v407 (I c) := rfl
def lv422 (I : Dev nD → Ins F) (c : Dev nD) : FVec F S512x768 .f32 := v422 (I c)
theorem lv422_eq (I : Dev nD → Ins F) (c : Dev nD) : lv422 I c = v422 (I c) := rfl
def lv477 (I : Dev nD → Ins F) (c : Dev nD) : FVec F S256x256 .bf16 := k0_pay50 (A I 0 c 1 1 0) (R I 0 c 1 1 0)
theorem lv477_eq (I : Dev nD → Ins F) (c : Dev nD) : lv477 I c = k0_pay50 (A I 0 c 1 1 0) (R I 0 c 1 1 0) := rfl
def lv478 (I : Dev nD → Ins F) (c : Dev nD) : Vec F S1x1x256x256 .bf16 := A I 0 c 1 1 0
theorem lv478_eq (I : Dev nD → Ins F) (c : Dev nD) : lv478 I c = A I 0 c 1 1 0 := rfl
def lv568 (I : Dev nD → Ins F) (c : Dev nD) : FVec F S256x256 .bf16 := k0_pay53 (A I 0 c 0 0 1) (R I 0 c 0 0 1)
theorem lv568_eq (I : Dev nD → Ins F) (c : Dev nD) : lv568 I c = k0_pay53 (A I 0 c 0 0 1) (R I 0 c 0 0 1) := rfl
def lv623 (I : Dev nD → Ins F) (c : Dev nD) : FVec F S512x384 .bf16 := v623 (I c)
theorem lv623_eq (I : Dev nD → Ins F) (c : Dev nD) : lv623 I c = v623 (I c) := rfl
def lv626 (I : Dev nD → Ins F) (c : Dev nD) : FVec F S512x384 .bf16 := v626 (I c)
theorem lv626_eq (I : Dev nD → Ins F) (c : Dev nD) : lv626 I c = v626 (I c) := rfl
def lv681 (I : Dev nD → Ins F) (c : Dev nD) : FVec F S256x256 .bf16 := k0_pay60 (A I 0 c 1 1 1) (R I 0 c 1 1 1)
theorem lv681_eq (I : Dev nD → Ins F) (c : Dev nD) : lv681 I c = k0_pay60 (A I 0 c 1 1 1) (R I 0 c 1 1 1) := rfl
def lv773 (I : Dev nD → Ins F) (c : Dev nD) : FVec F S256x384 .bf16 := v773 (I c)
theorem lv773_eq (I : Dev nD → Ins F) (c : Dev nD) : lv773 I c = v773 (I c) := rfl
def lv774 (I : Dev nD → Ins F) (c : Dev nD) : FVec F S256x96 .bf16 := v774 (I c)
theorem lv774_eq (I : Dev nD → Ins F) (c : Dev nD) : lv774 I c = v774 (I c) := rfl
def lv776 (I : Dev nD → Ins F) (c : Dev nD) : FVec F S512x96 .bf16 := v776 (I c)
theorem lv776_eq (I : Dev nD → Ins F) (c : Dev nD) : lv776 I c = v776 (I c) := rfl
def lv777 (I : Dev nD → Ins F) (c : Dev nD) : FVec F S96x512 .bf16 := v777 (I c)
theorem lv777_eq (I : Dev nD → Ins F) (c : Dev nD) : lv777 I c = v777 (I c) := rfl
def lv824 (I : Dev nD → Ins F) (c : Dev nD) : FVec F S256x768 .f32 := v824 (I c)
theorem lv824_eq (I : Dev nD → Ins F) (c : Dev nD) : lv824 I c = v824 (I c) := rfl
def lv918 (I : Dev nD → Ins F) (c : Dev nD) : FVec F S256x384 .bf16 := v918 (I c)
theorem lv918_eq (I : Dev nD → Ins F) (c : Dev nD) : lv918 I c = v918 (I c) := rfl
def lv919 (I : Dev nD → Ins F) (c : Dev nD) : FVec F S256x96 .bf16 := v919 (I c)
theorem lv919_eq (I : Dev nD → Ins F) (c : Dev nD) : lv919 I c = v919 (I c) := rfl
def lv920 (I : Dev nD → Ins F) (c : Dev nD) : FVec F S512x96 .bf16 := v920 (I c)
theorem lv920_eq (I : Dev nD → Ins F) (c : Dev nD) : lv920 I c = v920 (I c) := rfl
def lv921 (I : Dev nD → Ins F) (c : Dev nD) : FVec F S512x96 .bf16 := v921 (I c)
theorem lv921_eq (I : Dev nD → Ins F) (c : Dev nD) : lv921 I c = v921 (I c) := rfl
def lv968 (I : Dev nD → Ins F) (c : Dev nD) : FVec F S256x384 .bf16 := v968 (I c)
theorem lv968_eq (I : Dev nD → Ins F) (c : Dev nD) : lv968 I c = v968 (I c) := rfl
def lvcst_1034 (I : Dev nD → Ins F) (c : Dev nD) : FVec F S256x768 .f32 := constant S256x768 .f32 0x00000000#32
theorem lvcst_1034_eq (I : Dev nD → Ins F) (c : Dev nD) : lvcst_1034 I c = constant S256x768 .f32 0x00000000#32 := rfl
def lv1059 (I : Dev nD → Ins F) (c : Dev nD) : FVec F S256x256 .bf16 := k0_pay81 (A I 0 c 2 0 0)
theorem lv1059_eq (I : Dev nD → Ins F) (c : Dev nD) : lv1059 I c = k0_pay81 (A I 0 c 2 0 0) := rfl
def lv1131 (I : Dev nD → Ins F) (c : Dev nD) : FVec F S256x768 .f32 := k0_pay85 (A I 0 c 0 0 2) (R I 0 c 0 0 2) (A I 0 c 0 1 2) (R I 0 c 0 1 2) (A I 0 c 0 2 2) (R I 0 c 0 2 2)
theorem lv1131_eq (I : Dev nD → Ins F) (c : Dev nD) : lv1131 I c = k0_pay85 (A I 0 c 0 0 2) (R I 0 c 0 0 2) (A I 0 c 0 1 2) (R I 0 c 0 1 2) (A I 0 c 0 2 2) (R I 0 c 0 2 2) := rfl
def lv1133 (I : Dev nD → Ins F) (c : Dev nD) : FVec F S256x768 .f32 := v1133 (I c)
theorem lv1133_eq (I : Dev nD → Ins F) (c : Dev nD) : lv1133 I c = v1133 (I c) := rfl
def lv1139 (I : Dev nD → Ins F) (c : Dev nD) : FVec F S256x768 .f32 := k0_pay87 (lv22 I c) (lv1131 I c) (lv1133 I c)
theorem lv1139_eq (I : Dev nD → Ins F) (c : Dev nD) : lv1139 I c = k0_pay87 (lv22 I c) (lv1131 I c) (lv1133 I c) := rfl
def lv1182 (I : Dev nD → Ins F) (c : Dev nD) : FVec F S256x768 .bf16 := k0_pay88 (lv22 I c) (lv23 I c) (lv24 I c) (lv40 I c) (lv43 I c) (lv1131 I c) (lv1133 I c)
theorem lv1182_eq (I : Dev nD → Ins F) (c : Dev nD) : lv1182 I c = k0_pay88 (lv22 I c) (lv23 I c) (lv24 I c) (lv40 I c) (lv43 I c) (lv1131 I c) (lv1133 I c) := rfl
def lv1183 (I : Dev nD → Ins F) (c : Dev nD) : FVec F S256x256 .bf16 := k0_pay89 (lv22 I c) (lv23 I c) (lv24 I c) (lv40 I c) (lv43 I c) (lv1131 I c) (lv1133 I c)
theorem lv1183_eq (I : Dev nD → Ins F) (c : Dev nD) : lv1183 I c = k0_pay89 (lv22 I c) (lv23 I c) (lv24 I c) (lv40 I c) (lv43 I c) (lv1131 I c) (lv1133 I c) := rfl
def lv1272 (I : Dev nD → Ins F) (c : Dev nD) : FVec F S256x256 .bf16 := k0_pay93 (A I 0 c 3 0 0)
theorem lv1272_eq (I : Dev nD → Ins F) (c : Dev nD) : lv1272 I c = k0_pay93 (A I 0 c 3 0 0) := rfl
def lv1273 (I : Dev nD → Ins F) (c : Dev nD) : Vec F S1x1x1x256x256 .bf16 := R I 0 c 3 0 0
theorem lv1273_eq (I : Dev nD → Ins F) (c : Dev nD) : lv1273 I c = R I 0 c 3 0 0 := rfl
def lv1431 (I : Dev nD → Ins F) (c : Dev nD) : FVec F S256x256 .bf16 := k0_pay100 (A I 0 c 1 0 2) (R I 0 c 1 0 2)
theorem lv1431_eq (I : Dev nD → Ins F) (c : Dev nD) : lv1431 I c = k0_pay100 (A I 0 c 1 0 2) (R I 0 c 1 0 2) := rfl
def lv1433 (I : Dev nD → Ins F) (c : Dev nD) : FVec F S256x256 .bf16 := k0_pay101 (A I 0 c 1 1 2)
theorem lv1433_eq (I : Dev nD → Ins F) (c : Dev nD) : lv1433 I c = k0_pay101 (A I 0 c 1 1 2) := rfl
def lv1451 (I : Dev nD → Ins F) (c : Dev nD) : FVec F S256x768 .f32 := k0_pay102 (lv14 I c) (lv22 I c) (lv1431 I c) (lv1433 I c) (R I 0 c 1 1 2) (A I 0 c 1 2 2) (R I 0 c 1 2 2)
theorem lv1451_eq (I : Dev nD → Ins F) (c : Dev nD) : lv1451 I c = k0_pay102 (lv14 I c) (lv22 I c) (lv1431 I c) (lv1433 I c) (R I 0 c 1 1 2) (A I 0 c 1 2 2) (R I 0 c 1 2 2) := rfl
def lv1471 (I : Dev nD → Ins F) (c : Dev nD) : FVec F S256x768 .f32 := k0_pay103 (lv14 I c) (lv22 I c) (lv1431 I c) (lv1433 I c) (R I 0 c 1 1 2) (A I 0 c 1 2 2) (R I 0 c 1 2 2)
theorem lv1471_eq (I : Dev nD → Ins F) (c : Dev nD) : lv1471 I c = k0_pay103 (lv14 I c) (lv22 I c) (lv1431 I c) (lv1433 I c) (R I 0 c 1 1 2) (A I 0 c 1 2 2) (R I 0 c 1 2 2) := rfl
def lv1474 (I : Dev nD → Ins F) (c : Dev nD) : FVec F S1x768 .f32 := v1474 (I c)
theorem lv1474_eq (I : Dev nD → Ins F) (c : Dev nD) : lv1474 I c = v1474 (I c) := rfl
def lvcst_1675 (I : Dev nD → Ins F) (c : Dev nD) : F .f32 := Scalar.ofBits .f32 0x3F800000#32
theorem lvcst_1675_eq (I : Dev nD → Ins F) (c : Dev nD) : lvcst_1675 I c = Scalar.ofBits .f32 0x3F800000#32 := rfl
def lv1686 (I : Dev nD → Ins F) (c : Dev nD) : FVec F S256x256 .bf16 := k0_pay112 (A I 0 c 3 0 1) (R I 0 c 3 0 1)
theorem lv1686_eq (I : Dev nD → Ins F) (c : Dev nD) : lv1686 I c = k0_pay112 (A I 0 c 3 0 1) (R I 0 c 3 0 1) := rfl
def lv1805 (I : Dev nD → Ins F) (c : Dev nD) : FVec F S256x768 .f32 := k0_pay116 (lv14 I c) (lv22 I c) (A I 0 c 2 0 2) (R I 0 c 2 0 2) (A I 0 c 2 1 2) (R I 0 c 2 1 2) (A I 0 c 2 2 2) (R I 0 c 2 2 2)
theorem lv1805_eq (I : Dev nD → Ins F) (c : Dev nD) : lv1805 I c = k0_pay116 (lv14 I c) (lv22 I c) (A I 0 c 2 0 2) (R I 0 c 2 0 2) (A I 0 c 2 1 2) (R I 0 c 2 1 2) (A I 0 c 2 2 2) (R I 0 c 2 2 2) := rfl
def lv1848 (I : Dev nD → Ins F) (c : Dev nD) : FVec F S256x768 .bf16 := k0_pay117 (lv23 I c) (lv24 I c) (lv40 I c) (lv43 I c) (lv1805 I c)
theorem lv1848_eq (I : Dev nD → Ins F) (c : Dev nD) : lv1848 I c = k0_pay117 (lv23 I c) (lv24 I c) (lv40 I c) (lv43 I c) (lv1805 I c) := rfl
def lv1852 (I : Dev nD → Ins F) (c : Dev nD) : FVec F S1x1x256x256 .bf16 := k0_pay118 (lv23 I c) (lv24 I c) (lv40 I c) (lv43 I c) (lv1805 I c)
theorem lv1852_eq (I : Dev nD → Ins F) (c : Dev nD) : lv1852 I c = k0_pay118 (lv23 I c) (lv24 I c) (lv40 I c) (lv43 I c) (lv1805 I c) := rfl
def lv1941 (I : Dev nD → Ins F) (c : Dev nD) : FVec F S256x256 .bf16 := k0_pay121 (A I 1 c 1 0 0) (R I 1 c 1 0 0)
theorem lv1941_eq (I : Dev nD → Ins F) (c : Dev nD) : lv1941 I c = k0_pay121 (A I 1 c 1 0 0) (R I 1 c 1 0 0) := rfl
def lv1942 (I : Dev nD → Ins F) (c : Dev nD) : Vec F S1x1x256x256 .bf16 := A I 1 c 1 0 0
theorem lv1942_eq (I : Dev nD → Ins F) (c : Dev nD) : lv1942 I c = A I 1 c 1 0 0 := rfl
def lv2053 (I : Dev nD → Ins F) (c : Dev nD) : FVec F S256x256 .bf16 := k0_pay127 (A I 1 c 0 2 1)
theorem lv2053_eq (I : Dev nD → Ins F) (c : Dev nD) : lv2053 I c = k0_pay127 (A I 1 c 0 2 1) := rfl
def lv2139 (I : Dev nD → Ins F) (c : Dev nD) : FVec F S256x256 .bf16 := k0_pay129 (A I 0 c 3 0 2) (R I 0 c 3 0 2)
theorem lv2139_eq (I : Dev nD → Ins F) (c : Dev nD) : lv2139 I c = k0_pay129 (A I 0 c 3 0 2) (R I 0 c 3 0 2) := rfl
def lv2141 (I : Dev nD → Ins F) (c : Dev nD) : FVec F S256x256 .bf16 := k0_pay130 (A I 0 c 3 1 2)
theorem lv2141_eq (I : Dev nD → Ins F) (c : Dev nD) : lv2141 I c = k0_pay130 (A I 0 c 3 1 2) := rfl
def lv2159 (I : Dev nD → Ins F) (c : Dev nD) : FVec F S256x768 .f32 := k0_pay131 (lv14 I c) (lv22 I c) (lv2139 I c) (lv2141 I c) (R I 0 c 3 1 2) (A I 0 c 3 2 2) (R I 0 c 3 2 2)
theorem lv2159_eq (I : Dev nD → Ins F) (c : Dev nD) : lv2159 I c = k0_pay131 (lv14 I c) (lv22 I c) (lv2139 I c) (lv2141 I c) (R I 0 c 3 1 2) (A I 0 c 3 2 2) (R I 0 c 3 2 2) := rfl
def lv2186 (I : Dev nD → Ins F) (c : Dev nD) : FVec F S256x768 .f32 := k0_pay132 (lv14 I c) (lv22 I c) (lv23 I c) (lv2139 I c) (lv2141 I c) (R I 0 c 3 1 2) (A I 0 c 3 2 2) (R I 0 c 3 2 2)
theorem lv2186_eq (I : Dev nD → Ins F) (c : Dev nD) : lv2186 I c = k0_pay132 (lv14 I c) (lv22 I c) (lv23 I c) (lv2139 I c) (lv2141 I c) (R I 0 c 3 1 2) (A I 0 c 3 2 2) (R I 0 c 3 2 2) := rfl
def lv2308 (I : Dev nD → Ins F) (c : Dev nD) : FVec F S256x256 .bf16 := k0_pay139 (A I 1 c 2 2 0)
theorem lv2308_eq (I : Dev nD → Ins F) (c : Dev nD) : lv2308 I c = k0_pay139 (A I 1 c 2 2 0) := rfl
def lv2515 (I : Dev nD → Ins F) (c : Dev nD) : FVec F S1x256x768 .f32 := k0_pay144 (lv25 I c) (lv1139 I c) (A I 1 c 0 0 2) (R I 1 c 0 0 2) (A I 1 c 0 1 2) (R I 1 c 0 1 2) (A I 1 c 0 2 2) (R I 1 c 0 2 2)
theorem lv2515_eq (I : Dev nD → Ins F) (c : Dev nD) : lv2515 I c = k0_pay144 (lv25 I c) (lv1139 I c) (A I 1 c 0 0 2) (R I 1 c 0 0 2) (A I 1 c 0 1 2) (R I 1 c 0 1 2) (A I 1 c 0 2 2) (R I 1 c 0 2 2) := rfl
def lv2575 (I : Dev nD → Ins F) (c : Dev nD) : FVec F S256x256 .bf16 := k0_pay147 (A I 1 c 3 2 0)
theorem lv2575_eq (I : Dev nD → Ins F) (c : Dev nD) : lv2575 I c = k0_pay147 (A I 1 c 3 2 0) := rfl
def lv2576 (I : Dev nD → Ins F) (c : Dev nD) : Vec F S1x1x1x256x256 .bf16 := R I 1 c 3 2 0
theorem lv2576_eq (I : Dev nD → Ins F) (c : Dev nD) : lv2576 I c = R I 1 c 3 2 0 := rfl
def lv2666 (I : Dev nD → Ins F) (c : Dev nD) : FVec F S256x256 .bf16 := k0_pay150 (A I 1 c 2 1 1)
theorem lv2666_eq (I : Dev nD → Ins F) (c : Dev nD) : lv2666 I c = k0_pay150 (A I 1 c 2 1 1) := rfl
def lv2756 (I : Dev nD → Ins F) (c : Dev nD) : FVec F S256x768 .f32 := k0_pay153 (lv1451 I c)
theorem lv2756_eq (I : Dev nD → Ins F) (c : Dev nD) : lv2756 I c = k0_pay153 (lv1451 I c) := rfl
def lv2757 (I : Dev nD → Ins F) (c : Dev nD) : FVec F S1x768 .f32 := v2757 (I c)
theorem lv2757_eq (I : Dev nD → Ins F) (c : Dev nD) : lv2757 I c = v2757 (I c) := rfl
def lv2845 (I : Dev nD → Ins F) (c : Dev nD) : FVec F S256x256 .bf16 := k0_pay158 (A I 1 c 3 2 1) (R I 1 c 3 2 1)
theorem lv2845_eq (I : Dev nD → Ins F) (c : Dev nD) : lv2845 I c = k0_pay158 (A I 1 c 3 2 1) (R I 1 c 3 2 1) := rfl
def lv2924 (I : Dev nD → Ins F) (c : Dev nD) : FVec F S256x768 .f32 := k0_pay160 (lv1805 I c)
theorem lv2924_eq (I : Dev nD → Ins F) (c : Dev nD) : lv2924 I c = k0_pay160 (lv1805 I c) := rfl
def lv2927 (I : Dev nD → Ins F) (c : Dev nD) : FVec F S1x768 .f32 := v2927 (I c)
theorem lv2927_eq (I : Dev nD → Ins F) (c : Dev nD) : lv2927 I c = v2927 (I c) := rfl
def lv2932 (I : Dev nD → Ins F) (c : Dev nD) : FVec F S256x256 .bf16 := k0_pay162 (A I 1 c 2 0 2) (R I 1 c 2 0 2)
theorem lv2932_eq (I : Dev nD → Ins F) (c : Dev nD) : lv2932 I c = k0_pay162 (A I 1 c 2 0 2) (R I 1 c 2 0 2) := rfl
def lv2937 (I : Dev nD → Ins F) (c : Dev nD) : FVec F S256x256 .bf16 := k0_pay163 (A I 1 c 2 1 2) (R I 1 c 2 1 2)
theorem lv2937_eq (I : Dev nD → Ins F) (c : Dev nD) : lv2937 I c = k0_pay163 (A I 1 c 2 1 2) (R I 1 c 2 1 2) := rfl
def lv2993 (I : Dev nD → Ins F) (c : Dev nD) : FVec F S256x768 .f32 := k0_pay165 (lv2159 I c)
theorem lv2993_eq (I : Dev nD → Ins F) (c : Dev nD) : lv2993 I c = k0_pay165 (lv2159 I c) := rfl
def lv2996 (I : Dev nD → Ins F) (c : Dev nD) : FVec F S1x768 .f32 := v2996 (I c)
theorem lv2996_eq (I : Dev nD → Ins F) (c : Dev nD) : lv2996 I c = v2996 (I c) := rfl
def lv3001 (I : Dev nD → Ins F) (c : Dev nD) : FVec F S256x256 .bf16 := k0_pay167 (A I 1 c 3 0 2) (R I 1 c 3 0 2)
theorem lv3001_eq (I : Dev nD → Ins F) (c : Dev nD) : lv3001 I c = k0_pay167 (A I 1 c 3 0 2) (R I 1 c 3 0 2) := rfl
def lv3006 (I : Dev nD → Ins F) (c : Dev nD) : FVec F S256x256 .bf16 := k0_pay168 (A I 1 c 3 1 2) (R I 1 c 3 1 2)
theorem lv3006_eq (I : Dev nD → Ins F) (c : Dev nD) : lv3006 I c = k0_pay168 (A I 1 c 3 1 2) (R I 1 c 3 1 2) := rfl

end Cert.KernelIdeal.Vals
-- ==== Proof.Proto.lean ====
/-
The exchange protocol of the eight devices as a schedule of rounds.

Every device owns fifty semaphore cells that other devices (or its own copies) credit: the entry cell (the runtime's
barrier semaphore), 24 send cells and 24 receive cells (one pair per step of the exchange), and the exit cell. Each
cell is used once: it has one round, round 0, of three duties named by `Fin 3`.

* entry cell of `c`: duty `j` is one unit signalled by `peer j c`; it hands `c` the 24 receive slices of
  `peer j c` that `c` will write (those of the parts that use mask `j` at their step), each at some contents.
* send cell `k` of `c`: duty `p` is the departure of `c`'s own copy of part `p` at step `k`; it hands back the
  source slice of the accumulator at the contents it was sent with.
* receive cell `k` of `c`: duty `p` is the arrival of the copy of part `p` that `partner p s c` started at step
  `k = (rg, s)`; it hands `c` its receive slice `(rg, p, s)` holding that device's accumulator slice.
* exit cell of `c`: duty `j` is one unit signalled by `peer j c`; it hands over nothing.

The contents are parameters: `accC c rg p s` is the accumulator buffer of `c` when step `(rg, s)` starts (only its
slice `(g, p)` is read), `rs0 c` any contents of the receive buffer (a landing overwrites its whole slice, so the
slice does not depend on it).

A device pays 78 times, in program order: three entry signals, the 72 copies in starting order, three exit signals.
What it still owes after `n` payments is `owedFrom c n`; a wait is allowed when the waited cell's level lies below
the level of everything still owed: entry cells lowest, receive cells in starting order, exit cells highest.
-/
import proofs.«900775_g7700000000000776_dist_diff_dit_htp_i_b2_s512_d768_hq4_v7x_i8_f32_1_alg».proof.Proof.Mesh
import proofs.«900775_g7700000000000776_dist_diff_dit_htp_i_b2_s512_d768_hq4_v7x_i8_f32_1_alg».proof.Proof.LaunchK
import Idealize.ShloMosaic.Lib.Rounds
import Idealize.ShloMosaic.Lib.Pipeline.Launch
import Idealize.ShloMosaic.Lib.Pipeline.Kit
import Idealize.ShloMosaic.Lib.Tactic
import Idealize.ShloMosaic.Lib.Writes

noncomputable section

namespace Cert.KernelIdeal.Proto

open Cert.KernelIdeal Cert.KernelIdeal.Gen Cert.KernelIdeal.Mesh Cert.KernelIdeal.LaunchK

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Steps

A step is `k = rg * 3 + s`, `rg = r * 4 + g`: round `r` of two, group `g` of four, position `s` of three. -/

/-- The receive-buffer row of step `k`. -/
abbrev rgOf (k : Fin 24) : Fin 8 := ⟨k.val / 3, by have := k.isLt; omega⟩
/-- The position of step `k` among its group's three. -/
abbrev sOf (k : Fin 24) : Fin 3 := ⟨k.val % 3, Nat.mod_lt _ (by decide)⟩
/-- The group of step `k`: the accumulator row it sends from. -/
abbrev gOf (k : Fin 24) : Fin 4 := ⟨(k.val / 3) % 4, Nat.mod_lt _ (by decide)⟩
/-- The step of row `rg` at position `s`. -/
abbrev kOf (rg : Fin 8) (s : Fin 3) : Fin 24 := ⟨rg.val * 3 + s.val, by have := rg.isLt; have := s.isLt; omega⟩

theorem kOf_rgOf_sOf : ∀ k : Fin 24, kOf (rgOf k) (sOf k) = k := by decide
theorem rgOf_kOf : ∀ (rg : Fin 8) (s : Fin 3), rgOf (kOf rg s) = rg := by decide
theorem sOf_kOf : ∀ (rg : Fin 8) (s : Fin 3), sOf (kOf rg s) = s := by decide

/-- The 24 steps in the order every device starts them. -/
def fireK : Fin 24 → Fin 24 := ![0, 3, 1, 4, 2, 5, 6, 9, 7, 12, 10, 8, 15, 13, 11, 18, 16, 14, 21, 19, 17, 22, 20, 23]
/-- The place of step `k` in that order. -/
def posK : Fin 24 → Fin 24 := ![0, 2, 4, 1, 3, 5, 6, 8, 11, 7, 10, 14, 9, 13, 17, 12, 16, 20, 15, 19, 22, 18, 21, 23]
theorem posK_fireK : ∀ i : Fin 24, posK (fireK i) = i := by decide
theorem fireK_posK : ∀ k : Fin 24, fireK (posK k) = k := by decide
/-- How many steps a device has started when it reaches the waits of step `k`. -/
def firedAt : Fin 24 → ℕ := ![2, 4, 6, 3, 5, 7, 8, 11, 15, 10, 14, 18, 13, 17, 21, 16, 20, 23, 19, 22, 24, 21, 23, 24]
theorem posK_lt_firedAt : ∀ k : Fin 24, (posK k).val < firedAt k := by decide
theorem firedAt_le : ∀ k : Fin 24, firedAt k ≤ 24 := by decide

/-- The device part `p` of step `k` is exchanged with: where `c`'s copy goes and whose copy `c` receives. -/
abbrev mate (c : Dev nD) (p : Fin 3) (k : Fin 24) : Dev nD := partner p (sOf k) c
theorem mate_mate (c : Dev nD) (p : Fin 3) (k : Fin 24) : mate (mate c p k) p k = c := partner_partner p (sOf k) c
theorem mate_ne : ∀ (c : Dev nD) (p : Fin 3) (k : Fin 24), mate c p k ≠ c := by decide
theorem mate_ne_mate : ∀ (c : Dev nD) (p q : Fin 3) (k : Fin 24), p ≠ q → mate c p k ≠ mate c q k := by decide
/-- The part of step `k` that uses mask `j`. -/
abbrev partOf (j : Fin 3) (k : Fin 24) : Fin 3 := ⟨(j.val + 3 - (sOf k).val) % 3, Nat.mod_lt _ (by decide)⟩
theorem axisOf_partOf : ∀ (j : Fin 3) (k : Fin 24), axisOf (partOf j k) (sOf k) = j := by decide
theorem partOf_axisOf : ∀ (p : Fin 3) (k : Fin 24), partOf (axisOf p (sOf k)) k = p := by decide
/-- The pairings as permutations of the devices. -/
def peerEquiv (j : Fin 3) : Dev nD ≃ Dev nD := ⟨peer j, peer j, peer_peer j, peer_peer j⟩
def mateEquiv (p : Fin 3) (k : Fin 24) : Dev nD ≃ Dev nD :=
  ⟨fun c => mate c p k, fun c => mate c p k, fun c => mate_mate c p k, fun c => mate_mate c p k⟩

/-! ## The slices -/

abbrev accM : Memref sig .tc .vmem S4x3x256x256 .bf16 := Memref.whole cc0_scratch0
abbrev rsM : Memref sig .tc .vmem S8x3x3x256x256 .bf16 := Memref.whole cc0_scratch1

theorem inbAcc : ∀ (g : Fin 4) (p : Fin 3) (a : Fin 4),
    (![g.val, p.val, 0, 0] : Fin 4 → Nat) a + S1x1x256x256.size a ≤ S4x3x256x256.size a := by decide
theorem inbRs : ∀ (rg : Fin 8) (p s : Fin 3) (a : Fin 5),
    (![rg.val, p.val, s.val, 0, 0] : Fin 5 → Nat) a + S1x1x1x256x256.size a ≤ S8x3x3x256x256.size a := by decide
theorem inbSem : ∀ (k : Fin 24) (a : Fin 1), (![k.val] : Fin 1 → Nat) a + S1.size a ≤ S24.size a := by decide

/-- The accumulator's slice of group `g`, part `p`: the source of a copy. -/
abbrev accSl (g : Fin 4) (p : Fin 3) : Memref sig .tc .vmem S256x256 .bf16 :=
  (accM.slice (Rect.unit (s := S4x3x256x256) ![g.val, p.val, 0, 0] S1x1x256x256.size (inbAcc g p)) (fun _ => rfl)).squeeze
    S256x256 squeezes_S1x1x256x256_S256x256
/-- The receive buffer's slice of row `rg`, part `p`, position `s`: the destination of a copy. -/
abbrev rsSl (rg : Fin 8) (p s : Fin 3) : Memref sig .tc .vmem S256x256 .bf16 :=
  (rsM.slice (Rect.unit (s := S8x3x3x256x256) ![rg.val, p.val, s.val, 0, 0] S1x1x1x256x256.size (inbRs rg p s)) (fun _ => rfl)).squeeze
    S256x256 squeezes_S1x1x1x256x256_S256x256

/-- Every printed source slice is one of these, whatever its in-bounds evidence. -/
theorem accSl_eq (g : Fin 4) (p : Fin 3)
    (h : ∀ a, (![g.val, p.val, 0, 0] : Fin 4 → Nat) a + S1x1x256x256.size a ≤ S4x3x256x256.size a)
    (hs : S1x1x256x256.Squeezes S256x256) :
    (accM.slice (Rect.unit (s := S4x3x256x256) ![g.val, p.val, 0, 0] S1x1x256x256.size h) (fun _ => rfl)).squeeze S256x256 hs
      = accSl g p := rfl
/-- Every printed destination slice likewise. -/
theorem rsSl_eq (rg : Fin 8) (p s : Fin 3)
    (h : ∀ a, (![rg.val, p.val, s.val, 0, 0] : Fin 5 → Nat) a + S1x1x1x256x256.size a ≤ S8x3x3x256x256.size a)
    (hs : S1x1x1x256x256.Squeezes S256x256) :
    (rsM.slice (Rect.unit (s := S8x3x3x256x256) ![rg.val, p.val, s.val, 0, 0] S1x1x1x256x256.size h) (fun _ => rfl)).squeeze S256x256 hs
      = rsSl rg p s := rfl

/-- Semaphore `k` of an array of 24, as the body picks it: slice, squeeze, the one it names. -/
abbrev semAt (A : DmaSems sig S24) (k : Fin 24) : DmaSem sig :=
  ((A.slice (Rect.unit (s := S24) ![k.val] S1.size (inbSem k))).squeeze S_ squeezes_S1_S_).sem
theorem semAt_eq (A : DmaSems sig S24) (k : Fin 24) (h : ∀ a, (![k.val] : Fin 1 → Nat) a + S1.size a ≤ S24.size a) (hs : S1.Squeezes S_) :
    ((A.slice (Rect.unit (s := S24) ![k.val] S1.size h)).squeeze S_ hs).sem = semAt A k := rfl
/-- The printed semaphores are the cells' semaphores. -/
theorem sendS_eq : ∀ k : Fin 24, semAt cc0_scratch2 k = sendS k := by decide
theorem recvS_eq : ∀ k : Fin 24, semAt cc0_scratch3 k = recvS k := by decide

/-- What one DMA of a 256×256 bf16 slice credits. -/
abbrev N : ℕ := (rsSl 0 0 0).view.dmaCredit
theorem N_pos : 0 < N := View.dmaCredit_pos _ (by decide)
theorem rs_credit (rg : Fin 8) (p s : Fin 3) : (rsSl rg p s).view.dmaCredit = N := rfl
theorem acc_credit (g : Fin 4) (p : Fin 3) : (accSl g p).view.dmaCredit = N := rfl

/-- Reading a DMA semaphore back as a send or a receive index. -/
def sendIx (s : DmaSem sig) : Option (Fin 24) := if h : 10 ≤ s.val ∧ s.val < 34 then some ⟨s.val - 10, by omega⟩ else none
def recvIx (s : DmaSem sig) : Option (Fin 24) := if h : 34 ≤ s.val ∧ s.val < 58 then some ⟨s.val - 34, by omega⟩ else none
theorem sendIx_sendS : ∀ k : Fin 24, sendIx (sendS k) = some k := by decide
theorem recvIx_recvS : ∀ k : Fin 24, recvIx (recvS k) = some k := by decide
theorem sendIx_recvS : ∀ k : Fin 24, sendIx (recvS k) = none := by decide
theorem recvIx_sendS : ∀ k : Fin 24, recvIx (sendS k) = none := by decide
theorem recvIx_low (s : DmaSem sig) (h : s.val < 34) : recvIx s = none := dif_neg fun h' => by omega
theorem barS_ne_exitS : (barS : Sem sig) ≠ exitS := by decide
/-! ## Contents and payloads -/

/-- Contents of the accumulator buffer, of the receive buffer. -/
abbrev AccBuf (F : FTy → Type) : Type := (cc0_scratch0 : Ref sig .tc).ty.Contents (Elt F)
abbrev RsBuf (F : FTy → Type) : Type := (cc0_scratch1 : Ref sig .tc).ty.Contents (Elt F)

variable (accC : Dev nD → Fin 8 → Fin 3 → Fin 3 → AccBuf F) (rs0 : Dev nD → RsBuf F)

/-- Source slice `(g, p)` of device `c` at contents `f`; destination slice `(rg, p, s)` of `c` at `f`. -/
def accPts (c : Dev nD) (g : Fin 4) (p : Fin 3) (f : Buf (Elt F) ((accSl g p).view.loc (c : Thread nD τ))) : sProp 𝕄 :=
  (accSl g p).view.loc (c : Thread nD τ) ↦[(accSl g p).view.set]{fullShare} f
def rsPts (c : Dev nD) (rg : Fin 8) (p s : Fin 3) (f : Buf (Elt F) ((rsSl rg p s).view.loc (c : Thread nD τ))) : sProp 𝕄 :=
  (rsSl rg p s).view.loc (c : Thread nD τ) ↦[(rsSl rg p s).view.set]{fullShare} f

/-- What lands in `c`'s slice `(rg, p, s)` at step `k = (rg, s)`: the slice `(g, p)` of the accumulator of the device
    `c` is paired with, as that device held it when it started the step; written as a landing writes it. -/
def landed (c : Dev nD) (k : Fin 24) (p : Fin 3) : Buf (Elt F) ((rsSl (rgOf k) p (sOf k)).view.loc (c : Thread nD τ)) :=
  (rsSl (rgOf k) p (sOf k)).view.write (Elt F) (rs0 c)
    ((accSl (gOf k) p).view.read (Elt F) (accC (mate c p k) (rgOf k) p (sOf k))) Finset.univ

def sendPay (c : Dev nD) (k : Fin 24) (p : Fin 3) : sProp 𝕄 := accPts c (gOf k) p (accC c (rgOf k) p (sOf k))
def recvPay (c : Dev nD) (k : Fin 24) (p : Fin 3) : sProp 𝕄 := rsPts c (rgOf k) p (sOf k) (landed accC rs0 c k p)
/-- What the entry signal of `peer j c` hands `c`: for every step the receive slice of `peer j c` that `c` writes at it. -/
def barPay (c : Dev nD) (j : Fin 3) : sProp 𝕄 :=
  bigSep (Finset.univ : Finset (Fin 24)) fun k => iprop(∃ f, rsPts (peer j c) (rgOf k) (partOf j k) (sOf k) f)

/-! ## The schedule -/

/-- The cells the exchange runs on: the two regular semaphores and every DMA semaphore from the tenth on. -/
def isOurs : SemLoc sig → Bool
  | .reg s => decide (s = barS ∨ s = exitS)
  | .dma s => decide (10 ≤ s.val)

/-- One round, round 0, of three duties on each of a TensorCore's exchange cells: one unit each on a regular cell, a
    slice's credit each on a DMA cell. -/
def Rd : Rounds.Schedule (GSem nD τ sig) (Fin 3) 𝕄 where
  duties g r := if r = 0 ∧ g.1.2 = .tc ∧ isOurs g.2 = true then Finset.univ else ∅
  unitless _ := False
  amount g _ _ := match g.2 with | .reg _ => 1 | .dma _ => N
  payload g _ d := match g.2 with
    | .reg s => if s = barS then barPay g.1.1 d else iprop(emp)
    | .dma s => match sendIx s, recvIx s with
      | some k, _ => sendPay accC g.1.1 k d
      | none, some k => recvPay accC rs0 g.1.1 k d
      | none, none => iprop(emp)
  amount_pos g _ _ _ := by
    cases h : g.2 with
    | reg s => simp only [h]; exact Nat.one_pos
    | dma s => simp only [h]; exact N_pos

instance Rd_payload_storable (g : GSem nD τ sig) (r : ℕ) (d : Fin 3) :
    BI.Storable (upEmb : UEmb _ 𝕄) ((Rd accC rs0).payload g r d) := by
  dsimp only [Rd]
  split
  · split
    · unfold barPay rsPts; infer_instance
    · infer_instance
  · split
    · unfold sendPay accPts; infer_instance
    · unfold recvPay rsPts; infer_instance
    · infer_instance

section Tables
variable (c : Dev nD) (k : Fin 24)

theorem isOurs_bar : isOurs (csem Cell.bar) = true := by decide
theorem isOurs_exit : isOurs (csem Cell.exit) = true := by decide
theorem isOurs_send : ∀ k : Fin 24, isOurs (csem (Cell.send k)) = true := by decide
theorem isOurs_recv : ∀ k : Fin 24, isOurs (csem (Cell.recv k)) = true := by decide

omit [FloatOps F] in
@[sl_rounds] theorem duties_bar : (Rd accC rs0).duties (barCell c) 0 = Finset.univ := by dsimp only [Rd]; exact if_pos ⟨rfl, rfl, isOurs_bar⟩
omit [FloatOps F] in
@[sl_rounds] theorem duties_send : (Rd accC rs0).duties (sendCell c k) 0 = Finset.univ := by dsimp only [Rd]; exact if_pos ⟨rfl, rfl, isOurs_send k⟩
omit [FloatOps F] in
@[sl_rounds] theorem duties_recv : (Rd accC rs0).duties (recvCell c k) 0 = Finset.univ := by dsimp only [Rd]; exact if_pos ⟨rfl, rfl, isOurs_recv k⟩
omit [FloatOps F] in
@[sl_rounds] theorem duties_exit : (Rd accC rs0).duties (exitCell c) 0 = Finset.univ := by dsimp only [Rd]; exact if_pos ⟨rfl, rfl, isOurs_exit⟩
omit [FloatOps F] in
/-- Every cell has the one round. -/
theorem duties_later (g : GSem nD τ sig) : ∀ r, 1 ≤ r → (Rd accC rs0).duties g r = ∅ :=
  fun r hr => by dsimp only [Rd]; exact if_neg fun h => by omega

omit [FloatOps F] in
@[sl_rounds] theorem amount_bar (d : Fin 3) : (Rd accC rs0).amount (barCell c) 0 d = 1 := rfl
omit [FloatOps F] in
@[sl_rounds] theorem amount_send (d : Fin 3) : (Rd accC rs0).amount (sendCell c k) 0 d = N := rfl
omit [FloatOps F] in
@[sl_rounds] theorem amount_recv (d : Fin 3) : (Rd accC rs0).amount (recvCell c k) 0 d = N := rfl
omit [FloatOps F] in
@[sl_rounds] theorem amount_exit (d : Fin 3) : (Rd accC rs0).amount (exitCell c) 0 d = 1 := rfl

omit [FloatOps F] in
@[sl_rounds] theorem expect_bar : (Rd accC rs0).expect (barCell c) 0 = 3 := by
  unfold Schedule.expect Schedule.amountOf
  rw [duties_bar, Finset.sum_congr rfl fun d _ => amount_bar accC rs0 c d, Finset.sum_const, Finset.card_univ, Fintype.card_fin, smul_eq_mul]
omit [FloatOps F] in
@[sl_rounds] theorem expect_send : (Rd accC rs0).expect (sendCell c k) 0 = 3 * N := by
  unfold Schedule.expect Schedule.amountOf
  rw [duties_send, Finset.sum_congr rfl fun d _ => amount_send accC rs0 c k d, Finset.sum_const, Finset.card_univ, Fintype.card_fin, smul_eq_mul]
omit [FloatOps F] in
@[sl_rounds] theorem expect_recv : (Rd accC rs0).expect (recvCell c k) 0 = 3 * N := by
  unfold Schedule.expect Schedule.amountOf
  rw [duties_recv, Finset.sum_congr rfl fun d _ => amount_recv accC rs0 c k d, Finset.sum_const, Finset.card_univ, Fintype.card_fin, smul_eq_mul]
omit [FloatOps F] in
@[sl_rounds] theorem expect_exit : (Rd accC rs0).expect (exitCell c) 0 = 3 := by
  unfold Schedule.expect Schedule.amountOf
  rw [duties_exit, Finset.sum_congr rfl fun d _ => amount_exit accC rs0 c d, Finset.sum_const, Finset.card_univ, Fintype.card_fin, smul_eq_mul]

omit [FloatOps F] in
theorem payload_bar_def (j : Fin 3) : (Rd accC rs0).payload (barCell c) 0 j = barPay c j := by
  show (Rd accC rs0).payload ((c : Thread nD τ), SemLoc.reg barS) 0 j = _
  dsimp only [Rd]; exact if_pos rfl
omit [FloatOps F] in
@[sl_rounds] theorem payload_exit (j : Fin 3) : (Rd accC rs0).payload (exitCell c) 0 j = iprop(emp) := by
  show (Rd accC rs0).payload ((c : Thread nD τ), SemLoc.reg exitS) 0 j = _
  dsimp only [Rd]; exact if_neg barS_ne_exitS.symm
omit [FloatOps F] in
theorem payload_send_def (p : Fin 3) : (Rd accC rs0).payload (sendCell c k) 0 p = sendPay accC c k p := by
  show (Rd accC rs0).payload ((c : Thread nD τ), SemLoc.dma (sendS k)) 0 p = _
  dsimp only [Rd]; rw [sendIx_sendS]
omit [FloatOps F] in
theorem payload_recv_def (p : Fin 3) : (Rd accC rs0).payload (recvCell c k) 0 p = recvPay accC rs0 c k p := by
  show (Rd accC rs0).payload ((c : Thread nD τ), SemLoc.dma (recvS k)) 0 p = _
  dsimp only [Rd]; rw [sendIx_recvS, recvIx_recvS]

/-! The same with the assertions written out. -/
omit [FloatOps F] in
@[sl_rounds] theorem payload_bar (j : Fin 3) : (Rd accC rs0).payload (barCell c) 0 j =
    bigSep (Finset.univ : Finset (Fin 24)) fun k => iprop(∃ f : Buf (Elt F) ((rsSl (rgOf k) (partOf j k) (sOf k)).view.loc ((peer j c : Dev nD) : Thread nD τ)),
      ((rsSl (rgOf k) (partOf j k) (sOf k)).view.loc ((peer j c : Dev nD) : Thread nD τ) ↦[(rsSl (rgOf k) (partOf j k) (sOf k)).view.set]{fullShare} f : sProp 𝕄)) :=
  payload_bar_def accC rs0 c j
omit [FloatOps F] in
@[sl_rounds] theorem payload_send (p : Fin 3) : (Rd accC rs0).payload (sendCell c k) 0 p =
    ((accSl (gOf k) p).view.loc (c : Thread nD τ) ↦[(accSl (gOf k) p).view.set]{fullShare} accC c (rgOf k) p (sOf k) : sProp 𝕄) :=
  payload_send_def accC rs0 c k p
omit [FloatOps F] in
@[sl_rounds] theorem payload_recv (p : Fin 3) : (Rd accC rs0).payload (recvCell c k) 0 p =
    ((rsSl (rgOf k) p (sOf k)).view.loc (c : Thread nD τ) ↦[(rsSl (rgOf k) p (sOf k)).view.set]{fullShare}
      (rsSl (rgOf k) p (sOf k)).view.write (Elt F) (rs0 c)
        ((accSl (gOf k) p).view.read (Elt F) (accC (partner p (sOf k) c) (rgOf k) p (sOf k))) Finset.univ : sProp 𝕄) :=
  payload_recv_def accC rs0 c k p

/-! ### The rest of a round -/

omit [FloatOps F] in
theorem bigSep_fin3 (P : Fin 3 → sProp 𝕄) : bigSep Finset.univ P = iprop(P 0 ∗ P 1 ∗ P 2) := by
  rw [bigSep_univ_eq_bigSepL [0, 1, 2] (by decide) (by decide), bigSepL_cons_cons, bigSepL_cons_cons, bigSepL_singleton]
  rfl

omit [FloatOps F] in
/-- What three waits on one cell of three duties collect, whatever the first two happened to take: the first from no
    duty taken to `S₁`, the second from `S₁` to `S₂`, the third the rest. -/
theorem collect3 (P : Fin 3 → sProp 𝕄) {S₁ S₂ : Finset (Fin 3)} (h : S₁ ⊆ S₂) :
    iprop(bigSep (S₁ \ ∅) P ∗ bigSep (S₂ \ S₁) P ∗ bigSep (Finset.univ \ S₂) P) = iprop(P 0 ∗ P 1 ∗ P 2) := by
  rw [Finset.sdiff_empty, ← bigSep_fin3, bigSep_sdiff_split (Finset.subset_univ S₂) (Φ := P), bigSep_sdiff_split h (Φ := P)]
  exact (Std.Associative.assoc (op := (BI.sep : sProp 𝕄 → _ → _)) _ _ _).symm

omit [FloatOps F] in
/-- The rest of the entry cell's round, no duty taken: the three neighbours' slices. -/
theorem rest_bar : bigSep ((Rd accC rs0).duties (barCell c) 0 \ ∅) (fun d => (Rd accC rs0).payload (barCell c) 0 d)
    = iprop(barPay c 0 ∗ barPay c 1 ∗ barPay c 2) := by
  rw [Finset.sdiff_empty, duties_bar, bigSep_fin3, payload_bar_def, payload_bar_def, payload_bar_def]
omit [FloatOps F] in
theorem rest_exit : bigSep ((Rd accC rs0).duties (exitCell c) 0 \ ∅) (fun d => (Rd accC rs0).payload (exitCell c) 0 d)
    = iprop(emp ∗ emp ∗ emp) := by
  rw [Finset.sdiff_empty, duties_exit, bigSep_fin3, payload_exit, payload_exit, payload_exit]
omit [FloatOps F] in
/-- The three waits on send cell `k` give back the three source slices, -/
theorem rest_send3 {S₁ S₂ : Finset (Fin 3)} (h : S₁ ⊆ S₂) :
    iprop(bigSep (S₁ \ ∅) (fun d => (Rd accC rs0).payload (sendCell c k) 0 d) ∗ bigSep (S₂ \ S₁) (fun d => (Rd accC rs0).payload (sendCell c k) 0 d)
        ∗ bigSep ((Rd accC rs0).duties (sendCell c k) 0 \ S₂) (fun d => (Rd accC rs0).payload (sendCell c k) 0 d))
      = iprop(sendPay accC c k 0 ∗ sendPay accC c k 1 ∗ sendPay accC c k 2) := by
  rw [duties_send, collect3 _ h, payload_send_def, payload_send_def, payload_send_def]
omit [FloatOps F] in
/-- and those on receive cell `k` the three landed slices. -/
theorem rest_recv3 {S₁ S₂ : Finset (Fin 3)} (h : S₁ ⊆ S₂) :
    iprop(bigSep (S₁ \ ∅) (fun d => (Rd accC rs0).payload (recvCell c k) 0 d) ∗ bigSep (S₂ \ S₁) (fun d => (Rd accC rs0).payload (recvCell c k) 0 d)
        ∗ bigSep ((Rd accC rs0).duties (recvCell c k) 0 \ S₂) (fun d => (Rd accC rs0).payload (recvCell c k) 0 d))
      = iprop(recvPay accC rs0 c k 0 ∗ recvPay accC rs0 c k 1 ∗ recvPay accC rs0 c k 2) := by
  rw [duties_recv, collect3 _ h, payload_recv_def, payload_recv_def, payload_recv_def]
omit [FloatOps F] in
/-- A rest wait on a DMA cell after `T` is taken: the payloads of the other duties. -/
theorem rest_send (T : Finset (Fin 3)) : bigSep ((Rd accC rs0).duties (sendCell c k) 0 \ T) (fun d => (Rd accC rs0).payload (sendCell c k) 0 d)
    = bigSep (Finset.univ \ T) (fun p => sendPay accC c k p) := by
  rw [duties_send]; exact bigSep_congr fun p _ => payload_send_def accC rs0 c k p
omit [FloatOps F] in
theorem rest_recv (T : Finset (Fin 3)) : bigSep ((Rd accC rs0).duties (recvCell c k) 0 \ T) (fun d => (Rd accC rs0).payload (recvCell c k) 0 d)
    = bigSep (Finset.univ \ T) (fun p => recvPay accC rs0 c k p) := by
  rw [duties_recv]; exact bigSep_congr fun p _ => payload_recv_def accC rs0 c k p

/-! ### What a copy hands over

The two payload premises of the rule for an addressed copy, for the copy of part `p` that `c` starts at step `k`: the
source slice as it was lent makes duty `p` of `c`'s send cell; the destination slice on `mate c p k`, written from
whatever it held before, makes duty `p` of that device's receive cell. -/

omit [FloatOps F] in
theorem hpay_send (p : Fin 3) :
    ((accSl (gOf k) p).view.loc (c : Thread nD τ) ↦[(accSl (gOf k) p).view.set]{fullShare} accC c (rgOf k) p (sOf k) : sProp 𝕄)
      ⊢ (Rd accC rs0).payload (sendCell c k) 0 p :=
  Entails.of_eq (payload_send accC rs0 c k p).symm
omit [FloatOps F] in
theorem hpay_recv (p : Fin 3) (fd : Buf (Elt F) ((rsSl (rgOf k) p (sOf k)).view.loc ((mate c p k : Dev nD) : Thread nD τ))) :
    ((rsSl (rgOf k) p (sOf k)).view.loc ((mate c p k : Dev nD) : Thread nD τ) ↦[(rsSl (rgOf k) p (sOf k)).view.set]{fullShare}
        (rsSl (rgOf k) p (sOf k)).view.write (Elt F) fd ((accSl (gOf k) p).view.read (Elt F) (accC c (rgOf k) p (sOf k))) Finset.univ : sProp 𝕄)
      ⊢ (Rd accC rs0).payload (recvCell (mate c p k) k) 0 p := by
  rw [payload_recv_def]
  unfold recvPay rsPts landed
  rw [mate_mate]
  exact Entails.of_eq (View.pointsTo_write_univ_congr _ _ _ fd (rs0 (mate c p k)) _)
omit [FloatOps F] in
/-- What a landed slice reads as: the sender's source slice. -/
theorem read_landed (p : Fin 3) :
    (rsSl (rgOf k) p (sOf k)).view.read (Elt F) (landed accC rs0 c k p)
      = (accSl (gOf k) p).view.read (Elt F) (accC (mate c p k) (rgOf k) p (sOf k)) :=
  View.read_write_univ _ _

end Tables

/-! ## What a device owes

The 78 payments of a device in program order: `n < 3` the entry signal along mask `n`; `n = 3 + 3 * i + p`, `i < 24`,
the copy of part `p` of the `i`-th started step; `n = 75 + j` the exit signal along mask `j`. -/

/-- The semaphore payment `n` credits (on the device it goes to). -/
def dueSem (n : ℕ) : SemLoc sig :=
  if n < 3 then .reg barS
  else if h : n < 75 then .dma (recvS (fireK ⟨(n - 3) / 3, by omega⟩))
  else .reg exitS
/-- The device payment `n` of device `c` goes to. -/
def dueDev (c : Dev nD) (n : ℕ) : Dev nD :=
  if n < 3 then peer ⟨n % 3, Nat.mod_lt _ (by decide)⟩ c
  else if h : n < 75 then mate c ⟨(n - 3) % 3, Nat.mod_lt _ (by decide)⟩ (fireK ⟨(n - 3) / 3, by omega⟩)
  else peer ⟨(n - 75) % 3, Nat.mod_lt _ (by decide)⟩ c
/-- Its amount. -/
def dueAmt (n : ℕ) : ℕ := if 3 ≤ n ∧ n < 75 then N else 1
/-- The cell it credits. -/
abbrev dueCell (c : Dev nD) (n : ℕ) : GSem nD τ sig := (((dueDev c n : Dev nD) : Thread nD τ), dueSem n)

theorem dueDev_dueDev (c : Dev nD) (n : ℕ) : dueDev (dueDev c n) n = c := by
  unfold dueDev
  split
  · exact peer_peer _ c
  · split
    · exact mate_mate c _ _
    · exact peer_peer _ c

theorem dueCell_bar (c : Dev nD) (j : Fin 3) : dueCell c j.val = barCell (peer j c) := by revert c j; decide
theorem dueCell_fire (c : Dev nD) (i : Fin 24) (p : Fin 3) : dueCell c (3 + 3 * i.val + p.val) = recvCell (mate c p (fireK i)) (fireK i) := by
  revert c i p; decide
theorem dueCell_exit (c : Dev nD) (j : Fin 3) : dueCell c (75 + j.val) = exitCell (peer j c) := by revert c j; decide
theorem dueAmt_bar (j : Fin 3) : dueAmt j.val = 1 := if_neg fun h => by have := j.isLt; omega
theorem dueAmt_fire (i : Fin 24) (p : Fin 3) : dueAmt (3 + 3 * i.val + p.val) = N :=
  if_pos ⟨by omega, by have := i.isLt; have := p.isLt; omega⟩
theorem dueAmt_exit (j : Fin 3) : dueAmt (75 + j.val) = 1 := if_neg fun h => by omega

/-- What `c` owes with its last `j` payments to come: a chain of `+`, the next payment last. -/
def owedLast (c : Dev nD) : ℕ → CellTallies nD τ sig Unit
  | 0 => 0
  | j + 1 => owedLast c j + tallyAt (dueCell c (77 - j)) () (dueAmt (77 - j))
/-- What `c` owes after its first `n` payments. -/
abbrev owedFrom (c : Dev nD) (n : ℕ) : CellTallies nD τ sig Unit := owedLast c (78 - n)
/-- What `c` owes at launch. -/
abbrev O₀ (c : Dev nD) : CellTallies nD τ sig Unit := owedFrom c 0

theorem owedFrom_done (c : Dev nD) : owedFrom c 78 = 0 := rfl
/-- Paying: the next payment is the last summand. -/
theorem owedFrom_succ (c : Dev nD) (n : ℕ) (h : n < 78) :
    owedFrom c n = owedFrom c (n + 1) + tallyAt (dueCell c n) () (dueAmt n) := by
  obtain ⟨j, hj⟩ : ∃ j, 78 - n = j + 1 := ⟨77 - n, by omega⟩
  have h1 : 78 - (n + 1) = j := by omega
  have h2 : 77 - j = n := by omega
  show owedLast c (78 - n) = owedLast c (78 - (n + 1)) + _
  rw [hj, h1]
  show owedLast c j + tallyAt (dueCell c (77 - j)) () (dueAmt (77 - j)) = _
  rw [h2]
/-- The three entry signals: masks 0, 1, 2 in this order, so mask 0 is the last summand. -/
theorem owed_entry (c : Dev nD) : owedFrom c 0
    = owedFrom c 3 + tallyAt (barCell (peer 2 c)) () 1 + tallyAt (barCell (peer 1 c)) () 1 + tallyAt (barCell (peer 0 c)) () 1 := by
  rw [owedFrom_succ c 0 (by omega), owedFrom_succ c 1 (by omega), owedFrom_succ c 2 (by omega),
    show dueCell c 0 = barCell (peer 0 c) from dueCell_bar c 0, show dueCell c 1 = barCell (peer 1 c) from dueCell_bar c 1,
    show dueCell c 2 = barCell (peer 2 c) from dueCell_bar c 2,
    show dueAmt 0 = 1 from dueAmt_bar 0, show dueAmt 1 = 1 from dueAmt_bar 1, show dueAmt 2 = 1 from dueAmt_bar 2]
/-- The three copies of the `i`-th started step: parts 0, 1, 2 in this order, so part 0 is the last summand. -/
theorem owed_fire (c : Dev nD) (i : Fin 24) : owedFrom c (3 + 3 * i.val)
    = owedFrom c (3 + 3 * (i.val + 1)) + tallyAt (recvCell (mate c 2 (fireK i)) (fireK i)) () N
        + tallyAt (recvCell (mate c 1 (fireK i)) (fireK i)) () N + tallyAt (recvCell (mate c 0 (fireK i)) (fireK i)) () N := by
  have hi := i.isLt
  rw [owedFrom_succ c (3 + 3 * i.val) (by omega), owedFrom_succ c (3 + 3 * i.val + 1) (by omega), owedFrom_succ c (3 + 3 * i.val + 1 + 1) (by omega)]
  have e0 : 3 + 3 * i.val = 3 + 3 * i.val + (0 : Fin 3).val := rfl
  have e1 : 3 + 3 * i.val + 1 = 3 + 3 * i.val + (1 : Fin 3).val := rfl
  have e2 : 3 + 3 * i.val + 1 + 1 = 3 + 3 * i.val + (2 : Fin 3).val := rfl
  have e3 : 3 + 3 * i.val + 1 + 1 + 1 = 3 + 3 * (i.val + 1) := by omega
  rw [e3]
  conv_lhs => rw [e2, e1]
  rw [dueCell_fire c i 2, dueAmt_fire i 2, dueCell_fire c i 1, dueAmt_fire i 1]
  conv_lhs => arg 2; rw [e0, dueCell_fire c i 0, dueAmt_fire i 0]
/-- The three exit signals: masks 0, 1, 2 in this order. -/
theorem owed_exit (c : Dev nD) : owedFrom c 75
    = 0 + tallyAt (exitCell (peer 2 c)) () 1 + tallyAt (exitCell (peer 1 c)) () 1 + tallyAt (exitCell (peer 0 c)) () 1 := by
  rw [owedFrom_succ c 75 (by omega), owedFrom_succ c 76 (by omega), owedFrom_succ c 77 (by omega),
    show dueCell c 75 = exitCell (peer 0 c) from dueCell_exit c 0, show dueCell c 76 = exitCell (peer 1 c) from dueCell_exit c 1,
    show dueCell c 77 = exitCell (peer 2 c) from dueCell_exit c 2,
    show dueAmt 75 = 1 from dueAmt_exit 0, show dueAmt 76 = 1 from dueAmt_exit 1, show dueAmt 77 = 1 from dueAmt_exit 2]
  rfl

/-- Whatever is still owed is one of the payments to come. -/
theorem owedLast_pos (c : Dev nD) : ∀ (j : ℕ) {g : GSem nD τ sig} {u : Unit}, 0 < owedLast c j g u → ∃ m, 78 - j ≤ m ∧ m < 78 ∧ g = dueCell c m
  | 0, g, u, h => absurd h (Nat.lt_irrefl 0)
  | j + 1, g, u, h => by
    rcases Pipeline.add_pos_cases (show 0 < (owedLast c j + tallyAt (dueCell c (77 - j)) () (dueAmt (77 - j))) g u from h) with h' | h'
    · obtain ⟨m, h1, h2, h3⟩ := owedLast_pos c j h'
      exact ⟨m, by omega, h2, h3⟩
    · exact ⟨77 - j, by omega, by omega, (Pipeline.tallyAt_pos h').1⟩
theorem owedFrom_pos {c : Dev nD} {n : ℕ} {g : GSem nD τ sig} {u : Unit} (h : 0 < owedFrom c n g u) : ∃ m, n ≤ m ∧ m < 78 ∧ g = dueCell c m := by
  obtain ⟨m, h1, h2, h3⟩ := owedLast_pos c (78 - n) h
  exact ⟨m, by omega, h2, h3⟩

/-! ## Levels

Entry cells at 1; receive cell `k` at 2 + its step's place in the starting order; exit cells at 26; every other cell
(the pipeline's staging cells, the send cells) at 0. A payment's cell has the level of the payment, and levels do not
decrease along the program. -/

def L (g : GSem nD τ sig) : Finset Unit := if g.1.2 = .tc then {()} else ∅
def lv (g : GSem nD τ sig) (_ : Unit) : ℕ := match g.2 with
  | .reg s => if s = barS then 1 else if s = exitS then 26 else 0
  | .dma s => match recvIx s with | some k => 2 + (posK k).val | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  show lv ((c : Thread nD τ), SemLoc.reg barS) () = 1
  dsimp only [lv]; exact if_pos rfl
theorem lv_exit (c : Dev nD) : lv (exitCell c) () = 26 := by
  show lv ((c : Thread nD τ), SemLoc.reg exitS) () = 26
  dsimp only [lv]; rw [if_neg barS_ne_exitS.symm, if_pos rfl]
theorem lv_recv (c : Dev nD) (k : Fin 24) : lv (recvCell c k) () = 2 + (posK k).val := by
  show lv ((c : Thread nD τ), SemLoc.dma (recvS k)) () = _
  dsimp only [lv]; rw [recvIx_recvS]
theorem lv_send (c : Dev nD) (k : Fin 24) : lv (sendCell c k) () = 0 := by
  show lv ((c : Thread nD τ), SemLoc.dma (sendS k)) () = _
  dsimp only [lv]; rw [recvIx_sendS]
theorem lv_low (c : Dev nD) (q : DmaSem sig) (h : q.val < 34) : lv ((c : Thread nD τ), SemLoc.dma q) () = 0 := by
  dsimp only [lv]; rw [recvIx_low q h]

/-- The level of payment `n`. -/
def dueLevel (n : ℕ) : ℕ := if n < 3 then 1 else if n < 75 then 2 + (n - 3) / 3 else 26
theorem lv_dueCell (c : Dev nD) (n : ℕ) : lv (dueCell c n) () = dueLevel n := by
  unfold dueLevel
  show lv (((dueDev c n : Dev nD) : Thread nD τ), dueSem n) () = _
  unfold dueSem
  split
  · exact lv_bar _
  · split
    · rename_i h2
      have := lv_recv (dueDev c n) (fireK ⟨(n - 3) / 3, by omega⟩)
      rw [posK_fireK] at this
      exact this
    · exact lv_exit _
theorem dueLevel_mono {n m : ℕ} (h : n ≤ m) : dueLevel n ≤ dueLevel m := by
  unfold dueLevel; split <;> split <;> (try split) <;> (try split) <;> omega

section MayWait
omit [FloatOps F]

/-- A wait on a cell whose level lies below the next payment's: everything still owed lies above. -/
theorem mayWait_of_level (c : Dev nD) (sm : SemLoc sig) (n : ℕ) (h : n < 78 → lv ((c : Thread nD τ), sm) () < dueLevel n) :
    (levAts L lv : sProp 𝕄) ⊢ MayWait (c : Thread nD τ) sm () (owedFrom c n) :=
  Pipeline.mayWait_of_levAts (by rw [L_tc]; exact Finset.mem_singleton_self _) fun g u hg => by
    obtain ⟨m, h1, h2, rfl⟩ := owedFrom_pos hg
    refine ⟨by rw [L_tc]; exact Finset.mem_singleton_self _, ?_⟩
    rw [lv_dueCell]
    exact lt_of_lt_of_le (h (by omega)) (dueLevel_mono h1)

/-- The entry wait, the three entry signals sent. -/
theorem mayWait_bar (c : Dev nD) (n : ℕ) (hn : 3 ≤ n) :
    (levAts L lv : sProp 𝕄) ⊢ MayWait (c : Thread nD τ) (.reg barS) () (owedFrom c n) :=
  mayWait_of_level c _ n fun h => by
    rw [show lv ((c : Thread nD τ), SemLoc.reg barS) () = 1 from lv_bar c]; unfold dueLevel; split <;> (try split) <;> omega
/-- A wait on a send cell, or on any cell at level 0 (the pipeline's staging cells), whatever is owed. -/
theorem mayWait_low (c : Dev nD) (sm : SemLoc sig) (h0 : lv ((c : Thread nD τ), sm) () = 0) (n : ℕ) :
    (levAts L lv : sProp 𝕄) ⊢ MayWait (c : Thread nD τ) sm () (owedFrom c n) :=
  mayWait_of_level c _ n fun h => by rw [h0]; unfold dueLevel; split <;> (try split) <;> omega
theorem mayWait_send (c : Dev nD) (k : Fin 24) (n : ℕ) :
    (levAts L lv : sProp 𝕄) ⊢ MayWait (c : Thread nD τ) (.dma (sendS k)) () (owedFrom c n) :=
  mayWait_low c _ (lv_send c k) n
/-- A wait on receive cell `k`, every step up to `k`'s started. -/
theorem mayWait_recv (c : Dev nD) (k : Fin 24) (n : ℕ) (hn : 3 + 3 * ((posK k).val + 1) ≤ n) :
    (levAts L lv : sProp 𝕄) ⊢ MayWait (c : Thread nD τ) (.dma (recvS k)) () (owedFrom c n) :=
  mayWait_of_level c _ n fun h => by
    rw [show lv ((c : Thread nD τ), SemLoc.dma (recvS k)) () = 2 + (posK k).val from lv_recv c k]
    have := (posK k).isLt
    unfold dueLevel; split <;> (try split) <;> omega
/-- The same at the point of the program where the waits of step `k` stand. -/
theorem mayWait_recvAt (c : Dev nD) (k : Fin 24) :
    (levAts L lv : sProp 𝕄) ⊢ MayWait (c : Thread nD τ) (.dma (recvS k)) () (owedFrom c (3 + 3 * firedAt k)) :=
  mayWait_recv c k _ (by have := posK_lt_firedAt k; omega)
theorem mayWait_sendAt (c : Dev nD) (k : Fin 24) :
    (levAts L lv : sProp 𝕄) ⊢ MayWait (c : Thread nD τ) (.dma (sendS k)) () (owedFrom c (3 + 3 * firedAt k)) :=
  mayWait_send c k _
/-- The exit wait: nothing is owed. -/
theorem mayWait_exit (c : Dev nD) :
    (levAts L lv : sProp 𝕄) ⊢ MayWait (c : Thread nD τ) (.reg exitS) () (owedFrom c 78) := by
  rw [owedFrom_done, MayWait_zero]; iintro -; iempintro

end MayWait

/-! ## The credit tokens a device is dealt

One token per payment made TO `c`. The device that pays `c`'s duty does so at the same place of its own program as
`c` pays the matching duty elsewhere (the pairings are involutions), so the tokens are listed by that place, the first
payment's outermost: they come off in the order `c`'s waits need them. -/

/-- `c`'s own cell that payments number `n` credit. -/
abbrev ownCell (c : Dev nD) (n : ℕ) : GSem nD τ sig := ((c : Thread nD τ), dueSem n)
theorem ownCell_bar (c : Dev nD) (j : Fin 3) : ownCell c j.val = barCell c := by revert c j; decide
theorem ownCell_fire (c : Dev nD) (i : Fin 24) (p : Fin 3) : ownCell c (3 + 3 * i.val + p.val) = recvCell c (fireK i) := by revert c i p; decide
theorem ownCell_exit (c : Dev nD) (j : Fin 3) : ownCell c (75 + j.val) = exitCell c := by revert c j; decide
theorem dueCell_eq (c : Dev nD) (n : ℕ) : dueCell c n = ownCell (dueDev c n) n := rfl

def credLast (c : Dev nD) : ℕ → sProp 𝕄
  | 0 => iprop(emp)
  | j + 1 => iprop(credLast c j ∗ cred (tallyAt (ownCell c (77 - j)) () (dueAmt (77 - j))))
/-- The tokens of the payments number `n` on. -/
abbrev credFrom (c : Dev nD) (n : ℕ) : sProp 𝕄 := credLast c (78 - n)

omit [FloatOps F] in
theorem credFrom_succ (c : Dev nD) (n : ℕ) (h : n < 78) :
    (credFrom c n : sProp 𝕄) = iprop(credFrom c (n + 1) ∗ cred (tallyAt (ownCell c n) () (dueAmt n))) := by
  obtain ⟨j, hj⟩ : ∃ j, 78 - n = j + 1 := ⟨77 - n, by omega⟩
  have h1 : 78 - (n + 1) = j := by omega
  have h2 : 77 - j = n := by omega
  show (credLast c (78 - n) : sProp 𝕄) = iprop(credLast c (78 - (n + 1)) ∗ _)
  rw [hj, h1]
  show iprop(credLast c j ∗ cred (tallyAt (ownCell c (77 - j)) () (dueAmt (77 - j)))) = _
  rw [h2]

omit [FloatOps F] in
/-- What the launch deals `c` for what the devices owe at launch. -/
theorem launchCred_owedLast (c : Dev nD) : ∀ j, (Pipeline.launchCred (fun d => owedLast d j) c : sProp 𝕄) ⊢ credLast c j
  | 0 => by
    rw [show (fun d : Dev nD => owedLast d 0) = fun _ => (0 : CellTallies nD τ sig Unit) from rfl, Pipeline.launchCred_zero]
    exact BI.Entails.refl _
  | j + 1 => by
    rw [show (fun d : Dev nD => owedLast d (j + 1))
        = fun d => owedLast d j + tallyAt ((((dueDev d (77 - j) : Dev nD)).tc : Thread nD τ), dueSem (77 - j)) () (dueAmt (77 - j)) from rfl,
      Pipeline.launchCred_add]
    exact BI.sep_mono (launchCred_owedLast c j)
      (Pipeline.launchCred_tallyAt (dueSem (77 - j)) (fun d => dueDev d (77 - j)) (fun d => dueDev d (77 - j))
        (fun d => dueDev_dueDev d _) (fun d => dueDev_dueDev d _) () (dueAmt (77 - j)) c)
omit [FloatOps F] in
theorem launchCred_O₀ (c : Dev nD) : (Pipeline.launchCred O₀ c : sProp 𝕄) ⊢ credFrom c 0 := launchCred_owedLast c 78

omit [FloatOps F] in
/-- Three tokens of one cell make one. -/
theorem cred3 (g : GSem nD τ sig) (a : ℕ) :
    iprop(((cred (tallyAt g () a) ∗ cred (tallyAt g () a)) ∗ cred (tallyAt g () a)) : sProp 𝕄) ⊢ cred (tallyAt g () (a + a + a)) := by
  rw [← tallyAt_add, ← tallyAt_add]
  exact (sep_mono_left (cred_add _ _).2).trans (cred_add _ _).2

omit [FloatOps F] in
/-- The three entry tokens, outermost. -/
theorem cred_entry (c : Dev nD) : (credFrom c 0 : sProp 𝕄)
    = iprop(((credFrom c 3 ∗ cred (tallyAt (barCell c) () 1)) ∗ cred (tallyAt (barCell c) () 1)) ∗ cred (tallyAt (barCell c) () 1)) := by
  rw [credFrom_succ c 0 (by omega), credFrom_succ c 1 (by omega), credFrom_succ c 2 (by omega),
    show ownCell c 0 = barCell c from ownCell_bar c 0, show ownCell c 1 = barCell c from ownCell_bar c 1,
    show ownCell c 2 = barCell c from ownCell_bar c 2,
    show dueAmt 0 = 1 from dueAmt_bar 0, show dueAmt 1 = 1 from dueAmt_bar 1, show dueAmt 2 = 1 from dueAmt_bar 2]
omit [FloatOps F] in
/-- The three tokens of the `i`-th started step's receive cell, the next outermost. -/
theorem cred_fire (c : Dev nD) (i : Fin 24) : (credFrom c (3 + 3 * i.val) : sProp 𝕄)
    = iprop(((credFrom c (3 + 3 * (i.val + 1)) ∗ cred (tallyAt (recvCell c (fireK i)) () N)) ∗ cred (tallyAt (recvCell c (fireK i)) () N))
        ∗ cred (tallyAt (recvCell c (fireK i)) () N)) := by
  have hi := i.isLt
  rw [credFrom_succ c (3 + 3 * i.val) (by omega), credFrom_succ c (3 + 3 * i.val + 1) (by omega), credFrom_succ c (3 + 3 * i.val + 1 + 1) (by omega)]
  have e3 : 3 + 3 * i.val + 1 + 1 + 1 = 3 + 3 * (i.val + 1) := by omega
  rw [e3, show ownCell c (3 + 3 * i.val + 1 + 1) = recvCell c (fireK i) from ownCell_fire c i 2,
    show ownCell c (3 + 3 * i.val + 1) = recvCell c (fireK i) from ownCell_fire c i 1,
    show ownCell c (3 + 3 * i.val) = recvCell c (fireK i) from ownCell_fire c i 0,
    show dueAmt (3 + 3 * i.val + 1 + 1) = N from dueAmt_fire i 2, show dueAmt (3 + 3 * i.val + 1) = N from dueAmt_fire i 1,
    show dueAmt (3 + 3 * i.val) = N from dueAmt_fire i 0]
omit [FloatOps F] in
/-- The three exit tokens, innermost. -/
theorem cred_exit (c : Dev nD) : (credFrom c 75 : sProp 𝕄)
    = iprop(((emp ∗ cred (tallyAt (exitCell c) () 1)) ∗ cred (tallyAt (exitCell c) () 1)) ∗ cred (tallyAt (exitCell c) () 1)) := by
  rw [credFrom_succ c 75 (by omega), credFrom_succ c 76 (by omega), credFrom_succ c 77 (by omega),
    show ownCell c 75 = exitCell c from ownCell_exit c 0, show ownCell c 76 = exitCell c from ownCell_exit c 1,
    show ownCell c 77 = exitCell c from ownCell_exit c 2,
    show dueAmt 75 = 1 from dueAmt_exit 0, show dueAmt 76 = 1 from dueAmt_exit 1, show dueAmt 77 = 1 from dueAmt_exit 2]
  rfl

/-! ## The protocol as the launch sees it -/

/-- Who pays: device `c` pays duty `d` of cell `k` of the device this sends `c` to. -/
def owner : Cell → Fin 3 → Dev nD ≃ Dev nD
  | .inl _, j => peerEquiv j
  | .inr (.inl _), _ => Equiv.refl _
  | .inr (.inr (.inl k)), p => mateEquiv p k
  | .inr (.inr (.inr _)), j => peerEquiv j

/-- What a device's body starts from: the ghost state it is dealt, the level facts, its credit tokens. -/
def start (c : Dev nD) : sProp 𝕄 :=
  iprop((∃ K, dealt (Rd accC rs0) owner K c) ∗ levAts L lv ∗ credFrom c 0)

omit [FloatOps F] in
theorem hstart (c : Dev nD) :
    iprop((∃ K, dealt (Rd accC rs0) owner K c) ∗ levAts L lv ∗ Pipeline.launchCred O₀ c) ⊢ start accC rs0 c := by
  unfold start
  exact sep_mono_right (sep_mono_right (launchCred_O₀ c))

/-- The pipeline's staging semaphores are the first ten DMA semaphores. -/
theorem stage_sem_low : ∀ (w : Fin cfg0.W) (s : Fin (cfg0.win w).nbuf), ((cfg0.win w).sem s).val < 34 := by decide

omit [FloatOps F] in
theorem hstage (c : Dev nD) (w : Fin cfg0.W) (s : Fin (cfg0.win w).nbuf) :
    (levAts L lv : sProp 𝕄) ⊢ MayWait (c : Thread nD τ) (.dma ((cfg0.win w).sem s)) () (O₀ c) :=
  mayWait_low c _ (lv_low c _ (stage_sem_low w s)) 0

def iface : Iface F where
  Rd := Rd accC rs0
  storable := Rd_payload_storable accC rs0
  owner := owner
  O₀ := O₀
  L := L
  lv := lv
  hL := L_of_ne
  start := start accC rs0
  hstart := hstart accC rs0
  hstage := hstage

omit [FloatOps F] in
/-- No cell of the schedule takes a contribution of no unit: an owner past round 0 may close its cell. -/
theorem not_unitless (g : GSem nD τ sig) : ¬(Rd accC rs0).unitless g := fun h => h

/-- The device a copy goes to, by its mask. -/
theorem mate_eq_peer (c : Dev nD) (p : Fin 3) (k : Fin 24) : mate c p k = peer (axisOf p (sOf k)) c := rfl

end Cert.KernelIdeal.Proto

/-- info: 'Cert.KernelIdeal.Proto.iface' depends on axioms: [propext, Classical.choice, Quot.sound] -/
#guard_msgs in #print axioms Cert.KernelIdeal.Proto.iface
/-- info: 'Cert.KernelIdeal.Proto.launchCred_O₀' depends on axioms: [propext, Classical.choice, Quot.sound] -/
#guard_msgs in #print axioms Cert.KernelIdeal.Proto.launchCred_O₀
/-- info: 'Cert.KernelIdeal.Proto.mayWait_recvAt' depends on axioms: [propext, Classical.choice, Quot.sound] -/
#guard_msgs in #print axioms Cert.KernelIdeal.Proto.mayWait_recvAt
-- ==== Proof.BodyLib.lean ====
/-
  The two scratch buffers of the block held slice by slice, the vector accesses through one slice, and three
  successive waits on a cell whose single round has three duties.

  The accumulator (bf16[4,3,256,256]) is the disjoint union of its twelve 256×256 tiles (g, p); the receive buffer
  (bf16[8,3,3,256,256]) of its seventy-two tiles (rg, p, s). A whole-buffer points-to is the separating conjunction
  of the tiles' points-tos, each over the tile's elements and each at a contents of the WHOLE buffer, of which only
  the values on the tile matter; tiles held at different contents rejoin at a contents that agrees with each on its
  tile. A vector load through a tile needs only that tile's elements, at any share; a vector store needs them at
  the full share and leaves the contents written through the tile's view.
-/
import proofs.«900775_g7700000000000776_dist_diff_dit_htp_i_b2_s512_d768_hq4_v7x_i8_f32_1_alg».proof.Proof.Gen.KernelIdeal
import Idealize.ShloMosaic.Rules.PointsTo
import Idealize.ShloMosaic.Lib.Rounds

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type}

local notation "𝕄" => MT nD τ sig Ix (Elt F) Name U Lvl

/-! ## The tiles -/

/-- Tile (g, p) of the accumulator lies inside it. -/
theorem accInb (g : Fin 4) (p : Fin 3) :
    ∀ a, (![g.val, p.val, 0, 0] : Fin 4 → Nat) a + S1x1x256x256.size a ≤ S4x3x256x256.size a := by
  revert g p; decide

/-- Tile (rg, p, s) of the receive buffer lies inside it. -/
theorem rsInb (rg : Fin 8) (p s : Fin 3) :
    ∀ a, (![rg.val, p.val, s.val, 0, 0] : Fin 5 → Nat) a + S1x1x1x256x256.size a ≤ S8x3x3x256x256.size a := by
  revert rg p s; decide

/-- The rectangle of tile (g, p) of the accumulator. -/
abbrev accR (g : Fin 4) (p : Fin 3) : Rect S4x3x256x256 :=
  Rect.unit (s := S4x3x256x256) ![g.val, p.val, 0, 0] S1x1x256x256.size (accInb g p)

/-- The rectangle of tile (rg, p, s) of the receive buffer. -/
abbrev rsR (rg : Fin 8) (p s : Fin 3) : Rect S8x3x3x256x256 :=
  Rect.unit (s := S8x3x3x256x256) ![rg.val, p.val, s.val, 0, 0] S1x1x1x256x256.size (rsInb rg p s)

/-- The accumulator and the receive buffer as the body is called with them. -/
abbrev accM : Memref sig .tc .vmem S4x3x256x256 .bf16 := Memref.whole cc0_scratch0
abbrev rsM : Memref sig .tc .vmem S8x3x3x256x256 .bf16 := Memref.whole cc0_scratch1

/-- Their locations on device `c`. -/
abbrev accL (c : Dev nD) : Loc nD τ sig := (c : Thread nD τ).loc cc0_scratch0
abbrev rsL (c : Dev nD) : Loc nD τ sig := (c : Thread nD τ).loc cc0_scratch1

/-- The view a vector access at tile (g, p) goes through, and the one at tile (rg, p, s). -/
abbrev accV (g : Fin 4) (p : Fin 3) : View sig .tc .vmem (accR g p).shape .bf16 := accM.access (accR g p)
abbrev rsV (rg : Fin 8) (p s : Fin 3) : View sig .tc .vmem (rsR rg p s).shape .bf16 := rsM.access (rsR rg p s)

/-- The elements of a tile. -/
abbrev accS (g : Fin 4) (p : Fin 3) : Finset S4x3x256x256.Idx := (accV g p).set
abbrev rsS (rg : Fin 8) (p s : Fin 3) : Finset S8x3x3x256x256.Idx := (rsV rg p s).set

theorem accS_eq (g : Fin 4) (p : Fin 3) : accS g p = (accR g p).set := View.set_slice_whole _ _
theorem rsS_eq (rg : Fin 8) (p s : Fin 3) : rsS rg p s = (rsR rg p s).set := View.set_slice_whole _ _

/-- A printed literal rectangle is a tile: by computation. -/
example : accR 3 2 = Rect.unit (s := S4x3x256x256) ![3, 2, 0, 0] S1x1x256x256.size (accInb 3 2) := rfl
example : rsR 7 2 2 = Rect.unit (s := S8x3x3x256x256) ![7, 2, 2, 0, 0] S1x1x1x256x256.size (rsInb 7 2 2) := rfl

/-! ## The tiles as transfers name them

A transfer names a tile through the slice squeezed to [256, 256]: the same elements of the buffer. -/

/-- Tile (g, p) of the accumulator as a transfer's source. -/
abbrev accSq (g : Fin 4) (p : Fin 3) : Memref sig .tc .vmem S256x256 .bf16 :=
  (accM.slice (accR g p) (fun _ => rfl)).squeeze S256x256 squeezes_S1x1x256x256_S256x256

/-- Tile (rg, p, s) of the receive buffer as a transfer's destination. -/
abbrev rsSq (rg : Fin 8) (p s : Fin 3) : Memref sig .tc .vmem S256x256 .bf16 :=
  (rsM.slice (rsR rg p s) (fun _ => rfl)).squeeze S256x256 squeezes_S1x1x1x256x256_S256x256

theorem accSq_set (g : Fin 4) (p : Fin 3) : (accSq g p).view.set = accS g p := View.set_reshape _ _
theorem rsSq_set (rg : Fin 8) (p s : Fin 3) : (rsSq rg p s).view.set = rsS rg p s := View.set_reshape _ _

/-! ### Disjoint, and covering -/

theorem accS_disjoint {g g' : Fin 4} {p p' : Fin 3} (h : (g, p) ≠ (g', p')) : Disjoint (accS g p) (accS g' p') := by
  rw [accS_eq, accS_eq]
  by_cases hg : g = g'
  · have hp : p.val ≠ p'.val := fun e => h (by rw [hg, Fin.ext e])
    refine Rect.unit_disjoint 1 ?_
    show p.val + 1 ≤ p'.val ∨ p'.val + 1 ≤ p.val
    omega
  · have hg' : g.val ≠ g'.val := fun e => hg (Fin.ext e)
    refine Rect.unit_disjoint 0 ?_
    show g.val + 1 ≤ g'.val ∨ g'.val + 1 ≤ g.val
    omega

theorem rsS_disjoint {rg rg' : Fin 8} {p p' s s' : Fin 3} (h : (rg, p, s) ≠ (rg', p', s')) :
    Disjoint (rsS rg p s) (rsS rg' p' s') := by
  rw [rsS_eq, rsS_eq]
  by_cases hg : rg = rg'
  · by_cases hp : p = p'
    · have hs : s.val ≠ s'.val := fun e => h (by rw [hg, hp, Fin.ext e])
      refine Rect.unit_disjoint 2 ?_
      show s.val + 1 ≤ s'.val ∨ s'.val + 1 ≤ s.val
      omega
    · have hp' : p.val ≠ p'.val := fun e => hp (Fin.ext e)
      refine Rect.unit_disjoint 1 ?_
      show p.val + 1 ≤ p'.val ∨ p'.val + 1 ≤ p.val
      omega
  · have hg' : rg.val ≠ rg'.val := fun e => hg (Fin.ext e)
    refine Rect.unit_disjoint 0 ?_
    show rg.val + 1 ≤ rg'.val ∨ rg'.val + 1 ≤ rg.val
    omega

/-- Every element of the accumulator lies in the tile its first two coordinates name. -/
theorem mem_accS (i : S4x3x256x256.Idx) (g : Fin 4) (p : Fin 3) (hg : g.val = (i 0).val) (hp : p.val = (i 1).val) :
    i ∈ accS g p := by
  rw [accS_eq, Rect.mem_set_unit]
  have h2 : (i 2).val < 256 := (i 2).isLt
  have h3 : (i 3).val < 256 := (i 3).isLt
  intro a
  fin_cases a
  · show g.val ≤ (i 0).val ∧ (i 0).val < g.val + 1
    omega
  · show p.val ≤ (i 1).val ∧ (i 1).val < p.val + 1
    omega
  · show 0 ≤ (i 2).val ∧ (i 2).val < 0 + 256
    omega
  · show 0 ≤ (i 3).val ∧ (i 3).val < 0 + 256
    omega

/-- Every element of the receive buffer lies in the tile its first three coordinates name. -/
theorem mem_rsS (i : S8x3x3x256x256.Idx) (rg : Fin 8) (p s : Fin 3) (hg : rg.val = (i 0).val) (hp : p.val = (i 1).val)
    (hs : s.val = (i 2).val) : i ∈ rsS rg p s := by
  rw [rsS_eq, Rect.mem_set_unit]
  have h3 : (i 3).val < 256 := (i 3).isLt
  have h4 : (i 4).val < 256 := (i 4).isLt
  intro a
  fin_cases a
  · show rg.val ≤ (i 0).val ∧ (i 0).val < rg.val + 1
    omega
  · show p.val ≤ (i 1).val ∧ (i 1).val < p.val + 1
    omega
  · show s.val ≤ (i 2).val ∧ (i 2).val < s.val + 1
    omega
  · show 0 ≤ (i 3).val ∧ (i 3).val < 0 + 256
    omega
  · show 0 ≤ (i 4).val ∧ (i 4).val < 0 + 256
    omega

theorem accS_cover : (Finset.univ : Finset (Fin 4 × Fin 3)).biUnion (fun t => accS t.1 t.2) = Finset.univ := by
  ext i
  simp only [Finset.mem_biUnion, Finset.mem_univ, true_and, iff_true]
  exact ⟨(⟨(i 0).val, (i 0).isLt⟩, ⟨(i 1).val, (i 1).isLt⟩), mem_accS i _ _ rfl rfl⟩

theorem rsS_cover : (Finset.univ : Finset (Fin 8 × Fin 3 × Fin 3)).biUnion (fun t => rsS t.1 t.2.1 t.2.2) = Finset.univ := by
  ext i
  simp only [Finset.mem_biUnion, Finset.mem_univ, true_and, iff_true]
  exact ⟨(⟨(i 0).val, (i 0).isLt⟩, ⟨(i 1).val, (i 1).isLt⟩, ⟨(i 2).val, (i 2).isLt⟩), mem_rsS i _ _ _ rfl rfl rfl⟩

/-! ## A whole buffer as its tiles -/

section Split
variable (c : Dev nD) (q : PosShare TreeShare)

/-- The accumulator whole is its twelve tiles, each at the whole buffer's contents. -/
theorem acc_split (f : Buf (Elt F) (accL c)) :
    (accL c ↦{q} f : sProp 𝕄) = bigSep (Finset.univ : Finset (Fin 4 × Fin 3)) fun t => accL c ↦[accS t.1 t.2]{q} f := by
  rw [← pointsTo_biUnion _ _ (fun t _ t' _ h => accS_disjoint (g := t.1) (p := t.2) (g' := t'.1) (p' := t'.2) h), accS_cover]

/-- The receive buffer whole is its seventy-two tiles, each at the whole buffer's contents. -/
theorem rs_split (f : Buf (Elt F) (rsL c)) :
    (rsL c ↦{q} f : sProp 𝕄)
      = bigSep (Finset.univ : Finset (Fin 8 × Fin 3 × Fin 3)) fun t => rsL c ↦[rsS t.1 t.2.1 t.2.2]{q} f := by
  rw [← pointsTo_biUnion _ _ (fun t _ t' _ h =>
    rsS_disjoint (rg := t.1) (p := t.2.1) (s := t.2.2) (rg' := t'.1) (p' := t'.2.1) (s' := t'.2.2) h), rsS_cover]

/-- The accumulator's tiles, held at contents of their own, are the buffer whole at a contents that agrees with
    each on its tile. -/
theorem acc_join (fs : Fin 4 × Fin 3 → Buf (Elt F) (accL c)) :
    bigSep (Finset.univ : Finset (Fin 4 × Fin 3)) (fun t => accL c ↦[accS t.1 t.2]{q} fs t)
      ⊢ (iprop(∃ f, ⌜∀ t : Fin 4 × Fin 3, ∀ i ∈ accS t.1 t.2, f i = fs t i⌝ ∗ accL c ↦{q} f) : sProp 𝕄) := by
  refine (pointsTo_biUnion_join _ _ fs (fs (0, 0)) (fun t _ t' _ h =>
    accS_disjoint (g := t.1) (p := t.2) (g' := t'.1) (p' := t'.2) h)).trans ?_
  rw [accS_cover]
  iintro ⟨%f, %hf, H⟩
  iexists f
  isplitr
  · ipureintro; exact fun t => hf t (Finset.mem_univ _)
  · iexact H

/-- The same of the receive buffer. -/
theorem rs_join (fs : Fin 8 × Fin 3 × Fin 3 → Buf (Elt F) (rsL c)) :
    bigSep (Finset.univ : Finset (Fin 8 × Fin 3 × Fin 3)) (fun t => rsL c ↦[rsS t.1 t.2.1 t.2.2]{q} fs t)
      ⊢ (iprop(∃ f, ⌜∀ t : Fin 8 × Fin 3 × Fin 3, ∀ i ∈ rsS t.1 t.2.1 t.2.2, f i = fs t i⌝ ∗ rsL c ↦{q} f) : sProp 𝕄) := by
  refine (pointsTo_biUnion_join _ _ fs (fs (0, 0, 0)) (fun t _ t' _ h =>
    rsS_disjoint (rg := t.1) (p := t.2.1) (s := t.2.2) (rg' := t'.1) (p' := t'.2.1) (s' := t'.2.2) h)).trans ?_
  rw [rsS_cover]
  iintro ⟨%f, %hf, H⟩
  iexists f
  isplitr
  · ipureintro; exact fun t => hf t (Finset.mem_univ _)
  · iexact H

end Split

/-! ## Contents of a tile as a vector

A points-to names a contents of the whole buffer; only its values on the tile matter. A tile's VALUE is what the
tile's view reads; a vector is carried into a whole-buffer contents by writing it through the tile's view. -/

section Bridge

/-- Contents of the accumulator and of the receive buffer. -/
abbrev AccBuf (F : FTy → Type) : Type := (cc0_scratch0 : Ref sig .tc).ty.Contents (Elt F)
abbrev RsBuf (F : FTy → Type) : Type := (cc0_scratch1 : Ref sig .tc).ty.Contents (Elt F)

section Generic
variable {κ : Kind} {sp : Space} {s : Shape} {e : EltTy} {Val : EltTy → Type}

/-- On a view's elements, a contents is what the view reads off it written back through the view, over any base. -/
theorem eq_write_read_on (v : View sig κ sp s e) (f b : v.ty.Contents Val) :
    ∀ i ∈ v.set, f i = v.write Val b (v.read Val f) Finset.univ i := by
  intro i hi
  obtain ⟨x, -, rfl⟩ := Finset.mem_map.mp hi
  rw [View.write_emb_of_mem _ _ (Finset.mem_univ x), View.read_apply, cast_cast, cast_eq]

/-- A view reshaped reads the same elements in the other shape's row-major order. -/
theorem read_reshape (v : View sig κ sp s e) {s' : Shape} (h : s'.numel = s.numel) (f : v.ty.Contents Val) :
    (v.reshape s' h).read Val f = fun x => v.read Val f (Shape.reshapeEquiv h x) := rfl

/-- What a view reads after a full write through its reshape: the payload in the view's own order. -/
theorem read_write_reshape (v : View sig κ sp s e) {s' : Shape} (h : s'.numel = s.numel) (f : v.ty.Contents Val)
    (w : s'.Idx → Val e) :
    v.read Val ((v.reshape s' h).write Val f w Finset.univ) = fun y => w ((Shape.reshapeEquiv h).symm y) := by
  funext y
  have hy : v.emb y = (v.reshape s' h).emb ((Shape.reshapeEquiv h).symm y) := by
    rw [View.emb_reshape]
    show v.emb y = v.emb (Shape.reshapeEquiv h ((Shape.reshapeEquiv h).symm y))
    rw [Equiv.apply_symm_apply]
  rw [View.read_apply, hy, View.write_emb_of_mem _ _ (Finset.mem_univ _), cast_cast, cast_eq]

end Generic

/-- The first index of a tile. -/
def accIdx0 : S1x1x256x256.Idx := fun a => ⟨0, by revert a; decide⟩
def rsIdx0 : S1x1x1x256x256.Idx := fun a => ⟨0, by revert a; decide⟩

/-- A vector as a contents of the whole accumulator: written through tile (g, p)'s view (over a constant). -/
def accEmb (g : Fin 4) (p : Fin 3) (v : Vec F S1x1x256x256 .bf16) : AccBuf F :=
  (accV g p).write (Elt F) (fun _ => v accIdx0) v Finset.univ

/-- A vector as a contents of the whole receive buffer: written through tile (rg, p, s)'s view (over a constant). -/
def rsEmb (rg : Fin 8) (p s : Fin 3) (v : Vec F S1x1x1x256x256 .bf16) : RsBuf F :=
  (rsV rg p s).write (Elt F) (fun _ => v rsIdx0) v Finset.univ

theorem accV_read_accEmb (g : Fin 4) (p : Fin 3) (v : Vec F S1x1x256x256 .bf16) :
    (accV g p).read (Elt F) (accEmb g p v) = v := View.read_write_univ _ _

theorem rsV_read_rsEmb (rg : Fin 8) (p s : Fin 3) (v : Vec F S1x1x1x256x256 .bf16) :
    (rsV rg p s).read (Elt F) (rsEmb rg p s v) = v := View.read_write_univ _ _

/-- Contents that agree on a tile are the same tile assertion. -/
theorem acc_congr (c : Dev nD) (g : Fin 4) (p : Fin 3) (q : PosShare TreeShare) {f f' : AccBuf F}
    (h : ∀ i ∈ accS g p, f i = f' i) : (accL c ↦[accS g p]{q} f : sProp 𝕄) = accL c ↦[accS g p]{q} f' :=
  pointsTo_congr h

theorem rs_congr (c : Dev nD) (rg : Fin 8) (p s : Fin 3) (q : PosShare TreeShare) {f f' : RsBuf F}
    (h : ∀ i ∈ rsS rg p s, f i = f' i) : (rsL c ↦[rsS rg p s]{q} f : sProp 𝕄) = rsL c ↦[rsS rg p s]{q} f' :=
  pointsTo_congr h

/-- A tile assertion at any contents is the one at the embedding of the tile's value. -/
theorem acc_norm (c : Dev nD) (g : Fin 4) (p : Fin 3) (q : PosShare TreeShare) (f : AccBuf F) :
    (accL c ↦[accS g p]{q} f : sProp 𝕄) = accL c ↦[accS g p]{q} accEmb g p ((accV g p).read (Elt F) f) :=
  pointsTo_congr (eq_write_read_on (accV g p) f _)

theorem rs_norm (c : Dev nD) (rg : Fin 8) (p s : Fin 3) (q : PosShare TreeShare) (f : RsBuf F) :
    (rsL c ↦[rsS rg p s]{q} f : sProp 𝕄) = rsL c ↦[rsS rg p s]{q} rsEmb rg p s ((rsV rg p s).read (Elt F) f) :=
  pointsTo_congr (eq_write_read_on (rsV rg p s) f _)

/-- A tile assertion is fixed by the tile's value. -/
theorem acc_of_read (c : Dev nD) (g : Fin 4) (p : Fin 3) (q : PosShare TreeShare) {f : AccBuf F}
    {v : Vec F S1x1x256x256 .bf16} (h : (accV g p).read (Elt F) f = v) :
    (accL c ↦[accS g p]{q} f : sProp 𝕄) = accL c ↦[accS g p]{q} accEmb g p v := by
  rw [acc_norm, h]

theorem rs_of_read (c : Dev nD) (rg : Fin 8) (p s : Fin 3) (q : PosShare TreeShare) {f : RsBuf F}
    {v : Vec F S1x1x1x256x256 .bf16} (h : (rsV rg p s).read (Elt F) f = v) :
    (rsL c ↦[rsS rg p s]{q} f : sProp 𝕄) = rsL c ↦[rsS rg p s]{q} rsEmb rg p s v := by
  rw [rs_norm, h]

/-! ### The squeezed views -/

theorem accSq_loc (c : Dev nD) (g : Fin 4) (p : Fin 3) : (accSq g p).view.loc (c : Thread nD τ) = accL c := rfl
theorem rsSq_loc (c : Dev nD) (rg : Fin 8) (p s : Fin 3) : (rsSq rg p s).view.loc (c : Thread nD τ) = rsL c := rfl

/-- The squeezed view of an accumulator tile reads the tile's value in [256, 256] order. -/
theorem accSq_read (g : Fin 4) (p : Fin 3) (f : AccBuf F) :
    (accSq g p).view.read (Elt F) f
      = fun x => (accV g p).read (Elt F) f (Shape.reshapeEquiv squeezes_S1x1x256x256_S256x256.numel_eq x) := rfl

theorem rsSq_read (rg : Fin 8) (p s : Fin 3) (f : RsBuf F) :
    (rsSq rg p s).view.read (Elt F) f
      = fun x => (rsV rg p s).read (Elt F) f (Shape.reshapeEquiv squeezes_S1x1x1x256x256_S256x256.numel_eq x) := rfl

/-- THE LANDING: after accumulator tile (g, p) at contents `fs` is copied into receive tile (rg, p', s), the receive
    tile's value is the accumulator tile's value under the receive tile's shape. -/
theorem rsV_read_landing (g : Fin 4) (p : Fin 3) (rg : Fin 8) (p' s : Fin 3) (fd : RsBuf F) (fs : AccBuf F)
    (h : S1x1x256x256.ShapeCasts S1x1x1x256x256) :
    (rsV rg p' s).read (Elt F)
        ((rsSq rg p' s).view.write (Elt F) fd ((accSq g p).view.read (Elt F) fs) Finset.univ)
      = shapeCast S1x1x1x256x256 ((accV g p).read (Elt F) fs) h := by
  have e := read_write_reshape (Val := Elt F) (rsV rg p' s) squeezes_S1x1x1x256x256_S256x256.numel_eq fd
    ((accSq g p).view.read (Elt F) fs)
  refine e.trans ?_
  funext y
  show (accV g p).read (Elt F) fs (Shape.reshapeEquiv _ ((Shape.reshapeEquiv _).symm y))
    = (accV g p).read (Elt F) fs (Shape.reshapeEquiv h y)
  rw [Shape.reshapeEquiv_symm, Shape.reshapeEquiv_reshapeEquiv]

end Bridge

/-! ## The tile assertion as the executor and the transfer rules read it

A tile is held through the view of its squeezed slice memref, `(accSq g p).view.loc c ↦[(accSq g p).view.set]{q} f`:
the form in which a vector access through the buffer finds it, and the one an addressed transfer's rule names. It is
the assertion over `accS g p` (the same location; the same elements, by `accSq_set`). -/

section TileForm
variable (c : Dev nD) (q : PosShare TreeShare)

theorem accTile_eq (g : Fin 4) (p : Fin 3) (f : AccBuf F) :
    ((accSq g p).view.loc (c : Thread nD τ) ↦[(accSq g p).view.set]{q} f : sProp 𝕄) = (accL c ↦[accS g p]{q} f) := by
  rw [accSq_set]

theorem rsTile_eq (rg : Fin 8) (p s : Fin 3) (f : RsBuf F) :
    ((rsSq rg p s).view.loc (c : Thread nD τ) ↦[(rsSq rg p s).view.set]{q} f : sProp 𝕄) = (rsL c ↦[rsS rg p s]{q} f) := by
  rw [rsSq_set]

/-- The accumulator whole is its twelve tiles. -/
theorem acc_split_sq (f : AccBuf F) :
    (accM.view.loc (c : Thread nD τ) ↦{q} f : sProp 𝕄)
      = bigSep (Finset.univ : Finset (Fin 4 × Fin 3)) fun t =>
          (accSq t.1 t.2).view.loc (c : Thread nD τ) ↦[(accSq t.1 t.2).view.set]{q} f := by
  refine (acc_split c q f).trans (bigSep_congr fun t _ => (accTile_eq c q t.1 t.2 f).symm)

/-- The receive buffer whole is its seventy-two tiles. -/
theorem rs_split_sq (f : RsBuf F) :
    (rsM.view.loc (c : Thread nD τ) ↦{q} f : sProp 𝕄)
      = bigSep (Finset.univ : Finset (Fin 8 × Fin 3 × Fin 3)) fun t =>
          (rsSq t.1 t.2.1 t.2.2).view.loc (c : Thread nD τ) ↦[(rsSq t.1 t.2.1 t.2.2).view.set]{q} f := by
  refine (rs_split c q f).trans (bigSep_congr fun t _ => (rsTile_eq c q t.1 t.2.1 t.2.2 f).symm)

/-- The accumulator's tiles at contents of their own are the buffer whole at some contents. -/
theorem acc_join_sq (fs : Fin 4 × Fin 3 → AccBuf F) :
    bigSep (Finset.univ : Finset (Fin 4 × Fin 3)) (fun t =>
        (accSq t.1 t.2).view.loc (c : Thread nD τ) ↦[(accSq t.1 t.2).view.set]{q} fs t)
      ⊢ (iprop(∃ f, accM.view.loc (c : Thread nD τ) ↦{q} f) : sProp 𝕄) := by
  rw [bigSep_congr fun t _ => accTile_eq c q t.1 t.2 (fs t)]
  refine (acc_join c q fs).trans ?_
  iintro ⟨%f, -, H⟩
  iexists f
  iexact H

/-- The same of the receive buffer. -/
theorem rs_join_sq (fs : Fin 8 × Fin 3 × Fin 3 → RsBuf F) :
    bigSep (Finset.univ : Finset (Fin 8 × Fin 3 × Fin 3)) (fun t =>
        (rsSq t.1 t.2.1 t.2.2).view.loc (c : Thread nD τ) ↦[(rsSq t.1 t.2.1 t.2.2).view.set]{q} fs t)
      ⊢ (iprop(∃ f, rsM.view.loc (c : Thread nD τ) ↦{q} f) : sProp 𝕄) := by
  rw [bigSep_congr fun t _ => rsTile_eq c q t.1 t.2.1 t.2.2 (fs t)]
  refine (rs_join c q fs).trans ?_
  iintro ⟨%f, -, H⟩
  iexists f
  iexact H

/-- A tile assertion is fixed by the tile's value. -/
theorem accTile_of_read (g : Fin 4) (p : Fin 3) {f : AccBuf F} {v : Vec F S1x1x256x256 .bf16}
    (h : (accV g p).read (Elt F) f = v) :
    ((accSq g p).view.loc (c : Thread nD τ) ↦[(accSq g p).view.set]{q} f : sProp 𝕄)
      = ((accSq g p).view.loc (c : Thread nD τ) ↦[(accSq g p).view.set]{q} accEmb g p v) := by
  rw [accTile_eq, accTile_eq, acc_of_read c g p q h]

theorem rsTile_of_read (rg : Fin 8) (p s : Fin 3) {f : RsBuf F} {v : Vec F S1x1x1x256x256 .bf16}
    (h : (rsV rg p s).read (Elt F) f = v) :
    ((rsSq rg p s).view.loc (c : Thread nD τ) ↦[(rsSq rg p s).view.set]{q} f : sProp 𝕄)
      = ((rsSq rg p s).view.loc (c : Thread nD τ) ↦[(rsSq rg p s).view.set]{q} rsEmb rg p s v) := by
  rw [rsTile_eq, rsTile_eq, rs_of_read c rg p s q h]

/-- Contents that agree on a tile are the same tile assertion. -/
theorem accTile_congr (g : Fin 4) (p : Fin 3) {f f' : AccBuf F} (h : ∀ i ∈ accS g p, f i = f' i) :
    ((accSq g p).view.loc (c : Thread nD τ) ↦[(accSq g p).view.set]{q} f : sProp 𝕄)
      = ((accSq g p).view.loc (c : Thread nD τ) ↦[(accSq g p).view.set]{q} f') := by
  rw [accTile_eq, accTile_eq, acc_congr c g p q h]

theorem rsTile_congr (rg : Fin 8) (p s : Fin 3) {f f' : RsBuf F} (h : ∀ i ∈ rsS rg p s, f i = f' i) :
    ((rsSq rg p s).view.loc (c : Thread nD τ) ↦[(rsSq rg p s).view.set]{q} f : sProp 𝕄)
      = ((rsSq rg p s).view.loc (c : Thread nD τ) ↦[(rsSq rg p s).view.set]{q} f') := by
  rw [rsTile_eq, rsTile_eq, rs_congr c rg p s q h]

end TileForm

/-! ## A vector access through one tile -/

section Access
variable [Preorder Lvl] {Λ : Labels} {defs : Defs nD τ sig (Elt F) Λ} (𝒱 : Variants) (c : Dev nD)
  (bd : Option 𝒱.V) {Γ : PendingWaitsCtx sig Ix} (E : Set Name)
variable {α : Type} {Q : α → sProp (MT nD τ sig Ix (Elt F) Name U Lvl)}

/-- A vector load at tile (g, p) of the accumulator, holding any share of that tile alone: the program goes on at
    what the tile's view reads. -/
theorem wp_load_acc (g : Fin 4) (p : Fin 3) {hl : accM.view.LoadsAt (accR g p).toLoadRect}
    {k : ((accR g p).shape.Idx → Elt F .bf16) → Prog (TpuEff nD τ sig (Elt F) Λ (c : Thread nD τ).2) α}
    {q : PosShare TreeShare} {f : Buf (Elt F) (accL c)} :
    (accL c ↦[accS g p]{q} f)
      ⊢ iprop(((accL c ↦[accS g p]{q} f) -∗ wp frame (wpE' defs 𝒱 c bd Γ) E (k ((accV g p).read (Elt F) f)) Q)
        -∗ wp frame (wpE' defs 𝒱 c bd Γ) E (.op (.load accM (accR g p).toLoadRect hl) k) Q) :=
  wp_load_rect 𝒱 (c : Thread nD τ) bd E (m := accM) (r := accR g p) (Finset.Subset.refl _)

/-- A vector load at tile (rg, p, s) of the receive buffer, holding any share of that tile alone. -/
theorem wp_load_rs (rg : Fin 8) (p s : Fin 3) {hl : rsM.view.LoadsAt (rsR rg p s).toLoadRect}
    {k : ((rsR rg p s).shape.Idx → Elt F .bf16) → Prog (TpuEff nD τ sig (Elt F) Λ (c : Thread nD τ).2) α}
    {q : PosShare TreeShare} {f : Buf (Elt F) (rsL c)} :
    (rsL c ↦[rsS rg p s]{q} f)
      ⊢ iprop(((rsL c ↦[rsS rg p s]{q} f) -∗ wp frame (wpE' defs 𝒱 c bd Γ) E (k ((rsV rg p s).read (Elt F) f)) Q)
        -∗ wp frame (wpE' defs 𝒱 c bd Γ) E (.op (.load rsM (rsR rg p s).toLoadRect hl) k) Q) :=
  wp_load_rect 𝒱 (c : Thread nD τ) bd E (m := rsM) (r := rsR rg p s) (Finset.Subset.refl _)

/-- An unmasked vector store at tile (g, p) of the accumulator, holding that tile alone at the full share: the
    tile comes back at the contents written through its view. -/
theorem wp_store_acc (g : Fin 4) (p : Fin 3) {w : (accR g p).shape.Idx → Elt F .bf16}
    {hx : (accM.access (accR g p)).Stores Finset.univ}
    {hm : (Finset.univ : Finset (accR g p).shape.Idx) = Finset.univ ∨ ∀ a, (accR g p).stride a = 1}
    {k : PUnit → Prog (TpuEff nD τ sig (Elt F) Λ (c : Thread nD τ).2) α} {f : Buf (Elt F) (accL c)} :
    (accL c ↦[accS g p]{fullShare} f)
      ⊢ iprop(((accL c ↦[accS g p]{fullShare} ((accV g p).write (Elt F) f w Finset.univ))
            -∗ wp frame (wpE' defs 𝒱 c bd Γ) E (k ⟨⟩) Q)
        -∗ wp frame (wpE' defs 𝒱 c bd Γ) E (.op (.store accM (accR g p) w Finset.univ hx hm) k) Q) :=
  wp_store 𝒱 (c : Thread nD τ) bd E (m := accM) (r := accR g p) (Finset.Subset.refl _)

end Access

/-! ## Three waits on a cell whose one round has three duties -/

section Waits
variable {D : Type} [DecidableEq D]

/-- What three successive waits on one round hand back — the payloads of SOME set `S₁` of the round's duties, then
    of `S₂ \\ S₁` for some larger `S₂`, then of the rest of the round — is the payload of every duty of the round. -/
theorem payloads_of_three_waits {Φ : D → sProp 𝕄} {Dt S₁ S₂ : Finset D} (h₁ : S₁ ⊆ S₂) (h₂ : S₂ ⊆ Dt) :
    iprop(bigSep (S₁ \ ∅) Φ ∗ bigSep (S₂ \ S₁) Φ ∗ bigSep (Dt \ S₂) Φ) ⊢ bigSep Dt Φ := by
  rw [Finset.sdiff_empty, bigSep_sdiff_split h₂ (Φ := Φ), bigSep_sdiff_split h₁ (Φ := Φ)]
  exact sep_assoc.2

/-- The payloads of a round of three distinct duties, one by one. -/
theorem bigSep_three {Φ : D → sProp 𝕄} {a b d : D} (hab : a ≠ b) (had : a ≠ d) (hbd : b ≠ d) :
    bigSep ({a, b, d} : Finset D) Φ = iprop(Φ a ∗ Φ b ∗ Φ d) := by
  rw [bigSep_insert (by simp [hab, had]), bigSep_insert (by simp [hbd]), bigSep_singleton]
  rfl

end Waits

/-! ## A wait for part of a round, paid by one token -/

section WaitTok
open Idealize.ShloMosaic.Rounds
variable [Preorder Lvl] {Λ : Labels} {defs : Defs nD τ sig (Elt F) Λ} (𝒱 : Variants)
variable {D : Type} [DecidableEq D]
variable (E : Emb (URounds (GSem nD τ sig) D) (MT nD τ sig Ix (Elt F) Name U Lvl))
  (Rd : Schedule (GSem nD τ sig) D (MT nD τ sig Ix (Elt F) Name U Lvl))
variable (c : Thread nD τ) (bd : Option 𝒱.V) {Γ : PendingWaitsCtx sig Ix}
variable {α : Type} {Q : α → sProp (MT nD τ sig Ix (Elt F) Name U Lvl)}

/-- A wait of any amount covered by credit tokens at one index: the owner takes the payloads of SOME set of landed
    duties of the open round and stays in it. -/
theorem wp_wait_token {w : TpuEff nD τ sig (Elt F) Λ c.2 PUnit} {sm : SemLoc sig} {k' : ℕ} {Es : Set Name} {κ : Name}
    (hw : ∀ K : PUnit → sProp 𝕄, wpE' defs 𝒱 c bd Γ Es w K = waitSpec c Es sm k' K) (hE : κ ∈ Es)
    {k : PUnit → Prog (TpuEff nD τ sig (Elt F) Λ c.2) α} (ι : Ix) {O : CellTallies nD τ sig Ix} {W : Waits sig Ix}
    {R m : ℕ} {T : Finset D} :
    iprop(cellInv E Rd κ (c, sm) ∗ cred (tallyAt (c, sm) ι k') ∗ owes c O W ∗ MayWait c sm ι O ∗ atPos E (c, sm) R T m)
      ⊢ iprop((∀ S : Finset D,
              (⌜T ⊆ S ∧ S ⊆ Rd.duties (c, sm) R ∧ m + k' + (Rd.duties (c, sm) R \ S).card ≤ Rd.expect (c, sm) R⌝
              ∗ owes c O (insert (sm, ι) W) ∗ atPos E (c, sm) R S (m + k')
              ∗ bigSep (S \ T) (fun d => Rd.payload (c, sm) R d))
            -∗ wp frame (wpE' defs 𝒱 c bd Γ) Es (k ⟨⟩) Q)
          -∗ wp frame (wpE' defs 𝒱 c bd Γ) Es (.op w k) Q) := by
  rw [Finset.insert_eq, Finset.union_comm]
  exact Rounds.wp_wait 𝒱 E Rd c bd hw hE {(sm, ι)} (cr := Finsupp.single ι k') (by rw [Util.total_single])
    (image_single_subset sm ι k')

end WaitTok

end Cert.KernelIdeal.Body

end
-- ==== Proof.BodyTable.lean ====
import Mathlib.Data.Fin.VecNotation

/-! Where the body stands at the end of each of its parts: the entry handshake made or not, how many copies are
    started, how many single waits are passed, what each accumulator tile holds or whether it is away with a
    copy in flight, how many output blocks are stored, the exit handshake made or not.  One literal per part,
    read off the body's operations in program order. -/

namespace Cert.KernelIdeal.Body

/-- A place between two parts of the body. -/
structure Pos where
  /-- the three entry signals sent and the entry wait passed -/
  entered : Bool
  /-- copies started, in program order: the step at place sends / 3 of the fire order, its part sends % 3, is next -/
  sends : ℕ
  /-- single waits passed, in program order: the group at place waits / 6 of the fire order, its wait waits % 6
      (send, recv, send, recv, send, recv) is next -/
  waits : ℕ
  /-- tile [g, p]: some v = held, v stores made into it so far (0: contents unknown; 1, 2, 3: level 0, 1, 2 of round 0;
      4, 5, 6: level 0, 1, 2 of round 1); none = away, from its copy's start until the sixth wait of that step's group -/
  acc : Fin 4 → Fin 3 → Option ℕ
  /-- output blocks stored -/
  outs : ℕ
  /-- the three exit signals sent and the exit wait passed -/
  exited : Bool

/-- The steps (round, group, step) in the order they are started, which is the order they are waited for. -/
def fireOrder : List (Fin 2 × Fin 4 × Fin 3) :=
  [(0, 0, 0), (0, 1, 0), (0, 0, 1), (0, 1, 1), (0, 0, 2), (0, 1, 2), (0, 2, 0), (0, 3, 0), (0, 2, 1), (1, 0, 0), (0, 3, 1), (0, 2, 2), (1, 1, 0), (1, 0, 1), (0, 3, 2), (1, 2, 0), (1, 1, 1), (1, 0, 2), (1, 3, 0), (1, 2, 1), (1, 1, 2), (1, 3, 1), (1, 2, 2), (1, 3, 2)]

/-- The place after part N (σ 0: before part 1; σ 121 = σ 60 and σ 122 = σ 120: the two sequences of parts;
    σ 123: after the tail). -/
def σ : ℕ → Pos
  | 0 => { entered := false, sends := 0, waits := 0, acc := fun g p => ![![some 0, some 0, some 0], ![some 0, some 0, some 0], ![some 0, some 0, some 0], ![some 0, some 0, some 0]] g p, outs := 0, exited := false }
  | 1 => { entered := true, sends := 0, waits := 0, acc := fun g p => ![![some 0, some 0, some 0], ![some 0, some 0, some 0], ![some 0, some 0, some 0], ![some 0, some 0, some 0]] g p, outs := 0, exited := false }
  | 2 => { entered := true, sends := 0, waits := 0, acc := fun g p => ![![some 0, some 0, some 0], ![some 0, some 0, some 0], ![some 0, some 0, some 0], ![some 0, some 0, some 0]] g p, outs := 0, exited := false }
  | 3 => { entered := true, sends := 0, waits := 0, acc := fun g p => ![![some 0, some 0, some 0], ![some 0, some 0, some 0], ![some 0, some 0, some 0], ![some 0, some 0, some 0]] g p, outs := 0, exited := false }
  | 4 => { entered := true, sends := 0, waits := 0, acc := fun g p => ![![some 1, some 1, some 1], ![some 0, some 0, some 0], ![some 0, some 0, some 0], ![some 0, some 0, some 0]] g p, outs := 0, exited := false }
  | 5 => { entered := true, sends := 2, waits := 0, acc := fun g p => ![![none, none, some 1], ![some 0, some 0, some 0], ![some 0, some 0, some 0], ![some 0, some 0, some 0]] g p, outs := 0, exited := false }
  | 6 => { entered := true, sends := 3, waits := 0, acc := fun g p => ![![none, none, none], ![some 0, some 0, some 0], ![some 0, some 0, some 0], ![some 0, some 0, some 0]] g p, outs := 0, exited := false }
  | 7 => { entered := true, sends := 3, waits := 0, acc := fun g p => ![![none, none, none], ![some 1, some 1, some 1], ![some 0, some 0, some 0], ![some 0, some 0, some 0]] g p, outs := 0, exited := false }
  | 8 => { entered := true, sends := 5, waits := 0, acc := fun g p => ![![none, none, none], ![none, none, some 1], ![some 0, some 0, some 0], ![some 0, some 0, some 0]] g p, outs := 0, exited := false }
  | 9 => { entered := true, sends := 6, waits := 2, acc := fun g p => ![![none, none, none], ![none, none, none], ![some 0, some 0, some 0], ![some 0, some 0, some 0]] g p, outs := 0, exited := false }
  | 10 => { entered := true, sends := 6, waits := 5, acc := fun g p => ![![none, none, none], ![none, none, none], ![some 0, some 0, some 0], ![some 0, some 0, some 0]] g p, outs := 0, exited := false }
  | 11 => { entered := true, sends := 6, waits := 6, acc := fun g p => ![![some 2, some 2, some 1], ![none, none, none], ![some 0, some 0, some 0], ![some 0, some 0, some 0]] g p, outs := 0, exited := false }
  | 12 => { entered := true, sends := 7, waits := 6, acc := fun g p => ![![none, some 2, some 2], ![none, none, none], ![some 0, some 0, some 0], ![some 0, some 0, some 0]] g p, outs := 0, exited := false }
  | 13 => { entered := true, sends := 9, waits := 6, acc := fun g p => ![![none, none, none], ![none, none, none], ![some 0, some 0, some 0], ![some 0, some 0, some 0]] g p, outs := 0, exited := false }
  | 14 => { entered := true, sends := 9, waits := 8, acc := fun g p => ![![none, none, none], ![none, none, none], ![some 0, some 0, some 0], ![some 0, some 0, some 0]] g p, outs := 0, exited := false }
  | 15 => { entered := true, sends := 9, waits := 11, acc := fun g p => ![![none, none, none], ![none, none, none], ![some 0, some 0, some 0], ![some 0, some 0, some 0]] g p, outs := 0, exited := false }
  | 16 => { entered := true, sends := 9, waits := 12, acc := fun g p => ![![none, none, none], ![some 2, some 1, some 1], ![some 0, some 0, some 0], ![some 0, some 0, some 0]] g p, outs := 0, exited := false }
  | 17 => { entered := true, sends := 10, waits := 12, acc := fun g p => ![![none, none, none], ![none, some 2, some 2], ![some 0, some 0, some 0], ![some 0, some 0, some 0]] g p, outs := 0, exited := false }
  | 18 => { entered := true, sends := 12, waits := 12, acc := fun g p => ![![none, none, none], ![none, none, none], ![some 0, some 0, some 0], ![some 0, some 0, some 0]] g p, outs := 0, exited := false }
  | 19 => { entered := true, sends := 12, waits := 15, acc := fun g p => ![![none, none, none], ![none, none, none], ![some 0, some 0, some 0], ![some 0, some 0, some 0]] g p, outs := 0, exited := false }
  | 20 => { entered := true, sends := 12, waits := 18, acc := fun g p => ![![some 2, some 2, some 2], ![none, none, none], ![some 0, some 0, some 0], ![some 0, some 0, some 0]] g p, outs := 0, exited := false }
  | 21 => { entered := true, sends := 12, waits := 18, acc := fun g p => ![![some 3, some 3, some 3], ![none, none, none], ![some 0, some 0, some 0], ![some 0, some 0, some 0]] g p, outs := 0, exited := false }
  | 22 => { entered := true, sends := 14, waits := 18, acc := fun g p => ![![none, none, some 3], ![none, none, none], ![some 0, some 0, some 0], ![some 0, some 0, some 0]] g p, outs := 0, exited := false }
  | 23 => { entered := true, sends := 15, waits := 20, acc := fun g p => ![![none, none, none], ![none, none, none], ![some 0, some 0, some 0], ![some 0, some 0, some 0]] g p, outs := 0, exited := false }
  | 24 => { entered := true, sends := 15, waits := 23, acc := fun g p => ![![none, none, none], ![none, none, none], ![some 0, some 0, some 0], ![some 0, some 0, some 0]] g p, outs := 0, exited := false }
  | 25 => { entered := true, sends := 15, waits := 24, acc := fun g p => ![![none, none, none], ![some 3, some 2, some 2], ![some 0, some 0, some 0], ![some 0, some 0, some 0]] g p, outs := 0, exited := false }
  | 26 => { entered := true, sends := 16, waits := 24, acc := fun g p => ![![none, none, none], ![none, some 3, some 3], ![some 0, some 0, some 0], ![some 0, some 0, some 0]] g p, outs := 0, exited := false }
  | 27 => { entered := true, sends := 18, waits := 24, acc := fun g p => ![![none, none, none], ![none, none, none], ![some 0, some 0, some 0], ![some 0, some 0, some 0]] g p, outs := 0, exited := false }
  | 28 => { entered := true, sends := 18, waits := 27, acc := fun g p => ![![none, none, none], ![none, none, none], ![some 0, some 0, some 0], ![some 0, some 0, some 0]] g p, outs := 0, exited := false }
  | 29 => { entered := true, sends := 18, waits := 30, acc := fun g p => ![![some 3, some 3, some 3], ![none, none, none], ![some 0, some 0, some 0], ![some 0, some 0, some 0]] g p, outs := 0, exited := false }
  | 30 => { entered := true, sends := 18, waits := 30, acc := fun g p => ![![some 3, some 3, some 3], ![none, none, none], ![some 0, some 0, some 0], ![some 0, some 0, some 0]] g p, outs := 0, exited := false }
  | 31 => { entered := true, sends := 19, waits := 30, acc := fun g p => ![![some 3, some 3, some 3], ![none, none, none], ![none, some 1, some 1], ![some 0, some 0, some 0]] g p, outs := 0, exited := false }
  | 32 => { entered := true, sends := 21, waits := 30, acc := fun g p => ![![some 3, some 3, some 3], ![none, none, none], ![none, none, none], ![some 0, some 0, some 0]] g p, outs := 0, exited := false }
  | 33 => { entered := true, sends := 21, waits := 33, acc := fun g p => ![![some 3, some 3, some 3], ![none, none, none], ![none, none, none], ![some 0, some 0, some 0]] g p, outs := 0, exited := false }
  | 34 => { entered := true, sends := 21, waits := 36, acc := fun g p => ![![some 3, some 3, some 3], ![some 3, some 3, some 3], ![none, none, none], ![some 0, some 0, some 0]] g p, outs := 0, exited := false }
  | 35 => { entered := true, sends := 21, waits := 36, acc := fun g p => ![![some 3, some 3, some 3], ![some 3, some 3, some 3], ![none, none, none], ![some 0, some 0, some 0]] g p, outs := 0, exited := false }
  | 36 => { entered := true, sends := 22, waits := 36, acc := fun g p => ![![some 3, some 3, some 3], ![some 3, some 3, some 3], ![none, none, none], ![none, some 1, some 1]] g p, outs := 0, exited := false }
  | 37 => { entered := true, sends := 24, waits := 36, acc := fun g p => ![![some 3, some 3, some 3], ![some 3, some 3, some 3], ![none, none, none], ![none, none, none]] g p, outs := 0, exited := false }
  | 38 => { entered := true, sends := 24, waits := 39, acc := fun g p => ![![some 3, some 3, some 3], ![some 3, some 3, some 3], ![none, none, none], ![none, none, none]] g p, outs := 0, exited := false }
  | 39 => { entered := true, sends := 24, waits := 42, acc := fun g p => ![![some 3, some 3, some 3], ![some 3, some 3, some 3], ![some 1, some 1, some 1], ![none, none, none]] g p, outs := 0, exited := false }
  | 40 => { entered := true, sends := 24, waits := 42, acc := fun g p => ![![some 3, some 3, some 3], ![some 3, some 3, some 3], ![some 2, some 2, some 2], ![none, none, none]] g p, outs := 0, exited := false }
  | 41 => { entered := true, sends := 26, waits := 42, acc := fun g p => ![![some 3, some 3, some 3], ![some 3, some 3, some 3], ![none, none, some 2], ![none, none, none]] g p, outs := 0, exited := false }
  | 42 => { entered := true, sends := 27, waits := 42, acc := fun g p => ![![some 3, some 3, some 3], ![some 3, some 3, some 3], ![none, none, none], ![none, none, none]] g p, outs := 0, exited := false }
  | 43 => { entered := true, sends := 27, waits := 42, acc := fun g p => ![![some 3, some 3, some 3], ![some 3, some 3, some 3], ![none, none, none], ![none, none, none]] g p, outs := 0, exited := false }
  | 44 => { entered := true, sends := 28, waits := 42, acc := fun g p => ![![none, some 4, some 4], ![some 3, some 3, some 3], ![none, none, none], ![none, none, none]] g p, outs := 0, exited := false }
  | 45 => { entered := true, sends := 30, waits := 42, acc := fun g p => ![![none, none, none], ![some 3, some 3, some 3], ![none, none, none], ![none, none, none]] g p, outs := 0, exited := false }
  | 46 => { entered := true, sends := 30, waits := 45, acc := fun g p => ![![none, none, none], ![some 3, some 3, some 3], ![none, none, none], ![none, none, none]] g p, outs := 0, exited := false }
  | 47 => { entered := true, sends := 30, waits := 48, acc := fun g p => ![![none, none, none], ![some 3, some 3, some 3], ![none, none, none], ![some 1, some 1, some 1]] g p, outs := 0, exited := false }
  | 48 => { entered := true, sends := 30, waits := 48, acc := fun g p => ![![none, none, none], ![some 3, some 3, some 3], ![none, none, none], ![some 2, some 2, some 2]] g p, outs := 0, exited := false }
  | 49 => { entered := true, sends := 32, waits := 48, acc := fun g p => ![![none, none, none], ![some 3, some 3, some 3], ![none, none, none], ![none, none, some 2]] g p, outs := 0, exited := false }
  | 50 => { entered := true, sends := 33, waits := 50, acc := fun g p => ![![none, none, none], ![some 3, some 3, some 3], ![none, none, none], ![none, none, none]] g p, outs := 0, exited := false }
  | 51 => { entered := true, sends := 33, waits := 53, acc := fun g p => ![![none, none, none], ![some 3, some 3, some 3], ![none, none, none], ![none, none, none]] g p, outs := 0, exited := false }
  | 52 => { entered := true, sends := 33, waits := 54, acc := fun g p => ![![none, none, none], ![some 3, some 3, some 3], ![some 3, some 3, some 2], ![none, none, none]] g p, outs := 0, exited := false }
  | 53 => { entered := true, sends := 34, waits := 54, acc := fun g p => ![![none, none, none], ![some 3, some 3, some 3], ![none, some 3, some 3], ![none, none, none]] g p, outs := 0, exited := false }
  | 54 => { entered := true, sends := 36, waits := 54, acc := fun g p => ![![none, none, none], ![some 3, some 3, some 3], ![none, none, none], ![none, none, none]] g p, outs := 0, exited := false }
  | 55 => { entered := true, sends := 36, waits := 54, acc := fun g p => ![![none, none, none], ![some 3, some 3, some 3], ![none, none, none], ![none, none, none]] g p, outs := 0, exited := false }
  | 56 => { entered := true, sends := 36, waits := 54, acc := fun g p => ![![none, none, none], ![some 4, some 4, some 4], ![none, none, none], ![none, none, none]] g p, outs := 0, exited := false }
  | 57 => { entered := true, sends := 38, waits := 54, acc := fun g p => ![![none, none, none], ![none, none, some 4], ![none, none, none], ![none, none, none]] g p, outs := 0, exited := false }
  | 58 => { entered := true, sends := 39, waits := 56, acc := fun g p => ![![none, none, none], ![none, none, none], ![none, none, none], ![none, none, none]] g p, outs := 0, exited := false }
  | 59 => { entered := true, sends := 39, waits := 59, acc := fun g p => ![![none, none, none], ![none, none, none], ![none, none, none], ![none, none, none]] g p, outs := 0, exited := false }
  | 60 => { entered := true, sends := 39, waits := 60, acc := fun g p => ![![some 5, some 5, some 4], ![none, none, none], ![none, none, none], ![none, none, none]] g p, outs := 0, exited := false }
  | 61 => { entered := true, sends := 40, waits := 60, acc := fun g p => ![![none, some 5, some 5], ![none, none, none], ![none, none, none], ![none, none, none]] g p, outs := 0, exited := false }
  | 62 => { entered := true, sends := 42, waits := 61, acc := fun g p => ![![none, none, none], ![none, none, none], ![none, none, none], ![none, none, none]] g p, outs := 0, exited := false }
  | 63 => { entered := true, sends := 42, waits := 64, acc := fun g p => ![![none, none, none], ![none, none, none], ![none, none, none], ![none, none, none]] g p, outs := 0, exited := false }
  | 64 => { entered := true, sends := 42, waits := 66, acc := fun g p => ![![none, none, none], ![none, none, none], ![none, none, none], ![some 2, some 2, some 2]] g p, outs := 0, exited := false }
  | 65 => { entered := true, sends := 42, waits := 66, acc := fun g p => ![![none, none, none], ![none, none, none], ![none, none, none], ![some 3, some 3, some 3]] g p, outs := 0, exited := false }
  | 66 => { entered := true, sends := 44, waits := 66, acc := fun g p => ![![none, none, none], ![none, none, none], ![none, none, none], ![none, none, some 3]] g p, outs := 0, exited := false }
  | 67 => { entered := true, sends := 45, waits := 68, acc := fun g p => ![![none, none, none], ![none, none, none], ![none, none, none], ![none, none, none]] g p, outs := 0, exited := false }
  | 68 => { entered := true, sends := 45, waits := 71, acc := fun g p => ![![none, none, none], ![none, none, none], ![none, none, none], ![none, none, none]] g p, outs := 0, exited := false }
  | 69 => { entered := true, sends := 45, waits := 72, acc := fun g p => ![![none, none, none], ![none, none, none], ![some 3, some 3, some 3], ![none, none, none]] g p, outs := 0, exited := false }
  | 70 => { entered := true, sends := 45, waits := 72, acc := fun g p => ![![none, none, none], ![none, none, none], ![some 3, some 3, some 3], ![none, none, none]] g p, outs := 0, exited := false }
  | 71 => { entered := true, sends := 46, waits := 72, acc := fun g p => ![![none, none, none], ![none, none, none], ![none, some 4, some 4], ![none, none, none]] g p, outs := 0, exited := false }
  | 72 => { entered := true, sends := 48, waits := 73, acc := fun g p => ![![none, none, none], ![none, none, none], ![none, none, none], ![none, none, none]] g p, outs := 0, exited := false }
  | 73 => { entered := true, sends := 48, waits := 76, acc := fun g p => ![![none, none, none], ![none, none, none], ![none, none, none], ![none, none, none]] g p, outs := 0, exited := false }
  | 74 => { entered := true, sends := 48, waits := 78, acc := fun g p => ![![none, none, none], ![some 4, some 4, some 4], ![none, none, none], ![none, none, none]] g p, outs := 0, exited := false }
  | 75 => { entered := true, sends := 48, waits := 78, acc := fun g p => ![![none, none, none], ![some 5, some 5, some 5], ![none, none, none], ![none, none, none]] g p, outs := 0, exited := false }
  | 76 => { entered := true, sends := 50, waits := 78, acc := fun g p => ![![none, none, none], ![none, none, some 5], ![none, none, none], ![none, none, none]] g p, outs := 0, exited := false }
  | 77 => { entered := true, sends := 51, waits := 80, acc := fun g p => ![![none, none, none], ![none, none, none], ![none, none, none], ![none, none, none]] g p, outs := 0, exited := false }
  | 78 => { entered := true, sends := 51, waits := 83, acc := fun g p => ![![none, none, none], ![none, none, none], ![none, none, none], ![none, none, none]] g p, outs := 0, exited := false }
  | 79 => { entered := true, sends := 51, waits := 84, acc := fun g p => ![![some 6, some 6, some 5], ![none, none, none], ![none, none, none], ![none, none, none]] g p, outs := 0, exited := false }
  | 80 => { entered := true, sends := 52, waits := 84, acc := fun g p => ![![none, some 6, some 6], ![none, none, none], ![none, none, none], ![none, none, none]] g p, outs := 0, exited := false }
  | 81 => { entered := true, sends := 54, waits := 85, acc := fun g p => ![![none, none, none], ![none, none, none], ![none, none, none], ![none, none, none]] g p, outs := 0, exited := false }
  | 82 => { entered := true, sends := 54, waits := 88, acc := fun g p => ![![none, none, none], ![none, none, none], ![none, none, none], ![none, none, none]] g p, outs := 0, exited := false }
  | 83 => { entered := true, sends := 54, waits := 90, acc := fun g p => ![![none, none, none], ![none, none, none], ![none, none, none], ![some 3, some 3, some 3]] g p, outs := 0, exited := false }
  | 84 => { entered := true, sends := 54, waits := 90, acc := fun g p => ![![none, none, none], ![none, none, none], ![none, none, none], ![some 3, some 3, some 3]] g p, outs := 0, exited := false }
  | 85 => { entered := true, sends := 54, waits := 90, acc := fun g p => ![![none, none, none], ![none, none, none], ![none, none, none], ![some 4, some 4, some 4]] g p, outs := 0, exited := false }
  | 86 => { entered := true, sends := 56, waits := 90, acc := fun g p => ![![none, none, none], ![none, none, none], ![none, none, none], ![none, none, some 4]] g p, outs := 0, exited := false }
  | 87 => { entered := true, sends := 57, waits := 92, acc := fun g p => ![![none, none, none], ![none, none, none], ![none, none, none], ![none, none, none]] g p, outs := 0, exited := false }
  | 88 => { entered := true, sends := 57, waits := 95, acc := fun g p => ![![none, none, none], ![none, none, none], ![none, none, none], ![none, none, none]] g p, outs := 0, exited := false }
  | 89 => { entered := true, sends := 57, waits := 96, acc := fun g p => ![![none, none, none], ![none, none, none], ![some 5, some 5, some 4], ![none, none, none]] g p, outs := 0, exited := false }
  | 90 => { entered := true, sends := 58, waits := 96, acc := fun g p => ![![none, none, none], ![none, none, none], ![none, some 5, some 5], ![none, none, none]] g p, outs := 0, exited := false }
  | 91 => { entered := true, sends := 60, waits := 97, acc := fun g p => ![![none, none, none], ![none, none, none], ![none, none, none], ![none, none, none]] g p, outs := 0, exited := false }
  | 92 => { entered := true, sends := 60, waits := 100, acc := fun g p => ![![none, none, none], ![none, none, none], ![none, none, none], ![none, none, none]] g p, outs := 0, exited := false }
  | 93 => { entered := true, sends := 60, waits := 102, acc := fun g p => ![![none, none, none], ![some 6, some 5, some 5], ![none, none, none], ![none, none, none]] g p, outs := 0, exited := false }
  | 94 => { entered := true, sends := 60, waits := 102, acc := fun g p => ![![none, none, none], ![some 6, some 6, some 6], ![none, none, none], ![none, none, none]] g p, outs := 0, exited := false }
  | 95 => { entered := true, sends := 63, waits := 102, acc := fun g p => ![![none, none, none], ![none, none, none], ![none, none, none], ![none, none, none]] g p, outs := 0, exited := false }
  | 96 => { entered := true, sends := 63, waits := 105, acc := fun g p => ![![none, none, none], ![none, none, none], ![none, none, none], ![none, none, none]] g p, outs := 0, exited := false }
  | 97 => { entered := true, sends := 63, waits := 107, acc := fun g p => ![![none, none, none], ![none, none, none], ![none, none, none], ![none, none, none]] g p, outs := 0, exited := false }
  | 98 => { entered := true, sends := 63, waits := 108, acc := fun g p => ![![some 6, some 6, some 6], ![none, none, none], ![none, none, none], ![none, none, none]] g p, outs := 0, exited := false }
  | 99 => { entered := true, sends := 63, waits := 110, acc := fun g p => ![![some 6, some 6, some 6], ![none, none, none], ![none, none, none], ![none, none, none]] g p, outs := 1, exited := false }
  | 100 => { entered := true, sends := 63, waits := 113, acc := fun g p => ![![some 6, some 6, some 6], ![none, none, none], ![none, none, none], ![none, none, none]] g p, outs := 1, exited := false }
  | 101 => { entered := true, sends := 63, waits := 114, acc := fun g p => ![![some 6, some 6, some 6], ![none, none, none], ![none, none, none], ![some 5, some 5, some 4]] g p, outs := 1, exited := false }
  | 102 => { entered := true, sends := 64, waits := 114, acc := fun g p => ![![some 6, some 6, some 6], ![none, none, none], ![none, none, none], ![none, some 5, some 5]] g p, outs := 1, exited := false }
  | 103 => { entered := true, sends := 66, waits := 115, acc := fun g p => ![![some 6, some 6, some 6], ![none, none, none], ![none, none, none], ![none, none, none]] g p, outs := 1, exited := false }
  | 104 => { entered := true, sends := 66, waits := 118, acc := fun g p => ![![some 6, some 6, some 6], ![none, none, none], ![none, none, none], ![none, none, none]] g p, outs := 1, exited := false }
  | 105 => { entered := true, sends := 66, waits := 120, acc := fun g p => ![![some 6, some 6, some 6], ![none, none, none], ![some 6, some 5, some 5], ![none, none, none]] g p, outs := 1, exited := false }
  | 106 => { entered := true, sends := 66, waits := 120, acc := fun g p => ![![some 6, some 6, some 6], ![none, none, none], ![some 6, some 6, some 6], ![none, none, none]] g p, outs := 1, exited := false }
  | 107 => { entered := true, sends := 69, waits := 120, acc := fun g p => ![![some 6, some 6, some 6], ![none, none, none], ![none, none, none], ![none, none, none]] g p, outs := 1, exited := false }
  | 108 => { entered := true, sends := 69, waits := 123, acc := fun g p => ![![some 6, some 6, some 6], ![none, none, none], ![none, none, none], ![none, none, none]] g p, outs := 1, exited := false }
  | 109 => { entered := true, sends := 69, waits := 126, acc := fun g p => ![![some 6, some 6, some 6], ![some 6, some 6, some 6], ![none, none, none], ![none, none, none]] g p, outs := 1, exited := false }
  | 110 => { entered := true, sends := 69, waits := 126, acc := fun g p => ![![some 6, some 6, some 6], ![some 6, some 6, some 6], ![none, none, none], ![none, none, none]] g p, outs := 2, exited := false }
  | 111 => { entered := true, sends := 69, waits := 129, acc := fun g p => ![![some 6, some 6, some 6], ![some 6, some 6, some 6], ![none, none, none], ![none, none, none]] g p, outs := 2, exited := false }
  | 112 => { entered := true, sends := 69, waits := 132, acc := fun g p => ![![some 6, some 6, some 6], ![some 6, some 6, some 6], ![none, none, none], ![some 5, some 5, some 5]] g p, outs := 2, exited := false }
  | 113 => { entered := true, sends := 69, waits := 132, acc := fun g p => ![![some 6, some 6, some 6], ![some 6, some 6, some 6], ![none, none, none], ![some 6, some 6, some 5]] g p, outs := 2, exited := false }
  | 114 => { entered := true, sends := 71, waits := 132, acc := fun g p => ![![some 6, some 6, some 6], ![some 6, some 6, some 6], ![none, none, none], ![none, none, some 6]] g p, outs := 2, exited := false }
  | 115 => { entered := true, sends := 72, waits := 133, acc := fun g p => ![![some 6, some 6, some 6], ![some 6, some 6, some 6], ![none, none, none], ![none, none, none]] g p, outs := 2, exited := false }
  | 116 => { entered := true, sends := 72, waits := 136, acc := fun g p => ![![some 6, some 6, some 6], ![some 6, some 6, some 6], ![none, none, none], ![none, none, none]] g p, outs := 2, exited := false }
  | 117 => { entered := true, sends := 72, waits := 138, acc := fun g p => ![![some 6, some 6, some 6], ![some 6, some 6, some 6], ![some 6, some 6, some 6], ![none, none, none]] g p, outs := 2, exited := false }
  | 118 => { entered := true, sends := 72, waits := 139, acc := fun g p => ![![some 6, some 6, some 6], ![some 6, some 6, some 6], ![some 6, some 6, some 6], ![none, none, none]] g p, outs := 3, exited := false }
  | 119 => { entered := true, sends := 72, waits := 142, acc := fun g p => ![![some 6, some 6, some 6], ![some 6, some 6, some 6], ![some 6, some 6, some 6], ![none, none, none]] g p, outs := 3, exited := false }
  | 120 => { entered := true, sends := 72, waits := 144, acc := fun g p => ![![some 6, some 6, some 6], ![some 6, some 6, some 6], ![some 6, some 6, some 6], ![some 6, some 6, some 6]] g p, outs := 3, exited := false }
  | 121 => { entered := true, sends := 39, waits := 60, acc := fun g p => ![![some 5, some 5, some 4], ![none, none, none], ![none, none, none], ![none, none, none]] g p, outs := 0, exited := false }
  | 122 => { entered := true, sends := 72, waits := 144, acc := fun g p => ![![some 6, some 6, some 6], ![some 6, some 6, some 6], ![some 6, some 6, some 6], ![some 6, some 6, some 6]] g p, outs := 3, exited := false }
  | 123 => { entered := true, sends := 72, waits := 144, acc := fun g p => ![![some 6, some 6, some 6], ![some 6, some 6, some 6], ![some 6, some 6, some 6], ![some 6, some 6, some 6]] g p, outs := 4, exited := true }
  | _ => { entered := true, sends := 72, waits := 144, acc := fun g p => ![![some 6, some 6, some 6], ![some 6, some 6, some 6], ![some 6, some 6, some 6], ![some 6, some 6, some 6]] g p, outs := 4, exited := true }

@[simp] theorem σ_0 : σ 0 = { entered := false, sends := 0, waits := 0, acc := fun g p => ![![some 0, some 0, some 0], ![some 0, some 0, some 0], ![some 0, some 0, some 0], ![some 0, some 0, some 0]] g p, outs := 0, exited := false } := rfl
@[simp] theorem σ_1 : σ 1 = { entered := true, sends := 0, waits := 0, acc := fun g p => ![![some 0, some 0, some 0], ![some 0, some 0, some 0], ![some 0, some 0, some 0], ![some 0, some 0, some 0]] g p, outs := 0, exited := false } := rfl
@[simp] theorem σ_2 : σ 2 = { entered := true, sends := 0, waits := 0, acc := fun g p => ![![some 0, some 0, some 0], ![some 0, some 0, some 0], ![some 0, some 0, some 0], ![some 0, some 0, some 0]] g p, outs := 0, exited := false } := rfl
@[simp] theorem σ_3 : σ 3 = { entered := true, sends := 0, waits := 0, acc := fun g p => ![![some 0, some 0, some 0], ![some 0, some 0, some 0], ![some 0, some 0, some 0], ![some 0, some 0, some 0]] g p, outs := 0, exited := false } := rfl
@[simp] theorem σ_4 : σ 4 = { entered := true, sends := 0, waits := 0, acc := fun g p => ![![some 1, some 1, some 1], ![some 0, some 0, some 0], ![some 0, some 0, some 0], ![some 0, some 0, some 0]] g p, outs := 0, exited := false } := rfl
@[simp] theorem σ_5 : σ 5 = { entered := true, sends := 2, waits := 0, acc := fun g p => ![![none, none, some 1], ![some 0, some 0, some 0], ![some 0, some 0, some 0], ![some 0, some 0, some 0]] g p, outs := 0, exited := false } := rfl
@[simp] theorem σ_6 : σ 6 = { entered := true, sends := 3, waits := 0, acc := fun g p => ![![none, none, none], ![some 0, some 0, some 0], ![some 0, some 0, some 0], ![some 0, some 0, some 0]] g p, outs := 0, exited := false } := rfl
@[simp] theorem σ_7 : σ 7 = { entered := true, sends := 3, waits := 0, acc := fun g p => ![![none, none, none], ![some 1, some 1, some 1], ![some 0, some 0, some 0], ![some 0, some 0, some 0]] g p, outs := 0, exited := false } := rfl
@[simp] theorem σ_8 : σ 8 = { entered := true, sends := 5, waits := 0, acc := fun g p => ![![none, none, none], ![none, none, some 1], ![some 0, some 0, some 0], ![some 0, some 0, some 0]] g p, outs := 0, exited := false } := rfl
@[simp] theorem σ_9 : σ 9 = { entered := true, sends := 6, waits := 2, acc := fun g p => ![![none, none, none], ![none, none, none], ![some 0, some 0, some 0], ![some 0, some 0, some 0]] g p, outs := 0, exited := false } := rfl
@[simp] theorem σ_10 : σ 10 = { entered := true, sends := 6, waits := 5, acc := fun g p => ![![none, none, none], ![none, none, none], ![some 0, some 0, some 0], ![some 0, some 0, some 0]] g p, outs := 0, exited := false } := rfl
@[simp] theorem σ_11 : σ 11 = { entered := true, sends := 6, waits := 6, acc := fun g p => ![![some 2, some 2, some 1], ![none, none, none], ![some 0, some 0, some 0], ![some 0, some 0, some 0]] g p, outs := 0, exited := false } := rfl
@[simp] theorem σ_12 : σ 12 = { entered := true, sends := 7, waits := 6, acc := fun g p => ![![none, some 2, some 2], ![none, none, none], ![some 0, some 0, some 0], ![some 0, some 0, some 0]] g p, outs := 0, exited := false } := rfl
@[simp] theorem σ_13 : σ 13 = { entered := true, sends := 9, waits := 6, acc := fun g p => ![![none, none, none], ![none, none, none], ![some 0, some 0, some 0], ![some 0, some 0, some 0]] g p, outs := 0, exited := false } := rfl
@[simp] theorem σ_14 : σ 14 = { entered := true, sends := 9, waits := 8, acc := fun g p => ![![none, none, none], ![none, none, none], ![some 0, some 0, some 0], ![some 0, some 0, some 0]] g p, outs := 0, exited := false } := rfl
@[simp] theorem σ_15 : σ 15 = { entered := true, sends := 9, waits := 11, acc := fun g p => ![![none, none, none], ![none, none, none], ![some 0, some 0, some 0], ![some 0, some 0, some 0]] g p, outs := 0, exited := false } := rfl
@[simp] theorem σ_16 : σ 16 = { entered := true, sends := 9, waits := 12, acc := fun g p => ![![none, none, none], ![some 2, some 1, some 1], ![some 0, some 0, some 0], ![some 0, some 0, some 0]] g p, outs := 0, exited := false } := rfl
@[simp] theorem σ_17 : σ 17 = { entered := true, sends := 10, waits := 12, acc := fun g p => ![![none, none, none], ![none, some 2, some 2], ![some 0, some 0, some 0], ![some 0, some 0, some 0]] g p, outs := 0, exited := false } := rfl
@[simp] theorem σ_18 : σ 18 = { entered := true, sends := 12, waits := 12, acc := fun g p => ![![none, none, none], ![none, none, none], ![some 0, some 0, some 0], ![some 0, some 0, some 0]] g p, outs := 0, exited := false } := rfl
@[simp] theorem σ_19 : σ 19 = { entered := true, sends := 12, waits := 15, acc := fun g p => ![![none, none, none], ![none, none, none], ![some 0, some 0, some 0], ![some 0, some 0, some 0]] g p, outs := 0, exited := false } := rfl
@[simp] theorem σ_20 : σ 20 = { entered := true, sends := 12, waits := 18, acc := fun g p => ![![some 2, some 2, some 2], ![none, none, none], ![some 0, some 0, some 0], ![some 0, some 0, some 0]] g p, outs := 0, exited := false } := rfl
@[simp] theorem σ_21 : σ 21 = { entered := true, sends := 12, waits := 18, acc := fun g p => ![![some 3, some 3, some 3], ![none, none, none], ![some 0, some 0, some 0], ![some 0, some 0, some 0]] g p, outs := 0, exited := false } := rfl
@[simp] theorem σ_22 : σ 22 = { entered := true, sends := 14, waits := 18, acc := fun g p => ![![none, none, some 3], ![none, none, none], ![some 0, some 0, some 0], ![some 0, some 0, some 0]] g p, outs := 0, exited := false } := rfl
@[simp] theorem σ_23 : σ 23 = { entered := true, sends := 15, waits := 20, acc := fun g p => ![![none, none, none], ![none, none, none], ![some 0, some 0, some 0], ![some 0, some 0, some 0]] g p, outs := 0, exited := false } := rfl
@[simp] theorem σ_24 : σ 24 = { entered := true, sends := 15, waits := 23, acc := fun g p => ![![none, none, none], ![none, none, none], ![some 0, some 0, some 0], ![some 0, some 0, some 0]] g p, outs := 0, exited := false } := rfl
@[simp] theorem σ_25 : σ 25 = { entered := true, sends := 15, waits := 24, acc := fun g p => ![![none, none, none], ![some 3, some 2, some 2], ![some 0, some 0, some 0], ![some 0, some 0, some 0]] g p, outs := 0, exited := false } := rfl
@[simp] theorem σ_26 : σ 26 = { entered := true, sends := 16, waits := 24, acc := fun g p => ![![none, none, none], ![none, some 3, some 3], ![some 0, some 0, some 0], ![some 0, some 0, some 0]] g p, outs := 0, exited := false } := rfl
@[simp] theorem σ_27 : σ 27 = { entered := true, sends := 18, waits := 24, acc := fun g p => ![![none, none, none], ![none, none, none], ![some 0, some 0, some 0], ![some 0, some 0, some 0]] g p, outs := 0, exited := false } := rfl
@[simp] theorem σ_28 : σ 28 = { entered := true, sends := 18, waits := 27, acc := fun g p => ![![none, none, none], ![none, none, none], ![some 0, some 0, some 0], ![some 0, some 0, some 0]] g p, outs := 0, exited := false } := rfl
@[simp] theorem σ_29 : σ 29 = { entered := true, sends := 18, waits := 30, acc := fun g p => ![![some 3, some 3, some 3], ![none, none, none], ![some 0, some 0, some 0], ![some 0, some 0, some 0]] g p, outs := 0, exited := false } := rfl
@[simp] theorem σ_30 : σ 30 = { entered := true, sends := 18, waits := 30, acc := fun g p => ![![some 3, some 3, some 3], ![none, none, none], ![some 0, some 0, some 0], ![some 0, some 0, some 0]] g p, outs := 0, exited := false } := rfl
@[simp] theorem σ_31 : σ 31 = { entered := true, sends := 19, waits := 30, acc := fun g p => ![![some 3, some 3, some 3], ![none, none, none], ![none, some 1, some 1], ![some 0, some 0, some 0]] g p, outs := 0, exited := false } := rfl
@[simp] theorem σ_32 : σ 32 = { entered := true, sends := 21, waits := 30, acc := fun g p => ![![some 3, some 3, some 3], ![none, none, none], ![none, none, none], ![some 0, some 0, some 0]] g p, outs := 0, exited := false } := rfl
@[simp] theorem σ_33 : σ 33 = { entered := true, sends := 21, waits := 33, acc := fun g p => ![![some 3, some 3, some 3], ![none, none, none], ![none, none, none], ![some 0, some 0, some 0]] g p, outs := 0, exited := false } := rfl
@[simp] theorem σ_34 : σ 34 = { entered := true, sends := 21, waits := 36, acc := fun g p => ![![some 3, some 3, some 3], ![some 3, some 3, some 3], ![none, none, none], ![some 0, some 0, some 0]] g p, outs := 0, exited := false } := rfl
@[simp] theorem σ_35 : σ 35 = { entered := true, sends := 21, waits := 36, acc := fun g p => ![![some 3, some 3, some 3], ![some 3, some 3, some 3], ![none, none, none], ![some 0, some 0, some 0]] g p, outs := 0, exited := false } := rfl
@[simp] theorem σ_36 : σ 36 = { entered := true, sends := 22, waits := 36, acc := fun g p => ![![some 3, some 3, some 3], ![some 3, some 3, some 3], ![none, none, none], ![none, some 1, some 1]] g p, outs := 0, exited := false } := rfl
@[simp] theorem σ_37 : σ 37 = { entered := true, sends := 24, waits := 36, acc := fun g p => ![![some 3, some 3, some 3], ![some 3, some 3, some 3], ![none, none, none], ![none, none, none]] g p, outs := 0, exited := false } := rfl
@[simp] theorem σ_38 : σ 38 = { entered := true, sends := 24, waits := 39, acc := fun g p => ![![some 3, some 3, some 3], ![some 3, some 3, some 3], ![none, none, none], ![none, none, none]] g p, outs := 0, exited := false } := rfl
@[simp] theorem σ_39 : σ 39 = { entered := true, sends := 24, waits := 42, acc := fun g p => ![![some 3, some 3, some 3], ![some 3, some 3, some 3], ![some 1, some 1, some 1], ![none, none, none]] g p, outs := 0, exited := false } := rfl
@[simp] theorem σ_40 : σ 40 = { entered := true, sends := 24, waits := 42, acc := fun g p => ![![some 3, some 3, some 3], ![some 3, some 3, some 3], ![some 2, some 2, some 2], ![none, none, none]] g p, outs := 0, exited := false } := rfl
@[simp] theorem σ_41 : σ 41 = { entered := true, sends := 26, waits := 42, acc := fun g p => ![![some 3, some 3, some 3], ![some 3, some 3, some 3], ![none, none, some 2], ![none, none, none]] g p, outs := 0, exited := false } := rfl
@[simp] theorem σ_42 : σ 42 = { entered := true, sends := 27, waits := 42, acc := fun g p => ![![some 3, some 3, some 3], ![some 3, some 3, some 3], ![none, none, none], ![none, none, none]] g p, outs := 0, exited := false } := rfl
@[simp] theorem σ_43 : σ 43 = { entered := true, sends := 27, waits := 42, acc := fun g p => ![![some 3, some 3, some 3], ![some 3, some 3, some 3], ![none, none, none], ![none, none, none]] g p, outs := 0, exited := false } := rfl
@[simp] theorem σ_44 : σ 44 = { entered := true, sends := 28, waits := 42, acc := fun g p => ![![none, some 4, some 4], ![some 3, some 3, some 3], ![none, none, none], ![none, none, none]] g p, outs := 0, exited := false } := rfl
@[simp] theorem σ_45 : σ 45 = { entered := true, sends := 30, waits := 42, acc := fun g p => ![![none, none, none], ![some 3, some 3, some 3], ![none, none, none], ![none, none, none]] g p, outs := 0, exited := false } := rfl
@[simp] theorem σ_46 : σ 46 = { entered := true, sends := 30, waits := 45, acc := fun g p => ![![none, none, none], ![some 3, some 3, some 3], ![none, none, none], ![none, none, none]] g p, outs := 0, exited := false } := rfl
@[simp] theorem σ_47 : σ 47 = { entered := true, sends := 30, waits := 48, acc := fun g p => ![![none, none, none], ![some 3, some 3, some 3], ![none, none, none], ![some 1, some 1, some 1]] g p, outs := 0, exited := false } := rfl
@[simp] theorem σ_48 : σ 48 = { entered := true, sends := 30, waits := 48, acc := fun g p => ![![none, none, none], ![some 3, some 3, some 3], ![none, none, none], ![some 2, some 2, some 2]] g p, outs := 0, exited := false } := rfl
@[simp] theorem σ_49 : σ 49 = { entered := true, sends := 32, waits := 48, acc := fun g p => ![![none, none, none], ![some 3, some 3, some 3], ![none, none, none], ![none, none, some 2]] g p, outs := 0, exited := false } := rfl
@[simp] theorem σ_50 : σ 50 = { entered := true, sends := 33, waits := 50, acc := fun g p => ![![none, none, none], ![some 3, some 3, some 3], ![none, none, none], ![none, none, none]] g p, outs := 0, exited := false } := rfl
@[simp] theorem σ_51 : σ 51 = { entered := true, sends := 33, waits := 53, acc := fun g p => ![![none, none, none], ![some 3, some 3, some 3], ![none, none, none], ![none, none, none]] g p, outs := 0, exited := false } := rfl
@[simp] theorem σ_52 : σ 52 = { entered := true, sends := 33, waits := 54, acc := fun g p => ![![none, none, none], ![some 3, some 3, some 3], ![some 3, some 3, some 2], ![none, none, none]] g p, outs := 0, exited := false } := rfl
@[simp] theorem σ_53 : σ 53 = { entered := true, sends := 34, waits := 54, acc := fun g p => ![![none, none, none], ![some 3, some 3, some 3], ![none, some 3, some 3], ![none, none, none]] g p, outs := 0, exited := false } := rfl
@[simp] theorem σ_54 : σ 54 = { entered := true, sends := 36, waits := 54, acc := fun g p => ![![none, none, none], ![some 3, some 3, some 3], ![none, none, none], ![none, none, none]] g p, outs := 0, exited := false } := rfl
@[simp] theorem σ_55 : σ 55 = { entered := true, sends := 36, waits := 54, acc := fun g p => ![![none, none, none], ![some 3, some 3, some 3], ![none, none, none], ![none, none, none]] g p, outs := 0, exited := false } := rfl
@[simp] theorem σ_56 : σ 56 = { entered := true, sends := 36, waits := 54, acc := fun g p => ![![none, none, none], ![some 4, some 4, some 4], ![none, none, none], ![none, none, none]] g p, outs := 0, exited := false } := rfl
@[simp] theorem σ_57 : σ 57 = { entered := true, sends := 38, waits := 54, acc := fun g p => ![![none, none, none], ![none, none, some 4], ![none, none, none], ![none, none, none]] g p, outs := 0, exited := false } := rfl
@[simp] theorem σ_58 : σ 58 = { entered := true, sends := 39, waits := 56, acc := fun g p => ![![none, none, none], ![none, none, none], ![none, none, none], ![none, none, none]] g p, outs := 0, exited := false } := rfl
@[simp] theorem σ_59 : σ 59 = { entered := true, sends := 39, waits := 59, acc := fun g p => ![![none, none, none], ![none, none, none], ![none, none, none], ![none, none, none]] g p, outs := 0, exited := false } := rfl
@[simp] theorem σ_60 : σ 60 = { entered := true, sends := 39, waits := 60, acc := fun g p => ![![some 5, some 5, some 4], ![none, none, none], ![none, none, none], ![none, none, none]] g p, outs := 0, exited := false } := rfl
@[simp] theorem σ_61 : σ 61 = { entered := true, sends := 40, waits := 60, acc := fun g p => ![![none, some 5, some 5], ![none, none, none], ![none, none, none], ![none, none, none]] g p, outs := 0, exited := false } := rfl
@[simp] theorem σ_62 : σ 62 = { entered := true, sends := 42, waits := 61, acc := fun g p => ![![none, none, none], ![none, none, none], ![none, none, none], ![none, none, none]] g p, outs := 0, exited := false } := rfl
@[simp] theorem σ_63 : σ 63 = { entered := true, sends := 42, waits := 64, acc := fun g p => ![![none, none, none], ![none, none, none], ![none, none, none], ![none, none, none]] g p, outs := 0, exited := false } := rfl
@[simp] theorem σ_64 : σ 64 = { entered := true, sends := 42, waits := 66, acc := fun g p => ![![none, none, none], ![none, none, none], ![none, none, none], ![some 2, some 2, some 2]] g p, outs := 0, exited := false } := rfl
@[simp] theorem σ_65 : σ 65 = { entered := true, sends := 42, waits := 66, acc := fun g p => ![![none, none, none], ![none, none, none], ![none, none, none], ![some 3, some 3, some 3]] g p, outs := 0, exited := false } := rfl
@[simp] theorem σ_66 : σ 66 = { entered := true, sends := 44, waits := 66, acc := fun g p => ![![none, none, none], ![none, none, none], ![none, none, none], ![none, none, some 3]] g p, outs := 0, exited := false } := rfl
@[simp] theorem σ_67 : σ 67 = { entered := true, sends := 45, waits := 68, acc := fun g p => ![![none, none, none], ![none, none, none], ![none, none, none], ![none, none, none]] g p, outs := 0, exited := false } := rfl
@[simp] theorem σ_68 : σ 68 = { entered := true, sends := 45, waits := 71, acc := fun g p => ![![none, none, none], ![none, none, none], ![none, none, none], ![none, none, none]] g p, outs := 0, exited := false } := rfl
@[simp] theorem σ_69 : σ 69 = { entered := true, sends := 45, waits := 72, acc := fun g p => ![![none, none, none], ![none, none, none], ![some 3, some 3, some 3], ![none, none, none]] g p, outs := 0, exited := false } := rfl
@[simp] theorem σ_70 : σ 70 = { entered := true, sends := 45, waits := 72, acc := fun g p => ![![none, none, none], ![none, none, none], ![some 3, some 3, some 3], ![none, none, none]] g p, outs := 0, exited := false } := rfl
@[simp] theorem σ_71 : σ 71 = { entered := true, sends := 46, waits := 72, acc := fun g p => ![![none, none, none], ![none, none, none], ![none, some 4, some 4], ![none, none, none]] g p, outs := 0, exited := false } := rfl
@[simp] theorem σ_72 : σ 72 = { entered := true, sends := 48, waits := 73, acc := fun g p => ![![none, none, none], ![none, none, none], ![none, none, none], ![none, none, none]] g p, outs := 0, exited := false } := rfl
@[simp] theorem σ_73 : σ 73 = { entered := true, sends := 48, waits := 76, acc := fun g p => ![![none, none, none], ![none, none, none], ![none, none, none], ![none, none, none]] g p, outs := 0, exited := false } := rfl
@[simp] theorem σ_74 : σ 74 = { entered := true, sends := 48, waits := 78, acc := fun g p => ![![none, none, none], ![some 4, some 4, some 4], ![none, none, none], ![none, none, none]] g p, outs := 0, exited := false } := rfl
@[simp] theorem σ_75 : σ 75 = { entered := true, sends := 48, waits := 78, acc := fun g p => ![![none, none, none], ![some 5, some 5, some 5], ![none, none, none], ![none, none, none]] g p, outs := 0, exited := false } := rfl
@[simp] theorem σ_76 : σ 76 = { entered := true, sends := 50, waits := 78, acc := fun g p => ![![none, none, none], ![none, none, some 5], ![none, none, none], ![none, none, none]] g p, outs := 0, exited := false } := rfl
@[simp] theorem σ_77 : σ 77 = { entered := true, sends := 51, waits := 80, acc := fun g p => ![![none, none, none], ![none, none, none], ![none, none, none], ![none, none, none]] g p, outs := 0, exited := false } := rfl
@[simp] theorem σ_78 : σ 78 = { entered := true, sends := 51, waits := 83, acc := fun g p => ![![none, none, none], ![none, none, none], ![none, none, none], ![none, none, none]] g p, outs := 0, exited := false } := rfl
@[simp] theorem σ_79 : σ 79 = { entered := true, sends := 51, waits := 84, acc := fun g p => ![![some 6, some 6, some 5], ![none, none, none], ![none, none, none], ![none, none, none]] g p, outs := 0, exited := false } := rfl
@[simp] theorem σ_80 : σ 80 = { entered := true, sends := 52, waits := 84, acc := fun g p => ![![none, some 6, some 6], ![none, none, none], ![none, none, none], ![none, none, none]] g p, outs := 0, exited := false } := rfl
@[simp] theorem σ_81 : σ 81 = { entered := true, sends := 54, waits := 85, acc := fun g p => ![![none, none, none], ![none, none, none], ![none, none, none], ![none, none, none]] g p, outs := 0, exited := false } := rfl
@[simp] theorem σ_82 : σ 82 = { entered := true, sends := 54, waits := 88, acc := fun g p => ![![none, none, none], ![none, none, none], ![none, none, none], ![none, none, none]] g p, outs := 0, exited := false } := rfl
@[simp] theorem σ_83 : σ 83 = { entered := true, sends := 54, waits := 90, acc := fun g p => ![![none, none, none], ![none, none, none], ![none, none, none], ![some 3, some 3, some 3]] g p, outs := 0, exited := false } := rfl
@[simp] theorem σ_84 : σ 84 = { entered := true, sends := 54, waits := 90, acc := fun g p => ![![none, none, none], ![none, none, none], ![none, none, none], ![some 3, some 3, some 3]] g p, outs := 0, exited := false } := rfl
@[simp] theorem σ_85 : σ 85 = { entered := true, sends := 54, waits := 90, acc := fun g p => ![![none, none, none], ![none, none, none], ![none, none, none], ![some 4, some 4, some 4]] g p, outs := 0, exited := false } := rfl
@[simp] theorem σ_86 : σ 86 = { entered := true, sends := 56, waits := 90, acc := fun g p => ![![none, none, none], ![none, none, none], ![none, none, none], ![none, none, some 4]] g p, outs := 0, exited := false } := rfl
@[simp] theorem σ_87 : σ 87 = { entered := true, sends := 57, waits := 92, acc := fun g p => ![![none, none, none], ![none, none, none], ![none, none, none], ![none, none, none]] g p, outs := 0, exited := false } := rfl
@[simp] theorem σ_88 : σ 88 = { entered := true, sends := 57, waits := 95, acc := fun g p => ![![none, none, none], ![none, none, none], ![none, none, none], ![none, none, none]] g p, outs := 0, exited := false } := rfl
@[simp] theorem σ_89 : σ 89 = { entered := true, sends := 57, waits := 96, acc := fun g p => ![![none, none, none], ![none, none, none], ![some 5, some 5, some 4], ![none, none, none]] g p, outs := 0, exited := false } := rfl
@[simp] theorem σ_90 : σ 90 = { entered := true, sends := 58, waits := 96, acc := fun g p => ![![none, none, none], ![none, none, none], ![none, some 5, some 5], ![none, none, none]] g p, outs := 0, exited := false } := rfl
@[simp] theorem σ_91 : σ 91 = { entered := true, sends := 60, waits := 97, acc := fun g p => ![![none, none, none], ![none, none, none], ![none, none, none], ![none, none, none]] g p, outs := 0, exited := false } := rfl
@[simp] theorem σ_92 : σ 92 = { entered := true, sends := 60, waits := 100, acc := fun g p => ![![none, none, none], ![none, none, none], ![none, none, none], ![none, none, none]] g p, outs := 0, exited := false } := rfl
@[simp] theorem σ_93 : σ 93 = { entered := true, sends := 60, waits := 102, acc := fun g p => ![![none, none, none], ![some 6, some 5, some 5], ![none, none, none], ![none, none, none]] g p, outs := 0, exited := false } := rfl
@[simp] theorem σ_94 : σ 94 = { entered := true, sends := 60, waits := 102, acc := fun g p => ![![none, none, none], ![some 6, some 6, some 6], ![none, none, none], ![none, none, none]] g p, outs := 0, exited := false } := rfl
@[simp] theorem σ_95 : σ 95 = { entered := true, sends := 63, waits := 102, acc := fun g p => ![![none, none, none], ![none, none, none], ![none, none, none], ![none, none, none]] g p, outs := 0, exited := false } := rfl
@[simp] theorem σ_96 : σ 96 = { entered := true, sends := 63, waits := 105, acc := fun g p => ![![none, none, none], ![none, none, none], ![none, none, none], ![none, none, none]] g p, outs := 0, exited := false } := rfl
@[simp] theorem σ_97 : σ 97 = { entered := true, sends := 63, waits := 107, acc := fun g p => ![![none, none, none], ![none, none, none], ![none, none, none], ![none, none, none]] g p, outs := 0, exited := false } := rfl
@[simp] theorem σ_98 : σ 98 = { entered := true, sends := 63, waits := 108, acc := fun g p => ![![some 6, some 6, some 6], ![none, none, none], ![none, none, none], ![none, none, none]] g p, outs := 0, exited := false } := rfl
@[simp] theorem σ_99 : σ 99 = { entered := true, sends := 63, waits := 110, acc := fun g p => ![![some 6, some 6, some 6], ![none, none, none], ![none, none, none], ![none, none, none]] g p, outs := 1, exited := false } := rfl
@[simp] theorem σ_100 : σ 100 = { entered := true, sends := 63, waits := 113, acc := fun g p => ![![some 6, some 6, some 6], ![none, none, none], ![none, none, none], ![none, none, none]] g p, outs := 1, exited := false } := rfl
@[simp] theorem σ_101 : σ 101 = { entered := true, sends := 63, waits := 114, acc := fun g p => ![![some 6, some 6, some 6], ![none, none, none], ![none, none, none], ![some 5, some 5, some 4]] g p, outs := 1, exited := false } := rfl
@[simp] theorem σ_102 : σ 102 = { entered := true, sends := 64, waits := 114, acc := fun g p => ![![some 6, some 6, some 6], ![none, none, none], ![none, none, none], ![none, some 5, some 5]] g p, outs := 1, exited := false } := rfl
@[simp] theorem σ_103 : σ 103 = { entered := true, sends := 66, waits := 115, acc := fun g p => ![![some 6, some 6, some 6], ![none, none, none], ![none, none, none], ![none, none, none]] g p, outs := 1, exited := false } := rfl
@[simp] theorem σ_104 : σ 104 = { entered := true, sends := 66, waits := 118, acc := fun g p => ![![some 6, some 6, some 6], ![none, none, none], ![none, none, none], ![none, none, none]] g p, outs := 1, exited := false } := rfl
@[simp] theorem σ_105 : σ 105 = { entered := true, sends := 66, waits := 120, acc := fun g p => ![![some 6, some 6, some 6], ![none, none, none], ![some 6, some 5, some 5], ![none, none, none]] g p, outs := 1, exited := false } := rfl
@[simp] theorem σ_106 : σ 106 = { entered := true, sends := 66, waits := 120, acc := fun g p => ![![some 6, some 6, some 6], ![none, none, none], ![some 6, some 6, some 6], ![none, none, none]] g p, outs := 1, exited := false } := rfl
@[simp] theorem σ_107 : σ 107 = { entered := true, sends := 69, waits := 120, acc := fun g p => ![![some 6, some 6, some 6], ![none, none, none], ![none, none, none], ![none, none, none]] g p, outs := 1, exited := false } := rfl
@[simp] theorem σ_108 : σ 108 = { entered := true, sends := 69, waits := 123, acc := fun g p => ![![some 6, some 6, some 6], ![none, none, none], ![none, none, none], ![none, none, none]] g p, outs := 1, exited := false } := rfl
@[simp] theorem σ_109 : σ 109 = { entered := true, sends := 69, waits := 126, acc := fun g p => ![![some 6, some 6, some 6], ![some 6, some 6, some 6], ![none, none, none], ![none, none, none]] g p, outs := 1, exited := false } := rfl
@[simp] theorem σ_110 : σ 110 = { entered := true, sends := 69, waits := 126, acc := fun g p => ![![some 6, some 6, some 6], ![some 6, some 6, some 6], ![none, none, none], ![none, none, none]] g p, outs := 2, exited := false } := rfl
@[simp] theorem σ_111 : σ 111 = { entered := true, sends := 69, waits := 129, acc := fun g p => ![![some 6, some 6, some 6], ![some 6, some 6, some 6], ![none, none, none], ![none, none, none]] g p, outs := 2, exited := false } := rfl
@[simp] theorem σ_112 : σ 112 = { entered := true, sends := 69, waits := 132, acc := fun g p => ![![some 6, some 6, some 6], ![some 6, some 6, some 6], ![none, none, none], ![some 5, some 5, some 5]] g p, outs := 2, exited := false } := rfl
@[simp] theorem σ_113 : σ 113 = { entered := true, sends := 69, waits := 132, acc := fun g p => ![![some 6, some 6, some 6], ![some 6, some 6, some 6], ![none, none, none], ![some 6, some 6, some 5]] g p, outs := 2, exited := false } := rfl
@[simp] theorem σ_114 : σ 114 = { entered := true, sends := 71, waits := 132, acc := fun g p => ![![some 6, some 6, some 6], ![some 6, some 6, some 6], ![none, none, none], ![none, none, some 6]] g p, outs := 2, exited := false } := rfl
@[simp] theorem σ_115 : σ 115 = { entered := true, sends := 72, waits := 133, acc := fun g p => ![![some 6, some 6, some 6], ![some 6, some 6, some 6], ![none, none, none], ![none, none, none]] g p, outs := 2, exited := false } := rfl
@[simp] theorem σ_116 : σ 116 = { entered := true, sends := 72, waits := 136, acc := fun g p => ![![some 6, some 6, some 6], ![some 6, some 6, some 6], ![none, none, none], ![none, none, none]] g p, outs := 2, exited := false } := rfl
@[simp] theorem σ_117 : σ 117 = { entered := true, sends := 72, waits := 138, acc := fun g p => ![![some 6, some 6, some 6], ![some 6, some 6, some 6], ![some 6, some 6, some 6], ![none, none, none]] g p, outs := 2, exited := false } := rfl
@[simp] theorem σ_118 : σ 118 = { entered := true, sends := 72, waits := 139, acc := fun g p => ![![some 6, some 6, some 6], ![some 6, some 6, some 6], ![some 6, some 6, some 6], ![none, none, none]] g p, outs := 3, exited := false } := rfl
@[simp] theorem σ_119 : σ 119 = { entered := true, sends := 72, waits := 142, acc := fun g p => ![![some 6, some 6, some 6], ![some 6, some 6, some 6], ![some 6, some 6, some 6], ![none, none, none]] g p, outs := 3, exited := false } := rfl
@[simp] theorem σ_120 : σ 120 = { entered := true, sends := 72, waits := 144, acc := fun g p => ![![some 6, some 6, some 6], ![some 6, some 6, some 6], ![some 6, some 6, some 6], ![some 6, some 6, some 6]] g p, outs := 3, exited := false } := rfl
@[simp] theorem σ_121 : σ 121 = { entered := true, sends := 39, waits := 60, acc := fun g p => ![![some 5, some 5, some 4], ![none, none, none], ![none, none, none], ![none, none, none]] g p, outs := 0, exited := false } := rfl
@[simp] theorem σ_122 : σ 122 = { entered := true, sends := 72, waits := 144, acc := fun g p => ![![some 6, some 6, some 6], ![some 6, some 6, some 6], ![some 6, some 6, some 6], ![some 6, some 6, some 6]] g p, outs := 3, exited := false } := rfl
@[simp] theorem σ_123 : σ 123 = { entered := true, sends := 72, waits := 144, acc := fun g p => ![![some 6, some 6, some 6], ![some 6, some 6, some 6], ![some 6, some 6, some 6], ![some 6, some 6, some 6]] g p, outs := 4, exited := true } := rfl

end Cert.KernelIdeal.Body
-- ==== Proof.BodyGlue.lean ====
import proofs.«900775_g7700000000000776_dist_diff_dit_htp_i_b2_s512_d768_hq4_v7x_i8_f32_1_alg».proof.Proof.LaunchK

/-! # From one run of the body to the pipeline's body obligation

The pipeline hands the body, at the one grid point, the invariant before the point, what the device owes, and the ten
staging buffers: the nine input buffers just fetched (each holds its window's block of the array as launched) and the
output buffer at some contents. It takes back the invariant after the point, the device owing nothing, the input
buffers as they were and the output buffer at the named result. `bodyPre` and `bodyPost` say exactly that with every
buffer a plain points-to; `body_obligation` turns a run of the body between them into the library's obligation. -/

noncomputable section

namespace Cert.KernelIdeal.BodyGlue

open Cert.KernelIdeal Cert.KernelIdeal.Gen Cert.KernelIdeal.LaunchK

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Buffer `b` of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Window `w`'s block of its array as launched, typed as the contents of a buffer of the block's shape. -/
abbrev in0 (c : Dev nD) : (cc0_stg0_0 : Ref sig .tc).ty.Contents (Elt F) := iblk m c 0 t0_0
abbrev in1 (c : Dev nD) : (cc0_stg1_0 : Ref sig .tc).ty.Contents (Elt F) := iblk m c 1 t0_0
abbrev in2 (c : Dev nD) : (cc0_stg2_0 : Ref sig .tc).ty.Contents (Elt F) := iblk m c 2 t0_0
abbrev in3 (c : Dev nD) : (cc0_stg3_0 : Ref sig .tc).ty.Contents (Elt F) := iblk m c 3 t0_0
abbrev in4 (c : Dev nD) : (cc0_stg4_0 : Ref sig .tc).ty.Contents (Elt F) := iblk m c 4 t0_0
abbrev in5 (c : Dev nD) : (cc0_stg5_0 : Ref sig .tc).ty.Contents (Elt F) := iblk m c 5 t0_0
abbrev in6 (c : Dev nD) : (cc0_stg6_0 : Ref sig .tc).ty.Contents (Elt F) := iblk m c 6 t0_0
abbrev in7 (c : Dev nD) : (cc0_stg7_0 : Ref sig .tc).ty.Contents (Elt F) := iblk m c 7 t0_0
abbrev in8 (c : Dev nD) : (cc0_stg8_0 : Ref sig .tc).ty.Contents (Elt F) := iblk m c 8 t0_0

/-- The nine input staging buffers, each holding its window's block of the array as launched. -/
def inputs (c : Dev nD) : sProp 𝕄 :=
  iprop((((c : Thread nD τ).loc cc0_stg0_0) ↦{fullShare} in0 m c)
    ∗ (((c : Thread nD τ).loc cc0_stg1_0) ↦{fullShare} in1 m c)
    ∗ (((c : Thread nD τ).loc cc0_stg2_0) ↦{fullShare} in2 m c)
    ∗ (((c : Thread nD τ).loc cc0_stg3_0) ↦{fullShare} in3 m c)
    ∗ (((c : Thread nD τ).loc cc0_stg4_0) ↦{fullShare} in4 m c)
    ∗ (((c : Thread nD τ).loc cc0_stg5_0) ↦{fullShare} in5 m c)
    ∗ (((c : Thread nD τ).loc cc0_stg6_0) ↦{fullShare} in6 m c)
    ∗ (((c : Thread nD τ).loc cc0_stg7_0) ↦{fullShare} in7 m c)
    ∗ (((c : Thread nD τ).loc cc0_stg8_0) ↦{fullShare} in8 m c))

/-- What the body runs from: what the protocol starts from, the two scratch buffers, what the device owes at launch
    (its recorded waits whatever they are), the input buffers, the output buffer at some contents. -/
def bodyPre (start : Dev nD → sProp 𝕄) (O₀ : Dev nD → CellTallies nD τ sig Unit) (c : Dev nD) : sProp 𝕄 :=
  iprop(start c ∗ scr c ∗ (∃ W : Finset (SemLoc sig × Unit), owes (c : Thread nD τ) (O₀ c) W) ∗ inputs m c
    ∗ ∃ f : Buf (Elt F) ((c : Thread nD τ).loc cc0_stg9_0), ((c : Thread nD τ).loc cc0_stg9_0) ↦{fullShare} f)

/-- What it ends at: the scratch buffers, the own cells closed, nothing owed, the input buffers, the output buffer at `outC c`. -/
def bodyPost (outC : (c : Dev nD) → (cc0_stg9_0 : Ref sig .tc).ty.Contents (Elt F)) (c : Dev nD) : sProp 𝕄 :=
  iprop(scr c ∗ ownZero c ∗ (∃ W : Finset (SemLoc sig × Unit), owes (c : Thread nD τ) 0 W) ∗ inputs m c
    ∗ (((c : Thread nD τ).loc cc0_stg9_0) ↦{fullShare} outC c))

section Wrap

/-- The obligation's own precondition at the point, the windows listed. -/
def rawPre (start : Dev nD → sProp 𝕄) (O₀ : Dev nD → CellTallies nD τ sig Unit)
    (outC : (c : Dev nD) → (cc0_stg9_0 : Ref sig .tc).ty.Contents (Elt F)) (c : Dev nD) : sProp 𝕄 :=
  iprop((dats m start O₀ outC 0 c).Φ t0_0.castSucc ∗ (dats m start O₀ outC 0 c).owesAt () t0_0.castSucc
    ∗ (∃ d, stg c cc0_stg0_0 ((dats m start O₀ outC 0 c).before (0 : Fin 10) t0_0 d))
    ∗ (∃ d, stg c cc0_stg1_0 ((dats m start O₀ outC 0 c).before (1 : Fin 10) t0_0 d))
    ∗ (∃ d, stg c cc0_stg2_0 ((dats m start O₀ outC 0 c).before (2 : Fin 10) t0_0 d))
    ∗ (∃ d, stg c cc0_stg3_0 ((dats m start O₀ outC 0 c).before (3 : Fin 10) t0_0 d))
    ∗ (∃ d, stg c cc0_stg4_0 ((dats m start O₀ outC 0 c).before (4 : Fin 10) t0_0 d))
    ∗ (∃ d, stg c cc0_stg5_0 ((dats m start O₀ outC 0 c).before (5 : Fin 10) t0_0 d))
    ∗ (∃ d, stg c cc0_stg6_0 ((dats m start O₀ outC 0 c).before (6 : Fin 10) t0_0 d))
    ∗ (∃ d, stg c cc0_stg7_0 ((dats m start O₀ outC 0 c).before (7 : Fin 10) t0_0 d))
    ∗ (∃ d, stg c cc0_stg8_0 ((dats m start O₀ outC 0 c).before (8 : Fin 10) t0_0 d))
    ∗ (∃ d, stg c cc0_stg9_0 ((dats m start O₀ outC 0 c).before (9 : Fin 10) t0_0 d)))

/-- Its postcondition. -/
def rawPost (start : Dev nD → sProp 𝕄) (O₀ : Dev nD → CellTallies nD τ sig Unit)
    (outC : (c : Dev nD) → (cc0_stg9_0 : Ref sig .tc).ty.Contents (Elt F)) (c : Dev nD) : sProp 𝕄 :=
  iprop((dats m start O₀ outC 0 c).Φ t0_0.succ ∗ (dats m start O₀ outC 0 c).owesAt () t0_0.succ
    ∗ stg c cc0_stg0_0 ((dats m start O₀ outC 0 c).after (0 : Fin 10) t0_0)
    ∗ stg c cc0_stg1_0 ((dats m start O₀ outC 0 c).after (1 : Fin 10) t0_0)
    ∗ stg c cc0_stg2_0 ((dats m start O₀ outC 0 c).after (2 : Fin 10) t0_0)
    ∗ stg c cc0_stg3_0 ((dats m start O₀ outC 0 c).after (3 : Fin 10) t0_0)
    ∗ stg c cc0_stg4_0 ((dats m start O₀ outC 0 c).after (4 : Fin 10) t0_0)
    ∗ stg c cc0_stg5_0 ((dats m start O₀ outC 0 c).after (5 : Fin 10) t0_0)
    ∗ stg c cc0_stg6_0 ((dats m start O₀ outC 0 c).after (6 : Fin 10) t0_0)
    ∗ stg c cc0_stg7_0 ((dats m start O₀ outC 0 c).after (7 : Fin 10) t0_0)
    ∗ stg c cc0_stg8_0 ((dats m start O₀ outC 0 c).after (8 : Fin 10) t0_0)
    ∗ stg c cc0_stg9_0 ((dats m start O₀ outC 0 c).after (9 : Fin 10) t0_0))

theorem before_0 (start : Dev nD → sProp 𝕄) (O₀ : Dev nD → CellTallies nD τ sig Unit)
    (outC : (c : Dev nD) → (cc0_stg9_0 : Ref sig .tc).ty.Contents (Elt F)) (c : Dev nD) (d : (cfg0.win (0 : Fin 10)).block.Idx → Elt F (cfg0.win (0 : Fin 10)).elt) : (dats m start O₀ outC 0 c).before (0 : Fin 10) t0_0 d = in0 m c := by
  unfold Dat.before; rw [if_pos (fetch0_0 t0_0)]; rfl
theorem before_1 (start : Dev nD → sProp 𝕄) (O₀ : Dev nD → CellTallies nD τ sig Unit)
    (outC : (c : Dev nD) → (cc0_stg9_0 : Ref sig .tc).ty.Contents (Elt F)) (c : Dev nD) (d : (cfg0.win (1 : Fin 10)).block.Idx → Elt F (cfg0.win (1 : Fin 10)).elt) : (dats m start O₀ outC 0 c).before (1 : Fin 10) t0_0 d = in1 m c := by
  unfold Dat.before; rw [if_pos (fetch0_1 t0_0)]; rfl
theorem before_2 (start : Dev nD → sProp 𝕄) (O₀ : Dev nD → CellTallies nD τ sig Unit)
    (outC : (c : Dev nD) → (cc0_stg9_0 : Ref sig .tc).ty.Contents (Elt F)) (c : Dev nD) (d : (cfg0.win (2 : Fin 10)).block.Idx → Elt F (cfg0.win (2 : Fin 10)).elt) : (dats m start O₀ outC 0 c).before (2 : Fin 10) t0_0 d = in2 m c := by
  unfold Dat.before; rw [if_pos (fetch0_2 t0_0)]; rfl
theorem before_3 (start : Dev nD → sProp 𝕄) (O₀ : Dev nD → CellTallies nD τ sig Unit)
    (outC : (c : Dev nD) → (cc0_stg9_0 : Ref sig .tc).ty.Contents (Elt F)) (c : Dev nD) (d : (cfg0.win (3 : Fin 10)).block.Idx → Elt F (cfg0.win (3 : Fin 10)).elt) : (dats m start O₀ outC 0 c).before (3 : Fin 10) t0_0 d = in3 m c := by
  unfold Dat.before; rw [if_pos (fetch0_3 t0_0)]; rfl
theorem before_4 (start : Dev nD → sProp 𝕄) (O₀ : Dev nD → CellTallies nD τ sig Unit)
    (outC : (c : Dev nD) → (cc0_stg9_0 : Ref sig .tc).ty.Contents (Elt F)) (c : Dev nD) (d : (cfg0.win (4 : Fin 10)).block.Idx → Elt F (cfg0.win (4 : Fin 10)).elt) : (dats m start O₀ outC 0 c).before (4 : Fin 10) t0_0 d = in4 m c := by
  unfold Dat.before; rw [if_pos (fetch0_4 t0_0)]; rfl
theorem before_5 (start : Dev nD → sProp 𝕄) (O₀ : Dev nD → CellTallies nD τ sig Unit)
    (outC : (c : Dev nD) → (cc0_stg9_0 : Ref sig .tc).ty.Contents (Elt F)) (c : Dev nD) (d : (cfg0.win (5 : Fin 10)).block.Idx → Elt F (cfg0.win (5 : Fin 10)).elt) : (dats m start O₀ outC 0 c).before (5 : Fin 10) t0_0 d = in5 m c := by
  unfold Dat.before; rw [if_pos (fetch0_5 t0_0)]; rfl
theorem before_6 (start : Dev nD → sProp 𝕄) (O₀ : Dev nD → CellTallies nD τ sig Unit)
    (outC : (c : Dev nD) → (cc0_stg9_0 : Ref sig .tc).ty.Contents (Elt F)) (c : Dev nD) (d : (cfg0.win (6 : Fin 10)).block.Idx → Elt F (cfg0.win (6 : Fin 10)).elt) : (dats m start O₀ outC 0 c).before (6 : Fin 10) t0_0 d = in6 m c := by
  unfold Dat.before; rw [if_pos (fetch0_6 t0_0)]; rfl
theorem before_7 (start : Dev nD → sProp 𝕄) (O₀ : Dev nD → CellTallies nD τ sig Unit)
    (outC : (c : Dev nD) → (cc0_stg9_0 : Ref sig .tc).ty.Contents (Elt F)) (c : Dev nD) (d : (cfg0.win (7 : Fin 10)).block.Idx → Elt F (cfg0.win (7 : Fin 10)).elt) : (dats m start O₀ outC 0 c).before (7 : Fin 10) t0_0 d = in7 m c := by
  unfold Dat.before; rw [if_pos (fetch0_7 t0_0)]; rfl
theorem before_8 (start : Dev nD → sProp 𝕄) (O₀ : Dev nD → CellTallies nD τ sig Unit)
    (outC : (c : Dev nD) → (cc0_stg9_0 : Ref sig .tc).ty.Contents (Elt F)) (c : Dev nD) (d : (cfg0.win (8 : Fin 10)).block.Idx → Elt F (cfg0.win (8 : Fin 10)).elt) : (dats m start O₀ outC 0 c).before (8 : Fin 10) t0_0 d = in8 m c := by
  unfold Dat.before; rw [if_pos (fetch0_8 t0_0)]; rfl

theorem phi_pre (start : Dev nD → sProp 𝕄) (O₀ : Dev nD → CellTallies nD τ sig Unit)
    (outC : (c : Dev nD) → (cc0_stg9_0 : Ref sig .tc).ty.Contents (Elt F)) (c : Dev nD) : (dats m start O₀ outC 0 c).Φ t0_0.castSucc = Φ₀ start c := rfl
theorem phi_post (start : Dev nD → sProp 𝕄) (O₀ : Dev nD → CellTallies nD τ sig Unit)
    (outC : (c : Dev nD) → (cc0_stg9_0 : Ref sig .tc).ty.Contents (Elt F)) (c : Dev nD) : (dats m start O₀ outC 0 c).Φ t0_0.succ = Φ₁ c := rfl
theorem after_0 (start : Dev nD → sProp 𝕄) (O₀ : Dev nD → CellTallies nD τ sig Unit)
    (outC : (c : Dev nD) → (cc0_stg9_0 : Ref sig .tc).ty.Contents (Elt F)) (c : Dev nD) : (dats m start O₀ outC 0 c).after (0 : Fin 10) t0_0 = in0 m c := rfl
theorem after_1 (start : Dev nD → sProp 𝕄) (O₀ : Dev nD → CellTallies nD τ sig Unit)
    (outC : (c : Dev nD) → (cc0_stg9_0 : Ref sig .tc).ty.Contents (Elt F)) (c : Dev nD) : (dats m start O₀ outC 0 c).after (1 : Fin 10) t0_0 = in1 m c := rfl
theorem after_2 (start : Dev nD → sProp 𝕄) (O₀ : Dev nD → CellTallies nD τ sig Unit)
    (outC : (c : Dev nD) → (cc0_stg9_0 : Ref sig .tc).ty.Contents (Elt F)) (c : Dev nD) : (dats m start O₀ outC 0 c).after (2 : Fin 10) t0_0 = in2 m c := rfl
theorem after_3 (start : Dev nD → sProp 𝕄) (O₀ : Dev nD → CellTallies nD τ sig Unit)
    (outC : (c : Dev nD) → (cc0_stg9_0 : Ref sig .tc).ty.Contents (Elt F)) (c : Dev nD) : (dats m start O₀ outC 0 c).after (3 : Fin 10) t0_0 = in3 m c := rfl
theorem after_4 (start : Dev nD → sProp 𝕄) (O₀ : Dev nD → CellTallies nD τ sig Unit)
    (outC : (c : Dev nD) → (cc0_stg9_0 : Ref sig .tc).ty.Contents (Elt F)) (c : Dev nD) : (dats m start O₀ outC 0 c).after (4 : Fin 10) t0_0 = in4 m c := rfl
theorem after_5 (start : Dev nD → sProp 𝕄) (O₀ : Dev nD → CellTallies nD τ sig Unit)
    (outC : (c : Dev nD) → (cc0_stg9_0 : Ref sig .tc).ty.Contents (Elt F)) (c : Dev nD) : (dats m start O₀ outC 0 c).after (5 : Fin 10) t0_0 = in5 m c := rfl
theorem after_6 (start : Dev nD → sProp 𝕄) (O₀ : Dev nD → CellTallies nD τ sig Unit)
    (outC : (c : Dev nD) → (cc0_stg9_0 : Ref sig .tc).ty.Contents (Elt F)) (c : Dev nD) : (dats m start O₀ outC 0 c).after (6 : Fin 10) t0_0 = in6 m c := rfl
theorem after_7 (start : Dev nD → sProp 𝕄) (O₀ : Dev nD → CellTallies nD τ sig Unit)
    (outC : (c : Dev nD) → (cc0_stg9_0 : Ref sig .tc).ty.Contents (Elt F)) (c : Dev nD) : (dats m start O₀ outC 0 c).after (7 : Fin 10) t0_0 = in7 m c := rfl
theorem after_8 (start : Dev nD → sProp 𝕄) (O₀ : Dev nD → CellTallies nD τ sig Unit)
    (outC : (c : Dev nD) → (cc0_stg9_0 : Ref sig .tc).ty.Contents (Elt F)) (c : Dev nD) : (dats m start O₀ outC 0 c).after (8 : Fin 10) t0_0 = in8 m c := rfl
theorem after_9 (start : Dev nD → sProp 𝕄) (O₀ : Dev nD → CellTallies nD τ sig Unit)
    (outC : (c : Dev nD) → (cc0_stg9_0 : Ref sig .tc).ty.Contents (Elt F)) (c : Dev nD) : (dats m start O₀ outC 0 c).after (9 : Fin 10) t0_0 = outC c := rfl

theorem rawPre_elim (start : Dev nD → sProp 𝕄) (O₀ : Dev nD → CellTallies nD τ sig Unit)
    (outC : (c : Dev nD) → (cc0_stg9_0 : Ref sig .tc).ty.Contents (Elt F)) (c : Dev nD) : rawPre m start O₀ outC c ⊢ bodyPre m start O₀ c := by
  unfold rawPre bodyPre inputs Dat.owesAt Pipeline.owesWithin
  rw [phi_pre]; unfold Φ₀
  iintro ⟨⟨Hs, Hscr⟩, ⟨%W, -, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, -, H9⟩⟩
  have e0 : g0 = in0 m c := hg0.trans (before_0 m start O₀ outC c d0)
  have e1 : g1 = in1 m c := hg1.trans (before_1 m start O₀ outC c d1)
  have e2 : g2 = in2 m c := hg2.trans (before_2 m start O₀ outC c d2)
  have e3 : g3 = in3 m c := hg3.trans (before_3 m start O₀ outC c d3)
  have e4 : g4 = in4 m c := hg4.trans (before_4 m start O₀ outC c d4)
  have e5 : g5 = in5 m c := hg5.trans (before_5 m start O₀ outC c d5)
  have e6 : g6 = in6 m c := hg6.trans (before_6 m start O₀ outC c d6)
  have e7 : g7 = in7 m c := hg7.trans (before_7 m start O₀ outC c d7)
  have e8 : g8 = in8 m c := hg8.trans (before_8 m start O₀ outC c d8)
  subst e0 e1 e2 e3 e4 e5 e6 e7 e8
  isplitl [Hs]; · iexact Hs
  isplitl [Hscr]; · iexact Hscr
  isplitl [HO]; · iexists W; iexact HO
  isplitr [H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iexists g9; iexact H9

theorem rawPost_intro (start : Dev nD → sProp 𝕄) (O₀ : Dev nD → CellTallies nD τ sig Unit)
    (outC : (c : Dev nD) → (cc0_stg9_0 : Ref sig .tc).ty.Contents (Elt F)) (c : Dev nD) : bodyPost m outC c ⊢ rawPost m start O₀ outC c := by
  unfold rawPost bodyPost inputs Dat.owesAt Pipeline.owesWithin
  rw [phi_post, after_0, after_1, after_2, after_3, after_4, after_5, after_6, after_7, after_8, after_9]; unfold Φ₁
  iintro ⟨Hscr, Hz, ⟨%W, HO⟩, ⟨H0, H1, H2, H3, H4, H5, H6, H7, H8⟩, H9⟩
  isplitl [Hscr Hz]; · isplitl [Hscr] <;> iassumption
  isplitl [HO]
  · iexists W
    isplitr; · ipureintro; exact fun _ _ => Or.inl trivial
    rw [show (dats m start O₀ outC 0 c).owed t0_0.succ = 0 from rfl]; iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  isplitl [H7]
  · iexists _; isplitr; · (ipureintro; rfl)
    iexact H7
  isplitl [H8]
  · iexists _; isplitr; · (ipureintro; rfl)
    iexact H8
  iexists _; isplitr; · (ipureintro; rfl)
  iexact H9

/-- The label table's row at the point is the kernel function's call there. -/
theorem prog_eq : (defs₀ (F := F)) .tc cfg0.body (cfg0.bodyArgs t0_0 (cfg0.slots t0_0)) = bodyAt0 (F := F) t0_0 := by
  simp only [defs₀, Defs.onTc_tc]

set_option maxRecDepth 16000 in
/-- The library's body obligation on device `c`, from one run of the body. -/
theorem body_obligation (start : Dev nD → sProp 𝕄) (O₀ : Dev nD → CellTallies nD τ sig Unit)
    (outC : (c : Dev nD) → (cc0_stg9_0 : Ref sig .tc).ty.Contents (Elt F)) (c : Dev nD)
    (sound_body : bodyPre m start O₀ c ⊢ wp frame (wpE (defs₀ (F := F)) 𝒱₀ (c : Thread nD τ) none) Set.univ (bodyAt0 t0_0) (fun _ => bodyPost m outC c)) :
    BodyObligation (dats m start O₀ outC 0 c) (defs₀ (F := F)) 𝒱₀ () Set.univ := fun t => by
  rw [fin_N0 t]
  rw [bigSep_W0, bigSep_W0]
  simp only [owns_whole_eq]
  rw [prog_eq]
  change rawPre m start O₀ outC c ⊢ _
  generalize bodyAt0 (F := F) t0_0 = prog at sound_body ⊢
  exact (rawPre_elim m start O₀ outC c).trans (sound_body.trans (wp_mono _ _ _ fun _ => rawPost_intro m start O₀ outC c))

/-- The same from a run stated with a continuation: from `bodyPre` and a way on from `bodyPost`, the body reaches it. -/
theorem body_obligation_k (start : Dev nD → sProp 𝕄) (O₀ : Dev nD → CellTallies nD τ sig Unit)
    (outC : (c : Dev nD) → (cc0_stg9_0 : Ref sig .tc).ty.Contents (Elt F)) (c : Dev nD)
    (sound_body : ∀ Kt : PUnit → sProp 𝕄, iprop(bodyPre m start O₀ c ∗ (bodyPost m outC c -∗ Kt ⟨⟩))
      ⊢ wp frame (wpE (defs₀ (F := F)) 𝒱₀ (c : Thread nD τ) none) Set.univ (bodyAt0 t0_0) Kt) :
    BodyObligation (dats m start O₀ outC 0 c) (defs₀ (F := F)) 𝒱₀ () Set.univ :=
  body_obligation m start O₀ outC c (by
    have h := sound_body (fun _ => bodyPost m outC c)
    generalize bodyAt0 (F := F) t0_0 = prog at h ⊢
    refine BI.Entails.trans (show bodyPre m start O₀ c ⊢ iprop(bodyPre m start O₀ c ∗ (bodyPost m outC c -∗ bodyPost m outC c)) from ?_) h
    iintro H
    isplitl [H]; · iexact H
    iintro H; iexact H)

end Wrap

/-- info: 'Cert.KernelIdeal.BodyGlue.body_obligation' depends on axioms: [propext, Classical.choice, Quot.sound] -/
#guard_msgs in #print axioms body_obligation

end Cert.KernelIdeal.BodyGlue

end
-- ==== Proof.BodyState.lean ====
/-
The state of one device between two stretches of the body.

A device's body is cut into stretches; what holds between two of them is ONE assertion `St`, a function of how far the
device has come: whether it has passed the entry handshake, how many copies it has started, how many single waits it has
passed, what each accumulator tile holds or whether it is away, and whether it has passed the exit handshake. Every
other component is read off those counters by position: the duty tokens of the payments to come, what is still owed, the
credit tokens of the waits to come, the receive slices of the partners still to be written, the cells waited, being
waited (a round taken in three waits is held as some set of its duties taken, with their payloads) and to be waited, the
credits of copies started and not yet waited, and the device's own receive slices that have come back.
-/
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Add
import proofs.«900775_g7700000000000776_dist_diff_dit_htp_i_b2_s512_d768_hq4_v7x_i8_f32_1_alg».proof.Proof.BodyTable
import proofs.«900775_g7700000000000776_dist_diff_dit_htp_i_b2_s512_d768_hq4_v7x_i8_f32_1_alg».proof.Proof.BodyGlue
import Idealize.ShloMosaic.Lib.Tactic

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

local notation "𝕄" => MT nD τ sig Unit (Elt F) ℕ UU ℕ

/-! ## The contents the schedule is read at -/

variable (I : Dev nD → Ins F)

/-- The round of row `rg`. -/
abbrev rOfRg (rg : Fin 8) : Fin 2 := ⟨rg.val / 4, by have := rg.isLt; omega⟩
abbrev gOfRg (rg : Fin 8) : Fin 4 := ⟨rg.val % 4, Nat.mod_lt _ (by decide)⟩
/-- The accumulator of `c` when step `(rg, s)` starts, as far as slice `(g, p)` goes: the level's value there. -/
def accCI (c : Dev nD) (rg : Fin 8) (p s : Fin 3) : Proto.AccBuf F := accEmb (gOfRg rg) p (A I (rOfRg rg) c (gOfRg rg) p s)
/-- Some contents of the receive buffer. -/
def rs0I (c : Dev nD) : Proto.RsBuf F := rsEmb 0 0 0 (R I 0 c 0 0 0)
/-- The schedule at these contents. -/
abbrev RdI : Rounds.Schedule (GSem nD τ sig) (Fin 3) 𝕄 := Proto.Rd (accCI I) (rs0I I)

/-! ## Tiles -/

/-- Tile `[g, p]` of `c`'s accumulator holding `v`; holding something. -/
abbrev accTile (c : Dev nD) (g : Fin 4) (p : Fin 3) (v : Acc F) : sProp 𝕄 := accPts c g p (accEmb g p v)
abbrev accTileAny (c : Dev nD) (g : Fin 4) (p : Fin 3) : sProp 𝕄 := iprop(∃ f, accPts (F := F) c g p f)
/-- Tile `[rg, p, s]` of `c`'s receive buffer holding `v`; holding something. -/
abbrev rsTile (c : Dev nD) (rg : Fin 8) (p s : Fin 3) (v : Rs F) : sProp 𝕄 := rsPts c rg p s (rsEmb rg p s v)
abbrev rsTileAny (c : Dev nD) (rg : Fin 8) (p s : Fin 3) : sProp 𝕄 := iprop(∃ f, rsPts (F := F) c rg p s f)

/-- The value of tile `[g, p]` after `v + 1` stores into it: three levels a round. -/
def accLevel (c : Dev nD) (g : Fin 4) (p : Fin 3) (v : ℕ) : Acc F :=
  A I ⟨(v / 3) % 2, Nat.mod_lt _ (by decide)⟩ c g p ⟨v % 3, Nat.mod_lt _ (by decide)⟩
/-- An accumulator tile as the position records it: away, held at unknown contents, held at its level. -/
def accHeld (c : Dev nD) (g : Fin 4) (p : Fin 3) : Option ℕ → sProp 𝕄
  | none => iprop(emp)
  | some 0 => accTileAny c g p
  | some (v + 1) => accTile c g p (accLevel I c g p v)
/-- The twelve tiles in one list. -/
def accIx : List (Fin 4 × Fin 3) := (List.finRange 4).flatMap fun g => (List.finRange 3).map fun p => (g, p)

/-! ## Positions -/

/-- Payments made. -/
def paid (s : Pos) : ℕ := (if s.entered then 3 else 0) + s.sends + (if s.exited then 3 else 0)
/-- Wait groups completed; the place within the current one. -/
abbrev grp (s : Pos) : ℕ := s.waits / 6
abbrev plc (s : Pos) : ℕ := s.waits % 6
/-- The step started `i`-th, for any `i`. -/
def fireN (i : ℕ) : Fin 24 := fireK ⟨i % 24, Nat.mod_lt _ (by decide)⟩

/-! ### Duty tokens -/

/-- The duties a device pays, in payment order: the entry signals; each copy's departure and arrival; the exit signals. -/
def payList : List (Cell × Fin 3) :=
  [(Cell.bar, 0), (Cell.bar, 1), (Cell.bar, 2)]
    ++ ((List.finRange 24).flatMap fun i => (List.finRange 3).flatMap fun p => [(Cell.send (fireK i), p), (Cell.recv (fireK i), p)])
    ++ [(Cell.exit, 0), (Cell.exit, 1), (Cell.exit, 2)]
/-- The token of one of them, held by the device `c` that pays it. -/
abbrev tokOf (c : Dev nD) (kd : Cell × Fin 3) : sProp 𝕄 := dutyTok ER (kcell (owner kd.1 kd.2 c, kd.1)) 0 kd.2
/-- Where the tokens of payment `n` on begin in that list. -/
def tokIdx (n : ℕ) : ℕ := if n ≤ 3 then n else if n ≤ 75 then 3 + 2 * (n - 3) else 147 + (n - 75)
/-- The tokens of the payments number `n` on. -/
def toksFrom (c : Dev nD) (n : ℕ) : sProp 𝕄 := bigSepL (payList.drop (tokIdx n)) (tokOf c)

/-! ### Credits -/

/-- The credit tokens consumed: none before the entry wait; then the three entry tokens and one per receive wait. -/
def credIdx (s : Pos) : ℕ := if s.entered then (if s.exited then 78 else 3 + 3 * grp s + plc s / 2) else 0
/-- The copies in starting order. -/
def copyList : List (Fin 24 × Fin 3) := (List.finRange 24).flatMap fun i => (List.finRange 3).map fun p => (i, p)
/-- Send waits passed: three a completed group, and of the current group's six waits the first, third and fifth. -/
def sendWaitsDone (s : Pos) : ℕ := 3 * grp s + (plc s + 1) / 2
/-- The departure credits of the copies started and not yet waited: one a copy, those numbered from the send waits passed
    up to the copies started. -/
def sendCreds (s : Pos) (c : Dev nD) : sProp 𝕄 :=
  bigSepL ((copyList.take s.sends).drop (sendWaitsDone s)) fun ip => cred (tallyAt (sendCell c (fireK ip.1)) () N)

/-! ### Cells -/

/-- The cells in the order a device first waits on them. -/
def waitList : List Cell := Cell.bar :: ((List.finRange 24).flatMap fun i => [Cell.send (fireK i), Cell.recv (fireK i)]) ++ [Cell.exit]
def todoFrom (c : Dev nD) (j : ℕ) : sProp 𝕄 := bigSepL (waitList.drop j) fun k => atPos ER (kcell (c, k)) 0 ∅ 0
def doneTo (c : Dev nD) (j : ℕ) : sProp 𝕄 := bigSepL (waitList.take j) fun k => atPos ER (kcell (c, k)) 1 ∅ 0
/-- A cell of three duties of amount `N` after `φ` of its three waits: some set of its duties taken, with their payloads. -/
def curCell (g : GSem nD τ sig) (P : Fin 3 → sProp 𝕄) : ℕ → sProp 𝕄
  | 0 => atPos ER g 0 ∅ 0
  | 1 => iprop(∃ S : Finset (Fin 3), atPos ER g 0 S N ∗ bigSep S P)
  | 2 => iprop(∃ S : Finset (Fin 3), atPos ER g 0 S (N + N) ∗ bigSep S P)
  | _ => atPos ER g 1 ∅ 0
/-- The cells: those waited, the two of the group being waited (when inside one), those to be waited. Once the send cell's
    third wait has passed (the fifth of the group's six) its three payloads, the source tiles come back, are held here until the
    group's last wait. -/
def cells (s : Pos) (c : Dev nD) : sProp 𝕄 :=
  if s.entered then
    if s.exited then doneTo c 50
    else if plc s = 0 then iprop(doneTo c (1 + 2 * grp s) ∗ todoFrom c (1 + 2 * grp s))
    else iprop(doneTo c (1 + 2 * grp s)
      ∗ curCell (sendCell c (fireN (grp s))) (fun p => (RdI I).payload (sendCell c (fireN (grp s))) 0 p) ((plc s + 1) / 2)
      ∗ (if plc s = 5 then iprop((RdI I).payload (sendCell c (fireN (grp s))) 0 0 ∗ (RdI I).payload (sendCell c (fireN (grp s))) 0 1
            ∗ (RdI I).payload (sendCell c (fireN (grp s))) 0 2) else iprop(emp))
      ∗ curCell (recvCell c (fireN (grp s))) (fun p => (RdI I).payload (recvCell c (fireN (grp s))) 0 p) (plc s / 2)
      ∗ todoFrom c (1 + 2 * grp s + 2))
  else todoFrom c 0

/-! ### Receive slices -/

/-- The partners' receive slices `c` has been handed and has not yet written: those of the copies number `m` on. -/
def foreignFrom (c : Dev nD) (m : ℕ) : sProp 𝕄 :=
  bigSepL (copyList.drop m) fun ip => rsTileAny (mate c ip.2 (fireK ip.1)) (rgOf (fireK ip.1)) ip.2 (sOf (fireK ip.1))
/-- `c`'s own receive slices as its entry signals hand them out: the payloads of the three duties it pays. -/
def ownOut (c : Dev nD) : sProp 𝕄 :=
  iprop(barPay (peer 0 c) 0 ∗ barPay (peer 1 c) 1 ∗ barPay (peer 2 c) 2)
/-- The three slices step `k` lands in `c`'s receive buffer, at what they hold. -/
def rs3 (c : Dev nD) (k : Fin 24) : sProp 𝕄 :=
  iprop(rsTile c (rgOf k) 0 (sOf k) (R I (rOfRg (rgOf k)) c (gOf k) 0 (sOf k))
    ∗ rsTile c (rgOf k) 1 (sOf k) (R I (rOfRg (rgOf k)) c (gOf k) 1 (sOf k))
    ∗ rsTile c (rgOf k) 2 (sOf k) (R I (rOfRg (rgOf k)) c (gOf k) 2 (sOf k)))
/-- `c`'s own receive slices that have come back: those of the first `t` wait groups. -/
def rsBack (c : Dev nD) (t : ℕ) : sProp 𝕄 := bigSep (Finset.univ.filter fun k : Fin 24 => (posK k).val < t) fun k => rs3 I c k

/-! ## The state -/

/-- What device `c` holds of the protocol and of its two scratch buffers at position `s`, the cells' invariants at names `K`. -/
def St (K : Dev nD × Cell → ℕ) (s : Pos) (c : Dev nD) : sProp 𝕄 :=
  iprop(records (RdI I) K ∗ levAts Proto.L Proto.lv
    ∗ (∃ W, owes (c : Thread nD τ) (owedFrom c (paid s)) W)
    ∗ toksFrom c (paid s)
    ∗ credFrom c (credIdx s)
    ∗ sendCreds s c
    ∗ cells I s c
    ∗ (if s.entered then iprop(foreignFrom c s.sends ∗ rsBack I c (grp s)) else ownOut c)
    ∗ bigSepL accIx fun gp => accHeld I c gp.1 gp.2 (s.acc gp.1 gp.2))

end Cert.KernelIdeal.Body

/-! ## The argument blocks and the output block -/

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Mesh Cert.KernelIdeal.LaunchK Cert.KernelIdeal.Vals

variable {F : FTy → Type} [FloatOps F]

local notation "𝕄" => MT nD τ sig Unit (Elt F) ℕ UU ℕ

/-- The nine argument blocks of every device, as the launch's memory holds them. -/
def insM (m : (ℓ : Loc nD τ sig) → Buf (Elt F) ℓ) : Dev nD → Ins F := fun c =>
  ⟨BodyGlue.in0 m c, BodyGlue.in1 m c, BodyGlue.in2 m c, BodyGlue.in3 m c, BodyGlue.in4 m c, BodyGlue.in5 m c,
    BodyGlue.in6 m c, BodyGlue.in7 m c, BodyGlue.in8 m c⟩

/-- The row block of the output an index lies in: block `g` is batch row `g / 2`, rows `256 (g % 2)` on. -/
def outBlockOf (j : S2x512x768.Idx) : ℕ := 2 * (j 0).val + (j 1).val / 256
/-- The output block held whole, its first `n` row blocks holding the result. -/
def outHeld (I : Dev nD → Ins F) (c : Dev nD) (n : ℕ) : sProp 𝕄 :=
  iprop(∃ f : (cc0_stg9_0 : Ref sig .tc).ty.Contents (Elt F),
    ⌜∀ j : S2x512x768.Idx, outBlockOf j < n → f j = outC I c j⌝ ∗ (((c : Thread nD τ).loc cc0_stg9_0) ↦{fullShare} f))

theorem outHeld_zero (I : Dev nD → Ins F) (c : Dev nD) :
    iprop(∃ f : (cc0_stg9_0 : Ref sig .tc).ty.Contents (Elt F), (((c : Thread nD τ).loc cc0_stg9_0) ↦{fullShare} f : sProp 𝕄))
      ⊢ outHeld I c 0 := by
  unfold outHeld
  iintro ⟨%f, H⟩
  iexists f
  isplitr
  · ipureintro; intro j h; exact absurd h (Nat.not_lt_zero _)
  · iexact H
theorem outHeld_four (I : Dev nD → Ins F) (c : Dev nD) :
    outHeld I c 4 ⊢ ((((c : Thread nD τ).loc cc0_stg9_0) ↦{fullShare} outC I c) : sProp 𝕄) := by
  unfold outHeld
  iintro ⟨%f, %hf, H⟩
  have e : f = outC I c := funext fun j => hf j (by
    unfold outBlockOf; have h0 := (j 0).isLt; have h1 := (j 1).isLt
    have h0' : (j 0).val < 2 := h0
    have h1' : (j 1).val < 512 := h1
    omega)
  rw [e] at *
  iexact H

end Cert.KernelIdeal.Body

/-- info: 'Cert.KernelIdeal.Body.St' depends on axioms: [propext, Classical.choice, Quot.sound] -/
#guard_msgs in #print axioms Cert.KernelIdeal.Body.St
-- ==== Proof.BodyStateLemmas.lean ====
/-
Reading the state between two stretches of the body at a position: each family of `St` taken apart at the place a
stretch touches it, the three waits that take one round, and what the payloads are as tiles.
-/
import proofs.«900775_g7700000000000776_dist_diff_dit_htp_i_b2_s512_d768_hq4_v7x_i8_f32_1_alg».proof.Proof.BodyState

noncomputable section

/-! ## Reading the families at a position -/

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

local notation "𝕄" => MT nD τ sig Unit (Elt F) ℕ UU ℕ

/-- A chain over the concatenation of two lists is the two chains. -/
theorem bigSepL_append {α : Type} (l l' : List α) (Φ : α → sProp 𝕄) :
    bigSepL (l ++ l') Φ = iprop(bigSepL l Φ ∗ bigSepL l' Φ) := by
  induction l with
  | nil => exact (equiv_iff.mp emp_sep).symm
  | cons a l ih =>
    rw [List.cons_append, bigSepL_cons, bigSepL_cons, ih]
    exact (Std.Associative.assoc (op := (BI.sep : sProp 𝕄 → _ → _)) _ _ _).symm

theorem fireN_eq : ∀ i : Fin 24, fireN i.val = fireK i := by decide

/-! ### Duty tokens -/

theorem payList_drop_entry : payList.drop 0 = (Cell.bar, 0) :: (Cell.bar, 1) :: (Cell.bar, 2) :: payList.drop 3 := by decide
theorem payList_drop_copy : ∀ (i : Fin 24) (p : Fin 3), payList.drop (3 + 2 * (3 * i.val + p.val))
    = (Cell.send (fireK i), p) :: (Cell.recv (fireK i), p) :: payList.drop (3 + 2 * (3 * i.val + p.val) + 2) := by decide
theorem payList_drop_exit : payList.drop 147 = [(Cell.exit, 0), (Cell.exit, 1), (Cell.exit, 2)] := by decide
theorem payList_univ : (Finset.univ : Finset (Cell × Fin 3)) = payList.toFinset := by decide
theorem payList_nodup : payList.Nodup := by decide

/-- The tokens a device is dealt are those of all its payments. -/
theorem payToks_eq (c : Dev nD) : (payToks owner c : sProp 𝕄) = toksFrom c 0 := by
  unfold payToks toksFrom
  rw [bigSep_univ_eq_bigSepL payList payList_univ payList_nodup]
  rfl
/-- The three entry signals' tokens. -/
theorem toksFrom_entry (c : Dev nD) : (toksFrom c 0 : sProp 𝕄)
    = iprop(dutyTok ER (barCell (peer 0 c)) 0 0 ∗ dutyTok ER (barCell (peer 1 c)) 0 1 ∗ dutyTok ER (barCell (peer 2 c)) 0 2 ∗ toksFrom c 3) := by
  unfold toksFrom
  rw [show tokIdx 0 = 0 from rfl, show tokIdx 3 = 3 from rfl, payList_drop_entry, bigSepL_cons, bigSepL_cons, bigSepL_cons]
  rfl
/-- The two tokens of copy number `3 * i + p`: the departure from `c`'s send cell, the arrival at its mate's receive cell. -/
theorem toksFrom_copy (c : Dev nD) (i : Fin 24) (p : Fin 3) : (toksFrom c (3 + 3 * i.val + p.val) : sProp 𝕄)
    = iprop(dutyTok ER (sendCell c (fireK i)) 0 p ∗ dutyTok ER (recvCell (mate c p (fireK i)) (fireK i)) 0 p ∗ toksFrom c (3 + 3 * i.val + p.val + 1)) := by
  have hi := i.isLt; have hp := p.isLt
  have h1 : tokIdx (3 + 3 * i.val + p.val) = 3 + 2 * (3 * i.val + p.val) := by unfold tokIdx; split <;> (try split) <;> omega
  have h2 : tokIdx (3 + 3 * i.val + p.val + 1) = 3 + 2 * (3 * i.val + p.val) + 2 := by unfold tokIdx; split <;> (try split) <;> omega
  unfold toksFrom
  rw [h1, h2, payList_drop_copy, bigSepL_cons, bigSepL_cons]
  rfl
/-- The three exit signals' tokens. -/
theorem toksFrom_exit (c : Dev nD) : (toksFrom c 75 : sProp 𝕄)
    = iprop(dutyTok ER (exitCell (peer 0 c)) 0 0 ∗ dutyTok ER (exitCell (peer 1 c)) 0 1 ∗ dutyTok ER (exitCell (peer 2 c)) 0 2) := by
  unfold toksFrom
  rw [show tokIdx 75 = 147 from rfl, payList_drop_exit]
  rfl
theorem toksFrom_done (c : Dev nD) : (toksFrom c 78 : sProp 𝕄) = iprop(emp) := by
  unfold toksFrom
  rw [show tokIdx 78 = 150 from rfl, show payList.drop 150 = [] from by decide]
  rfl

/-! ### Cells -/

theorem waitList_univ : (Finset.univ : Finset Cell) = waitList.toFinset := by decide
theorem waitList_nodup : waitList.Nodup := by decide
theorem waitList_drop_bar : waitList.drop 0 = Cell.bar :: waitList.drop 1 := by decide
theorem waitList_drop_group : ∀ t : Fin 24, waitList.drop (1 + 2 * t.val)
    = Cell.send (fireK t) :: Cell.recv (fireK t) :: waitList.drop (1 + 2 * t.val + 2) := by decide
theorem waitList_take_group : ∀ t : Fin 24, waitList.take (1 + 2 * t.val + 2)
    = waitList.take (1 + 2 * t.val) ++ [Cell.send (fireK t), Cell.recv (fireK t)] := by decide
theorem waitList_drop_exit : waitList.drop 49 = [Cell.exit] := by decide
theorem waitList_take_exit : waitList.take 50 = waitList.take 49 ++ [Cell.exit] := by decide

/-- The positions a device is dealt: every cell to be waited. -/
theorem positions_eq (c : Dev nD) : (positions c : sProp 𝕄) = todoFrom c 0 := by
  unfold positions todoFrom
  rw [bigSep_univ_eq_bigSepL waitList waitList_univ waitList_nodup]
  rfl
theorem todo_bar (c : Dev nD) : (todoFrom c 0 : sProp 𝕄) = iprop(atPos ER (barCell c) 0 ∅ 0 ∗ todoFrom c 1) := by
  unfold todoFrom; rw [waitList_drop_bar, bigSepL_cons]; rfl
theorem done_bar (c : Dev nD) : (doneTo c 1 : sProp 𝕄) = atPos ER (barCell c) 1 ∅ 0 := rfl
/-- The two cells of the wait group number `t`. -/
theorem todo_group (c : Dev nD) (t : Fin 24) : (todoFrom c (1 + 2 * t.val) : sProp 𝕄)
    = iprop(atPos ER (sendCell c (fireK t)) 0 ∅ 0 ∗ atPos ER (recvCell c (fireK t)) 0 ∅ 0 ∗ todoFrom c (1 + 2 * t.val + 2)) := by
  unfold todoFrom; rw [waitList_drop_group, bigSepL_cons, bigSepL_cons]; rfl
theorem done_group (c : Dev nD) (t : Fin 24) :
    iprop(doneTo c (1 + 2 * t.val) ∗ atPos ER (sendCell c (fireK t)) 1 ∅ 0 ∗ atPos ER (recvCell c (fireK t)) 1 ∅ 0)
      = (doneTo c (1 + 2 * t.val + 2) : sProp 𝕄) := by
  unfold doneTo; rw [waitList_take_group, bigSepL_append]; rfl
theorem todo_exit (c : Dev nD) : (todoFrom c 49 : sProp 𝕄) = atPos ER (exitCell c) 0 ∅ 0 := by
  unfold todoFrom; rw [waitList_drop_exit]; rfl
theorem done_exit (c : Dev nD) : iprop(doneTo c 49 ∗ atPos ER (exitCell c) 1 ∅ 0) = (doneTo c 50 : sProp 𝕄) := by
  unfold doneTo; rw [waitList_take_exit, bigSepL_append]; rfl

/-! ### A round taken in three waits -/

/-- After the first wait, whatever set of duties it took. -/
theorem cur_step1 (g : GSem nD τ sig) (P : Fin 3 → sProp 𝕄) (S : Finset (Fin 3)) :
    iprop(atPos ER g 0 S (0 + N) ∗ bigSep (S \ ∅) P) ⊢ curCell g P 1 := by
  rw [Finset.sdiff_empty, Nat.zero_add]
  show _ ⊢ iprop(∃ S : Finset (Fin 3), atPos ER g 0 S N ∗ bigSep S P)
  iintro H; iexists S; iexact H
/-- After the second: what the two took together. -/
theorem cur_step2 (g : GSem nD τ sig) (P : Fin 3 → sProp 𝕄) {S S' : Finset (Fin 3)} (h : S ⊆ S') :
    iprop(atPos ER g 0 S' (N + N) ∗ bigSep S P ∗ bigSep (S' \ S) P) ⊢ curCell g P 2 := by
  have e : iprop(bigSep S P ∗ bigSep (S' \ S) P) = bigSep S' P := (bigSep_sdiff_split h (Φ := P)).symm
  show iprop(atPos ER g 0 S' (N + N) ∗ bigSep S P ∗ bigSep (S' \ S) P) ⊢ iprop(∃ S : Finset (Fin 3), atPos ER g 0 S (N + N) ∗ bigSep S P)
  rw [e]
  iintro H; iexists S'; iexact H
/-- With the rest: the three payloads. -/
theorem cur_step3 (P : Fin 3 → sProp 𝕄) (S : Finset (Fin 3)) :
    iprop(bigSep S P ∗ bigSep (Finset.univ \ S) P) = iprop(P 0 ∗ P 1 ∗ P 2) := by
  exact (bigSep_sdiff_split (Finset.subset_univ S) (Φ := P)).symm.trans (bigSep_fin3 P)

/-! ### What the payloads are, as tiles -/

variable (I : Dev nD → Ins F)

/-- The departure of part `p` of step `k` hands back the source tile at the level it was sent at. -/
theorem payload_send_tile (c : Dev nD) (k : Fin 24) (p : Fin 3) :
    (RdI I).payload (sendCell c k) 0 p = accTile c (gOf k) p (A I (rOfRg (rgOf k)) c (gOf k) p (sOf k)) :=
  payload_send_def (accCI I) (rs0I I) c k p
/-- Its arrival hands over the receive tile holding the partner's tile of that level. -/
theorem payload_recv_tile (c : Dev nD) (k : Fin 24) (p : Fin 3) :
    (RdI I).payload (recvCell c k) 0 p = rsTile c (rgOf k) p (sOf k) (R I (rOfRg (rgOf k)) c (gOf k) p (sOf k)) := by
  rw [payload_recv_def]
  unfold recvPay rsPts landed
  refine rsTile_of_read (F := F) c fullShare (rgOf k) p (sOf k) ?_
  refine (rsV_read_landing (gOf k) p (rgOf k) p (sOf k) _ _ shapeCasts_acc_rs).trans ?_
  unfold accCI
  rw [accV_read_accEmb]
  rfl
/-- The three payloads of a send cell, of a receive cell. -/
theorem payloads_send (c : Dev nD) (k : Fin 24) :
    iprop((RdI I).payload (sendCell c k) 0 0 ∗ (RdI I).payload (sendCell c k) 0 1 ∗ (RdI I).payload (sendCell c k) 0 2)
      = iprop(accTile c (gOf k) 0 (A I (rOfRg (rgOf k)) c (gOf k) 0 (sOf k)) ∗ accTile c (gOf k) 1 (A I (rOfRg (rgOf k)) c (gOf k) 1 (sOf k))
          ∗ accTile c (gOf k) 2 (A I (rOfRg (rgOf k)) c (gOf k) 2 (sOf k))) := by
  rw [payload_send_tile, payload_send_tile, payload_send_tile]
theorem payloads_recv (c : Dev nD) (k : Fin 24) :
    iprop((RdI I).payload (recvCell c k) 0 0 ∗ (RdI I).payload (recvCell c k) 0 1 ∗ (RdI I).payload (recvCell c k) 0 2) = rs3 I c k := by
  rw [payload_recv_tile, payload_recv_tile, payload_recv_tile]; rfl

/-! ### Receive slices -/

theorem copyList_univ : (Finset.univ : Finset (Fin 24 × Fin 3)) = copyList.toFinset := by decide
theorem copyList_nodup : copyList.Nodup := by decide
theorem copyList_drop : ∀ (i : Fin 24) (p : Fin 3), copyList.drop (3 * i.val + p.val) = (i, p) :: copyList.drop (3 * i.val + p.val + 1) := by decide
/-- The slice copy number `3 * i + p` writes. -/
theorem foreignFrom_succ (c : Dev nD) (i : Fin 24) (p : Fin 3) : (foreignFrom c (3 * i.val + p.val) : sProp 𝕄)
    = iprop(rsTileAny (mate c p (fireK i)) (rgOf (fireK i)) p (sOf (fireK i)) ∗ foreignFrom c (3 * i.val + p.val + 1)) := by
  unfold foreignFrom; rw [copyList_drop, bigSepL_cons]; rfl
theorem foreignFrom_done (c : Dev nD) : (foreignFrom c 72 : sProp 𝕄) = iprop(emp) := by
  unfold foreignFrom; rw [show copyList.drop 72 = [] from by decide]; rfl

/-- Copies and (mask, step) pairs. -/
def copyEquiv : Fin 24 × Fin 3 ≃ Fin 3 × Fin 24 where
  toFun ip := (axisOf ip.2 (sOf (fireK ip.1)), fireK ip.1)
  invFun jk := (posK jk.2, partOf jk.1 jk.2)
  left_inv := by decide
  right_inv := by decide
/-- What the entry wait hands over is the slices of all the copies to come. -/
theorem barPays_eq (c : Dev nD) : iprop(barPay (F := F) c 0 ∗ barPay c 1 ∗ barPay c 2) = foreignFrom c 0 := by
  rw [← bigSep_fin3 (fun j => barPay (F := F) c j)]
  unfold barPay foreignFrom
  rw [List.drop_zero]
  rw [← bigSep_univ_prod (fun jk : Fin 3 × Fin 24 => iprop(∃ f, rsPts (F := F) (peer jk.1 c) (rgOf jk.2) (partOf jk.1 jk.2) (sOf jk.2) f)),
    bigSep_univ_equiv copyEquiv, ← bigSep_univ_eq_bigSepL copyList copyList_univ copyList_nodup]
  refine bigSep_congr fun ip _ => ?_
  show iprop(∃ f, rsPts (F := F) (peer (axisOf ip.2 (sOf (fireK ip.1))) c) (rgOf (fireK ip.1)) (partOf (axisOf ip.2 (sOf (fireK ip.1))) (fireK ip.1)) (sOf (fireK ip.1)) f) = _
  exact congrArg (fun p' => rsTileAny (F := F) (mate c ip.2 (fireK ip.1)) (rgOf (fireK ip.1)) p' (sOf (fireK ip.1))) (partOf_axisOf ip.2 (fireK ip.1))

/-- The same from the one product over the three duties, as an entry wait for the whole round leaves it. -/
theorem barPays_eq' (c : Dev nD) : (bigSep (Finset.univ : Finset (Fin 3)) fun j => barPay (F := F) c j) = foreignFrom c 0 := by
  rw [bigSep_fin3 (fun j => barPay (F := F) c j)]; exact barPays_eq c

theorem back_insert : ∀ t : Fin 24, (Finset.univ.filter fun k : Fin 24 => (posK k).val < t.val + 1)
    = insert (fireK t) (Finset.univ.filter fun k : Fin 24 => (posK k).val < t.val) := by decide
theorem back_notMem : ∀ t : Fin 24, fireK t ∉ Finset.univ.filter fun k : Fin 24 => (posK k).val < t.val := by decide
/-- The own receive slices come back a wait group at a time. -/
theorem rsBack_succ (c : Dev nD) (t : Fin 24) : (rsBack I c (t.val + 1) : sProp 𝕄) = iprop(rs3 I c (fireK t) ∗ rsBack I c t.val) := by
  unfold rsBack; rw [back_insert, bigSep_insert (back_notMem t)]; rfl
theorem rsBack_zero (c : Dev nD) : (rsBack I c 0 : sProp 𝕄) = iprop(emp) := by
  unfold rsBack; rw [show (Finset.univ.filter fun k : Fin 24 => (posK k).val < 0) = ∅ from by decide]; rfl
/-- One of them, looked up. -/
theorem rsBack_at (c : Dev nD) (t : ℕ) (k : Fin 24) (h : (posK k).val < t) : (rsBack I c t : sProp 𝕄)
    = iprop(rs3 I c k ∗ bigSep ((Finset.univ.filter fun k : Fin 24 => (posK k).val < t).erase k) fun k => rs3 I c k) :=
  bigSep_erase (s := Finset.univ.filter fun k : Fin 24 => (posK k).val < t) (i := k) (Finset.mem_filter.mpr ⟨Finset.mem_univ k, h⟩)

/-! ### Departure credits -/

/-- The window of copies numbered `w` up to `m`. -/
theorem sendCreds_def (s : Pos) (c : Dev nD) : (sendCreds s c : sProp 𝕄)
    = bigSepL ((copyList.take s.sends).drop (sendWaitsDone s)) fun ip => cred (tallyAt (sendCell c (fireK ip.1)) () N) := rfl
/-- A copy started adds its credit at the end. -/
theorem sendWin_copy : ∀ (i : Fin 24) (p : Fin 3) (w : Fin 73), w.val ≤ 3 * i.val + p.val →
    (copyList.take (3 * i.val + p.val + 1)).drop w.val = (copyList.take (3 * i.val + p.val)).drop w.val ++ [(i, p)] := by decide
/-- A send wait takes the first. -/
theorem sendWin_wait : ∀ (m : Fin 73) (i : Fin 24) (p : Fin 3), 3 * i.val + p.val < m.val →
    (copyList.take m.val).drop (3 * i.val + p.val) = (i, p) :: (copyList.take m.val).drop (3 * i.val + p.val + 1) := by decide

/-! ## Entering

What the launch hands a device's body is the state before its first stretch: the dealt tokens and positions are the
families read from their first place; the accumulator whole is its twelve tiles; the receive buffer whole is, mask by
mask, what the three entry signals hand out. -/

theorem acc_all_zero : ∀ (g : Fin 4) (p : Fin 3), (σ 0).acc g p = some 0 := by decide
theorem accIx_univ : (Finset.univ : Finset (Fin 4 × Fin 3)) = accIx.toFinset := by decide
theorem accIx_nodup : accIx.Nodup := by decide

theorem sendCreds_zero (c : Dev nD) : (sendCreds (σ 0) c : sProp 𝕄) = iprop(emp) := rfl

/-- Each of the device's receive tiles is written by one neighbour at one step. -/
def ownEquiv : Fin 3 × Fin 24 ≃ Fin 8 × Fin 3 × Fin 3 where
  toFun jk := (rgOf jk.2, partOf jk.1 jk.2, sOf jk.2)
  invFun t := (axisOf t.2.1 t.2.2, kOf t.1 t.2.2)
  left_inv := by decide
  right_inv := by decide

theorem ownOut_part (c : Dev nD) (j : Fin 3) (f : Proto.RsBuf F) :
    (bigSep (Finset.univ : Finset (Fin 24)) fun k =>
        ((rsSq (rgOf k) (partOf j k) (sOf k)).view.loc (c : Thread nD τ) ↦[(rsSq (rgOf k) (partOf j k) (sOf k)).view.set]{fullShare} f : sProp 𝕄))
      ⊢ barPay (peer j c) j := by
  unfold barPay
  rw [peer_peer]
  exact bigSep_mono fun k _ => by
    show _ ⊢ iprop(∃ f, rsPts (F := F) c (rgOf k) (partOf j k) (sOf k) f)
    unfold rsPts
    iintro H; iexists f; iexact H

/-- The receive buffer whole, as the three entry signals hand it out. -/
theorem ownOut_of_whole (c : Dev nD) (f : Proto.RsBuf F) :
    (Body.rsM.view.loc (c : Thread nD τ) ↦{fullShare} f : sProp 𝕄) ⊢ ownOut c := by
  rw [rs_split_sq c fullShare f, bigSep_univ_equiv ownEquiv, bigSep_univ_prod, bigSep_fin3]
  unfold ownOut
  exact BI.sep_mono (ownOut_part c 0 f) (BI.sep_mono (ownOut_part c 1 f) (ownOut_part c 2 f))

/-- The accumulator whole, as its twelve tiles at contents not yet known. -/
theorem accs_of_whole (I : Dev nD → Ins F) (c : Dev nD) (f : Proto.AccBuf F) :
    (Body.accM.view.loc (c : Thread nD τ) ↦{fullShare} f : sProp 𝕄)
      ⊢ bigSepL accIx fun gp => accHeld I c gp.1 gp.2 ((σ 0).acc gp.1 gp.2) := by
  rw [acc_split_sq c fullShare f, ← bigSep_univ_eq_bigSepL accIx accIx_univ accIx_nodup]
  exact bigSep_mono fun t _ => by
    rw [acc_all_zero t.1 t.2]
    show _ ⊢ iprop(∃ f, accPts (F := F) c t.1 t.2 f)
    unfold accPts
    iintro H; iexists f; iexact H

/-- The state before the first stretch, written out. -/
theorem St_zero (I : Dev nD → Ins F) (K : Dev nD × Cell → ℕ) (c : Dev nD) : St I K (σ 0) c
    = iprop(records (RdI I) K ∗ levAts Proto.L Proto.lv ∗ (∃ W, owes (c : Thread nD τ) (owedFrom c 0) W) ∗ toksFrom c 0 ∗ credFrom c 0
        ∗ sendCreds (σ 0) c ∗ todoFrom c 0 ∗ ownOut c ∗ bigSepL accIx fun gp => accHeld I c gp.1 gp.2 ((σ 0).acc gp.1 gp.2)) := rfl

theorem enter (m : (ℓ : Loc nD τ sig) → Buf (Elt F) ℓ) (c : Dev nD) :
    BodyGlue.bodyPre m (iface (accCI (insM m)) (rs0I (insM m))).start (iface (accCI (insM m)) (rs0I (insM m))).O₀ c
      ⊢ iprop(∃ K, St (insM m) K (σ 0) c ∗ outHeld (insM m) c 0 ∗ BodyGlue.inputs m c) := by
  unfold BodyGlue.bodyPre
  show iprop(Proto.start (accCI (insM m)) (rs0I (insM m)) c ∗ scr c ∗ (∃ W, owes (c : Thread nD τ) (O₀ c) W) ∗ BodyGlue.inputs m c ∗ ∃ f, _) ⊢ _
  unfold Proto.start dealt scr
  iintro ⟨⟨⟨%K, #HR, Hpos, Htok⟩, #Hlev, Hcred⟩, ⟨⟨%fa, Ha⟩, ⟨%fr, Hr⟩⟩, HO, Hin, Hout⟩
  iexists K
  rw [St_zero, sendCreds_zero, ← payToks_eq, ← positions_eq]
  isplitl [Ha Hr Hpos Htok Hcred HO]
  · isplitr; · iexact HR
    isplitr; · iexact Hlev
    isplitl [HO]; · iexact HO
    isplitl [Htok]; · iexact Htok
    isplitl [Hcred]; · iexact Hcred
    isplitr; · iempintro
    isplitl [Hpos]; · iexact Hpos
    isplitl [Hr]
    · iapply (ownOut_of_whole c fr) $$ Hr
    · iapply (accs_of_whole (insM m) c fa) $$ Ha
  · isplitl [Hout]
    · iapply (outHeld_zero (insM m) c) $$ Hout
    · iexact Hin

/-- info: 'Cert.KernelIdeal.Body.enter' depends on axioms: [propext, Classical.choice, Quot.sound] -/
#guard_msgs in #print axioms Cert.KernelIdeal.Body.enter

end Cert.KernelIdeal.Body
-- ==== Proof.Body1.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Gen.KernelIdeal.Skeleton
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

attribute [local sl_canon] dev1_eq dev2_eq dev3_eq

variable (accC : Dev nD → Fin 8 → Fin 3 → Fin 3 → Proto.AccBuf F) (rs0 : Dev nD → Proto.RsBuf F)

/-! ## The entry: the receive buffer dealt to the three neighbours -/

/-- The receive tile that the neighbour along mask `j` writes at step `k`. -/
def tileOf (x : Fin 3 × Fin 24) : Fin 8 × Fin 3 × Fin 3 := (rgOf x.2, partOf x.1 x.2, sOf x.2)

/-- Every receive tile is written by exactly one neighbour at exactly one step. -/
def tileEquiv : Fin 3 × Fin 24 ≃ Fin 8 × Fin 3 × Fin 3 where
  toFun := tileOf
  invFun t := (axisOf t.2.1 t.2.2, kOf t.1 t.2.2)
  left_inv := by intro x; revert x; decide
  right_inv := by intro t; revert t; decide

/-- The receive buffer whole is, for each mask, the 24 tiles the neighbour along it writes. -/
theorem rs_by_axis (c : Dev nD) (f : Proto.RsBuf F) :
    (Proto.rsM.view.loc (c : Thread nD τ) ↦{fullShare} f : sProp 𝕄)
      = bigSep (Finset.univ : Finset (Fin 3)) fun j => bigSep (Finset.univ : Finset (Fin 24)) fun k =>
          ((rsSl (rgOf k) (partOf j k) (sOf k)).view.loc (c : Thread nD τ)
            ↦[(rsSl (rgOf k) (partOf j k) (sOf k)).view.set]{fullShare} f : sProp 𝕄) := by
  refine (rs_split_sq c fullShare f).trans ((bigSep_univ_equiv tileEquiv _).trans ?_)
  rw [bigSep_univ_prod]
  rfl

/-- A receive tile at a contents is that tile at some contents. -/
theorem tile_ex (c : Dev nD) (rg : Fin 8) (p s : Fin 3) (f : Proto.RsBuf F) :
    ((rsSl rg p s).view.loc (c : Thread nD τ) ↦[(rsSl rg p s).view.set]{fullShare} f : sProp 𝕄)
      ⊢ iprop(∃ f : Buf (Elt F) ((rsSl rg p s).view.loc (c : Thread nD τ)),
          ((rsSl rg p s).view.loc (c : Thread nD τ) ↦[(rsSl rg p s).view.set]{fullShare} f : sProp 𝕄)) := by
  iintro H
  iexists f
  iexact H

/-- The 24 tiles along mask `j`, at any contents, are what the entry signal to that neighbour hands over. -/
theorem entry_pay (c : Dev nD) (j : Fin 3) (f : Proto.RsBuf F) :
    (bigSep (Finset.univ : Finset (Fin 24)) fun k =>
        ((rsSl (rgOf k) (partOf j k) (sOf k)).view.loc (c : Thread nD τ)
          ↦[(rsSl (rgOf k) (partOf j k) (sOf k)).view.set]{fullShare} f : sProp 𝕄))
      ⊢ (Rd accC rs0).payload (barCell (peer j c)) 0 j := by
  rw [payload_bar_def]
  unfold barPay rsPts
  rw [peer_peer]
  exact bigSep_mono fun k _ => tile_ex c (rgOf k) (partOf j k) (sOf k) f

/-- The entry signal to the neighbour along mask `j`: duty `j` of that neighbour's entry cell. -/
theorem wp_signal_bar (c : Dev nD) (j : Fin 3) {α : Type} {Q : α → sProp 𝕄}
    {k : PUnit → Prog (TpuEff nD τ sig (Elt F) Λ₀ (c : Thread nD τ).2) α} {κ : ℕ}
    {O₁ : CellTallies nD τ sig Unit} (O : CellTallies nD τ sig Unit) (hO : O₁ = O + tallyAt (barCell (peer j c)) () 1)
    {W : Waits sig Unit} :
    iprop(cellInv ER (Rd accC rs0) κ (barCell (peer j c)) ∗ owes (c : Thread nD τ) O₁ W ∗ dutyTok ER (barCell (peer j c)) 0 j
        ∗ (Rd accC rs0).payload (barCell (peer j c)) 0 j ∗ reached ER (barCell (peer j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((peer j c : Dev nD) : Thread nD τ) barS 1) k) Q) :=
  Rounds.wp_signal (defs := defs₀ (F := F)) 𝒱₀ ER (Rd accC rs0) (c : Thread nD τ) none (r := 0) (d := j)
    (by show j ∈ (Rd accC rs0).duties (barCell (peer j c)) 0; rw [duties_bar]; exact Finset.mem_univ _)
    (amount_bar accC rs0 (peer j c) j) () O hO

end Cert.KernelIdeal.Body

end
-- ==== Proof.BodyTuples.lean ====
import proofs.«900775_g7700000000000776_dist_diff_dit_htp_i_b2_s512_d768_hq4_v7x_i8_f32_1_alg».proof.Proof.Vals.Live

/-! For every part of the body, the tuple of values it returns, each under its name in the table of the values that live across
    the parts' boundaries; the docstring lists, in the order of the part's parameters, the values it is called with. -/

noncomputable section

namespace Cert.KernelIdeal.Body

open Idealize.ShloMosaic Cert.KernelIdeal Cert.KernelIdeal.Gen

variable {F : FTy → Type} [FloatOps F]

/-- Part 1. Called with: no live value. -/
def ret1 (I : Dev nD → Vals.Ins F) (c : Dev nD) : Σ' (d0 : Dev nD) (v2 : BitVec 32) (v14 : FVec F S2x512x768 .f32) (v20 : FVec F S2x768 .f32) (v21 : FVec F S2x768 .f32) (v22 : FVec F S2x768 .f32) (v23 : FVec F S2x768 .f32) (v24 : FVec F S2x768 .f32) (v25 : FVec F S2x768 .f32), FVec F S768x384 .bf16 := ⟨c, Vals.lw2 c, Vals.lv14 I c, Vals.lv20 I c, Vals.lv21 I c, Vals.lv22 I c, Vals.lv23 I c, Vals.lv24 I c, Vals.lv25 I c, Vals.lv28 I c⟩
/-- Part 2. Called with: v14 := Vals.lv14 I c, v20 := Vals.lv20 I c. -/
def ret2 (I : Dev nD → Vals.Ins F) (c : Dev nD) : Σ' (v31 : FVec F S768x384 .bf16) (v34 : FVec F S768x384 .bf16) (v37 : FVec F S384x768 .bf16) (v40 : FVec F S768x384 .bf16) (v43 : FVec F S384x768 .bf16), FVec F S512x768 .f32 := ⟨Vals.lv31 I c, Vals.lv34 I c, Vals.lv37 I c, Vals.lv40 I c, Vals.lv43 I c, Vals.lv72 I c⟩
/-- Part 3. Called with: v21 := Vals.lv21 I c, v28 := Vals.lv28 I c, v31 := Vals.lv31 I c, v34 := Vals.lv34 I c, v72 := Vals.lv72 I c. -/
def ret3 (I : Dev nD → Vals.Ins F) (c : Dev nD) : Σ' (v77 : FVec F S512x768 .f32) (v80 : FVec F S512x384 .bf16) (v83 : FVec F S512x384 .bf16) (v89 : FVec F S256x384 .bf16) (v101 : FVec F S256x96 .f32) (v113 : FVec F S256x96 .f32) (v116 : FVec F S512x96 .bf16) (v119 : FVec F S256x512 .f32), FVec F S256 .f32 := ⟨Vals.lv77 I c, Vals.lv80 I c, Vals.lv83 I c, Vals.lv89 I c, Vals.lv101 I c, Vals.lv113 I c, Vals.lv116 I c, Vals.lv119 I c, Vals.lv120 I c⟩
/-- Part 4. Called with: v2 := Vals.lw2 c, v37 := Vals.lv37 I c, v80 := Vals.lv80 I c, v83 := Vals.lv83 I c, v89 := Vals.lv89 I c, v101 := Vals.lv101 I c, v113 := Vals.lv113 I c, v116 := Vals.lv116 I c, v119 := Vals.lv119 I c, v120 := Vals.lv120 I c. -/
def ret4 (I : Dev nD → Vals.Ins F) (c : Dev nD) : BitVec 32 := Vals.lw154 c
/-- Part 5. Called with: d0 := c, v2 := Vals.lw2 c, v154 := Vals.lw154 c. -/
def ret5 (I : Dev nD → Vals.Ins F) (c : Dev nD) : Σ' (v165 : BitVec 32), BitVec 32 := ⟨Vals.lw165 c, Vals.lw176 c⟩
/-- Part 6. Called with: d0 := c, v28 := Vals.lv28 I c, v77 := Vals.lv77 I c, v80 := Vals.lv80 I c, v83 := Vals.lv83 I c. -/
def ret6 (I : Dev nD → Vals.Ins F) (c : Dev nD) : Σ' (v192 : FVec F S256x384 .bf16) (v204 : FVec F S256x96 .f32) (v216 : FVec F S256x96 .f32) (v219 : FVec F S512x96 .bf16) (v224 : FVec F S256x1 .f32), FVec F S256x512 .bf16 := ⟨Vals.lv192 I c, Vals.lv204 I c, Vals.lv216 I c, Vals.lv219 I c, Vals.lv224 I c, Vals.lv225 I c⟩
/-- Part 7. Called with: v2 := Vals.lw2 c, v37 := Vals.lv37 I c, v80 := Vals.lv80 I c, v83 := Vals.lv83 I c, v192 := Vals.lv192 I c, v204 := Vals.lv204 I c, v216 := Vals.lv216 I c, v219 := Vals.lv219 I c, v224 := Vals.lv224 I c, v225 := Vals.lv225 I c. -/
def ret7 (I : Dev nD → Vals.Ins F) (c : Dev nD) : BitVec 32 := Vals.lw257 c
/-- Part 8. Called with: d0 := c, v2 := Vals.lw2 c, v257 := Vals.lw257 c. -/
def ret8 (I : Dev nD → Vals.Ins F) (c : Dev nD) : Σ' (v268 : BitVec 32), BitVec 32 := ⟨Vals.lw268 c, Vals.lw279 c⟩
/-- Part 9. Called with: d0 := c, v154 := Vals.lw154 c. -/
def ret9 : PUnit := ⟨⟩
/-- Part 10. Called with: v165 := Vals.lw165 c, v176 := Vals.lw176 c. -/
def ret10 (I : Dev nD → Vals.Ins F) (c : Dev nD) : Σ' (v324 : BitVec 32), BitVec 32 := ⟨Vals.lw324 c, Vals.lwc0_i32_241 c⟩
/-- Part 11. Called with: v324 := Vals.lw324 c, c0_i32_241 := Vals.lwc0_i32_241 c. -/
def ret11 : PUnit := ⟨⟩
/-- Part 12. Called with: d0 := c, v2 := Vals.lw2 c. -/
def ret12 (I : Dev nD → Vals.Ins F) (c : Dev nD) : Σ' (v356 : BitVec 32), BitVec 32 := ⟨Vals.lw356 c, Vals.lw367 c⟩
/-- Part 13. Called with: d0 := c, v2 := Vals.lw2 c, v14 := Vals.lv14 I c. -/
def ret13 (I : Dev nD → Vals.Ins F) (c : Dev nD) : Σ' (v378 : BitVec 32) (v405 : FVec F S512x768 .f32), FVec F S512x1 .f32 := ⟨Vals.lw378 c, Vals.lv405 I c, Vals.lv407 I c⟩
/-- Part 14. Called with: v20 := Vals.lv20 I c, v21 := Vals.lv21 I c, v257 := Vals.lw257 c, v405 := Vals.lv405 I c, v407 := Vals.lv407 I c. -/
def ret14 (I : Dev nD → Vals.Ins F) (c : Dev nD) : FVec F S512x768 .f32 := Vals.lv422 I c
/-- Part 15. Called with: v268 := Vals.lw268 c. -/
def ret15 : PUnit := ⟨⟩
/-- Part 16. Called with: v279 := Vals.lw279 c. -/
def ret16 (I : Dev nD → Vals.Ins F) (c : Dev nD) : Σ' (v477 : FVec F S256x256 .bf16), Vec F S1x1x256x256 .bf16 := ⟨Vals.lv477 I c, Vals.lv478 I c⟩
/-- Part 17. Called with: d0 := c, v2 := Vals.lw2 c, v477 := Vals.lv477 I c, v478 := Vals.lv478 I c. -/
def ret17 (I : Dev nD → Vals.Ins F) (c : Dev nD) : Σ' (v489 : BitVec 32), BitVec 32 := ⟨Vals.lw489 c, Vals.lw500 c⟩
/-- Part 18. Called with: d0 := c, v2 := Vals.lw2 c, v500 := Vals.lw500 c. -/
def ret18 (I : Dev nD → Vals.Ins F) (c : Dev nD) : BitVec 32 := Vals.lw511 c
/-- Part 19. Called with: v356 := Vals.lw356 c, v367 := Vals.lw367 c. -/
def ret19 : PUnit := ⟨⟩
/-- Part 20. Called with: v378 := Vals.lw378 c. -/
def ret20 (I : Dev nD → Vals.Ins F) (c : Dev nD) : FVec F S256x256 .bf16 := Vals.lv568 I c
/-- Part 21. Called with: v2 := Vals.lw2 c, v568 := Vals.lv568 I c. -/
def ret21 (I : Dev nD → Vals.Ins F) (c : Dev nD) : BitVec 32 := Vals.lw588 c
/-- Part 22. Called with: d0 := c, v2 := Vals.lw2 c, v588 := Vals.lw588 c. -/
def ret22 (I : Dev nD → Vals.Ins F) (c : Dev nD) : Σ' (v599 : BitVec 32), BitVec 32 := ⟨Vals.lw599 c, Vals.lw610 c⟩
/-- Part 23. Called with: d0 := c, v31 := Vals.lv31 I c, v34 := Vals.lv34 I c, v422 := Vals.lv422 I c, v489 := Vals.lw489 c. -/
def ret23 (I : Dev nD → Vals.Ins F) (c : Dev nD) : Σ' (v623 : FVec F S512x384 .bf16), FVec F S512x384 .bf16 := ⟨Vals.lv623 I c, Vals.lv626 I c⟩
/-- Part 24. Called with: v500 := Vals.lw500 c. -/
def ret24 : PUnit := ⟨⟩
/-- Part 25. Called with: v511 := Vals.lw511 c. -/
def ret25 (I : Dev nD → Vals.Ins F) (c : Dev nD) : FVec F S256x256 .bf16 := Vals.lv681 I c
/-- Part 26. Called with: d0 := c, v2 := Vals.lw2 c, v681 := Vals.lv681 I c. -/
def ret26 (I : Dev nD → Vals.Ins F) (c : Dev nD) : Σ' (v693 : BitVec 32), BitVec 32 := ⟨Vals.lw693 c, Vals.lw704 c⟩
/-- Part 27. Called with: d0 := c, v2 := Vals.lw2 c, v704 := Vals.lw704 c. -/
def ret27 (I : Dev nD → Vals.Ins F) (c : Dev nD) : BitVec 32 := Vals.lw715 c
/-- Part 28. Called with: v588 := Vals.lw588 c, v599 := Vals.lw599 c. -/
def ret28 : PUnit := ⟨⟩
/-- Part 29. Called with: v28 := Vals.lv28 I c, v422 := Vals.lv422 I c, v610 := Vals.lw610 c, v623 := Vals.lv623 I c, v626 := Vals.lv626 I c. -/
def ret29 (I : Dev nD → Vals.Ins F) (c : Dev nD) : Σ' (v773 : FVec F S256x384 .bf16) (v774 : FVec F S256x96 .bf16) (v776 : FVec F S512x96 .bf16), FVec F S96x512 .bf16 := ⟨Vals.lv773 I c, Vals.lv774 I c, Vals.lv776 I c, Vals.lv777 I c⟩
/-- Part 30. Called with: v37 := Vals.lv37 I c, v623 := Vals.lv623 I c, v626 := Vals.lv626 I c, v773 := Vals.lv773 I c, v774 := Vals.lv774 I c, v776 := Vals.lv776 I c, v777 := Vals.lv777 I c. -/
def ret30 (I : Dev nD → Vals.Ins F) (c : Dev nD) : FVec F S256x768 .f32 := Vals.lv824 I c
/-- Part 31. Called with: d0 := c, v2 := Vals.lw2 c, v824 := Vals.lv824 I c. -/
def ret31 (I : Dev nD → Vals.Ins F) (c : Dev nD) : Σ' (v838 : BitVec 32), BitVec 32 := ⟨Vals.lw838 c, Vals.lw849 c⟩
/-- Part 32. Called with: d0 := c, v2 := Vals.lw2 c, v849 := Vals.lw849 c. -/
def ret32 (I : Dev nD → Vals.Ins F) (c : Dev nD) : BitVec 32 := Vals.lw860 c
/-- Part 33. Called with: v693 := Vals.lw693 c, v704 := Vals.lw704 c. -/
def ret33 : PUnit := ⟨⟩
/-- Part 34. Called with: v28 := Vals.lv28 I c, v422 := Vals.lv422 I c, v623 := Vals.lv623 I c, v626 := Vals.lv626 I c, v715 := Vals.lw715 c. -/
def ret34 (I : Dev nD → Vals.Ins F) (c : Dev nD) : Σ' (v918 : FVec F S256x384 .bf16) (v919 : FVec F S256x96 .bf16) (v920 : FVec F S512x96 .bf16), FVec F S512x96 .bf16 := ⟨Vals.lv918 I c, Vals.lv919 I c, Vals.lv920 I c, Vals.lv921 I c⟩
/-- Part 35. Called with: v623 := Vals.lv623 I c, v626 := Vals.lv626 I c, v918 := Vals.lv918 I c, v919 := Vals.lv919 I c, v920 := Vals.lv920 I c, v921 := Vals.lv921 I c. -/
def ret35 (I : Dev nD → Vals.Ins F) (c : Dev nD) : Σ' (v968 : FVec F S256x384 .bf16), FVec F S256x768 .f32 := ⟨Vals.lv968 I c, Vals.lvcst_1034 I c⟩
/-- Part 36. Called with: d0 := c, v2 := Vals.lw2 c, v37 := Vals.lv37 I c, v968 := Vals.lv968 I c, cst_1034 := Vals.lvcst_1034 I c. -/
def ret36 (I : Dev nD → Vals.Ins F) (c : Dev nD) : Σ' (v983 : BitVec 32), BitVec 32 := ⟨Vals.lw983 c, Vals.lw994 c⟩
/-- Part 37. Called with: d0 := c, v2 := Vals.lw2 c, v994 := Vals.lw994 c. -/
def ret37 (I : Dev nD → Vals.Ins F) (c : Dev nD) : BitVec 32 := Vals.lw1005 c
/-- Part 38. Called with: v838 := Vals.lw838 c, v849 := Vals.lw849 c. -/
def ret38 : PUnit := ⟨⟩
/-- Part 39. Called with: v860 := Vals.lw860 c. -/
def ret39 (I : Dev nD → Vals.Ins F) (c : Dev nD) : FVec F S256x256 .bf16 := Vals.lv1059 I c
/-- Part 40. Called with: v2 := Vals.lw2 c, v1059 := Vals.lv1059 I c. -/
def ret40 (I : Dev nD → Vals.Ins F) (c : Dev nD) : BitVec 32 := Vals.lw1082 c
/-- Part 41. Called with: d0 := c, v2 := Vals.lw2 c, v1082 := Vals.lw1082 c. -/
def ret41 (I : Dev nD → Vals.Ins F) (c : Dev nD) : Σ' (v1093 : BitVec 32) (v1104 : BitVec 32) (v1105 : BitVec 32), BitVec 32 := ⟨Vals.lw1093 c, Vals.lw1104 c, Vals.lw1105 c, Vals.lwc0_i32_1237 c⟩
/-- Part 42. Called with: d0 := c, v14 := Vals.lv14 I c, v1105 := Vals.lw1105 c, c0_i32_1237 := Vals.lwc0_i32_1237 c. -/
def ret42 (I : Dev nD → Vals.Ins F) (c : Dev nD) : Σ' (v1131 : FVec F S256x768 .f32), FVec F S256x768 .f32 := ⟨Vals.lv1131 I c, Vals.lv1133 I c⟩
/-- Part 43. Called with: v22 := Vals.lv22 I c, v23 := Vals.lv23 I c, v24 := Vals.lv24 I c, v40 := Vals.lv40 I c, v43 := Vals.lv43 I c, v1131 := Vals.lv1131 I c, v1133 := Vals.lv1133 I c. -/
def ret43 (I : Dev nD → Vals.Ins F) (c : Dev nD) : Σ' (v1139 : FVec F S256x768 .f32) (v1182 : FVec F S256x768 .bf16), FVec F S256x256 .bf16 := ⟨Vals.lv1139 I c, Vals.lv1182 I c, Vals.lv1183 I c⟩
/-- Part 44. Called with: d0 := c, v2 := Vals.lw2 c, v1139 := Vals.lv1139 I c, v1182 := Vals.lv1182 I c, v1183 := Vals.lv1183 I c. -/
def ret44 (I : Dev nD → Vals.Ins F) (c : Dev nD) : Σ' (v1196 : BitVec 32), BitVec 32 := ⟨Vals.lw1196 c, Vals.lw1207 c⟩
/-- Part 45. Called with: d0 := c, v2 := Vals.lw2 c, v1207 := Vals.lw1207 c. -/
def ret45 (I : Dev nD → Vals.Ins F) (c : Dev nD) : BitVec 32 := Vals.lw1218 c
/-- Part 46. Called with: v983 := Vals.lw983 c, v994 := Vals.lw994 c. -/
def ret46 : PUnit := ⟨⟩
/-- Part 47. Called with: v1005 := Vals.lw1005 c. -/
def ret47 (I : Dev nD → Vals.Ins F) (c : Dev nD) : Σ' (v1272 : FVec F S256x256 .bf16), Vec F S1x1x1x256x256 .bf16 := ⟨Vals.lv1272 I c, Vals.lv1273 I c⟩
/-- Part 48. Called with: v2 := Vals.lw2 c, v1272 := Vals.lv1272 I c, v1273 := Vals.lv1273 I c. -/
def ret48 (I : Dev nD → Vals.Ins F) (c : Dev nD) : BitVec 32 := Vals.lw1295 c
/-- Part 49. Called with: d0 := c, v2 := Vals.lw2 c, v1295 := Vals.lw1295 c. -/
def ret49 (I : Dev nD → Vals.Ins F) (c : Dev nD) : Σ' (v1306 : BitVec 32), BitVec 32 := ⟨Vals.lw1306 c, Vals.lw1317 c⟩
/-- Part 50. Called with: d0 := c, v1082 := Vals.lw1082 c. -/
def ret50 : PUnit := ⟨⟩
/-- Part 51. Called with: v1093 := Vals.lw1093 c. -/
def ret51 : PUnit := ⟨⟩
/-- Part 52. Called with: v1104 := Vals.lw1104 c. -/
def ret52 : PUnit := ⟨⟩
/-- Part 53. Called with: d0 := c, v2 := Vals.lw2 c. -/
def ret53 (I : Dev nD → Vals.Ins F) (c : Dev nD) : Σ' (v1394 : BitVec 32), BitVec 32 := ⟨Vals.lw1394 c, Vals.lw1405 c⟩
/-- Part 54. Called with: d0 := c, v2 := Vals.lw2 c. -/
def ret54 (I : Dev nD → Vals.Ins F) (c : Dev nD) : Σ' (v1416 : BitVec 32) (v1431 : FVec F S256x256 .bf16), FVec F S256x256 .bf16 := ⟨Vals.lw1416 c, Vals.lv1431 I c, Vals.lv1433 I c⟩
/-- Part 55. Called with: v14 := Vals.lv14 I c, v22 := Vals.lv22 I c, v23 := Vals.lv23 I c, v1431 := Vals.lv1431 I c, v1433 := Vals.lv1433 I c. -/
def ret55 (I : Dev nD → Vals.Ins F) (c : Dev nD) : Σ' (v1451 : FVec F S256x768 .f32) (v1471 : FVec F S256x768 .f32) (v1474 : FVec F S1x768 .f32), F .f32 := ⟨Vals.lv1451 I c, Vals.lv1471 I c, Vals.lv1474 I c, Vals.lvcst_1675 I c⟩
/-- Part 56. Called with: v2 := Vals.lw2 c, v24 := Vals.lv24 I c, v40 := Vals.lv40 I c, v43 := Vals.lv43 I c, v1451 := Vals.lv1451 I c, v1471 := Vals.lv1471 I c, v1474 := Vals.lv1474 I c, cst_1675 := Vals.lvcst_1675 I c. -/
def ret56 (I : Dev nD → Vals.Ins F) (c : Dev nD) : BitVec 32 := Vals.lw1508 c
/-- Part 57. Called with: d0 := c, v2 := Vals.lw2 c, v1508 := Vals.lw1508 c. -/
def ret57 (I : Dev nD → Vals.Ins F) (c : Dev nD) : Σ' (v1519 : BitVec 32), BitVec 32 := ⟨Vals.lw1519 c, Vals.lw1530 c⟩
/-- Part 58. Called with: d0 := c, v1196 := Vals.lw1196 c. -/
def ret58 : PUnit := ⟨⟩
/-- Part 59. Called with: v1207 := Vals.lw1207 c, v1218 := Vals.lw1218 c. -/
def ret59 (I : Dev nD → Vals.Ins F) (c : Dev nD) : BitVec 32 := Vals.lw1575 c
/-- Part 60. Called with: v1575 := Vals.lw1575 c. -/
def ret60 : PUnit := ⟨⟩
/-- Part 61. Called with: d0 := c, v2 := Vals.lw2 c. -/
def ret61 (I : Dev nD → Vals.Ins F) (c : Dev nD) : Σ' (v1607 : BitVec 32), BitVec 32 := ⟨Vals.lw1607 c, Vals.lw1618 c⟩
/-- Part 62. Called with: d0 := c, v2 := Vals.lw2 c. -/
def ret62 (I : Dev nD → Vals.Ins F) (c : Dev nD) : BitVec 32 := Vals.lw1629 c
/-- Part 63. Called with: v1295 := Vals.lw1295 c, v1306 := Vals.lw1306 c. -/
def ret63 : PUnit := ⟨⟩
/-- Part 64. Called with: v1317 := Vals.lw1317 c. -/
def ret64 (I : Dev nD → Vals.Ins F) (c : Dev nD) : FVec F S256x256 .bf16 := Vals.lv1686 I c
/-- Part 65. Called with: v2 := Vals.lw2 c, v1686 := Vals.lv1686 I c. -/
def ret65 (I : Dev nD → Vals.Ins F) (c : Dev nD) : BitVec 32 := Vals.lw1706 c
/-- Part 66. Called with: d0 := c, v2 := Vals.lw2 c. -/
def ret66 (I : Dev nD → Vals.Ins F) (c : Dev nD) : Σ' (v1717 : BitVec 32), BitVec 32 := ⟨Vals.lw1717 c, Vals.lw1728 c⟩
/-- Part 67. Called with: d0 := c, v1394 := Vals.lw1394 c. -/
def ret67 : PUnit := ⟨⟩
/-- Part 68. Called with: v1405 := Vals.lw1405 c, v1416 := Vals.lw1416 c. -/
def ret68 : PUnit := ⟨⟩
/-- Part 69. Called with: v14 := Vals.lv14 I c, v22 := Vals.lv22 I c. -/
def ret69 (I : Dev nD → Vals.Ins F) (c : Dev nD) : FVec F S256x768 .f32 := Vals.lv1805 I c
/-- Part 70. Called with: v23 := Vals.lv23 I c, v24 := Vals.lv24 I c, v40 := Vals.lv40 I c, v43 := Vals.lv43 I c, v1805 := Vals.lv1805 I c. -/
def ret70 (I : Dev nD → Vals.Ins F) (c : Dev nD) : Σ' (v1848 : FVec F S256x768 .bf16), FVec F S1x1x256x256 .bf16 := ⟨Vals.lv1848 I c, Vals.lv1852 I c⟩
/-- Part 71. Called with: d0 := c, v2 := Vals.lw2 c, v1805 := Vals.lv1805 I c, v1848 := Vals.lv1848 I c, v1852 := Vals.lv1852 I c. -/
def ret71 (I : Dev nD → Vals.Ins F) (c : Dev nD) : Σ' (v1862 : BitVec 32), BitVec 32 := ⟨Vals.lw1862 c, Vals.lw1873 c⟩
/-- Part 72. Called with: d0 := c, v2 := Vals.lw2 c. -/
def ret72 (I : Dev nD → Vals.Ins F) (c : Dev nD) : BitVec 32 := Vals.lw1884 c
/-- Part 73. Called with: v1508 := Vals.lw1508 c, v1519 := Vals.lw1519 c. -/
def ret73 : PUnit := ⟨⟩
/-- Part 74. Called with: v1530 := Vals.lw1530 c. -/
def ret74 (I : Dev nD → Vals.Ins F) (c : Dev nD) : Σ' (v1941 : FVec F S256x256 .bf16), Vec F S1x1x256x256 .bf16 := ⟨Vals.lv1941 I c, Vals.lv1942 I c⟩
/-- Part 75. Called with: v2 := Vals.lw2 c, v1941 := Vals.lv1941 I c, v1942 := Vals.lv1942 I c. -/
def ret75 (I : Dev nD → Vals.Ins F) (c : Dev nD) : BitVec 32 := Vals.lw1961 c
/-- Part 76. Called with: d0 := c, v2 := Vals.lw2 c. -/
def ret76 (I : Dev nD → Vals.Ins F) (c : Dev nD) : Σ' (v1972 : BitVec 32), BitVec 32 := ⟨Vals.lw1972 c, Vals.lw1983 c⟩
/-- Part 77. Called with: d0 := c, v1607 := Vals.lw1607 c. -/
def ret77 : PUnit := ⟨⟩
/-- Part 78. Called with: v1618 := Vals.lw1618 c, v1629 := Vals.lw1629 c. -/
def ret78 : PUnit := ⟨⟩
/-- Part 79. Called with: no live value. -/
def ret79 (I : Dev nD → Vals.Ins F) (c : Dev nD) : FVec F S256x256 .bf16 := Vals.lv2053 I c
/-- Part 80. Called with: d0 := c, v2 := Vals.lw2 c, v2053 := Vals.lv2053 I c. -/
def ret80 (I : Dev nD → Vals.Ins F) (c : Dev nD) : Σ' (v2060 : BitVec 32), BitVec 32 := ⟨Vals.lw2060 c, Vals.lw2071 c⟩
/-- Part 81. Called with: d0 := c, v2 := Vals.lw2 c, v1706 := Vals.lw1706 c. -/
def ret81 (I : Dev nD → Vals.Ins F) (c : Dev nD) : Σ' (v2082 : BitVec 32), BitVec 32 := ⟨Vals.lw2082 c, Vals.lw2099 c⟩
/-- Part 82. Called with: v1717 := Vals.lw1717 c, v2099 := Vals.lw2099 c. -/
def ret82 : PUnit := ⟨⟩
/-- Part 83. Called with: v1728 := Vals.lw1728 c. -/
def ret83 (I : Dev nD → Vals.Ins F) (c : Dev nD) : Σ' (v2139 : FVec F S256x256 .bf16), FVec F S256x256 .bf16 := ⟨Vals.lv2139 I c, Vals.lv2141 I c⟩
/-- Part 84. Called with: v14 := Vals.lv14 I c, v22 := Vals.lv22 I c, v23 := Vals.lv23 I c, v2139 := Vals.lv2139 I c, v2141 := Vals.lv2141 I c. -/
def ret84 (I : Dev nD → Vals.Ins F) (c : Dev nD) : Σ' (v2159 : FVec F S256x768 .f32), FVec F S256x768 .f32 := ⟨Vals.lv2159 I c, Vals.lv2186 I c⟩
/-- Part 85. Called with: v2 := Vals.lw2 c, v24 := Vals.lv24 I c, v40 := Vals.lv40 I c, v43 := Vals.lv43 I c, v2159 := Vals.lv2159 I c, v2186 := Vals.lv2186 I c. -/
def ret85 (I : Dev nD → Vals.Ins F) (c : Dev nD) : Σ' (v2216 : BitVec 32) (v2217 : BitVec 32), BitVec 32 := ⟨Vals.lw2216 c, Vals.lw2217 c, Vals.lwc0_i32_2648 c⟩
/-- Part 86. Called with: d0 := c, v2 := Vals.lw2 c, v2217 := Vals.lw2217 c, c0_i32_2648 := Vals.lwc0_i32_2648 c. -/
def ret86 (I : Dev nD → Vals.Ins F) (c : Dev nD) : Σ' (v2227 : BitVec 32), BitVec 32 := ⟨Vals.lw2227 c, Vals.lw2238 c⟩
/-- Part 87. Called with: d0 := c, v1862 := Vals.lw1862 c. -/
def ret87 : PUnit := ⟨⟩
/-- Part 88. Called with: v1873 := Vals.lw1873 c, v1884 := Vals.lw1884 c. -/
def ret88 : PUnit := ⟨⟩
/-- Part 89. Called with: no live value. -/
def ret89 (I : Dev nD → Vals.Ins F) (c : Dev nD) : FVec F S256x256 .bf16 := Vals.lv2308 I c
/-- Part 90. Called with: d0 := c, v2 := Vals.lw2 c, v2308 := Vals.lv2308 I c. -/
def ret90 (I : Dev nD → Vals.Ins F) (c : Dev nD) : Σ' (v2315 : BitVec 32), BitVec 32 := ⟨Vals.lw2315 c, Vals.lw2326 c⟩
/-- Part 91. Called with: d0 := c, v2 := Vals.lw2 c. -/
def ret91 (I : Dev nD → Vals.Ins F) (c : Dev nD) : Σ' (v2337 : BitVec 32), BitVec 32 := ⟨Vals.lw2337 c, Vals.lwc1_i32_2854 c⟩
/-- Part 92. Called with: v1961 := Vals.lw1961 c, v1972 := Vals.lw1972 c, c1_i32_2854 := Vals.lwc1_i32_2854 c. -/
def ret92 : PUnit := ⟨⟩
/-- Part 93. Called with: v1983 := Vals.lw1983 c. -/
def ret93 : PUnit := ⟨⟩
/-- Part 94. Called with: v2 := Vals.lw2 c. -/
def ret94 (I : Dev nD → Vals.Ins F) (c : Dev nD) : BitVec 32 := Vals.lw2414 c
/-- Part 95. Called with: d0 := c, v2 := Vals.lw2 c. -/
def ret95 (I : Dev nD → Vals.Ins F) (c : Dev nD) : Σ' (v2425 : BitVec 32), BitVec 32 := ⟨Vals.lw2425 c, Vals.lw2436 c⟩
/-- Part 96. Called with: v2060 := Vals.lw2060 c. -/
def ret96 : PUnit := ⟨⟩
/-- Part 97. Called with: v2071 := Vals.lw2071 c, v2082 := Vals.lw2082 c. -/
def ret97 : PUnit := ⟨⟩
/-- Part 98. Called with: v25 := Vals.lv25 I c, v1139 := Vals.lv1139 I c. -/
def ret98 (I : Dev nD → Vals.Ins F) (c : Dev nD) : FVec F S1x256x768 .f32 := Vals.lv2515 I c
/-- Part 99. Called with: v2216 := Vals.lw2216 c, v2515 := Vals.lv2515 I c. -/
def ret99 : PUnit := ⟨⟩
/-- Part 100. Called with: v2227 := Vals.lw2227 c, v2238 := Vals.lw2238 c. -/
def ret100 : PUnit := ⟨⟩
/-- Part 101. Called with: no live value. -/
def ret101 (I : Dev nD → Vals.Ins F) (c : Dev nD) : Σ' (v2575 : FVec F S256x256 .bf16), Vec F S1x1x1x256x256 .bf16 := ⟨Vals.lv2575 I c, Vals.lv2576 I c⟩
/-- Part 102. Called with: d0 := c, v2 := Vals.lw2 c, v2575 := Vals.lv2575 I c, v2576 := Vals.lv2576 I c. -/
def ret102 (I : Dev nD → Vals.Ins F) (c : Dev nD) : Σ' (v2582 : BitVec 32), BitVec 32 := ⟨Vals.lw2582 c, Vals.lw2593 c⟩
/-- Part 103. Called with: d0 := c, v2 := Vals.lw2 c, v2315 := Vals.lw2315 c. -/
def ret103 (I : Dev nD → Vals.Ins F) (c : Dev nD) : BitVec 32 := Vals.lw2604 c
/-- Part 104. Called with: v2326 := Vals.lw2326 c. -/
def ret104 : PUnit := ⟨⟩
/-- Part 105. Called with: v2337 := Vals.lw2337 c. -/
def ret105 (I : Dev nD → Vals.Ins F) (c : Dev nD) : FVec F S256x256 .bf16 := Vals.lv2666 I c
/-- Part 106. Called with: v2 := Vals.lw2 c, v2666 := Vals.lv2666 I c. -/
def ret106 (I : Dev nD → Vals.Ins F) (c : Dev nD) : BitVec 32 := Vals.lw2681 c
/-- Part 107. Called with: d0 := c, v2 := Vals.lw2 c. -/
def ret107 (I : Dev nD → Vals.Ins F) (c : Dev nD) : Σ' (v2692 : BitVec 32), BitVec 32 := ⟨Vals.lw2692 c, Vals.lw2703 c⟩
/-- Part 108. Called with: v2414 := Vals.lw2414 c. -/
def ret108 : PUnit := ⟨⟩
/-- Part 109. Called with: v25 := Vals.lv25 I c, v1451 := Vals.lv1451 I c, v2425 := Vals.lw2425 c, v2436 := Vals.lw2436 c. -/
def ret109 (I : Dev nD → Vals.Ins F) (c : Dev nD) : Σ' (v2756 : FVec F S256x768 .f32), FVec F S1x768 .f32 := ⟨Vals.lv2756 I c, Vals.lv2757 I c⟩
/-- Part 110. Called with: v2756 := Vals.lv2756 I c, v2757 := Vals.lv2757 I c. -/
def ret110 : PUnit := ⟨⟩
/-- Part 111. Called with: v2582 := Vals.lw2582 c. -/
def ret111 : PUnit := ⟨⟩
/-- Part 112. Called with: v2593 := Vals.lw2593 c, v2604 := Vals.lw2604 c. -/
def ret112 : PUnit := ⟨⟩
/-- Part 113. Called with: no live value. -/
def ret113 (I : Dev nD → Vals.Ins F) (c : Dev nD) : FVec F S256x256 .bf16 := Vals.lv2845 I c
/-- Part 114. Called with: d0 := c, v2 := Vals.lw2 c, v2845 := Vals.lv2845 I c. -/
def ret114 (I : Dev nD → Vals.Ins F) (c : Dev nD) : Σ' (v2849 : BitVec 32) (v2860 : BitVec 32), BitVec 32 := ⟨Vals.lw2849 c, Vals.lw2860 c, Vals.lw2871 c⟩
/-- Part 115. Called with: d0 := c, v2681 := Vals.lw2681 c, v2871 := Vals.lw2871 c. -/
def ret115 : PUnit := ⟨⟩
/-- Part 116. Called with: v2692 := Vals.lw2692 c. -/
def ret116 : PUnit := ⟨⟩
/-- Part 117. Called with: v25 := Vals.lv25 I c, v1805 := Vals.lv1805 I c, v2703 := Vals.lw2703 c. -/
def ret117 (I : Dev nD → Vals.Ins F) (c : Dev nD) : Σ' (v2924 : FVec F S256x768 .f32) (v2927 : FVec F S1x768 .f32) (v2932 : FVec F S256x256 .bf16), FVec F S256x256 .bf16 := ⟨Vals.lv2924 I c, Vals.lv2927 I c, Vals.lv2932 I c, Vals.lv2937 I c⟩
/-- Part 118. Called with: v2849 := Vals.lw2849 c, v2924 := Vals.lv2924 I c, v2927 := Vals.lv2927 I c, v2932 := Vals.lv2932 I c, v2937 := Vals.lv2937 I c. -/
def ret118 : PUnit := ⟨⟩
/-- Part 119. Called with: v2860 := Vals.lw2860 c. -/
def ret119 : PUnit := ⟨⟩
/-- Part 120. Called with: v25 := Vals.lv25 I c, v2159 := Vals.lv2159 I c, v2871 := Vals.lw2871 c. -/
def ret120 (I : Dev nD → Vals.Ins F) (c : Dev nD) : Σ' (v2993 : FVec F S256x768 .f32) (v2996 : FVec F S1x768 .f32) (v3001 : FVec F S256x256 .bf16), FVec F S256x256 .bf16 := ⟨Vals.lv2993 I c, Vals.lv2996 I c, Vals.lv3001 I c, Vals.lv3006 I c⟩

end Cert.KernelIdeal.Body

end
-- ==== Proof.Parts.Part1.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.Body1
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 1 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

attribute [local sl_canon] Mesh.dev1_eq Mesh.dev2_eq Mesh.dev3_eq

/-- The place after the entry handshake, written out. -/
theorem St_one (I : Dev nD → Vals.Ins F) (K : Dev nD × Cell → ℕ) (c : Dev nD) : St I K (σ 1) c
    = iprop(records (RdI I) K ∗ levAts Proto.L Proto.lv ∗ (∃ W, owes (c : Thread nD τ) (owedFrom c 3) W) ∗ toksFrom c 3 ∗ credFrom c 3
        ∗ sendCreds (σ 0) c ∗ iprop(doneTo c 1 ∗ todoFrom c 1) ∗ iprop(foreignFrom c 0 ∗ rsBack I c 0)
        ∗ bigSepL accIx fun gp => accHeld I c gp.1 gp.2 ((σ 0).acc gp.1 gp.2)) := rfl

set_option maxHeartbeats 4000000 in
/-- The entry handshake and the first loads, over the staging buffers named as whole buffers: each of the three
    signals pays the duty this device has on a neighbour's entry cell and hands that neighbour the 24 receive tiles it
    will write; the wait for the rest of the entry cell's one round hands back the 72 tiles this device will write,
    24 on each neighbour; the four loads read whole blocks. -/
theorem part_1_run (m : (ℓ : Loc nD τ sig) → Buf (Elt F) ℓ) (K : Dev nD × Cell → ℕ) (c : Dev nD)
    (Fr : sProp (MT nD τ sig Unit (Elt F) ℕ UU ℕ)) :
    iprop(St (insM m) K (σ 0) c ∗ outHeld (insM m) c 0 ∗ BodyGlue.inputs m c ∗ Fr)
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) cc0_scratch2 cc0_scratch3 cc0_scoped0)
          (fun tup => iprop(⌜tup = ⟨c, Vals.lw2 c, Vals.lv14 (insM m) c, Vals.lv20 (insM m) c, Vals.lv21 (insM m) c, Vals.lv22 (insM m) c, Vals.lv23 (insM m) c, Vals.lv24 (insM m) c, Vals.lv25 (insM m) c, Vals.lv28 (insM m) c⟩⌝ ∗ St (insM m) K (σ 1) c ∗ outHeld (insM m) c 0 ∗ BodyGlue.inputs m c ∗ Fr)) := by
  rw [St_zero, sendCreds_zero, toksFrom_entry, todo_bar, owed_entry c, cred_entry c]
  unfold ownOut BodyGlue.inputs
  iintro ⟨⟨#HR, #Hlev, ⟨%W, HO⟩, ⟨Tb0, Tb1, Tb2, Htok⟩, ⟨⟨⟨Hcred, Cb0⟩, Cb1⟩, Cb2⟩, -, ⟨Hpb, Htodo⟩, ⟨Hp0, Hp1, Hp2⟩, Hacc⟩, Hout, ⟨H0, H1, H2, H3, H4, H5, H6, H7, H8⟩, HFr⟩
  ihave #HIb0 := (inv_at (RdI (insM m)) K (peer 0 c, Cell.bar)) $$ HR
  ihave #HIb1 := (inv_at (RdI (insM m)) K (peer 1 c, Cell.bar)) $$ HR
  ihave #HIb2 := (inv_at (RdI (insM m)) K (peer 2 c, Cell.bar)) $$ HR
  ihave #HIb := (inv_at (RdI (insM m)) K (c, Cell.bar)) $$ HR
  ihave #HRb0 := (reached_at (RdI (insM m)) K (peer 0 c, Cell.bar)) $$ HR
  ihave #HRb1 := (reached_at (RdI (insM m)) K (peer 1 c, Cell.bar)) $$ HR
  ihave #HRb2 := (reached_at (RdI (insM m)) K (peer 2 c, Cell.bar)) $$ HR
  ihave Hp0 := (Entails.of_eq (payload_bar_def (accCI (insM m)) (rs0I (insM m)) (peer 0 c) 0).symm) $$ Hp0
  ihave Hp1 := (Entails.of_eq (payload_bar_def (accCI (insM m)) (rs0I (insM m)) (peer 1 c) 1).symm) $$ Hp1
  ihave Hp2 := (Entails.of_eq (payload_bar_def (accCI (insM m)) (rs0I (insM m)) (peer 2 c) 2).symm) $$ Hp2
  ihave Cb := (cred3 (F := F) (barCell c) 1) $$ [Cb0 Cb1 Cb2]
  · isplitl [Cb0 Cb1]
    · isplitl [Cb0]; · iexact Cb0
      iexact Cb1
    iexact Cb2
  have hmw := mayWait_bar (F := F) c 3 (le_refl 3)
  ihave H0 := (show (((c : Thread nD τ).loc cc0_stg0_0) ↦{fullShare} BodyGlue.in0 m c : sProp (MT nD τ sig Unit (Elt F) ℕ UU ℕ)) ⊢ ((Memref.whole cc0_stg0_0).view.loc (c : Thread nD τ) ↦{fullShare} BodyGlue.in0 m c) from Entails.of_eq rfl) $$ H0
  ihave H1 := (show (((c : Thread nD τ).loc cc0_stg1_0) ↦{fullShare} BodyGlue.in1 m c : sProp (MT nD τ sig Unit (Elt F) ℕ UU ℕ)) ⊢ ((Memref.whole cc0_stg1_0).view.loc (c : Thread nD τ) ↦{fullShare} BodyGlue.in1 m c) from Entails.of_eq rfl) $$ H1
  ihave H5 := (show (((c : Thread nD τ).loc cc0_stg5_0) ↦{fullShare} BodyGlue.in5 m c : sProp (MT nD τ sig Unit (Elt F) ℕ UU ℕ)) ⊢ ((Memref.whole cc0_stg5_0).view.loc (c : Thread nD τ) ↦{fullShare} BodyGlue.in5 m c) from Entails.of_eq rfl) $$ H5
  ihave H6 := (show (((c : Thread nD τ).loc cc0_stg6_0) ↦{fullShare} BodyGlue.in6 m c : sProp (MT nD τ sig Unit (Elt F) ℕ UU ℕ)) ⊢ ((Memref.whole cc0_stg6_0).view.loc (c : Thread nD τ) ↦{fullShare} BodyGlue.in6 m c) from Entails.of_eq rfl) $$ H6
  sl_exec
  iapply (wp_signal_bar (accCI (insM m)) (rs0I (insM m)) c 0
    (owedFrom c 3 + tallyAt (barCell (peer 2 c)) () 1 + tallyAt (barCell (peer 1 c)) () 1) rfl) $$ [HO Tb0 Hp0]
  · isplitr; · iexact HIb0
    isplitl [HO]; · iexact HO
    isplitl [Tb0]; · iexact Tb0
    isplitl [Hp0]; · iexact Hp0
    iexact HRb0
  iintro HO
  sl_exec
  iapply (wp_signal_bar (accCI (insM m)) (rs0I (insM m)) c 1 (owedFrom c 3 + tallyAt (barCell (peer 2 c)) () 1) rfl) $$ [HO Tb1 Hp1]
  · isplitr; · iexact HIb1
    isplitl [HO]; · iexact HO
    isplitl [Tb1]; · iexact Tb1
    isplitl [Hp1]; · iexact Hp1
    iexact HRb1
  iintro HO
  sl_exec
  iapply (wp_signal_bar (accCI (insM m)) (rs0I (insM m)) c 2 (owedFrom c 3) rfl) $$ [HO Tb2 Hp2]
  · isplitr; · iexact HIb2
    isplitl [HO]; · iexact HO
    isplitl [Tb2]; · iexact Tb2
    isplitl [Hp2]; · iexact Hp2
    iexact HRb2
  iintro HO
  sl_exec
  sl_step
  iclear Hpb_reached
  ihave H0 := (show ((Memref.whole cc0_stg0_0).view.loc (c : Thread nD τ) ↦{fullShare} BodyGlue.in0 m c : sProp (MT nD τ sig Unit (Elt F) ℕ UU ℕ)) ⊢ (((c : Thread nD τ).loc cc0_stg0_0) ↦{fullShare} BodyGlue.in0 m c) from Entails.of_eq rfl) $$ H0
  ihave H1 := (show ((Memref.whole cc0_stg1_0).view.loc (c : Thread nD τ) ↦{fullShare} BodyGlue.in1 m c : sProp (MT nD τ sig Unit (Elt F) ℕ UU ℕ)) ⊢ (((c : Thread nD τ).loc cc0_stg1_0) ↦{fullShare} BodyGlue.in1 m c) from Entails.of_eq rfl) $$ H1
  ihave H5 := (show ((Memref.whole cc0_stg5_0).view.loc (c : Thread nD τ) ↦{fullShare} BodyGlue.in5 m c : sProp (MT nD τ sig Unit (Elt F) ℕ UU ℕ)) ⊢ (((c : Thread nD τ).loc cc0_stg5_0) ↦{fullShare} BodyGlue.in5 m c) from Entails.of_eq rfl) $$ H5
  ihave H6 := (show ((Memref.whole cc0_stg6_0).view.loc (c : Thread nD τ) ↦{fullShare} BodyGlue.in6 m c : sProp (MT nD τ sig Unit (Elt F) ℕ UU ℕ)) ⊢ (((c : Thread nD τ).loc cc0_stg6_0) ↦{fullShare} BodyGlue.in6 m c) from Entails.of_eq rfl) $$ H6
  isplitr
  · ipureintro
    have e0 : View.readAt (Elt F) (Memref.whole cc0_stg0_0).view (Rect.unit (s := S2x512x768) ![0, 0, 0] S2x512x768.size inb_S2x512x768_S2x512x768_0_0_0).toLoadRect (iblk m c 0 t0_0) = iblk m c 0 t0_0 :=
      Memref.readAt_unit_zero (Elt F) cc0_stg0_0 (by funext a; fin_cases a <;> rfl) _ _
    have e5 : View.readAt (Elt F) (Memref.whole cc0_stg5_0).view (Rect.unit (s := S2x128) ![0, 0] S2x128.size inb_S2x128_S2x128_0_0).toLoadRect (iblk m c 5 t0_0) = iblk m c 5 t0_0 :=
      Memref.readAt_unit_zero (Elt F) cc0_stg5_0 (by funext a; fin_cases a <;> rfl) _ _
    have e6 : View.readAt (Elt F) (Memref.whole cc0_stg6_0).view (Rect.unit (s := S128x4608) ![0, 0] S128x4608.size inb_S128x4608_S128x4608_0_0).toLoadRect (iblk m c 6 t0_0) = iblk m c 6 t0_0 :=
      Memref.readAt_unit_zero (Elt F) cc0_stg6_0 (by funext a; fin_cases a <;> rfl) _ _
    have e1 : View.readAt (Elt F) (Memref.whole cc0_stg1_0).view (Rect.unit (s := S768x384) ![0, 0] S768x384.size inb_S768x384_S768x384_0_0).toLoadRect (iblk m c 1 t0_0) = iblk m c 1 t0_0 :=
      Memref.readAt_unit_zero (Elt F) cc0_stg1_0 (by funext a; fin_cases a <;> rfl) _ _
    rw [e0, e5, e6, e1]
    rfl
  isplitl [HO Htok Hcred Hpb Htodo Hpb_pay1 Hacc]
  · iapply (Entails.of_eq (St_one (insM m) K c).symm)
    isplitr; · iexact HR
    isplitr; · iexact Hlev
    isplitl [HO]; · iexists _; iexact HO
    isplitl [Htok]; · iexact Htok
    isplitl [Hcred]; · iexact Hcred
    isplitr
    · iapply (Entails.of_eq (sendCreds_zero (F := F) c).symm); iempintro
    isplitl [Hpb Htodo]
    · isplitl [Hpb]
      · iapply (Entails.of_eq (done_bar (F := F) c).symm); iexact Hpb
      · iexact Htodo
    isplitl [Hpb_pay1]
    · isplitl [Hpb_pay1]
      · iapply (show (bigSep (Finset.univ : Finset (Fin 3)) fun j => barPay (F := F) c j) ⊢ foreignFrom c 0 from Entails.of_eq (barPays_eq' c))
        iexact Hpb_pay1
      · iapply (Entails.of_eq (rsBack_zero (insM m) c).symm); iempintro
    iexact Hacc
  isplitl [Hout]; · iexact Hout
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HFr

/-- Part 1 of the body, run from the place before it, ends at the place after it and returns its values; whatever else is held is kept. -/
theorem part_1 (m : (ℓ : Loc nD τ sig) → Buf (Elt F) ℓ) (K : Dev nD × Cell → ℕ) (c : Dev nD) (Fr : sProp 𝕄) :
    iprop(St (insM m) K (σ 0) c ∗ outHeld (insM m) c (σ 0).outs ∗ inputs m c ∗ Fr)
      ⊢ wp frame (wpE (defs₀ (F := F)) 𝒱₀ (c : Thread nD τ) none) Set.univ
          (k0_part1 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = ⟨c, Vals.lw2 c, Vals.lv14 (insM m) c, Vals.lv20 (insM m) c, Vals.lv21 (insM m) c, Vals.lv22 (insM m) c, Vals.lv23 (insM m) c, Vals.lv24 (insM m) c, Vals.lv25 (insM m) c, Vals.lv28 (insM m) c⟩⌝ ∗ St (insM m) K (σ 1) c ∗ outHeld (insM m) c (σ 1).outs ∗ inputs m c ∗ Fr)) := by
  exact part_1_run m K c Fr

/-- info: 'Cert.KernelIdeal.Body.part_1' depends on axioms: [propext, Classical.choice, Quot.sound] -/
#guard_msgs in #print axioms part_1

end Cert.KernelIdeal.Body

end
-- ==== Proof.Parts.L2.lean ====
/-
  Part 2 of the body loads five of the device's argument blocks whole (the key, value, output and the two feed-forward
  weights) and computes their narrowed copies and batch row 0's normalized input. The five windows keep their contents;
  that each window's whole-block read is the device's argument block is carried as a fact.
-/
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals

variable {F : FTy → Type} [FloatOps F]

/-- Part 2: five whole-window loads, then pure computation. -/
theorem local_2 (I : Dev nD → Vals.Ins F) (c : Dev nD) (P : sProp (MT nD τ sig Unit (Elt F) ℕ UU ℕ))
    (f2 : Buf (Elt F) ((win0_2.stage (cfg0.slots t0_0 2)).view.loc (c : Thread nD τ)))
    (f3 : Buf (Elt F) ((win0_3.stage (cfg0.slots t0_0 3)).view.loc (c : Thread nD τ)))
    (f4 : Buf (Elt F) ((win0_4.stage (cfg0.slots t0_0 4)).view.loc (c : Thread nD τ)))
    (f7 : Buf (Elt F) ((win0_7.stage (cfg0.slots t0_0 7)).view.loc (c : Thread nD τ)))
    (f8 : Buf (Elt F) ((win0_8.stage (cfg0.slots t0_0 8)).view.loc (c : Thread nD τ)))
    (h2 : (View.readAt (Elt F) (win0_2.stage (cfg0.slots t0_0 2)).view
        (Rect.unit (s := S768x384) ![0, 0] S768x384.size inb_S768x384_S768x384_0_0).toLoadRect f2 : Vec F S768x384 .f32) = (I c).w2)
    (h3 : (View.readAt (Elt F) (win0_3.stage (cfg0.slots t0_0 3)).view
        (Rect.unit (s := S768x384) ![0, 0] S768x384.size inb_S768x384_S768x384_0_0).toLoadRect f3 : Vec F S768x384 .f32) = (I c).w3)
    (h4 : (View.readAt (Elt F) (win0_4.stage (cfg0.slots t0_0 4)).view
        (Rect.unit (s := S384x768) ![0, 0] S384x768.size inb_S384x768_S384x768_0_0).toLoadRect f4 : Vec F S384x768 .f32) = (I c).w4)
    (h7 : (View.readAt (Elt F) (win0_7.stage (cfg0.slots t0_0 7)).view
        (Rect.unit (s := S768x384) ![0, 0] S768x384.size inb_S768x384_S768x384_0_0).toLoadRect f7 : Vec F S768x384 .f32) = (I c).w7)
    (h8 : (View.readAt (Elt F) (win0_8.stage (cfg0.slots t0_0 8)).view
        (Rect.unit (s := S384x768) ![0, 0] S384x768.size inb_S384x768_S384x768_0_0).toLoadRect f8 : Vec F S384x768 .f32) = (I c).w8) :
    iprop(((win0_2.stage (cfg0.slots t0_0 2)).view.loc (c : Thread nD τ) ↦{fullShare} f2)
        ∗ ((win0_3.stage (cfg0.slots t0_0 3)).view.loc (c : Thread nD τ) ↦{fullShare} f3)
        ∗ ((win0_4.stage (cfg0.slots t0_0 4)).view.loc (c : Thread nD τ) ↦{fullShare} f4)
        ∗ ((win0_7.stage (cfg0.slots t0_0 7)).view.loc (c : Thread nD τ) ↦{fullShare} f7)
        ∗ ((win0_8.stage (cfg0.slots t0_0 8)).view.loc (c : Thread nD τ) ↦{fullShare} f8) ∗ P)
      ⊢ wp frame (wpE (defs₀ (F := F)) 𝒱₀ (c : Thread nD τ) none) Set.univ
        (k0_part2 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lv14 I c) (lv20 I c))
        (fun tup => iprop(⌜tup = ⟨lv31 I c, lv34 I c, lv37 I c, lv40 I c, lv43 I c, lv72 I c⟩⌝
          ∗ ((win0_2.stage (cfg0.slots t0_0 2)).view.loc (c : Thread nD τ) ↦{fullShare} f2)
          ∗ ((win0_3.stage (cfg0.slots t0_0 3)).view.loc (c : Thread nD τ) ↦{fullShare} f3)
          ∗ ((win0_4.stage (cfg0.slots t0_0 4)).view.loc (c : Thread nD τ) ↦{fullShare} f4)
          ∗ ((win0_7.stage (cfg0.slots t0_0 7)).view.loc (c : Thread nD τ) ↦{fullShare} f7)
          ∗ ((win0_8.stage (cfg0.slots t0_0 8)).view.loc (c : Thread nD τ) ↦{fullShare} f8) ∗ P)) := by
  iintro ⟨H2, H3, H4, H7, H8, HP⟩
  rw [k0_part2_eq_skeleton]
  unfold k0_part2_skel
  sl_exec
  sl_step
  isplitr
  · ipureintro
    rfl
  isplitl [H2]; · iexact H2
  isplitl [H3]; · iexact H3
  isplitl [H4]; · iexact H4
  isplitl [H7]; · iexact H7
  isplitl [H8]; · iexact H8
  iexact HP

end Cert.KernelIdeal.Body

/-- info: 'Cert.KernelIdeal.Body.local_2' depends on axioms: [propext, Classical.choice, Quot.sound] -/
#guard_msgs in #print axioms Cert.KernelIdeal.Body.local_2

end
-- ==== Proof.Parts.Part2.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L2
import proofs.«900775_g7700000000000776_dist_diff_dit_htp_i_b2_s512_d768_hq4_v7x_i8_f32_1_alg».proof.Proof.Gen.KernelIdeal.Skeleton
import Idealize.ShloMosaic.Lib.Tactic

/-! Part 2 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 2 of the body, run from the place before it, ends at the place after it and returns its values; whatever else is held is kept. -/
theorem part_2 (m : (ℓ : Loc nD τ sig) → Buf (Elt F) ℓ) (K : Dev nD × Cell → ℕ) (c : Dev nD) (Fr : sProp 𝕄) :
    iprop(St (insM m) K (σ 1) c ∗ outHeld (insM m) c (σ 1).outs ∗ inputs m c ∗ Fr)
      ⊢ wp frame (wpE (defs₀ (F := F)) 𝒱₀ (c : Thread nD τ) none) Set.univ
          (k0_part2 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv14 (insM m) c) (Vals.lv20 (insM m) c))
          (fun tup => iprop(⌜tup = ⟨Vals.lv31 (insM m) c, Vals.lv34 (insM m) c, Vals.lv37 (insM m) c, Vals.lv40 (insM m) c, Vals.lv43 (insM m) c, Vals.lv72 (insM m) c⟩⌝ ∗ St (insM m) K (σ 2) c ∗ outHeld (insM m) c (σ 2).outs ∗ inputs m c ∗ Fr)) := by
  have e : σ 2 = σ 1 := rfl
  rw [e]
  have h2 : (View.readAt (Elt F) (win0_2.stage (cfg0.slots t0_0 2)).view
      (Rect.unit (s := S768x384) ![0, 0] S768x384.size inb_S768x384_S768x384_0_0).toLoadRect (in2 m c) : Vec F S768x384 .f32) = (insM m c).w2 :=
    Memref.readAt_unit_zero (Elt F) cc0_stg2_0 (by funext a; fin_cases a <;> rfl) _ _
  have h3 : (View.readAt (Elt F) (win0_3.stage (cfg0.slots t0_0 3)).view
      (Rect.unit (s := S768x384) ![0, 0] S768x384.size inb_S768x384_S768x384_0_0).toLoadRect (in3 m c) : Vec F S768x384 .f32) = (insM m c).w3 :=
    Memref.readAt_unit_zero (Elt F) cc0_stg3_0 (by funext a; fin_cases a <;> rfl) _ _
  have h4 : (View.readAt (Elt F) (win0_4.stage (cfg0.slots t0_0 4)).view
      (Rect.unit (s := S384x768) ![0, 0] S384x768.size inb_S384x768_S384x768_0_0).toLoadRect (in4 m c) : Vec F S384x768 .f32) = (insM m c).w4 :=
    Memref.readAt_unit_zero (Elt F) cc0_stg4_0 (by funext a; fin_cases a <;> rfl) _ _
  have h7 : (View.readAt (Elt F) (win0_7.stage (cfg0.slots t0_0 7)).view
      (Rect.unit (s := S768x384) ![0, 0] S768x384.size inb_S768x384_S768x384_0_0).toLoadRect (in7 m c) : Vec F S768x384 .f32) = (insM m c).w7 :=
    Memref.readAt_unit_zero (Elt F) cc0_stg7_0 (by funext a; fin_cases a <;> rfl) _ _
  have h8 : (View.readAt (Elt F) (win0_8.stage (cfg0.slots t0_0 8)).view
      (Rect.unit (s := S384x768) ![0, 0] S384x768.size inb_S384x768_S384x768_0_0).toLoadRect (in8 m c) : Vec F S384x768 .f32) = (insM m c).w8 :=
    Memref.readAt_unit_zero (Elt F) cc0_stg8_0 (by funext a; fin_cases a <;> rfl) _ _
  unfold inputs
  refine BIBase.Entails.trans ?_ ((local_2 (insM m) c
    iprop(St (insM m) K (σ 1) c ∗ outHeld (insM m) c (σ 1).outs ∗ (((c : Thread nD τ).loc cc0_stg0_0) ↦{fullShare} in0 m c) ∗ (((c : Thread nD τ).loc cc0_stg1_0) ↦{fullShare} in1 m c) ∗ (((c : Thread nD τ).loc cc0_stg5_0) ↦{fullShare} in5 m c) ∗ (((c : Thread nD τ).loc cc0_stg6_0) ↦{fullShare} in6 m c) ∗ Fr)
    (in2 m c) (in3 m c) (in4 m c) (in7 m c) (in8 m c) h2 h3 h4 h7 h8).trans (wp_mono _ _ _ fun tup => ?_))
  · iintro ⟨HS, HO, ⟨H0, H1, H2, H3, H4, H5, H6, H7, H8⟩, HF⟩
    ihave H2 := (show ((((c : Thread nD τ).loc cc0_stg2_0) ↦{fullShare} in2 m c) : sProp (MT nD τ sig Unit (Elt F) ℕ UU ℕ)) ⊢ ((win0_2.stage (cfg0.slots t0_0 2)).view.loc (c : Thread nD τ) ↦{fullShare} in2 m c) from Entails.of_eq rfl) $$ H2
    ihave H3 := (show ((((c : Thread nD τ).loc cc0_stg3_0) ↦{fullShare} in3 m c) : sProp (MT nD τ sig Unit (Elt F) ℕ UU ℕ)) ⊢ ((win0_3.stage (cfg0.slots t0_0 3)).view.loc (c : Thread nD τ) ↦{fullShare} in3 m c) from Entails.of_eq rfl) $$ H3
    ihave H4 := (show ((((c : Thread nD τ).loc cc0_stg4_0) ↦{fullShare} in4 m c) : sProp (MT nD τ sig Unit (Elt F) ℕ UU ℕ)) ⊢ ((win0_4.stage (cfg0.slots t0_0 4)).view.loc (c : Thread nD τ) ↦{fullShare} in4 m c) from Entails.of_eq rfl) $$ H4
    ihave H7 := (show ((((c : Thread nD τ).loc cc0_stg7_0) ↦{fullShare} in7 m c) : sProp (MT nD τ sig Unit (Elt F) ℕ UU ℕ)) ⊢ ((win0_7.stage (cfg0.slots t0_0 7)).view.loc (c : Thread nD τ) ↦{fullShare} in7 m c) from Entails.of_eq rfl) $$ H7
    ihave H8 := (show ((((c : Thread nD τ).loc cc0_stg8_0) ↦{fullShare} in8 m c) : sProp (MT nD τ sig Unit (Elt F) ℕ UU ℕ)) ⊢ ((win0_8.stage (cfg0.slots t0_0 8)).view.loc (c : Thread nD τ) ↦{fullShare} in8 m c) from Entails.of_eq rfl) $$ H8
    isplitl [H2]; · iexact H2
    isplitl [H3]; · iexact H3
    isplitl [H4]; · iexact H4
    isplitl [H7]; · iexact H7
    isplitl [H8]; · iexact H8
    isplitl [HS]; · iexact HS
    isplitl [HO]; · iexact HO
    isplitl [H0]; · iexact H0
    isplitl [H1]; · iexact H1
    isplitl [H5]; · iexact H5
    isplitl [H6]; · iexact H6
    iexact HF
  · iintro ⟨%ht, H2, H3, H4, H7, H8, HS, HO, H0, H1, H5, H6, HF⟩
    ihave H2 := (show (((win0_2.stage (cfg0.slots t0_0 2)).view.loc (c : Thread nD τ) ↦{fullShare} in2 m c) : sProp (MT nD τ sig Unit (Elt F) ℕ UU ℕ)) ⊢ (((c : Thread nD τ).loc cc0_stg2_0) ↦{fullShare} in2 m c) from Entails.of_eq rfl) $$ H2
    ihave H3 := (show (((win0_3.stage (cfg0.slots t0_0 3)).view.loc (c : Thread nD τ) ↦{fullShare} in3 m c) : sProp (MT nD τ sig Unit (Elt F) ℕ UU ℕ)) ⊢ (((c : Thread nD τ).loc cc0_stg3_0) ↦{fullShare} in3 m c) from Entails.of_eq rfl) $$ H3
    ihave H4 := (show (((win0_4.stage (cfg0.slots t0_0 4)).view.loc (c : Thread nD τ) ↦{fullShare} in4 m c) : sProp (MT nD τ sig Unit (Elt F) ℕ UU ℕ)) ⊢ (((c : Thread nD τ).loc cc0_stg4_0) ↦{fullShare} in4 m c) from Entails.of_eq rfl) $$ H4
    ihave H7 := (show (((win0_7.stage (cfg0.slots t0_0 7)).view.loc (c : Thread nD τ) ↦{fullShare} in7 m c) : sProp (MT nD τ sig Unit (Elt F) ℕ UU ℕ)) ⊢ (((c : Thread nD τ).loc cc0_stg7_0) ↦{fullShare} in7 m c) from Entails.of_eq rfl) $$ H7
    ihave H8 := (show (((win0_8.stage (cfg0.slots t0_0 8)).view.loc (c : Thread nD τ) ↦{fullShare} in8 m c) : sProp (MT nD τ sig Unit (Elt F) ℕ UU ℕ)) ⊢ (((c : Thread nD τ).loc cc0_stg8_0) ↦{fullShare} in8 m c) from Entails.of_eq rfl) $$ H8
    isplitr
    · ipureintro; exact ht
    isplitl [HS]; · iexact HS
    isplitl [HO]; · iexact HO
    isplitr [HF]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact HF

/-- info: 'Cert.KernelIdeal.Body.part_2' depends on axioms: [propext, Classical.choice, Quot.sound] -/
#guard_msgs in #print axioms part_2

end Cert.KernelIdeal.Body

end
-- ==== Proof.Parts.L3.lean ====
/-
  Part 3 of the body computes, from live values only, batch row 0's normalized and modulated input, its key and value
  projections, and the first row group's query block with the attention statistics of its heads. It touches no buffer:
  whatever the device holds rides along unchanged, and the returned values are the named ones.
-/
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals

variable {F : FTy → Type} [FloatOps F]

/-- Part 3: pure computation over the live values. -/
theorem local_3 (I : Dev nD → Vals.Ins F) (c : Dev nD) (P : sProp (MT nD τ sig Unit (Elt F) ℕ UU ℕ)) :
    P ⊢ wp frame (wpE (defs₀ (F := F)) 𝒱₀ (c : Thread nD τ) none) Set.univ
        (k0_part3 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lv21 I c) (lv28 I c) (lv31 I c) (lv34 I c) (lv72 I c))
        (fun tup => iprop(⌜tup = ⟨lv77 I c, lv80 I c, lv83 I c, lv89 I c, lv101 I c, lv113 I c, lv116 I c, lv119 I c,
            lv120 I c⟩⌝ ∗ P)) := by
  iintro HP
  rw [k0_part3_eq_skeleton]
  unfold k0_part3_skel
  sl_exec
  sl_step
  isplitr
  · ipureintro; rfl
  · iexact HP

end Cert.KernelIdeal.Body

/-- info: 'Cert.KernelIdeal.Body.local_3' depends on axioms: [propext, Classical.choice, Quot.sound] -/
#guard_msgs in #print axioms Cert.KernelIdeal.Body.local_3

end
-- ==== Proof.Parts.Part3.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.Parts.L3
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L3
import proofs.«900775_g7700000000000776_dist_diff_dit_htp_i_b2_s512_d768_hq4_v7x_i8_f32_1_alg».proof.Proof.Gen.KernelIdeal.Skeleton
import Idealize.ShloMosaic.Lib.Tactic

/-! Part 3 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 3 of the body, run from the place before it, ends at the place after it and returns its values; whatever else is held is kept. -/
theorem part_3 (m : (ℓ : Loc nD τ sig) → Buf (Elt F) ℓ) (K : Dev nD × Cell → ℕ) (c : Dev nD) (Fr : sProp 𝕄) :
    iprop(St (insM m) K (σ 2) c ∗ outHeld (insM m) c (σ 2).outs ∗ Fr)
      ⊢ wp frame (wpE (defs₀ (F := F)) 𝒱₀ (c : Thread nD τ) none) Set.univ
          (k0_part3 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv21 (insM m) c) (Vals.lv28 (insM m) c) (Vals.lv31 (insM m) c) (Vals.lv34 (insM m) c) (Vals.lv72 (insM m) c))
          (fun tup => iprop(⌜tup = ⟨Vals.lv77 (insM m) c, Vals.lv80 (insM m) c, Vals.lv83 (insM m) c, Vals.lv89 (insM m) c, Vals.lv101 (insM m) c, Vals.lv113 (insM m) c, Vals.lv116 (insM m) c, Vals.lv119 (insM m) c, Vals.lv120 (insM m) c⟩⌝ ∗ St (insM m) K (σ 3) c ∗ outHeld (insM m) c (σ 3).outs ∗ Fr)) := by
  exact local_3 (insM m) c _

/-- info: 'Cert.KernelIdeal.Body.part_3' depends on axioms: [propext, Classical.choice, Quot.sound] -/
#guard_msgs in #print axioms part_3

end Cert.KernelIdeal.Body

end
-- ==== Proof.Parts.L4.lean ====
/-
  Part 4 of the body stores row group 0's attention partial product: its three column parts go to the three slices
  (0, 0), (0, 1), (0, 2) of the accumulator, whose earlier contents are read and not used. Each slice ends at the first
  level of round 0; the returned word is the device's first neighbour's number.
-/
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals

variable {F : FTy → Type} [FloatOps F]

/-- Part 4: the three slices of group 0, at any contents, come back at round 0's first level. -/
theorem local_4 (I : Dev nD → Vals.Ins F) (c : Dev nD) (P : sProp (MT nD τ sig Unit (Elt F) ℕ UU ℕ)) :
    iprop((∃ f, Proto.accPts (F := F) c 0 0 f) ∗ (∃ f, Proto.accPts (F := F) c 0 1 f) ∗ (∃ f, Proto.accPts (F := F) c 0 2 f) ∗ P)
      ⊢ wp frame (wpE (defs₀ (F := F)) 𝒱₀ (c : Thread nD τ) none) Set.univ
        (k0_part4 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv37 I c) (lv80 I c) (lv83 I c) (lv89 I c) (lv101 I c) (lv113 I c) (lv116 I c) (lv119 I c) (lv120 I c))
        (fun tup => iprop(⌜tup = lw154 c⌝ ∗ Proto.accPts c 0 0 (accEmb 0 0 (A I 0 c 0 0 0))
          ∗ Proto.accPts c 0 1 (accEmb 0 1 (A I 0 c 0 1 0)) ∗ Proto.accPts c 0 2 (accEmb 0 2 (A I 0 c 0 2 0)) ∗ P)) := by
  iintro ⟨⟨%f0, H0⟩, ⟨%f1, H1⟩, ⟨%f2, H2⟩, HP⟩
  unfold Proto.accPts
  rw [k0_part4_eq_skeleton]
  unfold k0_part4_skel
  sl_exec
  sl_step
  have e0 : (((Proto.accSl 0 0).view.loc (c : Thread nD τ) ↦[(Proto.accSl 0 0).view.set]{fullShare} Cert.KernelIdeal.Body.local_4.sl.H0_w1 I c f0) : sProp (MT nD τ sig Unit (Elt F) ℕ UU ℕ))
      = ((Proto.accSl 0 0).view.loc (c : Thread nD τ) ↦[(Proto.accSl 0 0).view.set]{fullShare} accEmb 0 0 (A I 0 c 0 0 0)) :=
    accTile_of_read c fullShare 0 0 (by unfold Cert.KernelIdeal.Body.local_4.sl.H0_w1; exact View.read_write_univ _ _)
  have e1 : (((Proto.accSl 0 1).view.loc (c : Thread nD τ) ↦[(Proto.accSl 0 1).view.set]{fullShare} Cert.KernelIdeal.Body.local_4.sl.H1_w2 I c f1) : sProp (MT nD τ sig Unit (Elt F) ℕ UU ℕ))
      = ((Proto.accSl 0 1).view.loc (c : Thread nD τ) ↦[(Proto.accSl 0 1).view.set]{fullShare} accEmb 0 1 (A I 0 c 0 1 0)) :=
    accTile_of_read c fullShare 0 1 (by unfold Cert.KernelIdeal.Body.local_4.sl.H1_w2; exact View.read_write_univ _ _)
  have e2 : (((Proto.accSl 0 2).view.loc (c : Thread nD τ) ↦[(Proto.accSl 0 2).view.set]{fullShare} Cert.KernelIdeal.Body.local_4.sl.H2_w3 I c f2) : sProp (MT nD τ sig Unit (Elt F) ℕ UU ℕ))
      = ((Proto.accSl 0 2).view.loc (c : Thread nD τ) ↦[(Proto.accSl 0 2).view.set]{fullShare} accEmb 0 2 (A I 0 c 0 2 0)) :=
    accTile_of_read c fullShare 0 2 (by unfold Cert.KernelIdeal.Body.local_4.sl.H2_w3; exact View.read_write_univ _ _)
  have i0 : (((Proto.accSl 0 0).view.loc (c : Thread nD τ) ↦[(Proto.accSl 0 0).view.set]{fullShare} Cert.KernelIdeal.Body.local_4.sl.H0_w1 I c f0) : sProp (MT nD τ sig Unit (Elt F) ℕ UU ℕ))
      ⊢ ((Proto.accSl 0 0).view.loc (c : Thread nD τ) ↦[(Proto.accSl 0 0).view.set]{fullShare} accEmb 0 0 (A I 0 c 0 0 0)) := by rw [e0]
  have i1 : (((Proto.accSl 0 1).view.loc (c : Thread nD τ) ↦[(Proto.accSl 0 1).view.set]{fullShare} Cert.KernelIdeal.Body.local_4.sl.H1_w2 I c f1) : sProp (MT nD τ sig Unit (Elt F) ℕ UU ℕ))
      ⊢ ((Proto.accSl 0 1).view.loc (c : Thread nD τ) ↦[(Proto.accSl 0 1).view.set]{fullShare} accEmb 0 1 (A I 0 c 0 1 0)) := by rw [e1]
  have i2 : (((Proto.accSl 0 2).view.loc (c : Thread nD τ) ↦[(Proto.accSl 0 2).view.set]{fullShare} Cert.KernelIdeal.Body.local_4.sl.H2_w3 I c f2) : sProp (MT nD τ sig Unit (Elt F) ℕ UU ℕ))
      ⊢ ((Proto.accSl 0 2).view.loc (c : Thread nD τ) ↦[(Proto.accSl 0 2).view.set]{fullShare} accEmb 0 2 (A I 0 c 0 2 0)) := by rw [e2]
  ihave T0 := i0 $$ H0
  ihave T1 := i1 $$ H1
  ihave T2 := i2 $$ H2
  isplitr
  · ipureintro; rfl
  isplitl [T0]; · iexact T0
  isplitl [T1]; · iexact T1
  isplitl [T2]; · iexact T2
  iexact HP

end Cert.KernelIdeal.Body

/-- info: 'Cert.KernelIdeal.Body.local_4' depends on axioms: [propext, Classical.choice, Quot.sound] -/
#guard_msgs in #print axioms Cert.KernelIdeal.Body.local_4

end
-- ==== Proof.BodyWrap.lean ====
/-
  The state between two parts of the body, taken apart and put together again.

  The state is, beside the twelve accumulator tiles, a part that reads only the four counters of the place (the entry
  made or not, the copies started, the single waits passed, the exit made or not): two places that agree on those four
  have that part in common.  The twelve tiles are a plain product, one factor a tile.  The receive slices that have
  come back are a product over the steps waited for, from which the three slices of any one such step can be taken.
-/
import proofs.«900775_g7700000000000776_dist_diff_dit_htp_i_b2_s512_d768_hq4_v7x_i8_f32_1_alg».proof.Proof.BodyState

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- All of the state but the accumulator tiles. -/
def StRest (I : Dev nD → Ins F) (K : Dev nD × Cell → ℕ) (s : Pos) (c : Dev nD) : sProp (MT nD τ sig Unit (Elt F) ℕ UU ℕ) :=
  iprop(records (RdI I) K ∗ levAts Proto.L Proto.lv
    ∗ (∃ W, owes (c : Thread nD τ) (owedFrom c (paid s)) W)
    ∗ toksFrom c (paid s)
    ∗ credFrom c (credIdx s)
    ∗ sendCreds s c
    ∗ cells I s c
    ∗ (if s.entered then iprop(foreignFrom c s.sends ∗ rsBack I c (grp s)) else ownOut c))

/-- The twelve accumulator tiles as a place records them. -/
def accAll (I : Dev nD → Ins F) (c : Dev nD) (a : Fin 4 → Fin 3 → Option ℕ) : sProp (MT nD τ sig Unit (Elt F) ℕ UU ℕ) :=
  bigSepL accIx fun gp => accHeld I c gp.1 gp.2 (a gp.1 gp.2)

/-- The state is the tile-free part and the twelve tiles. -/
theorem St_eq (I : Dev nD → Ins F) (K : Dev nD × Cell → ℕ) (s : Pos) (c : Dev nD) :
    St I K s c = iprop(StRest I K s c ∗ accAll I c s.acc) := by
  have h1 : (St I K s c : sProp (MT nD τ sig Unit (Elt F) ℕ UU ℕ)) ⊢ iprop(StRest I K s c ∗ accAll I c s.acc) := by
    unfold St StRest accAll
    iintro ⟨H1, H2, H3, H4, H5, H6, H7, H8, H9⟩
    isplitr [H9]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact H9
  have h2 : (iprop(StRest I K s c ∗ accAll I c s.acc) : sProp (MT nD τ sig Unit (Elt F) ℕ UU ℕ)) ⊢ St I K s c := by
    unfold St StRest accAll
    iintro ⟨⟨H1, H2, H3, H4, H5, H6, H7, H8⟩, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  exact Entails.antisymm h1 h2

/-- Two places that agree on the four counters have the tile-free part in common. -/
theorem StRest_congr (I : Dev nD → Ins F) (K : Dev nD × Cell → ℕ) (c : Dev nD) {s s' : Pos}
    (he : s.entered = s'.entered) (hs : s.sends = s'.sends) (hw : s.waits = s'.waits) (hx : s.exited = s'.exited) :
    StRest I K s c = StRest I K s' c := by
  cases s; cases s'
  simp only at he hs hw hx
  subst he hs hw hx
  rfl

/-- The twelve tiles, one factor a tile. -/
theorem accAll_eq (I : Dev nD → Ins F) (c : Dev nD) (a : Fin 4 → Fin 3 → Option ℕ) :
    accAll I c a = iprop(accHeld I c 0 0 (a 0 0) ∗ accHeld I c 0 1 (a 0 1) ∗ accHeld I c 0 2 (a 0 2) ∗ accHeld I c 1 0 (a 1 0) ∗ accHeld I c 1 1 (a 1 1) ∗ accHeld I c 1 2 (a 1 2) ∗ accHeld I c 2 0 (a 2 0) ∗ accHeld I c 2 1 (a 2 1) ∗ accHeld I c 2 2 (a 2 2) ∗ accHeld I c 3 0 (a 3 0) ∗ accHeld I c 3 1 (a 3 1) ∗ accHeld I c 3 2 (a 3 2)) := rfl

/-- The three receive slices of a step already waited for, out of those that have come back. -/
theorem rsBack_take (I : Dev nD → Ins F) (c : Dev nD) (t : ℕ) (k : Fin 24) (h : (posK k).val < t) :
    rsBack I c t = iprop(rs3 I c k
      ∗ bigSep ((Finset.univ.filter fun k' : Fin 24 => (posK k').val < t).erase k) fun k' => rs3 I c k') := by
  unfold rsBack
  exact bigSep_erase (Finset.mem_filter.mpr ⟨Finset.mem_univ k, h⟩)

/-- A tile held at a level is the tile at that level's value. -/
theorem accHeld_some_succ (I : Dev nD → Ins F) (c : Dev nD) (g : Fin 4) (p : Fin 3) (v : ℕ) :
    accHeld I c g p (some (v + 1)) = accTile c g p (accLevel I c g p v) := rfl

theorem accHeld_some_zero (I : Dev nD → Ins F) (c : Dev nD) (g : Fin 4) (p : Fin 3) :
    accHeld I c g p (some 0) = accTileAny (F := F) c g p := rfl

theorem accHeld_none (I : Dev nD → Ins F) (c : Dev nD) (g : Fin 4) (p : Fin 3) :
    accHeld I c g p none = (iprop(emp) : sProp (MT nD τ sig Unit (Elt F) ℕ UU ℕ)) := rfl

/-- info: 'Cert.KernelIdeal.Body.St_eq' depends on axioms: [propext, Classical.choice, Quot.sound] -/
#guard_msgs in #print axioms St_eq
/-- info: 'Cert.KernelIdeal.Body.StRest_congr' depends on axioms: [propext, Classical.choice, Quot.sound] -/
#guard_msgs in #print axioms StRest_congr

end Cert.KernelIdeal.Body

end
-- ==== Proof.BodyAccTable.lean ====
import proofs.«900775_g7700000000000776_dist_diff_dit_htp_i_b2_s512_d768_hq4_v7x_i8_f32_1_alg».proof.Proof.BodyWrap

/-! The twelve accumulator tiles at each place between two parts of the body, one factor a tile: nothing for a tile that is
    away, the tile at some contents before its first store, the tile at its level's value after. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem accAll_σ_0 (I : Dev nD → Ins F) (c : Dev nD) :
    accAll I c (σ 0).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_1 (I : Dev nD → Ins F) (c : Dev nD) :
    accAll I c (σ 1).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_2 (I : Dev nD → Ins F) (c : Dev nD) :
    accAll I c (σ 2).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_3 (I : Dev nD → Ins F) (c : Dev nD) :
    accAll I c (σ 3).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_4 (I : Dev nD → Ins F) (c : Dev nD) :
    accAll I c (σ 4).acc = (iprop(accTile c 0 0 (A I 0 c 0 0 0) ∗ accTile c 0 1 (A I 0 c 0 1 0) ∗ accTile c 0 2 (A I 0 c 0 2 0) ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_5 (I : Dev nD → Ins F) (c : Dev nD) :
    accAll I c (σ 5).acc = (iprop(emp ∗ emp ∗ accTile c 0 2 (A I 0 c 0 2 0) ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_6 (I : Dev nD → Ins F) (c : Dev nD) :
    accAll I c (σ 6).acc = (iprop(emp ∗ emp ∗ emp ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_7 (I : Dev nD → Ins F) (c : Dev nD) :
    accAll I c (σ 7).acc = (iprop(emp ∗ emp ∗ emp ∗ accTile c 1 0 (A I 0 c 1 0 0) ∗ accTile c 1 1 (A I 0 c 1 1 0) ∗ accTile c 1 2 (A I 0 c 1 2 0) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_8 (I : Dev nD → Ins F) (c : Dev nD) :
    accAll I c (σ 8).acc = (iprop(emp ∗ emp ∗ emp ∗ emp ∗ emp ∗ accTile c 1 2 (A I 0 c 1 2 0) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_9 (I : Dev nD → Ins F) (c : Dev nD) :
    accAll I c (σ 9).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_10 (I : Dev nD → Ins F) (c : Dev nD) :
    accAll I c (σ 10).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_11 (I : Dev nD → Ins F) (c : Dev nD) :
    accAll I c (σ 11).acc = (iprop(accTile c 0 0 (A I 0 c 0 0 1) ∗ accTile c 0 1 (A I 0 c 0 1 1) ∗ accTile c 0 2 (A I 0 c 0 2 0) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_12 (I : Dev nD → Ins F) (c : Dev nD) :
    accAll I c (σ 12).acc = (iprop(emp ∗ accTile c 0 1 (A I 0 c 0 1 1) ∗ accTile c 0 2 (A I 0 c 0 2 1) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_13 (I : Dev nD → Ins F) (c : Dev nD) :
    accAll I c (σ 13).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_14 (I : Dev nD → Ins F) (c : Dev nD) :
    accAll I c (σ 14).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_15 (I : Dev nD → Ins F) (c : Dev nD) :
    accAll I c (σ 15).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_16 (I : Dev nD → Ins F) (c : Dev nD) :
    accAll I c (σ 16).acc = (iprop(emp ∗ emp ∗ emp ∗ accTile c 1 0 (A I 0 c 1 0 1) ∗ accTile c 1 1 (A I 0 c 1 1 0) ∗ accTile c 1 2 (A I 0 c 1 2 0) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_17 (I : Dev nD → Ins F) (c : Dev nD) :
    accAll I c (σ 17).acc = (iprop(emp ∗ emp ∗ emp ∗ emp ∗ accTile c 1 1 (A I 0 c 1 1 1) ∗ accTile c 1 2 (A I 0 c 1 2 1) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_18 (I : Dev nD → Ins F) (c : Dev nD) :
    accAll I c (σ 18).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_19 (I : Dev nD → Ins F) (c : Dev nD) :
    accAll I c (σ 19).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_20 (I : Dev nD → Ins F) (c : Dev nD) :
    accAll I c (σ 20).acc = (iprop(accTile c 0 0 (A I 0 c 0 0 1) ∗ accTile c 0 1 (A I 0 c 0 1 1) ∗ accTile c 0 2 (A I 0 c 0 2 1) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_21 (I : Dev nD → Ins F) (c : Dev nD) :
    accAll I c (σ 21).acc = (iprop(accTile c 0 0 (A I 0 c 0 0 2) ∗ accTile c 0 1 (A I 0 c 0 1 2) ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_22 (I : Dev nD → Ins F) (c : Dev nD) :
    accAll I c (σ 22).acc = (iprop(emp ∗ emp ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_23 (I : Dev nD → Ins F) (c : Dev nD) :
    accAll I c (σ 23).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_24 (I : Dev nD → Ins F) (c : Dev nD) :
    accAll I c (σ 24).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_25 (I : Dev nD → Ins F) (c : Dev nD) :
    accAll I c (σ 25).acc = (iprop(emp ∗ emp ∗ emp ∗ accTile c 1 0 (A I 0 c 1 0 2) ∗ accTile c 1 1 (A I 0 c 1 1 1) ∗ accTile c 1 2 (A I 0 c 1 2 1) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_26 (I : Dev nD → Ins F) (c : Dev nD) :
    accAll I c (σ 26).acc = (iprop(emp ∗ emp ∗ emp ∗ emp ∗ accTile c 1 1 (A I 0 c 1 1 2) ∗ accTile c 1 2 (A I 0 c 1 2 2) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_27 (I : Dev nD → Ins F) (c : Dev nD) :
    accAll I c (σ 27).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_28 (I : Dev nD → Ins F) (c : Dev nD) :
    accAll I c (σ 28).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_29 (I : Dev nD → Ins F) (c : Dev nD) :
    accAll I c (σ 29).acc = (iprop(accTile c 0 0 (A I 0 c 0 0 2) ∗ accTile c 0 1 (A I 0 c 0 1 2) ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_30 (I : Dev nD → Ins F) (c : Dev nD) :
    accAll I c (σ 30).acc = (iprop(accTile c 0 0 (A I 0 c 0 0 2) ∗ accTile c 0 1 (A I 0 c 0 1 2) ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_31 (I : Dev nD → Ins F) (c : Dev nD) :
    accAll I c (σ 31).acc = (iprop(accTile c 0 0 (A I 0 c 0 0 2) ∗ accTile c 0 1 (A I 0 c 0 1 2) ∗ accTile c 0 2 (A I 0 c 0 2 2) ∗ emp ∗ emp ∗ emp ∗ emp ∗ accTile c 2 1 (A I 0 c 2 1 0) ∗ accTile c 2 2 (A I 0 c 2 2 0) ∗ accTileAny (F := F) c 3 0 ∗ accTileAny (F := F) c 3 1 ∗ accTileAny (F := F) c 3 2) : sProp (MT nD τ sig Unit (Elt F) ℕ UU ℕ)) := rfl
theorem accAll_σ_32 (I : Dev nD → Ins F) (c : Dev nD) :
    accAll I c (σ 32).acc = (iprop(accTile c 0 0 (A I 0 c 0 0 2) ∗ accTile c 0 1 (A I 0 c 0 1 2) ∗ accTile c 0 2 (A I 0 c 0 2 2) ∗ emp ∗ emp ∗ emp ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_33 (I : Dev nD → Ins F) (c : Dev nD) :
    accAll I c (σ 33).acc = (iprop(accTile c 0 0 (A I 0 c 0 0 2) ∗ accTile c 0 1 (A I 0 c 0 1 2) ∗ accTile c 0 2 (A I 0 c 0 2 2) ∗ emp ∗ emp ∗ emp ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_34 (I : Dev nD → Ins F) (c : Dev nD) :
    accAll I c (σ 34).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_35 (I : Dev nD → Ins F) (c : Dev nD) :
    accAll I c (σ 35).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_36 (I : Dev nD → Ins F) (c : Dev nD) :
    accAll I c (σ 36).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ accTile c 3 1 (A I 0 c 3 1 0) ∗ accTile c 3 2 (A I 0 c 3 2 0)) : sProp (MT nD τ sig Unit (Elt F) ℕ UU ℕ)) := rfl
theorem accAll_σ_37 (I : Dev nD → Ins F) (c : Dev nD) :
    accAll I c (σ 37).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_38 (I : Dev nD → Ins F) (c : Dev nD) :
    accAll I c (σ 38).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_39 (I : Dev nD → Ins F) (c : Dev nD) :
    accAll I c (σ 39).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 0) ∗ accTile c 2 1 (A I 0 c 2 1 0) ∗ accTile c 2 2 (A I 0 c 2 2 0) ∗ emp ∗ emp ∗ emp) : sProp (MT nD τ sig Unit (Elt F) ℕ UU ℕ)) := rfl
theorem accAll_σ_40 (I : Dev nD → Ins F) (c : Dev nD) :
    accAll I c (σ 40).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 1) ∗ accTile c 2 1 (A I 0 c 2 1 1) ∗ accTile c 2 2 (A I 0 c 2 2 1) ∗ emp ∗ emp ∗ emp) : sProp (MT nD τ sig Unit (Elt F) ℕ UU ℕ)) := rfl
theorem accAll_σ_41 (I : Dev nD → Ins F) (c : Dev nD) :
    accAll I c (σ 41).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ accTile c 2 2 (A I 0 c 2 2 1) ∗ emp ∗ emp ∗ emp) : sProp (MT nD τ sig Unit (Elt F) ℕ UU ℕ)) := rfl
theorem accAll_σ_42 (I : Dev nD → Ins F) (c : Dev nD) :
    accAll I c (σ 42).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_43 (I : Dev nD → Ins F) (c : Dev nD) :
    accAll I c (σ 43).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_44 (I : Dev nD → Ins F) (c : Dev nD) :
    accAll I c (σ 44).acc = (iprop(emp ∗ accTile c 0 1 (A I 1 c 0 1 0) ∗ accTile c 0 2 (A I 1 c 0 2 0) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_45 (I : Dev nD → Ins F) (c : Dev nD) :
    accAll I c (σ 45).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_46 (I : Dev nD → Ins F) (c : Dev nD) :
    accAll I c (σ 46).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_47 (I : Dev nD → Ins F) (c : Dev nD) :
    accAll I c (σ 47).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 0) ∗ accTile c 3 1 (A I 0 c 3 1 0) ∗ accTile c 3 2 (A I 0 c 3 2 0)) : sProp (MT nD τ sig Unit (Elt F) ℕ UU ℕ)) := rfl
theorem accAll_σ_48 (I : Dev nD → Ins F) (c : Dev nD) :
    accAll I c (σ 48).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 1) ∗ accTile c 3 1 (A I 0 c 3 1 1) ∗ accTile c 3 2 (A I 0 c 3 2 1)) : sProp (MT nD τ sig Unit (Elt F) ℕ UU ℕ)) := rfl
theorem accAll_σ_49 (I : Dev nD → Ins F) (c : Dev nD) :
    accAll I c (σ 49).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ accTile c 3 2 (A I 0 c 3 2 1)) : sProp (MT nD τ sig Unit (Elt F) ℕ UU ℕ)) := rfl
theorem accAll_σ_50 (I : Dev nD → Ins F) (c : Dev nD) :
    accAll I c (σ 50).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_51 (I : Dev nD → Ins F) (c : Dev nD) :
    accAll I c (σ 51).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_52 (I : Dev nD → Ins F) (c : Dev nD) :
    accAll I c (σ 52).acc = (iprop(emp ∗ emp ∗ emp ∗ accTile c 1 0 (A I 0 c 1 0 2) ∗ accTile c 1 1 (A I 0 c 1 1 2) ∗ accTile c 1 2 (A I 0 c 1 2 2) ∗ accTile c 2 0 (A I 0 c 2 0 2) ∗ accTile c 2 1 (A I 0 c 2 1 2) ∗ accTile c 2 2 (A I 0 c 2 2 1) ∗ emp ∗ emp ∗ emp) : sProp (MT nD τ sig Unit (Elt F) ℕ UU ℕ)) := rfl
theorem accAll_σ_53 (I : Dev nD → Ins F) (c : Dev nD) :
    accAll I c (σ 53).acc = (iprop(emp ∗ emp ∗ emp ∗ accTile c 1 0 (A I 0 c 1 0 2) ∗ accTile c 1 1 (A I 0 c 1 1 2) ∗ accTile c 1 2 (A I 0 c 1 2 2) ∗ emp ∗ accTile c 2 1 (A I 0 c 2 1 2) ∗ accTile c 2 2 (A I 0 c 2 2 2) ∗ emp ∗ emp ∗ emp) : sProp (MT nD τ sig Unit (Elt F) ℕ UU ℕ)) := rfl
theorem accAll_σ_54 (I : Dev nD → Ins F) (c : Dev nD) :
    accAll I c (σ 54).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_55 (I : Dev nD → Ins F) (c : Dev nD) :
    accAll I c (σ 55).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_56 (I : Dev nD → Ins F) (c : Dev nD) :
    accAll I c (σ 56).acc = (iprop(emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp) : sProp (MT nD τ sig Unit (Elt F) ℕ UU ℕ)) := rfl
theorem accAll_σ_57 (I : Dev nD → Ins F) (c : Dev nD) :
    accAll I c (σ 57).acc = (iprop(emp ∗ emp ∗ emp ∗ emp ∗ emp ∗ accTile c 1 2 (A I 1 c 1 2 0) ∗ emp ∗ emp ∗ emp ∗ emp ∗ emp ∗ emp) : sProp (MT nD τ sig Unit (Elt F) ℕ UU ℕ)) := rfl
theorem accAll_σ_58 (I : Dev nD → Ins F) (c : Dev nD) :
    accAll I c (σ 58).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_59 (I : Dev nD → Ins F) (c : Dev nD) :
    accAll I c (σ 59).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_60 (I : Dev nD → Ins F) (c : Dev nD) :
    accAll I c (σ 60).acc = (iprop(accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp) : sProp (MT nD τ sig Unit (Elt F) ℕ UU ℕ)) := rfl
theorem accAll_σ_61 (I : Dev nD → Ins F) (c : Dev nD) :
    accAll I c (σ 61).acc = (iprop(emp ∗ accTile c 0 1 (A I 1 c 0 1 1) ∗ accTile c 0 2 (A I 1 c 0 2 1) ∗ emp ∗ emp ∗ emp ∗ emp ∗ emp ∗ emp ∗ emp ∗ emp ∗ emp) : sProp (MT nD τ sig Unit (Elt F) ℕ UU ℕ)) := rfl
theorem accAll_σ_62 (I : Dev nD → Ins F) (c : Dev nD) :
    accAll I c (σ 62).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_63 (I : Dev nD → Ins F) (c : Dev nD) :
    accAll I c (σ 63).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_64 (I : Dev nD → Ins F) (c : Dev nD) :
    accAll I c (σ 64).acc = (iprop(emp ∗ emp ∗ emp ∗ emp ∗ emp ∗ emp ∗ emp ∗ emp ∗ emp ∗ accTile c 3 0 (A I 0 c 3 0 1) ∗ accTile c 3 1 (A I 0 c 3 1 1) ∗ accTile c 3 2 (A I 0 c 3 2 1)) : sProp (MT nD τ sig Unit (Elt F) ℕ UU ℕ)) := rfl
theorem accAll_σ_65 (I : Dev nD → Ins F) (c : Dev nD) :
    accAll I c (σ 65).acc = (iprop(emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2)) : sProp (MT nD τ sig Unit (Elt F) ℕ UU ℕ)) := rfl
theorem accAll_σ_66 (I : Dev nD → Ins F) (c : Dev nD) :
    accAll I c (σ 66).acc = (iprop(emp ∗ emp ∗ emp ∗ emp ∗ emp ∗ emp ∗ emp ∗ emp ∗ emp ∗ emp ∗ emp ∗ accTile c 3 2 (A I 0 c 3 2 2)) : sProp (MT nD τ sig Unit (Elt F) ℕ UU ℕ)) := rfl
theorem accAll_σ_67 (I : Dev nD → Ins F) (c : Dev nD) :
    accAll I c (σ 67).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_68 (I : Dev nD → Ins F) (c : Dev nD) :
    accAll I c (σ 68).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_69 (I : Dev nD → Ins F) (c : Dev nD) :
    accAll I c (σ 69).acc = (iprop(emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp) : sProp (MT nD τ sig Unit (Elt F) ℕ UU ℕ)) := rfl
theorem accAll_σ_70 (I : Dev nD → Ins F) (c : Dev nD) :
    accAll I c (σ 70).acc = (iprop(emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp) : sProp (MT nD τ sig Unit (Elt F) ℕ UU ℕ)) := rfl
theorem accAll_σ_71 (I : Dev nD → Ins F) (c : Dev nD) :
    accAll I c (σ 71).acc = (iprop(emp ∗ emp ∗ emp ∗ emp ∗ emp ∗ emp ∗ emp ∗ accTile c 2 1 (A I 1 c 2 1 0) ∗ accTile c 2 2 (A I 1 c 2 2 0) ∗ emp ∗ emp ∗ emp) : sProp (MT nD τ sig Unit (Elt F) ℕ UU ℕ)) := rfl
theorem accAll_σ_72 (I : Dev nD → Ins F) (c : Dev nD) :
    accAll I c (σ 72).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_73 (I : Dev nD → Ins F) (c : Dev nD) :
    accAll I c (σ 73).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_74 (I : Dev nD → Ins F) (c : Dev nD) :
    accAll I c (σ 74).acc = (iprop(emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp) : sProp (MT nD τ sig Unit (Elt F) ℕ UU ℕ)) := rfl
theorem accAll_σ_75 (I : Dev nD → Ins F) (c : Dev nD) :
    accAll I c (σ 75).acc = (iprop(emp ∗ emp ∗ emp ∗ accTile c 1 0 (A I 1 c 1 0 1) ∗ accTile c 1 1 (A I 1 c 1 1 1) ∗ accTile c 1 2 (A I 1 c 1 2 1) ∗ emp ∗ emp ∗ emp ∗ emp ∗ emp ∗ emp) : sProp (MT nD τ sig Unit (Elt F) ℕ UU ℕ)) := rfl
theorem accAll_σ_76 (I : Dev nD → Ins F) (c : Dev nD) :
    accAll I c (σ 76).acc = (iprop(emp ∗ emp ∗ emp ∗ emp ∗ emp ∗ accTile c 1 2 (A I 1 c 1 2 1) ∗ emp ∗ emp ∗ emp ∗ emp ∗ emp ∗ emp) : sProp (MT nD τ sig Unit (Elt F) ℕ UU ℕ)) := rfl
theorem accAll_σ_77 (I : Dev nD → Ins F) (c : Dev nD) :
    accAll I c (σ 77).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_78 (I : Dev nD → Ins F) (c : Dev nD) :
    accAll I c (σ 78).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_79 (I : Dev nD → Ins F) (c : Dev nD) :
    accAll I c (σ 79).acc = (iprop(accTile c 0 0 (A I 1 c 0 0 2) ∗ accTile c 0 1 (A I 1 c 0 1 2) ∗ accTile c 0 2 (A I 1 c 0 2 1) ∗ emp ∗ emp ∗ emp ∗ emp ∗ emp ∗ emp ∗ emp ∗ emp ∗ emp) : sProp (MT nD τ sig Unit (Elt F) ℕ UU ℕ)) := rfl
theorem accAll_σ_80 (I : Dev nD → Ins F) (c : Dev nD) :
    accAll I c (σ 80).acc = (iprop(emp ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_81 (I : Dev nD → Ins F) (c : Dev nD) :
    accAll I c (σ 81).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_82 (I : Dev nD → Ins F) (c : Dev nD) :
    accAll I c (σ 82).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_83 (I : Dev nD → Ins F) (c : Dev nD) :
    accAll I c (σ 83).acc = (iprop(emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2)) : sProp (MT nD τ sig Unit (Elt F) ℕ UU ℕ)) := rfl
theorem accAll_σ_84 (I : Dev nD → Ins F) (c : Dev nD) :
    accAll I c (σ 84).acc = (iprop(emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2)) : sProp (MT nD τ sig Unit (Elt F) ℕ UU ℕ)) := rfl
theorem accAll_σ_85 (I : Dev nD → Ins F) (c : Dev nD) :
    accAll I c (σ 85).acc = (iprop(emp ∗ emp ∗ emp ∗ emp ∗ emp ∗ emp ∗ emp ∗ emp ∗ emp ∗ accTile c 3 0 (A I 1 c 3 0 0) ∗ accTile c 3 1 (A I 1 c 3 1 0) ∗ accTile c 3 2 (A I 1 c 3 2 0)) : sProp (MT nD τ sig Unit (Elt F) ℕ UU ℕ)) := rfl
theorem accAll_σ_86 (I : Dev nD → Ins F) (c : Dev nD) :
    accAll I c (σ 86).acc = (iprop(emp ∗ emp ∗ emp ∗ emp ∗ emp ∗ emp ∗ emp ∗ emp ∗ emp ∗ emp ∗ emp ∗ accTile c 3 2 (A I 1 c 3 2 0)) : sProp (MT nD τ sig Unit (Elt F) ℕ UU ℕ)) := rfl
theorem accAll_σ_87 (I : Dev nD → Ins F) (c : Dev nD) :
    accAll I c (σ 87).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_88 (I : Dev nD → Ins F) (c : Dev nD) :
    accAll I c (σ 88).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_89 (I : Dev nD → Ins F) (c : Dev nD) :
    accAll I c (σ 89).acc = (iprop(emp ∗ emp ∗ emp ∗ emp ∗ emp ∗ emp ∗ accTile c 2 0 (A I 1 c 2 0 1) ∗ accTile c 2 1 (A I 1 c 2 1 1) ∗ accTile c 2 2 (A I 1 c 2 2 0) ∗ emp ∗ emp ∗ emp) : sProp (MT nD τ sig Unit (Elt F) ℕ UU ℕ)) := rfl
theorem accAll_σ_90 (I : Dev nD → Ins F) (c : Dev nD) :
    accAll I c (σ 90).acc = (iprop(emp ∗ emp ∗ emp ∗ emp ∗ emp ∗ emp ∗ emp ∗ accTile c 2 1 (A I 1 c 2 1 1) ∗ accTile c 2 2 (A I 1 c 2 2 1) ∗ emp ∗ emp ∗ emp) : sProp (MT nD τ sig Unit (Elt F) ℕ UU ℕ)) := rfl
theorem accAll_σ_91 (I : Dev nD → Ins F) (c : Dev nD) :
    accAll I c (σ 91).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_92 (I : Dev nD → Ins F) (c : Dev nD) :
    accAll I c (σ 92).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_93 (I : Dev nD → Ins F) (c : Dev nD) :
    accAll I c (σ 93).acc = (iprop(emp ∗ emp ∗ emp ∗ accTile c 1 0 (A I 1 c 1 0 2) ∗ accTile c 1 1 (A I 1 c 1 1 1) ∗ accTile c 1 2 (A I 1 c 1 2 1) ∗ emp ∗ emp ∗ emp ∗ emp ∗ emp ∗ emp) : sProp (MT nD τ sig Unit (Elt F) ℕ UU ℕ)) := rfl
theorem accAll_σ_94 (I : Dev nD → Ins F) (c : Dev nD) :
    accAll I c (σ 94).acc = (iprop(emp ∗ emp ∗ emp ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_95 (I : Dev nD → Ins F) (c : Dev nD) :
    accAll I c (σ 95).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_96 (I : Dev nD → Ins F) (c : Dev nD) :
    accAll I c (σ 96).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_97 (I : Dev nD → Ins F) (c : Dev nD) :
    accAll I c (σ 97).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_98 (I : Dev nD → Ins F) (c : Dev nD) :
    accAll I c (σ 98).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_99 (I : Dev nD → Ins F) (c : Dev nD) :
    accAll I c (σ 99).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_100 (I : Dev nD → Ins F) (c : Dev nD) :
    accAll I c (σ 100).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_101 (I : Dev nD → Ins F) (c : Dev nD) :
    accAll I c (σ 101).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ accTile c 3 0 (A I 1 c 3 0 1) ∗ accTile c 3 1 (A I 1 c 3 1 1) ∗ accTile c 3 2 (A I 1 c 3 2 0)) : sProp (MT nD τ sig Unit (Elt F) ℕ UU ℕ)) := rfl
theorem accAll_σ_102 (I : Dev nD → Ins F) (c : Dev nD) :
    accAll I c (σ 102).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ accTile c 3 1 (A I 1 c 3 1 1) ∗ accTile c 3 2 (A I 1 c 3 2 1)) : sProp (MT nD τ sig Unit (Elt F) ℕ UU ℕ)) := rfl
theorem accAll_σ_103 (I : Dev nD → Ins F) (c : Dev nD) :
    accAll I c (σ 103).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_104 (I : Dev nD → Ins F) (c : Dev nD) :
    accAll I c (σ 104).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_105 (I : Dev nD → Ins F) (c : Dev nD) :
    accAll I c (σ 105).acc = (iprop(accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 1) ∗ accTile c 2 2 (A I 1 c 2 2 1) ∗ emp ∗ emp ∗ emp) : sProp (MT nD τ sig Unit (Elt F) ℕ UU ℕ)) := rfl
theorem accAll_σ_106 (I : Dev nD → Ins F) (c : Dev nD) :
    accAll I c (σ 106).acc = (iprop(accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_107 (I : Dev nD → Ins F) (c : Dev nD) :
    accAll I c (σ 107).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_108 (I : Dev nD → Ins F) (c : Dev nD) :
    accAll I c (σ 108).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_109 (I : Dev nD → Ins F) (c : Dev nD) :
    accAll I c (σ 109).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_110 (I : Dev nD → Ins F) (c : Dev nD) :
    accAll I c (σ 110).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_111 (I : Dev nD → Ins F) (c : Dev nD) :
    accAll I c (σ 111).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_112 (I : Dev nD → Ins F) (c : Dev nD) :
    accAll I c (σ 112).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 1) ∗ accTile c 3 1 (A I 1 c 3 1 1) ∗ accTile c 3 2 (A I 1 c 3 2 1)) : sProp (MT nD τ sig Unit (Elt F) ℕ UU ℕ)) := rfl
theorem accAll_σ_113 (I : Dev nD → Ins F) (c : Dev nD) :
    accAll I c (σ 113).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 2) ∗ accTile c 3 1 (A I 1 c 3 1 2) ∗ accTile c 3 2 (A I 1 c 3 2 1)) : sProp (MT nD τ sig Unit (Elt F) ℕ UU ℕ)) := rfl
theorem accAll_σ_114 (I : Dev nD → Ins F) (c : Dev nD) :
    accAll I c (σ 114).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ accTile c 3 2 (A I 1 c 3 2 2)) : sProp (MT nD τ sig Unit (Elt F) ℕ UU ℕ)) := rfl
theorem accAll_σ_115 (I : Dev nD → Ins F) (c : Dev nD) :
    accAll I c (σ 115).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_116 (I : Dev nD → Ins F) (c : Dev nD) :
    accAll I c (σ 116).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_117 (I : Dev nD → Ins F) (c : Dev nD) :
    accAll I c (σ 117).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_118 (I : Dev nD → Ins F) (c : Dev nD) :
    accAll I c (σ 118).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_119 (I : Dev nD → Ins F) (c : Dev nD) :
    accAll I c (σ 119).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_120 (I : Dev nD → Ins F) (c : Dev nD) :
    accAll I c (σ 120).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2)) : sProp (MT nD τ sig Unit (Elt F) ℕ UU ℕ)) := rfl
theorem accAll_σ_121 (I : Dev nD → Ins F) (c : Dev nD) :
    accAll I c (σ 121).acc = (iprop(accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp) : sProp (MT nD τ sig Unit (Elt F) ℕ UU ℕ)) := rfl
theorem accAll_σ_122 (I : Dev nD → Ins F) (c : Dev nD) :
    accAll I c (σ 122).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2)) : sProp (MT nD τ sig Unit (Elt F) ℕ UU ℕ)) := rfl
theorem accAll_σ_123 (I : Dev nD → Ins F) (c : Dev nD) :
    accAll I c (σ 123).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2)) : sProp (MT nD τ sig Unit (Elt F) ℕ UU ℕ)) := rfl

end Cert.KernelIdeal.Body

end
-- ==== Proof.Parts.Part4.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L4
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable

/-! Part 4 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 4 of the body, run from the place before it, ends at the place after it and returns its values; whatever else is held is kept. -/
theorem part_4 (m : (ℓ : Loc nD τ sig) → Buf (Elt F) ℓ) (K : Dev nD × Cell → ℕ) (c : Dev nD) (Fr : sProp 𝕄) :
    iprop(St (insM m) K (σ 3) c ∗ outHeld (insM m) c (σ 3).outs ∗ Fr)
      ⊢ wp frame (wpE (defs₀ (F := F)) 𝒱₀ (c : Thread nD τ) none) Set.univ
          (k0_part4 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv37 (insM m) c) (Vals.lv80 (insM m) c) (Vals.lv83 (insM m) c) (Vals.lv89 (insM m) c) (Vals.lv101 (insM m) c) (Vals.lv113 (insM m) c) (Vals.lv116 (insM m) c) (Vals.lv119 (insM m) c) (Vals.lv120 (insM m) c))
          (fun tup => iprop(⌜tup = Vals.lw154 c⌝ ∗ St (insM m) K (σ 4) c ∗ outHeld (insM m) c (σ 4).outs ∗ Fr)) := by
  have eo : (σ 4).outs = (σ 3).outs := rfl
  rw [eo]
  rw [St_eq, St_eq, StRest_congr (insM m) K c (s := σ 3) (s' := σ 4) rfl rfl rfl rfl, accAll_σ_3, accAll_σ_4]
  refine BIBase.Entails.trans ?_ ((local_4 (insM m) c iprop(StRest (insM m) K (σ 4) c ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2 ∗ outHeld (insM m) c (σ 3).outs ∗ Fr)).trans (wp_mono _ _ _ fun tup => ?_))
  · iintro ⟨⟨HR, T00, T01, T02, T10, T11, T12, T20, T21, T22, T30, T31, T32⟩, HO, HF⟩
    isplitl [T00]; · iexact T00
    isplitl [T01]; · iexact T01
    isplitl [T02]; · iexact T02
    isplitl [HR]; · iexact HR
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T00, T01, T02, HR, T10, T11, T12, T20, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_4' depends on axioms: [propext, Classical.choice, Quot.sound] -/
#guard_msgs in #print axioms part_4

end Cert.KernelIdeal.Body

end
-- ==== Proof.BodyFire.lean ====
/-
  One addressed copy of the exchange, as a rule.

  At step `k` device `c` starts the copy of part `p` of its accumulator slice (group `gOf k`) into the receive
  slice (row `rgOf k`, position `sOf k`) of the device it is paired with at that step, crediting its own send cell
  `k` and that device's receive cell `k`. From the two cells' invariants, the source slice at the contents the
  schedule names, the destination slice at any contents, the two duty tokens with round 0 reached, and what the
  device owes with this copy's units on the receive cell among it, the copy is taken: the device holds the credit
  for its send cell's units and owes the rest. The two slices leave its hands: the source comes back with the wait
  on the send cell, the destination, written, is the other device's to receive.
-/
import proofs.«900775_g7700000000000776_dist_diff_dit_htp_i_b2_s512_d768_hq4_v7x_i8_f32_1_alg».proof.Proof.Proto
import Idealize.ShloMosaic.Lib.Rounds

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

variable (accC : Dev nD → Fin 8 → Fin 3 → Fin 3 → Proto.AccBuf F) (rs0 : Dev nD → Proto.RsBuf F)

/-- The copy of part `p` that `c` starts at step `k`, with every term spelt as the schedule spells it. -/
theorem wp_fire (c : Dev nD) (k : Fin 24) (p : Fin 3) {α : Type} {Q : α → sProp 𝕄}
    {hsc : (rsSl (rgOf k) p (sOf k)).view.ref.isScScratch = false}
    {hsrc : (accSl (gOf k) p).view.WordExact} {hdst : (rsSl (rgOf k) p (sOf k)).view.WordExact}
    {hsem : DmaTarget.Typed .vmem (SemLoc.dma (recvS k))
      (.remote ((mate c p k : Dev nD) : Thread nD τ) (rsSl (rgOf k) p (sOf k)) (SemLoc.dma (sendS k)) hsc)}
    {kk : PUnit → Prog (TpuEff nD τ sig (Elt F) Λ₀ (c : Thread nD τ).2) α} {κ₁ κ₂ : ℕ}
    (fd : Buf (Elt F) ((rsSl (rgOf k) p (sOf k)).view.loc ((mate c p k : Dev nD) : Thread nD τ)))
    {O₁ : CellTallies nD τ sig Unit} (O : CellTallies nD τ sig Unit)
    (hO : O₁ = O + tallyAt (recvCell (mate c p k) k) () N) {W : Waits sig Unit} :
    iprop(cellInv ER (Rd accC rs0) κ₁ (sendCell c k) ∗ cellInv ER (Rd accC rs0) κ₂ (recvCell (mate c p k) k)
        ∗ accPts c (gOf k) p (accC c (rgOf k) p (sOf k)) ∗ rsPts (mate c p k) (rgOf k) p (sOf k) fd
        ∗ owes (c : Thread nD τ) O₁ W
        ∗ dutyTok ER (sendCell c k) 0 p ∗ reached ER (sendCell c k) 0
        ∗ dutyTok ER (recvCell (mate c p k) k) 0 p ∗ reached ER (recvCell (mate c p k) k) 0)
      ⊢ iprop(((cred (tallyAt (sendCell c k) () N) ∗ owes (c : Thread nD τ) O W)
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (accSl (gOf k) p)
                (.remote ((mate c p k : Dev nD) : Thread nD τ) (rsSl (rgOf k) p (sOf k)) (SemLoc.dma (sendS k)) hsc)
                (SemLoc.dma (recvS k)) hsrc hdst hsem) kk) Q) :=
  Rounds.wp_send_pointsTo (defs := defs₀ (F := F)) 𝒱₀ ER (Rd accC rs0) (c : Thread nD τ) none
    (c' := ((mate c p k : Dev nD) : Thread nD τ)) (src := accSl (gOf k) p) (dst := rsSl (rgOf k) p (sOf k))
    (sS := SemLoc.dma (sendS k)) (sem := SemLoc.dma (recvS k)) (q := fullShare)
    (fs := accC c (rgOf k) p (sOf k)) (fd := fd) (r₁ := 0) (r₂ := 0) (d₁ := p) (d₂ := p)
    (by show p ∈ (Rd accC rs0).duties (sendCell c k) 0; rw [duties_send]; exact Finset.mem_univ _)
    (by show p ∈ (Rd accC rs0).duties (recvCell (mate c p k) k) 0; rw [duties_recv]; exact Finset.mem_univ _)
    () () N rfl (amount_send accC rs0 c k p) (amount_recv accC rs0 (mate c p k) k p) O hO
    (hpay_send accC rs0 c k p) (hpay_recv accC rs0 c k p fd)

/-- The same copy with the statement's own spellings: the addressed device `dv`, the two slices, the two semaphores
    and the slice coordinates as they stand in the program, each with the equation that identifies it; the source
    slice at any contents `f` that is the one the schedule names. -/
theorem wp_fire_at (c : Dev nD) (k : Fin 24) (p : Fin 3) {α : Type} {Q : α → sProp 𝕄}
    {g : Fin 4} {rg : Fin 8} {s : Fin 3} (hg : g = gOf k) (hrg : rg = rgOf k) (hs : s = sOf k)
    {dv : Dev nD} (hdv : dv = mate c p k)
    {src dst : Memref sig .tc .vmem S256x256 .bf16} (esrc : src = accSl g p) (edst : dst = rsSl rg p s)
    {sS sR : DmaSem sig} (eS : sS = sendS k) (eR : sR = recvS k)
    {hsc : dst.view.ref.isScScratch = false} {hsrc : src.view.WordExact} {hdst : dst.view.WordExact}
    {hsem : DmaTarget.Typed .vmem (SemLoc.dma sR) (.remote ((dv : Dev nD) : Thread nD τ) dst (SemLoc.dma sS) hsc)}
    {kk : PUnit → Prog (TpuEff nD τ sig (Elt F) Λ₀ (c : Thread nD τ).2) α} {κ₁ κ₂ : ℕ}
    (f : Buf (Elt F) ((accSl g p).view.loc (c : Thread nD τ))) (hf : f = accC c rg p s)
    (fd : Buf (Elt F) ((rsSl rg p s).view.loc ((mate c p k : Dev nD) : Thread nD τ)))
    {O₁ : CellTallies nD τ sig Unit} (O : CellTallies nD τ sig Unit)
    (hO : O₁ = O + tallyAt (recvCell (mate c p k) k) () N) {W : Waits sig Unit} :
    iprop(cellInv ER (Rd accC rs0) κ₁ (sendCell c k) ∗ cellInv ER (Rd accC rs0) κ₂ (recvCell (mate c p k) k)
        ∗ accPts c g p f ∗ rsPts (mate c p k) rg p s fd
        ∗ owes (c : Thread nD τ) O₁ W
        ∗ dutyTok ER (sendCell c k) 0 p ∗ reached ER (sendCell c k) 0
        ∗ dutyTok ER (recvCell (mate c p k) k) 0 p ∗ reached ER (recvCell (mate c p k) k) 0)
      ⊢ iprop(((cred (tallyAt (sendCell c k) () N) ∗ owes (c : Thread nD τ) O W)
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote ((dv : Dev nD) : Thread nD τ) dst (SemLoc.dma sS) hsc)
                (SemLoc.dma sR) hsrc hdst hsem) kk) Q) := by
  subst hg hrg hs hdv esrc edst eS eR hf
  exact wp_fire accC rs0 c k p fd O hO

/-- Paying the copy of part `p` of the `i`-th started step, step `k`, as payment `n`: its units on the paired
    device's receive cell are the last summand of what the device owes. -/
theorem owed_copy (c : Dev nD) (i : Fin 24) (p : Fin 3) (n : ℕ) (hn : n = 3 + 3 * i.val + p.val) (k : Fin 24)
    (hk : k = fireK i) :
    owedFrom c n = owedFrom c (n + 1) + tallyAt (recvCell (mate c p k) k) () N := by
  subst hn hk
  have hi := i.isLt
  have hp := p.isLt
  rw [owedFrom_succ c (3 + 3 * i.val + p.val) (by omega), dueCell_fire c i p, dueAmt_fire i p]

/-- Hands the copy rule its nine premises, in the rule's order: the send cell's invariant, the receive cell's, the
    source slice, the destination slice, what the device owes, the send duty's token, round 0 of the send cell
    reached, the receive duty's token, round 0 of the receive cell reached. -/
macro "fire_premises " is:ident ir:ident a:ident r:ident o:ident ts:ident rs:ident tr:ident rr:ident : tactic =>
  `(tactic| (isplitr; · iexact $is
             isplitr; · iexact $ir
             isplitl [$a:ident]; · iexact $a
             isplitl [$r:ident]; · iexact $r
             isplitl [$o:ident]; · iexact $o
             isplitl [$ts:ident]; · iexact $ts
             isplitr; · iexact $rs
             isplitl [$tr:ident]; · iexact $tr
             iexact $rr))

/-- info: 'Cert.KernelIdeal.Body.wp_fire_at' depends on axioms: [propext, Classical.choice, Quot.sound] -/
#guard_msgs in #print axioms wp_fire_at

/-- info: 'Cert.KernelIdeal.Body.owed_copy' depends on axioms: [propext, Classical.choice, Quot.sound] -/
#guard_msgs in #print axioms owed_copy

end Cert.KernelIdeal.Body

end
-- ==== Proof.Parts.L5.lean ====
/-
  Part 5 of the body starts two copies of step 0 (the first step started): part 0 of accumulator slice (0, 0) goes to the
  first neighbour's receive slice (0, 0, 0), part 1 of slice (0, 1) to the second neighbour's receive slice (0, 1, 0).
  The two accumulator slices, at round 0's first level, and the two neighbours' receive slices leave the device's hands;
  it holds the two departure credits of its send cell 0 and owes two payments fewer. The returned words are the numbers
  of its second and third neighbours.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 5: the copies of parts 0 and 1 of step 0. -/
theorem local_5 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 3) W)
        ∗ dutyTok ER (sendCell c 0) 0 0 ∗ dutyTok ER (recvCell (mate c 0 0) 0) 0 0
        ∗ dutyTok ER (sendCell c 0) 0 1 ∗ dutyTok ER (recvCell (mate c 1 0) 0) 0 1
        ∗ rsTileAny (F := F) (mate c 0 0) 0 0 0
        ∗ rsTileAny (F := F) (mate c 1 0) 0 1 0
        ∗ accTile c 0 0 (A I 0 c 0 0 0)
        ∗ accTile c 0 1 (A I 0 c 0 1 0)
        ∗ P)
      ⊢ wp frame (wpE (defs₀ (F := F)) 𝒱₀ (c : Thread nD τ) none) Set.univ
          (k0_part5 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (lw2 c) (lw154 c))
          (fun tup => iprop(⌜tup = ⟨Vals.lw165 c, Vals.lw176 c⟩⌝
            ∗ (∃ W, owes (c : Thread nD τ) (owedFrom c 5) W)
            ∗ cred (tallyAt (sendCell c 0) () N)
            ∗ cred (tallyAt (sendCell c 0) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 0)) $$ HR
  ihave #HRs := (reached_at (RdI I) K (c, Cell.send 0)) $$ HR
  ihave #HIr0 := (inv_at (RdI I) K (mate c 0 0, Cell.recv 0)) $$ HR
  ihave #HRr0 := (reached_at (RdI I) K (mate c 0 0, Cell.recv 0)) $$ HR
  ihave #HIr1 := (inv_at (RdI I) K (mate c 1 0, Cell.recv 0)) $$ HR
  ihave #HRr1 := (reached_at (RdI I) K (mate c 1 0, Cell.recv 0)) $$ HR
  sl_exec
  iapply (wp_fire_at (accCI I) (rs0I I) c 0 0 (g := 0) (rg := 0) (s := 0) (by decide) (by decide) (by decide)
      (dv := ⟨k0_dev4 c, k0_dev4_lt c⟩) ((dev4_eq c).trans rfl) rfl rfl (sendS_eq 0).symm (recvS_eq 0).symm
      (accEmb 0 0 (A I 0 c 0 0 0)) rfl fd0 (owedFrom c 4) (owed_copy c 0 0 3 (by decide) 0 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 0 1 (g := 0) (rg := 0) (s := 0) (by decide) (by decide) (by decide)
      (dv := ⟨k0_dev5 c, k0_dev5_lt c⟩) ((dev5_eq c).trans rfl) rfl rfl (sendS_eq 0).symm (recvS_eq 0).symm
      (accEmb 0 1 (A I 0 c 0 1 0)) rfl fd1 (owedFrom c 5) (owed_copy c 0 1 4 (by decide) 0 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_5' depends on axioms: [propext, Classical.choice, Quot.sound] -/
#guard_msgs in #print axioms Cert.KernelIdeal.Body.local_5

end
-- ==== Proof.BodyOpen.lean ====
import proofs.«900775_g7700000000000776_dist_diff_dit_htp_i_b2_s512_d768_hq4_v7x_i8_f32_1_alg».proof.Proof.BodyState

/-! The state between two stretches of the body, written out at every place of the table: what is owed and the tokens
    and credits from their place on, the departure credits outstanding one by one, the cells waited, being waited and to be
    waited, the receive slices still to be written and those come back, and the twelve accumulator tiles. Each line is the
    definition read at a literal place. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem St_open_0 (I : Dev nD → Ins F) (K : Dev nD × Cell → ℕ) (c : Dev nD) : St I K (σ 0) c
    = iprop(records (RdI I) K ∗ levAts Proto.L Proto.lv ∗ (∃ W, owes (c : Thread nD τ) (owedFrom c 0) W) ∗ toksFrom c 0 ∗ credFrom c 0
      ∗ emp
      ∗ todoFrom c 0
      ∗ ownOut c
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_1 (I : Dev nD → Ins F) (K : Dev nD × Cell → ℕ) (c : Dev nD) : St I K (σ 1) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_2 (I : Dev nD → Ins F) (K : Dev nD × Cell → ℕ) (c : Dev nD) : St I K (σ 2) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_3 (I : Dev nD → Ins F) (K : Dev nD × Cell → ℕ) (c : Dev nD) : St I K (σ 3) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_4 (I : Dev nD → Ins F) (K : Dev nD × Cell → ℕ) (c : Dev nD) : St I K (σ 4) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTile c 0 0 (A I 0 c 0 0 0) ∗ accTile c 0 1 (A I 0 c 0 1 0) ∗ accTile c 0 2 (A I 0 c 0 2 0) ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_5 (I : Dev nD → Ins F) (K : Dev nD × Cell → ℕ) (c : Dev nD) : St I K (σ 5) c
    = iprop(records (RdI I) K ∗ levAts Proto.L Proto.lv ∗ (∃ W, owes (c : Thread nD τ) (owedFrom c 5) W) ∗ toksFrom c 5 ∗ credFrom c 3
      ∗ (cred (tallyAt (sendCell c 0) () N) ∗ cred (tallyAt (sendCell c 0) () N))
      ∗ (doneTo c 1 ∗ todoFrom c 1)
      ∗ (foreignFrom c 2 ∗ rsBack I c 0)
      ∗ (emp ∗ emp ∗ accTile c 0 2 (A I 0 c 0 2 0) ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_6 (I : Dev nD → Ins F) (K : Dev nD × Cell → ℕ) (c : Dev nD) : St I K (σ 6) c
    = iprop(records (RdI I) K ∗ levAts Proto.L Proto.lv ∗ (∃ W, owes (c : Thread nD τ) (owedFrom c 6) W) ∗ toksFrom c 6 ∗ credFrom c 3
      ∗ (cred (tallyAt (sendCell c 0) () N) ∗ cred (tallyAt (sendCell c 0) () N) ∗ cred (tallyAt (sendCell c 0) () N))
      ∗ (doneTo c 1 ∗ todoFrom c 1)
      ∗ (foreignFrom c 3 ∗ rsBack I c 0)
      ∗ (emp ∗ emp ∗ emp ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_7 (I : Dev nD → Ins F) (K : Dev nD × Cell → ℕ) (c : Dev nD) : St I K (σ 7) c
    = iprop(records (RdI I) K ∗ levAts Proto.L Proto.lv ∗ (∃ W, owes (c : Thread nD τ) (owedFrom c 6) W) ∗ toksFrom c 6 ∗ credFrom c 3
      ∗ (cred (tallyAt (sendCell c 0) () N) ∗ cred (tallyAt (sendCell c 0) () N) ∗ cred (tallyAt (sendCell c 0) () N))
      ∗ (doneTo c 1 ∗ todoFrom c 1)
      ∗ (foreignFrom c 3 ∗ rsBack I c 0)
      ∗ (emp ∗ emp ∗ emp ∗ accTile c 1 0 (A I 0 c 1 0 0) ∗ accTile c 1 1 (A I 0 c 1 1 0) ∗ accTile c 1 2 (A I 0 c 1 2 0) ∗ accTileAny c 2 0 ∗ accTileAny c 2 1 ∗ accTileAny c 2 2 ∗ accTileAny c 3 0 ∗ accTileAny c 3 1 ∗ accTileAny c 3 2)) := rfl

theorem St_open_8 (I : Dev nD → Ins F) (K : Dev nD × Cell → ℕ) (c : Dev nD) : St I K (σ 8) c
    = iprop(records (RdI I) K ∗ levAts Proto.L Proto.lv ∗ (∃ W, owes (c : Thread nD τ) (owedFrom c 8) W) ∗ toksFrom c 8 ∗ credFrom c 3
      ∗ (cred (tallyAt (sendCell c 0) () N) ∗ cred (tallyAt (sendCell c 0) () N) ∗ cred (tallyAt (sendCell c 0) () N) ∗ cred (tallyAt (sendCell c 3) () N) ∗ cred (tallyAt (sendCell c 3) () N))
      ∗ (doneTo c 1 ∗ todoFrom c 1)
      ∗ (foreignFrom c 5 ∗ rsBack I c 0)
      ∗ (emp ∗ emp ∗ emp ∗ emp ∗ emp ∗ accTile c 1 2 (A I 0 c 1 2 0) ∗ accTileAny c 2 0 ∗ accTileAny c 2 1 ∗ accTileAny c 2 2 ∗ accTileAny c 3 0 ∗ accTileAny c 3 1 ∗ accTileAny c 3 2)) := rfl

theorem St_open_9 (I : Dev nD → Ins F) (K : Dev nD × Cell → ℕ) (c : Dev nD) : St I K (σ 9) c
    = iprop(records (RdI I) K ∗ levAts Proto.L Proto.lv ∗ (∃ W, owes (c : Thread nD τ) (owedFrom c 9) W) ∗ toksFrom c 9 ∗ credFrom c 4
      ∗ (cred (tallyAt (sendCell c 0) () N) ∗ cred (tallyAt (sendCell c 0) () N) ∗ cred (tallyAt (sendCell c 3) () N) ∗ cred (tallyAt (sendCell c 3) () N) ∗ cred (tallyAt (sendCell c 3) () N))
      ∗ (doneTo c 1 ∗ curCell (sendCell c 0) (fun p => (RdI I).payload (sendCell c 0) 0 p) 1 ∗ emp ∗ curCell (recvCell c 0) (fun p => (RdI I).payload (recvCell c 0) 0 p) 1 ∗ todoFrom c 3)
      ∗ (foreignFrom c 6 ∗ rsBack I c 0)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_10 (I : Dev nD → Ins F) (K : Dev nD × Cell → ℕ) (c : Dev nD) : St I K (σ 10) c
    = iprop(records (RdI I) K ∗ levAts Proto.L Proto.lv ∗ (∃ W, owes (c : Thread nD τ) (owedFrom c 9) W) ∗ toksFrom c 9 ∗ credFrom c 5
      ∗ (cred (tallyAt (sendCell c 3) () N) ∗ cred (tallyAt (sendCell c 3) () N) ∗ cred (tallyAt (sendCell c 3) () N))
      ∗ (doneTo c 1 ∗ curCell (sendCell c 0) (fun p => (RdI I).payload (sendCell c 0) 0 p) 3 ∗ ((RdI I).payload (sendCell c 0) 0 0 ∗ (RdI I).payload (sendCell c 0) 0 1 ∗ (RdI I).payload (sendCell c 0) 0 2) ∗ curCell (recvCell c 0) (fun p => (RdI I).payload (recvCell c 0) 0 p) 2 ∗ todoFrom c 3)
      ∗ (foreignFrom c 6 ∗ rsBack I c 0)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_11 (I : Dev nD → Ins F) (K : Dev nD × Cell → ℕ) (c : Dev nD) : St I K (σ 11) c
    = iprop(records (RdI I) K ∗ levAts Proto.L Proto.lv ∗ (∃ W, owes (c : Thread nD τ) (owedFrom c 9) W) ∗ toksFrom c 9 ∗ credFrom c 6
      ∗ (cred (tallyAt (sendCell c 3) () N) ∗ cred (tallyAt (sendCell c 3) () N) ∗ cred (tallyAt (sendCell c 3) () N))
      ∗ (doneTo c 3 ∗ todoFrom c 3)
      ∗ (foreignFrom c 6 ∗ rsBack I c 1)
      ∗ (accTile c 0 0 (A I 0 c 0 0 1) ∗ accTile c 0 1 (A I 0 c 0 1 1) ∗ accTile c 0 2 (A I 0 c 0 2 0) ∗ emp ∗ emp ∗ emp ∗ accTileAny c 2 0 ∗ accTileAny c 2 1 ∗ accTileAny c 2 2 ∗ accTileAny c 3 0 ∗ accTileAny c 3 1 ∗ accTileAny c 3 2)) := rfl

theorem St_open_12 (I : Dev nD → Ins F) (K : Dev nD × Cell → ℕ) (c : Dev nD) : St I K (σ 12) c
    = iprop(records (RdI I) K ∗ levAts Proto.L Proto.lv ∗ (∃ W, owes (c : Thread nD τ) (owedFrom c 10) W) ∗ toksFrom c 10 ∗ credFrom c 6
      ∗ (cred (tallyAt (sendCell c 3) () N) ∗ cred (tallyAt (sendCell c 3) () N) ∗ cred (tallyAt (sendCell c 3) () N) ∗ cred (tallyAt (sendCell c 1) () N))
      ∗ (doneTo c 3 ∗ todoFrom c 3)
      ∗ (foreignFrom c 7 ∗ rsBack I c 1)
      ∗ (emp ∗ accTile c 0 1 (A I 0 c 0 1 1) ∗ accTile c 0 2 (A I 0 c 0 2 1) ∗ emp ∗ emp ∗ emp ∗ accTileAny c 2 0 ∗ accTileAny c 2 1 ∗ accTileAny c 2 2 ∗ accTileAny c 3 0 ∗ accTileAny c 3 1 ∗ accTileAny c 3 2)) := rfl

theorem St_open_13 (I : Dev nD → Ins F) (K : Dev nD × Cell → ℕ) (c : Dev nD) : St I K (σ 13) c
    = iprop(records (RdI I) K ∗ levAts Proto.L Proto.lv ∗ (∃ W, owes (c : Thread nD τ) (owedFrom c 12) W) ∗ toksFrom c 12 ∗ credFrom c 6
      ∗ (cred (tallyAt (sendCell c 3) () N) ∗ cred (tallyAt (sendCell c 3) () N) ∗ cred (tallyAt (sendCell c 3) () N) ∗ cred (tallyAt (sendCell c 1) () N) ∗ cred (tallyAt (sendCell c 1) () N) ∗ cred (tallyAt (sendCell c 1) () N))
      ∗ (doneTo c 3 ∗ todoFrom c 3)
      ∗ (foreignFrom c 9 ∗ rsBack I c 1)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_14 (I : Dev nD → Ins F) (K : Dev nD × Cell → ℕ) (c : Dev nD) : St I K (σ 14) c
    = iprop(records (RdI I) K ∗ levAts Proto.L Proto.lv ∗ (∃ W, owes (c : Thread nD τ) (owedFrom c 12) W) ∗ toksFrom c 12 ∗ credFrom c 7
      ∗ (cred (tallyAt (sendCell c 3) () N) ∗ cred (tallyAt (sendCell c 3) () N) ∗ cred (tallyAt (sendCell c 1) () N) ∗ cred (tallyAt (sendCell c 1) () N) ∗ cred (tallyAt (sendCell c 1) () N))
      ∗ (doneTo c 3 ∗ curCell (sendCell c 3) (fun p => (RdI I).payload (sendCell c 3) 0 p) 1 ∗ emp ∗ curCell (recvCell c 3) (fun p => (RdI I).payload (recvCell c 3) 0 p) 1 ∗ todoFrom c 5)
      ∗ (foreignFrom c 9 ∗ rsBack I c 1)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_15 (I : Dev nD → Ins F) (K : Dev nD × Cell → ℕ) (c : Dev nD) : St I K (σ 15) c
    = iprop(records (RdI I) K ∗ levAts Proto.L Proto.lv ∗ (∃ W, owes (c : Thread nD τ) (owedFrom c 12) W) ∗ toksFrom c 12 ∗ credFrom c 8
      ∗ (cred (tallyAt (sendCell c 1) () N) ∗ cred (tallyAt (sendCell c 1) () N) ∗ cred (tallyAt (sendCell c 1) () N))
      ∗ (doneTo c 3 ∗ curCell (sendCell c 3) (fun p => (RdI I).payload (sendCell c 3) 0 p) 3 ∗ ((RdI I).payload (sendCell c 3) 0 0 ∗ (RdI I).payload (sendCell c 3) 0 1 ∗ (RdI I).payload (sendCell c 3) 0 2) ∗ curCell (recvCell c 3) (fun p => (RdI I).payload (recvCell c 3) 0 p) 2 ∗ todoFrom c 5)
      ∗ (foreignFrom c 9 ∗ rsBack I c 1)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_16 (I : Dev nD → Ins F) (K : Dev nD × Cell → ℕ) (c : Dev nD) : St I K (σ 16) c
    = iprop(records (RdI I) K ∗ levAts Proto.L Proto.lv ∗ (∃ W, owes (c : Thread nD τ) (owedFrom c 12) W) ∗ toksFrom c 12 ∗ credFrom c 9
      ∗ (cred (tallyAt (sendCell c 1) () N) ∗ cred (tallyAt (sendCell c 1) () N) ∗ cred (tallyAt (sendCell c 1) () N))
      ∗ (doneTo c 5 ∗ todoFrom c 5)
      ∗ (foreignFrom c 9 ∗ rsBack I c 2)
      ∗ (emp ∗ emp ∗ emp ∗ accTile c 1 0 (A I 0 c 1 0 1) ∗ accTile c 1 1 (A I 0 c 1 1 0) ∗ accTile c 1 2 (A I 0 c 1 2 0) ∗ accTileAny c 2 0 ∗ accTileAny c 2 1 ∗ accTileAny c 2 2 ∗ accTileAny c 3 0 ∗ accTileAny c 3 1 ∗ accTileAny c 3 2)) := rfl

theorem St_open_17 (I : Dev nD → Ins F) (K : Dev nD × Cell → ℕ) (c : Dev nD) : St I K (σ 17) c
    = iprop(records (RdI I) K ∗ levAts Proto.L Proto.lv ∗ (∃ W, owes (c : Thread nD τ) (owedFrom c 13) W) ∗ toksFrom c 13 ∗ credFrom c 9
      ∗ (cred (tallyAt (sendCell c 1) () N) ∗ cred (tallyAt (sendCell c 1) () N) ∗ cred (tallyAt (sendCell c 1) () N) ∗ cred (tallyAt (sendCell c 4) () N))
      ∗ (doneTo c 5 ∗ todoFrom c 5)
      ∗ (foreignFrom c 10 ∗ rsBack I c 2)
      ∗ (emp ∗ emp ∗ emp ∗ emp ∗ accTile c 1 1 (A I 0 c 1 1 1) ∗ accTile c 1 2 (A I 0 c 1 2 1) ∗ accTileAny c 2 0 ∗ accTileAny c 2 1 ∗ accTileAny c 2 2 ∗ accTileAny c 3 0 ∗ accTileAny c 3 1 ∗ accTileAny c 3 2)) := rfl

theorem St_open_18 (I : Dev nD → Ins F) (K : Dev nD × Cell → ℕ) (c : Dev nD) : St I K (σ 18) c
    = iprop(records (RdI I) K ∗ levAts Proto.L Proto.lv ∗ (∃ W, owes (c : Thread nD τ) (owedFrom c 15) W) ∗ toksFrom c 15 ∗ credFrom c 9
      ∗ (cred (tallyAt (sendCell c 1) () N) ∗ cred (tallyAt (sendCell c 1) () N) ∗ cred (tallyAt (sendCell c 1) () N) ∗ cred (tallyAt (sendCell c 4) () N) ∗ cred (tallyAt (sendCell c 4) () N) ∗ cred (tallyAt (sendCell c 4) () N))
      ∗ (doneTo c 5 ∗ todoFrom c 5)
      ∗ (foreignFrom c 12 ∗ rsBack I c 2)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_19 (I : Dev nD → Ins F) (K : Dev nD × Cell → ℕ) (c : Dev nD) : St I K (σ 19) c
    = iprop(records (RdI I) K ∗ levAts Proto.L Proto.lv ∗ (∃ W, owes (c : Thread nD τ) (owedFrom c 15) W) ∗ toksFrom c 15 ∗ credFrom c 10
      ∗ (cred (tallyAt (sendCell c 1) () N) ∗ cred (tallyAt (sendCell c 4) () N) ∗ cred (tallyAt (sendCell c 4) () N) ∗ cred (tallyAt (sendCell c 4) () N))
      ∗ (doneTo c 5 ∗ curCell (sendCell c 1) (fun p => (RdI I).payload (sendCell c 1) 0 p) 2 ∗ emp ∗ curCell (recvCell c 1) (fun p => (RdI I).payload (recvCell c 1) 0 p) 1 ∗ todoFrom c 7)
      ∗ (foreignFrom c 12 ∗ rsBack I c 2)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_20 (I : Dev nD → Ins F) (K : Dev nD × Cell → ℕ) (c : Dev nD) : St I K (σ 20) c
    = iprop(records (RdI I) K ∗ levAts Proto.L Proto.lv ∗ (∃ W, owes (c : Thread nD τ) (owedFrom c 15) W) ∗ toksFrom c 15 ∗ credFrom c 12
      ∗ (cred (tallyAt (sendCell c 4) () N) ∗ cred (tallyAt (sendCell c 4) () N) ∗ cred (tallyAt (sendCell c 4) () N))
      ∗ (doneTo c 7 ∗ todoFrom c 7)
      ∗ (foreignFrom c 12 ∗ rsBack I c 3)
      ∗ (accTile c 0 0 (A I 0 c 0 0 1) ∗ accTile c 0 1 (A I 0 c 0 1 1) ∗ accTile c 0 2 (A I 0 c 0 2 1) ∗ emp ∗ emp ∗ emp ∗ accTileAny c 2 0 ∗ accTileAny c 2 1 ∗ accTileAny c 2 2 ∗ accTileAny c 3 0 ∗ accTileAny c 3 1 ∗ accTileAny c 3 2)) := rfl

theorem St_open_21 (I : Dev nD → Ins F) (K : Dev nD × Cell → ℕ) (c : Dev nD) : St I K (σ 21) c
    = iprop(records (RdI I) K ∗ levAts Proto.L Proto.lv ∗ (∃ W, owes (c : Thread nD τ) (owedFrom c 15) W) ∗ toksFrom c 15 ∗ credFrom c 12
      ∗ (cred (tallyAt (sendCell c 4) () N) ∗ cred (tallyAt (sendCell c 4) () N) ∗ cred (tallyAt (sendCell c 4) () N))
      ∗ (doneTo c 7 ∗ todoFrom c 7)
      ∗ (foreignFrom c 12 ∗ rsBack I c 3)
      ∗ (accTile c 0 0 (A I 0 c 0 0 2) ∗ accTile c 0 1 (A I 0 c 0 1 2) ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_22 (I : Dev nD → Ins F) (K : Dev nD × Cell → ℕ) (c : Dev nD) : St I K (σ 22) c
    = iprop(records (RdI I) K ∗ levAts Proto.L Proto.lv ∗ (∃ W, owes (c : Thread nD τ) (owedFrom c 17) W) ∗ toksFrom c 17 ∗ credFrom c 12
      ∗ (cred (tallyAt (sendCell c 4) () N) ∗ cred (tallyAt (sendCell c 4) () N) ∗ cred (tallyAt (sendCell c 4) () N) ∗ cred (tallyAt (sendCell c 2) () N) ∗ cred (tallyAt (sendCell c 2) () N))
      ∗ (doneTo c 7 ∗ todoFrom c 7)
      ∗ (foreignFrom c 14 ∗ rsBack I c 3)
      ∗ (emp ∗ emp ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_23 (I : Dev nD → Ins F) (K : Dev nD × Cell → ℕ) (c : Dev nD) : St I K (σ 23) c
    = iprop(records (RdI I) K ∗ levAts Proto.L Proto.lv ∗ (∃ W, owes (c : Thread nD τ) (owedFrom c 18) W) ∗ toksFrom c 18 ∗ credFrom c 13
      ∗ (cred (tallyAt (sendCell c 4) () N) ∗ cred (tallyAt (sendCell c 4) () N) ∗ cred (tallyAt (sendCell c 2) () N) ∗ cred (tallyAt (sendCell c 2) () N) ∗ cred (tallyAt (sendCell c 2) () N))
      ∗ (doneTo c 7 ∗ curCell (sendCell c 4) (fun p => (RdI I).payload (sendCell c 4) 0 p) 1 ∗ emp ∗ curCell (recvCell c 4) (fun p => (RdI I).payload (recvCell c 4) 0 p) 1 ∗ todoFrom c 9)
      ∗ (foreignFrom c 15 ∗ rsBack I c 3)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_24 (I : Dev nD → Ins F) (K : Dev nD × Cell → ℕ) (c : Dev nD) : St I K (σ 24) c
    = iprop(records (RdI I) K ∗ levAts Proto.L Proto.lv ∗ (∃ W, owes (c : Thread nD τ) (owedFrom c 18) W) ∗ toksFrom c 18 ∗ credFrom c 14
      ∗ (cred (tallyAt (sendCell c 2) () N) ∗ cred (tallyAt (sendCell c 2) () N) ∗ cred (tallyAt (sendCell c 2) () N))
      ∗ (doneTo c 7 ∗ curCell (sendCell c 4) (fun p => (RdI I).payload (sendCell c 4) 0 p) 3 ∗ ((RdI I).payload (sendCell c 4) 0 0 ∗ (RdI I).payload (sendCell c 4) 0 1 ∗ (RdI I).payload (sendCell c 4) 0 2) ∗ curCell (recvCell c 4) (fun p => (RdI I).payload (recvCell c 4) 0 p) 2 ∗ todoFrom c 9)
      ∗ (foreignFrom c 15 ∗ rsBack I c 3)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_25 (I : Dev nD → Ins F) (K : Dev nD × Cell → ℕ) (c : Dev nD) : St I K (σ 25) c
    = iprop(records (RdI I) K ∗ levAts Proto.L Proto.lv ∗ (∃ W, owes (c : Thread nD τ) (owedFrom c 18) W) ∗ toksFrom c 18 ∗ credFrom c 15
      ∗ (cred (tallyAt (sendCell c 2) () N) ∗ cred (tallyAt (sendCell c 2) () N) ∗ cred (tallyAt (sendCell c 2) () N))
      ∗ (doneTo c 9 ∗ todoFrom c 9)
      ∗ (foreignFrom c 15 ∗ rsBack I c 4)
      ∗ (emp ∗ emp ∗ emp ∗ accTile c 1 0 (A I 0 c 1 0 2) ∗ accTile c 1 1 (A I 0 c 1 1 1) ∗ accTile c 1 2 (A I 0 c 1 2 1) ∗ accTileAny c 2 0 ∗ accTileAny c 2 1 ∗ accTileAny c 2 2 ∗ accTileAny c 3 0 ∗ accTileAny c 3 1 ∗ accTileAny c 3 2)) := rfl

theorem St_open_26 (I : Dev nD → Ins F) (K : Dev nD × Cell → ℕ) (c : Dev nD) : St I K (σ 26) c
    = iprop(records (RdI I) K ∗ levAts Proto.L Proto.lv ∗ (∃ W, owes (c : Thread nD τ) (owedFrom c 19) W) ∗ toksFrom c 19 ∗ credFrom c 15
      ∗ (cred (tallyAt (sendCell c 2) () N) ∗ cred (tallyAt (sendCell c 2) () N) ∗ cred (tallyAt (sendCell c 2) () N) ∗ cred (tallyAt (sendCell c 5) () N))
      ∗ (doneTo c 9 ∗ todoFrom c 9)
      ∗ (foreignFrom c 16 ∗ rsBack I c 4)
      ∗ (emp ∗ emp ∗ emp ∗ emp ∗ accTile c 1 1 (A I 0 c 1 1 2) ∗ accTile c 1 2 (A I 0 c 1 2 2) ∗ accTileAny c 2 0 ∗ accTileAny c 2 1 ∗ accTileAny c 2 2 ∗ accTileAny c 3 0 ∗ accTileAny c 3 1 ∗ accTileAny c 3 2)) := rfl

theorem St_open_27 (I : Dev nD → Ins F) (K : Dev nD × Cell → ℕ) (c : Dev nD) : St I K (σ 27) c
    = iprop(records (RdI I) K ∗ levAts Proto.L Proto.lv ∗ (∃ W, owes (c : Thread nD τ) (owedFrom c 21) W) ∗ toksFrom c 21 ∗ credFrom c 15
      ∗ (cred (tallyAt (sendCell c 2) () N) ∗ cred (tallyAt (sendCell c 2) () N) ∗ cred (tallyAt (sendCell c 2) () N) ∗ cred (tallyAt (sendCell c 5) () N) ∗ cred (tallyAt (sendCell c 5) () N) ∗ cred (tallyAt (sendCell c 5) () N))
      ∗ (doneTo c 9 ∗ todoFrom c 9)
      ∗ (foreignFrom c 18 ∗ rsBack I c 4)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_28 (I : Dev nD → Ins F) (K : Dev nD × Cell → ℕ) (c : Dev nD) : St I K (σ 28) c
    = iprop(records (RdI I) K ∗ levAts Proto.L Proto.lv ∗ (∃ W, owes (c : Thread nD τ) (owedFrom c 21) W) ∗ toksFrom c 21 ∗ credFrom c 16
      ∗ (cred (tallyAt (sendCell c 2) () N) ∗ cred (tallyAt (sendCell c 5) () N) ∗ cred (tallyAt (sendCell c 5) () N) ∗ cred (tallyAt (sendCell c 5) () N))
      ∗ (doneTo c 9 ∗ curCell (sendCell c 2) (fun p => (RdI I).payload (sendCell c 2) 0 p) 2 ∗ emp ∗ curCell (recvCell c 2) (fun p => (RdI I).payload (recvCell c 2) 0 p) 1 ∗ todoFrom c 11)
      ∗ (foreignFrom c 18 ∗ rsBack I c 4)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_29 (I : Dev nD → Ins F) (K : Dev nD × Cell → ℕ) (c : Dev nD) : St I K (σ 29) c
    = iprop(records (RdI I) K ∗ levAts Proto.L Proto.lv ∗ (∃ W, owes (c : Thread nD τ) (owedFrom c 21) W) ∗ toksFrom c 21 ∗ credFrom c 18
      ∗ (cred (tallyAt (sendCell c 5) () N) ∗ cred (tallyAt (sendCell c 5) () N) ∗ cred (tallyAt (sendCell c 5) () N))
      ∗ (doneTo c 11 ∗ todoFrom c 11)
      ∗ (foreignFrom c 18 ∗ rsBack I c 5)
      ∗ (accTile c 0 0 (A I 0 c 0 0 2) ∗ accTile c 0 1 (A I 0 c 0 1 2) ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_30 (I : Dev nD → Ins F) (K : Dev nD × Cell → ℕ) (c : Dev nD) : St I K (σ 30) c
    = iprop(records (RdI I) K ∗ levAts Proto.L Proto.lv ∗ (∃ W, owes (c : Thread nD τ) (owedFrom c 21) W) ∗ toksFrom c 21 ∗ credFrom c 18
      ∗ (cred (tallyAt (sendCell c 5) () N) ∗ cred (tallyAt (sendCell c 5) () N) ∗ cred (tallyAt (sendCell c 5) () N))
      ∗ (doneTo c 11 ∗ todoFrom c 11)
      ∗ (foreignFrom c 18 ∗ rsBack I c 5)
      ∗ (accTile c 0 0 (A I 0 c 0 0 2) ∗ accTile c 0 1 (A I 0 c 0 1 2) ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_31 (I : Dev nD → Ins F) (K : Dev nD × Cell → ℕ) (c : Dev nD) : St I K (σ 31) c
    = iprop(records (RdI I) K ∗ levAts Proto.L Proto.lv ∗ (∃ W, owes (c : Thread nD τ) (owedFrom c 22) W) ∗ toksFrom c 22 ∗ credFrom c 18
      ∗ (cred (tallyAt (sendCell c 5) () N) ∗ cred (tallyAt (sendCell c 5) () N) ∗ cred (tallyAt (sendCell c 5) () N) ∗ cred (tallyAt (sendCell c 6) () N))
      ∗ (doneTo c 11 ∗ todoFrom c 11)
      ∗ (foreignFrom c 19 ∗ rsBack I c 5)
      ∗ (accTile c 0 0 (A I 0 c 0 0 2) ∗ accTile c 0 1 (A I 0 c 0 1 2) ∗ accTile c 0 2 (A I 0 c 0 2 2) ∗ emp ∗ emp ∗ emp ∗ emp ∗ accTile c 2 1 (A I 0 c 2 1 0) ∗ accTile c 2 2 (A I 0 c 2 2 0) ∗ accTileAny c 3 0 ∗ accTileAny c 3 1 ∗ accTileAny c 3 2)) := rfl

theorem St_open_32 (I : Dev nD → Ins F) (K : Dev nD × Cell → ℕ) (c : Dev nD) : St I K (σ 32) c
    = iprop(records (RdI I) K ∗ levAts Proto.L Proto.lv ∗ (∃ W, owes (c : Thread nD τ) (owedFrom c 24) W) ∗ toksFrom c 24 ∗ credFrom c 18
      ∗ (cred (tallyAt (sendCell c 5) () N) ∗ cred (tallyAt (sendCell c 5) () N) ∗ cred (tallyAt (sendCell c 5) () N) ∗ cred (tallyAt (sendCell c 6) () N) ∗ cred (tallyAt (sendCell c 6) () N) ∗ cred (tallyAt (sendCell c 6) () N))
      ∗ (doneTo c 11 ∗ todoFrom c 11)
      ∗ (foreignFrom c 21 ∗ rsBack I c 5)
      ∗ (accTile c 0 0 (A I 0 c 0 0 2) ∗ accTile c 0 1 (A I 0 c 0 1 2) ∗ accTile c 0 2 (A I 0 c 0 2 2) ∗ emp ∗ emp ∗ emp ∗ emp ∗ emp ∗ emp ∗ accTileAny c 3 0 ∗ accTileAny c 3 1 ∗ accTileAny c 3 2)) := rfl

theorem St_open_33 (I : Dev nD → Ins F) (K : Dev nD × Cell → ℕ) (c : Dev nD) : St I K (σ 33) c
    = iprop(records (RdI I) K ∗ levAts Proto.L Proto.lv ∗ (∃ W, owes (c : Thread nD τ) (owedFrom c 24) W) ∗ toksFrom c 24 ∗ credFrom c 19
      ∗ (cred (tallyAt (sendCell c 5) () N) ∗ cred (tallyAt (sendCell c 6) () N) ∗ cred (tallyAt (sendCell c 6) () N) ∗ cred (tallyAt (sendCell c 6) () N))
      ∗ (doneTo c 11 ∗ curCell (sendCell c 5) (fun p => (RdI I).payload (sendCell c 5) 0 p) 2 ∗ emp ∗ curCell (recvCell c 5) (fun p => (RdI I).payload (recvCell c 5) 0 p) 1 ∗ todoFrom c 13)
      ∗ (foreignFrom c 21 ∗ rsBack I c 5)
      ∗ (accTile c 0 0 (A I 0 c 0 0 2) ∗ accTile c 0 1 (A I 0 c 0 1 2) ∗ accTile c 0 2 (A I 0 c 0 2 2) ∗ emp ∗ emp ∗ emp ∗ emp ∗ emp ∗ emp ∗ accTileAny c 3 0 ∗ accTileAny c 3 1 ∗ accTileAny c 3 2)) := rfl

theorem St_open_34 (I : Dev nD → Ins F) (K : Dev nD × Cell → ℕ) (c : Dev nD) : St I K (σ 34) c
    = iprop(records (RdI I) K ∗ levAts Proto.L Proto.lv ∗ (∃ W, owes (c : Thread nD τ) (owedFrom c 24) W) ∗ toksFrom c 24 ∗ credFrom c 21
      ∗ (cred (tallyAt (sendCell c 6) () N) ∗ cred (tallyAt (sendCell c 6) () N) ∗ cred (tallyAt (sendCell c 6) () N))
      ∗ (doneTo c 13 ∗ todoFrom c 13)
      ∗ (foreignFrom c 21 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny c 3 0 ∗ accTileAny c 3 1 ∗ accTileAny c 3 2)) := rfl

theorem St_open_35 (I : Dev nD → Ins F) (K : Dev nD × Cell → ℕ) (c : Dev nD) : St I K (σ 35) c
    = iprop(records (RdI I) K ∗ levAts Proto.L Proto.lv ∗ (∃ W, owes (c : Thread nD τ) (owedFrom c 24) W) ∗ toksFrom c 24 ∗ credFrom c 21
      ∗ (cred (tallyAt (sendCell c 6) () N) ∗ cred (tallyAt (sendCell c 6) () N) ∗ cred (tallyAt (sendCell c 6) () N))
      ∗ (doneTo c 13 ∗ todoFrom c 13)
      ∗ (foreignFrom c 21 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny c 3 0 ∗ accTileAny c 3 1 ∗ accTileAny c 3 2)) := rfl

theorem St_open_36 (I : Dev nD → Ins F) (K : Dev nD × Cell → ℕ) (c : Dev nD) : St I K (σ 36) c
    = iprop(records (RdI I) K ∗ levAts Proto.L Proto.lv ∗ (∃ W, owes (c : Thread nD τ) (owedFrom c 25) W) ∗ toksFrom c 25 ∗ credFrom c 21
      ∗ (cred (tallyAt (sendCell c 6) () N) ∗ cred (tallyAt (sendCell c 6) () N) ∗ cred (tallyAt (sendCell c 6) () N) ∗ cred (tallyAt (sendCell c 9) () N))
      ∗ (doneTo c 13 ∗ todoFrom c 13)
      ∗ (foreignFrom c 22 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ accTile c 3 1 (A I 0 c 3 1 0) ∗ accTile c 3 2 (A I 0 c 3 2 0))) := rfl

theorem St_open_37 (I : Dev nD → Ins F) (K : Dev nD × Cell → ℕ) (c : Dev nD) : St I K (σ 37) c
    = iprop(records (RdI I) K ∗ levAts Proto.L Proto.lv ∗ (∃ W, owes (c : Thread nD τ) (owedFrom c 27) W) ∗ toksFrom c 27 ∗ credFrom c 21
      ∗ (cred (tallyAt (sendCell c 6) () N) ∗ cred (tallyAt (sendCell c 6) () N) ∗ cred (tallyAt (sendCell c 6) () N) ∗ cred (tallyAt (sendCell c 9) () N) ∗ cred (tallyAt (sendCell c 9) () N) ∗ cred (tallyAt (sendCell c 9) () N))
      ∗ (doneTo c 13 ∗ todoFrom c 13)
      ∗ (foreignFrom c 24 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_38 (I : Dev nD → Ins F) (K : Dev nD × Cell → ℕ) (c : Dev nD) : St I K (σ 38) c
    = iprop(records (RdI I) K ∗ levAts Proto.L Proto.lv ∗ (∃ W, owes (c : Thread nD τ) (owedFrom c 27) W) ∗ toksFrom c 27 ∗ credFrom c 22
      ∗ (cred (tallyAt (sendCell c 6) () N) ∗ cred (tallyAt (sendCell c 9) () N) ∗ cred (tallyAt (sendCell c 9) () N) ∗ cred (tallyAt (sendCell c 9) () N))
      ∗ (doneTo c 13 ∗ curCell (sendCell c 6) (fun p => (RdI I).payload (sendCell c 6) 0 p) 2 ∗ emp ∗ curCell (recvCell c 6) (fun p => (RdI I).payload (recvCell c 6) 0 p) 1 ∗ todoFrom c 15)
      ∗ (foreignFrom c 24 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_39 (I : Dev nD → Ins F) (K : Dev nD × Cell → ℕ) (c : Dev nD) : St I K (σ 39) c
    = iprop(records (RdI I) K ∗ levAts Proto.L Proto.lv ∗ (∃ W, owes (c : Thread nD τ) (owedFrom c 27) W) ∗ toksFrom c 27 ∗ credFrom c 24
      ∗ (cred (tallyAt (sendCell c 9) () N) ∗ cred (tallyAt (sendCell c 9) () N) ∗ cred (tallyAt (sendCell c 9) () N))
      ∗ (doneTo c 15 ∗ todoFrom c 15)
      ∗ (foreignFrom c 24 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 0) ∗ accTile c 2 1 (A I 0 c 2 1 0) ∗ accTile c 2 2 (A I 0 c 2 2 0) ∗ emp ∗ emp ∗ emp)) := rfl

theorem St_open_40 (I : Dev nD → Ins F) (K : Dev nD × Cell → ℕ) (c : Dev nD) : St I K (σ 40) c
    = iprop(records (RdI I) K ∗ levAts Proto.L Proto.lv ∗ (∃ W, owes (c : Thread nD τ) (owedFrom c 27) W) ∗ toksFrom c 27 ∗ credFrom c 24
      ∗ (cred (tallyAt (sendCell c 9) () N) ∗ cred (tallyAt (sendCell c 9) () N) ∗ cred (tallyAt (sendCell c 9) () N))
      ∗ (doneTo c 15 ∗ todoFrom c 15)
      ∗ (foreignFrom c 24 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 1) ∗ accTile c 2 1 (A I 0 c 2 1 1) ∗ accTile c 2 2 (A I 0 c 2 2 1) ∗ emp ∗ emp ∗ emp)) := rfl

theorem St_open_41 (I : Dev nD → Ins F) (K : Dev nD × Cell → ℕ) (c : Dev nD) : St I K (σ 41) c
    = iprop(records (RdI I) K ∗ levAts Proto.L Proto.lv ∗ (∃ W, owes (c : Thread nD τ) (owedFrom c 29) W) ∗ toksFrom c 29 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N))
      ∗ (doneTo c 15 ∗ todoFrom c 15)
      ∗ (foreignFrom c 26 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ accTile c 2 2 (A I 0 c 2 2 1) ∗ emp ∗ emp ∗ emp)) := rfl

theorem St_open_42 (I : Dev nD → Ins F) (K : Dev nD × Cell → ℕ) (c : Dev nD) : St I K (σ 42) c
    = iprop(records (RdI I) K ∗ levAts Proto.L Proto.lv ∗ (∃ W, owes (c : Thread nD τ) (owedFrom c 30) W) ∗ toksFrom c 30 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N))
      ∗ (doneTo c 15 ∗ todoFrom c 15)
      ∗ (foreignFrom c 27 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_43 (I : Dev nD → Ins F) (K : Dev nD × Cell → ℕ) (c : Dev nD) : St I K (σ 43) c
    = iprop(records (RdI I) K ∗ levAts Proto.L Proto.lv ∗ (∃ W, owes (c : Thread nD τ) (owedFrom c 30) W) ∗ toksFrom c 30 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N))
      ∗ (doneTo c 15 ∗ todoFrom c 15)
      ∗ (foreignFrom c 27 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_44 (I : Dev nD → Ins F) (K : Dev nD × Cell → ℕ) (c : Dev nD) : St I K (σ 44) c
    = iprop(records (RdI I) K ∗ levAts Proto.L Proto.lv ∗ (∃ W, owes (c : Thread nD τ) (owedFrom c 31) W) ∗ toksFrom c 31 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N) ∗ cred (tallyAt (sendCell c 12) () N))
      ∗ (doneTo c 15 ∗ todoFrom c 15)
      ∗ (foreignFrom c 28 ∗ rsBack I c 7)
      ∗ (emp ∗ accTile c 0 1 (A I 1 c 0 1 0) ∗ accTile c 0 2 (A I 1 c 0 2 0) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_45 (I : Dev nD → Ins F) (K : Dev nD × Cell → ℕ) (c : Dev nD) : St I K (σ 45) c
    = iprop(records (RdI I) K ∗ levAts Proto.L Proto.lv ∗ (∃ W, owes (c : Thread nD τ) (owedFrom c 33) W) ∗ toksFrom c 33 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 15 ∗ todoFrom c 15)
      ∗ (foreignFrom c 30 ∗ rsBack I c 7)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_46 (I : Dev nD → Ins F) (K : Dev nD × Cell → ℕ) (c : Dev nD) : St I K (σ 46) c
    = iprop(records (RdI I) K ∗ levAts Proto.L Proto.lv ∗ (∃ W, owes (c : Thread nD τ) (owedFrom c 33) W) ∗ toksFrom c 33 ∗ credFrom c 25
      ∗ (cred (tallyAt (sendCell c 9) () N) ∗ cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 15 ∗ curCell (sendCell c 9) (fun p => (RdI I).payload (sendCell c 9) 0 p) 2 ∗ emp ∗ curCell (recvCell c 9) (fun p => (RdI I).payload (recvCell c 9) 0 p) 1 ∗ todoFrom c 17)
      ∗ (foreignFrom c 30 ∗ rsBack I c 7)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_47 (I : Dev nD → Ins F) (K : Dev nD × Cell → ℕ) (c : Dev nD) : St I K (σ 47) c
    = iprop(records (RdI I) K ∗ levAts Proto.L Proto.lv ∗ (∃ W, owes (c : Thread nD τ) (owedFrom c 33) W) ∗ toksFrom c 33 ∗ credFrom c 27
      ∗ (cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 17 ∗ todoFrom c 17)
      ∗ (foreignFrom c 30 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 0) ∗ accTile c 3 1 (A I 0 c 3 1 0) ∗ accTile c 3 2 (A I 0 c 3 2 0))) := rfl

theorem St_open_48 (I : Dev nD → Ins F) (K : Dev nD × Cell → ℕ) (c : Dev nD) : St I K (σ 48) c
    = iprop(records (RdI I) K ∗ levAts Proto.L Proto.lv ∗ (∃ W, owes (c : Thread nD τ) (owedFrom c 33) W) ∗ toksFrom c 33 ∗ credFrom c 27
      ∗ (cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 17 ∗ todoFrom c 17)
      ∗ (foreignFrom c 30 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 1) ∗ accTile c 3 1 (A I 0 c 3 1 1) ∗ accTile c 3 2 (A I 0 c 3 2 1))) := rfl

theorem St_open_49 (I : Dev nD → Ins F) (K : Dev nD × Cell → ℕ) (c : Dev nD) : St I K (σ 49) c
    = iprop(records (RdI I) K ∗ levAts Proto.L Proto.lv ∗ (∃ W, owes (c : Thread nD τ) (owedFrom c 35) W) ∗ toksFrom c 35 ∗ credFrom c 27
      ∗ (cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N) ∗ cred (tallyAt (sendCell c 10) () N) ∗ cred (tallyAt (sendCell c 10) () N))
      ∗ (doneTo c 17 ∗ todoFrom c 17)
      ∗ (foreignFrom c 32 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ accTile c 3 2 (A I 0 c 3 2 1))) := rfl

theorem St_open_50 (I : Dev nD → Ins F) (K : Dev nD × Cell → ℕ) (c : Dev nD) : St I K (σ 50) c
    = iprop(records (RdI I) K ∗ levAts Proto.L Proto.lv ∗ (∃ W, owes (c : Thread nD τ) (owedFrom c 36) W) ∗ toksFrom c 36 ∗ credFrom c 28
      ∗ (cred (tallyAt (sendCell c 7) () N) ∗ cred (tallyAt (sendCell c 7) () N) ∗ cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N))
      ∗ (doneTo c 17 ∗ curCell (sendCell c 7) (fun p => (RdI I).payload (sendCell c 7) 0 p) 1 ∗ emp ∗ curCell (recvCell c 7) (fun p => (RdI I).payload (recvCell c 7) 0 p) 1 ∗ todoFrom c 19)
      ∗ (foreignFrom c 33 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_51 (I : Dev nD → Ins F) (K : Dev nD × Cell → ℕ) (c : Dev nD) : St I K (σ 51) c
    = iprop(records (RdI I) K ∗ levAts Proto.L Proto.lv ∗ (∃ W, owes (c : Thread nD τ) (owedFrom c 36) W) ∗ toksFrom c 36 ∗ credFrom c 29
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N))
      ∗ (doneTo c 17 ∗ curCell (sendCell c 7) (fun p => (RdI I).payload (sendCell c 7) 0 p) 3 ∗ ((RdI I).payload (sendCell c 7) 0 0 ∗ (RdI I).payload (sendCell c 7) 0 1 ∗ (RdI I).payload (sendCell c 7) 0 2) ∗ curCell (recvCell c 7) (fun p => (RdI I).payload (recvCell c 7) 0 p) 2 ∗ todoFrom c 19)
      ∗ (foreignFrom c 33 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_52 (I : Dev nD → Ins F) (K : Dev nD × Cell → ℕ) (c : Dev nD) : St I K (σ 52) c
    = iprop(records (RdI I) K ∗ levAts Proto.L Proto.lv ∗ (∃ W, owes (c : Thread nD τ) (owedFrom c 36) W) ∗ toksFrom c 36 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N))
      ∗ (doneTo c 19 ∗ todoFrom c 19)
      ∗ (foreignFrom c 33 ∗ rsBack I c 9)
      ∗ (emp ∗ emp ∗ emp ∗ accTile c 1 0 (A I 0 c 1 0 2) ∗ accTile c 1 1 (A I 0 c 1 1 2) ∗ accTile c 1 2 (A I 0 c 1 2 2) ∗ accTile c 2 0 (A I 0 c 2 0 2) ∗ accTile c 2 1 (A I 0 c 2 1 2) ∗ accTile c 2 2 (A I 0 c 2 2 1) ∗ emp ∗ emp ∗ emp)) := rfl

theorem St_open_53 (I : Dev nD → Ins F) (K : Dev nD × Cell → ℕ) (c : Dev nD) : St I K (σ 53) c
    = iprop(records (RdI I) K ∗ levAts Proto.L Proto.lv ∗ (∃ W, owes (c : Thread nD τ) (owedFrom c 37) W) ∗ toksFrom c 37 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N))
      ∗ (doneTo c 19 ∗ todoFrom c 19)
      ∗ (foreignFrom c 34 ∗ rsBack I c 9)
      ∗ (emp ∗ emp ∗ emp ∗ accTile c 1 0 (A I 0 c 1 0 2) ∗ accTile c 1 1 (A I 0 c 1 1 2) ∗ accTile c 1 2 (A I 0 c 1 2 2) ∗ emp ∗ accTile c 2 1 (A I 0 c 2 1 2) ∗ accTile c 2 2 (A I 0 c 2 2 2) ∗ emp ∗ emp ∗ emp)) := rfl

theorem St_open_54 (I : Dev nD → Ins F) (K : Dev nD × Cell → ℕ) (c : Dev nD) : St I K (σ 54) c
    = iprop(records (RdI I) K ∗ levAts Proto.L Proto.lv ∗ (∃ W, owes (c : Thread nD τ) (owedFrom c 39) W) ∗ toksFrom c 39 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N))
      ∗ (doneTo c 19 ∗ todoFrom c 19)
      ∗ (foreignFrom c 36 ∗ rsBack I c 9)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_55 (I : Dev nD → Ins F) (K : Dev nD × Cell → ℕ) (c : Dev nD) : St I K (σ 55) c
    = iprop(records (RdI I) K ∗ levAts Proto.L Proto.lv ∗ (∃ W, owes (c : Thread nD τ) (owedFrom c 39) W) ∗ toksFrom c 39 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N))
      ∗ (doneTo c 19 ∗ todoFrom c 19)
      ∗ (foreignFrom c 36 ∗ rsBack I c 9)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_56 (I : Dev nD → Ins F) (K : Dev nD × Cell → ℕ) (c : Dev nD) : St I K (σ 56) c
    = iprop(records (RdI I) K ∗ levAts Proto.L Proto.lv ∗ (∃ W, owes (c : Thread nD τ) (owedFrom c 39) W) ∗ toksFrom c 39 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N))
      ∗ (doneTo c 19 ∗ todoFrom c 19)
      ∗ (foreignFrom c 36 ∗ rsBack I c 9)
      ∗ (emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp)) := rfl

theorem St_open_57 (I : Dev nD → Ins F) (K : Dev nD × Cell → ℕ) (c : Dev nD) : St I K (σ 57) c
    = iprop(records (RdI I) K ∗ levAts Proto.L Proto.lv ∗ (∃ W, owes (c : Thread nD τ) (owedFrom c 41) W) ∗ toksFrom c 41 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N))
      ∗ (doneTo c 19 ∗ todoFrom c 19)
      ∗ (foreignFrom c 38 ∗ rsBack I c 9)
      ∗ (emp ∗ emp ∗ emp ∗ emp ∗ emp ∗ accTile c 1 2 (A I 1 c 1 2 0) ∗ emp ∗ emp ∗ emp ∗ emp ∗ emp ∗ emp)) := rfl

theorem St_open_58 (I : Dev nD → Ins F) (K : Dev nD × Cell → ℕ) (c : Dev nD) : St I K (σ 58) c
    = iprop(records (RdI I) K ∗ levAts Proto.L Proto.lv ∗ (∃ W, owes (c : Thread nD τ) (owedFrom c 42) W) ∗ toksFrom c 42 ∗ credFrom c 31
      ∗ (cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 19 ∗ curCell (sendCell c 12) (fun p => (RdI I).payload (sendCell c 12) 0 p) 1 ∗ emp ∗ curCell (recvCell c 12) (fun p => (RdI I).payload (recvCell c 12) 0 p) 1 ∗ todoFrom c 21)
      ∗ (foreignFrom c 39 ∗ rsBack I c 9)
      ∗ (emp ∗ emp ∗ emp ∗ emp ∗ emp ∗ emp ∗ emp ∗ emp ∗ emp ∗ emp ∗ emp ∗ emp)) := rfl

theorem St_open_59 (I : Dev nD → Ins F) (K : Dev nD × Cell → ℕ) (c : Dev nD) : St I K (σ 59) c
    = iprop(records (RdI I) K ∗ levAts Proto.L Proto.lv ∗ (∃ W, owes (c : Thread nD τ) (owedFrom c 42) W) ∗ toksFrom c 42 ∗ credFrom c 32
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 19 ∗ curCell (sendCell c 12) (fun p => (RdI I).payload (sendCell c 12) 0 p) 3 ∗ ((RdI I).payload (sendCell c 12) 0 0 ∗ (RdI I).payload (sendCell c 12) 0 1 ∗ (RdI I).payload (sendCell c 12) 0 2) ∗ curCell (recvCell c 12) (fun p => (RdI I).payload (recvCell c 12) 0 p) 2 ∗ todoFrom c 21)
      ∗ (foreignFrom c 39 ∗ rsBack I c 9)
      ∗ (emp ∗ emp ∗ emp ∗ emp ∗ emp ∗ emp ∗ emp ∗ emp ∗ emp ∗ emp ∗ emp ∗ emp)) := rfl

theorem St_open_60 (I : Dev nD → Ins F) (K : Dev nD × Cell → ℕ) (c : Dev nD) : St I K (σ 60) c
    = iprop(records (RdI I) K ∗ levAts Proto.L Proto.lv ∗ (∃ W, owes (c : Thread nD τ) (owedFrom c 42) W) ∗ toksFrom c 42 ∗ credFrom c 33
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 21 ∗ todoFrom c 21)
      ∗ (foreignFrom c 39 ∗ rsBack I c 10)
      ∗ (accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp)) := rfl

theorem St_open_61 (I : Dev nD → Ins F) (K : Dev nD × Cell → ℕ) (c : Dev nD) : St I K (σ 61) c
    = iprop(records (RdI I) K ∗ levAts Proto.L Proto.lv ∗ (∃ W, owes (c : Thread nD τ) (owedFrom c 43) W) ∗ toksFrom c 43 ∗ credFrom c 33
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N))
      ∗ (doneTo c 21 ∗ todoFrom c 21)
      ∗ (foreignFrom c 40 ∗ rsBack I c 10)
      ∗ (emp ∗ accTile c 0 1 (A I 1 c 0 1 1) ∗ accTile c 0 2 (A I 1 c 0 2 1) ∗ emp ∗ emp ∗ emp ∗ emp ∗ emp ∗ emp ∗ emp ∗ emp ∗ emp)) := rfl

theorem St_open_62 (I : Dev nD → Ins F) (K : Dev nD × Cell → ℕ) (c : Dev nD) : St I K (σ 62) c
    = iprop(records (RdI I) K ∗ levAts Proto.L Proto.lv ∗ (∃ W, owes (c : Thread nD τ) (owedFrom c 45) W) ∗ toksFrom c 45 ∗ credFrom c 33
      ∗ (cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 21 ∗ curCell (sendCell c 10) (fun p => (RdI I).payload (sendCell c 10) 0 p) 1 ∗ emp ∗ curCell (recvCell c 10) (fun p => (RdI I).payload (recvCell c 10) 0 p) 0 ∗ todoFrom c 23)
      ∗ (foreignFrom c 42 ∗ rsBack I c 10)
      ∗ (emp ∗ emp ∗ emp ∗ emp ∗ emp ∗ emp ∗ emp ∗ emp ∗ emp ∗ emp ∗ emp ∗ emp)) := rfl

theorem St_open_63 (I : Dev nD → Ins F) (K : Dev nD × Cell → ℕ) (c : Dev nD) : St I K (σ 63) c
    = iprop(records (RdI I) K ∗ levAts Proto.L Proto.lv ∗ (∃ W, owes (c : Thread nD τ) (owedFrom c 45) W) ∗ toksFrom c 45 ∗ credFrom c 35
      ∗ (cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 21 ∗ curCell (sendCell c 10) (fun p => (RdI I).payload (sendCell c 10) 0 p) 2 ∗ emp ∗ curCell (recvCell c 10) (fun p => (RdI I).payload (recvCell c 10) 0 p) 2 ∗ todoFrom c 23)
      ∗ (foreignFrom c 42 ∗ rsBack I c 10)
      ∗ (emp ∗ emp ∗ emp ∗ emp ∗ emp ∗ emp ∗ emp ∗ emp ∗ emp ∗ emp ∗ emp ∗ emp)) := rfl

theorem St_open_64 (I : Dev nD → Ins F) (K : Dev nD × Cell → ℕ) (c : Dev nD) : St I K (σ 64) c
    = iprop(records (RdI I) K ∗ levAts Proto.L Proto.lv ∗ (∃ W, owes (c : Thread nD τ) (owedFrom c 45) W) ∗ toksFrom c 45 ∗ credFrom c 36
      ∗ (cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 23 ∗ todoFrom c 23)
      ∗ (foreignFrom c 42 ∗ rsBack I c 11)
      ∗ (emp ∗ emp ∗ emp ∗ emp ∗ emp ∗ emp ∗ emp ∗ emp ∗ emp ∗ accTile c 3 0 (A I 0 c 3 0 1) ∗ accTile c 3 1 (A I 0 c 3 1 1) ∗ accTile c 3 2 (A I 0 c 3 2 1))) := rfl

theorem St_open_65 (I : Dev nD → Ins F) (K : Dev nD × Cell → ℕ) (c : Dev nD) : St I K (σ 65) c
    = iprop(records (RdI I) K ∗ levAts Proto.L Proto.lv ∗ (∃ W, owes (c : Thread nD τ) (owedFrom c 45) W) ∗ toksFrom c 45 ∗ credFrom c 36
      ∗ (cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 23 ∗ todoFrom c 23)
      ∗ (foreignFrom c 42 ∗ rsBack I c 11)
      ∗ (emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2))) := rfl

theorem St_open_66 (I : Dev nD → Ins F) (K : Dev nD × Cell → ℕ) (c : Dev nD) : St I K (σ 66) c
    = iprop(records (RdI I) K ∗ levAts Proto.L Proto.lv ∗ (∃ W, owes (c : Thread nD τ) (owedFrom c 47) W) ∗ toksFrom c 47 ∗ credFrom c 36
      ∗ (cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N))
      ∗ (doneTo c 23 ∗ todoFrom c 23)
      ∗ (foreignFrom c 44 ∗ rsBack I c 11)
      ∗ (emp ∗ emp ∗ emp ∗ emp ∗ emp ∗ emp ∗ emp ∗ emp ∗ emp ∗ emp ∗ emp ∗ accTile c 3 2 (A I 0 c 3 2 2))) := rfl

theorem St_open_67 (I : Dev nD → Ins F) (K : Dev nD × Cell → ℕ) (c : Dev nD) : St I K (σ 67) c
    = iprop(records (RdI I) K ∗ levAts Proto.L Proto.lv ∗ (∃ W, owes (c : Thread nD τ) (owedFrom c 48) W) ∗ toksFrom c 48 ∗ credFrom c 37
      ∗ (cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 23 ∗ curCell (sendCell c 8) (fun p => (RdI I).payload (sendCell c 8) 0 p) 1 ∗ emp ∗ curCell (recvCell c 8) (fun p => (RdI I).payload (recvCell c 8) 0 p) 1 ∗ todoFrom c 25)
      ∗ (foreignFrom c 45 ∗ rsBack I c 11)
      ∗ (emp ∗ emp ∗ emp ∗ emp ∗ emp ∗ emp ∗ emp ∗ emp ∗ emp ∗ emp ∗ emp ∗ emp)) := rfl

theorem St_open_68 (I : Dev nD → Ins F) (K : Dev nD × Cell → ℕ) (c : Dev nD) : St I K (σ 68) c
    = iprop(records (RdI I) K ∗ levAts Proto.L Proto.lv ∗ (∃ W, owes (c : Thread nD τ) (owedFrom c 48) W) ∗ toksFrom c 48 ∗ credFrom c 38
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 23 ∗ curCell (sendCell c 8) (fun p => (RdI I).payload (sendCell c 8) 0 p) 3 ∗ ((RdI I).payload (sendCell c 8) 0 0 ∗ (RdI I).payload (sendCell c 8) 0 1 ∗ (RdI I).payload (sendCell c 8) 0 2) ∗ curCell (recvCell c 8) (fun p => (RdI I).payload (recvCell c 8) 0 p) 2 ∗ todoFrom c 25)
      ∗ (foreignFrom c 45 ∗ rsBack I c 11)
      ∗ (emp ∗ emp ∗ emp ∗ emp ∗ emp ∗ emp ∗ emp ∗ emp ∗ emp ∗ emp ∗ emp ∗ emp)) := rfl

theorem St_open_69 (I : Dev nD → Ins F) (K : Dev nD × Cell → ℕ) (c : Dev nD) : St I K (σ 69) c
    = iprop(records (RdI I) K ∗ levAts Proto.L Proto.lv ∗ (∃ W, owes (c : Thread nD τ) (owedFrom c 48) W) ∗ toksFrom c 48 ∗ credFrom c 39
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 25 ∗ todoFrom c 25)
      ∗ (foreignFrom c 45 ∗ rsBack I c 12)
      ∗ (emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp)) := rfl

theorem St_open_70 (I : Dev nD → Ins F) (K : Dev nD × Cell → ℕ) (c : Dev nD) : St I K (σ 70) c
    = iprop(records (RdI I) K ∗ levAts Proto.L Proto.lv ∗ (∃ W, owes (c : Thread nD τ) (owedFrom c 48) W) ∗ toksFrom c 48 ∗ credFrom c 39
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 25 ∗ todoFrom c 25)
      ∗ (foreignFrom c 45 ∗ rsBack I c 12)
      ∗ (emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp)) := rfl

theorem St_open_71 (I : Dev nD → Ins F) (K : Dev nD × Cell → ℕ) (c : Dev nD) : St I K (σ 71) c
    = iprop(records (RdI I) K ∗ levAts Proto.L Proto.lv ∗ (∃ W, owes (c : Thread nD τ) (owedFrom c 49) W) ∗ toksFrom c 49 ∗ credFrom c 39
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N))
      ∗ (doneTo c 25 ∗ todoFrom c 25)
      ∗ (foreignFrom c 46 ∗ rsBack I c 12)
      ∗ (emp ∗ emp ∗ emp ∗ emp ∗ emp ∗ emp ∗ emp ∗ accTile c 2 1 (A I 1 c 2 1 0) ∗ accTile c 2 2 (A I 1 c 2 2 0) ∗ emp ∗ emp ∗ emp)) := rfl

theorem St_open_72 (I : Dev nD → Ins F) (K : Dev nD × Cell → ℕ) (c : Dev nD) : St I K (σ 72) c
    = iprop(records (RdI I) K ∗ levAts Proto.L Proto.lv ∗ (∃ W, owes (c : Thread nD τ) (owedFrom c 51) W) ∗ toksFrom c 51 ∗ credFrom c 39
      ∗ (cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 25 ∗ curCell (sendCell c 15) (fun p => (RdI I).payload (sendCell c 15) 0 p) 1 ∗ emp ∗ curCell (recvCell c 15) (fun p => (RdI I).payload (recvCell c 15) 0 p) 0 ∗ todoFrom c 27)
      ∗ (foreignFrom c 48 ∗ rsBack I c 12)
      ∗ (emp ∗ emp ∗ emp ∗ emp ∗ emp ∗ emp ∗ emp ∗ emp ∗ emp ∗ emp ∗ emp ∗ emp)) := rfl

theorem St_open_73 (I : Dev nD → Ins F) (K : Dev nD × Cell → ℕ) (c : Dev nD) : St I K (σ 73) c
    = iprop(records (RdI I) K ∗ levAts Proto.L Proto.lv ∗ (∃ W, owes (c : Thread nD τ) (owedFrom c 51) W) ∗ toksFrom c 51 ∗ credFrom c 41
      ∗ (cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 25 ∗ curCell (sendCell c 15) (fun p => (RdI I).payload (sendCell c 15) 0 p) 2 ∗ emp ∗ curCell (recvCell c 15) (fun p => (RdI I).payload (recvCell c 15) 0 p) 2 ∗ todoFrom c 27)
      ∗ (foreignFrom c 48 ∗ rsBack I c 12)
      ∗ (emp ∗ emp ∗ emp ∗ emp ∗ emp ∗ emp ∗ emp ∗ emp ∗ emp ∗ emp ∗ emp ∗ emp)) := rfl

theorem St_open_74 (I : Dev nD → Ins F) (K : Dev nD × Cell → ℕ) (c : Dev nD) : St I K (σ 74) c
    = iprop(records (RdI I) K ∗ levAts Proto.L Proto.lv ∗ (∃ W, owes (c : Thread nD τ) (owedFrom c 51) W) ∗ toksFrom c 51 ∗ credFrom c 42
      ∗ (cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 27 ∗ todoFrom c 27)
      ∗ (foreignFrom c 48 ∗ rsBack I c 13)
      ∗ (emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp)) := rfl

theorem St_open_75 (I : Dev nD → Ins F) (K : Dev nD × Cell → ℕ) (c : Dev nD) : St I K (σ 75) c
    = iprop(records (RdI I) K ∗ levAts Proto.L Proto.lv ∗ (∃ W, owes (c : Thread nD τ) (owedFrom c 51) W) ∗ toksFrom c 51 ∗ credFrom c 42
      ∗ (cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 27 ∗ todoFrom c 27)
      ∗ (foreignFrom c 48 ∗ rsBack I c 13)
      ∗ (emp ∗ emp ∗ emp ∗ accTile c 1 0 (A I 1 c 1 0 1) ∗ accTile c 1 1 (A I 1 c 1 1 1) ∗ accTile c 1 2 (A I 1 c 1 2 1) ∗ emp ∗ emp ∗ emp ∗ emp ∗ emp ∗ emp)) := rfl

theorem St_open_76 (I : Dev nD → Ins F) (K : Dev nD × Cell → ℕ) (c : Dev nD) : St I K (σ 76) c
    = iprop(records (RdI I) K ∗ levAts Proto.L Proto.lv ∗ (∃ W, owes (c : Thread nD τ) (owedFrom c 53) W) ∗ toksFrom c 53 ∗ credFrom c 42
      ∗ (cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N))
      ∗ (doneTo c 27 ∗ todoFrom c 27)
      ∗ (foreignFrom c 50 ∗ rsBack I c 13)
      ∗ (emp ∗ emp ∗ emp ∗ emp ∗ emp ∗ accTile c 1 2 (A I 1 c 1 2 1) ∗ emp ∗ emp ∗ emp ∗ emp ∗ emp ∗ emp)) := rfl

theorem St_open_77 (I : Dev nD → Ins F) (K : Dev nD × Cell → ℕ) (c : Dev nD) : St I K (σ 77) c
    = iprop(records (RdI I) K ∗ levAts Proto.L Proto.lv ∗ (∃ W, owes (c : Thread nD τ) (owedFrom c 54) W) ∗ toksFrom c 54 ∗ credFrom c 43
      ∗ (cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N))
      ∗ (doneTo c 27 ∗ curCell (sendCell c 13) (fun p => (RdI I).payload (sendCell c 13) 0 p) 1 ∗ emp ∗ curCell (recvCell c 13) (fun p => (RdI I).payload (recvCell c 13) 0 p) 1 ∗ todoFrom c 29)
      ∗ (foreignFrom c 51 ∗ rsBack I c 13)
      ∗ (emp ∗ emp ∗ emp ∗ emp ∗ emp ∗ emp ∗ emp ∗ emp ∗ emp ∗ emp ∗ emp ∗ emp)) := rfl

theorem St_open_78 (I : Dev nD → Ins F) (K : Dev nD × Cell → ℕ) (c : Dev nD) : St I K (σ 78) c
    = iprop(records (RdI I) K ∗ levAts Proto.L Proto.lv ∗ (∃ W, owes (c : Thread nD τ) (owedFrom c 54) W) ∗ toksFrom c 54 ∗ credFrom c 44
      ∗ (cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N))
      ∗ (doneTo c 27 ∗ curCell (sendCell c 13) (fun p => (RdI I).payload (sendCell c 13) 0 p) 3 ∗ ((RdI I).payload (sendCell c 13) 0 0 ∗ (RdI I).payload (sendCell c 13) 0 1 ∗ (RdI I).payload (sendCell c 13) 0 2) ∗ curCell (recvCell c 13) (fun p => (RdI I).payload (recvCell c 13) 0 p) 2 ∗ todoFrom c 29)
      ∗ (foreignFrom c 51 ∗ rsBack I c 13)
      ∗ (emp ∗ emp ∗ emp ∗ emp ∗ emp ∗ emp ∗ emp ∗ emp ∗ emp ∗ emp ∗ emp ∗ emp)) := rfl

theorem St_open_79 (I : Dev nD → Ins F) (K : Dev nD × Cell → ℕ) (c : Dev nD) : St I K (σ 79) c
    = iprop(records (RdI I) K ∗ levAts Proto.L Proto.lv ∗ (∃ W, owes (c : Thread nD τ) (owedFrom c 54) W) ∗ toksFrom c 54 ∗ credFrom c 45
      ∗ (cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N))
      ∗ (doneTo c 29 ∗ todoFrom c 29)
      ∗ (foreignFrom c 51 ∗ rsBack I c 14)
      ∗ (accTile c 0 0 (A I 1 c 0 0 2) ∗ accTile c 0 1 (A I 1 c 0 1 2) ∗ accTile c 0 2 (A I 1 c 0 2 1) ∗ emp ∗ emp ∗ emp ∗ emp ∗ emp ∗ emp ∗ emp ∗ emp ∗ emp)) := rfl

theorem St_open_80 (I : Dev nD → Ins F) (K : Dev nD × Cell → ℕ) (c : Dev nD) : St I K (σ 80) c
    = iprop(records (RdI I) K ∗ levAts Proto.L Proto.lv ∗ (∃ W, owes (c : Thread nD τ) (owedFrom c 55) W) ∗ toksFrom c 55 ∗ credFrom c 45
      ∗ (cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N))
      ∗ (doneTo c 29 ∗ todoFrom c 29)
      ∗ (foreignFrom c 52 ∗ rsBack I c 14)
      ∗ (emp ∗ accTile c 0 1 (A I 1 c 0 1 2) ∗ accTile c 0 2 (A I 1 c 0 2 2) ∗ emp ∗ emp ∗ emp ∗ emp ∗ emp ∗ emp ∗ emp ∗ emp ∗ emp)) := rfl

theorem St_open_81 (I : Dev nD → Ins F) (K : Dev nD × Cell → ℕ) (c : Dev nD) : St I K (σ 81) c
    = iprop(records (RdI I) K ∗ levAts Proto.L Proto.lv ∗ (∃ W, owes (c : Thread nD τ) (owedFrom c 57) W) ∗ toksFrom c 57 ∗ credFrom c 45
      ∗ (cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 29 ∗ curCell (sendCell c 11) (fun p => (RdI I).payload (sendCell c 11) 0 p) 1 ∗ emp ∗ curCell (recvCell c 11) (fun p => (RdI I).payload (recvCell c 11) 0 p) 0 ∗ todoFrom c 31)
      ∗ (foreignFrom c 54 ∗ rsBack I c 14)
      ∗ (emp ∗ emp ∗ emp ∗ emp ∗ emp ∗ emp ∗ emp ∗ emp ∗ emp ∗ emp ∗ emp ∗ emp)) := rfl

theorem St_open_82 (I : Dev nD → Ins F) (K : Dev nD × Cell → ℕ) (c : Dev nD) : St I K (σ 82) c
    = iprop(records (RdI I) K ∗ levAts Proto.L Proto.lv ∗ (∃ W, owes (c : Thread nD τ) (owedFrom c 57) W) ∗ toksFrom c 57 ∗ credFrom c 47
      ∗ (cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 29 ∗ curCell (sendCell c 11) (fun p => (RdI I).payload (sendCell c 11) 0 p) 2 ∗ emp ∗ curCell (recvCell c 11) (fun p => (RdI I).payload (recvCell c 11) 0 p) 2 ∗ todoFrom c 31)
      ∗ (foreignFrom c 54 ∗ rsBack I c 14)
      ∗ (emp ∗ emp ∗ emp ∗ emp ∗ emp ∗ emp ∗ emp ∗ emp ∗ emp ∗ emp ∗ emp ∗ emp)) := rfl

theorem St_open_83 (I : Dev nD → Ins F) (K : Dev nD × Cell → ℕ) (c : Dev nD) : St I K (σ 83) c
    = iprop(records (RdI I) K ∗ levAts Proto.L Proto.lv ∗ (∃ W, owes (c : Thread nD τ) (owedFrom c 57) W) ∗ toksFrom c 57 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 31 ∗ todoFrom c 31)
      ∗ (foreignFrom c 54 ∗ rsBack I c 15)
      ∗ (emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2))) := rfl

theorem St_open_84 (I : Dev nD → Ins F) (K : Dev nD × Cell → ℕ) (c : Dev nD) : St I K (σ 84) c
    = iprop(records (RdI I) K ∗ levAts Proto.L Proto.lv ∗ (∃ W, owes (c : Thread nD τ) (owedFrom c 57) W) ∗ toksFrom c 57 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 31 ∗ todoFrom c 31)
      ∗ (foreignFrom c 54 ∗ rsBack I c 15)
      ∗ (emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2))) := rfl

theorem St_open_85 (I : Dev nD → Ins F) (K : Dev nD × Cell → ℕ) (c : Dev nD) : St I K (σ 85) c
    = iprop(records (RdI I) K ∗ levAts Proto.L Proto.lv ∗ (∃ W, owes (c : Thread nD τ) (owedFrom c 57) W) ∗ toksFrom c 57 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 31 ∗ todoFrom c 31)
      ∗ (foreignFrom c 54 ∗ rsBack I c 15)
      ∗ (emp ∗ emp ∗ emp ∗ emp ∗ emp ∗ emp ∗ emp ∗ emp ∗ emp ∗ accTile c 3 0 (A I 1 c 3 0 0) ∗ accTile c 3 1 (A I 1 c 3 1 0) ∗ accTile c 3 2 (A I 1 c 3 2 0))) := rfl

theorem St_open_86 (I : Dev nD → Ins F) (K : Dev nD × Cell → ℕ) (c : Dev nD) : St I K (σ 86) c
    = iprop(records (RdI I) K ∗ levAts Proto.L Proto.lv ∗ (∃ W, owes (c : Thread nD τ) (owedFrom c 59) W) ∗ toksFrom c 59 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N))
      ∗ (doneTo c 31 ∗ todoFrom c 31)
      ∗ (foreignFrom c 56 ∗ rsBack I c 15)
      ∗ (emp ∗ emp ∗ emp ∗ emp ∗ emp ∗ emp ∗ emp ∗ emp ∗ emp ∗ emp ∗ emp ∗ accTile c 3 2 (A I 1 c 3 2 0))) := rfl

theorem St_open_87 (I : Dev nD → Ins F) (K : Dev nD × Cell → ℕ) (c : Dev nD) : St I K (σ 87) c
    = iprop(records (RdI I) K ∗ levAts Proto.L Proto.lv ∗ (∃ W, owes (c : Thread nD τ) (owedFrom c 60) W) ∗ toksFrom c 60 ∗ credFrom c 49
      ∗ (cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N))
      ∗ (doneTo c 31 ∗ curCell (sendCell c 18) (fun p => (RdI I).payload (sendCell c 18) 0 p) 1 ∗ emp ∗ curCell (recvCell c 18) (fun p => (RdI I).payload (recvCell c 18) 0 p) 1 ∗ todoFrom c 33)
      ∗ (foreignFrom c 57 ∗ rsBack I c 15)
      ∗ (emp ∗ emp ∗ emp ∗ emp ∗ emp ∗ emp ∗ emp ∗ emp ∗ emp ∗ emp ∗ emp ∗ emp)) := rfl

theorem St_open_88 (I : Dev nD → Ins F) (K : Dev nD × Cell → ℕ) (c : Dev nD) : St I K (σ 88) c
    = iprop(records (RdI I) K ∗ levAts Proto.L Proto.lv ∗ (∃ W, owes (c : Thread nD τ) (owedFrom c 60) W) ∗ toksFrom c 60 ∗ credFrom c 50
      ∗ (cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N))
      ∗ (doneTo c 31 ∗ curCell (sendCell c 18) (fun p => (RdI I).payload (sendCell c 18) 0 p) 3 ∗ ((RdI I).payload (sendCell c 18) 0 0 ∗ (RdI I).payload (sendCell c 18) 0 1 ∗ (RdI I).payload (sendCell c 18) 0 2) ∗ curCell (recvCell c 18) (fun p => (RdI I).payload (recvCell c 18) 0 p) 2 ∗ todoFrom c 33)
      ∗ (foreignFrom c 57 ∗ rsBack I c 15)
      ∗ (emp ∗ emp ∗ emp ∗ emp ∗ emp ∗ emp ∗ emp ∗ emp ∗ emp ∗ emp ∗ emp ∗ emp)) := rfl

theorem St_open_89 (I : Dev nD → Ins F) (K : Dev nD × Cell → ℕ) (c : Dev nD) : St I K (σ 89) c
    = iprop(records (RdI I) K ∗ levAts Proto.L Proto.lv ∗ (∃ W, owes (c : Thread nD τ) (owedFrom c 60) W) ∗ toksFrom c 60 ∗ credFrom c 51
      ∗ (cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N))
      ∗ (doneTo c 33 ∗ todoFrom c 33)
      ∗ (foreignFrom c 57 ∗ rsBack I c 16)
      ∗ (emp ∗ emp ∗ emp ∗ emp ∗ emp ∗ emp ∗ accTile c 2 0 (A I 1 c 2 0 1) ∗ accTile c 2 1 (A I 1 c 2 1 1) ∗ accTile c 2 2 (A I 1 c 2 2 0) ∗ emp ∗ emp ∗ emp)) := rfl

theorem St_open_90 (I : Dev nD → Ins F) (K : Dev nD × Cell → ℕ) (c : Dev nD) : St I K (σ 90) c
    = iprop(records (RdI I) K ∗ levAts Proto.L Proto.lv ∗ (∃ W, owes (c : Thread nD τ) (owedFrom c 61) W) ∗ toksFrom c 61 ∗ credFrom c 51
      ∗ (cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N))
      ∗ (doneTo c 33 ∗ todoFrom c 33)
      ∗ (foreignFrom c 58 ∗ rsBack I c 16)
      ∗ (emp ∗ emp ∗ emp ∗ emp ∗ emp ∗ emp ∗ emp ∗ accTile c 2 1 (A I 1 c 2 1 1) ∗ accTile c 2 2 (A I 1 c 2 2 1) ∗ emp ∗ emp ∗ emp)) := rfl

theorem St_open_91 (I : Dev nD → Ins F) (K : Dev nD × Cell → ℕ) (c : Dev nD) : St I K (σ 91) c
    = iprop(records (RdI I) K ∗ levAts Proto.L Proto.lv ∗ (∃ W, owes (c : Thread nD τ) (owedFrom c 63) W) ∗ toksFrom c 63 ∗ credFrom c 51
      ∗ (cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 33 ∗ curCell (sendCell c 16) (fun p => (RdI I).payload (sendCell c 16) 0 p) 1 ∗ emp ∗ curCell (recvCell c 16) (fun p => (RdI I).payload (recvCell c 16) 0 p) 0 ∗ todoFrom c 35)
      ∗ (foreignFrom c 60 ∗ rsBack I c 16)
      ∗ (emp ∗ emp ∗ emp ∗ emp ∗ emp ∗ emp ∗ emp ∗ emp ∗ emp ∗ emp ∗ emp ∗ emp)) := rfl

theorem St_open_92 (I : Dev nD → Ins F) (K : Dev nD × Cell → ℕ) (c : Dev nD) : St I K (σ 92) c
    = iprop(records (RdI I) K ∗ levAts Proto.L Proto.lv ∗ (∃ W, owes (c : Thread nD τ) (owedFrom c 63) W) ∗ toksFrom c 63 ∗ credFrom c 53
      ∗ (cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 33 ∗ curCell (sendCell c 16) (fun p => (RdI I).payload (sendCell c 16) 0 p) 2 ∗ emp ∗ curCell (recvCell c 16) (fun p => (RdI I).payload (recvCell c 16) 0 p) 2 ∗ todoFrom c 35)
      ∗ (foreignFrom c 60 ∗ rsBack I c 16)
      ∗ (emp ∗ emp ∗ emp ∗ emp ∗ emp ∗ emp ∗ emp ∗ emp ∗ emp ∗ emp ∗ emp ∗ emp)) := rfl

theorem St_open_93 (I : Dev nD → Ins F) (K : Dev nD × Cell → ℕ) (c : Dev nD) : St I K (σ 93) c
    = iprop(records (RdI I) K ∗ levAts Proto.L Proto.lv ∗ (∃ W, owes (c : Thread nD τ) (owedFrom c 63) W) ∗ toksFrom c 63 ∗ credFrom c 54
      ∗ (cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 35 ∗ todoFrom c 35)
      ∗ (foreignFrom c 60 ∗ rsBack I c 17)
      ∗ (emp ∗ emp ∗ emp ∗ accTile c 1 0 (A I 1 c 1 0 2) ∗ accTile c 1 1 (A I 1 c 1 1 1) ∗ accTile c 1 2 (A I 1 c 1 2 1) ∗ emp ∗ emp ∗ emp ∗ emp ∗ emp ∗ emp)) := rfl

theorem St_open_94 (I : Dev nD → Ins F) (K : Dev nD × Cell → ℕ) (c : Dev nD) : St I K (σ 94) c
    = iprop(records (RdI I) K ∗ levAts Proto.L Proto.lv ∗ (∃ W, owes (c : Thread nD τ) (owedFrom c 63) W) ∗ toksFrom c 63 ∗ credFrom c 54
      ∗ (cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 35 ∗ todoFrom c 35)
      ∗ (foreignFrom c 60 ∗ rsBack I c 17)
      ∗ (emp ∗ emp ∗ emp ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_95 (I : Dev nD → Ins F) (K : Dev nD × Cell → ℕ) (c : Dev nD) : St I K (σ 95) c
    = iprop(records (RdI I) K ∗ levAts Proto.L Proto.lv ∗ (∃ W, owes (c : Thread nD τ) (owedFrom c 66) W) ∗ toksFrom c 66 ∗ credFrom c 54
      ∗ (cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 35 ∗ todoFrom c 35)
      ∗ (foreignFrom c 63 ∗ rsBack I c 17)
      ∗ (emp ∗ emp ∗ emp ∗ emp ∗ emp ∗ emp ∗ emp ∗ emp ∗ emp ∗ emp ∗ emp ∗ emp)) := rfl

theorem St_open_96 (I : Dev nD → Ins F) (K : Dev nD × Cell → ℕ) (c : Dev nD) : St I K (σ 96) c
    = iprop(records (RdI I) K ∗ levAts Proto.L Proto.lv ∗ (∃ W, owes (c : Thread nD τ) (owedFrom c 66) W) ∗ toksFrom c 66 ∗ credFrom c 55
      ∗ (cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 35 ∗ curCell (sendCell c 14) (fun p => (RdI I).payload (sendCell c 14) 0 p) 2 ∗ emp ∗ curCell (recvCell c 14) (fun p => (RdI I).payload (recvCell c 14) 0 p) 1 ∗ todoFrom c 37)
      ∗ (foreignFrom c 63 ∗ rsBack I c 17)
      ∗ (emp ∗ emp ∗ emp ∗ emp ∗ emp ∗ emp ∗ emp ∗ emp ∗ emp ∗ emp ∗ emp ∗ emp)) := rfl

theorem St_open_97 (I : Dev nD → Ins F) (K : Dev nD × Cell → ℕ) (c : Dev nD) : St I K (σ 97) c
    = iprop(records (RdI I) K ∗ levAts Proto.L Proto.lv ∗ (∃ W, owes (c : Thread nD τ) (owedFrom c 66) W) ∗ toksFrom c 66 ∗ credFrom c 56
      ∗ (cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 35 ∗ curCell (sendCell c 14) (fun p => (RdI I).payload (sendCell c 14) 0 p) 3 ∗ ((RdI I).payload (sendCell c 14) 0 0 ∗ (RdI I).payload (sendCell c 14) 0 1 ∗ (RdI I).payload (sendCell c 14) 0 2) ∗ curCell (recvCell c 14) (fun p => (RdI I).payload (recvCell c 14) 0 p) 2 ∗ todoFrom c 37)
      ∗ (foreignFrom c 63 ∗ rsBack I c 17)
      ∗ (emp ∗ emp ∗ emp ∗ emp ∗ emp ∗ emp ∗ emp ∗ emp ∗ emp ∗ emp ∗ emp ∗ emp)) := rfl

theorem St_open_98 (I : Dev nD → Ins F) (K : Dev nD × Cell → ℕ) (c : Dev nD) : St I K (σ 98) c
    = iprop(records (RdI I) K ∗ levAts Proto.L Proto.lv ∗ (∃ W, owes (c : Thread nD τ) (owedFrom c 66) W) ∗ toksFrom c 66 ∗ credFrom c 57
      ∗ (cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 37 ∗ todoFrom c 37)
      ∗ (foreignFrom c 63 ∗ rsBack I c 18)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_99 (I : Dev nD → Ins F) (K : Dev nD × Cell → ℕ) (c : Dev nD) : St I K (σ 99) c
    = iprop(records (RdI I) K ∗ levAts Proto.L Proto.lv ∗ (∃ W, owes (c : Thread nD τ) (owedFrom c 66) W) ∗ toksFrom c 66 ∗ credFrom c 58
      ∗ (cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 37 ∗ curCell (sendCell c 21) (fun p => (RdI I).payload (sendCell c 21) 0 p) 1 ∗ emp ∗ curCell (recvCell c 21) (fun p => (RdI I).payload (recvCell c 21) 0 p) 1 ∗ todoFrom c 39)
      ∗ (foreignFrom c 63 ∗ rsBack I c 18)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_100 (I : Dev nD → Ins F) (K : Dev nD × Cell → ℕ) (c : Dev nD) : St I K (σ 100) c
    = iprop(records (RdI I) K ∗ levAts Proto.L Proto.lv ∗ (∃ W, owes (c : Thread nD τ) (owedFrom c 66) W) ∗ toksFrom c 66 ∗ credFrom c 59
      ∗ (cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 37 ∗ curCell (sendCell c 21) (fun p => (RdI I).payload (sendCell c 21) 0 p) 3 ∗ ((RdI I).payload (sendCell c 21) 0 0 ∗ (RdI I).payload (sendCell c 21) 0 1 ∗ (RdI I).payload (sendCell c 21) 0 2) ∗ curCell (recvCell c 21) (fun p => (RdI I).payload (recvCell c 21) 0 p) 2 ∗ todoFrom c 39)
      ∗ (foreignFrom c 63 ∗ rsBack I c 18)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_101 (I : Dev nD → Ins F) (K : Dev nD × Cell → ℕ) (c : Dev nD) : St I K (σ 101) c
    = iprop(records (RdI I) K ∗ levAts Proto.L Proto.lv ∗ (∃ W, owes (c : Thread nD τ) (owedFrom c 66) W) ∗ toksFrom c 66 ∗ credFrom c 60
      ∗ (cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 39 ∗ todoFrom c 39)
      ∗ (foreignFrom c 63 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ accTile c 3 0 (A I 1 c 3 0 1) ∗ accTile c 3 1 (A I 1 c 3 1 1) ∗ accTile c 3 2 (A I 1 c 3 2 0))) := rfl

theorem St_open_102 (I : Dev nD → Ins F) (K : Dev nD × Cell → ℕ) (c : Dev nD) : St I K (σ 102) c
    = iprop(records (RdI I) K ∗ levAts Proto.L Proto.lv ∗ (∃ W, owes (c : Thread nD τ) (owedFrom c 67) W) ∗ toksFrom c 67 ∗ credFrom c 60
      ∗ (cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N) ∗ cred (tallyAt (sendCell c 22) () N))
      ∗ (doneTo c 39 ∗ todoFrom c 39)
      ∗ (foreignFrom c 64 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ accTile c 3 1 (A I 1 c 3 1 1) ∗ accTile c 3 2 (A I 1 c 3 2 1))) := rfl

theorem St_open_103 (I : Dev nD → Ins F) (K : Dev nD × Cell → ℕ) (c : Dev nD) : St I K (σ 103) c
    = iprop(records (RdI I) K ∗ levAts Proto.L Proto.lv ∗ (∃ W, owes (c : Thread nD τ) (owedFrom c 69) W) ∗ toksFrom c 69 ∗ credFrom c 60
      ∗ (cred (tallyAt (sendCell c 19) () N) ∗ cred (tallyAt (sendCell c 19) () N) ∗ cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 39 ∗ curCell (sendCell c 19) (fun p => (RdI I).payload (sendCell c 19) 0 p) 1 ∗ emp ∗ curCell (recvCell c 19) (fun p => (RdI I).payload (recvCell c 19) 0 p) 0 ∗ todoFrom c 41)
      ∗ (foreignFrom c 66 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_104 (I : Dev nD → Ins F) (K : Dev nD × Cell → ℕ) (c : Dev nD) : St I K (σ 104) c
    = iprop(records (RdI I) K ∗ levAts Proto.L Proto.lv ∗ (∃ W, owes (c : Thread nD τ) (owedFrom c 69) W) ∗ toksFrom c 69 ∗ credFrom c 62
      ∗ (cred (tallyAt (sendCell c 19) () N) ∗ cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 39 ∗ curCell (sendCell c 19) (fun p => (RdI I).payload (sendCell c 19) 0 p) 2 ∗ emp ∗ curCell (recvCell c 19) (fun p => (RdI I).payload (recvCell c 19) 0 p) 2 ∗ todoFrom c 41)
      ∗ (foreignFrom c 66 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_105 (I : Dev nD → Ins F) (K : Dev nD × Cell → ℕ) (c : Dev nD) : St I K (σ 105) c
    = iprop(records (RdI I) K ∗ levAts Proto.L Proto.lv ∗ (∃ W, owes (c : Thread nD τ) (owedFrom c 69) W) ∗ toksFrom c 69 ∗ credFrom c 63
      ∗ (cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 41 ∗ todoFrom c 41)
      ∗ (foreignFrom c 66 ∗ rsBack I c 20)
      ∗ (accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 1) ∗ accTile c 2 2 (A I 1 c 2 2 1) ∗ emp ∗ emp ∗ emp)) := rfl

theorem St_open_106 (I : Dev nD → Ins F) (K : Dev nD × Cell → ℕ) (c : Dev nD) : St I K (σ 106) c
    = iprop(records (RdI I) K ∗ levAts Proto.L Proto.lv ∗ (∃ W, owes (c : Thread nD τ) (owedFrom c 69) W) ∗ toksFrom c 69 ∗ credFrom c 63
      ∗ (cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 41 ∗ todoFrom c 41)
      ∗ (foreignFrom c 66 ∗ rsBack I c 20)
      ∗ (accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 2) ∗ accTile c 2 2 (A I 1 c 2 2 2) ∗ emp ∗ emp ∗ emp)) := rfl

theorem St_open_107 (I : Dev nD → Ins F) (K : Dev nD × Cell → ℕ) (c : Dev nD) : St I K (σ 107) c
    = iprop(records (RdI I) K ∗ levAts Proto.L Proto.lv ∗ (∃ W, owes (c : Thread nD τ) (owedFrom c 72) W) ∗ toksFrom c 72 ∗ credFrom c 63
      ∗ (cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 41 ∗ todoFrom c 41)
      ∗ (foreignFrom c 69 ∗ rsBack I c 20)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_108 (I : Dev nD → Ins F) (K : Dev nD × Cell → ℕ) (c : Dev nD) : St I K (σ 108) c
    = iprop(records (RdI I) K ∗ levAts Proto.L Proto.lv ∗ (∃ W, owes (c : Thread nD τ) (owedFrom c 72) W) ∗ toksFrom c 72 ∗ credFrom c 64
      ∗ (cred (tallyAt (sendCell c 17) () N) ∗ cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 41 ∗ curCell (sendCell c 17) (fun p => (RdI I).payload (sendCell c 17) 0 p) 2 ∗ emp ∗ curCell (recvCell c 17) (fun p => (RdI I).payload (recvCell c 17) 0 p) 1 ∗ todoFrom c 43)
      ∗ (foreignFrom c 69 ∗ rsBack I c 20)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_109 (I : Dev nD → Ins F) (K : Dev nD × Cell → ℕ) (c : Dev nD) : St I K (σ 109) c
    = iprop(records (RdI I) K ∗ levAts Proto.L Proto.lv ∗ (∃ W, owes (c : Thread nD τ) (owedFrom c 72) W) ∗ toksFrom c 72 ∗ credFrom c 66
      ∗ (cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 43 ∗ todoFrom c 43)
      ∗ (foreignFrom c 69 ∗ rsBack I c 21)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_110 (I : Dev nD → Ins F) (K : Dev nD × Cell → ℕ) (c : Dev nD) : St I K (σ 110) c
    = iprop(records (RdI I) K ∗ levAts Proto.L Proto.lv ∗ (∃ W, owes (c : Thread nD τ) (owedFrom c 72) W) ∗ toksFrom c 72 ∗ credFrom c 66
      ∗ (cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 43 ∗ todoFrom c 43)
      ∗ (foreignFrom c 69 ∗ rsBack I c 21)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_111 (I : Dev nD → Ins F) (K : Dev nD × Cell → ℕ) (c : Dev nD) : St I K (σ 111) c
    = iprop(records (RdI I) K ∗ levAts Proto.L Proto.lv ∗ (∃ W, owes (c : Thread nD τ) (owedFrom c 72) W) ∗ toksFrom c 72 ∗ credFrom c 67
      ∗ (cred (tallyAt (sendCell c 22) () N) ∗ cred (tallyAt (sendCell c 20) () N) ∗ cred (tallyAt (sendCell c 20) () N) ∗ cred (tallyAt (sendCell c 20) () N))
      ∗ (doneTo c 43 ∗ curCell (sendCell c 22) (fun p => (RdI I).payload (sendCell c 22) 0 p) 2 ∗ emp ∗ curCell (recvCell c 22) (fun p => (RdI I).payload (recvCell c 22) 0 p) 1 ∗ todoFrom c 45)
      ∗ (foreignFrom c 69 ∗ rsBack I c 21)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_112 (I : Dev nD → Ins F) (K : Dev nD × Cell → ℕ) (c : Dev nD) : St I K (σ 112) c
    = iprop(records (RdI I) K ∗ levAts Proto.L Proto.lv ∗ (∃ W, owes (c : Thread nD τ) (owedFrom c 72) W) ∗ toksFrom c 72 ∗ credFrom c 69
      ∗ (cred (tallyAt (sendCell c 20) () N) ∗ cred (tallyAt (sendCell c 20) () N) ∗ cred (tallyAt (sendCell c 20) () N))
      ∗ (doneTo c 45 ∗ todoFrom c 45)
      ∗ (foreignFrom c 69 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 1) ∗ accTile c 3 1 (A I 1 c 3 1 1) ∗ accTile c 3 2 (A I 1 c 3 2 1))) := rfl

theorem St_open_113 (I : Dev nD → Ins F) (K : Dev nD × Cell → ℕ) (c : Dev nD) : St I K (σ 113) c
    = iprop(records (RdI I) K ∗ levAts Proto.L Proto.lv ∗ (∃ W, owes (c : Thread nD τ) (owedFrom c 72) W) ∗ toksFrom c 72 ∗ credFrom c 69
      ∗ (cred (tallyAt (sendCell c 20) () N) ∗ cred (tallyAt (sendCell c 20) () N) ∗ cred (tallyAt (sendCell c 20) () N))
      ∗ (doneTo c 45 ∗ todoFrom c 45)
      ∗ (foreignFrom c 69 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 2) ∗ accTile c 3 1 (A I 1 c 3 1 2) ∗ accTile c 3 2 (A I 1 c 3 2 1))) := rfl

theorem St_open_114 (I : Dev nD → Ins F) (K : Dev nD × Cell → ℕ) (c : Dev nD) : St I K (σ 114) c
    = iprop(records (RdI I) K ∗ levAts Proto.L Proto.lv ∗ (∃ W, owes (c : Thread nD τ) (owedFrom c 74) W) ∗ toksFrom c 74 ∗ credFrom c 69
      ∗ (cred (tallyAt (sendCell c 20) () N) ∗ cred (tallyAt (sendCell c 20) () N) ∗ cred (tallyAt (sendCell c 20) () N) ∗ cred (tallyAt (sendCell c 23) () N) ∗ cred (tallyAt (sendCell c 23) () N))
      ∗ (doneTo c 45 ∗ todoFrom c 45)
      ∗ (foreignFrom c 71 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ accTile c 3 2 (A I 1 c 3 2 2))) := rfl

theorem St_open_115 (I : Dev nD → Ins F) (K : Dev nD × Cell → ℕ) (c : Dev nD) : St I K (σ 115) c
    = iprop(records (RdI I) K ∗ levAts Proto.L Proto.lv ∗ (∃ W, owes (c : Thread nD τ) (owedFrom c 75) W) ∗ toksFrom c 75 ∗ credFrom c 69
      ∗ (cred (tallyAt (sendCell c 20) () N) ∗ cred (tallyAt (sendCell c 20) () N) ∗ cred (tallyAt (sendCell c 23) () N) ∗ cred (tallyAt (sendCell c 23) () N) ∗ cred (tallyAt (sendCell c 23) () N))
      ∗ (doneTo c 45 ∗ curCell (sendCell c 20) (fun p => (RdI I).payload (sendCell c 20) 0 p) 1 ∗ emp ∗ curCell (recvCell c 20) (fun p => (RdI I).payload (recvCell c 20) 0 p) 0 ∗ todoFrom c 47)
      ∗ (foreignFrom c 72 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_116 (I : Dev nD → Ins F) (K : Dev nD × Cell → ℕ) (c : Dev nD) : St I K (σ 116) c
    = iprop(records (RdI I) K ∗ levAts Proto.L Proto.lv ∗ (∃ W, owes (c : Thread nD τ) (owedFrom c 75) W) ∗ toksFrom c 75 ∗ credFrom c 71
      ∗ (cred (tallyAt (sendCell c 20) () N) ∗ cred (tallyAt (sendCell c 23) () N) ∗ cred (tallyAt (sendCell c 23) () N) ∗ cred (tallyAt (sendCell c 23) () N))
      ∗ (doneTo c 45 ∗ curCell (sendCell c 20) (fun p => (RdI I).payload (sendCell c 20) 0 p) 2 ∗ emp ∗ curCell (recvCell c 20) (fun p => (RdI I).payload (recvCell c 20) 0 p) 2 ∗ todoFrom c 47)
      ∗ (foreignFrom c 72 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_117 (I : Dev nD → Ins F) (K : Dev nD × Cell → ℕ) (c : Dev nD) : St I K (σ 117) c
    = iprop(records (RdI I) K ∗ levAts Proto.L Proto.lv ∗ (∃ W, owes (c : Thread nD τ) (owedFrom c 75) W) ∗ toksFrom c 75 ∗ credFrom c 72
      ∗ (cred (tallyAt (sendCell c 23) () N) ∗ cred (tallyAt (sendCell c 23) () N) ∗ cred (tallyAt (sendCell c 23) () N))
      ∗ (doneTo c 47 ∗ todoFrom c 47)
      ∗ (foreignFrom c 72 ∗ rsBack I c 23)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp)) := rfl

theorem St_open_118 (I : Dev nD → Ins F) (K : Dev nD × Cell → ℕ) (c : Dev nD) : St I K (σ 118) c
    = iprop(records (RdI I) K ∗ levAts Proto.L Proto.lv ∗ (∃ W, owes (c : Thread nD τ) (owedFrom c 75) W) ∗ toksFrom c 75 ∗ credFrom c 72
      ∗ (cred (tallyAt (sendCell c 23) () N) ∗ cred (tallyAt (sendCell c 23) () N))
      ∗ (doneTo c 47 ∗ curCell (sendCell c 23) (fun p => (RdI I).payload (sendCell c 23) 0 p) 1 ∗ emp ∗ curCell (recvCell c 23) (fun p => (RdI I).payload (recvCell c 23) 0 p) 0 ∗ todoFrom c 49)
      ∗ (foreignFrom c 72 ∗ rsBack I c 23)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp)) := rfl

theorem St_open_119 (I : Dev nD → Ins F) (K : Dev nD × Cell → ℕ) (c : Dev nD) : St I K (σ 119) c
    = iprop(records (RdI I) K ∗ levAts Proto.L Proto.lv ∗ (∃ W, owes (c : Thread nD τ) (owedFrom c 75) W) ∗ toksFrom c 75 ∗ credFrom c 74
      ∗ cred (tallyAt (sendCell c 23) () N)
      ∗ (doneTo c 47 ∗ curCell (sendCell c 23) (fun p => (RdI I).payload (sendCell c 23) 0 p) 2 ∗ emp ∗ curCell (recvCell c 23) (fun p => (RdI I).payload (recvCell c 23) 0 p) 2 ∗ todoFrom c 49)
      ∗ (foreignFrom c 72 ∗ rsBack I c 23)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp)) := rfl

theorem St_open_120 (I : Dev nD → Ins F) (K : Dev nD × Cell → ℕ) (c : Dev nD) : St I K (σ 120) c
    = iprop(records (RdI I) K ∗ levAts Proto.L Proto.lv ∗ (∃ W, owes (c : Thread nD τ) (owedFrom c 75) W) ∗ toksFrom c 75 ∗ credFrom c 75
      ∗ emp
      ∗ (doneTo c 49 ∗ todoFrom c 49)
      ∗ (foreignFrom c 72 ∗ rsBack I c 24)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2))) := rfl

theorem St_open_121 (I : Dev nD → Ins F) (K : Dev nD × Cell → ℕ) (c : Dev nD) : St I K (σ 121) c
    = iprop(records (RdI I) K ∗ levAts Proto.L Proto.lv ∗ (∃ W, owes (c : Thread nD τ) (owedFrom c 42) W) ∗ toksFrom c 42 ∗ credFrom c 33
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 21 ∗ todoFrom c 21)
      ∗ (foreignFrom c 39 ∗ rsBack I c 10)
      ∗ (accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp)) := rfl

theorem St_open_122 (I : Dev nD → Ins F) (K : Dev nD × Cell → ℕ) (c : Dev nD) : St I K (σ 122) c
    = iprop(records (RdI I) K ∗ levAts Proto.L Proto.lv ∗ (∃ W, owes (c : Thread nD τ) (owedFrom c 75) W) ∗ toksFrom c 75 ∗ credFrom c 75
      ∗ emp
      ∗ (doneTo c 49 ∗ todoFrom c 49)
      ∗ (foreignFrom c 72 ∗ rsBack I c 24)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2))) := rfl

theorem St_open_123 (I : Dev nD → Ins F) (K : Dev nD × Cell → ℕ) (c : Dev nD) : St I K (σ 123) c
    = iprop(records (RdI I) K ∗ levAts Proto.L Proto.lv ∗ (∃ W, owes (c : Thread nD τ) (owedFrom c 78) W) ∗ toksFrom c 78 ∗ credFrom c 78
      ∗ emp
      ∗ doneTo c 50
      ∗ (foreignFrom c 72 ∗ rsBack I c 24)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2))) := rfl

end Cert.KernelIdeal.Body
-- ==== Proof.Parts.Part5.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.Parts.L5
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.Gen.KernelIdeal.Launch

/-! Part 5 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 5 of the body, run from the place before it, ends at the place after it and returns its values; whatever else is held is kept. -/
theorem part_5 (m : (ℓ : Loc nD τ sig) → Buf (Elt F) ℓ) (K : Dev nD × Cell → ℕ) (c : Dev nD) (Fr : sProp 𝕄) :
    iprop(St (insM m) K (σ 4) c ∗ outHeld (insM m) c (σ 4).outs ∗ Fr)
      ⊢ wp frame (wpE (defs₀ (F := F)) 𝒱₀ (c : Thread nD τ) none) Set.univ
          (k0_part5 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw154 c))
          (fun tup => iprop(⌜tup = ⟨Vals.lw165 c, Vals.lw176 c⟩⌝ ∗ St (insM m) K (σ 5) c ∗ outHeld (insM m) c (σ 5).outs ∗ Fr)) := by
  have eT0 : (toksFrom c 3 : sProp (MT nD τ sig Unit (Elt F) ℕ UU ℕ))
      = iprop(dutyTok ER (sendCell c 0) 0 0 ∗ dutyTok ER (recvCell (mate c 0 0) 0) 0 0 ∗ toksFrom c 4) := toksFrom_copy c 0 0
  have eT1 : (toksFrom c 4 : sProp (MT nD τ sig Unit (Elt F) ℕ UU ℕ))
      = iprop(dutyTok ER (sendCell c 0) 0 1 ∗ dutyTok ER (recvCell (mate c 1 0) 0) 0 1 ∗ toksFrom c 5) := toksFrom_copy c 0 1
  have eF0 : (foreignFrom c 0 : sProp (MT nD τ sig Unit (Elt F) ℕ UU ℕ))
      = iprop(rsTileAny (F := F) (mate c 0 0) 0 0 0 ∗ foreignFrom c 1) := foreignFrom_succ c 0 0
  have eF1 : (foreignFrom c 1 : sProp (MT nD τ sig Unit (Elt F) ℕ UU ℕ))
      = iprop(rsTileAny (F := F) (mate c 1 0) 0 1 0 ∗ foreignFrom c 2) := foreignFrom_succ c 0 1
  have eo : (σ 5).outs = (σ 4).outs := rfl
  rw [eo, St_open_4, St_open_5, eT0, eT1, eF0, eF1]
  refine BIBase.Entails.trans ?_ ((local_5 (insM m) K c
    iprop(records (RdI (insM m)) K ∗ levAts Proto.L Proto.lv ∗ toksFrom c 5 ∗ credFrom c 3 ∗ (doneTo c 1 ∗ todoFrom c 1)
      ∗ foreignFrom c 2 ∗ rsBack (insM m) c 0
      ∗ accTile c 0 2 (Vals.A (insM m) 0 c 0 2 0) ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2
      ∗ outHeld (insM m) c (σ 4).outs ∗ Fr)).trans (wp_mono _ _ _ fun tup => ?_))
  · iintro ⟨⟨#HR, HL, HO, ⟨Ts0, Tr0, Ts1, Tr1, HT⟩, HC, -, HD, ⟨⟨Hr0, Hr1, HF⟩, HB⟩, T00, T01, T02, T10, T11, T12, T20, T21, T22, T30, T31, T32⟩, Hout, HFr⟩
    isplitr; · iexact HR
    isplitl [HO]; · iexact HO
    isplitl [Ts0]; · iexact Ts0
    isplitl [Tr0]; · iexact Tr0
    isplitl [Ts1]; · iexact Ts1
    isplitl [Tr1]; · iexact Tr1
    isplitl [Hr0]; · iexact Hr0
    isplitl [Hr1]; · iexact Hr1
    isplitl [T00]; · iexact T00
    isplitl [T01]; · iexact T01
    isplitr; · iexact HR
    isplitl [HL]; · iexact HL
    isplitl [HT]; · iexact HT
    isplitl [HC]; · iexact HC
    isplitl [HD]; · iexact HD
    isplitl [HF]; · iexact HF
    isplitl [HB]; · iexact HB
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [T32]; · iexact T32
    isplitl [Hout]; · iexact Hout
    iexact HFr
  · iintro ⟨%ht, HO, Hc0, Hc1, #HR, HL, HT, HC, HD, HF, HB, T02, T10, T11, T12, T20, T21, T22, T30, T31, T32, Hout, HFr⟩
    isplitr; · ipureintro; exact ht
    isplitr [Hout HFr]
    · isplitr; · iexact HR
      isplitl [HL]; · iexact HL
      isplitl [HO]; · iexact HO
      isplitl [HT]; · iexact HT
      isplitl [HC]; · iexact HC
      isplitl [Hc0 Hc1]
      · isplitl [Hc0]; · iexact Hc0
        iexact Hc1
      isplitl [HD]; · iexact HD
      isplitl [HF HB]
      · isplitl [HF]; · iexact HF
        iexact HB
      isplitr; · iempintro
      isplitr; · iempintro
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [Hout]; · iexact Hout
      iexact HFr

/-- info: 'Cert.KernelIdeal.Body.part_5' depends on axioms: [propext, Classical.choice, Quot.sound] -/
#guard_msgs in #print axioms part_5

end Cert.KernelIdeal.Body

end
-- ==== Proof.Parts.L6.lean ====
/-
  Part 6 of the body starts one copy of step 0 (the 1st step started; round 0, group 0, position 0): part 2 of accumulator slice (0, 2) goes to receive slice (0, 2, 0) of the device paired along mask 4.
  The accumulator slice, at level 0 of round 0, and the paired devices' receive slice leave the device's hands; it holds the departure credit of its send cell 0 for it and owes 1 payment fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 6: the copy of part 2 of step 0. -/
theorem local_6 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 5) W)
        ∗ dutyTok ER (sendCell c 0) 0 2 ∗ dutyTok ER (recvCell (mate c 2 0) 0) 0 2
        ∗ rsTileAny (F := F) (mate c 2 0) 0 2 0
        ∗ accTile c 0 2 (A I 0 c 0 2 0)
        ∗ P)
      ⊢ wp frame (wpE (defs₀ (F := F)) 𝒱₀ (c : Thread nD τ) none) Set.univ
          (k0_part6 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv28 I c) (Vals.lv77 I c) (Vals.lv80 I c) (Vals.lv83 I c))
          (fun tup => iprop(⌜tup = ⟨Vals.lv192 I c, Vals.lv204 I c, Vals.lv216 I c, Vals.lv219 I c, Vals.lv224 I c, Vals.lv225 I c⟩⌝
            ∗ (∃ W, owes (c : Thread nD τ) (owedFrom c 6) W)
            ∗ cred (tallyAt (sendCell c 0) () N)
            ∗ P)) := by
  iintro ⟨#HR, ⟨%W, HO⟩, Ts0, Tr0, ⟨%fd0, Hr0⟩, Ha0, HP⟩
  ihave #HIs := (inv_at (RdI I) K (c, Cell.send 0)) $$ HR
  ihave #HRs := (reached_at (RdI I) K (c, Cell.send 0)) $$ HR
  ihave #HIr0 := (inv_at (RdI I) K (mate c 2 0, Cell.recv 0)) $$ HR
  ihave #HRr0 := (reached_at (RdI I) K (mate c 2 0, Cell.recv 0)) $$ HR
  sl_exec
  iapply (wp_fire_at (accCI I) (rs0I I) c 0 2 (g := 0) (rg := 0) (s := 0) (by decide) (by decide) (by decide)
      (dv := ⟨k0_dev6 c, k0_dev6_lt c⟩) ((dev6_eq c).trans rfl) rfl rfl (sendS_eq 0).symm (recvS_eq 0).symm
      (accEmb 0 2 (A I 0 c 0 2 0)) rfl fd0 (owedFrom c 6) (owed_copy c 0 2 5 (by decide) 0 (by decide))) $$ [HO Ha0 Hr0 Ts0 Tr0]
  · fire_premises HIs HIr0 Ha0 Hr0 HO Ts0 HRs Tr0 HRr0
  iintro ⟨Hc0, HO⟩
  sl_exec
  sl_step
  isplitr
  · ipureintro; rfl
  isplitl [HO]
  · iexists W; iexact HO
  isplitl [Hc0]; · iexact Hc0
  iexact HP

end Cert.KernelIdeal.Body

/-- info: 'Cert.KernelIdeal.Body.local_6' depends on axioms: [propext, Classical.choice, Quot.sound] -/
#guard_msgs in #print axioms Cert.KernelIdeal.Body.local_6

end
-- ==== Proof.Parts.L7.lean ====
/-
  Part 7 of the body stores row group 1's attention partial product: its three column parts go to the three slices
  (1, 0), (1, 1), (1, 2) of the accumulator, whose earlier contents are read and not used. Each slice ends at the first
  level of round 0; the returned word is the device's first neighbour's number.
-/
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals

variable {F : FTy → Type} [FloatOps F]

/-- Part 7: the three slices of group 1, at any contents, come back at round 0's first level. -/
theorem local_7 (I : Dev nD → Vals.Ins F) (c : Dev nD) (P : sProp (MT nD τ sig Unit (Elt F) ℕ UU ℕ)) :
    iprop((∃ f, Proto.accPts (F := F) c 1 0 f) ∗ (∃ f, Proto.accPts (F := F) c 1 1 f) ∗ (∃ f, Proto.accPts (F := F) c 1 2 f) ∗ P)
      ⊢ wp frame (wpE (defs₀ (F := F)) 𝒱₀ (c : Thread nD τ) none) Set.univ
        (k0_part7 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv37 I c) (lv80 I c) (lv83 I c) (lv192 I c) (lv204 I c) (lv216 I c) (lv219 I c) (lv224 I c) (lv225 I c))
        (fun tup => iprop(⌜tup = lw257 c⌝ ∗ Proto.accPts c 1 0 (accEmb 1 0 (A I 0 c 1 0 0))
          ∗ Proto.accPts c 1 1 (accEmb 1 1 (A I 0 c 1 1 0)) ∗ Proto.accPts c 1 2 (accEmb 1 2 (A I 0 c 1 2 0)) ∗ P)) := by
  iintro ⟨⟨%f0, H0⟩, ⟨%f1, H1⟩, ⟨%f2, H2⟩, HP⟩
  unfold Proto.accPts
  rw [k0_part7_eq_skeleton]
  unfold k0_part7_skel
  sl_exec
  sl_step
  have e0 : (((Proto.accSl 1 0).view.loc (c : Thread nD τ) ↦[(Proto.accSl 1 0).view.set]{fullShare} Cert.KernelIdeal.Body.local_7.sl.H0_w1 I c f0) : sProp (MT nD τ sig Unit (Elt F) ℕ UU ℕ))
      = ((Proto.accSl 1 0).view.loc (c : Thread nD τ) ↦[(Proto.accSl 1 0).view.set]{fullShare} accEmb 1 0 (A I 0 c 1 0 0)) :=
    accTile_of_read c fullShare 1 0 (by unfold Cert.KernelIdeal.Body.local_7.sl.H0_w1; exact View.read_write_univ _ _)
  have e1 : (((Proto.accSl 1 1).view.loc (c : Thread nD τ) ↦[(Proto.accSl 1 1).view.set]{fullShare} Cert.KernelIdeal.Body.local_7.sl.H1_w2 I c f1) : sProp (MT nD τ sig Unit (Elt F) ℕ UU ℕ))
      = ((Proto.accSl 1 1).view.loc (c : Thread nD τ) ↦[(Proto.accSl 1 1).view.set]{fullShare} accEmb 1 1 (A I 0 c 1 1 0)) :=
    accTile_of_read c fullShare 1 1 (by unfold Cert.KernelIdeal.Body.local_7.sl.H1_w2; exact View.read_write_univ _ _)
  have e2 : (((Proto.accSl 1 2).view.loc (c : Thread nD τ) ↦[(Proto.accSl 1 2).view.set]{fullShare} Cert.KernelIdeal.Body.local_7.sl.H2_w3 I c f2) : sProp (MT nD τ sig Unit (Elt F) ℕ UU ℕ))
      = ((Proto.accSl 1 2).view.loc (c : Thread nD τ) ↦[(Proto.accSl 1 2).view.set]{fullShare} accEmb 1 2 (A I 0 c 1 2 0)) :=
    accTile_of_read c fullShare 1 2 (by unfold Cert.KernelIdeal.Body.local_7.sl.H2_w3; exact View.read_write_univ _ _)
  have i0 : (((Proto.accSl 1 0).view.loc (c : Thread nD τ) ↦[(Proto.accSl 1 0).view.set]{fullShare} Cert.KernelIdeal.Body.local_7.sl.H0_w1 I c f0) : sProp (MT nD τ sig Unit (Elt F) ℕ UU ℕ))
      ⊢ ((Proto.accSl 1 0).view.loc (c : Thread nD τ) ↦[(Proto.accSl 1 0).view.set]{fullShare} accEmb 1 0 (A I 0 c 1 0 0)) := by rw [e0]
  have i1 : (((Proto.accSl 1 1).view.loc (c : Thread nD τ) ↦[(Proto.accSl 1 1).view.set]{fullShare} Cert.KernelIdeal.Body.local_7.sl.H1_w2 I c f1) : sProp (MT nD τ sig Unit (Elt F) ℕ UU ℕ))
      ⊢ ((Proto.accSl 1 1).view.loc (c : Thread nD τ) ↦[(Proto.accSl 1 1).view.set]{fullShare} accEmb 1 1 (A I 0 c 1 1 0)) := by rw [e1]
  have i2 : (((Proto.accSl 1 2).view.loc (c : Thread nD τ) ↦[(Proto.accSl 1 2).view.set]{fullShare} Cert.KernelIdeal.Body.local_7.sl.H2_w3 I c f2) : sProp (MT nD τ sig Unit (Elt F) ℕ UU ℕ))
      ⊢ ((Proto.accSl 1 2).view.loc (c : Thread nD τ) ↦[(Proto.accSl 1 2).view.set]{fullShare} accEmb 1 2 (A I 0 c 1 2 0)) := by rw [e2]
  ihave T0 := i0 $$ H0
  ihave T1 := i1 $$ H1
  ihave T2 := i2 $$ H2
  isplitr
  · ipureintro; rfl
  isplitl [T0]; · iexact T0
  isplitl [T1]; · iexact T1
  isplitl [T2]; · iexact T2
  iexact HP

end Cert.KernelIdeal.Body

/-- info: 'Cert.KernelIdeal.Body.local_7' depends on axioms: [propext, Classical.choice, Quot.sound] -/
#guard_msgs in #print axioms Cert.KernelIdeal.Body.local_7

end
-- ==== Proof.Parts.Part7.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L7
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable

/-! Part 7 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 7 of the body, run from the place before it, ends at the place after it and returns its values; whatever else is held is kept. -/
theorem part_7 (m : (ℓ : Loc nD τ sig) → Buf (Elt F) ℓ) (K : Dev nD × Cell → ℕ) (c : Dev nD) (Fr : sProp 𝕄) :
    iprop(St (insM m) K (σ 6) c ∗ outHeld (insM m) c (σ 6).outs ∗ Fr)
      ⊢ wp frame (wpE (defs₀ (F := F)) 𝒱₀ (c : Thread nD τ) none) Set.univ
          (k0_part7 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv37 (insM m) c) (Vals.lv80 (insM m) c) (Vals.lv83 (insM m) c) (Vals.lv192 (insM m) c) (Vals.lv204 (insM m) c) (Vals.lv216 (insM m) c) (Vals.lv219 (insM m) c) (Vals.lv224 (insM m) c) (Vals.lv225 (insM m) c))
          (fun tup => iprop(⌜tup = Vals.lw257 c⌝ ∗ St (insM m) K (σ 7) c ∗ outHeld (insM m) c (σ 7).outs ∗ Fr)) := by
  have eo : (σ 7).outs = (σ 6).outs := rfl
  rw [eo]
  rw [St_eq, St_eq, StRest_congr (insM m) K c (s := σ 6) (s' := σ 7) rfl rfl rfl rfl, accAll_σ_6, accAll_σ_7]
  refine BIBase.Entails.trans ?_ ((local_7 (insM m) c iprop(StRest (insM m) K (σ 7) c ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2 ∗ outHeld (insM m) c (σ 6).outs ∗ Fr)).trans (wp_mono _ _ _ fun tup => ?_))
  · iintro ⟨⟨HR, T00, T01, T02, T10, T11, T12, T20, T21, T22, T30, T31, T32⟩, HO, HF⟩
    isplitl [T10]; · iexact T10
    isplitl [T11]; · iexact T11
    isplitl [T12]; · iexact T12
    isplitl [HR]; · iexact HR
    isplitl [T00]; · iexact T00
    isplitl [T01]; · iexact T01
    isplitl [T02]; · iexact T02
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T10, T11, T12, HR, T00, T01, T02, T20, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_7' depends on axioms: [propext, Classical.choice, Quot.sound] -/
#guard_msgs in #print axioms part_7

end Cert.KernelIdeal.Body

end
-- ==== Proof.Parts.L8.lean ====
/-
  Part 8 of the body starts two copies of step 3 (the 2nd step started; round 0, group 1, position 0): part 0 of accumulator slice (1, 0) goes to receive slice (1, 0, 0) of the device paired along mask 1, part 1 of accumulator slice (1, 1) goes to receive slice (1, 1, 0) of the device paired along mask 3.
  The accumulator slices, at level 0 of round 0, and the paired devices' receive slices leave the device's hands; it holds the departure credits of its send cell 3 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 8: the copies of parts 0 and 1 of step 3. -/
theorem local_8 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 6) W)
        ∗ dutyTok ER (sendCell c 3) 0 0 ∗ dutyTok ER (recvCell (mate c 0 3) 3) 0 0
        ∗ dutyTok ER (sendCell c 3) 0 1 ∗ dutyTok ER (recvCell (mate c 1 3) 3) 0 1
        ∗ rsTileAny (F := F) (mate c 0 3) 1 0 0
        ∗ rsTileAny (F := F) (mate c 1 3) 1 1 0
        ∗ accTile c 1 0 (A I 0 c 1 0 0)
        ∗ accTile c 1 1 (A I 0 c 1 1 0)
        ∗ P)
      ⊢ wp frame (wpE (defs₀ (F := F)) 𝒱₀ (c : Thread nD τ) none) Set.univ
          (k0_part8 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw257 c))
          (fun tup => iprop(⌜tup = ⟨Vals.lw268 c, Vals.lw279 c⟩⌝
            ∗ (∃ W, owes (c : Thread nD τ) (owedFrom c 8) W)
            ∗ cred (tallyAt (sendCell c 3) () N)
            ∗ cred (tallyAt (sendCell c 3) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 3)) $$ HR
  ihave #HRs := (reached_at (RdI I) K (c, Cell.send 3)) $$ HR
  ihave #HIr0 := (inv_at (RdI I) K (mate c 0 3, Cell.recv 3)) $$ HR
  ihave #HRr0 := (reached_at (RdI I) K (mate c 0 3, Cell.recv 3)) $$ HR
  ihave #HIr1 := (inv_at (RdI I) K (mate c 1 3, Cell.recv 3)) $$ HR
  ihave #HRr1 := (reached_at (RdI I) K (mate c 1 3, Cell.recv 3)) $$ HR
  sl_exec
  iapply (wp_fire_at (accCI I) (rs0I I) c 3 0 (g := 1) (rg := 1) (s := 0) (by decide) (by decide) (by decide)
      (dv := ⟨k0_dev7 c, k0_dev7_lt c⟩) ((dev7_eq c).trans rfl) rfl rfl (sendS_eq 3).symm (recvS_eq 3).symm
      (accEmb 1 0 (A I 0 c 1 0 0)) rfl fd0 (owedFrom c 7) (owed_copy c 1 0 6 (by decide) 3 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 3 1 (g := 1) (rg := 1) (s := 0) (by decide) (by decide) (by decide)
      (dv := ⟨k0_dev8 c, k0_dev8_lt c⟩) ((dev8_eq c).trans rfl) rfl rfl (sendS_eq 3).symm (recvS_eq 3).symm
      (accEmb 1 1 (A I 0 c 1 1 0)) rfl fd1 (owedFrom c 8) (owed_copy c 1 1 7 (by decide) 3 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_8' depends on axioms: [propext, Classical.choice, Quot.sound] -/
#guard_msgs in #print axioms Cert.KernelIdeal.Body.local_8

end
-- ==== Proof.BodyWait.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyState

/-!
  The three waits on a DMA cell whose one round has three duties of one slice's credit each.

  A device waits three times on each of its send and receive cells, a slice's credit at a time. The first two waits are
  waits for PART of the round: each hands back the payloads of whatever duties have landed and were not yet taken, which
  may be none. The third is the wait for the REST of the round: it hands back every payload not yet taken and moves the
  cell to its next round. Between the waits the cell's position is kept in one form, `curCell` (stated with the boundary states): the set `S` of duties
  taken so far is existentially bound and their payloads are held as ONE family over `S`, so that what the first two
  waits happened to take never has to be named.
-/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

/-! The cell's position after `φ` of its three waits is `curCell g P φ`; its four cases, by unfolding. -/

theorem curCell_w0 (g : GSem nD τ sig) (P : Fin 3 → sProp (MT nD τ sig Unit (Elt F) ℕ UU ℕ)) : curCell g P 0 = atPos ER g 0 ∅ 0 := rfl
theorem curCell_w1 (g : GSem nD τ sig) (P : Fin 3 → sProp (MT nD τ sig Unit (Elt F) ℕ UU ℕ)) :
    curCell g P 1 = iprop(∃ S : Finset (Fin 3), atPos ER g 0 S N ∗ bigSep S P) := rfl
theorem curCell_w2 (g : GSem nD τ sig) (P : Fin 3 → sProp (MT nD τ sig Unit (Elt F) ℕ UU ℕ)) :
    curCell g P 2 = iprop(∃ S : Finset (Fin 3), atPos ER g 0 S (N + N) ∗ bigSep S P) := rfl
theorem curCell_w3 (g : GSem nD τ sig) (P : Fin 3 → sProp (MT nD τ sig Unit (Elt F) ℕ UU ℕ)) : curCell g P 3 = atPos ER g 1 ∅ 0 := rfl

section Rules
variable (Rd : Rounds.Schedule (GSem nD τ sig) (Fin 3) (MT nD τ sig Unit (Elt F) ℕ UU ℕ)) (c : Dev nD) (sm : DmaSem sig)

/-- THE FIRST WAIT: from no duty taken to some set taken, a slice's credit consumed. -/
theorem wp_wait1 {w : TpuEff nD τ sig (Elt F) Λ₀ (c : Thread nD τ).2 PUnit}
    (hw : ∀ K : PUnit → sProp (MT nD τ sig Unit (Elt F) ℕ UU ℕ), wpE (defs₀ (F := F)) 𝒱₀ (c : Thread nD τ) none Set.univ w K
      = waitSpec (c : Thread nD τ) Set.univ (SemLoc.dma sm) N K)
    {κ : ℕ} {α : Type} {Q : α → sProp (MT nD τ sig Unit (Elt F) ℕ UU ℕ)}
    {k : PUnit → Prog (TpuEff nD τ sig (Elt F) Λ₀ (c : Thread nD τ).2) α}
    {O : CellTallies nD τ sig Unit} {W : Waits sig Unit} :
    iprop(cellInv ER Rd κ ((c : Thread nD τ), SemLoc.dma sm) ∗ cred (tallyAt ((c : Thread nD τ), SemLoc.dma sm) () N)
        ∗ owes (c : Thread nD τ) O W ∗ MayWait (c : Thread nD τ) (SemLoc.dma sm) () O
        ∗ curCell ((c : Thread nD τ), SemLoc.dma sm) (fun d => Rd.payload ((c : Thread nD τ), SemLoc.dma sm) 0 d) 0)
      ⊢ iprop(((owes (c : Thread nD τ) O (insert (SemLoc.dma sm, ()) W)
              ∗ curCell ((c : Thread nD τ), SemLoc.dma sm) (fun d => Rd.payload ((c : Thread nD τ), SemLoc.dma sm) 0 d) 1)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [curCell_w0, curCell_w1]
  iintro ⟨HI, Hc, HO, HM, Hat⟩ Hk
  have h := wp_wait_token (defs := defs₀ (F := F)) 𝒱₀ ER Rd (c : Thread nD τ) none hw (Set.mem_univ κ) ()
    (O := O) (W := W) (R := 0) (m := 0) (T := ∅) (k := k) (Q := Q)
  simp only [Nat.zero_add, Finset.sdiff_empty] at h
  iapply h $$ [HI Hc HO HM Hat]
  · isplitl [HI]; · iexact HI
    isplitl [Hc]; · iexact Hc
    isplitl [HO]; · iexact HO
    isplitl [HM]; · iexact HM
    iexact Hat
  iintro %S ⟨%hS, HO, Hat, Hpay⟩
  iapply Hk
  isplitl [HO]; · iexact HO
  iexists S
  isplitl [Hat]; · iexact Hat
  iexact Hpay

/-- THE SECOND WAIT: from some set taken to a larger one, a second slice's credit consumed. -/
theorem wp_wait2 {w : TpuEff nD τ sig (Elt F) Λ₀ (c : Thread nD τ).2 PUnit}
    (hw : ∀ K : PUnit → sProp (MT nD τ sig Unit (Elt F) ℕ UU ℕ), wpE (defs₀ (F := F)) 𝒱₀ (c : Thread nD τ) none Set.univ w K
      = waitSpec (c : Thread nD τ) Set.univ (SemLoc.dma sm) N K)
    {κ : ℕ} {α : Type} {Q : α → sProp (MT nD τ sig Unit (Elt F) ℕ UU ℕ)}
    {k : PUnit → Prog (TpuEff nD τ sig (Elt F) Λ₀ (c : Thread nD τ).2) α}
    {O : CellTallies nD τ sig Unit} {W : Waits sig Unit} :
    iprop(cellInv ER Rd κ ((c : Thread nD τ), SemLoc.dma sm) ∗ cred (tallyAt ((c : Thread nD τ), SemLoc.dma sm) () N)
        ∗ owes (c : Thread nD τ) O W ∗ MayWait (c : Thread nD τ) (SemLoc.dma sm) () O
        ∗ curCell ((c : Thread nD τ), SemLoc.dma sm) (fun d => Rd.payload ((c : Thread nD τ), SemLoc.dma sm) 0 d) 1)
      ⊢ iprop(((owes (c : Thread nD τ) O (insert (SemLoc.dma sm, ()) W)
              ∗ curCell ((c : Thread nD τ), SemLoc.dma sm) (fun d => Rd.payload ((c : Thread nD τ), SemLoc.dma sm) 0 d) 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [curCell_w1, curCell_w2]
  iintro ⟨HI, Hc, HO, HM, ⟨%S, Hat, HS⟩⟩ Hk
  iapply (wp_wait_token (defs := defs₀ (F := F)) 𝒱₀ ER Rd (c : Thread nD τ) none hw (Set.mem_univ κ) ()
    (O := O) (W := W) (R := 0) (m := N) (T := S) (k := k) (Q := Q)) $$ [HI Hc HO HM Hat]
  · isplitl [HI]; · iexact HI
    isplitl [Hc]; · iexact Hc
    isplitl [HO]; · iexact HO
    isplitl [HM]; · iexact HM
    iexact Hat
  iintro %S' ⟨%hS, HO, Hat, Hpay⟩
  iapply Hk
  isplitl [HO]; · iexact HO
  iexists S'
  isplitl [Hat]; · iexact Hat
  have hjoin : iprop(bigSep S (fun d => Rd.payload ((c : Thread nD τ), SemLoc.dma sm) 0 d)
      ∗ bigSep (S' \ S) (fun d => Rd.payload ((c : Thread nD τ), SemLoc.dma sm) 0 d))
      ⊢ bigSep S' (fun d => Rd.payload ((c : Thread nD τ), SemLoc.dma sm) 0 d) :=
    Entails.of_eq (bigSep_sdiff_split hS.1).symm
  iapply hjoin
  isplitl [HS]; · iexact HS
  iexact Hpay

/-- THE THIRD WAIT, for the rest of the round: the cell moves to its next round and every duty's payload is in hand. -/
theorem wp_wait3 (hd : Rd.duties ((c : Thread nD τ), SemLoc.dma sm) 0 = Finset.univ)
    (he : Rd.expect ((c : Thread nD τ), SemLoc.dma sm) 0 = 3 * N)
    {w : TpuEff nD τ sig (Elt F) Λ₀ (c : Thread nD τ).2 PUnit}
    (hw : ∀ K : PUnit → sProp (MT nD τ sig Unit (Elt F) ℕ UU ℕ), wpE (defs₀ (F := F)) 𝒱₀ (c : Thread nD τ) none Set.univ w K
      = waitSpec (c : Thread nD τ) Set.univ (SemLoc.dma sm) N K)
    {κ : ℕ} {α : Type} {Q : α → sProp (MT nD τ sig Unit (Elt F) ℕ UU ℕ)}
    {k : PUnit → Prog (TpuEff nD τ sig (Elt F) Λ₀ (c : Thread nD τ).2) α}
    {O : CellTallies nD τ sig Unit} {W : Waits sig Unit} :
    iprop(cellInv ER Rd κ ((c : Thread nD τ), SemLoc.dma sm) ∗ cred (tallyAt ((c : Thread nD τ), SemLoc.dma sm) () N)
        ∗ owes (c : Thread nD τ) O W ∗ MayWait (c : Thread nD τ) (SemLoc.dma sm) () O
        ∗ curCell ((c : Thread nD τ), SemLoc.dma sm) (fun d => Rd.payload ((c : Thread nD τ), SemLoc.dma sm) 0 d) 2)
      ⊢ iprop(((owes (c : Thread nD τ) O (insert (SemLoc.dma sm, ()) W)
              ∗ curCell ((c : Thread nD τ), SemLoc.dma sm) (fun d => Rd.payload ((c : Thread nD τ), SemLoc.dma sm) 0 d) 3
              ∗ Rd.payload ((c : Thread nD τ), SemLoc.dma sm) 0 0 ∗ Rd.payload ((c : Thread nD τ), SemLoc.dma sm) 0 1
              ∗ Rd.payload ((c : Thread nD τ), SemLoc.dma sm) 0 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [curCell_w2, curCell_w3]
  iintro ⟨HI, Hc, HO, HM, ⟨%S, Hat, HS⟩⟩ Hk
  iapply (Rounds.wp_wait_rest_token (defs := defs₀ (F := F)) 𝒱₀ ER Rd (c : Thread nD τ) none hw (Set.mem_univ κ) ()
    (O := O) (W := W) (R := 0) (m := N + N) (T := S) (k := k) (Q := Q) (by rw [he]; omega)) $$ [HI Hc HO HM Hat]
  · isplitl [HI]; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  have hjoin : iprop(bigSep S (fun d => Rd.payload ((c : Thread nD τ), SemLoc.dma sm) 0 d)
      ∗ bigSep (Rd.duties ((c : Thread nD τ), SemLoc.dma sm) 0 \ S) (fun d => Rd.payload ((c : Thread nD τ), SemLoc.dma sm) 0 d))
      ⊢ iprop(Rd.payload ((c : Thread nD τ), SemLoc.dma sm) 0 0 ∗ Rd.payload ((c : Thread nD τ), SemLoc.dma sm) 0 1
          ∗ Rd.payload ((c : Thread nD τ), SemLoc.dma sm) 0 2) := by
    rw [hd]
    exact (Entails.of_eq (bigSep_sdiff_split (Finset.subset_univ S)).symm).trans
      (Entails.of_eq (Proto.bigSep_fin3 (F := F) (fun d => Rd.payload ((c : Thread nD τ), SemLoc.dma sm) 0 d)))
  iapply hjoin
  isplitl [HS]; · iexact HS
  iexact Hpay

end Rules

/-- info: 'Cert.KernelIdeal.Body.wp_wait1' depends on axioms: [propext, Classical.choice, Quot.sound] -/
#guard_msgs in #print axioms wp_wait1
/-- info: 'Cert.KernelIdeal.Body.wp_wait2' depends on axioms: [propext, Classical.choice, Quot.sound] -/
#guard_msgs in #print axioms wp_wait2
/-- info: 'Cert.KernelIdeal.Body.wp_wait3' depends on axioms: [propext, Classical.choice, Quot.sound] -/
#guard_msgs in #print axioms wp_wait3

end Cert.KernelIdeal.Body

end
-- ==== Proof.Parts.Part9.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L9
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 9 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 9 of the body, run from the place before it, ends at the place after it; whatever else is held is kept. -/
theorem part_9 (m : (ℓ : Loc nD τ sig) → Buf (Elt F) ℓ) (K : Dev nD × Cell → ℕ) (c : Dev nD) (Fr : sProp 𝕄) :
    iprop(St (insM m) K (σ 8) c ∗ outHeld (insM m) c (σ 8).outs ∗ Fr)
      ⊢ wp frame (wpE (defs₀ (F := F)) 𝒱₀ (c : Thread nD τ) none) Set.univ
          (k0_part9 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw154 c))
          (fun _ => iprop(St (insM m) K (σ 9) c ∗ outHeld (insM m) c (σ 9).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 8 : sProp (MT nD τ sig Unit (Elt F) ℕ UU ℕ)) = iprop(dutyTok ER (sendCell c 3) 0 2 ∗ dutyTok ER (recvCell (mate c 2 3) 3) 0 2 ∗ toksFrom c 9) := toksFrom_copy c 1 2
  have hF0 : (foreignFrom c 5 : sProp (MT nD τ sig Unit (Elt F) ℕ UU ℕ)) = iprop(rsTileAny (mate c 2 3) 1 2 0 ∗ foreignFrom c 6) := foreignFrom_succ c 1 2
  have hC : (credFrom c 3 : sProp (MT nD τ sig Unit (Elt F) ℕ UU ℕ)) = iprop(credFrom c 4 ∗ cred (tallyAt (recvCell c 0) () N)) := by
    rw [credFrom_succ c 3 (by omega), show ownCell c 3 = recvCell c 0 from ownCell_fire c 0 0, show dueAmt 3 = N from dueAmt_fire 0 0]
  have hG : (todoFrom c 1 : sProp (MT nD τ sig Unit (Elt F) ℕ UU ℕ)) = iprop(curCell (sendCell c 0) (fun p => (RdI (insM m)).payload (sendCell c 0) 0 p) 0 ∗ curCell (recvCell c 0) (fun p => (RdI (insM m)).payload (recvCell c 0) 0 p) 0 ∗ todoFrom c 3) := todo_group c 0
  rw [show (σ 9).outs = (σ 8).outs from rfl, St_open_8, St_open_9, hT0, hF0, hC, hG]
  simp only [hemp, hemp']
  refine BIBase.Entails.trans (Entails.of_eq ?_) (BIBase.Entails.trans (local_9 (insM m) K c iprop(toksFrom c 9 ∗ credFrom c 4 ∗ cred (tallyAt (sendCell c 0) () N) ∗ cred (tallyAt (sendCell c 0) () N) ∗ cred (tallyAt (sendCell c 3) () N) ∗ cred (tallyAt (sendCell c 3) () N) ∗ doneTo c 1 ∗ todoFrom c 3 ∗ foreignFrom c 6 ∗ rsBack (insM m) c 0 ∗ accTileAny c 2 0 ∗ accTileAny c 2 1 ∗ accTileAny c 2 2 ∗ accTileAny c 3 0 ∗ accTileAny c 3 1 ∗ accTileAny c 3 2 ∗ outHeld (insM m) c (σ 8).outs ∗ Fr)) (wp_mono _ _ _ fun tup => Entails.of_eq ?_))
  · ac_rfl
  · ac_rfl

/-- info: 'Cert.KernelIdeal.Body.part_9' depends on axioms: [propext, Classical.choice, Quot.sound] -/
#guard_msgs in #print axioms part_9

end Cert.KernelIdeal.Body

end
-- ==== Proof.Parts.L12.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 12 of the body: the first exchange step's add on accumulator tile (0, 2), then the start of step 1's copy of part 0 of group 0 (tile (0, 0), which leaves the device's hands with the partner's receive slice), and the two words it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_12 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 9) W)
        ∗ dutyTok ER (sendCell c 1) 0 0 ∗ dutyTok ER (recvCell (mate c 0 1) 1) 0 0
        ∗ rsTileAny (mate c 0 1) (rgOf 1) 0 (sOf 1)
        ∗ accTile c 0 0 (Vals.A I 0 c 0 0 1)
        ∗ accTile c 0 2 (Vals.A I 0 c 0 2 0) ∗ rsTile c 0 2 0 (Vals.R I 0 c 0 2 0) ∗ P) : sProp (MT nD τ sig Unit (Elt F) ℕ UU ℕ))
      ⊢ wp frame (wpE (defs₀ (F := F)) 𝒱₀ (c : Thread nD τ) none) Set.univ
      (k0_part12 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw356 c, Vals.lw367 c⟩⌝
        ∗ records (RdI I) K
        ∗ (∃ W, owes (c : Thread nD τ) (owedFrom c 10) W)
        ∗ cred (tallyAt (sendCell c 1) () N)
        ∗ accTile c 0 2 (Vals.A I 0 c 0 2 1) ∗ rsTile c 0 2 0 (Vals.R I 0 c 0 2 0) ∗ P)) := by
  unfold accTile rsTile rsTileAny Proto.accPts Proto.rsPts
  iintro ⟨#Hrec, ⟨%W, HO⟩, Hts, Htr, ⟨%fd, Hfd⟩, Ha00, Ha02, Hr020, HP⟩
  ihave #HIs := (inv_at (RdI I) K (c, Cell.send 1)) $$ Hrec
  ihave #HIr := (inv_at (RdI I) K (mate c 0 1, Cell.recv 1)) $$ Hrec
  ihave #Hrs := (reached_at (RdI I) K (c, Cell.send 1)) $$ Hrec
  ihave #Hrr := (reached_at (RdI I) K (mate c 0 1, Cell.recv 1)) $$ Hrec
  rw [k0_part12_eq_skeleton]
  unfold k0_part12_skel
  sl_exec
  -- the copy of part 0 at step 1 (the third step started): its units on the partner's receive cell are owed last
  have h1 : dueCell c 9 = recvCell (mate c 0 1) 1 := dueCell_fire c 2 0
  have h2 : dueAmt 9 = N := dueAmt_fire 2 0
  have hO : owedFrom c 9 = owedFrom c 10 + tallyAt (recvCell (mate c 0 1) 1) () N :=
    (owedFrom_succ c 9 (by decide)).trans (by rw [h1, h2])
  iapply (wp_fire_at (accCI I) (rs0I I) c 1 0 (g := 0) (rg := 0) (s := 1) rfl rfl rfl (dev10_eq c) rfl rfl
    (sendS_eq 1) (recvS_eq 1) (accEmb 0 0 (Vals.A I 0 c 0 0 1)) rfl fd (owedFrom c 10) hO) $$ [HO Hts Htr Hfd Ha00]
  · unfold Proto.accPts Proto.rsPts
    isplitr; · iexact HIs
    isplitr; · iexact HIr
    isplitl [Ha00]; · iexact Ha00
    isplitl [Hfd]; · iexact Hfd
    isplitl [HO]; · iexact HO
    isplitl [Hts]; · iexact Hts
    isplitr; · iexact Hrs
    isplitl [Htr]; · iexact Htr
    iexact Hrr
  iintro ⟨Hcs, HO⟩
  sl_exec
  sl_step
  -- what the two loads read, and what tile (0, 2)'s view reads back after its store
  have r0 : local_12.sl.v350 I c = Vals.R I 0 c 0 2 0 := by unfold local_12.sl.v350; exact rsV_read_rsEmb 0 2 0 _
  have a0 : local_12.sl.v348 I c = Vals.A I 0 c 0 2 0 := by unfold local_12.sl.v348; exact accV_read_accEmb 0 2 _
  have e2 : View.read (Elt F) (accV 0 2) (local_12.sl.Ha02_w1 I c) = Vals.A I 0 c 0 2 1 := by
    unfold local_12.sl.Ha02_w1; rw [r0, a0]; exact View.read_write_univ _ _
  have t2 : ((Proto.accSl 0 2).view.loc (c : Thread nD τ) ↦[(Proto.accSl 0 2).view.set]{fullShare} local_12.sl.Ha02_w1 I c : sProp (MT nD τ sig Unit (Elt F) ℕ UU ℕ)) = ((Proto.accSl 0 2).view.loc (c : Thread nD τ) ↦[(Proto.accSl 0 2).view.set]{fullShare} accEmb 0 2 (Vals.A I 0 c 0 2 1) : sProp (MT nD τ sig Unit (Elt F) ℕ UU ℕ)) := accTile_of_read c fullShare 0 2 e2
  rw [← t2]
  isplitr [HO Hcs Ha02 Hr020 HP]
  · ipureintro; rfl
  isplitr [HO Hcs Ha02 Hr020 HP]; · iexact Hrec
  isplitl [HO]; · iexists W; iexact HO
  iframe

/-- info: 'Cert.KernelIdeal.Body.local_12' depends on axioms: [propext, Classical.choice, Quot.sound] -/
#guard_msgs in #print axioms local_12

end Cert.KernelIdeal.Body
-- ==== Proof.Parts.Part12.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L12
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 12 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 12 of the body, run from the place before it, ends at the place after it and returns its values; whatever else is held is kept. -/
theorem part_12 (m : (ℓ : Loc nD τ sig) → Buf (Elt F) ℓ) (K : Dev nD × Cell → ℕ) (c : Dev nD) (Fr : sProp 𝕄) :
    iprop(St (insM m) K (σ 11) c ∗ outHeld (insM m) c (σ 11).outs ∗ Fr)
      ⊢ wp frame (wpE (defs₀ (F := F)) 𝒱₀ (c : Thread nD τ) none) Set.univ
          (k0_part12 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw356 c, Vals.lw367 c⟩⌝ ∗ St (insM m) K (σ 12) c ∗ outHeld (insM m) c (σ 12).outs ∗ Fr)) := by
  have hemp : ∀ X : sProp (MT nD τ sig Unit (Elt F) ℕ UU ℕ), iprop(emp ∗ X) = X := fun X => equiv_iff.mp emp_sep
  have ht : (toksFrom c 9 : sProp (MT nD τ sig Unit (Elt F) ℕ UU ℕ))
      = iprop(dutyTok ER (sendCell c 1) 0 0 ∗ dutyTok ER (recvCell (mate c 0 1) 1) 0 0 ∗ toksFrom c 10) := toksFrom_copy c 2 0
  have hf : (foreignFrom c 6 : sProp (MT nD τ sig Unit (Elt F) ℕ UU ℕ))
      = iprop(rsTileAny (mate c 0 1) (rgOf 1) 0 (sOf 1) ∗ foreignFrom c 7) := foreignFrom_succ c 2 0
  have hb : (rsBack (insM m) c 1 : sProp (MT nD τ sig Unit (Elt F) ℕ UU ℕ))
      = iprop((rsTile c 0 0 0 (Vals.R (insM m) 0 c 0 0 0) ∗ rsTile c 0 1 0 (Vals.R (insM m) 0 c 0 1 0) ∗ rsTile c 0 2 0 (Vals.R (insM m) 0 c 0 2 0))
          ∗ rsBack (insM m) c 0) := rsBack_succ (insM m) c 0
  rw [St_open_11, St_open_12, ht, hf, hb, show (σ 11).outs = (σ 12).outs from rfl]
  simp only [hemp]
  refine BIBase.Entails.trans (Entails.of_eq ?_) (BIBase.Entails.trans
    (local_12 (insM m) K c
      (iprop(levAts Proto.L Proto.lv ∗ toksFrom c 10 ∗ credFrom c 6
        ∗ (cred (tallyAt (sendCell c 3) () N) ∗ cred (tallyAt (sendCell c 3) () N) ∗ cred (tallyAt (sendCell c 3) () N))
        ∗ (doneTo c 3 ∗ todoFrom c 3) ∗ foreignFrom c 7
        ∗ (rsTile c 0 0 0 (Vals.R (insM m) 0 c 0 0 0) ∗ rsTile c 0 1 0 (Vals.R (insM m) 0 c 0 1 0)) ∗ rsBack (insM m) c 0
        ∗ (accTile c 0 1 (Vals.A (insM m) 0 c 0 1 1) ∗ accTileAny c 2 0 ∗ accTileAny c 2 1 ∗ accTileAny c 2 2 ∗ accTileAny c 3 0 ∗ accTileAny c 3 1 ∗ accTileAny c 3 2)
        ∗ outHeld (insM m) c (σ 12).outs ∗ Fr)))
    (wp_mono _ _ _ fun tup => Entails.of_eq ?_))
  · ac_rfl
  · ac_rfl

/-- info: 'Cert.KernelIdeal.Body.part_12' depends on axioms: [propext, Classical.choice, Quot.sound] -/
#guard_msgs in #print axioms part_12

end Cert.KernelIdeal.Body

end
-- ==== Proof.Parts.L13.lean ====
/-
  Part 13 of the body starts two copies of step 1 (the 3rd step started; round 0, group 0, position 1): part 1 of accumulator slice (0, 1) goes to receive slice (0, 1, 1) of the device paired along mask 4, part 2 of accumulator slice (0, 2) goes to receive slice (0, 2, 1) of the device paired along mask 1.
  The accumulator slices, at level 1 of round 0, and the paired devices' receive slices leave the device's hands; it holds the departure credits of its send cell 1 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 13: the copies of parts 1 and 2 of step 1. -/
theorem local_13 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 10) W)
        ∗ dutyTok ER (sendCell c 1) 0 1 ∗ dutyTok ER (recvCell (mate c 1 1) 1) 0 1
        ∗ dutyTok ER (sendCell c 1) 0 2 ∗ dutyTok ER (recvCell (mate c 2 1) 1) 0 2
        ∗ rsTileAny (F := F) (mate c 1 1) 0 1 1
        ∗ rsTileAny (F := F) (mate c 2 1) 0 2 1
        ∗ accTile c 0 1 (A I 0 c 0 1 1)
        ∗ accTile c 0 2 (A I 0 c 0 2 1)
        ∗ P)
      ⊢ wp frame (wpE (defs₀ (F := F)) 𝒱₀ (c : Thread nD τ) none) Set.univ
          (k0_part13 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv14 I c))
          (fun tup => iprop(⌜tup = ⟨Vals.lw378 c, Vals.lv405 I c, Vals.lv407 I c⟩⌝
            ∗ (∃ W, owes (c : Thread nD τ) (owedFrom c 12) W)
            ∗ cred (tallyAt (sendCell c 1) () N)
            ∗ cred (tallyAt (sendCell c 1) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 1)) $$ HR
  ihave #HRs := (reached_at (RdI I) K (c, Cell.send 1)) $$ HR
  ihave #HIr0 := (inv_at (RdI I) K (mate c 1 1, Cell.recv 1)) $$ HR
  ihave #HRr0 := (reached_at (RdI I) K (mate c 1 1, Cell.recv 1)) $$ HR
  ihave #HIr1 := (inv_at (RdI I) K (mate c 2 1, Cell.recv 1)) $$ HR
  ihave #HRr1 := (reached_at (RdI I) K (mate c 2 1, Cell.recv 1)) $$ HR
  sl_exec
  iapply (wp_fire_at (accCI I) (rs0I I) c 1 1 (g := 0) (rg := 0) (s := 1) (by decide) (by decide) (by decide)
      (dv := ⟨k0_dev11 c, k0_dev11_lt c⟩) ((dev11_eq c).trans rfl) rfl rfl (sendS_eq 1).symm (recvS_eq 1).symm
      (accEmb 0 1 (A I 0 c 0 1 1)) rfl fd0 (owedFrom c 11) (owed_copy c 2 1 10 (by decide) 1 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 1 2 (g := 0) (rg := 0) (s := 1) (by decide) (by decide) (by decide)
      (dv := ⟨k0_dev12 c, k0_dev12_lt c⟩) ((dev12_eq c).trans rfl) rfl rfl (sendS_eq 1).symm (recvS_eq 1).symm
      (accEmb 0 2 (A I 0 c 0 2 1)) rfl fd1 (owedFrom c 12) (owed_copy c 2 2 11 (by decide) 1 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_13' depends on axioms: [propext, Classical.choice, Quot.sound] -/
#guard_msgs in #print axioms Cert.KernelIdeal.Body.local_13

end
-- ==== Proof.Parts.WaitWrap.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait

/-!
  The accessors of the state a wait group's first and last parts need, stated with the places, the wait group and the
  tile's coordinates as numbers given with their equations: a part cites them at literals, and the equations are decided
  there.
-/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- The cells still to be waited from place `d` on: the two cells of the `t`-th wait group, no wait done, and the rest. -/
theorem todo_group_at (c : Dev nD) (t : Fin 24) (d e : ℕ) (k : Fin 24) (hd : d = 1 + 2 * t.val) (he : e = d + 2) (hk : fireK t = k)
    (P Q : Fin 3 → sProp (MT nD τ sig Unit (Elt F) ℕ UU ℕ)) :
    (todoFrom c d : sProp (MT nD τ sig Unit (Elt F) ℕ UU ℕ))
      = iprop(curCell (sendCell c k) P 0 ∗ curCell (recvCell c k) Q 0 ∗ todoFrom c e) := by
  subst hd he hk
  exact todo_group c t

/-- The cells waited up to place `e`: those up to `d` and the two cells of the `t`-th wait group, their rounds ended. -/
theorem done_group_at (c : Dev nD) (t : Fin 24) (d e : ℕ) (k : Fin 24) (hd : d = 1 + 2 * t.val) (he : e = d + 2) (hk : fireK t = k)
    (P Q : Fin 3 → sProp (MT nD τ sig Unit (Elt F) ℕ UU ℕ)) :
    (doneTo c e : sProp (MT nD τ sig Unit (Elt F) ℕ UU ℕ))
      = iprop(doneTo c d ∗ curCell (sendCell c k) P 3 ∗ curCell (recvCell c k) Q 3) := by
  subst hd he hk
  exact (done_group c t).symm

/-- The receive slices come back after `g' = g + 1` wait groups: the three payloads of the `t`-th group's receive cell and
    those of the groups before. -/
theorem rsBack_succ_at (I : Dev nD → Ins F) (c : Dev nD) (t : Fin 24) (g g' : ℕ) (k : Fin 24) (hg : g = t.val) (hg' : g' = g + 1)
    (hk : fireK t = k) :
    (rsBack I c g' : sProp (MT nD τ sig Unit (Elt F) ℕ UU ℕ))
      = iprop(((RdI I).payload (recvCell c k) 0 0 ∗ (RdI I).payload (recvCell c k) 0 1 ∗ (RdI I).payload (recvCell c k) 0 2)
          ∗ rsBack I c g) := by
  subst hg hg' hk
  rw [payloads_recv]
  exact rsBack_succ I c t

/-- An accumulator tile at the level its step was started with is that step's departure's payload. -/
theorem send_tile_at (I : Dev nD → Ins F) (c : Dev nD) (k : Fin 24) (p : Fin 3) (g : Fin 4) (r : Fin 2) (s : Fin 3)
    (hg : gOf k = g) (hr : rOfRg (rgOf k) = r) (hs : sOf k = s) :
    (accTile c g p (A I r c g p s) : sProp (MT nD τ sig Unit (Elt F) ℕ UU ℕ)) = (RdI I).payload (sendCell c k) 0 p := by
  subst hg hr hs
  exact (payload_send_tile I c k p).symm

end Cert.KernelIdeal.Body

end
-- ==== Proof.Parts.L17.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 17 of the body: the stores into accumulator tiles (1, 1), (1, 2), then the start of the copy of part 0 at step 4 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_17 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 12) W)
        ∗ dutyTok ER (sendCell c 4) 0 0 ∗ dutyTok ER (recvCell (mate c 0 4) 4) 0 0
        ∗ rsTileAny (mate c 0 4) (rgOf 4) 0 (sOf 4)
        ∗ accTile c 1 1 (Vals.A I 0 c 1 1 0)
        ∗ accTile c 1 2 (Vals.A I 0 c 1 2 0)
        ∗ rsTile c 1 2 0 (Vals.R I 0 c 1 2 0)
        ∗ accTile c 1 0 (Vals.A I 0 c 1 0 1)
        ∗ P) : sProp (MT nD τ sig Unit (Elt F) ℕ UU ℕ))
      ⊢ wp frame (wpE (defs₀ (F := F)) 𝒱₀ (c : Thread nD τ) none) Set.univ
      (k0_part17 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv477 I c) (Vals.lv478 I c))
      (fun tup => iprop(⌜tup = ⟨Vals.lw489 c, Vals.lw500 c⟩⌝
        ∗ records (RdI I) K
        ∗ (∃ W, owes (c : Thread nD τ) (owedFrom c 13) W)
        ∗ cred (tallyAt (sendCell c 4) () N)
        ∗ accTile c 1 1 (Vals.A I 0 c 1 1 1)
        ∗ accTile c 1 2 (Vals.A I 0 c 1 2 1)
        ∗ rsTile c 1 2 0 (Vals.R I 0 c 1 2 0)
        ∗ P)) := by
  unfold accTile rsTile rsTileAny Proto.accPts Proto.rsPts
  iintro ⟨#Hrec, ⟨%W, HO⟩, Hts0, Htr0, ⟨%fd0, Hfd0⟩, Ha11, Ha12, Hr120, Ha10, HP⟩
  ihave #HIs0 := (inv_at (RdI I) K (c, Cell.send 4)) $$ Hrec
  ihave #HIr0 := (inv_at (RdI I) K (mate c 0 4, Cell.recv 4)) $$ Hrec
  ihave #Hrs0 := (reached_at (RdI I) K (c, Cell.send 4)) $$ Hrec
  ihave #Hrr0 := (reached_at (RdI I) K (mate c 0 4, Cell.recv 4)) $$ Hrec
  rw [k0_part17_eq_skeleton]
  unfold k0_part17_skel
  sl_exec
  -- the copy of part 0 at step 4 (started as number 4): its units on the partner's receive cell are owed last
  have hc0 : dueCell c 12 = recvCell (mate c 0 4) 4 := dueCell_fire c 3 0
  have ha0 : dueAmt 12 = N := dueAmt_fire 3 0
  have hO0 : owedFrom c 12 = owedFrom c 13 + tallyAt (recvCell (mate c 0 4) 4) () N :=
    (owedFrom_succ c 12 (by decide)).trans (by rw [hc0, ha0])
  iapply (wp_fire_at (accCI I) (rs0I I) c 4 0 (g := 1) (rg := 1) (s := 1) rfl rfl rfl (dev13_eq c) rfl rfl
    (sendS_eq 4) (recvS_eq 4) (accEmb 1 0 (Vals.A I 0 c 1 0 1)) rfl fd0 (owedFrom c 13) hO0) $$ [HO Hts0 Htr0 Hfd0 Ha10]
  · unfold Proto.accPts Proto.rsPts
    isplitr; · iexact HIs0
    isplitr; · iexact HIr0
    isplitl [Ha10]; · iexact Ha10
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha11_e : View.read (Elt F) (accV 1 1) (local_17.sl.Ha11_w1 I c) = Vals.A I 0 c 1 1 1 := by
    unfold local_17.sl.Ha11_w1; exact View.read_write_univ _ _
  have Ha11_t : ((Proto.accSl 1 1).view.loc (c : Thread nD τ) ↦[(Proto.accSl 1 1).view.set]{fullShare} local_17.sl.Ha11_w1 I c : sProp (MT nD τ sig Unit (Elt F) ℕ UU ℕ)) = ((Proto.accSl 1 1).view.loc (c : Thread nD τ) ↦[(Proto.accSl 1 1).view.set]{fullShare} accEmb 1 1 (Vals.A I 0 c 1 1 1) : sProp (MT nD τ sig Unit (Elt F) ℕ UU ℕ)) := accTile_of_read c fullShare 1 1 Ha11_e
  have Ha12_r0 : local_17.sl.v481 I c = Vals.A I 0 c 1 2 0 := by unfold local_17.sl.v481; exact accV_read_accEmb 1 2 _
  have Ha12_r1 : local_17.sl.v483 I c = Vals.R I 0 c 1 2 0 := by unfold local_17.sl.v483; exact rsV_read_rsEmb 1 2 0 _
  have Ha12_e : View.read (Elt F) (accV 1 2) (local_17.sl.Ha12_w2 I c) = Vals.A I 0 c 1 2 1 := by
    unfold local_17.sl.Ha12_w2; rw [Ha12_r0, Ha12_r1]; exact View.read_write_univ _ _
  have Ha12_t : ((Proto.accSl 1 2).view.loc (c : Thread nD τ) ↦[(Proto.accSl 1 2).view.set]{fullShare} local_17.sl.Ha12_w2 I c : sProp (MT nD τ sig Unit (Elt F) ℕ UU ℕ)) = ((Proto.accSl 1 2).view.loc (c : Thread nD τ) ↦[(Proto.accSl 1 2).view.set]{fullShare} accEmb 1 2 (Vals.A I 0 c 1 2 1) : sProp (MT nD τ sig Unit (Elt F) ℕ UU ℕ)) := accTile_of_read c fullShare 1 2 Ha12_e
  rw [← Ha11_t, ← Ha12_t]
  isplitr [HO Hcs0 Ha11 Ha12 Hr120 HP]
  · ipureintro; rfl
  isplitr [HO Hcs0 Ha11 Ha12 Hr120 HP]; · iexact Hrec
  isplitl [HO]; · iexists W; iexact HO
  iframe

/-- info: 'Cert.KernelIdeal.Body.local_17' depends on axioms: [propext, Classical.choice, Quot.sound] -/
#guard_msgs in #print axioms local_17

end Cert.KernelIdeal.Body
-- ==== Proof.Parts.Part17.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L17
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 17 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 17 of the body, run from the place before it, ends at the place after it and returns its values; whatever else is held is kept. -/
theorem part_17 (m : (ℓ : Loc nD τ sig) → Buf (Elt F) ℓ) (K : Dev nD × Cell → ℕ) (c : Dev nD) (Fr : sProp 𝕄) :
    iprop(St (insM m) K (σ 16) c ∗ outHeld (insM m) c (σ 16).outs ∗ Fr)
      ⊢ wp frame (wpE (defs₀ (F := F)) 𝒱₀ (c : Thread nD τ) none) Set.univ
          (k0_part17 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv477 (insM m) c) (Vals.lv478 (insM m) c))
          (fun tup => iprop(⌜tup = ⟨Vals.lw489 c, Vals.lw500 c⟩⌝ ∗ St (insM m) K (σ 17) c ∗ outHeld (insM m) c (σ 17).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 12 : sProp (MT nD τ sig Unit (Elt F) ℕ UU ℕ))
      = iprop(dutyTok ER (sendCell c 4) 0 0 ∗ dutyTok ER (recvCell (mate c 0 4) 4) 0 0 ∗ toksFrom c 13) := toksFrom_copy c 3 0
  have hf0 : (foreignFrom c 9 : sProp (MT nD τ sig Unit (Elt F) ℕ UU ℕ))
      = iprop(rsTileAny (mate c 0 4) (rgOf 4) 0 (sOf 4) ∗ foreignFrom c 10) := foreignFrom_succ c 3 0
  have hb1 : (rsBack (insM m) c 2 : sProp (MT nD τ sig Unit (Elt F) ℕ UU ℕ))
      = iprop((rsTile c 1 0 0 (Vals.R (insM m) 0 c 1 0 0) ∗ rsTile c 1 1 0 (Vals.R (insM m) 0 c 1 1 0) ∗ rsTile c 1 2 0 (Vals.R (insM m) 0 c 1 2 0)) ∗ rsBack (insM m) c 1) := rsBack_succ (insM m) c 1
  rw [St_open_16, St_open_17, ht0, hf0, hb1, show (σ 16).outs = (σ 17).outs from rfl]
  simp only [hemp, hemp']
  refine BIBase.Entails.trans (Entails.of_eq ?_) (BIBase.Entails.trans
    (local_17 (insM m) K c
      (iprop(levAts Proto.L Proto.lv
        ∗ toksFrom c 13
        ∗ credFrom c 9
        ∗ cred (tallyAt (sendCell c 1) () N)
        ∗ cred (tallyAt (sendCell c 1) () N)
        ∗ cred (tallyAt (sendCell c 1) () N)
        ∗ doneTo c 5
        ∗ todoFrom c 5
        ∗ foreignFrom c 10
        ∗ rsTile c 1 0 0 (Vals.R (insM m) 0 c 1 0 0)
        ∗ rsTile c 1 1 0 (Vals.R (insM m) 0 c 1 1 0)
        ∗ rsBack (insM m) c 1
        ∗ accTileAny c 2 0
        ∗ accTileAny c 2 1
        ∗ accTileAny c 2 2
        ∗ accTileAny c 3 0
        ∗ accTileAny c 3 1
        ∗ accTileAny c 3 2
        ∗ outHeld (insM m) c (σ 17).outs
        ∗ Fr)))
    (wp_mono _ _ _ fun tup => Entails.of_eq ?_))
  · ac_rfl
  · ac_rfl

/-- info: 'Cert.KernelIdeal.Body.part_17' depends on axioms: [propext, Classical.choice, Quot.sound] -/
#guard_msgs in #print axioms part_17

end Cert.KernelIdeal.Body

end
-- ==== Proof.Parts.L18.lean ====
/-
  Part 18 of the body starts two copies of step 4 (the 4th step started; round 0, group 1, position 1): part 1 of accumulator slice (1, 1) goes to receive slice (1, 1, 1) of the device paired along mask 4, part 2 of accumulator slice (1, 2) goes to receive slice (1, 2, 1) of the device paired along mask 1.
  The accumulator slices, at level 1 of round 0, and the paired devices' receive slices leave the device's hands; it holds the departure credits of its send cell 4 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 18: the copies of parts 1 and 2 of step 4. -/
theorem local_18 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 13) W)
        ∗ dutyTok ER (sendCell c 4) 0 1 ∗ dutyTok ER (recvCell (mate c 1 4) 4) 0 1
        ∗ dutyTok ER (sendCell c 4) 0 2 ∗ dutyTok ER (recvCell (mate c 2 4) 4) 0 2
        ∗ rsTileAny (F := F) (mate c 1 4) 1 1 1
        ∗ rsTileAny (F := F) (mate c 2 4) 1 2 1
        ∗ accTile c 1 1 (A I 0 c 1 1 1)
        ∗ accTile c 1 2 (A I 0 c 1 2 1)
        ∗ P)
      ⊢ wp frame (wpE (defs₀ (F := F)) 𝒱₀ (c : Thread nD τ) none) Set.univ
          (k0_part18 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw500 c))
          (fun tup => iprop(⌜tup = Vals.lw511 c⌝
            ∗ (∃ W, owes (c : Thread nD τ) (owedFrom c 15) W)
            ∗ cred (tallyAt (sendCell c 4) () N)
            ∗ cred (tallyAt (sendCell c 4) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 4)) $$ HR
  ihave #HRs := (reached_at (RdI I) K (c, Cell.send 4)) $$ HR
  ihave #HIr0 := (inv_at (RdI I) K (mate c 1 4, Cell.recv 4)) $$ HR
  ihave #HRr0 := (reached_at (RdI I) K (mate c 1 4, Cell.recv 4)) $$ HR
  ihave #HIr1 := (inv_at (RdI I) K (mate c 2 4, Cell.recv 4)) $$ HR
  ihave #HRr1 := (reached_at (RdI I) K (mate c 2 4, Cell.recv 4)) $$ HR
  sl_exec
  iapply (wp_fire_at (accCI I) (rs0I I) c 4 1 (g := 1) (rg := 1) (s := 1) (by decide) (by decide) (by decide)
      (dv := ⟨k0_dev14 c, k0_dev14_lt c⟩) ((dev14_eq c).trans rfl) rfl rfl (sendS_eq 4).symm (recvS_eq 4).symm
      (accEmb 1 1 (A I 0 c 1 1 1)) rfl fd0 (owedFrom c 14) (owed_copy c 3 1 13 (by decide) 4 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 4 2 (g := 1) (rg := 1) (s := 1) (by decide) (by decide) (by decide)
      (dv := ⟨k0_dev15 c, k0_dev15_lt c⟩) ((dev15_eq c).trans rfl) rfl rfl (sendS_eq 4).symm (recvS_eq 4).symm
      (accEmb 1 2 (A I 0 c 1 2 1)) rfl fd1 (owedFrom c 15) (owed_copy c 3 2 14 (by decide) 4 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_18' depends on axioms: [propext, Classical.choice, Quot.sound] -/
#guard_msgs in #print axioms Cert.KernelIdeal.Body.local_18

end
-- ==== Proof.Parts.L21.lean ====
/-
  Part 21 of the body makes the second exchange add of round 0 for row group 0. Slice (0, 0) takes the sum formed just
  before from its first level and what its second partner sent; slices (0, 1) and (0, 2) are read together with the
  receive slices (0, 1, 1) and (0, 2, 1) that their second partners filled, added, and stored back. The three
  accumulator slices go from round 0's second level to its third; the two receive slices keep their contents; the
  returned word is the device's third neighbour's number.
-/
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals

variable {F : FTy → Type} [FloatOps F]

/-- Part 21: the three slices of group 0 go from the second level of round 0 to the third. -/
theorem local_21 (I : Dev nD → Vals.Ins F) (c : Dev nD) (P : sProp (MT nD τ sig Unit (Elt F) ℕ UU ℕ)) :
    iprop(Proto.accPts c 0 0 (accEmb 0 0 (A I 0 c 0 0 1)) ∗ Proto.accPts c 0 1 (accEmb 0 1 (A I 0 c 0 1 1))
        ∗ Proto.accPts c 0 2 (accEmb 0 2 (A I 0 c 0 2 1))
        ∗ Proto.rsPts c 0 1 1 (rsEmb 0 1 1 (R I 0 c 0 1 1)) ∗ Proto.rsPts c 0 2 1 (rsEmb 0 2 1 (R I 0 c 0 2 1)) ∗ P)
      ⊢ wp frame (wpE (defs₀ (F := F)) 𝒱₀ (c : Thread nD τ) none) Set.univ
        (k0_part21 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv568 I c))
        (fun tup => iprop(⌜tup = lw588 c⌝ ∗ Proto.accPts c 0 0 (accEmb 0 0 (A I 0 c 0 0 2)) ∗ Proto.accPts c 0 1 (accEmb 0 1 (A I 0 c 0 1 2))
          ∗ Proto.accPts c 0 2 (accEmb 0 2 (A I 0 c 0 2 2))
          ∗ Proto.rsPts c 0 1 1 (rsEmb 0 1 1 (R I 0 c 0 1 1)) ∗ Proto.rsPts c 0 2 1 (rsEmb 0 2 1 (R I 0 c 0 2 1)) ∗ P)) := by
  iintro ⟨H0, H1, H2, R1, R2, HP⟩
  unfold Proto.accPts Proto.rsPts
  rw [k0_part21_eq_skeleton]
  unfold k0_part21_skel
  sl_exec
  sl_step
  -- what the loads read: the slices' named contents
  have a1 : Cert.KernelIdeal.Body.local_21.sl.v572 I c = A I 0 c 0 1 1 := by unfold Cert.KernelIdeal.Body.local_21.sl.v572; exact accV_read_accEmb 0 1 _
  have b1 : Cert.KernelIdeal.Body.local_21.sl.v574 I c = R I 0 c 0 1 1 := by unfold Cert.KernelIdeal.Body.local_21.sl.v574; exact rsV_read_rsEmb 0 1 1 _
  have a2 : Cert.KernelIdeal.Body.local_21.sl.v580 I c = A I 0 c 0 2 1 := by unfold Cert.KernelIdeal.Body.local_21.sl.v580; exact accV_read_accEmb 0 2 _
  have b2 : Cert.KernelIdeal.Body.local_21.sl.v582 I c = R I 0 c 0 2 1 := by unfold Cert.KernelIdeal.Body.local_21.sl.v582; exact rsV_read_rsEmb 0 2 1 _
  -- each stored slice is the next level
  have e0 : (((Proto.accSl 0 0).view.loc (c : Thread nD τ) ↦[(Proto.accSl 0 0).view.set]{fullShare} Cert.KernelIdeal.Body.local_21.sl.H0_w1 I c) : sProp (MT nD τ sig Unit (Elt F) ℕ UU ℕ)) = ((Proto.accSl 0 0).view.loc (c : Thread nD τ) ↦[(Proto.accSl 0 0).view.set]{fullShare} accEmb 0 0 (A I 0 c 0 0 2)) :=
    accTile_of_read c fullShare 0 0 (by unfold Cert.KernelIdeal.Body.local_21.sl.H0_w1; exact View.read_write_univ _ _)
  have e1 : (((Proto.accSl 0 1).view.loc (c : Thread nD τ) ↦[(Proto.accSl 0 1).view.set]{fullShare} Cert.KernelIdeal.Body.local_21.sl.H1_w2 I c) : sProp (MT nD τ sig Unit (Elt F) ℕ UU ℕ)) = ((Proto.accSl 0 1).view.loc (c : Thread nD τ) ↦[(Proto.accSl 0 1).view.set]{fullShare} accEmb 0 1 (A I 0 c 0 1 2)) :=
    accTile_of_read c fullShare 0 1 (by unfold Cert.KernelIdeal.Body.local_21.sl.H1_w2; rw [a1, b1]; exact View.read_write_univ _ _)
  have e2 : (((Proto.accSl 0 2).view.loc (c : Thread nD τ) ↦[(Proto.accSl 0 2).view.set]{fullShare} Cert.KernelIdeal.Body.local_21.sl.H2_w3 I c) : sProp (MT nD τ sig Unit (Elt F) ℕ UU ℕ)) = ((Proto.accSl 0 2).view.loc (c : Thread nD τ) ↦[(Proto.accSl 0 2).view.set]{fullShare} accEmb 0 2 (A I 0 c 0 2 2)) :=
    accTile_of_read c fullShare 0 2 (by unfold Cert.KernelIdeal.Body.local_21.sl.H2_w3; rw [a2, b2]; exact View.read_write_univ _ _)
  have i0 : (((Proto.accSl 0 0).view.loc (c : Thread nD τ) ↦[(Proto.accSl 0 0).view.set]{fullShare} Cert.KernelIdeal.Body.local_21.sl.H0_w1 I c) : sProp (MT nD τ sig Unit (Elt F) ℕ UU ℕ)) ⊢ ((Proto.accSl 0 0).view.loc (c : Thread nD τ) ↦[(Proto.accSl 0 0).view.set]{fullShare} accEmb 0 0 (A I 0 c 0 0 2)) := by rw [e0]
  have i1 : (((Proto.accSl 0 1).view.loc (c : Thread nD τ) ↦[(Proto.accSl 0 1).view.set]{fullShare} Cert.KernelIdeal.Body.local_21.sl.H1_w2 I c) : sProp (MT nD τ sig Unit (Elt F) ℕ UU ℕ)) ⊢ ((Proto.accSl 0 1).view.loc (c : Thread nD τ) ↦[(Proto.accSl 0 1).view.set]{fullShare} accEmb 0 1 (A I 0 c 0 1 2)) := by rw [e1]
  have i2 : (((Proto.accSl 0 2).view.loc (c : Thread nD τ) ↦[(Proto.accSl 0 2).view.set]{fullShare} Cert.KernelIdeal.Body.local_21.sl.H2_w3 I c) : sProp (MT nD τ sig Unit (Elt F) ℕ UU ℕ)) ⊢ ((Proto.accSl 0 2).view.loc (c : Thread nD τ) ↦[(Proto.accSl 0 2).view.set]{fullShare} accEmb 0 2 (A I 0 c 0 2 2)) := by rw [e2]
  ihave T0 := i0 $$ H0
  ihave T1 := i1 $$ H1
  ihave T2 := i2 $$ H2
  isplitr
  · ipureintro; rfl
  isplitl [T0]; · iexact T0
  isplitl [T1]; · iexact T1
  isplitl [T2]; · iexact T2
  isplitl [R1]; · iexact R1
  isplitl [R2]; · iexact R2
  iexact HP

end Cert.KernelIdeal.Body

/-- info: 'Cert.KernelIdeal.Body.local_21' depends on axioms: [propext, Classical.choice, Quot.sound] -/
#guard_msgs in #print axioms Cert.KernelIdeal.Body.local_21

end
-- ==== Proof.BodyWrapRs.lean ====
/-
  The receive slices of one step already waited for, taken out of the state and put back.
-/
import proofs.«900775_g7700000000000776_dist_diff_dit_htp_i_b2_s512_d768_hq4_v7x_i8_f32_1_alg».proof.Proof.BodyWrap

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- The tile-free part of the state past the entry, without the three receive slices of step `k`. -/
def StRestNoRs (I : Dev nD → Ins F) (K : Dev nD × Cell → ℕ) (s : Pos) (c : Dev nD) (k : Fin 24) : sProp (MT nD τ sig Unit (Elt F) ℕ UU ℕ) :=
  iprop(records (RdI I) K ∗ levAts Proto.L Proto.lv
    ∗ (∃ W, owes (c : Thread nD τ) (owedFrom c (paid s)) W)
    ∗ toksFrom c (paid s)
    ∗ credFrom c (credIdx s)
    ∗ sendCreds s c
    ∗ cells I s c
    ∗ foreignFrom c s.sends
    ∗ bigSep ((Finset.univ.filter fun k' : Fin 24 => (posK k').val < grp s).erase k) fun k' => rs3 I c k')

/-- Past the entry, the three receive slices of a step already waited for stand apart from the rest. -/
theorem StRest_rs (I : Dev nD → Ins F) (K : Dev nD × Cell → ℕ) (c : Dev nD) (s : Pos) (he : s.entered = true)
    (k : Fin 24) (hk : (posK k).val < grp s) :
    StRest I K s c = iprop(rs3 I c k ∗ StRestNoRs I K s c k) := by
  have h1 : (StRest I K s c : sProp (MT nD τ sig Unit (Elt F) ℕ UU ℕ)) ⊢ iprop(rs3 I c k ∗ StRestNoRs I K s c k) := by
    unfold StRest StRestNoRs
    rw [if_pos he, rsBack_take I c _ k hk]
    iintro ⟨H1, H2, H3, H4, H5, H6, H7, H8, H9, H10⟩
    isplitl [H9]; · iexact H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  have h2 : (iprop(rs3 I c k ∗ StRestNoRs I K s c k) : sProp (MT nD τ sig Unit (Elt F) ℕ UU ℕ)) ⊢ StRest I K s c := by
    unfold StRest StRestNoRs
    rw [if_pos he, rsBack_take I c _ k hk]
    iintro ⟨H9, H1, H2, H3, H4, H5, H6, H7, H8, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  exact Entails.antisymm h1 h2

/-- info: 'Cert.KernelIdeal.Body.StRest_rs' depends on axioms: [propext, Classical.choice, Quot.sound] -/
#guard_msgs in #print axioms StRest_rs

end Cert.KernelIdeal.Body

end
-- ==== Proof.BodyRsTable.lean ====
import proofs.«900775_g7700000000000776_dist_diff_dit_htp_i_b2_s512_d768_hq4_v7x_i8_f32_1_alg».proof.Proof.BodyWrapRs

/-! The three receive slices of each step, at what they hold, one factor a slice. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem rs3_0 (I : Dev nD → Ins F) (c : Dev nD) :
    rs3 I c 0 = (iprop(rsTile c 0 0 0 (R I 0 c 0 0 0) ∗ rsTile c 0 1 0 (R I 0 c 0 1 0) ∗ rsTile c 0 2 0 (R I 0 c 0 2 0)) : sProp (MT nD τ sig Unit (Elt F) ℕ UU ℕ)) := rfl
theorem rs3_1 (I : Dev nD → Ins F) (c : Dev nD) :
    rs3 I c 1 = (iprop(rsTile c 0 0 1 (R I 0 c 0 0 1) ∗ rsTile c 0 1 1 (R I 0 c 0 1 1) ∗ rsTile c 0 2 1 (R I 0 c 0 2 1)) : sProp (MT nD τ sig Unit (Elt F) ℕ UU ℕ)) := rfl
theorem rs3_2 (I : Dev nD → Ins F) (c : Dev nD) :
    rs3 I c 2 = (iprop(rsTile c 0 0 2 (R I 0 c 0 0 2) ∗ rsTile c 0 1 2 (R I 0 c 0 1 2) ∗ rsTile c 0 2 2 (R I 0 c 0 2 2)) : sProp (MT nD τ sig Unit (Elt F) ℕ UU ℕ)) := rfl
theorem rs3_3 (I : Dev nD → Ins F) (c : Dev nD) :
    rs3 I c 3 = (iprop(rsTile c 1 0 0 (R I 0 c 1 0 0) ∗ rsTile c 1 1 0 (R I 0 c 1 1 0) ∗ rsTile c 1 2 0 (R I 0 c 1 2 0)) : sProp (MT nD τ sig Unit (Elt F) ℕ UU ℕ)) := rfl
theorem rs3_4 (I : Dev nD → Ins F) (c : Dev nD) :
    rs3 I c 4 = (iprop(rsTile c 1 0 1 (R I 0 c 1 0 1) ∗ rsTile c 1 1 1 (R I 0 c 1 1 1) ∗ rsTile c 1 2 1 (R I 0 c 1 2 1)) : sProp (MT nD τ sig Unit (Elt F) ℕ UU ℕ)) := rfl
theorem rs3_5 (I : Dev nD → Ins F) (c : Dev nD) :
    rs3 I c 5 = (iprop(rsTile c 1 0 2 (R I 0 c 1 0 2) ∗ rsTile c 1 1 2 (R I 0 c 1 1 2) ∗ rsTile c 1 2 2 (R I 0 c 1 2 2)) : sProp (MT nD τ sig Unit (Elt F) ℕ UU ℕ)) := rfl
theorem rs3_6 (I : Dev nD → Ins F) (c : Dev nD) :
    rs3 I c 6 = (iprop(rsTile c 2 0 0 (R I 0 c 2 0 0) ∗ rsTile c 2 1 0 (R I 0 c 2 1 0) ∗ rsTile c 2 2 0 (R I 0 c 2 2 0)) : sProp (MT nD τ sig Unit (Elt F) ℕ UU ℕ)) := rfl
theorem rs3_7 (I : Dev nD → Ins F) (c : Dev nD) :
    rs3 I c 7 = (iprop(rsTile c 2 0 1 (R I 0 c 2 0 1) ∗ rsTile c 2 1 1 (R I 0 c 2 1 1) ∗ rsTile c 2 2 1 (R I 0 c 2 2 1)) : sProp (MT nD τ sig Unit (Elt F) ℕ UU ℕ)) := rfl
theorem rs3_8 (I : Dev nD → Ins F) (c : Dev nD) :
    rs3 I c 8 = (iprop(rsTile c 2 0 2 (R I 0 c 2 0 2) ∗ rsTile c 2 1 2 (R I 0 c 2 1 2) ∗ rsTile c 2 2 2 (R I 0 c 2 2 2)) : sProp (MT nD τ sig Unit (Elt F) ℕ UU ℕ)) := rfl
theorem rs3_9 (I : Dev nD → Ins F) (c : Dev nD) :
    rs3 I c 9 = (iprop(rsTile c 3 0 0 (R I 0 c 3 0 0) ∗ rsTile c 3 1 0 (R I 0 c 3 1 0) ∗ rsTile c 3 2 0 (R I 0 c 3 2 0)) : sProp (MT nD τ sig Unit (Elt F) ℕ UU ℕ)) := rfl
theorem rs3_10 (I : Dev nD → Ins F) (c : Dev nD) :
    rs3 I c 10 = (iprop(rsTile c 3 0 1 (R I 0 c 3 0 1) ∗ rsTile c 3 1 1 (R I 0 c 3 1 1) ∗ rsTile c 3 2 1 (R I 0 c 3 2 1)) : sProp (MT nD τ sig Unit (Elt F) ℕ UU ℕ)) := rfl
theorem rs3_11 (I : Dev nD → Ins F) (c : Dev nD) :
    rs3 I c 11 = (iprop(rsTile c 3 0 2 (R I 0 c 3 0 2) ∗ rsTile c 3 1 2 (R I 0 c 3 1 2) ∗ rsTile c 3 2 2 (R I 0 c 3 2 2)) : sProp (MT nD τ sig Unit (Elt F) ℕ UU ℕ)) := rfl
theorem rs3_12 (I : Dev nD → Ins F) (c : Dev nD) :
    rs3 I c 12 = (iprop(rsTile c 4 0 0 (R I 1 c 0 0 0) ∗ rsTile c 4 1 0 (R I 1 c 0 1 0) ∗ rsTile c 4 2 0 (R I 1 c 0 2 0)) : sProp (MT nD τ sig Unit (Elt F) ℕ UU ℕ)) := rfl
theorem rs3_13 (I : Dev nD → Ins F) (c : Dev nD) :
    rs3 I c 13 = (iprop(rsTile c 4 0 1 (R I 1 c 0 0 1) ∗ rsTile c 4 1 1 (R I 1 c 0 1 1) ∗ rsTile c 4 2 1 (R I 1 c 0 2 1)) : sProp (MT nD τ sig Unit (Elt F) ℕ UU ℕ)) := rfl
theorem rs3_14 (I : Dev nD → Ins F) (c : Dev nD) :
    rs3 I c 14 = (iprop(rsTile c 4 0 2 (R I 1 c 0 0 2) ∗ rsTile c 4 1 2 (R I 1 c 0 1 2) ∗ rsTile c 4 2 2 (R I 1 c 0 2 2)) : sProp (MT nD τ sig Unit (Elt F) ℕ UU ℕ)) := rfl
theorem rs3_15 (I : Dev nD → Ins F) (c : Dev nD) :
    rs3 I c 15 = (iprop(rsTile c 5 0 0 (R I 1 c 1 0 0) ∗ rsTile c 5 1 0 (R I 1 c 1 1 0) ∗ rsTile c 5 2 0 (R I 1 c 1 2 0)) : sProp (MT nD τ sig Unit (Elt F) ℕ UU ℕ)) := rfl
theorem rs3_16 (I : Dev nD → Ins F) (c : Dev nD) :
    rs3 I c 16 = (iprop(rsTile c 5 0 1 (R I 1 c 1 0 1) ∗ rsTile c 5 1 1 (R I 1 c 1 1 1) ∗ rsTile c 5 2 1 (R I 1 c 1 2 1)) : sProp (MT nD τ sig Unit (Elt F) ℕ UU ℕ)) := rfl
theorem rs3_17 (I : Dev nD → Ins F) (c : Dev nD) :
    rs3 I c 17 = (iprop(rsTile c 5 0 2 (R I 1 c 1 0 2) ∗ rsTile c 5 1 2 (R I 1 c 1 1 2) ∗ rsTile c 5 2 2 (R I 1 c 1 2 2)) : sProp (MT nD τ sig Unit (Elt F) ℕ UU ℕ)) := rfl
theorem rs3_18 (I : Dev nD → Ins F) (c : Dev nD) :
    rs3 I c 18 = (iprop(rsTile c 6 0 0 (R I 1 c 2 0 0) ∗ rsTile c 6 1 0 (R I 1 c 2 1 0) ∗ rsTile c 6 2 0 (R I 1 c 2 2 0)) : sProp (MT nD τ sig Unit (Elt F) ℕ UU ℕ)) := rfl
theorem rs3_19 (I : Dev nD → Ins F) (c : Dev nD) :
    rs3 I c 19 = (iprop(rsTile c 6 0 1 (R I 1 c 2 0 1) ∗ rsTile c 6 1 1 (R I 1 c 2 1 1) ∗ rsTile c 6 2 1 (R I 1 c 2 2 1)) : sProp (MT nD τ sig Unit (Elt F) ℕ UU ℕ)) := rfl
theorem rs3_20 (I : Dev nD → Ins F) (c : Dev nD) :
    rs3 I c 20 = (iprop(rsTile c 6 0 2 (R I 1 c 2 0 2) ∗ rsTile c 6 1 2 (R I 1 c 2 1 2) ∗ rsTile c 6 2 2 (R I 1 c 2 2 2)) : sProp (MT nD τ sig Unit (Elt F) ℕ UU ℕ)) := rfl
theorem rs3_21 (I : Dev nD → Ins F) (c : Dev nD) :
    rs3 I c 21 = (iprop(rsTile c 7 0 0 (R I 1 c 3 0 0) ∗ rsTile c 7 1 0 (R I 1 c 3 1 0) ∗ rsTile c 7 2 0 (R I 1 c 3 2 0)) : sProp (MT nD τ sig Unit (Elt F) ℕ UU ℕ)) := rfl
theorem rs3_22 (I : Dev nD → Ins F) (c : Dev nD) :
    rs3 I c 22 = (iprop(rsTile c 7 0 1 (R I 1 c 3 0 1) ∗ rsTile c 7 1 1 (R I 1 c 3 1 1) ∗ rsTile c 7 2 1 (R I 1 c 3 2 1)) : sProp (MT nD τ sig Unit (Elt F) ℕ UU ℕ)) := rfl
theorem rs3_23 (I : Dev nD → Ins F) (c : Dev nD) :
    rs3 I c 23 = (iprop(rsTile c 7 0 2 (R I 1 c 3 0 2) ∗ rsTile c 7 1 2 (R I 1 c 3 1 2) ∗ rsTile c 7 2 2 (R I 1 c 3 2 2)) : sProp (MT nD τ sig Unit (Elt F) ℕ UU ℕ)) := rfl

end Cert.KernelIdeal.Body

end
-- ==== Proof.Parts.Part21.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.Parts.L21
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 21 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 21 of the body, run from the place before it, ends at the place after it and returns its values; whatever else is held is kept. -/
theorem part_21 (m : (ℓ : Loc nD τ sig) → Buf (Elt F) ℓ) (K : Dev nD × Cell → ℕ) (c : Dev nD) (Fr : sProp 𝕄) :
    iprop(St (insM m) K (σ 20) c ∗ outHeld (insM m) c (σ 20).outs ∗ Fr)
      ⊢ wp frame (wpE (defs₀ (F := F)) 𝒱₀ (c : Thread nD τ) none) Set.univ
          (k0_part21 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv568 (insM m) c))
          (fun tup => iprop(⌜tup = Vals.lw588 c⌝ ∗ St (insM m) K (σ 21) c ∗ outHeld (insM m) c (σ 21).outs ∗ Fr)) := by
  have eo : (σ 21).outs = (σ 20).outs := rfl
  rw [eo]
  rw [St_eq, St_eq, StRest_congr (insM m) K c (s := σ 20) (s' := σ 21) rfl rfl rfl rfl, accAll_σ_20, accAll_σ_21, StRest_rs (insM m) K c (σ 21) rfl 1 (by decide), rs3_1]
  refine BIBase.Entails.trans ?_ ((local_21 (insM m) c iprop(rsTile c 0 0 1 (Vals.R (insM m) 0 c 0 0 1) ∗ StRestNoRs (insM m) K (σ 21) c 1 ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2 ∗ outHeld (insM m) c (σ 20).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T00]; · iexact T00
    isplitl [T01]; · iexact T01
    isplitl [T02]; · iexact T02
    isplitl [R1]; · iexact R1
    isplitl [R2]; · iexact R2
    isplitl [R0]; · iexact R0
    isplitl [HR]; · iexact HR
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T00, T01, T02, R1, R2, R0, HR, T10, T11, T12, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_21' depends on axioms: [propext, Classical.choice, Quot.sound] -/
#guard_msgs in #print axioms part_21

end Cert.KernelIdeal.Body

end
-- ==== Proof.Parts.L22.lean ====
/-
  Part 22 of the body starts two copies of step 2 (the 5th step started; round 0, group 0, position 2): part 0 of accumulator slice (0, 0) goes to receive slice (0, 0, 2) of the device paired along mask 4, part 1 of accumulator slice (0, 1) goes to receive slice (0, 1, 2) of the device paired along mask 1.
  The accumulator slices, at level 2 of round 0, and the paired devices' receive slices leave the device's hands; it holds the departure credits of its send cell 2 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 22: the copies of parts 0 and 1 of step 2. -/
theorem local_22 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 15) W)
        ∗ dutyTok ER (sendCell c 2) 0 0 ∗ dutyTok ER (recvCell (mate c 0 2) 2) 0 0
        ∗ dutyTok ER (sendCell c 2) 0 1 ∗ dutyTok ER (recvCell (mate c 1 2) 2) 0 1
        ∗ rsTileAny (F := F) (mate c 0 2) 0 0 2
        ∗ rsTileAny (F := F) (mate c 1 2) 0 1 2
        ∗ accTile c 0 0 (A I 0 c 0 0 2)
        ∗ accTile c 0 1 (A I 0 c 0 1 2)
        ∗ P)
      ⊢ wp frame (wpE (defs₀ (F := F)) 𝒱₀ (c : Thread nD τ) none) Set.univ
          (k0_part22 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw588 c))
          (fun tup => iprop(⌜tup = ⟨Vals.lw599 c, Vals.lw610 c⟩⌝
            ∗ (∃ W, owes (c : Thread nD τ) (owedFrom c 17) W)
            ∗ cred (tallyAt (sendCell c 2) () N)
            ∗ cred (tallyAt (sendCell c 2) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 2)) $$ HR
  ihave #HRs := (reached_at (RdI I) K (c, Cell.send 2)) $$ HR
  ihave #HIr0 := (inv_at (RdI I) K (mate c 0 2, Cell.recv 2)) $$ HR
  ihave #HRr0 := (reached_at (RdI I) K (mate c 0 2, Cell.recv 2)) $$ HR
  ihave #HIr1 := (inv_at (RdI I) K (mate c 1 2, Cell.recv 2)) $$ HR
  ihave #HRr1 := (reached_at (RdI I) K (mate c 1 2, Cell.recv 2)) $$ HR
  sl_exec
  iapply (wp_fire_at (accCI I) (rs0I I) c 2 0 (g := 0) (rg := 0) (s := 2) (by decide) (by decide) (by decide)
      (dv := ⟨k0_dev16 c, k0_dev16_lt c⟩) ((dev16_eq c).trans rfl) rfl rfl (sendS_eq 2).symm (recvS_eq 2).symm
      (accEmb 0 0 (A I 0 c 0 0 2)) rfl fd0 (owedFrom c 16) (owed_copy c 4 0 15 (by decide) 2 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 2 1 (g := 0) (rg := 0) (s := 2) (by decide) (by decide) (by decide)
      (dv := ⟨k0_dev17 c, k0_dev17_lt c⟩) ((dev17_eq c).trans rfl) rfl rfl (sendS_eq 2).symm (recvS_eq 2).symm
      (accEmb 0 1 (A I 0 c 0 1 2)) rfl fd1 (owedFrom c 17) (owed_copy c 4 1 16 (by decide) 2 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_22' depends on axioms: [propext, Classical.choice, Quot.sound] -/
#guard_msgs in #print axioms Cert.KernelIdeal.Body.local_22

end
-- ==== Proof.Parts.Part23.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L23
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 23 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 23 of the body, run from the place before it, ends at the place after it and returns its values; whatever else is held is kept. -/
theorem part_23 (m : (ℓ : Loc nD τ sig) → Buf (Elt F) ℓ) (K : Dev nD × Cell → ℕ) (c : Dev nD) (Fr : sProp 𝕄) :
    iprop(St (insM m) K (σ 22) c ∗ outHeld (insM m) c (σ 22).outs ∗ Fr)
      ⊢ wp frame (wpE (defs₀ (F := F)) 𝒱₀ (c : Thread nD τ) none) Set.univ
          (k0_part23 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv31 (insM m) c) (Vals.lv34 (insM m) c) (Vals.lv422 (insM m) c) (Vals.lw489 c))
          (fun tup => iprop(⌜tup = ⟨Vals.lv623 (insM m) c, Vals.lv626 (insM m) c⟩⌝ ∗ St (insM m) K (σ 23) c ∗ outHeld (insM m) c (σ 23).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 17 : sProp (MT nD τ sig Unit (Elt F) ℕ UU ℕ)) = iprop(dutyTok ER (sendCell c 2) 0 2 ∗ dutyTok ER (recvCell (mate c 2 2) 2) 0 2 ∗ toksFrom c 18) := toksFrom_copy c 4 2
  have hF0 : (foreignFrom c 14 : sProp (MT nD τ sig Unit (Elt F) ℕ UU ℕ)) = iprop(rsTileAny (mate c 2 2) 0 2 2 ∗ foreignFrom c 15) := foreignFrom_succ c 4 2
  have hC : (credFrom c 12 : sProp (MT nD τ sig Unit (Elt F) ℕ UU ℕ)) = iprop(credFrom c 13 ∗ cred (tallyAt (recvCell c 4) () N)) := by
    rw [credFrom_succ c 12 (by omega), show ownCell c 12 = recvCell c 4 from ownCell_fire c 3 0, show dueAmt 12 = N from dueAmt_fire 3 0]
  have hG : (todoFrom c 7 : sProp (MT nD τ sig Unit (Elt F) ℕ UU ℕ)) = iprop(curCell (sendCell c 4) (fun p => (RdI (insM m)).payload (sendCell c 4) 0 p) 0 ∗ curCell (recvCell c 4) (fun p => (RdI (insM m)).payload (recvCell c 4) 0 p) 0 ∗ todoFrom c 9) := todo_group c 3
  rw [show (σ 23).outs = (σ 22).outs from rfl, St_open_22, St_open_23, hT0, hF0, hC, hG]
  simp only [hemp, hemp']
  refine BIBase.Entails.trans (Entails.of_eq ?_) (BIBase.Entails.trans (local_23 (insM m) K c iprop(toksFrom c 18 ∗ credFrom c 13 ∗ cred (tallyAt (sendCell c 4) () N) ∗ cred (tallyAt (sendCell c 4) () N) ∗ cred (tallyAt (sendCell c 2) () N) ∗ cred (tallyAt (sendCell c 2) () N) ∗ doneTo c 7 ∗ todoFrom c 9 ∗ foreignFrom c 15 ∗ rsBack (insM m) c 3 ∗ accTileAny c 2 0 ∗ accTileAny c 2 1 ∗ accTileAny c 2 2 ∗ accTileAny c 3 0 ∗ accTileAny c 3 1 ∗ accTileAny c 3 2 ∗ outHeld (insM m) c (σ 22).outs ∗ Fr)) (wp_mono _ _ _ fun tup => Entails.of_eq ?_))
  · ac_rfl
  · ac_rfl

/-- info: 'Cert.KernelIdeal.Body.part_23' depends on axioms: [propext, Classical.choice, Quot.sound] -/
#guard_msgs in #print axioms part_23

end Cert.KernelIdeal.Body

end
-- ==== Proof.Parts.L26.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 26 of the body: the stores into accumulator tiles (1, 1), (1, 2), then the start of the copy of part 0 at step 5 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_26 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 18) W)
        ∗ dutyTok ER (sendCell c 5) 0 0 ∗ dutyTok ER (recvCell (mate c 0 5) 5) 0 0
        ∗ rsTileAny (mate c 0 5) (rgOf 5) 0 (sOf 5)
        ∗ accTile c 1 1 (Vals.A I 0 c 1 1 1)
        ∗ accTile c 1 2 (Vals.A I 0 c 1 2 1)
        ∗ rsTile c 1 2 1 (Vals.R I 0 c 1 2 1)
        ∗ accTile c 1 0 (Vals.A I 0 c 1 0 2)
        ∗ P) : sProp (MT nD τ sig Unit (Elt F) ℕ UU ℕ))
      ⊢ wp frame (wpE (defs₀ (F := F)) 𝒱₀ (c : Thread nD τ) none) Set.univ
      (k0_part26 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv681 I c))
      (fun tup => iprop(⌜tup = ⟨Vals.lw693 c, Vals.lw704 c⟩⌝
        ∗ records (RdI I) K
        ∗ (∃ W, owes (c : Thread nD τ) (owedFrom c 19) W)
        ∗ cred (tallyAt (sendCell c 5) () N)
        ∗ accTile c 1 1 (Vals.A I 0 c 1 1 2)
        ∗ accTile c 1 2 (Vals.A I 0 c 1 2 2)
        ∗ rsTile c 1 2 1 (Vals.R I 0 c 1 2 1)
        ∗ P)) := by
  unfold accTile rsTile rsTileAny Proto.accPts Proto.rsPts
  iintro ⟨#Hrec, ⟨%W, HO⟩, Hts0, Htr0, ⟨%fd0, Hfd0⟩, Ha11, Ha12, Hr121, Ha10, HP⟩
  ihave #HIs0 := (inv_at (RdI I) K (c, Cell.send 5)) $$ Hrec
  ihave #HIr0 := (inv_at (RdI I) K (mate c 0 5, Cell.recv 5)) $$ Hrec
  ihave #Hrs0 := (reached_at (RdI I) K (c, Cell.send 5)) $$ Hrec
  ihave #Hrr0 := (reached_at (RdI I) K (mate c 0 5, Cell.recv 5)) $$ Hrec
  rw [k0_part26_eq_skeleton]
  unfold k0_part26_skel
  sl_exec
  -- the copy of part 0 at step 5 (started as number 6): its units on the partner's receive cell are owed last
  have hc0 : dueCell c 18 = recvCell (mate c 0 5) 5 := dueCell_fire c 5 0
  have ha0 : dueAmt 18 = N := dueAmt_fire 5 0
  have hO0 : owedFrom c 18 = owedFrom c 19 + tallyAt (recvCell (mate c 0 5) 5) () N :=
    (owedFrom_succ c 18 (by decide)).trans (by rw [hc0, ha0])
  iapply (wp_fire_at (accCI I) (rs0I I) c 5 0 (g := 1) (rg := 1) (s := 2) rfl rfl rfl (dev19_eq c) rfl rfl
    (sendS_eq 5) (recvS_eq 5) (accEmb 1 0 (Vals.A I 0 c 1 0 2)) rfl fd0 (owedFrom c 19) hO0) $$ [HO Hts0 Htr0 Hfd0 Ha10]
  · unfold Proto.accPts Proto.rsPts
    isplitr; · iexact HIs0
    isplitr; · iexact HIr0
    isplitl [Ha10]; · iexact Ha10
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha11_e : View.read (Elt F) (accV 1 1) (local_26.sl.Ha11_w1 I c) = Vals.A I 0 c 1 1 2 := by
    unfold local_26.sl.Ha11_w1; exact View.read_write_univ _ _
  have Ha11_t : ((Proto.accSl 1 1).view.loc (c : Thread nD τ) ↦[(Proto.accSl 1 1).view.set]{fullShare} local_26.sl.Ha11_w1 I c : sProp (MT nD τ sig Unit (Elt F) ℕ UU ℕ)) = ((Proto.accSl 1 1).view.loc (c : Thread nD τ) ↦[(Proto.accSl 1 1).view.set]{fullShare} accEmb 1 1 (Vals.A I 0 c 1 1 2) : sProp (MT nD τ sig Unit (Elt F) ℕ UU ℕ)) := accTile_of_read c fullShare 1 1 Ha11_e
  have Ha12_r0 : local_26.sl.v685 I c = Vals.A I 0 c 1 2 1 := by unfold local_26.sl.v685; exact accV_read_accEmb 1 2 _
  have Ha12_r1 : local_26.sl.v687 I c = Vals.R I 0 c 1 2 1 := by unfold local_26.sl.v687; exact rsV_read_rsEmb 1 2 1 _
  have Ha12_e : View.read (Elt F) (accV 1 2) (local_26.sl.Ha12_w2 I c) = Vals.A I 0 c 1 2 2 := by
    unfold local_26.sl.Ha12_w2; rw [Ha12_r0, Ha12_r1]; exact View.read_write_univ _ _
  have Ha12_t : ((Proto.accSl 1 2).view.loc (c : Thread nD τ) ↦[(Proto.accSl 1 2).view.set]{fullShare} local_26.sl.Ha12_w2 I c : sProp (MT nD τ sig Unit (Elt F) ℕ UU ℕ)) = ((Proto.accSl 1 2).view.loc (c : Thread nD τ) ↦[(Proto.accSl 1 2).view.set]{fullShare} accEmb 1 2 (Vals.A I 0 c 1 2 2) : sProp (MT nD τ sig Unit (Elt F) ℕ UU ℕ)) := accTile_of_read c fullShare 1 2 Ha12_e
  rw [← Ha11_t, ← Ha12_t]
  isplitr [HO Hcs0 Ha11 Ha12 Hr121 HP]
  · ipureintro; rfl
  isplitr [HO Hcs0 Ha11 Ha12 Hr121 HP]; · iexact Hrec
  isplitl [HO]; · iexists W; iexact HO
  iframe

/-- info: 'Cert.KernelIdeal.Body.local_26' depends on axioms: [propext, Classical.choice, Quot.sound] -/
#guard_msgs in #print axioms local_26

end Cert.KernelIdeal.Body
-- ==== Proof.Parts.Part26.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L26
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 26 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 26 of the body, run from the place before it, ends at the place after it and returns its values; whatever else is held is kept. -/
theorem part_26 (m : (ℓ : Loc nD τ sig) → Buf (Elt F) ℓ) (K : Dev nD × Cell → ℕ) (c : Dev nD) (Fr : sProp 𝕄) :
    iprop(St (insM m) K (σ 25) c ∗ outHeld (insM m) c (σ 25).outs ∗ Fr)
      ⊢ wp frame (wpE (defs₀ (F := F)) 𝒱₀ (c : Thread nD τ) none) Set.univ
          (k0_part26 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv681 (insM m) c))
          (fun tup => iprop(⌜tup = ⟨Vals.lw693 c, Vals.lw704 c⟩⌝ ∗ St (insM m) K (σ 26) c ∗ outHeld (insM m) c (σ 26).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 18 : sProp (MT nD τ sig Unit (Elt F) ℕ UU ℕ))
      = iprop(dutyTok ER (sendCell c 5) 0 0 ∗ dutyTok ER (recvCell (mate c 0 5) 5) 0 0 ∗ toksFrom c 19) := toksFrom_copy c 5 0
  have hf0 : (foreignFrom c 15 : sProp (MT nD τ sig Unit (Elt F) ℕ UU ℕ))
      = iprop(rsTileAny (mate c 0 5) (rgOf 5) 0 (sOf 5) ∗ foreignFrom c 16) := foreignFrom_succ c 5 0
  have hb3 : (rsBack (insM m) c 4 : sProp (MT nD τ sig Unit (Elt F) ℕ UU ℕ))
      = iprop((rsTile c 1 0 1 (Vals.R (insM m) 0 c 1 0 1) ∗ rsTile c 1 1 1 (Vals.R (insM m) 0 c 1 1 1) ∗ rsTile c 1 2 1 (Vals.R (insM m) 0 c 1 2 1)) ∗ rsBack (insM m) c 3) := rsBack_succ (insM m) c 3
  rw [St_open_25, St_open_26, ht0, hf0, hb3, show (σ 25).outs = (σ 26).outs from rfl]
  simp only [hemp, hemp']
  refine BIBase.Entails.trans (Entails.of_eq ?_) (BIBase.Entails.trans
    (local_26 (insM m) K c
      (iprop(levAts Proto.L Proto.lv
        ∗ toksFrom c 19
        ∗ credFrom c 15
        ∗ cred (tallyAt (sendCell c 2) () N)
        ∗ cred (tallyAt (sendCell c 2) () N)
        ∗ cred (tallyAt (sendCell c 2) () N)
        ∗ doneTo c 9
        ∗ todoFrom c 9
        ∗ foreignFrom c 16
        ∗ rsTile c 1 0 1 (Vals.R (insM m) 0 c 1 0 1)
        ∗ rsTile c 1 1 1 (Vals.R (insM m) 0 c 1 1 1)
        ∗ rsBack (insM m) c 3
        ∗ accTileAny c 2 0
        ∗ accTileAny c 2 1
        ∗ accTileAny c 2 2
        ∗ accTileAny c 3 0
        ∗ accTileAny c 3 1
        ∗ accTileAny c 3 2
        ∗ outHeld (insM m) c (σ 26).outs
        ∗ Fr)))
    (wp_mono _ _ _ fun tup => Entails.of_eq ?_))
  · ac_rfl
  · ac_rfl

/-- info: 'Cert.KernelIdeal.Body.part_26' depends on axioms: [propext, Classical.choice, Quot.sound] -/
#guard_msgs in #print axioms part_26

end Cert.KernelIdeal.Body

end
-- ==== Proof.Parts.L27.lean ====
/-
  Part 27 of the body starts two copies of step 5 (the 6th step started; round 0, group 1, position 2): part 1 of accumulator slice (1, 1) goes to receive slice (1, 1, 2) of the device paired along mask 1, part 2 of accumulator slice (1, 2) goes to receive slice (1, 2, 2) of the device paired along mask 3.
  The accumulator slices, at level 2 of round 0, and the paired devices' receive slices leave the device's hands; it holds the departure credits of its send cell 5 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 27: the copies of parts 1 and 2 of step 5. -/
theorem local_27 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 19) W)
        ∗ dutyTok ER (sendCell c 5) 0 1 ∗ dutyTok ER (recvCell (mate c 1 5) 5) 0 1
        ∗ dutyTok ER (sendCell c 5) 0 2 ∗ dutyTok ER (recvCell (mate c 2 5) 5) 0 2
        ∗ rsTileAny (F := F) (mate c 1 5) 1 1 2
        ∗ rsTileAny (F := F) (mate c 2 5) 1 2 2
        ∗ accTile c 1 1 (A I 0 c 1 1 2)
        ∗ accTile c 1 2 (A I 0 c 1 2 2)
        ∗ P)
      ⊢ wp frame (wpE (defs₀ (F := F)) 𝒱₀ (c : Thread nD τ) none) Set.univ
          (k0_part27 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw704 c))
          (fun tup => iprop(⌜tup = Vals.lw715 c⌝
            ∗ (∃ W, owes (c : Thread nD τ) (owedFrom c 21) W)
            ∗ cred (tallyAt (sendCell c 5) () N)
            ∗ cred (tallyAt (sendCell c 5) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 5)) $$ HR
  ihave #HRs := (reached_at (RdI I) K (c, Cell.send 5)) $$ HR
  ihave #HIr0 := (inv_at (RdI I) K (mate c 1 5, Cell.recv 5)) $$ HR
  ihave #HRr0 := (reached_at (RdI I) K (mate c 1 5, Cell.recv 5)) $$ HR
  ihave #HIr1 := (inv_at (RdI I) K (mate c 2 5, Cell.recv 5)) $$ HR
  ihave #HRr1 := (reached_at (RdI I) K (mate c 2 5, Cell.recv 5)) $$ HR
  sl_exec
  iapply (wp_fire_at (accCI I) (rs0I I) c 5 1 (g := 1) (rg := 1) (s := 2) (by decide) (by decide) (by decide)
      (dv := ⟨k0_dev20 c, k0_dev20_lt c⟩) ((dev20_eq c).trans rfl) rfl rfl (sendS_eq 5).symm (recvS_eq 5).symm
      (accEmb 1 1 (A I 0 c 1 1 2)) rfl fd0 (owedFrom c 20) (owed_copy c 5 1 19 (by decide) 5 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 5 2 (g := 1) (rg := 1) (s := 2) (by decide) (by decide) (by decide)
      (dv := ⟨k0_dev21 c, k0_dev21_lt c⟩) ((dev21_eq c).trans rfl) rfl rfl (sendS_eq 5).symm (recvS_eq 5).symm
      (accEmb 1 2 (A I 0 c 1 2 2)) rfl fd1 (owedFrom c 21) (owed_copy c 5 2 20 (by decide) 5 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_27' depends on axioms: [propext, Classical.choice, Quot.sound] -/
#guard_msgs in #print axioms Cert.KernelIdeal.Body.local_27

end
-- ==== Proof.Parts.L30.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 30 of the body: no memory operation. It returns group 2's attention partial product, a payload over its parameters. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

local notation "𝕄" => MT nD τ sig Unit (Elt F) ℕ UU ℕ

theorem local_30 (I : Dev nD → Vals.Ins F) (c : Dev nD) (P : sProp (MT nD τ sig Unit (Elt F) ℕ UU ℕ)) :
    P ⊢ wp frame (wpE (defs₀ (F := F)) 𝒱₀ (c : Thread nD τ) none) Set.univ
      (k0_part30 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lv37 I c) (Vals.lv623 I c) (Vals.lv626 I c) (Vals.lv773 I c) (Vals.lv774 I c) (Vals.lv776 I c) (Vals.lv777 I c))
      (fun tup => iprop(⌜tup = Vals.lv824 I c⌝ ∗ P)) := by
  iintro HP
  rw [k0_part30_eq_skeleton]
  unfold k0_part30_skel
  sl_exec
  sl_step
  isplitr [HP]
  · ipureintro; rfl
  · iexact HP

/-- info: 'Cert.KernelIdeal.Body.local_30' depends on axioms: [propext, Classical.choice, Quot.sound] -/
#guard_msgs in #print axioms local_30

end Cert.KernelIdeal.Body
-- ==== Proof.Parts.Part30.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L30
import proofs.«900775_g7700000000000776_dist_diff_dit_htp_i_b2_s512_d768_hq4_v7x_i8_f32_1_alg».proof.Proof.Gen.KernelIdeal.Skeleton
import Idealize.ShloMosaic.Lib.Tactic

/-! Part 30 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 30 of the body, run from the place before it, ends at the place after it and returns its values; whatever else is held is kept. -/
theorem part_30 (m : (ℓ : Loc nD τ sig) → Buf (Elt F) ℓ) (K : Dev nD × Cell → ℕ) (c : Dev nD) (Fr : sProp 𝕄) :
    iprop(St (insM m) K (σ 29) c ∗ outHeld (insM m) c (σ 29).outs ∗ Fr)
      ⊢ wp frame (wpE (defs₀ (F := F)) 𝒱₀ (c : Thread nD τ) none) Set.univ
          (k0_part30 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv37 (insM m) c) (Vals.lv623 (insM m) c) (Vals.lv626 (insM m) c) (Vals.lv773 (insM m) c) (Vals.lv774 (insM m) c) (Vals.lv776 (insM m) c) (Vals.lv777 (insM m) c))
          (fun tup => iprop(⌜tup = Vals.lv824 (insM m) c⌝ ∗ St (insM m) K (σ 30) c ∗ outHeld (insM m) c (σ 30).outs ∗ Fr)) := by
  have e : σ 30 = σ 29 := rfl
  rw [e]
  exact local_30 (insM m) c _

/-- info: 'Cert.KernelIdeal.Body.part_30' depends on axioms: [propext, Classical.choice, Quot.sound] -/
#guard_msgs in #print axioms part_30

end Cert.KernelIdeal.Body

end
-- ==== Proof.Parts.L31.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 31 of the body: the stores into accumulator tiles (2, 0), (2, 1), (2, 2), then the start of the copy of part 0 at step 6 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_31 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 21) W)
        ∗ dutyTok ER (sendCell c 6) 0 0 ∗ dutyTok ER (recvCell (mate c 0 6) 6) 0 0
        ∗ rsTileAny (mate c 0 6) (rgOf 6) 0 (sOf 6)
        ∗ accTileAny c 2 0
        ∗ accTileAny c 2 1
        ∗ accTileAny c 2 2
        ∗ P) : sProp (MT nD τ sig Unit (Elt F) ℕ UU ℕ))
      ⊢ wp frame (wpE (defs₀ (F := F)) 𝒱₀ (c : Thread nD τ) none) Set.univ
      (k0_part31 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv824 I c))
      (fun tup => iprop(⌜tup = ⟨Vals.lw838 c, Vals.lw849 c⟩⌝
        ∗ records (RdI I) K
        ∗ (∃ W, owes (c : Thread nD τ) (owedFrom c 22) W)
        ∗ cred (tallyAt (sendCell c 6) () N)
        ∗ accTile c 2 1 (Vals.A I 0 c 2 1 0)
        ∗ accTile c 2 2 (Vals.A I 0 c 2 2 0)
        ∗ P)) := by
  unfold accTile rsTileAny accTileAny Proto.accPts Proto.rsPts
  iintro ⟨#Hrec, ⟨%W, HO⟩, Hts0, Htr0, ⟨%fd0, Hfd0⟩, ⟨%fHa20, Ha20⟩, ⟨%fHa21, Ha21⟩, ⟨%fHa22, Ha22⟩, HP⟩
  ihave #HIs0 := (inv_at (RdI I) K (c, Cell.send 6)) $$ Hrec
  ihave #HIr0 := (inv_at (RdI I) K (mate c 0 6, Cell.recv 6)) $$ Hrec
  ihave #Hrs0 := (reached_at (RdI I) K (c, Cell.send 6)) $$ Hrec
  ihave #Hrr0 := (reached_at (RdI I) K (mate c 0 6, Cell.recv 6)) $$ Hrec
  rw [k0_part31_eq_skeleton]
  unfold k0_part31_skel
  sl_exec
  -- the source tile as the level names it
  have Ha20_e : View.read (Elt F) (accV 2 0) (local_31.sl.Ha20_w1 I c fHa20) = Vals.A I 0 c 2 0 0 := by
    unfold local_31.sl.Ha20_w1; exact View.read_write_univ _ _
  have Ha20_t : ((Proto.accSl 2 0).view.loc (c : Thread nD τ) ↦[(Proto.accSl 2 0).view.set]{fullShare} local_31.sl.Ha20_w1 I c fHa20 : sProp (MT nD τ sig Unit (Elt F) ℕ UU ℕ)) = ((Proto.accSl 2 0).view.loc (c : Thread nD τ) ↦[(Proto.accSl 2 0).view.set]{fullShare} accEmb 2 0 (Vals.A I 0 c 2 0 0) : sProp (MT nD τ sig Unit (Elt F) ℕ UU ℕ)) := accTile_of_read c fullShare 2 0 Ha20_e
  ihave Ha20 := (Entails.of_eq Ha20_t) $$ Ha20
  -- the copy of part 0 at step 6 (started as number 7): its units on the partner's receive cell are owed last
  have hc0 : dueCell c 21 = recvCell (mate c 0 6) 6 := dueCell_fire c 6 0
  have ha0 : dueAmt 21 = N := dueAmt_fire 6 0
  have hO0 : owedFrom c 21 = owedFrom c 22 + tallyAt (recvCell (mate c 0 6) 6) () N :=
    (owedFrom_succ c 21 (by decide)).trans (by rw [hc0, ha0])
  iapply (wp_fire_at (accCI I) (rs0I I) c 6 0 (g := 2) (rg := 2) (s := 0) rfl rfl rfl (dev22_eq c) rfl rfl
    (sendS_eq 6) (recvS_eq 6) (accEmb 2 0 (Vals.A I 0 c 2 0 0)) rfl fd0 (owedFrom c 22) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha21_e : View.read (Elt F) (accV 2 1) (local_31.sl.Ha21_w2 I c fHa21) = Vals.A I 0 c 2 1 0 := by
    unfold local_31.sl.Ha21_w2; exact View.read_write_univ _ _
  have Ha21_t : ((Proto.accSl 2 1).view.loc (c : Thread nD τ) ↦[(Proto.accSl 2 1).view.set]{fullShare} local_31.sl.Ha21_w2 I c fHa21 : sProp (MT nD τ sig Unit (Elt F) ℕ UU ℕ)) = ((Proto.accSl 2 1).view.loc (c : Thread nD τ) ↦[(Proto.accSl 2 1).view.set]{fullShare} accEmb 2 1 (Vals.A I 0 c 2 1 0) : sProp (MT nD τ sig Unit (Elt F) ℕ UU ℕ)) := accTile_of_read c fullShare 2 1 Ha21_e
  have Ha22_e : View.read (Elt F) (accV 2 2) (local_31.sl.Ha22_w3 I c fHa22) = Vals.A I 0 c 2 2 0 := by
    unfold local_31.sl.Ha22_w3; exact View.read_write_univ _ _
  have Ha22_t : ((Proto.accSl 2 2).view.loc (c : Thread nD τ) ↦[(Proto.accSl 2 2).view.set]{fullShare} local_31.sl.Ha22_w3 I c fHa22 : sProp (MT nD τ sig Unit (Elt F) ℕ UU ℕ)) = ((Proto.accSl 2 2).view.loc (c : Thread nD τ) ↦[(Proto.accSl 2 2).view.set]{fullShare} accEmb 2 2 (Vals.A I 0 c 2 2 0) : sProp (MT nD τ sig Unit (Elt F) ℕ UU ℕ)) := accTile_of_read c fullShare 2 2 Ha22_e
  rw [← Ha21_t, ← Ha22_t]
  isplitr [HO Hcs0 Ha21 Ha22 HP]
  · ipureintro; rfl
  isplitr [HO Hcs0 Ha21 Ha22 HP]; · iexact Hrec
  isplitl [HO]; · iexists W; iexact HO
  iframe

/-- info: 'Cert.KernelIdeal.Body.local_31' depends on axioms: [propext, Classical.choice, Quot.sound] -/
#guard_msgs in #print axioms local_31

end Cert.KernelIdeal.Body
-- ==== Proof.Parts.Part31.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L31
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 31 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 31 of the body, run from the place before it, ends at the place after it and returns its values; whatever else is held is kept. -/
theorem part_31 (m : (ℓ : Loc nD τ sig) → Buf (Elt F) ℓ) (K : Dev nD × Cell → ℕ) (c : Dev nD) (Fr : sProp 𝕄) :
    iprop(St (insM m) K (σ 30) c ∗ outHeld (insM m) c (σ 30).outs ∗ Fr)
      ⊢ wp frame (wpE (defs₀ (F := F)) 𝒱₀ (c : Thread nD τ) none) Set.univ
          (k0_part31 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv824 (insM m) c))
          (fun tup => iprop(⌜tup = ⟨Vals.lw838 c, Vals.lw849 c⟩⌝ ∗ St (insM m) K (σ 31) c ∗ outHeld (insM m) c (σ 31).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 21 : sProp (MT nD τ sig Unit (Elt F) ℕ UU ℕ))
      = iprop(dutyTok ER (sendCell c 6) 0 0 ∗ dutyTok ER (recvCell (mate c 0 6) 6) 0 0 ∗ toksFrom c 22) := toksFrom_copy c 6 0
  have hf0 : (foreignFrom c 18 : sProp (MT nD τ sig Unit (Elt F) ℕ UU ℕ))
      = iprop(rsTileAny (mate c 0 6) (rgOf 6) 0 (sOf 6) ∗ foreignFrom c 19) := foreignFrom_succ c 6 0
  rw [St_open_30, St_open_31, ht0, hf0, show (σ 30).outs = (σ 31).outs from rfl]
  simp only [hemp, hemp']
  refine BIBase.Entails.trans (Entails.of_eq ?_) (BIBase.Entails.trans
    (local_31 (insM m) K c
      (iprop(levAts Proto.L Proto.lv
        ∗ toksFrom c 22
        ∗ credFrom c 18
        ∗ cred (tallyAt (sendCell c 5) () N)
        ∗ cred (tallyAt (sendCell c 5) () N)
        ∗ cred (tallyAt (sendCell c 5) () N)
        ∗ doneTo c 11
        ∗ todoFrom c 11
        ∗ foreignFrom c 19
        ∗ rsBack (insM m) c 5
        ∗ accTile c 0 0 (Vals.A (insM m) 0 c 0 0 2)
        ∗ accTile c 0 1 (Vals.A (insM m) 0 c 0 1 2)
        ∗ accTile c 0 2 (Vals.A (insM m) 0 c 0 2 2)
        ∗ accTileAny c 3 0
        ∗ accTileAny c 3 1
        ∗ accTileAny c 3 2
        ∗ outHeld (insM m) c (σ 31).outs
        ∗ Fr)))
    (wp_mono _ _ _ fun tup => Entails.of_eq ?_))
  · ac_rfl
  · ac_rfl

/-- info: 'Cert.KernelIdeal.Body.part_31' depends on axioms: [propext, Classical.choice, Quot.sound] -/
#guard_msgs in #print axioms part_31

end Cert.KernelIdeal.Body

end
-- ==== Proof.Parts.L32.lean ====
/-
  Part 32 of the body starts two copies of step 6 (the 7th step started; round 0, group 2, position 0): part 1 of accumulator slice (2, 1) goes to receive slice (2, 1, 0) of the device paired along mask 3, part 2 of accumulator slice (2, 2) goes to receive slice (2, 2, 0) of the device paired along mask 4.
  The accumulator slices, at level 0 of round 0, and the paired devices' receive slices leave the device's hands; it holds the departure credits of its send cell 6 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 32: the copies of parts 1 and 2 of step 6. -/
theorem local_32 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 22) W)
        ∗ dutyTok ER (sendCell c 6) 0 1 ∗ dutyTok ER (recvCell (mate c 1 6) 6) 0 1
        ∗ dutyTok ER (sendCell c 6) 0 2 ∗ dutyTok ER (recvCell (mate c 2 6) 6) 0 2
        ∗ rsTileAny (F := F) (mate c 1 6) 2 1 0
        ∗ rsTileAny (F := F) (mate c 2 6) 2 2 0
        ∗ accTile c 2 1 (A I 0 c 2 1 0)
        ∗ accTile c 2 2 (A I 0 c 2 2 0)
        ∗ P)
      ⊢ wp frame (wpE (defs₀ (F := F)) 𝒱₀ (c : Thread nD τ) none) Set.univ
          (k0_part32 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw849 c))
          (fun tup => iprop(⌜tup = Vals.lw860 c⌝
            ∗ (∃ W, owes (c : Thread nD τ) (owedFrom c 24) W)
            ∗ cred (tallyAt (sendCell c 6) () N)
            ∗ cred (tallyAt (sendCell c 6) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 6)) $$ HR
  ihave #HRs := (reached_at (RdI I) K (c, Cell.send 6)) $$ HR
  ihave #HIr0 := (inv_at (RdI I) K (mate c 1 6, Cell.recv 6)) $$ HR
  ihave #HRr0 := (reached_at (RdI I) K (mate c 1 6, Cell.recv 6)) $$ HR
  ihave #HIr1 := (inv_at (RdI I) K (mate c 2 6, Cell.recv 6)) $$ HR
  ihave #HRr1 := (reached_at (RdI I) K (mate c 2 6, Cell.recv 6)) $$ HR
  sl_exec
  iapply (wp_fire_at (accCI I) (rs0I I) c 6 1 (g := 2) (rg := 2) (s := 0) (by decide) (by decide) (by decide)
      (dv := ⟨k0_dev23 c, k0_dev23_lt c⟩) ((dev23_eq c).trans rfl) rfl rfl (sendS_eq 6).symm (recvS_eq 6).symm
      (accEmb 2 1 (A I 0 c 2 1 0)) rfl fd0 (owedFrom c 23) (owed_copy c 6 1 22 (by decide) 6 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 6 2 (g := 2) (rg := 2) (s := 0) (by decide) (by decide) (by decide)
      (dv := ⟨k0_dev24 c, k0_dev24_lt c⟩) ((dev24_eq c).trans rfl) rfl rfl (sendS_eq 6).symm (recvS_eq 6).symm
      (accEmb 2 2 (A I 0 c 2 2 0)) rfl fd1 (owedFrom c 24) (owed_copy c 6 2 23 (by decide) 6 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_32' depends on axioms: [propext, Classical.choice, Quot.sound] -/
#guard_msgs in #print axioms Cert.KernelIdeal.Body.local_32

end
-- ==== Proof.Parts.L35.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 35 of the body: no memory operation. It returns group 3's attention output and the zero block that crosses the boundary with it. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

local notation "𝕄" => MT nD τ sig Unit (Elt F) ℕ UU ℕ

theorem local_35 (I : Dev nD → Vals.Ins F) (c : Dev nD) (P : sProp (MT nD τ sig Unit (Elt F) ℕ UU ℕ)) :
    P ⊢ wp frame (wpE (defs₀ (F := F)) 𝒱₀ (c : Thread nD τ) none) Set.univ
      (k0_part35 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lv623 I c) (Vals.lv626 I c) (Vals.lv918 I c) (Vals.lv919 I c) (Vals.lv920 I c) (Vals.lv921 I c))
      (fun tup => iprop(⌜tup = ⟨Vals.lv968 I c, Vals.lvcst_1034 I c⟩⌝ ∗ P)) := by
  iintro HP
  rw [k0_part35_eq_skeleton]
  unfold k0_part35_skel
  sl_exec
  sl_step
  isplitr [HP]
  · ipureintro; rfl
  · iexact HP

/-- info: 'Cert.KernelIdeal.Body.local_35' depends on axioms: [propext, Classical.choice, Quot.sound] -/
#guard_msgs in #print axioms local_35

end Cert.KernelIdeal.Body
-- ==== Proof.Parts.Part35.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L35
import proofs.«900775_g7700000000000776_dist_diff_dit_htp_i_b2_s512_d768_hq4_v7x_i8_f32_1_alg».proof.Proof.Gen.KernelIdeal.Skeleton
import Idealize.ShloMosaic.Lib.Tactic

/-! Part 35 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 35 of the body, run from the place before it, ends at the place after it and returns its values; whatever else is held is kept. -/
theorem part_35 (m : (ℓ : Loc nD τ sig) → Buf (Elt F) ℓ) (K : Dev nD × Cell → ℕ) (c : Dev nD) (Fr : sProp 𝕄) :
    iprop(St (insM m) K (σ 34) c ∗ outHeld (insM m) c (σ 34).outs ∗ Fr)
      ⊢ wp frame (wpE (defs₀ (F := F)) 𝒱₀ (c : Thread nD τ) none) Set.univ
          (k0_part35 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv623 (insM m) c) (Vals.lv626 (insM m) c) (Vals.lv918 (insM m) c) (Vals.lv919 (insM m) c) (Vals.lv920 (insM m) c) (Vals.lv921 (insM m) c))
          (fun tup => iprop(⌜tup = ⟨Vals.lv968 (insM m) c, Vals.lvcst_1034 (insM m) c⟩⌝ ∗ St (insM m) K (σ 35) c ∗ outHeld (insM m) c (σ 35).outs ∗ Fr)) := by
  have e : σ 35 = σ 34 := rfl
  rw [e]
  exact local_35 (insM m) c _

/-- info: 'Cert.KernelIdeal.Body.part_35' depends on axioms: [propext, Classical.choice, Quot.sound] -/
#guard_msgs in #print axioms part_35

end Cert.KernelIdeal.Body

end
-- ==== Proof.Parts.L36.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 36 of the body: the stores into accumulator tiles (3, 0), (3, 1), (3, 2), then the start of the copy of part 0 at step 9 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_36 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 24) W)
        ∗ dutyTok ER (sendCell c 9) 0 0 ∗ dutyTok ER (recvCell (mate c 0 9) 9) 0 0
        ∗ rsTileAny (mate c 0 9) (rgOf 9) 0 (sOf 9)
        ∗ accTileAny c 3 0
        ∗ accTileAny c 3 1
        ∗ accTileAny c 3 2
        ∗ P) : sProp (MT nD τ sig Unit (Elt F) ℕ UU ℕ))
      ⊢ wp frame (wpE (defs₀ (F := F)) 𝒱₀ (c : Thread nD τ) none) Set.univ
      (k0_part36 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv37 I c) (Vals.lv968 I c) (Vals.lvcst_1034 I c))
      (fun tup => iprop(⌜tup = ⟨Vals.lw983 c, Vals.lw994 c⟩⌝
        ∗ records (RdI I) K
        ∗ (∃ W, owes (c : Thread nD τ) (owedFrom c 25) W)
        ∗ cred (tallyAt (sendCell c 9) () N)
        ∗ accTile c 3 1 (Vals.A I 0 c 3 1 0)
        ∗ accTile c 3 2 (Vals.A I 0 c 3 2 0)
        ∗ P)) := by
  unfold accTile rsTileAny accTileAny Proto.accPts Proto.rsPts
  iintro ⟨#Hrec, ⟨%W, HO⟩, Hts0, Htr0, ⟨%fd0, Hfd0⟩, ⟨%fHa30, Ha30⟩, ⟨%fHa31, Ha31⟩, ⟨%fHa32, Ha32⟩, HP⟩
  ihave #HIs0 := (inv_at (RdI I) K (c, Cell.send 9)) $$ Hrec
  ihave #HIr0 := (inv_at (RdI I) K (mate c 0 9, Cell.recv 9)) $$ Hrec
  ihave #Hrs0 := (reached_at (RdI I) K (c, Cell.send 9)) $$ Hrec
  ihave #Hrr0 := (reached_at (RdI I) K (mate c 0 9, Cell.recv 9)) $$ Hrec
  rw [k0_part36_eq_skeleton]
  unfold k0_part36_skel
  sl_exec
  -- the source tile as the level names it
  have Ha30_e : View.read (Elt F) (accV 3 0) (local_36.sl.Ha30_w1 I c fHa30) = Vals.A I 0 c 3 0 0 := by
    unfold local_36.sl.Ha30_w1; exact View.read_write_univ _ _
  have Ha30_t : ((Proto.accSl 3 0).view.loc (c : Thread nD τ) ↦[(Proto.accSl 3 0).view.set]{fullShare} local_36.sl.Ha30_w1 I c fHa30 : sProp (MT nD τ sig Unit (Elt F) ℕ UU ℕ)) = ((Proto.accSl 3 0).view.loc (c : Thread nD τ) ↦[(Proto.accSl 3 0).view.set]{fullShare} accEmb 3 0 (Vals.A I 0 c 3 0 0) : sProp (MT nD τ sig Unit (Elt F) ℕ UU ℕ)) := accTile_of_read c fullShare 3 0 Ha30_e
  ihave Ha30 := (Entails.of_eq Ha30_t) $$ Ha30
  -- the copy of part 0 at step 9 (started as number 8): its units on the partner's receive cell are owed last
  have hc0 : dueCell c 24 = recvCell (mate c 0 9) 9 := dueCell_fire c 7 0
  have ha0 : dueAmt 24 = N := dueAmt_fire 7 0
  have hO0 : owedFrom c 24 = owedFrom c 25 + tallyAt (recvCell (mate c 0 9) 9) () N :=
    (owedFrom_succ c 24 (by decide)).trans (by rw [hc0, ha0])
  iapply (wp_fire_at (accCI I) (rs0I I) c 9 0 (g := 3) (rg := 3) (s := 0) rfl rfl rfl (dev25_eq c) rfl rfl
    (sendS_eq 9) (recvS_eq 9) (accEmb 3 0 (Vals.A I 0 c 3 0 0)) rfl fd0 (owedFrom c 25) hO0) $$ [HO Hts0 Htr0 Hfd0 Ha30]
  · unfold Proto.accPts Proto.rsPts
    isplitr; · iexact HIs0
    isplitr; · iexact HIr0
    isplitl [Ha30]; · iexact Ha30
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha31_e : View.read (Elt F) (accV 3 1) (local_36.sl.Ha31_w2 I c fHa31) = Vals.A I 0 c 3 1 0 := by
    unfold local_36.sl.Ha31_w2; exact View.read_write_univ _ _
  have Ha31_t : ((Proto.accSl 3 1).view.loc (c : Thread nD τ) ↦[(Proto.accSl 3 1).view.set]{fullShare} local_36.sl.Ha31_w2 I c fHa31 : sProp (MT nD τ sig Unit (Elt F) ℕ UU ℕ)) = ((Proto.accSl 3 1).view.loc (c : Thread nD τ) ↦[(Proto.accSl 3 1).view.set]{fullShare} accEmb 3 1 (Vals.A I 0 c 3 1 0) : sProp (MT nD τ sig Unit (Elt F) ℕ UU ℕ)) := accTile_of_read c fullShare 3 1 Ha31_e
  have Ha32_e : View.read (Elt F) (accV 3 2) (local_36.sl.Ha32_w3 I c fHa32) = Vals.A I 0 c 3 2 0 := by
    unfold local_36.sl.Ha32_w3; exact View.read_write_univ _ _
  have Ha32_t : ((Proto.accSl 3 2).view.loc (c : Thread nD τ) ↦[(Proto.accSl 3 2).view.set]{fullShare} local_36.sl.Ha32_w3 I c fHa32 : sProp (MT nD τ sig Unit (Elt F) ℕ UU ℕ)) = ((Proto.accSl 3 2).view.loc (c : Thread nD τ) ↦[(Proto.accSl 3 2).view.set]{fullShare} accEmb 3 2 (Vals.A I 0 c 3 2 0) : sProp (MT nD τ sig Unit (Elt F) ℕ UU ℕ)) := accTile_of_read c fullShare 3 2 Ha32_e
  rw [← Ha31_t, ← Ha32_t]
  isplitr [HO Hcs0 Ha31 Ha32 HP]
  · ipureintro; rfl
  isplitr [HO Hcs0 Ha31 Ha32 HP]; · iexact Hrec
  isplitl [HO]; · iexists W; iexact HO
  iframe

/-- info: 'Cert.KernelIdeal.Body.local_36' depends on axioms: [propext, Classical.choice, Quot.sound] -/
#guard_msgs in #print axioms local_36

end Cert.KernelIdeal.Body
-- ==== Proof.Parts.Part36.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L36
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 36 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 36 of the body, run from the place before it, ends at the place after it and returns its values; whatever else is held is kept. -/
theorem part_36 (m : (ℓ : Loc nD τ sig) → Buf (Elt F) ℓ) (K : Dev nD × Cell → ℕ) (c : Dev nD) (Fr : sProp 𝕄) :
    iprop(St (insM m) K (σ 35) c ∗ outHeld (insM m) c (σ 35).outs ∗ Fr)
      ⊢ wp frame (wpE (defs₀ (F := F)) 𝒱₀ (c : Thread nD τ) none) Set.univ
          (k0_part36 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv37 (insM m) c) (Vals.lv968 (insM m) c) (Vals.lvcst_1034 (insM m) c))
          (fun tup => iprop(⌜tup = ⟨Vals.lw983 c, Vals.lw994 c⟩⌝ ∗ St (insM m) K (σ 36) c ∗ outHeld (insM m) c (σ 36).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 24 : sProp (MT nD τ sig Unit (Elt F) ℕ UU ℕ))
      = iprop(dutyTok ER (sendCell c 9) 0 0 ∗ dutyTok ER (recvCell (mate c 0 9) 9) 0 0 ∗ toksFrom c 25) := toksFrom_copy c 7 0
  have hf0 : (foreignFrom c 21 : sProp (MT nD τ sig Unit (Elt F) ℕ UU ℕ))
      = iprop(rsTileAny (mate c 0 9) (rgOf 9) 0 (sOf 9) ∗ foreignFrom c 22) := foreignFrom_succ c 7 0
  rw [St_open_35, St_open_36, ht0, hf0, show (σ 35).outs = (σ 36).outs from rfl]
  simp only [hemp, hemp']
  refine BIBase.Entails.trans (Entails.of_eq ?_) (BIBase.Entails.trans
    (local_36 (insM m) K c
      (iprop(levAts Proto.L Proto.lv
        ∗ toksFrom c 25
        ∗ credFrom c 21
        ∗ cred (tallyAt (sendCell c 6) () N)
        ∗ cred (tallyAt (sendCell c 6) () N)
        ∗ cred (tallyAt (sendCell c 6) () N)
        ∗ doneTo c 13
        ∗ todoFrom c 13
        ∗ foreignFrom c 22
        ∗ rsBack (insM m) c 6
        ∗ accTile c 0 0 (Vals.A (insM m) 0 c 0 0 2)
        ∗ accTile c 0 1 (Vals.A (insM m) 0 c 0 1 2)
        ∗ accTile c 0 2 (Vals.A (insM m) 0 c 0 2 2)
        ∗ accTile c 1 0 (Vals.A (insM m) 0 c 1 0 2)
        ∗ accTile c 1 1 (Vals.A (insM m) 0 c 1 1 2)
        ∗ accTile c 1 2 (Vals.A (insM m) 0 c 1 2 2)
        ∗ outHeld (insM m) c (σ 36).outs
        ∗ Fr)))
    (wp_mono _ _ _ fun tup => Entails.of_eq ?_))
  · ac_rfl
  · ac_rfl

/-- info: 'Cert.KernelIdeal.Body.part_36' depends on axioms: [propext, Classical.choice, Quot.sound] -/
#guard_msgs in #print axioms part_36

end Cert.KernelIdeal.Body

end
-- ==== Proof.Parts.L37.lean ====
/-
  Part 37 of the body starts two copies of step 9 (the 8th step started; round 0, group 3, position 0): part 1 of accumulator slice (3, 1) goes to receive slice (3, 1, 0) of the device paired along mask 3, part 2 of accumulator slice (3, 2) goes to receive slice (3, 2, 0) of the device paired along mask 4.
  The accumulator slices, at level 0 of round 0, and the paired devices' receive slices leave the device's hands; it holds the departure credits of its send cell 9 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 37: the copies of parts 1 and 2 of step 9. -/
theorem local_37 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 25) W)
        ∗ dutyTok ER (sendCell c 9) 0 1 ∗ dutyTok ER (recvCell (mate c 1 9) 9) 0 1
        ∗ dutyTok ER (sendCell c 9) 0 2 ∗ dutyTok ER (recvCell (mate c 2 9) 9) 0 2
        ∗ rsTileAny (F := F) (mate c 1 9) 3 1 0
        ∗ rsTileAny (F := F) (mate c 2 9) 3 2 0
        ∗ accTile c 3 1 (A I 0 c 3 1 0)
        ∗ accTile c 3 2 (A I 0 c 3 2 0)
        ∗ P)
      ⊢ wp frame (wpE (defs₀ (F := F)) 𝒱₀ (c : Thread nD τ) none) Set.univ
          (k0_part37 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw994 c))
          (fun tup => iprop(⌜tup = Vals.lw1005 c⌝
            ∗ (∃ W, owes (c : Thread nD τ) (owedFrom c 27) W)
            ∗ cred (tallyAt (sendCell c 9) () N)
            ∗ cred (tallyAt (sendCell c 9) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 9)) $$ HR
  ihave #HRs := (reached_at (RdI I) K (c, Cell.send 9)) $$ HR
  ihave #HIr0 := (inv_at (RdI I) K (mate c 1 9, Cell.recv 9)) $$ HR
  ihave #HRr0 := (reached_at (RdI I) K (mate c 1 9, Cell.recv 9)) $$ HR
  ihave #HIr1 := (inv_at (RdI I) K (mate c 2 9, Cell.recv 9)) $$ HR
  ihave #HRr1 := (reached_at (RdI I) K (mate c 2 9, Cell.recv 9)) $$ HR
  sl_exec
  iapply (wp_fire_at (accCI I) (rs0I I) c 9 1 (g := 3) (rg := 3) (s := 0) (by decide) (by decide) (by decide)
      (dv := ⟨k0_dev26 c, k0_dev26_lt c⟩) ((dev26_eq c).trans rfl) rfl rfl (sendS_eq 9).symm (recvS_eq 9).symm
      (accEmb 3 1 (A I 0 c 3 1 0)) rfl fd0 (owedFrom c 26) (owed_copy c 7 1 25 (by decide) 9 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 9 2 (g := 3) (rg := 3) (s := 0) (by decide) (by decide) (by decide)
      (dv := ⟨k0_dev27 c, k0_dev27_lt c⟩) ((dev27_eq c).trans rfl) rfl rfl (sendS_eq 9).symm (recvS_eq 9).symm
      (accEmb 3 2 (A I 0 c 3 2 0)) rfl fd1 (owedFrom c 27) (owed_copy c 7 2 26 (by decide) 9 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_37' depends on axioms: [propext, Classical.choice, Quot.sound] -/
#guard_msgs in #print axioms Cert.KernelIdeal.Body.local_37

end
-- ==== Proof.Parts.L40.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 40 of the body: the first exchange step's add on the three accumulator tiles of group 2 (each tile plus the slice received for it), and the word it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

local notation "𝕄" => MT nD τ sig Unit (Elt F) ℕ UU ℕ

theorem local_40 (I : Dev nD → Vals.Ins F) (c : Dev nD) (P : sProp (MT nD τ sig Unit (Elt F) ℕ UU ℕ)) :
    (iprop(Proto.accPts c 2 0 (accEmb 2 0 (Vals.A I 0 c 2 0 0)) ∗ Proto.accPts c 2 1 (accEmb 2 1 (Vals.A I 0 c 2 1 0)) ∗ Proto.accPts c 2 2 (accEmb 2 2 (Vals.A I 0 c 2 2 0))
        ∗ Proto.rsPts c 2 0 0 (rsEmb 2 0 0 (Vals.R I 0 c 2 0 0)) ∗ Proto.rsPts c 2 1 0 (rsEmb 2 1 0 (Vals.R I 0 c 2 1 0)) ∗ Proto.rsPts c 2 2 0 (rsEmb 2 2 0 (Vals.R I 0 c 2 2 0)) ∗ P) : sProp (MT nD τ sig Unit (Elt F) ℕ UU ℕ))
      ⊢ wp frame (wpE (defs₀ (F := F)) 𝒱₀ (c : Thread nD τ) none) Set.univ
      (k0_part40 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1059 I c))
      (fun tup => iprop(⌜tup = Vals.lw1082 c⌝
        ∗ Proto.accPts c 2 0 (accEmb 2 0 (Vals.A I 0 c 2 0 1)) ∗ Proto.accPts c 2 1 (accEmb 2 1 (Vals.A I 0 c 2 1 1)) ∗ Proto.accPts c 2 2 (accEmb 2 2 (Vals.A I 0 c 2 2 1))
        ∗ Proto.rsPts c 2 0 0 (rsEmb 2 0 0 (Vals.R I 0 c 2 0 0)) ∗ Proto.rsPts c 2 1 0 (rsEmb 2 1 0 (Vals.R I 0 c 2 1 0)) ∗ Proto.rsPts c 2 2 0 (rsEmb 2 2 0 (Vals.R I 0 c 2 2 0)) ∗ P)) := by
  unfold Proto.accPts Proto.rsPts
  iintro ⟨Ha0, Ha1, Ha2, Hr0, Hr1, Hr2, HP⟩
  rw [k0_part40_eq_skeleton]
  unfold k0_part40_skel
  sl_exec
  sl_step
  -- what each receive tile's load read, and what each accumulator tile's view reads back after its store
  have r0 : local_40.sl.v1060 I c = Vals.R I 0 c 2 0 0 := by unfold local_40.sl.v1060; exact rsV_read_rsEmb 2 0 0 _
  have r1 : local_40.sl.v1068 I c = Vals.R I 0 c 2 1 0 := by unfold local_40.sl.v1068; exact rsV_read_rsEmb 2 1 0 _
  have r2 : local_40.sl.v1076 I c = Vals.R I 0 c 2 2 0 := by unfold local_40.sl.v1076; exact rsV_read_rsEmb 2 2 0 _
  have a1 : local_40.sl.v1066 I c = Vals.A I 0 c 2 1 0 := by unfold local_40.sl.v1066; exact accV_read_accEmb 2 1 _
  have a2 : local_40.sl.v1074 I c = Vals.A I 0 c 2 2 0 := by unfold local_40.sl.v1074; exact accV_read_accEmb 2 2 _
  have e0 : View.read (Elt F) (accV 2 0) (local_40.sl.Ha0_w1 I c) = Vals.A I 0 c 2 0 1 := by
    unfold local_40.sl.Ha0_w1; rw [r0]; exact View.read_write_univ _ _
  have e1 : View.read (Elt F) (accV 2 1) (local_40.sl.Ha1_w2 I c) = Vals.A I 0 c 2 1 1 := by
    unfold local_40.sl.Ha1_w2; rw [r1, a1]; exact View.read_write_univ _ _
  have e2 : View.read (Elt F) (accV 2 2) (local_40.sl.Ha2_w3 I c) = Vals.A I 0 c 2 2 1 := by
    unfold local_40.sl.Ha2_w3; rw [r2, a2]; exact View.read_write_univ _ _
  have t0 : ((Proto.accSl 2 0).view.loc (c : Thread nD τ) ↦[(Proto.accSl 2 0).view.set]{fullShare} local_40.sl.Ha0_w1 I c : sProp (MT nD τ sig Unit (Elt F) ℕ UU ℕ)) = ((Proto.accSl 2 0).view.loc (c : Thread nD τ) ↦[(Proto.accSl 2 0).view.set]{fullShare} accEmb 2 0 (Vals.A I 0 c 2 0 1) : sProp (MT nD τ sig Unit (Elt F) ℕ UU ℕ)) := accTile_of_read c fullShare 2 0 e0
  have t1 : ((Proto.accSl 2 1).view.loc (c : Thread nD τ) ↦[(Proto.accSl 2 1).view.set]{fullShare} local_40.sl.Ha1_w2 I c : sProp (MT nD τ sig Unit (Elt F) ℕ UU ℕ)) = ((Proto.accSl 2 1).view.loc (c : Thread nD τ) ↦[(Proto.accSl 2 1).view.set]{fullShare} accEmb 2 1 (Vals.A I 0 c 2 1 1) : sProp (MT nD τ sig Unit (Elt F) ℕ UU ℕ)) := accTile_of_read c fullShare 2 1 e1
  have t2 : ((Proto.accSl 2 2).view.loc (c : Thread nD τ) ↦[(Proto.accSl 2 2).view.set]{fullShare} local_40.sl.Ha2_w3 I c : sProp (MT nD τ sig Unit (Elt F) ℕ UU ℕ)) = ((Proto.accSl 2 2).view.loc (c : Thread nD τ) ↦[(Proto.accSl 2 2).view.set]{fullShare} accEmb 2 2 (Vals.A I 0 c 2 2 1) : sProp (MT nD τ sig Unit (Elt F) ℕ UU ℕ)) := accTile_of_read c fullShare 2 2 e2
  rw [← t0, ← t1, ← t2]
  isplitr [Ha0 Ha1 Ha2 Hr0 Hr1 Hr2 HP]
  · ipureintro; rfl
  · iframe

/-- info: 'Cert.KernelIdeal.Body.local_40' depends on axioms: [propext, Classical.choice, Quot.sound] -/
#guard_msgs in #print axioms local_40

end Cert.KernelIdeal.Body
-- ==== Proof.Parts.Part40.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L40
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 40 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 40 of the body, run from the place before it, ends at the place after it and returns its values; whatever else is held is kept. -/
theorem part_40 (m : (ℓ : Loc nD τ sig) → Buf (Elt F) ℓ) (K : Dev nD × Cell → ℕ) (c : Dev nD) (Fr : sProp 𝕄) :
    iprop(St (insM m) K (σ 39) c ∗ outHeld (insM m) c (σ 39).outs ∗ Fr)
      ⊢ wp frame (wpE (defs₀ (F := F)) 𝒱₀ (c : Thread nD τ) none) Set.univ
          (k0_part40 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1059 (insM m) c))
          (fun tup => iprop(⌜tup = Vals.lw1082 c⌝ ∗ St (insM m) K (σ 40) c ∗ outHeld (insM m) c (σ 40).outs ∗ Fr)) := by
  have eo : (σ 40).outs = (σ 39).outs := rfl
  rw [eo]
  rw [St_eq, St_eq, StRest_congr (insM m) K c (s := σ 39) (s' := σ 40) rfl rfl rfl rfl, accAll_σ_39, accAll_σ_40, StRest_rs (insM m) K c (σ 40) rfl 6 (by decide), rs3_6]
  refine BIBase.Entails.trans ?_ ((local_40 (insM m) c iprop(StRestNoRs (insM m) K (σ 40) c 6 ∗ accTile c 0 0 (Vals.A (insM m) 0 c 0 0 2) ∗ accTile c 0 1 (Vals.A (insM m) 0 c 0 1 2) ∗ accTile c 0 2 (Vals.A (insM m) 0 c 0 2 2) ∗ accTile c 1 0 (Vals.A (insM m) 0 c 1 0 2) ∗ accTile c 1 1 (Vals.A (insM m) 0 c 1 1 2) ∗ accTile c 1 2 (Vals.A (insM m) 0 c 1 2 2) ∗ emp ∗ emp ∗ emp ∗ outHeld (insM m) c (σ 39).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T20]; · iexact T20
    isplitl [T21]; · iexact T21
    isplitl [T22]; · iexact T22
    isplitl [R0]; · iexact R0
    isplitl [R1]; · iexact R1
    isplitl [R2]; · iexact R2
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T30]; · iexact T30
    isplitl [T31]; · iexact T31
    isplitl [T32]; · iexact T32
    isplitl [HO]; · iexact HO
    iexact HF
  · iintro ⟨%ht, T20, T21, T22, R0, R1, R2, HR, T00, T01, T02, T10, T11, T12, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_40' depends on axioms: [propext, Classical.choice, Quot.sound] -/
#guard_msgs in #print axioms part_40

end Cert.KernelIdeal.Body

end
-- ==== Proof.Parts.L41.lean ====
/-
  Part 41 of the body starts two copies of step 7 (the 9th step started; round 0, group 2, position 1): part 0 of accumulator slice (2, 0) goes to receive slice (2, 0, 1) of the device paired along mask 3, part 1 of accumulator slice (2, 1) goes to receive slice (2, 1, 1) of the device paired along mask 4.
  The accumulator slices, at level 1 of round 0, and the paired devices' receive slices leave the device's hands; it holds the departure credits of its send cell 7 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 41: the copies of parts 0 and 1 of step 7. -/
theorem local_41 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 27) W)
        ∗ dutyTok ER (sendCell c 7) 0 0 ∗ dutyTok ER (recvCell (mate c 0 7) 7) 0 0
        ∗ dutyTok ER (sendCell c 7) 0 1 ∗ dutyTok ER (recvCell (mate c 1 7) 7) 0 1
        ∗ rsTileAny (F := F) (mate c 0 7) 2 0 1
        ∗ rsTileAny (F := F) (mate c 1 7) 2 1 1
        ∗ accTile c 2 0 (A I 0 c 2 0 1)
        ∗ accTile c 2 1 (A I 0 c 2 1 1)
        ∗ P)
      ⊢ wp frame (wpE (defs₀ (F := F)) 𝒱₀ (c : Thread nD τ) none) Set.univ
          (k0_part41 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1082 c))
          (fun tup => iprop(⌜tup = ⟨Vals.lw1093 c, Vals.lw1104 c, Vals.lw1105 c, Vals.lwc0_i32_1237 c⟩⌝
            ∗ (∃ W, owes (c : Thread nD τ) (owedFrom c 29) W)
            ∗ cred (tallyAt (sendCell c 7) () N)
            ∗ cred (tallyAt (sendCell c 7) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 7)) $$ HR
  ihave #HRs := (reached_at (RdI I) K (c, Cell.send 7)) $$ HR
  ihave #HIr0 := (inv_at (RdI I) K (mate c 0 7, Cell.recv 7)) $$ HR
  ihave #HRr0 := (reached_at (RdI I) K (mate c 0 7, Cell.recv 7)) $$ HR
  ihave #HIr1 := (inv_at (RdI I) K (mate c 1 7, Cell.recv 7)) $$ HR
  ihave #HRr1 := (reached_at (RdI I) K (mate c 1 7, Cell.recv 7)) $$ HR
  sl_exec
  iapply (wp_fire_at (accCI I) (rs0I I) c 7 0 (g := 2) (rg := 2) (s := 1) (by decide) (by decide) (by decide)
      (dv := ⟨k0_dev28 c, k0_dev28_lt c⟩) ((dev28_eq c).trans rfl) rfl rfl (sendS_eq 7).symm (recvS_eq 7).symm
      (accEmb 2 0 (A I 0 c 2 0 1)) rfl fd0 (owedFrom c 28) (owed_copy c 8 0 27 (by decide) 7 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 7 1 (g := 2) (rg := 2) (s := 1) (by decide) (by decide) (by decide)
      (dv := ⟨k0_dev29 c, k0_dev29_lt c⟩) ((dev29_eq c).trans rfl) rfl rfl (sendS_eq 7).symm (recvS_eq 7).symm
      (accEmb 2 1 (A I 0 c 2 1 1)) rfl fd1 (owedFrom c 29) (owed_copy c 8 1 28 (by decide) 7 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_41' depends on axioms: [propext, Classical.choice, Quot.sound] -/
#guard_msgs in #print axioms Cert.KernelIdeal.Body.local_41

end
-- ==== Proof.Parts.L42.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 42 of the body: the start of the copy of part 2 at step 7 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_42 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 29) W)
        ∗ dutyTok ER (sendCell c 7) 0 2 ∗ dutyTok ER (recvCell (mate c 2 7) 7) 0 2
        ∗ rsTileAny (mate c 2 7) (rgOf 7) 2 (sOf 7)
        ∗ accTile c 2 2 (Vals.A I 0 c 2 2 1)
        ∗ accTile c 0 0 (Vals.A I 0 c 0 0 2)
        ∗ rsTile c 0 0 2 (Vals.R I 0 c 0 0 2)
        ∗ accTile c 0 1 (Vals.A I 0 c 0 1 2)
        ∗ rsTile c 0 1 2 (Vals.R I 0 c 0 1 2)
        ∗ accTile c 0 2 (Vals.A I 0 c 0 2 2)
        ∗ rsTile c 0 2 2 (Vals.R I 0 c 0 2 2)
        ∗ P) : sProp (MT nD τ sig Unit (Elt F) ℕ UU ℕ))
      ⊢ wp frame (wpE (defs₀ (F := F)) 𝒱₀ (c : Thread nD τ) none) Set.univ
      (k0_part42 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv14 I c) (Vals.lw1105 c) (Vals.lwc0_i32_1237 c))
      (fun tup => iprop(⌜tup = ⟨Vals.lv1131 I c, Vals.lv1133 I c⟩⌝
        ∗ records (RdI I) K
        ∗ (∃ W, owes (c : Thread nD τ) (owedFrom c 30) W)
        ∗ cred (tallyAt (sendCell c 7) () N)
        ∗ accTile c 0 0 (Vals.A I 0 c 0 0 2)
        ∗ rsTile c 0 0 2 (Vals.R I 0 c 0 0 2)
        ∗ accTile c 0 1 (Vals.A I 0 c 0 1 2)
        ∗ rsTile c 0 1 2 (Vals.R I 0 c 0 1 2)
        ∗ accTile c 0 2 (Vals.A I 0 c 0 2 2)
        ∗ rsTile c 0 2 2 (Vals.R I 0 c 0 2 2)
        ∗ P)) := by
  unfold accTile rsTile rsTileAny Proto.accPts Proto.rsPts
  iintro ⟨#Hrec, ⟨%W, HO⟩, Hts0, Htr0, ⟨%fd0, Hfd0⟩, Ha22, Ha00, Hr002, Ha01, Hr012, Ha02, Hr022, HP⟩
  ihave #HIs0 := (inv_at (RdI I) K (c, Cell.send 7)) $$ Hrec
  ihave #HIr0 := (inv_at (RdI I) K (mate c 2 7, Cell.recv 7)) $$ Hrec
  ihave #Hrs0 := (reached_at (RdI I) K (c, Cell.send 7)) $$ Hrec
  ihave #Hrr0 := (reached_at (RdI I) K (mate c 2 7, Cell.recv 7)) $$ Hrec
  rw [k0_part42_eq_skeleton]
  unfold k0_part42_skel
  sl_exec
  -- the copy of part 2 at step 7 (started as number 9): its units on the partner's receive cell are owed last
  have hc0 : dueCell c 29 = recvCell (mate c 2 7) 7 := dueCell_fire c 8 2
  have ha0 : dueAmt 29 = N := dueAmt_fire 8 2
  have hO0 : owedFrom c 29 = owedFrom c 30 + tallyAt (recvCell (mate c 2 7) 7) () N :=
    (owedFrom_succ c 29 (by decide)).trans (by rw [hc0, ha0])
  iapply (wp_fire_at (accCI I) (rs0I I) c 7 2 (g := 2) (rg := 2) (s := 1) rfl rfl rfl (dev30_eq c) rfl rfl
    (sendS_eq 7) (recvS_eq 7) (accEmb 2 2 (Vals.A I 0 c 2 2 1)) rfl fd0 (owedFrom c 30) hO0) $$ [HO Hts0 Htr0 Hfd0 Ha22]
  · unfold Proto.accPts Proto.rsPts
    isplitr; · iexact HIs0
    isplitr; · iexact HIr0
    isplitl [Ha22]; · iexact Ha22
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the returned values' loads read
  have q0 : local_42.sl.v1115 I c = Vals.A I 0 c 0 0 2 := by unfold local_42.sl.v1115; exact accV_read_accEmb 0 0 _
  have q1 : local_42.sl.v1117 I c = Vals.R I 0 c 0 0 2 := by unfold local_42.sl.v1117; exact rsV_read_rsEmb 0 0 2 _
  have q2 : local_42.sl.v1120 I c = Vals.A I 0 c 0 1 2 := by unfold local_42.sl.v1120; exact accV_read_accEmb 0 1 _
  have q3 : local_42.sl.v1122 I c = Vals.R I 0 c 0 1 2 := by unfold local_42.sl.v1122; exact rsV_read_rsEmb 0 1 2 _
  have q4 : local_42.sl.v1125 I c = Vals.A I 0 c 0 2 2 := by unfold local_42.sl.v1125; exact accV_read_accEmb 0 2 _
  have q5 : local_42.sl.v1127 I c = Vals.R I 0 c 0 2 2 := by unfold local_42.sl.v1127; exact rsV_read_rsEmb 0 2 2 _
  isplitr [HO Hcs0 Ha00 Hr002 Ha01 Hr012 Ha02 Hr022 HP]
  · ipureintro; rw [q0, q1, q2, q3, q4, q5]; all_goals rfl
  isplitr [HO Hcs0 Ha00 Hr002 Ha01 Hr012 Ha02 Hr022 HP]; · iexact Hrec
  isplitl [HO]; · iexists W; iexact HO
  iframe

/-- info: 'Cert.KernelIdeal.Body.local_42' depends on axioms: [propext, Classical.choice, Quot.sound] -/
#guard_msgs in #print axioms local_42

end Cert.KernelIdeal.Body
-- ==== Proof.Parts.Part42.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L42
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 42 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 42 of the body, run from the place before it, ends at the place after it and returns its values; whatever else is held is kept. -/
theorem part_42 (m : (ℓ : Loc nD τ sig) → Buf (Elt F) ℓ) (K : Dev nD × Cell → ℕ) (c : Dev nD) (Fr : sProp 𝕄) :
    iprop(St (insM m) K (σ 41) c ∗ outHeld (insM m) c (σ 41).outs ∗ Fr)
      ⊢ wp frame (wpE (defs₀ (F := F)) 𝒱₀ (c : Thread nD τ) none) Set.univ
          (k0_part42 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv14 (insM m) c) (Vals.lw1105 c) (Vals.lwc0_i32_1237 c))
          (fun tup => iprop(⌜tup = ⟨Vals.lv1131 (insM m) c, Vals.lv1133 (insM m) c⟩⌝ ∗ St (insM m) K (σ 42) c ∗ outHeld (insM m) c (σ 42).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 29 : sProp (MT nD τ sig Unit (Elt F) ℕ UU ℕ))
      = iprop(dutyTok ER (sendCell c 7) 0 2 ∗ dutyTok ER (recvCell (mate c 2 7) 7) 0 2 ∗ toksFrom c 30) := toksFrom_copy c 8 2
  have hf0 : (foreignFrom c 26 : sProp (MT nD τ sig Unit (Elt F) ℕ UU ℕ))
      = iprop(rsTileAny (mate c 2 7) (rgOf 7) 2 (sOf 7) ∗ foreignFrom c 27) := foreignFrom_succ c 8 2
  have hb6 : (rsBack (insM m) c 7 : sProp (MT nD τ sig Unit (Elt F) ℕ UU ℕ))
      = iprop((rsTile c 2 0 0 (Vals.R (insM m) 0 c 2 0 0) ∗ rsTile c 2 1 0 (Vals.R (insM m) 0 c 2 1 0) ∗ rsTile c 2 2 0 (Vals.R (insM m) 0 c 2 2 0)) ∗ rsBack (insM m) c 6) := rsBack_succ (insM m) c 6
  have hb5 : (rsBack (insM m) c 6 : sProp (MT nD τ sig Unit (Elt F) ℕ UU ℕ))
      = iprop((rsTile c 1 0 2 (Vals.R (insM m) 0 c 1 0 2) ∗ rsTile c 1 1 2 (Vals.R (insM m) 0 c 1 1 2) ∗ rsTile c 1 2 2 (Vals.R (insM m) 0 c 1 2 2)) ∗ rsBack (insM m) c 5) := rsBack_succ (insM m) c 5
  have hb4 : (rsBack (insM m) c 5 : sProp (MT nD τ sig Unit (Elt F) ℕ UU ℕ))
      = iprop((rsTile c 0 0 2 (Vals.R (insM m) 0 c 0 0 2) ∗ rsTile c 0 1 2 (Vals.R (insM m) 0 c 0 1 2) ∗ rsTile c 0 2 2 (Vals.R (insM m) 0 c 0 2 2)) ∗ rsBack (insM m) c 4) := rsBack_succ (insM m) c 4
  rw [St_open_41, St_open_42, ht0, hf0, hb6, hb5, hb4, show (σ 41).outs = (σ 42).outs from rfl]
  simp only [hemp, hemp']
  refine BIBase.Entails.trans (Entails.of_eq ?_) (BIBase.Entails.trans
    (local_42 (insM m) K c
      (iprop(levAts Proto.L Proto.lv
        ∗ toksFrom c 30
        ∗ credFrom c 24
        ∗ cred (tallyAt (sendCell c 9) () N)
        ∗ cred (tallyAt (sendCell c 9) () N)
        ∗ cred (tallyAt (sendCell c 9) () N)
        ∗ cred (tallyAt (sendCell c 7) () N)
        ∗ cred (tallyAt (sendCell c 7) () N)
        ∗ doneTo c 15
        ∗ todoFrom c 15
        ∗ foreignFrom c 27
        ∗ rsTile c 2 0 0 (Vals.R (insM m) 0 c 2 0 0)
        ∗ rsTile c 2 1 0 (Vals.R (insM m) 0 c 2 1 0)
        ∗ rsTile c 2 2 0 (Vals.R (insM m) 0 c 2 2 0)
        ∗ rsTile c 1 0 2 (Vals.R (insM m) 0 c 1 0 2)
        ∗ rsTile c 1 1 2 (Vals.R (insM m) 0 c 1 1 2)
        ∗ rsTile c 1 2 2 (Vals.R (insM m) 0 c 1 2 2)
        ∗ rsBack (insM m) c 4
        ∗ accTile c 1 0 (Vals.A (insM m) 0 c 1 0 2)
        ∗ accTile c 1 1 (Vals.A (insM m) 0 c 1 1 2)
        ∗ accTile c 1 2 (Vals.A (insM m) 0 c 1 2 2)
        ∗ outHeld (insM m) c (σ 42).outs
        ∗ Fr)))
    (wp_mono _ _ _ fun tup => Entails.of_eq ?_))
  · ac_rfl
  · ac_rfl

/-- info: 'Cert.KernelIdeal.Body.part_42' depends on axioms: [propext, Classical.choice, Quot.sound] -/
#guard_msgs in #print axioms part_42

end Cert.KernelIdeal.Body

end
-- ==== Proof.Parts.L43.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 43 of the body: no memory operation. It returns group 0's residual stream after attention and the two values its feed-forward partial product is cut from. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

local notation "𝕄" => MT nD τ sig Unit (Elt F) ℕ UU ℕ

theorem local_43 (I : Dev nD → Vals.Ins F) (c : Dev nD) (P : sProp (MT nD τ sig Unit (Elt F) ℕ UU ℕ)) :
    P ⊢ wp frame (wpE (defs₀ (F := F)) 𝒱₀ (c : Thread nD τ) none) Set.univ
      (k0_part43 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lv22 I c) (Vals.lv23 I c) (Vals.lv24 I c) (Vals.lv40 I c) (Vals.lv43 I c) (Vals.lv1131 I c) (Vals.lv1133 I c))
      (fun tup => iprop(⌜tup = ⟨Vals.lv1139 I c, Vals.lv1182 I c, Vals.lv1183 I c⟩⌝ ∗ P)) := by
  iintro HP
  rw [k0_part43_eq_skeleton]
  unfold k0_part43_skel
  sl_exec
  sl_step
  isplitr [HP]
  · ipureintro; rfl
  · iexact HP

/-- info: 'Cert.KernelIdeal.Body.local_43' depends on axioms: [propext, Classical.choice, Quot.sound] -/
#guard_msgs in #print axioms local_43

end Cert.KernelIdeal.Body
-- ==== Proof.Parts.Part43.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L43
import proofs.«900775_g7700000000000776_dist_diff_dit_htp_i_b2_s512_d768_hq4_v7x_i8_f32_1_alg».proof.Proof.Gen.KernelIdeal.Skeleton
import Idealize.ShloMosaic.Lib.Tactic

/-! Part 43 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 43 of the body, run from the place before it, ends at the place after it and returns its values; whatever else is held is kept. -/
theorem part_43 (m : (ℓ : Loc nD τ sig) → Buf (Elt F) ℓ) (K : Dev nD × Cell → ℕ) (c : Dev nD) (Fr : sProp 𝕄) :
    iprop(St (insM m) K (σ 42) c ∗ outHeld (insM m) c (σ 42).outs ∗ Fr)
      ⊢ wp frame (wpE (defs₀ (F := F)) 𝒱₀ (c : Thread nD τ) none) Set.univ
          (k0_part43 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv22 (insM m) c) (Vals.lv23 (insM m) c) (Vals.lv24 (insM m) c) (Vals.lv40 (insM m) c) (Vals.lv43 (insM m) c) (Vals.lv1131 (insM m) c) (Vals.lv1133 (insM m) c))
          (fun tup => iprop(⌜tup = ⟨Vals.lv1139 (insM m) c, Vals.lv1182 (insM m) c, Vals.lv1183 (insM m) c⟩⌝ ∗ St (insM m) K (σ 43) c ∗ outHeld (insM m) c (σ 43).outs ∗ Fr)) := by
  have e : σ 43 = σ 42 := rfl
  rw [e]
  exact local_43 (insM m) c _

/-- info: 'Cert.KernelIdeal.Body.part_43' depends on axioms: [propext, Classical.choice, Quot.sound] -/
#guard_msgs in #print axioms part_43

end Cert.KernelIdeal.Body

end
-- ==== Proof.Parts.L44.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 44 of the body: the stores into accumulator tiles (0, 0), (0, 1), (0, 2), then the start of the copy of part 0 at step 12 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_44 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 30) W)
        ∗ dutyTok ER (sendCell c 12) 0 0 ∗ dutyTok ER (recvCell (mate c 0 12) 12) 0 0
        ∗ rsTileAny (mate c 0 12) (rgOf 12) 0 (sOf 12)
        ∗ accTile c 0 0 (Vals.A I 0 c 0 0 2)
        ∗ accTile c 0 1 (Vals.A I 0 c 0 1 2)
        ∗ accTile c 0 2 (Vals.A I 0 c 0 2 2)
        ∗ P) : sProp (MT nD τ sig Unit (Elt F) ℕ UU ℕ))
      ⊢ wp frame (wpE (defs₀ (F := F)) 𝒱₀ (c : Thread nD τ) none) Set.univ
      (k0_part44 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1139 I c) (Vals.lv1182 I c) (Vals.lv1183 I c))
      (fun tup => iprop(⌜tup = ⟨Vals.lw1196 c, Vals.lw1207 c⟩⌝
        ∗ records (RdI I) K
        ∗ (∃ W, owes (c : Thread nD τ) (owedFrom c 31) W)
        ∗ cred (tallyAt (sendCell c 12) () N)
        ∗ accTile c 0 1 (Vals.A I 1 c 0 1 0)
        ∗ accTile c 0 2 (Vals.A I 1 c 0 2 0)
        ∗ P)) := by
  unfold accTile rsTileAny Proto.accPts Proto.rsPts
  iintro ⟨#Hrec, ⟨%W, HO⟩, Hts0, Htr0, ⟨%fd0, Hfd0⟩, Ha00, Ha01, Ha02, HP⟩
  ihave #HIs0 := (inv_at (RdI I) K (c, Cell.send 12)) $$ Hrec
  ihave #HIr0 := (inv_at (RdI I) K (mate c 0 12, Cell.recv 12)) $$ Hrec
  ihave #Hrs0 := (reached_at (RdI I) K (c, Cell.send 12)) $$ Hrec
  ihave #Hrr0 := (reached_at (RdI I) K (mate c 0 12, Cell.recv 12)) $$ Hrec
  rw [k0_part44_eq_skeleton]
  unfold k0_part44_skel
  sl_exec
  -- the source tile as the level names it
  have Ha00_e : View.read (Elt F) (accV 0 0) (local_44.sl.Ha00_w1 I c) = Vals.A I 1 c 0 0 0 := by
    unfold local_44.sl.Ha00_w1; exact View.read_write_univ _ _
  have Ha00_t : ((Proto.accSl 0 0).view.loc (c : Thread nD τ) ↦[(Proto.accSl 0 0).view.set]{fullShare} local_44.sl.Ha00_w1 I c : sProp (MT nD τ sig Unit (Elt F) ℕ UU ℕ)) = ((Proto.accSl 0 0).view.loc (c : Thread nD τ) ↦[(Proto.accSl 0 0).view.set]{fullShare} accEmb 0 0 (Vals.A I 1 c 0 0 0) : sProp (MT nD τ sig Unit (Elt F) ℕ UU ℕ)) := accTile_of_read c fullShare 0 0 Ha00_e
  ihave Ha00 := (Entails.of_eq Ha00_t) $$ Ha00
  -- the copy of part 0 at step 12 (started as number 10): its units on the partner's receive cell are owed last
  have hc0 : dueCell c 30 = recvCell (mate c 0 12) 12 := dueCell_fire c 9 0
  have ha0 : dueAmt 30 = N := dueAmt_fire 9 0
  have hO0 : owedFrom c 30 = owedFrom c 31 + tallyAt (recvCell (mate c 0 12) 12) () N :=
    (owedFrom_succ c 30 (by decide)).trans (by rw [hc0, ha0])
  iapply (wp_fire_at (accCI I) (rs0I I) c 12 0 (g := 0) (rg := 4) (s := 0) rfl rfl rfl (dev31_eq c) rfl rfl
    (sendS_eq 12) (recvS_eq 12) (accEmb 0 0 (Vals.A I 1 c 0 0 0)) rfl fd0 (owedFrom c 31) hO0) $$ [HO Hts0 Htr0 Hfd0 Ha00]
  · unfold Proto.accPts Proto.rsPts
    isplitr; · iexact HIs0
    isplitr; · iexact HIr0
    isplitl [Ha00]; · iexact Ha00
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha01_e : View.read (Elt F) (accV 0 1) (local_44.sl.Ha01_w2 I c) = Vals.A I 1 c 0 1 0 := by
    unfold local_44.sl.Ha01_w2; exact View.read_write_univ _ _
  have Ha01_t : ((Proto.accSl 0 1).view.loc (c : Thread nD τ) ↦[(Proto.accSl 0 1).view.set]{fullShare} local_44.sl.Ha01_w2 I c : sProp (MT nD τ sig Unit (Elt F) ℕ UU ℕ)) = ((Proto.accSl 0 1).view.loc (c : Thread nD τ) ↦[(Proto.accSl 0 1).view.set]{fullShare} accEmb 0 1 (Vals.A I 1 c 0 1 0) : sProp (MT nD τ sig Unit (Elt F) ℕ UU ℕ)) := accTile_of_read c fullShare 0 1 Ha01_e
  have Ha02_e : View.read (Elt F) (accV 0 2) (local_44.sl.Ha02_w3 I c) = Vals.A I 1 c 0 2 0 := by
    unfold local_44.sl.Ha02_w3; exact View.read_write_univ _ _
  have Ha02_t : ((Proto.accSl 0 2).view.loc (c : Thread nD τ) ↦[(Proto.accSl 0 2).view.set]{fullShare} local_44.sl.Ha02_w3 I c : sProp (MT nD τ sig Unit (Elt F) ℕ UU ℕ)) = ((Proto.accSl 0 2).view.loc (c : Thread nD τ) ↦[(Proto.accSl 0 2).view.set]{fullShare} accEmb 0 2 (Vals.A I 1 c 0 2 0) : sProp (MT nD τ sig Unit (Elt F) ℕ UU ℕ)) := accTile_of_read c fullShare 0 2 Ha02_e
  rw [← Ha01_t, ← Ha02_t]
  isplitr [HO Hcs0 Ha01 Ha02 HP]
  · ipureintro; rfl
  isplitr [HO Hcs0 Ha01 Ha02 HP]; · iexact Hrec
  isplitl [HO]; · iexists W; iexact HO
  iframe

/-- info: 'Cert.KernelIdeal.Body.local_44' depends on axioms: [propext, Classical.choice, Quot.sound] -/
#guard_msgs in #print axioms local_44

end Cert.KernelIdeal.Body
-- ==== Proof.Parts.Part44.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L44
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 44 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 44 of the body, run from the place before it, ends at the place after it and returns its values; whatever else is held is kept. -/
theorem part_44 (m : (ℓ : Loc nD τ sig) → Buf (Elt F) ℓ) (K : Dev nD × Cell → ℕ) (c : Dev nD) (Fr : sProp 𝕄) :
    iprop(St (insM m) K (σ 43) c ∗ outHeld (insM m) c (σ 43).outs ∗ Fr)
      ⊢ wp frame (wpE (defs₀ (F := F)) 𝒱₀ (c : Thread nD τ) none) Set.univ
          (k0_part44 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1139 (insM m) c) (Vals.lv1182 (insM m) c) (Vals.lv1183 (insM m) c))
          (fun tup => iprop(⌜tup = ⟨Vals.lw1196 c, Vals.lw1207 c⟩⌝ ∗ St (insM m) K (σ 44) c ∗ outHeld (insM m) c (σ 44).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 30 : sProp (MT nD τ sig Unit (Elt F) ℕ UU ℕ))
      = iprop(dutyTok ER (sendCell c 12) 0 0 ∗ dutyTok ER (recvCell (mate c 0 12) 12) 0 0 ∗ toksFrom c 31) := toksFrom_copy c 9 0
  have hf0 : (foreignFrom c 27 : sProp (MT nD τ sig Unit (Elt F) ℕ UU ℕ))
      = iprop(rsTileAny (mate c 0 12) (rgOf 12) 0 (sOf 12) ∗ foreignFrom c 28) := foreignFrom_succ c 9 0
  rw [St_open_43, St_open_44, ht0, hf0, show (σ 43).outs = (σ 44).outs from rfl]
  simp only [hemp, hemp']
  refine BIBase.Entails.trans (Entails.of_eq ?_) (BIBase.Entails.trans
    (local_44 (insM m) K c
      (iprop(levAts Proto.L Proto.lv
        ∗ toksFrom c 31
        ∗ credFrom c 24
        ∗ cred (tallyAt (sendCell c 9) () N)
        ∗ cred (tallyAt (sendCell c 9) () N)
        ∗ cred (tallyAt (sendCell c 9) () N)
        ∗ cred (tallyAt (sendCell c 7) () N)
        ∗ cred (tallyAt (sendCell c 7) () N)
        ∗ cred (tallyAt (sendCell c 7) () N)
        ∗ doneTo c 15
        ∗ todoFrom c 15
        ∗ foreignFrom c 28
        ∗ rsBack (insM m) c 7
        ∗ accTile c 1 0 (Vals.A (insM m) 0 c 1 0 2)
        ∗ accTile c 1 1 (Vals.A (insM m) 0 c 1 1 2)
        ∗ accTile c 1 2 (Vals.A (insM m) 0 c 1 2 2)
        ∗ outHeld (insM m) c (σ 44).outs
        ∗ Fr)))
    (wp_mono _ _ _ fun tup => Entails.of_eq ?_))
  · ac_rfl
  · ac_rfl

/-- info: 'Cert.KernelIdeal.Body.part_44' depends on axioms: [propext, Classical.choice, Quot.sound] -/
#guard_msgs in #print axioms part_44

end Cert.KernelIdeal.Body

end
-- ==== Proof.Parts.L45.lean ====
/-
  Part 45 of the body starts two copies of step 12 (the 10th step started; round 1, group 0, position 0): part 1 of accumulator slice (0, 1) goes to receive slice (4, 1, 0) of the device paired along mask 3, part 2 of accumulator slice (0, 2) goes to receive slice (4, 2, 0) of the device paired along mask 4.
  The accumulator slices, at level 0 of round 1, and the paired devices' receive slices leave the device's hands; it holds the departure credits of its send cell 12 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 45: the copies of parts 1 and 2 of step 12. -/
theorem local_45 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 31) W)
        ∗ dutyTok ER (sendCell c 12) 0 1 ∗ dutyTok ER (recvCell (mate c 1 12) 12) 0 1
        ∗ dutyTok ER (sendCell c 12) 0 2 ∗ dutyTok ER (recvCell (mate c 2 12) 12) 0 2
        ∗ rsTileAny (F := F) (mate c 1 12) 4 1 0
        ∗ rsTileAny (F := F) (mate c 2 12) 4 2 0
        ∗ accTile c 0 1 (A I 1 c 0 1 0)
        ∗ accTile c 0 2 (A I 1 c 0 2 0)
        ∗ P)
      ⊢ wp frame (wpE (defs₀ (F := F)) 𝒱₀ (c : Thread nD τ) none) Set.univ
          (k0_part45 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1207 c))
          (fun tup => iprop(⌜tup = Vals.lw1218 c⌝
            ∗ (∃ W, owes (c : Thread nD τ) (owedFrom c 33) W)
            ∗ cred (tallyAt (sendCell c 12) () N)
            ∗ cred (tallyAt (sendCell c 12) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 12)) $$ HR
  ihave #HRs := (reached_at (RdI I) K (c, Cell.send 12)) $$ HR
  ihave #HIr0 := (inv_at (RdI I) K (mate c 1 12, Cell.recv 12)) $$ HR
  ihave #HRr0 := (reached_at (RdI I) K (mate c 1 12, Cell.recv 12)) $$ HR
  ihave #HIr1 := (inv_at (RdI I) K (mate c 2 12, Cell.recv 12)) $$ HR
  ihave #HRr1 := (reached_at (RdI I) K (mate c 2 12, Cell.recv 12)) $$ HR
  sl_exec
  iapply (wp_fire_at (accCI I) (rs0I I) c 12 1 (g := 0) (rg := 4) (s := 0) (by decide) (by decide) (by decide)
      (dv := ⟨k0_dev32 c, k0_dev32_lt c⟩) ((dev32_eq c).trans rfl) rfl rfl (sendS_eq 12).symm (recvS_eq 12).symm
      (accEmb 0 1 (A I 1 c 0 1 0)) rfl fd0 (owedFrom c 32) (owed_copy c 9 1 31 (by decide) 12 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 12 2 (g := 0) (rg := 4) (s := 0) (by decide) (by decide) (by decide)
      (dv := ⟨k0_dev33 c, k0_dev33_lt c⟩) ((dev33_eq c).trans rfl) rfl rfl (sendS_eq 12).symm (recvS_eq 12).symm
      (accEmb 0 2 (A I 1 c 0 2 0)) rfl fd1 (owedFrom c 33) (owed_copy c 9 2 32 (by decide) 12 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_45' depends on axioms: [propext, Classical.choice, Quot.sound] -/
#guard_msgs in #print axioms Cert.KernelIdeal.Body.local_45

end
-- ==== Proof.Parts.L48.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 48 of the body: the first exchange step's add on the three accumulator tiles of group 3 (each tile plus the slice received for it; the first tile's two operands arrive as parameters), and the word it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

local notation "𝕄" => MT nD τ sig Unit (Elt F) ℕ UU ℕ

theorem local_48 (I : Dev nD → Vals.Ins F) (c : Dev nD) (P : sProp (MT nD τ sig Unit (Elt F) ℕ UU ℕ)) :
    (iprop(Proto.accPts c 3 0 (accEmb 3 0 (Vals.A I 0 c 3 0 0)) ∗ Proto.accPts c 3 1 (accEmb 3 1 (Vals.A I 0 c 3 1 0)) ∗ Proto.accPts c 3 2 (accEmb 3 2 (Vals.A I 0 c 3 2 0))
        ∗ Proto.rsPts c 3 1 0 (rsEmb 3 1 0 (Vals.R I 0 c 3 1 0)) ∗ Proto.rsPts c 3 2 0 (rsEmb 3 2 0 (Vals.R I 0 c 3 2 0)) ∗ P) : sProp (MT nD τ sig Unit (Elt F) ℕ UU ℕ))
      ⊢ wp frame (wpE (defs₀ (F := F)) 𝒱₀ (c : Thread nD τ) none) Set.univ
      (k0_part48 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1272 I c) (Vals.lv1273 I c))
      (fun tup => iprop(⌜tup = Vals.lw1295 c⌝
        ∗ Proto.accPts c 3 0 (accEmb 3 0 (Vals.A I 0 c 3 0 1)) ∗ Proto.accPts c 3 1 (accEmb 3 1 (Vals.A I 0 c 3 1 1)) ∗ Proto.accPts c 3 2 (accEmb 3 2 (Vals.A I 0 c 3 2 1))
        ∗ Proto.rsPts c 3 1 0 (rsEmb 3 1 0 (Vals.R I 0 c 3 1 0)) ∗ Proto.rsPts c 3 2 0 (rsEmb 3 2 0 (Vals.R I 0 c 3 2 0)) ∗ P)) := by
  unfold Proto.accPts Proto.rsPts
  iintro ⟨Ha0, Ha1, Ha2, Hr1, Hr2, HP⟩
  rw [k0_part48_eq_skeleton]
  unfold k0_part48_skel
  sl_exec
  sl_step
  -- what each receive tile's load read, and what each accumulator tile's view reads back after its store
  have r1 : local_48.sl.v1281 I c = Vals.R I 0 c 3 1 0 := by unfold local_48.sl.v1281; exact rsV_read_rsEmb 3 1 0 _
  have r2 : local_48.sl.v1289 I c = Vals.R I 0 c 3 2 0 := by unfold local_48.sl.v1289; exact rsV_read_rsEmb 3 2 0 _
  have a1 : local_48.sl.v1279 I c = Vals.A I 0 c 3 1 0 := by unfold local_48.sl.v1279; exact accV_read_accEmb 3 1 _
  have a2 : local_48.sl.v1287 I c = Vals.A I 0 c 3 2 0 := by unfold local_48.sl.v1287; exact accV_read_accEmb 3 2 _
  have e0 : View.read (Elt F) (accV 3 0) (local_48.sl.Ha0_w1 I c) = Vals.A I 0 c 3 0 1 := by
    unfold local_48.sl.Ha0_w1; exact View.read_write_univ _ _
  have e1 : View.read (Elt F) (accV 3 1) (local_48.sl.Ha1_w2 I c) = Vals.A I 0 c 3 1 1 := by
    unfold local_48.sl.Ha1_w2; rw [r1, a1]; exact View.read_write_univ _ _
  have e2 : View.read (Elt F) (accV 3 2) (local_48.sl.Ha2_w3 I c) = Vals.A I 0 c 3 2 1 := by
    unfold local_48.sl.Ha2_w3; rw [r2, a2]; exact View.read_write_univ _ _
  have t0 : ((Proto.accSl 3 0).view.loc (c : Thread nD τ) ↦[(Proto.accSl 3 0).view.set]{fullShare} local_48.sl.Ha0_w1 I c : sProp (MT nD τ sig Unit (Elt F) ℕ UU ℕ)) = ((Proto.accSl 3 0).view.loc (c : Thread nD τ) ↦[(Proto.accSl 3 0).view.set]{fullShare} accEmb 3 0 (Vals.A I 0 c 3 0 1) : sProp (MT nD τ sig Unit (Elt F) ℕ UU ℕ)) := accTile_of_read c fullShare 3 0 e0
  have t1 : ((Proto.accSl 3 1).view.loc (c : Thread nD τ) ↦[(Proto.accSl 3 1).view.set]{fullShare} local_48.sl.Ha1_w2 I c : sProp (MT nD τ sig Unit (Elt F) ℕ UU ℕ)) = ((Proto.accSl 3 1).view.loc (c : Thread nD τ) ↦[(Proto.accSl 3 1).view.set]{fullShare} accEmb 3 1 (Vals.A I 0 c 3 1 1) : sProp (MT nD τ sig Unit (Elt F) ℕ UU ℕ)) := accTile_of_read c fullShare 3 1 e1
  have t2 : ((Proto.accSl 3 2).view.loc (c : Thread nD τ) ↦[(Proto.accSl 3 2).view.set]{fullShare} local_48.sl.Ha2_w3 I c : sProp (MT nD τ sig Unit (Elt F) ℕ UU ℕ)) = ((Proto.accSl 3 2).view.loc (c : Thread nD τ) ↦[(Proto.accSl 3 2).view.set]{fullShare} accEmb 3 2 (Vals.A I 0 c 3 2 1) : sProp (MT nD τ sig Unit (Elt F) ℕ UU ℕ)) := accTile_of_read c fullShare 3 2 e2
  rw [← t0, ← t1, ← t2]
  isplitr [Ha0 Ha1 Ha2 Hr1 Hr2 HP]
  · ipureintro; rfl
  · iframe

/-- info: 'Cert.KernelIdeal.Body.local_48' depends on axioms: [propext, Classical.choice, Quot.sound] -/
#guard_msgs in #print axioms local_48

end Cert.KernelIdeal.Body
-- ==== Proof.Parts.Part48.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L48
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 48 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 48 of the body, run from the place before it, ends at the place after it and returns its values; whatever else is held is kept. -/
theorem part_48 (m : (ℓ : Loc nD τ sig) → Buf (Elt F) ℓ) (K : Dev nD × Cell → ℕ) (c : Dev nD) (Fr : sProp 𝕄) :
    iprop(St (insM m) K (σ 47) c ∗ outHeld (insM m) c (σ 47).outs ∗ Fr)
      ⊢ wp frame (wpE (defs₀ (F := F)) 𝒱₀ (c : Thread nD τ) none) Set.univ
          (k0_part48 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1272 (insM m) c) (Vals.lv1273 (insM m) c))
          (fun tup => iprop(⌜tup = Vals.lw1295 c⌝ ∗ St (insM m) K (σ 48) c ∗ outHeld (insM m) c (σ 48).outs ∗ Fr)) := by
  have eo : (σ 48).outs = (σ 47).outs := rfl
  rw [eo]
  rw [St_eq, St_eq, StRest_congr (insM m) K c (s := σ 47) (s' := σ 48) rfl rfl rfl rfl, accAll_σ_47, accAll_σ_48, StRest_rs (insM m) K c (σ 48) rfl 9 (by decide), rs3_9]
  refine BIBase.Entails.trans ?_ ((local_48 (insM m) c iprop(rsTile c 3 0 0 (Vals.R (insM m) 0 c 3 0 0) ∗ StRestNoRs (insM m) K (σ 48) c 9 ∗ emp ∗ emp ∗ emp ∗ accTile c 1 0 (Vals.A (insM m) 0 c 1 0 2) ∗ accTile c 1 1 (Vals.A (insM m) 0 c 1 1 2) ∗ accTile c 1 2 (Vals.A (insM m) 0 c 1 2 2) ∗ emp ∗ emp ∗ emp ∗ outHeld (insM m) c (σ 47).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T30]; · iexact T30
    isplitl [T31]; · iexact T31
    isplitl [T32]; · iexact T32
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, T32, R1, R2, R0, HR, T00, T01, T02, T10, T11, T12, T20, T21, T22, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_48' depends on axioms: [propext, Classical.choice, Quot.sound] -/
#guard_msgs in #print axioms part_48

end Cert.KernelIdeal.Body

end
-- ==== Proof.Parts.L49.lean ====
/-
  Part 49 of the body starts two copies of step 10 (the 11th step started; round 0, group 3, position 1): part 0 of accumulator slice (3, 0) goes to receive slice (3, 0, 1) of the device paired along mask 3, part 1 of accumulator slice (3, 1) goes to receive slice (3, 1, 1) of the device paired along mask 4.
  The accumulator slices, at level 1 of round 0, and the paired devices' receive slices leave the device's hands; it holds the departure credits of its send cell 10 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 49: the copies of parts 0 and 1 of step 10. -/
theorem local_49 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 33) W)
        ∗ dutyTok ER (sendCell c 10) 0 0 ∗ dutyTok ER (recvCell (mate c 0 10) 10) 0 0
        ∗ dutyTok ER (sendCell c 10) 0 1 ∗ dutyTok ER (recvCell (mate c 1 10) 10) 0 1
        ∗ rsTileAny (F := F) (mate c 0 10) 3 0 1
        ∗ rsTileAny (F := F) (mate c 1 10) 3 1 1
        ∗ accTile c 3 0 (A I 0 c 3 0 1)
        ∗ accTile c 3 1 (A I 0 c 3 1 1)
        ∗ P)
      ⊢ wp frame (wpE (defs₀ (F := F)) 𝒱₀ (c : Thread nD τ) none) Set.univ
          (k0_part49 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1295 c))
          (fun tup => iprop(⌜tup = ⟨Vals.lw1306 c, Vals.lw1317 c⟩⌝
            ∗ (∃ W, owes (c : Thread nD τ) (owedFrom c 35) W)
            ∗ cred (tallyAt (sendCell c 10) () N)
            ∗ cred (tallyAt (sendCell c 10) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 10)) $$ HR
  ihave #HRs := (reached_at (RdI I) K (c, Cell.send 10)) $$ HR
  ihave #HIr0 := (inv_at (RdI I) K (mate c 0 10, Cell.recv 10)) $$ HR
  ihave #HRr0 := (reached_at (RdI I) K (mate c 0 10, Cell.recv 10)) $$ HR
  ihave #HIr1 := (inv_at (RdI I) K (mate c 1 10, Cell.recv 10)) $$ HR
  ihave #HRr1 := (reached_at (RdI I) K (mate c 1 10, Cell.recv 10)) $$ HR
  sl_exec
  iapply (wp_fire_at (accCI I) (rs0I I) c 10 0 (g := 3) (rg := 3) (s := 1) (by decide) (by decide) (by decide)
      (dv := ⟨k0_dev34 c, k0_dev34_lt c⟩) ((dev34_eq c).trans rfl) rfl rfl (sendS_eq 10).symm (recvS_eq 10).symm
      (accEmb 3 0 (A I 0 c 3 0 1)) rfl fd0 (owedFrom c 34) (owed_copy c 10 0 33 (by decide) 10 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 10 1 (g := 3) (rg := 3) (s := 1) (by decide) (by decide) (by decide)
      (dv := ⟨k0_dev35 c, k0_dev35_lt c⟩) ((dev35_eq c).trans rfl) rfl rfl (sendS_eq 10).symm (recvS_eq 10).symm
      (accEmb 3 1 (A I 0 c 3 1 1)) rfl fd1 (owedFrom c 35) (owed_copy c 10 1 34 (by decide) 10 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_49' depends on axioms: [propext, Classical.choice, Quot.sound] -/
#guard_msgs in #print axioms Cert.KernelIdeal.Body.local_49

end
-- ==== Proof.Parts.Part50.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L50
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 50 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 50 of the body, run from the place before it, ends at the place after it; whatever else is held is kept. -/
theorem part_50 (m : (ℓ : Loc nD τ sig) → Buf (Elt F) ℓ) (K : Dev nD × Cell → ℕ) (c : Dev nD) (Fr : sProp 𝕄) :
    iprop(St (insM m) K (σ 49) c ∗ outHeld (insM m) c (σ 49).outs ∗ Fr)
      ⊢ wp frame (wpE (defs₀ (F := F)) 𝒱₀ (c : Thread nD τ) none) Set.univ
          (k0_part50 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1082 c))
          (fun _ => iprop(St (insM m) K (σ 50) c ∗ outHeld (insM m) c (σ 50).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 35 : sProp (MT nD τ sig Unit (Elt F) ℕ UU ℕ)) = iprop(dutyTok ER (sendCell c 10) 0 2 ∗ dutyTok ER (recvCell (mate c 2 10) 10) 0 2 ∗ toksFrom c 36) := toksFrom_copy c 10 2
  have hF0 : (foreignFrom c 32 : sProp (MT nD τ sig Unit (Elt F) ℕ UU ℕ)) = iprop(rsTileAny (mate c 2 10) 3 2 1 ∗ foreignFrom c 33) := foreignFrom_succ c 10 2
  have hC : (credFrom c 27 : sProp (MT nD τ sig Unit (Elt F) ℕ UU ℕ)) = iprop(credFrom c 28 ∗ cred (tallyAt (recvCell c 7) () N)) := by
    rw [credFrom_succ c 27 (by omega), show ownCell c 27 = recvCell c 7 from ownCell_fire c 8 0, show dueAmt 27 = N from dueAmt_fire 8 0]
  have hG : (todoFrom c 17 : sProp (MT nD τ sig Unit (Elt F) ℕ UU ℕ)) = iprop(curCell (sendCell c 7) (fun p => (RdI (insM m)).payload (sendCell c 7) 0 p) 0 ∗ curCell (recvCell c 7) (fun p => (RdI (insM m)).payload (recvCell c 7) 0 p) 0 ∗ todoFrom c 19) := todo_group c 8
  rw [show (σ 50).outs = (σ 49).outs from rfl, St_open_49, St_open_50, hT0, hF0, hC, hG]
  simp only [hemp, hemp']
  refine BIBase.Entails.trans (Entails.of_eq ?_) (BIBase.Entails.trans (local_50 (insM m) K c iprop(toksFrom c 36 ∗ credFrom c 28 ∗ cred (tallyAt (sendCell c 7) () N) ∗ cred (tallyAt (sendCell c 7) () N) ∗ cred (tallyAt (sendCell c 12) () N) ∗ cred (tallyAt (sendCell c 12) () N) ∗ cred (tallyAt (sendCell c 12) () N) ∗ cred (tallyAt (sendCell c 10) () N) ∗ cred (tallyAt (sendCell c 10) () N) ∗ doneTo c 17 ∗ todoFrom c 19 ∗ foreignFrom c 33 ∗ rsBack (insM m) c 8 ∗ accTile c 1 0 (Vals.A (insM m) 0 c 1 0 2) ∗ accTile c 1 1 (Vals.A (insM m) 0 c 1 1 2) ∗ accTile c 1 2 (Vals.A (insM m) 0 c 1 2 2) ∗ outHeld (insM m) c (σ 49).outs ∗ Fr)) (wp_mono _ _ _ fun tup => Entails.of_eq ?_))
  · ac_rfl
  · ac_rfl

/-- info: 'Cert.KernelIdeal.Body.part_50' depends on axioms: [propext, Classical.choice, Quot.sound] -/
#guard_msgs in #print axioms part_50

end Cert.KernelIdeal.Body

end
-- ==== Proof.Parts.L53.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 53 of the body: the store into accumulator tile (2, 2), then the start of the copy of part 0 at step 8 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_53 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 36) W)
        ∗ dutyTok ER (sendCell c 8) 0 0 ∗ dutyTok ER (recvCell (mate c 0 8) 8) 0 0
        ∗ rsTileAny (mate c 0 8) (rgOf 8) 0 (sOf 8)
        ∗ accTile c 2 2 (Vals.A I 0 c 2 2 1)
        ∗ rsTile c 2 2 1 (Vals.R I 0 c 2 2 1)
        ∗ accTile c 2 0 (Vals.A I 0 c 2 0 2)
        ∗ P) : sProp (MT nD τ sig Unit (Elt F) ℕ UU ℕ))
      ⊢ wp frame (wpE (defs₀ (F := F)) 𝒱₀ (c : Thread nD τ) none) Set.univ
      (k0_part53 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw1394 c, Vals.lw1405 c⟩⌝
        ∗ records (RdI I) K
        ∗ (∃ W, owes (c : Thread nD τ) (owedFrom c 37) W)
        ∗ cred (tallyAt (sendCell c 8) () N)
        ∗ accTile c 2 2 (Vals.A I 0 c 2 2 2)
        ∗ rsTile c 2 2 1 (Vals.R I 0 c 2 2 1)
        ∗ P)) := by
  unfold accTile rsTile rsTileAny Proto.accPts Proto.rsPts
  iintro ⟨#Hrec, ⟨%W, HO⟩, Hts0, Htr0, ⟨%fd0, Hfd0⟩, Ha22, Hr221, Ha20, HP⟩
  ihave #HIs0 := (inv_at (RdI I) K (c, Cell.send 8)) $$ Hrec
  ihave #HIr0 := (inv_at (RdI I) K (mate c 0 8, Cell.recv 8)) $$ Hrec
  ihave #Hrs0 := (reached_at (RdI I) K (c, Cell.send 8)) $$ Hrec
  ihave #Hrr0 := (reached_at (RdI I) K (mate c 0 8, Cell.recv 8)) $$ Hrec
  rw [k0_part53_eq_skeleton]
  unfold k0_part53_skel
  sl_exec
  -- the copy of part 0 at step 8 (started as number 12): its units on the partner's receive cell are owed last
  have hc0 : dueCell c 36 = recvCell (mate c 0 8) 8 := dueCell_fire c 11 0
  have ha0 : dueAmt 36 = N := dueAmt_fire 11 0
  have hO0 : owedFrom c 36 = owedFrom c 37 + tallyAt (recvCell (mate c 0 8) 8) () N :=
    (owedFrom_succ c 36 (by decide)).trans (by rw [hc0, ha0])
  iapply (wp_fire_at (accCI I) (rs0I I) c 8 0 (g := 2) (rg := 2) (s := 2) rfl rfl rfl (dev37_eq c) rfl rfl
    (sendS_eq 8) (recvS_eq 8) (accEmb 2 0 (Vals.A I 0 c 2 0 2)) rfl fd0 (owedFrom c 37) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha22_r0 : local_53.sl.v1386 I c = Vals.A I 0 c 2 2 1 := by unfold local_53.sl.v1386; exact accV_read_accEmb 2 2 _
  have Ha22_r1 : local_53.sl.v1388 I c = Vals.R I 0 c 2 2 1 := by unfold local_53.sl.v1388; exact rsV_read_rsEmb 2 2 1 _
  have Ha22_e : View.read (Elt F) (accV 2 2) (local_53.sl.Ha22_w1 I c) = Vals.A I 0 c 2 2 2 := by
    unfold local_53.sl.Ha22_w1; rw [Ha22_r0, Ha22_r1]; exact View.read_write_univ _ _
  have Ha22_t : ((Proto.accSl 2 2).view.loc (c : Thread nD τ) ↦[(Proto.accSl 2 2).view.set]{fullShare} local_53.sl.Ha22_w1 I c : sProp (MT nD τ sig Unit (Elt F) ℕ UU ℕ)) = ((Proto.accSl 2 2).view.loc (c : Thread nD τ) ↦[(Proto.accSl 2 2).view.set]{fullShare} accEmb 2 2 (Vals.A I 0 c 2 2 2) : sProp (MT nD τ sig Unit (Elt F) ℕ UU ℕ)) := accTile_of_read c fullShare 2 2 Ha22_e
  rw [← Ha22_t]
  isplitr [HO Hcs0 Ha22 Hr221 HP]
  · ipureintro; rfl
  isplitr [HO Hcs0 Ha22 Hr221 HP]; · iexact Hrec
  isplitl [HO]; · iexists W; iexact HO
  iframe

/-- info: 'Cert.KernelIdeal.Body.local_53' depends on axioms: [propext, Classical.choice, Quot.sound] -/
#guard_msgs in #print axioms local_53

end Cert.KernelIdeal.Body
-- ==== Proof.Parts.Part53.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L53
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 53 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 53 of the body, run from the place before it, ends at the place after it and returns its values; whatever else is held is kept. -/
theorem part_53 (m : (ℓ : Loc nD τ sig) → Buf (Elt F) ℓ) (K : Dev nD × Cell → ℕ) (c : Dev nD) (Fr : sProp 𝕄) :
    iprop(St (insM m) K (σ 52) c ∗ outHeld (insM m) c (σ 52).outs ∗ Fr)
      ⊢ wp frame (wpE (defs₀ (F := F)) 𝒱₀ (c : Thread nD τ) none) Set.univ
          (k0_part53 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1394 c, Vals.lw1405 c⟩⌝ ∗ St (insM m) K (σ 53) c ∗ outHeld (insM m) c (σ 53).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 36 : sProp (MT nD τ sig Unit (Elt F) ℕ UU ℕ))
      = iprop(dutyTok ER (sendCell c 8) 0 0 ∗ dutyTok ER (recvCell (mate c 0 8) 8) 0 0 ∗ toksFrom c 37) := toksFrom_copy c 11 0
  have hf0 : (foreignFrom c 33 : sProp (MT nD τ sig Unit (Elt F) ℕ UU ℕ))
      = iprop(rsTileAny (mate c 0 8) (rgOf 8) 0 (sOf 8) ∗ foreignFrom c 34) := foreignFrom_succ c 11 0
  have hb8 : (rsBack (insM m) c 9 : sProp (MT nD τ sig Unit (Elt F) ℕ UU ℕ))
      = iprop((rsTile c 2 0 1 (Vals.R (insM m) 0 c 2 0 1) ∗ rsTile c 2 1 1 (Vals.R (insM m) 0 c 2 1 1) ∗ rsTile c 2 2 1 (Vals.R (insM m) 0 c 2 2 1)) ∗ rsBack (insM m) c 8) := rsBack_succ (insM m) c 8
  rw [St_open_52, St_open_53, ht0, hf0, hb8, show (σ 52).outs = (σ 53).outs from rfl]
  simp only [hemp, hemp']
  refine BIBase.Entails.trans (Entails.of_eq ?_) (BIBase.Entails.trans
    (local_53 (insM m) K c
      (iprop(levAts Proto.L Proto.lv
        ∗ toksFrom c 37
        ∗ credFrom c 30
        ∗ cred (tallyAt (sendCell c 12) () N)
        ∗ cred (tallyAt (sendCell c 12) () N)
        ∗ cred (tallyAt (sendCell c 12) () N)
        ∗ cred (tallyAt (sendCell c 10) () N)
        ∗ cred (tallyAt (sendCell c 10) () N)
        ∗ cred (tallyAt (sendCell c 10) () N)
        ∗ doneTo c 19
        ∗ todoFrom c 19
        ∗ foreignFrom c 34
        ∗ rsTile c 2 0 1 (Vals.R (insM m) 0 c 2 0 1)
        ∗ rsTile c 2 1 1 (Vals.R (insM m) 0 c 2 1 1)
        ∗ rsBack (insM m) c 8
        ∗ accTile c 1 0 (Vals.A (insM m) 0 c 1 0 2)
        ∗ accTile c 1 1 (Vals.A (insM m) 0 c 1 1 2)
        ∗ accTile c 1 2 (Vals.A (insM m) 0 c 1 2 2)
        ∗ accTile c 2 1 (Vals.A (insM m) 0 c 2 1 2)
        ∗ outHeld (insM m) c (σ 53).outs
        ∗ Fr)))
    (wp_mono _ _ _ fun tup => Entails.of_eq ?_))
  · ac_rfl
  · ac_rfl

/-- info: 'Cert.KernelIdeal.Body.part_53' depends on axioms: [propext, Classical.choice, Quot.sound] -/
#guard_msgs in #print axioms part_53

end Cert.KernelIdeal.Body

end
-- ==== Proof.Parts.L54.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 54 of the body: the start of the copies of part 1 at step 8 and part 2 at step 8 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_54 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 37) W)
        ∗ dutyTok ER (sendCell c 8) 0 1 ∗ dutyTok ER (recvCell (mate c 1 8) 8) 0 1
        ∗ rsTileAny (mate c 1 8) (rgOf 8) 1 (sOf 8)
        ∗ dutyTok ER (sendCell c 8) 0 2 ∗ dutyTok ER (recvCell (mate c 2 8) 8) 0 2
        ∗ rsTileAny (mate c 2 8) (rgOf 8) 2 (sOf 8)
        ∗ accTile c 2 1 (Vals.A I 0 c 2 1 2)
        ∗ accTile c 2 2 (Vals.A I 0 c 2 2 2)
        ∗ accTile c 1 0 (Vals.A I 0 c 1 0 2)
        ∗ rsTile c 1 0 2 (Vals.R I 0 c 1 0 2)
        ∗ accTile c 1 1 (Vals.A I 0 c 1 1 2)
        ∗ P) : sProp (MT nD τ sig Unit (Elt F) ℕ UU ℕ))
      ⊢ wp frame (wpE (defs₀ (F := F)) 𝒱₀ (c : Thread nD τ) none) Set.univ
      (k0_part54 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw1416 c, Vals.lv1431 I c, Vals.lv1433 I c⟩⌝
        ∗ records (RdI I) K
        ∗ (∃ W, owes (c : Thread nD τ) (owedFrom c 39) W)
        ∗ cred (tallyAt (sendCell c 8) () N)
        ∗ cred (tallyAt (sendCell c 8) () N)
        ∗ accTile c 1 0 (Vals.A I 0 c 1 0 2)
        ∗ rsTile c 1 0 2 (Vals.R I 0 c 1 0 2)
        ∗ accTile c 1 1 (Vals.A I 0 c 1 1 2)
        ∗ P)) := by
  unfold accTile rsTile rsTileAny Proto.accPts Proto.rsPts
  iintro ⟨#Hrec, ⟨%W, HO⟩, Hts0, Htr0, ⟨%fd0, Hfd0⟩, Hts1, Htr1, ⟨%fd1, Hfd1⟩, Ha21, Ha22, Ha10, Hr102, Ha11, HP⟩
  ihave #HIs0 := (inv_at (RdI I) K (c, Cell.send 8)) $$ Hrec
  ihave #HIr0 := (inv_at (RdI I) K (mate c 1 8, Cell.recv 8)) $$ Hrec
  ihave #Hrs0 := (reached_at (RdI I) K (c, Cell.send 8)) $$ Hrec
  ihave #Hrr0 := (reached_at (RdI I) K (mate c 1 8, Cell.recv 8)) $$ Hrec
  ihave #HIs1 := (inv_at (RdI I) K (c, Cell.send 8)) $$ Hrec
  ihave #HIr1 := (inv_at (RdI I) K (mate c 2 8, Cell.recv 8)) $$ Hrec
  ihave #Hrs1 := (reached_at (RdI I) K (c, Cell.send 8)) $$ Hrec
  ihave #Hrr1 := (reached_at (RdI I) K (mate c 2 8, Cell.recv 8)) $$ Hrec
  rw [k0_part54_eq_skeleton]
  unfold k0_part54_skel
  sl_exec
  -- the copy of part 1 at step 8 (started as number 12): its units on the partner's receive cell are owed last
  have hc0 : dueCell c 37 = recvCell (mate c 1 8) 8 := dueCell_fire c 11 1
  have ha0 : dueAmt 37 = N := dueAmt_fire 11 1
  have hO0 : owedFrom c 37 = owedFrom c 38 + tallyAt (recvCell (mate c 1 8) 8) () N :=
    (owedFrom_succ c 37 (by decide)).trans (by rw [hc0, ha0])
  iapply (wp_fire_at (accCI I) (rs0I I) c 8 1 (g := 2) (rg := 2) (s := 2) rfl rfl rfl (dev38_eq c) rfl rfl
    (sendS_eq 8) (recvS_eq 8) (accEmb 2 1 (Vals.A I 0 c 2 1 2)) rfl fd0 (owedFrom c 38) hO0) $$ [HO Hts0 Htr0 Hfd0 Ha21]
  · unfold Proto.accPts Proto.rsPts
    isplitr; · iexact HIs0
    isplitr; · iexact HIr0
    isplitl [Ha21]; · iexact Ha21
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  -- the copy of part 2 at step 8 (started as number 12): its units on the partner's receive cell are owed last
  have hc1 : dueCell c 38 = recvCell (mate c 2 8) 8 := dueCell_fire c 11 2
  have ha1 : dueAmt 38 = N := dueAmt_fire 11 2
  have hO1 : owedFrom c 38 = owedFrom c 39 + tallyAt (recvCell (mate c 2 8) 8) () N :=
    (owedFrom_succ c 38 (by decide)).trans (by rw [hc1, ha1])
  iapply (wp_fire_at (accCI I) (rs0I I) c 8 2 (g := 2) (rg := 2) (s := 2) rfl rfl rfl (dev39_eq c) rfl rfl
    (sendS_eq 8) (recvS_eq 8) (accEmb 2 2 (Vals.A I 0 c 2 2 2)) rfl fd1 (owedFrom c 39) hO1) $$ [HO Hts1 Htr1 Hfd1 Ha22]
  · unfold Proto.accPts Proto.rsPts
    isplitr; · iexact HIs1
    isplitr; · iexact HIr1
    isplitl [Ha22]; · iexact Ha22
    isplitl [Hfd1]; · iexact Hfd1
    isplitl [HO]; · iexact HO
    isplitl [Hts1]; · iexact Hts1
    isplitr; · iexact Hrs1
    isplitl [Htr1]; · iexact Htr1
    iexact Hrr1
  iintro ⟨Hcs1, HO⟩
  sl_exec
  sl_step
  -- what the returned values' loads read
  have q0 : local_54.sl.v1427 I c = Vals.A I 0 c 1 0 2 := by unfold local_54.sl.v1427; exact accV_read_accEmb 1 0 _
  have q1 : local_54.sl.v1429 I c = Vals.R I 0 c 1 0 2 := by unfold local_54.sl.v1429; exact rsV_read_rsEmb 1 0 2 _
  have q2 : local_54.sl.v1432 I c = Vals.A I 0 c 1 1 2 := by unfold local_54.sl.v1432; exact accV_read_accEmb 1 1 _
  isplitr [HO Hcs0 Hcs1 Ha10 Hr102 Ha11 HP]
  · ipureintro; rw [q0, q1, q2]; all_goals rfl
  isplitr [HO Hcs0 Hcs1 Ha10 Hr102 Ha11 HP]; · iexact Hrec
  isplitl [HO]; · iexists W; iexact HO
  iframe

/-- info: 'Cert.KernelIdeal.Body.local_54' depends on axioms: [propext, Classical.choice, Quot.sound] -/
#guard_msgs in #print axioms local_54

end Cert.KernelIdeal.Body
-- ==== Proof.Parts.Part54.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L54
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 54 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 54 of the body, run from the place before it, ends at the place after it and returns its values; whatever else is held is kept. -/
theorem part_54 (m : (ℓ : Loc nD τ sig) → Buf (Elt F) ℓ) (K : Dev nD × Cell → ℕ) (c : Dev nD) (Fr : sProp 𝕄) :
    iprop(St (insM m) K (σ 53) c ∗ outHeld (insM m) c (σ 53).outs ∗ Fr)
      ⊢ wp frame (wpE (defs₀ (F := F)) 𝒱₀ (c : Thread nD τ) none) Set.univ
          (k0_part54 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1416 c, Vals.lv1431 (insM m) c, Vals.lv1433 (insM m) c⟩⌝ ∗ St (insM m) K (σ 54) c ∗ outHeld (insM m) c (σ 54).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 37 : sProp (MT nD τ sig Unit (Elt F) ℕ UU ℕ))
      = iprop(dutyTok ER (sendCell c 8) 0 1 ∗ dutyTok ER (recvCell (mate c 1 8) 8) 0 1 ∗ toksFrom c 38) := toksFrom_copy c 11 1
  have ht1 : (toksFrom c 38 : sProp (MT nD τ sig Unit (Elt F) ℕ UU ℕ))
      = iprop(dutyTok ER (sendCell c 8) 0 2 ∗ dutyTok ER (recvCell (mate c 2 8) 8) 0 2 ∗ toksFrom c 39) := toksFrom_copy c 11 2
  have hf0 : (foreignFrom c 34 : sProp (MT nD τ sig Unit (Elt F) ℕ UU ℕ))
      = iprop(rsTileAny (mate c 1 8) (rgOf 8) 1 (sOf 8) ∗ foreignFrom c 35) := foreignFrom_succ c 11 1
  have hf1 : (foreignFrom c 35 : sProp (MT nD τ sig Unit (Elt F) ℕ UU ℕ))
      = iprop(rsTileAny (mate c 2 8) (rgOf 8) 2 (sOf 8) ∗ foreignFrom c 36) := foreignFrom_succ c 11 2
  have hb8 : (rsBack (insM m) c 9 : sProp (MT nD τ sig Unit (Elt F) ℕ UU ℕ))
      = iprop((rsTile c 2 0 1 (Vals.R (insM m) 0 c 2 0 1) ∗ rsTile c 2 1 1 (Vals.R (insM m) 0 c 2 1 1) ∗ rsTile c 2 2 1 (Vals.R (insM m) 0 c 2 2 1)) ∗ rsBack (insM m) c 8) := rsBack_succ (insM m) c 8
  have hb7 : (rsBack (insM m) c 8 : sProp (MT nD τ sig Unit (Elt F) ℕ UU ℕ))
      = iprop((rsTile c 3 0 0 (Vals.R (insM m) 0 c 3 0 0) ∗ rsTile c 3 1 0 (Vals.R (insM m) 0 c 3 1 0) ∗ rsTile c 3 2 0 (Vals.R (insM m) 0 c 3 2 0)) ∗ rsBack (insM m) c 7) := rsBack_succ (insM m) c 7
  have hb6 : (rsBack (insM m) c 7 : sProp (MT nD τ sig Unit (Elt F) ℕ UU ℕ))
      = iprop((rsTile c 2 0 0 (Vals.R (insM m) 0 c 2 0 0) ∗ rsTile c 2 1 0 (Vals.R (insM m) 0 c 2 1 0) ∗ rsTile c 2 2 0 (Vals.R (insM m) 0 c 2 2 0)) ∗ rsBack (insM m) c 6) := rsBack_succ (insM m) c 6
  have hb5 : (rsBack (insM m) c 6 : sProp (MT nD τ sig Unit (Elt F) ℕ UU ℕ))
      = iprop((rsTile c 1 0 2 (Vals.R (insM m) 0 c 1 0 2) ∗ rsTile c 1 1 2 (Vals.R (insM m) 0 c 1 1 2) ∗ rsTile c 1 2 2 (Vals.R (insM m) 0 c 1 2 2)) ∗ rsBack (insM m) c 5) := rsBack_succ (insM m) c 5
  rw [St_open_53, St_open_54, ht0, ht1, hf0, hf1, hb8, hb7, hb6, hb5, show (σ 53).outs = (σ 54).outs from rfl]
  simp only [hemp, hemp']
  refine BIBase.Entails.trans (Entails.of_eq ?_) (BIBase.Entails.trans
    (local_54 (insM m) K c
      (iprop(levAts Proto.L Proto.lv
        ∗ toksFrom c 39
        ∗ credFrom c 30
        ∗ cred (tallyAt (sendCell c 12) () N)
        ∗ cred (tallyAt (sendCell c 12) () N)
        ∗ cred (tallyAt (sendCell c 12) () N)
        ∗ cred (tallyAt (sendCell c 10) () N)
        ∗ cred (tallyAt (sendCell c 10) () N)
        ∗ cred (tallyAt (sendCell c 10) () N)
        ∗ cred (tallyAt (sendCell c 8) () N)
        ∗ doneTo c 19
        ∗ todoFrom c 19
        ∗ foreignFrom c 36
        ∗ rsTile c 2 0 1 (Vals.R (insM m) 0 c 2 0 1)
        ∗ rsTile c 2 1 1 (Vals.R (insM m) 0 c 2 1 1)
        ∗ rsTile c 2 2 1 (Vals.R (insM m) 0 c 2 2 1)
        ∗ rsTile c 3 0 0 (Vals.R (insM m) 0 c 3 0 0)
        ∗ rsTile c 3 1 0 (Vals.R (insM m) 0 c 3 1 0)
        ∗ rsTile c 3 2 0 (Vals.R (insM m) 0 c 3 2 0)
        ∗ rsTile c 2 0 0 (Vals.R (insM m) 0 c 2 0 0)
        ∗ rsTile c 2 1 0 (Vals.R (insM m) 0 c 2 1 0)
        ∗ rsTile c 2 2 0 (Vals.R (insM m) 0 c 2 2 0)
        ∗ rsTile c 1 1 2 (Vals.R (insM m) 0 c 1 1 2)
        ∗ rsTile c 1 2 2 (Vals.R (insM m) 0 c 1 2 2)
        ∗ rsBack (insM m) c 5
        ∗ accTile c 1 2 (Vals.A (insM m) 0 c 1 2 2)
        ∗ outHeld (insM m) c (σ 54).outs
        ∗ Fr)))
    (wp_mono _ _ _ fun tup => Entails.of_eq ?_))
  · ac_rfl
  · ac_rfl

/-- info: 'Cert.KernelIdeal.Body.part_54' depends on axioms: [propext, Classical.choice, Quot.sound] -/
#guard_msgs in #print axioms part_54

end Cert.KernelIdeal.Body

end
-- ==== Proof.Parts.L55.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 55 of the body, run alone from exactly the tiles it touches.

    Every tile is spelt as the embedding of the value it holds; what a whole-tile load reads back is that value. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Mesh Cert.KernelIdeal.LaunchK Cert.KernelIdeal.Vals

variable {F : FTy → Type} [FloatOps F]

local notation "𝕄" => MT nD τ sig Unit (Elt F) ℕ UU ℕ

/-- Group 1's residual stream after attention: the part reads the last received slice of part 1 and the own and received
    last slices of part 2, and returns the stream, its copy for the feed-forward part, the gate row and the literal one.
    The tiles come back as they were. -/
theorem local_55 (I : Dev nD → Vals.Ins F) (c : Dev nD) (P : sProp (MT nD τ sig Unit (Elt F) ℕ UU ℕ)) :
    (iprop(Proto.rsPts c 1 1 2 (rsEmb 1 1 2 (Vals.R I 0 c 1 1 2)) ∗ Proto.accPts c 1 2 (accEmb 1 2 (Vals.A I 0 c 1 2 2))
        ∗ Proto.rsPts c 1 2 2 (rsEmb 1 2 2 (Vals.R I 0 c 1 2 2)) ∗ P) : sProp 𝕄)
      ⊢ wp frame (wpE (defs₀ (F := F)) 𝒱₀ (c : Thread nD τ) none) Set.univ
          (k0_part55 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lv14 I c) (lv22 I c) (lv23 I c) (lv1431 I c) (lv1433 I c))
          (fun tup => iprop(⌜tup = ⟨lv1451 I c, lv1471 I c, lv1474 I c, lvcst_1675 I c⟩⌝
            ∗ Proto.rsPts c 1 1 2 (rsEmb 1 1 2 (Vals.R I 0 c 1 1 2)) ∗ Proto.accPts c 1 2 (accEmb 1 2 (Vals.A I 0 c 1 2 2))
            ∗ Proto.rsPts c 1 2 2 (rsEmb 1 2 2 (Vals.R I 0 c 1 2 2)) ∗ P)) := by
  unfold Proto.rsPts Proto.accPts
  iintro ⟨H1, H2, H3, HP⟩
  rw [k0_part55_eq_skeleton]
  unfold k0_part55_skel
  have h1434 : View.readAt (Elt F) (Memref.whole cc0_scratch1).view (Rect.unit (s := S8x3x3x256x256) ![1, 1, 2, 0, 0] S1x1x1x256x256.size inb_S8x3x3x256x256_S1x1x1x256x256_1_1_2_0_0).toLoadRect (rsEmb 1 1 2 (R I 0 c 1 1 2)) = R I 0 c 1 1 2 := rsV_read_rsEmb 1 1 2 _
  have h1437 : View.readAt (Elt F) (Memref.whole cc0_scratch0).view (Rect.unit (s := S4x3x256x256) ![1, 2, 0, 0] S1x1x256x256.size inb_S4x3x256x256_S1x1x256x256_1_2_0_0).toLoadRect (accEmb 1 2 (A I 0 c 1 2 2)) = A I 0 c 1 2 2 := accV_read_accEmb 1 2 _
  have h1439 : View.readAt (Elt F) (Memref.whole cc0_scratch1).view (Rect.unit (s := S8x3x3x256x256) ![1, 2, 2, 0, 0] S1x1x1x256x256.size inb_S8x3x3x256x256_S1x1x1x256x256_1_2_2_0_0).toLoadRect (rsEmb 1 2 2 (R I 0 c 1 2 2)) = R I 0 c 1 2 2 := rsV_read_rsEmb 1 2 2 _
  sl_exec
  sl_step
  isplitr
  · ipureintro
    rfl
  · iframe

/-- info: 'Cert.KernelIdeal.Body.local_55' depends on axioms: [propext, Classical.choice, Quot.sound] -/
#guard_msgs in #print axioms local_55

end Cert.KernelIdeal.Body

end
-- ==== Proof.Parts.Part55.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L55
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 55 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 55 of the body, run from the place before it, ends at the place after it and returns its values; whatever else is held is kept. -/
theorem part_55 (m : (ℓ : Loc nD τ sig) → Buf (Elt F) ℓ) (K : Dev nD × Cell → ℕ) (c : Dev nD) (Fr : sProp 𝕄) :
    iprop(St (insM m) K (σ 54) c ∗ outHeld (insM m) c (σ 54).outs ∗ Fr)
      ⊢ wp frame (wpE (defs₀ (F := F)) 𝒱₀ (c : Thread nD τ) none) Set.univ
          (k0_part55 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv14 (insM m) c) (Vals.lv22 (insM m) c) (Vals.lv23 (insM m) c) (Vals.lv1431 (insM m) c) (Vals.lv1433 (insM m) c))
          (fun tup => iprop(⌜tup = ⟨Vals.lv1451 (insM m) c, Vals.lv1471 (insM m) c, Vals.lv1474 (insM m) c, Vals.lvcst_1675 (insM m) c⟩⌝ ∗ St (insM m) K (σ 55) c ∗ outHeld (insM m) c (σ 55).outs ∗ Fr)) := by
  have eo : (σ 55).outs = (σ 54).outs := rfl
  rw [eo]
  rw [St_eq, St_eq, StRest_congr (insM m) K c (s := σ 54) (s' := σ 55) rfl rfl rfl rfl, accAll_σ_54, accAll_σ_55, StRest_rs (insM m) K c (σ 55) rfl 5 (by decide), rs3_5]
  refine BIBase.Entails.trans ?_ ((local_55 (insM m) c iprop(rsTile c 1 0 2 (Vals.R (insM m) 0 c 1 0 2) ∗ StRestNoRs (insM m) K (σ 55) c 5 ∗ emp ∗ emp ∗ emp ∗ accTile c 1 0 (Vals.A (insM m) 0 c 1 0 2) ∗ accTile c 1 1 (Vals.A (insM m) 0 c 1 1 2) ∗ emp ∗ emp ∗ emp ∗ emp ∗ emp ∗ emp ∗ outHeld (insM m) c (σ 54).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [R1]; · iexact R1
    isplitl [T12]; · iexact T12
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, R1, T12, R2, R0, HR, T00, T01, T02, T10, T11, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_55' depends on axioms: [propext, Classical.choice, Quot.sound] -/
#guard_msgs in #print axioms part_55

end Cert.KernelIdeal.Body

end
-- ==== Proof.Parts.L56.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 56 of the body, run alone from exactly the tiles it touches.

    A tile is spelt as the embedding of the value it holds; a whole-tile store through the accumulator's own view leaves the
    tile at the embedding of the vector stored. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Mesh Cert.KernelIdeal.LaunchK Cert.KernelIdeal.Vals

variable {F : FTy → Type} [FloatOps F]

local notation "𝕄" => MT nD τ sig Unit (Elt F) ℕ UU ℕ

/-- A tile just written whole through the accumulator's own view at the tile's rectangle holds the vector written. -/
private theorem acc_written (c : Dev nD) (g : Fin 4) (p : Fin 3) (off : Fin 4 → Nat) (hoff : off = ![g.val, p.val, 0, 0])
    (h : ∀ a, off a + S1x1x256x256.size a ≤ S4x3x256x256.size a)
    (base : AccBuf F) (w : Vec F S1x1x256x256 .bf16) :
    ((Proto.accSl g p).view.loc (c : Thread nD τ) ↦[(Proto.accSl g p).view.set]{fullShare}
        View.write (Elt F) ((Memref.whole cc0_scratch0).access (Rect.unit (s := S4x3x256x256) off S1x1x256x256.size h)) base w
          Finset.univ : sProp (MT nD τ sig Unit (Elt F) ℕ UU ℕ))
      = ((Proto.accSl g p).view.loc (c : Thread nD τ) ↦[(Proto.accSl g p).view.set]{fullShare} accEmb g p w) := by
  subst hoff
  exact accTile_of_read c fullShare g p (View.read_write_univ _ _)

/-- Group 1's feed-forward partial product stored over round 0's last level: the three tiles of group 1 go from round 0's
    last level to round 1's first, and the part returns the first partner's id word. -/
theorem local_56 (I : Dev nD → Vals.Ins F) (c : Dev nD) (P : sProp (MT nD τ sig Unit (Elt F) ℕ UU ℕ)) :
    (iprop(Proto.accPts c 1 0 (accEmb 1 0 (Vals.A I 0 c 1 0 2)) ∗ Proto.accPts c 1 1 (accEmb 1 1 (Vals.A I 0 c 1 1 2))
        ∗ Proto.accPts c 1 2 (accEmb 1 2 (Vals.A I 0 c 1 2 2)) ∗ P) : sProp 𝕄)
      ⊢ wp frame (wpE (defs₀ (F := F)) 𝒱₀ (c : Thread nD τ) none) Set.univ
          (k0_part56 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv24 I c) (lv40 I c) (lv43 I c) (lv1451 I c) (lv1471 I c) (lv1474 I c) (lvcst_1675 I c))
          (fun tup => iprop(⌜tup = lw1508 c⌝
            ∗ Proto.accPts c 1 0 (accEmb 1 0 (Vals.A I 1 c 1 0 0)) ∗ Proto.accPts c 1 1 (accEmb 1 1 (Vals.A I 1 c 1 1 0))
            ∗ Proto.accPts c 1 2 (accEmb 1 2 (Vals.A I 1 c 1 2 0)) ∗ P)) := by
  unfold Proto.accPts
  iintro ⟨H0, H1, H2, HP⟩
  rw [k0_part56_eq_skeleton]
  unfold k0_part56_skel
  sl_exec
  sl_step
  sl_unfold_run_names
  istop
  rw [acc_written c 1 0 ![1, 0, 0, 0] rfl inb_S4x3x256x256_S1x1x256x256_1_0_0_0, acc_written c 1 1 ![1, 1, 0, 0] rfl inb_S4x3x256x256_S1x1x256x256_1_1_0_0, acc_written c 1 2 ![1, 2, 0, 0] rfl inb_S4x3x256x256_S1x1x256x256_1_2_0_0]
  iintro ⟨⟨⟨H0, H1⟩, H2⟩, HP⟩
  isplitr
  · ipureintro
    rfl
  isplitl [H0]
  · iexact H0
  isplitl [H1]
  · iexact H1
  isplitl [H2]
  · iexact H2
  iexact HP

/-- info: 'Cert.KernelIdeal.Body.local_56' depends on axioms: [propext, Classical.choice, Quot.sound] -/
#guard_msgs in #print axioms local_56

end Cert.KernelIdeal.Body

end
-- ==== Proof.Parts.Part56.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L56
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable

/-! Part 56 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 56 of the body, run from the place before it, ends at the place after it and returns its values; whatever else is held is kept. -/
theorem part_56 (m : (ℓ : Loc nD τ sig) → Buf (Elt F) ℓ) (K : Dev nD × Cell → ℕ) (c : Dev nD) (Fr : sProp 𝕄) :
    iprop(St (insM m) K (σ 55) c ∗ outHeld (insM m) c (σ 55).outs ∗ Fr)
      ⊢ wp frame (wpE (defs₀ (F := F)) 𝒱₀ (c : Thread nD τ) none) Set.univ
          (k0_part56 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv24 (insM m) c) (Vals.lv40 (insM m) c) (Vals.lv43 (insM m) c) (Vals.lv1451 (insM m) c) (Vals.lv1471 (insM m) c) (Vals.lv1474 (insM m) c) (Vals.lvcst_1675 (insM m) c))
          (fun tup => iprop(⌜tup = Vals.lw1508 c⌝ ∗ St (insM m) K (σ 56) c ∗ outHeld (insM m) c (σ 56).outs ∗ Fr)) := by
  have eo : (σ 56).outs = (σ 55).outs := rfl
  rw [eo]
  rw [St_eq, St_eq, StRest_congr (insM m) K c (s := σ 55) (s' := σ 56) rfl rfl rfl rfl, accAll_σ_55, accAll_σ_56]
  refine BIBase.Entails.trans ?_ ((local_56 (insM m) c iprop(StRest (insM m) K (σ 56) c ∗ emp ∗ emp ∗ emp ∗ emp ∗ emp ∗ emp ∗ emp ∗ emp ∗ emp ∗ outHeld (insM m) c (σ 55).outs ∗ Fr)).trans (wp_mono _ _ _ fun tup => ?_))
  · iintro ⟨⟨HR, T00, T01, T02, T10, T11, T12, T20, T21, T22, T30, T31, T32⟩, HO, HF⟩
    isplitl [T10]; · iexact T10
    isplitl [T11]; · iexact T11
    isplitl [T12]; · iexact T12
    isplitl [HR]; · iexact HR
    isplitl [T00]; · iexact T00
    isplitl [T01]; · iexact T01
    isplitl [T02]; · iexact T02
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T10, T11, T12, HR, T00, T01, T02, T20, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_56' depends on axioms: [propext, Classical.choice, Quot.sound] -/
#guard_msgs in #print axioms part_56

end Cert.KernelIdeal.Body

end
-- ==== Proof.Parts.L57.lean ====
/-
  Part 57 of the body starts two copies of step 15 (the 13th step started; round 1, group 1, position 0): part 0 of accumulator slice (1, 0) goes to receive slice (5, 0, 0) of the device paired along mask 1, part 1 of accumulator slice (1, 1) goes to receive slice (5, 1, 0) of the device paired along mask 3.
  The accumulator slices, at level 0 of round 1, and the paired devices' receive slices leave the device's hands; it holds the departure credits of its send cell 15 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 57: the copies of parts 0 and 1 of step 15. -/
theorem local_57 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 39) W)
        ∗ dutyTok ER (sendCell c 15) 0 0 ∗ dutyTok ER (recvCell (mate c 0 15) 15) 0 0
        ∗ dutyTok ER (sendCell c 15) 0 1 ∗ dutyTok ER (recvCell (mate c 1 15) 15) 0 1
        ∗ rsTileAny (F := F) (mate c 0 15) 5 0 0
        ∗ rsTileAny (F := F) (mate c 1 15) 5 1 0
        ∗ accTile c 1 0 (A I 1 c 1 0 0)
        ∗ accTile c 1 1 (A I 1 c 1 1 0)
        ∗ P)
      ⊢ wp frame (wpE (defs₀ (F := F)) 𝒱₀ (c : Thread nD τ) none) Set.univ
          (k0_part57 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1508 c))
          (fun tup => iprop(⌜tup = ⟨Vals.lw1519 c, Vals.lw1530 c⟩⌝
            ∗ (∃ W, owes (c : Thread nD τ) (owedFrom c 41) W)
            ∗ cred (tallyAt (sendCell c 15) () N)
            ∗ cred (tallyAt (sendCell c 15) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 15)) $$ HR
  ihave #HRs := (reached_at (RdI I) K (c, Cell.send 15)) $$ HR
  ihave #HIr0 := (inv_at (RdI I) K (mate c 0 15, Cell.recv 15)) $$ HR
  ihave #HRr0 := (reached_at (RdI I) K (mate c 0 15, Cell.recv 15)) $$ HR
  ihave #HIr1 := (inv_at (RdI I) K (mate c 1 15, Cell.recv 15)) $$ HR
  ihave #HRr1 := (reached_at (RdI I) K (mate c 1 15, Cell.recv 15)) $$ HR
  sl_exec
  iapply (wp_fire_at (accCI I) (rs0I I) c 15 0 (g := 1) (rg := 5) (s := 0) (by decide) (by decide) (by decide)
      (dv := ⟨k0_dev40 c, k0_dev40_lt c⟩) ((dev40_eq c).trans rfl) rfl rfl (sendS_eq 15).symm (recvS_eq 15).symm
      (accEmb 1 0 (A I 1 c 1 0 0)) rfl fd0 (owedFrom c 40) (owed_copy c 12 0 39 (by decide) 15 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 15 1 (g := 1) (rg := 5) (s := 0) (by decide) (by decide) (by decide)
      (dv := ⟨k0_dev41 c, k0_dev41_lt c⟩) ((dev41_eq c).trans rfl) rfl rfl (sendS_eq 15).symm (recvS_eq 15).symm
      (accEmb 1 1 (A I 1 c 1 1 0)) rfl fd1 (owedFrom c 41) (owed_copy c 12 1 40 (by decide) 15 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_57' depends on axioms: [propext, Classical.choice, Quot.sound] -/
#guard_msgs in #print axioms Cert.KernelIdeal.Body.local_57

end
-- ==== Proof.Parts.Part58.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L58
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 58 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 58 of the body, run from the place before it, ends at the place after it; whatever else is held is kept. -/
theorem part_58 (m : (ℓ : Loc nD τ sig) → Buf (Elt F) ℓ) (K : Dev nD × Cell → ℕ) (c : Dev nD) (Fr : sProp 𝕄) :
    iprop(St (insM m) K (σ 57) c ∗ outHeld (insM m) c (σ 57).outs ∗ Fr)
      ⊢ wp frame (wpE (defs₀ (F := F)) 𝒱₀ (c : Thread nD τ) none) Set.univ
          (k0_part58 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1196 c))
          (fun _ => iprop(St (insM m) K (σ 58) c ∗ outHeld (insM m) c (σ 58).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 41 : sProp (MT nD τ sig Unit (Elt F) ℕ UU ℕ)) = iprop(dutyTok ER (sendCell c 15) 0 2 ∗ dutyTok ER (recvCell (mate c 2 15) 15) 0 2 ∗ toksFrom c 42) := toksFrom_copy c 12 2
  have hF0 : (foreignFrom c 38 : sProp (MT nD τ sig Unit (Elt F) ℕ UU ℕ)) = iprop(rsTileAny (mate c 2 15) 5 2 0 ∗ foreignFrom c 39) := foreignFrom_succ c 12 2
  have hC : (credFrom c 30 : sProp (MT nD τ sig Unit (Elt F) ℕ UU ℕ)) = iprop(credFrom c 31 ∗ cred (tallyAt (recvCell c 12) () N)) := by
    rw [credFrom_succ c 30 (by omega), show ownCell c 30 = recvCell c 12 from ownCell_fire c 9 0, show dueAmt 30 = N from dueAmt_fire 9 0]
  have hG : (todoFrom c 19 : sProp (MT nD τ sig Unit (Elt F) ℕ UU ℕ)) = iprop(curCell (sendCell c 12) (fun p => (RdI (insM m)).payload (sendCell c 12) 0 p) 0 ∗ curCell (recvCell c 12) (fun p => (RdI (insM m)).payload (recvCell c 12) 0 p) 0 ∗ todoFrom c 21) := todo_group c 9
  rw [show (σ 58).outs = (σ 57).outs from rfl, St_open_57, St_open_58, hT0, hF0, hC, hG]
  simp only [hemp, hemp']
  refine BIBase.Entails.trans (Entails.of_eq ?_) (BIBase.Entails.trans (local_58 (insM m) K c iprop(toksFrom c 42 ∗ credFrom c 31 ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ doneTo c 19 ∗ todoFrom c 21 ∗ foreignFrom c 39 ∗ rsBack (insM m) c 9 ∗ outHeld (insM m) c (σ 57).outs ∗ Fr)) (wp_mono _ _ _ fun tup => Entails.of_eq ?_))
  · ac_rfl
  · ac_rfl

/-- info: 'Cert.KernelIdeal.Body.part_58' depends on axioms: [propext, Classical.choice, Quot.sound] -/
#guard_msgs in #print axioms part_58

end Cert.KernelIdeal.Body

end
-- ==== Proof.Parts.L61.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 61 of the body: the store into accumulator tile (0, 2), then the start of the copy of part 0 at step 13 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_61 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 42) W)
        ∗ dutyTok ER (sendCell c 13) 0 0 ∗ dutyTok ER (recvCell (mate c 0 13) 13) 0 0
        ∗ rsTileAny (mate c 0 13) (rgOf 13) 0 (sOf 13)
        ∗ accTile c 0 2 (Vals.A I 1 c 0 2 0)
        ∗ rsTile c 4 2 0 (Vals.R I 1 c 0 2 0)
        ∗ accTile c 0 0 (Vals.A I 1 c 0 0 1)
        ∗ P) : sProp (MT nD τ sig Unit (Elt F) ℕ UU ℕ))
      ⊢ wp frame (wpE (defs₀ (F := F)) 𝒱₀ (c : Thread nD τ) none) Set.univ
      (k0_part61 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw1607 c, Vals.lw1618 c⟩⌝
        ∗ records (RdI I) K
        ∗ (∃ W, owes (c : Thread nD τ) (owedFrom c 43) W)
        ∗ cred (tallyAt (sendCell c 13) () N)
        ∗ accTile c 0 2 (Vals.A I 1 c 0 2 1)
        ∗ rsTile c 4 2 0 (Vals.R I 1 c 0 2 0)
        ∗ P)) := by
  unfold accTile rsTile rsTileAny Proto.accPts Proto.rsPts
  iintro ⟨#Hrec, ⟨%W, HO⟩, Hts0, Htr0, ⟨%fd0, Hfd0⟩, Ha02, Hr420, Ha00, HP⟩
  ihave #HIs0 := (inv_at (RdI I) K (c, Cell.send 13)) $$ Hrec
  ihave #HIr0 := (inv_at (RdI I) K (mate c 0 13, Cell.recv 13)) $$ Hrec
  ihave #Hrs0 := (reached_at (RdI I) K (c, Cell.send 13)) $$ Hrec
  ihave #Hrr0 := (reached_at (RdI I) K (mate c 0 13, Cell.recv 13)) $$ Hrec
  rw [k0_part61_eq_skeleton]
  unfold k0_part61_skel
  sl_exec
  -- the copy of part 0 at step 13 (started as number 14): its units on the partner's receive cell are owed last
  have hc0 : dueCell c 42 = recvCell (mate c 0 13) 13 := dueCell_fire c 13 0
  have ha0 : dueAmt 42 = N := dueAmt_fire 13 0
  have hO0 : owedFrom c 42 = owedFrom c 43 + tallyAt (recvCell (mate c 0 13) 13) () N :=
    (owedFrom_succ c 42 (by decide)).trans (by rw [hc0, ha0])
  iapply (wp_fire_at (accCI I) (rs0I I) c 13 0 (g := 0) (rg := 4) (s := 1) rfl rfl rfl (dev43_eq c) rfl rfl
    (sendS_eq 13) (recvS_eq 13) (accEmb 0 0 (Vals.A I 1 c 0 0 1)) rfl fd0 (owedFrom c 43) hO0) $$ [HO Hts0 Htr0 Hfd0 Ha00]
  · unfold Proto.accPts Proto.rsPts
    isplitr; · iexact HIs0
    isplitr; · iexact HIr0
    isplitl [Ha00]; · iexact Ha00
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha02_r0 : local_61.sl.v1599 I c = Vals.A I 1 c 0 2 0 := by unfold local_61.sl.v1599; exact accV_read_accEmb 0 2 _
  have Ha02_r1 : local_61.sl.v1601 I c = Vals.R I 1 c 0 2 0 := by unfold local_61.sl.v1601; exact rsV_read_rsEmb 4 2 0 _
  have Ha02_e : View.read (Elt F) (accV 0 2) (local_61.sl.Ha02_w1 I c) = Vals.A I 1 c 0 2 1 := by
    unfold local_61.sl.Ha02_w1; rw [Ha02_r0, Ha02_r1]; exact View.read_write_univ _ _
  have Ha02_t : ((Proto.accSl 0 2).view.loc (c : Thread nD τ) ↦[(Proto.accSl 0 2).view.set]{fullShare} local_61.sl.Ha02_w1 I c : sProp (MT nD τ sig Unit (Elt F) ℕ UU ℕ)) = ((Proto.accSl 0 2).view.loc (c : Thread nD τ) ↦[(Proto.accSl 0 2).view.set]{fullShare} accEmb 0 2 (Vals.A I 1 c 0 2 1) : sProp (MT nD τ sig Unit (Elt F) ℕ UU ℕ)) := accTile_of_read c fullShare 0 2 Ha02_e
  rw [← Ha02_t]
  isplitr [HO Hcs0 Ha02 Hr420 HP]
  · ipureintro; rfl
  isplitr [HO Hcs0 Ha02 Hr420 HP]; · iexact Hrec
  isplitl [HO]; · iexists W; iexact HO
  iframe

/-- info: 'Cert.KernelIdeal.Body.local_61' depends on axioms: [propext, Classical.choice, Quot.sound] -/
#guard_msgs in #print axioms local_61

end Cert.KernelIdeal.Body
-- ==== Proof.Parts.Part61.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L61
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 61 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 61 of the body, run from the place before it, ends at the place after it and returns its values; whatever else is held is kept. -/
theorem part_61 (m : (ℓ : Loc nD τ sig) → Buf (Elt F) ℓ) (K : Dev nD × Cell → ℕ) (c : Dev nD) (Fr : sProp 𝕄) :
    iprop(St (insM m) K (σ 60) c ∗ outHeld (insM m) c (σ 60).outs ∗ Fr)
      ⊢ wp frame (wpE (defs₀ (F := F)) 𝒱₀ (c : Thread nD τ) none) Set.univ
          (k0_part61 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1607 c, Vals.lw1618 c⟩⌝ ∗ St (insM m) K (σ 61) c ∗ outHeld (insM m) c (σ 61).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 42 : sProp (MT nD τ sig Unit (Elt F) ℕ UU ℕ))
      = iprop(dutyTok ER (sendCell c 13) 0 0 ∗ dutyTok ER (recvCell (mate c 0 13) 13) 0 0 ∗ toksFrom c 43) := toksFrom_copy c 13 0
  have hf0 : (foreignFrom c 39 : sProp (MT nD τ sig Unit (Elt F) ℕ UU ℕ))
      = iprop(rsTileAny (mate c 0 13) (rgOf 13) 0 (sOf 13) ∗ foreignFrom c 40) := foreignFrom_succ c 13 0
  have hb9 : (rsBack (insM m) c 10 : sProp (MT nD τ sig Unit (Elt F) ℕ UU ℕ))
      = iprop((rsTile c 4 0 0 (Vals.R (insM m) 1 c 0 0 0) ∗ rsTile c 4 1 0 (Vals.R (insM m) 1 c 0 1 0) ∗ rsTile c 4 2 0 (Vals.R (insM m) 1 c 0 2 0)) ∗ rsBack (insM m) c 9) := rsBack_succ (insM m) c 9
  rw [St_open_60, St_open_61, ht0, hf0, hb9, show (σ 60).outs = (σ 61).outs from rfl]
  simp only [hemp, hemp']
  refine BIBase.Entails.trans (Entails.of_eq ?_) (BIBase.Entails.trans
    (local_61 (insM m) K c
      (iprop(levAts Proto.L Proto.lv
        ∗ toksFrom c 43
        ∗ credFrom c 33
        ∗ cred (tallyAt (sendCell c 10) () N)
        ∗ cred (tallyAt (sendCell c 10) () N)
        ∗ cred (tallyAt (sendCell c 10) () N)
        ∗ cred (tallyAt (sendCell c 8) () N)
        ∗ cred (tallyAt (sendCell c 8) () N)
        ∗ cred (tallyAt (sendCell c 8) () N)
        ∗ cred (tallyAt (sendCell c 15) () N)
        ∗ cred (tallyAt (sendCell c 15) () N)
        ∗ cred (tallyAt (sendCell c 15) () N)
        ∗ doneTo c 21
        ∗ todoFrom c 21
        ∗ foreignFrom c 40
        ∗ rsTile c 4 0 0 (Vals.R (insM m) 1 c 0 0 0)
        ∗ rsTile c 4 1 0 (Vals.R (insM m) 1 c 0 1 0)
        ∗ rsBack (insM m) c 9
        ∗ accTile c 0 1 (Vals.A (insM m) 1 c 0 1 1)
        ∗ outHeld (insM m) c (σ 61).outs
        ∗ Fr)))
    (wp_mono _ _ _ fun tup => Entails.of_eq ?_))
  · ac_rfl
  · ac_rfl

/-- info: 'Cert.KernelIdeal.Body.part_61' depends on axioms: [propext, Classical.choice, Quot.sound] -/
#guard_msgs in #print axioms part_61

end Cert.KernelIdeal.Body

end
-- ==== Proof.Parts.Part62.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L62
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 62 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 62 of the body, run from the place before it, ends at the place after it and returns its values; whatever else is held is kept. -/
theorem part_62 (m : (ℓ : Loc nD τ sig) → Buf (Elt F) ℓ) (K : Dev nD × Cell → ℕ) (c : Dev nD) (Fr : sProp 𝕄) :
    iprop(St (insM m) K (σ 61) c ∗ outHeld (insM m) c (σ 61).outs ∗ Fr)
      ⊢ wp frame (wpE (defs₀ (F := F)) 𝒱₀ (c : Thread nD τ) none) Set.univ
          (k0_part62 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = Vals.lw1629 c⌝ ∗ St (insM m) K (σ 62) c ∗ outHeld (insM m) c (σ 62).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 43 : sProp (MT nD τ sig Unit (Elt F) ℕ UU ℕ)) = iprop(dutyTok ER (sendCell c 13) 0 1 ∗ dutyTok ER (recvCell (mate c 1 13) 13) 0 1 ∗ toksFrom c 44) := toksFrom_copy c 13 1
  have hF0 : (foreignFrom c 40 : sProp (MT nD τ sig Unit (Elt F) ℕ UU ℕ)) = iprop(rsTileAny (mate c 1 13) 4 1 1 ∗ foreignFrom c 41) := foreignFrom_succ c 13 1
  have hT1 : (toksFrom c 44 : sProp (MT nD τ sig Unit (Elt F) ℕ UU ℕ)) = iprop(dutyTok ER (sendCell c 13) 0 2 ∗ dutyTok ER (recvCell (mate c 2 13) 13) 0 2 ∗ toksFrom c 45) := toksFrom_copy c 13 2
  have hF1 : (foreignFrom c 41 : sProp (MT nD τ sig Unit (Elt F) ℕ UU ℕ)) = iprop(rsTileAny (mate c 2 13) 4 2 1 ∗ foreignFrom c 42) := foreignFrom_succ c 13 2
  have hG : (todoFrom c 21 : sProp (MT nD τ sig Unit (Elt F) ℕ UU ℕ)) = iprop(curCell (sendCell c 10) (fun p => (RdI (insM m)).payload (sendCell c 10) 0 p) 0 ∗ curCell (recvCell c 10) (fun p => (RdI (insM m)).payload (recvCell c 10) 0 p) 0 ∗ todoFrom c 23) := todo_group c 10
  rw [show (σ 62).outs = (σ 61).outs from rfl, St_open_61, St_open_62, hT0, hF0, hT1, hF1, hG]
  simp only [hemp, hemp']
  refine BIBase.Entails.trans (Entails.of_eq ?_) (BIBase.Entails.trans (local_62 (insM m) K c iprop(toksFrom c 45 ∗ credFrom c 33 ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ doneTo c 21 ∗ curCell (recvCell c 10) (fun p => (RdI (insM m)).payload (recvCell c 10) 0 p) 0 ∗ todoFrom c 23 ∗ foreignFrom c 42 ∗ rsBack (insM m) c 10 ∗ outHeld (insM m) c (σ 61).outs ∗ Fr)) (wp_mono _ _ _ fun tup => Entails.of_eq ?_))
  · ac_rfl
  · ac_rfl

/-- info: 'Cert.KernelIdeal.Body.part_62' depends on axioms: [propext, Classical.choice, Quot.sound] -/
#guard_msgs in #print axioms part_62

end Cert.KernelIdeal.Body

end
-- ==== Proof.Parts.L65.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 65 of the body, run alone from exactly the tiles it touches.

    A tile is spelt as the embedding of the value it holds; what a whole-tile load reads back is that value, and a whole-tile
    store through the buffer's own view leaves the tile at the embedding of the vector stored. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Mesh Cert.KernelIdeal.LaunchK Cert.KernelIdeal.Vals

variable {F : FTy → Type} [FloatOps F]

local notation "𝕄" => MT nD τ sig Unit (Elt F) ℕ UU ℕ

/-- A tile just written whole through the accumulator's own view at the tile's rectangle holds the vector written. -/
private theorem acc_written (c : Dev nD) (g : Fin 4) (p : Fin 3) (off : Fin 4 → Nat) (hoff : off = ![g.val, p.val, 0, 0])
    (h : ∀ a, off a + S1x1x256x256.size a ≤ S4x3x256x256.size a)
    (base : AccBuf F) (w : Vec F S1x1x256x256 .bf16) :
    ((Proto.accSl g p).view.loc (c : Thread nD τ) ↦[(Proto.accSl g p).view.set]{fullShare}
        View.write (Elt F) ((Memref.whole cc0_scratch0).access (Rect.unit (s := S4x3x256x256) off S1x1x256x256.size h)) base w
          Finset.univ : sProp (MT nD τ sig Unit (Elt F) ℕ UU ℕ))
      = ((Proto.accSl g p).view.loc (c : Thread nD τ) ↦[(Proto.accSl g p).view.set]{fullShare} accEmb g p w) := by
  subst hoff
  exact accTile_of_read c fullShare g p (View.read_write_univ _ _)

/-- Group 3, round 0, second exchange: the three tiles of group 3 go from level 1 to level 2 — part 0 by storing the sum
    formed before, parts 1 and 2 by adding the received slices — and the part returns the last partner's id word. -/
theorem local_65 (I : Dev nD → Vals.Ins F) (c : Dev nD) (P : sProp (MT nD τ sig Unit (Elt F) ℕ UU ℕ)) :
    (iprop(Proto.accPts c 3 0 (accEmb 3 0 (Vals.A I 0 c 3 0 1))
        ∗ Proto.accPts c 3 1 (accEmb 3 1 (Vals.A I 0 c 3 1 1))
        ∗ Proto.rsPts c 3 1 1 (rsEmb 3 1 1 (Vals.R I 0 c 3 1 1))
        ∗ Proto.accPts c 3 2 (accEmb 3 2 (Vals.A I 0 c 3 2 1))
        ∗ Proto.rsPts c 3 2 1 (rsEmb 3 2 1 (Vals.R I 0 c 3 2 1)) ∗ P) : sProp 𝕄)
      ⊢ wp frame (wpE (defs₀ (F := F)) 𝒱₀ (c : Thread nD τ) none) Set.univ
          (k0_part65 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv1686 I c))
          (fun tup => iprop(⌜tup = lw1706 c⌝
            ∗ Proto.accPts c 3 0 (accEmb 3 0 (Vals.A I 0 c 3 0 2))
        ∗ Proto.accPts c 3 1 (accEmb 3 1 (Vals.A I 0 c 3 1 2))
        ∗ Proto.rsPts c 3 1 1 (rsEmb 3 1 1 (Vals.R I 0 c 3 1 1))
        ∗ Proto.accPts c 3 2 (accEmb 3 2 (Vals.A I 0 c 3 2 2))
        ∗ Proto.rsPts c 3 2 1 (rsEmb 3 2 1 (Vals.R I 0 c 3 2 1)) ∗ P)) := by
  unfold Proto.accPts Proto.rsPts
  iintro ⟨H0, H1, H2, H3, H4, HP⟩
  rw [k0_part65_eq_skeleton]
  unfold k0_part65_skel
  have h1690 : View.readAt (Elt F) (Memref.whole cc0_scratch0).view (Rect.unit (s := S4x3x256x256) ![3, 1, 0, 0] S1x1x256x256.size inb_S4x3x256x256_S1x1x256x256_3_1_0_0).toLoadRect (accEmb 3 1 (A I 0 c 3 1 1)) = A I 0 c 3 1 1 := accV_read_accEmb 3 1 _
  have h1692 : View.readAt (Elt F) (Memref.whole cc0_scratch1).view (Rect.unit (s := S8x3x3x256x256) ![3, 1, 1, 0, 0] S1x1x1x256x256.size inb_S8x3x3x256x256_S1x1x1x256x256_3_1_1_0_0).toLoadRect (rsEmb 3 1 1 (R I 0 c 3 1 1)) = R I 0 c 3 1 1 := rsV_read_rsEmb 3 1 1 _
  have h1698 : View.readAt (Elt F) (Memref.whole cc0_scratch0).view (Rect.unit (s := S4x3x256x256) ![3, 2, 0, 0] S1x1x256x256.size inb_S4x3x256x256_S1x1x256x256_3_2_0_0).toLoadRect (accEmb 3 2 (A I 0 c 3 2 1)) = A I 0 c 3 2 1 := accV_read_accEmb 3 2 _
  have h1700 : View.readAt (Elt F) (Memref.whole cc0_scratch1).view (Rect.unit (s := S8x3x3x256x256) ![3, 2, 1, 0, 0] S1x1x1x256x256.size inb_S8x3x3x256x256_S1x1x1x256x256_3_2_1_0_0).toLoadRect (rsEmb 3 2 1 (R I 0 c 3 2 1)) = R I 0 c 3 2 1 := rsV_read_rsEmb 3 2 1 _
  sl_exec
  sl_step
  sl_unfold_run_names
  istop
  rw [acc_written c 3 0 ![3, 0, 0, 0] rfl inb_S4x3x256x256_S1x1x256x256_3_0_0_0, acc_written c 3 1 ![3, 1, 0, 0] rfl inb_S4x3x256x256_S1x1x256x256_3_1_0_0, acc_written c 3 2 ![3, 2, 0, 0] rfl inb_S4x3x256x256_S1x1x256x256_3_2_0_0]
  iintro ⟨⟨⟨⟨⟨H0, H1⟩, H2⟩, H3⟩, H4⟩, HP⟩
  isplitr
  · ipureintro
    rfl
  isplitl [H0]
  · iexact H0
  isplitl [H1]
  · iexact H1
  isplitl [H2]
  · iexact H2
  isplitl [H3]
  · iexact H3
  isplitl [H4]
  · iexact H4
  iexact HP

/-- info: 'Cert.KernelIdeal.Body.local_65' depends on axioms: [propext, Classical.choice, Quot.sound] -/
#guard_msgs in #print axioms local_65

end Cert.KernelIdeal.Body

end
-- ==== Proof.Parts.Part65.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L65
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 65 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 65 of the body, run from the place before it, ends at the place after it and returns its values; whatever else is held is kept. -/
theorem part_65 (m : (ℓ : Loc nD τ sig) → Buf (Elt F) ℓ) (K : Dev nD × Cell → ℕ) (c : Dev nD) (Fr : sProp 𝕄) :
    iprop(St (insM m) K (σ 64) c ∗ outHeld (insM m) c (σ 64).outs ∗ Fr)
      ⊢ wp frame (wpE (defs₀ (F := F)) 𝒱₀ (c : Thread nD τ) none) Set.univ
          (k0_part65 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1686 (insM m) c))
          (fun tup => iprop(⌜tup = Vals.lw1706 c⌝ ∗ St (insM m) K (σ 65) c ∗ outHeld (insM m) c (σ 65).outs ∗ Fr)) := by
  have eo : (σ 65).outs = (σ 64).outs := rfl
  rw [eo]
  rw [St_eq, St_eq, StRest_congr (insM m) K c (s := σ 64) (s' := σ 65) rfl rfl rfl rfl, accAll_σ_64, accAll_σ_65, StRest_rs (insM m) K c (σ 65) rfl 10 (by decide), rs3_10]
  refine BIBase.Entails.trans ?_ ((local_65 (insM m) c iprop(rsTile c 3 0 1 (Vals.R (insM m) 0 c 3 0 1) ∗ StRestNoRs (insM m) K (σ 65) c 10 ∗ emp ∗ emp ∗ emp ∗ emp ∗ emp ∗ emp ∗ emp ∗ emp ∗ emp ∗ outHeld (insM m) c (σ 64).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T30]; · iexact T30
    isplitl [T31]; · iexact T31
    isplitl [R1]; · iexact R1
    isplitl [T32]; · iexact T32
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, R1, T32, R2, R0, HR, T00, T01, T02, T10, T11, T12, T20, T21, T22, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_65' depends on axioms: [propext, Classical.choice, Quot.sound] -/
#guard_msgs in #print axioms part_65

end Cert.KernelIdeal.Body

end
-- ==== Proof.Parts.L66.lean ====
/-
  Part 66 of the body starts two copies of step 11 (the 15th step started; round 0, group 3, position 2): part 0 of accumulator slice (3, 0) goes to receive slice (3, 0, 2) of the device paired along mask 4, part 1 of accumulator slice (3, 1) goes to receive slice (3, 1, 2) of the device paired along mask 1.
  The accumulator slices, at level 2 of round 0, and the paired devices' receive slices leave the device's hands; it holds the departure credits of its send cell 11 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 66: the copies of parts 0 and 1 of step 11. -/
theorem local_66 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 45) W)
        ∗ dutyTok ER (sendCell c 11) 0 0 ∗ dutyTok ER (recvCell (mate c 0 11) 11) 0 0
        ∗ dutyTok ER (sendCell c 11) 0 1 ∗ dutyTok ER (recvCell (mate c 1 11) 11) 0 1
        ∗ rsTileAny (F := F) (mate c 0 11) 3 0 2
        ∗ rsTileAny (F := F) (mate c 1 11) 3 1 2
        ∗ accTile c 3 0 (A I 0 c 3 0 2)
        ∗ accTile c 3 1 (A I 0 c 3 1 2)
        ∗ P)
      ⊢ wp frame (wpE (defs₀ (F := F)) 𝒱₀ (c : Thread nD τ) none) Set.univ
          (k0_part66 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1717 c, Vals.lw1728 c⟩⌝
            ∗ (∃ W, owes (c : Thread nD τ) (owedFrom c 47) W)
            ∗ cred (tallyAt (sendCell c 11) () N)
            ∗ cred (tallyAt (sendCell c 11) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 11)) $$ HR
  ihave #HRs := (reached_at (RdI I) K (c, Cell.send 11)) $$ HR
  ihave #HIr0 := (inv_at (RdI I) K (mate c 0 11, Cell.recv 11)) $$ HR
  ihave #HRr0 := (reached_at (RdI I) K (mate c 0 11, Cell.recv 11)) $$ HR
  ihave #HIr1 := (inv_at (RdI I) K (mate c 1 11, Cell.recv 11)) $$ HR
  ihave #HRr1 := (reached_at (RdI I) K (mate c 1 11, Cell.recv 11)) $$ HR
  sl_exec
  iapply (wp_fire_at (accCI I) (rs0I I) c 11 0 (g := 3) (rg := 3) (s := 2) (by decide) (by decide) (by decide)
      (dv := ⟨k0_dev46 c, k0_dev46_lt c⟩) ((dev46_eq c).trans rfl) rfl rfl (sendS_eq 11).symm (recvS_eq 11).symm
      (accEmb 3 0 (A I 0 c 3 0 2)) rfl fd0 (owedFrom c 46) (owed_copy c 14 0 45 (by decide) 11 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 11 1 (g := 3) (rg := 3) (s := 2) (by decide) (by decide) (by decide)
      (dv := ⟨k0_dev47 c, k0_dev47_lt c⟩) ((dev47_eq c).trans rfl) rfl rfl (sendS_eq 11).symm (recvS_eq 11).symm
      (accEmb 3 1 (A I 0 c 3 1 2)) rfl fd1 (owedFrom c 47) (owed_copy c 14 1 46 (by decide) 11 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_66' depends on axioms: [propext, Classical.choice, Quot.sound] -/
#guard_msgs in #print axioms Cert.KernelIdeal.Body.local_66

end
-- ==== Proof.Parts.Part67.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L67
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 67 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 67 of the body, run from the place before it, ends at the place after it; whatever else is held is kept. -/
theorem part_67 (m : (ℓ : Loc nD τ sig) → Buf (Elt F) ℓ) (K : Dev nD × Cell → ℕ) (c : Dev nD) (Fr : sProp 𝕄) :
    iprop(St (insM m) K (σ 66) c ∗ outHeld (insM m) c (σ 66).outs ∗ Fr)
      ⊢ wp frame (wpE (defs₀ (F := F)) 𝒱₀ (c : Thread nD τ) none) Set.univ
          (k0_part67 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1394 c))
          (fun _ => iprop(St (insM m) K (σ 67) c ∗ outHeld (insM m) c (σ 67).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 47 : sProp (MT nD τ sig Unit (Elt F) ℕ UU ℕ)) = iprop(dutyTok ER (sendCell c 11) 0 2 ∗ dutyTok ER (recvCell (mate c 2 11) 11) 0 2 ∗ toksFrom c 48) := toksFrom_copy c 14 2
  have hF0 : (foreignFrom c 44 : sProp (MT nD τ sig Unit (Elt F) ℕ UU ℕ)) = iprop(rsTileAny (mate c 2 11) 3 2 2 ∗ foreignFrom c 45) := foreignFrom_succ c 14 2
  have hC : (credFrom c 36 : sProp (MT nD τ sig Unit (Elt F) ℕ UU ℕ)) = iprop(credFrom c 37 ∗ cred (tallyAt (recvCell c 8) () N)) := by
    rw [credFrom_succ c 36 (by omega), show ownCell c 36 = recvCell c 8 from ownCell_fire c 11 0, show dueAmt 36 = N from dueAmt_fire 11 0]
  have hG : (todoFrom c 23 : sProp (MT nD τ sig Unit (Elt F) ℕ UU ℕ)) = iprop(curCell (sendCell c 8) (fun p => (RdI (insM m)).payload (sendCell c 8) 0 p) 0 ∗ curCell (recvCell c 8) (fun p => (RdI (insM m)).payload (recvCell c 8) 0 p) 0 ∗ todoFrom c 25) := todo_group c 11
  rw [show (σ 67).outs = (σ 66).outs from rfl, St_open_66, St_open_67, hT0, hF0, hC, hG]
  simp only [hemp, hemp']
  refine BIBase.Entails.trans (Entails.of_eq ?_) (BIBase.Entails.trans (local_67 (insM m) K c iprop(toksFrom c 48 ∗ credFrom c 37 ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ doneTo c 23 ∗ todoFrom c 25 ∗ foreignFrom c 45 ∗ rsBack (insM m) c 11 ∗ outHeld (insM m) c (σ 66).outs ∗ Fr)) (wp_mono _ _ _ fun tup => Entails.of_eq ?_))
  · ac_rfl
  · ac_rfl

/-- info: 'Cert.KernelIdeal.Body.part_67' depends on axioms: [propext, Classical.choice, Quot.sound] -/
#guard_msgs in #print axioms part_67

end Cert.KernelIdeal.Body

end
-- ==== Proof.Parts.L70.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 70 of the body, run alone from exactly the tiles it touches.

    A tile is spelt as the embedding of the value it holds; what a whole-tile load reads back is that value, and a whole-tile
    store through the buffer's own view leaves the tile at the embedding of the vector stored. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Mesh Cert.KernelIdeal.LaunchK Cert.KernelIdeal.Vals

variable {F : FTy → Type} [FloatOps F]

local notation "𝕄" => MT nD τ sig Unit (Elt F) ℕ UU ℕ

/-- Group 2's feed-forward partial product, computed: the part reads tile (2, 0) (the value is not used) and returns the
    product's parts 1 and 2 side by side and its part 0 as a slice. The tile comes back as it was. -/
theorem local_70 (I : Dev nD → Vals.Ins F) (c : Dev nD) (P : sProp (MT nD τ sig Unit (Elt F) ℕ UU ℕ)) :
    (iprop(Proto.accPts c 2 0 (accEmb 2 0 (Vals.A I 0 c 2 0 2)) ∗ P) : sProp 𝕄)
      ⊢ wp frame (wpE (defs₀ (F := F)) 𝒱₀ (c : Thread nD τ) none) Set.univ
          (k0_part70 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lv23 I c) (lv24 I c) (lv40 I c) (lv43 I c) (lv1805 I c))
          (fun tup => iprop(⌜tup = ⟨lv1848 I c, lv1852 I c⟩⌝
            ∗ Proto.accPts c 2 0 (accEmb 2 0 (Vals.A I 0 c 2 0 2)) ∗ P)) := by
  unfold Proto.accPts
  iintro ⟨H0, HP⟩
  rw [k0_part70_eq_skeleton]
  unfold k0_part70_skel
  have h1850 : View.readAt (Elt F) (Memref.whole cc0_scratch0).view (Rect.unit (s := S4x3x256x256) ![2, 0, 0, 0] S1x1x256x256.size inb_S4x3x256x256_S1x1x256x256_2_0_0_0).toLoadRect (accEmb 2 0 (A I 0 c 2 0 2)) = A I 0 c 2 0 2 := accV_read_accEmb 2 0 _
  sl_exec
  sl_step
  isplitr
  · ipureintro
    rfl
  isplitl [H0]
  · iexact H0
  iexact HP

/-- info: 'Cert.KernelIdeal.Body.local_70' depends on axioms: [propext, Classical.choice, Quot.sound] -/
#guard_msgs in #print axioms local_70

end Cert.KernelIdeal.Body

end
-- ==== Proof.Parts.Part70.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L70
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable

/-! Part 70 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 70 of the body, run from the place before it, ends at the place after it and returns its values; whatever else is held is kept. -/
theorem part_70 (m : (ℓ : Loc nD τ sig) → Buf (Elt F) ℓ) (K : Dev nD × Cell → ℕ) (c : Dev nD) (Fr : sProp 𝕄) :
    iprop(St (insM m) K (σ 69) c ∗ outHeld (insM m) c (σ 69).outs ∗ Fr)
      ⊢ wp frame (wpE (defs₀ (F := F)) 𝒱₀ (c : Thread nD τ) none) Set.univ
          (k0_part70 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv23 (insM m) c) (Vals.lv24 (insM m) c) (Vals.lv40 (insM m) c) (Vals.lv43 (insM m) c) (Vals.lv1805 (insM m) c))
          (fun tup => iprop(⌜tup = ⟨Vals.lv1848 (insM m) c, Vals.lv1852 (insM m) c⟩⌝ ∗ St (insM m) K (σ 70) c ∗ outHeld (insM m) c (σ 70).outs ∗ Fr)) := by
  have eo : (σ 70).outs = (σ 69).outs := rfl
  rw [eo]
  rw [St_eq, St_eq, StRest_congr (insM m) K c (s := σ 69) (s' := σ 70) rfl rfl rfl rfl, accAll_σ_69, accAll_σ_70]
  refine BIBase.Entails.trans ?_ ((local_70 (insM m) c iprop(StRest (insM m) K (σ 70) c ∗ emp ∗ emp ∗ emp ∗ emp ∗ emp ∗ emp ∗ accTile c 2 1 (Vals.A (insM m) 0 c 2 1 2) ∗ accTile c 2 2 (Vals.A (insM m) 0 c 2 2 2) ∗ emp ∗ emp ∗ emp ∗ outHeld (insM m) c (σ 69).outs ∗ Fr)).trans (wp_mono _ _ _ fun tup => ?_))
  · iintro ⟨⟨HR, T00, T01, T02, T10, T11, T12, T20, T21, T22, T30, T31, T32⟩, HO, HF⟩
    isplitl [T20]; · iexact T20
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T21]; · iexact T21
    isplitl [T22]; · iexact T22
    isplitl [T30]; · iexact T30
    isplitl [T31]; · iexact T31
    isplitl [T32]; · iexact T32
    isplitl [HO]; · iexact HO
    iexact HF
  · iintro ⟨%ht, T20, HR, T00, T01, T02, T10, T11, T12, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_70' depends on axioms: [propext, Classical.choice, Quot.sound] -/
#guard_msgs in #print axioms part_70

end Cert.KernelIdeal.Body

end
-- ==== Proof.Parts.L71.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 71 of the body: the stores into accumulator tiles (2, 0), (2, 1), (2, 2), then the start of the copy of part 0 at step 18 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_71 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 48) W)
        ∗ dutyTok ER (sendCell c 18) 0 0 ∗ dutyTok ER (recvCell (mate c 0 18) 18) 0 0
        ∗ rsTileAny (mate c 0 18) (rgOf 18) 0 (sOf 18)
        ∗ accTile c 2 0 (Vals.A I 0 c 2 0 2)
        ∗ accTile c 2 1 (Vals.A I 0 c 2 1 2)
        ∗ accTile c 2 2 (Vals.A I 0 c 2 2 2)
        ∗ P) : sProp (MT nD τ sig Unit (Elt F) ℕ UU ℕ))
      ⊢ wp frame (wpE (defs₀ (F := F)) 𝒱₀ (c : Thread nD τ) none) Set.univ
      (k0_part71 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1805 I c) (Vals.lv1848 I c) (Vals.lv1852 I c))
      (fun tup => iprop(⌜tup = ⟨Vals.lw1862 c, Vals.lw1873 c⟩⌝
        ∗ records (RdI I) K
        ∗ (∃ W, owes (c : Thread nD τ) (owedFrom c 49) W)
        ∗ cred (tallyAt (sendCell c 18) () N)
        ∗ accTile c 2 1 (Vals.A I 1 c 2 1 0)
        ∗ accTile c 2 2 (Vals.A I 1 c 2 2 0)
        ∗ P)) := by
  unfold accTile rsTileAny Proto.accPts Proto.rsPts
  iintro ⟨#Hrec, ⟨%W, HO⟩, Hts0, Htr0, ⟨%fd0, Hfd0⟩, Ha20, Ha21, Ha22, HP⟩
  ihave #HIs0 := (inv_at (RdI I) K (c, Cell.send 18)) $$ Hrec
  ihave #HIr0 := (inv_at (RdI I) K (mate c 0 18, Cell.recv 18)) $$ Hrec
  ihave #Hrs0 := (reached_at (RdI I) K (c, Cell.send 18)) $$ Hrec
  ihave #Hrr0 := (reached_at (RdI I) K (mate c 0 18, Cell.recv 18)) $$ Hrec
  rw [k0_part71_eq_skeleton]
  unfold k0_part71_skel
  sl_exec
  -- the source tile as the level names it
  have Ha20_e : View.read (Elt F) (accV 2 0) (local_71.sl.Ha20_w1 I c) = Vals.A I 1 c 2 0 0 := by
    unfold local_71.sl.Ha20_w1; exact View.read_write_univ _ _
  have Ha20_t : ((Proto.accSl 2 0).view.loc (c : Thread nD τ) ↦[(Proto.accSl 2 0).view.set]{fullShare} local_71.sl.Ha20_w1 I c : sProp (MT nD τ sig Unit (Elt F) ℕ UU ℕ)) = ((Proto.accSl 2 0).view.loc (c : Thread nD τ) ↦[(Proto.accSl 2 0).view.set]{fullShare} accEmb 2 0 (Vals.A I 1 c 2 0 0) : sProp (MT nD τ sig Unit (Elt F) ℕ UU ℕ)) := accTile_of_read c fullShare 2 0 Ha20_e
  ihave Ha20 := (Entails.of_eq Ha20_t) $$ Ha20
  -- the copy of part 0 at step 18 (started as number 16): its units on the partner's receive cell are owed last
  have hc0 : dueCell c 48 = recvCell (mate c 0 18) 18 := dueCell_fire c 15 0
  have ha0 : dueAmt 48 = N := dueAmt_fire 15 0
  have hO0 : owedFrom c 48 = owedFrom c 49 + tallyAt (recvCell (mate c 0 18) 18) () N :=
    (owedFrom_succ c 48 (by decide)).trans (by rw [hc0, ha0])
  iapply (wp_fire_at (accCI I) (rs0I I) c 18 0 (g := 2) (rg := 6) (s := 0) rfl rfl rfl (dev49_eq c) rfl rfl
    (sendS_eq 18) (recvS_eq 18) (accEmb 2 0 (Vals.A I 1 c 2 0 0)) rfl fd0 (owedFrom c 49) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha21_e : View.read (Elt F) (accV 2 1) (local_71.sl.Ha21_w2 I c) = Vals.A I 1 c 2 1 0 := by
    unfold local_71.sl.Ha21_w2; exact View.read_write_univ _ _
  have Ha21_t : ((Proto.accSl 2 1).view.loc (c : Thread nD τ) ↦[(Proto.accSl 2 1).view.set]{fullShare} local_71.sl.Ha21_w2 I c : sProp (MT nD τ sig Unit (Elt F) ℕ UU ℕ)) = ((Proto.accSl 2 1).view.loc (c : Thread nD τ) ↦[(Proto.accSl 2 1).view.set]{fullShare} accEmb 2 1 (Vals.A I 1 c 2 1 0) : sProp (MT nD τ sig Unit (Elt F) ℕ UU ℕ)) := accTile_of_read c fullShare 2 1 Ha21_e
  have Ha22_e : View.read (Elt F) (accV 2 2) (local_71.sl.Ha22_w3 I c) = Vals.A I 1 c 2 2 0 := by
    unfold local_71.sl.Ha22_w3; exact View.read_write_univ _ _
  have Ha22_t : ((Proto.accSl 2 2).view.loc (c : Thread nD τ) ↦[(Proto.accSl 2 2).view.set]{fullShare} local_71.sl.Ha22_w3 I c : sProp (MT nD τ sig Unit (Elt F) ℕ UU ℕ)) = ((Proto.accSl 2 2).view.loc (c : Thread nD τ) ↦[(Proto.accSl 2 2).view.set]{fullShare} accEmb 2 2 (Vals.A I 1 c 2 2 0) : sProp (MT nD τ sig Unit (Elt F) ℕ UU ℕ)) := accTile_of_read c fullShare 2 2 Ha22_e
  rw [← Ha21_t, ← Ha22_t]
  isplitr [HO Hcs0 Ha21 Ha22 HP]
  · ipureintro; rfl
  isplitr [HO Hcs0 Ha21 Ha22 HP]; · iexact Hrec
  isplitl [HO]; · iexists W; iexact HO
  iframe

/-- info: 'Cert.KernelIdeal.Body.local_71' depends on axioms: [propext, Classical.choice, Quot.sound] -/
#guard_msgs in #print axioms local_71

end Cert.KernelIdeal.Body
-- ==== Proof.Parts.Part71.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L71
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 71 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 71 of the body, run from the place before it, ends at the place after it and returns its values; whatever else is held is kept. -/
theorem part_71 (m : (ℓ : Loc nD τ sig) → Buf (Elt F) ℓ) (K : Dev nD × Cell → ℕ) (c : Dev nD) (Fr : sProp 𝕄) :
    iprop(St (insM m) K (σ 70) c ∗ outHeld (insM m) c (σ 70).outs ∗ Fr)
      ⊢ wp frame (wpE (defs₀ (F := F)) 𝒱₀ (c : Thread nD τ) none) Set.univ
          (k0_part71 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1805 (insM m) c) (Vals.lv1848 (insM m) c) (Vals.lv1852 (insM m) c))
          (fun tup => iprop(⌜tup = ⟨Vals.lw1862 c, Vals.lw1873 c⟩⌝ ∗ St (insM m) K (σ 71) c ∗ outHeld (insM m) c (σ 71).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 48 : sProp (MT nD τ sig Unit (Elt F) ℕ UU ℕ))
      = iprop(dutyTok ER (sendCell c 18) 0 0 ∗ dutyTok ER (recvCell (mate c 0 18) 18) 0 0 ∗ toksFrom c 49) := toksFrom_copy c 15 0
  have hf0 : (foreignFrom c 45 : sProp (MT nD τ sig Unit (Elt F) ℕ UU ℕ))
      = iprop(rsTileAny (mate c 0 18) (rgOf 18) 0 (sOf 18) ∗ foreignFrom c 46) := foreignFrom_succ c 15 0
  rw [St_open_70, St_open_71, ht0, hf0, show (σ 70).outs = (σ 71).outs from rfl]
  simp only [hemp, hemp']
  refine BIBase.Entails.trans (Entails.of_eq ?_) (BIBase.Entails.trans
    (local_71 (insM m) K c
      (iprop(levAts Proto.L Proto.lv
        ∗ toksFrom c 49
        ∗ credFrom c 39
        ∗ cred (tallyAt (sendCell c 15) () N)
        ∗ cred (tallyAt (sendCell c 15) () N)
        ∗ cred (tallyAt (sendCell c 15) () N)
        ∗ cred (tallyAt (sendCell c 13) () N)
        ∗ cred (tallyAt (sendCell c 13) () N)
        ∗ cred (tallyAt (sendCell c 13) () N)
        ∗ cred (tallyAt (sendCell c 11) () N)
        ∗ cred (tallyAt (sendCell c 11) () N)
        ∗ cred (tallyAt (sendCell c 11) () N)
        ∗ doneTo c 25
        ∗ todoFrom c 25
        ∗ foreignFrom c 46
        ∗ rsBack (insM m) c 12
        ∗ outHeld (insM m) c (σ 71).outs
        ∗ Fr)))
    (wp_mono _ _ _ fun tup => Entails.of_eq ?_))
  · ac_rfl
  · ac_rfl

/-- info: 'Cert.KernelIdeal.Body.part_71' depends on axioms: [propext, Classical.choice, Quot.sound] -/
#guard_msgs in #print axioms part_71

end Cert.KernelIdeal.Body

end
-- ==== Proof.Parts.Part72.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L72
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 72 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 72 of the body, run from the place before it, ends at the place after it and returns its values; whatever else is held is kept. -/
theorem part_72 (m : (ℓ : Loc nD τ sig) → Buf (Elt F) ℓ) (K : Dev nD × Cell → ℕ) (c : Dev nD) (Fr : sProp 𝕄) :
    iprop(St (insM m) K (σ 71) c ∗ outHeld (insM m) c (σ 71).outs ∗ Fr)
      ⊢ wp frame (wpE (defs₀ (F := F)) 𝒱₀ (c : Thread nD τ) none) Set.univ
          (k0_part72 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = Vals.lw1884 c⌝ ∗ St (insM m) K (σ 72) c ∗ outHeld (insM m) c (σ 72).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 49 : sProp (MT nD τ sig Unit (Elt F) ℕ UU ℕ)) = iprop(dutyTok ER (sendCell c 18) 0 1 ∗ dutyTok ER (recvCell (mate c 1 18) 18) 0 1 ∗ toksFrom c 50) := toksFrom_copy c 15 1
  have hF0 : (foreignFrom c 46 : sProp (MT nD τ sig Unit (Elt F) ℕ UU ℕ)) = iprop(rsTileAny (mate c 1 18) 6 1 0 ∗ foreignFrom c 47) := foreignFrom_succ c 15 1
  have hT1 : (toksFrom c 50 : sProp (MT nD τ sig Unit (Elt F) ℕ UU ℕ)) = iprop(dutyTok ER (sendCell c 18) 0 2 ∗ dutyTok ER (recvCell (mate c 2 18) 18) 0 2 ∗ toksFrom c 51) := toksFrom_copy c 15 2
  have hF1 : (foreignFrom c 47 : sProp (MT nD τ sig Unit (Elt F) ℕ UU ℕ)) = iprop(rsTileAny (mate c 2 18) 6 2 0 ∗ foreignFrom c 48) := foreignFrom_succ c 15 2
  have hG : (todoFrom c 25 : sProp (MT nD τ sig Unit (Elt F) ℕ UU ℕ)) = iprop(curCell (sendCell c 15) (fun p => (RdI (insM m)).payload (sendCell c 15) 0 p) 0 ∗ curCell (recvCell c 15) (fun p => (RdI (insM m)).payload (recvCell c 15) 0 p) 0 ∗ todoFrom c 27) := todo_group c 12
  rw [show (σ 72).outs = (σ 71).outs from rfl, St_open_71, St_open_72, hT0, hF0, hT1, hF1, hG]
  simp only [hemp, hemp']
  refine BIBase.Entails.trans (Entails.of_eq ?_) (BIBase.Entails.trans (local_72 (insM m) K c iprop(toksFrom c 51 ∗ credFrom c 39 ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ doneTo c 25 ∗ curCell (recvCell c 15) (fun p => (RdI (insM m)).payload (recvCell c 15) 0 p) 0 ∗ todoFrom c 27 ∗ foreignFrom c 48 ∗ rsBack (insM m) c 12 ∗ outHeld (insM m) c (σ 71).outs ∗ Fr)) (wp_mono _ _ _ fun tup => Entails.of_eq ?_))
  · ac_rfl
  · ac_rfl

/-- info: 'Cert.KernelIdeal.Body.part_72' depends on axioms: [propext, Classical.choice, Quot.sound] -/
#guard_msgs in #print axioms part_72

end Cert.KernelIdeal.Body

end
-- ==== Proof.Parts.L74.lean ====
/-
  Part 74 of the body ends wait group 12 (round 1, group 1, first exchange): the third wait on its send cell hands back the
  three accumulator tiles of group 1 at level 0 of round 1, the third wait on its receive cell hands over the three receive
  tiles holding the partners' tiles of that level. It then reads part 0's accumulator tile and receive tile and returns
  their sum as a 256 × 256 matrix together with the accumulator tile as read.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem local_74 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 51) W)
        ∗ cred (tallyAt (sendCell c 15) () N) ∗ cred (tallyAt (recvCell c 15) () N)
        ∗ curCell (sendCell c 15) (fun p => (RdI I).payload (sendCell c 15) 0 p) 2
        ∗ curCell (recvCell c 15) (fun p => (RdI I).payload (recvCell c 15) 0 p) 2 ∗ P) : sProp (MT nD τ sig Unit (Elt F) ℕ UU ℕ))
      ⊢ wp frame (wpE (defs₀ (F := F)) 𝒱₀ (c : Thread nD τ) none) Set.univ
        (k0_part74 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw1530 c))
        (fun tup => iprop(⌜tup = ⟨Vals.lv1941 I c, Vals.lv1942 I c⟩⌝ ∗ records (RdI I) K ∗ levAts Proto.L Proto.lv ∗ (∃ W, owes (c : Thread nD τ) (owedFrom c 51) W)
          ∗ curCell (sendCell c 15) (fun p => (RdI I).payload (sendCell c 15) 0 p) 3
          ∗ curCell (recvCell c 15) (fun p => (RdI I).payload (recvCell c 15) 0 p) 3
          ∗ accTile c 1 0 (Vals.A I 1 c 1 0 0) ∗ accTile c 1 1 (Vals.A I 1 c 1 1 0) ∗ accTile c 1 2 (Vals.A I 1 c 1 2 0)
          ∗ rsTile c 5 0 0 (Vals.R I 1 c 1 0 0) ∗ rsTile c 5 1 0 (Vals.R I 1 c 1 1 0) ∗ rsTile c 5 2 0 (Vals.R I 1 c 1 2 0) ∗ P)) := by
  unfold accTile rsTile Proto.accPts Proto.rsPts
  iintro ⟨#HR, #Hlev, ⟨%W, HO⟩, Cs, Cr, Hs, Hr, HP⟩
  ihave #HIs := (inv_at (RdI I) K (c, Cell.send 15)) $$ HR
  ihave #HIr := (inv_at (RdI I) K (c, Cell.recv 15)) $$ HR
  sl_unfold [k0_part74]
  sl_exec
  -- the third wait on send cell 15: the rest of its round, the three source tiles back
  iapply (wp_wait3 (RdI I) c (sendS 15) (duties_send _ _ c 15) (expect_send _ _ c 15) (hw := fun _ => rfl)) $$ [HO Cs Hs]
  · isplitr; · iexact HIs
    isplitl [Cs]; · iexact Cs
    isplitl [HO]; · iexact HO
    isplitr
    · iapply (mayWait_sendAt (F := F) c 15); iexact Hlev
    iexact Hs
  iintro ⟨HO, Hs, Ha0, Ha1, Ha2⟩
  have es : ∀ p : Fin 3, ((RdI I).payload ((c : Thread nD τ), SemLoc.dma (sendS 15)) 0 p : sProp (MT nD τ sig Unit (Elt F) ℕ UU ℕ))
      ⊢ ((Proto.accSl 1 p).view.loc (c : Thread nD τ) ↦[(Proto.accSl 1 p).view.set]{fullShare} accEmb 1 p (Vals.A I 1 c 1 p 0)) :=
    fun p => Entails.of_eq (payload_send_tile I c 15 p)
  ihave Ha0 := (es 0) $$ Ha0
  ihave Ha1 := (es 1) $$ Ha1
  ihave Ha2 := (es 2) $$ Ha2
  sl_exec
  -- the third wait on receive cell 15: the rest of its round, the three receive tiles at what landed in them
  iapply (wp_wait3 (RdI I) c (recvS 15) (duties_recv _ _ c 15) (expect_recv _ _ c 15) (hw := fun _ => rfl)) $$ [HO Cr Hr]
  · isplitr; · iexact HIr
    isplitl [Cr]; · iexact Cr
    isplitl [HO]; · iexact HO
    isplitr
    · iapply (mayWait_recvAt (F := F) c 15); iexact Hlev
    iexact Hr
  iintro ⟨HO, Hr, Hb0, Hb1, Hb2⟩
  have er : ∀ p : Fin 3, ((RdI I).payload ((c : Thread nD τ), SemLoc.dma (recvS 15)) 0 p : sProp (MT nD τ sig Unit (Elt F) ℕ UU ℕ))
      ⊢ ((Proto.rsSl 5 p 0).view.loc (c : Thread nD τ) ↦[(Proto.rsSl 5 p 0).view.set]{fullShare} rsEmb 5 p 0 (Vals.R I 1 c 1 p 0)) :=
    fun p => Entails.of_eq (payload_recv_tile I c 15 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![1, 0, 0, 0] S1x1x256x256.size inb_S4x3x256x256_S1x1x256x256_1_0_0_0).toLoadRect (accEmb 1 0 (Vals.A I 1 c 1 0 0)) = Vals.A I 1 c 1 0 0 := accV_read_accEmb 1 0 _
    have e2 : View.readAt (Elt F) (Memref.whole cc0_scratch1).view (Rect.unit (s := S8x3x3x256x256) ![5, 0, 0, 0, 0] S1x1x1x256x256.size inb_S8x3x3x256x256_S1x1x1x256x256_5_0_0_0_0).toLoadRect (rsEmb 5 0 0 (Vals.R I 1 c 1 0 0)) = Vals.R I 1 c 1 0 0 := rsV_read_rsEmb 5 0 0 _
    rw [e1, e2]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.KernelIdeal.Body.local_74' depends on axioms: [propext, Classical.choice, Quot.sound] -/
#guard_msgs in #print axioms local_74

end Cert.KernelIdeal.Body
-- ==== Proof.Parts.Part74.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L74
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 74 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 74 of the body, run from the place before it, ends at the place after it and returns its values; whatever else is held is kept. -/
theorem part_74 (m : (ℓ : Loc nD τ sig) → Buf (Elt F) ℓ) (K : Dev nD × Cell → ℕ) (c : Dev nD) (Fr : sProp 𝕄) :
    iprop(St (insM m) K (σ 73) c ∗ outHeld (insM m) c (σ 73).outs ∗ Fr)
      ⊢ wp frame (wpE (defs₀ (F := F)) 𝒱₀ (c : Thread nD τ) none) Set.univ
          (k0_part74 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw1530 c))
          (fun tup => iprop(⌜tup = ⟨Vals.lv1941 (insM m) c, Vals.lv1942 (insM m) c⟩⌝ ∗ St (insM m) K (σ 74) c ∗ outHeld (insM m) c (σ 74).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 41 : sProp (MT nD τ sig Unit (Elt F) ℕ UU ℕ)) = iprop(credFrom c 42 ∗ cred (tallyAt (recvCell c 15) () N)) := by
    rw [credFrom_succ c 41 (by omega), show ownCell c 41 = recvCell c 15 from ownCell_fire c 12 2, show dueAmt 41 = N from dueAmt_fire 12 2]
  have hd : (doneTo c 27 : sProp (MT nD τ sig Unit (Elt F) ℕ UU ℕ))
      = iprop(doneTo c 25 ∗ curCell (sendCell c 15) (fun p => (RdI (insM m)).payload (sendCell c 15) 0 p) 3
          ∗ curCell (recvCell c 15) (fun p => (RdI (insM m)).payload (recvCell c 15) 0 p) 3) := (done_group c 12).symm
  have hb : (rsBack (insM m) c 13 : sProp (MT nD τ sig Unit (Elt F) ℕ UU ℕ))
      = iprop((rsTile c 5 0 0 (Vals.R (insM m) 1 c 1 0 0) ∗ rsTile c 5 1 0 (Vals.R (insM m) 1 c 1 1 0) ∗ rsTile c 5 2 0 (Vals.R (insM m) 1 c 1 2 0))
          ∗ rsBack (insM m) c 12) := rsBack_succ (insM m) c 12
  rw [St_open_73, St_open_74, hc, hd, hb, show (σ 73).outs = (σ 74).outs from rfl]
  simp only [hemp, hemp']
  refine BIBase.Entails.trans (Entails.of_eq ?_) (BIBase.Entails.trans
    (local_74 (insM m) K c
      (iprop(toksFrom c 51
        ∗ credFrom c 42
        ∗ cred (tallyAt (sendCell c 13) () N)
        ∗ cred (tallyAt (sendCell c 13) () N)
        ∗ cred (tallyAt (sendCell c 13) () N)
        ∗ cred (tallyAt (sendCell c 11) () N)
        ∗ cred (tallyAt (sendCell c 11) () N)
        ∗ cred (tallyAt (sendCell c 11) () N)
        ∗ cred (tallyAt (sendCell c 18) () N)
        ∗ cred (tallyAt (sendCell c 18) () N)
        ∗ cred (tallyAt (sendCell c 18) () N)
        ∗ doneTo c 25
        ∗ todoFrom c 27
        ∗ foreignFrom c 48
        ∗ rsBack (insM m) c 12
        ∗ outHeld (insM m) c (σ 74).outs
        ∗ Fr)))
    (wp_mono _ _ _ fun tup => Entails.of_eq ?_))
  · ac_rfl
  · ac_rfl

/-- info: 'Cert.KernelIdeal.Body.part_74' depends on axioms: [propext, Classical.choice, Quot.sound] -/
#guard_msgs in #print axioms part_74

end Cert.KernelIdeal.Body

end
-- ==== Proof.Parts.L75.lean ====
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 75 of the body, run alone from exactly the tiles it touches.

    A tile is spelt as the embedding of the value it holds; what a whole-tile load reads back is that value, and a whole-tile
    store through the buffer's own view leaves the tile at the embedding of the vector stored. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Mesh Cert.KernelIdeal.LaunchK Cert.KernelIdeal.Vals

variable {F : FTy → Type} [FloatOps F]

local notation "𝕄" => MT nD τ sig Unit (Elt F) ℕ UU ℕ

/-- A tile just written whole through the accumulator's own view at the tile's rectangle holds the vector written. -/
private theorem acc_written (c : Dev nD) (g : Fin 4) (p : Fin 3) (off : Fin 4 → Nat) (hoff : off = ![g.val, p.val, 0, 0])
    (h : ∀ a, off a + S1x1x256x256.size a ≤ S4x3x256x256.size a)
    (base : AccBuf F) (w : Vec F S1x1x256x256 .bf16) :
    ((Proto.accSl g p).view.loc (c : Thread nD τ) ↦[(Proto.accSl g p).view.set]{fullShare}
        View.write (Elt F) ((Memref.whole cc0_scratch0).access (Rect.unit (s := S4x3x256x256) off S1x1x256x256.size h)) base w
          Finset.univ : sProp (MT nD τ sig Unit (Elt F) ℕ UU ℕ))
      = ((Proto.accSl g p).view.loc (c : Thread nD τ) ↦[(Proto.accSl g p).view.set]{fullShare} accEmb g p w) := by
  subst hoff
  exact accTile_of_read c fullShare g p (View.read_write_univ _ _)

/-- Group 1, round 1, first exchange: the three tiles of group 1 go from level 0 to level 1 — part 0 by storing the sum
    formed before, parts 1 and 2 by adding the received slices — and the part returns the second partner's id word. -/
theorem local_75 (I : Dev nD → Vals.Ins F) (c : Dev nD) (P : sProp (MT nD τ sig Unit (Elt F) ℕ UU ℕ)) :
    (iprop(Proto.accPts c 1 0 (accEmb 1 0 (Vals.A I 1 c 1 0 0))
        ∗ Proto.accPts c 1 1 (accEmb 1 1 (Vals.A I 1 c 1 1 0))
        ∗ Proto.rsPts c 5 1 0 (rsEmb 5 1 0 (Vals.R I 1 c 1 1 0))
        ∗ Proto.accPts c 1 2 (accEmb 1 2 (Vals.A I 1 c 1 2 0))
        ∗ Proto.rsPts c 5 2 0 (rsEmb 5 2 0 (Vals.R I 1 c 1 2 0)) ∗ P) : sProp 𝕄)
      ⊢ wp frame (wpE (defs₀ (F := F)) 𝒱₀ (c : Thread nD τ) none) Set.univ
          (k0_part75 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv1941 I c) (lv1942 I c))
          (fun tup => iprop(⌜tup = lw1961 c⌝
            ∗ Proto.accPts c 1 0 (accEmb 1 0 (Vals.A I 1 c 1 0 1))
        ∗ Proto.accPts c 1 1 (accEmb 1 1 (Vals.A I 1 c 1 1 1))
        ∗ Proto.rsPts c 5 1 0 (rsEmb 5 1 0 (Vals.R I 1 c 1 1 0))
        ∗ Proto.accPts c 1 2 (accEmb 1 2 (Vals.A I 1 c 1 2 1))
        ∗ Proto.rsPts c 5 2 0 (rsEmb 5 2 0 (Vals.R I 1 c 1 2 0)) ∗ P)) := by
  unfold Proto.accPts Proto.rsPts
  iintro ⟨H0, H1, H2, H3, H4, HP⟩
  rw [k0_part75_eq_skeleton]
  unfold k0_part75_skel
  have h1945 : View.readAt (Elt F) (Memref.whole cc0_scratch0).view (Rect.unit (s := S4x3x256x256) ![1, 1, 0, 0] S1x1x256x256.size inb_S4x3x256x256_S1x1x256x256_1_1_0_0).toLoadRect (accEmb 1 1 (A I 1 c 1 1 0)) = A I 1 c 1 1 0 := accV_read_accEmb 1 1 _
  have h1947 : View.readAt (Elt F) (Memref.whole cc0_scratch1).view (Rect.unit (s := S8x3x3x256x256) ![5, 1, 0, 0, 0] S1x1x1x256x256.size inb_S8x3x3x256x256_S1x1x1x256x256_5_1_0_0_0).toLoadRect (rsEmb 5 1 0 (R I 1 c 1 1 0)) = R I 1 c 1 1 0 := rsV_read_rsEmb 5 1 0 _
  have h1953 : View.readAt (Elt F) (Memref.whole cc0_scratch0).view (Rect.unit (s := S4x3x256x256) ![1, 2, 0, 0] S1x1x256x256.size inb_S4x3x256x256_S1x1x256x256_1_2_0_0).toLoadRect (accEmb 1 2 (A I 1 c 1 2 0)) = A I 1 c 1 2 0 := accV_read_accEmb 1 2 _
  have h1955 : View.readAt (Elt F) (Memref.whole cc0_scratch1).view (Rect.unit (s := S8x3x3x256x256) ![5, 2, 0, 0, 0] S1x1x1x256x256.size inb_S8x3x3x256x256_S1x1x1x256x256_5_2_0_0_0).toLoadRect (rsEmb 5 2 0 (R I 1 c 1 2 0)) = R I 1 c 1 2 0 := rsV_read_rsEmb 5 2 0 _
  sl_exec
  sl_step
  sl_unfold_run_names
  istop
  rw [acc_written c 1 0 ![1, 0, 0, 0] rfl inb_S4x3x256x256_S1x1x256x256_1_0_0_0, acc_written c 1 1 ![1, 1, 0, 0] rfl inb_S4x3x256x256_S1x1x256x256_1_1_0_0, acc_written c 1 2 ![1, 2, 0, 0] rfl inb_S4x3x256x256_S1x1x256x256_1_2_0_0]
  iintro ⟨⟨⟨⟨⟨H0, H1⟩, H2⟩, H3⟩, H4⟩, HP⟩
  isplitr
  · ipureintro
    rfl
  isplitl [H0]
  · iexact H0
  isplitl [H1]
  · iexact H1
  isplitl [H2]
  · iexact H2
  isplitl [H3]
  · iexact H3
  isplitl [H4]
  · iexact H4
  iexact HP

/-- info: 'Cert.KernelIdeal.Body.local_75' depends on axioms: [propext, Classical.choice, Quot.sound] -/
#guard_msgs in #print axioms local_75

end Cert.KernelIdeal.Body

end
-- ==== Proof.Parts.Part75.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L75
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 75 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 75 of the body, run from the place before it, ends at the place after it and returns its values; whatever else is held is kept. -/
theorem part_75 (m : (ℓ : Loc nD τ sig) → Buf (Elt F) ℓ) (K : Dev nD × Cell → ℕ) (c : Dev nD) (Fr : sProp 𝕄) :
    iprop(St (insM m) K (σ 74) c ∗ outHeld (insM m) c (σ 74).outs ∗ Fr)
      ⊢ wp frame (wpE (defs₀ (F := F)) 𝒱₀ (c : Thread nD τ) none) Set.univ
          (k0_part75 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1941 (insM m) c) (Vals.lv1942 (insM m) c))
          (fun tup => iprop(⌜tup = Vals.lw1961 c⌝ ∗ St (insM m) K (σ 75) c ∗ outHeld (insM m) c (σ 75).outs ∗ Fr)) := by
  have eo : (σ 75).outs = (σ 74).outs := rfl
  rw [eo]
  rw [St_eq, St_eq, StRest_congr (insM m) K c (s := σ 74) (s' := σ 75) rfl rfl rfl rfl, accAll_σ_74, accAll_σ_75, StRest_rs (insM m) K c (σ 75) rfl 15 (by decide), rs3_15]
  refine BIBase.Entails.trans ?_ ((local_75 (insM m) c iprop(rsTile c 5 0 0 (Vals.R (insM m) 1 c 1 0 0) ∗ StRestNoRs (insM m) K (σ 75) c 15 ∗ emp ∗ emp ∗ emp ∗ emp ∗ emp ∗ emp ∗ emp ∗ emp ∗ emp ∗ outHeld (insM m) c (σ 74).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T10]; · iexact T10
    isplitl [T11]; · iexact T11
    isplitl [R1]; · iexact R1
    isplitl [T12]; · iexact T12
    isplitl [R2]; · iexact R2
    isplitl [R0]; · iexact R0
    isplitl [HR]; · iexact HR
    isplitl [T00]; · iexact T00
    isplitl [T01]; · iexact T01
    isplitl [T02]; · iexact T02
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T10, T11, R1, T12, R2, R0, HR, T00, T01, T02, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_75' depends on axioms: [propext, Classical.choice, Quot.sound] -/
#guard_msgs in #print axioms part_75

end Cert.KernelIdeal.Body

end
-- ==== Proof.Parts.L76.lean ====
/-
  Part 76 of the body starts two copies of step 16 (the 17th step started; round 1, group 1, position 1): part 0 of accumulator slice (1, 0) goes to receive slice (5, 0, 1) of the device paired along mask 3, part 1 of accumulator slice (1, 1) goes to receive slice (5, 1, 1) of the device paired along mask 4.
  The accumulator slices, at level 1 of round 1, and the paired devices' receive slices leave the device's hands; it holds the departure credits of its send cell 16 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 76: the copies of parts 0 and 1 of step 16. -/
theorem local_76 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 51) W)
        ∗ dutyTok ER (sendCell c 16) 0 0 ∗ dutyTok ER (recvCell (mate c 0 16) 16) 0 0
        ∗ dutyTok ER (sendCell c 16) 0 1 ∗ dutyTok ER (recvCell (mate c 1 16) 16) 0 1
        ∗ rsTileAny (F := F) (mate c 0 16) 5 0 1
        ∗ rsTileAny (F := F) (mate c 1 16) 5 1 1
        ∗ accTile c 1 0 (A I 1 c 1 0 1)
        ∗ accTile c 1 1 (A I 1 c 1 1 1)
        ∗ P)
      ⊢ wp frame (wpE (defs₀ (F := F)) 𝒱₀ (c : Thread nD τ) none) Set.univ
          (k0_part76 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1972 c, Vals.lw1983 c⟩⌝
            ∗ (∃ W, owes (c : Thread nD τ) (owedFrom c 53) W)
            ∗ cred (tallyAt (sendCell c 16) () N)
            ∗ cred (tallyAt (sendCell c 16) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 16)) $$ HR
  ihave #HRs := (reached_at (RdI I) K (c, Cell.send 16)) $$ HR
  ihave #HIr0 := (inv_at (RdI I) K (mate c 0 16, Cell.recv 16)) $$ HR
  ihave #HRr0 := (reached_at (RdI I) K (mate c 0 16, Cell.recv 16)) $$ HR
  ihave #HIr1 := (inv_at (RdI I) K (mate c 1 16, Cell.recv 16)) $$ HR
  ihave #HRr1 := (reached_at (RdI I) K (mate c 1 16, Cell.recv 16)) $$ HR
  sl_exec
  iapply (wp_fire_at (accCI I) (rs0I I) c 16 0 (g := 1) (rg := 5) (s := 1) (by decide) (by decide) (by decide)
      (dv := ⟨k0_dev52 c, k0_dev52_lt c⟩) ((dev52_eq c).trans rfl) rfl rfl (sendS_eq 16).symm (recvS_eq 16).symm
      (accEmb 1 0 (A I 1 c 1 0 1)) rfl fd0 (owedFrom c 52) (owed_copy c 16 0 51 (by decide) 16 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 16 1 (g := 1) (rg := 5) (s := 1) (by decide) (by decide) (by decide)
      (dv := ⟨k0_dev53 c, k0_dev53_lt c⟩) ((dev53_eq c).trans rfl) rfl rfl (sendS_eq 16).symm (recvS_eq 16).symm
      (accEmb 1 1 (A I 1 c 1 1 1)) rfl fd1 (owedFrom c 53) (owed_copy c 16 1 52 (by decide) 16 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_76' depends on axioms: [propext, Classical.choice, Quot.sound] -/
#guard_msgs in #print axioms Cert.KernelIdeal.Body.local_76

end
-- ==== Proof.Parts.Part77.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L77
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 77 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 77 of the body, run from the place before it, ends at the place after it; whatever else is held is kept. -/
theorem part_77 (m : (ℓ : Loc nD τ sig) → Buf (Elt F) ℓ) (K : Dev nD × Cell → ℕ) (c : Dev nD) (Fr : sProp 𝕄) :
    iprop(St (insM m) K (σ 76) c ∗ outHeld (insM m) c (σ 76).outs ∗ Fr)
      ⊢ wp frame (wpE (defs₀ (F := F)) 𝒱₀ (c : Thread nD τ) none) Set.univ
          (k0_part77 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1607 c))
          (fun _ => iprop(St (insM m) K (σ 77) c ∗ outHeld (insM m) c (σ 77).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 53 : sProp (MT nD τ sig Unit (Elt F) ℕ UU ℕ)) = iprop(dutyTok ER (sendCell c 16) 0 2 ∗ dutyTok ER (recvCell (mate c 2 16) 16) 0 2 ∗ toksFrom c 54) := toksFrom_copy c 16 2
  have hF0 : (foreignFrom c 50 : sProp (MT nD τ sig Unit (Elt F) ℕ UU ℕ)) = iprop(rsTileAny (mate c 2 16) 5 2 1 ∗ foreignFrom c 51) := foreignFrom_succ c 16 2
  have hC : (credFrom c 42 : sProp (MT nD τ sig Unit (Elt F) ℕ UU ℕ)) = iprop(credFrom c 43 ∗ cred (tallyAt (recvCell c 13) () N)) := by
    rw [credFrom_succ c 42 (by omega), show ownCell c 42 = recvCell c 13 from ownCell_fire c 13 0, show dueAmt 42 = N from dueAmt_fire 13 0]
  have hG : (todoFrom c 27 : sProp (MT nD τ sig Unit (Elt F) ℕ UU ℕ)) = iprop(curCell (sendCell c 13) (fun p => (RdI (insM m)).payload (sendCell c 13) 0 p) 0 ∗ curCell (recvCell c 13) (fun p => (RdI (insM m)).payload (recvCell c 13) 0 p) 0 ∗ todoFrom c 29) := todo_group c 13
  rw [show (σ 77).outs = (σ 76).outs from rfl, St_open_76, St_open_77, hT0, hF0, hC, hG]
  simp only [hemp, hemp']
  refine BIBase.Entails.trans (Entails.of_eq ?_) (BIBase.Entails.trans (local_77 (insM m) K c iprop(toksFrom c 54 ∗ credFrom c 43 ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ doneTo c 27 ∗ todoFrom c 29 ∗ foreignFrom c 51 ∗ rsBack (insM m) c 13 ∗ outHeld (insM m) c (σ 76).outs ∗ Fr)) (wp_mono _ _ _ fun tup => Entails.of_eq ?_))
  · ac_rfl
  · ac_rfl

/-- info: 'Cert.KernelIdeal.Body.part_77' depends on axioms: [propext, Classical.choice, Quot.sound] -/
#guard_msgs in #print axioms part_77

end Cert.KernelIdeal.Body

end
-- ==== Proof.Parts.L79.lean ====
/-
  Part 79 of the body ends wait group 13 (round 1, group 0, second exchange) with the third wait on its receive cell, which
  hands over the three receive tiles holding the partners' tiles of level 1; the three accumulator tiles came back with the send
  cell's third wait. It overwrites the accumulator tiles of parts 0 and 1 with their sums with the received tiles (level 1 of
  round 1 becomes level 2), reads part 2's accumulator tile and returns it as a 256 × 256 matrix.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_79 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 54) W)
        ∗ cred (tallyAt (recvCell c 13) () N)
        ∗ (RdI I).payload (sendCell c 13) 0 0 ∗ (RdI I).payload (sendCell c 13) 0 1 ∗ (RdI I).payload (sendCell c 13) 0 2
        ∗ curCell (recvCell c 13) (fun p => (RdI I).payload (recvCell c 13) 0 p) 2 ∗ P) : sProp (MT nD τ sig Unit (Elt F) ℕ UU ℕ))
      ⊢ wp frame (wpE (defs₀ (F := F)) 𝒱₀ (c : Thread nD τ) none) Set.univ
        (k0_part79 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = Vals.lv2053 I c⌝ ∗ records (RdI I) K ∗ levAts Proto.L Proto.lv ∗ (∃ W, owes (c : Thread nD τ) (owedFrom c 54) W)
          ∗ curCell (recvCell c 13) (fun p => (RdI I).payload (recvCell c 13) 0 p) 3
          ∗ accTile c 0 0 (Vals.A I 1 c 0 0 2) ∗ accTile c 0 1 (Vals.A I 1 c 0 1 2) ∗ accTile c 0 2 (Vals.A I 1 c 0 2 1)
          ∗ rsTile c 4 0 1 (Vals.R I 1 c 0 0 1) ∗ rsTile c 4 1 1 (Vals.R I 1 c 0 1 1) ∗ rsTile c 4 2 1 (Vals.R I 1 c 0 2 1) ∗ P)) := by
  unfold accTile rsTile Proto.accPts Proto.rsPts
  iintro ⟨#HR, #Hlev, ⟨%W, HO⟩, Cr, Ha0, Ha1, Ha2, Hr, HP⟩
  have es : ∀ p : Fin 3, ((RdI I).payload (sendCell c 13) 0 p : sProp (MT nD τ sig Unit (Elt F) ℕ UU ℕ))
      ⊢ ((Proto.accSl 0 p).view.loc (c : Thread nD τ) ↦[(Proto.accSl 0 p).view.set]{fullShare} accEmb 0 p (Vals.A I 1 c 0 p 1)) :=
    fun p => Entails.of_eq (payload_send_tile I c 13 p)
  ihave Ha0 := (es 0) $$ Ha0
  ihave Ha1 := (es 1) $$ Ha1
  ihave Ha2 := (es 2) $$ Ha2
  ihave #HIr := (inv_at (RdI I) K (c, Cell.recv 13)) $$ HR
  sl_unfold [k0_part79]
  sl_exec
  -- the third wait on receive cell 13: the rest of its round, the three receive tiles at what landed in them
  iapply (wp_wait3 (RdI I) c (recvS 13) (duties_recv _ _ c 13) (expect_recv _ _ c 13) (hw := fun _ => rfl)) $$ [HO Cr Hr]
  · isplitr; · iexact HIr
    isplitl [Cr]; · iexact Cr
    isplitl [HO]; · iexact HO
    isplitr
    · iapply (mayWait_recvAt (F := F) c 13); iexact Hlev
    iexact Hr
  iintro ⟨HO, Hr, Hb0, Hb1, Hb2⟩
  have er : ∀ p : Fin 3, ((RdI I).payload ((c : Thread nD τ), SemLoc.dma (recvS 13)) 0 p : sProp (MT nD τ sig Unit (Elt F) ℕ UU ℕ))
      ⊢ ((Proto.rsSl 4 p 1).view.loc (c : Thread nD τ) ↦[(Proto.rsSl 4 p 1).view.set]{fullShare} rsEmb 4 p 1 (Vals.R I 1 c 0 p 1)) :=
    fun p => Entails.of_eq (payload_recv_tile I c 13 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![0, 2, 0, 0] S1x1x256x256.size inb_S4x3x256x256_S1x1x256x256_0_2_0_0).toLoadRect (accEmb 0 2 (Vals.A I 1 c 0 2 1)) = Vals.A I 1 c 0 2 1 := accV_read_accEmb 0 2 _
    rw [e1]
    rfl
  isplitr; · iexact HR
  isplitr; · iexact Hlev
  isplitl [HO]; · iexists _; iexact HO
  isplitl [Hr]; · iexact Hr
  isplitl [Ha0]
  · iapply (accTile_at_value c 0 0)
    swap
    · iexact Ha0
    · refine (View.read_write_univ _ _).trans ?_
      refine (Vals.step_1_0_0_1 _ _).symm.trans ?_
      exact congrArg₂ (Vals.step 1 0 0 1) (accV_read_accEmb 0 0 _) (rsV_read_rsEmb 4 0 1 _)
  isplitl [Ha1]
  · iapply (accTile_at_value c 0 1)
    swap
    · iexact Ha1
    · refine (View.read_write_univ _ _).trans ?_
      refine (Vals.step_1_0_1_1 _ _).symm.trans ?_
      exact congrArg₂ (Vals.step 1 0 1 1) (accV_read_accEmb 0 1 _) (rsV_read_rsEmb 4 1 1 _)
  isplitl [Ha2]; · iexact Ha2
  isplitl [Hb0]; · iexact Hb0
  isplitl [Hb1]; · iexact Hb1
  isplitl [Hb2]; · iexact Hb2
  iexact HP

/-- info: 'Cert.KernelIdeal.Body.local_79' depends on axioms: [propext, Classical.choice, Quot.sound] -/
#guard_msgs in #print axioms local_79

end Cert.KernelIdeal.Body
-- ==== Proof.Parts.Part79.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L79
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 79 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 79 of the body, run from the place before it, ends at the place after it and returns its values; whatever else is held is kept. -/
theorem part_79 (m : (ℓ : Loc nD τ sig) → Buf (Elt F) ℓ) (K : Dev nD × Cell → ℕ) (c : Dev nD) (Fr : sProp 𝕄) :
    iprop(St (insM m) K (σ 78) c ∗ outHeld (insM m) c (σ 78).outs ∗ Fr)
      ⊢ wp frame (wpE (defs₀ (F := F)) 𝒱₀ (c : Thread nD τ) none) Set.univ
          (k0_part79 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = Vals.lv2053 (insM m) c⌝ ∗ St (insM m) K (σ 79) c ∗ outHeld (insM m) c (σ 79).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 44 : sProp (MT nD τ sig Unit (Elt F) ℕ UU ℕ)) = iprop(credFrom c 45 ∗ cred (tallyAt (recvCell c 13) () N)) := by
    rw [credFrom_succ c 44 (by omega), show ownCell c 44 = recvCell c 13 from ownCell_fire c 13 2, show dueAmt 44 = N from dueAmt_fire 13 2]
  have hd : (doneTo c 29 : sProp (MT nD τ sig Unit (Elt F) ℕ UU ℕ))
      = iprop(doneTo c 27 ∗ curCell (sendCell c 13) (fun p => (RdI (insM m)).payload (sendCell c 13) 0 p) 3
          ∗ curCell (recvCell c 13) (fun p => (RdI (insM m)).payload (recvCell c 13) 0 p) 3) := (done_group c 13).symm
  have hb : (rsBack (insM m) c 14 : sProp (MT nD τ sig Unit (Elt F) ℕ UU ℕ))
      = iprop((rsTile c 4 0 1 (Vals.R (insM m) 1 c 0 0 1) ∗ rsTile c 4 1 1 (Vals.R (insM m) 1 c 0 1 1) ∗ rsTile c 4 2 1 (Vals.R (insM m) 1 c 0 2 1))
          ∗ rsBack (insM m) c 13) := rsBack_succ (insM m) c 13
  rw [St_open_78, St_open_79, hc, hd, hb, show (σ 78).outs = (σ 79).outs from rfl]
  simp only [hemp, hemp']
  refine BIBase.Entails.trans (Entails.of_eq ?_) (BIBase.Entails.trans
    (local_79 (insM m) K c
      (iprop(toksFrom c 54
        ∗ credFrom c 45
        ∗ cred (tallyAt (sendCell c 11) () N)
        ∗ cred (tallyAt (sendCell c 11) () N)
        ∗ cred (tallyAt (sendCell c 11) () N)
        ∗ cred (tallyAt (sendCell c 18) () N)
        ∗ cred (tallyAt (sendCell c 18) () N)
        ∗ cred (tallyAt (sendCell c 18) () N)
        ∗ cred (tallyAt (sendCell c 16) () N)
        ∗ cred (tallyAt (sendCell c 16) () N)
        ∗ cred (tallyAt (sendCell c 16) () N)
        ∗ doneTo c 27
        ∗ curCell (sendCell c 13) (fun p => (RdI (insM m)).payload (sendCell c 13) 0 p) 3
        ∗ todoFrom c 29
        ∗ foreignFrom c 51
        ∗ rsBack (insM m) c 13
        ∗ outHeld (insM m) c (σ 79).outs
        ∗ Fr)))
    (wp_mono _ _ _ fun tup => Entails.of_eq ?_))
  · ac_rfl
  · ac_rfl

/-- info: 'Cert.KernelIdeal.Body.part_79' depends on axioms: [propext, Classical.choice, Quot.sound] -/
#guard_msgs in #print axioms part_79

end Cert.KernelIdeal.Body

end
-- ==== Proof.Parts.L80.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 80 of the body: the store into accumulator tile (0, 2), then the start of the copy of part 0 at step 14 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_80 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 54) W)
        ∗ dutyTok ER (sendCell c 14) 0 0 ∗ dutyTok ER (recvCell (mate c 0 14) 14) 0 0
        ∗ rsTileAny (mate c 0 14) (rgOf 14) 0 (sOf 14)
        ∗ rsTile c 4 2 1 (Vals.R I 1 c 0 2 1)
        ∗ accTile c 0 2 (Vals.A I 1 c 0 2 1)
        ∗ accTile c 0 0 (Vals.A I 1 c 0 0 2)
        ∗ P) : sProp (MT nD τ sig Unit (Elt F) ℕ UU ℕ))
      ⊢ wp frame (wpE (defs₀ (F := F)) 𝒱₀ (c : Thread nD τ) none) Set.univ
      (k0_part80 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2053 I c))
      (fun tup => iprop(⌜tup = ⟨Vals.lw2060 c, Vals.lw2071 c⟩⌝
        ∗ records (RdI I) K
        ∗ (∃ W, owes (c : Thread nD τ) (owedFrom c 55) W)
        ∗ cred (tallyAt (sendCell c 14) () N)
        ∗ rsTile c 4 2 1 (Vals.R I 1 c 0 2 1)
        ∗ accTile c 0 2 (Vals.A I 1 c 0 2 2)
        ∗ P)) := by
  unfold accTile rsTile rsTileAny Proto.accPts Proto.rsPts
  iintro ⟨#Hrec, ⟨%W, HO⟩, Hts0, Htr0, ⟨%fd0, Hfd0⟩, Hr421, Ha02, Ha00, HP⟩
  ihave #HIs0 := (inv_at (RdI I) K (c, Cell.send 14)) $$ Hrec
  ihave #HIr0 := (inv_at (RdI I) K (mate c 0 14, Cell.recv 14)) $$ Hrec
  ihave #Hrs0 := (reached_at (RdI I) K (c, Cell.send 14)) $$ Hrec
  ihave #Hrr0 := (reached_at (RdI I) K (mate c 0 14, Cell.recv 14)) $$ Hrec
  rw [k0_part80_eq_skeleton]
  unfold k0_part80_skel
  sl_exec
  -- the copy of part 0 at step 14 (started as number 18): its units on the partner's receive cell are owed last
  have hc0 : dueCell c 54 = recvCell (mate c 0 14) 14 := dueCell_fire c 17 0
  have ha0 : dueAmt 54 = N := dueAmt_fire 17 0
  have hO0 : owedFrom c 54 = owedFrom c 55 + tallyAt (recvCell (mate c 0 14) 14) () N :=
    (owedFrom_succ c 54 (by decide)).trans (by rw [hc0, ha0])
  iapply (wp_fire_at (accCI I) (rs0I I) c 14 0 (g := 0) (rg := 4) (s := 2) rfl rfl rfl (dev55_eq c) rfl rfl
    (sendS_eq 14) (recvS_eq 14) (accEmb 0 0 (Vals.A I 1 c 0 0 2)) rfl fd0 (owedFrom c 55) hO0) $$ [HO Hts0 Htr0 Hfd0 Ha00]
  · unfold Proto.accPts Proto.rsPts
    isplitr; · iexact HIs0
    isplitr; · iexact HIr0
    isplitl [Ha00]; · iexact Ha00
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha02_r0 : local_80.sl.v2054 I c = Vals.R I 1 c 0 2 1 := by unfold local_80.sl.v2054; exact rsV_read_rsEmb 4 2 1 _
  have Ha02_e : View.read (Elt F) (accV 0 2) (local_80.sl.Ha02_w1 I c) = Vals.A I 1 c 0 2 2 := by
    unfold local_80.sl.Ha02_w1; rw [Ha02_r0]; exact View.read_write_univ _ _
  have Ha02_t : ((Proto.accSl 0 2).view.loc (c : Thread nD τ) ↦[(Proto.accSl 0 2).view.set]{fullShare} local_80.sl.Ha02_w1 I c : sProp (MT nD τ sig Unit (Elt F) ℕ UU ℕ)) = ((Proto.accSl 0 2).view.loc (c : Thread nD τ) ↦[(Proto.accSl 0 2).view.set]{fullShare} accEmb 0 2 (Vals.A I 1 c 0 2 2) : sProp (MT nD τ sig Unit (Elt F) ℕ UU ℕ)) := accTile_of_read c fullShare 0 2 Ha02_e
  rw [← Ha02_t]
  isplitr [HO Hcs0 Hr421 Ha02 HP]
  · ipureintro; rfl
  isplitr [HO Hcs0 Hr421 Ha02 HP]; · iexact Hrec
  isplitl [HO]; · iexists W; iexact HO
  iframe

/-- info: 'Cert.KernelIdeal.Body.local_80' depends on axioms: [propext, Classical.choice, Quot.sound] -/
#guard_msgs in #print axioms local_80

end Cert.KernelIdeal.Body
-- ==== Proof.Parts.Part80.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L80
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 80 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 80 of the body, run from the place before it, ends at the place after it and returns its values; whatever else is held is kept. -/
theorem part_80 (m : (ℓ : Loc nD τ sig) → Buf (Elt F) ℓ) (K : Dev nD × Cell → ℕ) (c : Dev nD) (Fr : sProp 𝕄) :
    iprop(St (insM m) K (σ 79) c ∗ outHeld (insM m) c (σ 79).outs ∗ Fr)
      ⊢ wp frame (wpE (defs₀ (F := F)) 𝒱₀ (c : Thread nD τ) none) Set.univ
          (k0_part80 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2053 (insM m) c))
          (fun tup => iprop(⌜tup = ⟨Vals.lw2060 c, Vals.lw2071 c⟩⌝ ∗ St (insM m) K (σ 80) c ∗ outHeld (insM m) c (σ 80).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 54 : sProp (MT nD τ sig Unit (Elt F) ℕ UU ℕ))
      = iprop(dutyTok ER (sendCell c 14) 0 0 ∗ dutyTok ER (recvCell (mate c 0 14) 14) 0 0 ∗ toksFrom c 55) := toksFrom_copy c 17 0
  have hf0 : (foreignFrom c 51 : sProp (MT nD τ sig Unit (Elt F) ℕ UU ℕ))
      = iprop(rsTileAny (mate c 0 14) (rgOf 14) 0 (sOf 14) ∗ foreignFrom c 52) := foreignFrom_succ c 17 0
  have hb13 : (rsBack (insM m) c 14 : sProp (MT nD τ sig Unit (Elt F) ℕ UU ℕ))
      = iprop((rsTile c 4 0 1 (Vals.R (insM m) 1 c 0 0 1) ∗ rsTile c 4 1 1 (Vals.R (insM m) 1 c 0 1 1) ∗ rsTile c 4 2 1 (Vals.R (insM m) 1 c 0 2 1)) ∗ rsBack (insM m) c 13) := rsBack_succ (insM m) c 13
  rw [St_open_79, St_open_80, ht0, hf0, hb13, show (σ 79).outs = (σ 80).outs from rfl]
  simp only [hemp, hemp']
  refine BIBase.Entails.trans (Entails.of_eq ?_) (BIBase.Entails.trans
    (local_80 (insM m) K c
      (iprop(levAts Proto.L Proto.lv
        ∗ toksFrom c 55
        ∗ credFrom c 45
        ∗ cred (tallyAt (sendCell c 11) () N)
        ∗ cred (tallyAt (sendCell c 11) () N)
        ∗ cred (tallyAt (sendCell c 11) () N)
        ∗ cred (tallyAt (sendCell c 18) () N)
        ∗ cred (tallyAt (sendCell c 18) () N)
        ∗ cred (tallyAt (sendCell c 18) () N)
        ∗ cred (tallyAt (sendCell c 16) () N)
        ∗ cred (tallyAt (sendCell c 16) () N)
        ∗ cred (tallyAt (sendCell c 16) () N)
        ∗ doneTo c 29
        ∗ todoFrom c 29
        ∗ foreignFrom c 52
        ∗ rsTile c 4 0 1 (Vals.R (insM m) 1 c 0 0 1)
        ∗ rsTile c 4 1 1 (Vals.R (insM m) 1 c 0 1 1)
        ∗ rsBack (insM m) c 13
        ∗ accTile c 0 1 (Vals.A (insM m) 1 c 0 1 2)
        ∗ outHeld (insM m) c (σ 80).outs
        ∗ Fr)))
    (wp_mono _ _ _ fun tup => Entails.of_eq ?_))
  · ac_rfl
  · ac_rfl

/-- info: 'Cert.KernelIdeal.Body.part_80' depends on axioms: [propext, Classical.choice, Quot.sound] -/
#guard_msgs in #print axioms part_80

end Cert.KernelIdeal.Body

end
-- ==== Proof.Parts.Part81.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L81
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 81 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 81 of the body, run from the place before it, ends at the place after it and returns its values; whatever else is held is kept. -/
theorem part_81 (m : (ℓ : Loc nD τ sig) → Buf (Elt F) ℓ) (K : Dev nD × Cell → ℕ) (c : Dev nD) (Fr : sProp 𝕄) :
    iprop(St (insM m) K (σ 80) c ∗ outHeld (insM m) c (σ 80).outs ∗ Fr)
      ⊢ wp frame (wpE (defs₀ (F := F)) 𝒱₀ (c : Thread nD τ) none) Set.univ
          (k0_part81 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1706 c))
          (fun tup => iprop(⌜tup = ⟨Vals.lw2082 c, Vals.lw2099 c⟩⌝ ∗ St (insM m) K (σ 81) c ∗ outHeld (insM m) c (σ 81).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 55 : sProp (MT nD τ sig Unit (Elt F) ℕ UU ℕ)) = iprop(dutyTok ER (sendCell c 14) 0 1 ∗ dutyTok ER (recvCell (mate c 1 14) 14) 0 1 ∗ toksFrom c 56) := toksFrom_copy c 17 1
  have hF0 : (foreignFrom c 52 : sProp (MT nD τ sig Unit (Elt F) ℕ UU ℕ)) = iprop(rsTileAny (mate c 1 14) 4 1 2 ∗ foreignFrom c 53) := foreignFrom_succ c 17 1
  have hT1 : (toksFrom c 56 : sProp (MT nD τ sig Unit (Elt F) ℕ UU ℕ)) = iprop(dutyTok ER (sendCell c 14) 0 2 ∗ dutyTok ER (recvCell (mate c 2 14) 14) 0 2 ∗ toksFrom c 57) := toksFrom_copy c 17 2
  have hF1 : (foreignFrom c 53 : sProp (MT nD τ sig Unit (Elt F) ℕ UU ℕ)) = iprop(rsTileAny (mate c 2 14) 4 2 2 ∗ foreignFrom c 54) := foreignFrom_succ c 17 2
  have hG : (todoFrom c 29 : sProp (MT nD τ sig Unit (Elt F) ℕ UU ℕ)) = iprop(curCell (sendCell c 11) (fun p => (RdI (insM m)).payload (sendCell c 11) 0 p) 0 ∗ curCell (recvCell c 11) (fun p => (RdI (insM m)).payload (recvCell c 11) 0 p) 0 ∗ todoFrom c 31) := todo_group c 14
  rw [show (σ 81).outs = (σ 80).outs from rfl, St_open_80, St_open_81, hT0, hF0, hT1, hF1, hG]
  simp only [hemp, hemp']
  refine BIBase.Entails.trans (Entails.of_eq ?_) (BIBase.Entails.trans (local_81 (insM m) K c iprop(toksFrom c 57 ∗ credFrom c 45 ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ doneTo c 29 ∗ curCell (recvCell c 11) (fun p => (RdI (insM m)).payload (recvCell c 11) 0 p) 0 ∗ todoFrom c 31 ∗ foreignFrom c 54 ∗ rsBack (insM m) c 14 ∗ outHeld (insM m) c (σ 80).outs ∗ Fr)) (wp_mono _ _ _ fun tup => Entails.of_eq ?_))
  · ac_rfl
  · ac_rfl

/-- info: 'Cert.KernelIdeal.Body.part_81' depends on axioms: [propext, Classical.choice, Quot.sound] -/
#guard_msgs in #print axioms part_81

end Cert.KernelIdeal.Body

end
-- ==== Proof.Parts.L83.lean ====
/-
  Part 83 of the body ends wait group 14 (round 0, group 3, third exchange): the third wait on its send cell hands back the
  three accumulator tiles of group 3 at their last level of round 0, the third wait on its receive cell hands over the three
  receive tiles holding the partners' tiles of that level. It then reads part 0's accumulator tile and receive tile and part
  1's accumulator tile, and returns part 0's all-reduced sum and part 1's own addend as 256 × 256 matrices.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem local_83 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 57) W)
        ∗ cred (tallyAt (sendCell c 11) () N) ∗ cred (tallyAt (recvCell c 11) () N)
        ∗ curCell (sendCell c 11) (fun p => (RdI I).payload (sendCell c 11) 0 p) 2
        ∗ curCell (recvCell c 11) (fun p => (RdI I).payload (recvCell c 11) 0 p) 2 ∗ P) : sProp (MT nD τ sig Unit (Elt F) ℕ UU ℕ))
      ⊢ wp frame (wpE (defs₀ (F := F)) 𝒱₀ (c : Thread nD τ) none) Set.univ
        (k0_part83 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw1728 c))
        (fun tup => iprop(⌜tup = ⟨Vals.lv2139 I c, Vals.lv2141 I c⟩⌝ ∗ records (RdI I) K ∗ levAts Proto.L Proto.lv ∗ (∃ W, owes (c : Thread nD τ) (owedFrom c 57) W)
          ∗ curCell (sendCell c 11) (fun p => (RdI I).payload (sendCell c 11) 0 p) 3
          ∗ curCell (recvCell c 11) (fun p => (RdI I).payload (recvCell c 11) 0 p) 3
          ∗ accTile c 3 0 (Vals.A I 0 c 3 0 2) ∗ accTile c 3 1 (Vals.A I 0 c 3 1 2) ∗ accTile c 3 2 (Vals.A I 0 c 3 2 2)
          ∗ rsTile c 3 0 2 (Vals.R I 0 c 3 0 2) ∗ rsTile c 3 1 2 (Vals.R I 0 c 3 1 2) ∗ rsTile c 3 2 2 (Vals.R I 0 c 3 2 2) ∗ P)) := by
  unfold accTile rsTile Proto.accPts Proto.rsPts
  iintro ⟨#HR, #Hlev, ⟨%W, HO⟩, Cs, Cr, Hs, Hr, HP⟩
  ihave #HIs := (inv_at (RdI I) K (c, Cell.send 11)) $$ HR
  ihave #HIr := (inv_at (RdI I) K (c, Cell.recv 11)) $$ HR
  sl_unfold [k0_part83]
  sl_exec
  -- the third wait on send cell 11: the rest of its round, the three source tiles back
  iapply (wp_wait3 (RdI I) c (sendS 11) (duties_send _ _ c 11) (expect_send _ _ c 11) (hw := fun _ => rfl)) $$ [HO Cs Hs]
  · isplitr; · iexact HIs
    isplitl [Cs]; · iexact Cs
    isplitl [HO]; · iexact HO
    isplitr
    · iapply (mayWait_sendAt (F := F) c 11); iexact Hlev
    iexact Hs
  iintro ⟨HO, Hs, Ha0, Ha1, Ha2⟩
  have es : ∀ p : Fin 3, ((RdI I).payload ((c : Thread nD τ), SemLoc.dma (sendS 11)) 0 p : sProp (MT nD τ sig Unit (Elt F) ℕ UU ℕ))
      ⊢ ((Proto.accSl 3 p).view.loc (c : Thread nD τ) ↦[(Proto.accSl 3 p).view.set]{fullShare} accEmb 3 p (Vals.A I 0 c 3 p 2)) :=
    fun p => Entails.of_eq (payload_send_tile I c 11 p)
  ihave Ha0 := (es 0) $$ Ha0
  ihave Ha1 := (es 1) $$ Ha1
  ihave Ha2 := (es 2) $$ Ha2
  sl_exec
  -- the third wait on receive cell 11: the rest of its round, the three receive tiles at what landed in them
  iapply (wp_wait3 (RdI I) c (recvS 11) (duties_recv _ _ c 11) (expect_recv _ _ c 11) (hw := fun _ => rfl)) $$ [HO Cr Hr]
  · isplitr; · iexact HIr
    isplitl [Cr]; · iexact Cr
    isplitl [HO]; · iexact HO
    isplitr
    · iapply (mayWait_recvAt (F := F) c 11); iexact Hlev
    iexact Hr
  iintro ⟨HO, Hr, Hb0, Hb1, Hb2⟩
  have er : ∀ p : Fin 3, ((RdI I).payload ((c : Thread nD τ), SemLoc.dma (recvS 11)) 0 p : sProp (MT nD τ sig Unit (Elt F) ℕ UU ℕ))
      ⊢ ((Proto.rsSl 3 p 2).view.loc (c : Thread nD τ) ↦[(Proto.rsSl 3 p 2).view.set]{fullShare} rsEmb 3 p 2 (Vals.R I 0 c 3 p 2)) :=
    fun p => Entails.of_eq (payload_recv_tile I c 11 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![3, 0, 0, 0] S1x1x256x256.size inb_S4x3x256x256_S1x1x256x256_3_0_0_0).toLoadRect (accEmb 3 0 (Vals.A I 0 c 3 0 2)) = Vals.A I 0 c 3 0 2 := accV_read_accEmb 3 0 _
    have e2 : View.readAt (Elt F) (Memref.whole cc0_scratch1).view (Rect.unit (s := S8x3x3x256x256) ![3, 0, 2, 0, 0] S1x1x1x256x256.size inb_S8x3x3x256x256_S1x1x1x256x256_3_0_2_0_0).toLoadRect (rsEmb 3 0 2 (Vals.R I 0 c 3 0 2)) = Vals.R I 0 c 3 0 2 := rsV_read_rsEmb 3 0 2 _
    have e3 : View.readAt (Elt F) (Memref.whole cc0_scratch0).view (Rect.unit (s := S4x3x256x256) ![3, 1, 0, 0] S1x1x256x256.size inb_S4x3x256x256_S1x1x256x256_3_1_0_0).toLoadRect (accEmb 3 1 (Vals.A I 0 c 3 1 2)) = Vals.A I 0 c 3 1 2 := accV_read_accEmb 3 1 _
    rw [e1, e2, e3]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.KernelIdeal.Body.local_83' depends on axioms: [propext, Classical.choice, Quot.sound] -/
#guard_msgs in #print axioms local_83

end Cert.KernelIdeal.Body
-- ==== Proof.Parts.Part83.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L83
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 83 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 83 of the body, run from the place before it, ends at the place after it and returns its values; whatever else is held is kept. -/
theorem part_83 (m : (ℓ : Loc nD τ sig) → Buf (Elt F) ℓ) (K : Dev nD × Cell → ℕ) (c : Dev nD) (Fr : sProp 𝕄) :
    iprop(St (insM m) K (σ 82) c ∗ outHeld (insM m) c (σ 82).outs ∗ Fr)
      ⊢ wp frame (wpE (defs₀ (F := F)) 𝒱₀ (c : Thread nD τ) none) Set.univ
          (k0_part83 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw1728 c))
          (fun tup => iprop(⌜tup = ⟨Vals.lv2139 (insM m) c, Vals.lv2141 (insM m) c⟩⌝ ∗ St (insM m) K (σ 83) c ∗ outHeld (insM m) c (σ 83).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 47 : sProp (MT nD τ sig Unit (Elt F) ℕ UU ℕ)) = iprop(credFrom c 48 ∗ cred (tallyAt (recvCell c 11) () N)) := by
    rw [credFrom_succ c 47 (by omega), show ownCell c 47 = recvCell c 11 from ownCell_fire c 14 2, show dueAmt 47 = N from dueAmt_fire 14 2]
  have hd : (doneTo c 31 : sProp (MT nD τ sig Unit (Elt F) ℕ UU ℕ))
      = iprop(doneTo c 29 ∗ curCell (sendCell c 11) (fun p => (RdI (insM m)).payload (sendCell c 11) 0 p) 3
          ∗ curCell (recvCell c 11) (fun p => (RdI (insM m)).payload (recvCell c 11) 0 p) 3) := (done_group c 14).symm
  have hb : (rsBack (insM m) c 15 : sProp (MT nD τ sig Unit (Elt F) ℕ UU ℕ))
      = iprop((rsTile c 3 0 2 (Vals.R (insM m) 0 c 3 0 2) ∗ rsTile c 3 1 2 (Vals.R (insM m) 0 c 3 1 2) ∗ rsTile c 3 2 2 (Vals.R (insM m) 0 c 3 2 2))
          ∗ rsBack (insM m) c 14) := rsBack_succ (insM m) c 14
  rw [St_open_82, St_open_83, hc, hd, hb, show (σ 82).outs = (σ 83).outs from rfl]
  simp only [hemp, hemp']
  refine BIBase.Entails.trans (Entails.of_eq ?_) (BIBase.Entails.trans
    (local_83 (insM m) K c
      (iprop(toksFrom c 57
        ∗ credFrom c 48
        ∗ cred (tallyAt (sendCell c 18) () N)
        ∗ cred (tallyAt (sendCell c 18) () N)
        ∗ cred (tallyAt (sendCell c 18) () N)
        ∗ cred (tallyAt (sendCell c 16) () N)
        ∗ cred (tallyAt (sendCell c 16) () N)
        ∗ cred (tallyAt (sendCell c 16) () N)
        ∗ cred (tallyAt (sendCell c 14) () N)
        ∗ cred (tallyAt (sendCell c 14) () N)
        ∗ cred (tallyAt (sendCell c 14) () N)
        ∗ doneTo c 29
        ∗ todoFrom c 31
        ∗ foreignFrom c 54
        ∗ rsBack (insM m) c 14
        ∗ outHeld (insM m) c (σ 83).outs
        ∗ Fr)))
    (wp_mono _ _ _ fun tup => Entails.of_eq ?_))
  · ac_rfl
  · ac_rfl

/-- info: 'Cert.KernelIdeal.Body.part_83' depends on axioms: [propext, Classical.choice, Quot.sound] -/
#guard_msgs in #print axioms part_83

end Cert.KernelIdeal.Body

end
-- ==== Proof.Parts.L84.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 84 of the body: reads, for group 3, part 1's and part 2's last received tiles of round 0 and part 2's accumulator tile
    at its last level, and returns the group's block of the residual stream after attention together with that block
    normalized and scaled, from which the feed-forward partial product is computed. No store. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

theorem local_84 (I : Dev nD → Vals.Ins F) (c : Dev nD) (P : sProp (MT nD τ sig Unit (Elt F) ℕ UU ℕ)) :
    iprop(Proto.accPts c 3 2 (accEmb 3 2 (Vals.A I 0 c 3 2 2)) ∗ Proto.rsPts c 3 1 2 (rsEmb 3 1 2 (Vals.R I 0 c 3 1 2)) ∗ Proto.rsPts c 3 2 2 (rsEmb 3 2 2 (Vals.R I 0 c 3 2 2)) ∗ P)
      ⊢ wp frame (wpE (defs₀ (F := F)) 𝒱₀ (c : Thread nD τ) none) Set.univ
      (k0_part84 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lv14 I c) (Vals.lv22 I c) (Vals.lv23 I c) (Vals.lv2139 I c) (Vals.lv2141 I c))
      (fun tup => iprop(⌜tup = ⟨Vals.lv2159 I c, Vals.lv2186 I c⟩⌝
        ∗ Proto.accPts c 3 2 (accEmb 3 2 (Vals.A I 0 c 3 2 2)) ∗ Proto.rsPts c 3 1 2 (rsEmb 3 1 2 (Vals.R I 0 c 3 1 2)) ∗ Proto.rsPts c 3 2 2 (rsEmb 3 2 2 (Vals.R I 0 c 3 2 2)) ∗ P)) := by
  unfold Proto.accPts Proto.rsPts
  iintro ⟨H2, G1, G2, HP⟩
  rw [k0_part84_eq_skeleton]
  unfold k0_part84_skel
  sl_exec
  sl_step
  sl_unfold_run_names
  isplitr
  · ipureintro
    have e1 : View.readAt (Elt F) (Memref.whole cc0_scratch1).view (Rect.unit (s := S8x3x3x256x256) ![3, 1, 2, 0, 0] S1x1x1x256x256.size inb_S8x3x3x256x256_S1x1x1x256x256_3_1_2_0_0).toLoadRect (rsEmb 3 1 2 (Vals.R I 0 c 3 1 2)) = Vals.R I 0 c 3 1 2 := rsV_read_rsEmb 3 1 2 _
    have e2 : View.readAt (Elt F) (Memref.whole cc0_scratch0).view (Rect.unit (s := S4x3x256x256) ![3, 2, 0, 0] S1x1x256x256.size inb_S4x3x256x256_S1x1x256x256_3_2_0_0).toLoadRect (accEmb 3 2 (Vals.A I 0 c 3 2 2)) = Vals.A I 0 c 3 2 2 := accV_read_accEmb 3 2 _
    have e3 : View.readAt (Elt F) (Memref.whole cc0_scratch1).view (Rect.unit (s := S8x3x3x256x256) ![3, 2, 2, 0, 0] S1x1x1x256x256.size inb_S8x3x3x256x256_S1x1x1x256x256_3_2_2_0_0).toLoadRect (rsEmb 3 2 2 (Vals.R I 0 c 3 2 2)) = Vals.R I 0 c 3 2 2 := rsV_read_rsEmb 3 2 2 _
    rw [e1, e2, e3]
    rfl
  isplitl [H2]
  · iexact H2
  isplitl [G1]
  · iexact G1
  isplitl [G2]
  · iexact G2
  · iexact HP

/-- info: 'Cert.KernelIdeal.Body.local_84' depends on axioms: [propext, Classical.choice, Quot.sound] -/
#guard_msgs in #print axioms local_84

end Cert.KernelIdeal.Body
-- ==== Proof.Parts.Part84.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L84
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 84 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 84 of the body, run from the place before it, ends at the place after it and returns its values; whatever else is held is kept. -/
theorem part_84 (m : (ℓ : Loc nD τ sig) → Buf (Elt F) ℓ) (K : Dev nD × Cell → ℕ) (c : Dev nD) (Fr : sProp 𝕄) :
    iprop(St (insM m) K (σ 83) c ∗ outHeld (insM m) c (σ 83).outs ∗ Fr)
      ⊢ wp frame (wpE (defs₀ (F := F)) 𝒱₀ (c : Thread nD τ) none) Set.univ
          (k0_part84 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv14 (insM m) c) (Vals.lv22 (insM m) c) (Vals.lv23 (insM m) c) (Vals.lv2139 (insM m) c) (Vals.lv2141 (insM m) c))
          (fun tup => iprop(⌜tup = ⟨Vals.lv2159 (insM m) c, Vals.lv2186 (insM m) c⟩⌝ ∗ St (insM m) K (σ 84) c ∗ outHeld (insM m) c (σ 84).outs ∗ Fr)) := by
  have eo : (σ 84).outs = (σ 83).outs := rfl
  rw [eo]
  rw [St_eq, St_eq, StRest_congr (insM m) K c (s := σ 83) (s' := σ 84) rfl rfl rfl rfl, accAll_σ_83, accAll_σ_84, StRest_rs (insM m) K c (σ 84) rfl 11 (by decide), rs3_11]
  refine BIBase.Entails.trans ?_ ((local_84 (insM m) c iprop(rsTile c 3 0 2 (Vals.R (insM m) 0 c 3 0 2) ∗ StRestNoRs (insM m) K (σ 84) c 11 ∗ emp ∗ emp ∗ emp ∗ emp ∗ emp ∗ emp ∗ emp ∗ emp ∗ emp ∗ accTile c 3 0 (Vals.A (insM m) 0 c 3 0 2) ∗ accTile c 3 1 (Vals.A (insM m) 0 c 3 1 2) ∗ outHeld (insM m) c (σ 83).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T32]; · iexact T32
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [HO]; · iexact HO
    iexact HF
  · iintro ⟨%ht, T32, R1, R2, R0, HR, T00, T01, T02, T10, T11, T12, T20, T21, T22, T30, T31, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_84' depends on axioms: [propext, Classical.choice, Quot.sound] -/
#guard_msgs in #print axioms part_84

end Cert.KernelIdeal.Body

end
-- ==== Proof.Parts.L85.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 85 of the body: stores, for group 3, the three parts of the device's feed-forward partial product over the
    accumulator tiles (which held the last level of round 0): level 0 of round 1. The words returned are the device's
    position with bit 0 flipped, the same times one, and zero. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_85 (I : Dev nD → Vals.Ins F) (c : Dev nD) (P : sProp (MT nD τ sig Unit (Elt F) ℕ UU ℕ)) :
    iprop(Proto.accPts c 3 0 (accEmb 3 0 (Vals.A I 0 c 3 0 2)) ∗ Proto.accPts c 3 1 (accEmb 3 1 (Vals.A I 0 c 3 1 2)) ∗ Proto.accPts c 3 2 (accEmb 3 2 (Vals.A I 0 c 3 2 2)) ∗ P)
      ⊢ wp frame (wpE (defs₀ (F := F)) 𝒱₀ (c : Thread nD τ) none) Set.univ
      (k0_part85 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lw2 c) (Vals.lv24 I c) (Vals.lv40 I c) (Vals.lv43 I c) (Vals.lv2159 I c) (Vals.lv2186 I c))
      (fun tup => iprop(⌜tup = ⟨Vals.lw2216 c, Vals.lw2217 c, Vals.lwc0_i32_2648 c⟩⌝
        ∗ Proto.accPts c 3 0 (accEmb 3 0 (Vals.A I 1 c 3 0 0)) ∗ Proto.accPts c 3 1 (accEmb 3 1 (Vals.A I 1 c 3 1 0)) ∗ Proto.accPts c 3 2 (accEmb 3 2 (Vals.A I 1 c 3 2 0)) ∗ P)) := by
  unfold Proto.accPts
  iintro ⟨H0, H1, H2, HP⟩
  rw [k0_part85_eq_skeleton]
  unfold k0_part85_skel
  sl_exec
  sl_step
  sl_unfold_run_names
  isplitr
  · ipureintro; rfl
  isplitl [H0]
  · iapply (accTile_at_value c 3 0)
    swap
    · iexact H0
    · exact View.read_write_univ _ _
  isplitl [H1]
  · iapply (accTile_at_value c 3 1)
    swap
    · iexact H1
    · exact View.read_write_univ _ _
  isplitl [H2]
  · iapply (accTile_at_value c 3 2)
    swap
    · iexact H2
    · exact View.read_write_univ _ _
  · iexact HP

/-- info: 'Cert.KernelIdeal.Body.local_85' depends on axioms: [propext, Classical.choice, Quot.sound] -/
#guard_msgs in #print axioms local_85

end Cert.KernelIdeal.Body
-- ==== Proof.Parts.Part85.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L85
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable

/-! Part 85 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 85 of the body, run from the place before it, ends at the place after it and returns its values; whatever else is held is kept. -/
theorem part_85 (m : (ℓ : Loc nD τ sig) → Buf (Elt F) ℓ) (K : Dev nD × Cell → ℕ) (c : Dev nD) (Fr : sProp 𝕄) :
    iprop(St (insM m) K (σ 84) c ∗ outHeld (insM m) c (σ 84).outs ∗ Fr)
      ⊢ wp frame (wpE (defs₀ (F := F)) 𝒱₀ (c : Thread nD τ) none) Set.univ
          (k0_part85 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv24 (insM m) c) (Vals.lv40 (insM m) c) (Vals.lv43 (insM m) c) (Vals.lv2159 (insM m) c) (Vals.lv2186 (insM m) c))
          (fun tup => iprop(⌜tup = ⟨Vals.lw2216 c, Vals.lw2217 c, Vals.lwc0_i32_2648 c⟩⌝ ∗ St (insM m) K (σ 85) c ∗ outHeld (insM m) c (σ 85).outs ∗ Fr)) := by
  have eo : (σ 85).outs = (σ 84).outs := rfl
  rw [eo]
  rw [St_eq, St_eq, StRest_congr (insM m) K c (s := σ 84) (s' := σ 85) rfl rfl rfl rfl, accAll_σ_84, accAll_σ_85]
  refine BIBase.Entails.trans ?_ ((local_85 (insM m) c iprop(StRest (insM m) K (σ 85) c ∗ emp ∗ emp ∗ emp ∗ emp ∗ emp ∗ emp ∗ emp ∗ emp ∗ emp ∗ outHeld (insM m) c (σ 84).outs ∗ Fr)).trans (wp_mono _ _ _ fun tup => ?_))
  · iintro ⟨⟨HR, T00, T01, T02, T10, T11, T12, T20, T21, T22, T30, T31, T32⟩, HO, HF⟩
    isplitl [T30]; · iexact T30
    isplitl [T31]; · iexact T31
    isplitl [T32]; · iexact T32
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, T32, HR, T00, T01, T02, T10, T11, T12, T20, T21, T22, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_85' depends on axioms: [propext, Classical.choice, Quot.sound] -/
#guard_msgs in #print axioms part_85

end Cert.KernelIdeal.Body

end
-- ==== Proof.Parts.L86.lean ====
/-
  Part 86 of the body starts two copies of step 21 (the 19th step started; round 1, group 3, position 0): part 0 of accumulator slice (3, 0) goes to receive slice (7, 0, 0) of the device paired along mask 1, part 1 of accumulator slice (3, 1) goes to receive slice (7, 1, 0) of the device paired along mask 3.
  The accumulator slices, at level 0 of round 1, and the paired devices' receive slices leave the device's hands; it holds the departure credits of its send cell 21 for them and owes 2 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 86: the copies of parts 0 and 1 of step 21. -/
theorem local_86 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 57) W)
        ∗ dutyTok ER (sendCell c 21) 0 0 ∗ dutyTok ER (recvCell (mate c 0 21) 21) 0 0
        ∗ dutyTok ER (sendCell c 21) 0 1 ∗ dutyTok ER (recvCell (mate c 1 21) 21) 0 1
        ∗ rsTileAny (F := F) (mate c 0 21) 7 0 0
        ∗ rsTileAny (F := F) (mate c 1 21) 7 1 0
        ∗ accTile c 3 0 (A I 1 c 3 0 0)
        ∗ accTile c 3 1 (A I 1 c 3 1 0)
        ∗ P)
      ⊢ wp frame (wpE (defs₀ (F := F)) 𝒱₀ (c : Thread nD τ) none) Set.univ
          (k0_part86 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw2217 c) (Vals.lwc0_i32_2648 c))
          (fun tup => iprop(⌜tup = ⟨Vals.lw2227 c, Vals.lw2238 c⟩⌝
            ∗ (∃ W, owes (c : Thread nD τ) (owedFrom c 59) W)
            ∗ cred (tallyAt (sendCell c 21) () N)
            ∗ cred (tallyAt (sendCell c 21) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 21)) $$ HR
  ihave #HRs := (reached_at (RdI I) K (c, Cell.send 21)) $$ HR
  ihave #HIr0 := (inv_at (RdI I) K (mate c 0 21, Cell.recv 21)) $$ HR
  ihave #HRr0 := (reached_at (RdI I) K (mate c 0 21, Cell.recv 21)) $$ HR
  ihave #HIr1 := (inv_at (RdI I) K (mate c 1 21, Cell.recv 21)) $$ HR
  ihave #HRr1 := (reached_at (RdI I) K (mate c 1 21, Cell.recv 21)) $$ HR
  sl_exec
  iapply (wp_fire_at (accCI I) (rs0I I) c 21 0 (g := 3) (rg := 7) (s := 0) (by decide) (by decide) (by decide)
      (dv := ⟨k0_dev58 c, k0_dev58_lt c⟩) ((dev58_eq c).trans rfl) rfl rfl (sendS_eq 21).symm (recvS_eq 21).symm
      (accEmb 3 0 (A I 1 c 3 0 0)) rfl fd0 (owedFrom c 58) (owed_copy c 18 0 57 (by decide) 21 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 21 1 (g := 3) (rg := 7) (s := 0) (by decide) (by decide) (by decide)
      (dv := ⟨k0_dev59 c, k0_dev59_lt c⟩) ((dev59_eq c).trans rfl) rfl rfl (sendS_eq 21).symm (recvS_eq 21).symm
      (accEmb 3 1 (A I 1 c 3 1 0)) rfl fd1 (owedFrom c 59) (owed_copy c 18 1 58 (by decide) 21 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.KernelIdeal.Body

/-- info: 'Cert.KernelIdeal.Body.local_86' depends on axioms: [propext, Classical.choice, Quot.sound] -/
#guard_msgs in #print axioms Cert.KernelIdeal.Body.local_86

end
-- ==== Proof.Parts.Part87.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L87
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 87 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 87 of the body, run from the place before it, ends at the place after it; whatever else is held is kept. -/
theorem part_87 (m : (ℓ : Loc nD τ sig) → Buf (Elt F) ℓ) (K : Dev nD × Cell → ℕ) (c : Dev nD) (Fr : sProp 𝕄) :
    iprop(St (insM m) K (σ 86) c ∗ outHeld (insM m) c (σ 86).outs ∗ Fr)
      ⊢ wp frame (wpE (defs₀ (F := F)) 𝒱₀ (c : Thread nD τ) none) Set.univ
          (k0_part87 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1862 c))
          (fun _ => iprop(St (insM m) K (σ 87) c ∗ outHeld (insM m) c (σ 87).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 59 : sProp (MT nD τ sig Unit (Elt F) ℕ UU ℕ)) = iprop(dutyTok ER (sendCell c 21) 0 2 ∗ dutyTok ER (recvCell (mate c 2 21) 21) 0 2 ∗ toksFrom c 60) := toksFrom_copy c 18 2
  have hF0 : (foreignFrom c 56 : sProp (MT nD τ sig Unit (Elt F) ℕ UU ℕ)) = iprop(rsTileAny (mate c 2 21) 7 2 0 ∗ foreignFrom c 57) := foreignFrom_succ c 18 2
  have hC : (credFrom c 48 : sProp (MT nD τ sig Unit (Elt F) ℕ UU ℕ)) = iprop(credFrom c 49 ∗ cred (tallyAt (recvCell c 18) () N)) := by
    rw [credFrom_succ c 48 (by omega), show ownCell c 48 = recvCell c 18 from ownCell_fire c 15 0, show dueAmt 48 = N from dueAmt_fire 15 0]
  have hG : (todoFrom c 31 : sProp (MT nD τ sig Unit (Elt F) ℕ UU ℕ)) = iprop(curCell (sendCell c 18) (fun p => (RdI (insM m)).payload (sendCell c 18) 0 p) 0 ∗ curCell (recvCell c 18) (fun p => (RdI (insM m)).payload (recvCell c 18) 0 p) 0 ∗ todoFrom c 33) := todo_group c 15
  rw [show (σ 87).outs = (σ 86).outs from rfl, St_open_86, St_open_87, hT0, hF0, hC, hG]
  simp only [hemp, hemp']
  refine BIBase.Entails.trans (Entails.of_eq ?_) (BIBase.Entails.trans (local_87 (insM m) K c iprop(toksFrom c 60 ∗ credFrom c 49 ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ doneTo c 31 ∗ todoFrom c 33 ∗ foreignFrom c 57 ∗ rsBack (insM m) c 15 ∗ outHeld (insM m) c (σ 86).outs ∗ Fr)) (wp_mono _ _ _ fun tup => Entails.of_eq ?_))
  · ac_rfl
  · ac_rfl

/-- info: 'Cert.KernelIdeal.Body.part_87' depends on axioms: [propext, Classical.choice, Quot.sound] -/
#guard_msgs in #print axioms part_87

end Cert.KernelIdeal.Body

end
-- ==== Proof.Parts.L89.lean ====
/-
  Part 89 of the body ends wait group 15 (round 1, group 2, first exchange) with the third wait on its receive cell, which
  hands over the three receive tiles holding the partners' tiles of level 0; the three accumulator tiles came back with the send
  cell's third wait. It overwrites the accumulator tiles of parts 0 and 1 with their sums with the received tiles (level 0 of
  round 1 becomes level 1), reads part 2's accumulator tile and returns it as a 256 × 256 matrix.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_89 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 60) W)
        ∗ cred (tallyAt (recvCell c 18) () N)
        ∗ (RdI I).payload (sendCell c 18) 0 0 ∗ (RdI I).payload (sendCell c 18) 0 1 ∗ (RdI I).payload (sendCell c 18) 0 2
        ∗ curCell (recvCell c 18) (fun p => (RdI I).payload (recvCell c 18) 0 p) 2 ∗ P) : sProp (MT nD τ sig Unit (Elt F) ℕ UU ℕ))
      ⊢ wp frame (wpE (defs₀ (F := F)) 𝒱₀ (c : Thread nD τ) none) Set.univ
        (k0_part89 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = Vals.lv2308 I c⌝ ∗ records (RdI I) K ∗ levAts Proto.L Proto.lv ∗ (∃ W, owes (c : Thread nD τ) (owedFrom c 60) W)
          ∗ curCell (recvCell c 18) (fun p => (RdI I).payload (recvCell c 18) 0 p) 3
          ∗ accTile c 2 0 (Vals.A I 1 c 2 0 1) ∗ accTile c 2 1 (Vals.A I 1 c 2 1 1) ∗ accTile c 2 2 (Vals.A I 1 c 2 2 0)
          ∗ rsTile c 6 0 0 (Vals.R I 1 c 2 0 0) ∗ rsTile c 6 1 0 (Vals.R I 1 c 2 1 0) ∗ rsTile c 6 2 0 (Vals.R I 1 c 2 2 0) ∗ P)) := by
  unfold accTile rsTile Proto.accPts Proto.rsPts
  iintro ⟨#HR, #Hlev, ⟨%W, HO⟩, Cr, Ha0, Ha1, Ha2, Hr, HP⟩
  have es : ∀ p : Fin 3, ((RdI I).payload (sendCell c 18) 0 p : sProp (MT nD τ sig Unit (Elt F) ℕ UU ℕ))
      ⊢ ((Proto.accSl 2 p).view.loc (c : Thread nD τ) ↦[(Proto.accSl 2 p).view.set]{fullShare} accEmb 2 p (Vals.A I 1 c 2 p 0)) :=
    fun p => Entails.of_eq (payload_send_tile I c 18 p)
  ihave Ha0 := (es 0) $$ Ha0
  ihave Ha1 := (es 1) $$ Ha1
  ihave Ha2 := (es 2) $$ Ha2
  ihave #HIr := (inv_at (RdI I) K (c, Cell.recv 18)) $$ HR
  sl_unfold [k0_part89]
  sl_exec
  -- the third wait on receive cell 18: the rest of its round, the three receive tiles at what landed in them
  iapply (wp_wait3 (RdI I) c (recvS 18) (duties_recv _ _ c 18) (expect_recv _ _ c 18) (hw := fun _ => rfl)) $$ [HO Cr Hr]
  · isplitr; · iexact HIr
    isplitl [Cr]; · iexact Cr
    isplitl [HO]; · iexact HO
    isplitr
    · iapply (mayWait_recvAt (F := F) c 18); iexact Hlev
    iexact Hr
  iintro ⟨HO, Hr, Hb0, Hb1, Hb2⟩
  have er : ∀ p : Fin 3, ((RdI I).payload ((c : Thread nD τ), SemLoc.dma (recvS 18)) 0 p : sProp (MT nD τ sig Unit (Elt F) ℕ UU ℕ))
      ⊢ ((Proto.rsSl 6 p 0).view.loc (c : Thread nD τ) ↦[(Proto.rsSl 6 p 0).view.set]{fullShare} rsEmb 6 p 0 (Vals.R I 1 c 2 p 0)) :=
    fun p => Entails.of_eq (payload_recv_tile I c 18 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![2, 2, 0, 0] S1x1x256x256.size inb_S4x3x256x256_S1x1x256x256_2_2_0_0).toLoadRect (accEmb 2 2 (Vals.A I 1 c 2 2 0)) = Vals.A I 1 c 2 2 0 := accV_read_accEmb 2 2 _
    rw [e1]
    rfl
  isplitr; · iexact HR
  isplitr; · iexact Hlev
  isplitl [HO]; · iexists _; iexact HO
  isplitl [Hr]; · iexact Hr
  isplitl [Ha0]
  · iapply (accTile_at_value c 2 0)
    swap
    · iexact Ha0
    · refine (View.read_write_univ _ _).trans ?_
      refine (Vals.step_1_2_0_0 _ _).symm.trans ?_
      exact congrArg₂ (Vals.step 1 2 0 0) (accV_read_accEmb 2 0 _) (rsV_read_rsEmb 6 0 0 _)
  isplitl [Ha1]
  · iapply (accTile_at_value c 2 1)
    swap
    · iexact Ha1
    · refine (View.read_write_univ _ _).trans ?_
      refine (Vals.step_1_2_1_0 _ _).symm.trans ?_
      exact congrArg₂ (Vals.step 1 2 1 0) (accV_read_accEmb 2 1 _) (rsV_read_rsEmb 6 1 0 _)
  isplitl [Ha2]; · iexact Ha2
  isplitl [Hb0]; · iexact Hb0
  isplitl [Hb1]; · iexact Hb1
  isplitl [Hb2]; · iexact Hb2
  iexact HP

/-- info: 'Cert.KernelIdeal.Body.local_89' depends on axioms: [propext, Classical.choice, Quot.sound] -/
#guard_msgs in #print axioms local_89

end Cert.KernelIdeal.Body
-- ==== Proof.Parts.Part89.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L89
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 89 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 89 of the body, run from the place before it, ends at the place after it and returns its values; whatever else is held is kept. -/
theorem part_89 (m : (ℓ : Loc nD τ sig) → Buf (Elt F) ℓ) (K : Dev nD × Cell → ℕ) (c : Dev nD) (Fr : sProp 𝕄) :
    iprop(St (insM m) K (σ 88) c ∗ outHeld (insM m) c (σ 88).outs ∗ Fr)
      ⊢ wp frame (wpE (defs₀ (F := F)) 𝒱₀ (c : Thread nD τ) none) Set.univ
          (k0_part89 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = Vals.lv2308 (insM m) c⌝ ∗ St (insM m) K (σ 89) c ∗ outHeld (insM m) c (σ 89).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 50 : sProp (MT nD τ sig Unit (Elt F) ℕ UU ℕ)) = iprop(credFrom c 51 ∗ cred (tallyAt (recvCell c 18) () N)) := by
    rw [credFrom_succ c 50 (by omega), show ownCell c 50 = recvCell c 18 from ownCell_fire c 15 2, show dueAmt 50 = N from dueAmt_fire 15 2]
  have hd : (doneTo c 33 : sProp (MT nD τ sig Unit (Elt F) ℕ UU ℕ))
      = iprop(doneTo c 31 ∗ curCell (sendCell c 18) (fun p => (RdI (insM m)).payload (sendCell c 18) 0 p) 3
          ∗ curCell (recvCell c 18) (fun p => (RdI (insM m)).payload (recvCell c 18) 0 p) 3) := (done_group c 15).symm
  have hb : (rsBack (insM m) c 16 : sProp (MT nD τ sig Unit (Elt F) ℕ UU ℕ))
      = iprop((rsTile c 6 0 0 (Vals.R (insM m) 1 c 2 0 0) ∗ rsTile c 6 1 0 (Vals.R (insM m) 1 c 2 1 0) ∗ rsTile c 6 2 0 (Vals.R (insM m) 1 c 2 2 0))
          ∗ rsBack (insM m) c 15) := rsBack_succ (insM m) c 15
  rw [St_open_88, St_open_89, hc, hd, hb, show (σ 88).outs = (σ 89).outs from rfl]
  simp only [hemp, hemp']
  refine BIBase.Entails.trans (Entails.of_eq ?_) (BIBase.Entails.trans
    (local_89 (insM m) K c
      (iprop(toksFrom c 60
        ∗ credFrom c 51
        ∗ cred (tallyAt (sendCell c 16) () N)
        ∗ cred (tallyAt (sendCell c 16) () N)
        ∗ cred (tallyAt (sendCell c 16) () N)
        ∗ cred (tallyAt (sendCell c 14) () N)
        ∗ cred (tallyAt (sendCell c 14) () N)
        ∗ cred (tallyAt (sendCell c 14) () N)
        ∗ cred (tallyAt (sendCell c 21) () N)
        ∗ cred (tallyAt (sendCell c 21) () N)
        ∗ cred (tallyAt (sendCell c 21) () N)
        ∗ doneTo c 31
        ∗ curCell (sendCell c 18) (fun p => (RdI (insM m)).payload (sendCell c 18) 0 p) 3
        ∗ todoFrom c 33
        ∗ foreignFrom c 57
        ∗ rsBack (insM m) c 15
        ∗ outHeld (insM m) c (σ 89).outs
        ∗ Fr)))
    (wp_mono _ _ _ fun tup => Entails.of_eq ?_))
  · ac_rfl
  · ac_rfl

/-- info: 'Cert.KernelIdeal.Body.part_89' depends on axioms: [propext, Classical.choice, Quot.sound] -/
#guard_msgs in #print axioms part_89

end Cert.KernelIdeal.Body

end
-- ==== Proof.Parts.L90.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 90 of the body: the store into accumulator tile (2, 2), then the start of the copy of part 0 at step 19 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_90 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 60) W)
        ∗ dutyTok ER (sendCell c 19) 0 0 ∗ dutyTok ER (recvCell (mate c 0 19) 19) 0 0
        ∗ rsTileAny (mate c 0 19) (rgOf 19) 0 (sOf 19)
        ∗ rsTile c 6 2 0 (Vals.R I 1 c 2 2 0)
        ∗ accTile c 2 2 (Vals.A I 1 c 2 2 0)
        ∗ accTile c 2 0 (Vals.A I 1 c 2 0 1)
        ∗ P) : sProp (MT nD τ sig Unit (Elt F) ℕ UU ℕ))
      ⊢ wp frame (wpE (defs₀ (F := F)) 𝒱₀ (c : Thread nD τ) none) Set.univ
      (k0_part90 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2308 I c))
      (fun tup => iprop(⌜tup = ⟨Vals.lw2315 c, Vals.lw2326 c⟩⌝
        ∗ records (RdI I) K
        ∗ (∃ W, owes (c : Thread nD τ) (owedFrom c 61) W)
        ∗ cred (tallyAt (sendCell c 19) () N)
        ∗ rsTile c 6 2 0 (Vals.R I 1 c 2 2 0)
        ∗ accTile c 2 2 (Vals.A I 1 c 2 2 1)
        ∗ P)) := by
  unfold accTile rsTile rsTileAny Proto.accPts Proto.rsPts
  iintro ⟨#Hrec, ⟨%W, HO⟩, Hts0, Htr0, ⟨%fd0, Hfd0⟩, Hr620, Ha22, Ha20, HP⟩
  ihave #HIs0 := (inv_at (RdI I) K (c, Cell.send 19)) $$ Hrec
  ihave #HIr0 := (inv_at (RdI I) K (mate c 0 19, Cell.recv 19)) $$ Hrec
  ihave #Hrs0 := (reached_at (RdI I) K (c, Cell.send 19)) $$ Hrec
  ihave #Hrr0 := (reached_at (RdI I) K (mate c 0 19, Cell.recv 19)) $$ Hrec
  rw [k0_part90_eq_skeleton]
  unfold k0_part90_skel
  sl_exec
  -- the copy of part 0 at step 19 (started as number 20): its units on the partner's receive cell are owed last
  have hc0 : dueCell c 60 = recvCell (mate c 0 19) 19 := dueCell_fire c 19 0
  have ha0 : dueAmt 60 = N := dueAmt_fire 19 0
  have hO0 : owedFrom c 60 = owedFrom c 61 + tallyAt (recvCell (mate c 0 19) 19) () N :=
    (owedFrom_succ c 60 (by decide)).trans (by rw [hc0, ha0])
  iapply (wp_fire_at (accCI I) (rs0I I) c 19 0 (g := 2) (rg := 6) (s := 1) rfl rfl rfl (dev61_eq c) rfl rfl
    (sendS_eq 19) (recvS_eq 19) (accEmb 2 0 (Vals.A I 1 c 2 0 1)) rfl fd0 (owedFrom c 61) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha22_r0 : local_90.sl.v2309 I c = Vals.R I 1 c 2 2 0 := by unfold local_90.sl.v2309; exact rsV_read_rsEmb 6 2 0 _
  have Ha22_e : View.read (Elt F) (accV 2 2) (local_90.sl.Ha22_w1 I c) = Vals.A I 1 c 2 2 1 := by
    unfold local_90.sl.Ha22_w1; rw [Ha22_r0]; exact View.read_write_univ _ _
  have Ha22_t : ((Proto.accSl 2 2).view.loc (c : Thread nD τ) ↦[(Proto.accSl 2 2).view.set]{fullShare} local_90.sl.Ha22_w1 I c : sProp (MT nD τ sig Unit (Elt F) ℕ UU ℕ)) = ((Proto.accSl 2 2).view.loc (c : Thread nD τ) ↦[(Proto.accSl 2 2).view.set]{fullShare} accEmb 2 2 (Vals.A I 1 c 2 2 1) : sProp (MT nD τ sig Unit (Elt F) ℕ UU ℕ)) := accTile_of_read c fullShare 2 2 Ha22_e
  rw [← Ha22_t]
  isplitr [HO Hcs0 Hr620 Ha22 HP]
  · ipureintro; rfl
  isplitr [HO Hcs0 Hr620 Ha22 HP]; · iexact Hrec
  isplitl [HO]; · iexists W; iexact HO
  iframe

/-- info: 'Cert.KernelIdeal.Body.local_90' depends on axioms: [propext, Classical.choice, Quot.sound] -/
#guard_msgs in #print axioms local_90

end Cert.KernelIdeal.Body
-- ==== Proof.Parts.Part90.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L90
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 90 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 90 of the body, run from the place before it, ends at the place after it and returns its values; whatever else is held is kept. -/
theorem part_90 (m : (ℓ : Loc nD τ sig) → Buf (Elt F) ℓ) (K : Dev nD × Cell → ℕ) (c : Dev nD) (Fr : sProp 𝕄) :
    iprop(St (insM m) K (σ 89) c ∗ outHeld (insM m) c (σ 89).outs ∗ Fr)
      ⊢ wp frame (wpE (defs₀ (F := F)) 𝒱₀ (c : Thread nD τ) none) Set.univ
          (k0_part90 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2308 (insM m) c))
          (fun tup => iprop(⌜tup = ⟨Vals.lw2315 c, Vals.lw2326 c⟩⌝ ∗ St (insM m) K (σ 90) c ∗ outHeld (insM m) c (σ 90).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 60 : sProp (MT nD τ sig Unit (Elt F) ℕ UU ℕ))
      = iprop(dutyTok ER (sendCell c 19) 0 0 ∗ dutyTok ER (recvCell (mate c 0 19) 19) 0 0 ∗ toksFrom c 61) := toksFrom_copy c 19 0
  have hf0 : (foreignFrom c 57 : sProp (MT nD τ sig Unit (Elt F) ℕ UU ℕ))
      = iprop(rsTileAny (mate c 0 19) (rgOf 19) 0 (sOf 19) ∗ foreignFrom c 58) := foreignFrom_succ c 19 0
  have hb15 : (rsBack (insM m) c 16 : sProp (MT nD τ sig Unit (Elt F) ℕ UU ℕ))
      = iprop((rsTile c 6 0 0 (Vals.R (insM m) 1 c 2 0 0) ∗ rsTile c 6 1 0 (Vals.R (insM m) 1 c 2 1 0) ∗ rsTile c 6 2 0 (Vals.R (insM m) 1 c 2 2 0)) ∗ rsBack (insM m) c 15) := rsBack_succ (insM m) c 15
  rw [St_open_89, St_open_90, ht0, hf0, hb15, show (σ 89).outs = (σ 90).outs from rfl]
  simp only [hemp, hemp']
  refine BIBase.Entails.trans (Entails.of_eq ?_) (BIBase.Entails.trans
    (local_90 (insM m) K c
      (iprop(levAts Proto.L Proto.lv
        ∗ toksFrom c 61
        ∗ credFrom c 51
        ∗ cred (tallyAt (sendCell c 16) () N)
        ∗ cred (tallyAt (sendCell c 16) () N)
        ∗ cred (tallyAt (sendCell c 16) () N)
        ∗ cred (tallyAt (sendCell c 14) () N)
        ∗ cred (tallyAt (sendCell c 14) () N)
        ∗ cred (tallyAt (sendCell c 14) () N)
        ∗ cred (tallyAt (sendCell c 21) () N)
        ∗ cred (tallyAt (sendCell c 21) () N)
        ∗ cred (tallyAt (sendCell c 21) () N)
        ∗ doneTo c 33
        ∗ todoFrom c 33
        ∗ foreignFrom c 58
        ∗ rsTile c 6 0 0 (Vals.R (insM m) 1 c 2 0 0)
        ∗ rsTile c 6 1 0 (Vals.R (insM m) 1 c 2 1 0)
        ∗ rsBack (insM m) c 15
        ∗ accTile c 2 1 (Vals.A (insM m) 1 c 2 1 1)
        ∗ outHeld (insM m) c (σ 90).outs
        ∗ Fr)))
    (wp_mono _ _ _ fun tup => Entails.of_eq ?_))
  · ac_rfl
  · ac_rfl

/-- info: 'Cert.KernelIdeal.Body.part_90' depends on axioms: [propext, Classical.choice, Quot.sound] -/
#guard_msgs in #print axioms part_90

end Cert.KernelIdeal.Body

end
-- ==== Proof.Parts.Part91.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L91
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 91 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 91 of the body, run from the place before it, ends at the place after it and returns its values; whatever else is held is kept. -/
theorem part_91 (m : (ℓ : Loc nD τ sig) → Buf (Elt F) ℓ) (K : Dev nD × Cell → ℕ) (c : Dev nD) (Fr : sProp 𝕄) :
    iprop(St (insM m) K (σ 90) c ∗ outHeld (insM m) c (σ 90).outs ∗ Fr)
      ⊢ wp frame (wpE (defs₀ (F := F)) 𝒱₀ (c : Thread nD τ) none) Set.univ
          (k0_part91 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw2337 c, Vals.lwc1_i32_2854 c⟩⌝ ∗ St (insM m) K (σ 91) c ∗ outHeld (insM m) c (σ 91).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 61 : sProp (MT nD τ sig Unit (Elt F) ℕ UU ℕ)) = iprop(dutyTok ER (sendCell c 19) 0 1 ∗ dutyTok ER (recvCell (mate c 1 19) 19) 0 1 ∗ toksFrom c 62) := toksFrom_copy c 19 1
  have hF0 : (foreignFrom c 58 : sProp (MT nD τ sig Unit (Elt F) ℕ UU ℕ)) = iprop(rsTileAny (mate c 1 19) 6 1 1 ∗ foreignFrom c 59) := foreignFrom_succ c 19 1
  have hT1 : (toksFrom c 62 : sProp (MT nD τ sig Unit (Elt F) ℕ UU ℕ)) = iprop(dutyTok ER (sendCell c 19) 0 2 ∗ dutyTok ER (recvCell (mate c 2 19) 19) 0 2 ∗ toksFrom c 63) := toksFrom_copy c 19 2
  have hF1 : (foreignFrom c 59 : sProp (MT nD τ sig Unit (Elt F) ℕ UU ℕ)) = iprop(rsTileAny (mate c 2 19) 6 2 1 ∗ foreignFrom c 60) := foreignFrom_succ c 19 2
  have hG : (todoFrom c 33 : sProp (MT nD τ sig Unit (Elt F) ℕ UU ℕ)) = iprop(curCell (sendCell c 16) (fun p => (RdI (insM m)).payload (sendCell c 16) 0 p) 0 ∗ curCell (recvCell c 16) (fun p => (RdI (insM m)).payload (recvCell c 16) 0 p) 0 ∗ todoFrom c 35) := todo_group c 16
  rw [show (σ 91).outs = (σ 90).outs from rfl, St_open_90, St_open_91, hT0, hF0, hT1, hF1, hG]
  simp only [hemp, hemp']
  refine BIBase.Entails.trans (Entails.of_eq ?_) (BIBase.Entails.trans (local_91 (insM m) K c iprop(toksFrom c 63 ∗ credFrom c 51 ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ doneTo c 33 ∗ curCell (recvCell c 16) (fun p => (RdI (insM m)).payload (recvCell c 16) 0 p) 0 ∗ todoFrom c 35 ∗ foreignFrom c 60 ∗ rsBack (insM m) c 16 ∗ outHeld (insM m) c (σ 90).outs ∗ Fr)) (wp_mono _ _ _ fun tup => Entails.of_eq ?_))
  · ac_rfl
  · ac_rfl

/-- info: 'Cert.KernelIdeal.Body.part_91' depends on axioms: [propext, Classical.choice, Quot.sound] -/
#guard_msgs in #print axioms part_91

end Cert.KernelIdeal.Body

end
-- ==== Proof.Parts.L93.lean ====
/-
  Part 93 of the body ends wait group 16 (round 1, group 1, second exchange): the third wait on its send cell hands back the
  three accumulator tiles of group 1 at level 1 of round 1, the third wait on its receive cell hands over the three receive
  tiles holding the partners' tiles of that level. It then overwrites part 0's accumulator tile with its sum with the
  received tile: level 1 becomes level 2.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_93 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 63) W)
        ∗ cred (tallyAt (sendCell c 16) () N) ∗ cred (tallyAt (recvCell c 16) () N)
        ∗ curCell (sendCell c 16) (fun p => (RdI I).payload (sendCell c 16) 0 p) 2
        ∗ curCell (recvCell c 16) (fun p => (RdI I).payload (recvCell c 16) 0 p) 2 ∗ P) : sProp (MT nD τ sig Unit (Elt F) ℕ UU ℕ))
      ⊢ wp frame (wpE (defs₀ (F := F)) 𝒱₀ (c : Thread nD τ) none) Set.univ
        (k0_part93 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw1983 c))
        (fun tup => iprop(records (RdI I) K ∗ levAts Proto.L Proto.lv ∗ (∃ W, owes (c : Thread nD τ) (owedFrom c 63) W)
          ∗ curCell (sendCell c 16) (fun p => (RdI I).payload (sendCell c 16) 0 p) 3
          ∗ curCell (recvCell c 16) (fun p => (RdI I).payload (recvCell c 16) 0 p) 3
          ∗ accTile c 1 0 (Vals.A I 1 c 1 0 2) ∗ accTile c 1 1 (Vals.A I 1 c 1 1 1) ∗ accTile c 1 2 (Vals.A I 1 c 1 2 1)
          ∗ rsTile c 5 0 1 (Vals.R I 1 c 1 0 1) ∗ rsTile c 5 1 1 (Vals.R I 1 c 1 1 1) ∗ rsTile c 5 2 1 (Vals.R I 1 c 1 2 1) ∗ P)) := by
  unfold accTile rsTile Proto.accPts Proto.rsPts
  iintro ⟨#HR, #Hlev, ⟨%W, HO⟩, Cs, Cr, Hs, Hr, HP⟩
  ihave #HIs := (inv_at (RdI I) K (c, Cell.send 16)) $$ HR
  ihave #HIr := (inv_at (RdI I) K (c, Cell.recv 16)) $$ HR
  sl_unfold [k0_part93]
  sl_exec
  -- the third wait on send cell 16: the rest of its round, the three source tiles back
  iapply (wp_wait3 (RdI I) c (sendS 16) (duties_send _ _ c 16) (expect_send _ _ c 16) (hw := fun _ => rfl)) $$ [HO Cs Hs]
  · isplitr; · iexact HIs
    isplitl [Cs]; · iexact Cs
    isplitl [HO]; · iexact HO
    isplitr
    · iapply (mayWait_sendAt (F := F) c 16); iexact Hlev
    iexact Hs
  iintro ⟨HO, Hs, Ha0, Ha1, Ha2⟩
  have es : ∀ p : Fin 3, ((RdI I).payload ((c : Thread nD τ), SemLoc.dma (sendS 16)) 0 p : sProp (MT nD τ sig Unit (Elt F) ℕ UU ℕ))
      ⊢ ((Proto.accSl 1 p).view.loc (c : Thread nD τ) ↦[(Proto.accSl 1 p).view.set]{fullShare} accEmb 1 p (Vals.A I 1 c 1 p 1)) :=
    fun p => Entails.of_eq (payload_send_tile I c 16 p)
  ihave Ha0 := (es 0) $$ Ha0
  ihave Ha1 := (es 1) $$ Ha1
  ihave Ha2 := (es 2) $$ Ha2
  sl_exec
  -- the third wait on receive cell 16: the rest of its round, the three receive tiles at what landed in them
  iapply (wp_wait3 (RdI I) c (recvS 16) (duties_recv _ _ c 16) (expect_recv _ _ c 16) (hw := fun _ => rfl)) $$ [HO Cr Hr]
  · isplitr; · iexact HIr
    isplitl [Cr]; · iexact Cr
    isplitl [HO]; · iexact HO
    isplitr
    · iapply (mayWait_recvAt (F := F) c 16); iexact Hlev
    iexact Hr
  iintro ⟨HO, Hr, Hb0, Hb1, Hb2⟩
  have er : ∀ p : Fin 3, ((RdI I).payload ((c : Thread nD τ), SemLoc.dma (recvS 16)) 0 p : sProp (MT nD τ sig Unit (Elt F) ℕ UU ℕ))
      ⊢ ((Proto.rsSl 5 p 1).view.loc (c : Thread nD τ) ↦[(Proto.rsSl 5 p 1).view.set]{fullShare} rsEmb 5 p 1 (Vals.R I 1 c 1 p 1)) :=
    fun p => Entails.of_eq (payload_recv_tile I c 16 p)
  ihave Hb0 := (er 0) $$ Hb0
  ihave Hb1 := (er 1) $$ Hb1
  ihave Hb2 := (er 2) $$ Hb2
  sl_exec
  sl_step
  sl_unfold_run_names

  isplitr; · iexact HR
  isplitr; · iexact Hlev
  isplitl [HO]; · iexists _; iexact HO
  isplitl [Hs]; · iexact Hs
  isplitl [Hr]; · iexact Hr
  isplitl [Ha0]
  · iapply (accTile_at_value c 1 0)
    swap
    · iexact Ha0
    · refine (View.read_write_univ _ _).trans ?_
      refine (Vals.step_1_1_0_1 _ _).symm.trans ?_
      exact congrArg₂ (Vals.step 1 1 0 1) (accV_read_accEmb 1 0 _) (rsV_read_rsEmb 5 0 1 _)
  isplitl [Ha1]; · iexact Ha1
  isplitl [Ha2]; · iexact Ha2
  isplitl [Hb0]; · iexact Hb0
  isplitl [Hb1]; · iexact Hb1
  isplitl [Hb2]; · iexact Hb2
  iexact HP

/-- info: 'Cert.KernelIdeal.Body.local_93' depends on axioms: [propext, Classical.choice, Quot.sound] -/
#guard_msgs in #print axioms local_93

end Cert.KernelIdeal.Body
-- ==== Proof.Parts.Part93.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L93
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 93 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 93 of the body, run from the place before it, ends at the place after it; whatever else is held is kept. -/
theorem part_93 (m : (ℓ : Loc nD τ sig) → Buf (Elt F) ℓ) (K : Dev nD × Cell → ℕ) (c : Dev nD) (Fr : sProp 𝕄) :
    iprop(St (insM m) K (σ 92) c ∗ outHeld (insM m) c (σ 92).outs ∗ Fr)
      ⊢ wp frame (wpE (defs₀ (F := F)) 𝒱₀ (c : Thread nD τ) none) Set.univ
          (k0_part93 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw1983 c))
          (fun _ => iprop(St (insM m) K (σ 93) c ∗ outHeld (insM m) c (σ 93).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 53 : sProp (MT nD τ sig Unit (Elt F) ℕ UU ℕ)) = iprop(credFrom c 54 ∗ cred (tallyAt (recvCell c 16) () N)) := by
    rw [credFrom_succ c 53 (by omega), show ownCell c 53 = recvCell c 16 from ownCell_fire c 16 2, show dueAmt 53 = N from dueAmt_fire 16 2]
  have hd : (doneTo c 35 : sProp (MT nD τ sig Unit (Elt F) ℕ UU ℕ))
      = iprop(doneTo c 33 ∗ curCell (sendCell c 16) (fun p => (RdI (insM m)).payload (sendCell c 16) 0 p) 3
          ∗ curCell (recvCell c 16) (fun p => (RdI (insM m)).payload (recvCell c 16) 0 p) 3) := (done_group c 16).symm
  have hb : (rsBack (insM m) c 17 : sProp (MT nD τ sig Unit (Elt F) ℕ UU ℕ))
      = iprop((rsTile c 5 0 1 (Vals.R (insM m) 1 c 1 0 1) ∗ rsTile c 5 1 1 (Vals.R (insM m) 1 c 1 1 1) ∗ rsTile c 5 2 1 (Vals.R (insM m) 1 c 1 2 1))
          ∗ rsBack (insM m) c 16) := rsBack_succ (insM m) c 16
  rw [St_open_92, St_open_93, hc, hd, hb, show (σ 92).outs = (σ 93).outs from rfl]
  simp only [hemp, hemp']
  refine BIBase.Entails.trans (Entails.of_eq ?_) (BIBase.Entails.trans
    (local_93 (insM m) K c
      (iprop(toksFrom c 63
        ∗ credFrom c 54
        ∗ cred (tallyAt (sendCell c 14) () N)
        ∗ cred (tallyAt (sendCell c 14) () N)
        ∗ cred (tallyAt (sendCell c 14) () N)
        ∗ cred (tallyAt (sendCell c 21) () N)
        ∗ cred (tallyAt (sendCell c 21) () N)
        ∗ cred (tallyAt (sendCell c 21) () N)
        ∗ cred (tallyAt (sendCell c 19) () N)
        ∗ cred (tallyAt (sendCell c 19) () N)
        ∗ cred (tallyAt (sendCell c 19) () N)
        ∗ doneTo c 33
        ∗ todoFrom c 35
        ∗ foreignFrom c 60
        ∗ rsBack (insM m) c 16
        ∗ outHeld (insM m) c (σ 93).outs
        ∗ Fr)))
    (wp_mono _ _ _ fun tup => Entails.of_eq ?_))
  · ac_rfl
  · ac_rfl

/-- info: 'Cert.KernelIdeal.Body.part_93' depends on axioms: [propext, Classical.choice, Quot.sound] -/
#guard_msgs in #print axioms part_93

end Cert.KernelIdeal.Body

end
-- ==== Proof.Parts.L94.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 94 of the body: the second exchange of round 1 on group 1, parts 1 and 2. Each of the two accumulator tiles is
    read with the receive tile its partner's copy landed in, and the tile is overwritten with their sum: level 1 of
    round 1 becomes level 2. The word returned is the device's position with bit 2 flipped. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_94 (I : Dev nD → Vals.Ins F) (c : Dev nD) (P : sProp (MT nD τ sig Unit (Elt F) ℕ UU ℕ)) :
    iprop(Proto.accPts c 1 1 (accEmb 1 1 (Vals.A I 1 c 1 1 1)) ∗ Proto.accPts c 1 2 (accEmb 1 2 (Vals.A I 1 c 1 2 1))
        ∗ Proto.rsPts c 5 1 1 (rsEmb 5 1 1 (Vals.R I 1 c 1 1 1)) ∗ Proto.rsPts c 5 2 1 (rsEmb 5 2 1 (Vals.R I 1 c 1 2 1)) ∗ P)
      ⊢ wp frame (wpE (defs₀ (F := F)) 𝒱₀ (c : Thread nD τ) none) Set.univ
      (k0_part94 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lw2 c))
      (fun tup => iprop(⌜tup = Vals.lw2414 c⌝
        ∗ Proto.accPts c 1 1 (accEmb 1 1 (Vals.A I 1 c 1 1 2)) ∗ Proto.accPts c 1 2 (accEmb 1 2 (Vals.A I 1 c 1 2 2))
        ∗ Proto.rsPts c 5 1 1 (rsEmb 5 1 1 (Vals.R I 1 c 1 1 1)) ∗ Proto.rsPts c 5 2 1 (rsEmb 5 2 1 (Vals.R I 1 c 1 2 1)) ∗ P)) := by
  unfold Proto.accPts Proto.rsPts
  iintro ⟨H1, H2, G1, G2, HP⟩
  rw [k0_part94_eq_skeleton]
  unfold k0_part94_skel
  sl_exec
  sl_step
  sl_unfold_run_names
  isplitr
  · ipureintro; rfl
  isplitl [H1]
  · iapply (accTile_at_value c 1 1)
    swap
    · iexact H1
    · refine (View.read_write_univ _ _).trans ?_
      refine (Vals.step_1_1_1_1 _ _).symm.trans ?_
      exact congrArg₂ (Vals.step 1 1 1 1) (accV_read_accEmb 1 1 _) (rsV_read_rsEmb 5 1 1 _)
  isplitl [H2]
  · iapply (accTile_at_value c 1 2)
    swap
    · iexact H2
    · refine (View.read_write_univ _ _).trans ?_
      refine (Vals.step_1_1_2_1 _ _).symm.trans ?_
      exact congrArg₂ (Vals.step 1 1 2 1) (accV_read_accEmb 1 2 _) (rsV_read_rsEmb 5 2 1 _)
  isplitl [G1]
  · iexact G1
  isplitl [G2]
  · iexact G2
  · iexact HP

/-- info: 'Cert.KernelIdeal.Body.local_94' depends on axioms: [propext, Classical.choice, Quot.sound] -/
#guard_msgs in #print axioms local_94

end Cert.KernelIdeal.Body
-- ==== Proof.Parts.Part94.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L94
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 94 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 94 of the body, run from the place before it, ends at the place after it and returns its values; whatever else is held is kept. -/
theorem part_94 (m : (ℓ : Loc nD τ sig) → Buf (Elt F) ℓ) (K : Dev nD × Cell → ℕ) (c : Dev nD) (Fr : sProp 𝕄) :
    iprop(St (insM m) K (σ 93) c ∗ outHeld (insM m) c (σ 93).outs ∗ Fr)
      ⊢ wp frame (wpE (defs₀ (F := F)) 𝒱₀ (c : Thread nD τ) none) Set.univ
          (k0_part94 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c))
          (fun tup => iprop(⌜tup = Vals.lw2414 c⌝ ∗ St (insM m) K (σ 94) c ∗ outHeld (insM m) c (σ 94).outs ∗ Fr)) := by
  have eo : (σ 94).outs = (σ 93).outs := rfl
  rw [eo]
  rw [St_eq, St_eq, StRest_congr (insM m) K c (s := σ 93) (s' := σ 94) rfl rfl rfl rfl, accAll_σ_93, accAll_σ_94, StRest_rs (insM m) K c (σ 94) rfl 16 (by decide), rs3_16]
  refine BIBase.Entails.trans ?_ ((local_94 (insM m) c iprop(rsTile c 5 0 1 (Vals.R (insM m) 1 c 1 0 1) ∗ StRestNoRs (insM m) K (σ 94) c 16 ∗ emp ∗ emp ∗ emp ∗ accTile c 1 0 (Vals.A (insM m) 1 c 1 0 2) ∗ emp ∗ emp ∗ emp ∗ emp ∗ emp ∗ emp ∗ outHeld (insM m) c (σ 93).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T11]; · iexact T11
    isplitl [T12]; · iexact T12
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T11, T12, R1, R2, R0, HR, T00, T01, T02, T10, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_94' depends on axioms: [propext, Classical.choice, Quot.sound] -/
#guard_msgs in #print axioms part_94

end Cert.KernelIdeal.Body

end
-- ==== Proof.Parts.L95.lean ====
/-
  Part 95 of the body starts three copies of step 17 (the 21st step started; round 1, group 1, position 2): part 0 of accumulator slice (1, 0) goes to receive slice (5, 0, 2) of the device paired along mask 4, part 1 of accumulator slice (1, 1) goes to receive slice (5, 1, 2) of the device paired along mask 1, part 2 of accumulator slice (1, 2) goes to receive slice (5, 2, 2) of the device paired along mask 3.
  The accumulator slices, at level 2 of round 1, and the paired devices' receive slices leave the device's hands; it holds the departure credits of its send cell 17 for them and owes 3 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 95: the copies of parts 0, 1 and 2 of step 17. -/
theorem local_95 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 63) W)
        ∗ dutyTok ER (sendCell c 17) 0 0 ∗ dutyTok ER (recvCell (mate c 0 17) 17) 0 0
        ∗ dutyTok ER (sendCell c 17) 0 1 ∗ dutyTok ER (recvCell (mate c 1 17) 17) 0 1
        ∗ dutyTok ER (sendCell c 17) 0 2 ∗ dutyTok ER (recvCell (mate c 2 17) 17) 0 2
        ∗ rsTileAny (F := F) (mate c 0 17) 5 0 2
        ∗ rsTileAny (F := F) (mate c 1 17) 5 1 2
        ∗ rsTileAny (F := F) (mate c 2 17) 5 2 2
        ∗ accTile c 1 0 (A I 1 c 1 0 2)
        ∗ accTile c 1 1 (A I 1 c 1 1 2)
        ∗ accTile c 1 2 (A I 1 c 1 2 2)
        ∗ P)
      ⊢ wp frame (wpE (defs₀ (F := F)) 𝒱₀ (c : Thread nD τ) none) Set.univ
          (k0_part95 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw2425 c, Vals.lw2436 c⟩⌝
            ∗ (∃ W, owes (c : Thread nD τ) (owedFrom c 66) W)
            ∗ cred (tallyAt (sendCell c 17) () N)
            ∗ cred (tallyAt (sendCell c 17) () N)
            ∗ cred (tallyAt (sendCell c 17) () N)
            ∗ P)) := by
  iintro ⟨#HR, ⟨%W, HO⟩, Ts0, Tr0, Ts1, Tr1, Ts2, Tr2, ⟨%fd0, Hr0⟩, ⟨%fd1, Hr1⟩, ⟨%fd2, Hr2⟩, Ha0, Ha1, Ha2, HP⟩
  ihave #HIs := (inv_at (RdI I) K (c, Cell.send 17)) $$ HR
  ihave #HRs := (reached_at (RdI I) K (c, Cell.send 17)) $$ HR
  ihave #HIr0 := (inv_at (RdI I) K (mate c 0 17, Cell.recv 17)) $$ HR
  ihave #HRr0 := (reached_at (RdI I) K (mate c 0 17, Cell.recv 17)) $$ HR
  ihave #HIr1 := (inv_at (RdI I) K (mate c 1 17, Cell.recv 17)) $$ HR
  ihave #HRr1 := (reached_at (RdI I) K (mate c 1 17, Cell.recv 17)) $$ HR
  ihave #HIr2 := (inv_at (RdI I) K (mate c 2 17, Cell.recv 17)) $$ HR
  ihave #HRr2 := (reached_at (RdI I) K (mate c 2 17, Cell.recv 17)) $$ HR
  sl_exec
  iapply (wp_fire_at (accCI I) (rs0I I) c 17 0 (g := 1) (rg := 5) (s := 2) (by decide) (by decide) (by decide)
      (dv := ⟨k0_dev64 c, k0_dev64_lt c⟩) ((dev64_eq c).trans rfl) rfl rfl (sendS_eq 17).symm (recvS_eq 17).symm
      (accEmb 1 0 (A I 1 c 1 0 2)) rfl fd0 (owedFrom c 64) (owed_copy c 20 0 63 (by decide) 17 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 17 1 (g := 1) (rg := 5) (s := 2) (by decide) (by decide) (by decide)
      (dv := ⟨k0_dev65 c, k0_dev65_lt c⟩) ((dev65_eq c).trans rfl) rfl rfl (sendS_eq 17).symm (recvS_eq 17).symm
      (accEmb 1 1 (A I 1 c 1 1 2)) rfl fd1 (owedFrom c 65) (owed_copy c 20 1 64 (by decide) 17 (by decide))) $$ [HO Ha1 Hr1 Ts1 Tr1]
  · fire_premises HIs HIr1 Ha1 Hr1 HO Ts1 HRs Tr1 HRr1
  iintro ⟨Hc1, HO⟩
  sl_exec
  iapply (wp_fire_at (accCI I) (rs0I I) c 17 2 (g := 1) (rg := 5) (s := 2) (by decide) (by decide) (by decide)
      (dv := ⟨k0_dev66 c, k0_dev66_lt c⟩) ((dev66_eq c).trans rfl) rfl rfl (sendS_eq 17).symm (recvS_eq 17).symm
      (accEmb 1 2 (A I 1 c 1 2 2)) rfl fd2 (owedFrom c 66) (owed_copy c 20 2 65 (by decide) 17 (by decide))) $$ [HO Ha2 Hr2 Ts2 Tr2]
  · fire_premises HIs HIr2 Ha2 Hr2 HO Ts2 HRs Tr2 HRr2
  iintro ⟨Hc2, HO⟩
  sl_exec
  sl_step
  isplitr
  · ipureintro; rfl
  isplitl [HO]
  · iexists W; iexact HO
  isplitl [Hc0]; · iexact Hc0
  isplitl [Hc1]; · iexact Hc1
  isplitl [Hc2]; · iexact Hc2
  iexact HP

end Cert.KernelIdeal.Body

/-- info: 'Cert.KernelIdeal.Body.local_95' depends on axioms: [propext, Classical.choice, Quot.sound] -/
#guard_msgs in #print axioms Cert.KernelIdeal.Body.local_95

end
-- ==== Proof.BodyOut.lean ====
/-
  The output block after the store of one of its four row blocks.  Row block `g = 2 b + h` is batch row `b`, rows
  `256 h` on.  If the block held the result on the row blocks before `g`, then after group `g`'s block is stored
  through row block `g` it holds the result on the row blocks up to and with `g`: an index of row block `g` now reads
  the stored block, which is the result read through that row block; every other index is untouched.
-/
import proofs.«900775_g7700000000000776_dist_diff_dit_htp_i_b2_s512_d768_hq4_v7x_i8_f32_1_alg».proof.Proof.BodyState

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Mesh Cert.KernelIdeal.LaunchK Cert.KernelIdeal.Vals
open Idealize.ShloMosaic.ValueIdx (ix3 eq_ix3)

variable {F : FTy → Type} [FloatOps F]

section Blk
variable (I : Dev nD → Ins F) (c : Dev nD) (b h : Fin 2)
variable (hin : ∀ a, (![b.val, 256 * h.val, 0] : Fin 3 → Nat) a + S1x256x768.size a ≤ S2x512x768.size a)

/-- Row block `2 b + h` of the output: batch row `b`, rows `256 h` on. -/
abbrev blkR : Rect S2x512x768 := Rect.unit (s := S2x512x768) ![b.val, 256 * h.val, 0] S1x256x768.size hin

/-- The view a store of that row block goes through. -/
abbrev blkV : View sig .tc .vmem (blkR b h hin).shape .f32 := (Memref.whole cc0_stg9_0).view.slice (blkR b h hin)

/-- Where that view puts coordinate `x` of the block: batch row `b`, row `256 h + x 1`, column `x 2`. -/
theorem blkV_emb (x : S1x256x768.Idx) :
    (blkV b h hin).emb x = ix3 b (⟨256 * h.val + (⟨(x 1).val, (x 1).isLt⟩ : Fin 256).val, by
        have h1 : (x 1).val < 256 := (x 1).isLt
        have hh : h.val < 2 := h.isLt
        show 256 * h.val + (x 1).val < 512
        omega⟩ : Fin 512) (⟨(x 2).val, (x 2).isLt⟩ : Fin 768) := by
  funext a
  apply Fin.ext
  match a with
  | ⟨0, _⟩ =>
    have h0 : (x 0).val < 1 := (x 0).isLt
    show b.val + 1 * (x 0).val = b.val
    omega
  | ⟨1, _⟩ =>
    show 256 * h.val + 1 * (x 1).val = 256 * h.val + (x 1).val
    omega
  | ⟨2, _⟩ =>
    show 0 + 1 * (x 2).val = (x 2).val
    omega

/-- The result read through row block `2 b + h` is that group's block. -/
theorem read_outC_blk :
    (blkV b h hin).read (Elt F) (outC I c) = outBlk I c ⟨2 * b.val + h.val, by have := b.isLt; have := h.isLt; omega⟩ := by
  funext x
  have h0 : (x 0).val < 1 := (x 0).isLt
  rw [View.read_apply, blkV_emb, cast_eq,
    Vals.outC_apply I c b h (⟨(x 1).val, (x 1).isLt⟩ : Fin 256) (⟨(x 2).val, (x 2).isLt⟩ : Fin 768)]
  have ex : ix3 (0 : Fin 1) (⟨(x 1).val, (x 1).isLt⟩ : Fin 256) (⟨(x 2).val, (x 2).isLt⟩ : Fin 768) = x := by
    funext a
    match a with
    | ⟨0, _⟩ => exact Fin.ext (by show 0 = (x 0).val; omega)
    | ⟨1, _⟩ => rfl
    | ⟨2, _⟩ => rfl
  rw [ex]

/-- The indices of row block `2 b + h`. -/
theorem mem_blkV_iff (i : S2x512x768.Idx) : i ∈ (blkV b h hin).set ↔ outBlockOf i = 2 * b.val + h.val := by
  have hb : b.val < 2 := b.isLt
  have hh : h.val < 2 := h.isLt
  have h0 : (i 0).val < 2 := (i 0).isLt
  have h1 : (i 1).val < 512 := (i 1).isLt
  have h2 : (i 2).val < 768 := (i 2).isLt
  show i ∈ ((View.whole cc0_stg9_0 : View sig .tc _ _ _).slice (blkR b h hin)).set ↔ _
  rw [View.set_slice_whole, Rect.mem_set_unit]
  unfold outBlockOf
  constructor
  · intro hm
    have m0 : b.val ≤ (i 0).val ∧ (i 0).val < b.val + 1 := hm 0
    have m1 : 256 * h.val ≤ (i 1).val ∧ (i 1).val < 256 * h.val + 256 := hm 1
    omega
  · intro he a
    match a with
    | ⟨0, _⟩ => show b.val ≤ (i 0).val ∧ (i 0).val < b.val + 1; omega
    | ⟨1, _⟩ => show 256 * h.val ≤ (i 1).val ∧ (i 1).val < 256 * h.val + 256; omega
    | ⟨2, _⟩ => show 0 ≤ (i 2).val ∧ (i 2).val < 0 + 768; omega

/-- THE STEP. Group `2 b + h`'s block written through its row block, over a contents that is the result on the row
    blocks before it: the result on the row blocks up to and with it. -/
theorem out_step (f9 : Vec F S2x512x768 .f32) (hf9 : ∀ j : S2x512x768.Idx, outBlockOf j < 2 * b.val + h.val → f9 j = outC I c j)
    (j : S2x512x768.Idx) (hj : outBlockOf j < 2 * b.val + h.val + 1) :
    (blkV b h hin).write (Elt F) f9 (outBlk I c ⟨2 * b.val + h.val, by have := b.isLt; have := h.isLt; omega⟩) Finset.univ j
      = outC I c j := by
  by_cases hi : outBlockOf j = 2 * b.val + h.val
  · have e := eq_write_read_on (Val := Elt F) (blkV b h hin) (outC I c) f9 j ((mem_blkV_iff b h hin j).mpr hi)
    rw [read_outC_blk] at e
    exact e.symm
  · have hlt : outBlockOf j < 2 * b.val + h.val := by omega
    have hnm : j ∉ (blkV b h hin).setOn Finset.univ := by
      rw [View.setOn_univ]; exact fun hm => hi ((mem_blkV_iff b h hin j).mp hm)
    rw [View.write_of_not_mem _ _ _ hnm, hf9 j hlt]

/-- The same of the points-to: the output block after that store holds the result on one row block more. -/
theorem outHeld_store (f : Vec F S2x512x768 .f32) (hf : ∀ j : S2x512x768.Idx, outBlockOf j < 2 * b.val + h.val → f j = outC I c j) :
    ((((Memref.whole cc0_stg9_0).view.loc (c : Thread nD τ)) ↦{fullShare}
        (Memref.whole cc0_stg9_0).view.writes (Elt F) f
          [⟨blkR b h hin, outBlk I c ⟨2 * b.val + h.val, by have := b.isLt; have := h.isLt; omega⟩⟩]) : sProp (MT nD τ sig Unit (Elt F) ℕ UU ℕ))
      ⊢ outHeld I c (2 * b.val + h.val + 1) := by
  unfold outHeld
  iintro H
  iexists ((Memref.whole cc0_stg9_0).view.writes (Elt F) f
    [⟨blkR b h hin, outBlk I c ⟨2 * b.val + h.val, by have := b.isLt; have := h.isLt; omega⟩⟩])
  isplitr
  · ipureintro
    intro j hj
    rw [View.writes_singleton]
    exact out_step I c b h hin f hf j hj
  · iexact H

end Blk

/-- info: 'Cert.KernelIdeal.Body.outHeld_store' depends on axioms: [propext, Classical.choice, Quot.sound] -/
#guard_msgs in #print axioms outHeld_store

end Cert.KernelIdeal.Body

end
-- ==== Proof.Parts.L98.lean ====
/-
  Part 98 of the body ends wait group 17 (round 1, group 0, third exchange) with the third wait on its receive cell, which
  hands over the three receive tiles holding the partners' tiles of the last level; the three accumulator tiles came back with the
  send cell's third wait. It reads the six tiles and the output window's first block (whose value is not used) and returns group
  0's output block: the residual stream after attention plus the feed-forward gate times the three all-reduced parts side by side.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.BodyOut
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- The part over any whole memref that is the output window's staging buffer. -/
private theorem local_98_at (I : Dev nD → Vals.Ins F) (K : Dev nD × Cell → ℕ) (c : Dev nD) (P : sProp (MT nD τ sig Unit (Elt F) ℕ UU ℕ))
    (m9 : Memref sig .tc .vmem S2x512x768 .f32) (h9 : m9.IsWhole) (hm : m9 = Memref.whole cc0_stg9_0)
    (n : ℕ) :
    (iprop(records (RdI I) K ∗ levAts Proto.L Proto.lv ∗ (∃ W, owes (c : Thread nD τ) (owedFrom c 66) W)
        ∗ cred (tallyAt (recvCell c 14) () N)
        ∗ (RdI I).payload (sendCell c 14) 0 0 ∗ (RdI I).payload (sendCell c 14) 0 1 ∗ (RdI I).payload (sendCell c 14) 0 2
        ∗ curCell (recvCell c 14) (fun p => (RdI I).payload (recvCell c 14) 0 p) 2
        ∗ outHeld I c n ∗ P) : sProp (MT nD τ sig Unit (Elt F) ℕ UU ℕ))
      ⊢ wp frame (wpE (defs₀ (F := F)) 𝒱₀ (c : Thread nD τ) none) Set.univ
        (k0_part98 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) m9 h9 (Memref.whole cc0_scratch0) (Memref.isWhole_whole _) (Memref.whole cc0_scratch1) (Memref.isWhole_whole _) cc0_scratch2 cc0_scratch3 cc0_scoped0
          (Vals.lv25 I c) (Vals.lv1139 I c))
        (fun tup => iprop(⌜tup = Vals.lv2515 I c⌝ ∗ records (RdI I) K ∗ levAts Proto.L Proto.lv ∗ (∃ W, owes (c : Thread nD τ) (owedFrom c 66) W)
          ∗ curCell (recvCell c 14) (fun p => (RdI I).payload (recvCell c 14) 0 p) 3
          ∗ accTile c 0 0 (Vals.A I 1 c 0 0 2) ∗ accTile c 0 1 (Vals.A I 1 c 0 1 2) ∗ accTile c 0 2 (Vals.A I 1 c 0 2 2)
          ∗ rsTile c 4 0 2 (Vals.R I 1 c 0 0 2) ∗ rsTile c 4 1 2 (Vals.R I 1 c 0 1 2) ∗ rsTile c 4 2 2 (Vals.R I 1 c 0 2 2)
          ∗ outHeld I c n ∗ P)) := by
  subst hm
  unfold outHeld accTile rsTile Proto.accPts Proto.rsPts
  iintro ⟨#HR, #Hlev, ⟨%W, HO⟩, Cr, Ha0, Ha1, Ha2, Hr, ⟨%f, %hf, HOut⟩, HP⟩
  have eo : (((c : Thread nD τ).loc cc0_stg9_0) ↦{fullShare} f : sProp (MT nD τ sig Unit (Elt F) ℕ UU ℕ)) ⊢ (((Memref.whole cc0_stg9_0).view.loc (c : Thread nD τ)) ↦{fullShare} f) := Entails.of_eq rfl
  ihave HOut := eo $$ HOut
  have es : ∀ p : Fin 3, ((RdI I).payload (sendCell c 14) 0 p : sProp (MT nD τ sig Unit (Elt F) ℕ UU ℕ))
      ⊢ ((Proto.accSl 0 p).view.loc (c : Thread nD τ) ↦[(Proto.accSl 0 p).view.set]{fullShare} accEmb 0 p (Vals.A I 1 c 0 p 2)) :=
    fun p => Entails.of_eq (payload_send_tile I c 14 p)
  ihave Ha0 := (es 0) $$ Ha0
  ihave Ha1 := (es 1) $$ Ha1
  ihave Ha2 := (es 2) $$ Ha2
  ihave #HIr := (inv_at (RdI I) K (c, Cell.recv 14)) $$ HR
  sl_unfold [k0_part98]
  sl_exec
  -- the third wait on receive cell 14: the rest of its round, the three receive tiles at what landed in them
  iapply (wp_wait3 (RdI I) c (recvS 14) (duties_recv _ _ c 14) (expect_recv _ _ c 14) (hw := fun _ => rfl)) $$ [HO Cr Hr]
  · isplitr; · iexact HIr
    isplitl [Cr]; · iexact Cr
    isplitl [HO]; · iexact HO
    isplitr
    · iapply (mayWait_recvAt (F := F) c 14); iexact Hlev
    iexact Hr
  iintro ⟨HO, Hr, Hb0, Hb1, Hb2⟩
  have er : ∀ p : Fin 3, ((RdI I).payload ((c : Thread nD τ), SemLoc.dma (recvS 14)) 0 p : sProp (MT nD τ sig Unit (Elt F) ℕ UU ℕ))
      ⊢ ((Proto.rsSl 4 p 2).view.loc (c : Thread nD τ) ↦[(Proto.rsSl 4 p 2).view.set]{fullShare} rsEmb 4 p 2 (Vals.R I 1 c 0 p 2)) :=
    fun p => Entails.of_eq (payload_recv_tile I c 14 p)
  ihave Hb0 := (er 0) $$ Hb0
  ihave Hb1 := (er 1) $$ Hb1
  ihave Hb2 := (er 2) $$ Hb2
  sl_exec
  sl_step
  sl_unfold_run_names
  isplitr
  · ipureintro
    have a0 : View.readAt (Elt F) (Memref.whole cc0_scratch0).view (Rect.unit (s := S4x3x256x256) ![0, 0, 0, 0] S1x1x256x256.size inb_S4x3x256x256_S1x1x256x256_0_0_0_0).toLoadRect (accEmb 0 0 (Vals.A I 1 c 0 0 2)) = Vals.A I 1 c 0 0 2 := accV_read_accEmb 0 0 _
    have a1 : View.readAt (Elt F) (Memref.whole cc0_scratch0).view (Rect.unit (s := S4x3x256x256) ![0, 1, 0, 0] S1x1x256x256.size inb_S4x3x256x256_S1x1x256x256_0_1_0_0).toLoadRect (accEmb 0 1 (Vals.A I 1 c 0 1 2)) = Vals.A I 1 c 0 1 2 := accV_read_accEmb 0 1 _
    have a2 : View.readAt (Elt F) (Memref.whole cc0_scratch0).view (Rect.unit (s := S4x3x256x256) ![0, 2, 0, 0] S1x1x256x256.size inb_S4x3x256x256_S1x1x256x256_0_2_0_0).toLoadRect (accEmb 0 2 (Vals.A I 1 c 0 2 2)) = Vals.A I 1 c 0 2 2 := accV_read_accEmb 0 2 _
    have b0 : View.readAt (Elt F) (Memref.whole cc0_scratch1).view (Rect.unit (s := S8x3x3x256x256) ![4, 0, 2, 0, 0] S1x1x1x256x256.size inb_S8x3x3x256x256_S1x1x1x256x256_4_0_2_0_0).toLoadRect (rsEmb 4 0 2 (Vals.R I 1 c 0 0 2)) = Vals.R I 1 c 0 0 2 := rsV_read_rsEmb 4 0 2 _
    have b1 : View.readAt (Elt F) (Memref.whole cc0_scratch1).view (Rect.unit (s := S8x3x3x256x256) ![4, 1, 2, 0, 0] S1x1x1x256x256.size inb_S8x3x3x256x256_S1x1x1x256x256_4_1_2_0_0).toLoadRect (rsEmb 4 1 2 (Vals.R I 1 c 0 1 2)) = Vals.R I 1 c 0 1 2 := rsV_read_rsEmb 4 1 2 _
    have b2 : View.readAt (Elt F) (Memref.whole cc0_scratch1).view (Rect.unit (s := S8x3x3x256x256) ![4, 2, 2, 0, 0] S1x1x1x256x256.size inb_S8x3x3x256x256_S1x1x1x256x256_4_2_2_0_0).toLoadRect (rsEmb 4 2 2 (Vals.R I 1 c 0 2 2)) = Vals.R I 1 c 0 2 2 := rsV_read_rsEmb 4 2 2 _
    rw [a0, a1, a2, b0, b1, b2]
    rfl
  isplitr; · iexact HR
  isplitr; · iexact Hlev
  isplitl [HO]; · iexists _; iexact HO
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HOut]
  · iexists f
    isplitr
    · ipureintro; exact hf
    · have eo' : (((Memref.whole cc0_stg9_0).view.loc (c : Thread nD τ)) ↦{fullShare} f : sProp (MT nD τ sig Unit (Elt F) ℕ UU ℕ)) ⊢ (((c : Thread nD τ).loc cc0_stg9_0) ↦{fullShare} f) := Entails.of_eq rfl
      iapply eo' $$ HOut
  iexact HP

theorem local_98 (I : Dev nD → Vals.Ins F) (K : Dev nD × Cell → ℕ) (c : Dev nD) (P : sProp (MT nD τ sig Unit (Elt F) ℕ UU ℕ))
    (n : ℕ) :
    (iprop(records (RdI I) K ∗ levAts Proto.L Proto.lv ∗ (∃ W, owes (c : Thread nD τ) (owedFrom c 66) W)
        ∗ cred (tallyAt (recvCell c 14) () N)
        ∗ (RdI I).payload (sendCell c 14) 0 0 ∗ (RdI I).payload (sendCell c 14) 0 1 ∗ (RdI I).payload (sendCell c 14) 0 2
        ∗ curCell (recvCell c 14) (fun p => (RdI I).payload (recvCell c 14) 0 p) 2
        ∗ outHeld I c n ∗ P) : sProp (MT nD τ sig Unit (Elt F) ℕ UU ℕ))
      ⊢ wp frame (wpE (defs₀ (F := F)) 𝒱₀ (c : Thread nD τ) none) Set.univ
        (k0_part98 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lv25 I c) (Vals.lv1139 I c))
        (fun tup => iprop(⌜tup = Vals.lv2515 I c⌝ ∗ records (RdI I) K ∗ levAts Proto.L Proto.lv ∗ (∃ W, owes (c : Thread nD τ) (owedFrom c 66) W)
          ∗ curCell (recvCell c 14) (fun p => (RdI I).payload (recvCell c 14) 0 p) 3
          ∗ accTile c 0 0 (Vals.A I 1 c 0 0 2) ∗ accTile c 0 1 (Vals.A I 1 c 0 1 2) ∗ accTile c 0 2 (Vals.A I 1 c 0 2 2)
          ∗ rsTile c 4 0 2 (Vals.R I 1 c 0 0 2) ∗ rsTile c 4 1 2 (Vals.R I 1 c 0 1 2) ∗ rsTile c 4 2 2 (Vals.R I 1 c 0 2 2)
          ∗ outHeld I c n ∗ P)) :=
  local_98_at I K c P (win0_9.stage (cfg0.slots t0_0 9)) (hstage0_9 0) rfl n

/-- info: 'Cert.KernelIdeal.Body.local_98' depends on axioms: [propext, Classical.choice, Quot.sound] -/
#guard_msgs in #print axioms local_98

end Cert.KernelIdeal.Body
-- ==== Proof.Parts.Part98.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L98
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 98 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 98 of the body, run from the place before it, ends at the place after it and returns its values; whatever else is held is kept. -/
theorem part_98 (m : (ℓ : Loc nD τ sig) → Buf (Elt F) ℓ) (K : Dev nD × Cell → ℕ) (c : Dev nD) (Fr : sProp 𝕄) :
    iprop(St (insM m) K (σ 97) c ∗ outHeld (insM m) c (σ 97).outs ∗ Fr)
      ⊢ wp frame (wpE (defs₀ (F := F)) 𝒱₀ (c : Thread nD τ) none) Set.univ
          (k0_part98 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv25 (insM m) c) (Vals.lv1139 (insM m) c))
          (fun tup => iprop(⌜tup = Vals.lv2515 (insM m) c⌝ ∗ St (insM m) K (σ 98) c ∗ outHeld (insM m) c (σ 98).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 56 : sProp (MT nD τ sig Unit (Elt F) ℕ UU ℕ)) = iprop(credFrom c 57 ∗ cred (tallyAt (recvCell c 14) () N)) := by
    rw [credFrom_succ c 56 (by omega), show ownCell c 56 = recvCell c 14 from ownCell_fire c 17 2, show dueAmt 56 = N from dueAmt_fire 17 2]
  have hd : (doneTo c 37 : sProp (MT nD τ sig Unit (Elt F) ℕ UU ℕ))
      = iprop(doneTo c 35 ∗ curCell (sendCell c 14) (fun p => (RdI (insM m)).payload (sendCell c 14) 0 p) 3
          ∗ curCell (recvCell c 14) (fun p => (RdI (insM m)).payload (recvCell c 14) 0 p) 3) := (done_group c 17).symm
  have hb : (rsBack (insM m) c 18 : sProp (MT nD τ sig Unit (Elt F) ℕ UU ℕ))
      = iprop((rsTile c 4 0 2 (Vals.R (insM m) 1 c 0 0 2) ∗ rsTile c 4 1 2 (Vals.R (insM m) 1 c 0 1 2) ∗ rsTile c 4 2 2 (Vals.R (insM m) 1 c 0 2 2))
          ∗ rsBack (insM m) c 17) := rsBack_succ (insM m) c 17
  rw [St_open_97, St_open_98, hc, hd, hb, show (σ 97).outs = (σ 98).outs from rfl]
  simp only [hemp, hemp']
  refine BIBase.Entails.trans (Entails.of_eq ?_) (BIBase.Entails.trans
    (local_98 (insM m) K c
      (iprop(toksFrom c 66
        ∗ credFrom c 57
        ∗ cred (tallyAt (sendCell c 21) () N)
        ∗ cred (tallyAt (sendCell c 21) () N)
        ∗ cred (tallyAt (sendCell c 21) () N)
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 35
        ∗ curCell (sendCell c 14) (fun p => (RdI (insM m)).payload (sendCell c 14) 0 p) 3
        ∗ todoFrom c 37
        ∗ foreignFrom c 63
        ∗ rsBack (insM m) c 17
        ∗ Fr)) (σ 98).outs)
    (wp_mono _ _ _ fun tup => Entails.of_eq ?_))
  · ac_rfl
  · ac_rfl

/-- info: 'Cert.KernelIdeal.Body.part_98' depends on axioms: [propext, Classical.choice, Quot.sound] -/
#guard_msgs in #print axioms part_98

end Cert.KernelIdeal.Body

end
-- ==== Proof.Parts.L99.lean ====
/-
  Part 99 of the body stores group 0's output block (batch entry 0, rows 0 to 255) into the output window's buffer, then
  passes the first wait on the send cell and the first on the receive cell of wait group 18 (round 1, group 3, first exchange).
  The output buffer, none of whose row blocks held the result before, now holds it on its first.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.BodyOut
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- The part over any whole memref that is the output window's staging buffer. -/
private theorem local_99_at (I : Dev nD → Vals.Ins F) (K : Dev nD × Cell → ℕ) (c : Dev nD) (P : sProp (MT nD τ sig Unit (Elt F) ℕ UU ℕ))
    (m9 : Memref sig .tc .vmem S2x512x768 .f32) (h9 : m9.IsWhole) (hm : m9 = Memref.whole cc0_stg9_0) :
    (iprop(records (RdI I) K ∗ levAts Proto.L Proto.lv ∗ (∃ W, owes (c : Thread nD τ) (owedFrom c 66) W)
        ∗ cred (tallyAt (sendCell c 21) () N) ∗ cred (tallyAt (recvCell c 21) () N)
        ∗ curCell (sendCell c 21) (fun p => (RdI I).payload (sendCell c 21) 0 p) 0
        ∗ curCell (recvCell c 21) (fun p => (RdI I).payload (recvCell c 21) 0 p) 0
        ∗ outHeld I c 0 ∗ P) : sProp (MT nD τ sig Unit (Elt F) ℕ UU ℕ))
      ⊢ wp frame (wpE (defs₀ (F := F)) 𝒱₀ (c : Thread nD τ) none) Set.univ
        (k0_part99 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) m9 h9 (Memref.whole cc0_scratch0) (Memref.isWhole_whole _) (Memref.whole cc0_scratch1) (Memref.isWhole_whole _) cc0_scratch2 cc0_scratch3 cc0_scoped0
          (Vals.lw2216 c) (Vals.lv2515 I c))
        (fun _ => iprop(records (RdI I) K ∗ levAts Proto.L Proto.lv ∗ (∃ W, owes (c : Thread nD τ) (owedFrom c 66) W)
          ∗ curCell (sendCell c 21) (fun p => (RdI I).payload (sendCell c 21) 0 p) 1
          ∗ curCell (recvCell c 21) (fun p => (RdI I).payload (recvCell c 21) 0 p) 1
          ∗ outHeld I c 1 ∗ P)) := by
  subst hm
  iintro ⟨#HR, #Hlev, ⟨%W, HO⟩, Cs, Cr, Hs, Hr, HOut0, HP⟩
  have hopen : (outHeld I c 0 : sProp (MT nD τ sig Unit (Elt F) ℕ UU ℕ)) ⊢ iprop(∃ f : (cc0_stg9_0 : Ref sig .tc).ty.Contents (Elt F),
      ⌜∀ j : S2x512x768.Idx, outBlockOf j < 0 → f j = Vals.outC I c j⌝ ∗ (((c : Thread nD τ).loc cc0_stg9_0) ↦{fullShare} f)) := Entails.of_eq rfl
  ihave ⟨%f, %hf, HOut⟩ := hopen $$ HOut0
  have eo : (((c : Thread nD τ).loc cc0_stg9_0) ↦{fullShare} f : sProp (MT nD τ sig Unit (Elt F) ℕ UU ℕ)) ⊢ (((Memref.whole cc0_stg9_0).view.loc (c : Thread nD τ)) ↦{fullShare} f) := Entails.of_eq rfl
  ihave HOut := eo $$ HOut
  ihave #HIs := (inv_at (RdI I) K (c, Cell.send 21)) $$ HR
  ihave #HIr := (inv_at (RdI I) K (c, Cell.recv 21)) $$ HR
  sl_unfold [k0_part99]
  sl_exec
  -- the first wait on send cell 21
  iapply (wp_wait1 (RdI I) c (sendS 21) (hw := fun _ => rfl)) $$ [HO Cs Hs]
  · isplitr; · iexact HIs
    isplitl [Cs]; · iexact Cs
    isplitl [HO]; · iexact HO
    isplitr
    · iapply (mayWait_sendAt (F := F) c 21); iexact Hlev
    iexact Hs
  iintro ⟨HO, Hs⟩
  sl_exec
  -- the first wait on receive cell 21
  iapply (wp_wait1 (RdI I) c (recvS 21) (hw := fun _ => rfl)) $$ [HO Cr Hr]
  · isplitr; · iexact HIr
    isplitl [Cr]; · iexact Cr
    isplitl [HO]; · iexact HO
    isplitr
    · iapply (mayWait_recvAt (F := F) c 21); iexact Hlev
    iexact Hr
  iintro ⟨HO, Hr⟩
  sl_exec
  sl_step
  sl_unfold_run_names
  isplitr; · iexact HR
  isplitr; · iexact Hlev
  isplitl [HO]; · iexists _; iexact HO
  isplitl [Hs]; · iexact Hs
  isplitl [Hr]; · iexact Hr
  isplitl [HOut]
  · have hst : (((Memref.whole cc0_stg9_0).view.loc (c : Thread nD τ)) ↦{fullShare}
          (Memref.whole cc0_stg9_0).view.writes (Elt F) f [⟨(Rect.unit (s := S2x512x768) ![0, 0, 0] S1x256x768.size inb_S2x512x768_S1x256x768_0_0_0), Vals.lv2515 I c⟩] : sProp (MT nD τ sig Unit (Elt F) ℕ UU ℕ))
        ⊢ outHeld I c 1 := outHeld_store I c 0 0 inb_S2x512x768_S1x256x768_0_0_0 f hf
    iapply hst $$ HOut
  iexact HP

theorem local_99 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 66) W)
        ∗ cred (tallyAt (sendCell c 21) () N) ∗ cred (tallyAt (recvCell c 21) () N)
        ∗ curCell (sendCell c 21) (fun p => (RdI I).payload (sendCell c 21) 0 p) 0
        ∗ curCell (recvCell c 21) (fun p => (RdI I).payload (recvCell c 21) 0 p) 0
        ∗ outHeld I c 0 ∗ P) : sProp (MT nD τ sig Unit (Elt F) ℕ UU ℕ))
      ⊢ wp frame (wpE (defs₀ (F := F)) 𝒱₀ (c : Thread nD τ) none) Set.univ
        (k0_part99 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw2216 c) (Vals.lv2515 I c))
        (fun _ => iprop(records (RdI I) K ∗ levAts Proto.L Proto.lv ∗ (∃ W, owes (c : Thread nD τ) (owedFrom c 66) W)
          ∗ curCell (sendCell c 21) (fun p => (RdI I).payload (sendCell c 21) 0 p) 1
          ∗ curCell (recvCell c 21) (fun p => (RdI I).payload (recvCell c 21) 0 p) 1
          ∗ outHeld I c 1 ∗ P)) :=
  local_99_at I K c P (win0_9.stage (cfg0.slots t0_0 9)) (hstage0_9 0) rfl

/-- info: 'Cert.KernelIdeal.Body.local_99' depends on axioms: [propext, Classical.choice, Quot.sound] -/
#guard_msgs in #print axioms local_99

end Cert.KernelIdeal.Body
-- ==== Proof.Parts.Part99.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L99
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 99 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 99 of the body, run from the place before it, ends at the place after it; whatever else is held is kept. -/
theorem part_99 (m : (ℓ : Loc nD τ sig) → Buf (Elt F) ℓ) (K : Dev nD × Cell → ℕ) (c : Dev nD) (Fr : sProp 𝕄) :
    iprop(St (insM m) K (σ 98) c ∗ outHeld (insM m) c (σ 98).outs ∗ Fr)
      ⊢ wp frame (wpE (defs₀ (F := F)) 𝒱₀ (c : Thread nD τ) none) Set.univ
          (k0_part99 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2216 c) (Vals.lv2515 (insM m) c))
          (fun _ => iprop(St (insM m) K (σ 99) c ∗ outHeld (insM m) c (σ 99).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 57 : sProp (MT nD τ sig Unit (Elt F) ℕ UU ℕ)) = iprop(credFrom c 58 ∗ cred (tallyAt (recvCell c 21) () N)) := by
    rw [credFrom_succ c 57 (by omega), show ownCell c 57 = recvCell c 21 from ownCell_fire c 18 0, show dueAmt 57 = N from dueAmt_fire 18 0]
  have ht : (todoFrom c 37 : sProp (MT nD τ sig Unit (Elt F) ℕ UU ℕ))
      = iprop(curCell (sendCell c 21) (fun p => (RdI (insM m)).payload (sendCell c 21) 0 p) 0
          ∗ curCell (recvCell c 21) (fun p => (RdI (insM m)).payload (recvCell c 21) 0 p) 0 ∗ todoFrom c 39) := todo_group c 18
  rw [St_open_98, St_open_99, hc, ht, show (σ 98).outs = 0 from rfl, show (σ 99).outs = 1 from rfl]
  simp only [hemp, hemp']
  refine BIBase.Entails.trans (Entails.of_eq ?_) (BIBase.Entails.trans
    (local_99 (insM m) K c
      (iprop(toksFrom c 66
        ∗ credFrom c 58
        ∗ cred (tallyAt (sendCell c 21) () N)
        ∗ cred (tallyAt (sendCell c 21) () N)
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 37
        ∗ todoFrom c 39
        ∗ foreignFrom c 63
        ∗ rsBack (insM m) c 18
        ∗ accTile c 0 0 (Vals.A (insM m) 1 c 0 0 2)
        ∗ accTile c 0 1 (Vals.A (insM m) 1 c 0 1 2)
        ∗ accTile c 0 2 (Vals.A (insM m) 1 c 0 2 2)
        ∗ Fr)))
    (wp_mono _ _ _ fun tup => Entails.of_eq ?_))
  · ac_rfl
  · ac_rfl

/-- info: 'Cert.KernelIdeal.Body.part_99' depends on axioms: [propext, Classical.choice, Quot.sound] -/
#guard_msgs in #print axioms part_99

end Cert.KernelIdeal.Body

end
-- ==== Proof.Parts.L101.lean ====
/-
  Part 101 of the body ends wait group 18 (round 1, group 3, first exchange) with the third wait on its receive cell, which
  hands over the three receive tiles holding the partners' tiles of level 0; the three accumulator tiles came back with the send
  cell's third wait. It overwrites the accumulator tiles of parts 0 and 1 with their sums with the received tiles (level 0 of
  round 1 becomes level 1), reads part 2's accumulator tile and receive tile and returns the first as a 256 × 256 matrix and
  the second as read.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_101 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 66) W)
        ∗ cred (tallyAt (recvCell c 21) () N)
        ∗ (RdI I).payload (sendCell c 21) 0 0 ∗ (RdI I).payload (sendCell c 21) 0 1 ∗ (RdI I).payload (sendCell c 21) 0 2
        ∗ curCell (recvCell c 21) (fun p => (RdI I).payload (recvCell c 21) 0 p) 2 ∗ P) : sProp (MT nD τ sig Unit (Elt F) ℕ UU ℕ))
      ⊢ wp frame (wpE (defs₀ (F := F)) 𝒱₀ (c : Thread nD τ) none) Set.univ
        (k0_part101 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = ⟨Vals.lv2575 I c, Vals.lv2576 I c⟩⌝ ∗ records (RdI I) K ∗ levAts Proto.L Proto.lv ∗ (∃ W, owes (c : Thread nD τ) (owedFrom c 66) W)
          ∗ curCell (recvCell c 21) (fun p => (RdI I).payload (recvCell c 21) 0 p) 3
          ∗ accTile c 3 0 (Vals.A I 1 c 3 0 1) ∗ accTile c 3 1 (Vals.A I 1 c 3 1 1) ∗ accTile c 3 2 (Vals.A I 1 c 3 2 0)
          ∗ rsTile c 7 0 0 (Vals.R I 1 c 3 0 0) ∗ rsTile c 7 1 0 (Vals.R I 1 c 3 1 0) ∗ rsTile c 7 2 0 (Vals.R I 1 c 3 2 0) ∗ P)) := by
  unfold accTile rsTile Proto.accPts Proto.rsPts
  iintro ⟨#HR, #Hlev, ⟨%W, HO⟩, Cr, Ha0, Ha1, Ha2, Hr, HP⟩
  have es : ∀ p : Fin 3, ((RdI I).payload (sendCell c 21) 0 p : sProp (MT nD τ sig Unit (Elt F) ℕ UU ℕ))
      ⊢ ((Proto.accSl 3 p).view.loc (c : Thread nD τ) ↦[(Proto.accSl 3 p).view.set]{fullShare} accEmb 3 p (Vals.A I 1 c 3 p 0)) :=
    fun p => Entails.of_eq (payload_send_tile I c 21 p)
  ihave Ha0 := (es 0) $$ Ha0
  ihave Ha1 := (es 1) $$ Ha1
  ihave Ha2 := (es 2) $$ Ha2
  ihave #HIr := (inv_at (RdI I) K (c, Cell.recv 21)) $$ HR
  sl_unfold [k0_part101]
  sl_exec
  -- the third wait on receive cell 21: the rest of its round, the three receive tiles at what landed in them
  iapply (wp_wait3 (RdI I) c (recvS 21) (duties_recv _ _ c 21) (expect_recv _ _ c 21) (hw := fun _ => rfl)) $$ [HO Cr Hr]
  · isplitr; · iexact HIr
    isplitl [Cr]; · iexact Cr
    isplitl [HO]; · iexact HO
    isplitr
    · iapply (mayWait_recvAt (F := F) c 21); iexact Hlev
    iexact Hr
  iintro ⟨HO, Hr, Hb0, Hb1, Hb2⟩
  have er : ∀ p : Fin 3, ((RdI I).payload ((c : Thread nD τ), SemLoc.dma (recvS 21)) 0 p : sProp (MT nD τ sig Unit (Elt F) ℕ UU ℕ))
      ⊢ ((Proto.rsSl 7 p 0).view.loc (c : Thread nD τ) ↦[(Proto.rsSl 7 p 0).view.set]{fullShare} rsEmb 7 p 0 (Vals.R I 1 c 3 p 0)) :=
    fun p => Entails.of_eq (payload_recv_tile I c 21 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![3, 2, 0, 0] S1x1x256x256.size inb_S4x3x256x256_S1x1x256x256_3_2_0_0).toLoadRect (accEmb 3 2 (Vals.A I 1 c 3 2 0)) = Vals.A I 1 c 3 2 0 := accV_read_accEmb 3 2 _
    have e2 : View.readAt (Elt F) (Memref.whole cc0_scratch1).view (Rect.unit (s := S8x3x3x256x256) ![7, 2, 0, 0, 0] S1x1x1x256x256.size inb_S8x3x3x256x256_S1x1x1x256x256_7_2_0_0_0).toLoadRect (rsEmb 7 2 0 (Vals.R I 1 c 3 2 0)) = Vals.R I 1 c 3 2 0 := rsV_read_rsEmb 7 2 0 _
    rw [e1, e2]
    rfl
  isplitr; · iexact HR
  isplitr; · iexact Hlev
  isplitl [HO]; · iexists _; iexact HO
  isplitl [Hr]; · iexact Hr
  isplitl [Ha0]
  · iapply (accTile_at_value c 3 0)
    swap
    · iexact Ha0
    · refine (View.read_write_univ _ _).trans ?_
      refine (Vals.step_1_3_0_0 _ _).symm.trans ?_
      exact congrArg₂ (Vals.step 1 3 0 0) (accV_read_accEmb 3 0 _) (rsV_read_rsEmb 7 0 0 _)
  isplitl [Ha1]
  · iapply (accTile_at_value c 3 1)
    swap
    · iexact Ha1
    · refine (View.read_write_univ _ _).trans ?_
      refine (Vals.step_1_3_1_0 _ _).symm.trans ?_
      exact congrArg₂ (Vals.step 1 3 1 0) (accV_read_accEmb 3 1 _) (rsV_read_rsEmb 7 1 0 _)
  isplitl [Ha2]; · iexact Ha2
  isplitl [Hb0]; · iexact Hb0
  isplitl [Hb1]; · iexact Hb1
  isplitl [Hb2]; · iexact Hb2
  iexact HP

/-- info: 'Cert.KernelIdeal.Body.local_101' depends on axioms: [propext, Classical.choice, Quot.sound] -/
#guard_msgs in #print axioms local_101

end Cert.KernelIdeal.Body
-- ==== Proof.Parts.Part101.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L101
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 101 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 101 of the body, run from the place before it, ends at the place after it and returns its values; whatever else is held is kept. -/
theorem part_101 (m : (ℓ : Loc nD τ sig) → Buf (Elt F) ℓ) (K : Dev nD × Cell → ℕ) (c : Dev nD) (Fr : sProp 𝕄) :
    iprop(St (insM m) K (σ 100) c ∗ outHeld (insM m) c (σ 100).outs ∗ Fr)
      ⊢ wp frame (wpE (defs₀ (F := F)) 𝒱₀ (c : Thread nD τ) none) Set.univ
          (k0_part101 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = ⟨Vals.lv2575 (insM m) c, Vals.lv2576 (insM m) c⟩⌝ ∗ St (insM m) K (σ 101) c ∗ outHeld (insM m) c (σ 101).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 59 : sProp (MT nD τ sig Unit (Elt F) ℕ UU ℕ)) = iprop(credFrom c 60 ∗ cred (tallyAt (recvCell c 21) () N)) := by
    rw [credFrom_succ c 59 (by omega), show ownCell c 59 = recvCell c 21 from ownCell_fire c 18 2, show dueAmt 59 = N from dueAmt_fire 18 2]
  have hd : (doneTo c 39 : sProp (MT nD τ sig Unit (Elt F) ℕ UU ℕ))
      = iprop(doneTo c 37 ∗ curCell (sendCell c 21) (fun p => (RdI (insM m)).payload (sendCell c 21) 0 p) 3
          ∗ curCell (recvCell c 21) (fun p => (RdI (insM m)).payload (recvCell c 21) 0 p) 3) := (done_group c 18).symm
  have hb : (rsBack (insM m) c 19 : sProp (MT nD τ sig Unit (Elt F) ℕ UU ℕ))
      = iprop((rsTile c 7 0 0 (Vals.R (insM m) 1 c 3 0 0) ∗ rsTile c 7 1 0 (Vals.R (insM m) 1 c 3 1 0) ∗ rsTile c 7 2 0 (Vals.R (insM m) 1 c 3 2 0))
          ∗ rsBack (insM m) c 18) := rsBack_succ (insM m) c 18
  rw [St_open_100, St_open_101, hc, hd, hb, show (σ 100).outs = (σ 101).outs from rfl]
  simp only [hemp, hemp']
  refine BIBase.Entails.trans (Entails.of_eq ?_) (BIBase.Entails.trans
    (local_101 (insM m) K c
      (iprop(toksFrom c 66
        ∗ credFrom c 60
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 37
        ∗ curCell (sendCell c 21) (fun p => (RdI (insM m)).payload (sendCell c 21) 0 p) 3
        ∗ todoFrom c 39
        ∗ foreignFrom c 63
        ∗ rsBack (insM m) c 18
        ∗ accTile c 0 0 (Vals.A (insM m) 1 c 0 0 2)
        ∗ accTile c 0 1 (Vals.A (insM m) 1 c 0 1 2)
        ∗ accTile c 0 2 (Vals.A (insM m) 1 c 0 2 2)
        ∗ outHeld (insM m) c (σ 101).outs
        ∗ Fr)))
    (wp_mono _ _ _ fun tup => Entails.of_eq ?_))
  · ac_rfl
  · ac_rfl

/-- info: 'Cert.KernelIdeal.Body.part_101' depends on axioms: [propext, Classical.choice, Quot.sound] -/
#guard_msgs in #print axioms part_101

end Cert.KernelIdeal.Body

end
-- ==== Proof.Parts.L102.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 102 of the body: the store into accumulator tile (3, 2), then the start of the copy of part 0 at step 22 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_102 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 66) W)
        ∗ dutyTok ER (sendCell c 22) 0 0 ∗ dutyTok ER (recvCell (mate c 0 22) 22) 0 0
        ∗ rsTileAny (mate c 0 22) (rgOf 22) 0 (sOf 22)
        ∗ accTile c 3 2 (Vals.A I 1 c 3 2 0)
        ∗ accTile c 3 0 (Vals.A I 1 c 3 0 1)
        ∗ P) : sProp (MT nD τ sig Unit (Elt F) ℕ UU ℕ))
      ⊢ wp frame (wpE (defs₀ (F := F)) 𝒱₀ (c : Thread nD τ) none) Set.univ
      (k0_part102 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2575 I c) (Vals.lv2576 I c))
      (fun tup => iprop(⌜tup = ⟨Vals.lw2582 c, Vals.lw2593 c⟩⌝
        ∗ records (RdI I) K
        ∗ (∃ W, owes (c : Thread nD τ) (owedFrom c 67) W)
        ∗ cred (tallyAt (sendCell c 22) () N)
        ∗ accTile c 3 2 (Vals.A I 1 c 3 2 1)
        ∗ P)) := by
  unfold accTile rsTileAny Proto.accPts Proto.rsPts
  iintro ⟨#Hrec, ⟨%W, HO⟩, Hts0, Htr0, ⟨%fd0, Hfd0⟩, Ha32, Ha30, HP⟩
  ihave #HIs0 := (inv_at (RdI I) K (c, Cell.send 22)) $$ Hrec
  ihave #HIr0 := (inv_at (RdI I) K (mate c 0 22, Cell.recv 22)) $$ Hrec
  ihave #Hrs0 := (reached_at (RdI I) K (c, Cell.send 22)) $$ Hrec
  ihave #Hrr0 := (reached_at (RdI I) K (mate c 0 22, Cell.recv 22)) $$ Hrec
  rw [k0_part102_eq_skeleton]
  unfold k0_part102_skel
  sl_exec
  -- the copy of part 0 at step 22 (started as number 22): its units on the partner's receive cell are owed last
  have hc0 : dueCell c 66 = recvCell (mate c 0 22) 22 := dueCell_fire c 21 0
  have ha0 : dueAmt 66 = N := dueAmt_fire 21 0
  have hO0 : owedFrom c 66 = owedFrom c 67 + tallyAt (recvCell (mate c 0 22) 22) () N :=
    (owedFrom_succ c 66 (by decide)).trans (by rw [hc0, ha0])
  iapply (wp_fire_at (accCI I) (rs0I I) c 22 0 (g := 3) (rg := 7) (s := 1) rfl rfl rfl (dev67_eq c) rfl rfl
    (sendS_eq 22) (recvS_eq 22) (accEmb 3 0 (Vals.A I 1 c 3 0 1)) rfl fd0 (owedFrom c 67) hO0) $$ [HO Hts0 Htr0 Hfd0 Ha30]
  · unfold Proto.accPts Proto.rsPts
    isplitr; · iexact HIs0
    isplitr; · iexact HIr0
    isplitl [Ha30]; · iexact Ha30
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha32_e : View.read (Elt F) (accV 3 2) (local_102.sl.Ha32_w1 I c) = Vals.A I 1 c 3 2 1 := by
    unfold local_102.sl.Ha32_w1; exact View.read_write_univ _ _
  have Ha32_t : ((Proto.accSl 3 2).view.loc (c : Thread nD τ) ↦[(Proto.accSl 3 2).view.set]{fullShare} local_102.sl.Ha32_w1 I c : sProp (MT nD τ sig Unit (Elt F) ℕ UU ℕ)) = ((Proto.accSl 3 2).view.loc (c : Thread nD τ) ↦[(Proto.accSl 3 2).view.set]{fullShare} accEmb 3 2 (Vals.A I 1 c 3 2 1) : sProp (MT nD τ sig Unit (Elt F) ℕ UU ℕ)) := accTile_of_read c fullShare 3 2 Ha32_e
  rw [← Ha32_t]
  isplitr [HO Hcs0 Ha32 HP]
  · ipureintro; rfl
  isplitr [HO Hcs0 Ha32 HP]; · iexact Hrec
  isplitl [HO]; · iexists W; iexact HO
  iframe

/-- info: 'Cert.KernelIdeal.Body.local_102' depends on axioms: [propext, Classical.choice, Quot.sound] -/
#guard_msgs in #print axioms local_102

end Cert.KernelIdeal.Body
-- ==== Proof.Parts.Part102.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L102
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 102 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 102 of the body, run from the place before it, ends at the place after it and returns its values; whatever else is held is kept. -/
theorem part_102 (m : (ℓ : Loc nD τ sig) → Buf (Elt F) ℓ) (K : Dev nD × Cell → ℕ) (c : Dev nD) (Fr : sProp 𝕄) :
    iprop(St (insM m) K (σ 101) c ∗ outHeld (insM m) c (σ 101).outs ∗ Fr)
      ⊢ wp frame (wpE (defs₀ (F := F)) 𝒱₀ (c : Thread nD τ) none) Set.univ
          (k0_part102 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2575 (insM m) c) (Vals.lv2576 (insM m) c))
          (fun tup => iprop(⌜tup = ⟨Vals.lw2582 c, Vals.lw2593 c⟩⌝ ∗ St (insM m) K (σ 102) c ∗ outHeld (insM m) c (σ 102).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 66 : sProp (MT nD τ sig Unit (Elt F) ℕ UU ℕ))
      = iprop(dutyTok ER (sendCell c 22) 0 0 ∗ dutyTok ER (recvCell (mate c 0 22) 22) 0 0 ∗ toksFrom c 67) := toksFrom_copy c 21 0
  have hf0 : (foreignFrom c 63 : sProp (MT nD τ sig Unit (Elt F) ℕ UU ℕ))
      = iprop(rsTileAny (mate c 0 22) (rgOf 22) 0 (sOf 22) ∗ foreignFrom c 64) := foreignFrom_succ c 21 0
  rw [St_open_101, St_open_102, ht0, hf0, show (σ 101).outs = (σ 102).outs from rfl]
  simp only [hemp, hemp']
  refine BIBase.Entails.trans (Entails.of_eq ?_) (BIBase.Entails.trans
    (local_102 (insM m) K c
      (iprop(levAts Proto.L Proto.lv
        ∗ toksFrom c 67
        ∗ credFrom c 60
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 39
        ∗ todoFrom c 39
        ∗ foreignFrom c 64
        ∗ rsBack (insM m) c 19
        ∗ accTile c 0 0 (Vals.A (insM m) 1 c 0 0 2)
        ∗ accTile c 0 1 (Vals.A (insM m) 1 c 0 1 2)
        ∗ accTile c 0 2 (Vals.A (insM m) 1 c 0 2 2)
        ∗ accTile c 3 1 (Vals.A (insM m) 1 c 3 1 1)
        ∗ outHeld (insM m) c (σ 102).outs
        ∗ Fr)))
    (wp_mono _ _ _ fun tup => Entails.of_eq ?_))
  · ac_rfl
  · ac_rfl

/-- info: 'Cert.KernelIdeal.Body.part_102' depends on axioms: [propext, Classical.choice, Quot.sound] -/
#guard_msgs in #print axioms part_102

end Cert.KernelIdeal.Body

end
-- ==== Proof.Parts.Part103.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L103
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 103 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 103 of the body, run from the place before it, ends at the place after it and returns its values; whatever else is held is kept. -/
theorem part_103 (m : (ℓ : Loc nD τ sig) → Buf (Elt F) ℓ) (K : Dev nD × Cell → ℕ) (c : Dev nD) (Fr : sProp 𝕄) :
    iprop(St (insM m) K (σ 102) c ∗ outHeld (insM m) c (σ 102).outs ∗ Fr)
      ⊢ wp frame (wpE (defs₀ (F := F)) 𝒱₀ (c : Thread nD τ) none) Set.univ
          (k0_part103 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw2315 c))
          (fun tup => iprop(⌜tup = Vals.lw2604 c⌝ ∗ St (insM m) K (σ 103) c ∗ outHeld (insM m) c (σ 103).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 67 : sProp (MT nD τ sig Unit (Elt F) ℕ UU ℕ)) = iprop(dutyTok ER (sendCell c 22) 0 1 ∗ dutyTok ER (recvCell (mate c 1 22) 22) 0 1 ∗ toksFrom c 68) := toksFrom_copy c 21 1
  have hF0 : (foreignFrom c 64 : sProp (MT nD τ sig Unit (Elt F) ℕ UU ℕ)) = iprop(rsTileAny (mate c 1 22) 7 1 1 ∗ foreignFrom c 65) := foreignFrom_succ c 21 1
  have hT1 : (toksFrom c 68 : sProp (MT nD τ sig Unit (Elt F) ℕ UU ℕ)) = iprop(dutyTok ER (sendCell c 22) 0 2 ∗ dutyTok ER (recvCell (mate c 2 22) 22) 0 2 ∗ toksFrom c 69) := toksFrom_copy c 21 2
  have hF1 : (foreignFrom c 65 : sProp (MT nD τ sig Unit (Elt F) ℕ UU ℕ)) = iprop(rsTileAny (mate c 2 22) 7 2 1 ∗ foreignFrom c 66) := foreignFrom_succ c 21 2
  have hG : (todoFrom c 39 : sProp (MT nD τ sig Unit (Elt F) ℕ UU ℕ)) = iprop(curCell (sendCell c 19) (fun p => (RdI (insM m)).payload (sendCell c 19) 0 p) 0 ∗ curCell (recvCell c 19) (fun p => (RdI (insM m)).payload (recvCell c 19) 0 p) 0 ∗ todoFrom c 41) := todo_group c 19
  rw [show (σ 103).outs = (σ 102).outs from rfl, St_open_102, St_open_103, hT0, hF0, hT1, hF1, hG]
  simp only [hemp, hemp']
  refine BIBase.Entails.trans (Entails.of_eq ?_) (BIBase.Entails.trans (local_103 (insM m) K c iprop(toksFrom c 69 ∗ credFrom c 60 ∗ cred (tallyAt (sendCell c 19) () N) ∗ cred (tallyAt (sendCell c 19) () N) ∗ cred (tallyAt (sendCell c 17) () N) ∗ cred (tallyAt (sendCell c 17) () N) ∗ cred (tallyAt (sendCell c 17) () N) ∗ cred (tallyAt (sendCell c 22) () N) ∗ doneTo c 39 ∗ curCell (recvCell c 19) (fun p => (RdI (insM m)).payload (recvCell c 19) 0 p) 0 ∗ todoFrom c 41 ∗ foreignFrom c 66 ∗ rsBack (insM m) c 19 ∗ accTile c 0 0 (Vals.A (insM m) 1 c 0 0 2) ∗ accTile c 0 1 (Vals.A (insM m) 1 c 0 1 2) ∗ accTile c 0 2 (Vals.A (insM m) 1 c 0 2 2) ∗ outHeld (insM m) c (σ 102).outs ∗ Fr)) (wp_mono _ _ _ fun tup => Entails.of_eq ?_))
  · ac_rfl
  · ac_rfl

/-- info: 'Cert.KernelIdeal.Body.part_103' depends on axioms: [propext, Classical.choice, Quot.sound] -/
#guard_msgs in #print axioms part_103

end Cert.KernelIdeal.Body

end
-- ==== Proof.Parts.L105.lean ====
/-
  Part 105 of the body ends wait group 19 (round 1, group 2, second exchange): the third wait on its send cell hands back the
  three accumulator tiles of group 2 at level 1 of round 1, the third wait on its receive cell hands over the three receive
  tiles holding the partners' tiles of that level. It then overwrites part 0's accumulator tile with its sum with the
  received tile (level 1 becomes level 2), reads part 1's accumulator tile and returns it as a 256 × 256 matrix.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_105 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 69) W)
        ∗ cred (tallyAt (sendCell c 19) () N) ∗ cred (tallyAt (recvCell c 19) () N)
        ∗ curCell (sendCell c 19) (fun p => (RdI I).payload (sendCell c 19) 0 p) 2
        ∗ curCell (recvCell c 19) (fun p => (RdI I).payload (recvCell c 19) 0 p) 2 ∗ P) : sProp (MT nD τ sig Unit (Elt F) ℕ UU ℕ))
      ⊢ wp frame (wpE (defs₀ (F := F)) 𝒱₀ (c : Thread nD τ) none) Set.univ
        (k0_part105 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw2337 c))
        (fun tup => iprop(⌜tup = Vals.lv2666 I c⌝ ∗ records (RdI I) K ∗ levAts Proto.L Proto.lv ∗ (∃ W, owes (c : Thread nD τ) (owedFrom c 69) W)
          ∗ curCell (sendCell c 19) (fun p => (RdI I).payload (sendCell c 19) 0 p) 3
          ∗ curCell (recvCell c 19) (fun p => (RdI I).payload (recvCell c 19) 0 p) 3
          ∗ accTile c 2 0 (Vals.A I 1 c 2 0 2) ∗ accTile c 2 1 (Vals.A I 1 c 2 1 1) ∗ accTile c 2 2 (Vals.A I 1 c 2 2 1)
          ∗ rsTile c 6 0 1 (Vals.R I 1 c 2 0 1) ∗ rsTile c 6 1 1 (Vals.R I 1 c 2 1 1) ∗ rsTile c 6 2 1 (Vals.R I 1 c 2 2 1) ∗ P)) := by
  unfold accTile rsTile Proto.accPts Proto.rsPts
  iintro ⟨#HR, #Hlev, ⟨%W, HO⟩, Cs, Cr, Hs, Hr, HP⟩
  ihave #HIs := (inv_at (RdI I) K (c, Cell.send 19)) $$ HR
  ihave #HIr := (inv_at (RdI I) K (c, Cell.recv 19)) $$ HR
  sl_unfold [k0_part105]
  sl_exec
  -- the third wait on send cell 19: the rest of its round, the three source tiles back
  iapply (wp_wait3 (RdI I) c (sendS 19) (duties_send _ _ c 19) (expect_send _ _ c 19) (hw := fun _ => rfl)) $$ [HO Cs Hs]
  · isplitr; · iexact HIs
    isplitl [Cs]; · iexact Cs
    isplitl [HO]; · iexact HO
    isplitr
    · iapply (mayWait_sendAt (F := F) c 19); iexact Hlev
    iexact Hs
  iintro ⟨HO, Hs, Ha0, Ha1, Ha2⟩
  have es : ∀ p : Fin 3, ((RdI I).payload ((c : Thread nD τ), SemLoc.dma (sendS 19)) 0 p : sProp (MT nD τ sig Unit (Elt F) ℕ UU ℕ))
      ⊢ ((Proto.accSl 2 p).view.loc (c : Thread nD τ) ↦[(Proto.accSl 2 p).view.set]{fullShare} accEmb 2 p (Vals.A I 1 c 2 p 1)) :=
    fun p => Entails.of_eq (payload_send_tile I c 19 p)
  ihave Ha0 := (es 0) $$ Ha0
  ihave Ha1 := (es 1) $$ Ha1
  ihave Ha2 := (es 2) $$ Ha2
  sl_exec
  -- the third wait on receive cell 19: the rest of its round, the three receive tiles at what landed in them
  iapply (wp_wait3 (RdI I) c (recvS 19) (duties_recv _ _ c 19) (expect_recv _ _ c 19) (hw := fun _ => rfl)) $$ [HO Cr Hr]
  · isplitr; · iexact HIr
    isplitl [Cr]; · iexact Cr
    isplitl [HO]; · iexact HO
    isplitr
    · iapply (mayWait_recvAt (F := F) c 19); iexact Hlev
    iexact Hr
  iintro ⟨HO, Hr, Hb0, Hb1, Hb2⟩
  have er : ∀ p : Fin 3, ((RdI I).payload ((c : Thread nD τ), SemLoc.dma (recvS 19)) 0 p : sProp (MT nD τ sig Unit (Elt F) ℕ UU ℕ))
      ⊢ ((Proto.rsSl 6 p 1).view.loc (c : Thread nD τ) ↦[(Proto.rsSl 6 p 1).view.set]{fullShare} rsEmb 6 p 1 (Vals.R I 1 c 2 p 1)) :=
    fun p => Entails.of_eq (payload_recv_tile I c 19 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![2, 1, 0, 0] S1x1x256x256.size inb_S4x3x256x256_S1x1x256x256_2_1_0_0).toLoadRect (accEmb 2 1 (Vals.A I 1 c 2 1 1)) = Vals.A I 1 c 2 1 1 := accV_read_accEmb 2 1 _
    rw [e1]
    rfl
  isplitr; · iexact HR
  isplitr; · iexact Hlev
  isplitl [HO]; · iexists _; iexact HO
  isplitl [Hs]; · iexact Hs
  isplitl [Hr]; · iexact Hr
  isplitl [Ha0]
  · iapply (accTile_at_value c 2 0)
    swap
    · iexact Ha0
    · refine (View.read_write_univ _ _).trans ?_
      refine (Vals.step_1_2_0_1 _ _).symm.trans ?_
      exact congrArg₂ (Vals.step 1 2 0 1) (accV_read_accEmb 2 0 _) (rsV_read_rsEmb 6 0 1 _)
  isplitl [Ha1]; · iexact Ha1
  isplitl [Ha2]; · iexact Ha2
  isplitl [Hb0]; · iexact Hb0
  isplitl [Hb1]; · iexact Hb1
  isplitl [Hb2]; · iexact Hb2
  iexact HP

/-- info: 'Cert.KernelIdeal.Body.local_105' depends on axioms: [propext, Classical.choice, Quot.sound] -/
#guard_msgs in #print axioms local_105

end Cert.KernelIdeal.Body
-- ==== Proof.Parts.Part105.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L105
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 105 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 105 of the body, run from the place before it, ends at the place after it and returns its values; whatever else is held is kept. -/
theorem part_105 (m : (ℓ : Loc nD τ sig) → Buf (Elt F) ℓ) (K : Dev nD × Cell → ℕ) (c : Dev nD) (Fr : sProp 𝕄) :
    iprop(St (insM m) K (σ 104) c ∗ outHeld (insM m) c (σ 104).outs ∗ Fr)
      ⊢ wp frame (wpE (defs₀ (F := F)) 𝒱₀ (c : Thread nD τ) none) Set.univ
          (k0_part105 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2337 c))
          (fun tup => iprop(⌜tup = Vals.lv2666 (insM m) c⌝ ∗ St (insM m) K (σ 105) c ∗ outHeld (insM m) c (σ 105).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 62 : sProp (MT nD τ sig Unit (Elt F) ℕ UU ℕ)) = iprop(credFrom c 63 ∗ cred (tallyAt (recvCell c 19) () N)) := by
    rw [credFrom_succ c 62 (by omega), show ownCell c 62 = recvCell c 19 from ownCell_fire c 19 2, show dueAmt 62 = N from dueAmt_fire 19 2]
  have hd : (doneTo c 41 : sProp (MT nD τ sig Unit (Elt F) ℕ UU ℕ))
      = iprop(doneTo c 39 ∗ curCell (sendCell c 19) (fun p => (RdI (insM m)).payload (sendCell c 19) 0 p) 3
          ∗ curCell (recvCell c 19) (fun p => (RdI (insM m)).payload (recvCell c 19) 0 p) 3) := (done_group c 19).symm
  have hb : (rsBack (insM m) c 20 : sProp (MT nD τ sig Unit (Elt F) ℕ UU ℕ))
      = iprop((rsTile c 6 0 1 (Vals.R (insM m) 1 c 2 0 1) ∗ rsTile c 6 1 1 (Vals.R (insM m) 1 c 2 1 1) ∗ rsTile c 6 2 1 (Vals.R (insM m) 1 c 2 2 1))
          ∗ rsBack (insM m) c 19) := rsBack_succ (insM m) c 19
  rw [St_open_104, St_open_105, hc, hd, hb, show (σ 104).outs = (σ 105).outs from rfl]
  simp only [hemp, hemp']
  refine BIBase.Entails.trans (Entails.of_eq ?_) (BIBase.Entails.trans
    (local_105 (insM m) K c
      (iprop(toksFrom c 69
        ∗ credFrom c 63
        ∗ cred (tallyAt (sendCell c 17) () N)
        ∗ cred (tallyAt (sendCell c 17) () N)
        ∗ cred (tallyAt (sendCell c 17) () N)
        ∗ cred (tallyAt (sendCell c 22) () N)
        ∗ cred (tallyAt (sendCell c 22) () N)
        ∗ cred (tallyAt (sendCell c 22) () N)
        ∗ doneTo c 39
        ∗ todoFrom c 41
        ∗ foreignFrom c 66
        ∗ rsBack (insM m) c 19
        ∗ accTile c 0 0 (Vals.A (insM m) 1 c 0 0 2)
        ∗ accTile c 0 1 (Vals.A (insM m) 1 c 0 1 2)
        ∗ accTile c 0 2 (Vals.A (insM m) 1 c 0 2 2)
        ∗ outHeld (insM m) c (σ 105).outs
        ∗ Fr)))
    (wp_mono _ _ _ fun tup => Entails.of_eq ?_))
  · ac_rfl
  · ac_rfl

/-- info: 'Cert.KernelIdeal.Body.part_105' depends on axioms: [propext, Classical.choice, Quot.sound] -/
#guard_msgs in #print axioms part_105

end Cert.KernelIdeal.Body

end
-- ==== Proof.Parts.L106.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 106 of the body: the second exchange of round 1 on group 2, parts 1 and 2. Each of the two accumulator tiles is
    overwritten with its sum with the receive tile its partner's copy landed in (part 1's own addend was read in the part
    before): level 1 of round 1 becomes level 2. The word returned is the device's position with bit 2 flipped. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_106 (I : Dev nD → Vals.Ins F) (c : Dev nD) (P : sProp (MT nD τ sig Unit (Elt F) ℕ UU ℕ)) :
    iprop(Proto.accPts c 2 1 (accEmb 2 1 (Vals.A I 1 c 2 1 1)) ∗ Proto.accPts c 2 2 (accEmb 2 2 (Vals.A I 1 c 2 2 1))
        ∗ Proto.rsPts c 6 1 1 (rsEmb 6 1 1 (Vals.R I 1 c 2 1 1)) ∗ Proto.rsPts c 6 2 1 (rsEmb 6 2 1 (Vals.R I 1 c 2 2 1)) ∗ P)
      ⊢ wp frame (wpE (defs₀ (F := F)) 𝒱₀ (c : Thread nD τ) none) Set.univ
      (k0_part106 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lw2 c) (Vals.lv2666 I c))
      (fun tup => iprop(⌜tup = Vals.lw2681 c⌝
        ∗ Proto.accPts c 2 1 (accEmb 2 1 (Vals.A I 1 c 2 1 2)) ∗ Proto.accPts c 2 2 (accEmb 2 2 (Vals.A I 1 c 2 2 2))
        ∗ Proto.rsPts c 6 1 1 (rsEmb 6 1 1 (Vals.R I 1 c 2 1 1)) ∗ Proto.rsPts c 6 2 1 (rsEmb 6 2 1 (Vals.R I 1 c 2 2 1)) ∗ P)) := by
  unfold Proto.accPts Proto.rsPts
  iintro ⟨H1, H2, G1, G2, HP⟩
  rw [k0_part106_eq_skeleton]
  unfold k0_part106_skel
  sl_exec
  sl_step
  sl_unfold_run_names
  isplitr
  · ipureintro; rfl
  isplitl [H1]
  · iapply (accTile_at_value c 2 1)
    swap
    · iexact H1
    · refine (View.read_write_univ _ _).trans ?_
      show Vals.step 1 2 1 1 (Vals.A I 1 c 2 1 1) _ = Vals.step 1 2 1 1 (Vals.A I 1 c 2 1 1) (Vals.R I 1 c 2 1 1)
      exact congrArg (Vals.step 1 2 1 1 (Vals.A I 1 c 2 1 1)) (rsV_read_rsEmb 6 1 1 _)
  isplitl [H2]
  · iapply (accTile_at_value c 2 2)
    swap
    · iexact H2
    · refine (View.read_write_univ _ _).trans ?_
      refine (Vals.step_1_2_2_1 _ _).symm.trans ?_
      exact congrArg₂ (Vals.step 1 2 2 1) (accV_read_accEmb 2 2 _) (rsV_read_rsEmb 6 2 1 _)
  isplitl [G1]
  · iexact G1
  isplitl [G2]
  · iexact G2
  · iexact HP

/-- info: 'Cert.KernelIdeal.Body.local_106' depends on axioms: [propext, Classical.choice, Quot.sound] -/
#guard_msgs in #print axioms local_106

end Cert.KernelIdeal.Body
-- ==== Proof.Parts.Part106.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L106
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 106 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 106 of the body, run from the place before it, ends at the place after it and returns its values; whatever else is held is kept. -/
theorem part_106 (m : (ℓ : Loc nD τ sig) → Buf (Elt F) ℓ) (K : Dev nD × Cell → ℕ) (c : Dev nD) (Fr : sProp 𝕄) :
    iprop(St (insM m) K (σ 105) c ∗ outHeld (insM m) c (σ 105).outs ∗ Fr)
      ⊢ wp frame (wpE (defs₀ (F := F)) 𝒱₀ (c : Thread nD τ) none) Set.univ
          (k0_part106 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv2666 (insM m) c))
          (fun tup => iprop(⌜tup = Vals.lw2681 c⌝ ∗ St (insM m) K (σ 106) c ∗ outHeld (insM m) c (σ 106).outs ∗ Fr)) := by
  have eo : (σ 106).outs = (σ 105).outs := rfl
  rw [eo]
  rw [St_eq, St_eq, StRest_congr (insM m) K c (s := σ 105) (s' := σ 106) rfl rfl rfl rfl, accAll_σ_105, accAll_σ_106, StRest_rs (insM m) K c (σ 106) rfl 19 (by decide), rs3_19]
  refine BIBase.Entails.trans ?_ ((local_106 (insM m) c iprop(rsTile c 6 0 1 (Vals.R (insM m) 1 c 2 0 1) ∗ StRestNoRs (insM m) K (σ 106) c 19 ∗ accTile c 0 0 (Vals.A (insM m) 1 c 0 0 2) ∗ accTile c 0 1 (Vals.A (insM m) 1 c 0 1 2) ∗ accTile c 0 2 (Vals.A (insM m) 1 c 0 2 2) ∗ emp ∗ emp ∗ emp ∗ accTile c 2 0 (Vals.A (insM m) 1 c 2 0 2) ∗ emp ∗ emp ∗ emp ∗ outHeld (insM m) c (σ 105).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T21]; · iexact T21
    isplitl [T22]; · iexact T22
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T30]; · iexact T30
    isplitl [T31]; · iexact T31
    isplitl [T32]; · iexact T32
    isplitl [HO]; · iexact HO
    iexact HF
  · iintro ⟨%ht, T21, T22, R1, R2, R0, HR, T00, T01, T02, T10, T11, T12, T20, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_106' depends on axioms: [propext, Classical.choice, Quot.sound] -/
#guard_msgs in #print axioms part_106

end Cert.KernelIdeal.Body

end
-- ==== Proof.Parts.L107.lean ====
/-
  Part 107 of the body starts three copies of step 20 (the 23rd step started; round 1, group 2, position 2): part 0 of accumulator slice (2, 0) goes to receive slice (6, 0, 2) of the device paired along mask 4, part 1 of accumulator slice (2, 1) goes to receive slice (6, 1, 2) of the device paired along mask 1, part 2 of accumulator slice (2, 2) goes to receive slice (6, 2, 2) of the device paired along mask 3.
  The accumulator slices, at level 2 of round 1, and the paired devices' receive slices leave the device's hands; it holds the departure credits of its send cell 20 for them and owes 3 payments fewer. The values it returns are pure functions of its arguments.
-/
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Launch
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- Part 107: the copies of parts 0, 1 and 2 of step 20. -/
theorem local_107 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 69) W)
        ∗ dutyTok ER (sendCell c 20) 0 0 ∗ dutyTok ER (recvCell (mate c 0 20) 20) 0 0
        ∗ dutyTok ER (sendCell c 20) 0 1 ∗ dutyTok ER (recvCell (mate c 1 20) 20) 0 1
        ∗ dutyTok ER (sendCell c 20) 0 2 ∗ dutyTok ER (recvCell (mate c 2 20) 20) 0 2
        ∗ rsTileAny (F := F) (mate c 0 20) 6 0 2
        ∗ rsTileAny (F := F) (mate c 1 20) 6 1 2
        ∗ rsTileAny (F := F) (mate c 2 20) 6 2 2
        ∗ accTile c 2 0 (A I 1 c 2 0 2)
        ∗ accTile c 2 1 (A I 1 c 2 1 2)
        ∗ accTile c 2 2 (A I 1 c 2 2 2)
        ∗ P)
      ⊢ wp frame (wpE (defs₀ (F := F)) 𝒱₀ (c : Thread nD τ) none) Set.univ
          (k0_part107 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw2692 c, Vals.lw2703 c⟩⌝
            ∗ (∃ W, owes (c : Thread nD τ) (owedFrom c 72) W)
            ∗ cred (tallyAt (sendCell c 20) () N)
            ∗ cred (tallyAt (sendCell c 20) () N)
            ∗ cred (tallyAt (sendCell c 20) () N)
            ∗ P)) := by
  iintro ⟨#HR, ⟨%W, HO⟩, Ts0, Tr0, Ts1, Tr1, Ts2, Tr2, ⟨%fd0, Hr0⟩, ⟨%fd1, Hr1⟩, ⟨%fd2, Hr2⟩, Ha0, Ha1, Ha2, HP⟩
  ihave #HIs := (inv_at (RdI I) K (c, Cell.send 20)) $$ HR
  ihave #HRs := (reached_at (RdI I) K (c, Cell.send 20)) $$ HR
  ihave #HIr0 := (inv_at (RdI I) K (mate c 0 20, Cell.recv 20)) $$ HR
  ihave #HRr0 := (reached_at (RdI I) K (mate c 0 20, Cell.recv 20)) $$ HR
  ihave #HIr1 := (inv_at (RdI I) K (mate c 1 20, Cell.recv 20)) $$ HR
  ihave #HRr1 := (reached_at (RdI I) K (mate c 1 20, Cell.recv 20)) $$ HR
  ihave #HIr2 := (inv_at (RdI I) K (mate c 2 20, Cell.recv 20)) $$ HR
  ihave #HRr2 := (reached_at (RdI I) K (mate c 2 20, Cell.recv 20)) $$ HR
  sl_exec
  iapply (wp_fire_at (accCI I) (rs0I I) c 20 0 (g := 2) (rg := 6) (s := 2) (by decide) (by decide) (by decide)
      (dv := ⟨k0_dev70 c, k0_dev70_lt c⟩) ((dev70_eq c).trans rfl) rfl rfl (sendS_eq 20).symm (recvS_eq 20).symm
      (accEmb 2 0 (A I 1 c 2 0 2)) rfl fd0 (owedFrom c 70) (owed_copy c 22 0 69 (by decide) 20 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 20 1 (g := 2) (rg := 6) (s := 2) (by decide) (by decide) (by decide)
      (dv := ⟨k0_dev71 c, k0_dev71_lt c⟩) ((dev71_eq c).trans rfl) rfl rfl (sendS_eq 20).symm (recvS_eq 20).symm
      (accEmb 2 1 (A I 1 c 2 1 2)) rfl fd1 (owedFrom c 71) (owed_copy c 22 1 70 (by decide) 20 (by decide))) $$ [HO Ha1 Hr1 Ts1 Tr1]
  · fire_premises HIs HIr1 Ha1 Hr1 HO Ts1 HRs Tr1 HRr1
  iintro ⟨Hc1, HO⟩
  sl_exec
  iapply (wp_fire_at (accCI I) (rs0I I) c 20 2 (g := 2) (rg := 6) (s := 2) (by decide) (by decide) (by decide)
      (dv := ⟨k0_dev72 c, k0_dev72_lt c⟩) ((dev72_eq c).trans rfl) rfl rfl (sendS_eq 20).symm (recvS_eq 20).symm
      (accEmb 2 2 (A I 1 c 2 2 2)) rfl fd2 (owedFrom c 72) (owed_copy c 22 2 71 (by decide) 20 (by decide))) $$ [HO Ha2 Hr2 Ts2 Tr2]
  · fire_premises HIs HIr2 Ha2 Hr2 HO Ts2 HRs Tr2 HRr2
  iintro ⟨Hc2, HO⟩
  sl_exec
  sl_step
  isplitr
  · ipureintro; rfl
  isplitl [HO]
  · iexists W; iexact HO
  isplitl [Hc0]; · iexact Hc0
  isplitl [Hc1]; · iexact Hc1
  isplitl [Hc2]; · iexact Hc2
  iexact HP

end Cert.KernelIdeal.Body

/-- info: 'Cert.KernelIdeal.Body.local_107' depends on axioms: [propext, Classical.choice, Quot.sound] -/
#guard_msgs in #print axioms Cert.KernelIdeal.Body.local_107

end
-- ==== Proof.Parts.L110.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 110 of the body: the output block of group 1 (batch entry 0, rows 256 on). It reads the three accumulator tiles of
    group 1 at their last level of round 1 and the three receive tiles their last partners' copies landed in, and stores
    into the output window's buffer, at rows 256 to 511 of batch entry 0, the group's block of the residual stream after
    attention plus the feed-forward gate times the three all-reduced parts side by side. The tiles are left as they were;
    the output buffer's contents are what they were with that one block written. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

/-- The output buffer after one block store is fixed by the block stored. -/
private theorem out_block_congr (c : Dev nD) (f : Buf (Elt F) ((Memref.whole cc0_stg9_0).view.loc (c : Thread nD τ))) (R : Rect S2x512x768)
    {w w' : R.shape.Idx → Elt F .f32} (h : w = w') :
    (((Memref.whole cc0_stg9_0).view.loc (c : Thread nD τ)) ↦{fullShare} (Memref.whole cc0_stg9_0).view.writes (Elt F) f [⟨R, w⟩] : sProp (MT nD τ sig Unit (Elt F) ℕ UU ℕ))
      ⊢ (((Memref.whole cc0_stg9_0).view.loc (c : Thread nD τ)) ↦{fullShare} (Memref.whole cc0_stg9_0).view.writes (Elt F) f [⟨R, w'⟩]) := by
  subst h; exact .rfl

/-- The part over any whole memref that is the output window's staging buffer. -/
private theorem local_110_at (I : Dev nD → Vals.Ins F) (c : Dev nD) (P : sProp (MT nD τ sig Unit (Elt F) ℕ UU ℕ))
    (m9 : Memref sig .tc .vmem S2x512x768 .f32) (h9 : m9.IsWhole) (hm : m9 = Memref.whole cc0_stg9_0)
    (f : Buf (Elt F) ((Memref.whole cc0_stg9_0).view.loc (c : Thread nD τ))) :
    iprop(Proto.accPts c 1 0 (accEmb 1 0 (Vals.A I 1 c 1 0 2)) ∗ Proto.accPts c 1 1 (accEmb 1 1 (Vals.A I 1 c 1 1 2)) ∗ Proto.accPts c 1 2 (accEmb 1 2 (Vals.A I 1 c 1 2 2))
        ∗ Proto.rsPts c 5 0 2 (rsEmb 5 0 2 (Vals.R I 1 c 1 0 2)) ∗ Proto.rsPts c 5 1 2 (rsEmb 5 1 2 (Vals.R I 1 c 1 1 2)) ∗ Proto.rsPts c 5 2 2 (rsEmb 5 2 2 (Vals.R I 1 c 1 2 2))
        ∗ (((Memref.whole cc0_stg9_0).view.loc (c : Thread nD τ)) ↦{fullShare} f) ∗ P)
      ⊢ wp frame (wpE (defs₀ (F := F)) 𝒱₀ (c : Thread nD τ) none) Set.univ
      (k0_part110 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) m9 h9 (Memref.whole cc0_scratch0) (Memref.isWhole_whole _) (Memref.whole cc0_scratch1) (Memref.isWhole_whole _) cc0_scratch2 cc0_scratch3 cc0_scoped0
        (Vals.lv2756 I c) (Vals.lv2757 I c))
      (fun _ => iprop(Proto.accPts c 1 0 (accEmb 1 0 (Vals.A I 1 c 1 0 2)) ∗ Proto.accPts c 1 1 (accEmb 1 1 (Vals.A I 1 c 1 1 2)) ∗ Proto.accPts c 1 2 (accEmb 1 2 (Vals.A I 1 c 1 2 2))
        ∗ Proto.rsPts c 5 0 2 (rsEmb 5 0 2 (Vals.R I 1 c 1 0 2)) ∗ Proto.rsPts c 5 1 2 (rsEmb 5 1 2 (Vals.R I 1 c 1 1 2)) ∗ Proto.rsPts c 5 2 2 (rsEmb 5 2 2 (Vals.R I 1 c 1 2 2))
        ∗ (((Memref.whole cc0_stg9_0).view.loc (c : Thread nD τ)) ↦{fullShare}
            (Memref.whole cc0_stg9_0).view.writes (Elt F) f [⟨(Rect.unit (s := S2x512x768) ![0, 256, 0] S1x256x768.size inb_S2x512x768_S1x256x768_0_256_0), Vals.outBlk I c 1⟩]) ∗ P)) := by
  subst hm
  unfold Proto.accPts Proto.rsPts
  iintro ⟨H0, H1, H2, G0, G1, G2, HO, HP⟩
  rw [k0_part110_eq_skeleton]
  unfold k0_part110_skel
  sl_exec
  sl_step
  sl_unfold_run_names
  isplitl [H0]
  · iexact H0
  isplitl [H1]
  · iexact H1
  isplitl [H2]
  · iexact H2
  isplitl [G0]
  · iexact G0
  isplitl [G1]
  · iexact G1
  isplitl [G2]
  · iexact G2
  isplitl [HO]
  · iapply (out_block_congr c f (Rect.unit (s := S2x512x768) ![0, 256, 0] S1x256x768.size inb_S2x512x768_S1x256x768_0_256_0))
    all_goals first | iexact HO | skip
    have a0 : View.readAt (Elt F) (Memref.whole cc0_scratch0).view (Rect.unit (s := S4x3x256x256) ![1, 0, 0, 0] S1x1x256x256.size inb_S4x3x256x256_S1x1x256x256_1_0_0_0).toLoadRect (accEmb 1 0 (Vals.A I 1 c 1 0 2)) = Vals.A I 1 c 1 0 2 := accV_read_accEmb 1 0 _
    have a1 : View.readAt (Elt F) (Memref.whole cc0_scratch0).view (Rect.unit (s := S4x3x256x256) ![1, 1, 0, 0] S1x1x256x256.size inb_S4x3x256x256_S1x1x256x256_1_1_0_0).toLoadRect (accEmb 1 1 (Vals.A I 1 c 1 1 2)) = Vals.A I 1 c 1 1 2 := accV_read_accEmb 1 1 _
    have a2 : View.readAt (Elt F) (Memref.whole cc0_scratch0).view (Rect.unit (s := S4x3x256x256) ![1, 2, 0, 0] S1x1x256x256.size inb_S4x3x256x256_S1x1x256x256_1_2_0_0).toLoadRect (accEmb 1 2 (Vals.A I 1 c 1 2 2)) = Vals.A I 1 c 1 2 2 := accV_read_accEmb 1 2 _
    have b0 : View.readAt (Elt F) (Memref.whole cc0_scratch1).view (Rect.unit (s := S8x3x3x256x256) ![5, 0, 2, 0, 0] S1x1x1x256x256.size inb_S8x3x3x256x256_S1x1x1x256x256_5_0_2_0_0).toLoadRect (rsEmb 5 0 2 (Vals.R I 1 c 1 0 2)) = Vals.R I 1 c 1 0 2 := rsV_read_rsEmb 5 0 2 _
    have b1 : View.readAt (Elt F) (Memref.whole cc0_scratch1).view (Rect.unit (s := S8x3x3x256x256) ![5, 1, 2, 0, 0] S1x1x1x256x256.size inb_S8x3x3x256x256_S1x1x1x256x256_5_1_2_0_0).toLoadRect (rsEmb 5 1 2 (Vals.R I 1 c 1 1 2)) = Vals.R I 1 c 1 1 2 := rsV_read_rsEmb 5 1 2 _
    have b2 : View.readAt (Elt F) (Memref.whole cc0_scratch1).view (Rect.unit (s := S8x3x3x256x256) ![5, 2, 2, 0, 0] S1x1x1x256x256.size inb_S8x3x3x256x256_S1x1x1x256x256_5_2_2_0_0).toLoadRect (rsEmb 5 2 2 (Vals.R I 1 c 1 2 2)) = Vals.R I 1 c 1 2 2 := rsV_read_rsEmb 5 2 2 _
    rw [a0, a1, a2, b0, b1, b2]
    rfl
  · iexact HP

theorem local_110 (I : Dev nD → Vals.Ins F) (c : Dev nD) (P : sProp (MT nD τ sig Unit (Elt F) ℕ UU ℕ))
    (f : Buf (Elt F) ((Memref.whole cc0_stg9_0).view.loc (c : Thread nD τ))) :
    iprop(Proto.accPts c 1 0 (accEmb 1 0 (Vals.A I 1 c 1 0 2)) ∗ Proto.accPts c 1 1 (accEmb 1 1 (Vals.A I 1 c 1 1 2)) ∗ Proto.accPts c 1 2 (accEmb 1 2 (Vals.A I 1 c 1 2 2))
        ∗ Proto.rsPts c 5 0 2 (rsEmb 5 0 2 (Vals.R I 1 c 1 0 2)) ∗ Proto.rsPts c 5 1 2 (rsEmb 5 1 2 (Vals.R I 1 c 1 1 2)) ∗ Proto.rsPts c 5 2 2 (rsEmb 5 2 2 (Vals.R I 1 c 1 2 2))
        ∗ (((Memref.whole cc0_stg9_0).view.loc (c : Thread nD τ)) ↦{fullShare} f) ∗ P)
      ⊢ wp frame (wpE (defs₀ (F := F)) 𝒱₀ (c : Thread nD τ) none) Set.univ
      (k0_part110 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
        (Vals.lv2756 I c) (Vals.lv2757 I c))
      (fun _ => iprop(Proto.accPts c 1 0 (accEmb 1 0 (Vals.A I 1 c 1 0 2)) ∗ Proto.accPts c 1 1 (accEmb 1 1 (Vals.A I 1 c 1 1 2)) ∗ Proto.accPts c 1 2 (accEmb 1 2 (Vals.A I 1 c 1 2 2))
        ∗ Proto.rsPts c 5 0 2 (rsEmb 5 0 2 (Vals.R I 1 c 1 0 2)) ∗ Proto.rsPts c 5 1 2 (rsEmb 5 1 2 (Vals.R I 1 c 1 1 2)) ∗ Proto.rsPts c 5 2 2 (rsEmb 5 2 2 (Vals.R I 1 c 1 2 2))
        ∗ (((Memref.whole cc0_stg9_0).view.loc (c : Thread nD τ)) ↦{fullShare}
            (Memref.whole cc0_stg9_0).view.writes (Elt F) f [⟨(Rect.unit (s := S2x512x768) ![0, 256, 0] S1x256x768.size inb_S2x512x768_S1x256x768_0_256_0), Vals.outBlk I c 1⟩]) ∗ P)) :=
  local_110_at I c P (win0_9.stage (cfg0.slots t0_0 9)) (hstage0_9 0) rfl f

/-- info: 'Cert.KernelIdeal.Body.local_110' depends on axioms: [propext, Classical.choice, Quot.sound] -/
#guard_msgs in #print axioms local_110

end Cert.KernelIdeal.Body
-- ==== Proof.Parts.Part110.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L110
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable
import proofs.«900775_g7700000000000776_dist_diff_dit_htp_i_b2_s512_d768_hq4_v7x_i8_f32_1_alg».proof.Proof.BodyOut

/-! Part 110 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 110 of the body, run from the place before it, ends at the place after it; whatever else is held is kept. -/
theorem part_110 (m : (ℓ : Loc nD τ sig) → Buf (Elt F) ℓ) (K : Dev nD × Cell → ℕ) (c : Dev nD) (Fr : sProp 𝕄) :
    iprop(St (insM m) K (σ 109) c ∗ outHeld (insM m) c (σ 109).outs ∗ Fr)
      ⊢ wp frame (wpE (defs₀ (F := F)) 𝒱₀ (c : Thread nD τ) none) Set.univ
          (k0_part110 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv2756 (insM m) c) (Vals.lv2757 (insM m) c))
          (fun _ => iprop(St (insM m) K (σ 110) c ∗ outHeld (insM m) c (σ 110).outs ∗ Fr)) := by
  rw [St_eq, St_eq, StRest_congr (insM m) K c (s := σ 109) (s' := σ 110) rfl rfl rfl rfl, accAll_σ_109, accAll_σ_110,
    StRest_rs (insM m) K c (σ 110) rfl 17 (by decide), rs3_17,
    show (σ 109).outs = 1 from rfl, show (σ 110).outs = 2 from rfl]
  have key : ∀ (f : Vec F S2x512x768 .f32) (hf : ∀ j : S2x512x768.Idx, outBlockOf j < 1 → f j = Vals.outC (insM m) c j),
      (iprop(Proto.accPts c 1 0 (accEmb 1 0 (Vals.A (insM m) 1 c 1 0 2)) ∗ Proto.accPts c 1 1 (accEmb 1 1 (Vals.A (insM m) 1 c 1 1 2)) ∗ Proto.accPts c 1 2 (accEmb 1 2 (Vals.A (insM m) 1 c 1 2 2))
        ∗ Proto.rsPts c 5 0 2 (rsEmb 5 0 2 (Vals.R (insM m) 1 c 1 0 2)) ∗ Proto.rsPts c 5 1 2 (rsEmb 5 1 2 (Vals.R (insM m) 1 c 1 1 2)) ∗ Proto.rsPts c 5 2 2 (rsEmb 5 2 2 (Vals.R (insM m) 1 c 1 2 2))
        ∗ (((Memref.whole cc0_stg9_0).view.loc (c : Thread nD τ)) ↦{fullShare} f)
        ∗ StRestNoRs (insM m) K (σ 110) c 17 ∗ accTile c 0 0 (Vals.A (insM m) 1 c 0 0 2) ∗ accTile c 0 1 (Vals.A (insM m) 1 c 0 1 2) ∗ accTile c 0 2 (Vals.A (insM m) 1 c 0 2 2) ∗ emp ∗ emp ∗ emp ∗ emp ∗ emp ∗ emp ∗ Fr) : sProp (MT nD τ sig Unit (Elt F) ℕ UU ℕ))
      ⊢ wp frame (wpE (defs₀ (F := F)) 𝒱₀ (c : Thread nD τ) none) Set.univ
          (k0_part110 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv2756 (insM m) c) (Vals.lv2757 (insM m) c))
          (fun _ => iprop((((rsTile c 5 0 2 (Vals.R (insM m) 1 c 1 0 2) ∗ rsTile c 5 1 2 (Vals.R (insM m) 1 c 1 1 2) ∗ rsTile c 5 2 2 (Vals.R (insM m) 1 c 1 2 2)) ∗ StRestNoRs (insM m) K (σ 110) c 17) ∗ accTile c 0 0 (Vals.A (insM m) 1 c 0 0 2) ∗ accTile c 0 1 (Vals.A (insM m) 1 c 0 1 2) ∗ accTile c 0 2 (Vals.A (insM m) 1 c 0 2 2) ∗ accTile c 1 0 (Vals.A (insM m) 1 c 1 0 2) ∗ accTile c 1 1 (Vals.A (insM m) 1 c 1 1 2) ∗ accTile c 1 2 (Vals.A (insM m) 1 c 1 2 2) ∗ emp ∗ emp ∗ emp ∗ emp ∗ emp ∗ emp) ∗ outHeld (insM m) c 2 ∗ Fr)) := fun f hf =>
    (local_110 (insM m) c iprop(StRestNoRs (insM m) K (σ 110) c 17 ∗ accTile c 0 0 (Vals.A (insM m) 1 c 0 0 2) ∗ accTile c 0 1 (Vals.A (insM m) 1 c 0 1 2) ∗ accTile c 0 2 (Vals.A (insM m) 1 c 0 2 2) ∗ emp ∗ emp ∗ emp ∗ emp ∗ emp ∗ emp ∗ Fr) f).trans (wp_mono _ _ _ fun _ => by
      iintro ⟨T10, T11, T12, R0, R1, R2, Hout, HR, T00, T01, T02, T20, T21, T22, T30, T31, T32, HF⟩
      have hst : ((((Memref.whole cc0_stg9_0).view.loc (c : Thread nD τ)) ↦{fullShare}
          (Memref.whole cc0_stg9_0).view.writes (Elt F) f [⟨(Rect.unit (s := S2x512x768) ![0, 256, 0] S1x256x768.size inb_S2x512x768_S1x256x768_0_256_0), Vals.outBlk (insM m) c 1⟩]) : sProp (MT nD τ sig Unit (Elt F) ℕ UU ℕ))
          ⊢ outHeld (insM m) c 2 := outHeld_store (insM m) c 0 1 inb_S2x512x768_S1x256x768_0_256_0 f hf
      ihave HO := hst $$ Hout
      isplitr [HO HF]
      · isplitl [R0 R1 R2 HR]
        · isplitl [R0 R1 R2]
          · isplitl [R0]; · iexact R0
            isplitl [R1]; · iexact R1
            iexact R2
          · iexact HR
        isplitl [T00]; · iexact T00
        isplitl [T01]; · iexact T01
        isplitl [T02]; · iexact T02
        isplitl [T10]; · iexact T10
        isplitl [T11]; · iexact T11
        isplitl [T12]; · iexact T12
        isplitl [T20]; · iexact T20
        isplitl [T21]; · iexact T21
        isplitl [T22]; · iexact T22
        isplitl [T30]; · iexact T30
        isplitl [T31]; · iexact T31
        iexact T32
      · isplitl [HO]; · iexact HO
        iexact HF)
  rw [show outHeld (insM m) c 1 = (iprop(∃ f : (cc0_stg9_0 : Ref sig .tc).ty.Contents (Elt F),
      ⌜∀ j : S2x512x768.Idx, outBlockOf j < 1 → f j = Vals.outC (insM m) c j⌝ ∗ (((c : Thread nD τ).loc cc0_stg9_0) ↦{fullShare} f)) : sProp (MT nD τ sig Unit (Elt F) ℕ UU ℕ)) from rfl]
  iintro ⟨⟨⟨⟨R0, R1, R2⟩, HR⟩, T00, T01, T02, T10, T11, T12, T20, T21, T22, T30, T31, T32⟩, ⟨%f, %hf, Hout⟩, HF⟩
  ihave Hout := (show ((((c : Thread nD τ).loc cc0_stg9_0) ↦{fullShare} f) : sProp (MT nD τ sig Unit (Elt F) ℕ UU ℕ)) ⊢ (((Memref.whole cc0_stg9_0).view.loc (c : Thread nD τ)) ↦{fullShare} f) from Entails.of_eq rfl) $$ Hout
  iapply (key f hf)
  isplitl [T10]; · iexact T10
  isplitl [T11]; · iexact T11
  isplitl [T12]; · iexact T12
  isplitl [R0]; · iexact R0
  isplitl [R1]; · iexact R1
  isplitl [R2]; · iexact R2
  isplitl [Hout]; · iexact Hout
  isplitl [HR]; · iexact HR
  isplitl [T00]; · iexact T00
  isplitl [T01]; · iexact T01
  isplitl [T02]; · iexact T02
  isplitl [T20]; · iexact T20
  isplitl [T21]; · iexact T21
  isplitl [T22]; · iexact T22
  isplitl [T30]; · iexact T30
  isplitl [T31]; · iexact T31
  isplitl [T32]; · iexact T32
  iexact HF

/-- info: 'Cert.KernelIdeal.Body.part_110' depends on axioms: [propext, Classical.choice, Quot.sound] -/
#guard_msgs in #print axioms part_110

end Cert.KernelIdeal.Body

end
-- ==== Proof.Parts.L113.lean ====
import proofs.«900775_g7700000000000776_dist_diff_dit_htp_i_b2_s512_d768_hq4_v7x_i8_f32_1_alg».proof.Proof.LaunchK
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 113 of the body: the second exchange of round 1 on group 3. The accumulator tiles of parts 0 and 1 are each
    overwritten with their sum with the receive tile their partner's copy landed in (level 1 of round 1 becomes level 2);
    part 2's tile and its receive tile are read, and their sum as a 256 × 256 matrix is returned for the next part to store. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_113 (I : Dev nD → Vals.Ins F) (c : Dev nD) (P : sProp (MT nD τ sig Unit (Elt F) ℕ UU ℕ)) :
    iprop(Proto.accPts c 3 0 (accEmb 3 0 (Vals.A I 1 c 3 0 1)) ∗ Proto.accPts c 3 1 (accEmb 3 1 (Vals.A I 1 c 3 1 1)) ∗ Proto.accPts c 3 2 (accEmb 3 2 (Vals.A I 1 c 3 2 1))
        ∗ Proto.rsPts c 7 0 1 (rsEmb 7 0 1 (Vals.R I 1 c 3 0 1)) ∗ Proto.rsPts c 7 1 1 (rsEmb 7 1 1 (Vals.R I 1 c 3 1 1)) ∗ Proto.rsPts c 7 2 1 (rsEmb 7 2 1 (Vals.R I 1 c 3 2 1)) ∗ P)
      ⊢ wp frame (wpE (defs₀ (F := F)) 𝒱₀ (c : Thread nD τ) none) Set.univ
      (k0_part113 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
      (fun tup => iprop(⌜tup = Vals.lv2845 I c⌝
        ∗ Proto.accPts c 3 0 (accEmb 3 0 (Vals.A I 1 c 3 0 2)) ∗ Proto.accPts c 3 1 (accEmb 3 1 (Vals.A I 1 c 3 1 2)) ∗ Proto.accPts c 3 2 (accEmb 3 2 (Vals.A I 1 c 3 2 1))
        ∗ Proto.rsPts c 7 0 1 (rsEmb 7 0 1 (Vals.R I 1 c 3 0 1)) ∗ Proto.rsPts c 7 1 1 (rsEmb 7 1 1 (Vals.R I 1 c 3 1 1)) ∗ Proto.rsPts c 7 2 1 (rsEmb 7 2 1 (Vals.R I 1 c 3 2 1)) ∗ P)) := by
  unfold Proto.accPts Proto.rsPts
  iintro ⟨H0, H1, H2, G0, G1, G2, HP⟩
  rw [k0_part113_eq_skeleton]
  unfold k0_part113_skel
  sl_exec
  sl_step
  sl_unfold_run_names
  isplitr
  · ipureintro
    have e1 : View.readAt (Elt F) (Memref.whole cc0_scratch0).view (Rect.unit (s := S4x3x256x256) ![3, 2, 0, 0] S1x1x256x256.size inb_S4x3x256x256_S1x1x256x256_3_2_0_0).toLoadRect (accEmb 3 2 (Vals.A I 1 c 3 2 1)) = Vals.A I 1 c 3 2 1 := accV_read_accEmb 3 2 _
    have e2 : View.readAt (Elt F) (Memref.whole cc0_scratch1).view (Rect.unit (s := S8x3x3x256x256) ![7, 2, 1, 0, 0] S1x1x1x256x256.size inb_S8x3x3x256x256_S1x1x1x256x256_7_2_1_0_0).toLoadRect (rsEmb 7 2 1 (Vals.R I 1 c 3 2 1)) = Vals.R I 1 c 3 2 1 := rsV_read_rsEmb 7 2 1 _
    rw [e1, e2]
    rfl
  isplitl [H0]
  · iapply (accTile_at_value c 3 0)
    swap
    · iexact H0
    · refine (View.read_write_univ _ _).trans ?_
      refine (Vals.step_1_3_0_1 _ _).symm.trans ?_
      exact congrArg₂ (Vals.step 1 3 0 1) (accV_read_accEmb 3 0 _) (rsV_read_rsEmb 7 0 1 _)
  isplitl [H1]
  · iapply (accTile_at_value c 3 1)
    swap
    · iexact H1
    · refine (View.read_write_univ _ _).trans ?_
      refine (Vals.step_1_3_1_1 _ _).symm.trans ?_
      exact congrArg₂ (Vals.step 1 3 1 1) (accV_read_accEmb 3 1 _) (rsV_read_rsEmb 7 1 1 _)
  isplitl [H2]
  · iexact H2
  isplitl [G0]
  · iexact G0
  isplitl [G1]
  · iexact G1
  isplitl [G2]
  · iexact G2
  · iexact HP

/-- info: 'Cert.KernelIdeal.Body.local_113' depends on axioms: [propext, Classical.choice, Quot.sound] -/
#guard_msgs in #print axioms local_113

end Cert.KernelIdeal.Body
-- ==== Proof.Parts.Part113.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Parts.L113
import proofs.«900775_g7700000000000776_dist_diff_dit_htp_i_b2_s512_d768_hq4_v7x_i8_f32_1_alg».proof.Proof.Gen.KernelIdeal.Skeleton
import Idealize.ShloMosaic.Lib.Tactic
import proofs.«900775_g7700000000000776_dist_diff_dit_htp_i_b2_s512_d768_hq4_v7x_i8_f32_1_alg».proof.Proof.BodyAccTable
import proofs.«900775_g7700000000000776_dist_diff_dit_htp_i_b2_s512_d768_hq4_v7x_i8_f32_1_alg».proof.Proof.BodyRsTable

/-! Part 113 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Part 113 of the body, run from the place before it, ends at the place after it and returns its values; whatever else is held is kept. -/
theorem part_113 (m : (ℓ : Loc nD τ sig) → Buf (Elt F) ℓ) (K : Dev nD × Cell → ℕ) (c : Dev nD) (Fr : sProp 𝕄) :
    iprop(St (insM m) K (σ 112) c ∗ outHeld (insM m) c (σ 112).outs ∗ Fr)
      ⊢ wp frame (wpE (defs₀ (F := F)) 𝒱₀ (c : Thread nD τ) none) Set.univ
          (k0_part113 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = Vals.lv2845 (insM m) c⌝ ∗ St (insM m) K (σ 113) c ∗ outHeld (insM m) c (σ 113).outs ∗ Fr)) := by
  have eo : (σ 113).outs = (σ 112).outs := rfl
  rw [eo]
  rw [St_eq, St_eq, StRest_congr (insM m) K c (s := σ 112) (s' := σ 113) rfl rfl rfl rfl, accAll_σ_112, accAll_σ_113, StRest_rs (insM m) K c (σ 113) rfl 22 (by decide), rs3_22]
  refine BIBase.Entails.trans ?_ ((local_113 (insM m) c iprop(StRestNoRs (insM m) K (σ 113) c 22 ∗ accTile c 0 0 (Vals.A (insM m) 1 c 0 0 2) ∗ accTile c 0 1 (Vals.A (insM m) 1 c 0 1 2) ∗ accTile c 0 2 (Vals.A (insM m) 1 c 0 2 2) ∗ accTile c 1 0 (Vals.A (insM m) 1 c 1 0 2) ∗ accTile c 1 1 (Vals.A (insM m) 1 c 1 1 2) ∗ accTile c 1 2 (Vals.A (insM m) 1 c 1 2 2) ∗ emp ∗ emp ∗ emp ∗ outHeld (insM m) c (σ 112).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T30]; · iexact T30
    isplitl [T31]; · iexact T31
    isplitl [T32]; · iexact T32
    isplitl [R0]; · iexact R0
    isplitl [R1]; · iexact R1
    isplitl [R2]; · iexact R2
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, T32, R0, R1, R2, HR, T00, T01, T02, T10, T11, T12, T20, T21, T22, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.KernelIdeal.Body.part_113' depends on axioms: [propext, Classical.choice, Quot.sound] -/
#guard_msgs in #print axioms part_113

end Cert.KernelIdeal.Body

end
-- ==== Proof.Parts.L114.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyFire
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

/-! Part 114 of the body: the store into accumulator tile (3, 2), then the start of the copies of part 0 at step 23 and part 1 at step 23 (the source tile leaves the device's hands with the partner's receive slice), and the values it returns. -/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Proto

variable {F : FTy → Type} [FloatOps F]

local notation "𝕄" => MT nD τ sig Unit (Elt F) ℕ UU ℕ

theorem local_114 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 72) W)
        ∗ dutyTok ER (sendCell c 23) 0 0 ∗ dutyTok ER (recvCell (mate c 0 23) 23) 0 0
        ∗ rsTileAny (mate c 0 23) (rgOf 23) 0 (sOf 23)
        ∗ dutyTok ER (sendCell c 23) 0 1 ∗ dutyTok ER (recvCell (mate c 1 23) 23) 0 1
        ∗ rsTileAny (mate c 1 23) (rgOf 23) 1 (sOf 23)
        ∗ accTile c 3 2 (Vals.A I 1 c 3 2 1)
        ∗ accTile c 3 0 (Vals.A I 1 c 3 0 2)
        ∗ accTile c 3 1 (Vals.A I 1 c 3 1 2)
        ∗ P) : sProp (MT nD τ sig Unit (Elt F) ℕ UU ℕ))
      ⊢ wp frame (wpE (defs₀ (F := F)) 𝒱₀ (c : Thread nD τ) none) Set.univ
      (k0_part114 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2845 I c))
      (fun tup => iprop(⌜tup = ⟨Vals.lw2849 c, Vals.lw2860 c, Vals.lw2871 c⟩⌝
        ∗ records (RdI I) K
        ∗ (∃ W, owes (c : Thread nD τ) (owedFrom c 74) W)
        ∗ cred (tallyAt (sendCell c 23) () N)
        ∗ cred (tallyAt (sendCell c 23) () N)
        ∗ accTile c 3 2 (Vals.A I 1 c 3 2 2)
        ∗ P)) := by
  unfold accTile rsTileAny Proto.accPts Proto.rsPts
  iintro ⟨#Hrec, ⟨%W, HO⟩, Hts0, Htr0, ⟨%fd0, Hfd0⟩, Hts1, Htr1, ⟨%fd1, Hfd1⟩, Ha32, Ha30, Ha31, HP⟩
  ihave #HIs0 := (inv_at (RdI I) K (c, Cell.send 23)) $$ Hrec
  ihave #HIr0 := (inv_at (RdI I) K (mate c 0 23, Cell.recv 23)) $$ Hrec
  ihave #Hrs0 := (reached_at (RdI I) K (c, Cell.send 23)) $$ Hrec
  ihave #Hrr0 := (reached_at (RdI I) K (mate c 0 23, Cell.recv 23)) $$ Hrec
  ihave #HIs1 := (inv_at (RdI I) K (c, Cell.send 23)) $$ Hrec
  ihave #HIr1 := (inv_at (RdI I) K (mate c 1 23, Cell.recv 23)) $$ Hrec
  ihave #Hrs1 := (reached_at (RdI I) K (c, Cell.send 23)) $$ Hrec
  ihave #Hrr1 := (reached_at (RdI I) K (mate c 1 23, Cell.recv 23)) $$ Hrec
  rw [k0_part114_eq_skeleton]
  unfold k0_part114_skel
  sl_exec
  -- the copy of part 0 at step 23 (started as number 24): its units on the partner's receive cell are owed last
  have hc0 : dueCell c 72 = recvCell (mate c 0 23) 23 := dueCell_fire c 23 0
  have ha0 : dueAmt 72 = N := dueAmt_fire 23 0
  have hO0 : owedFrom c 72 = owedFrom c 73 + tallyAt (recvCell (mate c 0 23) 23) () N :=
    (owedFrom_succ c 72 (by decide)).trans (by rw [hc0, ha0])
  iapply (wp_fire_at (accCI I) (rs0I I) c 23 0 (g := 3) (rg := 7) (s := 2) rfl rfl rfl (dev73_eq c) rfl rfl
    (sendS_eq 23) (recvS_eq 23) (accEmb 3 0 (Vals.A I 1 c 3 0 2)) rfl fd0 (owedFrom c 73) hO0) $$ [HO Hts0 Htr0 Hfd0 Ha30]
  · unfold Proto.accPts Proto.rsPts
    isplitr; · iexact HIs0
    isplitr; · iexact HIr0
    isplitl [Ha30]; · iexact Ha30
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  -- the copy of part 1 at step 23 (started as number 24): its units on the partner's receive cell are owed last
  have hc1 : dueCell c 73 = recvCell (mate c 1 23) 23 := dueCell_fire c 23 1
  have ha1 : dueAmt 73 = N := dueAmt_fire 23 1
  have hO1 : owedFrom c 73 = owedFrom c 74 + tallyAt (recvCell (mate c 1 23) 23) () N :=
    (owedFrom_succ c 73 (by decide)).trans (by rw [hc1, ha1])
  iapply (wp_fire_at (accCI I) (rs0I I) c 23 1 (g := 3) (rg := 7) (s := 2) rfl rfl rfl (dev74_eq c) rfl rfl
    (sendS_eq 23) (recvS_eq 23) (accEmb 3 1 (Vals.A I 1 c 3 1 2)) rfl fd1 (owedFrom c 74) hO1) $$ [HO Hts1 Htr1 Hfd1 Ha31]
  · unfold Proto.accPts Proto.rsPts
    isplitr; · iexact HIs1
    isplitr; · iexact HIr1
    isplitl [Ha31]; · iexact Ha31
    isplitl [Hfd1]; · iexact Hfd1
    isplitl [HO]; · iexact HO
    isplitl [Hts1]; · iexact Hts1
    isplitr; · iexact Hrs1
    isplitl [Htr1]; · iexact Htr1
    iexact Hrr1
  iintro ⟨Hcs1, HO⟩
  sl_exec
  sl_step
  -- what the loads read, and what each written tile's view reads back
  have Ha32_e : View.read (Elt F) (accV 3 2) (local_114.sl.Ha32_w1 I c) = Vals.A I 1 c 3 2 2 := by
    unfold local_114.sl.Ha32_w1; exact View.read_write_univ _ _
  have Ha32_t : ((Proto.accSl 3 2).view.loc (c : Thread nD τ) ↦[(Proto.accSl 3 2).view.set]{fullShare} local_114.sl.Ha32_w1 I c : sProp (MT nD τ sig Unit (Elt F) ℕ UU ℕ)) = ((Proto.accSl 3 2).view.loc (c : Thread nD τ) ↦[(Proto.accSl 3 2).view.set]{fullShare} accEmb 3 2 (Vals.A I 1 c 3 2 2) : sProp (MT nD τ sig Unit (Elt F) ℕ UU ℕ)) := accTile_of_read c fullShare 3 2 Ha32_e
  rw [← Ha32_t]
  isplitr [HO Hcs0 Hcs1 Ha32 HP]
  · ipureintro; rfl
  isplitr [HO Hcs0 Hcs1 Ha32 HP]; · iexact Hrec
  isplitl [HO]; · iexists W; iexact HO
  iframe

/-- info: 'Cert.KernelIdeal.Body.local_114' depends on axioms: [propext, Classical.choice, Quot.sound] -/
#guard_msgs in #print axioms local_114

end Cert.KernelIdeal.Body
-- ==== Proof.Parts.Part114.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L114
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 114 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 114 of the body, run from the place before it, ends at the place after it and returns its values; whatever else is held is kept. -/
theorem part_114 (m : (ℓ : Loc nD τ sig) → Buf (Elt F) ℓ) (K : Dev nD × Cell → ℕ) (c : Dev nD) (Fr : sProp 𝕄) :
    iprop(St (insM m) K (σ 113) c ∗ outHeld (insM m) c (σ 113).outs ∗ Fr)
      ⊢ wp frame (wpE (defs₀ (F := F)) 𝒱₀ (c : Thread nD τ) none) Set.univ
          (k0_part114 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2845 (insM m) c))
          (fun tup => iprop(⌜tup = ⟨Vals.lw2849 c, Vals.lw2860 c, Vals.lw2871 c⟩⌝ ∗ St (insM m) K (σ 114) c ∗ outHeld (insM m) c (σ 114).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 72 : sProp (MT nD τ sig Unit (Elt F) ℕ UU ℕ))
      = iprop(dutyTok ER (sendCell c 23) 0 0 ∗ dutyTok ER (recvCell (mate c 0 23) 23) 0 0 ∗ toksFrom c 73) := toksFrom_copy c 23 0
  have ht1 : (toksFrom c 73 : sProp (MT nD τ sig Unit (Elt F) ℕ UU ℕ))
      = iprop(dutyTok ER (sendCell c 23) 0 1 ∗ dutyTok ER (recvCell (mate c 1 23) 23) 0 1 ∗ toksFrom c 74) := toksFrom_copy c 23 1
  have hf0 : (foreignFrom c 69 : sProp (MT nD τ sig Unit (Elt F) ℕ UU ℕ))
      = iprop(rsTileAny (mate c 0 23) (rgOf 23) 0 (sOf 23) ∗ foreignFrom c 70) := foreignFrom_succ c 23 0
  have hf1 : (foreignFrom c 70 : sProp (MT nD τ sig Unit (Elt F) ℕ UU ℕ))
      = iprop(rsTileAny (mate c 1 23) (rgOf 23) 1 (sOf 23) ∗ foreignFrom c 71) := foreignFrom_succ c 23 1
  rw [St_open_113, St_open_114, ht0, ht1, hf0, hf1, show (σ 113).outs = (σ 114).outs from rfl]
  simp only [hemp, hemp']
  refine BIBase.Entails.trans (Entails.of_eq ?_) (BIBase.Entails.trans
    (local_114 (insM m) K c
      (iprop(levAts Proto.L Proto.lv
        ∗ toksFrom c 74
        ∗ credFrom c 69
        ∗ cred (tallyAt (sendCell c 20) () N)
        ∗ cred (tallyAt (sendCell c 20) () N)
        ∗ cred (tallyAt (sendCell c 20) () N)
        ∗ doneTo c 45
        ∗ todoFrom c 45
        ∗ foreignFrom c 71
        ∗ rsBack (insM m) c 22
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ outHeld (insM m) c (σ 114).outs
        ∗ Fr)))
    (wp_mono _ _ _ fun tup => Entails.of_eq ?_))
  · ac_rfl
  · ac_rfl

/-- info: 'Cert.KernelIdeal.Body.part_114' depends on axioms: [propext, Classical.choice, Quot.sound] -/
#guard_msgs in #print axioms part_114

end Cert.KernelIdeal.Body

end
-- ==== Proof.Parts.Part115.lean ====
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Parts.L115
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.BodyStateLemmas
import Idealize.ShloMosaic.Lib.Tactic

/-! Part 115 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 115 of the body, run from the place before it, ends at the place after it; whatever else is held is kept. -/
theorem part_115 (m : (ℓ : Loc nD τ sig) → Buf (Elt F) ℓ) (K : Dev nD × Cell → ℕ) (c : Dev nD) (Fr : sProp 𝕄) :
    iprop(St (insM m) K (σ 114) c ∗ outHeld (insM m) c (σ 114).outs ∗ Fr)
      ⊢ wp frame (wpE (defs₀ (F := F)) 𝒱₀ (c : Thread nD τ) none) Set.univ
          (k0_part115 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2681 c) (Vals.lw2871 c))
          (fun _ => iprop(St (insM m) K (σ 115) c ∗ outHeld (insM m) c (σ 115).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 74 : sProp (MT nD τ sig Unit (Elt F) ℕ UU ℕ)) = iprop(dutyTok ER (sendCell c 23) 0 2 ∗ dutyTok ER (recvCell (mate c 2 23) 23) 0 2 ∗ toksFrom c 75) := toksFrom_copy c 23 2
  have hF0 : (foreignFrom c 71 : sProp (MT nD τ sig Unit (Elt F) ℕ UU ℕ)) = iprop(rsTileAny (mate c 2 23) 7 2 2 ∗ foreignFrom c 72) := foreignFrom_succ c 23 2
  have hG : (todoFrom c 45 : sProp (MT nD τ sig Unit (Elt F) ℕ UU ℕ)) = iprop(curCell (sendCell c 20) (fun p => (RdI (insM m)).payload (sendCell c 20) 0 p) 0 ∗ curCell (recvCell c 20) (fun p => (RdI (insM m)).payload (recvCell c 20) 0 p) 0 ∗ todoFrom c 47) := todo_group c 22
  rw [show (σ 115).outs = (σ 114).outs from rfl, St_open_114, St_open_115, hT0, hF0, hG]
  simp only [hemp, hemp']
  refine BIBase.Entails.trans (Entails.of_eq ?_) (BIBase.Entails.trans (local_115 (insM m) K c iprop(toksFrom c 75 ∗ credFrom c 69 ∗ cred (tallyAt (sendCell c 20) () N) ∗ cred (tallyAt (sendCell c 20) () N) ∗ cred (tallyAt (sendCell c 23) () N) ∗ cred (tallyAt (sendCell c 23) () N) ∗ doneTo c 45 ∗ curCell (recvCell c 20) (fun p => (RdI (insM m)).payload (recvCell c 20) 0 p) 0 ∗ todoFrom c 47 ∗ foreignFrom c 72 ∗ rsBack (insM m) c 22 ∗ accTile c 0 0 (Vals.A (insM m) 1 c 0 0 2) ∗ accTile c 0 1 (Vals.A (insM m) 1 c 0 1 2) ∗ accTile c 0 2 (Vals.A (insM m) 1 c 0 2 2) ∗ accTile c 1 0 (Vals.A (insM m) 1 c 1 0 2) ∗ accTile c 1 1 (Vals.A (insM m) 1 c 1 1 2) ∗ accTile c 1 2 (Vals.A (insM m) 1 c 1 2 2) ∗ outHeld (insM m) c (σ 114).outs ∗ Fr)) (wp_mono _ _ _ fun tup => Entails.of_eq ?_))
  · ac_rfl
  · ac_rfl

/-- info: 'Cert.KernelIdeal.Body.part_115' depends on axioms: [propext, Classical.choice, Quot.sound] -/
#guard_msgs in #print axioms part_115

end Cert.KernelIdeal.Body

end
-- ==== Proof.Parts.L117.lean ====
/-
  Part 117 of the body ends wait group 22 (round 1, group 2, third exchange): the third wait on its send cell hands back the
  three accumulator tiles of group 2 at their last level of round 1, the third wait on its receive cell hands over the three
  receive tiles holding the partners' tiles of that level. It then reads parts 0 and 1's accumulator and receive tiles and
  returns the group's block of the residual stream after attention, the batch entry's row of the feed-forward gate, and the
  all-reduced sums of parts 0 and 1 as 256 × 256 matrices.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem local_117 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 75) W)
        ∗ cred (tallyAt (sendCell c 20) () N) ∗ cred (tallyAt (recvCell c 20) () N)
        ∗ curCell (sendCell c 20) (fun p => (RdI I).payload (sendCell c 20) 0 p) 2
        ∗ curCell (recvCell c 20) (fun p => (RdI I).payload (recvCell c 20) 0 p) 2 ∗ P) : sProp (MT nD τ sig Unit (Elt F) ℕ UU ℕ))
      ⊢ wp frame (wpE (defs₀ (F := F)) 𝒱₀ (c : Thread nD τ) none) Set.univ
        (k0_part117 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lv25 I c) (Vals.lv1805 I c) (Vals.lw2703 c))
        (fun tup => iprop(⌜tup = ⟨Vals.lv2924 I c, Vals.lv2927 I c, Vals.lv2932 I c, Vals.lv2937 I c⟩⌝ ∗ records (RdI I) K ∗ levAts Proto.L Proto.lv ∗ (∃ W, owes (c : Thread nD τ) (owedFrom c 75) W)
          ∗ curCell (sendCell c 20) (fun p => (RdI I).payload (sendCell c 20) 0 p) 3
          ∗ curCell (recvCell c 20) (fun p => (RdI I).payload (recvCell c 20) 0 p) 3
          ∗ accTile c 2 0 (Vals.A I 1 c 2 0 2) ∗ accTile c 2 1 (Vals.A I 1 c 2 1 2) ∗ accTile c 2 2 (Vals.A I 1 c 2 2 2)
          ∗ rsTile c 6 0 2 (Vals.R I 1 c 2 0 2) ∗ rsTile c 6 1 2 (Vals.R I 1 c 2 1 2) ∗ rsTile c 6 2 2 (Vals.R I 1 c 2 2 2) ∗ P)) := by
  unfold accTile rsTile Proto.accPts Proto.rsPts
  iintro ⟨#HR, #Hlev, ⟨%W, HO⟩, Cs, Cr, Hs, Hr, HP⟩
  ihave #HIs := (inv_at (RdI I) K (c, Cell.send 20)) $$ HR
  ihave #HIr := (inv_at (RdI I) K (c, Cell.recv 20)) $$ HR
  sl_unfold [k0_part117]
  sl_exec
  -- the third wait on send cell 20: the rest of its round, the three source tiles back
  iapply (wp_wait3 (RdI I) c (sendS 20) (duties_send _ _ c 20) (expect_send _ _ c 20) (hw := fun _ => rfl)) $$ [HO Cs Hs]
  · isplitr; · iexact HIs
    isplitl [Cs]; · iexact Cs
    isplitl [HO]; · iexact HO
    isplitr
    · iapply (mayWait_sendAt (F := F) c 20); iexact Hlev
    iexact Hs
  iintro ⟨HO, Hs, Ha0, Ha1, Ha2⟩
  have es : ∀ p : Fin 3, ((RdI I).payload ((c : Thread nD τ), SemLoc.dma (sendS 20)) 0 p : sProp (MT nD τ sig Unit (Elt F) ℕ UU ℕ))
      ⊢ ((Proto.accSl 2 p).view.loc (c : Thread nD τ) ↦[(Proto.accSl 2 p).view.set]{fullShare} accEmb 2 p (Vals.A I 1 c 2 p 2)) :=
    fun p => Entails.of_eq (payload_send_tile I c 20 p)
  ihave Ha0 := (es 0) $$ Ha0
  ihave Ha1 := (es 1) $$ Ha1
  ihave Ha2 := (es 2) $$ Ha2
  sl_exec
  -- the third wait on receive cell 20: the rest of its round, the three receive tiles at what landed in them
  iapply (wp_wait3 (RdI I) c (recvS 20) (duties_recv _ _ c 20) (expect_recv _ _ c 20) (hw := fun _ => rfl)) $$ [HO Cr Hr]
  · isplitr; · iexact HIr
    isplitl [Cr]; · iexact Cr
    isplitl [HO]; · iexact HO
    isplitr
    · iapply (mayWait_recvAt (F := F) c 20); iexact Hlev
    iexact Hr
  iintro ⟨HO, Hr, Hb0, Hb1, Hb2⟩
  have er : ∀ p : Fin 3, ((RdI I).payload ((c : Thread nD τ), SemLoc.dma (recvS 20)) 0 p : sProp (MT nD τ sig Unit (Elt F) ℕ UU ℕ))
      ⊢ ((Proto.rsSl 6 p 2).view.loc (c : Thread nD τ) ↦[(Proto.rsSl 6 p 2).view.set]{fullShare} rsEmb 6 p 2 (Vals.R I 1 c 2 p 2)) :=
    fun p => Entails.of_eq (payload_recv_tile I c 20 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![2, 0, 0, 0] S1x1x256x256.size inb_S4x3x256x256_S1x1x256x256_2_0_0_0).toLoadRect (accEmb 2 0 (Vals.A I 1 c 2 0 2)) = Vals.A I 1 c 2 0 2 := accV_read_accEmb 2 0 _
    have e2 : View.readAt (Elt F) (Memref.whole cc0_scratch1).view (Rect.unit (s := S8x3x3x256x256) ![6, 0, 2, 0, 0] S1x1x1x256x256.size inb_S8x3x3x256x256_S1x1x1x256x256_6_0_2_0_0).toLoadRect (rsEmb 6 0 2 (Vals.R I 1 c 2 0 2)) = Vals.R I 1 c 2 0 2 := rsV_read_rsEmb 6 0 2 _
    have e3 : View.readAt (Elt F) (Memref.whole cc0_scratch0).view (Rect.unit (s := S4x3x256x256) ![2, 1, 0, 0] S1x1x256x256.size inb_S4x3x256x256_S1x1x256x256_2_1_0_0).toLoadRect (accEmb 2 1 (Vals.A I 1 c 2 1 2)) = Vals.A I 1 c 2 1 2 := accV_read_accEmb 2 1 _
    have e4 : View.readAt (Elt F) (Memref.whole cc0_scratch1).view (Rect.unit (s := S8x3x3x256x256) ![6, 1, 2, 0, 0] S1x1x1x256x256.size inb_S8x3x3x256x256_S1x1x1x256x256_6_1_2_0_0).toLoadRect (rsEmb 6 1 2 (Vals.R I 1 c 2 1 2)) = Vals.R I 1 c 2 1 2 := rsV_read_rsEmb 6 1 2 _
    rw [e1, e2, e3, e4]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.KernelIdeal.Body.local_117' depends on axioms: [propext, Classical.choice, Quot.sound] -/
#guard_msgs in #print axioms local_117

end Cert.KernelIdeal.Body
-- ==== Proof.Parts.Part117.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L117
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 117 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 117 of the body, run from the place before it, ends at the place after it and returns its values; whatever else is held is kept. -/
theorem part_117 (m : (ℓ : Loc nD τ sig) → Buf (Elt F) ℓ) (K : Dev nD × Cell → ℕ) (c : Dev nD) (Fr : sProp 𝕄) :
    iprop(St (insM m) K (σ 116) c ∗ outHeld (insM m) c (σ 116).outs ∗ Fr)
      ⊢ wp frame (wpE (defs₀ (F := F)) 𝒱₀ (c : Thread nD τ) none) Set.univ
          (k0_part117 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv25 (insM m) c) (Vals.lv1805 (insM m) c) (Vals.lw2703 c))
          (fun tup => iprop(⌜tup = ⟨Vals.lv2924 (insM m) c, Vals.lv2927 (insM m) c, Vals.lv2932 (insM m) c, Vals.lv2937 (insM m) c⟩⌝ ∗ St (insM m) K (σ 117) c ∗ outHeld (insM m) c (σ 117).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 71 : sProp (MT nD τ sig Unit (Elt F) ℕ UU ℕ)) = iprop(credFrom c 72 ∗ cred (tallyAt (recvCell c 20) () N)) := by
    rw [credFrom_succ c 71 (by omega), show ownCell c 71 = recvCell c 20 from ownCell_fire c 22 2, show dueAmt 71 = N from dueAmt_fire 22 2]
  have hd : (doneTo c 47 : sProp (MT nD τ sig Unit (Elt F) ℕ UU ℕ))
      = iprop(doneTo c 45 ∗ curCell (sendCell c 20) (fun p => (RdI (insM m)).payload (sendCell c 20) 0 p) 3
          ∗ curCell (recvCell c 20) (fun p => (RdI (insM m)).payload (recvCell c 20) 0 p) 3) := (done_group c 22).symm
  have hb : (rsBack (insM m) c 23 : sProp (MT nD τ sig Unit (Elt F) ℕ UU ℕ))
      = iprop((rsTile c 6 0 2 (Vals.R (insM m) 1 c 2 0 2) ∗ rsTile c 6 1 2 (Vals.R (insM m) 1 c 2 1 2) ∗ rsTile c 6 2 2 (Vals.R (insM m) 1 c 2 2 2))
          ∗ rsBack (insM m) c 22) := rsBack_succ (insM m) c 22
  rw [St_open_116, St_open_117, hc, hd, hb, show (σ 116).outs = (σ 117).outs from rfl]
  simp only [hemp, hemp']
  refine BIBase.Entails.trans (Entails.of_eq ?_) (BIBase.Entails.trans
    (local_117 (insM m) K c
      (iprop(toksFrom c 75
        ∗ credFrom c 72
        ∗ cred (tallyAt (sendCell c 23) () N)
        ∗ cred (tallyAt (sendCell c 23) () N)
        ∗ cred (tallyAt (sendCell c 23) () N)
        ∗ doneTo c 45
        ∗ todoFrom c 47
        ∗ foreignFrom c 72
        ∗ rsBack (insM m) c 22
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ outHeld (insM m) c (σ 117).outs
        ∗ Fr)))
    (wp_mono _ _ _ fun tup => Entails.of_eq ?_))
  · ac_rfl
  · ac_rfl

/-- info: 'Cert.KernelIdeal.Body.part_117' depends on axioms: [propext, Classical.choice, Quot.sound] -/
#guard_msgs in #print axioms part_117

end Cert.KernelIdeal.Body

end
-- ==== Proof.Parts.L118.lean ====
/-
  Part 118 of the body reads group 2's part 2 accumulator tile (at its last level of round 1) and the receive tile its last
  partner's copy landed in, stores group 2's output block (batch entry 1, rows 0 to 255) into the output window's buffer, and
  passes the first wait on the send cell of wait group 23 (round 1, group 3, third exchange). The tiles are left as they were;
  the output buffer, whose first two row blocks held the result, now holds it on its first three.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.BodyOut
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

/-- The output buffer after one block store is fixed by the block stored. -/
private theorem out_block_congr (c : Dev nD) (f : Buf (Elt F) ((Memref.whole cc0_stg9_0).view.loc (c : Thread nD τ))) (R : Rect S2x512x768)
    {w w' : R.shape.Idx → Elt F .f32} (h : w = w') :
    (((Memref.whole cc0_stg9_0).view.loc (c : Thread nD τ)) ↦{fullShare} (Memref.whole cc0_stg9_0).view.writes (Elt F) f [⟨R, w⟩] : sProp (MT nD τ sig Unit (Elt F) ℕ UU ℕ))
      ⊢ (((Memref.whole cc0_stg9_0).view.loc (c : Thread nD τ)) ↦{fullShare} (Memref.whole cc0_stg9_0).view.writes (Elt F) f [⟨R, w'⟩]) := by
  subst h; exact .rfl

/-- The part over any whole memref that is the output window's staging buffer. -/
private theorem local_118_at (I : Dev nD → Vals.Ins F) (K : Dev nD × Cell → ℕ) (c : Dev nD) (P : sProp (MT nD τ sig Unit (Elt F) ℕ UU ℕ))
    (m9 : Memref sig .tc .vmem S2x512x768 .f32) (h9 : m9.IsWhole) (hm : m9 = Memref.whole cc0_stg9_0) :
    (iprop(records (RdI I) K ∗ levAts Proto.L Proto.lv ∗ (∃ W, owes (c : Thread nD τ) (owedFrom c 75) W)
        ∗ cred (tallyAt (sendCell c 23) () N)
        ∗ curCell (sendCell c 23) (fun p => (RdI I).payload (sendCell c 23) 0 p) 0
        ∗ accTile c 2 2 (Vals.A I 1 c 2 2 2) ∗ rsTile c 6 2 2 (Vals.R I 1 c 2 2 2)
        ∗ outHeld I c 2 ∗ P) : sProp (MT nD τ sig Unit (Elt F) ℕ UU ℕ))
      ⊢ wp frame (wpE (defs₀ (F := F)) 𝒱₀ (c : Thread nD τ) none) Set.univ
        (k0_part118 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) m9 h9 (Memref.whole cc0_scratch0) (Memref.isWhole_whole _) (Memref.whole cc0_scratch1) (Memref.isWhole_whole _) cc0_scratch2 cc0_scratch3 cc0_scoped0
          (Vals.lw2849 c) (Vals.lv2924 I c) (Vals.lv2927 I c) (Vals.lv2932 I c) (Vals.lv2937 I c))
        (fun _ => iprop(records (RdI I) K ∗ levAts Proto.L Proto.lv ∗ (∃ W, owes (c : Thread nD τ) (owedFrom c 75) W)
          ∗ curCell (sendCell c 23) (fun p => (RdI I).payload (sendCell c 23) 0 p) 1
          ∗ accTile c 2 2 (Vals.A I 1 c 2 2 2) ∗ rsTile c 6 2 2 (Vals.R I 1 c 2 2 2)
          ∗ outHeld I c 3 ∗ P)) := by
  subst hm
  unfold accTile rsTile Proto.accPts Proto.rsPts
  iintro ⟨#HR, #Hlev, ⟨%W, HO⟩, Cs, Hs, Ha, Hb, HOut0, HP⟩
  have hopen : (outHeld I c 2 : sProp (MT nD τ sig Unit (Elt F) ℕ UU ℕ)) ⊢ iprop(∃ f : (cc0_stg9_0 : Ref sig .tc).ty.Contents (Elt F),
      ⌜∀ j : S2x512x768.Idx, outBlockOf j < 2 → f j = Vals.outC I c j⌝ ∗ (((c : Thread nD τ).loc cc0_stg9_0) ↦{fullShare} f)) := Entails.of_eq rfl
  ihave ⟨%f, %hf, HOut⟩ := hopen $$ HOut0
  have eo : (((c : Thread nD τ).loc cc0_stg9_0) ↦{fullShare} f : sProp (MT nD τ sig Unit (Elt F) ℕ UU ℕ)) ⊢ (((Memref.whole cc0_stg9_0).view.loc (c : Thread nD τ)) ↦{fullShare} f) := Entails.of_eq rfl
  ihave HOut := eo $$ HOut
  ihave #HIs := (inv_at (RdI I) K (c, Cell.send 23)) $$ HR
  sl_unfold [k0_part118]
  sl_exec
  -- the first wait on send cell 23
  iapply (wp_wait1 (RdI I) c (sendS 23) (hw := fun _ => rfl)) $$ [HO Cs Hs]
  · isplitr; · iexact HIs
    isplitl [Cs]; · iexact Cs
    isplitl [HO]; · iexact HO
    isplitr
    · iapply (mayWait_sendAt (F := F) c 23); iexact Hlev
    iexact Hs
  iintro ⟨HO, Hs⟩
  sl_exec
  sl_step
  sl_unfold_run_names
  isplitr; · iexact HR
  isplitr; · iexact Hlev
  isplitl [HO]; · iexists _; iexact HO
  isplitl [Hs]; · iexact Hs
  isplitl [Ha]; · iexact Ha
  isplitl [Hb]; · iexact Hb
  isplitl [HOut]
  · have hst : (((Memref.whole cc0_stg9_0).view.loc (c : Thread nD τ)) ↦{fullShare}
          (Memref.whole cc0_stg9_0).view.writes (Elt F) f [⟨(Rect.unit (s := S2x512x768) ![1, 0, 0] S1x256x768.size inb_S2x512x768_S1x256x768_1_0_0), Vals.outBlk I c 2⟩] : sProp (MT nD τ sig Unit (Elt F) ℕ UU ℕ))
        ⊢ outHeld I c 3 := outHeld_store I c 1 0 inb_S2x512x768_S1x256x768_1_0_0 f hf
    iapply hst
    iapply (out_block_congr c f (Rect.unit (s := S2x512x768) ![1, 0, 0] S1x256x768.size inb_S2x512x768_S1x256x768_1_0_0))
    all_goals first | iexact HOut | skip
    have a2 : View.readAt (Elt F) (Memref.whole cc0_scratch0).view (Rect.unit (s := S4x3x256x256) ![2, 2, 0, 0] S1x1x256x256.size inb_S4x3x256x256_S1x1x256x256_2_2_0_0).toLoadRect (accEmb 2 2 (Vals.A I 1 c 2 2 2)) = Vals.A I 1 c 2 2 2 := accV_read_accEmb 2 2 _
    have b2 : View.readAt (Elt F) (Memref.whole cc0_scratch1).view (Rect.unit (s := S8x3x3x256x256) ![6, 2, 2, 0, 0] S1x1x1x256x256.size inb_S8x3x3x256x256_S1x1x1x256x256_6_2_2_0_0).toLoadRect (rsEmb 6 2 2 (Vals.R I 1 c 2 2 2)) = Vals.R I 1 c 2 2 2 := rsV_read_rsEmb 6 2 2 _
    rw [a2, b2]
    rfl
  iexact HP

theorem local_118 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 75) W)
        ∗ cred (tallyAt (sendCell c 23) () N)
        ∗ curCell (sendCell c 23) (fun p => (RdI I).payload (sendCell c 23) 0 p) 0
        ∗ accTile c 2 2 (Vals.A I 1 c 2 2 2) ∗ rsTile c 6 2 2 (Vals.R I 1 c 2 2 2)
        ∗ outHeld I c 2 ∗ P) : sProp (MT nD τ sig Unit (Elt F) ℕ UU ℕ))
      ⊢ wp frame (wpE (defs₀ (F := F)) 𝒱₀ (c : Thread nD τ) none) Set.univ
        (k0_part118 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw2849 c) (Vals.lv2924 I c) (Vals.lv2927 I c) (Vals.lv2932 I c) (Vals.lv2937 I c))
        (fun _ => iprop(records (RdI I) K ∗ levAts Proto.L Proto.lv ∗ (∃ W, owes (c : Thread nD τ) (owedFrom c 75) W)
          ∗ curCell (sendCell c 23) (fun p => (RdI I).payload (sendCell c 23) 0 p) 1
          ∗ accTile c 2 2 (Vals.A I 1 c 2 2 2) ∗ rsTile c 6 2 2 (Vals.R I 1 c 2 2 2)
          ∗ outHeld I c 3 ∗ P)) :=
  local_118_at I K c P (win0_9.stage (cfg0.slots t0_0 9)) (hstage0_9 0) rfl

/-- info: 'Cert.KernelIdeal.Body.local_118' depends on axioms: [propext, Classical.choice, Quot.sound] -/
#guard_msgs in #print axioms local_118

end Cert.KernelIdeal.Body
-- ==== Proof.Parts.Part118.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L118
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 118 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 118 of the body, run from the place before it, ends at the place after it; whatever else is held is kept. -/
theorem part_118 (m : (ℓ : Loc nD τ sig) → Buf (Elt F) ℓ) (K : Dev nD × Cell → ℕ) (c : Dev nD) (Fr : sProp 𝕄) :
    iprop(St (insM m) K (σ 117) c ∗ outHeld (insM m) c (σ 117).outs ∗ Fr)
      ⊢ wp frame (wpE (defs₀ (F := F)) 𝒱₀ (c : Thread nD τ) none) Set.univ
          (k0_part118 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2849 c) (Vals.lv2924 (insM m) c) (Vals.lv2927 (insM m) c) (Vals.lv2932 (insM m) c) (Vals.lv2937 (insM m) c))
          (fun _ => iprop(St (insM m) K (σ 118) c ∗ outHeld (insM m) c (σ 118).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht : (todoFrom c 47 : sProp (MT nD τ sig Unit (Elt F) ℕ UU ℕ))
      = iprop(curCell (sendCell c 23) (fun p => (RdI (insM m)).payload (sendCell c 23) 0 p) 0
          ∗ curCell (recvCell c 23) (fun p => (RdI (insM m)).payload (recvCell c 23) 0 p) 0 ∗ todoFrom c 49) := todo_group c 23
  have hb : (rsBack (insM m) c 23 : sProp (MT nD τ sig Unit (Elt F) ℕ UU ℕ))
      = iprop((rsTile c 6 0 2 (Vals.R (insM m) 1 c 2 0 2) ∗ rsTile c 6 1 2 (Vals.R (insM m) 1 c 2 1 2) ∗ rsTile c 6 2 2 (Vals.R (insM m) 1 c 2 2 2))
          ∗ (bigSep ((Finset.univ.filter fun k : Fin 24 => (posK k).val < 23).erase 20) fun k => rs3 (insM m) c k)) := rsBack_at (insM m) c 23 20 (by decide)
  rw [St_open_117, St_open_118, ht, hb, show (σ 117).outs = 2 from rfl, show (σ 118).outs = 3 from rfl]
  simp only [hemp, hemp']
  refine BIBase.Entails.trans (Entails.of_eq ?_) (BIBase.Entails.trans
    (local_118 (insM m) K c
      (iprop(toksFrom c 75
        ∗ credFrom c 72
        ∗ cred (tallyAt (sendCell c 23) () N)
        ∗ cred (tallyAt (sendCell c 23) () N)
        ∗ doneTo c 47
        ∗ curCell (recvCell c 23) (fun p => (RdI (insM m)).payload (recvCell c 23) 0 p) 0
        ∗ todoFrom c 49
        ∗ foreignFrom c 72
        ∗ rsTile c 6 0 2 (Vals.R (insM m) 1 c 2 0 2)
        ∗ rsTile c 6 1 2 (Vals.R (insM m) 1 c 2 1 2)
        ∗ (bigSep ((Finset.univ.filter fun k : Fin 24 => (posK k).val < 23).erase 20) fun k => rs3 (insM m) c k)
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ accTile c 2 0 (Vals.A (insM m) 1 c 2 0 2)
        ∗ accTile c 2 1 (Vals.A (insM m) 1 c 2 1 2)
        ∗ Fr)))
    (wp_mono _ _ _ fun tup => Entails.of_eq ?_))
  · ac_rfl
  · ac_rfl

/-- info: 'Cert.KernelIdeal.Body.part_118' depends on axioms: [propext, Classical.choice, Quot.sound] -/
#guard_msgs in #print axioms part_118

end Cert.KernelIdeal.Body

end
-- ==== Proof.Parts.L120.lean ====
/-
  Part 120 of the body ends wait group 23 (round 1, group 3, third exchange), the last: the third wait on its send cell hands
  back the three accumulator tiles of group 3 at their last level of round 1, the third wait on its receive cell hands over the
  three receive tiles holding the partners' tiles of that level. It then reads parts 0 and 1's accumulator and receive tiles and
  returns the group's block of the residual stream after attention, the batch entry's row of the feed-forward gate, and the
  all-reduced sums of parts 0 and 1 as 256 × 256 matrices.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyWait
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Gen.KernelIdeal.Skeleton
import proofs.«900775_g7700000000000776_dist_diff_dit_htp_i_b2_s512_d768_hq4_v7x_i8_f32_1_alg».proof.Proof.Gen.KernelIdeal.Points
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

theorem local_120 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 75) W)
        ∗ cred (tallyAt (sendCell c 23) () N) ∗ cred (tallyAt (recvCell c 23) () N)
        ∗ curCell (sendCell c 23) (fun p => (RdI I).payload (sendCell c 23) 0 p) 2
        ∗ curCell (recvCell c 23) (fun p => (RdI I).payload (recvCell c 23) 0 p) 2 ∗ P) : sProp (MT nD τ sig Unit (Elt F) ℕ UU ℕ))
      ⊢ wp frame (wpE (defs₀ (F := F)) 𝒱₀ (c : Thread nD τ) none) Set.univ
        (k0_part120 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lv25 I c) (Vals.lv2159 I c) (Vals.lw2871 c))
        (fun tup => iprop(⌜tup = ⟨Vals.lv2993 I c, Vals.lv2996 I c, Vals.lv3001 I c, Vals.lv3006 I c⟩⌝ ∗ records (RdI I) K ∗ levAts Proto.L Proto.lv ∗ (∃ W, owes (c : Thread nD τ) (owedFrom c 75) W)
          ∗ curCell (sendCell c 23) (fun p => (RdI I).payload (sendCell c 23) 0 p) 3
          ∗ curCell (recvCell c 23) (fun p => (RdI I).payload (recvCell c 23) 0 p) 3
          ∗ accTile c 3 0 (Vals.A I 1 c 3 0 2) ∗ accTile c 3 1 (Vals.A I 1 c 3 1 2) ∗ accTile c 3 2 (Vals.A I 1 c 3 2 2)
          ∗ rsTile c 7 0 2 (Vals.R I 1 c 3 0 2) ∗ rsTile c 7 1 2 (Vals.R I 1 c 3 1 2) ∗ rsTile c 7 2 2 (Vals.R I 1 c 3 2 2) ∗ P)) := by
  unfold accTile rsTile Proto.accPts Proto.rsPts
  iintro ⟨#HR, #Hlev, ⟨%W, HO⟩, Cs, Cr, Hs, Hr, HP⟩
  ihave #HIs := (inv_at (RdI I) K (c, Cell.send 23)) $$ HR
  ihave #HIr := (inv_at (RdI I) K (c, Cell.recv 23)) $$ HR
  sl_unfold [k0_part120]
  sl_exec
  -- the third wait on send cell 23: the rest of its round, the three source tiles back
  iapply (wp_wait3 (RdI I) c (sendS 23) (duties_send _ _ c 23) (expect_send _ _ c 23) (hw := fun _ => rfl)) $$ [HO Cs Hs]
  · isplitr; · iexact HIs
    isplitl [Cs]; · iexact Cs
    isplitl [HO]; · iexact HO
    isplitr
    · iapply (mayWait_sendAt (F := F) c 23); iexact Hlev
    iexact Hs
  iintro ⟨HO, Hs, Ha0, Ha1, Ha2⟩
  have es : ∀ p : Fin 3, ((RdI I).payload ((c : Thread nD τ), SemLoc.dma (sendS 23)) 0 p : sProp (MT nD τ sig Unit (Elt F) ℕ UU ℕ))
      ⊢ ((Proto.accSl 3 p).view.loc (c : Thread nD τ) ↦[(Proto.accSl 3 p).view.set]{fullShare} accEmb 3 p (Vals.A I 1 c 3 p 2)) :=
    fun p => Entails.of_eq (payload_send_tile I c 23 p)
  ihave Ha0 := (es 0) $$ Ha0
  ihave Ha1 := (es 1) $$ Ha1
  ihave Ha2 := (es 2) $$ Ha2
  sl_exec
  -- the third wait on receive cell 23: the rest of its round, the three receive tiles at what landed in them
  iapply (wp_wait3 (RdI I) c (recvS 23) (duties_recv _ _ c 23) (expect_recv _ _ c 23) (hw := fun _ => rfl)) $$ [HO Cr Hr]
  · isplitr; · iexact HIr
    isplitl [Cr]; · iexact Cr
    isplitl [HO]; · iexact HO
    isplitr
    · iapply (mayWait_recvAt (F := F) c 23); iexact Hlev
    iexact Hr
  iintro ⟨HO, Hr, Hb0, Hb1, Hb2⟩
  have er : ∀ p : Fin 3, ((RdI I).payload ((c : Thread nD τ), SemLoc.dma (recvS 23)) 0 p : sProp (MT nD τ sig Unit (Elt F) ℕ UU ℕ))
      ⊢ ((Proto.rsSl 7 p 2).view.loc (c : Thread nD τ) ↦[(Proto.rsSl 7 p 2).view.set]{fullShare} rsEmb 7 p 2 (Vals.R I 1 c 3 p 2)) :=
    fun p => Entails.of_eq (payload_recv_tile I c 23 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![3, 0, 0, 0] S1x1x256x256.size inb_S4x3x256x256_S1x1x256x256_3_0_0_0).toLoadRect (accEmb 3 0 (Vals.A I 1 c 3 0 2)) = Vals.A I 1 c 3 0 2 := accV_read_accEmb 3 0 _
    have e2 : View.readAt (Elt F) (Memref.whole cc0_scratch1).view (Rect.unit (s := S8x3x3x256x256) ![7, 0, 2, 0, 0] S1x1x1x256x256.size inb_S8x3x3x256x256_S1x1x1x256x256_7_0_2_0_0).toLoadRect (rsEmb 7 0 2 (Vals.R I 1 c 3 0 2)) = Vals.R I 1 c 3 0 2 := rsV_read_rsEmb 7 0 2 _
    have e3 : View.readAt (Elt F) (Memref.whole cc0_scratch0).view (Rect.unit (s := S4x3x256x256) ![3, 1, 0, 0] S1x1x256x256.size inb_S4x3x256x256_S1x1x256x256_3_1_0_0).toLoadRect (accEmb 3 1 (Vals.A I 1 c 3 1 2)) = Vals.A I 1 c 3 1 2 := accV_read_accEmb 3 1 _
    have e4 : View.readAt (Elt F) (Memref.whole cc0_scratch1).view (Rect.unit (s := S8x3x3x256x256) ![7, 1, 2, 0, 0] S1x1x1x256x256.size inb_S8x3x3x256x256_S1x1x1x256x256_7_1_2_0_0).toLoadRect (rsEmb 7 1 2 (Vals.R I 1 c 3 1 2)) = Vals.R I 1 c 3 1 2 := rsV_read_rsEmb 7 1 2 _
    rw [e1, e2, e3, e4]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.KernelIdeal.Body.local_120' depends on axioms: [propext, Classical.choice, Quot.sound] -/
#guard_msgs in #print axioms local_120

end Cert.KernelIdeal.Body
-- ==== Proof.Parts.Part120.lean ====
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyOpen
import proofs.«900775_g7700000000000776_dist_diff_dit_htp_i_b2_s512_d768_hq4_v7x_i8_f32_1_alg».proof.Proof.Parts.L120
import proofs.«900775_g7700000000000776_dist_diff_dit_htp_i_b2_s512_d768_hq4_v7x_i8_f32_1_alg».proof.Proof.BodyTuples
import proofs.«900775_g7700000000000776_dist_diff_dit_htp_i_b2_s512_d768_hq4_v7x_i8_f32_1_alg».proof.Proof.BodyGlue
import proofs.«900775_g7700000000000776_dist_diff_dit_htp_i_b2_s512_d768_hq4_v7x_i8_f32_1_alg».proof.Proof.Gen.KernelIdeal.Skeleton
import Idealize.ShloMosaic.Lib.Tactic

/-! Part 120 of the body: from the place before it to the place after it. -/

set_option pp.maxSteps 4000
set_option pp.deepTerms false
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mesh Cert.KernelIdeal.LaunchK Cert.KernelIdeal.Proto Cert.KernelIdeal.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 120 of the body, run from the place before it, ends at the place after it and returns its values; whatever else is held is kept. -/
theorem part_120 (m : (ℓ : Loc nD τ sig) → Buf (Elt F) ℓ) (K : Dev nD × Cell → ℕ) (c : Dev nD) (Fr : sProp 𝕄) :
    iprop(St (insM m) K (σ 119) c ∗ outHeld (insM m) c (σ 119).outs ∗ Fr)
      ⊢ wp frame (wpE (defs₀ (F := F)) 𝒱₀ (c : Thread nD τ) none) Set.univ
          (k0_part120 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv25 (insM m) c) (Vals.lv2159 (insM m) c) (Vals.lw2871 c))
          (fun tup => iprop(⌜tup = ⟨Vals.lv2993 (insM m) c, Vals.lv2996 (insM m) c, Vals.lv3001 (insM m) c, Vals.lv3006 (insM m) c⟩⌝ ∗ St (insM m) K (σ 120) c ∗ outHeld (insM m) c (σ 120).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 74 : sProp (MT nD τ sig Unit (Elt F) ℕ UU ℕ)) = iprop(credFrom c 75 ∗ cred (tallyAt (recvCell c 23) () N)) := by
    rw [credFrom_succ c 74 (by omega), show ownCell c 74 = recvCell c 23 from ownCell_fire c 23 2, show dueAmt 74 = N from dueAmt_fire 23 2]
  have hd : (doneTo c 49 : sProp (MT nD τ sig Unit (Elt F) ℕ UU ℕ))
      = iprop(doneTo c 47 ∗ curCell (sendCell c 23) (fun p => (RdI (insM m)).payload (sendCell c 23) 0 p) 3
          ∗ curCell (recvCell c 23) (fun p => (RdI (insM m)).payload (recvCell c 23) 0 p) 3) := (done_group c 23).symm
  have hb : (rsBack (insM m) c 24 : sProp (MT nD τ sig Unit (Elt F) ℕ UU ℕ))
      = iprop((rsTile c 7 0 2 (Vals.R (insM m) 1 c 3 0 2) ∗ rsTile c 7 1 2 (Vals.R (insM m) 1 c 3 1 2) ∗ rsTile c 7 2 2 (Vals.R (insM m) 1 c 3 2 2))
          ∗ rsBack (insM m) c 23) := rsBack_succ (insM m) c 23
  rw [St_open_119, St_open_120, hc, hd, hb, show (σ 119).outs = (σ 120).outs from rfl]
  simp only [hemp, hemp']
  refine BIBase.Entails.trans (Entails.of_eq ?_) (BIBase.Entails.trans
    (local_120 (insM m) K c
      (iprop(toksFrom c 75
        ∗ credFrom c 75
        ∗ doneTo c 47
        ∗ todoFrom c 49
        ∗ foreignFrom c 72
        ∗ rsBack (insM m) c 23
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ accTile c 2 0 (Vals.A (insM m) 1 c 2 0 2)
        ∗ accTile c 2 1 (Vals.A (insM m) 1 c 2 1 2)
        ∗ accTile c 2 2 (Vals.A (insM m) 1 c 2 2 2)
        ∗ outHeld (insM m) c (σ 120).outs
        ∗ Fr)))
    (wp_mono _ _ _ fun tup => Entails.of_eq ?_))
  · ac_rfl
  · ac_rfl

/-- info: 'Cert.KernelIdeal.Body.part_120' depends on axioms: [propext, Classical.choice, Quot.sound] -/
#guard_msgs in #print axioms part_120

end Cert.KernelIdeal.Body

end
-- ==== Proof.Parts.All.lean ====
import proofs.«900775_g7700000000000776_dist_diff_dit_htp_i_b2_s512_d768_hq4_v7x_i8_f32_1_alg».proof.Proof.Parts.Part1
import proofs.«900775_g7700000000000776_dist_diff_dit_htp_i_b2_s512_d768_hq4_v7x_i8_f32_1_alg».proof.Proof.Parts.Part2
import proofs.«900775_g7700000000000776_dist_diff_dit_htp_i_b2_s512_d768_hq4_v7x_i8_f32_1_alg».proof.Proof.Parts.Part3
import proofs.«900775_g7700000000000776_dist_diff_dit_htp_i_b2_s512_d768_hq4_v7x_i8_f32_1_alg».proof.Proof.Parts.Part4
import proofs.«900775_g7700000000000776_dist_diff_dit_htp_i_b2_s512_d768_hq4_v7x_i8_f32_1_alg».proof.Proof.Parts.Part5
import proofs.«900775_g7700000000000776_dist_diff_dit_htp_i_b2_s512_d768_hq4_v7x_i8_f32_1_alg».proof.Proof.Parts.Part6
import proofs.«900775_g7700000000000776_dist_diff_dit_htp_i_b2_s512_d768_hq4_v7x_i8_f32_1_alg».proof.Proof.Parts.Part7
import proofs.«900775_g7700000000000776_dist_diff_dit_htp_i_b2_s512_d768_hq4_v7x_i8_f32_1_alg».proof.Proof.Parts.Part8
import proofs.«900775_g7700000000000776_dist_diff_dit_htp_i_b2_s512_d768_hq4_v7x_i8_f32_1_alg».proof.Proof.Parts.Part9
import proofs.«900775_g7700000000000776_dist_diff_dit_htp_i_b2_s512_d768_hq4_v7x_i8_f32_1_alg».proof.Proof.Parts.Part10
import proofs.«900775_g7700000000000776_dist_diff_dit_htp_i_b2_s512_d768_hq4_v7x_i8_f32_1_alg».proof.Proof.Parts.Part11
import proofs.«900775_g7700000000000776_dist_diff_dit_htp_i_b2_s512_d768_hq4_v7x_i8_f32_1_alg».proof.Proof.Parts.Part12
import proofs.«900775_g7700000000000776_dist_diff_dit_htp_i_b2_s512_d768_hq4_v7x_i8_f32_1_alg».proof.Proof.Parts.Part13
import proofs.«900775_g7700000000000776_dist_diff_dit_htp_i_b2_s512_d768_hq4_v7x_i8_f32_1_alg».proof.Proof.Parts.Part14
import proofs.«900775_g7700000000000776_dist_diff_dit_htp_i_b2_s512_d768_hq4_v7x_i8_f32_1_alg».proof.Proof.Parts.Part15
import proofs.«900775_g7700000000000776_dist_diff_dit_htp_i_b2_s512_d768_hq4_v7x_i8_f32_1_alg».proof.Proof.Parts.Part16
import proofs.«900775_g7700000000000776_dist_diff_dit_htp_i_b2_s512_d768_hq4_v7x_i8_f32_1_alg».proof.Proof.Parts.Part17
import proofs.«900775_g7700000000000776_dist_diff_dit_htp_i_b2_s512_d768_hq4_v7x_i8_f32_1_alg».proof.Proof.Parts.Part18
import proofs.«900775_g7700000000000776_dist_diff_dit_htp_i_b2_s512_d768_hq4_v7x_i8_f32_1_alg».proof.Proof.Parts.Part19
import proofs.«900775_g7700000000000776_dist_diff_dit_htp_i_b2_s512_d768_hq4_v7x_i8_f32_1_alg».proof.Proof.Parts.Part20
import proofs.«900775_g7700000000000776_dist_diff_dit_htp_i_b2_s512_d768_hq4_v7x_i8_f32_1_alg».proof.Proof.Parts.Part21
import proofs.«900775_g7700000000000776_dist_diff_dit_htp_i_b2_s512_d768_hq4_v7x_i8_f32_1_alg».proof.Proof.Parts.Part22
import proofs.«900775_g7700000000000776_dist_diff_dit_htp_i_b2_s512_d768_hq4_v7x_i8_f32_1_alg».proof.Proof.Parts.Part23
import proofs.«900775_g7700000000000776_dist_diff_dit_htp_i_b2_s512_d768_hq4_v7x_i8_f32_1_alg».proof.Proof.Parts.Part24
import proofs.«900775_g7700000000000776_dist_diff_dit_htp_i_b2_s512_d768_hq4_v7x_i8_f32_1_alg».proof.Proof.Parts.Part25
import proofs.«900775_g7700000000000776_dist_diff_dit_htp_i_b2_s512_d768_hq4_v7x_i8_f32_1_alg».proof.Proof.Parts.Part26
import proofs.«900775_g7700000000000776_dist_diff_dit_htp_i_b2_s512_d768_hq4_v7x_i8_f32_1_alg».proof.Proof.Parts.Part27
import proofs.«900775_g7700000000000776_dist_diff_dit_htp_i_b2_s512_d768_hq4_v7x_i8_f32_1_alg».proof.Proof.Parts.Part28
import proofs.«900775_g7700000000000776_dist_diff_dit_htp_i_b2_s512_d768_hq4_v7x_i8_f32_1_alg».proof.Proof.Parts.Part29
import proofs.«900775_g7700000000000776_dist_diff_dit_htp_i_b2_s512_d768_hq4_v7x_i8_f32_1_alg».proof.Proof.Parts.Part30
import proofs.«900775_g7700000000000776_dist_diff_dit_htp_i_b2_s512_d768_hq4_v7x_i8_f32_1_alg».proof.Proof.Parts.Part31
import proofs.«900775_g7700000000000776_dist_diff_dit_htp_i_b2_s512_d768_hq4_v7x_i8_f32_1_alg».proof.Proof.Parts.Part32
import proofs.«900775_g7700000000000776_dist_diff_dit_htp_i_b2_s512_d768_hq4_v7x_i8_f32_1_alg».proof.Proof.Parts.Part33
import proofs.«900775_g7700000000000776_dist_diff_dit_htp_i_b2_s512_d768_hq4_v7x_i8_f32_1_alg».proof.Proof.Parts.Part34
import proofs.«900775_g7700000000000776_dist_diff_dit_htp_i_b2_s512_d768_hq4_v7x_i8_f32_1_alg».proof.Proof.Parts.Part35
import proofs.«900775_g7700000000000776_dist_diff_dit_htp_i_b2_s512_d768_hq4_v7x_i8_f32_1_alg».proof.Proof.Parts.Part36
import proofs.«900775_g7700000000000776_dist_diff_dit_htp_i_b2_s512_d768_hq4_v7x_i8_f32_1_alg».proof.Proof.Parts.Part37
import proofs.«900775_g7700000000000776_dist_diff_dit_htp_i_b2_s512_d768_hq4_v7x_i8_f32_1_alg».proof.Proof.Parts.Part38
import proofs.«900775_g7700000000000776_dist_diff_dit_htp_i_b2_s512_d768_hq4_v7x_i8_f32_1_alg».proof.Proof.Parts.Part39
import proofs.«900775_g7700000000000776_dist_diff_dit_htp_i_b2_s512_d768_hq4_v7x_i8_f32_1_alg».proof.Proof.Parts.Part40
import proofs.«900775_g7700000000000776_dist_diff_dit_htp_i_b2_s512_d768_hq4_v7x_i8_f32_1_alg».proof.Proof.Parts.Part41
import proofs.«900775_g7700000000000776_dist_diff_dit_htp_i_b2_s512_d768_hq4_v7x_i8_f32_1_alg».proof.Proof.Parts.Part42
import proofs.«900775_g7700000000000776_dist_diff_dit_htp_i_b2_s512_d768_hq4_v7x_i8_f32_1_alg».proof.Proof.Parts.Part43
import proofs.«900775_g7700000000000776_dist_diff_dit_htp_i_b2_s512_d768_hq4_v7x_i8_f32_1_alg».proof.Proof.Parts.Part44
import proofs.«900775_g7700000000000776_dist_diff_dit_htp_i_b2_s512_d768_hq4_v7x_i8_f32_1_alg».proof.Proof.Parts.Part45
import proofs.«900775_g7700000000000776_dist_diff_dit_htp_i_b2_s512_d768_hq4_v7x_i8_f32_1_alg».proof.Proof.Parts.Part46
import proofs.«900775_g7700000000000776_dist_diff_dit_htp_i_b2_s512_d768_hq4_v7x_i8_f32_1_alg».proof.Proof.Parts.Part47
import proofs.«900775_g7700000000000776_dist_diff_dit_htp_i_b2_s512_d768_hq4_v7x_i8_f32_1_alg».proof.Proof.Parts.Part48
import proofs.«900775_g7700000000000776_dist_diff_dit_htp_i_b2_s512_d768_hq4_v7x_i8_f32_1_alg».proof.Proof.Parts.Part49
import proofs.«900775_g7700000000000776_dist_diff_dit_htp_i_b2_s512_d768_hq4_v7x_i8_f32_1_alg».proof.Proof.Parts.Part50
import proofs.«900775_g7700000000000776_dist_diff_dit_htp_i_b2_s512_d768_hq4_v7x_i8_f32_1_alg».proof.Proof.Parts.Part51
import proofs.«900775_g7700000000000776_dist_diff_dit_htp_i_b2_s512_d768_hq4_v7x_i8_f32_1_alg».proof.Proof.Parts.Part52
import proofs.«900775_g7700000000000776_dist_diff_dit_htp_i_b2_s512_d768_hq4_v7x_i8_f32_1_alg».proof.Proof.Parts.Part53
import proofs.«900775_g7700000000000776_dist_diff_dit_htp_i_b2_s512_d768_hq4_v7x_i8_f32_1_alg».proof.Proof.Parts.Part54
import proofs.«900775_g7700000000000776_dist_diff_dit_htp_i_b2_s512_d768_hq4_v7x_i8_f32_1_alg».proof.Proof.Parts.Part55
import proofs.«900775_g7700000000000776_dist_diff_dit_htp_i_b2_s512_d768_hq4_v7x_i8_f32_1_alg».proof.Proof.Parts.Part56
import proofs.«900775_g7700000000000776_dist_diff_dit_htp_i_b2_s512_d768_hq4_v7x_i8_f32_1_alg».proof.Proof.Parts.Part57
import proofs.«900775_g7700000000000776_dist_diff_dit_htp_i_b2_s512_d768_hq4_v7x_i8_f32_1_alg».proof.Proof.Parts.Part58
import proofs.«900775_g7700000000000776_dist_diff_dit_htp_i_b2_s512_d768_hq4_v7x_i8_f32_1_alg».proof.Proof.Parts.Part59
import proofs.«900775_g7700000000000776_dist_diff_dit_htp_i_b2_s512_d768_hq4_v7x_i8_f32_1_alg».proof.Proof.Parts.Part60
import proofs.«900775_g7700000000000776_dist_diff_dit_htp_i_b2_s512_d768_hq4_v7x_i8_f32_1_alg».proof.Proof.Parts.Part61
import proofs.«900775_g7700000000000776_dist_diff_dit_htp_i_b2_s512_d768_hq4_v7x_i8_f32_1_alg».proof.Proof.Parts.Part62
import proofs.«900775_g7700000000000776_dist_diff_dit_htp_i_b2_s512_d768_hq4_v7x_i8_f32_1_alg».proof.Proof.Parts.Part63
import proofs.«900775_g7700000000000776_dist_diff_dit_htp_i_b2_s512_d768_hq4_v7x_i8_f32_1_alg».proof.Proof.Parts.Part64
import proofs.«900775_g7700000000000776_dist_diff_dit_htp_i_b2_s512_d768_hq4_v7x_i8_f32_1_alg».proof.Proof.Parts.Part65
import proofs.«900775_g7700000000000776_dist_diff_dit_htp_i_b2_s512_d768_hq4_v7x_i8_f32_1_alg».proof.Proof.Parts.Part66
import proofs.«900775_g7700000000000776_dist_diff_dit_htp_i_b2_s512_d768_hq4_v7x_i8_f32_1_alg».proof.Proof.Parts.Part67
import proofs.«900775_g7700000000000776_dist_diff_dit_htp_i_b2_s512_d768_hq4_v7x_i8_f32_1_alg».proof.Proof.Parts.Part68
import proofs.«900775_g7700000000000776_dist_diff_dit_htp_i_b2_s512_d768_hq4_v7x_i8_f32_1_alg».proof.Proof.Parts.Part69
import proofs.«900775_g7700000000000776_dist_diff_dit_htp_i_b2_s512_d768_hq4_v7x_i8_f32_1_alg».proof.Proof.Parts.Part70
import proofs.«900775_g7700000000000776_dist_diff_dit_htp_i_b2_s512_d768_hq4_v7x_i8_f32_1_alg».proof.Proof.Parts.Part71
import proofs.«900775_g7700000000000776_dist_diff_dit_htp_i_b2_s512_d768_hq4_v7x_i8_f32_1_alg».proof.Proof.Parts.Part72
import proofs.«900775_g7700000000000776_dist_diff_dit_htp_i_b2_s512_d768_hq4_v7x_i8_f32_1_alg».proof.Proof.Parts.Part73
import proofs.«900775_g7700000000000776_dist_diff_dit_htp_i_b2_s512_d768_hq4_v7x_i8_f32_1_alg».proof.Proof.Parts.Part74
import proofs.«900775_g7700000000000776_dist_diff_dit_htp_i_b2_s512_d768_hq4_v7x_i8_f32_1_alg».proof.Proof.Parts.Part75
import proofs.«900775_g7700000000000776_dist_diff_dit_htp_i_b2_s512_d768_hq4_v7x_i8_f32_1_alg».proof.Proof.Parts.Part76
import proofs.«900775_g7700000000000776_dist_diff_dit_htp_i_b2_s512_d768_hq4_v7x_i8_f32_1_alg».proof.Proof.Parts.Part77
import proofs.«900775_g7700000000000776_dist_diff_dit_htp_i_b2_s512_d768_hq4_v7x_i8_f32_1_alg».proof.Proof.Parts.Part78
import proofs.«900775_g7700000000000776_dist_diff_dit_htp_i_b2_s512_d768_hq4_v7x_i8_f32_1_alg».proof.Proof.Parts.Part79
import proofs.«900775_g7700000000000776_dist_diff_dit_htp_i_b2_s512_d768_hq4_v7x_i8_f32_1_alg».proof.Proof.Parts.Part80
import proofs.«900775_g7700000000000776_dist_diff_dit_htp_i_b2_s512_d768_hq4_v7x_i8_f32_1_alg».proof.Proof.Parts.Part81
import proofs.«900775_g7700000000000776_dist_diff_dit_htp_i_b2_s512_d768_hq4_v7x_i8_f32_1_alg».proof.Proof.Parts.Part82
import proofs.«900775_g7700000000000776_dist_diff_dit_htp_i_b2_s512_d768_hq4_v7x_i8_f32_1_alg».proof.Proof.Parts.Part83
import proofs.«900775_g7700000000000776_dist_diff_dit_htp_i_b2_s512_d768_hq4_v7x_i8_f32_1_alg».proof.Proof.Parts.Part84
import proofs.«900775_g7700000000000776_dist_diff_dit_htp_i_b2_s512_d768_hq4_v7x_i8_f32_1_alg».proof.Proof.Parts.Part85
import proofs.«900775_g7700000000000776_dist_diff_dit_htp_i_b2_s512_d768_hq4_v7x_i8_f32_1_alg».proof.Proof.Parts.Part86
import proofs.«900775_g7700000000000776_dist_diff_dit_htp_i_b2_s512_d768_hq4_v7x_i8_f32_1_alg».proof.Proof.Parts.Part87
import proofs.«900775_g7700000000000776_dist_diff_dit_htp_i_b2_s512_d768_hq4_v7x_i8_f32_1_alg».proof.Proof.Parts.Part88
import proofs.«900775_g7700000000000776_dist_diff_dit_htp_i_b2_s512_d768_hq4_v7x_i8_f32_1_alg».proof.Proof.Parts.Part89
import proofs.«900775_g7700000000000776_dist_diff_dit_htp_i_b2_s512_d768_hq4_v7x_i8_f32_1_alg».proof.Proof.Parts.Part90
import proofs.«900775_g7700000000000776_dist_diff_dit_htp_i_b2_s512_d768_hq4_v7x_i8_f32_1_alg».proof.Proof.Parts.Part91
import proofs.«900775_g7700000000000776_dist_diff_dit_htp_i_b2_s512_d768_hq4_v7x_i8_f32_1_alg».proof.Proof.Parts.Part92
import proofs.«900775_g7700000000000776_dist_diff_dit_htp_i_b2_s512_d768_hq4_v7x_i8_f32_1_alg».proof.Proof.Parts.Part93
import proofs.«900775_g7700000000000776_dist_diff_dit_htp_i_b2_s512_d768_hq4_v7x_i8_f32_1_alg».proof.Proof.Parts.Part94
import proofs.«900775_g7700000000000776_dist_diff_dit_htp_i_b2_s512_d768_hq4_v7x_i8_f32_1_alg».proof.Proof.Parts.Part95
import proofs.«900775_g7700000000000776_dist_diff_dit_htp_i_b2_s512_d768_hq4_v7x_i8_f32_1_alg».proof.Proof.Parts.Part96
import proofs.«900775_g7700000000000776_dist_diff_dit_htp_i_b2_s512_d768_hq4_v7x_i8_f32_1_alg».proof.Proof.Parts.Part97
import proofs.«900775_g7700000000000776_dist_diff_dit_htp_i_b2_s512_d768_hq4_v7x_i8_f32_1_alg».proof.Proof.Parts.Part98
import proofs.«900775_g7700000000000776_dist_diff_dit_htp_i_b2_s512_d768_hq4_v7x_i8_f32_1_alg».proof.Proof.Parts.Part99
import proofs.«900775_g7700000000000776_dist_diff_dit_htp_i_b2_s512_d768_hq4_v7x_i8_f32_1_alg».proof.Proof.Parts.Part100
import proofs.«900775_g7700000000000776_dist_diff_dit_htp_i_b2_s512_d768_hq4_v7x_i8_f32_1_alg».proof.Proof.Parts.Part101
import proofs.«900775_g7700000000000776_dist_diff_dit_htp_i_b2_s512_d768_hq4_v7x_i8_f32_1_alg».proof.Proof.Parts.Part102
import proofs.«900775_g7700000000000776_dist_diff_dit_htp_i_b2_s512_d768_hq4_v7x_i8_f32_1_alg».proof.Proof.Parts.Part103
import proofs.«900775_g7700000000000776_dist_diff_dit_htp_i_b2_s512_d768_hq4_v7x_i8_f32_1_alg».proof.Proof.Parts.Part104
import proofs.«900775_g7700000000000776_dist_diff_dit_htp_i_b2_s512_d768_hq4_v7x_i8_f32_1_alg».proof.Proof.Parts.Part105
import proofs.«900775_g7700000000000776_dist_diff_dit_htp_i_b2_s512_d768_hq4_v7x_i8_f32_1_alg».proof.Proof.Parts.Part106
import proofs.«900775_g7700000000000776_dist_diff_dit_htp_i_b2_s512_d768_hq4_v7x_i8_f32_1_alg».proof.Proof.Parts.Part107
import proofs.«900775_g7700000000000776_dist_diff_dit_htp_i_b2_s512_d768_hq4_v7x_i8_f32_1_alg».proof.Proof.Parts.Part108
import proofs.«900775_g7700000000000776_dist_diff_dit_htp_i_b2_s512_d768_hq4_v7x_i8_f32_1_alg».proof.Proof.Parts.Part109
import proofs.«900775_g7700000000000776_dist_diff_dit_htp_i_b2_s512_d768_hq4_v7x_i8_f32_1_alg».proof.Proof.Parts.Part110
import proofs.«900775_g7700000000000776_dist_diff_dit_htp_i_b2_s512_d768_hq4_v7x_i8_f32_1_alg».proof.Proof.Parts.Part111
import proofs.«900775_g7700000000000776_dist_diff_dit_htp_i_b2_s512_d768_hq4_v7x_i8_f32_1_alg».proof.Proof.Parts.Part112
import proofs.«900775_g7700000000000776_dist_diff_dit_htp_i_b2_s512_d768_hq4_v7x_i8_f32_1_alg».proof.Proof.Parts.Part113
import proofs.«900775_g7700000000000776_dist_diff_dit_htp_i_b2_s512_d768_hq4_v7x_i8_f32_1_alg».proof.Proof.Parts.Part114
import proofs.«900775_g7700000000000776_dist_diff_dit_htp_i_b2_s512_d768_hq4_v7x_i8_f32_1_alg».proof.Proof.Parts.Part115
import proofs.«900775_g7700000000000776_dist_diff_dit_htp_i_b2_s512_d768_hq4_v7x_i8_f32_1_alg».proof.Proof.Parts.Part116
import proofs.«900775_g7700000000000776_dist_diff_dit_htp_i_b2_s512_d768_hq4_v7x_i8_f32_1_alg».proof.Proof.Parts.Part117
import proofs.«900775_g7700000000000776_dist_diff_dit_htp_i_b2_s512_d768_hq4_v7x_i8_f32_1_alg».proof.Proof.Parts.Part118
import proofs.«900775_g7700000000000776_dist_diff_dit_htp_i_b2_s512_d768_hq4_v7x_i8_f32_1_alg».proof.Proof.Parts.Part119
import proofs.«900775_g7700000000000776_dist_diff_dit_htp_i_b2_s512_d768_hq4_v7x_i8_f32_1_alg».proof.Proof.Parts.Part120
-- ==== Proof.BodyParts.lean ====
import proofs.«900775_g7700000000000776_dist_diff_dit_htp_i_b2_s512_d768_hq4_v7x_i8_f32_1_alg».proof.Proof.BodySpine
import proofs.«900775_g7700000000000776_dist_diff_dit_htp_i_b2_s512_d768_hq4_v7x_i8_f32_1_alg».proof.Proof.Parts.All

/-! The body's two halves at the arguments the pipeline calls the body with: each is the sequence of its sixty parts' runs, the state
    between two parts the device's protocol state at that place, the output block as far as it is stored, and the nine input blocks. -/

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.LaunchK

variable {F : FTy → Type} [FloatOps F]

/-- What device `c` holds between part `n` and the next: its protocol state there, the output block with the row blocks stored so far, the nine
    input blocks. -/
abbrev Pn (m : (ℓ : Loc nD τ sig) → Buf (Elt F) ℓ) (c : Dev nD) (K : Dev nD × Cell → ℕ) (n : ℕ) : sProp (MT nD τ sig Unit (Elt F) ℕ UU ℕ) :=
  iprop(St (insM m) K (σ n) c ∗ outHeld (insM m) c (σ n).outs ∗ BodyGlue.inputs m c ∗ emp)

/-- Parts 1 to 60 at the body's arguments. -/
theorem half1 (m : (ℓ : Loc nD τ sig) → Buf (Elt F) ℓ) (K : Dev nD × Cell → ℕ) (c : Dev nD) :
    Pn m c K 0 ⊢ wp frame (wpE (defs₀ (F := F)) 𝒱₀ (c : Thread nD τ) none) Set.univ (k0_part121 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = ⟨c, Vals.lw2 c, Vals.lv14 (insM m) c, Vals.lv22 (insM m) c, Vals.lv23 (insM m) c, Vals.lv24 (insM m) c, Vals.lv25 (insM m) c, Vals.lv40 (insM m) c, Vals.lv43 (insM m) c, Vals.lv1139 (insM m) c, Vals.lw1295 c, Vals.lw1306 c, Vals.lw1317 c, Vals.lw1394 c, Vals.lw1405 c, Vals.lw1416 c, Vals.lv1451 (insM m) c, Vals.lw1508 c, Vals.lw1519 c, Vals.lw1530 c⟩⌝ ∗ Pn m c K 60)) :=
  seq121 (insM m) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Pn m c K)
    (part_1 m K c iprop(emp))
    (part_2 m K c iprop(emp))
    (part_3 m K c iprop(BodyGlue.inputs m c ∗ emp))
    (part_4 m K c iprop(BodyGlue.inputs m c ∗ emp))
    (part_5 m K c iprop(BodyGlue.inputs m c ∗ emp))
    (part_6 m K c iprop(BodyGlue.inputs m c ∗ emp))
    (part_7 m K c iprop(BodyGlue.inputs m c ∗ emp))
    (part_8 m K c iprop(BodyGlue.inputs m c ∗ emp))
    (part_9 m K c iprop(BodyGlue.inputs m c ∗ emp))
    (part_10 m K c iprop(BodyGlue.inputs m c ∗ emp))
    (part_11 m K c iprop(BodyGlue.inputs m c ∗ emp))
    (part_12 m K c iprop(BodyGlue.inputs m c ∗ emp))
    (part_13 m K c iprop(BodyGlue.inputs m c ∗ emp))
    (part_14 m K c iprop(BodyGlue.inputs m c ∗ emp))
    (part_15 m K c iprop(BodyGlue.inputs m c ∗ emp))
    (part_16 m K c iprop(BodyGlue.inputs m c ∗ emp))
    (part_17 m K c iprop(BodyGlue.inputs m c ∗ emp))
    (part_18 m K c iprop(BodyGlue.inputs m c ∗ emp))
    (part_19 m K c iprop(BodyGlue.inputs m c ∗ emp))
    (part_20 m K c iprop(BodyGlue.inputs m c ∗ emp))
    (part_21 m K c iprop(BodyGlue.inputs m c ∗ emp))
    (part_22 m K c iprop(BodyGlue.inputs m c ∗ emp))
    (part_23 m K c iprop(BodyGlue.inputs m c ∗ emp))
    (part_24 m K c iprop(BodyGlue.inputs m c ∗ emp))
    (part_25 m K c iprop(BodyGlue.inputs m c ∗ emp))
    (part_26 m K c iprop(BodyGlue.inputs m c ∗ emp))
    (part_27 m K c iprop(BodyGlue.inputs m c ∗ emp))
    (part_28 m K c iprop(BodyGlue.inputs m c ∗ emp))
    (part_29 m K c iprop(BodyGlue.inputs m c ∗ emp))
    (part_30 m K c iprop(BodyGlue.inputs m c ∗ emp))
    (part_31 m K c iprop(BodyGlue.inputs m c ∗ emp))
    (part_32 m K c iprop(BodyGlue.inputs m c ∗ emp))
    (part_33 m K c iprop(BodyGlue.inputs m c ∗ emp))
    (part_34 m K c iprop(BodyGlue.inputs m c ∗ emp))
    (part_35 m K c iprop(BodyGlue.inputs m c ∗ emp))
    (part_36 m K c iprop(BodyGlue.inputs m c ∗ emp))
    (part_37 m K c iprop(BodyGlue.inputs m c ∗ emp))
    (part_38 m K c iprop(BodyGlue.inputs m c ∗ emp))
    (part_39 m K c iprop(BodyGlue.inputs m c ∗ emp))
    (part_40 m K c iprop(BodyGlue.inputs m c ∗ emp))
    (part_41 m K c iprop(BodyGlue.inputs m c ∗ emp))
    (part_42 m K c iprop(BodyGlue.inputs m c ∗ emp))
    (part_43 m K c iprop(BodyGlue.inputs m c ∗ emp))
    (part_44 m K c iprop(BodyGlue.inputs m c ∗ emp))
    (part_45 m K c iprop(BodyGlue.inputs m c ∗ emp))
    (part_46 m K c iprop(BodyGlue.inputs m c ∗ emp))
    (part_47 m K c iprop(BodyGlue.inputs m c ∗ emp))
    (part_48 m K c iprop(BodyGlue.inputs m c ∗ emp))
    (part_49 m K c iprop(BodyGlue.inputs m c ∗ emp))
    (part_50 m K c iprop(BodyGlue.inputs m c ∗ emp))
    (part_51 m K c iprop(BodyGlue.inputs m c ∗ emp))
    (part_52 m K c iprop(BodyGlue.inputs m c ∗ emp))
    (part_53 m K c iprop(BodyGlue.inputs m c ∗ emp))
    (part_54 m K c iprop(BodyGlue.inputs m c ∗ emp))
    (part_55 m K c iprop(BodyGlue.inputs m c ∗ emp))
    (part_56 m K c iprop(BodyGlue.inputs m c ∗ emp))
    (part_57 m K c iprop(BodyGlue.inputs m c ∗ emp))
    (part_58 m K c iprop(BodyGlue.inputs m c ∗ emp))
    (part_59 m K c iprop(BodyGlue.inputs m c ∗ emp))
    (part_60 m K c iprop(BodyGlue.inputs m c ∗ emp))

/-- Parts 61 to 120 at the body's arguments. -/
theorem half2 (m : (ℓ : Loc nD τ sig) → Buf (Elt F) ℓ) (K : Dev nD × Cell → ℕ) (c : Dev nD) :
    Pn m c K 60 ⊢ wp frame (wpE (defs₀ (F := F)) 𝒱₀ (c : Thread nD τ) none) Set.univ (k0_part122 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv14 (insM m) c) (Vals.lv22 (insM m) c) (Vals.lv23 (insM m) c) (Vals.lv24 (insM m) c) (Vals.lv25 (insM m) c) (Vals.lv40 (insM m) c) (Vals.lv43 (insM m) c) (Vals.lv1139 (insM m) c) (Vals.lw1295 c) (Vals.lw1306 c) (Vals.lw1317 c) (Vals.lw1394 c) (Vals.lw1405 c) (Vals.lw1416 c) (Vals.lv1451 (insM m) c) (Vals.lw1508 c) (Vals.lw1519 c) (Vals.lw1530 c))
        (fun tup => iprop(⌜tup = ⟨Vals.lv2993 (insM m) c, Vals.lv2996 (insM m) c, Vals.lv3001 (insM m) c, Vals.lv3006 (insM m) c⟩⌝ ∗ Pn m c K 120)) :=
  seq122 (insM m) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Pn m c K)
    (part_61 m K c iprop(BodyGlue.inputs m c ∗ emp))
    (part_62 m K c iprop(BodyGlue.inputs m c ∗ emp))
    (part_63 m K c iprop(BodyGlue.inputs m c ∗ emp))
    (part_64 m K c iprop(BodyGlue.inputs m c ∗ emp))
    (part_65 m K c iprop(BodyGlue.inputs m c ∗ emp))
    (part_66 m K c iprop(BodyGlue.inputs m c ∗ emp))
    (part_67 m K c iprop(BodyGlue.inputs m c ∗ emp))
    (part_68 m K c iprop(BodyGlue.inputs m c ∗ emp))
    (part_69 m K c iprop(BodyGlue.inputs m c ∗ emp))
    (part_70 m K c iprop(BodyGlue.inputs m c ∗ emp))
    (part_71 m K c iprop(BodyGlue.inputs m c ∗ emp))
    (part_72 m K c iprop(BodyGlue.inputs m c ∗ emp))
    (part_73 m K c iprop(BodyGlue.inputs m c ∗ emp))
    (part_74 m K c iprop(BodyGlue.inputs m c ∗ emp))
    (part_75 m K c iprop(BodyGlue.inputs m c ∗ emp))
    (part_76 m K c iprop(BodyGlue.inputs m c ∗ emp))
    (part_77 m K c iprop(BodyGlue.inputs m c ∗ emp))
    (part_78 m K c iprop(BodyGlue.inputs m c ∗ emp))
    (part_79 m K c iprop(BodyGlue.inputs m c ∗ emp))
    (part_80 m K c iprop(BodyGlue.inputs m c ∗ emp))
    (part_81 m K c iprop(BodyGlue.inputs m c ∗ emp))
    (part_82 m K c iprop(BodyGlue.inputs m c ∗ emp))
    (part_83 m K c iprop(BodyGlue.inputs m c ∗ emp))
    (part_84 m K c iprop(BodyGlue.inputs m c ∗ emp))
    (part_85 m K c iprop(BodyGlue.inputs m c ∗ emp))
    (part_86 m K c iprop(BodyGlue.inputs m c ∗ emp))
    (part_87 m K c iprop(BodyGlue.inputs m c ∗ emp))
    (part_88 m K c iprop(BodyGlue.inputs m c ∗ emp))
    (part_89 m K c iprop(BodyGlue.inputs m c ∗ emp))
    (part_90 m K c iprop(BodyGlue.inputs m c ∗ emp))
    (part_91 m K c iprop(BodyGlue.inputs m c ∗ emp))
    (part_92 m K c iprop(BodyGlue.inputs m c ∗ emp))
    (part_93 m K c iprop(BodyGlue.inputs m c ∗ emp))
    (part_94 m K c iprop(BodyGlue.inputs m c ∗ emp))
    (part_95 m K c iprop(BodyGlue.inputs m c ∗ emp))
    (part_96 m K c iprop(BodyGlue.inputs m c ∗ emp))
    (part_97 m K c iprop(BodyGlue.inputs m c ∗ emp))
    (part_98 m K c iprop(BodyGlue.inputs m c ∗ emp))
    (part_99 m K c iprop(BodyGlue.inputs m c ∗ emp))
    (part_100 m K c iprop(BodyGlue.inputs m c ∗ emp))
    (part_101 m K c iprop(BodyGlue.inputs m c ∗ emp))
    (part_102 m K c iprop(BodyGlue.inputs m c ∗ emp))
    (part_103 m K c iprop(BodyGlue.inputs m c ∗ emp))
    (part_104 m K c iprop(BodyGlue.inputs m c ∗ emp))
    (part_105 m K c iprop(BodyGlue.inputs m c ∗ emp))
    (part_106 m K c iprop(BodyGlue.inputs m c ∗ emp))
    (part_107 m K c iprop(BodyGlue.inputs m c ∗ emp))
    (part_108 m K c iprop(BodyGlue.inputs m c ∗ emp))
    (part_109 m K c iprop(BodyGlue.inputs m c ∗ emp))
    (part_110 m K c iprop(BodyGlue.inputs m c ∗ emp))
    (part_111 m K c iprop(BodyGlue.inputs m c ∗ emp))
    (part_112 m K c iprop(BodyGlue.inputs m c ∗ emp))
    (part_113 m K c iprop(BodyGlue.inputs m c ∗ emp))
    (part_114 m K c iprop(BodyGlue.inputs m c ∗ emp))
    (part_115 m K c iprop(BodyGlue.inputs m c ∗ emp))
    (part_116 m K c iprop(BodyGlue.inputs m c ∗ emp))
    (part_117 m K c iprop(BodyGlue.inputs m c ∗ emp))
    (part_118 m K c iprop(BodyGlue.inputs m c ∗ emp))
    (part_119 m K c iprop(BodyGlue.inputs m c ∗ emp))
    (part_120 m K c iprop(BodyGlue.inputs m c ∗ emp))

end Cert.KernelIdeal.Body

end
-- ==== Proof.LaunchFrame.lean ====
import proofs.«900775_g7700000000000776_dist_diff_dit_htp_i_b2_s512_d768_hq4_v7x_i8_f32_1_alg».proof.Proof.LaunchK

/-! # The frame from the run: the run's post with the result's value dropped -/

noncomputable section

namespace Cert.KernelIdeal.LaunchFrame

open Cert.KernelIdeal Cert.KernelIdeal.Gen Cert.KernelIdeal.LaunchK

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every weakly fair execution of @main terminates, nothing faulting, and the nine argument arrays of every device end
    as launched: the run with what it says of the result array forgotten. -/
theorem frame_of_run (I : Iface F) (outC : (c : Dev nD) → (cc0_stg9_0 : Ref sig .tc).ty.Contents (Elt F))
    (hbody : ∀ c, BodyObligation (dats m I.start I.O₀ outC 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ I outC hbody)

end Cert.KernelIdeal.LaunchFrame

end
-- ==== Proof.BodyRun.lean ====
import proofs.«900775_g7700000000000776_dist_diff_dit_htp_i_b2_s512_d768_hq4_v7x_i8_f32_1_alg».proof.Proof.BodyParts
import proofs.«900775_g7700000000000776_dist_diff_dit_htp_i_b2_s512_d768_hq4_v7x_i8_f32_1_alg».proof.Proof.LaunchFrame

/-! # The body's run, and the kernel's

The body on one device: it enters the protocol's first state, runs its two halves, then its own last statements; the
result is the library's body obligation, and the launch turns the eight obligations into the run of the program: every
device's result array ends holding the output block's final contents, its nine argument arrays what they held. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.LaunchK

variable {F : FTy → Type} [FloatOps F]

/-- The body as the pipeline calls it at the one grid point is the kernel function at these arguments. -/
theorem bodyAt0_eq : bodyAt0 (F := F) t0_0 = cc0__body (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 := by
  unfold bodyAt0
  rfl

/-- The body on device `c`: from what the pipeline hands it to what it takes back, given the entry into the protocol's first
    state and the run of the body's own last statements from its last. -/
theorem sound_body (m : (ℓ : Loc nD τ sig) → Buf (Elt F) ℓ) (c : Dev nD)
    (henter : BodyGlue.bodyPre m (Proto.iface (accCI (insM m)) (rs0I (insM m))).start (Proto.iface (accCI (insM m)) (rs0I (insM m))).O₀ c ⊢ iprop(∃ K, Pn m c K 0))
    (htail : ∀ K, Pn m c K 120 ⊢ wp frame (wpE (defs₀ (F := F)) 𝒱₀ (c : Thread nD τ) none) Set.univ
        (spineTail (win0_9.stage (cfg0.slots t0_0 9)) (Memref.whole cc0_scratch0) (Memref.whole cc0_scratch1) cc0_scoped0 c (tailW (insM m) c))
        (fun _ => BodyGlue.bodyPost m (Vals.outC (insM m)) c)) :
    BodyGlue.bodyPre m (Proto.iface (accCI (insM m)) (rs0I (insM m))).start (Proto.iface (accCI (insM m)) (rs0I (insM m))).O₀ c
      ⊢ wp frame (wpE (defs₀ (F := F)) 𝒱₀ (c : Thread nD τ) none) Set.univ (bodyAt0 t0_0) (fun _ => BodyGlue.bodyPost m (Vals.outC (insM m)) c) := by
  rw [bodyAt0_eq]
  exact spine (insM m) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
    (BodyGlue.bodyPre m (Proto.iface (accCI (insM m)) (rs0I (insM m))).start (Proto.iface (accCI (insM m)) (rs0I (insM m))).O₀ c) (BodyGlue.bodyPost m (Vals.outC (insM m)) c) (Pn m c)
    henter (fun K => half1 m K c) (fun K => half2 m K c) htail

section Kernel

variable (m : (ℓ : Loc nD τ sig) → Buf (Elt F) ℓ) (ρ : Dev nD → PrngReg)

/-- The program's run: every device's result array ends at the output block's final contents, its argument arrays as launched. -/
theorem run_kernel
    (henter : ∀ c, BodyGlue.bodyPre m (Proto.iface (accCI (insM m)) (rs0I (insM m))).start (Proto.iface (accCI (insM m)) (rs0I (insM m))).O₀ c ⊢ iprop(∃ K, Pn m c K 0))
    (htail : ∀ c K, Pn m c K 120 ⊢ wp frame (wpE (defs₀ (F := F)) 𝒱₀ (c : Thread nD τ) none) Set.univ
        (spineTail (win0_9.stage (cfg0.slots t0_0 9)) (Memref.whole cc0_scratch0) (Memref.whole cc0_scratch1) cc0_scoped0 c (tailW (insM m) c))
        (fun _ => BodyGlue.bodyPost m (Vals.outC (insM m)) c)) :
    θ_run defs (onTc (τ := τ) (main (F := F))) ⟨m, fun _ => 0, ρ⟩ (fun r => ∀ c : Dev nD,
      r.2.mem ((c.tc : Thread nD τ).loc main_v1) = Vals.outC (insM m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  LaunchK.run_main m ρ (Proto.iface (accCI (insM m)) (rs0I (insM m))) (Vals.outC (insM m))
    (fun c => BodyGlue.body_obligation m (Proto.iface (accCI (insM m)) (rs0I (insM m))).start (Proto.iface (accCI (insM m)) (rs0I (insM m))).O₀ (Vals.outC (insM m)) c (sound_body m c (henter c) (htail c)))

/-- The frame: the run with what it says of the result array forgotten. -/
theorem frame_kernel
    (henter : ∀ c, BodyGlue.bodyPre m (Proto.iface (accCI (insM m)) (rs0I (insM m))).start (Proto.iface (accCI (insM m)) (rs0I (insM m))).O₀ c ⊢ iprop(∃ K, Pn m c K 0))
    (htail : ∀ c K, Pn m c K 120 ⊢ wp frame (wpE (defs₀ (F := F)) 𝒱₀ (c : Thread nD τ) none) Set.univ
        (spineTail (win0_9.stage (cfg0.slots t0_0 9)) (Memref.whole cc0_scratch0) (Memref.whole cc0_scratch1) cc0_scoped0 c (tailW (insM m) c))
        (fun _ => BodyGlue.bodyPost m (Vals.outC (insM m)) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  LaunchFrame.frame_of_run m ρ (Proto.iface (accCI (insM m)) (rs0I (insM m))) (Vals.outC (insM m))
    (fun c => BodyGlue.body_obligation m (Proto.iface (accCI (insM m)) (rs0I (insM m))).start (Proto.iface (accCI (insM m)) (rs0I (insM m))).O₀ (Vals.outC (insM m)) c (sound_body m c (henter c) (htail c)))

end Kernel

end Cert.KernelIdeal.Body

end
-- ==== Proof.BodyTailState.lean ====
/-
  What a device holds when the last exchange step has been waited for, and what it must end with.

  Every copy of the exchange has landed and every add has been made: slice (g, p) of the accumulator holds the last
  level of round 1, slice (4 r + g, p, s) of the receive buffer what the partner's accumulator slice held when step
  (r, g, s) started. The device stands past the one round of its entry cell and of each of its 24 send and 24 receive cells, and at the
  start of the one round of its exit cell, of which it holds the three credits. It still owes its three exit signals
  (one to each neighbour, whose tokens it holds). The output block holds the first three of its four row blocks.
  Anything the last stretch does not touch rides along as a frame.
-/
import proofs.«900775_g7700000000000776_dist_diff_dit_htp_i_b2_s512_d768_hq4_v7x_i8_f32_1_alg».proof.Proof.BodyLib
import proofs.«900775_g7700000000000776_dist_diff_dit_htp_i_b2_s512_d768_hq4_v7x_i8_f32_1_alg».proof.Proof.Proto
import proofs.«900775_g7700000000000776_dist_diff_dit_htp_i_b2_s512_d768_hq4_v7x_i8_f32_1_alg».proof.Proof.Vals

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK

variable {F : FTy → Type} [FloatOps F]

local notation "𝕄" => MT nD τ sig Unit (Elt F) ℕ UU ℕ

/-- The round and the group of a row of the receive buffer: row `4 r + g`. -/
abbrev rowRound (rg : Fin 8) : Fin 2 := ⟨rg.val / 4, by have := rg.isLt; omega⟩
abbrev rowGroup (rg : Fin 8) : Fin 4 := ⟨rg.val % 4, Nat.mod_lt _ (by decide)⟩

/-- An index of the output block outside its last row block (batch row 1, rows 256 on). -/
def beforeLast (j : S2x512x768.Idx) : Prop := ¬((j 0).val = 1 ∧ 256 ≤ (j 1).val)

section State

variable (I : Dev nD → Vals.Ins F)
variable (accC : Dev nD → Fin 8 → Fin 3 → Fin 3 → Proto.AccBuf F) (rs0 : Dev nD → Proto.RsBuf F)
variable (K : Dev nD × Cell → ℕ) (c : Dev nD)

/-- The twelve accumulator slices, each at the last level of round 1. -/
def accTiles : sProp 𝕄 :=
  bigSep (Finset.univ : Finset (Fin 4 × Fin 3)) fun t =>
    (accSq t.1 t.2).view.loc (c : Thread nD τ) ↦[(accSq t.1 t.2).view.set]{fullShare} accEmb t.1 t.2 (Vals.A I 1 c t.1 t.2 2)

/-- The seventy-two receive slices, each at what landed in it. -/
def rsTiles : sProp 𝕄 :=
  bigSep (Finset.univ : Finset (Fin 8 × Fin 3 × Fin 3)) fun t =>
    (rsSq t.1 t.2.1 t.2.2).view.loc (c : Thread nD τ) ↦[(rsSq t.1 t.2.1 t.2.2).view.set]{fullShare}
      rsEmb t.1 t.2.1 t.2.2 (Vals.R I (rowRound t.1) c (rowGroup t.1) t.2.1 t.2.2)

/-- The output block at a contents that is the final one outside the last row block. -/
def outThree : sProp 𝕄 :=
  iprop(∃ f : Buf (Elt F) ((c : Thread nD τ).loc cc0_stg9_0),
    ⌜∀ j : S2x512x768.Idx, beforeLast j → f j = Vals.outC I c j⌝ ∗ ((c : Thread nD τ).loc cc0_stg9_0) ↦{fullShare} f)

/-- Past the one round of every cell but the exit cell; at the start of the exit cell's. -/
def tailPositions : sProp 𝕄 :=
  iprop((bigSep (Finset.univ.erase Cell.exit) fun k : Cell => atPos ER (kcell (c, k)) 1 ∅ 0)
    ∗ atPos ER (exitCell c) 0 ∅ 0)

/-- The tokens of the three exit signals the device still pays: duty `j` of the exit cell of its neighbour along mask `j`. -/
def exitToks : sProp 𝕄 := bigSep (Finset.univ : Finset (Fin 3)) fun j => dutyTok ER (exitCell (peer j c)) 0 j

/-- THE STATE after the waits of the last exchange step: the records of every cell, the level facts, the scratch
    slices at their named contents, the output block with three row blocks stored, the positions, the three exit
    signals owed with their tokens, the exit cell's three credits, and the frame. -/
def tailPre (Fr : sProp (MT nD τ sig Unit (Elt F) ℕ UU ℕ)) : sProp 𝕄 :=
  iprop(records (Proto.Rd accC rs0) K ∗ levAts Proto.L Proto.lv
    ∗ accTiles I c ∗ rsTiles I c ∗ outThree I c
    ∗ tailPositions c ∗ exitToks c
    ∗ (∃ W : Finset (SemLoc sig × Unit), owes (c : Thread nD τ) (Proto.owedFrom c 75) W)
    ∗ Proto.credFrom c 75 ∗ Fr)

/-- What the body ends with: the two scratch buffers whole, the device's own cells closed, nothing owed, the frame,
    the output block at its final contents. -/
def tailPost (Fr : sProp (MT nD τ sig Unit (Elt F) ℕ UU ℕ)) : sProp 𝕄 :=
  iprop(scr c ∗ ownZero c ∗ (∃ W : Finset (SemLoc sig × Unit), owes (c : Thread nD τ) 0 W) ∗ Fr
    ∗ (((c : Thread nD τ).loc cc0_stg9_0) ↦{fullShare} Vals.outC I c))

end State

end Cert.KernelIdeal.Body

end
-- ==== Proof.BodyTail.lean ====
/-
  The end of the body on one device. Every exchange has landed: what is left is to read the last two slices of
  group 3, write the last row block of the output, tell the three neighbours that this device is done, wait until they
  have said the same, and give back what the region was lent: its own semaphores at zero and its two scratch buffers whole.

  The scratch buffers are rejoined FIRST, each at a contents that still reads, through every slice, what that slice was
  known to hold; the two loads then read the whole buffers. The stored block is the last of four: with the three row
  blocks stored before it the output block is the final one at every index. The three signals pay what the device still
  owed; it then owes nothing, so the wait for the rest of the exit cell's one round needs no word on levels. Past its
  one round, with nothing taken of a next one, a cell is closed and its counter, read at zero, is the device's again.
-/
import proofs.«900775_g7700000000000776_dist_diff_dit_htp_i_b2_s512_d768_hq4_v7x_i8_f32_1_alg».proof.Proof.BodyTailState

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen Cert.KernelIdeal.Mesh Cert.KernelIdeal.LaunchK

variable {F : FTy → Type} [FloatOps F]

local notation "𝕄" => MT nD τ sig Unit (Elt F) ℕ UU ℕ

/-! ## The program -/

/-- The body's own last statements, after its two halves: over the output block, the two scratch buffers, the exit
    semaphore, the device the first statement read, and the stored block as a function `w` of the two slices read here. -/
def bodyTail (arg9 : Memref sig .tc .vmem S2x512x768 .f32) (arg10 : Memref sig .tc .vmem S4x3x256x256 .bf16)
    (arg11 : Memref sig .tc .vmem S8x3x3x256x256 .bf16) (v3020_r0 : Sems sig S_) (d0 : Dev nD)
    (w : Vec F S1x1x256x256 .bf16 → Vec F S1x1x1x256x256 .bf16 → FVec F S1x256x768 .f32) :
    Prog (TpuEff nD τ sig (Elt F) Λ₀ .tc) PUnit := do
  let v3007 : Vec F S1x1x256x256 .bf16 ← Prog.lift (.load arg10 (Rect.unit (s := S4x3x256x256) ![3, 2, 0, 0] S1x1x256x256.size inb_S4x3x256x256_S1x1x256x256_3_2_0_0).toLoadRect (View.loadsAt_vmem h_S1x1x256x256))
  let v3009 : Vec F S1x1x1x256x256 .bf16 ← Prog.lift (.load arg11 (Rect.unit (s := S8x3x3x256x256) ![7, 2, 2, 0, 0] S1x1x1x256x256.size inb_S8x3x3x256x256_S1x1x1x256x256_7_2_2_0_0).toLoadRect (View.loadsAt_vmem h_S1x1x1x256x256))
  let v3017 : Vec F S1x256x768 .f32 ← Prog.lift (.load arg9 (Rect.unit (s := S2x512x768) ![1, 256, 0] S1x256x768.size inb_S2x512x768_S1x256x768_1_256_0).toLoadRect (View.loadsAt_vmem h_S1x256x768))
  Prog.lift (.store arg9 (Rect.unit (s := S2x512x768) ![1, 256, 0] S1x256x768.size inb_S2x512x768_S1x256x768_1_256_0) (w v3007 v3009) Finset.univ (View.stores_vmem_bits_univ h_S1x256x768 rfl) (.inl rfl))
  semSignalWord (⟨k0_dev76 d0, k0_dev76_lt d0⟩ : Dev nD) v3020_r0.sem 1#32 hamt_1
  semSignalWord (⟨k0_dev77 d0, k0_dev77_lt d0⟩ : Dev nD) v3020_r0.sem 1#32 hamt_1
  semSignalWord (⟨k0_dev78 d0, k0_dev78_lt d0⟩ : Dev nD) v3020_r0.sem 1#32 hamt_1
  semWaitWord v3020_r0.sem 3#32 hamt_3
  pure ⟨⟩

/-! ## The scratch buffers rejoined -/

section Join
variable (I : Dev nD → Vals.Ins F) (c : Dev nD)

/-- A view reads the same off two contents that agree on its elements. -/
theorem read_congr_on {κ : Kind} {sp : Space} {s : Shape} {e : EltTy} {Val : EltTy → Type} (v : View sig κ sp s e)
    {f g : v.ty.Contents Val} (h : ∀ i ∈ v.set, f i = g i) : v.read Val f = v.read Val g := by
  funext x
  rw [View.read_apply, View.read_apply, h _ (v.emb_mem_set x)]

/-- The accumulator whole, at a contents that reads through every slice what the slice held. -/
theorem accTiles_join : accTiles I c
    ⊢ (iprop(∃ f : AccBuf F, ⌜∀ t : Fin 4 × Fin 3, (accV t.1 t.2).read (Elt F) f = Vals.A I 1 c t.1 t.2 2⌝ ∗ accL c ↦{fullShare} f) : sProp 𝕄) := by
  unfold accTiles
  rw [bigSep_congr fun t _ => accTile_eq c fullShare t.1 t.2 (accEmb t.1 t.2 (Vals.A I 1 c t.1 t.2 2))]
  refine (acc_join c fullShare fun t => accEmb t.1 t.2 (Vals.A I 1 c t.1 t.2 2)).trans ?_
  iintro ⟨%f, %hf, H⟩
  iexists f
  isplitr
  · ipureintro
    intro t
    rw [read_congr_on (accV t.1 t.2) (hf t), accV_read_accEmb]
  · iexact H

/-- The same of the receive buffer. -/
theorem rsTiles_join : rsTiles I c
    ⊢ (iprop(∃ f : RsBuf F, ⌜∀ t : Fin 8 × Fin 3 × Fin 3, (rsV t.1 t.2.1 t.2.2).read (Elt F) f = Vals.R I (rowRound t.1) c (rowGroup t.1) t.2.1 t.2.2⌝
        ∗ rsL c ↦{fullShare} f) : sProp 𝕄) := by
  unfold rsTiles
  rw [bigSep_congr fun t _ => rsTile_eq c fullShare t.1 t.2.1 t.2.2 (rsEmb t.1 t.2.1 t.2.2 (Vals.R I (rowRound t.1) c (rowGroup t.1) t.2.1 t.2.2))]
  refine (rs_join c fullShare fun t => rsEmb t.1 t.2.1 t.2.2 (Vals.R I (rowRound t.1) c (rowGroup t.1) t.2.1 t.2.2)).trans ?_
  iintro ⟨%f, %hf, H⟩
  iexists f
  isplitr
  · ipureintro
    intro t
    rw [read_congr_on (rsV t.1 t.2.1 t.2.2) (hf t), rsV_read_rsEmb]
  · iexact H

end Join

/-! ## The output block after its last store -/

section Out
open Idealize.ShloMosaic.ValueIdx (ix3 eq_ix3)
variable (I : Dev nD → Vals.Ins F) (c : Dev nD)

/-- The last row block of the output: batch row 1, rows 256 on. -/
abbrev lastR : Rect S2x512x768 :=
  Rect.unit (s := S2x512x768) ![1, 256, 0] S1x256x768.size inb_S2x512x768_S1x256x768_1_256_0

/-- The view the last store goes through. -/
abbrev lastV : View sig .tc .vmem lastR.shape .f32 := (Memref.whole cc0_stg9_0).view.slice lastR

/-- Where that view puts coordinate `x` of the block: batch row 1, row `256 + x 1`, column `x 2`. -/
theorem lastV_emb (x : S1x256x768.Idx) :
    lastV.emb x = ix3 (1 : Fin 2) (⟨256 * (1 : Fin 2).val + (⟨(x 1).val, (x 1).isLt⟩ : Fin 256).val, by
        have : (x 1).val < 256 := (x 1).isLt
        show 256 * 1 + (x 1).val < 512
        omega⟩ : Fin 512) (⟨(x 2).val, (x 2).isLt⟩ : Fin 768) := by
  funext a
  apply Fin.ext
  match a with
  | ⟨0, _⟩ =>
    have h0 : (x 0).val < 1 := (x 0).isLt
    show 1 + 1 * (x 0).val = 1
    omega
  | ⟨1, _⟩ =>
    show 256 + 1 * (x 1).val = 256 * 1 + (x 1).val
    omega
  | ⟨2, _⟩ =>
    show 0 + 1 * (x 2).val = (x 2).val
    omega

/-- The final output read through its last row block is group 3's block. -/
theorem read_outC_last : lastV.read (Elt F) (Vals.outC I c) = Vals.outBlk I c 3 := by
  funext x
  have h0 : (x 0).val < 1 := (x 0).isLt
  rw [View.read_apply, lastV_emb, cast_eq,
    Vals.outC_apply I c 1 1 (⟨(x 1).val, (x 1).isLt⟩ : Fin 256) (⟨(x 2).val, (x 2).isLt⟩ : Fin 768)]
  have e3 : (⟨2 * (1 : Fin 2).val + (1 : Fin 2).val, by decide⟩ : Fin 4) = 3 := rfl
  have ex : ix3 (0 : Fin 1) (⟨(x 1).val, (x 1).isLt⟩ : Fin 256) (⟨(x 2).val, (x 2).isLt⟩ : Fin 768) = x := by
    funext a
    match a with
    | ⟨0, _⟩ => exact Fin.ext (by show 0 = (x 0).val; omega)
    | ⟨1, _⟩ => rfl
    | ⟨2, _⟩ => rfl
  rw [ex, e3]

/-- An index off the first three row blocks lies in the last. -/
theorem mem_last_of_not_before (i : S2x512x768.Idx) (h : ¬beforeLast i) : i ∈ lastV.set := by
  have h' : (i 0).val = 1 ∧ 256 ≤ (i 1).val := by
    by_contra hn; exact h hn
  have h1 : (i 1).val < 512 := (i 1).isLt
  have h2 : (i 2).val < 768 := (i 2).isLt
  show i ∈ ((View.whole cc0_stg9_0 : View sig .tc _ _ _).slice lastR).set
  rw [View.set_slice_whole, Rect.mem_set_unit]
  intro a
  match a with
  | ⟨0, _⟩ => show 1 ≤ (i 0).val ∧ (i 0).val < 1 + 1; omega
  | ⟨1, _⟩ => show 256 ≤ (i 1).val ∧ (i 1).val < 256 + 256; omega
  | ⟨2, _⟩ => show 0 ≤ (i 2).val ∧ (i 2).val < 0 + 768; omega

/-- An index of the first three row blocks is off the last. -/
theorem not_mem_last_of_before (i : S2x512x768.Idx) (h : beforeLast i) : i ∉ lastV.setOn Finset.univ := by
  rw [View.setOn_univ]
  show i ∉ ((View.whole cc0_stg9_0 : View sig .tc _ _ _).slice lastR).set
  rw [View.set_slice_whole, Rect.mem_set_unit]
  intro hm
  apply h
  have m0 : 1 ≤ (i 0).val ∧ (i 0).val < 1 + 1 := hm 0
  have m1 : 256 ≤ (i 1).val ∧ (i 1).val < 256 + 256 := hm 1
  exact ⟨by omega, by omega⟩

/-- Group 3's block written through the last row block, over a contents that is final elsewhere: the final contents. -/
theorem out_final (f9 : Vec F S2x512x768 .f32) (hf9 : ∀ j : S2x512x768.Idx, beforeLast j → f9 j = Vals.outC I c j) :
    lastV.write (Elt F) f9 (Vals.outBlk I c 3) Finset.univ = Vals.outC I c := by
  funext i
  by_cases hi : beforeLast i
  · rw [View.write_of_not_mem _ _ _ (not_mem_last_of_before i hi), hf9 i hi]
  · have e := eq_write_read_on (Val := Elt F) lastV (Vals.outC I c) f9 i (mem_last_of_not_before i hi)
    rw [read_outC_last] at e
    exact e.symm

end Out

/-- What the run leaves in the output block: the stored block is group 3's, written over a contents final elsewhere. -/
theorem out_contents (I : Dev nD → Vals.Ins F) (c : Dev nD) (f9 : Vec F S2x512x768 .f32)
    (hf9 : ∀ j : S2x512x768.Idx, beforeLast j → f9 j = Vals.outC I c j)
    (fa : AccBuf F) (hfa : ∀ t : Fin 4 × Fin 3, (accV t.1 t.2).read (Elt F) fa = Vals.A I 1 c t.1 t.2 2)
    (fr : RsBuf F) (hfr : ∀ t : Fin 8 × Fin 3 × Fin 3, (rsV t.1 t.2.1 t.2.2).read (Elt F) fr = Vals.R I (rowRound t.1) c (rowGroup t.1) t.2.1 t.2.2)
    (w : Vec F S1x1x256x256 .bf16 → Vec F S1x1x1x256x256 .bf16 → FVec F S1x256x768 .f32)
    (hw : w (Vals.A I 1 c 3 2 2) (Vals.R I 1 c 3 2 2) = Vals.outBlk I c 3) :
    (Memref.whole cc0_stg9_0).view.writes (Elt F) f9
        [⟨Rect.unit (s := S2x512x768) ![1, 256, 0] S1x256x768.size inb_S2x512x768_S1x256x768_1_256_0,
          w ((Memref.whole cc0_scratch0).view.readAt (Elt F)
                (Rect.unit (s := S4x3x256x256) ![3, 2, 0, 0] S1x1x256x256.size inb_S4x3x256x256_S1x1x256x256_3_2_0_0).toLoadRect fa)
            ((Memref.whole cc0_scratch1).view.readAt (Elt F)
                (Rect.unit (s := S8x3x3x256x256) ![7, 2, 2, 0, 0] S1x1x1x256x256.size inb_S8x3x3x256x256_S1x1x1x256x256_7_2_2_0_0).toLoadRect fr)⟩]
      = Vals.outC I c := by
  have ea : (Memref.whole cc0_scratch0).view.readAt (Elt F)
      (Rect.unit (s := S4x3x256x256) ![3, 2, 0, 0] S1x1x256x256.size inb_S4x3x256x256_S1x1x256x256_3_2_0_0).toLoadRect fa
        = Vals.A I 1 c 3 2 2 := hfa (3, 2)
  have er : (Memref.whole cc0_scratch1).view.readAt (Elt F)
      (Rect.unit (s := S8x3x3x256x256) ![7, 2, 2, 0, 0] S1x1x1x256x256.size inb_S8x3x3x256x256_S1x1x1x256x256_7_2_2_0_0).toLoadRect fr
        = Vals.R I 1 c 3 2 2 := hfr (7, 2, 2)
  rw [ea, er, hw, View.writes_singleton]
  exact out_final I c f9 hf9

/-! ## Closing the device's cells -/

section Close
variable (accC : Dev nD → Fin 8 → Fin 3 → Fin 3 → Proto.AccBuf F) (rs0 : Dev nD → Proto.RsBuf F)
variable (K : Dev nD × Cell → ℕ) (c : Dev nD)

/-- A cell past its one round, nothing taken of a next: closed, its counter read at zero. -/
theorem close_cell (ck : Dev nD × Cell) :
    iprop(records (Proto.Rd accC rs0) K ∗ atPos ER (kcell ck) 1 ∅ 0) ⊢ (iprop(|={Set.univ}=> semVal (kcell ck) 0) : sProp 𝕄) := by
  iintro ⟨#Hrec, Hat⟩
  ihave #HI := (inv_at (Proto.Rd accC rs0) K ck) $$ Hrec
  iapply (Rounds.cell_close ER (Proto.Rd accC rs0) (Set.mem_univ (K ck)) (Proto.not_unitless accC rs0 (kcell ck))
    (Proto.duties_later accC rs0 (kcell ck)))
  isplitr
  · iexact HI
  · iexact Hat

/-- All fifty cells of the device, each past its one round: all closed. -/
theorem close_all :
    iprop(records (Proto.Rd accC rs0) K ∗ bigSep Finset.univ fun k : Cell => atPos ER (kcell (c, k)) 1 ∅ 0)
      ⊢ (iprop(|={Set.univ}=> bigSep Finset.univ fun k : Cell => semVal (kcell (c, k)) 0) : sProp 𝕄) :=
  (BI.bigSep_with_persistent fun k _ => close_cell accC rs0 K (c, k)).trans (bigSep_fupd _ _)

end Close

/-! ## The run -/

section Run
variable (I : Dev nD → Vals.Ins F)
variable (accC : Dev nD → Fin 8 → Fin 3 → Fin 3 → Proto.AccBuf F) (rs0 : Dev nD → Proto.RsBuf F)
variable (K : Dev nD × Cell → ℕ) (c : Dev nD)

attribute [local sl_canon] Mesh.dev76_eq Mesh.dev77_eq Mesh.dev78_eq

set_option maxHeartbeats 4000000 in
theorem tail_run (Fr : sProp (MT nD τ sig Unit (Elt F) ℕ UU ℕ)) (d0 : Dev nD) (hd : d0 = c)
    (w : Vec F S1x1x256x256 .bf16 → Vec F S1x1x1x256x256 .bf16 → FVec F S1x256x768 .f32)
    (hw : w (Vals.A I 1 c 3 2 2) (Vals.R I 1 c 3 2 2) = Vals.outBlk I c 3) :
    tailPre I accC rs0 K c Fr
      ⊢ wp frame (wpE (defs₀ (F := F)) 𝒱₀ (c : Thread nD τ) none) Set.univ
          (bodyTail (Memref.whole cc0_stg9_0) (Memref.whole cc0_scratch0) (Memref.whole cc0_scratch1) cc0_scoped0 d0 w)
          (fun _ => tailPost I c Fr) := by
  subst hd
  unfold tailPre outThree tailPositions exitToks
  iintro ⟨#Hrec, #Hlev, Hacc, Hrs, ⟨%f9, %hf9, Hout⟩, ⟨Hpos, Hpe⟩, Htok, ⟨%W, HO⟩, Hcr, HFr⟩
  ihave Hacc := (accTiles_join I d0) $$ Hacc
  icases Hacc with ⟨%fa, %hfa, Hacc⟩
  ihave Hrs := (rsTiles_join I d0) $$ Hrs
  icases Hrs with ⟨%fr, %hfr, Hrs⟩
  -- the records of the four exit cells this stretch touches
  ihave #HI0 := (inv_at (Proto.Rd accC rs0) K (peer 0 d0, Cell.exit)) $$ Hrec
  ihave #HI1 := (inv_at (Proto.Rd accC rs0) K (peer 1 d0, Cell.exit)) $$ Hrec
  ihave #HI2 := (inv_at (Proto.Rd accC rs0) K (peer 2 d0, Cell.exit)) $$ Hrec
  ihave #HIe := (inv_at (Proto.Rd accC rs0) K (d0, Cell.exit)) $$ Hrec
  ihave #Hr0 := (reached_at (Proto.Rd accC rs0) K (peer 0 d0, Cell.exit)) $$ Hrec
  ihave #Hr1 := (reached_at (Proto.Rd accC rs0) K (peer 1 d0, Cell.exit)) $$ Hrec
  ihave #Hr2 := (reached_at (Proto.Rd accC rs0) K (peer 2 d0, Cell.exit)) $$ Hrec
  -- the three tokens, the three summands owed, the three credits as one
  ihave Htok := (Entails.of_eq (Proto.bigSep_fin3 (fun j => dutyTok ER (exitCell (peer j d0)) 0 j))) $$ Htok
  icases Htok with ⟨Ht0, Ht1, Ht2⟩
  ihave HO := (Entails.of_eq (congrArg (fun O => (owes (d0 : Thread nD τ) O W : sProp 𝕄)) (Proto.owed_exit d0))) $$ HO
  ihave Hcr := (Entails.of_eq (Proto.cred_exit (F := F) d0)) $$ Hcr
  icases Hcr with ⟨⟨⟨-, Hc1⟩, Hc2⟩, Hc3⟩
  ihave Hc := (Proto.cred3 (F := F) (exitCell d0) 1) $$ [Hc1 Hc2 Hc3]
  · isplitl [Hc1 Hc2]
    · isplitl [Hc1] <;> iassumption
    · iexact Hc3
  -- the three buffers as the accesses name them
  ihave Hacc := (show (accL d0 ↦{fullShare} fa : sProp 𝕄) ⊢ ((Memref.whole cc0_scratch0).view.loc (d0 : Thread nD τ) ↦{fullShare} fa) from Entails.of_eq rfl) $$ Hacc
  ihave Hrs := (show (rsL d0 ↦{fullShare} fr : sProp 𝕄) ⊢ ((Memref.whole cc0_scratch1).view.loc (d0 : Thread nD τ) ↦{fullShare} fr) from Entails.of_eq rfl) $$ Hrs
  ihave Hout := (show (((d0 : Thread nD τ).loc cc0_stg9_0) ↦{fullShare} f9 : sProp 𝕄) ⊢ ((Memref.whole cc0_stg9_0).view.loc (d0 : Thread nD τ) ↦{fullShare} f9) from Entails.of_eq rfl) $$ Hout
  unfold bodyTail
  sl_exec
  rw [wp_ret]
  -- the device's own cells, each past its one round: closed
  ihave Hall := (Entails.of_eq (BI.bigSep_univ_at (fun k : Cell => (atPos ER (kcell (d0, k)) 1 ∅ 0 : sProp 𝕄)) Cell.exit).symm) $$ [Hpe Hpos]
  · isplitl [Hpe]
    · iexact Hpe
    · iexact Hpos
  imod (close_all accC rs0 K d0) $$ [Hall] with Hz
  · isplitr
    · iexact Hrec
    · iexact Hall
  ihave Hz := (Entails.of_eq (LaunchK.sems_eq (F := F) d0)) $$ Hz
  icases Hz with ⟨-, Hz⟩
  ihave Hz := (Entails.of_eq (LaunchK.ownZero_eq (F := F) d0)) $$ Hz
  imodintro
  unfold tailPost scr
  isplitl [Hacc Hrs]
  · isplitl [Hacc]
    · iexists fa; iexact Hacc
    · iexists fr; iexact Hrs
  isplitl [Hz]; · iexact Hz
  isplitl [HO]; · iexists _; iexact HO
  isplitl [HFr]; · iexact HFr
  rw [← out_contents I d0 f9 hf9 fa hfa fr hfr w hw]
  iexact Hout

/-- info: 'Cert.KernelIdeal.Body.tail_run' depends on axioms: [propext, Classical.choice, Quot.sound] -/
#guard_msgs in #print axioms tail_run

end Run

end Cert.KernelIdeal.Body

end
-- ==== Proof.BodyTailFrom.lean ====
/-
  From the state the body's parts hand over to the one the last stretch starts from, and the last stretch stated there.

  At the place after the last part every copy has been started and every wait passed: the duty tokens left are the three
  exit signals', what is owed and the credits left are the exit's, no departure credit is outstanding, no partner's
  receive slice is still held, every cell but the exit cell is past its round, every receive slice has come back and
  every accumulator slice is held at its last level. Listed in starting order or by (row, part, position), the slices
  and the cells are the same ones.
-/
import proofs.«900775_g7700000000000776_dist_diff_dit_htp_i_b2_s512_d768_hq4_v7x_i8_f32_1_alg».proof.Proof.BodyState
import proofs.«900775_g7700000000000776_dist_diff_dit_htp_i_b2_s512_d768_hq4_v7x_i8_f32_1_alg».proof.Proof.BodyTail

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Mesh Cert.KernelIdeal.LaunchK Cert.KernelIdeal.Vals
open Cert.KernelIdeal.Proto hiding accM rsM AccBuf RsBuf

variable {F : FTy → Type} [FloatOps F]

local notation "𝕄" => MT nD τ sig Unit (Elt F) ℕ UU ℕ

section From
variable (I : Dev nD → Ins F) (K : Dev nD × Cell → ℕ) (c : Dev nD)

/-! ## The slices -/

/-- The twelve accumulator slices, listed, are the twelve indexed. -/
theorem accTiles_of_held :
    (bigSepL accIx fun gp => accHeld I c gp.1 gp.2 ((σ 120).acc gp.1 gp.2)) ⊢ accTiles I c := by
  unfold accTiles
  rw [bigSep_univ_eq_bigSepL accIx (by decide) (by decide)]
  exact Entails.of_eq rfl

/-- The step of row `rg` at position `s` sends from group `rg mod 4`. -/
theorem gOf_kOf : ∀ (rg : Fin 8) (s : Fin 3), gOf (kOf rg s) = rowGroup rg := by decide

/-- (Row, part, position) and (step, part) name the same seventy-two slices. -/
def stepEquiv : Fin 8 × Fin 3 × Fin 3 ≃ Fin 24 × Fin 3 where
  toFun t := (kOf t.1 t.2.2, t.2.1)
  invFun kp := (rgOf kp.1, kp.2, sOf kp.1)
  left_inv t := by
    rcases t with ⟨rg, p, s⟩
    show (rgOf (kOf rg s), p, sOf (kOf rg s)) = (rg, p, s)
    rw [rgOf_kOf, sOf_kOf]
  right_inv kp := by
    rcases kp with ⟨k, p⟩
    show (kOf (rgOf k) (sOf k), p) = (k, p)
    rw [kOf_rgOf_sOf]

/-- A receive slice's assertion moved along equal indices. -/
theorem rsTile_congr_idx {rg rg' : Fin 8} {s s' : Fin 3} {g g' : Fin 4} (p : Fin 3) (h1 : rg' = rg) (h2 : s' = s) (h3 : g' = g) :
    (rsTile c rg' p s' (R I (rOfRg rg') c g' p s') : sProp 𝕄) = rsTile c rg p s (R I (rOfRg rg) c g p s) := by
  subst h1 h2 h3; rfl

/-- The receive slices that have come back, all twenty-four steps', are the seventy-two indexed. -/
theorem rsTiles_of_back : rsBack I c 24 ⊢ rsTiles I c := by
  unfold rsBack rsTiles
  rw [Finset.filter_true_of_mem (fun k _ => (posK k).isLt),
    bigSep_congr (s := Finset.univ) fun k _ =>
      show rs3 I c k = bigSep Finset.univ (fun p : Fin 3 => rsTile c (rgOf k) p (sOf k) (R I (rOfRg (rgOf k)) c (gOf k) p (sOf k)))
        from (Proto.bigSep_fin3 (fun p : Fin 3 => rsTile c (rgOf k) p (sOf k) (R I (rOfRg (rgOf k)) c (gOf k) p (sOf k)))).symm,
    ← bigSep_univ_prod (fun kp : Fin 24 × Fin 3 =>
      rsTile c (rgOf kp.1) kp.2 (sOf kp.1) (R I (rOfRg (rgOf kp.1)) c (gOf kp.1) kp.2 (sOf kp.1))),
    bigSep_univ_equiv stepEquiv]
  refine Entails.of_eq (bigSep_congr fun t _ => ?_)
  rcases t with ⟨rg, p, s⟩
  exact rsTile_congr_idx I c p (rgOf_kOf rg s) (sOf_kOf rg s) (gOf_kOf rg s)

/-! ## The tokens, the cells, the output block -/

/-- The duty tokens left are the three exit signals'. -/
theorem exitToks_of : toksFrom c 75 ⊢ (exitToks c : sProp 𝕄) := by
  unfold exitToks
  rw [Proto.bigSep_fin3]
  exact Entails.of_eq rfl

/-- The cells waited: every cell but the exit cell. -/
theorem done49 : doneTo c 49 ⊢ (bigSep (Finset.univ.erase Cell.exit) fun k : Cell => atPos ER (kcell (c, k)) 1 ∅ 0 : sProp 𝕄) := by
  unfold doneTo
  rw [bigSep_eq_bigSepL_of_eq (waitList.take 49) (by decide) (by decide)]

/-- The first three row blocks are the indices off the last. -/
theorem lt3_of_beforeLast (j : S2x512x768.Idx) (h : beforeLast j) : outBlockOf j < 3 := by
  unfold beforeLast at h
  unfold outBlockOf
  have h0 : (j 0).val < 2 := (j 0).isLt
  have h1 : (j 1).val < 512 := (j 1).isLt
  by_contra hn
  apply h
  constructor <;> omega

theorem outThree_of_held : outHeld I c 3 ⊢ outThree I c := by
  unfold outHeld outThree
  iintro ⟨%f, %hf, H⟩
  iexists f
  isplitr
  · ipureintro; exact fun j hj => hf j (lt3_of_beforeLast j hj)
  · iexact H

/-! ## The adapter -/

/-- The state after the last part, component by component. -/
theorem St_120 : St I K (σ 120) c = iprop(records (RdI I) K ∗ levAts Proto.L Proto.lv
    ∗ (∃ W, owes (c : Thread nD τ) (owedFrom c 75) W)
    ∗ toksFrom c 75 ∗ credFrom c 75 ∗ sendCreds (σ 120) c
    ∗ iprop(doneTo c 49 ∗ todoFrom c 49)
    ∗ iprop(foreignFrom c 72 ∗ rsBack I c 24)
    ∗ bigSepL accIx fun gp => accHeld I c gp.1 gp.2 ((σ 120).acc gp.1 gp.2)) := rfl

/-- What the parts hand over is what the last stretch starts from. -/
theorem tailPre_of_St (Fr : sProp (MT nD τ sig Unit (Elt F) ℕ UU ℕ)) :
    iprop(St I K (σ 120) c ∗ outHeld I c 3 ∗ Fr) ⊢ tailPre I (accCI I) (rs0I I) K c Fr := by
  rw [St_120]
  unfold tailPre tailPositions
  iintro ⟨⟨#Hrec, #Hlev, HO, Htok, Hcr, -, ⟨Hdone, Htodo⟩, ⟨-, Hback⟩, Hacc⟩, Hout, HFr⟩
  isplitr; · iexact Hrec
  isplitr; · iexact Hlev
  isplitl [Hacc]; · iapply (accTiles_of_held I c); iexact Hacc
  isplitl [Hback]; · iapply (rsTiles_of_back I c); iexact Hback
  isplitl [Hout]; · iapply (outThree_of_held I c); iexact Hout
  isplitl [Hdone Htodo]
  · isplitl [Hdone]
    · iapply (done49 c); iexact Hdone
    · iapply (Entails.of_eq (show (todoFrom c 49 : sProp 𝕄) = atPos ER (exitCell c) 0 ∅ 0 from rfl)); iexact Htodo
  isplitl [Htok]; · iapply (exitToks_of c); iexact Htok
  isplitl [HO]; · iexact HO
  isplitl [Hcr]; · iexact Hcr
  iexact HFr

/-- The last stretch of the body from the state after the last part, with any frame. -/
theorem tail_from_St (Fr : sProp (MT nD τ sig Unit (Elt F) ℕ UU ℕ)) (d0 : Dev nD) (hd : d0 = c)
    (w : Vec F S1x1x256x256 .bf16 → Vec F S1x1x1x256x256 .bf16 → FVec F S1x256x768 .f32)
    (hw : w (A I 1 c 3 2 2) (R I 1 c 3 2 2) = outBlk I c 3) :
    iprop(St I K (σ 120) c ∗ outHeld I c 3 ∗ Fr)
      ⊢ wp frame (wpE (defs₀ (F := F)) 𝒱₀ (c : Thread nD τ) none) Set.univ
          (bodyTail (Memref.whole cc0_stg9_0) (Memref.whole cc0_scratch0) (Memref.whole cc0_scratch1) cc0_scoped0 d0 w)
          (fun _ => tailPost I c Fr) :=
  (tailPre_of_St I K c Fr).trans (tail_run I (accCI I) (rs0I I) K c Fr d0 hd w hw)

end From

/-! ## The last stretch at the launch's memory -/

section AtMemory
variable (m : (ℓ : Loc nD τ sig) → Buf (Elt F) ℓ) (K : Dev nD × Cell → ℕ) (c : Dev nD)

/-- With the nine argument blocks as the frame the last stretch ends at the body's post. -/
theorem tail_body (d0 : Dev nD) (hd : d0 = c)
    (w : Vec F S1x1x256x256 .bf16 → Vec F S1x1x1x256x256 .bf16 → FVec F S1x256x768 .f32)
    (hw : w (A (insM m) 1 c 3 2 2) (R (insM m) 1 c 3 2 2) = outBlk (insM m) c 3) :
    iprop(St (insM m) K (σ 120) c ∗ outHeld (insM m) c 3 ∗ BodyGlue.inputs m c)
      ⊢ wp frame (wpE (defs₀ (F := F)) 𝒱₀ (c : Thread nD τ) none) Set.univ
          (bodyTail (Memref.whole cc0_stg9_0) (Memref.whole cc0_scratch0) (Memref.whole cc0_scratch1) cc0_scoped0 d0 w)
          (fun _ => BodyGlue.bodyPost m (outC (insM m)) c) :=
  tail_from_St (insM m) K c (BodyGlue.inputs m c) d0 hd w hw

/-- info: 'Cert.KernelIdeal.Body.tail_body' depends on axioms: [propext, Classical.choice, Quot.sound] -/
#guard_msgs in #print axioms tail_body

end AtMemory

end Cert.KernelIdeal.Body

end
-- ==== Proof.BodyClose.lean ====
import proofs.«900775_g7700000000000776_dist_diff_dit_htp_i_b2_s512_d768_hq4_v7x_i8_f32_1_alg».proof.Proof.BodyRun
import proofs.«900775_g7700000000000776_dist_diff_dit_htp_i_b2_s512_d768_hq4_v7x_i8_f32_1_alg».proof.Proof.BodyStateLemmas
import proofs.«900775_g7700000000000776_dist_diff_dit_htp_i_b2_s512_d768_hq4_v7x_i8_f32_1_alg».proof.Proof.BodyTailFrom

/-! # The run of the program from the entry, the parts and the last stretch

The entry into the protocol's first state and the body's last stretch, restated at the sequence's state `Pn`; with them the
program's run and its frame need nothing but the value of the last stored block. -/

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.LaunchK

variable {F : FTy → Type} [FloatOps F]

/-- The entry, at the sequence's first state. -/
theorem enter_Pn (m : (ℓ : Loc nD τ sig) → Buf (Elt F) ℓ) (c : Dev nD) :
    BodyGlue.bodyPre m (Proto.iface (accCI (insM m)) (rs0I (insM m))).start (Proto.iface (accCI (insM m)) (rs0I (insM m))).O₀ c ⊢ iprop(∃ K, Pn m c K 0) := by
  have h1 : iprop(∃ K, St (insM m) K (σ 0) c ∗ outHeld (insM m) c 0 ∗ BodyGlue.inputs m c) ⊢ iprop(∃ K, Pn m c K 0) := by
    iintro ⟨%K, H1, H2, H3⟩
    iexists K
    isplitl [H1]; · iexact H1
    isplitl [H2]; · iexact H2
    isplitl [H3]; · iexact H3
    iempintro
  exact (enter m c).trans h1

/-- The body's own last statements, as the sequence leaves them and as the last stretch is stated: one program. -/
theorem tail_prog_eq (c : Dev nD) (w : Vec F S1x1x256x256 .bf16 → Vec F S1x1x1x256x256 .bf16 → FVec F S1x256x768 .f32) :
    spineTail (F := F) (win0_9.stage (cfg0.slots t0_0 9)) (Memref.whole cc0_scratch0) (Memref.whole cc0_scratch1) cc0_scoped0 c w
      = bodyTail (Memref.whole cc0_stg9_0) (Memref.whole cc0_scratch0) (Memref.whole cc0_scratch1) cc0_scoped0 c w := rfl

/-- The last stretch, from the sequence's last state. -/
theorem tail_Pn (m : (ℓ : Loc nD τ sig) → Buf (Elt F) ℓ) (c : Dev nD) (K : Dev nD × Cell → ℕ)
    (hw : tailW (insM m) c (Vals.A (insM m) 1 c 3 2 2) (Vals.R (insM m) 1 c 3 2 2) = Vals.outBlk (insM m) c 3) :
    Pn m c K 120 ⊢ wp frame (wpE (defs₀ (F := F)) 𝒱₀ (c : Thread nD τ) none) Set.univ
        (spineTail (win0_9.stage (cfg0.slots t0_0 9)) (Memref.whole cc0_scratch0) (Memref.whole cc0_scratch1) cc0_scoped0 c (tailW (insM m) c))
        (fun _ => BodyGlue.bodyPost m (Vals.outC (insM m)) c) := by
  rw [tail_prog_eq]
  have h1 : Pn m c K 120 ⊢ iprop(St (insM m) K (σ 120) c ∗ outHeld (insM m) c 3 ∗ BodyGlue.inputs m c) := by
    iintro ⟨H1, H2, H3, -⟩
    isplitl [H1]; · iexact H1
    isplitl [H2]; · iexact H2
    iexact H3
  exact h1.trans (tail_body m K c c rfl (tailW (insM m) c) hw)

/-! ## The nine argument blocks are the nine argument arrays

With one grid point a window's block is its whole array. -/

theorem in0_eq (m : (ℓ : Loc nD τ sig) → Buf (Elt F) ℓ) (c : Dev nD) : BodyGlue.in0 m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
theorem in1_eq (m : (ℓ : Loc nD τ sig) → Buf (Elt F) ℓ) (c : Dev nD) : BodyGlue.in1 m c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _
theorem in2_eq (m : (ℓ : Loc nD τ sig) → Buf (Elt F) ℓ) (c : Dev nD) : BodyGlue.in2 m c = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _
theorem in3_eq (m : (ℓ : Loc nD τ sig) → Buf (Elt F) ℓ) (c : Dev nD) : BodyGlue.in3 m c = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _
theorem in4_eq (m : (ℓ : Loc nD τ sig) → Buf (Elt F) ℓ) (c : Dev nD) : BodyGlue.in4 m c = m ((c : Thread nD τ).loc main_arg4) := by
  have hz : (fun a => (win0_4.index t0_0) a * main_arg4.ty.shape.size a) = fun _ => 0 := funext fun a => by fin_cases a <;> decide
  exact Memref.read_access_unit_zero (Elt F) main_arg4 hz (fun a => by fin_cases a <;> decide) _
theorem in5_eq (m : (ℓ : Loc nD τ sig) → Buf (Elt F) ℓ) (c : Dev nD) : BodyGlue.in5 m c = m ((c : Thread nD τ).loc main_arg5) := by
  have hz : (fun a => (win0_5.index t0_0) a * main_arg5.ty.shape.size a) = fun _ => 0 := funext fun a => by fin_cases a <;> decide
  exact Memref.read_access_unit_zero (Elt F) main_arg5 hz (fun a => by fin_cases a <;> decide) _
theorem in6_eq (m : (ℓ : Loc nD τ sig) → Buf (Elt F) ℓ) (c : Dev nD) : BodyGlue.in6 m c = m ((c : Thread nD τ).loc main_arg6) := by
  have hz : (fun a => (win0_6.index t0_0) a * main_arg6.ty.shape.size a) = fun _ => 0 := funext fun a => by fin_cases a <;> decide
  exact Memref.read_access_unit_zero (Elt F) main_arg6 hz (fun a => by fin_cases a <;> decide) _
theorem in7_eq (m : (ℓ : Loc nD τ sig) → Buf (Elt F) ℓ) (c : Dev nD) : BodyGlue.in7 m c = m ((c : Thread nD τ).loc main_arg7) := by
  have hz : (fun a => (win0_7.index t0_0) a * main_arg7.ty.shape.size a) = fun _ => 0 := funext fun a => by fin_cases a <;> decide
  exact Memref.read_access_unit_zero (Elt F) main_arg7 hz (fun a => by fin_cases a <;> decide) _
theorem in8_eq (m : (ℓ : Loc nD τ sig) → Buf (Elt F) ℓ) (c : Dev nD) : BodyGlue.in8 m c = m ((c : Thread nD τ).loc main_arg8) := by
  have hz : (fun a => (win0_8.index t0_0) a * main_arg8.ty.shape.size a) = fun _ => 0 := funext fun a => by fin_cases a <;> decide
  exact Memref.read_access_unit_zero (Elt F) main_arg8 hz (fun a => by fin_cases a <;> decide) _

/-- The mesh's argument blocks as the body reads them are the devices' argument buffers as stored. -/
theorem insM_eq (m : (ℓ : Loc nD τ sig) → Buf (Elt F) ℓ) (c : Dev nD) :
    insM m c = ⟨m ((c : Thread nD τ).loc main_arg0), m ((c : Thread nD τ).loc main_arg1), m ((c : Thread nD τ).loc main_arg2),
      m ((c : Thread nD τ).loc main_arg3), m ((c : Thread nD τ).loc main_arg4), m ((c : Thread nD τ).loc main_arg5),
      m ((c : Thread nD τ).loc main_arg6), m ((c : Thread nD τ).loc main_arg7), m ((c : Thread nD τ).loc main_arg8)⟩ := by
  unfold insM
  rw [in0_eq m c, in1_eq m c, in2_eq m c, in3_eq m c, in4_eq m c, in5_eq m c, in6_eq m c, in7_eq m c, in8_eq m c]

section Kernel

variable (m : (ℓ : Loc nD τ sig) → Buf (Elt F) ℓ) (ρ : Dev nD → PrngReg)

/-- The program's run, given the value of the last stored block on every device. -/
theorem run_kernel_closed
    (hw : ∀ c : Dev nD, tailW (insM m) c (Vals.A (insM m) 1 c 3 2 2) (Vals.R (insM m) 1 c 3 2 2) = Vals.outBlk (insM m) c 3) :
    θ_run defs (onTc (τ := τ) (main (F := F))) ⟨m, fun _ => 0, ρ⟩ (fun r => ∀ c : Dev nD,
      r.2.mem ((c.tc : Thread nD τ).loc main_v1) = Vals.outC (insM m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_kernel m ρ (enter_Pn m) (fun c K => tail_Pn m c K (hw c))

/-- The frame likewise. -/
theorem frame_kernel_closed
    (hw : ∀ c : Dev nD, tailW (insM m) c (Vals.A (insM m) 1 c 3 2 2) (Vals.R (insM m) 1 c 3 2 2) = Vals.outBlk (insM m) c 3) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_kernel m ρ (enter_Pn m) (fun c K => tail_Pn m c K (hw c))

end Kernel

end Cert.KernelIdeal.Body

end
-- ==== Proof.BodyHw.lean ====
import proofs.«900775_g7700000000000776_dist_diff_dit_htp_i_b2_s512_d768_hq4_v7x_i8_f32_1_alg».proof.Proof.Vals.Live
import proofs.«900775_g7700000000000776_dist_diff_dit_htp_i_b2_s512_d768_hq4_v7x_i8_f32_1_alg».proof.Proof.Vals

/-! The last row block of the output.

The body's last store writes, into batch row 1, rows 256 on, a block computed from values named earlier and from the
two tiles read just before it: tile [3, 2] of the accumulator and tile [7, 2, 2] of the receive buffer. Whatever
function of those two tiles the stored block is, if it is group 3's output site read at the final levels with the two
tiles in their places, then at the tiles' final contents it is group 3's output block. -/

noncomputable section

namespace Cert.KernelIdeal.Body

open Idealize.ShloMosaic Cert.KernelIdeal Cert.KernelIdeal.Gen Cert.KernelIdeal.Mesh Cert.KernelIdeal.Vals

variable {F : FTy → Type} [FloatOps F]

/-- Group 3's output site with the last two tiles left open: the accumulators' and the receive tiles' final levels of
    both rounds, but `a` for accumulator tile [3, 2] and `b` for receive tile [7, 2, 2] of round 1. -/
def outSite3At (I : Dev nD → Ins F) (c : Dev nD) (a : Acc F) (b : Rs F) : FVec F S1x256x768 .f32 :=
  outSite 3 (I c) (fun q => A I 0 c 3 q 2) (fun q => R I 0 c 3 q 2)
    ![A I 1 c 3 0 2, A I 1 c 3 1 2, a] ![R I 1 c 3 0 2, R I 1 c 3 1 2, b]

/-- At the two tiles' final contents the open site is group 3's output block. -/
theorem outSite3At_final (I : Dev nD → Ins F) (c : Dev nD) :
    outSite3At I c (A I 1 c 3 2 2) (R I 1 c 3 2 2) = outBlk I c 3 := by
  unfold outSite3At
  rw [outBlk_eq, outSite_3, outSite_3]
  rfl

/-- The stored block, as any function `w` of the two tiles that is the open site, is group 3's output block at the
    tiles' final contents. -/
theorem hw_out (I : Dev nD → Ins F) (c : Dev nD) (w : Acc F → Rs F → FVec F S1x256x768 .f32)
    (hw : ∀ a b, w a b = outSite3At I c a b) :
    w (A I 1 c 3 2 2) (R I 1 c 3 2 2) = outBlk I c 3 := by
  rw [hw, outSite3At_final]

/-- info: 'Cert.KernelIdeal.Body.hw_out' depends on axioms: [propext, Classical.choice, Quot.sound] -/
#guard_msgs in #print axioms hw_out

end Cert.KernelIdeal.Body

end
-- ==== Proof.BodyDone.lean ====
import proofs.«900775_g7700000000000776_dist_diff_dit_htp_i_b2_s512_d768_hq4_v7x_i8_f32_1_alg».proof.Proof.BodyClose
import proofs.«900775_g7700000000000776_dist_diff_dit_htp_i_b2_s512_d768_hq4_v7x_i8_f32_1_alg».proof.Proof.BodyHw

/-! # The program's run and frame, nothing assumed

The block the body stores last is, at the two slices it has just read, the fourth row block of the result. -/

noncomputable section

namespace Cert.KernelIdeal.Body

open Idealize.ShloMosaic Idealize.ShloMosaic.TcCoe
open Idealize.SL Idealize.SL.Sem
open Cert.KernelIdeal Cert.KernelIdeal.Gen Cert.KernelIdeal.LaunchK

variable {F : FTy → Type} [FloatOps F]

/-- The last stored block's value. -/
theorem tailW_final (m : (ℓ : Loc nD τ sig) → Buf (Elt F) ℓ) (c : Dev nD) :
    tailW (insM m) c (Vals.A (insM m) 1 c 3 2 2) (Vals.R (insM m) 1 c 3 2 2) = Vals.outBlk (insM m) c 3 :=
  hw_out (insM m) c (tailW (insM m) c) (fun a b => rfl)

/-- Every weakly fair execution of the program terminates; every device's result array ends holding the result's block
    contents and its nine argument arrays what they held. -/
theorem run_kernel_done (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = Vals.outC (insM m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_kernel_closed m ρ (tailW_final m)

/-- The frame. -/
theorem frame_kernel_done (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_kernel_closed m ρ (tailW_final m)

end Cert.KernelIdeal.Body

/-- info: 'Cert.KernelIdeal.Body.run_kernel_done' depends on axioms: [propext, Classical.choice, Quot.sound] -/
#guard_msgs in #print axioms Cert.KernelIdeal.Body.run_kernel_done

/-- info: 'Cert.KernelIdeal.Body.frame_kernel_done' depends on axioms: [propext, Classical.choice, Quot.sound] -/
#guard_msgs in #print axioms Cert.KernelIdeal.Body.frame_kernel_done

end
-- ==== Proof.Bits.Vals.Tables.lean ====
import proofs.«900775_g7700000000000776_dist_diff_dit_htp_i_b2_s512_d768_hq4_v7x_i8_f32_1_alg».proof.Proof.Bits.Vals.Base

/-! The values of a device's own arguments, one definition per printed value, and the per-site tables: what each store of the
    body writes, as a composition of the skeleton's own payloads over the contents its loads read. -/

noncomputable section

namespace Cert.Kernel.Vals

open Idealize.ShloMosaic Cert.Kernel Cert.Kernel.Gen

variable {F : FTy → Type} [FloatOps F]

/-! ## Values of a device's own arguments (`vN` is the printed value `%N`) -/

def v14 (i : Ins F) : FVec F S2x512x768 .f32 := k0_pay2 i.w0
def v20 (i : Ins F) : FVec F S2x768 .f32 := k0_pay4 i.w5 i.w6
def v21 (i : Ins F) : FVec F S2x768 .f32 := k0_pay5 i.w5 i.w6
def v22 (i : Ins F) : FVec F S2x768 .f32 := k0_pay6 i.w5 i.w6
def v23 (i : Ins F) : FVec F S2x768 .f32 := k0_pay7 i.w5 i.w6
def v24 (i : Ins F) : FVec F S2x768 .f32 := k0_pay8 i.w5 i.w6
def v25 (i : Ins F) : FVec F S2x768 .f32 := k0_pay9 i.w5 i.w6
def v28 (i : Ins F) : FVec F S768x384 .bf16 := k0_pay10 i.w1
def v31 (i : Ins F) : FVec F S768x384 .bf16 := k0_pay11 i.w2
def v34 (i : Ins F) : FVec F S768x384 .bf16 := k0_pay12 i.w3
def v37 (i : Ins F) : FVec F S384x768 .bf16 := k0_pay13 i.w4
def v40 (i : Ins F) : FVec F S768x384 .bf16 := k0_pay14 i.w7
def v43 (i : Ins F) : FVec F S384x768 .bf16 := k0_pay15 i.w8
def v72 (i : Ins F) : FVec F S512x768 .f32 := k0_pay16 (v14 i) (v20 i)
def v77 (i : Ins F) : FVec F S512x768 .f32 := k0_pay17 (v21 i) (v72 i)
def v80 (i : Ins F) : FVec F S512x384 .bf16 := k0_pay18 (v21 i) (v31 i) (v72 i)
def v83 (i : Ins F) : FVec F S512x384 .bf16 := k0_pay19 (v21 i) (v34 i) (v72 i)
def v89 (i : Ins F) : FVec F S256x384 .bf16 := k0_pay20 (v21 i) (v28 i) (v72 i)
def v101 (i : Ins F) : FVec F S256x96 .f32 := k0_pay21 (v21 i) (v28 i) (v31 i) (v34 i) (v72 i)
def v113 (i : Ins F) : FVec F S256x96 .f32 := k0_pay22 (v21 i) (v28 i) (v31 i) (v34 i) (v72 i)
def v116 (i : Ins F) : FVec F S512x96 .bf16 := k0_pay23 (v21 i) (v34 i) (v72 i)
def v119 (i : Ins F) : FVec F S256x512 .f32 := k0_pay24 (v21 i) (v28 i) (v31 i) (v72 i)
def v120 (i : Ins F) : FVec F S256 .f32 := k0_pay25 (v21 i) (v28 i) (v31 i) (v72 i)
def v192 (i : Ins F) : FVec F S256x384 .bf16 := k0_pay30 (v28 i) (v77 i)
def v204 (i : Ins F) : FVec F S256x96 .f32 := k0_pay31 (v28 i) (v77 i) (v80 i) (v83 i)
def v216 (i : Ins F) : FVec F S256x96 .f32 := k0_pay32 (v28 i) (v77 i) (v80 i) (v83 i)
def v219 (i : Ins F) : FVec F S512x96 .bf16 := k0_pay33 (v83 i)
def v224 (i : Ins F) : FVec F S256x1 .f32 := k0_pay35 (v28 i) (v77 i) (v80 i)
def v225 (i : Ins F) : FVec F S256x512 .bf16 := k0_pay36 (v28 i) (v77 i) (v80 i)
def v405 (i : Ins F) : FVec F S512x768 .f32 := k0_pay46 (v14 i)
def v407 (i : Ins F) : FVec F S512x1 .f32 := k0_pay47 (v14 i)
def v422 (i : Ins F) : FVec F S512x768 .f32 := k0_pay48 (v20 i) (v21 i) (v405 i) (v407 i)
def v623 (i : Ins F) : FVec F S512x384 .bf16 := k0_pay57 (v31 i) (v422 i)
def v626 (i : Ins F) : FVec F S512x384 .bf16 := k0_pay58 (v34 i) (v422 i)
def v773 (i : Ins F) : FVec F S256x384 .bf16 := k0_pay63 (v28 i) (v422 i)
def v774 (i : Ins F) : FVec F S256x96 .bf16 := k0_pay64 (v28 i) (v422 i)
def v776 (i : Ins F) : FVec F S512x96 .bf16 := k0_pay65 (v626 i)
def v777 (i : Ins F) : FVec F S96x512 .bf16 := k0_pay66 (v623 i)
def v824 (i : Ins F) : FVec F S256x768 .f32 := k0_pay67 (v37 i) (v623 i) (v626 i) (v773 i) (v774 i) (v776 i) (v777 i)
def v918 (i : Ins F) : FVec F S256x384 .bf16 := k0_pay72 (v28 i) (v422 i)
def v919 (i : Ins F) : FVec F S256x96 .bf16 := k0_pay73 (v28 i) (v422 i)
def v920 (i : Ins F) : FVec F S512x96 .bf16 := k0_pay74 (v623 i)
def v921 (i : Ins F) : FVec F S512x96 .bf16 := k0_pay75 (v626 i)
def v968 (i : Ins F) : FVec F S256x384 .bf16 := k0_pay76 (v623 i) (v626 i) (v918 i) (v919 i) (v920 i) (v921 i)
def v1133 (i : Ins F) : FVec F S256x768 .f32 := k0_pay86 (v14 i)
def v1474 (i : Ins F) : FVec F S1x768 .f32 := k0_pay105 (v23 i)
def v2757 (i : Ins F) : FVec F S1x768 .f32 := k0_pay158 (v25 i)
def v2927 (i : Ins F) : FVec F S1x768 .f32 := k0_pay165 (v25 i)
def v2996 (i : Ins F) : FVec F S1x768 .f32 := k0_pay170 (v25 i)

/-! ## The per-site tables -/

/-- Part `p` of group `g`'s attention partial product, as first stored into the accumulator. -/
def att0 : Fin 4 → Fin 3 → Ins F → Acc F :=
  ![![fun i => (k0_pay27 (v37 i) (v80 i) (v83 i) (v89 i) (v101 i) (v113 i) (v116 i) (v119 i) (v120 i)),
      fun i => (k0_pay28 (v37 i) (v80 i) (v83 i) (v89 i) (v101 i) (v113 i) (v116 i) (v119 i) (v120 i)),
      fun i => (k0_pay29 (v37 i) (v80 i) (v83 i) (v89 i) (v101 i) (v113 i) (v116 i) (v119 i) (v120 i))],
    ![fun i => (k0_pay38 (v37 i) (v80 i) (v83 i) (v192 i) (v204 i) (v216 i) (v219 i) (v224 i) (v225 i)),
      fun i => (k0_pay39 (v37 i) (v80 i) (v83 i) (v192 i) (v204 i) (v216 i) (v219 i) (v224 i) (v225 i)),
      fun i => (k0_pay40 (v37 i) (v80 i) (v83 i) (v192 i) (v204 i) (v216 i) (v219 i) (v224 i) (v225 i))],
    ![fun i => (k0_pay69 (v824 i)),
      fun i => (k0_pay70 (v824 i)),
      fun i => (k0_pay71 (v824 i))],
    ![fun i => (k0_pay78 (v37 i) (v968 i) (constant S256x768 .f32 0x00000000#32)),
      fun i => (k0_pay79 (v37 i) (v968 i) (constant S256x768 .f32 0x00000000#32)),
      fun i => (k0_pay80 (v37 i) (v968 i) (constant S256x768 .f32 0x00000000#32))]]

/-- The add of step `s → s + 1` of round `r` on slice `[g, p]`: own contents `a`, received contents `b`. -/
def step : Fin 2 → Fin 4 → Fin 3 → Fin 2 → Acc F → Rs F → Acc F :=
  ![![![![fun a b => (k0_pay41 a b),
          fun a b => (k0_pay54 (k0_pay53 a b))],
        ![fun a b => (k0_pay42 a b),
          fun a b => (k0_pay55 a b)],
        ![fun a b => (k0_pay43 a b),
          fun a b => (k0_pay56 a b)]],
      ![![fun a b => (k0_pay49 a b),
          fun a b => (k0_pay59 a b)],
        ![fun a b => (k0_pay51 (k0_pay50 a b)),
          fun a b => (k0_pay61 (k0_pay60 a b))],
        ![fun a b => (k0_pay52 a b),
          fun a b => (k0_pay62 a b)]],
      ![![fun a b => (k0_pay82 (k0_pay81 a) b),
          fun a b => (k0_pay98 a b)],
        ![fun a b => (k0_pay83 a b),
          fun a b => (k0_pay99 a b)],
        ![fun a b => (k0_pay84 a b),
          fun a b => (k0_pay100 a b)]],
      ![![fun a b => (k0_pay95 (k0_pay94 a) b),
          fun a b => (k0_pay115 (k0_pay114 a b))],
        ![fun a b => (k0_pay96 a b),
          fun a b => (k0_pay116 a b)],
        ![fun a b => (k0_pay97 a b),
          fun a b => (k0_pay117 a b)]]],
    ![![![fun a b => (k0_pay111 a b),
          fun a b => (k0_pay128 a b)],
        ![fun a b => (k0_pay112 a b),
          fun a b => (k0_pay129 a b)],
        ![fun a b => (k0_pay113 a b),
          fun a b => (k0_pay131 (k0_pay130 a) b)]],
      ![![fun a b => (k0_pay125 (k0_pay124 a b)),
          fun a b => (k0_pay145 a b)],
        ![fun a b => (k0_pay126 a b),
          fun a b => (k0_pay146 a b)],
        ![fun a b => (k0_pay127 a b),
          fun a b => (k0_pay147 a b)]],
      ![![fun a b => (k0_pay141 a b),
          fun a b => (k0_pay153 a b)],
        ![fun a b => (k0_pay142 a b),
          fun a b => (k0_pay155 (k0_pay154 a) b)],
        ![fun a b => (k0_pay144 (k0_pay143 a) b),
          fun a b => (k0_pay156 a b)]],
      ![![fun a b => (k0_pay149 a b),
          fun a b => (k0_pay160 a b)],
        ![fun a b => (k0_pay150 a b),
          fun a b => (k0_pay161 a b)],
        ![fun a b => (k0_pay152 (k0_pay151 a) b),
          fun a b => (k0_pay163 (k0_pay162 a b))]]]]

/-- Group `g`'s residual stream after attention, from the own (`a`) and received (`b`) last-level slices of round 0. -/
def x1 : Fin 4 → Ins F → (Fin 3 → Acc F) → (Fin 3 → Rs F) → FVec F S256x768 .f32 :=
  ![fun i a b => (k0_pay87 (v22 i) (k0_pay85 (a 0) (b 0) (a 1) (b 1) (a 2) (b 2)) (v1133 i)),
    fun i a b => (k0_pay103 (v14 i) (v22 i) (k0_pay101 (a 0) (b 0)) (k0_pay102 (a 1)) (b 1) (a 2) (b 2)),
    fun i a b => (k0_pay118 (v14 i) (v22 i) (a 0) (b 0) (a 1) (b 1) (a 2) (b 2)),
    fun i a b => (k0_pay134 (v14 i) (v22 i) (k0_pay132 (a 0) (b 0)) (k0_pay133 (a 1)) (b 1) (a 2) (b 2))]

/-- Part `p` of group `g`'s feed-forward partial product, as stored into the accumulator for round 1. -/
def mlp0 : Fin 4 → Fin 3 → Ins F → (Fin 3 → Acc F) → (Fin 3 → Rs F) → Acc F :=
  ![![fun i a b => (k0_pay90 (k0_pay89 (v22 i) (v23 i) (v24 i) (v40 i) (v43 i) (k0_pay85 (a 0) (b 0) (a 1) (b 1) (a 2) (b 2)) (v1133 i))),
      fun i a b => (k0_pay91 (k0_pay88 (v22 i) (v23 i) (v24 i) (v40 i) (v43 i) (k0_pay85 (a 0) (b 0) (a 1) (b 1) (a 2) (b 2)) (v1133 i))),
      fun i a b => (k0_pay92 (k0_pay88 (v22 i) (v23 i) (v24 i) (v40 i) (v43 i) (k0_pay85 (a 0) (b 0) (a 1) (b 1) (a 2) (b 2)) (v1133 i)))],
    ![fun i a b => (k0_pay107 (v24 i) (v40 i) (v43 i) (k0_pay104 (v14 i) (v22 i) (k0_pay101 (a 0) (b 0)) (k0_pay102 (a 1)) (b 1) (a 2) (b 2)) (v1474 i) (Scalar.ofBits .f32 0x3F800000#32)),
      fun i a b => (k0_pay108 (v24 i) (v40 i) (v43 i) (k0_pay104 (v14 i) (v22 i) (k0_pay101 (a 0) (b 0)) (k0_pay102 (a 1)) (b 1) (a 2) (b 2)) (v1474 i) (Scalar.ofBits .f32 0x3F800000#32)),
      fun i a b => (k0_pay109 (v24 i) (v40 i) (v43 i) (k0_pay104 (v14 i) (v22 i) (k0_pay101 (a 0) (b 0)) (k0_pay102 (a 1)) (b 1) (a 2) (b 2)) (v1474 i) (Scalar.ofBits .f32 0x3F800000#32))],
    ![fun i a b => (k0_pay120 (v23 i) (v24 i) (v40 i) (v43 i) (k0_pay118 (v14 i) (v22 i) (a 0) (b 0) (a 1) (b 1) (a 2) (b 2))),
      fun i a b => (k0_pay121 (k0_pay119 (v23 i) (v24 i) (v40 i) (v43 i) (k0_pay118 (v14 i) (v22 i) (a 0) (b 0) (a 1) (b 1) (a 2) (b 2)))),
      fun i a b => (k0_pay122 (k0_pay119 (v23 i) (v24 i) (v40 i) (v43 i) (k0_pay118 (v14 i) (v22 i) (a 0) (b 0) (a 1) (b 1) (a 2) (b 2))))],
    ![fun i a b => (k0_pay137 (v24 i) (v40 i) (v43 i) (k0_pay135 (v14 i) (v22 i) (v23 i) (k0_pay132 (a 0) (b 0)) (k0_pay133 (a 1)) (b 1) (a 2) (b 2))),
      fun i a b => (k0_pay138 (v24 i) (v40 i) (v43 i) (k0_pay135 (v14 i) (v22 i) (v23 i) (k0_pay132 (a 0) (b 0)) (k0_pay133 (a 1)) (b 1) (a 2) (b 2))),
      fun i a b => (k0_pay139 (v24 i) (v40 i) (v43 i) (k0_pay135 (v14 i) (v22 i) (v23 i) (k0_pay132 (a 0) (b 0)) (k0_pay133 (a 1)) (b 1) (a 2) (b 2)))]]

/-- Group `g`'s output block from round 0's (`a`, `b`) and round 1's (`a'`, `b'`) last-level slices. -/
def outSite : Fin 4 → Ins F → (Fin 3 → Acc F) → (Fin 3 → Rs F) → (Fin 3 → Acc F) → (Fin 3 → Rs F) → FVec F S1x256x768 .f32 :=
  ![fun i a b a' b' => (k0_pay148 (v25 i) (k0_pay93 (k0_pay87 (v22 i) (k0_pay85 (a 0) (b 0) (a 1) (b 1) (a 2) (b 2)) (v1133 i))) (a' 0) (b' 0) (a' 1) (b' 1) (a' 2) (b' 2)),
    fun i a b a' b' => (k0_pay159 (k0_pay157 (k0_pay110 (k0_pay103 (v14 i) (v22 i) (k0_pay101 (a 0) (b 0)) (k0_pay102 (a 1)) (b 1) (a 2) (b 2)))) (v2757 i) (a' 0) (b' 0) (a' 1) (b' 1) (a' 2) (b' 2)),
    fun i a b a' b' => (k0_pay168 (k0_pay164 (k0_pay123 (k0_pay118 (v14 i) (v22 i) (a 0) (b 0) (a 1) (b 1) (a 2) (b 2)))) (v2927 i) (k0_pay166 (a' 0) (b' 0)) (k0_pay167 (a' 1) (b' 1)) (a' 2) (b' 2)),
    fun i a b a' b' => (k0_pay1 (k0_pay169 (k0_pay140 (k0_pay134 (v14 i) (v22 i) (k0_pay132 (a 0) (b 0)) (k0_pay133 (a 1)) (b 1) (a 2) (b 2)))) (v2996 i) (k0_pay171 (a' 0) (b' 0)) (k0_pay172 (a' 1) (b' 1)) (a' 2) (b' 2))]

/-! ## Each table read at its literal site -/

theorem att0_0_0 (i : Ins F) : att0 0 0 i = k0_pay27 (v37 i) (v80 i) (v83 i) (v89 i) (v101 i) (v113 i) (v116 i) (v119 i) (v120 i) := rfl
theorem att0_0_1 (i : Ins F) : att0 0 1 i = k0_pay28 (v37 i) (v80 i) (v83 i) (v89 i) (v101 i) (v113 i) (v116 i) (v119 i) (v120 i) := rfl
theorem att0_0_2 (i : Ins F) : att0 0 2 i = k0_pay29 (v37 i) (v80 i) (v83 i) (v89 i) (v101 i) (v113 i) (v116 i) (v119 i) (v120 i) := rfl
theorem att0_1_0 (i : Ins F) : att0 1 0 i = k0_pay38 (v37 i) (v80 i) (v83 i) (v192 i) (v204 i) (v216 i) (v219 i) (v224 i) (v225 i) := rfl
theorem att0_1_1 (i : Ins F) : att0 1 1 i = k0_pay39 (v37 i) (v80 i) (v83 i) (v192 i) (v204 i) (v216 i) (v219 i) (v224 i) (v225 i) := rfl
theorem att0_1_2 (i : Ins F) : att0 1 2 i = k0_pay40 (v37 i) (v80 i) (v83 i) (v192 i) (v204 i) (v216 i) (v219 i) (v224 i) (v225 i) := rfl
theorem att0_2_0 (i : Ins F) : att0 2 0 i = k0_pay69 (v824 i) := rfl
theorem att0_2_1 (i : Ins F) : att0 2 1 i = k0_pay70 (v824 i) := rfl
theorem att0_2_2 (i : Ins F) : att0 2 2 i = k0_pay71 (v824 i) := rfl
theorem att0_3_0 (i : Ins F) : att0 3 0 i = k0_pay78 (v37 i) (v968 i) (constant S256x768 .f32 0x00000000#32) := rfl
theorem att0_3_1 (i : Ins F) : att0 3 1 i = k0_pay79 (v37 i) (v968 i) (constant S256x768 .f32 0x00000000#32) := rfl
theorem att0_3_2 (i : Ins F) : att0 3 2 i = k0_pay80 (v37 i) (v968 i) (constant S256x768 .f32 0x00000000#32) := rfl
theorem step_0_0_0_0 (a : Acc F) (b : Rs F) : step 0 0 0 0 a b = k0_pay41 a b := rfl
theorem step_0_0_1_0 (a : Acc F) (b : Rs F) : step 0 0 1 0 a b = k0_pay42 a b := rfl
theorem step_0_0_2_0 (a : Acc F) (b : Rs F) : step 0 0 2 0 a b = k0_pay43 a b := rfl
theorem step_0_1_0_0 (a : Acc F) (b : Rs F) : step 0 1 0 0 a b = k0_pay49 a b := rfl
theorem step_0_1_1_0 (a : Acc F) (b : Rs F) : step 0 1 1 0 a b = k0_pay51 (k0_pay50 a b) := rfl
theorem step_0_1_2_0 (a : Acc F) (b : Rs F) : step 0 1 2 0 a b = k0_pay52 a b := rfl
theorem step_0_0_0_1 (a : Acc F) (b : Rs F) : step 0 0 0 1 a b = k0_pay54 (k0_pay53 a b) := rfl
theorem step_0_0_1_1 (a : Acc F) (b : Rs F) : step 0 0 1 1 a b = k0_pay55 a b := rfl
theorem step_0_0_2_1 (a : Acc F) (b : Rs F) : step 0 0 2 1 a b = k0_pay56 a b := rfl
theorem step_0_1_0_1 (a : Acc F) (b : Rs F) : step 0 1 0 1 a b = k0_pay59 a b := rfl
theorem step_0_1_1_1 (a : Acc F) (b : Rs F) : step 0 1 1 1 a b = k0_pay61 (k0_pay60 a b) := rfl
theorem step_0_1_2_1 (a : Acc F) (b : Rs F) : step 0 1 2 1 a b = k0_pay62 a b := rfl
theorem step_0_2_0_0 (a : Acc F) (b : Rs F) : step 0 2 0 0 a b = k0_pay82 (k0_pay81 a) b := rfl
theorem step_0_2_1_0 (a : Acc F) (b : Rs F) : step 0 2 1 0 a b = k0_pay83 a b := rfl
theorem step_0_2_2_0 (a : Acc F) (b : Rs F) : step 0 2 2 0 a b = k0_pay84 a b := rfl
theorem step_0_3_0_0 (a : Acc F) (b : Rs F) : step 0 3 0 0 a b = k0_pay95 (k0_pay94 a) b := rfl
theorem step_0_3_1_0 (a : Acc F) (b : Rs F) : step 0 3 1 0 a b = k0_pay96 a b := rfl
theorem step_0_3_2_0 (a : Acc F) (b : Rs F) : step 0 3 2 0 a b = k0_pay97 a b := rfl
theorem step_0_2_0_1 (a : Acc F) (b : Rs F) : step 0 2 0 1 a b = k0_pay98 a b := rfl
theorem step_0_2_1_1 (a : Acc F) (b : Rs F) : step 0 2 1 1 a b = k0_pay99 a b := rfl
theorem step_0_2_2_1 (a : Acc F) (b : Rs F) : step 0 2 2 1 a b = k0_pay100 a b := rfl
theorem step_1_0_0_0 (a : Acc F) (b : Rs F) : step 1 0 0 0 a b = k0_pay111 a b := rfl
theorem step_1_0_1_0 (a : Acc F) (b : Rs F) : step 1 0 1 0 a b = k0_pay112 a b := rfl
theorem step_1_0_2_0 (a : Acc F) (b : Rs F) : step 1 0 2 0 a b = k0_pay113 a b := rfl
theorem step_0_3_0_1 (a : Acc F) (b : Rs F) : step 0 3 0 1 a b = k0_pay115 (k0_pay114 a b) := rfl
theorem step_0_3_1_1 (a : Acc F) (b : Rs F) : step 0 3 1 1 a b = k0_pay116 a b := rfl
theorem step_0_3_2_1 (a : Acc F) (b : Rs F) : step 0 3 2 1 a b = k0_pay117 a b := rfl
theorem step_1_1_0_0 (a : Acc F) (b : Rs F) : step 1 1 0 0 a b = k0_pay125 (k0_pay124 a b) := rfl
theorem step_1_1_1_0 (a : Acc F) (b : Rs F) : step 1 1 1 0 a b = k0_pay126 a b := rfl
theorem step_1_1_2_0 (a : Acc F) (b : Rs F) : step 1 1 2 0 a b = k0_pay127 a b := rfl
theorem step_1_0_0_1 (a : Acc F) (b : Rs F) : step 1 0 0 1 a b = k0_pay128 a b := rfl
theorem step_1_0_1_1 (a : Acc F) (b : Rs F) : step 1 0 1 1 a b = k0_pay129 a b := rfl
theorem step_1_0_2_1 (a : Acc F) (b : Rs F) : step 1 0 2 1 a b = k0_pay131 (k0_pay130 a) b := rfl
theorem step_1_2_0_0 (a : Acc F) (b : Rs F) : step 1 2 0 0 a b = k0_pay141 a b := rfl
theorem step_1_2_1_0 (a : Acc F) (b : Rs F) : step 1 2 1 0 a b = k0_pay142 a b := rfl
theorem step_1_2_2_0 (a : Acc F) (b : Rs F) : step 1 2 2 0 a b = k0_pay144 (k0_pay143 a) b := rfl
theorem step_1_1_0_1 (a : Acc F) (b : Rs F) : step 1 1 0 1 a b = k0_pay145 a b := rfl
theorem step_1_1_1_1 (a : Acc F) (b : Rs F) : step 1 1 1 1 a b = k0_pay146 a b := rfl
theorem step_1_1_2_1 (a : Acc F) (b : Rs F) : step 1 1 2 1 a b = k0_pay147 a b := rfl
theorem step_1_3_0_0 (a : Acc F) (b : Rs F) : step 1 3 0 0 a b = k0_pay149 a b := rfl
theorem step_1_3_1_0 (a : Acc F) (b : Rs F) : step 1 3 1 0 a b = k0_pay150 a b := rfl
theorem step_1_3_2_0 (a : Acc F) (b : Rs F) : step 1 3 2 0 a b = k0_pay152 (k0_pay151 a) b := rfl
theorem step_1_2_0_1 (a : Acc F) (b : Rs F) : step 1 2 0 1 a b = k0_pay153 a b := rfl
theorem step_1_2_1_1 (a : Acc F) (b : Rs F) : step 1 2 1 1 a b = k0_pay155 (k0_pay154 a) b := rfl
theorem step_1_2_2_1 (a : Acc F) (b : Rs F) : step 1 2 2 1 a b = k0_pay156 a b := rfl
theorem step_1_3_0_1 (a : Acc F) (b : Rs F) : step 1 3 0 1 a b = k0_pay160 a b := rfl
theorem step_1_3_1_1 (a : Acc F) (b : Rs F) : step 1 3 1 1 a b = k0_pay161 a b := rfl
theorem step_1_3_2_1 (a : Acc F) (b : Rs F) : step 1 3 2 1 a b = k0_pay163 (k0_pay162 a b) := rfl
theorem x1_0 (i : Ins F) (a : Fin 3 → Acc F) (b : Fin 3 → Rs F) : x1 0 i a b = k0_pay87 (v22 i) (k0_pay85 (a 0) (b 0) (a 1) (b 1) (a 2) (b 2)) (v1133 i) := rfl
theorem x1_1 (i : Ins F) (a : Fin 3 → Acc F) (b : Fin 3 → Rs F) : x1 1 i a b = k0_pay103 (v14 i) (v22 i) (k0_pay101 (a 0) (b 0)) (k0_pay102 (a 1)) (b 1) (a 2) (b 2) := rfl
theorem x1_2 (i : Ins F) (a : Fin 3 → Acc F) (b : Fin 3 → Rs F) : x1 2 i a b = k0_pay118 (v14 i) (v22 i) (a 0) (b 0) (a 1) (b 1) (a 2) (b 2) := rfl
theorem x1_3 (i : Ins F) (a : Fin 3 → Acc F) (b : Fin 3 → Rs F) : x1 3 i a b = k0_pay134 (v14 i) (v22 i) (k0_pay132 (a 0) (b 0)) (k0_pay133 (a 1)) (b 1) (a 2) (b 2) := rfl
theorem mlp0_0_0 (i : Ins F) (a : Fin 3 → Acc F) (b : Fin 3 → Rs F) : mlp0 0 0 i a b = k0_pay90 (k0_pay89 (v22 i) (v23 i) (v24 i) (v40 i) (v43 i) (k0_pay85 (a 0) (b 0) (a 1) (b 1) (a 2) (b 2)) (v1133 i)) := rfl
theorem mlp0_0_1 (i : Ins F) (a : Fin 3 → Acc F) (b : Fin 3 → Rs F) : mlp0 0 1 i a b = k0_pay91 (k0_pay88 (v22 i) (v23 i) (v24 i) (v40 i) (v43 i) (k0_pay85 (a 0) (b 0) (a 1) (b 1) (a 2) (b 2)) (v1133 i)) := rfl
theorem mlp0_0_2 (i : Ins F) (a : Fin 3 → Acc F) (b : Fin 3 → Rs F) : mlp0 0 2 i a b = k0_pay92 (k0_pay88 (v22 i) (v23 i) (v24 i) (v40 i) (v43 i) (k0_pay85 (a 0) (b 0) (a 1) (b 1) (a 2) (b 2)) (v1133 i)) := rfl
theorem mlp0_1_0 (i : Ins F) (a : Fin 3 → Acc F) (b : Fin 3 → Rs F) : mlp0 1 0 i a b = k0_pay107 (v24 i) (v40 i) (v43 i) (k0_pay104 (v14 i) (v22 i) (k0_pay101 (a 0) (b 0)) (k0_pay102 (a 1)) (b 1) (a 2) (b 2)) (v1474 i) (Scalar.ofBits .f32 0x3F800000#32) := rfl
theorem mlp0_1_1 (i : Ins F) (a : Fin 3 → Acc F) (b : Fin 3 → Rs F) : mlp0 1 1 i a b = k0_pay108 (v24 i) (v40 i) (v43 i) (k0_pay104 (v14 i) (v22 i) (k0_pay101 (a 0) (b 0)) (k0_pay102 (a 1)) (b 1) (a 2) (b 2)) (v1474 i) (Scalar.ofBits .f32 0x3F800000#32) := rfl
theorem mlp0_1_2 (i : Ins F) (a : Fin 3 → Acc F) (b : Fin 3 → Rs F) : mlp0 1 2 i a b = k0_pay109 (v24 i) (v40 i) (v43 i) (k0_pay104 (v14 i) (v22 i) (k0_pay101 (a 0) (b 0)) (k0_pay102 (a 1)) (b 1) (a 2) (b 2)) (v1474 i) (Scalar.ofBits .f32 0x3F800000#32) := rfl
theorem mlp0_2_0 (i : Ins F) (a : Fin 3 → Acc F) (b : Fin 3 → Rs F) : mlp0 2 0 i a b = k0_pay120 (v23 i) (v24 i) (v40 i) (v43 i) (k0_pay118 (v14 i) (v22 i) (a 0) (b 0) (a 1) (b 1) (a 2) (b 2)) := rfl
theorem mlp0_2_1 (i : Ins F) (a : Fin 3 → Acc F) (b : Fin 3 → Rs F) : mlp0 2 1 i a b = k0_pay121 (k0_pay119 (v23 i) (v24 i) (v40 i) (v43 i) (k0_pay118 (v14 i) (v22 i) (a 0) (b 0) (a 1) (b 1) (a 2) (b 2))) := rfl
theorem mlp0_2_2 (i : Ins F) (a : Fin 3 → Acc F) (b : Fin 3 → Rs F) : mlp0 2 2 i a b = k0_pay122 (k0_pay119 (v23 i) (v24 i) (v40 i) (v43 i) (k0_pay118 (v14 i) (v22 i) (a 0) (b 0) (a 1) (b 1) (a 2) (b 2))) := rfl
theorem mlp0_3_0 (i : Ins F) (a : Fin 3 → Acc F) (b : Fin 3 → Rs F) : mlp0 3 0 i a b = k0_pay137 (v24 i) (v40 i) (v43 i) (k0_pay135 (v14 i) (v22 i) (v23 i) (k0_pay132 (a 0) (b 0)) (k0_pay133 (a 1)) (b 1) (a 2) (b 2)) := rfl
theorem mlp0_3_1 (i : Ins F) (a : Fin 3 → Acc F) (b : Fin 3 → Rs F) : mlp0 3 1 i a b = k0_pay138 (v24 i) (v40 i) (v43 i) (k0_pay135 (v14 i) (v22 i) (v23 i) (k0_pay132 (a 0) (b 0)) (k0_pay133 (a 1)) (b 1) (a 2) (b 2)) := rfl
theorem mlp0_3_2 (i : Ins F) (a : Fin 3 → Acc F) (b : Fin 3 → Rs F) : mlp0 3 2 i a b = k0_pay139 (v24 i) (v40 i) (v43 i) (k0_pay135 (v14 i) (v22 i) (v23 i) (k0_pay132 (a 0) (b 0)) (k0_pay133 (a 1)) (b 1) (a 2) (b 2)) := rfl
theorem outSite_0 (i : Ins F) (a : Fin 3 → Acc F) (b : Fin 3 → Rs F) (a' : Fin 3 → Acc F) (b' : Fin 3 → Rs F) : outSite 0 i a b a' b' = k0_pay148 (v25 i) (k0_pay93 (k0_pay87 (v22 i) (k0_pay85 (a 0) (b 0) (a 1) (b 1) (a 2) (b 2)) (v1133 i))) (a' 0) (b' 0) (a' 1) (b' 1) (a' 2) (b' 2) := rfl
theorem outSite_1 (i : Ins F) (a : Fin 3 → Acc F) (b : Fin 3 → Rs F) (a' : Fin 3 → Acc F) (b' : Fin 3 → Rs F) : outSite 1 i a b a' b' = k0_pay159 (k0_pay157 (k0_pay110 (k0_pay103 (v14 i) (v22 i) (k0_pay101 (a 0) (b 0)) (k0_pay102 (a 1)) (b 1) (a 2) (b 2)))) (v2757 i) (a' 0) (b' 0) (a' 1) (b' 1) (a' 2) (b' 2) := rfl
theorem outSite_2 (i : Ins F) (a : Fin 3 → Acc F) (b : Fin 3 → Rs F) (a' : Fin 3 → Acc F) (b' : Fin 3 → Rs F) : outSite 2 i a b a' b' = k0_pay168 (k0_pay164 (k0_pay123 (k0_pay118 (v14 i) (v22 i) (a 0) (b 0) (a 1) (b 1) (a 2) (b 2)))) (v2927 i) (k0_pay166 (a' 0) (b' 0)) (k0_pay167 (a' 1) (b' 1)) (a' 2) (b' 2) := rfl
theorem outSite_3 (i : Ins F) (a : Fin 3 → Acc F) (b : Fin 3 → Rs F) (a' : Fin 3 → Acc F) (b' : Fin 3 → Rs F) : outSite 3 i a b a' b' = k0_pay1 (k0_pay169 (k0_pay140 (k0_pay134 (v14 i) (v22 i) (k0_pay132 (a 0) (b 0)) (k0_pay133 (a 1)) (b 1) (a 2) (b 2)))) (v2996 i) (k0_pay171 (a' 0) (b' 0)) (k0_pay172 (a' 1) (b' 1)) (a' 2) (b' 2) := rfl

end Cert.Kernel.Vals
-- ==== Proof.Bits.Mesh.lean ====
import proofs.«900775_g7700000000000776_dist_diff_dit_htp_i_b2_s512_d768_hq4_v7x_i8_f32_1_alg».proof.Proof.Gen.Kernel

/-! The eight devices are the vertices of a cube: a device's id is three bits, and the kernel talks to the three
    devices whose id differs from its own by one of the masks 1, 3, 4. These three masks are a basis of the
    three-bit vectors over the field of two elements, so exchanging along them in any order reaches every device.
    Each exchange is with `peer j c`, the device `c XOR mask j`; exchanging twice along one mask returns to `c`. -/

namespace Cert.Kernel.Mesh

open Idealize.ShloMosaic Cert.Kernel Cert.Kernel.Gen

/-- The three masks, in the order the kernel lists them. -/
def mask : Fin 3 → Nat := ![1, 3, 4]
theorem xor_lt : ∀ (j : Fin 3) (c : Dev nD), c.val ^^^ mask j < nD := by decide
/-- The device across mask `j` from `c`. -/
def peer (j : Fin 3) (c : Dev nD) : Dev nD := ⟨c.val ^^^ mask j, xor_lt j c⟩
theorem peer_peer : ∀ (j : Fin 3) (c : Dev nD), peer j (peer j c) = c := by decide
theorem peer_ne : ∀ (j : Fin 3) (c : Dev nD), peer j c ≠ c := by decide
theorem peer_ne_peer : ∀ (j j' : Fin 3) (c : Dev nD), j ≠ j' → peer j c ≠ peer j' c := by decide
theorem peer_comm : ∀ (j j' : Fin 3) (c : Dev nD), peer j (peer j' c) = peer j' (peer j c) := by decide
/-- Every device is reached from `c` by a subset of the three exchanges: the masks span the cube. -/
theorem span : ∀ c e : Dev nD, ∃ b0 b1 b2 : Bool, e = (if b2 then peer 2 else id) ((if b1 then peer 1 else id) ((if b0 then peer 0 else id) c)) := by decide
/-- Part `p` exchanges along mask `(p + s) mod 3` at step `s`: the three parts use the three masks in rotated orders. -/
def axisOf (p s : Fin 3) : Fin 3 := ⟨(p.val + s.val) % 3, Nat.mod_lt _ (by decide)⟩
theorem axisOf_inj_p : ∀ (s p p' : Fin 3), axisOf p s = axisOf p' s → p = p' := by decide
theorem axisOf_inj_s : ∀ (p s s' : Fin 3), axisOf p s = axisOf p s' → s = s' := by decide
/-- The device part `p` is exchanged with at step `s`. -/
def partner (p s : Fin 3) (c : Dev nD) : Dev nD := peer (axisOf p s) c
theorem partner_partner (p s : Fin 3) (c : Dev nD) : partner p s (partner p s c) = c := peer_peer _ c

/-! The printed device chains: each computes `(c mod 8) XOR mask` on 32-bit words. -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 2 c := by revert c; decide +kernel
theorem dev10_eq (c : Dev nD) : (⟨k0_dev10 c, k0_dev10_lt c⟩ : Dev nD) = peer 1 c := by revert c; decide +kernel
theorem dev11_eq (c : Dev nD) : (⟨k0_dev11 c, k0_dev11_lt c⟩ : Dev nD) = peer 2 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 1 c := by revert c; decide +kernel
theorem dev14_eq (c : Dev nD) : (⟨k0_dev14 c, k0_dev14_lt c⟩ : Dev nD) = peer 2 c := by revert c; decide +kernel
theorem dev15_eq (c : Dev nD) : (⟨k0_dev15 c, k0_dev15_lt c⟩ : Dev nD) = peer 0 c := by revert c; decide +kernel
theorem dev16_eq (c : Dev nD) : (⟨k0_dev16 c, k0_dev16_lt c⟩ : Dev nD) = peer 2 c := by revert c; decide +kernel
theorem dev17_eq (c : Dev nD) : (⟨k0_dev17 c, k0_dev17_lt c⟩ : Dev nD) = peer 0 c := by revert c; decide +kernel
theorem dev18_eq (c : Dev nD) : (⟨k0_dev18 c, k0_dev18_lt c⟩ : Dev nD) = peer 1 c := by revert c; decide +kernel
theorem dev19_eq (c : Dev nD) : (⟨k0_dev19 c, k0_dev19_lt c⟩ : Dev nD) = peer 2 c := by revert c; decide +kernel
theorem dev20_eq (c : Dev nD) : (⟨k0_dev20 c, k0_dev20_lt c⟩ : Dev nD) = peer 0 c := by revert c; decide +kernel
theorem dev21_eq (c : Dev nD) : (⟨k0_dev21 c, k0_dev21_lt c⟩ : Dev nD) = peer 1 c := by revert c; decide +kernel
theorem dev22_eq (c : Dev nD) : (⟨k0_dev22 c, k0_dev22_lt c⟩ : Dev nD) = peer 0 c := by revert c; decide +kernel
theorem dev23_eq (c : Dev nD) : (⟨k0_dev23 c, k0_dev23_lt c⟩ : Dev nD) = peer 1 c := by revert c; decide +kernel
theorem dev24_eq (c : Dev nD) : (⟨k0_dev24 c, k0_dev24_lt c⟩ : Dev nD) = peer 2 c := by revert c; decide +kernel
theorem dev25_eq (c : Dev nD) : (⟨k0_dev25 c, k0_dev25_lt c⟩ : Dev nD) = peer 0 c := by revert c; decide +kernel
theorem dev26_eq (c : Dev nD) : (⟨k0_dev26 c, k0_dev26_lt c⟩ : Dev nD) = peer 1 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 1 c := by revert c; decide +kernel
theorem dev29_eq (c : Dev nD) : (⟨k0_dev29 c, k0_dev29_lt c⟩ : Dev nD) = peer 2 c := by revert c; decide +kernel
theorem dev30_eq (c : Dev nD) : (⟨k0_dev30 c, k0_dev30_lt c⟩ : Dev nD) = peer 0 c := by revert c; decide +kernel
theorem dev31_eq (c : Dev nD) : (⟨k0_dev31 c, k0_dev31_lt c⟩ : Dev nD) = peer 0 c := by revert c; decide +kernel
theorem dev32_eq (c : Dev nD) : (⟨k0_dev32 c, k0_dev32_lt c⟩ : Dev nD) = peer 1 c := by revert c; decide +kernel
theorem dev33_eq (c : Dev nD) : (⟨k0_dev33 c, k0_dev33_lt c⟩ : Dev nD) = peer 2 c := by revert c; decide +kernel
theorem dev34_eq (c : Dev nD) : (⟨k0_dev34 c, k0_dev34_lt c⟩ : Dev nD) = peer 1 c := by revert c; decide +kernel
theorem dev35_eq (c : Dev nD) : (⟨k0_dev35 c, k0_dev35_lt c⟩ : Dev nD) = peer 2 c := by revert c; decide +kernel
theorem dev36_eq (c : Dev nD) : (⟨k0_dev36 c, k0_dev36_lt c⟩ : Dev nD) = peer 0 c := by revert c; decide +kernel
theorem dev37_eq (c : Dev nD) : (⟨k0_dev37 c, k0_dev37_lt c⟩ : Dev nD) = peer 2 c := by revert c; decide +kernel
theorem dev38_eq (c : Dev nD) : (⟨k0_dev38 c, k0_dev38_lt c⟩ : Dev nD) = peer 0 c := by revert c; decide +kernel
theorem dev39_eq (c : Dev nD) : (⟨k0_dev39 c, k0_dev39_lt c⟩ : Dev nD) = peer 1 c := by revert c; decide +kernel
theorem dev40_eq (c : Dev nD) : (⟨k0_dev40 c, k0_dev40_lt c⟩ : Dev nD) = peer 0 c := by revert c; decide +kernel
theorem dev41_eq (c : Dev nD) : (⟨k0_dev41 c, k0_dev41_lt c⟩ : Dev nD) = peer 1 c := by revert c; decide +kernel
theorem dev42_eq (c : Dev nD) : (⟨k0_dev42 c, k0_dev42_lt c⟩ : Dev nD) = peer 2 c := by revert c; decide +kernel
theorem dev43_eq (c : Dev nD) : (⟨k0_dev43 c, k0_dev43_lt c⟩ : Dev nD) = peer 1 c := by revert c; decide +kernel
theorem dev44_eq (c : Dev nD) : (⟨k0_dev44 c, k0_dev44_lt c⟩ : Dev nD) = peer 2 c := by revert c; decide +kernel
theorem dev45_eq (c : Dev nD) : (⟨k0_dev45 c, k0_dev45_lt c⟩ : Dev nD) = peer 0 c := by revert c; decide +kernel
theorem dev46_eq (c : Dev nD) : (⟨k0_dev46 c, k0_dev46_lt c⟩ : Dev nD) = peer 2 c := by revert c; decide +kernel
theorem dev47_eq (c : Dev nD) : (⟨k0_dev47 c, k0_dev47_lt c⟩ : Dev nD) = peer 0 c := by revert c; decide +kernel
theorem dev48_eq (c : Dev nD) : (⟨k0_dev48 c, k0_dev48_lt c⟩ : Dev nD) = peer 1 c := by revert c; decide +kernel
theorem dev49_eq (c : Dev nD) : (⟨k0_dev49 c, k0_dev49_lt c⟩ : Dev nD) = peer 0 c := by revert c; decide +kernel
theorem dev50_eq (c : Dev nD) : (⟨k0_dev50 c, k0_dev50_lt c⟩ : Dev nD) = peer 1 c := by revert c; decide +kernel
theorem dev51_eq (c : Dev nD) : (⟨k0_dev51 c, k0_dev51_lt c⟩ : Dev nD) = peer 2 c := by revert c; decide +kernel
theorem dev52_eq (c : Dev nD) : (⟨k0_dev52 c, k0_dev52_lt c⟩ : Dev nD) = peer 1 c := by revert c; decide +kernel
theorem dev53_eq (c : Dev nD) : (⟨k0_dev53 c, k0_dev53_lt c⟩ : Dev nD) = peer 2 c := by revert c; decide +kernel
theorem dev54_eq (c : Dev nD) : (⟨k0_dev54 c, k0_dev54_lt c⟩ : Dev nD) = peer 0 c := by revert c; decide +kernel
theorem dev55_eq (c : Dev nD) : (⟨k0_dev55 c, k0_dev55_lt c⟩ : Dev nD) = peer 2 c := by revert c; decide +kernel
theorem dev56_eq (c : Dev nD) : (⟨k0_dev56 c, k0_dev56_lt c⟩ : Dev nD) = peer 0 c := by revert c; decide +kernel
theorem dev57_eq (c : Dev nD) : (⟨k0_dev57 c, k0_dev57_lt c⟩ : Dev nD) = peer 1 c := by revert c; decide +kernel
theorem dev58_eq (c : Dev nD) : (⟨k0_dev58 c, k0_dev58_lt c⟩ : Dev nD) = peer 0 c := by revert c; decide +kernel
theorem dev59_eq (c : Dev nD) : (⟨k0_dev59 c, k0_dev59_lt c⟩ : Dev nD) = peer 1 c := by revert c; decide +kernel
theorem dev60_eq (c : Dev nD) : (⟨k0_dev60 c, k0_dev60_lt c⟩ : Dev nD) = peer 2 c := by revert c; decide +kernel
theorem dev61_eq (c : Dev nD) : (⟨k0_dev61 c, k0_dev61_lt c⟩ : Dev nD) = peer 1 c := by revert c; decide +kernel
theorem dev62_eq (c : Dev nD) : (⟨k0_dev62 c, k0_dev62_lt c⟩ : Dev nD) = peer 2 c := by revert c; decide +kernel
theorem dev63_eq (c : Dev nD) : (⟨k0_dev63 c, k0_dev63_lt c⟩ : Dev nD) = peer 0 c := by revert c; decide +kernel
theorem dev64_eq (c : Dev nD) : (⟨k0_dev64 c, k0_dev64_lt c⟩ : Dev nD) = peer 2 c := by revert c; decide +kernel
theorem dev65_eq (c : Dev nD) : (⟨k0_dev65 c, k0_dev65_lt c⟩ : Dev nD) = peer 0 c := by revert c; decide +kernel
theorem dev66_eq (c : Dev nD) : (⟨k0_dev66 c, k0_dev66_lt c⟩ : Dev nD) = peer 1 c := by revert c; decide +kernel
theorem dev67_eq (c : Dev nD) : (⟨k0_dev67 c, k0_dev67_lt c⟩ : Dev nD) = peer 1 c := by revert c; decide +kernel
theorem dev68_eq (c : Dev nD) : (⟨k0_dev68 c, k0_dev68_lt c⟩ : Dev nD) = peer 2 c := by revert c; decide +kernel
theorem dev69_eq (c : Dev nD) : (⟨k0_dev69 c, k0_dev69_lt c⟩ : Dev nD) = peer 0 c := by revert c; decide +kernel
theorem dev70_eq (c : Dev nD) : (⟨k0_dev70 c, k0_dev70_lt c⟩ : Dev nD) = peer 2 c := by revert c; decide +kernel
theorem dev71_eq (c : Dev nD) : (⟨k0_dev71 c, k0_dev71_lt c⟩ : Dev nD) = peer 0 c := by revert c; decide +kernel
theorem dev72_eq (c : Dev nD) : (⟨k0_dev72 c, k0_dev72_lt c⟩ : Dev nD) = peer 1 c := by revert c; decide +kernel
theorem dev73_eq (c : Dev nD) : (⟨k0_dev73 c, k0_dev73_lt c⟩ : Dev nD) = peer 2 c := by revert c; decide +kernel
theorem dev74_eq (c : Dev nD) : (⟨k0_dev74 c, k0_dev74_lt c⟩ : Dev nD) = peer 0 c := by revert c; decide +kernel
theorem dev75_eq (c : Dev nD) : (⟨k0_dev75 c, k0_dev75_lt c⟩ : Dev nD) = peer 1 c := by revert c; decide +kernel
theorem dev76_eq (c : Dev nD) : (⟨k0_dev76 c, k0_dev76_lt c⟩ : Dev nD) = peer 0 c := by revert c; decide +kernel
theorem dev77_eq (c : Dev nD) : (⟨k0_dev77 c, k0_dev77_lt c⟩ : Dev nD) = peer 1 c := by revert c; decide +kernel
theorem dev78_eq (c : Dev nD) : (⟨k0_dev78 c, k0_dev78_lt c⟩ : Dev nD) = peer 2 c := by revert c; decide +kernel

end Cert.Kernel.Mesh
-- ==== Proof.Bits.Vals.Live.lean ====
import proofs.«900775_g7700000000000776_dist_diff_dit_htp_i_b2_s512_d768_hq4_v7x_i8_f32_1_alg».proof.Proof.Bits.Vals

/-! One name for every value that is live where one printed part of the body ends and the next begins: `lvN I c` is the printed
    value `%N` on device `c` of the mesh `I` (a float vector), `lwN c` the printed word `%N`; the device itself is `c`. Each is the
    skeleton's own payload over the names before it, and reads back by unfolding. -/

noncomputable section

namespace Cert.Kernel.Vals

open Idealize.ShloMosaic Cert.Kernel Cert.Kernel.Gen Cert.Kernel.Mesh

variable {F : FTy → Type} [FloatOps F]

/-! ## Words -/

def lw2 (c : Dev nD) : BitVec 32 := Scalar.remsi (Scalar.divsi (Dev.word c) 1#32) 8#32
theorem lw2_eq (c : Dev nD) : lw2 c = Scalar.remsi (Scalar.divsi (Dev.word c) 1#32) 8#32 := rfl
def lw154 (c : Dev nD) : BitVec 32 := Scalar.xori (lw2 c) 1#32
theorem lw154_eq (c : Dev nD) : lw154 c = Scalar.xori (lw2 c) 1#32 := rfl
def lw165 (c : Dev nD) : BitVec 32 := Scalar.xori (lw2 c) 3#32
theorem lw165_eq (c : Dev nD) : lw165 c = Scalar.xori (lw2 c) 3#32 := rfl
def lw176 (c : Dev nD) : BitVec 32 := Scalar.xori (lw2 c) 4#32
theorem lw176_eq (c : Dev nD) : lw176 c = Scalar.xori (lw2 c) 4#32 := rfl
def lwc0_i32_241 (c : Dev nD) : BitVec 32 := 0#32
theorem lwc0_i32_241_eq (c : Dev nD) : lwc0_i32_241 c = 0#32 := rfl
def lw257 (c : Dev nD) : BitVec 32 := Scalar.xori (lw2 c) 1#32
theorem lw257_eq (c : Dev nD) : lw257 c = Scalar.xori (lw2 c) 1#32 := rfl
def lw268 (c : Dev nD) : BitVec 32 := Scalar.xori (lw2 c) 3#32
theorem lw268_eq (c : Dev nD) : lw268 c = Scalar.xori (lw2 c) 3#32 := rfl
def lw279 (c : Dev nD) : BitVec 32 := Scalar.xori (lw2 c) 4#32
theorem lw279_eq (c : Dev nD) : lw279 c = Scalar.xori (lw2 c) 4#32 := rfl
def lw324 (c : Dev nD) : BitVec 32 := Scalar.muli (lw176 c) 1#32
theorem lw324_eq (c : Dev nD) : lw324 c = Scalar.muli (lw176 c) 1#32 := rfl
def lw356 (c : Dev nD) : BitVec 32 := Scalar.xori (lw2 c) 3#32
theorem lw356_eq (c : Dev nD) : lw356 c = Scalar.xori (lw2 c) 3#32 := rfl
def lw367 (c : Dev nD) : BitVec 32 := Scalar.xori (lw2 c) 4#32
theorem lw367_eq (c : Dev nD) : lw367 c = Scalar.xori (lw2 c) 4#32 := rfl
def lw378 (c : Dev nD) : BitVec 32 := Scalar.xori (lw2 c) 1#32
theorem lw378_eq (c : Dev nD) : lw378 c = Scalar.xori (lw2 c) 1#32 := rfl
def lw489 (c : Dev nD) : BitVec 32 := Scalar.xori (lw2 c) 3#32
theorem lw489_eq (c : Dev nD) : lw489 c = Scalar.xori (lw2 c) 3#32 := rfl
def lw500 (c : Dev nD) : BitVec 32 := Scalar.xori (lw2 c) 4#32
theorem lw500_eq (c : Dev nD) : lw500 c = Scalar.xori (lw2 c) 4#32 := rfl
def lw511 (c : Dev nD) : BitVec 32 := Scalar.xori (lw2 c) 1#32
theorem lw511_eq (c : Dev nD) : lw511 c = Scalar.xori (lw2 c) 1#32 := rfl
def lw588 (c : Dev nD) : BitVec 32 := Scalar.xori (lw2 c) 4#32
theorem lw588_eq (c : Dev nD) : lw588 c = Scalar.xori (lw2 c) 4#32 := rfl
def lw599 (c : Dev nD) : BitVec 32 := Scalar.xori (lw2 c) 1#32
theorem lw599_eq (c : Dev nD) : lw599 c = Scalar.xori (lw2 c) 1#32 := rfl
def lw610 (c : Dev nD) : BitVec 32 := Scalar.xori (lw2 c) 3#32
theorem lw610_eq (c : Dev nD) : lw610 c = Scalar.xori (lw2 c) 3#32 := rfl
def lw693 (c : Dev nD) : BitVec 32 := Scalar.xori (lw2 c) 4#32
theorem lw693_eq (c : Dev nD) : lw693 c = Scalar.xori (lw2 c) 4#32 := rfl
def lw704 (c : Dev nD) : BitVec 32 := Scalar.xori (lw2 c) 1#32
theorem lw704_eq (c : Dev nD) : lw704 c = Scalar.xori (lw2 c) 1#32 := rfl
def lw715 (c : Dev nD) : BitVec 32 := Scalar.xori (lw2 c) 3#32
theorem lw715_eq (c : Dev nD) : lw715 c = Scalar.xori (lw2 c) 3#32 := rfl
def lw838 (c : Dev nD) : BitVec 32 := Scalar.xori (lw2 c) 1#32
theorem lw838_eq (c : Dev nD) : lw838 c = Scalar.xori (lw2 c) 1#32 := rfl
def lw849 (c : Dev nD) : BitVec 32 := Scalar.xori (lw2 c) 3#32
theorem lw849_eq (c : Dev nD) : lw849 c = Scalar.xori (lw2 c) 3#32 := rfl
def lw860 (c : Dev nD) : BitVec 32 := Scalar.xori (lw2 c) 4#32
theorem lw860_eq (c : Dev nD) : lw860 c = Scalar.xori (lw2 c) 4#32 := rfl
def lw983 (c : Dev nD) : BitVec 32 := Scalar.xori (lw2 c) 1#32
theorem lw983_eq (c : Dev nD) : lw983 c = Scalar.xori (lw2 c) 1#32 := rfl
def lw994 (c : Dev nD) : BitVec 32 := Scalar.xori (lw2 c) 3#32
theorem lw994_eq (c : Dev nD) : lw994 c = Scalar.xori (lw2 c) 3#32 := rfl
def lw1005 (c : Dev nD) : BitVec 32 := Scalar.xori (lw2 c) 4#32
theorem lw1005_eq (c : Dev nD) : lw1005 c = Scalar.xori (lw2 c) 4#32 := rfl
def lw1082 (c : Dev nD) : BitVec 32 := Scalar.xori (lw2 c) 3#32
theorem lw1082_eq (c : Dev nD) : lw1082 c = Scalar.xori (lw2 c) 3#32 := rfl
def lw1093 (c : Dev nD) : BitVec 32 := Scalar.xori (lw2 c) 4#32
theorem lw1093_eq (c : Dev nD) : lw1093 c = Scalar.xori (lw2 c) 4#32 := rfl
def lw1104 (c : Dev nD) : BitVec 32 := Scalar.xori (lw2 c) 1#32
theorem lw1104_eq (c : Dev nD) : lw1104 c = Scalar.xori (lw2 c) 1#32 := rfl
def lw1105 (c : Dev nD) : BitVec 32 := Scalar.muli (lw1104 c) 1#32
theorem lw1105_eq (c : Dev nD) : lw1105 c = Scalar.muli (lw1104 c) 1#32 := rfl
def lw1196 (c : Dev nD) : BitVec 32 := Scalar.xori (lw2 c) 1#32
theorem lw1196_eq (c : Dev nD) : lw1196 c = Scalar.xori (lw2 c) 1#32 := rfl
def lw1207 (c : Dev nD) : BitVec 32 := Scalar.xori (lw2 c) 3#32
theorem lw1207_eq (c : Dev nD) : lw1207 c = Scalar.xori (lw2 c) 3#32 := rfl
def lw1218 (c : Dev nD) : BitVec 32 := Scalar.xori (lw2 c) 4#32
theorem lw1218_eq (c : Dev nD) : lw1218 c = Scalar.xori (lw2 c) 4#32 := rfl
def lwc0_i32_1237 (c : Dev nD) : BitVec 32 := 0#32
theorem lwc0_i32_1237_eq (c : Dev nD) : lwc0_i32_1237 c = 0#32 := rfl
def lw1295 (c : Dev nD) : BitVec 32 := Scalar.xori (lw2 c) 3#32
theorem lw1295_eq (c : Dev nD) : lw1295 c = Scalar.xori (lw2 c) 3#32 := rfl
def lw1306 (c : Dev nD) : BitVec 32 := Scalar.xori (lw2 c) 4#32
theorem lw1306_eq (c : Dev nD) : lw1306 c = Scalar.xori (lw2 c) 4#32 := rfl
def lw1317 (c : Dev nD) : BitVec 32 := Scalar.xori (lw2 c) 1#32
theorem lw1317_eq (c : Dev nD) : lw1317 c = Scalar.xori (lw2 c) 1#32 := rfl
def lw1394 (c : Dev nD) : BitVec 32 := Scalar.xori (lw2 c) 4#32
theorem lw1394_eq (c : Dev nD) : lw1394 c = Scalar.xori (lw2 c) 4#32 := rfl
def lw1405 (c : Dev nD) : BitVec 32 := Scalar.xori (lw2 c) 1#32
theorem lw1405_eq (c : Dev nD) : lw1405 c = Scalar.xori (lw2 c) 1#32 := rfl
def lw1416 (c : Dev nD) : BitVec 32 := Scalar.xori (lw2 c) 3#32
theorem lw1416_eq (c : Dev nD) : lw1416 c = Scalar.xori (lw2 c) 3#32 := rfl
def lw1508 (c : Dev nD) : BitVec 32 := Scalar.xori (lw2 c) 1#32
theorem lw1508_eq (c : Dev nD) : lw1508 c = Scalar.xori (lw2 c) 1#32 := rfl
def lw1519 (c : Dev nD) : BitVec 32 := Scalar.xori (lw2 c) 3#32
theorem lw1519_eq (c : Dev nD) : lw1519 c = Scalar.xori (lw2 c) 3#32 := rfl
def lw1530 (c : Dev nD) : BitVec 32 := Scalar.xori (lw2 c) 4#32
theorem lw1530_eq (c : Dev nD) : lw1530 c = Scalar.xori (lw2 c) 4#32 := rfl
def lw1575 (c : Dev nD) : BitVec 32 := Scalar.muli (lw1218 c) 1#32
theorem lw1575_eq (c : Dev nD) : lw1575 c = Scalar.muli (lw1218 c) 1#32 := rfl
def lw1607 (c : Dev nD) : BitVec 32 := Scalar.xori (lw2 c) 3#32
theorem lw1607_eq (c : Dev nD) : lw1607 c = Scalar.xori (lw2 c) 3#32 := rfl
def lw1618 (c : Dev nD) : BitVec 32 := Scalar.xori (lw2 c) 4#32
theorem lw1618_eq (c : Dev nD) : lw1618 c = Scalar.xori (lw2 c) 4#32 := rfl
def lw1629 (c : Dev nD) : BitVec 32 := Scalar.xori (lw2 c) 1#32
theorem lw1629_eq (c : Dev nD) : lw1629 c = Scalar.xori (lw2 c) 1#32 := rfl
def lw1706 (c : Dev nD) : BitVec 32 := Scalar.xori (lw2 c) 4#32
theorem lw1706_eq (c : Dev nD) : lw1706 c = Scalar.xori (lw2 c) 4#32 := rfl
def lw1717 (c : Dev nD) : BitVec 32 := Scalar.xori (lw2 c) 1#32
theorem lw1717_eq (c : Dev nD) : lw1717 c = Scalar.xori (lw2 c) 1#32 := rfl
def lw1728 (c : Dev nD) : BitVec 32 := Scalar.xori (lw2 c) 3#32
theorem lw1728_eq (c : Dev nD) : lw1728 c = Scalar.xori (lw2 c) 3#32 := rfl
def lw1862 (c : Dev nD) : BitVec 32 := Scalar.xori (lw2 c) 1#32
theorem lw1862_eq (c : Dev nD) : lw1862 c = Scalar.xori (lw2 c) 1#32 := rfl
def lw1873 (c : Dev nD) : BitVec 32 := Scalar.xori (lw2 c) 3#32
theorem lw1873_eq (c : Dev nD) : lw1873 c = Scalar.xori (lw2 c) 3#32 := rfl
def lw1884 (c : Dev nD) : BitVec 32 := Scalar.xori (lw2 c) 4#32
theorem lw1884_eq (c : Dev nD) : lw1884 c = Scalar.xori (lw2 c) 4#32 := rfl
def lw1961 (c : Dev nD) : BitVec 32 := Scalar.xori (lw2 c) 3#32
theorem lw1961_eq (c : Dev nD) : lw1961 c = Scalar.xori (lw2 c) 3#32 := rfl
def lw1972 (c : Dev nD) : BitVec 32 := Scalar.xori (lw2 c) 4#32
theorem lw1972_eq (c : Dev nD) : lw1972 c = Scalar.xori (lw2 c) 4#32 := rfl
def lw1983 (c : Dev nD) : BitVec 32 := Scalar.xori (lw2 c) 1#32
theorem lw1983_eq (c : Dev nD) : lw1983 c = Scalar.xori (lw2 c) 1#32 := rfl
def lw2060 (c : Dev nD) : BitVec 32 := Scalar.xori (lw2 c) 4#32
theorem lw2060_eq (c : Dev nD) : lw2060 c = Scalar.xori (lw2 c) 4#32 := rfl
def lw2071 (c : Dev nD) : BitVec 32 := Scalar.xori (lw2 c) 1#32
theorem lw2071_eq (c : Dev nD) : lw2071 c = Scalar.xori (lw2 c) 1#32 := rfl
def lw2082 (c : Dev nD) : BitVec 32 := Scalar.xori (lw2 c) 3#32
theorem lw2082_eq (c : Dev nD) : lw2082 c = Scalar.xori (lw2 c) 3#32 := rfl
def lw2099 (c : Dev nD) : BitVec 32 := Scalar.muli (lw1706 c) 1#32
theorem lw2099_eq (c : Dev nD) : lw2099 c = Scalar.muli (lw1706 c) 1#32 := rfl
def lw2216 (c : Dev nD) : BitVec 32 := Scalar.xori (lw2 c) 1#32
theorem lw2216_eq (c : Dev nD) : lw2216 c = Scalar.xori (lw2 c) 1#32 := rfl
def lw2217 (c : Dev nD) : BitVec 32 := Scalar.muli (lw2216 c) 1#32
theorem lw2217_eq (c : Dev nD) : lw2217 c = Scalar.muli (lw2216 c) 1#32 := rfl
def lw2227 (c : Dev nD) : BitVec 32 := Scalar.xori (lw2 c) 3#32
theorem lw2227_eq (c : Dev nD) : lw2227 c = Scalar.xori (lw2 c) 3#32 := rfl
def lw2238 (c : Dev nD) : BitVec 32 := Scalar.xori (lw2 c) 4#32
theorem lw2238_eq (c : Dev nD) : lw2238 c = Scalar.xori (lw2 c) 4#32 := rfl
def lw2315 (c : Dev nD) : BitVec 32 := Scalar.xori (lw2 c) 3#32
theorem lw2315_eq (c : Dev nD) : lw2315 c = Scalar.xori (lw2 c) 3#32 := rfl
def lw2326 (c : Dev nD) : BitVec 32 := Scalar.xori (lw2 c) 4#32
theorem lw2326_eq (c : Dev nD) : lw2326 c = Scalar.xori (lw2 c) 4#32 := rfl
def lw2337 (c : Dev nD) : BitVec 32 := Scalar.xori (lw2 c) 1#32
theorem lw2337_eq (c : Dev nD) : lw2337 c = Scalar.xori (lw2 c) 1#32 := rfl
def lw2414 (c : Dev nD) : BitVec 32 := Scalar.xori (lw2 c) 4#32
theorem lw2414_eq (c : Dev nD) : lw2414 c = Scalar.xori (lw2 c) 4#32 := rfl
def lw2425 (c : Dev nD) : BitVec 32 := Scalar.xori (lw2 c) 1#32
theorem lw2425_eq (c : Dev nD) : lw2425 c = Scalar.xori (lw2 c) 1#32 := rfl
def lw2436 (c : Dev nD) : BitVec 32 := Scalar.xori (lw2 c) 3#32
theorem lw2436_eq (c : Dev nD) : lw2436 c = Scalar.xori (lw2 c) 3#32 := rfl
def lw2582 (c : Dev nD) : BitVec 32 := Scalar.xori (lw2 c) 3#32
theorem lw2582_eq (c : Dev nD) : lw2582 c = Scalar.xori (lw2 c) 3#32 := rfl
def lw2593 (c : Dev nD) : BitVec 32 := Scalar.xori (lw2 c) 4#32
theorem lw2593_eq (c : Dev nD) : lw2593 c = Scalar.xori (lw2 c) 4#32 := rfl
def lw2604 (c : Dev nD) : BitVec 32 := Scalar.xori (lw2 c) 1#32
theorem lw2604_eq (c : Dev nD) : lw2604 c = Scalar.xori (lw2 c) 1#32 := rfl
def lwc0_i32_2648 (c : Dev nD) : BitVec 32 := 0#32
theorem lwc0_i32_2648_eq (c : Dev nD) : lwc0_i32_2648 c = 0#32 := rfl
def lw2681 (c : Dev nD) : BitVec 32 := Scalar.xori (lw2 c) 4#32
theorem lw2681_eq (c : Dev nD) : lw2681 c = Scalar.xori (lw2 c) 4#32 := rfl
def lw2692 (c : Dev nD) : BitVec 32 := Scalar.xori (lw2 c) 1#32
theorem lw2692_eq (c : Dev nD) : lw2692 c = Scalar.xori (lw2 c) 1#32 := rfl
def lw2703 (c : Dev nD) : BitVec 32 := Scalar.xori (lw2 c) 3#32
theorem lw2703_eq (c : Dev nD) : lw2703 c = Scalar.xori (lw2 c) 3#32 := rfl
def lw2849 (c : Dev nD) : BitVec 32 := Scalar.xori (lw2 c) 4#32
theorem lw2849_eq (c : Dev nD) : lw2849 c = Scalar.xori (lw2 c) 4#32 := rfl
def lwc1_i32_2854 (c : Dev nD) : BitVec 32 := 1#32
theorem lwc1_i32_2854_eq (c : Dev nD) : lwc1_i32_2854 c = 1#32 := rfl
def lw2860 (c : Dev nD) : BitVec 32 := Scalar.xori (lw2 c) 1#32
theorem lw2860_eq (c : Dev nD) : lw2860 c = Scalar.xori (lw2 c) 1#32 := rfl
def lw2871 (c : Dev nD) : BitVec 32 := Scalar.xori (lw2 c) 3#32
theorem lw2871_eq (c : Dev nD) : lw2871 c = Scalar.xori (lw2 c) 3#32 := rfl

/-! ## Float vectors -/

def lv14 (I : Dev nD → Ins F) (c : Dev nD) : FVec F S2x512x768 .f32 := v14 (I c)
theorem lv14_eq (I : Dev nD → Ins F) (c : Dev nD) : lv14 I c = v14 (I c) := rfl
def lv20 (I : Dev nD → Ins F) (c : Dev nD) : FVec F S2x768 .f32 := v20 (I c)
theorem lv20_eq (I : Dev nD → Ins F) (c : Dev nD) : lv20 I c = v20 (I c) := rfl
def lv21 (I : Dev nD → Ins F) (c : Dev nD) : FVec F S2x768 .f32 := v21 (I c)
theorem lv21_eq (I : Dev nD → Ins F) (c : Dev nD) : lv21 I c = v21 (I c) := rfl
def lv22 (I : Dev nD → Ins F) (c : Dev nD) : FVec F S2x768 .f32 := v22 (I c)
theorem lv22_eq (I : Dev nD → Ins F) (c : Dev nD) : lv22 I c = v22 (I c) := rfl
def lv23 (I : Dev nD → Ins F) (c : Dev nD) : FVec F S2x768 .f32 := v23 (I c)
theorem lv23_eq (I : Dev nD → Ins F) (c : Dev nD) : lv23 I c = v23 (I c) := rfl
def lv24 (I : Dev nD → Ins F) (c : Dev nD) : FVec F S2x768 .f32 := v24 (I c)
theorem lv24_eq (I : Dev nD → Ins F) (c : Dev nD) : lv24 I c = v24 (I c) := rfl
def lv25 (I : Dev nD → Ins F) (c : Dev nD) : FVec F S2x768 .f32 := v25 (I c)
theorem lv25_eq (I : Dev nD → Ins F) (c : Dev nD) : lv25 I c = v25 (I c) := rfl
def lv28 (I : Dev nD → Ins F) (c : Dev nD) : FVec F S768x384 .bf16 := v28 (I c)
theorem lv28_eq (I : Dev nD → Ins F) (c : Dev nD) : lv28 I c = v28 (I c) := rfl
def lv31 (I : Dev nD → Ins F) (c : Dev nD) : FVec F S768x384 .bf16 := v31 (I c)
theorem lv31_eq (I : Dev nD → Ins F) (c : Dev nD) : lv31 I c = v31 (I c) := rfl
def lv34 (I : Dev nD → Ins F) (c : Dev nD) : FVec F S768x384 .bf16 := v34 (I c)
theorem lv34_eq (I : Dev nD → Ins F) (c : Dev nD) : lv34 I c = v34 (I c) := rfl
def lv37 (I : Dev nD → Ins F) (c : Dev nD) : FVec F S384x768 .bf16 := v37 (I c)
theorem lv37_eq (I : Dev nD → Ins F) (c : Dev nD) : lv37 I c = v37 (I c) := rfl
def lv40 (I : Dev nD → Ins F) (c : Dev nD) : FVec F S768x384 .bf16 := v40 (I c)
theorem lv40_eq (I : Dev nD → Ins F) (c : Dev nD) : lv40 I c = v40 (I c) := rfl
def lv43 (I : Dev nD → Ins F) (c : Dev nD) : FVec F S384x768 .bf16 := v43 (I c)
theorem lv43_eq (I : Dev nD → Ins F) (c : Dev nD) : lv43 I c = v43 (I c) := rfl
def lv72 (I : Dev nD → Ins F) (c : Dev nD) : FVec F S512x768 .f32 := v72 (I c)
theorem lv72_eq (I : Dev nD → Ins F) (c : Dev nD) : lv72 I c = v72 (I c) := rfl
def lv77 (I : Dev nD → Ins F) (c : Dev nD) : FVec F S512x768 .f32 := v77 (I c)
theorem lv77_eq (I : Dev nD → Ins F) (c : Dev nD) : lv77 I c = v77 (I c) := rfl
def lv80 (I : Dev nD → Ins F) (c : Dev nD) : FVec F S512x384 .bf16 := v80 (I c)
theorem lv80_eq (I : Dev nD → Ins F) (c : Dev nD) : lv80 I c = v80 (I c) := rfl
def lv83 (I : Dev nD → Ins F) (c : Dev nD) : FVec F S512x384 .bf16 := v83 (I c)
theorem lv83_eq (I : Dev nD → Ins F) (c : Dev nD) : lv83 I c = v83 (I c) := rfl
def lv89 (I : Dev nD → Ins F) (c : Dev nD) : FVec F S256x384 .bf16 := v89 (I c)
theorem lv89_eq (I : Dev nD → Ins F) (c : Dev nD) : lv89 I c = v89 (I c) := rfl
def lv101 (I : Dev nD → Ins F) (c : Dev nD) : FVec F S256x96 .f32 := v101 (I c)
theorem lv101_eq (I : Dev nD → Ins F) (c : Dev nD) : lv101 I c = v101 (I c) := rfl
def lv113 (I : Dev nD → Ins F) (c : Dev nD) : FVec F S256x96 .f32 := v113 (I c)
theorem lv113_eq (I : Dev nD → Ins F) (c : Dev nD) : lv113 I c = v113 (I c) := rfl
def lv116 (I : Dev nD → Ins F) (c : Dev nD) : FVec F S512x96 .bf16 := v116 (I c)
theorem lv116_eq (I : Dev nD → Ins F) (c : Dev nD) : lv116 I c = v116 (I c) := rfl
def lv119 (I : Dev nD → Ins F) (c : Dev nD) : FVec F S256x512 .f32 := v119 (I c)
theorem lv119_eq (I : Dev nD → Ins F) (c : Dev nD) : lv119 I c = v119 (I c) := rfl
def lv120 (I : Dev nD → Ins F) (c : Dev nD) : FVec F S256 .f32 := v120 (I c)
theorem lv120_eq (I : Dev nD → Ins F) (c : Dev nD) : lv120 I c = v120 (I c) := rfl
def lv192 (I : Dev nD → Ins F) (c : Dev nD) : FVec F S256x384 .bf16 := v192 (I c)
theorem lv192_eq (I : Dev nD → Ins F) (c : Dev nD) : lv192 I c = v192 (I c) := rfl
def lv204 (I : Dev nD → Ins F) (c : Dev nD) : FVec F S256x96 .f32 := v204 (I c)
theorem lv204_eq (I : Dev nD → Ins F) (c : Dev nD) : lv204 I c = v204 (I c) := rfl
def lv216 (I : Dev nD → Ins F) (c : Dev nD) : FVec F S256x96 .f32 := v216 (I c)
theorem lv216_eq (I : Dev nD → Ins F) (c : Dev nD) : lv216 I c = v216 (I c) := rfl
def lv219 (I : Dev nD → Ins F) (c : Dev nD) : FVec F S512x96 .bf16 := v219 (I c)
theorem lv219_eq (I : Dev nD → Ins F) (c : Dev nD) : lv219 I c = v219 (I c) := rfl
def lv224 (I : Dev nD → Ins F) (c : Dev nD) : FVec F S256x1 .f32 := v224 (I c)
theorem lv224_eq (I : Dev nD → Ins F) (c : Dev nD) : lv224 I c = v224 (I c) := rfl
def lv225 (I : Dev nD → Ins F) (c : Dev nD) : FVec F S256x512 .bf16 := v225 (I c)
theorem lv225_eq (I : Dev nD → Ins F) (c : Dev nD) : lv225 I c = v225 (I c) := rfl
def lv405 (I : Dev nD → Ins F) (c : Dev nD) : FVec F S512x768 .f32 := v405 (I c)
theorem lv405_eq (I : Dev nD → Ins F) (c : Dev nD) : lv405 I c = v405 (I c) := rfl
def lv407 (I : Dev nD → Ins F) (c : Dev nD) : FVec F S512x1 .f32 := v407 (I c)
theorem lv407_eq (I : Dev nD → Ins F) (c : Dev nD) : lv407 I c = v407 (I c) := rfl
def lv422 (I : Dev nD → Ins F) (c : Dev nD) : FVec F S512x768 .f32 := v422 (I c)
theorem lv422_eq (I : Dev nD → Ins F) (c : Dev nD) : lv422 I c = v422 (I c) := rfl
def lv477 (I : Dev nD → Ins F) (c : Dev nD) : FVec F S256x256 .bf16 := k0_pay50 (A I 0 c 1 1 0) (R I 0 c 1 1 0)
theorem lv477_eq (I : Dev nD → Ins F) (c : Dev nD) : lv477 I c = k0_pay50 (A I 0 c 1 1 0) (R I 0 c 1 1 0) := rfl
def lv478 (I : Dev nD → Ins F) (c : Dev nD) : Vec F S1x1x256x256 .bf16 := A I 0 c 1 1 0
theorem lv478_eq (I : Dev nD → Ins F) (c : Dev nD) : lv478 I c = A I 0 c 1 1 0 := rfl
def lv568 (I : Dev nD → Ins F) (c : Dev nD) : FVec F S256x256 .bf16 := k0_pay53 (A I 0 c 0 0 1) (R I 0 c 0 0 1)
theorem lv568_eq (I : Dev nD → Ins F) (c : Dev nD) : lv568 I c = k0_pay53 (A I 0 c 0 0 1) (R I 0 c 0 0 1) := rfl
def lv623 (I : Dev nD → Ins F) (c : Dev nD) : FVec F S512x384 .bf16 := v623 (I c)
theorem lv623_eq (I : Dev nD → Ins F) (c : Dev nD) : lv623 I c = v623 (I c) := rfl
def lv626 (I : Dev nD → Ins F) (c : Dev nD) : FVec F S512x384 .bf16 := v626 (I c)
theorem lv626_eq (I : Dev nD → Ins F) (c : Dev nD) : lv626 I c = v626 (I c) := rfl
def lv681 (I : Dev nD → Ins F) (c : Dev nD) : FVec F S256x256 .bf16 := k0_pay60 (A I 0 c 1 1 1) (R I 0 c 1 1 1)
theorem lv681_eq (I : Dev nD → Ins F) (c : Dev nD) : lv681 I c = k0_pay60 (A I 0 c 1 1 1) (R I 0 c 1 1 1) := rfl
def lv773 (I : Dev nD → Ins F) (c : Dev nD) : FVec F S256x384 .bf16 := v773 (I c)
theorem lv773_eq (I : Dev nD → Ins F) (c : Dev nD) : lv773 I c = v773 (I c) := rfl
def lv774 (I : Dev nD → Ins F) (c : Dev nD) : FVec F S256x96 .bf16 := v774 (I c)
theorem lv774_eq (I : Dev nD → Ins F) (c : Dev nD) : lv774 I c = v774 (I c) := rfl
def lv776 (I : Dev nD → Ins F) (c : Dev nD) : FVec F S512x96 .bf16 := v776 (I c)
theorem lv776_eq (I : Dev nD → Ins F) (c : Dev nD) : lv776 I c = v776 (I c) := rfl
def lv777 (I : Dev nD → Ins F) (c : Dev nD) : FVec F S96x512 .bf16 := v777 (I c)
theorem lv777_eq (I : Dev nD → Ins F) (c : Dev nD) : lv777 I c = v777 (I c) := rfl
def lv824 (I : Dev nD → Ins F) (c : Dev nD) : FVec F S256x768 .f32 := v824 (I c)
theorem lv824_eq (I : Dev nD → Ins F) (c : Dev nD) : lv824 I c = v824 (I c) := rfl
def lv918 (I : Dev nD → Ins F) (c : Dev nD) : FVec F S256x384 .bf16 := v918 (I c)
theorem lv918_eq (I : Dev nD → Ins F) (c : Dev nD) : lv918 I c = v918 (I c) := rfl
def lv919 (I : Dev nD → Ins F) (c : Dev nD) : FVec F S256x96 .bf16 := v919 (I c)
theorem lv919_eq (I : Dev nD → Ins F) (c : Dev nD) : lv919 I c = v919 (I c) := rfl
def lv920 (I : Dev nD → Ins F) (c : Dev nD) : FVec F S512x96 .bf16 := v920 (I c)
theorem lv920_eq (I : Dev nD → Ins F) (c : Dev nD) : lv920 I c = v920 (I c) := rfl
def lv921 (I : Dev nD → Ins F) (c : Dev nD) : FVec F S512x96 .bf16 := v921 (I c)
theorem lv921_eq (I : Dev nD → Ins F) (c : Dev nD) : lv921 I c = v921 (I c) := rfl
def lv968 (I : Dev nD → Ins F) (c : Dev nD) : FVec F S256x384 .bf16 := v968 (I c)
theorem lv968_eq (I : Dev nD → Ins F) (c : Dev nD) : lv968 I c = v968 (I c) := rfl
def lvcst_1034 (I : Dev nD → Ins F) (c : Dev nD) : FVec F S256x768 .f32 := constant S256x768 .f32 0x00000000#32
theorem lvcst_1034_eq (I : Dev nD → Ins F) (c : Dev nD) : lvcst_1034 I c = constant S256x768 .f32 0x00000000#32 := rfl
def lv1059 (I : Dev nD → Ins F) (c : Dev nD) : FVec F S256x256 .bf16 := k0_pay81 (A I 0 c 2 0 0)
theorem lv1059_eq (I : Dev nD → Ins F) (c : Dev nD) : lv1059 I c = k0_pay81 (A I 0 c 2 0 0) := rfl
def lv1131 (I : Dev nD → Ins F) (c : Dev nD) : FVec F S256x768 .f32 := k0_pay85 (A I 0 c 0 0 2) (R I 0 c 0 0 2) (A I 0 c 0 1 2) (R I 0 c 0 1 2) (A I 0 c 0 2 2) (R I 0 c 0 2 2)
theorem lv1131_eq (I : Dev nD → Ins F) (c : Dev nD) : lv1131 I c = k0_pay85 (A I 0 c 0 0 2) (R I 0 c 0 0 2) (A I 0 c 0 1 2) (R I 0 c 0 1 2) (A I 0 c 0 2 2) (R I 0 c 0 2 2) := rfl
def lv1133 (I : Dev nD → Ins F) (c : Dev nD) : FVec F S256x768 .f32 := v1133 (I c)
theorem lv1133_eq (I : Dev nD → Ins F) (c : Dev nD) : lv1133 I c = v1133 (I c) := rfl
def lv1139 (I : Dev nD → Ins F) (c : Dev nD) : FVec F S256x768 .f32 := k0_pay87 (lv22 I c) (lv1131 I c) (lv1133 I c)
theorem lv1139_eq (I : Dev nD → Ins F) (c : Dev nD) : lv1139 I c = k0_pay87 (lv22 I c) (lv1131 I c) (lv1133 I c) := rfl
def lv1182 (I : Dev nD → Ins F) (c : Dev nD) : FVec F S256x768 .bf16 := k0_pay88 (lv22 I c) (lv23 I c) (lv24 I c) (lv40 I c) (lv43 I c) (lv1131 I c) (lv1133 I c)
theorem lv1182_eq (I : Dev nD → Ins F) (c : Dev nD) : lv1182 I c = k0_pay88 (lv22 I c) (lv23 I c) (lv24 I c) (lv40 I c) (lv43 I c) (lv1131 I c) (lv1133 I c) := rfl
def lv1183 (I : Dev nD → Ins F) (c : Dev nD) : FVec F S256x256 .bf16 := k0_pay89 (lv22 I c) (lv23 I c) (lv24 I c) (lv40 I c) (lv43 I c) (lv1131 I c) (lv1133 I c)
theorem lv1183_eq (I : Dev nD → Ins F) (c : Dev nD) : lv1183 I c = k0_pay89 (lv22 I c) (lv23 I c) (lv24 I c) (lv40 I c) (lv43 I c) (lv1131 I c) (lv1133 I c) := rfl
def lv1195 (I : Dev nD → Ins F) (c : Dev nD) : FVec F S256x768 .bf16 := k0_pay93 (lv1139 I c)
theorem lv1195_eq (I : Dev nD → Ins F) (c : Dev nD) : lv1195 I c = k0_pay93 (lv1139 I c) := rfl
def lv1272 (I : Dev nD → Ins F) (c : Dev nD) : FVec F S256x256 .bf16 := k0_pay94 (A I 0 c 3 0 0)
theorem lv1272_eq (I : Dev nD → Ins F) (c : Dev nD) : lv1272 I c = k0_pay94 (A I 0 c 3 0 0) := rfl
def lv1273 (I : Dev nD → Ins F) (c : Dev nD) : Vec F S1x1x1x256x256 .bf16 := R I 0 c 3 0 0
theorem lv1273_eq (I : Dev nD → Ins F) (c : Dev nD) : lv1273 I c = R I 0 c 3 0 0 := rfl
def lv1431 (I : Dev nD → Ins F) (c : Dev nD) : FVec F S256x256 .bf16 := k0_pay101 (A I 0 c 1 0 2) (R I 0 c 1 0 2)
theorem lv1431_eq (I : Dev nD → Ins F) (c : Dev nD) : lv1431 I c = k0_pay101 (A I 0 c 1 0 2) (R I 0 c 1 0 2) := rfl
def lv1433 (I : Dev nD → Ins F) (c : Dev nD) : FVec F S256x256 .bf16 := k0_pay102 (A I 0 c 1 1 2)
theorem lv1433_eq (I : Dev nD → Ins F) (c : Dev nD) : lv1433 I c = k0_pay102 (A I 0 c 1 1 2) := rfl
def lv1451 (I : Dev nD → Ins F) (c : Dev nD) : FVec F S256x768 .f32 := k0_pay103 (lv14 I c) (lv22 I c) (lv1431 I c) (lv1433 I c) (R I 0 c 1 1 2) (A I 0 c 1 2 2) (R I 0 c 1 2 2)
theorem lv1451_eq (I : Dev nD → Ins F) (c : Dev nD) : lv1451 I c = k0_pay103 (lv14 I c) (lv22 I c) (lv1431 I c) (lv1433 I c) (R I 0 c 1 1 2) (A I 0 c 1 2 2) (R I 0 c 1 2 2) := rfl
def lv1471 (I : Dev nD → Ins F) (c : Dev nD) : FVec F S256x768 .f32 := k0_pay104 (lv14 I c) (lv22 I c) (lv1431 I c) (lv1433 I c) (R I 0 c 1 1 2) (A I 0 c 1 2 2) (R I 0 c 1 2 2)
theorem lv1471_eq (I : Dev nD → Ins F) (c : Dev nD) : lv1471 I c = k0_pay104 (lv14 I c) (lv22 I c) (lv1431 I c) (lv1433 I c) (R I 0 c 1 1 2) (A I 0 c 1 2 2) (R I 0 c 1 2 2) := rfl
def lv1474 (I : Dev nD → Ins F) (c : Dev nD) : FVec F S1x768 .f32 := v1474 (I c)
theorem lv1474_eq (I : Dev nD → Ins F) (c : Dev nD) : lv1474 I c = v1474 (I c) := rfl
def lv1507 (I : Dev nD → Ins F) (c : Dev nD) : FVec F S256x768 .bf16 := k0_pay110 (lv1451 I c)
theorem lv1507_eq (I : Dev nD → Ins F) (c : Dev nD) : lv1507 I c = k0_pay110 (lv1451 I c) := rfl
def lvcst_1675 (I : Dev nD → Ins F) (c : Dev nD) : F .f32 := Scalar.ofBits .f32 0x3F800000#32
theorem lvcst_1675_eq (I : Dev nD → Ins F) (c : Dev nD) : lvcst_1675 I c = Scalar.ofBits .f32 0x3F800000#32 := rfl
def lv1686 (I : Dev nD → Ins F) (c : Dev nD) : FVec F S256x256 .bf16 := k0_pay114 (A I 0 c 3 0 1) (R I 0 c 3 0 1)
theorem lv1686_eq (I : Dev nD → Ins F) (c : Dev nD) : lv1686 I c = k0_pay114 (A I 0 c 3 0 1) (R I 0 c 3 0 1) := rfl
def lv1805 (I : Dev nD → Ins F) (c : Dev nD) : FVec F S256x768 .f32 := k0_pay118 (lv14 I c) (lv22 I c) (A I 0 c 2 0 2) (R I 0 c 2 0 2) (A I 0 c 2 1 2) (R I 0 c 2 1 2) (A I 0 c 2 2 2) (R I 0 c 2 2 2)
theorem lv1805_eq (I : Dev nD → Ins F) (c : Dev nD) : lv1805 I c = k0_pay118 (lv14 I c) (lv22 I c) (A I 0 c 2 0 2) (R I 0 c 2 0 2) (A I 0 c 2 1 2) (R I 0 c 2 1 2) (A I 0 c 2 2 2) (R I 0 c 2 2 2) := rfl
def lv1848 (I : Dev nD → Ins F) (c : Dev nD) : FVec F S256x768 .bf16 := k0_pay119 (lv23 I c) (lv24 I c) (lv40 I c) (lv43 I c) (lv1805 I c)
theorem lv1848_eq (I : Dev nD → Ins F) (c : Dev nD) : lv1848 I c = k0_pay119 (lv23 I c) (lv24 I c) (lv40 I c) (lv43 I c) (lv1805 I c) := rfl
def lv1852 (I : Dev nD → Ins F) (c : Dev nD) : FVec F S1x1x256x256 .bf16 := k0_pay120 (lv23 I c) (lv24 I c) (lv40 I c) (lv43 I c) (lv1805 I c)
theorem lv1852_eq (I : Dev nD → Ins F) (c : Dev nD) : lv1852 I c = k0_pay120 (lv23 I c) (lv24 I c) (lv40 I c) (lv43 I c) (lv1805 I c) := rfl
def lv1861 (I : Dev nD → Ins F) (c : Dev nD) : FVec F S256x768 .bf16 := k0_pay123 (lv1805 I c)
theorem lv1861_eq (I : Dev nD → Ins F) (c : Dev nD) : lv1861 I c = k0_pay123 (lv1805 I c) := rfl
def lv1941 (I : Dev nD → Ins F) (c : Dev nD) : FVec F S256x256 .bf16 := k0_pay124 (A I 1 c 1 0 0) (R I 1 c 1 0 0)
theorem lv1941_eq (I : Dev nD → Ins F) (c : Dev nD) : lv1941 I c = k0_pay124 (A I 1 c 1 0 0) (R I 1 c 1 0 0) := rfl
def lv1942 (I : Dev nD → Ins F) (c : Dev nD) : Vec F S1x1x256x256 .bf16 := A I 1 c 1 0 0
theorem lv1942_eq (I : Dev nD → Ins F) (c : Dev nD) : lv1942 I c = A I 1 c 1 0 0 := rfl
def lv2053 (I : Dev nD → Ins F) (c : Dev nD) : FVec F S256x256 .bf16 := k0_pay130 (A I 1 c 0 2 1)
theorem lv2053_eq (I : Dev nD → Ins F) (c : Dev nD) : lv2053 I c = k0_pay130 (A I 1 c 0 2 1) := rfl
def lv2139 (I : Dev nD → Ins F) (c : Dev nD) : FVec F S256x256 .bf16 := k0_pay132 (A I 0 c 3 0 2) (R I 0 c 3 0 2)
theorem lv2139_eq (I : Dev nD → Ins F) (c : Dev nD) : lv2139 I c = k0_pay132 (A I 0 c 3 0 2) (R I 0 c 3 0 2) := rfl
def lv2141 (I : Dev nD → Ins F) (c : Dev nD) : FVec F S256x256 .bf16 := k0_pay133 (A I 0 c 3 1 2)
theorem lv2141_eq (I : Dev nD → Ins F) (c : Dev nD) : lv2141 I c = k0_pay133 (A I 0 c 3 1 2) := rfl
def lv2159 (I : Dev nD → Ins F) (c : Dev nD) : FVec F S256x768 .f32 := k0_pay134 (lv14 I c) (lv22 I c) (lv2139 I c) (lv2141 I c) (R I 0 c 3 1 2) (A I 0 c 3 2 2) (R I 0 c 3 2 2)
theorem lv2159_eq (I : Dev nD → Ins F) (c : Dev nD) : lv2159 I c = k0_pay134 (lv14 I c) (lv22 I c) (lv2139 I c) (lv2141 I c) (R I 0 c 3 1 2) (A I 0 c 3 2 2) (R I 0 c 3 2 2) := rfl
def lv2186 (I : Dev nD → Ins F) (c : Dev nD) : FVec F S256x768 .f32 := k0_pay135 (lv14 I c) (lv22 I c) (lv23 I c) (lv2139 I c) (lv2141 I c) (R I 0 c 3 1 2) (A I 0 c 3 2 2) (R I 0 c 3 2 2)
theorem lv2186_eq (I : Dev nD → Ins F) (c : Dev nD) : lv2186 I c = k0_pay135 (lv14 I c) (lv22 I c) (lv23 I c) (lv2139 I c) (lv2141 I c) (R I 0 c 3 1 2) (A I 0 c 3 2 2) (R I 0 c 3 2 2) := rfl
def lv2215 (I : Dev nD → Ins F) (c : Dev nD) : FVec F S256x768 .bf16 := k0_pay140 (lv2159 I c)
theorem lv2215_eq (I : Dev nD → Ins F) (c : Dev nD) : lv2215 I c = k0_pay140 (lv2159 I c) := rfl
def lv2308 (I : Dev nD → Ins F) (c : Dev nD) : FVec F S256x256 .bf16 := k0_pay143 (A I 1 c 2 2 0)
theorem lv2308_eq (I : Dev nD → Ins F) (c : Dev nD) : lv2308 I c = k0_pay143 (A I 1 c 2 2 0) := rfl
def lv2515 (I : Dev nD → Ins F) (c : Dev nD) : FVec F S1x256x768 .f32 := k0_pay148 (lv25 I c) (lv1195 I c) (A I 1 c 0 0 2) (R I 1 c 0 0 2) (A I 1 c 0 1 2) (R I 1 c 0 1 2) (A I 1 c 0 2 2) (R I 1 c 0 2 2)
theorem lv2515_eq (I : Dev nD → Ins F) (c : Dev nD) : lv2515 I c = k0_pay148 (lv25 I c) (lv1195 I c) (A I 1 c 0 0 2) (R I 1 c 0 0 2) (A I 1 c 0 1 2) (R I 1 c 0 1 2) (A I 1 c 0 2 2) (R I 1 c 0 2 2) := rfl
def lv2575 (I : Dev nD → Ins F) (c : Dev nD) : FVec F S256x256 .bf16 := k0_pay151 (A I 1 c 3 2 0)
theorem lv2575_eq (I : Dev nD → Ins F) (c : Dev nD) : lv2575 I c = k0_pay151 (A I 1 c 3 2 0) := rfl
def lv2576 (I : Dev nD → Ins F) (c : Dev nD) : Vec F S1x1x1x256x256 .bf16 := R I 1 c 3 2 0
theorem lv2576_eq (I : Dev nD → Ins F) (c : Dev nD) : lv2576 I c = R I 1 c 3 2 0 := rfl
def lv2666 (I : Dev nD → Ins F) (c : Dev nD) : FVec F S256x256 .bf16 := k0_pay154 (A I 1 c 2 1 1)
theorem lv2666_eq (I : Dev nD → Ins F) (c : Dev nD) : lv2666 I c = k0_pay154 (A I 1 c 2 1 1) := rfl
def lv2756 (I : Dev nD → Ins F) (c : Dev nD) : FVec F S256x768 .f32 := k0_pay157 (lv1507 I c)
theorem lv2756_eq (I : Dev nD → Ins F) (c : Dev nD) : lv2756 I c = k0_pay157 (lv1507 I c) := rfl
def lv2757 (I : Dev nD → Ins F) (c : Dev nD) : FVec F S1x768 .f32 := v2757 (I c)
theorem lv2757_eq (I : Dev nD → Ins F) (c : Dev nD) : lv2757 I c = v2757 (I c) := rfl
def lv2845 (I : Dev nD → Ins F) (c : Dev nD) : FVec F S256x256 .bf16 := k0_pay162 (A I 1 c 3 2 1) (R I 1 c 3 2 1)
theorem lv2845_eq (I : Dev nD → Ins F) (c : Dev nD) : lv2845 I c = k0_pay162 (A I 1 c 3 2 1) (R I 1 c 3 2 1) := rfl
def lv2924 (I : Dev nD → Ins F) (c : Dev nD) : FVec F S256x768 .f32 := k0_pay164 (lv1861 I c)
theorem lv2924_eq (I : Dev nD → Ins F) (c : Dev nD) : lv2924 I c = k0_pay164 (lv1861 I c) := rfl
def lv2927 (I : Dev nD → Ins F) (c : Dev nD) : FVec F S1x768 .f32 := v2927 (I c)
theorem lv2927_eq (I : Dev nD → Ins F) (c : Dev nD) : lv2927 I c = v2927 (I c) := rfl
def lv2932 (I : Dev nD → Ins F) (c : Dev nD) : FVec F S256x256 .bf16 := k0_pay166 (A I 1 c 2 0 2) (R I 1 c 2 0 2)
theorem lv2932_eq (I : Dev nD → Ins F) (c : Dev nD) : lv2932 I c = k0_pay166 (A I 1 c 2 0 2) (R I 1 c 2 0 2) := rfl
def lv2937 (I : Dev nD → Ins F) (c : Dev nD) : FVec F S256x256 .bf16 := k0_pay167 (A I 1 c 2 1 2) (R I 1 c 2 1 2)
theorem lv2937_eq (I : Dev nD → Ins F) (c : Dev nD) : lv2937 I c = k0_pay167 (A I 1 c 2 1 2) (R I 1 c 2 1 2) := rfl
def lv2993 (I : Dev nD → Ins F) (c : Dev nD) : FVec F S256x768 .f32 := k0_pay169 (lv2215 I c)
theorem lv2993_eq (I : Dev nD → Ins F) (c : Dev nD) : lv2993 I c = k0_pay169 (lv2215 I c) := rfl
def lv2996 (I : Dev nD → Ins F) (c : Dev nD) : FVec F S1x768 .f32 := v2996 (I c)
theorem lv2996_eq (I : Dev nD → Ins F) (c : Dev nD) : lv2996 I c = v2996 (I c) := rfl
def lv3001 (I : Dev nD → Ins F) (c : Dev nD) : FVec F S256x256 .bf16 := k0_pay171 (A I 1 c 3 0 2) (R I 1 c 3 0 2)
theorem lv3001_eq (I : Dev nD → Ins F) (c : Dev nD) : lv3001 I c = k0_pay171 (A I 1 c 3 0 2) (R I 1 c 3 0 2) := rfl
def lv3006 (I : Dev nD → Ins F) (c : Dev nD) : FVec F S256x256 .bf16 := k0_pay172 (A I 1 c 3 1 2) (R I 1 c 3 1 2)
theorem lv3006_eq (I : Dev nD → Ins F) (c : Dev nD) : lv3006 I c = k0_pay172 (A I 1 c 3 1 2) (R I 1 c 3 1 2) := rfl

end Cert.Kernel.Vals
-- ==== Proof.Bits.BodyTable.lean ====
import Mathlib.Data.Fin.VecNotation

/-! Where the body stands at the end of each of its parts: the entry handshake made or not, how many copies are
    started, how many single waits are passed, what each accumulator tile holds or whether it is away with a
    copy in flight, how many output blocks are stored, the exit handshake made or not.  One literal per part,
    read off the body's operations in program order. -/

namespace Cert.Kernel.Body

/-- A place between two parts of the body. -/
structure Pos where
  /-- the three entry signals sent and the entry wait passed -/
  entered : Bool
  /-- copies started, in program order: the step at place sends / 3 of the fire order, its part sends % 3, is next -/
  sends : ℕ
  /-- single waits passed, in program order: the group at place waits / 6 of the fire order, its wait waits % 6
      (send, recv, send, recv, send, recv) is next -/
  waits : ℕ
  /-- tile [g, p]: some v = held, v stores made into it so far (0: contents unknown; 1, 2, 3: level 0, 1, 2 of round 0;
      4, 5, 6: level 0, 1, 2 of round 1); none = away, from its copy's start until the sixth wait of that step's group -/
  acc : Fin 4 → Fin 3 → Option ℕ
  /-- output blocks stored -/
  outs : ℕ
  /-- the three exit signals sent and the exit wait passed -/
  exited : Bool

/-- The steps (round, group, step) in the order they are started, which is the order they are waited for. -/
def fireOrder : List (Fin 2 × Fin 4 × Fin 3) :=
  [(0, 0, 0), (0, 1, 0), (0, 0, 1), (0, 1, 1), (0, 0, 2), (0, 1, 2), (0, 2, 0), (0, 3, 0), (0, 2, 1), (1, 0, 0), (0, 3, 1), (0, 2, 2), (1, 1, 0), (1, 0, 1), (0, 3, 2), (1, 2, 0), (1, 1, 1), (1, 0, 2), (1, 3, 0), (1, 2, 1), (1, 1, 2), (1, 3, 1), (1, 2, 2), (1, 3, 2)]

/-- The place after part N (σ 0: before part 1; σ 121 = σ 60 and σ 122 = σ 120: the two sequences of parts;
    σ 123: after the tail). -/
def σ : ℕ → Pos
  | 0 => { entered := false, sends := 0, waits := 0, acc := fun g p => ![![some 0, some 0, some 0], ![some 0, some 0, some 0], ![some 0, some 0, some 0], ![some 0, some 0, some 0]] g p, outs := 0, exited := false }
  | 1 => { entered := true, sends := 0, waits := 0, acc := fun g p => ![![some 0, some 0, some 0], ![some 0, some 0, some 0], ![some 0, some 0, some 0], ![some 0, some 0, some 0]] g p, outs := 0, exited := false }
  | 2 => { entered := true, sends := 0, waits := 0, acc := fun g p => ![![some 0, some 0, some 0], ![some 0, some 0, some 0], ![some 0, some 0, some 0], ![some 0, some 0, some 0]] g p, outs := 0, exited := false }
  | 3 => { entered := true, sends := 0, waits := 0, acc := fun g p => ![![some 0, some 0, some 0], ![some 0, some 0, some 0], ![some 0, some 0, some 0], ![some 0, some 0, some 0]] g p, outs := 0, exited := false }
  | 4 => { entered := true, sends := 0, waits := 0, acc := fun g p => ![![some 1, some 1, some 1], ![some 0, some 0, some 0], ![some 0, some 0, some 0], ![some 0, some 0, some 0]] g p, outs := 0, exited := false }
  | 5 => { entered := true, sends := 2, waits := 0, acc := fun g p => ![![none, none, some 1], ![some 0, some 0, some 0], ![some 0, some 0, some 0], ![some 0, some 0, some 0]] g p, outs := 0, exited := false }
  | 6 => { entered := true, sends := 3, waits := 0, acc := fun g p => ![![none, none, none], ![some 0, some 0, some 0], ![some 0, some 0, some 0], ![some 0, some 0, some 0]] g p, outs := 0, exited := false }
  | 7 => { entered := true, sends := 3, waits := 0, acc := fun g p => ![![none, none, none], ![some 1, some 1, some 1], ![some 0, some 0, some 0], ![some 0, some 0, some 0]] g p, outs := 0, exited := false }
  | 8 => { entered := true, sends := 5, waits := 0, acc := fun g p => ![![none, none, none], ![none, none, some 1], ![some 0, some 0, some 0], ![some 0, some 0, some 0]] g p, outs := 0, exited := false }
  | 9 => { entered := true, sends := 6, waits := 2, acc := fun g p => ![![none, none, none], ![none, none, none], ![some 0, some 0, some 0], ![some 0, some 0, some 0]] g p, outs := 0, exited := false }
  | 10 => { entered := true, sends := 6, waits := 5, acc := fun g p => ![![none, none, none], ![none, none, none], ![some 0, some 0, some 0], ![some 0, some 0, some 0]] g p, outs := 0, exited := false }
  | 11 => { entered := true, sends := 6, waits := 6, acc := fun g p => ![![some 2, some 2, some 1], ![none, none, none], ![some 0, some 0, some 0], ![some 0, some 0, some 0]] g p, outs := 0, exited := false }
  | 12 => { entered := true, sends := 7, waits := 6, acc := fun g p => ![![none, some 2, some 2], ![none, none, none], ![some 0, some 0, some 0], ![some 0, some 0, some 0]] g p, outs := 0, exited := false }
  | 13 => { entered := true, sends := 9, waits := 6, acc := fun g p => ![![none, none, none], ![none, none, none], ![some 0, some 0, some 0], ![some 0, some 0, some 0]] g p, outs := 0, exited := false }
  | 14 => { entered := true, sends := 9, waits := 8, acc := fun g p => ![![none, none, none], ![none, none, none], ![some 0, some 0, some 0], ![some 0, some 0, some 0]] g p, outs := 0, exited := false }
  | 15 => { entered := true, sends := 9, waits := 11, acc := fun g p => ![![none, none, none], ![none, none, none], ![some 0, some 0, some 0], ![some 0, some 0, some 0]] g p, outs := 0, exited := false }
  | 16 => { entered := true, sends := 9, waits := 12, acc := fun g p => ![![none, none, none], ![some 2, some 1, some 1], ![some 0, some 0, some 0], ![some 0, some 0, some 0]] g p, outs := 0, exited := false }
  | 17 => { entered := true, sends := 10, waits := 12, acc := fun g p => ![![none, none, none], ![none, some 2, some 2], ![some 0, some 0, some 0], ![some 0, some 0, some 0]] g p, outs := 0, exited := false }
  | 18 => { entered := true, sends := 12, waits := 12, acc := fun g p => ![![none, none, none], ![none, none, none], ![some 0, some 0, some 0], ![some 0, some 0, some 0]] g p, outs := 0, exited := false }
  | 19 => { entered := true, sends := 12, waits := 15, acc := fun g p => ![![none, none, none], ![none, none, none], ![some 0, some 0, some 0], ![some 0, some 0, some 0]] g p, outs := 0, exited := false }
  | 20 => { entered := true, sends := 12, waits := 18, acc := fun g p => ![![some 2, some 2, some 2], ![none, none, none], ![some 0, some 0, some 0], ![some 0, some 0, some 0]] g p, outs := 0, exited := false }
  | 21 => { entered := true, sends := 12, waits := 18, acc := fun g p => ![![some 3, some 3, some 3], ![none, none, none], ![some 0, some 0, some 0], ![some 0, some 0, some 0]] g p, outs := 0, exited := false }
  | 22 => { entered := true, sends := 14, waits := 18, acc := fun g p => ![![none, none, some 3], ![none, none, none], ![some 0, some 0, some 0], ![some 0, some 0, some 0]] g p, outs := 0, exited := false }
  | 23 => { entered := true, sends := 15, waits := 20, acc := fun g p => ![![none, none, none], ![none, none, none], ![some 0, some 0, some 0], ![some 0, some 0, some 0]] g p, outs := 0, exited := false }
  | 24 => { entered := true, sends := 15, waits := 23, acc := fun g p => ![![none, none, none], ![none, none, none], ![some 0, some 0, some 0], ![some 0, some 0, some 0]] g p, outs := 0, exited := false }
  | 25 => { entered := true, sends := 15, waits := 24, acc := fun g p => ![![none, none, none], ![some 3, some 2, some 2], ![some 0, some 0, some 0], ![some 0, some 0, some 0]] g p, outs := 0, exited := false }
  | 26 => { entered := true, sends := 16, waits := 24, acc := fun g p => ![![none, none, none], ![none, some 3, some 3], ![some 0, some 0, some 0], ![some 0, some 0, some 0]] g p, outs := 0, exited := false }
  | 27 => { entered := true, sends := 18, waits := 24, acc := fun g p => ![![none, none, none], ![none, none, none], ![some 0, some 0, some 0], ![some 0, some 0, some 0]] g p, outs := 0, exited := false }
  | 28 => { entered := true, sends := 18, waits := 27, acc := fun g p => ![![none, none, none], ![none, none, none], ![some 0, some 0, some 0], ![some 0, some 0, some 0]] g p, outs := 0, exited := false }
  | 29 => { entered := true, sends := 18, waits := 30, acc := fun g p => ![![some 3, some 3, some 3], ![none, none, none], ![some 0, some 0, some 0], ![some 0, some 0, some 0]] g p, outs := 0, exited := false }
  | 30 => { entered := true, sends := 18, waits := 30, acc := fun g p => ![![some 3, some 3, some 3], ![none, none, none], ![some 0, some 0, some 0], ![some 0, some 0, some 0]] g p, outs := 0, exited := false }
  | 31 => { entered := true, sends := 19, waits := 30, acc := fun g p => ![![some 3, some 3, some 3], ![none, none, none], ![none, some 1, some 1], ![some 0, some 0, some 0]] g p, outs := 0, exited := false }
  | 32 => { entered := true, sends := 21, waits := 30, acc := fun g p => ![![some 3, some 3, some 3], ![none, none, none], ![none, none, none], ![some 0, some 0, some 0]] g p, outs := 0, exited := false }
  | 33 => { entered := true, sends := 21, waits := 33, acc := fun g p => ![![some 3, some 3, some 3], ![none, none, none], ![none, none, none], ![some 0, some 0, some 0]] g p, outs := 0, exited := false }
  | 34 => { entered := true, sends := 21, waits := 36, acc := fun g p => ![![some 3, some 3, some 3], ![some 3, some 3, some 3], ![none, none, none], ![some 0, some 0, some 0]] g p, outs := 0, exited := false }
  | 35 => { entered := true, sends := 21, waits := 36, acc := fun g p => ![![some 3, some 3, some 3], ![some 3, some 3, some 3], ![none, none, none], ![some 0, some 0, some 0]] g p, outs := 0, exited := false }
  | 36 => { entered := true, sends := 22, waits := 36, acc := fun g p => ![![some 3, some 3, some 3], ![some 3, some 3, some 3], ![none, none, none], ![none, some 1, some 1]] g p, outs := 0, exited := false }
  | 37 => { entered := true, sends := 24, waits := 36, acc := fun g p => ![![some 3, some 3, some 3], ![some 3, some 3, some 3], ![none, none, none], ![none, none, none]] g p, outs := 0, exited := false }
  | 38 => { entered := true, sends := 24, waits := 39, acc := fun g p => ![![some 3, some 3, some 3], ![some 3, some 3, some 3], ![none, none, none], ![none, none, none]] g p, outs := 0, exited := false }
  | 39 => { entered := true, sends := 24, waits := 42, acc := fun g p => ![![some 3, some 3, some 3], ![some 3, some 3, some 3], ![some 1, some 1, some 1], ![none, none, none]] g p, outs := 0, exited := false }
  | 40 => { entered := true, sends := 24, waits := 42, acc := fun g p => ![![some 3, some 3, some 3], ![some 3, some 3, some 3], ![some 2, some 2, some 2], ![none, none, none]] g p, outs := 0, exited := false }
  | 41 => { entered := true, sends := 26, waits := 42, acc := fun g p => ![![some 3, some 3, some 3], ![some 3, some 3, some 3], ![none, none, some 2], ![none, none, none]] g p, outs := 0, exited := false }
  | 42 => { entered := true, sends := 27, waits := 42, acc := fun g p => ![![some 3, some 3, some 3], ![some 3, some 3, some 3], ![none, none, none], ![none, none, none]] g p, outs := 0, exited := false }
  | 43 => { entered := true, sends := 27, waits := 42, acc := fun g p => ![![some 3, some 3, some 3], ![some 3, some 3, some 3], ![none, none, none], ![none, none, none]] g p, outs := 0, exited := false }
  | 44 => { entered := true, sends := 28, waits := 42, acc := fun g p => ![![none, some 4, some 4], ![some 3, some 3, some 3], ![none, none, none], ![none, none, none]] g p, outs := 0, exited := false }
  | 45 => { entered := true, sends := 30, waits := 42, acc := fun g p => ![![none, none, none], ![some 3, some 3, some 3], ![none, none, none], ![none, none, none]] g p, outs := 0, exited := false }
  | 46 => { entered := true, sends := 30, waits := 45, acc := fun g p => ![![none, none, none], ![some 3, some 3, some 3], ![none, none, none], ![none, none, none]] g p, outs := 0, exited := false }
  | 47 => { entered := true, sends := 30, waits := 48, acc := fun g p => ![![none, none, none], ![some 3, some 3, some 3], ![none, none, none], ![some 1, some 1, some 1]] g p, outs := 0, exited := false }
  | 48 => { entered := true, sends := 30, waits := 48, acc := fun g p => ![![none, none, none], ![some 3, some 3, some 3], ![none, none, none], ![some 2, some 2, some 2]] g p, outs := 0, exited := false }
  | 49 => { entered := true, sends := 32, waits := 48, acc := fun g p => ![![none, none, none], ![some 3, some 3, some 3], ![none, none, none], ![none, none, some 2]] g p, outs := 0, exited := false }
  | 50 => { entered := true, sends := 33, waits := 50, acc := fun g p => ![![none, none, none], ![some 3, some 3, some 3], ![none, none, none], ![none, none, none]] g p, outs := 0, exited := false }
  | 51 => { entered := true, sends := 33, waits := 53, acc := fun g p => ![![none, none, none], ![some 3, some 3, some 3], ![none, none, none], ![none, none, none]] g p, outs := 0, exited := false }
  | 52 => { entered := true, sends := 33, waits := 54, acc := fun g p => ![![none, none, none], ![some 3, some 3, some 3], ![some 3, some 3, some 2], ![none, none, none]] g p, outs := 0, exited := false }
  | 53 => { entered := true, sends := 34, waits := 54, acc := fun g p => ![![none, none, none], ![some 3, some 3, some 3], ![none, some 3, some 3], ![none, none, none]] g p, outs := 0, exited := false }
  | 54 => { entered := true, sends := 36, waits := 54, acc := fun g p => ![![none, none, none], ![some 3, some 3, some 3], ![none, none, none], ![none, none, none]] g p, outs := 0, exited := false }
  | 55 => { entered := true, sends := 36, waits := 54, acc := fun g p => ![![none, none, none], ![some 3, some 3, some 3], ![none, none, none], ![none, none, none]] g p, outs := 0, exited := false }
  | 56 => { entered := true, sends := 36, waits := 54, acc := fun g p => ![![none, none, none], ![some 4, some 4, some 4], ![none, none, none], ![none, none, none]] g p, outs := 0, exited := false }
  | 57 => { entered := true, sends := 38, waits := 54, acc := fun g p => ![![none, none, none], ![none, none, some 4], ![none, none, none], ![none, none, none]] g p, outs := 0, exited := false }
  | 58 => { entered := true, sends := 39, waits := 56, acc := fun g p => ![![none, none, none], ![none, none, none], ![none, none, none], ![none, none, none]] g p, outs := 0, exited := false }
  | 59 => { entered := true, sends := 39, waits := 59, acc := fun g p => ![![none, none, none], ![none, none, none], ![none, none, none], ![none, none, none]] g p, outs := 0, exited := false }
  | 60 => { entered := true, sends := 39, waits := 60, acc := fun g p => ![![some 5, some 5, some 4], ![none, none, none], ![none, none, none], ![none, none, none]] g p, outs := 0, exited := false }
  | 61 => { entered := true, sends := 40, waits := 60, acc := fun g p => ![![none, some 5, some 5], ![none, none, none], ![none, none, none], ![none, none, none]] g p, outs := 0, exited := false }
  | 62 => { entered := true, sends := 42, waits := 61, acc := fun g p => ![![none, none, none], ![none, none, none], ![none, none, none], ![none, none, none]] g p, outs := 0, exited := false }
  | 63 => { entered := true, sends := 42, waits := 64, acc := fun g p => ![![none, none, none], ![none, none, none], ![none, none, none], ![none, none, none]] g p, outs := 0, exited := false }
  | 64 => { entered := true, sends := 42, waits := 66, acc := fun g p => ![![none, none, none], ![none, none, none], ![none, none, none], ![some 2, some 2, some 2]] g p, outs := 0, exited := false }
  | 65 => { entered := true, sends := 42, waits := 66, acc := fun g p => ![![none, none, none], ![none, none, none], ![none, none, none], ![some 3, some 3, some 3]] g p, outs := 0, exited := false }
  | 66 => { entered := true, sends := 44, waits := 66, acc := fun g p => ![![none, none, none], ![none, none, none], ![none, none, none], ![none, none, some 3]] g p, outs := 0, exited := false }
  | 67 => { entered := true, sends := 45, waits := 68, acc := fun g p => ![![none, none, none], ![none, none, none], ![none, none, none], ![none, none, none]] g p, outs := 0, exited := false }
  | 68 => { entered := true, sends := 45, waits := 71, acc := fun g p => ![![none, none, none], ![none, none, none], ![none, none, none], ![none, none, none]] g p, outs := 0, exited := false }
  | 69 => { entered := true, sends := 45, waits := 72, acc := fun g p => ![![none, none, none], ![none, none, none], ![some 3, some 3, some 3], ![none, none, none]] g p, outs := 0, exited := false }
  | 70 => { entered := true, sends := 45, waits := 72, acc := fun g p => ![![none, none, none], ![none, none, none], ![some 3, some 3, some 3], ![none, none, none]] g p, outs := 0, exited := false }
  | 71 => { entered := true, sends := 46, waits := 72, acc := fun g p => ![![none, none, none], ![none, none, none], ![none, some 4, some 4], ![none, none, none]] g p, outs := 0, exited := false }
  | 72 => { entered := true, sends := 48, waits := 73, acc := fun g p => ![![none, none, none], ![none, none, none], ![none, none, none], ![none, none, none]] g p, outs := 0, exited := false }
  | 73 => { entered := true, sends := 48, waits := 76, acc := fun g p => ![![none, none, none], ![none, none, none], ![none, none, none], ![none, none, none]] g p, outs := 0, exited := false }
  | 74 => { entered := true, sends := 48, waits := 78, acc := fun g p => ![![none, none, none], ![some 4, some 4, some 4], ![none, none, none], ![none, none, none]] g p, outs := 0, exited := false }
  | 75 => { entered := true, sends := 48, waits := 78, acc := fun g p => ![![none, none, none], ![some 5, some 5, some 5], ![none, none, none], ![none, none, none]] g p, outs := 0, exited := false }
  | 76 => { entered := true, sends := 50, waits := 78, acc := fun g p => ![![none, none, none], ![none, none, some 5], ![none, none, none], ![none, none, none]] g p, outs := 0, exited := false }
  | 77 => { entered := true, sends := 51, waits := 80, acc := fun g p => ![![none, none, none], ![none, none, none], ![none, none, none], ![none, none, none]] g p, outs := 0, exited := false }
  | 78 => { entered := true, sends := 51, waits := 83, acc := fun g p => ![![none, none, none], ![none, none, none], ![none, none, none], ![none, none, none]] g p, outs := 0, exited := false }
  | 79 => { entered := true, sends := 51, waits := 84, acc := fun g p => ![![some 6, some 6, some 5], ![none, none, none], ![none, none, none], ![none, none, none]] g p, outs := 0, exited := false }
  | 80 => { entered := true, sends := 52, waits := 84, acc := fun g p => ![![none, some 6, some 6], ![none, none, none], ![none, none, none], ![none, none, none]] g p, outs := 0, exited := false }
  | 81 => { entered := true, sends := 54, waits := 85, acc := fun g p => ![![none, none, none], ![none, none, none], ![none, none, none], ![none, none, none]] g p, outs := 0, exited := false }
  | 82 => { entered := true, sends := 54, waits := 88, acc := fun g p => ![![none, none, none], ![none, none, none], ![none, none, none], ![none, none, none]] g p, outs := 0, exited := false }
  | 83 => { entered := true, sends := 54, waits := 90, acc := fun g p => ![![none, none, none], ![none, none, none], ![none, none, none], ![some 3, some 3, some 3]] g p, outs := 0, exited := false }
  | 84 => { entered := true, sends := 54, waits := 90, acc := fun g p => ![![none, none, none], ![none, none, none], ![none, none, none], ![some 3, some 3, some 3]] g p, outs := 0, exited := false }
  | 85 => { entered := true, sends := 54, waits := 90, acc := fun g p => ![![none, none, none], ![none, none, none], ![none, none, none], ![some 4, some 4, some 4]] g p, outs := 0, exited := false }
  | 86 => { entered := true, sends := 56, waits := 90, acc := fun g p => ![![none, none, none], ![none, none, none], ![none, none, none], ![none, none, some 4]] g p, outs := 0, exited := false }
  | 87 => { entered := true, sends := 57, waits := 92, acc := fun g p => ![![none, none, none], ![none, none, none], ![none, none, none], ![none, none, none]] g p, outs := 0, exited := false }
  | 88 => { entered := true, sends := 57, waits := 95, acc := fun g p => ![![none, none, none], ![none, none, none], ![none, none, none], ![none, none, none]] g p, outs := 0, exited := false }
  | 89 => { entered := true, sends := 57, waits := 96, acc := fun g p => ![![none, none, none], ![none, none, none], ![some 5, some 5, some 4], ![none, none, none]] g p, outs := 0, exited := false }
  | 90 => { entered := true, sends := 58, waits := 96, acc := fun g p => ![![none, none, none], ![none, none, none], ![none, some 5, some 5], ![none, none, none]] g p, outs := 0, exited := false }
  | 91 => { entered := true, sends := 60, waits := 97, acc := fun g p => ![![none, none, none], ![none, none, none], ![none, none, none], ![none, none, none]] g p, outs := 0, exited := false }
  | 92 => { entered := true, sends := 60, waits := 100, acc := fun g p => ![![none, none, none], ![none, none, none], ![none, none, none], ![none, none, none]] g p, outs := 0, exited := false }
  | 93 => { entered := true, sends := 60, waits := 102, acc := fun g p => ![![none, none, none], ![some 6, some 5, some 5], ![none, none, none], ![none, none, none]] g p, outs := 0, exited := false }
  | 94 => { entered := true, sends := 60, waits := 102, acc := fun g p => ![![none, none, none], ![some 6, some 6, some 6], ![none, none, none], ![none, none, none]] g p, outs := 0, exited := false }
  | 95 => { entered := true, sends := 63, waits := 102, acc := fun g p => ![![none, none, none], ![none, none, none], ![none, none, none], ![none, none, none]] g p, outs := 0, exited := false }
  | 96 => { entered := true, sends := 63, waits := 105, acc := fun g p => ![![none, none, none], ![none, none, none], ![none, none, none], ![none, none, none]] g p, outs := 0, exited := false }
  | 97 => { entered := true, sends := 63, waits := 107, acc := fun g p => ![![none, none, none], ![none, none, none], ![none, none, none], ![none, none, none]] g p, outs := 0, exited := false }
  | 98 => { entered := true, sends := 63, waits := 108, acc := fun g p => ![![some 6, some 6, some 6], ![none, none, none], ![none, none, none], ![none, none, none]] g p, outs := 0, exited := false }
  | 99 => { entered := true, sends := 63, waits := 110, acc := fun g p => ![![some 6, some 6, some 6], ![none, none, none], ![none, none, none], ![none, none, none]] g p, outs := 1, exited := false }
  | 100 => { entered := true, sends := 63, waits := 113, acc := fun g p => ![![some 6, some 6, some 6], ![none, none, none], ![none, none, none], ![none, none, none]] g p, outs := 1, exited := false }
  | 101 => { entered := true, sends := 63, waits := 114, acc := fun g p => ![![some 6, some 6, some 6], ![none, none, none], ![none, none, none], ![some 5, some 5, some 4]] g p, outs := 1, exited := false }
  | 102 => { entered := true, sends := 64, waits := 114, acc := fun g p => ![![some 6, some 6, some 6], ![none, none, none], ![none, none, none], ![none, some 5, some 5]] g p, outs := 1, exited := false }
  | 103 => { entered := true, sends := 66, waits := 115, acc := fun g p => ![![some 6, some 6, some 6], ![none, none, none], ![none, none, none], ![none, none, none]] g p, outs := 1, exited := false }
  | 104 => { entered := true, sends := 66, waits := 118, acc := fun g p => ![![some 6, some 6, some 6], ![none, none, none], ![none, none, none], ![none, none, none]] g p, outs := 1, exited := false }
  | 105 => { entered := true, sends := 66, waits := 120, acc := fun g p => ![![some 6, some 6, some 6], ![none, none, none], ![some 6, some 5, some 5], ![none, none, none]] g p, outs := 1, exited := false }
  | 106 => { entered := true, sends := 66, waits := 120, acc := fun g p => ![![some 6, some 6, some 6], ![none, none, none], ![some 6, some 6, some 6], ![none, none, none]] g p, outs := 1, exited := false }
  | 107 => { entered := true, sends := 69, waits := 120, acc := fun g p => ![![some 6, some 6, some 6], ![none, none, none], ![none, none, none], ![none, none, none]] g p, outs := 1, exited := false }
  | 108 => { entered := true, sends := 69, waits := 123, acc := fun g p => ![![some 6, some 6, some 6], ![none, none, none], ![none, none, none], ![none, none, none]] g p, outs := 1, exited := false }
  | 109 => { entered := true, sends := 69, waits := 126, acc := fun g p => ![![some 6, some 6, some 6], ![some 6, some 6, some 6], ![none, none, none], ![none, none, none]] g p, outs := 1, exited := false }
  | 110 => { entered := true, sends := 69, waits := 126, acc := fun g p => ![![some 6, some 6, some 6], ![some 6, some 6, some 6], ![none, none, none], ![none, none, none]] g p, outs := 2, exited := false }
  | 111 => { entered := true, sends := 69, waits := 129, acc := fun g p => ![![some 6, some 6, some 6], ![some 6, some 6, some 6], ![none, none, none], ![none, none, none]] g p, outs := 2, exited := false }
  | 112 => { entered := true, sends := 69, waits := 132, acc := fun g p => ![![some 6, some 6, some 6], ![some 6, some 6, some 6], ![none, none, none], ![some 5, some 5, some 5]] g p, outs := 2, exited := false }
  | 113 => { entered := true, sends := 69, waits := 132, acc := fun g p => ![![some 6, some 6, some 6], ![some 6, some 6, some 6], ![none, none, none], ![some 6, some 6, some 5]] g p, outs := 2, exited := false }
  | 114 => { entered := true, sends := 71, waits := 132, acc := fun g p => ![![some 6, some 6, some 6], ![some 6, some 6, some 6], ![none, none, none], ![none, none, some 6]] g p, outs := 2, exited := false }
  | 115 => { entered := true, sends := 72, waits := 133, acc := fun g p => ![![some 6, some 6, some 6], ![some 6, some 6, some 6], ![none, none, none], ![none, none, none]] g p, outs := 2, exited := false }
  | 116 => { entered := true, sends := 72, waits := 136, acc := fun g p => ![![some 6, some 6, some 6], ![some 6, some 6, some 6], ![none, none, none], ![none, none, none]] g p, outs := 2, exited := false }
  | 117 => { entered := true, sends := 72, waits := 138, acc := fun g p => ![![some 6, some 6, some 6], ![some 6, some 6, some 6], ![some 6, some 6, some 6], ![none, none, none]] g p, outs := 2, exited := false }
  | 118 => { entered := true, sends := 72, waits := 139, acc := fun g p => ![![some 6, some 6, some 6], ![some 6, some 6, some 6], ![some 6, some 6, some 6], ![none, none, none]] g p, outs := 3, exited := false }
  | 119 => { entered := true, sends := 72, waits := 142, acc := fun g p => ![![some 6, some 6, some 6], ![some 6, some 6, some 6], ![some 6, some 6, some 6], ![none, none, none]] g p, outs := 3, exited := false }
  | 120 => { entered := true, sends := 72, waits := 144, acc := fun g p => ![![some 6, some 6, some 6], ![some 6, some 6, some 6], ![some 6, some 6, some 6], ![some 6, some 6, some 6]] g p, outs := 3, exited := false }
  | 121 => { entered := true, sends := 39, waits := 60, acc := fun g p => ![![some 5, some 5, some 4], ![none, none, none], ![none, none, none], ![none, none, none]] g p, outs := 0, exited := false }
  | 122 => { entered := true, sends := 72, waits := 144, acc := fun g p => ![![some 6, some 6, some 6], ![some 6, some 6, some 6], ![some 6, some 6, some 6], ![some 6, some 6, some 6]] g p, outs := 3, exited := false }
  | 123 => { entered := true, sends := 72, waits := 144, acc := fun g p => ![![some 6, some 6, some 6], ![some 6, some 6, some 6], ![some 6, some 6, some 6], ![some 6, some 6, some 6]] g p, outs := 4, exited := true }
  | _ => { entered := true, sends := 72, waits := 144, acc := fun g p => ![![some 6, some 6, some 6], ![some 6, some 6, some 6], ![some 6, some 6, some 6], ![some 6, some 6, some 6]] g p, outs := 4, exited := true }

@[simp] theorem σ_0 : σ 0 = { entered := false, sends := 0, waits := 0, acc := fun g p => ![![some 0, some 0, some 0], ![some 0, some 0, some 0], ![some 0, some 0, some 0], ![some 0, some 0, some 0]] g p, outs := 0, exited := false } := rfl
@[simp] theorem σ_1 : σ 1 = { entered := true, sends := 0, waits := 0, acc := fun g p => ![![some 0, some 0, some 0], ![some 0, some 0, some 0], ![some 0, some 0, some 0], ![some 0, some 0, some 0]] g p, outs := 0, exited := false } := rfl
@[simp] theorem σ_2 : σ 2 = { entered := true, sends := 0, waits := 0, acc := fun g p => ![![some 0, some 0, some 0], ![some 0, some 0, some 0], ![some 0, some 0, some 0], ![some 0, some 0, some 0]] g p, outs := 0, exited := false } := rfl
@[simp] theorem σ_3 : σ 3 = { entered := true, sends := 0, waits := 0, acc := fun g p => ![![some 0, some 0, some 0], ![some 0, some 0, some 0], ![some 0, some 0, some 0], ![some 0, some 0, some 0]] g p, outs := 0, exited := false } := rfl
@[simp] theorem σ_4 : σ 4 = { entered := true, sends := 0, waits := 0, acc := fun g p => ![![some 1, some 1, some 1], ![some 0, some 0, some 0], ![some 0, some 0, some 0], ![some 0, some 0, some 0]] g p, outs := 0, exited := false } := rfl
@[simp] theorem σ_5 : σ 5 = { entered := true, sends := 2, waits := 0, acc := fun g p => ![![none, none, some 1], ![some 0, some 0, some 0], ![some 0, some 0, some 0], ![some 0, some 0, some 0]] g p, outs := 0, exited := false } := rfl
@[simp] theorem σ_6 : σ 6 = { entered := true, sends := 3, waits := 0, acc := fun g p => ![![none, none, none], ![some 0, some 0, some 0], ![some 0, some 0, some 0], ![some 0, some 0, some 0]] g p, outs := 0, exited := false } := rfl
@[simp] theorem σ_7 : σ 7 = { entered := true, sends := 3, waits := 0, acc := fun g p => ![![none, none, none], ![some 1, some 1, some 1], ![some 0, some 0, some 0], ![some 0, some 0, some 0]] g p, outs := 0, exited := false } := rfl
@[simp] theorem σ_8 : σ 8 = { entered := true, sends := 5, waits := 0, acc := fun g p => ![![none, none, none], ![none, none, some 1], ![some 0, some 0, some 0], ![some 0, some 0, some 0]] g p, outs := 0, exited := false } := rfl
@[simp] theorem σ_9 : σ 9 = { entered := true, sends := 6, waits := 2, acc := fun g p => ![![none, none, none], ![none, none, none], ![some 0, some 0, some 0], ![some 0, some 0, some 0]] g p, outs := 0, exited := false } := rfl
@[simp] theorem σ_10 : σ 10 = { entered := true, sends := 6, waits := 5, acc := fun g p => ![![none, none, none], ![none, none, none], ![some 0, some 0, some 0], ![some 0, some 0, some 0]] g p, outs := 0, exited := false } := rfl
@[simp] theorem σ_11 : σ 11 = { entered := true, sends := 6, waits := 6, acc := fun g p => ![![some 2, some 2, some 1], ![none, none, none], ![some 0, some 0, some 0], ![some 0, some 0, some 0]] g p, outs := 0, exited := false } := rfl
@[simp] theorem σ_12 : σ 12 = { entered := true, sends := 7, waits := 6, acc := fun g p => ![![none, some 2, some 2], ![none, none, none], ![some 0, some 0, some 0], ![some 0, some 0, some 0]] g p, outs := 0, exited := false } := rfl
@[simp] theorem σ_13 : σ 13 = { entered := true, sends := 9, waits := 6, acc := fun g p => ![![none, none, none], ![none, none, none], ![some 0, some 0, some 0], ![some 0, some 0, some 0]] g p, outs := 0, exited := false } := rfl
@[simp] theorem σ_14 : σ 14 = { entered := true, sends := 9, waits := 8, acc := fun g p => ![![none, none, none], ![none, none, none], ![some 0, some 0, some 0], ![some 0, some 0, some 0]] g p, outs := 0, exited := false } := rfl
@[simp] theorem σ_15 : σ 15 = { entered := true, sends := 9, waits := 11, acc := fun g p => ![![none, none, none], ![none, none, none], ![some 0, some 0, some 0], ![some 0, some 0, some 0]] g p, outs := 0, exited := false } := rfl
@[simp] theorem σ_16 : σ 16 = { entered := true, sends := 9, waits := 12, acc := fun g p => ![![none, none, none], ![some 2, some 1, some 1], ![some 0, some 0, some 0], ![some 0, some 0, some 0]] g p, outs := 0, exited := false } := rfl
@[simp] theorem σ_17 : σ 17 = { entered := true, sends := 10, waits := 12, acc := fun g p => ![![none, none, none], ![none, some 2, some 2], ![some 0, some 0, some 0], ![some 0, some 0, some 0]] g p, outs := 0, exited := false } := rfl
@[simp] theorem σ_18 : σ 18 = { entered := true, sends := 12, waits := 12, acc := fun g p => ![![none, none, none], ![none, none, none], ![some 0, some 0, some 0], ![some 0, some 0, some 0]] g p, outs := 0, exited := false } := rfl
@[simp] theorem σ_19 : σ 19 = { entered := true, sends := 12, waits := 15, acc := fun g p => ![![none, none, none], ![none, none, none], ![some 0, some 0, some 0], ![some 0, some 0, some 0]] g p, outs := 0, exited := false } := rfl
@[simp] theorem σ_20 : σ 20 = { entered := true, sends := 12, waits := 18, acc := fun g p => ![![some 2, some 2, some 2], ![none, none, none], ![some 0, some 0, some 0], ![some 0, some 0, some 0]] g p, outs := 0, exited := false } := rfl
@[simp] theorem σ_21 : σ 21 = { entered := true, sends := 12, waits := 18, acc := fun g p => ![![some 3, some 3, some 3], ![none, none, none], ![some 0, some 0, some 0], ![some 0, some 0, some 0]] g p, outs := 0, exited := false } := rfl
@[simp] theorem σ_22 : σ 22 = { entered := true, sends := 14, waits := 18, acc := fun g p => ![![none, none, some 3], ![none, none, none], ![some 0, some 0, some 0], ![some 0, some 0, some 0]] g p, outs := 0, exited := false } := rfl
@[simp] theorem σ_23 : σ 23 = { entered := true, sends := 15, waits := 20, acc := fun g p => ![![none, none, none], ![none, none, none], ![some 0, some 0, some 0], ![some 0, some 0, some 0]] g p, outs := 0, exited := false } := rfl
@[simp] theorem σ_24 : σ 24 = { entered := true, sends := 15, waits := 23, acc := fun g p => ![![none, none, none], ![none, none, none], ![some 0, some 0, some 0], ![some 0, some 0, some 0]] g p, outs := 0, exited := false } := rfl
@[simp] theorem σ_25 : σ 25 = { entered := true, sends := 15, waits := 24, acc := fun g p => ![![none, none, none], ![some 3, some 2, some 2], ![some 0, some 0, some 0], ![some 0, some 0, some 0]] g p, outs := 0, exited := false } := rfl
@[simp] theorem σ_26 : σ 26 = { entered := true, sends := 16, waits := 24, acc := fun g p => ![![none, none, none], ![none, some 3, some 3], ![some 0, some 0, some 0], ![some 0, some 0, some 0]] g p, outs := 0, exited := false } := rfl
@[simp] theorem σ_27 : σ 27 = { entered := true, sends := 18, waits := 24, acc := fun g p => ![![none, none, none], ![none, none, none], ![some 0, some 0, some 0], ![some 0, some 0, some 0]] g p, outs := 0, exited := false } := rfl
@[simp] theorem σ_28 : σ 28 = { entered := true, sends := 18, waits := 27, acc := fun g p => ![![none, none, none], ![none, none, none], ![some 0, some 0, some 0], ![some 0, some 0, some 0]] g p, outs := 0, exited := false } := rfl
@[simp] theorem σ_29 : σ 29 = { entered := true, sends := 18, waits := 30, acc := fun g p => ![![some 3, some 3, some 3], ![none, none, none], ![some 0, some 0, some 0], ![some 0, some 0, some 0]] g p, outs := 0, exited := false } := rfl
@[simp] theorem σ_30 : σ 30 = { entered := true, sends := 18, waits := 30, acc := fun g p => ![![some 3, some 3, some 3], ![none, none, none], ![some 0, some 0, some 0], ![some 0, some 0, some 0]] g p, outs := 0, exited := false } := rfl
@[simp] theorem σ_31 : σ 31 = { entered := true, sends := 19, waits := 30, acc := fun g p => ![![some 3, some 3, some 3], ![none, none, none], ![none, some 1, some 1], ![some 0, some 0, some 0]] g p, outs := 0, exited := false } := rfl
@[simp] theorem σ_32 : σ 32 = { entered := true, sends := 21, waits := 30, acc := fun g p => ![![some 3, some 3, some 3], ![none, none, none], ![none, none, none], ![some 0, some 0, some 0]] g p, outs := 0, exited := false } := rfl
@[simp] theorem σ_33 : σ 33 = { entered := true, sends := 21, waits := 33, acc := fun g p => ![![some 3, some 3, some 3], ![none, none, none], ![none, none, none], ![some 0, some 0, some 0]] g p, outs := 0, exited := false } := rfl
@[simp] theorem σ_34 : σ 34 = { entered := true, sends := 21, waits := 36, acc := fun g p => ![![some 3, some 3, some 3], ![some 3, some 3, some 3], ![none, none, none], ![some 0, some 0, some 0]] g p, outs := 0, exited := false } := rfl
@[simp] theorem σ_35 : σ 35 = { entered := true, sends := 21, waits := 36, acc := fun g p => ![![some 3, some 3, some 3], ![some 3, some 3, some 3], ![none, none, none], ![some 0, some 0, some 0]] g p, outs := 0, exited := false } := rfl
@[simp] theorem σ_36 : σ 36 = { entered := true, sends := 22, waits := 36, acc := fun g p => ![![some 3, some 3, some 3], ![some 3, some 3, some 3], ![none, none, none], ![none, some 1, some 1]] g p, outs := 0, exited := false } := rfl
@[simp] theorem σ_37 : σ 37 = { entered := true, sends := 24, waits := 36, acc := fun g p => ![![some 3, some 3, some 3], ![some 3, some 3, some 3], ![none, none, none], ![none, none, none]] g p, outs := 0, exited := false } := rfl
@[simp] theorem σ_38 : σ 38 = { entered := true, sends := 24, waits := 39, acc := fun g p => ![![some 3, some 3, some 3], ![some 3, some 3, some 3], ![none, none, none], ![none, none, none]] g p, outs := 0, exited := false } := rfl
@[simp] theorem σ_39 : σ 39 = { entered := true, sends := 24, waits := 42, acc := fun g p => ![![some 3, some 3, some 3], ![some 3, some 3, some 3], ![some 1, some 1, some 1], ![none, none, none]] g p, outs := 0, exited := false } := rfl
@[simp] theorem σ_40 : σ 40 = { entered := true, sends := 24, waits := 42, acc := fun g p => ![![some 3, some 3, some 3], ![some 3, some 3, some 3], ![some 2, some 2, some 2], ![none, none, none]] g p, outs := 0, exited := false } := rfl
@[simp] theorem σ_41 : σ 41 = { entered := true, sends := 26, waits := 42, acc := fun g p => ![![some 3, some 3, some 3], ![some 3, some 3, some 3], ![none, none, some 2], ![none, none, none]] g p, outs := 0, exited := false } := rfl
@[simp] theorem σ_42 : σ 42 = { entered := true, sends := 27, waits := 42, acc := fun g p => ![![some 3, some 3, some 3], ![some 3, some 3, some 3], ![none, none, none], ![none, none, none]] g p, outs := 0, exited := false } := rfl
@[simp] theorem σ_43 : σ 43 = { entered := true, sends := 27, waits := 42, acc := fun g p => ![![some 3, some 3, some 3], ![some 3, some 3, some 3], ![none, none, none], ![none, none, none]] g p, outs := 0, exited := false } := rfl
@[simp] theorem σ_44 : σ 44 = { entered := true, sends := 28, waits := 42, acc := fun g p => ![![none, some 4, some 4], ![some 3, some 3, some 3], ![none, none, none], ![none, none, none]] g p, outs := 0, exited := false } := rfl
@[simp] theorem σ_45 : σ 45 = { entered := true, sends := 30, waits := 42, acc := fun g p => ![![none, none, none], ![some 3, some 3, some 3], ![none, none, none], ![none, none, none]] g p, outs := 0, exited := false } := rfl
@[simp] theorem σ_46 : σ 46 = { entered := true, sends := 30, waits := 45, acc := fun g p => ![![none, none, none], ![some 3, some 3, some 3], ![none, none, none], ![none, none, none]] g p, outs := 0, exited := false } := rfl
@[simp] theorem σ_47 : σ 47 = { entered := true, sends := 30, waits := 48, acc := fun g p => ![![none, none, none], ![some 3, some 3, some 3], ![none, none, none], ![some 1, some 1, some 1]] g p, outs := 0, exited := false } := rfl
@[simp] theorem σ_48 : σ 48 = { entered := true, sends := 30, waits := 48, acc := fun g p => ![![none, none, none], ![some 3, some 3, some 3], ![none, none, none], ![some 2, some 2, some 2]] g p, outs := 0, exited := false } := rfl
@[simp] theorem σ_49 : σ 49 = { entered := true, sends := 32, waits := 48, acc := fun g p => ![![none, none, none], ![some 3, some 3, some 3], ![none, none, none], ![none, none, some 2]] g p, outs := 0, exited := false } := rfl
@[simp] theorem σ_50 : σ 50 = { entered := true, sends := 33, waits := 50, acc := fun g p => ![![none, none, none], ![some 3, some 3, some 3], ![none, none, none], ![none, none, none]] g p, outs := 0, exited := false } := rfl
@[simp] theorem σ_51 : σ 51 = { entered := true, sends := 33, waits := 53, acc := fun g p => ![![none, none, none], ![some 3, some 3, some 3], ![none, none, none], ![none, none, none]] g p, outs := 0, exited := false } := rfl
@[simp] theorem σ_52 : σ 52 = { entered := true, sends := 33, waits := 54, acc := fun g p => ![![none, none, none], ![some 3, some 3, some 3], ![some 3, some 3, some 2], ![none, none, none]] g p, outs := 0, exited := false } := rfl
@[simp] theorem σ_53 : σ 53 = { entered := true, sends := 34, waits := 54, acc := fun g p => ![![none, none, none], ![some 3, some 3, some 3], ![none, some 3, some 3], ![none, none, none]] g p, outs := 0, exited := false } := rfl
@[simp] theorem σ_54 : σ 54 = { entered := true, sends := 36, waits := 54, acc := fun g p => ![![none, none, none], ![some 3, some 3, some 3], ![none, none, none], ![none, none, none]] g p, outs := 0, exited := false } := rfl
@[simp] theorem σ_55 : σ 55 = { entered := true, sends := 36, waits := 54, acc := fun g p => ![![none, none, none], ![some 3, some 3, some 3], ![none, none, none], ![none, none, none]] g p, outs := 0, exited := false } := rfl
@[simp] theorem σ_56 : σ 56 = { entered := true, sends := 36, waits := 54, acc := fun g p => ![![none, none, none], ![some 4, some 4, some 4], ![none, none, none], ![none, none, none]] g p, outs := 0, exited := false } := rfl
@[simp] theorem σ_57 : σ 57 = { entered := true, sends := 38, waits := 54, acc := fun g p => ![![none, none, none], ![none, none, some 4], ![none, none, none], ![none, none, none]] g p, outs := 0, exited := false } := rfl
@[simp] theorem σ_58 : σ 58 = { entered := true, sends := 39, waits := 56, acc := fun g p => ![![none, none, none], ![none, none, none], ![none, none, none], ![none, none, none]] g p, outs := 0, exited := false } := rfl
@[simp] theorem σ_59 : σ 59 = { entered := true, sends := 39, waits := 59, acc := fun g p => ![![none, none, none], ![none, none, none], ![none, none, none], ![none, none, none]] g p, outs := 0, exited := false } := rfl
@[simp] theorem σ_60 : σ 60 = { entered := true, sends := 39, waits := 60, acc := fun g p => ![![some 5, some 5, some 4], ![none, none, none], ![none, none, none], ![none, none, none]] g p, outs := 0, exited := false } := rfl
@[simp] theorem σ_61 : σ 61 = { entered := true, sends := 40, waits := 60, acc := fun g p => ![![none, some 5, some 5], ![none, none, none], ![none, none, none], ![none, none, none]] g p, outs := 0, exited := false } := rfl
@[simp] theorem σ_62 : σ 62 = { entered := true, sends := 42, waits := 61, acc := fun g p => ![![none, none, none], ![none, none, none], ![none, none, none], ![none, none, none]] g p, outs := 0, exited := false } := rfl
@[simp] theorem σ_63 : σ 63 = { entered := true, sends := 42, waits := 64, acc := fun g p => ![![none, none, none], ![none, none, none], ![none, none, none], ![none, none, none]] g p, outs := 0, exited := false } := rfl
@[simp] theorem σ_64 : σ 64 = { entered := true, sends := 42, waits := 66, acc := fun g p => ![![none, none, none], ![none, none, none], ![none, none, none], ![some 2, some 2, some 2]] g p, outs := 0, exited := false } := rfl
@[simp] theorem σ_65 : σ 65 = { entered := true, sends := 42, waits := 66, acc := fun g p => ![![none, none, none], ![none, none, none], ![none, none, none], ![some 3, some 3, some 3]] g p, outs := 0, exited := false } := rfl
@[simp] theorem σ_66 : σ 66 = { entered := true, sends := 44, waits := 66, acc := fun g p => ![![none, none, none], ![none, none, none], ![none, none, none], ![none, none, some 3]] g p, outs := 0, exited := false } := rfl
@[simp] theorem σ_67 : σ 67 = { entered := true, sends := 45, waits := 68, acc := fun g p => ![![none, none, none], ![none, none, none], ![none, none, none], ![none, none, none]] g p, outs := 0, exited := false } := rfl
@[simp] theorem σ_68 : σ 68 = { entered := true, sends := 45, waits := 71, acc := fun g p => ![![none, none, none], ![none, none, none], ![none, none, none], ![none, none, none]] g p, outs := 0, exited := false } := rfl
@[simp] theorem σ_69 : σ 69 = { entered := true, sends := 45, waits := 72, acc := fun g p => ![![none, none, none], ![none, none, none], ![some 3, some 3, some 3], ![none, none, none]] g p, outs := 0, exited := false } := rfl
@[simp] theorem σ_70 : σ 70 = { entered := true, sends := 45, waits := 72, acc := fun g p => ![![none, none, none], ![none, none, none], ![some 3, some 3, some 3], ![none, none, none]] g p, outs := 0, exited := false } := rfl
@[simp] theorem σ_71 : σ 71 = { entered := true, sends := 46, waits := 72, acc := fun g p => ![![none, none, none], ![none, none, none], ![none, some 4, some 4], ![none, none, none]] g p, outs := 0, exited := false } := rfl
@[simp] theorem σ_72 : σ 72 = { entered := true, sends := 48, waits := 73, acc := fun g p => ![![none, none, none], ![none, none, none], ![none, none, none], ![none, none, none]] g p, outs := 0, exited := false } := rfl
@[simp] theorem σ_73 : σ 73 = { entered := true, sends := 48, waits := 76, acc := fun g p => ![![none, none, none], ![none, none, none], ![none, none, none], ![none, none, none]] g p, outs := 0, exited := false } := rfl
@[simp] theorem σ_74 : σ 74 = { entered := true, sends := 48, waits := 78, acc := fun g p => ![![none, none, none], ![some 4, some 4, some 4], ![none, none, none], ![none, none, none]] g p, outs := 0, exited := false } := rfl
@[simp] theorem σ_75 : σ 75 = { entered := true, sends := 48, waits := 78, acc := fun g p => ![![none, none, none], ![some 5, some 5, some 5], ![none, none, none], ![none, none, none]] g p, outs := 0, exited := false } := rfl
@[simp] theorem σ_76 : σ 76 = { entered := true, sends := 50, waits := 78, acc := fun g p => ![![none, none, none], ![none, none, some 5], ![none, none, none], ![none, none, none]] g p, outs := 0, exited := false } := rfl
@[simp] theorem σ_77 : σ 77 = { entered := true, sends := 51, waits := 80, acc := fun g p => ![![none, none, none], ![none, none, none], ![none, none, none], ![none, none, none]] g p, outs := 0, exited := false } := rfl
@[simp] theorem σ_78 : σ 78 = { entered := true, sends := 51, waits := 83, acc := fun g p => ![![none, none, none], ![none, none, none], ![none, none, none], ![none, none, none]] g p, outs := 0, exited := false } := rfl
@[simp] theorem σ_79 : σ 79 = { entered := true, sends := 51, waits := 84, acc := fun g p => ![![some 6, some 6, some 5], ![none, none, none], ![none, none, none], ![none, none, none]] g p, outs := 0, exited := false } := rfl
@[simp] theorem σ_80 : σ 80 = { entered := true, sends := 52, waits := 84, acc := fun g p => ![![none, some 6, some 6], ![none, none, none], ![none, none, none], ![none, none, none]] g p, outs := 0, exited := false } := rfl
@[simp] theorem σ_81 : σ 81 = { entered := true, sends := 54, waits := 85, acc := fun g p => ![![none, none, none], ![none, none, none], ![none, none, none], ![none, none, none]] g p, outs := 0, exited := false } := rfl
@[simp] theorem σ_82 : σ 82 = { entered := true, sends := 54, waits := 88, acc := fun g p => ![![none, none, none], ![none, none, none], ![none, none, none], ![none, none, none]] g p, outs := 0, exited := false } := rfl
@[simp] theorem σ_83 : σ 83 = { entered := true, sends := 54, waits := 90, acc := fun g p => ![![none, none, none], ![none, none, none], ![none, none, none], ![some 3, some 3, some 3]] g p, outs := 0, exited := false } := rfl
@[simp] theorem σ_84 : σ 84 = { entered := true, sends := 54, waits := 90, acc := fun g p => ![![none, none, none], ![none, none, none], ![none, none, none], ![some 3, some 3, some 3]] g p, outs := 0, exited := false } := rfl
@[simp] theorem σ_85 : σ 85 = { entered := true, sends := 54, waits := 90, acc := fun g p => ![![none, none, none], ![none, none, none], ![none, none, none], ![some 4, some 4, some 4]] g p, outs := 0, exited := false } := rfl
@[simp] theorem σ_86 : σ 86 = { entered := true, sends := 56, waits := 90, acc := fun g p => ![![none, none, none], ![none, none, none], ![none, none, none], ![none, none, some 4]] g p, outs := 0, exited := false } := rfl
@[simp] theorem σ_87 : σ 87 = { entered := true, sends := 57, waits := 92, acc := fun g p => ![![none, none, none], ![none, none, none], ![none, none, none], ![none, none, none]] g p, outs := 0, exited := false } := rfl
@[simp] theorem σ_88 : σ 88 = { entered := true, sends := 57, waits := 95, acc := fun g p => ![![none, none, none], ![none, none, none], ![none, none, none], ![none, none, none]] g p, outs := 0, exited := false } := rfl
@[simp] theorem σ_89 : σ 89 = { entered := true, sends := 57, waits := 96, acc := fun g p => ![![none, none, none], ![none, none, none], ![some 5, some 5, some 4], ![none, none, none]] g p, outs := 0, exited := false } := rfl
@[simp] theorem σ_90 : σ 90 = { entered := true, sends := 58, waits := 96, acc := fun g p => ![![none, none, none], ![none, none, none], ![none, some 5, some 5], ![none, none, none]] g p, outs := 0, exited := false } := rfl
@[simp] theorem σ_91 : σ 91 = { entered := true, sends := 60, waits := 97, acc := fun g p => ![![none, none, none], ![none, none, none], ![none, none, none], ![none, none, none]] g p, outs := 0, exited := false } := rfl
@[simp] theorem σ_92 : σ 92 = { entered := true, sends := 60, waits := 100, acc := fun g p => ![![none, none, none], ![none, none, none], ![none, none, none], ![none, none, none]] g p, outs := 0, exited := false } := rfl
@[simp] theorem σ_93 : σ 93 = { entered := true, sends := 60, waits := 102, acc := fun g p => ![![none, none, none], ![some 6, some 5, some 5], ![none, none, none], ![none, none, none]] g p, outs := 0, exited := false } := rfl
@[simp] theorem σ_94 : σ 94 = { entered := true, sends := 60, waits := 102, acc := fun g p => ![![none, none, none], ![some 6, some 6, some 6], ![none, none, none], ![none, none, none]] g p, outs := 0, exited := false } := rfl
@[simp] theorem σ_95 : σ 95 = { entered := true, sends := 63, waits := 102, acc := fun g p => ![![none, none, none], ![none, none, none], ![none, none, none], ![none, none, none]] g p, outs := 0, exited := false } := rfl
@[simp] theorem σ_96 : σ 96 = { entered := true, sends := 63, waits := 105, acc := fun g p => ![![none, none, none], ![none, none, none], ![none, none, none], ![none, none, none]] g p, outs := 0, exited := false } := rfl
@[simp] theorem σ_97 : σ 97 = { entered := true, sends := 63, waits := 107, acc := fun g p => ![![none, none, none], ![none, none, none], ![none, none, none], ![none, none, none]] g p, outs := 0, exited := false } := rfl
@[simp] theorem σ_98 : σ 98 = { entered := true, sends := 63, waits := 108, acc := fun g p => ![![some 6, some 6, some 6], ![none, none, none], ![none, none, none], ![none, none, none]] g p, outs := 0, exited := false } := rfl
@[simp] theorem σ_99 : σ 99 = { entered := true, sends := 63, waits := 110, acc := fun g p => ![![some 6, some 6, some 6], ![none, none, none], ![none, none, none], ![none, none, none]] g p, outs := 1, exited := false } := rfl
@[simp] theorem σ_100 : σ 100 = { entered := true, sends := 63, waits := 113, acc := fun g p => ![![some 6, some 6, some 6], ![none, none, none], ![none, none, none], ![none, none, none]] g p, outs := 1, exited := false } := rfl
@[simp] theorem σ_101 : σ 101 = { entered := true, sends := 63, waits := 114, acc := fun g p => ![![some 6, some 6, some 6], ![none, none, none], ![none, none, none], ![some 5, some 5, some 4]] g p, outs := 1, exited := false } := rfl
@[simp] theorem σ_102 : σ 102 = { entered := true, sends := 64, waits := 114, acc := fun g p => ![![some 6, some 6, some 6], ![none, none, none], ![none, none, none], ![none, some 5, some 5]] g p, outs := 1, exited := false } := rfl
@[simp] theorem σ_103 : σ 103 = { entered := true, sends := 66, waits := 115, acc := fun g p => ![![some 6, some 6, some 6], ![none, none, none], ![none, none, none], ![none, none, none]] g p, outs := 1, exited := false } := rfl
@[simp] theorem σ_104 : σ 104 = { entered := true, sends := 66, waits := 118, acc := fun g p => ![![some 6, some 6, some 6], ![none, none, none], ![none, none, none], ![none, none, none]] g p, outs := 1, exited := false } := rfl
@[simp] theorem σ_105 : σ 105 = { entered := true, sends := 66, waits := 120, acc := fun g p => ![![some 6, some 6, some 6], ![none, none, none], ![some 6, some 5, some 5], ![none, none, none]] g p, outs := 1, exited := false } := rfl
@[simp] theorem σ_106 : σ 106 = { entered := true, sends := 66, waits := 120, acc := fun g p => ![![some 6, some 6, some 6], ![none, none, none], ![some 6, some 6, some 6], ![none, none, none]] g p, outs := 1, exited := false } := rfl
@[simp] theorem σ_107 : σ 107 = { entered := true, sends := 69, waits := 120, acc := fun g p => ![![some 6, some 6, some 6], ![none, none, none], ![none, none, none], ![none, none, none]] g p, outs := 1, exited := false } := rfl
@[simp] theorem σ_108 : σ 108 = { entered := true, sends := 69, waits := 123, acc := fun g p => ![![some 6, some 6, some 6], ![none, none, none], ![none, none, none], ![none, none, none]] g p, outs := 1, exited := false } := rfl
@[simp] theorem σ_109 : σ 109 = { entered := true, sends := 69, waits := 126, acc := fun g p => ![![some 6, some 6, some 6], ![some 6, some 6, some 6], ![none, none, none], ![none, none, none]] g p, outs := 1, exited := false } := rfl
@[simp] theorem σ_110 : σ 110 = { entered := true, sends := 69, waits := 126, acc := fun g p => ![![some 6, some 6, some 6], ![some 6, some 6, some 6], ![none, none, none], ![none, none, none]] g p, outs := 2, exited := false } := rfl
@[simp] theorem σ_111 : σ 111 = { entered := true, sends := 69, waits := 129, acc := fun g p => ![![some 6, some 6, some 6], ![some 6, some 6, some 6], ![none, none, none], ![none, none, none]] g p, outs := 2, exited := false } := rfl
@[simp] theorem σ_112 : σ 112 = { entered := true, sends := 69, waits := 132, acc := fun g p => ![![some 6, some 6, some 6], ![some 6, some 6, some 6], ![none, none, none], ![some 5, some 5, some 5]] g p, outs := 2, exited := false } := rfl
@[simp] theorem σ_113 : σ 113 = { entered := true, sends := 69, waits := 132, acc := fun g p => ![![some 6, some 6, some 6], ![some 6, some 6, some 6], ![none, none, none], ![some 6, some 6, some 5]] g p, outs := 2, exited := false } := rfl
@[simp] theorem σ_114 : σ 114 = { entered := true, sends := 71, waits := 132, acc := fun g p => ![![some 6, some 6, some 6], ![some 6, some 6, some 6], ![none, none, none], ![none, none, some 6]] g p, outs := 2, exited := false } := rfl
@[simp] theorem σ_115 : σ 115 = { entered := true, sends := 72, waits := 133, acc := fun g p => ![![some 6, some 6, some 6], ![some 6, some 6, some 6], ![none, none, none], ![none, none, none]] g p, outs := 2, exited := false } := rfl
@[simp] theorem σ_116 : σ 116 = { entered := true, sends := 72, waits := 136, acc := fun g p => ![![some 6, some 6, some 6], ![some 6, some 6, some 6], ![none, none, none], ![none, none, none]] g p, outs := 2, exited := false } := rfl
@[simp] theorem σ_117 : σ 117 = { entered := true, sends := 72, waits := 138, acc := fun g p => ![![some 6, some 6, some 6], ![some 6, some 6, some 6], ![some 6, some 6, some 6], ![none, none, none]] g p, outs := 2, exited := false } := rfl
@[simp] theorem σ_118 : σ 118 = { entered := true, sends := 72, waits := 139, acc := fun g p => ![![some 6, some 6, some 6], ![some 6, some 6, some 6], ![some 6, some 6, some 6], ![none, none, none]] g p, outs := 3, exited := false } := rfl
@[simp] theorem σ_119 : σ 119 = { entered := true, sends := 72, waits := 142, acc := fun g p => ![![some 6, some 6, some 6], ![some 6, some 6, some 6], ![some 6, some 6, some 6], ![none, none, none]] g p, outs := 3, exited := false } := rfl
@[simp] theorem σ_120 : σ 120 = { entered := true, sends := 72, waits := 144, acc := fun g p => ![![some 6, some 6, some 6], ![some 6, some 6, some 6], ![some 6, some 6, some 6], ![some 6, some 6, some 6]] g p, outs := 3, exited := false } := rfl
@[simp] theorem σ_121 : σ 121 = { entered := true, sends := 39, waits := 60, acc := fun g p => ![![some 5, some 5, some 4], ![none, none, none], ![none, none, none], ![none, none, none]] g p, outs := 0, exited := false } := rfl
@[simp] theorem σ_122 : σ 122 = { entered := true, sends := 72, waits := 144, acc := fun g p => ![![some 6, some 6, some 6], ![some 6, some 6, some 6], ![some 6, some 6, some 6], ![some 6, some 6, some 6]] g p, outs := 3, exited := false } := rfl
@[simp] theorem σ_123 : σ 123 = { entered := true, sends := 72, waits := 144, acc := fun g p => ![![some 6, some 6, some 6], ![some 6, some 6, some 6], ![some 6, some 6, some 6], ![some 6, some 6, some 6]] g p, outs := 4, exited := true } := rfl

end Cert.Kernel.Body
-- ==== Proof.Bits.BodyTuples.lean ====
import proofs.«900775_g7700000000000776_dist_diff_dit_htp_i_b2_s512_d768_hq4_v7x_i8_f32_1_alg».proof.Proof.Bits.Vals.Live

/-! For every part of the body, the tuple of values it returns, each under its name in the table of the values that live across
    the parts' boundaries; the docstring lists, in the order of the part's parameters, the values it is called with. -/

noncomputable section

namespace Cert.Kernel.Body

open Idealize.ShloMosaic Cert.Kernel Cert.Kernel.Gen

variable {F : FTy → Type} [FloatOps F]

/-- Part 1. Called with: no live value. -/
def ret1 (I : Dev nD → Vals.Ins F) (c : Dev nD) : Σ' (d0 : Dev nD) (v2 : BitVec 32) (v14 : FVec F S2x512x768 .f32) (v20 : FVec F S2x768 .f32) (v21 : FVec F S2x768 .f32) (v22 : FVec F S2x768 .f32) (v23 : FVec F S2x768 .f32) (v24 : FVec F S2x768 .f32) (v25 : FVec F S2x768 .f32), FVec F S768x384 .bf16 := ⟨c, Vals.lw2 c, Vals.lv14 I c, Vals.lv20 I c, Vals.lv21 I c, Vals.lv22 I c, Vals.lv23 I c, Vals.lv24 I c, Vals.lv25 I c, Vals.lv28 I c⟩
/-- Part 2. Called with: v14 := Vals.lv14 I c, v20 := Vals.lv20 I c. -/
def ret2 (I : Dev nD → Vals.Ins F) (c : Dev nD) : Σ' (v31 : FVec F S768x384 .bf16) (v34 : FVec F S768x384 .bf16) (v37 : FVec F S384x768 .bf16) (v40 : FVec F S768x384 .bf16) (v43 : FVec F S384x768 .bf16), FVec F S512x768 .f32 := ⟨Vals.lv31 I c, Vals.lv34 I c, Vals.lv37 I c, Vals.lv40 I c, Vals.lv43 I c, Vals.lv72 I c⟩
/-- Part 3. Called with: v21 := Vals.lv21 I c, v28 := Vals.lv28 I c, v31 := Vals.lv31 I c, v34 := Vals.lv34 I c, v72 := Vals.lv72 I c. -/
def ret3 (I : Dev nD → Vals.Ins F) (c : Dev nD) : Σ' (v77 : FVec F S512x768 .f32) (v80 : FVec F S512x384 .bf16) (v83 : FVec F S512x384 .bf16) (v89 : FVec F S256x384 .bf16) (v101 : FVec F S256x96 .f32) (v113 : FVec F S256x96 .f32) (v116 : FVec F S512x96 .bf16) (v119 : FVec F S256x512 .f32), FVec F S256 .f32 := ⟨Vals.lv77 I c, Vals.lv80 I c, Vals.lv83 I c, Vals.lv89 I c, Vals.lv101 I c, Vals.lv113 I c, Vals.lv116 I c, Vals.lv119 I c, Vals.lv120 I c⟩
/-- Part 4. Called with: v2 := Vals.lw2 c, v37 := Vals.lv37 I c, v80 := Vals.lv80 I c, v83 := Vals.lv83 I c, v89 := Vals.lv89 I c, v101 := Vals.lv101 I c, v113 := Vals.lv113 I c, v116 := Vals.lv116 I c, v119 := Vals.lv119 I c, v120 := Vals.lv120 I c. -/
def ret4 (I : Dev nD → Vals.Ins F) (c : Dev nD) : BitVec 32 := Vals.lw154 c
/-- Part 5. Called with: d0 := c, v2 := Vals.lw2 c, v154 := Vals.lw154 c. -/
def ret5 (I : Dev nD → Vals.Ins F) (c : Dev nD) : Σ' (v165 : BitVec 32), BitVec 32 := ⟨Vals.lw165 c, Vals.lw176 c⟩
/-- Part 6. Called with: d0 := c, v28 := Vals.lv28 I c, v77 := Vals.lv77 I c, v80 := Vals.lv80 I c, v83 := Vals.lv83 I c. -/
def ret6 (I : Dev nD → Vals.Ins F) (c : Dev nD) : Σ' (v192 : FVec F S256x384 .bf16) (v204 : FVec F S256x96 .f32) (v216 : FVec F S256x96 .f32) (v219 : FVec F S512x96 .bf16) (v224 : FVec F S256x1 .f32), FVec F S256x512 .bf16 := ⟨Vals.lv192 I c, Vals.lv204 I c, Vals.lv216 I c, Vals.lv219 I c, Vals.lv224 I c, Vals.lv225 I c⟩
/-- Part 7. Called with: v2 := Vals.lw2 c, v37 := Vals.lv37 I c, v80 := Vals.lv80 I c, v83 := Vals.lv83 I c, v192 := Vals.lv192 I c, v204 := Vals.lv204 I c, v216 := Vals.lv216 I c, v219 := Vals.lv219 I c, v224 := Vals.lv224 I c, v225 := Vals.lv225 I c. -/
def ret7 (I : Dev nD → Vals.Ins F) (c : Dev nD) : BitVec 32 := Vals.lw257 c
/-- Part 8. Called with: d0 := c, v2 := Vals.lw2 c, v257 := Vals.lw257 c. -/
def ret8 (I : Dev nD → Vals.Ins F) (c : Dev nD) : Σ' (v268 : BitVec 32), BitVec 32 := ⟨Vals.lw268 c, Vals.lw279 c⟩
/-- Part 9. Called with: d0 := c, v154 := Vals.lw154 c. -/
def ret9 : PUnit := ⟨⟩
/-- Part 10. Called with: v165 := Vals.lw165 c, v176 := Vals.lw176 c. -/
def ret10 (I : Dev nD → Vals.Ins F) (c : Dev nD) : Σ' (v324 : BitVec 32), BitVec 32 := ⟨Vals.lw324 c, Vals.lwc0_i32_241 c⟩
/-- Part 11. Called with: v324 := Vals.lw324 c, c0_i32_241 := Vals.lwc0_i32_241 c. -/
def ret11 : PUnit := ⟨⟩
/-- Part 12. Called with: d0 := c, v2 := Vals.lw2 c. -/
def ret12 (I : Dev nD → Vals.Ins F) (c : Dev nD) : Σ' (v356 : BitVec 32), BitVec 32 := ⟨Vals.lw356 c, Vals.lw367 c⟩
/-- Part 13. Called with: d0 := c, v2 := Vals.lw2 c, v14 := Vals.lv14 I c. -/
def ret13 (I : Dev nD → Vals.Ins F) (c : Dev nD) : Σ' (v378 : BitVec 32) (v405 : FVec F S512x768 .f32), FVec F S512x1 .f32 := ⟨Vals.lw378 c, Vals.lv405 I c, Vals.lv407 I c⟩
/-- Part 14. Called with: v20 := Vals.lv20 I c, v21 := Vals.lv21 I c, v257 := Vals.lw257 c, v405 := Vals.lv405 I c, v407 := Vals.lv407 I c. -/
def ret14 (I : Dev nD → Vals.Ins F) (c : Dev nD) : FVec F S512x768 .f32 := Vals.lv422 I c
/-- Part 15. Called with: v268 := Vals.lw268 c. -/
def ret15 : PUnit := ⟨⟩
/-- Part 16. Called with: v279 := Vals.lw279 c. -/
def ret16 (I : Dev nD → Vals.Ins F) (c : Dev nD) : Σ' (v477 : FVec F S256x256 .bf16), Vec F S1x1x256x256 .bf16 := ⟨Vals.lv477 I c, Vals.lv478 I c⟩
/-- Part 17. Called with: d0 := c, v2 := Vals.lw2 c, v477 := Vals.lv477 I c, v478 := Vals.lv478 I c. -/
def ret17 (I : Dev nD → Vals.Ins F) (c : Dev nD) : Σ' (v489 : BitVec 32), BitVec 32 := ⟨Vals.lw489 c, Vals.lw500 c⟩
/-- Part 18. Called with: d0 := c, v2 := Vals.lw2 c, v500 := Vals.lw500 c. -/
def ret18 (I : Dev nD → Vals.Ins F) (c : Dev nD) : BitVec 32 := Vals.lw511 c
/-- Part 19. Called with: v356 := Vals.lw356 c, v367 := Vals.lw367 c. -/
def ret19 : PUnit := ⟨⟩
/-- Part 20. Called with: v378 := Vals.lw378 c. -/
def ret20 (I : Dev nD → Vals.Ins F) (c : Dev nD) : FVec F S256x256 .bf16 := Vals.lv568 I c
/-- Part 21. Called with: v2 := Vals.lw2 c, v568 := Vals.lv568 I c. -/
def ret21 (I : Dev nD → Vals.Ins F) (c : Dev nD) : BitVec 32 := Vals.lw588 c
/-- Part 22. Called with: d0 := c, v2 := Vals.lw2 c, v588 := Vals.lw588 c. -/
def ret22 (I : Dev nD → Vals.Ins F) (c : Dev nD) : Σ' (v599 : BitVec 32), BitVec 32 := ⟨Vals.lw599 c, Vals.lw610 c⟩
/-- Part 23. Called with: d0 := c, v31 := Vals.lv31 I c, v34 := Vals.lv34 I c, v422 := Vals.lv422 I c, v489 := Vals.lw489 c. -/
def ret23 (I : Dev nD → Vals.Ins F) (c : Dev nD) : Σ' (v623 : FVec F S512x384 .bf16), FVec F S512x384 .bf16 := ⟨Vals.lv623 I c, Vals.lv626 I c⟩
/-- Part 24. Called with: v500 := Vals.lw500 c. -/
def ret24 : PUnit := ⟨⟩
/-- Part 25. Called with: v511 := Vals.lw511 c. -/
def ret25 (I : Dev nD → Vals.Ins F) (c : Dev nD) : FVec F S256x256 .bf16 := Vals.lv681 I c
/-- Part 26. Called with: d0 := c, v2 := Vals.lw2 c, v681 := Vals.lv681 I c. -/
def ret26 (I : Dev nD → Vals.Ins F) (c : Dev nD) : Σ' (v693 : BitVec 32), BitVec 32 := ⟨Vals.lw693 c, Vals.lw704 c⟩
/-- Part 27. Called with: d0 := c, v2 := Vals.lw2 c, v704 := Vals.lw704 c. -/
def ret27 (I : Dev nD → Vals.Ins F) (c : Dev nD) : BitVec 32 := Vals.lw715 c
/-- Part 28. Called with: v588 := Vals.lw588 c, v599 := Vals.lw599 c. -/
def ret28 : PUnit := ⟨⟩
/-- Part 29. Called with: v28 := Vals.lv28 I c, v422 := Vals.lv422 I c, v610 := Vals.lw610 c, v623 := Vals.lv623 I c, v626 := Vals.lv626 I c. -/
def ret29 (I : Dev nD → Vals.Ins F) (c : Dev nD) : Σ' (v773 : FVec F S256x384 .bf16) (v774 : FVec F S256x96 .bf16) (v776 : FVec F S512x96 .bf16), FVec F S96x512 .bf16 := ⟨Vals.lv773 I c, Vals.lv774 I c, Vals.lv776 I c, Vals.lv777 I c⟩
/-- Part 30. Called with: v37 := Vals.lv37 I c, v623 := Vals.lv623 I c, v626 := Vals.lv626 I c, v773 := Vals.lv773 I c, v774 := Vals.lv774 I c, v776 := Vals.lv776 I c, v777 := Vals.lv777 I c. -/
def ret30 (I : Dev nD → Vals.Ins F) (c : Dev nD) : FVec F S256x768 .f32 := Vals.lv824 I c
/-- Part 31. Called with: d0 := c, v2 := Vals.lw2 c, v824 := Vals.lv824 I c. -/
def ret31 (I : Dev nD → Vals.Ins F) (c : Dev nD) : Σ' (v838 : BitVec 32), BitVec 32 := ⟨Vals.lw838 c, Vals.lw849 c⟩
/-- Part 32. Called with: d0 := c, v2 := Vals.lw2 c, v849 := Vals.lw849 c. -/
def ret32 (I : Dev nD → Vals.Ins F) (c : Dev nD) : BitVec 32 := Vals.lw860 c
/-- Part 33. Called with: v693 := Vals.lw693 c, v704 := Vals.lw704 c. -/
def ret33 : PUnit := ⟨⟩
/-- Part 34. Called with: v28 := Vals.lv28 I c, v422 := Vals.lv422 I c, v623 := Vals.lv623 I c, v626 := Vals.lv626 I c, v715 := Vals.lw715 c. -/
def ret34 (I : Dev nD → Vals.Ins F) (c : Dev nD) : Σ' (v918 : FVec F S256x384 .bf16) (v919 : FVec F S256x96 .bf16) (v920 : FVec F S512x96 .bf16), FVec F S512x96 .bf16 := ⟨Vals.lv918 I c, Vals.lv919 I c, Vals.lv920 I c, Vals.lv921 I c⟩
/-- Part 35. Called with: v623 := Vals.lv623 I c, v626 := Vals.lv626 I c, v918 := Vals.lv918 I c, v919 := Vals.lv919 I c, v920 := Vals.lv920 I c, v921 := Vals.lv921 I c. -/
def ret35 (I : Dev nD → Vals.Ins F) (c : Dev nD) : Σ' (v968 : FVec F S256x384 .bf16), FVec F S256x768 .f32 := ⟨Vals.lv968 I c, Vals.lvcst_1034 I c⟩
/-- Part 36. Called with: d0 := c, v2 := Vals.lw2 c, v37 := Vals.lv37 I c, v968 := Vals.lv968 I c, cst_1034 := Vals.lvcst_1034 I c. -/
def ret36 (I : Dev nD → Vals.Ins F) (c : Dev nD) : Σ' (v983 : BitVec 32), BitVec 32 := ⟨Vals.lw983 c, Vals.lw994 c⟩
/-- Part 37. Called with: d0 := c, v2 := Vals.lw2 c, v994 := Vals.lw994 c. -/
def ret37 (I : Dev nD → Vals.Ins F) (c : Dev nD) : BitVec 32 := Vals.lw1005 c
/-- Part 38. Called with: v838 := Vals.lw838 c, v849 := Vals.lw849 c. -/
def ret38 : PUnit := ⟨⟩
/-- Part 39. Called with: v860 := Vals.lw860 c. -/
def ret39 (I : Dev nD → Vals.Ins F) (c : Dev nD) : FVec F S256x256 .bf16 := Vals.lv1059 I c
/-- Part 40. Called with: v2 := Vals.lw2 c, v1059 := Vals.lv1059 I c. -/
def ret40 (I : Dev nD → Vals.Ins F) (c : Dev nD) : BitVec 32 := Vals.lw1082 c
/-- Part 41. Called with: d0 := c, v2 := Vals.lw2 c, v1082 := Vals.lw1082 c. -/
def ret41 (I : Dev nD → Vals.Ins F) (c : Dev nD) : Σ' (v1093 : BitVec 32) (v1104 : BitVec 32) (v1105 : BitVec 32), BitVec 32 := ⟨Vals.lw1093 c, Vals.lw1104 c, Vals.lw1105 c, Vals.lwc0_i32_1237 c⟩
/-- Part 42. Called with: d0 := c, v14 := Vals.lv14 I c, v1105 := Vals.lw1105 c, c0_i32_1237 := Vals.lwc0_i32_1237 c. -/
def ret42 (I : Dev nD → Vals.Ins F) (c : Dev nD) : Σ' (v1131 : FVec F S256x768 .f32), FVec F S256x768 .f32 := ⟨Vals.lv1131 I c, Vals.lv1133 I c⟩
/-- Part 43. Called with: v22 := Vals.lv22 I c, v23 := Vals.lv23 I c, v24 := Vals.lv24 I c, v40 := Vals.lv40 I c, v43 := Vals.lv43 I c, v1131 := Vals.lv1131 I c, v1133 := Vals.lv1133 I c. -/
def ret43 (I : Dev nD → Vals.Ins F) (c : Dev nD) : Σ' (v1139 : FVec F S256x768 .f32) (v1182 : FVec F S256x768 .bf16), FVec F S256x256 .bf16 := ⟨Vals.lv1139 I c, Vals.lv1182 I c, Vals.lv1183 I c⟩
/-- Part 44. Called with: d0 := c, v2 := Vals.lw2 c, v1139 := Vals.lv1139 I c, v1182 := Vals.lv1182 I c, v1183 := Vals.lv1183 I c. -/
def ret44 (I : Dev nD → Vals.Ins F) (c : Dev nD) : Σ' (v1195 : FVec F S256x768 .bf16) (v1196 : BitVec 32), BitVec 32 := ⟨Vals.lv1195 I c, Vals.lw1196 c, Vals.lw1207 c⟩
/-- Part 45. Called with: d0 := c, v2 := Vals.lw2 c, v1207 := Vals.lw1207 c. -/
def ret45 (I : Dev nD → Vals.Ins F) (c : Dev nD) : BitVec 32 := Vals.lw1218 c
/-- Part 46. Called with: v983 := Vals.lw983 c, v994 := Vals.lw994 c. -/
def ret46 : PUnit := ⟨⟩
/-- Part 47. Called with: v1005 := Vals.lw1005 c. -/
def ret47 (I : Dev nD → Vals.Ins F) (c : Dev nD) : Σ' (v1272 : FVec F S256x256 .bf16), Vec F S1x1x1x256x256 .bf16 := ⟨Vals.lv1272 I c, Vals.lv1273 I c⟩
/-- Part 48. Called with: v2 := Vals.lw2 c, v1272 := Vals.lv1272 I c, v1273 := Vals.lv1273 I c. -/
def ret48 (I : Dev nD → Vals.Ins F) (c : Dev nD) : BitVec 32 := Vals.lw1295 c
/-- Part 49. Called with: d0 := c, v2 := Vals.lw2 c, v1295 := Vals.lw1295 c. -/
def ret49 (I : Dev nD → Vals.Ins F) (c : Dev nD) : Σ' (v1306 : BitVec 32), BitVec 32 := ⟨Vals.lw1306 c, Vals.lw1317 c⟩
/-- Part 50. Called with: d0 := c, v1082 := Vals.lw1082 c. -/
def ret50 : PUnit := ⟨⟩
/-- Part 51. Called with: v1093 := Vals.lw1093 c. -/
def ret51 : PUnit := ⟨⟩
/-- Part 52. Called with: v1104 := Vals.lw1104 c. -/
def ret52 : PUnit := ⟨⟩
/-- Part 53. Called with: d0 := c, v2 := Vals.lw2 c. -/
def ret53 (I : Dev nD → Vals.Ins F) (c : Dev nD) : Σ' (v1394 : BitVec 32), BitVec 32 := ⟨Vals.lw1394 c, Vals.lw1405 c⟩
/-- Part 54. Called with: d0 := c, v2 := Vals.lw2 c. -/
def ret54 (I : Dev nD → Vals.Ins F) (c : Dev nD) : Σ' (v1416 : BitVec 32) (v1431 : FVec F S256x256 .bf16), FVec F S256x256 .bf16 := ⟨Vals.lw1416 c, Vals.lv1431 I c, Vals.lv1433 I c⟩
/-- Part 55. Called with: v14 := Vals.lv14 I c, v22 := Vals.lv22 I c, v23 := Vals.lv23 I c, v1431 := Vals.lv1431 I c, v1433 := Vals.lv1433 I c. -/
def ret55 (I : Dev nD → Vals.Ins F) (c : Dev nD) : Σ' (v1451 : FVec F S256x768 .f32) (v1471 : FVec F S256x768 .f32) (v1474 : FVec F S1x768 .f32), F .f32 := ⟨Vals.lv1451 I c, Vals.lv1471 I c, Vals.lv1474 I c, Vals.lvcst_1675 I c⟩
/-- Part 56. Called with: v2 := Vals.lw2 c, v24 := Vals.lv24 I c, v40 := Vals.lv40 I c, v43 := Vals.lv43 I c, v1451 := Vals.lv1451 I c, v1471 := Vals.lv1471 I c, v1474 := Vals.lv1474 I c, cst_1675 := Vals.lvcst_1675 I c. -/
def ret56 (I : Dev nD → Vals.Ins F) (c : Dev nD) : Σ' (v1507 : FVec F S256x768 .bf16), BitVec 32 := ⟨Vals.lv1507 I c, Vals.lw1508 c⟩
/-- Part 57. Called with: d0 := c, v2 := Vals.lw2 c, v1508 := Vals.lw1508 c. -/
def ret57 (I : Dev nD → Vals.Ins F) (c : Dev nD) : Σ' (v1519 : BitVec 32), BitVec 32 := ⟨Vals.lw1519 c, Vals.lw1530 c⟩
/-- Part 58. Called with: d0 := c, v1196 := Vals.lw1196 c. -/
def ret58 : PUnit := ⟨⟩
/-- Part 59. Called with: v1207 := Vals.lw1207 c, v1218 := Vals.lw1218 c. -/
def ret59 (I : Dev nD → Vals.Ins F) (c : Dev nD) : BitVec 32 := Vals.lw1575 c
/-- Part 60. Called with: v1575 := Vals.lw1575 c. -/
def ret60 : PUnit := ⟨⟩
/-- Part 61. Called with: d0 := c, v2 := Vals.lw2 c. -/
def ret61 (I : Dev nD → Vals.Ins F) (c : Dev nD) : Σ' (v1607 : BitVec 32), BitVec 32 := ⟨Vals.lw1607 c, Vals.lw1618 c⟩
/-- Part 62. Called with: d0 := c, v2 := Vals.lw2 c. -/
def ret62 (I : Dev nD → Vals.Ins F) (c : Dev nD) : BitVec 32 := Vals.lw1629 c
/-- Part 63. Called with: v1295 := Vals.lw1295 c, v1306 := Vals.lw1306 c. -/
def ret63 : PUnit := ⟨⟩
/-- Part 64. Called with: v1317 := Vals.lw1317 c. -/
def ret64 (I : Dev nD → Vals.Ins F) (c : Dev nD) : FVec F S256x256 .bf16 := Vals.lv1686 I c
/-- Part 65. Called with: v2 := Vals.lw2 c, v1686 := Vals.lv1686 I c. -/
def ret65 (I : Dev nD → Vals.Ins F) (c : Dev nD) : BitVec 32 := Vals.lw1706 c
/-- Part 66. Called with: d0 := c, v2 := Vals.lw2 c. -/
def ret66 (I : Dev nD → Vals.Ins F) (c : Dev nD) : Σ' (v1717 : BitVec 32), BitVec 32 := ⟨Vals.lw1717 c, Vals.lw1728 c⟩
/-- Part 67. Called with: d0 := c, v1394 := Vals.lw1394 c. -/
def ret67 : PUnit := ⟨⟩
/-- Part 68. Called with: v1405 := Vals.lw1405 c, v1416 := Vals.lw1416 c. -/
def ret68 : PUnit := ⟨⟩
/-- Part 69. Called with: v14 := Vals.lv14 I c, v22 := Vals.lv22 I c. -/
def ret69 (I : Dev nD → Vals.Ins F) (c : Dev nD) : FVec F S256x768 .f32 := Vals.lv1805 I c
/-- Part 70. Called with: v23 := Vals.lv23 I c, v24 := Vals.lv24 I c, v40 := Vals.lv40 I c, v43 := Vals.lv43 I c, v1805 := Vals.lv1805 I c. -/
def ret70 (I : Dev nD → Vals.Ins F) (c : Dev nD) : Σ' (v1848 : FVec F S256x768 .bf16), FVec F S1x1x256x256 .bf16 := ⟨Vals.lv1848 I c, Vals.lv1852 I c⟩
/-- Part 71. Called with: d0 := c, v2 := Vals.lw2 c, v1805 := Vals.lv1805 I c, v1848 := Vals.lv1848 I c, v1852 := Vals.lv1852 I c. -/
def ret71 (I : Dev nD → Vals.Ins F) (c : Dev nD) : Σ' (v1861 : FVec F S256x768 .bf16) (v1862 : BitVec 32), BitVec 32 := ⟨Vals.lv1861 I c, Vals.lw1862 c, Vals.lw1873 c⟩
/-- Part 72. Called with: d0 := c, v2 := Vals.lw2 c. -/
def ret72 (I : Dev nD → Vals.Ins F) (c : Dev nD) : BitVec 32 := Vals.lw1884 c
/-- Part 73. Called with: v1508 := Vals.lw1508 c, v1519 := Vals.lw1519 c. -/
def ret73 : PUnit := ⟨⟩
/-- Part 74. Called with: v1530 := Vals.lw1530 c. -/
def ret74 (I : Dev nD → Vals.Ins F) (c : Dev nD) : Σ' (v1941 : FVec F S256x256 .bf16), Vec F S1x1x256x256 .bf16 := ⟨Vals.lv1941 I c, Vals.lv1942 I c⟩
/-- Part 75. Called with: v2 := Vals.lw2 c, v1941 := Vals.lv1941 I c, v1942 := Vals.lv1942 I c. -/
def ret75 (I : Dev nD → Vals.Ins F) (c : Dev nD) : BitVec 32 := Vals.lw1961 c
/-- Part 76. Called with: d0 := c, v2 := Vals.lw2 c. -/
def ret76 (I : Dev nD → Vals.Ins F) (c : Dev nD) : Σ' (v1972 : BitVec 32), BitVec 32 := ⟨Vals.lw1972 c, Vals.lw1983 c⟩
/-- Part 77. Called with: d0 := c, v1607 := Vals.lw1607 c. -/
def ret77 : PUnit := ⟨⟩
/-- Part 78. Called with: v1618 := Vals.lw1618 c, v1629 := Vals.lw1629 c. -/
def ret78 : PUnit := ⟨⟩
/-- Part 79. Called with: no live value. -/
def ret79 (I : Dev nD → Vals.Ins F) (c : Dev nD) : FVec F S256x256 .bf16 := Vals.lv2053 I c
/-- Part 80. Called with: d0 := c, v2 := Vals.lw2 c, v2053 := Vals.lv2053 I c. -/
def ret80 (I : Dev nD → Vals.Ins F) (c : Dev nD) : Σ' (v2060 : BitVec 32), BitVec 32 := ⟨Vals.lw2060 c, Vals.lw2071 c⟩
/-- Part 81. Called with: d0 := c, v2 := Vals.lw2 c, v1706 := Vals.lw1706 c. -/
def ret81 (I : Dev nD → Vals.Ins F) (c : Dev nD) : Σ' (v2082 : BitVec 32), BitVec 32 := ⟨Vals.lw2082 c, Vals.lw2099 c⟩
/-- Part 82. Called with: v1717 := Vals.lw1717 c, v2099 := Vals.lw2099 c. -/
def ret82 : PUnit := ⟨⟩
/-- Part 83. Called with: v1728 := Vals.lw1728 c. -/
def ret83 (I : Dev nD → Vals.Ins F) (c : Dev nD) : Σ' (v2139 : FVec F S256x256 .bf16), FVec F S256x256 .bf16 := ⟨Vals.lv2139 I c, Vals.lv2141 I c⟩
/-- Part 84. Called with: v14 := Vals.lv14 I c, v22 := Vals.lv22 I c, v23 := Vals.lv23 I c, v2139 := Vals.lv2139 I c, v2141 := Vals.lv2141 I c. -/
def ret84 (I : Dev nD → Vals.Ins F) (c : Dev nD) : Σ' (v2159 : FVec F S256x768 .f32), FVec F S256x768 .f32 := ⟨Vals.lv2159 I c, Vals.lv2186 I c⟩
/-- Part 85. Called with: v2 := Vals.lw2 c, v24 := Vals.lv24 I c, v40 := Vals.lv40 I c, v43 := Vals.lv43 I c, v2159 := Vals.lv2159 I c, v2186 := Vals.lv2186 I c. -/
def ret85 (I : Dev nD → Vals.Ins F) (c : Dev nD) : Σ' (v2215 : FVec F S256x768 .bf16) (v2216 : BitVec 32) (v2217 : BitVec 32), BitVec 32 := ⟨Vals.lv2215 I c, Vals.lw2216 c, Vals.lw2217 c, Vals.lwc0_i32_2648 c⟩
/-- Part 86. Called with: d0 := c, v2 := Vals.lw2 c, v2217 := Vals.lw2217 c, c0_i32_2648 := Vals.lwc0_i32_2648 c. -/
def ret86 (I : Dev nD → Vals.Ins F) (c : Dev nD) : Σ' (v2227 : BitVec 32), BitVec 32 := ⟨Vals.lw2227 c, Vals.lw2238 c⟩
/-- Part 87. Called with: d0 := c, v1862 := Vals.lw1862 c. -/
def ret87 : PUnit := ⟨⟩
/-- Part 88. Called with: v1873 := Vals.lw1873 c, v1884 := Vals.lw1884 c. -/
def ret88 : PUnit := ⟨⟩
/-- Part 89. Called with: no live value. -/
def ret89 (I : Dev nD → Vals.Ins F) (c : Dev nD) : FVec F S256x256 .bf16 := Vals.lv2308 I c
/-- Part 90. Called with: d0 := c, v2 := Vals.lw2 c, v2308 := Vals.lv2308 I c. -/
def ret90 (I : Dev nD → Vals.Ins F) (c : Dev nD) : Σ' (v2315 : BitVec 32), BitVec 32 := ⟨Vals.lw2315 c, Vals.lw2326 c⟩
/-- Part 91. Called with: d0 := c, v2 := Vals.lw2 c. -/
def ret91 (I : Dev nD → Vals.Ins F) (c : Dev nD) : Σ' (v2337 : BitVec 32), BitVec 32 := ⟨Vals.lw2337 c, Vals.lwc1_i32_2854 c⟩
/-- Part 92. Called with: v1961 := Vals.lw1961 c, v1972 := Vals.lw1972 c, c1_i32_2854 := Vals.lwc1_i32_2854 c. -/
def ret92 : PUnit := ⟨⟩
/-- Part 93. Called with: v1983 := Vals.lw1983 c. -/
def ret93 : PUnit := ⟨⟩
/-- Part 94. Called with: v2 := Vals.lw2 c. -/
def ret94 (I : Dev nD → Vals.Ins F) (c : Dev nD) : BitVec 32 := Vals.lw2414 c
/-- Part 95. Called with: d0 := c, v2 := Vals.lw2 c. -/
def ret95 (I : Dev nD → Vals.Ins F) (c : Dev nD) : Σ' (v2425 : BitVec 32), BitVec 32 := ⟨Vals.lw2425 c, Vals.lw2436 c⟩
/-- Part 96. Called with: v2060 := Vals.lw2060 c. -/
def ret96 : PUnit := ⟨⟩
/-- Part 97. Called with: v2071 := Vals.lw2071 c, v2082 := Vals.lw2082 c. -/
def ret97 : PUnit := ⟨⟩
/-- Part 98. Called with: v25 := Vals.lv25 I c, v1195 := Vals.lv1195 I c. -/
def ret98 (I : Dev nD → Vals.Ins F) (c : Dev nD) : FVec F S1x256x768 .f32 := Vals.lv2515 I c
/-- Part 99. Called with: v2216 := Vals.lw2216 c, v2515 := Vals.lv2515 I c. -/
def ret99 : PUnit := ⟨⟩
/-- Part 100. Called with: v2227 := Vals.lw2227 c, v2238 := Vals.lw2238 c. -/
def ret100 : PUnit := ⟨⟩
/-- Part 101. Called with: no live value. -/
def ret101 (I : Dev nD → Vals.Ins F) (c : Dev nD) : Σ' (v2575 : FVec F S256x256 .bf16), Vec F S1x1x1x256x256 .bf16 := ⟨Vals.lv2575 I c, Vals.lv2576 I c⟩
/-- Part 102. Called with: d0 := c, v2 := Vals.lw2 c, v2575 := Vals.lv2575 I c, v2576 := Vals.lv2576 I c. -/
def ret102 (I : Dev nD → Vals.Ins F) (c : Dev nD) : Σ' (v2582 : BitVec 32), BitVec 32 := ⟨Vals.lw2582 c, Vals.lw2593 c⟩
/-- Part 103. Called with: d0 := c, v2 := Vals.lw2 c, v2315 := Vals.lw2315 c. -/
def ret103 (I : Dev nD → Vals.Ins F) (c : Dev nD) : BitVec 32 := Vals.lw2604 c
/-- Part 104. Called with: v2326 := Vals.lw2326 c. -/
def ret104 : PUnit := ⟨⟩
/-- Part 105. Called with: v2337 := Vals.lw2337 c. -/
def ret105 (I : Dev nD → Vals.Ins F) (c : Dev nD) : FVec F S256x256 .bf16 := Vals.lv2666 I c
/-- Part 106. Called with: v2 := Vals.lw2 c, v2666 := Vals.lv2666 I c. -/
def ret106 (I : Dev nD → Vals.Ins F) (c : Dev nD) : BitVec 32 := Vals.lw2681 c
/-- Part 107. Called with: d0 := c, v2 := Vals.lw2 c. -/
def ret107 (I : Dev nD → Vals.Ins F) (c : Dev nD) : Σ' (v2692 : BitVec 32), BitVec 32 := ⟨Vals.lw2692 c, Vals.lw2703 c⟩
/-- Part 108. Called with: v2414 := Vals.lw2414 c. -/
def ret108 : PUnit := ⟨⟩
/-- Part 109. Called with: v25 := Vals.lv25 I c, v1507 := Vals.lv1507 I c, v2425 := Vals.lw2425 c, v2436 := Vals.lw2436 c. -/
def ret109 (I : Dev nD → Vals.Ins F) (c : Dev nD) : Σ' (v2756 : FVec F S256x768 .f32), FVec F S1x768 .f32 := ⟨Vals.lv2756 I c, Vals.lv2757 I c⟩
/-- Part 110. Called with: v2756 := Vals.lv2756 I c, v2757 := Vals.lv2757 I c. -/
def ret110 : PUnit := ⟨⟩
/-- Part 111. Called with: v2582 := Vals.lw2582 c. -/
def ret111 : PUnit := ⟨⟩
/-- Part 112. Called with: v2593 := Vals.lw2593 c, v2604 := Vals.lw2604 c. -/
def ret112 : PUnit := ⟨⟩
/-- Part 113. Called with: no live value. -/
def ret113 (I : Dev nD → Vals.Ins F) (c : Dev nD) : FVec F S256x256 .bf16 := Vals.lv2845 I c
/-- Part 114. Called with: d0 := c, v2 := Vals.lw2 c, v2845 := Vals.lv2845 I c. -/
def ret114 (I : Dev nD → Vals.Ins F) (c : Dev nD) : Σ' (v2849 : BitVec 32) (v2860 : BitVec 32), BitVec 32 := ⟨Vals.lw2849 c, Vals.lw2860 c, Vals.lw2871 c⟩
/-- Part 115. Called with: d0 := c, v2681 := Vals.lw2681 c, v2871 := Vals.lw2871 c. -/
def ret115 : PUnit := ⟨⟩
/-- Part 116. Called with: v2692 := Vals.lw2692 c. -/
def ret116 : PUnit := ⟨⟩
/-- Part 117. Called with: v25 := Vals.lv25 I c, v1861 := Vals.lv1861 I c, v2703 := Vals.lw2703 c. -/
def ret117 (I : Dev nD → Vals.Ins F) (c : Dev nD) : Σ' (v2924 : FVec F S256x768 .f32) (v2927 : FVec F S1x768 .f32) (v2932 : FVec F S256x256 .bf16), FVec F S256x256 .bf16 := ⟨Vals.lv2924 I c, Vals.lv2927 I c, Vals.lv2932 I c, Vals.lv2937 I c⟩
/-- Part 118. Called with: v2849 := Vals.lw2849 c, v2924 := Vals.lv2924 I c, v2927 := Vals.lv2927 I c, v2932 := Vals.lv2932 I c, v2937 := Vals.lv2937 I c. -/
def ret118 : PUnit := ⟨⟩
/-- Part 119. Called with: v2860 := Vals.lw2860 c. -/
def ret119 : PUnit := ⟨⟩
/-- Part 120. Called with: v25 := Vals.lv25 I c, v2215 := Vals.lv2215 I c, v2871 := Vals.lw2871 c. -/
def ret120 (I : Dev nD → Vals.Ins F) (c : Dev nD) : Σ' (v2993 : FVec F S256x768 .f32) (v2996 : FVec F S1x768 .f32) (v3001 : FVec F S256x256 .bf16), FVec F S256x256 .bf16 := ⟨Vals.lv2993 I c, Vals.lv2996 I c, Vals.lv3001 I c, Vals.lv3006 I c⟩

end Cert.Kernel.Body

end
-- ==== Proof.Bits.BodyAccTable.lean ====
import proofs.«900775_g7700000000000776_dist_diff_dit_htp_i_b2_s512_d768_hq4_v7x_i8_f32_1_alg».proof.Proof.Bits.BodyWrap

/-! The twelve accumulator tiles at each place between two parts of the body, one factor a tile: nothing for a tile that is
    away, the tile at some contents before its first store, the tile at its level's value after. -/

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Mesh Cert.Kernel.LaunchK Cert.Kernel.Vals
open Cert.Kernel.Proto hiding accM rsM AccBuf RsBuf

variable {F : FTy → Type} [FloatOps F]

theorem accAll_σ_0 (I : Dev nD → Ins F) (c : Dev nD) :
    accAll I c (σ 0).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_1 (I : Dev nD → Ins F) (c : Dev nD) :
    accAll I c (σ 1).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_2 (I : Dev nD → Ins F) (c : Dev nD) :
    accAll I c (σ 2).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_3 (I : Dev nD → Ins F) (c : Dev nD) :
    accAll I c (σ 3).acc = (iprop(accTileAny (F := F) c 0 0 ∗ accTileAny (F := F) c 0 1 ∗ accTileAny (F := F) c 0 2 ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_4 (I : Dev nD → Ins F) (c : Dev nD) :
    accAll I c (σ 4).acc = (iprop(accTile c 0 0 (A I 0 c 0 0 0) ∗ accTile c 0 1 (A I 0 c 0 1 0) ∗ accTile c 0 2 (A I 0 c 0 2 0) ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_5 (I : Dev nD → Ins F) (c : Dev nD) :
    accAll I c (σ 5).acc = (iprop(emp ∗ emp ∗ accTile c 0 2 (A I 0 c 0 2 0) ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_6 (I : Dev nD → Ins F) (c : Dev nD) :
    accAll I c (σ 6).acc = (iprop(emp ∗ emp ∗ emp ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_7 (I : Dev nD → Ins F) (c : Dev nD) :
    accAll I c (σ 7).acc = (iprop(emp ∗ emp ∗ emp ∗ accTile c 1 0 (A I 0 c 1 0 0) ∗ accTile c 1 1 (A I 0 c 1 1 0) ∗ accTile c 1 2 (A I 0 c 1 2 0) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_8 (I : Dev nD → Ins F) (c : Dev nD) :
    accAll I c (σ 8).acc = (iprop(emp ∗ emp ∗ emp ∗ emp ∗ emp ∗ accTile c 1 2 (A I 0 c 1 2 0) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_9 (I : Dev nD → Ins F) (c : Dev nD) :
    accAll I c (σ 9).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_10 (I : Dev nD → Ins F) (c : Dev nD) :
    accAll I c (σ 10).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_11 (I : Dev nD → Ins F) (c : Dev nD) :
    accAll I c (σ 11).acc = (iprop(accTile c 0 0 (A I 0 c 0 0 1) ∗ accTile c 0 1 (A I 0 c 0 1 1) ∗ accTile c 0 2 (A I 0 c 0 2 0) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_12 (I : Dev nD → Ins F) (c : Dev nD) :
    accAll I c (σ 12).acc = (iprop(emp ∗ accTile c 0 1 (A I 0 c 0 1 1) ∗ accTile c 0 2 (A I 0 c 0 2 1) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_13 (I : Dev nD → Ins F) (c : Dev nD) :
    accAll I c (σ 13).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_14 (I : Dev nD → Ins F) (c : Dev nD) :
    accAll I c (σ 14).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_15 (I : Dev nD → Ins F) (c : Dev nD) :
    accAll I c (σ 15).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_16 (I : Dev nD → Ins F) (c : Dev nD) :
    accAll I c (σ 16).acc = (iprop(emp ∗ emp ∗ emp ∗ accTile c 1 0 (A I 0 c 1 0 1) ∗ accTile c 1 1 (A I 0 c 1 1 0) ∗ accTile c 1 2 (A I 0 c 1 2 0) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_17 (I : Dev nD → Ins F) (c : Dev nD) :
    accAll I c (σ 17).acc = (iprop(emp ∗ emp ∗ emp ∗ emp ∗ accTile c 1 1 (A I 0 c 1 1 1) ∗ accTile c 1 2 (A I 0 c 1 2 1) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_18 (I : Dev nD → Ins F) (c : Dev nD) :
    accAll I c (σ 18).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_19 (I : Dev nD → Ins F) (c : Dev nD) :
    accAll I c (σ 19).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_20 (I : Dev nD → Ins F) (c : Dev nD) :
    accAll I c (σ 20).acc = (iprop(accTile c 0 0 (A I 0 c 0 0 1) ∗ accTile c 0 1 (A I 0 c 0 1 1) ∗ accTile c 0 2 (A I 0 c 0 2 1) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_21 (I : Dev nD → Ins F) (c : Dev nD) :
    accAll I c (σ 21).acc = (iprop(accTile c 0 0 (A I 0 c 0 0 2) ∗ accTile c 0 1 (A I 0 c 0 1 2) ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_22 (I : Dev nD → Ins F) (c : Dev nD) :
    accAll I c (σ 22).acc = (iprop(emp ∗ emp ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_23 (I : Dev nD → Ins F) (c : Dev nD) :
    accAll I c (σ 23).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_24 (I : Dev nD → Ins F) (c : Dev nD) :
    accAll I c (σ 24).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_25 (I : Dev nD → Ins F) (c : Dev nD) :
    accAll I c (σ 25).acc = (iprop(emp ∗ emp ∗ emp ∗ accTile c 1 0 (A I 0 c 1 0 2) ∗ accTile c 1 1 (A I 0 c 1 1 1) ∗ accTile c 1 2 (A I 0 c 1 2 1) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_26 (I : Dev nD → Ins F) (c : Dev nD) :
    accAll I c (σ 26).acc = (iprop(emp ∗ emp ∗ emp ∗ emp ∗ accTile c 1 1 (A I 0 c 1 1 2) ∗ accTile c 1 2 (A I 0 c 1 2 2) ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_27 (I : Dev nD → Ins F) (c : Dev nD) :
    accAll I c (σ 27).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_28 (I : Dev nD → Ins F) (c : Dev nD) :
    accAll I c (σ 28).acc = (iprop(emp ∗ emp ∗ emp ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_29 (I : Dev nD → Ins F) (c : Dev nD) :
    accAll I c (σ 29).acc = (iprop(accTile c 0 0 (A I 0 c 0 0 2) ∗ accTile c 0 1 (A I 0 c 0 1 2) ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_30 (I : Dev nD → Ins F) (c : Dev nD) :
    accAll I c (σ 30).acc = (iprop(accTile c 0 0 (A I 0 c 0 0 2) ∗ accTile c 0 1 (A I 0 c 0 1 2) ∗ accTile c 0 2 (A I 0 c 0 2 2) ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2) : sProp (MT nD τ sig Unit (Elt F) ℕ UU ℕ)) := rfl
theorem accAll_σ_31 (I : Dev nD → Ins F) (c : Dev nD) :
    accAll I c (σ 31).acc = (iprop(accTile c 0 0 (A I 0 c 0 0 2) ∗ accTile c 0 1 (A I 0 c 0 1 2) ∗ accTile c 0 2 (A I 0 c 0 2 2) ∗ emp ∗ emp ∗ emp ∗ emp ∗ accTile c 2 1 (A I 0 c 2 1 0) ∗ accTile c 2 2 (A I 0 c 2 2 0) ∗ accTileAny (F := F) c 3 0 ∗ accTileAny (F := F) c 3 1 ∗ accTileAny (F := F) c 3 2) : sProp (MT nD τ sig Unit (Elt F) ℕ UU ℕ)) := rfl
theorem accAll_σ_32 (I : Dev nD → Ins F) (c : Dev nD) :
    accAll I c (σ 32).acc = (iprop(accTile c 0 0 (A I 0 c 0 0 2) ∗ accTile c 0 1 (A I 0 c 0 1 2) ∗ accTile c 0 2 (A I 0 c 0 2 2) ∗ emp ∗ emp ∗ emp ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_33 (I : Dev nD → Ins F) (c : Dev nD) :
    accAll I c (σ 33).acc = (iprop(accTile c 0 0 (A I 0 c 0 0 2) ∗ accTile c 0 1 (A I 0 c 0 1 2) ∗ accTile c 0 2 (A I 0 c 0 2 2) ∗ emp ∗ emp ∗ emp ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_34 (I : Dev nD → Ins F) (c : Dev nD) :
    accAll I c (σ 34).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_35 (I : Dev nD → Ins F) (c : Dev nD) :
    accAll I c (σ 35).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny (F := F) c 3 0 ∗ accTileAny (F := F) c 3 1 ∗ accTileAny (F := F) c 3 2) : sProp (MT nD τ sig Unit (Elt F) ℕ UU ℕ)) := rfl
theorem accAll_σ_36 (I : Dev nD → Ins F) (c : Dev nD) :
    accAll I c (σ 36).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ accTile c 3 1 (A I 0 c 3 1 0) ∗ accTile c 3 2 (A I 0 c 3 2 0)) : sProp (MT nD τ sig Unit (Elt F) ℕ UU ℕ)) := rfl
theorem accAll_σ_37 (I : Dev nD → Ins F) (c : Dev nD) :
    accAll I c (σ 37).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_38 (I : Dev nD → Ins F) (c : Dev nD) :
    accAll I c (σ 38).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_39 (I : Dev nD → Ins F) (c : Dev nD) :
    accAll I c (σ 39).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 0) ∗ accTile c 2 1 (A I 0 c 2 1 0) ∗ accTile c 2 2 (A I 0 c 2 2 0) ∗ emp ∗ emp ∗ emp) : sProp (MT nD τ sig Unit (Elt F) ℕ UU ℕ)) := rfl
theorem accAll_σ_40 (I : Dev nD → Ins F) (c : Dev nD) :
    accAll I c (σ 40).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 1) ∗ accTile c 2 1 (A I 0 c 2 1 1) ∗ accTile c 2 2 (A I 0 c 2 2 1) ∗ emp ∗ emp ∗ emp) : sProp (MT nD τ sig Unit (Elt F) ℕ UU ℕ)) := rfl
theorem accAll_σ_41 (I : Dev nD → Ins F) (c : Dev nD) :
    accAll I c (σ 41).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ accTile c 2 2 (A I 0 c 2 2 1) ∗ emp ∗ emp ∗ emp) : sProp (MT nD τ sig Unit (Elt F) ℕ UU ℕ)) := rfl
theorem accAll_σ_42 (I : Dev nD → Ins F) (c : Dev nD) :
    accAll I c (σ 42).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_43 (I : Dev nD → Ins F) (c : Dev nD) :
    accAll I c (σ 43).acc = (iprop(accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_44 (I : Dev nD → Ins F) (c : Dev nD) :
    accAll I c (σ 44).acc = (iprop(emp ∗ accTile c 0 1 (A I 1 c 0 1 0) ∗ accTile c 0 2 (A I 1 c 0 2 0) ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_45 (I : Dev nD → Ins F) (c : Dev nD) :
    accAll I c (σ 45).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_46 (I : Dev nD → Ins F) (c : Dev nD) :
    accAll I c (σ 46).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_47 (I : Dev nD → Ins F) (c : Dev nD) :
    accAll I c (σ 47).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 0) ∗ accTile c 3 1 (A I 0 c 3 1 0) ∗ accTile c 3 2 (A I 0 c 3 2 0)) : sProp (MT nD τ sig Unit (Elt F) ℕ UU ℕ)) := rfl
theorem accAll_σ_48 (I : Dev nD → Ins F) (c : Dev nD) :
    accAll I c (σ 48).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 1) ∗ accTile c 3 1 (A I 0 c 3 1 1) ∗ accTile c 3 2 (A I 0 c 3 2 1)) : sProp (MT nD τ sig Unit (Elt F) ℕ UU ℕ)) := rfl
theorem accAll_σ_49 (I : Dev nD → Ins F) (c : Dev nD) :
    accAll I c (σ 49).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ accTile c 3 2 (A I 0 c 3 2 1)) : sProp (MT nD τ sig Unit (Elt F) ℕ UU ℕ)) := rfl
theorem accAll_σ_50 (I : Dev nD → Ins F) (c : Dev nD) :
    accAll I c (σ 50).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_51 (I : Dev nD → Ins F) (c : Dev nD) :
    accAll I c (σ 51).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_52 (I : Dev nD → Ins F) (c : Dev nD) :
    accAll I c (σ 52).acc = (iprop(emp ∗ emp ∗ emp ∗ accTile c 1 0 (A I 0 c 1 0 2) ∗ accTile c 1 1 (A I 0 c 1 1 2) ∗ accTile c 1 2 (A I 0 c 1 2 2) ∗ accTile c 2 0 (A I 0 c 2 0 2) ∗ accTile c 2 1 (A I 0 c 2 1 2) ∗ accTile c 2 2 (A I 0 c 2 2 1) ∗ emp ∗ emp ∗ emp) : sProp (MT nD τ sig Unit (Elt F) ℕ UU ℕ)) := rfl
theorem accAll_σ_53 (I : Dev nD → Ins F) (c : Dev nD) :
    accAll I c (σ 53).acc = (iprop(emp ∗ emp ∗ emp ∗ accTile c 1 0 (A I 0 c 1 0 2) ∗ accTile c 1 1 (A I 0 c 1 1 2) ∗ accTile c 1 2 (A I 0 c 1 2 2) ∗ emp ∗ accTile c 2 1 (A I 0 c 2 1 2) ∗ accTile c 2 2 (A I 0 c 2 2 2) ∗ emp ∗ emp ∗ emp) : sProp (MT nD τ sig Unit (Elt F) ℕ UU ℕ)) := rfl
theorem accAll_σ_54 (I : Dev nD → Ins F) (c : Dev nD) :
    accAll I c (σ 54).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_55 (I : Dev nD → Ins F) (c : Dev nD) :
    accAll I c (σ 55).acc = (iprop(emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp) : sProp (MT nD τ sig Unit (Elt F) ℕ UU ℕ)) := rfl
theorem accAll_σ_56 (I : Dev nD → Ins F) (c : Dev nD) :
    accAll I c (σ 56).acc = (iprop(emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp) : sProp (MT nD τ sig Unit (Elt F) ℕ UU ℕ)) := rfl
theorem accAll_σ_57 (I : Dev nD → Ins F) (c : Dev nD) :
    accAll I c (σ 57).acc = (iprop(emp ∗ emp ∗ emp ∗ emp ∗ emp ∗ accTile c 1 2 (A I 1 c 1 2 0) ∗ emp ∗ emp ∗ emp ∗ emp ∗ emp ∗ emp) : sProp (MT nD τ sig Unit (Elt F) ℕ UU ℕ)) := rfl
theorem accAll_σ_58 (I : Dev nD → Ins F) (c : Dev nD) :
    accAll I c (σ 58).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_59 (I : Dev nD → Ins F) (c : Dev nD) :
    accAll I c (σ 59).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_60 (I : Dev nD → Ins F) (c : Dev nD) :
    accAll I c (σ 60).acc = (iprop(accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp) : sProp (MT nD τ sig Unit (Elt F) ℕ UU ℕ)) := rfl
theorem accAll_σ_61 (I : Dev nD → Ins F) (c : Dev nD) :
    accAll I c (σ 61).acc = (iprop(emp ∗ accTile c 0 1 (A I 1 c 0 1 1) ∗ accTile c 0 2 (A I 1 c 0 2 1) ∗ emp ∗ emp ∗ emp ∗ emp ∗ emp ∗ emp ∗ emp ∗ emp ∗ emp) : sProp (MT nD τ sig Unit (Elt F) ℕ UU ℕ)) := rfl
theorem accAll_σ_62 (I : Dev nD → Ins F) (c : Dev nD) :
    accAll I c (σ 62).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_63 (I : Dev nD → Ins F) (c : Dev nD) :
    accAll I c (σ 63).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_64 (I : Dev nD → Ins F) (c : Dev nD) :
    accAll I c (σ 64).acc = (iprop(emp ∗ emp ∗ emp ∗ emp ∗ emp ∗ emp ∗ emp ∗ emp ∗ emp ∗ accTile c 3 0 (A I 0 c 3 0 1) ∗ accTile c 3 1 (A I 0 c 3 1 1) ∗ accTile c 3 2 (A I 0 c 3 2 1)) : sProp (MT nD τ sig Unit (Elt F) ℕ UU ℕ)) := rfl
theorem accAll_σ_65 (I : Dev nD → Ins F) (c : Dev nD) :
    accAll I c (σ 65).acc = (iprop(emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2)) : sProp (MT nD τ sig Unit (Elt F) ℕ UU ℕ)) := rfl
theorem accAll_σ_66 (I : Dev nD → Ins F) (c : Dev nD) :
    accAll I c (σ 66).acc = (iprop(emp ∗ emp ∗ emp ∗ emp ∗ emp ∗ emp ∗ emp ∗ emp ∗ emp ∗ emp ∗ emp ∗ accTile c 3 2 (A I 0 c 3 2 2)) : sProp (MT nD τ sig Unit (Elt F) ℕ UU ℕ)) := rfl
theorem accAll_σ_67 (I : Dev nD → Ins F) (c : Dev nD) :
    accAll I c (σ 67).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_68 (I : Dev nD → Ins F) (c : Dev nD) :
    accAll I c (σ 68).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_69 (I : Dev nD → Ins F) (c : Dev nD) :
    accAll I c (σ 69).acc = (iprop(emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp) : sProp (MT nD τ sig Unit (Elt F) ℕ UU ℕ)) := rfl
theorem accAll_σ_70 (I : Dev nD → Ins F) (c : Dev nD) :
    accAll I c (σ 70).acc = (iprop(emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp) : sProp (MT nD τ sig Unit (Elt F) ℕ UU ℕ)) := rfl
theorem accAll_σ_71 (I : Dev nD → Ins F) (c : Dev nD) :
    accAll I c (σ 71).acc = (iprop(emp ∗ emp ∗ emp ∗ emp ∗ emp ∗ emp ∗ emp ∗ accTile c 2 1 (A I 1 c 2 1 0) ∗ accTile c 2 2 (A I 1 c 2 2 0) ∗ emp ∗ emp ∗ emp) : sProp (MT nD τ sig Unit (Elt F) ℕ UU ℕ)) := rfl
theorem accAll_σ_72 (I : Dev nD → Ins F) (c : Dev nD) :
    accAll I c (σ 72).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_73 (I : Dev nD → Ins F) (c : Dev nD) :
    accAll I c (σ 73).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_74 (I : Dev nD → Ins F) (c : Dev nD) :
    accAll I c (σ 74).acc = (iprop(emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp) : sProp (MT nD τ sig Unit (Elt F) ℕ UU ℕ)) := rfl
theorem accAll_σ_75 (I : Dev nD → Ins F) (c : Dev nD) :
    accAll I c (σ 75).acc = (iprop(emp ∗ emp ∗ emp ∗ accTile c 1 0 (A I 1 c 1 0 1) ∗ accTile c 1 1 (A I 1 c 1 1 1) ∗ accTile c 1 2 (A I 1 c 1 2 1) ∗ emp ∗ emp ∗ emp ∗ emp ∗ emp ∗ emp) : sProp (MT nD τ sig Unit (Elt F) ℕ UU ℕ)) := rfl
theorem accAll_σ_76 (I : Dev nD → Ins F) (c : Dev nD) :
    accAll I c (σ 76).acc = (iprop(emp ∗ emp ∗ emp ∗ emp ∗ emp ∗ accTile c 1 2 (A I 1 c 1 2 1) ∗ emp ∗ emp ∗ emp ∗ emp ∗ emp ∗ emp) : sProp (MT nD τ sig Unit (Elt F) ℕ UU ℕ)) := rfl
theorem accAll_σ_77 (I : Dev nD → Ins F) (c : Dev nD) :
    accAll I c (σ 77).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_78 (I : Dev nD → Ins F) (c : Dev nD) :
    accAll I c (σ 78).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_79 (I : Dev nD → Ins F) (c : Dev nD) :
    accAll I c (σ 79).acc = (iprop(accTile c 0 0 (A I 1 c 0 0 2) ∗ accTile c 0 1 (A I 1 c 0 1 2) ∗ accTile c 0 2 (A I 1 c 0 2 1) ∗ emp ∗ emp ∗ emp ∗ emp ∗ emp ∗ emp ∗ emp ∗ emp ∗ emp) : sProp (MT nD τ sig Unit (Elt F) ℕ UU ℕ)) := rfl
theorem accAll_σ_80 (I : Dev nD → Ins F) (c : Dev nD) :
    accAll I c (σ 80).acc = (iprop(emp ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_81 (I : Dev nD → Ins F) (c : Dev nD) :
    accAll I c (σ 81).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_82 (I : Dev nD → Ins F) (c : Dev nD) :
    accAll I c (σ 82).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_83 (I : Dev nD → Ins F) (c : Dev nD) :
    accAll I c (σ 83).acc = (iprop(emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2)) : sProp (MT nD τ sig Unit (Elt F) ℕ UU ℕ)) := rfl
theorem accAll_σ_84 (I : Dev nD → Ins F) (c : Dev nD) :
    accAll I c (σ 84).acc = (iprop(emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2)) : sProp (MT nD τ sig Unit (Elt F) ℕ UU ℕ)) := rfl
theorem accAll_σ_85 (I : Dev nD → Ins F) (c : Dev nD) :
    accAll I c (σ 85).acc = (iprop(emp ∗ emp ∗ emp ∗ emp ∗ emp ∗ emp ∗ emp ∗ emp ∗ emp ∗ accTile c 3 0 (A I 1 c 3 0 0) ∗ accTile c 3 1 (A I 1 c 3 1 0) ∗ accTile c 3 2 (A I 1 c 3 2 0)) : sProp (MT nD τ sig Unit (Elt F) ℕ UU ℕ)) := rfl
theorem accAll_σ_86 (I : Dev nD → Ins F) (c : Dev nD) :
    accAll I c (σ 86).acc = (iprop(emp ∗ emp ∗ emp ∗ emp ∗ emp ∗ emp ∗ emp ∗ emp ∗ emp ∗ emp ∗ emp ∗ accTile c 3 2 (A I 1 c 3 2 0)) : sProp (MT nD τ sig Unit (Elt F) ℕ UU ℕ)) := rfl
theorem accAll_σ_87 (I : Dev nD → Ins F) (c : Dev nD) :
    accAll I c (σ 87).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_88 (I : Dev nD → Ins F) (c : Dev nD) :
    accAll I c (σ 88).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_89 (I : Dev nD → Ins F) (c : Dev nD) :
    accAll I c (σ 89).acc = (iprop(emp ∗ emp ∗ emp ∗ emp ∗ emp ∗ emp ∗ accTile c 2 0 (A I 1 c 2 0 1) ∗ accTile c 2 1 (A I 1 c 2 1 1) ∗ accTile c 2 2 (A I 1 c 2 2 0) ∗ emp ∗ emp ∗ emp) : sProp (MT nD τ sig Unit (Elt F) ℕ UU ℕ)) := rfl
theorem accAll_σ_90 (I : Dev nD → Ins F) (c : Dev nD) :
    accAll I c (σ 90).acc = (iprop(emp ∗ emp ∗ emp ∗ emp ∗ emp ∗ emp ∗ emp ∗ accTile c 2 1 (A I 1 c 2 1 1) ∗ accTile c 2 2 (A I 1 c 2 2 1) ∗ emp ∗ emp ∗ emp) : sProp (MT nD τ sig Unit (Elt F) ℕ UU ℕ)) := rfl
theorem accAll_σ_91 (I : Dev nD → Ins F) (c : Dev nD) :
    accAll I c (σ 91).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_92 (I : Dev nD → Ins F) (c : Dev nD) :
    accAll I c (σ 92).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_93 (I : Dev nD → Ins F) (c : Dev nD) :
    accAll I c (σ 93).acc = (iprop(emp ∗ emp ∗ emp ∗ accTile c 1 0 (A I 1 c 1 0 2) ∗ accTile c 1 1 (A I 1 c 1 1 1) ∗ accTile c 1 2 (A I 1 c 1 2 1) ∗ emp ∗ emp ∗ emp ∗ emp ∗ emp ∗ emp) : sProp (MT nD τ sig Unit (Elt F) ℕ UU ℕ)) := rfl
theorem accAll_σ_94 (I : Dev nD → Ins F) (c : Dev nD) :
    accAll I c (σ 94).acc = (iprop(emp ∗ emp ∗ emp ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_95 (I : Dev nD → Ins F) (c : Dev nD) :
    accAll I c (σ 95).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_96 (I : Dev nD → Ins F) (c : Dev nD) :
    accAll I c (σ 96).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_97 (I : Dev nD → Ins F) (c : Dev nD) :
    accAll I c (σ 97).acc = (iprop(emp ∗ emp ∗ emp ∗ emp ∗ emp ∗ emp ∗ emp ∗ emp ∗ emp ∗ emp ∗ emp ∗ emp) : sProp (MT nD τ sig Unit (Elt F) ℕ UU ℕ)) := rfl
theorem accAll_σ_98 (I : Dev nD → Ins F) (c : Dev nD) :
    accAll I c (σ 98).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_99 (I : Dev nD → Ins F) (c : Dev nD) :
    accAll I c (σ 99).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_100 (I : Dev nD → Ins F) (c : Dev nD) :
    accAll I c (σ 100).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_101 (I : Dev nD → Ins F) (c : Dev nD) :
    accAll I c (σ 101).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ accTile c 3 0 (A I 1 c 3 0 1) ∗ accTile c 3 1 (A I 1 c 3 1 1) ∗ accTile c 3 2 (A I 1 c 3 2 0)) : sProp (MT nD τ sig Unit (Elt F) ℕ UU ℕ)) := rfl
theorem accAll_σ_102 (I : Dev nD → Ins F) (c : Dev nD) :
    accAll I c (σ 102).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ accTile c 3 1 (A I 1 c 3 1 1) ∗ accTile c 3 2 (A I 1 c 3 2 1)) : sProp (MT nD τ sig Unit (Elt F) ℕ UU ℕ)) := rfl
theorem accAll_σ_103 (I : Dev nD → Ins F) (c : Dev nD) :
    accAll I c (σ 103).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_104 (I : Dev nD → Ins F) (c : Dev nD) :
    accAll I c (σ 104).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_105 (I : Dev nD → Ins F) (c : Dev nD) :
    accAll I c (σ 105).acc = (iprop(accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 1) ∗ accTile c 2 2 (A I 1 c 2 2 1) ∗ emp ∗ emp ∗ emp) : sProp (MT nD τ sig Unit (Elt F) ℕ UU ℕ)) := rfl
theorem accAll_σ_106 (I : Dev nD → Ins F) (c : Dev nD) :
    accAll I c (σ 106).acc = (iprop(accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_107 (I : Dev nD → Ins F) (c : Dev nD) :
    accAll I c (σ 107).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_108 (I : Dev nD → Ins F) (c : Dev nD) :
    accAll I c (σ 108).acc = (iprop(accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp) : sProp (MT nD τ sig Unit (Elt F) ℕ UU ℕ)) := rfl
theorem accAll_σ_109 (I : Dev nD → Ins F) (c : Dev nD) :
    accAll I c (σ 109).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_110 (I : Dev nD → Ins F) (c : Dev nD) :
    accAll I c (σ 110).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_111 (I : Dev nD → Ins F) (c : Dev nD) :
    accAll I c (σ 111).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_112 (I : Dev nD → Ins F) (c : Dev nD) :
    accAll I c (σ 112).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 1) ∗ accTile c 3 1 (A I 1 c 3 1 1) ∗ accTile c 3 2 (A I 1 c 3 2 1)) : sProp (MT nD τ sig Unit (Elt F) ℕ UU ℕ)) := rfl
theorem accAll_σ_113 (I : Dev nD → Ins F) (c : Dev nD) :
    accAll I c (σ 113).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 2) ∗ accTile c 3 1 (A I 1 c 3 1 2) ∗ accTile c 3 2 (A I 1 c 3 2 1)) : sProp (MT nD τ sig Unit (Elt F) ℕ UU ℕ)) := rfl
theorem accAll_σ_114 (I : Dev nD → Ins F) (c : Dev nD) :
    accAll I c (σ 114).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ accTile c 3 2 (A I 1 c 3 2 2)) : sProp (MT nD τ sig Unit (Elt F) ℕ UU ℕ)) := rfl
theorem accAll_σ_115 (I : Dev nD → Ins F) (c : Dev nD) :
    accAll I c (σ 115).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_116 (I : Dev nD → Ins F) (c : Dev nD) :
    accAll I c (σ 116).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp) : sProp (MT nD τ sig Unit (Elt F) ℕ UU ℕ)) := rfl
theorem accAll_σ_117 (I : Dev nD → Ins F) (c : Dev nD) :
    accAll I c (σ 117).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_118 (I : Dev nD → Ins F) (c : Dev nD) :
    accAll I c (σ 118).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_119 (I : Dev nD → Ins F) (c : Dev nD) :
    accAll I c (σ 119).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp) : sProp (MT nD τ sig Unit (Elt F) ℕ UU ℕ)) := rfl
theorem accAll_σ_120 (I : Dev nD → Ins F) (c : Dev nD) :
    accAll I c (σ 120).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2)) : sProp (MT nD τ sig Unit (Elt F) ℕ UU ℕ)) := rfl
theorem accAll_σ_121 (I : Dev nD → Ins F) (c : Dev nD) :
    accAll I c (σ 121).acc = (iprop(accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp) : sProp (MT nD τ sig Unit (Elt F) ℕ UU ℕ)) := rfl
theorem accAll_σ_122 (I : Dev nD → Ins F) (c : Dev nD) :
    accAll I c (σ 122).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2)) : sProp (MT nD τ sig Unit (Elt F) ℕ UU ℕ)) := rfl
theorem accAll_σ_123 (I : Dev nD → Ins F) (c : Dev nD) :
    accAll I c (σ 123).acc = (iprop(accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2)) : sProp (MT nD τ sig Unit (Elt F) ℕ UU ℕ)) := rfl

end Cert.Kernel.Body

end
-- ==== Proof.Bits.Parts.Part4.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L4
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable

/-! Part 4 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 4 of the body, run from the place before it, ends at the place after it and returns its values; whatever else is held is kept. -/
theorem part_4 (m : (ℓ : Loc nD τ sig) → Buf (Elt F) ℓ) (K : Dev nD × Cell → ℕ) (c : Dev nD) (Fr : sProp 𝕄) :
    iprop(St (insM m) K (σ 3) c ∗ outHeld (insM m) c (σ 3).outs ∗ Fr)
      ⊢ wp frame (wpE (defs₀ (F := F)) 𝒱₀ (c : Thread nD τ) none) Set.univ
          (k0_part4 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv37 (insM m) c) (Vals.lv80 (insM m) c) (Vals.lv83 (insM m) c) (Vals.lv89 (insM m) c) (Vals.lv101 (insM m) c) (Vals.lv113 (insM m) c) (Vals.lv116 (insM m) c) (Vals.lv119 (insM m) c) (Vals.lv120 (insM m) c))
          (fun tup => iprop(⌜tup = Vals.lw154 c⌝ ∗ St (insM m) K (σ 4) c ∗ outHeld (insM m) c (σ 4).outs ∗ Fr)) := by
  have eo : (σ 4).outs = (σ 3).outs := rfl
  rw [eo]
  rw [St_eq, St_eq, StRest_congr (insM m) K c (s := σ 3) (s' := σ 4) rfl rfl rfl rfl, accAll_σ_3, accAll_σ_4]
  refine BIBase.Entails.trans ?_ ((local_4 (insM m) c iprop(StRest (insM m) K (σ 4) c ∗ accTileAny (F := F) c 1 0 ∗ accTileAny (F := F) c 1 1 ∗ accTileAny (F := F) c 1 2 ∗ accTileAny (F := F) c 2 0 ∗ accTileAny (F := F) c 2 1 ∗ accTileAny (F := F) c 2 2 ∗ accTileAny (F := F) c 3 0 ∗ accTileAny (F := F) c 3 1 ∗ accTileAny (F := F) c 3 2 ∗ outHeld (insM m) c (σ 3).outs ∗ Fr)).trans (wp_mono _ _ _ fun tup => ?_))
  · iintro ⟨⟨HR, T00, T01, T02, T10, T11, T12, T20, T21, T22, T30, T31, T32⟩, HO, HF⟩
    isplitl [T00]; · iexact T00
    isplitl [T01]; · iexact T01
    isplitl [T02]; · iexact T02
    isplitl [HR]; · iexact HR
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T00, T01, T02, HR, T10, T11, T12, T20, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_4' depends on axioms: [propext, Classical.choice, Quot.sound] -/
#guard_msgs in #print axioms part_4

end Cert.Kernel.Body

end
-- ==== Proof.Bits.BodyOpen.lean ====
import proofs.«900775_g7700000000000776_dist_diff_dit_htp_i_b2_s512_d768_hq4_v7x_i8_f32_1_alg».proof.Proof.Bits.BodyState

/-! The state between two stretches of the body, written out at every place of the table: what is owed and the tokens
    and credits from their place on, the departure credits outstanding one by one, the cells waited, being waited and to be
    waited, the receive slices still to be written and those come back, and the twelve accumulator tiles. Each line is the
    definition read at a literal place. -/

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

theorem St_open_0 (I : Dev nD → Ins F) (K : Dev nD × Cell → ℕ) (c : Dev nD) : St I K (σ 0) c
    = iprop(records (RdI I) K ∗ levAts Proto.L Proto.lv ∗ (∃ W, owes (c : Thread nD τ) (owedFrom c 0) W) ∗ toksFrom c 0 ∗ credFrom c 0
      ∗ emp
      ∗ todoFrom c 0
      ∗ ownOut c
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_1 (I : Dev nD → Ins F) (K : Dev nD × Cell → ℕ) (c : Dev nD) : St I K (σ 1) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_2 (I : Dev nD → Ins F) (K : Dev nD × Cell → ℕ) (c : Dev nD) : St I K (σ 2) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_3 (I : Dev nD → Ins F) (K : Dev nD × Cell → ℕ) (c : Dev nD) : St I K (σ 3) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTileAny c 0 0 ∗ accTileAny c 0 1 ∗ accTileAny c 0 2 ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_4 (I : Dev nD → Ins F) (K : Dev nD × Cell → ℕ) (c : Dev nD) : St I K (σ 4) c
    = iprop(records (RdI I) K ∗ levAts Proto.L Proto.lv ∗ (∃ W, owes (c : Thread nD τ) (owedFrom c 3) W) ∗ toksFrom c 3 ∗ credFrom c 3
      ∗ emp
      ∗ (doneTo c 1 ∗ todoFrom c 1)
      ∗ (foreignFrom c 0 ∗ rsBack I c 0)
      ∗ (accTile c 0 0 (A I 0 c 0 0 0) ∗ accTile c 0 1 (A I 0 c 0 1 0) ∗ accTile c 0 2 (A I 0 c 0 2 0) ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_5 (I : Dev nD → Ins F) (K : Dev nD × Cell → ℕ) (c : Dev nD) : St I K (σ 5) c
    = iprop(records (RdI I) K ∗ levAts Proto.L Proto.lv ∗ (∃ W, owes (c : Thread nD τ) (owedFrom c 5) W) ∗ toksFrom c 5 ∗ credFrom c 3
      ∗ (cred (tallyAt (sendCell c 0) () N) ∗ cred (tallyAt (sendCell c 0) () N))
      ∗ (doneTo c 1 ∗ todoFrom c 1)
      ∗ (foreignFrom c 2 ∗ rsBack I c 0)
      ∗ (emp ∗ emp ∗ accTile c 0 2 (A I 0 c 0 2 0) ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_6 (I : Dev nD → Ins F) (K : Dev nD × Cell → ℕ) (c : Dev nD) : St I K (σ 6) c
    = iprop(records (RdI I) K ∗ levAts Proto.L Proto.lv ∗ (∃ W, owes (c : Thread nD τ) (owedFrom c 6) W) ∗ toksFrom c 6 ∗ credFrom c 3
      ∗ (cred (tallyAt (sendCell c 0) () N) ∗ cred (tallyAt (sendCell c 0) () N) ∗ cred (tallyAt (sendCell c 0) () N))
      ∗ (doneTo c 1 ∗ todoFrom c 1)
      ∗ (foreignFrom c 3 ∗ rsBack I c 0)
      ∗ (emp ∗ emp ∗ emp ∗ accTileAny c 1 0 ∗ accTileAny c 1 1 ∗ accTileAny c 1 2 ∗ accTileAny c 2 0 ∗ accTileAny c 2 1 ∗ accTileAny c 2 2 ∗ accTileAny c 3 0 ∗ accTileAny c 3 1 ∗ accTileAny c 3 2)) := rfl

theorem St_open_7 (I : Dev nD → Ins F) (K : Dev nD × Cell → ℕ) (c : Dev nD) : St I K (σ 7) c
    = iprop(records (RdI I) K ∗ levAts Proto.L Proto.lv ∗ (∃ W, owes (c : Thread nD τ) (owedFrom c 6) W) ∗ toksFrom c 6 ∗ credFrom c 3
      ∗ (cred (tallyAt (sendCell c 0) () N) ∗ cred (tallyAt (sendCell c 0) () N) ∗ cred (tallyAt (sendCell c 0) () N))
      ∗ (doneTo c 1 ∗ todoFrom c 1)
      ∗ (foreignFrom c 3 ∗ rsBack I c 0)
      ∗ (emp ∗ emp ∗ emp ∗ accTile c 1 0 (A I 0 c 1 0 0) ∗ accTile c 1 1 (A I 0 c 1 1 0) ∗ accTile c 1 2 (A I 0 c 1 2 0) ∗ accTileAny c 2 0 ∗ accTileAny c 2 1 ∗ accTileAny c 2 2 ∗ accTileAny c 3 0 ∗ accTileAny c 3 1 ∗ accTileAny c 3 2)) := rfl

theorem St_open_8 (I : Dev nD → Ins F) (K : Dev nD × Cell → ℕ) (c : Dev nD) : St I K (σ 8) c
    = iprop(records (RdI I) K ∗ levAts Proto.L Proto.lv ∗ (∃ W, owes (c : Thread nD τ) (owedFrom c 8) W) ∗ toksFrom c 8 ∗ credFrom c 3
      ∗ (cred (tallyAt (sendCell c 0) () N) ∗ cred (tallyAt (sendCell c 0) () N) ∗ cred (tallyAt (sendCell c 0) () N) ∗ cred (tallyAt (sendCell c 3) () N) ∗ cred (tallyAt (sendCell c 3) () N))
      ∗ (doneTo c 1 ∗ todoFrom c 1)
      ∗ (foreignFrom c 5 ∗ rsBack I c 0)
      ∗ (emp ∗ emp ∗ emp ∗ emp ∗ emp ∗ accTile c 1 2 (A I 0 c 1 2 0) ∗ accTileAny c 2 0 ∗ accTileAny c 2 1 ∗ accTileAny c 2 2 ∗ accTileAny c 3 0 ∗ accTileAny c 3 1 ∗ accTileAny c 3 2)) := rfl

theorem St_open_9 (I : Dev nD → Ins F) (K : Dev nD × Cell → ℕ) (c : Dev nD) : St I K (σ 9) c
    = iprop(records (RdI I) K ∗ levAts Proto.L Proto.lv ∗ (∃ W, owes (c : Thread nD τ) (owedFrom c 9) W) ∗ toksFrom c 9 ∗ credFrom c 4
      ∗ (cred (tallyAt (sendCell c 0) () N) ∗ cred (tallyAt (sendCell c 0) () N) ∗ cred (tallyAt (sendCell c 3) () N) ∗ cred (tallyAt (sendCell c 3) () N) ∗ cred (tallyAt (sendCell c 3) () N))
      ∗ (doneTo c 1 ∗ curCell (sendCell c 0) (fun p => (RdI I).payload (sendCell c 0) 0 p) 1 ∗ emp ∗ curCell (recvCell c 0) (fun p => (RdI I).payload (recvCell c 0) 0 p) 1 ∗ todoFrom c 3)
      ∗ (foreignFrom c 6 ∗ rsBack I c 0)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_10 (I : Dev nD → Ins F) (K : Dev nD × Cell → ℕ) (c : Dev nD) : St I K (σ 10) c
    = iprop(records (RdI I) K ∗ levAts Proto.L Proto.lv ∗ (∃ W, owes (c : Thread nD τ) (owedFrom c 9) W) ∗ toksFrom c 9 ∗ credFrom c 5
      ∗ (cred (tallyAt (sendCell c 3) () N) ∗ cred (tallyAt (sendCell c 3) () N) ∗ cred (tallyAt (sendCell c 3) () N))
      ∗ (doneTo c 1 ∗ curCell (sendCell c 0) (fun p => (RdI I).payload (sendCell c 0) 0 p) 3 ∗ ((RdI I).payload (sendCell c 0) 0 0 ∗ (RdI I).payload (sendCell c 0) 0 1 ∗ (RdI I).payload (sendCell c 0) 0 2) ∗ curCell (recvCell c 0) (fun p => (RdI I).payload (recvCell c 0) 0 p) 2 ∗ todoFrom c 3)
      ∗ (foreignFrom c 6 ∗ rsBack I c 0)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_11 (I : Dev nD → Ins F) (K : Dev nD × Cell → ℕ) (c : Dev nD) : St I K (σ 11) c
    = iprop(records (RdI I) K ∗ levAts Proto.L Proto.lv ∗ (∃ W, owes (c : Thread nD τ) (owedFrom c 9) W) ∗ toksFrom c 9 ∗ credFrom c 6
      ∗ (cred (tallyAt (sendCell c 3) () N) ∗ cred (tallyAt (sendCell c 3) () N) ∗ cred (tallyAt (sendCell c 3) () N))
      ∗ (doneTo c 3 ∗ todoFrom c 3)
      ∗ (foreignFrom c 6 ∗ rsBack I c 1)
      ∗ (accTile c 0 0 (A I 0 c 0 0 1) ∗ accTile c 0 1 (A I 0 c 0 1 1) ∗ accTile c 0 2 (A I 0 c 0 2 0) ∗ emp ∗ emp ∗ emp ∗ accTileAny c 2 0 ∗ accTileAny c 2 1 ∗ accTileAny c 2 2 ∗ accTileAny c 3 0 ∗ accTileAny c 3 1 ∗ accTileAny c 3 2)) := rfl

theorem St_open_12 (I : Dev nD → Ins F) (K : Dev nD × Cell → ℕ) (c : Dev nD) : St I K (σ 12) c
    = iprop(records (RdI I) K ∗ levAts Proto.L Proto.lv ∗ (∃ W, owes (c : Thread nD τ) (owedFrom c 10) W) ∗ toksFrom c 10 ∗ credFrom c 6
      ∗ (cred (tallyAt (sendCell c 3) () N) ∗ cred (tallyAt (sendCell c 3) () N) ∗ cred (tallyAt (sendCell c 3) () N) ∗ cred (tallyAt (sendCell c 1) () N))
      ∗ (doneTo c 3 ∗ todoFrom c 3)
      ∗ (foreignFrom c 7 ∗ rsBack I c 1)
      ∗ (emp ∗ accTile c 0 1 (A I 0 c 0 1 1) ∗ accTile c 0 2 (A I 0 c 0 2 1) ∗ emp ∗ emp ∗ emp ∗ accTileAny c 2 0 ∗ accTileAny c 2 1 ∗ accTileAny c 2 2 ∗ accTileAny c 3 0 ∗ accTileAny c 3 1 ∗ accTileAny c 3 2)) := rfl

theorem St_open_13 (I : Dev nD → Ins F) (K : Dev nD × Cell → ℕ) (c : Dev nD) : St I K (σ 13) c
    = iprop(records (RdI I) K ∗ levAts Proto.L Proto.lv ∗ (∃ W, owes (c : Thread nD τ) (owedFrom c 12) W) ∗ toksFrom c 12 ∗ credFrom c 6
      ∗ (cred (tallyAt (sendCell c 3) () N) ∗ cred (tallyAt (sendCell c 3) () N) ∗ cred (tallyAt (sendCell c 3) () N) ∗ cred (tallyAt (sendCell c 1) () N) ∗ cred (tallyAt (sendCell c 1) () N) ∗ cred (tallyAt (sendCell c 1) () N))
      ∗ (doneTo c 3 ∗ todoFrom c 3)
      ∗ (foreignFrom c 9 ∗ rsBack I c 1)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_14 (I : Dev nD → Ins F) (K : Dev nD × Cell → ℕ) (c : Dev nD) : St I K (σ 14) c
    = iprop(records (RdI I) K ∗ levAts Proto.L Proto.lv ∗ (∃ W, owes (c : Thread nD τ) (owedFrom c 12) W) ∗ toksFrom c 12 ∗ credFrom c 7
      ∗ (cred (tallyAt (sendCell c 3) () N) ∗ cred (tallyAt (sendCell c 3) () N) ∗ cred (tallyAt (sendCell c 1) () N) ∗ cred (tallyAt (sendCell c 1) () N) ∗ cred (tallyAt (sendCell c 1) () N))
      ∗ (doneTo c 3 ∗ curCell (sendCell c 3) (fun p => (RdI I).payload (sendCell c 3) 0 p) 1 ∗ emp ∗ curCell (recvCell c 3) (fun p => (RdI I).payload (recvCell c 3) 0 p) 1 ∗ todoFrom c 5)
      ∗ (foreignFrom c 9 ∗ rsBack I c 1)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_15 (I : Dev nD → Ins F) (K : Dev nD × Cell → ℕ) (c : Dev nD) : St I K (σ 15) c
    = iprop(records (RdI I) K ∗ levAts Proto.L Proto.lv ∗ (∃ W, owes (c : Thread nD τ) (owedFrom c 12) W) ∗ toksFrom c 12 ∗ credFrom c 8
      ∗ (cred (tallyAt (sendCell c 1) () N) ∗ cred (tallyAt (sendCell c 1) () N) ∗ cred (tallyAt (sendCell c 1) () N))
      ∗ (doneTo c 3 ∗ curCell (sendCell c 3) (fun p => (RdI I).payload (sendCell c 3) 0 p) 3 ∗ ((RdI I).payload (sendCell c 3) 0 0 ∗ (RdI I).payload (sendCell c 3) 0 1 ∗ (RdI I).payload (sendCell c 3) 0 2) ∗ curCell (recvCell c 3) (fun p => (RdI I).payload (recvCell c 3) 0 p) 2 ∗ todoFrom c 5)
      ∗ (foreignFrom c 9 ∗ rsBack I c 1)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_16 (I : Dev nD → Ins F) (K : Dev nD × Cell → ℕ) (c : Dev nD) : St I K (σ 16) c
    = iprop(records (RdI I) K ∗ levAts Proto.L Proto.lv ∗ (∃ W, owes (c : Thread nD τ) (owedFrom c 12) W) ∗ toksFrom c 12 ∗ credFrom c 9
      ∗ (cred (tallyAt (sendCell c 1) () N) ∗ cred (tallyAt (sendCell c 1) () N) ∗ cred (tallyAt (sendCell c 1) () N))
      ∗ (doneTo c 5 ∗ todoFrom c 5)
      ∗ (foreignFrom c 9 ∗ rsBack I c 2)
      ∗ (emp ∗ emp ∗ emp ∗ accTile c 1 0 (A I 0 c 1 0 1) ∗ accTile c 1 1 (A I 0 c 1 1 0) ∗ accTile c 1 2 (A I 0 c 1 2 0) ∗ accTileAny c 2 0 ∗ accTileAny c 2 1 ∗ accTileAny c 2 2 ∗ accTileAny c 3 0 ∗ accTileAny c 3 1 ∗ accTileAny c 3 2)) := rfl

theorem St_open_17 (I : Dev nD → Ins F) (K : Dev nD × Cell → ℕ) (c : Dev nD) : St I K (σ 17) c
    = iprop(records (RdI I) K ∗ levAts Proto.L Proto.lv ∗ (∃ W, owes (c : Thread nD τ) (owedFrom c 13) W) ∗ toksFrom c 13 ∗ credFrom c 9
      ∗ (cred (tallyAt (sendCell c 1) () N) ∗ cred (tallyAt (sendCell c 1) () N) ∗ cred (tallyAt (sendCell c 1) () N) ∗ cred (tallyAt (sendCell c 4) () N))
      ∗ (doneTo c 5 ∗ todoFrom c 5)
      ∗ (foreignFrom c 10 ∗ rsBack I c 2)
      ∗ (emp ∗ emp ∗ emp ∗ emp ∗ accTile c 1 1 (A I 0 c 1 1 1) ∗ accTile c 1 2 (A I 0 c 1 2 1) ∗ accTileAny c 2 0 ∗ accTileAny c 2 1 ∗ accTileAny c 2 2 ∗ accTileAny c 3 0 ∗ accTileAny c 3 1 ∗ accTileAny c 3 2)) := rfl

theorem St_open_18 (I : Dev nD → Ins F) (K : Dev nD × Cell → ℕ) (c : Dev nD) : St I K (σ 18) c
    = iprop(records (RdI I) K ∗ levAts Proto.L Proto.lv ∗ (∃ W, owes (c : Thread nD τ) (owedFrom c 15) W) ∗ toksFrom c 15 ∗ credFrom c 9
      ∗ (cred (tallyAt (sendCell c 1) () N) ∗ cred (tallyAt (sendCell c 1) () N) ∗ cred (tallyAt (sendCell c 1) () N) ∗ cred (tallyAt (sendCell c 4) () N) ∗ cred (tallyAt (sendCell c 4) () N) ∗ cred (tallyAt (sendCell c 4) () N))
      ∗ (doneTo c 5 ∗ todoFrom c 5)
      ∗ (foreignFrom c 12 ∗ rsBack I c 2)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_19 (I : Dev nD → Ins F) (K : Dev nD × Cell → ℕ) (c : Dev nD) : St I K (σ 19) c
    = iprop(records (RdI I) K ∗ levAts Proto.L Proto.lv ∗ (∃ W, owes (c : Thread nD τ) (owedFrom c 15) W) ∗ toksFrom c 15 ∗ credFrom c 10
      ∗ (cred (tallyAt (sendCell c 1) () N) ∗ cred (tallyAt (sendCell c 4) () N) ∗ cred (tallyAt (sendCell c 4) () N) ∗ cred (tallyAt (sendCell c 4) () N))
      ∗ (doneTo c 5 ∗ curCell (sendCell c 1) (fun p => (RdI I).payload (sendCell c 1) 0 p) 2 ∗ emp ∗ curCell (recvCell c 1) (fun p => (RdI I).payload (recvCell c 1) 0 p) 1 ∗ todoFrom c 7)
      ∗ (foreignFrom c 12 ∗ rsBack I c 2)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_20 (I : Dev nD → Ins F) (K : Dev nD × Cell → ℕ) (c : Dev nD) : St I K (σ 20) c
    = iprop(records (RdI I) K ∗ levAts Proto.L Proto.lv ∗ (∃ W, owes (c : Thread nD τ) (owedFrom c 15) W) ∗ toksFrom c 15 ∗ credFrom c 12
      ∗ (cred (tallyAt (sendCell c 4) () N) ∗ cred (tallyAt (sendCell c 4) () N) ∗ cred (tallyAt (sendCell c 4) () N))
      ∗ (doneTo c 7 ∗ todoFrom c 7)
      ∗ (foreignFrom c 12 ∗ rsBack I c 3)
      ∗ (accTile c 0 0 (A I 0 c 0 0 1) ∗ accTile c 0 1 (A I 0 c 0 1 1) ∗ accTile c 0 2 (A I 0 c 0 2 1) ∗ emp ∗ emp ∗ emp ∗ accTileAny c 2 0 ∗ accTileAny c 2 1 ∗ accTileAny c 2 2 ∗ accTileAny c 3 0 ∗ accTileAny c 3 1 ∗ accTileAny c 3 2)) := rfl

theorem St_open_21 (I : Dev nD → Ins F) (K : Dev nD × Cell → ℕ) (c : Dev nD) : St I K (σ 21) c
    = iprop(records (RdI I) K ∗ levAts Proto.L Proto.lv ∗ (∃ W, owes (c : Thread nD τ) (owedFrom c 15) W) ∗ toksFrom c 15 ∗ credFrom c 12
      ∗ (cred (tallyAt (sendCell c 4) () N) ∗ cred (tallyAt (sendCell c 4) () N) ∗ cred (tallyAt (sendCell c 4) () N))
      ∗ (doneTo c 7 ∗ todoFrom c 7)
      ∗ (foreignFrom c 12 ∗ rsBack I c 3)
      ∗ (accTile c 0 0 (A I 0 c 0 0 2) ∗ accTile c 0 1 (A I 0 c 0 1 2) ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_22 (I : Dev nD → Ins F) (K : Dev nD × Cell → ℕ) (c : Dev nD) : St I K (σ 22) c
    = iprop(records (RdI I) K ∗ levAts Proto.L Proto.lv ∗ (∃ W, owes (c : Thread nD τ) (owedFrom c 17) W) ∗ toksFrom c 17 ∗ credFrom c 12
      ∗ (cred (tallyAt (sendCell c 4) () N) ∗ cred (tallyAt (sendCell c 4) () N) ∗ cred (tallyAt (sendCell c 4) () N) ∗ cred (tallyAt (sendCell c 2) () N) ∗ cred (tallyAt (sendCell c 2) () N))
      ∗ (doneTo c 7 ∗ todoFrom c 7)
      ∗ (foreignFrom c 14 ∗ rsBack I c 3)
      ∗ (emp ∗ emp ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_23 (I : Dev nD → Ins F) (K : Dev nD × Cell → ℕ) (c : Dev nD) : St I K (σ 23) c
    = iprop(records (RdI I) K ∗ levAts Proto.L Proto.lv ∗ (∃ W, owes (c : Thread nD τ) (owedFrom c 18) W) ∗ toksFrom c 18 ∗ credFrom c 13
      ∗ (cred (tallyAt (sendCell c 4) () N) ∗ cred (tallyAt (sendCell c 4) () N) ∗ cred (tallyAt (sendCell c 2) () N) ∗ cred (tallyAt (sendCell c 2) () N) ∗ cred (tallyAt (sendCell c 2) () N))
      ∗ (doneTo c 7 ∗ curCell (sendCell c 4) (fun p => (RdI I).payload (sendCell c 4) 0 p) 1 ∗ emp ∗ curCell (recvCell c 4) (fun p => (RdI I).payload (recvCell c 4) 0 p) 1 ∗ todoFrom c 9)
      ∗ (foreignFrom c 15 ∗ rsBack I c 3)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_24 (I : Dev nD → Ins F) (K : Dev nD × Cell → ℕ) (c : Dev nD) : St I K (σ 24) c
    = iprop(records (RdI I) K ∗ levAts Proto.L Proto.lv ∗ (∃ W, owes (c : Thread nD τ) (owedFrom c 18) W) ∗ toksFrom c 18 ∗ credFrom c 14
      ∗ (cred (tallyAt (sendCell c 2) () N) ∗ cred (tallyAt (sendCell c 2) () N) ∗ cred (tallyAt (sendCell c 2) () N))
      ∗ (doneTo c 7 ∗ curCell (sendCell c 4) (fun p => (RdI I).payload (sendCell c 4) 0 p) 3 ∗ ((RdI I).payload (sendCell c 4) 0 0 ∗ (RdI I).payload (sendCell c 4) 0 1 ∗ (RdI I).payload (sendCell c 4) 0 2) ∗ curCell (recvCell c 4) (fun p => (RdI I).payload (recvCell c 4) 0 p) 2 ∗ todoFrom c 9)
      ∗ (foreignFrom c 15 ∗ rsBack I c 3)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_25 (I : Dev nD → Ins F) (K : Dev nD × Cell → ℕ) (c : Dev nD) : St I K (σ 25) c
    = iprop(records (RdI I) K ∗ levAts Proto.L Proto.lv ∗ (∃ W, owes (c : Thread nD τ) (owedFrom c 18) W) ∗ toksFrom c 18 ∗ credFrom c 15
      ∗ (cred (tallyAt (sendCell c 2) () N) ∗ cred (tallyAt (sendCell c 2) () N) ∗ cred (tallyAt (sendCell c 2) () N))
      ∗ (doneTo c 9 ∗ todoFrom c 9)
      ∗ (foreignFrom c 15 ∗ rsBack I c 4)
      ∗ (emp ∗ emp ∗ emp ∗ accTile c 1 0 (A I 0 c 1 0 2) ∗ accTile c 1 1 (A I 0 c 1 1 1) ∗ accTile c 1 2 (A I 0 c 1 2 1) ∗ accTileAny c 2 0 ∗ accTileAny c 2 1 ∗ accTileAny c 2 2 ∗ accTileAny c 3 0 ∗ accTileAny c 3 1 ∗ accTileAny c 3 2)) := rfl

theorem St_open_26 (I : Dev nD → Ins F) (K : Dev nD × Cell → ℕ) (c : Dev nD) : St I K (σ 26) c
    = iprop(records (RdI I) K ∗ levAts Proto.L Proto.lv ∗ (∃ W, owes (c : Thread nD τ) (owedFrom c 19) W) ∗ toksFrom c 19 ∗ credFrom c 15
      ∗ (cred (tallyAt (sendCell c 2) () N) ∗ cred (tallyAt (sendCell c 2) () N) ∗ cred (tallyAt (sendCell c 2) () N) ∗ cred (tallyAt (sendCell c 5) () N))
      ∗ (doneTo c 9 ∗ todoFrom c 9)
      ∗ (foreignFrom c 16 ∗ rsBack I c 4)
      ∗ (emp ∗ emp ∗ emp ∗ emp ∗ accTile c 1 1 (A I 0 c 1 1 2) ∗ accTile c 1 2 (A I 0 c 1 2 2) ∗ accTileAny c 2 0 ∗ accTileAny c 2 1 ∗ accTileAny c 2 2 ∗ accTileAny c 3 0 ∗ accTileAny c 3 1 ∗ accTileAny c 3 2)) := rfl

theorem St_open_27 (I : Dev nD → Ins F) (K : Dev nD × Cell → ℕ) (c : Dev nD) : St I K (σ 27) c
    = iprop(records (RdI I) K ∗ levAts Proto.L Proto.lv ∗ (∃ W, owes (c : Thread nD τ) (owedFrom c 21) W) ∗ toksFrom c 21 ∗ credFrom c 15
      ∗ (cred (tallyAt (sendCell c 2) () N) ∗ cred (tallyAt (sendCell c 2) () N) ∗ cred (tallyAt (sendCell c 2) () N) ∗ cred (tallyAt (sendCell c 5) () N) ∗ cred (tallyAt (sendCell c 5) () N) ∗ cred (tallyAt (sendCell c 5) () N))
      ∗ (doneTo c 9 ∗ todoFrom c 9)
      ∗ (foreignFrom c 18 ∗ rsBack I c 4)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_28 (I : Dev nD → Ins F) (K : Dev nD × Cell → ℕ) (c : Dev nD) : St I K (σ 28) c
    = iprop(records (RdI I) K ∗ levAts Proto.L Proto.lv ∗ (∃ W, owes (c : Thread nD τ) (owedFrom c 21) W) ∗ toksFrom c 21 ∗ credFrom c 16
      ∗ (cred (tallyAt (sendCell c 2) () N) ∗ cred (tallyAt (sendCell c 5) () N) ∗ cred (tallyAt (sendCell c 5) () N) ∗ cred (tallyAt (sendCell c 5) () N))
      ∗ (doneTo c 9 ∗ curCell (sendCell c 2) (fun p => (RdI I).payload (sendCell c 2) 0 p) 2 ∗ emp ∗ curCell (recvCell c 2) (fun p => (RdI I).payload (recvCell c 2) 0 p) 1 ∗ todoFrom c 11)
      ∗ (foreignFrom c 18 ∗ rsBack I c 4)
      ∗ (emp ∗ emp ∗ emp ∗ emp ∗ emp ∗ emp ∗ accTileAny c 2 0 ∗ accTileAny c 2 1 ∗ accTileAny c 2 2 ∗ accTileAny c 3 0 ∗ accTileAny c 3 1 ∗ accTileAny c 3 2)) := rfl

theorem St_open_29 (I : Dev nD → Ins F) (K : Dev nD × Cell → ℕ) (c : Dev nD) : St I K (σ 29) c
    = iprop(records (RdI I) K ∗ levAts Proto.L Proto.lv ∗ (∃ W, owes (c : Thread nD τ) (owedFrom c 21) W) ∗ toksFrom c 21 ∗ credFrom c 18
      ∗ (cred (tallyAt (sendCell c 5) () N) ∗ cred (tallyAt (sendCell c 5) () N) ∗ cred (tallyAt (sendCell c 5) () N))
      ∗ (doneTo c 11 ∗ todoFrom c 11)
      ∗ (foreignFrom c 18 ∗ rsBack I c 5)
      ∗ (accTile c 0 0 (A I 0 c 0 0 2) ∗ accTile c 0 1 (A I 0 c 0 1 2) ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_30 (I : Dev nD → Ins F) (K : Dev nD × Cell → ℕ) (c : Dev nD) : St I K (σ 30) c
    = iprop(records (RdI I) K ∗ levAts Proto.L Proto.lv ∗ (∃ W, owes (c : Thread nD τ) (owedFrom c 21) W) ∗ toksFrom c 21 ∗ credFrom c 18
      ∗ (cred (tallyAt (sendCell c 5) () N) ∗ cred (tallyAt (sendCell c 5) () N) ∗ cred (tallyAt (sendCell c 5) () N))
      ∗ (doneTo c 11 ∗ todoFrom c 11)
      ∗ (foreignFrom c 18 ∗ rsBack I c 5)
      ∗ (accTile c 0 0 (A I 0 c 0 0 2) ∗ accTile c 0 1 (A I 0 c 0 1 2) ∗ accTile c 0 2 (A I 0 c 0 2 2) ∗ emp ∗ emp ∗ emp ∗ accTileAny c 2 0 ∗ accTileAny c 2 1 ∗ accTileAny c 2 2 ∗ accTileAny c 3 0 ∗ accTileAny c 3 1 ∗ accTileAny c 3 2)) := rfl

theorem St_open_31 (I : Dev nD → Ins F) (K : Dev nD × Cell → ℕ) (c : Dev nD) : St I K (σ 31) c
    = iprop(records (RdI I) K ∗ levAts Proto.L Proto.lv ∗ (∃ W, owes (c : Thread nD τ) (owedFrom c 22) W) ∗ toksFrom c 22 ∗ credFrom c 18
      ∗ (cred (tallyAt (sendCell c 5) () N) ∗ cred (tallyAt (sendCell c 5) () N) ∗ cred (tallyAt (sendCell c 5) () N) ∗ cred (tallyAt (sendCell c 6) () N))
      ∗ (doneTo c 11 ∗ todoFrom c 11)
      ∗ (foreignFrom c 19 ∗ rsBack I c 5)
      ∗ (accTile c 0 0 (A I 0 c 0 0 2) ∗ accTile c 0 1 (A I 0 c 0 1 2) ∗ accTile c 0 2 (A I 0 c 0 2 2) ∗ emp ∗ emp ∗ emp ∗ emp ∗ accTile c 2 1 (A I 0 c 2 1 0) ∗ accTile c 2 2 (A I 0 c 2 2 0) ∗ accTileAny c 3 0 ∗ accTileAny c 3 1 ∗ accTileAny c 3 2)) := rfl

theorem St_open_32 (I : Dev nD → Ins F) (K : Dev nD × Cell → ℕ) (c : Dev nD) : St I K (σ 32) c
    = iprop(records (RdI I) K ∗ levAts Proto.L Proto.lv ∗ (∃ W, owes (c : Thread nD τ) (owedFrom c 24) W) ∗ toksFrom c 24 ∗ credFrom c 18
      ∗ (cred (tallyAt (sendCell c 5) () N) ∗ cred (tallyAt (sendCell c 5) () N) ∗ cred (tallyAt (sendCell c 5) () N) ∗ cred (tallyAt (sendCell c 6) () N) ∗ cred (tallyAt (sendCell c 6) () N) ∗ cred (tallyAt (sendCell c 6) () N))
      ∗ (doneTo c 11 ∗ todoFrom c 11)
      ∗ (foreignFrom c 21 ∗ rsBack I c 5)
      ∗ (accTile c 0 0 (A I 0 c 0 0 2) ∗ accTile c 0 1 (A I 0 c 0 1 2) ∗ accTile c 0 2 (A I 0 c 0 2 2) ∗ emp ∗ emp ∗ emp ∗ emp ∗ emp ∗ emp ∗ accTileAny c 3 0 ∗ accTileAny c 3 1 ∗ accTileAny c 3 2)) := rfl

theorem St_open_33 (I : Dev nD → Ins F) (K : Dev nD × Cell → ℕ) (c : Dev nD) : St I K (σ 33) c
    = iprop(records (RdI I) K ∗ levAts Proto.L Proto.lv ∗ (∃ W, owes (c : Thread nD τ) (owedFrom c 24) W) ∗ toksFrom c 24 ∗ credFrom c 19
      ∗ (cred (tallyAt (sendCell c 5) () N) ∗ cred (tallyAt (sendCell c 6) () N) ∗ cred (tallyAt (sendCell c 6) () N) ∗ cred (tallyAt (sendCell c 6) () N))
      ∗ (doneTo c 11 ∗ curCell (sendCell c 5) (fun p => (RdI I).payload (sendCell c 5) 0 p) 2 ∗ emp ∗ curCell (recvCell c 5) (fun p => (RdI I).payload (recvCell c 5) 0 p) 1 ∗ todoFrom c 13)
      ∗ (foreignFrom c 21 ∗ rsBack I c 5)
      ∗ (accTile c 0 0 (A I 0 c 0 0 2) ∗ accTile c 0 1 (A I 0 c 0 1 2) ∗ accTile c 0 2 (A I 0 c 0 2 2) ∗ emp ∗ emp ∗ emp ∗ emp ∗ emp ∗ emp ∗ accTileAny c 3 0 ∗ accTileAny c 3 1 ∗ accTileAny c 3 2)) := rfl

theorem St_open_34 (I : Dev nD → Ins F) (K : Dev nD × Cell → ℕ) (c : Dev nD) : St I K (σ 34) c
    = iprop(records (RdI I) K ∗ levAts Proto.L Proto.lv ∗ (∃ W, owes (c : Thread nD τ) (owedFrom c 24) W) ∗ toksFrom c 24 ∗ credFrom c 21
      ∗ (cred (tallyAt (sendCell c 6) () N) ∗ cred (tallyAt (sendCell c 6) () N) ∗ cred (tallyAt (sendCell c 6) () N))
      ∗ (doneTo c 13 ∗ todoFrom c 13)
      ∗ (foreignFrom c 21 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny c 3 0 ∗ accTileAny c 3 1 ∗ accTileAny c 3 2)) := rfl

theorem St_open_35 (I : Dev nD → Ins F) (K : Dev nD × Cell → ℕ) (c : Dev nD) : St I K (σ 35) c
    = iprop(records (RdI I) K ∗ levAts Proto.L Proto.lv ∗ (∃ W, owes (c : Thread nD τ) (owedFrom c 24) W) ∗ toksFrom c 24 ∗ credFrom c 21
      ∗ (cred (tallyAt (sendCell c 6) () N) ∗ cred (tallyAt (sendCell c 6) () N) ∗ cred (tallyAt (sendCell c 6) () N))
      ∗ (doneTo c 13 ∗ todoFrom c 13)
      ∗ (foreignFrom c 21 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ accTileAny c 3 0 ∗ accTileAny c 3 1 ∗ accTileAny c 3 2)) := rfl

theorem St_open_36 (I : Dev nD → Ins F) (K : Dev nD × Cell → ℕ) (c : Dev nD) : St I K (σ 36) c
    = iprop(records (RdI I) K ∗ levAts Proto.L Proto.lv ∗ (∃ W, owes (c : Thread nD τ) (owedFrom c 25) W) ∗ toksFrom c 25 ∗ credFrom c 21
      ∗ (cred (tallyAt (sendCell c 6) () N) ∗ cred (tallyAt (sendCell c 6) () N) ∗ cred (tallyAt (sendCell c 6) () N) ∗ cred (tallyAt (sendCell c 9) () N))
      ∗ (doneTo c 13 ∗ todoFrom c 13)
      ∗ (foreignFrom c 22 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ accTile c 3 1 (A I 0 c 3 1 0) ∗ accTile c 3 2 (A I 0 c 3 2 0))) := rfl

theorem St_open_37 (I : Dev nD → Ins F) (K : Dev nD × Cell → ℕ) (c : Dev nD) : St I K (σ 37) c
    = iprop(records (RdI I) K ∗ levAts Proto.L Proto.lv ∗ (∃ W, owes (c : Thread nD τ) (owedFrom c 27) W) ∗ toksFrom c 27 ∗ credFrom c 21
      ∗ (cred (tallyAt (sendCell c 6) () N) ∗ cred (tallyAt (sendCell c 6) () N) ∗ cred (tallyAt (sendCell c 6) () N) ∗ cred (tallyAt (sendCell c 9) () N) ∗ cred (tallyAt (sendCell c 9) () N) ∗ cred (tallyAt (sendCell c 9) () N))
      ∗ (doneTo c 13 ∗ todoFrom c 13)
      ∗ (foreignFrom c 24 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_38 (I : Dev nD → Ins F) (K : Dev nD × Cell → ℕ) (c : Dev nD) : St I K (σ 38) c
    = iprop(records (RdI I) K ∗ levAts Proto.L Proto.lv ∗ (∃ W, owes (c : Thread nD τ) (owedFrom c 27) W) ∗ toksFrom c 27 ∗ credFrom c 22
      ∗ (cred (tallyAt (sendCell c 6) () N) ∗ cred (tallyAt (sendCell c 9) () N) ∗ cred (tallyAt (sendCell c 9) () N) ∗ cred (tallyAt (sendCell c 9) () N))
      ∗ (doneTo c 13 ∗ curCell (sendCell c 6) (fun p => (RdI I).payload (sendCell c 6) 0 p) 2 ∗ emp ∗ curCell (recvCell c 6) (fun p => (RdI I).payload (recvCell c 6) 0 p) 1 ∗ todoFrom c 15)
      ∗ (foreignFrom c 24 ∗ rsBack I c 6)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_39 (I : Dev nD → Ins F) (K : Dev nD × Cell → ℕ) (c : Dev nD) : St I K (σ 39) c
    = iprop(records (RdI I) K ∗ levAts Proto.L Proto.lv ∗ (∃ W, owes (c : Thread nD τ) (owedFrom c 27) W) ∗ toksFrom c 27 ∗ credFrom c 24
      ∗ (cred (tallyAt (sendCell c 9) () N) ∗ cred (tallyAt (sendCell c 9) () N) ∗ cred (tallyAt (sendCell c 9) () N))
      ∗ (doneTo c 15 ∗ todoFrom c 15)
      ∗ (foreignFrom c 24 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 0) ∗ accTile c 2 1 (A I 0 c 2 1 0) ∗ accTile c 2 2 (A I 0 c 2 2 0) ∗ emp ∗ emp ∗ emp)) := rfl

theorem St_open_40 (I : Dev nD → Ins F) (K : Dev nD × Cell → ℕ) (c : Dev nD) : St I K (σ 40) c
    = iprop(records (RdI I) K ∗ levAts Proto.L Proto.lv ∗ (∃ W, owes (c : Thread nD τ) (owedFrom c 27) W) ∗ toksFrom c 27 ∗ credFrom c 24
      ∗ (cred (tallyAt (sendCell c 9) () N) ∗ cred (tallyAt (sendCell c 9) () N) ∗ cred (tallyAt (sendCell c 9) () N))
      ∗ (doneTo c 15 ∗ todoFrom c 15)
      ∗ (foreignFrom c 24 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ accTile c 2 0 (A I 0 c 2 0 1) ∗ accTile c 2 1 (A I 0 c 2 1 1) ∗ accTile c 2 2 (A I 0 c 2 2 1) ∗ emp ∗ emp ∗ emp)) := rfl

theorem St_open_41 (I : Dev nD → Ins F) (K : Dev nD × Cell → ℕ) (c : Dev nD) : St I K (σ 41) c
    = iprop(records (RdI I) K ∗ levAts Proto.L Proto.lv ∗ (∃ W, owes (c : Thread nD τ) (owedFrom c 29) W) ∗ toksFrom c 29 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N))
      ∗ (doneTo c 15 ∗ todoFrom c 15)
      ∗ (foreignFrom c 26 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ accTile c 2 2 (A I 0 c 2 2 1) ∗ emp ∗ emp ∗ emp)) := rfl

theorem St_open_42 (I : Dev nD → Ins F) (K : Dev nD × Cell → ℕ) (c : Dev nD) : St I K (σ 42) c
    = iprop(records (RdI I) K ∗ levAts Proto.L Proto.lv ∗ (∃ W, owes (c : Thread nD τ) (owedFrom c 30) W) ∗ toksFrom c 30 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N))
      ∗ (doneTo c 15 ∗ todoFrom c 15)
      ∗ (foreignFrom c 27 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_43 (I : Dev nD → Ins F) (K : Dev nD × Cell → ℕ) (c : Dev nD) : St I K (σ 43) c
    = iprop(records (RdI I) K ∗ levAts Proto.L Proto.lv ∗ (∃ W, owes (c : Thread nD τ) (owedFrom c 30) W) ∗ toksFrom c 30 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N))
      ∗ (doneTo c 15 ∗ todoFrom c 15)
      ∗ (foreignFrom c 27 ∗ rsBack I c 7)
      ∗ (accTile c 0 0 (A I 0 c 0 0 2) ∗ accTile c 0 1 (A I 0 c 0 1 2) ∗ accTile c 0 2 (A I 0 c 0 2 2) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_44 (I : Dev nD → Ins F) (K : Dev nD × Cell → ℕ) (c : Dev nD) : St I K (σ 44) c
    = iprop(records (RdI I) K ∗ levAts Proto.L Proto.lv ∗ (∃ W, owes (c : Thread nD τ) (owedFrom c 31) W) ∗ toksFrom c 31 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N) ∗ cred (tallyAt (sendCell c 12) () N))
      ∗ (doneTo c 15 ∗ todoFrom c 15)
      ∗ (foreignFrom c 28 ∗ rsBack I c 7)
      ∗ (emp ∗ accTile c 0 1 (A I 1 c 0 1 0) ∗ accTile c 0 2 (A I 1 c 0 2 0) ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_45 (I : Dev nD → Ins F) (K : Dev nD × Cell → ℕ) (c : Dev nD) : St I K (σ 45) c
    = iprop(records (RdI I) K ∗ levAts Proto.L Proto.lv ∗ (∃ W, owes (c : Thread nD τ) (owedFrom c 33) W) ∗ toksFrom c 33 ∗ credFrom c 24
      ∗ (cred (tallyAt (sendCell c 9) () N) ∗ cred (tallyAt (sendCell c 9) () N) ∗ cred (tallyAt (sendCell c 9) () N) ∗ cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 15 ∗ todoFrom c 15)
      ∗ (foreignFrom c 30 ∗ rsBack I c 7)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_46 (I : Dev nD → Ins F) (K : Dev nD × Cell → ℕ) (c : Dev nD) : St I K (σ 46) c
    = iprop(records (RdI I) K ∗ levAts Proto.L Proto.lv ∗ (∃ W, owes (c : Thread nD τ) (owedFrom c 33) W) ∗ toksFrom c 33 ∗ credFrom c 25
      ∗ (cred (tallyAt (sendCell c 9) () N) ∗ cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 15 ∗ curCell (sendCell c 9) (fun p => (RdI I).payload (sendCell c 9) 0 p) 2 ∗ emp ∗ curCell (recvCell c 9) (fun p => (RdI I).payload (recvCell c 9) 0 p) 1 ∗ todoFrom c 17)
      ∗ (foreignFrom c 30 ∗ rsBack I c 7)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_47 (I : Dev nD → Ins F) (K : Dev nD × Cell → ℕ) (c : Dev nD) : St I K (σ 47) c
    = iprop(records (RdI I) K ∗ levAts Proto.L Proto.lv ∗ (∃ W, owes (c : Thread nD τ) (owedFrom c 33) W) ∗ toksFrom c 33 ∗ credFrom c 27
      ∗ (cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 17 ∗ todoFrom c 17)
      ∗ (foreignFrom c 30 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 0) ∗ accTile c 3 1 (A I 0 c 3 1 0) ∗ accTile c 3 2 (A I 0 c 3 2 0))) := rfl

theorem St_open_48 (I : Dev nD → Ins F) (K : Dev nD × Cell → ℕ) (c : Dev nD) : St I K (σ 48) c
    = iprop(records (RdI I) K ∗ levAts Proto.L Proto.lv ∗ (∃ W, owes (c : Thread nD τ) (owedFrom c 33) W) ∗ toksFrom c 33 ∗ credFrom c 27
      ∗ (cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N))
      ∗ (doneTo c 17 ∗ todoFrom c 17)
      ∗ (foreignFrom c 30 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ accTile c 3 0 (A I 0 c 3 0 1) ∗ accTile c 3 1 (A I 0 c 3 1 1) ∗ accTile c 3 2 (A I 0 c 3 2 1))) := rfl

theorem St_open_49 (I : Dev nD → Ins F) (K : Dev nD × Cell → ℕ) (c : Dev nD) : St I K (σ 49) c
    = iprop(records (RdI I) K ∗ levAts Proto.L Proto.lv ∗ (∃ W, owes (c : Thread nD τ) (owedFrom c 35) W) ∗ toksFrom c 35 ∗ credFrom c 27
      ∗ (cred (tallyAt (sendCell c 7) () N) ∗ cred (tallyAt (sendCell c 7) () N) ∗ cred (tallyAt (sendCell c 7) () N) ∗ cred (tallyAt (sendCell c 12) () N) ∗ cred (tallyAt (sendCell c 12) () N) ∗ cred (tallyAt (sendCell c 12) () N) ∗ cred (tallyAt (sendCell c 10) () N) ∗ cred (tallyAt (sendCell c 10) () N))
      ∗ (doneTo c 17 ∗ todoFrom c 17)
      ∗ (foreignFrom c 32 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ accTile c 3 2 (A I 0 c 3 2 1))) := rfl

theorem St_open_50 (I : Dev nD → Ins F) (K : Dev nD × Cell → ℕ) (c : Dev nD) : St I K (σ 50) c
    = iprop(records (RdI I) K ∗ levAts Proto.L Proto.lv ∗ (∃ W, owes (c : Thread nD τ) (owedFrom c 36) W) ∗ toksFrom c 36 ∗ credFrom c 28
      ∗ (cred (tallyAt (sendCell c 7) () N) ∗ cred (tallyAt (sendCell c 7) () N) ∗ cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N))
      ∗ (doneTo c 17 ∗ curCell (sendCell c 7) (fun p => (RdI I).payload (sendCell c 7) 0 p) 1 ∗ emp ∗ curCell (recvCell c 7) (fun p => (RdI I).payload (recvCell c 7) 0 p) 1 ∗ todoFrom c 19)
      ∗ (foreignFrom c 33 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_51 (I : Dev nD → Ins F) (K : Dev nD × Cell → ℕ) (c : Dev nD) : St I K (σ 51) c
    = iprop(records (RdI I) K ∗ levAts Proto.L Proto.lv ∗ (∃ W, owes (c : Thread nD τ) (owedFrom c 36) W) ∗ toksFrom c 36 ∗ credFrom c 29
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N))
      ∗ (doneTo c 17 ∗ curCell (sendCell c 7) (fun p => (RdI I).payload (sendCell c 7) 0 p) 3 ∗ ((RdI I).payload (sendCell c 7) 0 0 ∗ (RdI I).payload (sendCell c 7) 0 1 ∗ (RdI I).payload (sendCell c 7) 0 2) ∗ curCell (recvCell c 7) (fun p => (RdI I).payload (recvCell c 7) 0 p) 2 ∗ todoFrom c 19)
      ∗ (foreignFrom c 33 ∗ rsBack I c 8)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_52 (I : Dev nD → Ins F) (K : Dev nD × Cell → ℕ) (c : Dev nD) : St I K (σ 52) c
    = iprop(records (RdI I) K ∗ levAts Proto.L Proto.lv ∗ (∃ W, owes (c : Thread nD τ) (owedFrom c 36) W) ∗ toksFrom c 36 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N))
      ∗ (doneTo c 19 ∗ todoFrom c 19)
      ∗ (foreignFrom c 33 ∗ rsBack I c 9)
      ∗ (emp ∗ emp ∗ emp ∗ accTile c 1 0 (A I 0 c 1 0 2) ∗ accTile c 1 1 (A I 0 c 1 1 2) ∗ accTile c 1 2 (A I 0 c 1 2 2) ∗ accTile c 2 0 (A I 0 c 2 0 2) ∗ accTile c 2 1 (A I 0 c 2 1 2) ∗ accTile c 2 2 (A I 0 c 2 2 1) ∗ emp ∗ emp ∗ emp)) := rfl

theorem St_open_53 (I : Dev nD → Ins F) (K : Dev nD × Cell → ℕ) (c : Dev nD) : St I K (σ 53) c
    = iprop(records (RdI I) K ∗ levAts Proto.L Proto.lv ∗ (∃ W, owes (c : Thread nD τ) (owedFrom c 37) W) ∗ toksFrom c 37 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N))
      ∗ (doneTo c 19 ∗ todoFrom c 19)
      ∗ (foreignFrom c 34 ∗ rsBack I c 9)
      ∗ (emp ∗ emp ∗ emp ∗ accTile c 1 0 (A I 0 c 1 0 2) ∗ accTile c 1 1 (A I 0 c 1 1 2) ∗ accTile c 1 2 (A I 0 c 1 2 2) ∗ emp ∗ accTile c 2 1 (A I 0 c 2 1 2) ∗ accTile c 2 2 (A I 0 c 2 2 2) ∗ emp ∗ emp ∗ emp)) := rfl

theorem St_open_54 (I : Dev nD → Ins F) (K : Dev nD × Cell → ℕ) (c : Dev nD) : St I K (σ 54) c
    = iprop(records (RdI I) K ∗ levAts Proto.L Proto.lv ∗ (∃ W, owes (c : Thread nD τ) (owedFrom c 39) W) ∗ toksFrom c 39 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N))
      ∗ (doneTo c 19 ∗ todoFrom c 19)
      ∗ (foreignFrom c 36 ∗ rsBack I c 9)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_55 (I : Dev nD → Ins F) (K : Dev nD × Cell → ℕ) (c : Dev nD) : St I K (σ 55) c
    = iprop(records (RdI I) K ∗ levAts Proto.L Proto.lv ∗ (∃ W, owes (c : Thread nD τ) (owedFrom c 39) W) ∗ toksFrom c 39 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N))
      ∗ (doneTo c 19 ∗ todoFrom c 19)
      ∗ (foreignFrom c 36 ∗ rsBack I c 9)
      ∗ (emp ∗ emp ∗ emp ∗ accTile c 1 0 (A I 0 c 1 0 2) ∗ accTile c 1 1 (A I 0 c 1 1 2) ∗ accTile c 1 2 (A I 0 c 1 2 2) ∗ emp ∗ emp ∗ emp ∗ emp ∗ emp ∗ emp)) := rfl

theorem St_open_56 (I : Dev nD → Ins F) (K : Dev nD × Cell → ℕ) (c : Dev nD) : St I K (σ 56) c
    = iprop(records (RdI I) K ∗ levAts Proto.L Proto.lv ∗ (∃ W, owes (c : Thread nD τ) (owedFrom c 39) W) ∗ toksFrom c 39 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N))
      ∗ (doneTo c 19 ∗ todoFrom c 19)
      ∗ (foreignFrom c 36 ∗ rsBack I c 9)
      ∗ (emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp)) := rfl

theorem St_open_57 (I : Dev nD → Ins F) (K : Dev nD × Cell → ℕ) (c : Dev nD) : St I K (σ 57) c
    = iprop(records (RdI I) K ∗ levAts Proto.L Proto.lv ∗ (∃ W, owes (c : Thread nD τ) (owedFrom c 41) W) ∗ toksFrom c 41 ∗ credFrom c 30
      ∗ (cred (tallyAt (sendCell c 12) () N) ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N))
      ∗ (doneTo c 19 ∗ todoFrom c 19)
      ∗ (foreignFrom c 38 ∗ rsBack I c 9)
      ∗ (emp ∗ emp ∗ emp ∗ emp ∗ emp ∗ accTile c 1 2 (A I 1 c 1 2 0) ∗ emp ∗ emp ∗ emp ∗ emp ∗ emp ∗ emp)) := rfl

theorem St_open_58 (I : Dev nD → Ins F) (K : Dev nD × Cell → ℕ) (c : Dev nD) : St I K (σ 58) c
    = iprop(records (RdI I) K ∗ levAts Proto.L Proto.lv ∗ (∃ W, owes (c : Thread nD τ) (owedFrom c 42) W) ∗ toksFrom c 42 ∗ credFrom c 31
      ∗ (cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 19 ∗ curCell (sendCell c 12) (fun p => (RdI I).payload (sendCell c 12) 0 p) 1 ∗ emp ∗ curCell (recvCell c 12) (fun p => (RdI I).payload (recvCell c 12) 0 p) 1 ∗ todoFrom c 21)
      ∗ (foreignFrom c 39 ∗ rsBack I c 9)
      ∗ (emp ∗ emp ∗ emp ∗ emp ∗ emp ∗ emp ∗ emp ∗ emp ∗ emp ∗ emp ∗ emp ∗ emp)) := rfl

theorem St_open_59 (I : Dev nD → Ins F) (K : Dev nD × Cell → ℕ) (c : Dev nD) : St I K (σ 59) c
    = iprop(records (RdI I) K ∗ levAts Proto.L Proto.lv ∗ (∃ W, owes (c : Thread nD τ) (owedFrom c 42) W) ∗ toksFrom c 42 ∗ credFrom c 32
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 19 ∗ curCell (sendCell c 12) (fun p => (RdI I).payload (sendCell c 12) 0 p) 3 ∗ ((RdI I).payload (sendCell c 12) 0 0 ∗ (RdI I).payload (sendCell c 12) 0 1 ∗ (RdI I).payload (sendCell c 12) 0 2) ∗ curCell (recvCell c 12) (fun p => (RdI I).payload (recvCell c 12) 0 p) 2 ∗ todoFrom c 21)
      ∗ (foreignFrom c 39 ∗ rsBack I c 9)
      ∗ (emp ∗ emp ∗ emp ∗ emp ∗ emp ∗ emp ∗ emp ∗ emp ∗ emp ∗ emp ∗ emp ∗ emp)) := rfl

theorem St_open_60 (I : Dev nD → Ins F) (K : Dev nD × Cell → ℕ) (c : Dev nD) : St I K (σ 60) c
    = iprop(records (RdI I) K ∗ levAts Proto.L Proto.lv ∗ (∃ W, owes (c : Thread nD τ) (owedFrom c 42) W) ∗ toksFrom c 42 ∗ credFrom c 33
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 21 ∗ todoFrom c 21)
      ∗ (foreignFrom c 39 ∗ rsBack I c 10)
      ∗ (accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp)) := rfl

theorem St_open_61 (I : Dev nD → Ins F) (K : Dev nD × Cell → ℕ) (c : Dev nD) : St I K (σ 61) c
    = iprop(records (RdI I) K ∗ levAts Proto.L Proto.lv ∗ (∃ W, owes (c : Thread nD τ) (owedFrom c 43) W) ∗ toksFrom c 43 ∗ credFrom c 33
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N))
      ∗ (doneTo c 21 ∗ todoFrom c 21)
      ∗ (foreignFrom c 40 ∗ rsBack I c 10)
      ∗ (emp ∗ accTile c 0 1 (A I 1 c 0 1 1) ∗ accTile c 0 2 (A I 1 c 0 2 1) ∗ emp ∗ emp ∗ emp ∗ emp ∗ emp ∗ emp ∗ emp ∗ emp ∗ emp)) := rfl

theorem St_open_62 (I : Dev nD → Ins F) (K : Dev nD × Cell → ℕ) (c : Dev nD) : St I K (σ 62) c
    = iprop(records (RdI I) K ∗ levAts Proto.L Proto.lv ∗ (∃ W, owes (c : Thread nD τ) (owedFrom c 45) W) ∗ toksFrom c 45 ∗ credFrom c 33
      ∗ (cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 21 ∗ curCell (sendCell c 10) (fun p => (RdI I).payload (sendCell c 10) 0 p) 1 ∗ emp ∗ curCell (recvCell c 10) (fun p => (RdI I).payload (recvCell c 10) 0 p) 0 ∗ todoFrom c 23)
      ∗ (foreignFrom c 42 ∗ rsBack I c 10)
      ∗ (emp ∗ emp ∗ emp ∗ emp ∗ emp ∗ emp ∗ emp ∗ emp ∗ emp ∗ emp ∗ emp ∗ emp)) := rfl

theorem St_open_63 (I : Dev nD → Ins F) (K : Dev nD × Cell → ℕ) (c : Dev nD) : St I K (σ 63) c
    = iprop(records (RdI I) K ∗ levAts Proto.L Proto.lv ∗ (∃ W, owes (c : Thread nD τ) (owedFrom c 45) W) ∗ toksFrom c 45 ∗ credFrom c 35
      ∗ (cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 21 ∗ curCell (sendCell c 10) (fun p => (RdI I).payload (sendCell c 10) 0 p) 2 ∗ emp ∗ curCell (recvCell c 10) (fun p => (RdI I).payload (recvCell c 10) 0 p) 2 ∗ todoFrom c 23)
      ∗ (foreignFrom c 42 ∗ rsBack I c 10)
      ∗ (emp ∗ emp ∗ emp ∗ emp ∗ emp ∗ emp ∗ emp ∗ emp ∗ emp ∗ emp ∗ emp ∗ emp)) := rfl

theorem St_open_64 (I : Dev nD → Ins F) (K : Dev nD × Cell → ℕ) (c : Dev nD) : St I K (σ 64) c
    = iprop(records (RdI I) K ∗ levAts Proto.L Proto.lv ∗ (∃ W, owes (c : Thread nD τ) (owedFrom c 45) W) ∗ toksFrom c 45 ∗ credFrom c 36
      ∗ (cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 23 ∗ todoFrom c 23)
      ∗ (foreignFrom c 42 ∗ rsBack I c 11)
      ∗ (emp ∗ emp ∗ emp ∗ emp ∗ emp ∗ emp ∗ emp ∗ emp ∗ emp ∗ accTile c 3 0 (A I 0 c 3 0 1) ∗ accTile c 3 1 (A I 0 c 3 1 1) ∗ accTile c 3 2 (A I 0 c 3 2 1))) := rfl

theorem St_open_65 (I : Dev nD → Ins F) (K : Dev nD × Cell → ℕ) (c : Dev nD) : St I K (σ 65) c
    = iprop(records (RdI I) K ∗ levAts Proto.L Proto.lv ∗ (∃ W, owes (c : Thread nD τ) (owedFrom c 45) W) ∗ toksFrom c 45 ∗ credFrom c 36
      ∗ (cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N))
      ∗ (doneTo c 23 ∗ todoFrom c 23)
      ∗ (foreignFrom c 42 ∗ rsBack I c 11)
      ∗ (emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2))) := rfl

theorem St_open_66 (I : Dev nD → Ins F) (K : Dev nD × Cell → ℕ) (c : Dev nD) : St I K (σ 66) c
    = iprop(records (RdI I) K ∗ levAts Proto.L Proto.lv ∗ (∃ W, owes (c : Thread nD τ) (owedFrom c 47) W) ∗ toksFrom c 47 ∗ credFrom c 36
      ∗ (cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N))
      ∗ (doneTo c 23 ∗ todoFrom c 23)
      ∗ (foreignFrom c 44 ∗ rsBack I c 11)
      ∗ (emp ∗ emp ∗ emp ∗ emp ∗ emp ∗ emp ∗ emp ∗ emp ∗ emp ∗ emp ∗ emp ∗ accTile c 3 2 (A I 0 c 3 2 2))) := rfl

theorem St_open_67 (I : Dev nD → Ins F) (K : Dev nD × Cell → ℕ) (c : Dev nD) : St I K (σ 67) c
    = iprop(records (RdI I) K ∗ levAts Proto.L Proto.lv ∗ (∃ W, owes (c : Thread nD τ) (owedFrom c 48) W) ∗ toksFrom c 48 ∗ credFrom c 37
      ∗ (cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 23 ∗ curCell (sendCell c 8) (fun p => (RdI I).payload (sendCell c 8) 0 p) 1 ∗ emp ∗ curCell (recvCell c 8) (fun p => (RdI I).payload (recvCell c 8) 0 p) 1 ∗ todoFrom c 25)
      ∗ (foreignFrom c 45 ∗ rsBack I c 11)
      ∗ (emp ∗ emp ∗ emp ∗ emp ∗ emp ∗ emp ∗ emp ∗ emp ∗ emp ∗ emp ∗ emp ∗ emp)) := rfl

theorem St_open_68 (I : Dev nD → Ins F) (K : Dev nD × Cell → ℕ) (c : Dev nD) : St I K (σ 68) c
    = iprop(records (RdI I) K ∗ levAts Proto.L Proto.lv ∗ (∃ W, owes (c : Thread nD τ) (owedFrom c 48) W) ∗ toksFrom c 48 ∗ credFrom c 38
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 23 ∗ curCell (sendCell c 8) (fun p => (RdI I).payload (sendCell c 8) 0 p) 3 ∗ ((RdI I).payload (sendCell c 8) 0 0 ∗ (RdI I).payload (sendCell c 8) 0 1 ∗ (RdI I).payload (sendCell c 8) 0 2) ∗ curCell (recvCell c 8) (fun p => (RdI I).payload (recvCell c 8) 0 p) 2 ∗ todoFrom c 25)
      ∗ (foreignFrom c 45 ∗ rsBack I c 11)
      ∗ (emp ∗ emp ∗ emp ∗ emp ∗ emp ∗ emp ∗ emp ∗ emp ∗ emp ∗ emp ∗ emp ∗ emp)) := rfl

theorem St_open_69 (I : Dev nD → Ins F) (K : Dev nD × Cell → ℕ) (c : Dev nD) : St I K (σ 69) c
    = iprop(records (RdI I) K ∗ levAts Proto.L Proto.lv ∗ (∃ W, owes (c : Thread nD τ) (owedFrom c 48) W) ∗ toksFrom c 48 ∗ credFrom c 39
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 25 ∗ todoFrom c 25)
      ∗ (foreignFrom c 45 ∗ rsBack I c 12)
      ∗ (emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp)) := rfl

theorem St_open_70 (I : Dev nD → Ins F) (K : Dev nD × Cell → ℕ) (c : Dev nD) : St I K (σ 70) c
    = iprop(records (RdI I) K ∗ levAts Proto.L Proto.lv ∗ (∃ W, owes (c : Thread nD τ) (owedFrom c 48) W) ∗ toksFrom c 48 ∗ credFrom c 39
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N))
      ∗ (doneTo c 25 ∗ todoFrom c 25)
      ∗ (foreignFrom c 45 ∗ rsBack I c 12)
      ∗ (emp ∗ emp ∗ emp ∗ emp ∗ emp ∗ emp ∗ accTile c 2 0 (A I 0 c 2 0 2) ∗ accTile c 2 1 (A I 0 c 2 1 2) ∗ accTile c 2 2 (A I 0 c 2 2 2) ∗ emp ∗ emp ∗ emp)) := rfl

theorem St_open_71 (I : Dev nD → Ins F) (K : Dev nD × Cell → ℕ) (c : Dev nD) : St I K (σ 71) c
    = iprop(records (RdI I) K ∗ levAts Proto.L Proto.lv ∗ (∃ W, owes (c : Thread nD τ) (owedFrom c 49) W) ∗ toksFrom c 49 ∗ credFrom c 39
      ∗ (cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N))
      ∗ (doneTo c 25 ∗ todoFrom c 25)
      ∗ (foreignFrom c 46 ∗ rsBack I c 12)
      ∗ (emp ∗ emp ∗ emp ∗ emp ∗ emp ∗ emp ∗ emp ∗ accTile c 2 1 (A I 1 c 2 1 0) ∗ accTile c 2 2 (A I 1 c 2 2 0) ∗ emp ∗ emp ∗ emp)) := rfl

theorem St_open_72 (I : Dev nD → Ins F) (K : Dev nD × Cell → ℕ) (c : Dev nD) : St I K (σ 72) c
    = iprop(records (RdI I) K ∗ levAts Proto.L Proto.lv ∗ (∃ W, owes (c : Thread nD τ) (owedFrom c 51) W) ∗ toksFrom c 51 ∗ credFrom c 39
      ∗ (cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 25 ∗ curCell (sendCell c 15) (fun p => (RdI I).payload (sendCell c 15) 0 p) 1 ∗ emp ∗ curCell (recvCell c 15) (fun p => (RdI I).payload (recvCell c 15) 0 p) 0 ∗ todoFrom c 27)
      ∗ (foreignFrom c 48 ∗ rsBack I c 12)
      ∗ (emp ∗ emp ∗ emp ∗ emp ∗ emp ∗ emp ∗ emp ∗ emp ∗ emp ∗ emp ∗ emp ∗ emp)) := rfl

theorem St_open_73 (I : Dev nD → Ins F) (K : Dev nD × Cell → ℕ) (c : Dev nD) : St I K (σ 73) c
    = iprop(records (RdI I) K ∗ levAts Proto.L Proto.lv ∗ (∃ W, owes (c : Thread nD τ) (owedFrom c 51) W) ∗ toksFrom c 51 ∗ credFrom c 41
      ∗ (cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 25 ∗ curCell (sendCell c 15) (fun p => (RdI I).payload (sendCell c 15) 0 p) 2 ∗ emp ∗ curCell (recvCell c 15) (fun p => (RdI I).payload (recvCell c 15) 0 p) 2 ∗ todoFrom c 27)
      ∗ (foreignFrom c 48 ∗ rsBack I c 12)
      ∗ (emp ∗ emp ∗ emp ∗ emp ∗ emp ∗ emp ∗ emp ∗ emp ∗ emp ∗ emp ∗ emp ∗ emp)) := rfl

theorem St_open_74 (I : Dev nD → Ins F) (K : Dev nD × Cell → ℕ) (c : Dev nD) : St I K (σ 74) c
    = iprop(records (RdI I) K ∗ levAts Proto.L Proto.lv ∗ (∃ W, owes (c : Thread nD τ) (owedFrom c 51) W) ∗ toksFrom c 51 ∗ credFrom c 42
      ∗ (cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 27 ∗ todoFrom c 27)
      ∗ (foreignFrom c 48 ∗ rsBack I c 13)
      ∗ (emp ∗ emp ∗ emp ∗ accTile c 1 0 (A I 1 c 1 0 0) ∗ accTile c 1 1 (A I 1 c 1 1 0) ∗ accTile c 1 2 (A I 1 c 1 2 0) ∗ emp ∗ emp ∗ emp ∗ emp ∗ emp ∗ emp)) := rfl

theorem St_open_75 (I : Dev nD → Ins F) (K : Dev nD × Cell → ℕ) (c : Dev nD) : St I K (σ 75) c
    = iprop(records (RdI I) K ∗ levAts Proto.L Proto.lv ∗ (∃ W, owes (c : Thread nD τ) (owedFrom c 51) W) ∗ toksFrom c 51 ∗ credFrom c 42
      ∗ (cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N))
      ∗ (doneTo c 27 ∗ todoFrom c 27)
      ∗ (foreignFrom c 48 ∗ rsBack I c 13)
      ∗ (emp ∗ emp ∗ emp ∗ accTile c 1 0 (A I 1 c 1 0 1) ∗ accTile c 1 1 (A I 1 c 1 1 1) ∗ accTile c 1 2 (A I 1 c 1 2 1) ∗ emp ∗ emp ∗ emp ∗ emp ∗ emp ∗ emp)) := rfl

theorem St_open_76 (I : Dev nD → Ins F) (K : Dev nD × Cell → ℕ) (c : Dev nD) : St I K (σ 76) c
    = iprop(records (RdI I) K ∗ levAts Proto.L Proto.lv ∗ (∃ W, owes (c : Thread nD τ) (owedFrom c 53) W) ∗ toksFrom c 53 ∗ credFrom c 42
      ∗ (cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N))
      ∗ (doneTo c 27 ∗ todoFrom c 27)
      ∗ (foreignFrom c 50 ∗ rsBack I c 13)
      ∗ (emp ∗ emp ∗ emp ∗ emp ∗ emp ∗ accTile c 1 2 (A I 1 c 1 2 1) ∗ emp ∗ emp ∗ emp ∗ emp ∗ emp ∗ emp)) := rfl

theorem St_open_77 (I : Dev nD → Ins F) (K : Dev nD × Cell → ℕ) (c : Dev nD) : St I K (σ 77) c
    = iprop(records (RdI I) K ∗ levAts Proto.L Proto.lv ∗ (∃ W, owes (c : Thread nD τ) (owedFrom c 54) W) ∗ toksFrom c 54 ∗ credFrom c 43
      ∗ (cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N))
      ∗ (doneTo c 27 ∗ curCell (sendCell c 13) (fun p => (RdI I).payload (sendCell c 13) 0 p) 1 ∗ emp ∗ curCell (recvCell c 13) (fun p => (RdI I).payload (recvCell c 13) 0 p) 1 ∗ todoFrom c 29)
      ∗ (foreignFrom c 51 ∗ rsBack I c 13)
      ∗ (emp ∗ emp ∗ emp ∗ emp ∗ emp ∗ emp ∗ emp ∗ emp ∗ emp ∗ emp ∗ emp ∗ emp)) := rfl

theorem St_open_78 (I : Dev nD → Ins F) (K : Dev nD × Cell → ℕ) (c : Dev nD) : St I K (σ 78) c
    = iprop(records (RdI I) K ∗ levAts Proto.L Proto.lv ∗ (∃ W, owes (c : Thread nD τ) (owedFrom c 54) W) ∗ toksFrom c 54 ∗ credFrom c 44
      ∗ (cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N))
      ∗ (doneTo c 27 ∗ curCell (sendCell c 13) (fun p => (RdI I).payload (sendCell c 13) 0 p) 3 ∗ ((RdI I).payload (sendCell c 13) 0 0 ∗ (RdI I).payload (sendCell c 13) 0 1 ∗ (RdI I).payload (sendCell c 13) 0 2) ∗ curCell (recvCell c 13) (fun p => (RdI I).payload (recvCell c 13) 0 p) 2 ∗ todoFrom c 29)
      ∗ (foreignFrom c 51 ∗ rsBack I c 13)
      ∗ (emp ∗ emp ∗ emp ∗ emp ∗ emp ∗ emp ∗ emp ∗ emp ∗ emp ∗ emp ∗ emp ∗ emp)) := rfl

theorem St_open_79 (I : Dev nD → Ins F) (K : Dev nD × Cell → ℕ) (c : Dev nD) : St I K (σ 79) c
    = iprop(records (RdI I) K ∗ levAts Proto.L Proto.lv ∗ (∃ W, owes (c : Thread nD τ) (owedFrom c 54) W) ∗ toksFrom c 54 ∗ credFrom c 45
      ∗ (cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N))
      ∗ (doneTo c 29 ∗ todoFrom c 29)
      ∗ (foreignFrom c 51 ∗ rsBack I c 14)
      ∗ (accTile c 0 0 (A I 1 c 0 0 2) ∗ accTile c 0 1 (A I 1 c 0 1 2) ∗ accTile c 0 2 (A I 1 c 0 2 1) ∗ emp ∗ emp ∗ emp ∗ emp ∗ emp ∗ emp ∗ emp ∗ emp ∗ emp)) := rfl

theorem St_open_80 (I : Dev nD → Ins F) (K : Dev nD × Cell → ℕ) (c : Dev nD) : St I K (σ 80) c
    = iprop(records (RdI I) K ∗ levAts Proto.L Proto.lv ∗ (∃ W, owes (c : Thread nD τ) (owedFrom c 55) W) ∗ toksFrom c 55 ∗ credFrom c 45
      ∗ (cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N))
      ∗ (doneTo c 29 ∗ todoFrom c 29)
      ∗ (foreignFrom c 52 ∗ rsBack I c 14)
      ∗ (emp ∗ accTile c 0 1 (A I 1 c 0 1 2) ∗ accTile c 0 2 (A I 1 c 0 2 2) ∗ emp ∗ emp ∗ emp ∗ emp ∗ emp ∗ emp ∗ emp ∗ emp ∗ emp)) := rfl

theorem St_open_81 (I : Dev nD → Ins F) (K : Dev nD × Cell → ℕ) (c : Dev nD) : St I K (σ 81) c
    = iprop(records (RdI I) K ∗ levAts Proto.L Proto.lv ∗ (∃ W, owes (c : Thread nD τ) (owedFrom c 57) W) ∗ toksFrom c 57 ∗ credFrom c 45
      ∗ (cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 29 ∗ curCell (sendCell c 11) (fun p => (RdI I).payload (sendCell c 11) 0 p) 1 ∗ emp ∗ curCell (recvCell c 11) (fun p => (RdI I).payload (recvCell c 11) 0 p) 0 ∗ todoFrom c 31)
      ∗ (foreignFrom c 54 ∗ rsBack I c 14)
      ∗ (emp ∗ emp ∗ emp ∗ emp ∗ emp ∗ emp ∗ emp ∗ emp ∗ emp ∗ emp ∗ emp ∗ emp)) := rfl

theorem St_open_82 (I : Dev nD → Ins F) (K : Dev nD × Cell → ℕ) (c : Dev nD) : St I K (σ 82) c
    = iprop(records (RdI I) K ∗ levAts Proto.L Proto.lv ∗ (∃ W, owes (c : Thread nD τ) (owedFrom c 57) W) ∗ toksFrom c 57 ∗ credFrom c 47
      ∗ (cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 29 ∗ curCell (sendCell c 11) (fun p => (RdI I).payload (sendCell c 11) 0 p) 2 ∗ emp ∗ curCell (recvCell c 11) (fun p => (RdI I).payload (recvCell c 11) 0 p) 2 ∗ todoFrom c 31)
      ∗ (foreignFrom c 54 ∗ rsBack I c 14)
      ∗ (emp ∗ emp ∗ emp ∗ emp ∗ emp ∗ emp ∗ emp ∗ emp ∗ emp ∗ emp ∗ emp ∗ emp)) := rfl

theorem St_open_83 (I : Dev nD → Ins F) (K : Dev nD × Cell → ℕ) (c : Dev nD) : St I K (σ 83) c
    = iprop(records (RdI I) K ∗ levAts Proto.L Proto.lv ∗ (∃ W, owes (c : Thread nD τ) (owedFrom c 57) W) ∗ toksFrom c 57 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 31 ∗ todoFrom c 31)
      ∗ (foreignFrom c 54 ∗ rsBack I c 15)
      ∗ (emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2))) := rfl

theorem St_open_84 (I : Dev nD → Ins F) (K : Dev nD × Cell → ℕ) (c : Dev nD) : St I K (σ 84) c
    = iprop(records (RdI I) K ∗ levAts Proto.L Proto.lv ∗ (∃ W, owes (c : Thread nD τ) (owedFrom c 57) W) ∗ toksFrom c 57 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 31 ∗ todoFrom c 31)
      ∗ (foreignFrom c 54 ∗ rsBack I c 15)
      ∗ (emp ∗ emp ∗ emp ∗ emp ∗ emp ∗ emp ∗ emp ∗ emp ∗ emp ∗ accTile c 3 0 (A I 0 c 3 0 2) ∗ accTile c 3 1 (A I 0 c 3 1 2) ∗ accTile c 3 2 (A I 0 c 3 2 2))) := rfl

theorem St_open_85 (I : Dev nD → Ins F) (K : Dev nD × Cell → ℕ) (c : Dev nD) : St I K (σ 85) c
    = iprop(records (RdI I) K ∗ levAts Proto.L Proto.lv ∗ (∃ W, owes (c : Thread nD τ) (owedFrom c 57) W) ∗ toksFrom c 57 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N))
      ∗ (doneTo c 31 ∗ todoFrom c 31)
      ∗ (foreignFrom c 54 ∗ rsBack I c 15)
      ∗ (emp ∗ emp ∗ emp ∗ emp ∗ emp ∗ emp ∗ emp ∗ emp ∗ emp ∗ accTile c 3 0 (A I 1 c 3 0 0) ∗ accTile c 3 1 (A I 1 c 3 1 0) ∗ accTile c 3 2 (A I 1 c 3 2 0))) := rfl

theorem St_open_86 (I : Dev nD → Ins F) (K : Dev nD × Cell → ℕ) (c : Dev nD) : St I K (σ 86) c
    = iprop(records (RdI I) K ∗ levAts Proto.L Proto.lv ∗ (∃ W, owes (c : Thread nD τ) (owedFrom c 59) W) ∗ toksFrom c 59 ∗ credFrom c 48
      ∗ (cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N))
      ∗ (doneTo c 31 ∗ todoFrom c 31)
      ∗ (foreignFrom c 56 ∗ rsBack I c 15)
      ∗ (emp ∗ emp ∗ emp ∗ emp ∗ emp ∗ emp ∗ emp ∗ emp ∗ emp ∗ emp ∗ emp ∗ accTile c 3 2 (A I 1 c 3 2 0))) := rfl

theorem St_open_87 (I : Dev nD → Ins F) (K : Dev nD × Cell → ℕ) (c : Dev nD) : St I K (σ 87) c
    = iprop(records (RdI I) K ∗ levAts Proto.L Proto.lv ∗ (∃ W, owes (c : Thread nD τ) (owedFrom c 60) W) ∗ toksFrom c 60 ∗ credFrom c 49
      ∗ (cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N))
      ∗ (doneTo c 31 ∗ curCell (sendCell c 18) (fun p => (RdI I).payload (sendCell c 18) 0 p) 1 ∗ emp ∗ curCell (recvCell c 18) (fun p => (RdI I).payload (recvCell c 18) 0 p) 1 ∗ todoFrom c 33)
      ∗ (foreignFrom c 57 ∗ rsBack I c 15)
      ∗ (emp ∗ emp ∗ emp ∗ emp ∗ emp ∗ emp ∗ emp ∗ emp ∗ emp ∗ emp ∗ emp ∗ emp)) := rfl

theorem St_open_88 (I : Dev nD → Ins F) (K : Dev nD × Cell → ℕ) (c : Dev nD) : St I K (σ 88) c
    = iprop(records (RdI I) K ∗ levAts Proto.L Proto.lv ∗ (∃ W, owes (c : Thread nD τ) (owedFrom c 60) W) ∗ toksFrom c 60 ∗ credFrom c 50
      ∗ (cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N))
      ∗ (doneTo c 31 ∗ curCell (sendCell c 18) (fun p => (RdI I).payload (sendCell c 18) 0 p) 3 ∗ ((RdI I).payload (sendCell c 18) 0 0 ∗ (RdI I).payload (sendCell c 18) 0 1 ∗ (RdI I).payload (sendCell c 18) 0 2) ∗ curCell (recvCell c 18) (fun p => (RdI I).payload (recvCell c 18) 0 p) 2 ∗ todoFrom c 33)
      ∗ (foreignFrom c 57 ∗ rsBack I c 15)
      ∗ (emp ∗ emp ∗ emp ∗ emp ∗ emp ∗ emp ∗ emp ∗ emp ∗ emp ∗ emp ∗ emp ∗ emp)) := rfl

theorem St_open_89 (I : Dev nD → Ins F) (K : Dev nD × Cell → ℕ) (c : Dev nD) : St I K (σ 89) c
    = iprop(records (RdI I) K ∗ levAts Proto.L Proto.lv ∗ (∃ W, owes (c : Thread nD τ) (owedFrom c 60) W) ∗ toksFrom c 60 ∗ credFrom c 51
      ∗ (cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N))
      ∗ (doneTo c 33 ∗ todoFrom c 33)
      ∗ (foreignFrom c 57 ∗ rsBack I c 16)
      ∗ (emp ∗ emp ∗ emp ∗ emp ∗ emp ∗ emp ∗ accTile c 2 0 (A I 1 c 2 0 1) ∗ accTile c 2 1 (A I 1 c 2 1 1) ∗ accTile c 2 2 (A I 1 c 2 2 0) ∗ emp ∗ emp ∗ emp)) := rfl

theorem St_open_90 (I : Dev nD → Ins F) (K : Dev nD × Cell → ℕ) (c : Dev nD) : St I K (σ 90) c
    = iprop(records (RdI I) K ∗ levAts Proto.L Proto.lv ∗ (∃ W, owes (c : Thread nD τ) (owedFrom c 61) W) ∗ toksFrom c 61 ∗ credFrom c 51
      ∗ (cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N))
      ∗ (doneTo c 33 ∗ todoFrom c 33)
      ∗ (foreignFrom c 58 ∗ rsBack I c 16)
      ∗ (emp ∗ emp ∗ emp ∗ emp ∗ emp ∗ emp ∗ emp ∗ accTile c 2 1 (A I 1 c 2 1 1) ∗ accTile c 2 2 (A I 1 c 2 2 1) ∗ emp ∗ emp ∗ emp)) := rfl

theorem St_open_91 (I : Dev nD → Ins F) (K : Dev nD × Cell → ℕ) (c : Dev nD) : St I K (σ 91) c
    = iprop(records (RdI I) K ∗ levAts Proto.L Proto.lv ∗ (∃ W, owes (c : Thread nD τ) (owedFrom c 63) W) ∗ toksFrom c 63 ∗ credFrom c 51
      ∗ (cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 33 ∗ curCell (sendCell c 16) (fun p => (RdI I).payload (sendCell c 16) 0 p) 1 ∗ emp ∗ curCell (recvCell c 16) (fun p => (RdI I).payload (recvCell c 16) 0 p) 0 ∗ todoFrom c 35)
      ∗ (foreignFrom c 60 ∗ rsBack I c 16)
      ∗ (emp ∗ emp ∗ emp ∗ emp ∗ emp ∗ emp ∗ emp ∗ emp ∗ emp ∗ emp ∗ emp ∗ emp)) := rfl

theorem St_open_92 (I : Dev nD → Ins F) (K : Dev nD × Cell → ℕ) (c : Dev nD) : St I K (σ 92) c
    = iprop(records (RdI I) K ∗ levAts Proto.L Proto.lv ∗ (∃ W, owes (c : Thread nD τ) (owedFrom c 63) W) ∗ toksFrom c 63 ∗ credFrom c 53
      ∗ (cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 33 ∗ curCell (sendCell c 16) (fun p => (RdI I).payload (sendCell c 16) 0 p) 2 ∗ emp ∗ curCell (recvCell c 16) (fun p => (RdI I).payload (recvCell c 16) 0 p) 2 ∗ todoFrom c 35)
      ∗ (foreignFrom c 60 ∗ rsBack I c 16)
      ∗ (emp ∗ emp ∗ emp ∗ emp ∗ emp ∗ emp ∗ emp ∗ emp ∗ emp ∗ emp ∗ emp ∗ emp)) := rfl

theorem St_open_93 (I : Dev nD → Ins F) (K : Dev nD × Cell → ℕ) (c : Dev nD) : St I K (σ 93) c
    = iprop(records (RdI I) K ∗ levAts Proto.L Proto.lv ∗ (∃ W, owes (c : Thread nD τ) (owedFrom c 63) W) ∗ toksFrom c 63 ∗ credFrom c 54
      ∗ (cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 35 ∗ todoFrom c 35)
      ∗ (foreignFrom c 60 ∗ rsBack I c 17)
      ∗ (emp ∗ emp ∗ emp ∗ accTile c 1 0 (A I 1 c 1 0 2) ∗ accTile c 1 1 (A I 1 c 1 1 1) ∗ accTile c 1 2 (A I 1 c 1 2 1) ∗ emp ∗ emp ∗ emp ∗ emp ∗ emp ∗ emp)) := rfl

theorem St_open_94 (I : Dev nD → Ins F) (K : Dev nD × Cell → ℕ) (c : Dev nD) : St I K (σ 94) c
    = iprop(records (RdI I) K ∗ levAts Proto.L Proto.lv ∗ (∃ W, owes (c : Thread nD τ) (owedFrom c 63) W) ∗ toksFrom c 63 ∗ credFrom c 54
      ∗ (cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N))
      ∗ (doneTo c 35 ∗ todoFrom c 35)
      ∗ (foreignFrom c 60 ∗ rsBack I c 17)
      ∗ (emp ∗ emp ∗ emp ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_95 (I : Dev nD → Ins F) (K : Dev nD × Cell → ℕ) (c : Dev nD) : St I K (σ 95) c
    = iprop(records (RdI I) K ∗ levAts Proto.L Proto.lv ∗ (∃ W, owes (c : Thread nD τ) (owedFrom c 66) W) ∗ toksFrom c 66 ∗ credFrom c 54
      ∗ (cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 35 ∗ todoFrom c 35)
      ∗ (foreignFrom c 63 ∗ rsBack I c 17)
      ∗ (emp ∗ emp ∗ emp ∗ emp ∗ emp ∗ emp ∗ emp ∗ emp ∗ emp ∗ emp ∗ emp ∗ emp)) := rfl

theorem St_open_96 (I : Dev nD → Ins F) (K : Dev nD × Cell → ℕ) (c : Dev nD) : St I K (σ 96) c
    = iprop(records (RdI I) K ∗ levAts Proto.L Proto.lv ∗ (∃ W, owes (c : Thread nD τ) (owedFrom c 66) W) ∗ toksFrom c 66 ∗ credFrom c 55
      ∗ (cred (tallyAt (sendCell c 14) () N) ∗ cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 35 ∗ curCell (sendCell c 14) (fun p => (RdI I).payload (sendCell c 14) 0 p) 2 ∗ emp ∗ curCell (recvCell c 14) (fun p => (RdI I).payload (recvCell c 14) 0 p) 1 ∗ todoFrom c 37)
      ∗ (foreignFrom c 63 ∗ rsBack I c 17)
      ∗ (emp ∗ emp ∗ emp ∗ emp ∗ emp ∗ emp ∗ emp ∗ emp ∗ emp ∗ emp ∗ emp ∗ emp)) := rfl

theorem St_open_97 (I : Dev nD → Ins F) (K : Dev nD × Cell → ℕ) (c : Dev nD) : St I K (σ 97) c
    = iprop(records (RdI I) K ∗ levAts Proto.L Proto.lv ∗ (∃ W, owes (c : Thread nD τ) (owedFrom c 66) W) ∗ toksFrom c 66 ∗ credFrom c 56
      ∗ (cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 35 ∗ curCell (sendCell c 14) (fun p => (RdI I).payload (sendCell c 14) 0 p) 3 ∗ ((RdI I).payload (sendCell c 14) 0 0 ∗ (RdI I).payload (sendCell c 14) 0 1 ∗ (RdI I).payload (sendCell c 14) 0 2) ∗ curCell (recvCell c 14) (fun p => (RdI I).payload (recvCell c 14) 0 p) 2 ∗ todoFrom c 37)
      ∗ (foreignFrom c 63 ∗ rsBack I c 17)
      ∗ (emp ∗ emp ∗ emp ∗ emp ∗ emp ∗ emp ∗ emp ∗ emp ∗ emp ∗ emp ∗ emp ∗ emp)) := rfl

theorem St_open_98 (I : Dev nD → Ins F) (K : Dev nD × Cell → ℕ) (c : Dev nD) : St I K (σ 98) c
    = iprop(records (RdI I) K ∗ levAts Proto.L Proto.lv ∗ (∃ W, owes (c : Thread nD τ) (owedFrom c 66) W) ∗ toksFrom c 66 ∗ credFrom c 57
      ∗ (cred (tallyAt (sendCell c 21) () N) ∗ cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 37 ∗ todoFrom c 37)
      ∗ (foreignFrom c 63 ∗ rsBack I c 18)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_99 (I : Dev nD → Ins F) (K : Dev nD × Cell → ℕ) (c : Dev nD) : St I K (σ 99) c
    = iprop(records (RdI I) K ∗ levAts Proto.L Proto.lv ∗ (∃ W, owes (c : Thread nD τ) (owedFrom c 66) W) ∗ toksFrom c 66 ∗ credFrom c 58
      ∗ (cred (tallyAt (sendCell c 21) () N) ∗ cred (tallyAt (sendCell c 21) () N) ∗ cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 37 ∗ curCell (sendCell c 21) (fun p => (RdI I).payload (sendCell c 21) 0 p) 1 ∗ emp ∗ curCell (recvCell c 21) (fun p => (RdI I).payload (recvCell c 21) 0 p) 1 ∗ todoFrom c 39)
      ∗ (foreignFrom c 63 ∗ rsBack I c 18)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_100 (I : Dev nD → Ins F) (K : Dev nD × Cell → ℕ) (c : Dev nD) : St I K (σ 100) c
    = iprop(records (RdI I) K ∗ levAts Proto.L Proto.lv ∗ (∃ W, owes (c : Thread nD τ) (owedFrom c 66) W) ∗ toksFrom c 66 ∗ credFrom c 59
      ∗ (cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 37 ∗ curCell (sendCell c 21) (fun p => (RdI I).payload (sendCell c 21) 0 p) 3 ∗ ((RdI I).payload (sendCell c 21) 0 0 ∗ (RdI I).payload (sendCell c 21) 0 1 ∗ (RdI I).payload (sendCell c 21) 0 2) ∗ curCell (recvCell c 21) (fun p => (RdI I).payload (recvCell c 21) 0 p) 2 ∗ todoFrom c 39)
      ∗ (foreignFrom c 63 ∗ rsBack I c 18)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_101 (I : Dev nD → Ins F) (K : Dev nD × Cell → ℕ) (c : Dev nD) : St I K (σ 101) c
    = iprop(records (RdI I) K ∗ levAts Proto.L Proto.lv ∗ (∃ W, owes (c : Thread nD τ) (owedFrom c 66) W) ∗ toksFrom c 66 ∗ credFrom c 60
      ∗ (cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N))
      ∗ (doneTo c 39 ∗ todoFrom c 39)
      ∗ (foreignFrom c 63 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ accTile c 3 0 (A I 1 c 3 0 1) ∗ accTile c 3 1 (A I 1 c 3 1 1) ∗ accTile c 3 2 (A I 1 c 3 2 0))) := rfl

theorem St_open_102 (I : Dev nD → Ins F) (K : Dev nD × Cell → ℕ) (c : Dev nD) : St I K (σ 102) c
    = iprop(records (RdI I) K ∗ levAts Proto.L Proto.lv ∗ (∃ W, owes (c : Thread nD τ) (owedFrom c 67) W) ∗ toksFrom c 67 ∗ credFrom c 60
      ∗ (cred (tallyAt (sendCell c 19) () N) ∗ cred (tallyAt (sendCell c 19) () N) ∗ cred (tallyAt (sendCell c 19) () N) ∗ cred (tallyAt (sendCell c 17) () N) ∗ cred (tallyAt (sendCell c 17) () N) ∗ cred (tallyAt (sendCell c 17) () N) ∗ cred (tallyAt (sendCell c 22) () N))
      ∗ (doneTo c 39 ∗ todoFrom c 39)
      ∗ (foreignFrom c 64 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ accTile c 3 1 (A I 1 c 3 1 1) ∗ accTile c 3 2 (A I 1 c 3 2 1))) := rfl

theorem St_open_103 (I : Dev nD → Ins F) (K : Dev nD × Cell → ℕ) (c : Dev nD) : St I K (σ 103) c
    = iprop(records (RdI I) K ∗ levAts Proto.L Proto.lv ∗ (∃ W, owes (c : Thread nD τ) (owedFrom c 69) W) ∗ toksFrom c 69 ∗ credFrom c 60
      ∗ (cred (tallyAt (sendCell c 19) () N) ∗ cred (tallyAt (sendCell c 19) () N) ∗ cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 39 ∗ curCell (sendCell c 19) (fun p => (RdI I).payload (sendCell c 19) 0 p) 1 ∗ emp ∗ curCell (recvCell c 19) (fun p => (RdI I).payload (recvCell c 19) 0 p) 0 ∗ todoFrom c 41)
      ∗ (foreignFrom c 66 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_104 (I : Dev nD → Ins F) (K : Dev nD × Cell → ℕ) (c : Dev nD) : St I K (σ 104) c
    = iprop(records (RdI I) K ∗ levAts Proto.L Proto.lv ∗ (∃ W, owes (c : Thread nD τ) (owedFrom c 69) W) ∗ toksFrom c 69 ∗ credFrom c 62
      ∗ (cred (tallyAt (sendCell c 19) () N) ∗ cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 39 ∗ curCell (sendCell c 19) (fun p => (RdI I).payload (sendCell c 19) 0 p) 2 ∗ emp ∗ curCell (recvCell c 19) (fun p => (RdI I).payload (recvCell c 19) 0 p) 2 ∗ todoFrom c 41)
      ∗ (foreignFrom c 66 ∗ rsBack I c 19)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_105 (I : Dev nD → Ins F) (K : Dev nD × Cell → ℕ) (c : Dev nD) : St I K (σ 105) c
    = iprop(records (RdI I) K ∗ levAts Proto.L Proto.lv ∗ (∃ W, owes (c : Thread nD τ) (owedFrom c 69) W) ∗ toksFrom c 69 ∗ credFrom c 63
      ∗ (cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 41 ∗ todoFrom c 41)
      ∗ (foreignFrom c 66 ∗ rsBack I c 20)
      ∗ (accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 1) ∗ accTile c 2 2 (A I 1 c 2 2 1) ∗ emp ∗ emp ∗ emp)) := rfl

theorem St_open_106 (I : Dev nD → Ins F) (K : Dev nD × Cell → ℕ) (c : Dev nD) : St I K (σ 106) c
    = iprop(records (RdI I) K ∗ levAts Proto.L Proto.lv ∗ (∃ W, owes (c : Thread nD τ) (owedFrom c 69) W) ∗ toksFrom c 69 ∗ credFrom c 63
      ∗ (cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N))
      ∗ (doneTo c 41 ∗ todoFrom c 41)
      ∗ (foreignFrom c 66 ∗ rsBack I c 20)
      ∗ (accTile c 0 0 (A I 1 c 0 0 2) ∗ accTile c 0 1 (A I 1 c 0 1 2) ∗ accTile c 0 2 (A I 1 c 0 2 2) ∗ emp ∗ emp ∗ emp ∗ accTile c 2 0 (A I 1 c 2 0 2) ∗ accTile c 2 1 (A I 1 c 2 1 2) ∗ accTile c 2 2 (A I 1 c 2 2 2) ∗ emp ∗ emp ∗ emp)) := rfl

theorem St_open_107 (I : Dev nD → Ins F) (K : Dev nD × Cell → ℕ) (c : Dev nD) : St I K (σ 107) c
    = iprop(records (RdI I) K ∗ levAts Proto.L Proto.lv ∗ (∃ W, owes (c : Thread nD τ) (owedFrom c 72) W) ∗ toksFrom c 72 ∗ credFrom c 63
      ∗ (cred (tallyAt (sendCell c 17) () N) ∗ cred (tallyAt (sendCell c 17) () N) ∗ cred (tallyAt (sendCell c 17) () N) ∗ cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 41 ∗ todoFrom c 41)
      ∗ (foreignFrom c 69 ∗ rsBack I c 20)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_108 (I : Dev nD → Ins F) (K : Dev nD × Cell → ℕ) (c : Dev nD) : St I K (σ 108) c
    = iprop(records (RdI I) K ∗ levAts Proto.L Proto.lv ∗ (∃ W, owes (c : Thread nD τ) (owedFrom c 72) W) ∗ toksFrom c 72 ∗ credFrom c 64
      ∗ (cred (tallyAt (sendCell c 17) () N) ∗ cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 41 ∗ curCell (sendCell c 17) (fun p => (RdI I).payload (sendCell c 17) 0 p) 2 ∗ emp ∗ curCell (recvCell c 17) (fun p => (RdI I).payload (recvCell c 17) 0 p) 1 ∗ todoFrom c 43)
      ∗ (foreignFrom c 69 ∗ rsBack I c 20)
      ∗ (accTile c 0 0 (A I 1 c 0 0 2) ∗ accTile c 0 1 (A I 1 c 0 1 2) ∗ accTile c 0 2 (A I 1 c 0 2 2) ∗ emp ∗ emp ∗ emp ∗ emp ∗ emp ∗ emp ∗ emp ∗ emp ∗ emp)) := rfl

theorem St_open_109 (I : Dev nD → Ins F) (K : Dev nD × Cell → ℕ) (c : Dev nD) : St I K (σ 109) c
    = iprop(records (RdI I) K ∗ levAts Proto.L Proto.lv ∗ (∃ W, owes (c : Thread nD τ) (owedFrom c 72) W) ∗ toksFrom c 72 ∗ credFrom c 66
      ∗ (cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 43 ∗ todoFrom c 43)
      ∗ (foreignFrom c 69 ∗ rsBack I c 21)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_110 (I : Dev nD → Ins F) (K : Dev nD × Cell → ℕ) (c : Dev nD) : St I K (σ 110) c
    = iprop(records (RdI I) K ∗ levAts Proto.L Proto.lv ∗ (∃ W, owes (c : Thread nD τ) (owedFrom c 72) W) ∗ toksFrom c 72 ∗ credFrom c 66
      ∗ (cred (tallyAt (sendCell c 22) () N) ∗ cred (tallyAt (sendCell c 22) () N) ∗ cred (tallyAt (sendCell c 22) () N) ∗ cred (tallyAt (sendCell c 20) () N) ∗ cred (tallyAt (sendCell c 20) () N) ∗ cred (tallyAt (sendCell c 20) () N))
      ∗ (doneTo c 43 ∗ todoFrom c 43)
      ∗ (foreignFrom c 69 ∗ rsBack I c 21)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_111 (I : Dev nD → Ins F) (K : Dev nD × Cell → ℕ) (c : Dev nD) : St I K (σ 111) c
    = iprop(records (RdI I) K ∗ levAts Proto.L Proto.lv ∗ (∃ W, owes (c : Thread nD τ) (owedFrom c 72) W) ∗ toksFrom c 72 ∗ credFrom c 67
      ∗ (cred (tallyAt (sendCell c 22) () N) ∗ cred (tallyAt (sendCell c 20) () N) ∗ cred (tallyAt (sendCell c 20) () N) ∗ cred (tallyAt (sendCell c 20) () N))
      ∗ (doneTo c 43 ∗ curCell (sendCell c 22) (fun p => (RdI I).payload (sendCell c 22) 0 p) 2 ∗ emp ∗ curCell (recvCell c 22) (fun p => (RdI I).payload (recvCell c 22) 0 p) 1 ∗ todoFrom c 45)
      ∗ (foreignFrom c 69 ∗ rsBack I c 21)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_112 (I : Dev nD → Ins F) (K : Dev nD × Cell → ℕ) (c : Dev nD) : St I K (σ 112) c
    = iprop(records (RdI I) K ∗ levAts Proto.L Proto.lv ∗ (∃ W, owes (c : Thread nD τ) (owedFrom c 72) W) ∗ toksFrom c 72 ∗ credFrom c 69
      ∗ (cred (tallyAt (sendCell c 20) () N) ∗ cred (tallyAt (sendCell c 20) () N) ∗ cred (tallyAt (sendCell c 20) () N))
      ∗ (doneTo c 45 ∗ todoFrom c 45)
      ∗ (foreignFrom c 69 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 1) ∗ accTile c 3 1 (A I 1 c 3 1 1) ∗ accTile c 3 2 (A I 1 c 3 2 1))) := rfl

theorem St_open_113 (I : Dev nD → Ins F) (K : Dev nD × Cell → ℕ) (c : Dev nD) : St I K (σ 113) c
    = iprop(records (RdI I) K ∗ levAts Proto.L Proto.lv ∗ (∃ W, owes (c : Thread nD τ) (owedFrom c 72) W) ∗ toksFrom c 72 ∗ credFrom c 69
      ∗ (cred (tallyAt (sendCell c 20) () N) ∗ cred (tallyAt (sendCell c 20) () N) ∗ cred (tallyAt (sendCell c 20) () N))
      ∗ (doneTo c 45 ∗ todoFrom c 45)
      ∗ (foreignFrom c 69 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ accTile c 3 0 (A I 1 c 3 0 2) ∗ accTile c 3 1 (A I 1 c 3 1 2) ∗ accTile c 3 2 (A I 1 c 3 2 1))) := rfl

theorem St_open_114 (I : Dev nD → Ins F) (K : Dev nD × Cell → ℕ) (c : Dev nD) : St I K (σ 114) c
    = iprop(records (RdI I) K ∗ levAts Proto.L Proto.lv ∗ (∃ W, owes (c : Thread nD τ) (owedFrom c 74) W) ∗ toksFrom c 74 ∗ credFrom c 69
      ∗ (cred (tallyAt (sendCell c 20) () N) ∗ cred (tallyAt (sendCell c 20) () N) ∗ cred (tallyAt (sendCell c 20) () N) ∗ cred (tallyAt (sendCell c 23) () N) ∗ cred (tallyAt (sendCell c 23) () N))
      ∗ (doneTo c 45 ∗ todoFrom c 45)
      ∗ (foreignFrom c 71 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ accTile c 3 2 (A I 1 c 3 2 2))) := rfl

theorem St_open_115 (I : Dev nD → Ins F) (K : Dev nD × Cell → ℕ) (c : Dev nD) : St I K (σ 115) c
    = iprop(records (RdI I) K ∗ levAts Proto.L Proto.lv ∗ (∃ W, owes (c : Thread nD τ) (owedFrom c 75) W) ∗ toksFrom c 75 ∗ credFrom c 69
      ∗ (cred (tallyAt (sendCell c 20) () N) ∗ cred (tallyAt (sendCell c 20) () N) ∗ cred (tallyAt (sendCell c 23) () N) ∗ cred (tallyAt (sendCell c 23) () N) ∗ cred (tallyAt (sendCell c 23) () N))
      ∗ (doneTo c 45 ∗ curCell (sendCell c 20) (fun p => (RdI I).payload (sendCell c 20) 0 p) 1 ∗ emp ∗ curCell (recvCell c 20) (fun p => (RdI I).payload (recvCell c 20) 0 p) 0 ∗ todoFrom c 47)
      ∗ (foreignFrom c 72 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_116 (I : Dev nD → Ins F) (K : Dev nD × Cell → ℕ) (c : Dev nD) : St I K (σ 116) c
    = iprop(records (RdI I) K ∗ levAts Proto.L Proto.lv ∗ (∃ W, owes (c : Thread nD τ) (owedFrom c 75) W) ∗ toksFrom c 75 ∗ credFrom c 71
      ∗ (cred (tallyAt (sendCell c 20) () N) ∗ cred (tallyAt (sendCell c 23) () N) ∗ cred (tallyAt (sendCell c 23) () N) ∗ cred (tallyAt (sendCell c 23) () N))
      ∗ (doneTo c 45 ∗ curCell (sendCell c 20) (fun p => (RdI I).payload (sendCell c 20) 0 p) 2 ∗ emp ∗ curCell (recvCell c 20) (fun p => (RdI I).payload (recvCell c 20) 0 p) 2 ∗ todoFrom c 47)
      ∗ (foreignFrom c 72 ∗ rsBack I c 22)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ emp ∗ emp ∗ emp ∗ emp ∗ emp ∗ emp)) := rfl

theorem St_open_117 (I : Dev nD → Ins F) (K : Dev nD × Cell → ℕ) (c : Dev nD) : St I K (σ 117) c
    = iprop(records (RdI I) K ∗ levAts Proto.L Proto.lv ∗ (∃ W, owes (c : Thread nD τ) (owedFrom c 75) W) ∗ toksFrom c 75 ∗ credFrom c 72
      ∗ (cred (tallyAt (sendCell c 23) () N) ∗ cred (tallyAt (sendCell c 23) () N) ∗ cred (tallyAt (sendCell c 23) () N))
      ∗ (doneTo c 47 ∗ todoFrom c 47)
      ∗ (foreignFrom c 72 ∗ rsBack I c 23)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp)) := rfl

theorem St_open_118 (I : Dev nD → Ins F) (K : Dev nD × Cell → ℕ) (c : Dev nD) : St I K (σ 118) c
    = iprop(records (RdI I) K ∗ levAts Proto.L Proto.lv ∗ (∃ W, owes (c : Thread nD τ) (owedFrom c 75) W) ∗ toksFrom c 75 ∗ credFrom c 72
      ∗ (cred (tallyAt (sendCell c 23) () N) ∗ cred (tallyAt (sendCell c 23) () N))
      ∗ (doneTo c 47 ∗ curCell (sendCell c 23) (fun p => (RdI I).payload (sendCell c 23) 0 p) 1 ∗ emp ∗ curCell (recvCell c 23) (fun p => (RdI I).payload (recvCell c 23) 0 p) 0 ∗ todoFrom c 49)
      ∗ (foreignFrom c 72 ∗ rsBack I c 23)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp)) := rfl

theorem St_open_119 (I : Dev nD → Ins F) (K : Dev nD × Cell → ℕ) (c : Dev nD) : St I K (σ 119) c
    = iprop(records (RdI I) K ∗ levAts Proto.L Proto.lv ∗ (∃ W, owes (c : Thread nD τ) (owedFrom c 75) W) ∗ toksFrom c 75 ∗ credFrom c 74
      ∗ cred (tallyAt (sendCell c 23) () N)
      ∗ (doneTo c 47 ∗ curCell (sendCell c 23) (fun p => (RdI I).payload (sendCell c 23) 0 p) 2 ∗ emp ∗ curCell (recvCell c 23) (fun p => (RdI I).payload (recvCell c 23) 0 p) 2 ∗ todoFrom c 49)
      ∗ (foreignFrom c 72 ∗ rsBack I c 23)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ emp ∗ emp ∗ emp)) := rfl

theorem St_open_120 (I : Dev nD → Ins F) (K : Dev nD × Cell → ℕ) (c : Dev nD) : St I K (σ 120) c
    = iprop(records (RdI I) K ∗ levAts Proto.L Proto.lv ∗ (∃ W, owes (c : Thread nD τ) (owedFrom c 75) W) ∗ toksFrom c 75 ∗ credFrom c 75
      ∗ emp
      ∗ (doneTo c 49 ∗ todoFrom c 49)
      ∗ (foreignFrom c 72 ∗ rsBack I c 24)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2))) := rfl

theorem St_open_121 (I : Dev nD → Ins F) (K : Dev nD × Cell → ℕ) (c : Dev nD) : St I K (σ 121) c
    = iprop(records (RdI I) K ∗ levAts Proto.L Proto.lv ∗ (∃ W, owes (c : Thread nD τ) (owedFrom c 42) W) ∗ toksFrom c 42 ∗ credFrom c 33
      ∗ (cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N))
      ∗ (doneTo c 21 ∗ todoFrom c 21)
      ∗ (foreignFrom c 39 ∗ rsBack I c 10)
      ∗ (accTile c 0 0 (A I 1 c 0 0 1) ∗ accTile c 0 1 (A I 1 c 0 1 1) ∗ accTile c 0 2 (A I 1 c 0 2 0) ∗ emp ∗ emp ∗ emp ∗ emp ∗ emp ∗ emp ∗ emp ∗ emp ∗ emp)) := rfl

theorem St_open_122 (I : Dev nD → Ins F) (K : Dev nD × Cell → ℕ) (c : Dev nD) : St I K (σ 122) c
    = iprop(records (RdI I) K ∗ levAts Proto.L Proto.lv ∗ (∃ W, owes (c : Thread nD τ) (owedFrom c 75) W) ∗ toksFrom c 75 ∗ credFrom c 75
      ∗ emp
      ∗ (doneTo c 49 ∗ todoFrom c 49)
      ∗ (foreignFrom c 72 ∗ rsBack I c 24)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2))) := rfl

theorem St_open_123 (I : Dev nD → Ins F) (K : Dev nD × Cell → ℕ) (c : Dev nD) : St I K (σ 123) c
    = iprop(records (RdI I) K ∗ levAts Proto.L Proto.lv ∗ (∃ W, owes (c : Thread nD τ) (owedFrom c 78) W) ∗ toksFrom c 78 ∗ credFrom c 78
      ∗ emp
      ∗ doneTo c 50
      ∗ (foreignFrom c 72 ∗ rsBack I c 24)
      ∗ (accTile c 0 0 (A I 1 c 0 0 2) ∗ accTile c 0 1 (A I 1 c 0 1 2) ∗ accTile c 0 2 (A I 1 c 0 2 2) ∗ accTile c 1 0 (A I 1 c 1 0 2) ∗ accTile c 1 1 (A I 1 c 1 1 2) ∗ accTile c 1 2 (A I 1 c 1 2 2) ∗ accTile c 2 0 (A I 1 c 2 0 2) ∗ accTile c 2 1 (A I 1 c 2 1 2) ∗ accTile c 2 2 (A I 1 c 2 2 2) ∗ accTile c 3 0 (A I 1 c 3 0 2) ∗ accTile c 3 1 (A I 1 c 3 1 2) ∗ accTile c 3 2 (A I 1 c 3 2 2))) := rfl

end Cert.Kernel.Body
-- ==== Proof.Bits.Parts.L6.lean ====
/-
  Part 6 of the body starts one copy of step 0 (the 1st step started; round 0, group 0, position 0): part 2 of accumulator slice (0, 2) goes to receive slice (0, 2, 0) of the device paired along mask 4.
  The accumulator slice, at level 0 of round 0, and the paired devices' receive slice leave the device's hands; it holds the departure credit of its send cell 0 for it and owes 1 payment fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 6: the copy of part 2 of step 0. -/
theorem local_6 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 5) W)
        ∗ dutyTok ER (sendCell c 0) 0 2 ∗ dutyTok ER (recvCell (mate c 2 0) 0) 0 2
        ∗ rsTileAny (F := F) (mate c 2 0) 0 2 0
        ∗ accTile c 0 2 (A I 0 c 0 2 0)
        ∗ P)
      ⊢ wp frame (wpE (defs₀ (F := F)) 𝒱₀ (c : Thread nD τ) none) Set.univ
          (k0_part6 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv28 I c) (Vals.lv77 I c) (Vals.lv80 I c) (Vals.lv83 I c))
          (fun tup => iprop(⌜tup = ⟨Vals.lv192 I c, Vals.lv204 I c, Vals.lv216 I c, Vals.lv219 I c, Vals.lv224 I c, Vals.lv225 I c⟩⌝
            ∗ (∃ W, owes (c : Thread nD τ) (owedFrom c 6) W)
            ∗ cred (tallyAt (sendCell c 0) () N)
            ∗ P)) := by
  iintro ⟨#HR, ⟨%W, HO⟩, Ts0, Tr0, ⟨%fd0, Hr0⟩, Ha0, HP⟩
  ihave #HIs := (inv_at (RdI I) K (c, Cell.send 0)) $$ HR
  ihave #HRs := (reached_at (RdI I) K (c, Cell.send 0)) $$ HR
  ihave #HIr0 := (inv_at (RdI I) K (mate c 2 0, Cell.recv 0)) $$ HR
  ihave #HRr0 := (reached_at (RdI I) K (mate c 2 0, Cell.recv 0)) $$ HR
  sl_exec
  iapply (wp_fire_at (accCI I) (rs0I I) c 0 2 (g := 0) (rg := 0) (s := 0) (by decide) (by decide) (by decide)
      (dv := ⟨k0_dev6 c, k0_dev6_lt c⟩) ((dev6_eq c).trans rfl) rfl rfl (sendS_eq 0).symm (recvS_eq 0).symm
      (accEmb 0 2 (A I 0 c 0 2 0)) rfl fd0 (owedFrom c 6) (owed_copy c 0 2 5 (by decide) 0 (by decide))) $$ [HO Ha0 Hr0 Ts0 Tr0]
  · fire_premises HIs HIr0 Ha0 Hr0 HO Ts0 HRs Tr0 HRr0
  iintro ⟨Hc0, HO⟩
  sl_exec
  sl_step
  isplitr
  · ipureintro; rfl
  isplitl [HO]
  · iexists W; iexact HO
  isplitl [Hc0]; · iexact Hc0
  iexact HP

end Cert.Kernel.Body

/-- info: 'Cert.Kernel.Body.local_6' depends on axioms: [propext, Classical.choice, Quot.sound] -/
#guard_msgs in #print axioms Cert.Kernel.Body.local_6

end
-- ==== Proof.Bits.Parts.L7.lean ====
/-
  Part 7 of the body stores row group 1's attention partial product: its three column parts go to the three slices
  (1, 0), (1, 1), (1, 2) of the accumulator, whose earlier contents are read and not used. Each slice ends at the first
  level of round 0; the returned word is the device's first neighbour's number.
-/
import proofs.«900775_g7700000000000776_dist_diff_dit_htp_i_b2_s512_d768_hq4_v7x_i8_f32_1_alg».proof.Proof.Bits.BodyLib
import proofs.«900775_g7700000000000776_dist_diff_dit_htp_i_b2_s512_d768_hq4_v7x_i8_f32_1_alg».proof.Proof.Bits.Proto
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals

variable {F : FTy → Type} [FloatOps F]

/-- Part 7: the three slices of group 1, at any contents, come back at round 0's first level. -/
theorem local_7 (I : Dev nD → Vals.Ins F) (c : Dev nD) (P : sProp (MT nD τ sig Unit (Elt F) ℕ UU ℕ)) :
    iprop((∃ f, Proto.accPts (F := F) c 1 0 f) ∗ (∃ f, Proto.accPts (F := F) c 1 1 f) ∗ (∃ f, Proto.accPts (F := F) c 1 2 f) ∗ P)
      ⊢ wp frame (wpE (defs₀ (F := F)) 𝒱₀ (c : Thread nD τ) none) Set.univ
        (k0_part7 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (lw2 c) (lv37 I c) (lv80 I c) (lv83 I c) (lv192 I c) (lv204 I c) (lv216 I c) (lv219 I c) (lv224 I c) (lv225 I c))
        (fun tup => iprop(⌜tup = lw257 c⌝ ∗ Proto.accPts c 1 0 (accEmb 1 0 (A I 0 c 1 0 0))
          ∗ Proto.accPts c 1 1 (accEmb 1 1 (A I 0 c 1 1 0)) ∗ Proto.accPts c 1 2 (accEmb 1 2 (A I 0 c 1 2 0)) ∗ P)) := by
  iintro ⟨⟨%f0, H0⟩, ⟨%f1, H1⟩, ⟨%f2, H2⟩, HP⟩
  unfold Proto.accPts
  rw [k0_part7_eq_skeleton]
  unfold k0_part7_skel
  sl_exec
  sl_step
  have e0 : (((Proto.accSl 1 0).view.loc (c : Thread nD τ) ↦[(Proto.accSl 1 0).view.set]{fullShare} Cert.Kernel.Body.local_7.sl.H0_w1 I c f0) : sProp (MT nD τ sig Unit (Elt F) ℕ UU ℕ))
      = ((Proto.accSl 1 0).view.loc (c : Thread nD τ) ↦[(Proto.accSl 1 0).view.set]{fullShare} accEmb 1 0 (A I 0 c 1 0 0)) :=
    accTile_of_read c fullShare 1 0 (by unfold Cert.Kernel.Body.local_7.sl.H0_w1; exact View.read_write_univ _ _)
  have e1 : (((Proto.accSl 1 1).view.loc (c : Thread nD τ) ↦[(Proto.accSl 1 1).view.set]{fullShare} Cert.Kernel.Body.local_7.sl.H1_w2 I c f1) : sProp (MT nD τ sig Unit (Elt F) ℕ UU ℕ))
      = ((Proto.accSl 1 1).view.loc (c : Thread nD τ) ↦[(Proto.accSl 1 1).view.set]{fullShare} accEmb 1 1 (A I 0 c 1 1 0)) :=
    accTile_of_read c fullShare 1 1 (by unfold Cert.Kernel.Body.local_7.sl.H1_w2; exact View.read_write_univ _ _)
  have e2 : (((Proto.accSl 1 2).view.loc (c : Thread nD τ) ↦[(Proto.accSl 1 2).view.set]{fullShare} Cert.Kernel.Body.local_7.sl.H2_w3 I c f2) : sProp (MT nD τ sig Unit (Elt F) ℕ UU ℕ))
      = ((Proto.accSl 1 2).view.loc (c : Thread nD τ) ↦[(Proto.accSl 1 2).view.set]{fullShare} accEmb 1 2 (A I 0 c 1 2 0)) :=
    accTile_of_read c fullShare 1 2 (by unfold Cert.Kernel.Body.local_7.sl.H2_w3; exact View.read_write_univ _ _)
  have i0 : (((Proto.accSl 1 0).view.loc (c : Thread nD τ) ↦[(Proto.accSl 1 0).view.set]{fullShare} Cert.Kernel.Body.local_7.sl.H0_w1 I c f0) : sProp (MT nD τ sig Unit (Elt F) ℕ UU ℕ))
      ⊢ ((Proto.accSl 1 0).view.loc (c : Thread nD τ) ↦[(Proto.accSl 1 0).view.set]{fullShare} accEmb 1 0 (A I 0 c 1 0 0)) := by rw [e0]
  have i1 : (((Proto.accSl 1 1).view.loc (c : Thread nD τ) ↦[(Proto.accSl 1 1).view.set]{fullShare} Cert.Kernel.Body.local_7.sl.H1_w2 I c f1) : sProp (MT nD τ sig Unit (Elt F) ℕ UU ℕ))
      ⊢ ((Proto.accSl 1 1).view.loc (c : Thread nD τ) ↦[(Proto.accSl 1 1).view.set]{fullShare} accEmb 1 1 (A I 0 c 1 1 0)) := by rw [e1]
  have i2 : (((Proto.accSl 1 2).view.loc (c : Thread nD τ) ↦[(Proto.accSl 1 2).view.set]{fullShare} Cert.Kernel.Body.local_7.sl.H2_w3 I c f2) : sProp (MT nD τ sig Unit (Elt F) ℕ UU ℕ))
      ⊢ ((Proto.accSl 1 2).view.loc (c : Thread nD τ) ↦[(Proto.accSl 1 2).view.set]{fullShare} accEmb 1 2 (A I 0 c 1 2 0)) := by rw [e2]
  ihave T0 := i0 $$ H0
  ihave T1 := i1 $$ H1
  ihave T2 := i2 $$ H2
  isplitr
  · ipureintro; rfl
  isplitl [T0]; · iexact T0
  isplitl [T1]; · iexact T1
  isplitl [T2]; · iexact T2
  iexact HP

end Cert.Kernel.Body

/-- info: 'Cert.Kernel.Body.local_7' depends on axioms: [propext, Classical.choice, Quot.sound] -/
#guard_msgs in #print axioms Cert.Kernel.Body.local_7

end
-- ==== Proof.Bits.Parts.Part7.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L7
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable

/-! Part 7 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 7 of the body, run from the place before it, ends at the place after it and returns its values; whatever else is held is kept. -/
theorem part_7 (m : (ℓ : Loc nD τ sig) → Buf (Elt F) ℓ) (K : Dev nD × Cell → ℕ) (c : Dev nD) (Fr : sProp 𝕄) :
    iprop(St (insM m) K (σ 6) c ∗ outHeld (insM m) c (σ 6).outs ∗ Fr)
      ⊢ wp frame (wpE (defs₀ (F := F)) 𝒱₀ (c : Thread nD τ) none) Set.univ
          (k0_part7 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv37 (insM m) c) (Vals.lv80 (insM m) c) (Vals.lv83 (insM m) c) (Vals.lv192 (insM m) c) (Vals.lv204 (insM m) c) (Vals.lv216 (insM m) c) (Vals.lv219 (insM m) c) (Vals.lv224 (insM m) c) (Vals.lv225 (insM m) c))
          (fun tup => iprop(⌜tup = Vals.lw257 c⌝ ∗ St (insM m) K (σ 7) c ∗ outHeld (insM m) c (σ 7).outs ∗ Fr)) := by
  have eo : (σ 7).outs = (σ 6).outs := rfl
  rw [eo]
  rw [St_eq, St_eq, StRest_congr (insM m) K c (s := σ 6) (s' := σ 7) rfl rfl rfl rfl, accAll_σ_6, accAll_σ_7]
  refine BIBase.Entails.trans ?_ ((local_7 (insM m) c iprop(StRest (insM m) K (σ 7) c ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2 ∗ outHeld (insM m) c (σ 6).outs ∗ Fr)).trans (wp_mono _ _ _ fun tup => ?_))
  · iintro ⟨⟨HR, T00, T01, T02, T10, T11, T12, T20, T21, T22, T30, T31, T32⟩, HO, HF⟩
    isplitl [T10]; · iexact T10
    isplitl [T11]; · iexact T11
    isplitl [T12]; · iexact T12
    isplitl [HR]; · iexact HR
    isplitl [T00]; · iexact T00
    isplitl [T01]; · iexact T01
    isplitl [T02]; · iexact T02
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T10, T11, T12, HR, T00, T01, T02, T20, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_7' depends on axioms: [propext, Classical.choice, Quot.sound] -/
#guard_msgs in #print axioms part_7

end Cert.Kernel.Body

end
-- ==== Proof.Bits.Parts.L8.lean ====
/-
  Part 8 of the body starts two copies of step 3 (the 2nd step started; round 0, group 1, position 0): part 0 of accumulator slice (1, 0) goes to receive slice (1, 0, 0) of the device paired along mask 1, part 1 of accumulator slice (1, 1) goes to receive slice (1, 1, 0) of the device paired along mask 3.
  The accumulator slices, at level 0 of round 0, and the paired devices' receive slices leave the device's hands; it holds the departure credits of its send cell 3 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 8: the copies of parts 0 and 1 of step 3. -/
theorem local_8 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 6) W)
        ∗ dutyTok ER (sendCell c 3) 0 0 ∗ dutyTok ER (recvCell (mate c 0 3) 3) 0 0
        ∗ dutyTok ER (sendCell c 3) 0 1 ∗ dutyTok ER (recvCell (mate c 1 3) 3) 0 1
        ∗ rsTileAny (F := F) (mate c 0 3) 1 0 0
        ∗ rsTileAny (F := F) (mate c 1 3) 1 1 0
        ∗ accTile c 1 0 (A I 0 c 1 0 0)
        ∗ accTile c 1 1 (A I 0 c 1 1 0)
        ∗ P)
      ⊢ wp frame (wpE (defs₀ (F := F)) 𝒱₀ (c : Thread nD τ) none) Set.univ
          (k0_part8 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw257 c))
          (fun tup => iprop(⌜tup = ⟨Vals.lw268 c, Vals.lw279 c⟩⌝
            ∗ (∃ W, owes (c : Thread nD τ) (owedFrom c 8) W)
            ∗ cred (tallyAt (sendCell c 3) () N)
            ∗ cred (tallyAt (sendCell c 3) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 3)) $$ HR
  ihave #HRs := (reached_at (RdI I) K (c, Cell.send 3)) $$ HR
  ihave #HIr0 := (inv_at (RdI I) K (mate c 0 3, Cell.recv 3)) $$ HR
  ihave #HRr0 := (reached_at (RdI I) K (mate c 0 3, Cell.recv 3)) $$ HR
  ihave #HIr1 := (inv_at (RdI I) K (mate c 1 3, Cell.recv 3)) $$ HR
  ihave #HRr1 := (reached_at (RdI I) K (mate c 1 3, Cell.recv 3)) $$ HR
  sl_exec
  iapply (wp_fire_at (accCI I) (rs0I I) c 3 0 (g := 1) (rg := 1) (s := 0) (by decide) (by decide) (by decide)
      (dv := ⟨k0_dev7 c, k0_dev7_lt c⟩) ((dev7_eq c).trans rfl) rfl rfl (sendS_eq 3).symm (recvS_eq 3).symm
      (accEmb 1 0 (A I 0 c 1 0 0)) rfl fd0 (owedFrom c 7) (owed_copy c 1 0 6 (by decide) 3 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 3 1 (g := 1) (rg := 1) (s := 0) (by decide) (by decide) (by decide)
      (dv := ⟨k0_dev8 c, k0_dev8_lt c⟩) ((dev8_eq c).trans rfl) rfl rfl (sendS_eq 3).symm (recvS_eq 3).symm
      (accEmb 1 1 (A I 0 c 1 1 0)) rfl fd1 (owedFrom c 8) (owed_copy c 1 1 7 (by decide) 3 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_8' depends on axioms: [propext, Classical.choice, Quot.sound] -/
#guard_msgs in #print axioms Cert.Kernel.Body.local_8

end
-- ==== Proof.Bits.Parts.Part9.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L9
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 9 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 9 of the body, run from the place before it, ends at the place after it; whatever else is held is kept. -/
theorem part_9 (m : (ℓ : Loc nD τ sig) → Buf (Elt F) ℓ) (K : Dev nD × Cell → ℕ) (c : Dev nD) (Fr : sProp 𝕄) :
    iprop(St (insM m) K (σ 8) c ∗ outHeld (insM m) c (σ 8).outs ∗ Fr)
      ⊢ wp frame (wpE (defs₀ (F := F)) 𝒱₀ (c : Thread nD τ) none) Set.univ
          (k0_part9 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw154 c))
          (fun _ => iprop(St (insM m) K (σ 9) c ∗ outHeld (insM m) c (σ 9).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 8 : sProp (MT nD τ sig Unit (Elt F) ℕ UU ℕ)) = iprop(dutyTok ER (sendCell c 3) 0 2 ∗ dutyTok ER (recvCell (mate c 2 3) 3) 0 2 ∗ toksFrom c 9) := toksFrom_copy c 1 2
  have hF0 : (foreignFrom c 5 : sProp (MT nD τ sig Unit (Elt F) ℕ UU ℕ)) = iprop(rsTileAny (mate c 2 3) 1 2 0 ∗ foreignFrom c 6) := foreignFrom_succ c 1 2
  have hC : (credFrom c 3 : sProp (MT nD τ sig Unit (Elt F) ℕ UU ℕ)) = iprop(credFrom c 4 ∗ cred (tallyAt (recvCell c 0) () N)) := by
    rw [credFrom_succ c 3 (by omega), show ownCell c 3 = recvCell c 0 from ownCell_fire c 0 0, show dueAmt 3 = N from dueAmt_fire 0 0]
  have hG : (todoFrom c 1 : sProp (MT nD τ sig Unit (Elt F) ℕ UU ℕ)) = iprop(curCell (sendCell c 0) (fun p => (RdI (insM m)).payload (sendCell c 0) 0 p) 0 ∗ curCell (recvCell c 0) (fun p => (RdI (insM m)).payload (recvCell c 0) 0 p) 0 ∗ todoFrom c 3) := todo_group c 0
  rw [show (σ 9).outs = (σ 8).outs from rfl, St_open_8, St_open_9, hT0, hF0, hC, hG]
  simp only [hemp, hemp']
  refine BIBase.Entails.trans (Entails.of_eq ?_) (BIBase.Entails.trans (local_9 (insM m) K c iprop(toksFrom c 9 ∗ credFrom c 4 ∗ cred (tallyAt (sendCell c 0) () N) ∗ cred (tallyAt (sendCell c 0) () N) ∗ cred (tallyAt (sendCell c 3) () N) ∗ cred (tallyAt (sendCell c 3) () N) ∗ doneTo c 1 ∗ todoFrom c 3 ∗ foreignFrom c 6 ∗ rsBack (insM m) c 0 ∗ accTileAny c 2 0 ∗ accTileAny c 2 1 ∗ accTileAny c 2 2 ∗ accTileAny c 3 0 ∗ accTileAny c 3 1 ∗ accTileAny c 3 2 ∗ outHeld (insM m) c (σ 8).outs ∗ Fr)) (wp_mono _ _ _ fun tup => Entails.of_eq ?_))
  · ac_rfl
  · ac_rfl

/-- info: 'Cert.Kernel.Body.part_9' depends on axioms: [propext, Classical.choice, Quot.sound] -/
#guard_msgs in #print axioms part_9

end Cert.Kernel.Body

end
-- ==== Proof.Bits.Parts.L13.lean ====
/-
  Part 13 of the body starts two copies of step 1 (the 3rd step started; round 0, group 0, position 1): part 1 of accumulator slice (0, 1) goes to receive slice (0, 1, 1) of the device paired along mask 4, part 2 of accumulator slice (0, 2) goes to receive slice (0, 2, 1) of the device paired along mask 1.
  The accumulator slices, at level 1 of round 0, and the paired devices' receive slices leave the device's hands; it holds the departure credits of its send cell 1 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 13: the copies of parts 1 and 2 of step 1. -/
theorem local_13 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 10) W)
        ∗ dutyTok ER (sendCell c 1) 0 1 ∗ dutyTok ER (recvCell (mate c 1 1) 1) 0 1
        ∗ dutyTok ER (sendCell c 1) 0 2 ∗ dutyTok ER (recvCell (mate c 2 1) 1) 0 2
        ∗ rsTileAny (F := F) (mate c 1 1) 0 1 1
        ∗ rsTileAny (F := F) (mate c 2 1) 0 2 1
        ∗ accTile c 0 1 (A I 0 c 0 1 1)
        ∗ accTile c 0 2 (A I 0 c 0 2 1)
        ∗ P)
      ⊢ wp frame (wpE (defs₀ (F := F)) 𝒱₀ (c : Thread nD τ) none) Set.univ
          (k0_part13 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv14 I c))
          (fun tup => iprop(⌜tup = ⟨Vals.lw378 c, Vals.lv405 I c, Vals.lv407 I c⟩⌝
            ∗ (∃ W, owes (c : Thread nD τ) (owedFrom c 12) W)
            ∗ cred (tallyAt (sendCell c 1) () N)
            ∗ cred (tallyAt (sendCell c 1) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 1)) $$ HR
  ihave #HRs := (reached_at (RdI I) K (c, Cell.send 1)) $$ HR
  ihave #HIr0 := (inv_at (RdI I) K (mate c 1 1, Cell.recv 1)) $$ HR
  ihave #HRr0 := (reached_at (RdI I) K (mate c 1 1, Cell.recv 1)) $$ HR
  ihave #HIr1 := (inv_at (RdI I) K (mate c 2 1, Cell.recv 1)) $$ HR
  ihave #HRr1 := (reached_at (RdI I) K (mate c 2 1, Cell.recv 1)) $$ HR
  sl_exec
  iapply (wp_fire_at (accCI I) (rs0I I) c 1 1 (g := 0) (rg := 0) (s := 1) (by decide) (by decide) (by decide)
      (dv := ⟨k0_dev11 c, k0_dev11_lt c⟩) ((dev11_eq c).trans rfl) rfl rfl (sendS_eq 1).symm (recvS_eq 1).symm
      (accEmb 0 1 (A I 0 c 0 1 1)) rfl fd0 (owedFrom c 11) (owed_copy c 2 1 10 (by decide) 1 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 1 2 (g := 0) (rg := 0) (s := 1) (by decide) (by decide) (by decide)
      (dv := ⟨k0_dev12 c, k0_dev12_lt c⟩) ((dev12_eq c).trans rfl) rfl rfl (sendS_eq 1).symm (recvS_eq 1).symm
      (accEmb 0 2 (A I 0 c 0 2 1)) rfl fd1 (owedFrom c 12) (owed_copy c 2 2 11 (by decide) 1 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_13' depends on axioms: [propext, Classical.choice, Quot.sound] -/
#guard_msgs in #print axioms Cert.Kernel.Body.local_13

end
-- ==== Proof.Bits.Parts.L17.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 17 of the body: the stores into accumulator tiles (1, 1), (1, 2), then the start of the copy of part 0 at step 4 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_17 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 12) W)
        ∗ dutyTok ER (sendCell c 4) 0 0 ∗ dutyTok ER (recvCell (mate c 0 4) 4) 0 0
        ∗ rsTileAny (mate c 0 4) (rgOf 4) 0 (sOf 4)
        ∗ accTile c 1 1 (Vals.A I 0 c 1 1 0)
        ∗ accTile c 1 2 (Vals.A I 0 c 1 2 0)
        ∗ rsTile c 1 2 0 (Vals.R I 0 c 1 2 0)
        ∗ accTile c 1 0 (Vals.A I 0 c 1 0 1)
        ∗ P) : sProp (MT nD τ sig Unit (Elt F) ℕ UU ℕ))
      ⊢ wp frame (wpE (defs₀ (F := F)) 𝒱₀ (c : Thread nD τ) none) Set.univ
      (k0_part17 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv477 I c) (Vals.lv478 I c))
      (fun tup => iprop(⌜tup = ⟨Vals.lw489 c, Vals.lw500 c⟩⌝
        ∗ records (RdI I) K
        ∗ (∃ W, owes (c : Thread nD τ) (owedFrom c 13) W)
        ∗ cred (tallyAt (sendCell c 4) () N)
        ∗ accTile c 1 1 (Vals.A I 0 c 1 1 1)
        ∗ accTile c 1 2 (Vals.A I 0 c 1 2 1)
        ∗ rsTile c 1 2 0 (Vals.R I 0 c 1 2 0)
        ∗ P)) := by
  unfold accTile rsTile rsTileAny Proto.accPts Proto.rsPts
  iintro ⟨#Hrec, ⟨%W, HO⟩, Hts0, Htr0, ⟨%fd0, Hfd0⟩, Ha11, Ha12, Hr120, Ha10, HP⟩
  ihave #HIs0 := (inv_at (RdI I) K (c, Cell.send 4)) $$ Hrec
  ihave #HIr0 := (inv_at (RdI I) K (mate c 0 4, Cell.recv 4)) $$ Hrec
  ihave #Hrs0 := (reached_at (RdI I) K (c, Cell.send 4)) $$ Hrec
  ihave #Hrr0 := (reached_at (RdI I) K (mate c 0 4, Cell.recv 4)) $$ Hrec
  rw [k0_part17_eq_skeleton]
  unfold k0_part17_skel
  sl_exec
  -- the copy of part 0 at step 4 (started as number 4): its units on the partner's receive cell are owed last
  have hc0 : dueCell c 12 = recvCell (mate c 0 4) 4 := dueCell_fire c 3 0
  have ha0 : dueAmt 12 = N := dueAmt_fire 3 0
  have hO0 : owedFrom c 12 = owedFrom c 13 + tallyAt (recvCell (mate c 0 4) 4) () N :=
    (owedFrom_succ c 12 (by decide)).trans (by rw [hc0, ha0])
  iapply (wp_fire_at (accCI I) (rs0I I) c 4 0 (g := 1) (rg := 1) (s := 1) rfl rfl rfl (dev13_eq c) rfl rfl
    (sendS_eq 4) (recvS_eq 4) (accEmb 1 0 (Vals.A I 0 c 1 0 1)) rfl fd0 (owedFrom c 13) hO0) $$ [HO Hts0 Htr0 Hfd0 Ha10]
  · unfold Proto.accPts Proto.rsPts
    isplitr; · iexact HIs0
    isplitr; · iexact HIr0
    isplitl [Ha10]; · iexact Ha10
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha11_e : View.read (Elt F) (accV 1 1) (local_17.sl.Ha11_w1 I c) = Vals.A I 0 c 1 1 1 := by
    unfold local_17.sl.Ha11_w1; exact View.read_write_univ _ _
  have Ha11_t : ((Proto.accSl 1 1).view.loc (c : Thread nD τ) ↦[(Proto.accSl 1 1).view.set]{fullShare} local_17.sl.Ha11_w1 I c : sProp (MT nD τ sig Unit (Elt F) ℕ UU ℕ)) = ((Proto.accSl 1 1).view.loc (c : Thread nD τ) ↦[(Proto.accSl 1 1).view.set]{fullShare} accEmb 1 1 (Vals.A I 0 c 1 1 1) : sProp (MT nD τ sig Unit (Elt F) ℕ UU ℕ)) := accTile_of_read c fullShare 1 1 Ha11_e
  have Ha12_r0 : local_17.sl.v481 I c = Vals.A I 0 c 1 2 0 := by unfold local_17.sl.v481; exact accV_read_accEmb 1 2 _
  have Ha12_r1 : local_17.sl.v483 I c = Vals.R I 0 c 1 2 0 := by unfold local_17.sl.v483; exact rsV_read_rsEmb 1 2 0 _
  have Ha12_e : View.read (Elt F) (accV 1 2) (local_17.sl.Ha12_w2 I c) = Vals.A I 0 c 1 2 1 := by
    unfold local_17.sl.Ha12_w2; rw [Ha12_r0, Ha12_r1]; exact View.read_write_univ _ _
  have Ha12_t : ((Proto.accSl 1 2).view.loc (c : Thread nD τ) ↦[(Proto.accSl 1 2).view.set]{fullShare} local_17.sl.Ha12_w2 I c : sProp (MT nD τ sig Unit (Elt F) ℕ UU ℕ)) = ((Proto.accSl 1 2).view.loc (c : Thread nD τ) ↦[(Proto.accSl 1 2).view.set]{fullShare} accEmb 1 2 (Vals.A I 0 c 1 2 1) : sProp (MT nD τ sig Unit (Elt F) ℕ UU ℕ)) := accTile_of_read c fullShare 1 2 Ha12_e
  rw [← Ha11_t, ← Ha12_t]
  isplitr [HO Hcs0 Ha11 Ha12 Hr120 HP]
  · ipureintro; rfl
  isplitr [HO Hcs0 Ha11 Ha12 Hr120 HP]; · iexact Hrec
  isplitl [HO]; · iexists W; iexact HO
  iframe

/-- info: 'Cert.Kernel.Body.local_17' depends on axioms: [propext, Classical.choice, Quot.sound] -/
#guard_msgs in #print axioms local_17

end Cert.Kernel.Body
-- ==== Proof.Bits.Parts.Part17.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L17
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 17 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 17 of the body, run from the place before it, ends at the place after it and returns its values; whatever else is held is kept. -/
theorem part_17 (m : (ℓ : Loc nD τ sig) → Buf (Elt F) ℓ) (K : Dev nD × Cell → ℕ) (c : Dev nD) (Fr : sProp 𝕄) :
    iprop(St (insM m) K (σ 16) c ∗ outHeld (insM m) c (σ 16).outs ∗ Fr)
      ⊢ wp frame (wpE (defs₀ (F := F)) 𝒱₀ (c : Thread nD τ) none) Set.univ
          (k0_part17 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv477 (insM m) c) (Vals.lv478 (insM m) c))
          (fun tup => iprop(⌜tup = ⟨Vals.lw489 c, Vals.lw500 c⟩⌝ ∗ St (insM m) K (σ 17) c ∗ outHeld (insM m) c (σ 17).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 12 : sProp (MT nD τ sig Unit (Elt F) ℕ UU ℕ))
      = iprop(dutyTok ER (sendCell c 4) 0 0 ∗ dutyTok ER (recvCell (mate c 0 4) 4) 0 0 ∗ toksFrom c 13) := toksFrom_copy c 3 0
  have hf0 : (foreignFrom c 9 : sProp (MT nD τ sig Unit (Elt F) ℕ UU ℕ))
      = iprop(rsTileAny (mate c 0 4) (rgOf 4) 0 (sOf 4) ∗ foreignFrom c 10) := foreignFrom_succ c 3 0
  have hb1 : (rsBack (insM m) c 2 : sProp (MT nD τ sig Unit (Elt F) ℕ UU ℕ))
      = iprop((rsTile c 1 0 0 (Vals.R (insM m) 0 c 1 0 0) ∗ rsTile c 1 1 0 (Vals.R (insM m) 0 c 1 1 0) ∗ rsTile c 1 2 0 (Vals.R (insM m) 0 c 1 2 0)) ∗ rsBack (insM m) c 1) := rsBack_succ (insM m) c 1
  rw [St_open_16, St_open_17, ht0, hf0, hb1, show (σ 16).outs = (σ 17).outs from rfl]
  simp only [hemp, hemp']
  refine BIBase.Entails.trans (Entails.of_eq ?_) (BIBase.Entails.trans
    (local_17 (insM m) K c
      (iprop(levAts Proto.L Proto.lv
        ∗ toksFrom c 13
        ∗ credFrom c 9
        ∗ cred (tallyAt (sendCell c 1) () N)
        ∗ cred (tallyAt (sendCell c 1) () N)
        ∗ cred (tallyAt (sendCell c 1) () N)
        ∗ doneTo c 5
        ∗ todoFrom c 5
        ∗ foreignFrom c 10
        ∗ rsTile c 1 0 0 (Vals.R (insM m) 0 c 1 0 0)
        ∗ rsTile c 1 1 0 (Vals.R (insM m) 0 c 1 1 0)
        ∗ rsBack (insM m) c 1
        ∗ accTileAny c 2 0
        ∗ accTileAny c 2 1
        ∗ accTileAny c 2 2
        ∗ accTileAny c 3 0
        ∗ accTileAny c 3 1
        ∗ accTileAny c 3 2
        ∗ outHeld (insM m) c (σ 17).outs
        ∗ Fr)))
    (wp_mono _ _ _ fun tup => Entails.of_eq ?_))
  · ac_rfl
  · ac_rfl

/-- info: 'Cert.Kernel.Body.part_17' depends on axioms: [propext, Classical.choice, Quot.sound] -/
#guard_msgs in #print axioms part_17

end Cert.Kernel.Body

end
-- ==== Proof.Bits.Parts.L18.lean ====
/-
  Part 18 of the body starts two copies of step 4 (the 4th step started; round 0, group 1, position 1): part 1 of accumulator slice (1, 1) goes to receive slice (1, 1, 1) of the device paired along mask 4, part 2 of accumulator slice (1, 2) goes to receive slice (1, 2, 1) of the device paired along mask 1.
  The accumulator slices, at level 1 of round 0, and the paired devices' receive slices leave the device's hands; it holds the departure credits of its send cell 4 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 18: the copies of parts 1 and 2 of step 4. -/
theorem local_18 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 13) W)
        ∗ dutyTok ER (sendCell c 4) 0 1 ∗ dutyTok ER (recvCell (mate c 1 4) 4) 0 1
        ∗ dutyTok ER (sendCell c 4) 0 2 ∗ dutyTok ER (recvCell (mate c 2 4) 4) 0 2
        ∗ rsTileAny (F := F) (mate c 1 4) 1 1 1
        ∗ rsTileAny (F := F) (mate c 2 4) 1 2 1
        ∗ accTile c 1 1 (A I 0 c 1 1 1)
        ∗ accTile c 1 2 (A I 0 c 1 2 1)
        ∗ P)
      ⊢ wp frame (wpE (defs₀ (F := F)) 𝒱₀ (c : Thread nD τ) none) Set.univ
          (k0_part18 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw500 c))
          (fun tup => iprop(⌜tup = Vals.lw511 c⌝
            ∗ (∃ W, owes (c : Thread nD τ) (owedFrom c 15) W)
            ∗ cred (tallyAt (sendCell c 4) () N)
            ∗ cred (tallyAt (sendCell c 4) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 4)) $$ HR
  ihave #HRs := (reached_at (RdI I) K (c, Cell.send 4)) $$ HR
  ihave #HIr0 := (inv_at (RdI I) K (mate c 1 4, Cell.recv 4)) $$ HR
  ihave #HRr0 := (reached_at (RdI I) K (mate c 1 4, Cell.recv 4)) $$ HR
  ihave #HIr1 := (inv_at (RdI I) K (mate c 2 4, Cell.recv 4)) $$ HR
  ihave #HRr1 := (reached_at (RdI I) K (mate c 2 4, Cell.recv 4)) $$ HR
  sl_exec
  iapply (wp_fire_at (accCI I) (rs0I I) c 4 1 (g := 1) (rg := 1) (s := 1) (by decide) (by decide) (by decide)
      (dv := ⟨k0_dev14 c, k0_dev14_lt c⟩) ((dev14_eq c).trans rfl) rfl rfl (sendS_eq 4).symm (recvS_eq 4).symm
      (accEmb 1 1 (A I 0 c 1 1 1)) rfl fd0 (owedFrom c 14) (owed_copy c 3 1 13 (by decide) 4 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 4 2 (g := 1) (rg := 1) (s := 1) (by decide) (by decide) (by decide)
      (dv := ⟨k0_dev15 c, k0_dev15_lt c⟩) ((dev15_eq c).trans rfl) rfl rfl (sendS_eq 4).symm (recvS_eq 4).symm
      (accEmb 1 2 (A I 0 c 1 2 1)) rfl fd1 (owedFrom c 15) (owed_copy c 3 2 14 (by decide) 4 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_18' depends on axioms: [propext, Classical.choice, Quot.sound] -/
#guard_msgs in #print axioms Cert.Kernel.Body.local_18

end
-- ==== Proof.Bits.BodyRsTable.lean ====
import proofs.«900775_g7700000000000776_dist_diff_dit_htp_i_b2_s512_d768_hq4_v7x_i8_f32_1_alg».proof.Proof.Bits.BodyWrapRs

/-! The three receive slices of each step, at what they hold, one factor a slice. -/

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Mesh Cert.Kernel.LaunchK Cert.Kernel.Vals
open Cert.Kernel.Proto hiding accM rsM AccBuf RsBuf

variable {F : FTy → Type} [FloatOps F]

theorem rs3_0 (I : Dev nD → Ins F) (c : Dev nD) :
    rs3 I c 0 = (iprop(rsTile c 0 0 0 (R I 0 c 0 0 0) ∗ rsTile c 0 1 0 (R I 0 c 0 1 0) ∗ rsTile c 0 2 0 (R I 0 c 0 2 0)) : sProp (MT nD τ sig Unit (Elt F) ℕ UU ℕ)) := rfl
theorem rs3_1 (I : Dev nD → Ins F) (c : Dev nD) :
    rs3 I c 1 = (iprop(rsTile c 0 0 1 (R I 0 c 0 0 1) ∗ rsTile c 0 1 1 (R I 0 c 0 1 1) ∗ rsTile c 0 2 1 (R I 0 c 0 2 1)) : sProp (MT nD τ sig Unit (Elt F) ℕ UU ℕ)) := rfl
theorem rs3_2 (I : Dev nD → Ins F) (c : Dev nD) :
    rs3 I c 2 = (iprop(rsTile c 0 0 2 (R I 0 c 0 0 2) ∗ rsTile c 0 1 2 (R I 0 c 0 1 2) ∗ rsTile c 0 2 2 (R I 0 c 0 2 2)) : sProp (MT nD τ sig Unit (Elt F) ℕ UU ℕ)) := rfl
theorem rs3_3 (I : Dev nD → Ins F) (c : Dev nD) :
    rs3 I c 3 = (iprop(rsTile c 1 0 0 (R I 0 c 1 0 0) ∗ rsTile c 1 1 0 (R I 0 c 1 1 0) ∗ rsTile c 1 2 0 (R I 0 c 1 2 0)) : sProp (MT nD τ sig Unit (Elt F) ℕ UU ℕ)) := rfl
theorem rs3_4 (I : Dev nD → Ins F) (c : Dev nD) :
    rs3 I c 4 = (iprop(rsTile c 1 0 1 (R I 0 c 1 0 1) ∗ rsTile c 1 1 1 (R I 0 c 1 1 1) ∗ rsTile c 1 2 1 (R I 0 c 1 2 1)) : sProp (MT nD τ sig Unit (Elt F) ℕ UU ℕ)) := rfl
theorem rs3_5 (I : Dev nD → Ins F) (c : Dev nD) :
    rs3 I c 5 = (iprop(rsTile c 1 0 2 (R I 0 c 1 0 2) ∗ rsTile c 1 1 2 (R I 0 c 1 1 2) ∗ rsTile c 1 2 2 (R I 0 c 1 2 2)) : sProp (MT nD τ sig Unit (Elt F) ℕ UU ℕ)) := rfl
theorem rs3_6 (I : Dev nD → Ins F) (c : Dev nD) :
    rs3 I c 6 = (iprop(rsTile c 2 0 0 (R I 0 c 2 0 0) ∗ rsTile c 2 1 0 (R I 0 c 2 1 0) ∗ rsTile c 2 2 0 (R I 0 c 2 2 0)) : sProp (MT nD τ sig Unit (Elt F) ℕ UU ℕ)) := rfl
theorem rs3_7 (I : Dev nD → Ins F) (c : Dev nD) :
    rs3 I c 7 = (iprop(rsTile c 2 0 1 (R I 0 c 2 0 1) ∗ rsTile c 2 1 1 (R I 0 c 2 1 1) ∗ rsTile c 2 2 1 (R I 0 c 2 2 1)) : sProp (MT nD τ sig Unit (Elt F) ℕ UU ℕ)) := rfl
theorem rs3_8 (I : Dev nD → Ins F) (c : Dev nD) :
    rs3 I c 8 = (iprop(rsTile c 2 0 2 (R I 0 c 2 0 2) ∗ rsTile c 2 1 2 (R I 0 c 2 1 2) ∗ rsTile c 2 2 2 (R I 0 c 2 2 2)) : sProp (MT nD τ sig Unit (Elt F) ℕ UU ℕ)) := rfl
theorem rs3_9 (I : Dev nD → Ins F) (c : Dev nD) :
    rs3 I c 9 = (iprop(rsTile c 3 0 0 (R I 0 c 3 0 0) ∗ rsTile c 3 1 0 (R I 0 c 3 1 0) ∗ rsTile c 3 2 0 (R I 0 c 3 2 0)) : sProp (MT nD τ sig Unit (Elt F) ℕ UU ℕ)) := rfl
theorem rs3_10 (I : Dev nD → Ins F) (c : Dev nD) :
    rs3 I c 10 = (iprop(rsTile c 3 0 1 (R I 0 c 3 0 1) ∗ rsTile c 3 1 1 (R I 0 c 3 1 1) ∗ rsTile c 3 2 1 (R I 0 c 3 2 1)) : sProp (MT nD τ sig Unit (Elt F) ℕ UU ℕ)) := rfl
theorem rs3_11 (I : Dev nD → Ins F) (c : Dev nD) :
    rs3 I c 11 = (iprop(rsTile c 3 0 2 (R I 0 c 3 0 2) ∗ rsTile c 3 1 2 (R I 0 c 3 1 2) ∗ rsTile c 3 2 2 (R I 0 c 3 2 2)) : sProp (MT nD τ sig Unit (Elt F) ℕ UU ℕ)) := rfl
theorem rs3_12 (I : Dev nD → Ins F) (c : Dev nD) :
    rs3 I c 12 = (iprop(rsTile c 4 0 0 (R I 1 c 0 0 0) ∗ rsTile c 4 1 0 (R I 1 c 0 1 0) ∗ rsTile c 4 2 0 (R I 1 c 0 2 0)) : sProp (MT nD τ sig Unit (Elt F) ℕ UU ℕ)) := rfl
theorem rs3_13 (I : Dev nD → Ins F) (c : Dev nD) :
    rs3 I c 13 = (iprop(rsTile c 4 0 1 (R I 1 c 0 0 1) ∗ rsTile c 4 1 1 (R I 1 c 0 1 1) ∗ rsTile c 4 2 1 (R I 1 c 0 2 1)) : sProp (MT nD τ sig Unit (Elt F) ℕ UU ℕ)) := rfl
theorem rs3_14 (I : Dev nD → Ins F) (c : Dev nD) :
    rs3 I c 14 = (iprop(rsTile c 4 0 2 (R I 1 c 0 0 2) ∗ rsTile c 4 1 2 (R I 1 c 0 1 2) ∗ rsTile c 4 2 2 (R I 1 c 0 2 2)) : sProp (MT nD τ sig Unit (Elt F) ℕ UU ℕ)) := rfl
theorem rs3_15 (I : Dev nD → Ins F) (c : Dev nD) :
    rs3 I c 15 = (iprop(rsTile c 5 0 0 (R I 1 c 1 0 0) ∗ rsTile c 5 1 0 (R I 1 c 1 1 0) ∗ rsTile c 5 2 0 (R I 1 c 1 2 0)) : sProp (MT nD τ sig Unit (Elt F) ℕ UU ℕ)) := rfl
theorem rs3_16 (I : Dev nD → Ins F) (c : Dev nD) :
    rs3 I c 16 = (iprop(rsTile c 5 0 1 (R I 1 c 1 0 1) ∗ rsTile c 5 1 1 (R I 1 c 1 1 1) ∗ rsTile c 5 2 1 (R I 1 c 1 2 1)) : sProp (MT nD τ sig Unit (Elt F) ℕ UU ℕ)) := rfl
theorem rs3_17 (I : Dev nD → Ins F) (c : Dev nD) :
    rs3 I c 17 = (iprop(rsTile c 5 0 2 (R I 1 c 1 0 2) ∗ rsTile c 5 1 2 (R I 1 c 1 1 2) ∗ rsTile c 5 2 2 (R I 1 c 1 2 2)) : sProp (MT nD τ sig Unit (Elt F) ℕ UU ℕ)) := rfl
theorem rs3_18 (I : Dev nD → Ins F) (c : Dev nD) :
    rs3 I c 18 = (iprop(rsTile c 6 0 0 (R I 1 c 2 0 0) ∗ rsTile c 6 1 0 (R I 1 c 2 1 0) ∗ rsTile c 6 2 0 (R I 1 c 2 2 0)) : sProp (MT nD τ sig Unit (Elt F) ℕ UU ℕ)) := rfl
theorem rs3_19 (I : Dev nD → Ins F) (c : Dev nD) :
    rs3 I c 19 = (iprop(rsTile c 6 0 1 (R I 1 c 2 0 1) ∗ rsTile c 6 1 1 (R I 1 c 2 1 1) ∗ rsTile c 6 2 1 (R I 1 c 2 2 1)) : sProp (MT nD τ sig Unit (Elt F) ℕ UU ℕ)) := rfl
theorem rs3_20 (I : Dev nD → Ins F) (c : Dev nD) :
    rs3 I c 20 = (iprop(rsTile c 6 0 2 (R I 1 c 2 0 2) ∗ rsTile c 6 1 2 (R I 1 c 2 1 2) ∗ rsTile c 6 2 2 (R I 1 c 2 2 2)) : sProp (MT nD τ sig Unit (Elt F) ℕ UU ℕ)) := rfl
theorem rs3_21 (I : Dev nD → Ins F) (c : Dev nD) :
    rs3 I c 21 = (iprop(rsTile c 7 0 0 (R I 1 c 3 0 0) ∗ rsTile c 7 1 0 (R I 1 c 3 1 0) ∗ rsTile c 7 2 0 (R I 1 c 3 2 0)) : sProp (MT nD τ sig Unit (Elt F) ℕ UU ℕ)) := rfl
theorem rs3_22 (I : Dev nD → Ins F) (c : Dev nD) :
    rs3 I c 22 = (iprop(rsTile c 7 0 1 (R I 1 c 3 0 1) ∗ rsTile c 7 1 1 (R I 1 c 3 1 1) ∗ rsTile c 7 2 1 (R I 1 c 3 2 1)) : sProp (MT nD τ sig Unit (Elt F) ℕ UU ℕ)) := rfl
theorem rs3_23 (I : Dev nD → Ins F) (c : Dev nD) :
    rs3 I c 23 = (iprop(rsTile c 7 0 2 (R I 1 c 3 0 2) ∗ rsTile c 7 1 2 (R I 1 c 3 1 2) ∗ rsTile c 7 2 2 (R I 1 c 3 2 2)) : sProp (MT nD τ sig Unit (Elt F) ℕ UU ℕ)) := rfl

end Cert.Kernel.Body

end
-- ==== Proof.Bits.Parts.Part21.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.Parts.L21
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 21 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 21 of the body, run from the place before it, ends at the place after it and returns its values; whatever else is held is kept. -/
theorem part_21 (m : (ℓ : Loc nD τ sig) → Buf (Elt F) ℓ) (K : Dev nD × Cell → ℕ) (c : Dev nD) (Fr : sProp 𝕄) :
    iprop(St (insM m) K (σ 20) c ∗ outHeld (insM m) c (σ 20).outs ∗ Fr)
      ⊢ wp frame (wpE (defs₀ (F := F)) 𝒱₀ (c : Thread nD τ) none) Set.univ
          (k0_part21 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv568 (insM m) c))
          (fun tup => iprop(⌜tup = Vals.lw588 c⌝ ∗ St (insM m) K (σ 21) c ∗ outHeld (insM m) c (σ 21).outs ∗ Fr)) := by
  have eo : (σ 21).outs = (σ 20).outs := rfl
  rw [eo]
  rw [St_eq, St_eq, StRest_congr (insM m) K c (s := σ 20) (s' := σ 21) rfl rfl rfl rfl, accAll_σ_20, accAll_σ_21, StRest_rs (insM m) K c (σ 21) rfl 1 (by decide), rs3_1]
  refine BIBase.Entails.trans ?_ ((local_21 (insM m) c iprop(rsTile c 0 0 1 (Vals.R (insM m) 0 c 0 0 1) ∗ StRestNoRs (insM m) K (σ 21) c 1 ∗ emp ∗ emp ∗ emp ∗ accTileAny (F := F) c 2 0 ∗ accTileAny (F := F) c 2 1 ∗ accTileAny (F := F) c 2 2 ∗ accTileAny (F := F) c 3 0 ∗ accTileAny (F := F) c 3 1 ∗ accTileAny (F := F) c 3 2 ∗ outHeld (insM m) c (σ 20).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T00]; · iexact T00
    isplitl [T01]; · iexact T01
    isplitl [T02]; · iexact T02
    isplitl [R1]; · iexact R1
    isplitl [R2]; · iexact R2
    isplitl [R0]; · iexact R0
    isplitl [HR]; · iexact HR
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T00, T01, T02, R1, R2, R0, HR, T10, T11, T12, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_21' depends on axioms: [propext, Classical.choice, Quot.sound] -/
#guard_msgs in #print axioms part_21

end Cert.Kernel.Body

end
-- ==== Proof.Bits.Parts.L22.lean ====
/-
  Part 22 of the body starts two copies of step 2 (the 5th step started; round 0, group 0, position 2): part 0 of accumulator slice (0, 0) goes to receive slice (0, 0, 2) of the device paired along mask 4, part 1 of accumulator slice (0, 1) goes to receive slice (0, 1, 2) of the device paired along mask 1.
  The accumulator slices, at level 2 of round 0, and the paired devices' receive slices leave the device's hands; it holds the departure credits of its send cell 2 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 22: the copies of parts 0 and 1 of step 2. -/
theorem local_22 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 15) W)
        ∗ dutyTok ER (sendCell c 2) 0 0 ∗ dutyTok ER (recvCell (mate c 0 2) 2) 0 0
        ∗ dutyTok ER (sendCell c 2) 0 1 ∗ dutyTok ER (recvCell (mate c 1 2) 2) 0 1
        ∗ rsTileAny (F := F) (mate c 0 2) 0 0 2
        ∗ rsTileAny (F := F) (mate c 1 2) 0 1 2
        ∗ accTile c 0 0 (A I 0 c 0 0 2)
        ∗ accTile c 0 1 (A I 0 c 0 1 2)
        ∗ P)
      ⊢ wp frame (wpE (defs₀ (F := F)) 𝒱₀ (c : Thread nD τ) none) Set.univ
          (k0_part22 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw588 c))
          (fun tup => iprop(⌜tup = ⟨Vals.lw599 c, Vals.lw610 c⟩⌝
            ∗ (∃ W, owes (c : Thread nD τ) (owedFrom c 17) W)
            ∗ cred (tallyAt (sendCell c 2) () N)
            ∗ cred (tallyAt (sendCell c 2) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 2)) $$ HR
  ihave #HRs := (reached_at (RdI I) K (c, Cell.send 2)) $$ HR
  ihave #HIr0 := (inv_at (RdI I) K (mate c 0 2, Cell.recv 2)) $$ HR
  ihave #HRr0 := (reached_at (RdI I) K (mate c 0 2, Cell.recv 2)) $$ HR
  ihave #HIr1 := (inv_at (RdI I) K (mate c 1 2, Cell.recv 2)) $$ HR
  ihave #HRr1 := (reached_at (RdI I) K (mate c 1 2, Cell.recv 2)) $$ HR
  sl_exec
  iapply (wp_fire_at (accCI I) (rs0I I) c 2 0 (g := 0) (rg := 0) (s := 2) (by decide) (by decide) (by decide)
      (dv := ⟨k0_dev16 c, k0_dev16_lt c⟩) ((dev16_eq c).trans rfl) rfl rfl (sendS_eq 2).symm (recvS_eq 2).symm
      (accEmb 0 0 (A I 0 c 0 0 2)) rfl fd0 (owedFrom c 16) (owed_copy c 4 0 15 (by decide) 2 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 2 1 (g := 0) (rg := 0) (s := 2) (by decide) (by decide) (by decide)
      (dv := ⟨k0_dev17 c, k0_dev17_lt c⟩) ((dev17_eq c).trans rfl) rfl rfl (sendS_eq 2).symm (recvS_eq 2).symm
      (accEmb 0 1 (A I 0 c 0 1 2)) rfl fd1 (owedFrom c 17) (owed_copy c 4 1 16 (by decide) 2 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_22' depends on axioms: [propext, Classical.choice, Quot.sound] -/
#guard_msgs in #print axioms Cert.Kernel.Body.local_22

end
-- ==== Proof.Bits.Parts.Part23.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L23
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 23 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 23 of the body, run from the place before it, ends at the place after it and returns its values; whatever else is held is kept. -/
theorem part_23 (m : (ℓ : Loc nD τ sig) → Buf (Elt F) ℓ) (K : Dev nD × Cell → ℕ) (c : Dev nD) (Fr : sProp 𝕄) :
    iprop(St (insM m) K (σ 22) c ∗ outHeld (insM m) c (σ 22).outs ∗ Fr)
      ⊢ wp frame (wpE (defs₀ (F := F)) 𝒱₀ (c : Thread nD τ) none) Set.univ
          (k0_part23 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv31 (insM m) c) (Vals.lv34 (insM m) c) (Vals.lv422 (insM m) c) (Vals.lw489 c))
          (fun tup => iprop(⌜tup = ⟨Vals.lv623 (insM m) c, Vals.lv626 (insM m) c⟩⌝ ∗ St (insM m) K (σ 23) c ∗ outHeld (insM m) c (σ 23).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 17 : sProp (MT nD τ sig Unit (Elt F) ℕ UU ℕ)) = iprop(dutyTok ER (sendCell c 2) 0 2 ∗ dutyTok ER (recvCell (mate c 2 2) 2) 0 2 ∗ toksFrom c 18) := toksFrom_copy c 4 2
  have hF0 : (foreignFrom c 14 : sProp (MT nD τ sig Unit (Elt F) ℕ UU ℕ)) = iprop(rsTileAny (mate c 2 2) 0 2 2 ∗ foreignFrom c 15) := foreignFrom_succ c 4 2
  have hC : (credFrom c 12 : sProp (MT nD τ sig Unit (Elt F) ℕ UU ℕ)) = iprop(credFrom c 13 ∗ cred (tallyAt (recvCell c 4) () N)) := by
    rw [credFrom_succ c 12 (by omega), show ownCell c 12 = recvCell c 4 from ownCell_fire c 3 0, show dueAmt 12 = N from dueAmt_fire 3 0]
  have hG : (todoFrom c 7 : sProp (MT nD τ sig Unit (Elt F) ℕ UU ℕ)) = iprop(curCell (sendCell c 4) (fun p => (RdI (insM m)).payload (sendCell c 4) 0 p) 0 ∗ curCell (recvCell c 4) (fun p => (RdI (insM m)).payload (recvCell c 4) 0 p) 0 ∗ todoFrom c 9) := todo_group c 3
  rw [show (σ 23).outs = (σ 22).outs from rfl, St_open_22, St_open_23, hT0, hF0, hC, hG]
  simp only [hemp, hemp']
  refine BIBase.Entails.trans (Entails.of_eq ?_) (BIBase.Entails.trans (local_23 (insM m) K c iprop(toksFrom c 18 ∗ credFrom c 13 ∗ cred (tallyAt (sendCell c 4) () N) ∗ cred (tallyAt (sendCell c 4) () N) ∗ cred (tallyAt (sendCell c 2) () N) ∗ cred (tallyAt (sendCell c 2) () N) ∗ doneTo c 7 ∗ todoFrom c 9 ∗ foreignFrom c 15 ∗ rsBack (insM m) c 3 ∗ accTileAny c 2 0 ∗ accTileAny c 2 1 ∗ accTileAny c 2 2 ∗ accTileAny c 3 0 ∗ accTileAny c 3 1 ∗ accTileAny c 3 2 ∗ outHeld (insM m) c (σ 22).outs ∗ Fr)) (wp_mono _ _ _ fun tup => Entails.of_eq ?_))
  · ac_rfl
  · ac_rfl

/-- info: 'Cert.Kernel.Body.part_23' depends on axioms: [propext, Classical.choice, Quot.sound] -/
#guard_msgs in #print axioms part_23

end Cert.Kernel.Body

end
-- ==== Proof.Bits.Parts.L26.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 26 of the body: the stores into accumulator tiles (1, 1), (1, 2), then the start of the copy of part 0 at step 5 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_26 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 18) W)
        ∗ dutyTok ER (sendCell c 5) 0 0 ∗ dutyTok ER (recvCell (mate c 0 5) 5) 0 0
        ∗ rsTileAny (mate c 0 5) (rgOf 5) 0 (sOf 5)
        ∗ accTile c 1 1 (Vals.A I 0 c 1 1 1)
        ∗ accTile c 1 2 (Vals.A I 0 c 1 2 1)
        ∗ rsTile c 1 2 1 (Vals.R I 0 c 1 2 1)
        ∗ accTile c 1 0 (Vals.A I 0 c 1 0 2)
        ∗ P) : sProp (MT nD τ sig Unit (Elt F) ℕ UU ℕ))
      ⊢ wp frame (wpE (defs₀ (F := F)) 𝒱₀ (c : Thread nD τ) none) Set.univ
      (k0_part26 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv681 I c))
      (fun tup => iprop(⌜tup = ⟨Vals.lw693 c, Vals.lw704 c⟩⌝
        ∗ records (RdI I) K
        ∗ (∃ W, owes (c : Thread nD τ) (owedFrom c 19) W)
        ∗ cred (tallyAt (sendCell c 5) () N)
        ∗ accTile c 1 1 (Vals.A I 0 c 1 1 2)
        ∗ accTile c 1 2 (Vals.A I 0 c 1 2 2)
        ∗ rsTile c 1 2 1 (Vals.R I 0 c 1 2 1)
        ∗ P)) := by
  unfold accTile rsTile rsTileAny Proto.accPts Proto.rsPts
  iintro ⟨#Hrec, ⟨%W, HO⟩, Hts0, Htr0, ⟨%fd0, Hfd0⟩, Ha11, Ha12, Hr121, Ha10, HP⟩
  ihave #HIs0 := (inv_at (RdI I) K (c, Cell.send 5)) $$ Hrec
  ihave #HIr0 := (inv_at (RdI I) K (mate c 0 5, Cell.recv 5)) $$ Hrec
  ihave #Hrs0 := (reached_at (RdI I) K (c, Cell.send 5)) $$ Hrec
  ihave #Hrr0 := (reached_at (RdI I) K (mate c 0 5, Cell.recv 5)) $$ Hrec
  rw [k0_part26_eq_skeleton]
  unfold k0_part26_skel
  sl_exec
  -- the copy of part 0 at step 5 (started as number 6): its units on the partner's receive cell are owed last
  have hc0 : dueCell c 18 = recvCell (mate c 0 5) 5 := dueCell_fire c 5 0
  have ha0 : dueAmt 18 = N := dueAmt_fire 5 0
  have hO0 : owedFrom c 18 = owedFrom c 19 + tallyAt (recvCell (mate c 0 5) 5) () N :=
    (owedFrom_succ c 18 (by decide)).trans (by rw [hc0, ha0])
  iapply (wp_fire_at (accCI I) (rs0I I) c 5 0 (g := 1) (rg := 1) (s := 2) rfl rfl rfl (dev19_eq c) rfl rfl
    (sendS_eq 5) (recvS_eq 5) (accEmb 1 0 (Vals.A I 0 c 1 0 2)) rfl fd0 (owedFrom c 19) hO0) $$ [HO Hts0 Htr0 Hfd0 Ha10]
  · unfold Proto.accPts Proto.rsPts
    isplitr; · iexact HIs0
    isplitr; · iexact HIr0
    isplitl [Ha10]; · iexact Ha10
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha11_e : View.read (Elt F) (accV 1 1) (local_26.sl.Ha11_w1 I c) = Vals.A I 0 c 1 1 2 := by
    unfold local_26.sl.Ha11_w1; exact View.read_write_univ _ _
  have Ha11_t : ((Proto.accSl 1 1).view.loc (c : Thread nD τ) ↦[(Proto.accSl 1 1).view.set]{fullShare} local_26.sl.Ha11_w1 I c : sProp (MT nD τ sig Unit (Elt F) ℕ UU ℕ)) = ((Proto.accSl 1 1).view.loc (c : Thread nD τ) ↦[(Proto.accSl 1 1).view.set]{fullShare} accEmb 1 1 (Vals.A I 0 c 1 1 2) : sProp (MT nD τ sig Unit (Elt F) ℕ UU ℕ)) := accTile_of_read c fullShare 1 1 Ha11_e
  have Ha12_r0 : local_26.sl.v685 I c = Vals.A I 0 c 1 2 1 := by unfold local_26.sl.v685; exact accV_read_accEmb 1 2 _
  have Ha12_r1 : local_26.sl.v687 I c = Vals.R I 0 c 1 2 1 := by unfold local_26.sl.v687; exact rsV_read_rsEmb 1 2 1 _
  have Ha12_e : View.read (Elt F) (accV 1 2) (local_26.sl.Ha12_w2 I c) = Vals.A I 0 c 1 2 2 := by
    unfold local_26.sl.Ha12_w2; rw [Ha12_r0, Ha12_r1]; exact View.read_write_univ _ _
  have Ha12_t : ((Proto.accSl 1 2).view.loc (c : Thread nD τ) ↦[(Proto.accSl 1 2).view.set]{fullShare} local_26.sl.Ha12_w2 I c : sProp (MT nD τ sig Unit (Elt F) ℕ UU ℕ)) = ((Proto.accSl 1 2).view.loc (c : Thread nD τ) ↦[(Proto.accSl 1 2).view.set]{fullShare} accEmb 1 2 (Vals.A I 0 c 1 2 2) : sProp (MT nD τ sig Unit (Elt F) ℕ UU ℕ)) := accTile_of_read c fullShare 1 2 Ha12_e
  rw [← Ha11_t, ← Ha12_t]
  isplitr [HO Hcs0 Ha11 Ha12 Hr121 HP]
  · ipureintro; rfl
  isplitr [HO Hcs0 Ha11 Ha12 Hr121 HP]; · iexact Hrec
  isplitl [HO]; · iexists W; iexact HO
  iframe

/-- info: 'Cert.Kernel.Body.local_26' depends on axioms: [propext, Classical.choice, Quot.sound] -/
#guard_msgs in #print axioms local_26

end Cert.Kernel.Body
-- ==== Proof.Bits.Parts.Part26.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L26
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 26 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 26 of the body, run from the place before it, ends at the place after it and returns its values; whatever else is held is kept. -/
theorem part_26 (m : (ℓ : Loc nD τ sig) → Buf (Elt F) ℓ) (K : Dev nD × Cell → ℕ) (c : Dev nD) (Fr : sProp 𝕄) :
    iprop(St (insM m) K (σ 25) c ∗ outHeld (insM m) c (σ 25).outs ∗ Fr)
      ⊢ wp frame (wpE (defs₀ (F := F)) 𝒱₀ (c : Thread nD τ) none) Set.univ
          (k0_part26 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv681 (insM m) c))
          (fun tup => iprop(⌜tup = ⟨Vals.lw693 c, Vals.lw704 c⟩⌝ ∗ St (insM m) K (σ 26) c ∗ outHeld (insM m) c (σ 26).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 18 : sProp (MT nD τ sig Unit (Elt F) ℕ UU ℕ))
      = iprop(dutyTok ER (sendCell c 5) 0 0 ∗ dutyTok ER (recvCell (mate c 0 5) 5) 0 0 ∗ toksFrom c 19) := toksFrom_copy c 5 0
  have hf0 : (foreignFrom c 15 : sProp (MT nD τ sig Unit (Elt F) ℕ UU ℕ))
      = iprop(rsTileAny (mate c 0 5) (rgOf 5) 0 (sOf 5) ∗ foreignFrom c 16) := foreignFrom_succ c 5 0
  have hb3 : (rsBack (insM m) c 4 : sProp (MT nD τ sig Unit (Elt F) ℕ UU ℕ))
      = iprop((rsTile c 1 0 1 (Vals.R (insM m) 0 c 1 0 1) ∗ rsTile c 1 1 1 (Vals.R (insM m) 0 c 1 1 1) ∗ rsTile c 1 2 1 (Vals.R (insM m) 0 c 1 2 1)) ∗ rsBack (insM m) c 3) := rsBack_succ (insM m) c 3
  rw [St_open_25, St_open_26, ht0, hf0, hb3, show (σ 25).outs = (σ 26).outs from rfl]
  simp only [hemp, hemp']
  refine BIBase.Entails.trans (Entails.of_eq ?_) (BIBase.Entails.trans
    (local_26 (insM m) K c
      (iprop(levAts Proto.L Proto.lv
        ∗ toksFrom c 19
        ∗ credFrom c 15
        ∗ cred (tallyAt (sendCell c 2) () N)
        ∗ cred (tallyAt (sendCell c 2) () N)
        ∗ cred (tallyAt (sendCell c 2) () N)
        ∗ doneTo c 9
        ∗ todoFrom c 9
        ∗ foreignFrom c 16
        ∗ rsTile c 1 0 1 (Vals.R (insM m) 0 c 1 0 1)
        ∗ rsTile c 1 1 1 (Vals.R (insM m) 0 c 1 1 1)
        ∗ rsBack (insM m) c 3
        ∗ accTileAny c 2 0
        ∗ accTileAny c 2 1
        ∗ accTileAny c 2 2
        ∗ accTileAny c 3 0
        ∗ accTileAny c 3 1
        ∗ accTileAny c 3 2
        ∗ outHeld (insM m) c (σ 26).outs
        ∗ Fr)))
    (wp_mono _ _ _ fun tup => Entails.of_eq ?_))
  · ac_rfl
  · ac_rfl

/-- info: 'Cert.Kernel.Body.part_26' depends on axioms: [propext, Classical.choice, Quot.sound] -/
#guard_msgs in #print axioms part_26

end Cert.Kernel.Body

end
-- ==== Proof.Bits.Parts.L27.lean ====
/-
  Part 27 of the body starts two copies of step 5 (the 6th step started; round 0, group 1, position 2): part 1 of accumulator slice (1, 1) goes to receive slice (1, 1, 2) of the device paired along mask 1, part 2 of accumulator slice (1, 2) goes to receive slice (1, 2, 2) of the device paired along mask 3.
  The accumulator slices, at level 2 of round 0, and the paired devices' receive slices leave the device's hands; it holds the departure credits of its send cell 5 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 27: the copies of parts 1 and 2 of step 5. -/
theorem local_27 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 19) W)
        ∗ dutyTok ER (sendCell c 5) 0 1 ∗ dutyTok ER (recvCell (mate c 1 5) 5) 0 1
        ∗ dutyTok ER (sendCell c 5) 0 2 ∗ dutyTok ER (recvCell (mate c 2 5) 5) 0 2
        ∗ rsTileAny (F := F) (mate c 1 5) 1 1 2
        ∗ rsTileAny (F := F) (mate c 2 5) 1 2 2
        ∗ accTile c 1 1 (A I 0 c 1 1 2)
        ∗ accTile c 1 2 (A I 0 c 1 2 2)
        ∗ P)
      ⊢ wp frame (wpE (defs₀ (F := F)) 𝒱₀ (c : Thread nD τ) none) Set.univ
          (k0_part27 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw704 c))
          (fun tup => iprop(⌜tup = Vals.lw715 c⌝
            ∗ (∃ W, owes (c : Thread nD τ) (owedFrom c 21) W)
            ∗ cred (tallyAt (sendCell c 5) () N)
            ∗ cred (tallyAt (sendCell c 5) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 5)) $$ HR
  ihave #HRs := (reached_at (RdI I) K (c, Cell.send 5)) $$ HR
  ihave #HIr0 := (inv_at (RdI I) K (mate c 1 5, Cell.recv 5)) $$ HR
  ihave #HRr0 := (reached_at (RdI I) K (mate c 1 5, Cell.recv 5)) $$ HR
  ihave #HIr1 := (inv_at (RdI I) K (mate c 2 5, Cell.recv 5)) $$ HR
  ihave #HRr1 := (reached_at (RdI I) K (mate c 2 5, Cell.recv 5)) $$ HR
  sl_exec
  iapply (wp_fire_at (accCI I) (rs0I I) c 5 1 (g := 1) (rg := 1) (s := 2) (by decide) (by decide) (by decide)
      (dv := ⟨k0_dev20 c, k0_dev20_lt c⟩) ((dev20_eq c).trans rfl) rfl rfl (sendS_eq 5).symm (recvS_eq 5).symm
      (accEmb 1 1 (A I 0 c 1 1 2)) rfl fd0 (owedFrom c 20) (owed_copy c 5 1 19 (by decide) 5 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 5 2 (g := 1) (rg := 1) (s := 2) (by decide) (by decide) (by decide)
      (dv := ⟨k0_dev21 c, k0_dev21_lt c⟩) ((dev21_eq c).trans rfl) rfl rfl (sendS_eq 5).symm (recvS_eq 5).symm
      (accEmb 1 2 (A I 0 c 1 2 2)) rfl fd1 (owedFrom c 21) (owed_copy c 5 2 20 (by decide) 5 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_27' depends on axioms: [propext, Classical.choice, Quot.sound] -/
#guard_msgs in #print axioms Cert.Kernel.Body.local_27

end
-- ==== Proof.Bits.Parts.Part30.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L30
import proofs.«900775_g7700000000000776_dist_diff_dit_htp_i_b2_s512_d768_hq4_v7x_i8_f32_1_alg».proof.Proof.Gen.Kernel.Skeleton
import Idealize.ShloMosaic.Lib.Tactic

/-! Part 30 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 30 of the body, run from the place before it, ends at the place after it and returns its values; whatever else is held is kept. -/
theorem part_30 (m : (ℓ : Loc nD τ sig) → Buf (Elt F) ℓ) (K : Dev nD × Cell → ℕ) (c : Dev nD) (Fr : sProp 𝕄) :
    iprop(St (insM m) K (σ 29) c ∗ outHeld (insM m) c (σ 29).outs ∗ Fr)
      ⊢ wp frame (wpE (defs₀ (F := F)) 𝒱₀ (c : Thread nD τ) none) Set.univ
          (k0_part30 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv37 (insM m) c) (Vals.lv623 (insM m) c) (Vals.lv626 (insM m) c) (Vals.lv773 (insM m) c) (Vals.lv774 (insM m) c) (Vals.lv776 (insM m) c) (Vals.lv777 (insM m) c))
          (fun tup => iprop(⌜tup = Vals.lv824 (insM m) c⌝ ∗ St (insM m) K (σ 30) c ∗ outHeld (insM m) c (σ 30).outs ∗ Fr)) := by
  have e : σ 30 = σ 29 := rfl
  rw [e]
  exact local_30 (insM m) c _

/-- info: 'Cert.Kernel.Body.part_30' depends on axioms: [propext, Classical.choice, Quot.sound] -/
#guard_msgs in #print axioms part_30

end Cert.Kernel.Body

end
-- ==== Proof.Bits.Parts.L31.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 31 of the body: the stores into accumulator tiles (2, 0), (2, 1), (2, 2), then the start of the copy of part 0 at step 6 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_31 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 21) W)
        ∗ dutyTok ER (sendCell c 6) 0 0 ∗ dutyTok ER (recvCell (mate c 0 6) 6) 0 0
        ∗ rsTileAny (mate c 0 6) (rgOf 6) 0 (sOf 6)
        ∗ accTileAny c 2 0
        ∗ accTileAny c 2 1
        ∗ accTileAny c 2 2
        ∗ P) : sProp (MT nD τ sig Unit (Elt F) ℕ UU ℕ))
      ⊢ wp frame (wpE (defs₀ (F := F)) 𝒱₀ (c : Thread nD τ) none) Set.univ
      (k0_part31 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv824 I c))
      (fun tup => iprop(⌜tup = ⟨Vals.lw838 c, Vals.lw849 c⟩⌝
        ∗ records (RdI I) K
        ∗ (∃ W, owes (c : Thread nD τ) (owedFrom c 22) W)
        ∗ cred (tallyAt (sendCell c 6) () N)
        ∗ accTile c 2 1 (Vals.A I 0 c 2 1 0)
        ∗ accTile c 2 2 (Vals.A I 0 c 2 2 0)
        ∗ P)) := by
  unfold accTile rsTileAny accTileAny Proto.accPts Proto.rsPts
  iintro ⟨#Hrec, ⟨%W, HO⟩, Hts0, Htr0, ⟨%fd0, Hfd0⟩, ⟨%fHa20, Ha20⟩, ⟨%fHa21, Ha21⟩, ⟨%fHa22, Ha22⟩, HP⟩
  ihave #HIs0 := (inv_at (RdI I) K (c, Cell.send 6)) $$ Hrec
  ihave #HIr0 := (inv_at (RdI I) K (mate c 0 6, Cell.recv 6)) $$ Hrec
  ihave #Hrs0 := (reached_at (RdI I) K (c, Cell.send 6)) $$ Hrec
  ihave #Hrr0 := (reached_at (RdI I) K (mate c 0 6, Cell.recv 6)) $$ Hrec
  rw [k0_part31_eq_skeleton]
  unfold k0_part31_skel
  sl_exec
  -- the source tile as the level names it
  have Ha20_e : View.read (Elt F) (accV 2 0) (local_31.sl.Ha20_w1 I c fHa20) = Vals.A I 0 c 2 0 0 := by
    unfold local_31.sl.Ha20_w1; exact View.read_write_univ _ _
  have Ha20_t : ((Proto.accSl 2 0).view.loc (c : Thread nD τ) ↦[(Proto.accSl 2 0).view.set]{fullShare} local_31.sl.Ha20_w1 I c fHa20 : sProp (MT nD τ sig Unit (Elt F) ℕ UU ℕ)) = ((Proto.accSl 2 0).view.loc (c : Thread nD τ) ↦[(Proto.accSl 2 0).view.set]{fullShare} accEmb 2 0 (Vals.A I 0 c 2 0 0) : sProp (MT nD τ sig Unit (Elt F) ℕ UU ℕ)) := accTile_of_read c fullShare 2 0 Ha20_e
  ihave Ha20 := (Entails.of_eq Ha20_t) $$ Ha20
  -- the copy of part 0 at step 6 (started as number 7): its units on the partner's receive cell are owed last
  have hc0 : dueCell c 21 = recvCell (mate c 0 6) 6 := dueCell_fire c 6 0
  have ha0 : dueAmt 21 = N := dueAmt_fire 6 0
  have hO0 : owedFrom c 21 = owedFrom c 22 + tallyAt (recvCell (mate c 0 6) 6) () N :=
    (owedFrom_succ c 21 (by decide)).trans (by rw [hc0, ha0])
  iapply (wp_fire_at (accCI I) (rs0I I) c 6 0 (g := 2) (rg := 2) (s := 0) rfl rfl rfl (dev22_eq c) rfl rfl
    (sendS_eq 6) (recvS_eq 6) (accEmb 2 0 (Vals.A I 0 c 2 0 0)) rfl fd0 (owedFrom c 22) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha21_e : View.read (Elt F) (accV 2 1) (local_31.sl.Ha21_w2 I c fHa21) = Vals.A I 0 c 2 1 0 := by
    unfold local_31.sl.Ha21_w2; exact View.read_write_univ _ _
  have Ha21_t : ((Proto.accSl 2 1).view.loc (c : Thread nD τ) ↦[(Proto.accSl 2 1).view.set]{fullShare} local_31.sl.Ha21_w2 I c fHa21 : sProp (MT nD τ sig Unit (Elt F) ℕ UU ℕ)) = ((Proto.accSl 2 1).view.loc (c : Thread nD τ) ↦[(Proto.accSl 2 1).view.set]{fullShare} accEmb 2 1 (Vals.A I 0 c 2 1 0) : sProp (MT nD τ sig Unit (Elt F) ℕ UU ℕ)) := accTile_of_read c fullShare 2 1 Ha21_e
  have Ha22_e : View.read (Elt F) (accV 2 2) (local_31.sl.Ha22_w3 I c fHa22) = Vals.A I 0 c 2 2 0 := by
    unfold local_31.sl.Ha22_w3; exact View.read_write_univ _ _
  have Ha22_t : ((Proto.accSl 2 2).view.loc (c : Thread nD τ) ↦[(Proto.accSl 2 2).view.set]{fullShare} local_31.sl.Ha22_w3 I c fHa22 : sProp (MT nD τ sig Unit (Elt F) ℕ UU ℕ)) = ((Proto.accSl 2 2).view.loc (c : Thread nD τ) ↦[(Proto.accSl 2 2).view.set]{fullShare} accEmb 2 2 (Vals.A I 0 c 2 2 0) : sProp (MT nD τ sig Unit (Elt F) ℕ UU ℕ)) := accTile_of_read c fullShare 2 2 Ha22_e
  rw [← Ha21_t, ← Ha22_t]
  isplitr [HO Hcs0 Ha21 Ha22 HP]
  · ipureintro; rfl
  isplitr [HO Hcs0 Ha21 Ha22 HP]; · iexact Hrec
  isplitl [HO]; · iexists W; iexact HO
  iframe

/-- info: 'Cert.Kernel.Body.local_31' depends on axioms: [propext, Classical.choice, Quot.sound] -/
#guard_msgs in #print axioms local_31

end Cert.Kernel.Body
-- ==== Proof.Bits.Parts.Part31.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L31
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 31 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 31 of the body, run from the place before it, ends at the place after it and returns its values; whatever else is held is kept. -/
theorem part_31 (m : (ℓ : Loc nD τ sig) → Buf (Elt F) ℓ) (K : Dev nD × Cell → ℕ) (c : Dev nD) (Fr : sProp 𝕄) :
    iprop(St (insM m) K (σ 30) c ∗ outHeld (insM m) c (σ 30).outs ∗ Fr)
      ⊢ wp frame (wpE (defs₀ (F := F)) 𝒱₀ (c : Thread nD τ) none) Set.univ
          (k0_part31 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv824 (insM m) c))
          (fun tup => iprop(⌜tup = ⟨Vals.lw838 c, Vals.lw849 c⟩⌝ ∗ St (insM m) K (σ 31) c ∗ outHeld (insM m) c (σ 31).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 21 : sProp (MT nD τ sig Unit (Elt F) ℕ UU ℕ))
      = iprop(dutyTok ER (sendCell c 6) 0 0 ∗ dutyTok ER (recvCell (mate c 0 6) 6) 0 0 ∗ toksFrom c 22) := toksFrom_copy c 6 0
  have hf0 : (foreignFrom c 18 : sProp (MT nD τ sig Unit (Elt F) ℕ UU ℕ))
      = iprop(rsTileAny (mate c 0 6) (rgOf 6) 0 (sOf 6) ∗ foreignFrom c 19) := foreignFrom_succ c 6 0
  rw [St_open_30, St_open_31, ht0, hf0, show (σ 30).outs = (σ 31).outs from rfl]
  simp only [hemp, hemp']
  refine BIBase.Entails.trans (Entails.of_eq ?_) (BIBase.Entails.trans
    (local_31 (insM m) K c
      (iprop(levAts Proto.L Proto.lv
        ∗ toksFrom c 22
        ∗ credFrom c 18
        ∗ cred (tallyAt (sendCell c 5) () N)
        ∗ cred (tallyAt (sendCell c 5) () N)
        ∗ cred (tallyAt (sendCell c 5) () N)
        ∗ doneTo c 11
        ∗ todoFrom c 11
        ∗ foreignFrom c 19
        ∗ rsBack (insM m) c 5
        ∗ accTile c 0 0 (Vals.A (insM m) 0 c 0 0 2)
        ∗ accTile c 0 1 (Vals.A (insM m) 0 c 0 1 2)
        ∗ accTile c 0 2 (Vals.A (insM m) 0 c 0 2 2)
        ∗ accTileAny c 3 0
        ∗ accTileAny c 3 1
        ∗ accTileAny c 3 2
        ∗ outHeld (insM m) c (σ 31).outs
        ∗ Fr)))
    (wp_mono _ _ _ fun tup => Entails.of_eq ?_))
  · ac_rfl
  · ac_rfl

/-- info: 'Cert.Kernel.Body.part_31' depends on axioms: [propext, Classical.choice, Quot.sound] -/
#guard_msgs in #print axioms part_31

end Cert.Kernel.Body

end
-- ==== Proof.Bits.Parts.L32.lean ====
/-
  Part 32 of the body starts two copies of step 6 (the 7th step started; round 0, group 2, position 0): part 1 of accumulator slice (2, 1) goes to receive slice (2, 1, 0) of the device paired along mask 3, part 2 of accumulator slice (2, 2) goes to receive slice (2, 2, 0) of the device paired along mask 4.
  The accumulator slices, at level 0 of round 0, and the paired devices' receive slices leave the device's hands; it holds the departure credits of its send cell 6 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 32: the copies of parts 1 and 2 of step 6. -/
theorem local_32 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 22) W)
        ∗ dutyTok ER (sendCell c 6) 0 1 ∗ dutyTok ER (recvCell (mate c 1 6) 6) 0 1
        ∗ dutyTok ER (sendCell c 6) 0 2 ∗ dutyTok ER (recvCell (mate c 2 6) 6) 0 2
        ∗ rsTileAny (F := F) (mate c 1 6) 2 1 0
        ∗ rsTileAny (F := F) (mate c 2 6) 2 2 0
        ∗ accTile c 2 1 (A I 0 c 2 1 0)
        ∗ accTile c 2 2 (A I 0 c 2 2 0)
        ∗ P)
      ⊢ wp frame (wpE (defs₀ (F := F)) 𝒱₀ (c : Thread nD τ) none) Set.univ
          (k0_part32 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw849 c))
          (fun tup => iprop(⌜tup = Vals.lw860 c⌝
            ∗ (∃ W, owes (c : Thread nD τ) (owedFrom c 24) W)
            ∗ cred (tallyAt (sendCell c 6) () N)
            ∗ cred (tallyAt (sendCell c 6) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 6)) $$ HR
  ihave #HRs := (reached_at (RdI I) K (c, Cell.send 6)) $$ HR
  ihave #HIr0 := (inv_at (RdI I) K (mate c 1 6, Cell.recv 6)) $$ HR
  ihave #HRr0 := (reached_at (RdI I) K (mate c 1 6, Cell.recv 6)) $$ HR
  ihave #HIr1 := (inv_at (RdI I) K (mate c 2 6, Cell.recv 6)) $$ HR
  ihave #HRr1 := (reached_at (RdI I) K (mate c 2 6, Cell.recv 6)) $$ HR
  sl_exec
  iapply (wp_fire_at (accCI I) (rs0I I) c 6 1 (g := 2) (rg := 2) (s := 0) (by decide) (by decide) (by decide)
      (dv := ⟨k0_dev23 c, k0_dev23_lt c⟩) ((dev23_eq c).trans rfl) rfl rfl (sendS_eq 6).symm (recvS_eq 6).symm
      (accEmb 2 1 (A I 0 c 2 1 0)) rfl fd0 (owedFrom c 23) (owed_copy c 6 1 22 (by decide) 6 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 6 2 (g := 2) (rg := 2) (s := 0) (by decide) (by decide) (by decide)
      (dv := ⟨k0_dev24 c, k0_dev24_lt c⟩) ((dev24_eq c).trans rfl) rfl rfl (sendS_eq 6).symm (recvS_eq 6).symm
      (accEmb 2 2 (A I 0 c 2 2 0)) rfl fd1 (owedFrom c 24) (owed_copy c 6 2 23 (by decide) 6 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_32' depends on axioms: [propext, Classical.choice, Quot.sound] -/
#guard_msgs in #print axioms Cert.Kernel.Body.local_32

end
-- ==== Proof.Bits.Parts.Part35.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L35
import proofs.«900775_g7700000000000776_dist_diff_dit_htp_i_b2_s512_d768_hq4_v7x_i8_f32_1_alg».proof.Proof.Gen.Kernel.Skeleton
import Idealize.ShloMosaic.Lib.Tactic

/-! Part 35 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 35 of the body, run from the place before it, ends at the place after it and returns its values; whatever else is held is kept. -/
theorem part_35 (m : (ℓ : Loc nD τ sig) → Buf (Elt F) ℓ) (K : Dev nD × Cell → ℕ) (c : Dev nD) (Fr : sProp 𝕄) :
    iprop(St (insM m) K (σ 34) c ∗ outHeld (insM m) c (σ 34).outs ∗ Fr)
      ⊢ wp frame (wpE (defs₀ (F := F)) 𝒱₀ (c : Thread nD τ) none) Set.univ
          (k0_part35 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv623 (insM m) c) (Vals.lv626 (insM m) c) (Vals.lv918 (insM m) c) (Vals.lv919 (insM m) c) (Vals.lv920 (insM m) c) (Vals.lv921 (insM m) c))
          (fun tup => iprop(⌜tup = ⟨Vals.lv968 (insM m) c, Vals.lvcst_1034 (insM m) c⟩⌝ ∗ St (insM m) K (σ 35) c ∗ outHeld (insM m) c (σ 35).outs ∗ Fr)) := by
  have e : σ 35 = σ 34 := rfl
  rw [e]
  exact local_35 (insM m) c _

/-- info: 'Cert.Kernel.Body.part_35' depends on axioms: [propext, Classical.choice, Quot.sound] -/
#guard_msgs in #print axioms part_35

end Cert.Kernel.Body

end
-- ==== Proof.Bits.Parts.L36.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 36 of the body: the stores into accumulator tiles (3, 0), (3, 1), (3, 2), then the start of the copy of part 0 at step 9 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_36 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 24) W)
        ∗ dutyTok ER (sendCell c 9) 0 0 ∗ dutyTok ER (recvCell (mate c 0 9) 9) 0 0
        ∗ rsTileAny (mate c 0 9) (rgOf 9) 0 (sOf 9)
        ∗ accTileAny c 3 0
        ∗ accTileAny c 3 1
        ∗ accTileAny c 3 2
        ∗ P) : sProp (MT nD τ sig Unit (Elt F) ℕ UU ℕ))
      ⊢ wp frame (wpE (defs₀ (F := F)) 𝒱₀ (c : Thread nD τ) none) Set.univ
      (k0_part36 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv37 I c) (Vals.lv968 I c) (Vals.lvcst_1034 I c))
      (fun tup => iprop(⌜tup = ⟨Vals.lw983 c, Vals.lw994 c⟩⌝
        ∗ records (RdI I) K
        ∗ (∃ W, owes (c : Thread nD τ) (owedFrom c 25) W)
        ∗ cred (tallyAt (sendCell c 9) () N)
        ∗ accTile c 3 1 (Vals.A I 0 c 3 1 0)
        ∗ accTile c 3 2 (Vals.A I 0 c 3 2 0)
        ∗ P)) := by
  unfold accTile rsTileAny accTileAny Proto.accPts Proto.rsPts
  iintro ⟨#Hrec, ⟨%W, HO⟩, Hts0, Htr0, ⟨%fd0, Hfd0⟩, ⟨%fHa30, Ha30⟩, ⟨%fHa31, Ha31⟩, ⟨%fHa32, Ha32⟩, HP⟩
  ihave #HIs0 := (inv_at (RdI I) K (c, Cell.send 9)) $$ Hrec
  ihave #HIr0 := (inv_at (RdI I) K (mate c 0 9, Cell.recv 9)) $$ Hrec
  ihave #Hrs0 := (reached_at (RdI I) K (c, Cell.send 9)) $$ Hrec
  ihave #Hrr0 := (reached_at (RdI I) K (mate c 0 9, Cell.recv 9)) $$ Hrec
  rw [k0_part36_eq_skeleton]
  unfold k0_part36_skel
  sl_exec
  -- the source tile as the level names it
  have Ha30_e : View.read (Elt F) (accV 3 0) (local_36.sl.Ha30_w1 I c fHa30) = Vals.A I 0 c 3 0 0 := by
    unfold local_36.sl.Ha30_w1; exact View.read_write_univ _ _
  have Ha30_t : ((Proto.accSl 3 0).view.loc (c : Thread nD τ) ↦[(Proto.accSl 3 0).view.set]{fullShare} local_36.sl.Ha30_w1 I c fHa30 : sProp (MT nD τ sig Unit (Elt F) ℕ UU ℕ)) = ((Proto.accSl 3 0).view.loc (c : Thread nD τ) ↦[(Proto.accSl 3 0).view.set]{fullShare} accEmb 3 0 (Vals.A I 0 c 3 0 0) : sProp (MT nD τ sig Unit (Elt F) ℕ UU ℕ)) := accTile_of_read c fullShare 3 0 Ha30_e
  ihave Ha30 := (Entails.of_eq Ha30_t) $$ Ha30
  -- the copy of part 0 at step 9 (started as number 8): its units on the partner's receive cell are owed last
  have hc0 : dueCell c 24 = recvCell (mate c 0 9) 9 := dueCell_fire c 7 0
  have ha0 : dueAmt 24 = N := dueAmt_fire 7 0
  have hO0 : owedFrom c 24 = owedFrom c 25 + tallyAt (recvCell (mate c 0 9) 9) () N :=
    (owedFrom_succ c 24 (by decide)).trans (by rw [hc0, ha0])
  iapply (wp_fire_at (accCI I) (rs0I I) c 9 0 (g := 3) (rg := 3) (s := 0) rfl rfl rfl (dev25_eq c) rfl rfl
    (sendS_eq 9) (recvS_eq 9) (accEmb 3 0 (Vals.A I 0 c 3 0 0)) rfl fd0 (owedFrom c 25) hO0) $$ [HO Hts0 Htr0 Hfd0 Ha30]
  · unfold Proto.accPts Proto.rsPts
    isplitr; · iexact HIs0
    isplitr; · iexact HIr0
    isplitl [Ha30]; · iexact Ha30
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha31_e : View.read (Elt F) (accV 3 1) (local_36.sl.Ha31_w2 I c fHa31) = Vals.A I 0 c 3 1 0 := by
    unfold local_36.sl.Ha31_w2; exact View.read_write_univ _ _
  have Ha31_t : ((Proto.accSl 3 1).view.loc (c : Thread nD τ) ↦[(Proto.accSl 3 1).view.set]{fullShare} local_36.sl.Ha31_w2 I c fHa31 : sProp (MT nD τ sig Unit (Elt F) ℕ UU ℕ)) = ((Proto.accSl 3 1).view.loc (c : Thread nD τ) ↦[(Proto.accSl 3 1).view.set]{fullShare} accEmb 3 1 (Vals.A I 0 c 3 1 0) : sProp (MT nD τ sig Unit (Elt F) ℕ UU ℕ)) := accTile_of_read c fullShare 3 1 Ha31_e
  have Ha32_e : View.read (Elt F) (accV 3 2) (local_36.sl.Ha32_w3 I c fHa32) = Vals.A I 0 c 3 2 0 := by
    unfold local_36.sl.Ha32_w3; exact View.read_write_univ _ _
  have Ha32_t : ((Proto.accSl 3 2).view.loc (c : Thread nD τ) ↦[(Proto.accSl 3 2).view.set]{fullShare} local_36.sl.Ha32_w3 I c fHa32 : sProp (MT nD τ sig Unit (Elt F) ℕ UU ℕ)) = ((Proto.accSl 3 2).view.loc (c : Thread nD τ) ↦[(Proto.accSl 3 2).view.set]{fullShare} accEmb 3 2 (Vals.A I 0 c 3 2 0) : sProp (MT nD τ sig Unit (Elt F) ℕ UU ℕ)) := accTile_of_read c fullShare 3 2 Ha32_e
  rw [← Ha31_t, ← Ha32_t]
  isplitr [HO Hcs0 Ha31 Ha32 HP]
  · ipureintro; rfl
  isplitr [HO Hcs0 Ha31 Ha32 HP]; · iexact Hrec
  isplitl [HO]; · iexists W; iexact HO
  iframe

/-- info: 'Cert.Kernel.Body.local_36' depends on axioms: [propext, Classical.choice, Quot.sound] -/
#guard_msgs in #print axioms local_36

end Cert.Kernel.Body
-- ==== Proof.Bits.Parts.Part36.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L36
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 36 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 36 of the body, run from the place before it, ends at the place after it and returns its values; whatever else is held is kept. -/
theorem part_36 (m : (ℓ : Loc nD τ sig) → Buf (Elt F) ℓ) (K : Dev nD × Cell → ℕ) (c : Dev nD) (Fr : sProp 𝕄) :
    iprop(St (insM m) K (σ 35) c ∗ outHeld (insM m) c (σ 35).outs ∗ Fr)
      ⊢ wp frame (wpE (defs₀ (F := F)) 𝒱₀ (c : Thread nD τ) none) Set.univ
          (k0_part36 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv37 (insM m) c) (Vals.lv968 (insM m) c) (Vals.lvcst_1034 (insM m) c))
          (fun tup => iprop(⌜tup = ⟨Vals.lw983 c, Vals.lw994 c⟩⌝ ∗ St (insM m) K (σ 36) c ∗ outHeld (insM m) c (σ 36).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 24 : sProp (MT nD τ sig Unit (Elt F) ℕ UU ℕ))
      = iprop(dutyTok ER (sendCell c 9) 0 0 ∗ dutyTok ER (recvCell (mate c 0 9) 9) 0 0 ∗ toksFrom c 25) := toksFrom_copy c 7 0
  have hf0 : (foreignFrom c 21 : sProp (MT nD τ sig Unit (Elt F) ℕ UU ℕ))
      = iprop(rsTileAny (mate c 0 9) (rgOf 9) 0 (sOf 9) ∗ foreignFrom c 22) := foreignFrom_succ c 7 0
  rw [St_open_35, St_open_36, ht0, hf0, show (σ 35).outs = (σ 36).outs from rfl]
  simp only [hemp, hemp']
  refine BIBase.Entails.trans (Entails.of_eq ?_) (BIBase.Entails.trans
    (local_36 (insM m) K c
      (iprop(levAts Proto.L Proto.lv
        ∗ toksFrom c 25
        ∗ credFrom c 21
        ∗ cred (tallyAt (sendCell c 6) () N)
        ∗ cred (tallyAt (sendCell c 6) () N)
        ∗ cred (tallyAt (sendCell c 6) () N)
        ∗ doneTo c 13
        ∗ todoFrom c 13
        ∗ foreignFrom c 22
        ∗ rsBack (insM m) c 6
        ∗ accTile c 0 0 (Vals.A (insM m) 0 c 0 0 2)
        ∗ accTile c 0 1 (Vals.A (insM m) 0 c 0 1 2)
        ∗ accTile c 0 2 (Vals.A (insM m) 0 c 0 2 2)
        ∗ accTile c 1 0 (Vals.A (insM m) 0 c 1 0 2)
        ∗ accTile c 1 1 (Vals.A (insM m) 0 c 1 1 2)
        ∗ accTile c 1 2 (Vals.A (insM m) 0 c 1 2 2)
        ∗ outHeld (insM m) c (σ 36).outs
        ∗ Fr)))
    (wp_mono _ _ _ fun tup => Entails.of_eq ?_))
  · ac_rfl
  · ac_rfl

/-- info: 'Cert.Kernel.Body.part_36' depends on axioms: [propext, Classical.choice, Quot.sound] -/
#guard_msgs in #print axioms part_36

end Cert.Kernel.Body

end
-- ==== Proof.Bits.Parts.L37.lean ====
/-
  Part 37 of the body starts two copies of step 9 (the 8th step started; round 0, group 3, position 0): part 1 of accumulator slice (3, 1) goes to receive slice (3, 1, 0) of the device paired along mask 3, part 2 of accumulator slice (3, 2) goes to receive slice (3, 2, 0) of the device paired along mask 4.
  The accumulator slices, at level 0 of round 0, and the paired devices' receive slices leave the device's hands; it holds the departure credits of its send cell 9 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 37: the copies of parts 1 and 2 of step 9. -/
theorem local_37 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 25) W)
        ∗ dutyTok ER (sendCell c 9) 0 1 ∗ dutyTok ER (recvCell (mate c 1 9) 9) 0 1
        ∗ dutyTok ER (sendCell c 9) 0 2 ∗ dutyTok ER (recvCell (mate c 2 9) 9) 0 2
        ∗ rsTileAny (F := F) (mate c 1 9) 3 1 0
        ∗ rsTileAny (F := F) (mate c 2 9) 3 2 0
        ∗ accTile c 3 1 (A I 0 c 3 1 0)
        ∗ accTile c 3 2 (A I 0 c 3 2 0)
        ∗ P)
      ⊢ wp frame (wpE (defs₀ (F := F)) 𝒱₀ (c : Thread nD τ) none) Set.univ
          (k0_part37 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw994 c))
          (fun tup => iprop(⌜tup = Vals.lw1005 c⌝
            ∗ (∃ W, owes (c : Thread nD τ) (owedFrom c 27) W)
            ∗ cred (tallyAt (sendCell c 9) () N)
            ∗ cred (tallyAt (sendCell c 9) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 9)) $$ HR
  ihave #HRs := (reached_at (RdI I) K (c, Cell.send 9)) $$ HR
  ihave #HIr0 := (inv_at (RdI I) K (mate c 1 9, Cell.recv 9)) $$ HR
  ihave #HRr0 := (reached_at (RdI I) K (mate c 1 9, Cell.recv 9)) $$ HR
  ihave #HIr1 := (inv_at (RdI I) K (mate c 2 9, Cell.recv 9)) $$ HR
  ihave #HRr1 := (reached_at (RdI I) K (mate c 2 9, Cell.recv 9)) $$ HR
  sl_exec
  iapply (wp_fire_at (accCI I) (rs0I I) c 9 1 (g := 3) (rg := 3) (s := 0) (by decide) (by decide) (by decide)
      (dv := ⟨k0_dev26 c, k0_dev26_lt c⟩) ((dev26_eq c).trans rfl) rfl rfl (sendS_eq 9).symm (recvS_eq 9).symm
      (accEmb 3 1 (A I 0 c 3 1 0)) rfl fd0 (owedFrom c 26) (owed_copy c 7 1 25 (by decide) 9 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 9 2 (g := 3) (rg := 3) (s := 0) (by decide) (by decide) (by decide)
      (dv := ⟨k0_dev27 c, k0_dev27_lt c⟩) ((dev27_eq c).trans rfl) rfl rfl (sendS_eq 9).symm (recvS_eq 9).symm
      (accEmb 3 2 (A I 0 c 3 2 0)) rfl fd1 (owedFrom c 27) (owed_copy c 7 2 26 (by decide) 9 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_37' depends on axioms: [propext, Classical.choice, Quot.sound] -/
#guard_msgs in #print axioms Cert.Kernel.Body.local_37

end
-- ==== Proof.Bits.Parts.Part40.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L40
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 40 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 40 of the body, run from the place before it, ends at the place after it and returns its values; whatever else is held is kept. -/
theorem part_40 (m : (ℓ : Loc nD τ sig) → Buf (Elt F) ℓ) (K : Dev nD × Cell → ℕ) (c : Dev nD) (Fr : sProp 𝕄) :
    iprop(St (insM m) K (σ 39) c ∗ outHeld (insM m) c (σ 39).outs ∗ Fr)
      ⊢ wp frame (wpE (defs₀ (F := F)) 𝒱₀ (c : Thread nD τ) none) Set.univ
          (k0_part40 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1059 (insM m) c))
          (fun tup => iprop(⌜tup = Vals.lw1082 c⌝ ∗ St (insM m) K (σ 40) c ∗ outHeld (insM m) c (σ 40).outs ∗ Fr)) := by
  have eo : (σ 40).outs = (σ 39).outs := rfl
  rw [eo]
  rw [St_eq, St_eq, StRest_congr (insM m) K c (s := σ 39) (s' := σ 40) rfl rfl rfl rfl, accAll_σ_39, accAll_σ_40, StRest_rs (insM m) K c (σ 40) rfl 6 (by decide), rs3_6]
  refine BIBase.Entails.trans ?_ ((local_40 (insM m) c iprop(StRestNoRs (insM m) K (σ 40) c 6 ∗ accTile c 0 0 (Vals.A (insM m) 0 c 0 0 2) ∗ accTile c 0 1 (Vals.A (insM m) 0 c 0 1 2) ∗ accTile c 0 2 (Vals.A (insM m) 0 c 0 2 2) ∗ accTile c 1 0 (Vals.A (insM m) 0 c 1 0 2) ∗ accTile c 1 1 (Vals.A (insM m) 0 c 1 1 2) ∗ accTile c 1 2 (Vals.A (insM m) 0 c 1 2 2) ∗ emp ∗ emp ∗ emp ∗ outHeld (insM m) c (σ 39).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T20]; · iexact T20
    isplitl [T21]; · iexact T21
    isplitl [T22]; · iexact T22
    isplitl [R0]; · iexact R0
    isplitl [R1]; · iexact R1
    isplitl [R2]; · iexact R2
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T30]; · iexact T30
    isplitl [T31]; · iexact T31
    isplitl [T32]; · iexact T32
    isplitl [HO]; · iexact HO
    iexact HF
  · iintro ⟨%ht, T20, T21, T22, R0, R1, R2, HR, T00, T01, T02, T10, T11, T12, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_40' depends on axioms: [propext, Classical.choice, Quot.sound] -/
#guard_msgs in #print axioms part_40

end Cert.Kernel.Body

end
-- ==== Proof.Bits.Parts.L41.lean ====
/-
  Part 41 of the body starts two copies of step 7 (the 9th step started; round 0, group 2, position 1): part 0 of accumulator slice (2, 0) goes to receive slice (2, 0, 1) of the device paired along mask 3, part 1 of accumulator slice (2, 1) goes to receive slice (2, 1, 1) of the device paired along mask 4.
  The accumulator slices, at level 1 of round 0, and the paired devices' receive slices leave the device's hands; it holds the departure credits of its send cell 7 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 41: the copies of parts 0 and 1 of step 7. -/
theorem local_41 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 27) W)
        ∗ dutyTok ER (sendCell c 7) 0 0 ∗ dutyTok ER (recvCell (mate c 0 7) 7) 0 0
        ∗ dutyTok ER (sendCell c 7) 0 1 ∗ dutyTok ER (recvCell (mate c 1 7) 7) 0 1
        ∗ rsTileAny (F := F) (mate c 0 7) 2 0 1
        ∗ rsTileAny (F := F) (mate c 1 7) 2 1 1
        ∗ accTile c 2 0 (A I 0 c 2 0 1)
        ∗ accTile c 2 1 (A I 0 c 2 1 1)
        ∗ P)
      ⊢ wp frame (wpE (defs₀ (F := F)) 𝒱₀ (c : Thread nD τ) none) Set.univ
          (k0_part41 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1082 c))
          (fun tup => iprop(⌜tup = ⟨Vals.lw1093 c, Vals.lw1104 c, Vals.lw1105 c, Vals.lwc0_i32_1237 c⟩⌝
            ∗ (∃ W, owes (c : Thread nD τ) (owedFrom c 29) W)
            ∗ cred (tallyAt (sendCell c 7) () N)
            ∗ cred (tallyAt (sendCell c 7) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 7)) $$ HR
  ihave #HRs := (reached_at (RdI I) K (c, Cell.send 7)) $$ HR
  ihave #HIr0 := (inv_at (RdI I) K (mate c 0 7, Cell.recv 7)) $$ HR
  ihave #HRr0 := (reached_at (RdI I) K (mate c 0 7, Cell.recv 7)) $$ HR
  ihave #HIr1 := (inv_at (RdI I) K (mate c 1 7, Cell.recv 7)) $$ HR
  ihave #HRr1 := (reached_at (RdI I) K (mate c 1 7, Cell.recv 7)) $$ HR
  sl_exec
  iapply (wp_fire_at (accCI I) (rs0I I) c 7 0 (g := 2) (rg := 2) (s := 1) (by decide) (by decide) (by decide)
      (dv := ⟨k0_dev28 c, k0_dev28_lt c⟩) ((dev28_eq c).trans rfl) rfl rfl (sendS_eq 7).symm (recvS_eq 7).symm
      (accEmb 2 0 (A I 0 c 2 0 1)) rfl fd0 (owedFrom c 28) (owed_copy c 8 0 27 (by decide) 7 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 7 1 (g := 2) (rg := 2) (s := 1) (by decide) (by decide) (by decide)
      (dv := ⟨k0_dev29 c, k0_dev29_lt c⟩) ((dev29_eq c).trans rfl) rfl rfl (sendS_eq 7).symm (recvS_eq 7).symm
      (accEmb 2 1 (A I 0 c 2 1 1)) rfl fd1 (owedFrom c 29) (owed_copy c 8 1 28 (by decide) 7 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_41' depends on axioms: [propext, Classical.choice, Quot.sound] -/
#guard_msgs in #print axioms Cert.Kernel.Body.local_41

end
-- ==== Proof.Bits.Parts.L42.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 42 of the body: the start of the copy of part 2 at step 7 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_42 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 29) W)
        ∗ dutyTok ER (sendCell c 7) 0 2 ∗ dutyTok ER (recvCell (mate c 2 7) 7) 0 2
        ∗ rsTileAny (mate c 2 7) (rgOf 7) 2 (sOf 7)
        ∗ accTile c 2 2 (Vals.A I 0 c 2 2 1)
        ∗ accTile c 0 0 (Vals.A I 0 c 0 0 2)
        ∗ rsTile c 0 0 2 (Vals.R I 0 c 0 0 2)
        ∗ accTile c 0 1 (Vals.A I 0 c 0 1 2)
        ∗ rsTile c 0 1 2 (Vals.R I 0 c 0 1 2)
        ∗ accTile c 0 2 (Vals.A I 0 c 0 2 2)
        ∗ rsTile c 0 2 2 (Vals.R I 0 c 0 2 2)
        ∗ P) : sProp (MT nD τ sig Unit (Elt F) ℕ UU ℕ))
      ⊢ wp frame (wpE (defs₀ (F := F)) 𝒱₀ (c : Thread nD τ) none) Set.univ
      (k0_part42 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv14 I c) (Vals.lw1105 c) (Vals.lwc0_i32_1237 c))
      (fun tup => iprop(⌜tup = ⟨Vals.lv1131 I c, Vals.lv1133 I c⟩⌝
        ∗ records (RdI I) K
        ∗ (∃ W, owes (c : Thread nD τ) (owedFrom c 30) W)
        ∗ cred (tallyAt (sendCell c 7) () N)
        ∗ accTile c 0 0 (Vals.A I 0 c 0 0 2)
        ∗ rsTile c 0 0 2 (Vals.R I 0 c 0 0 2)
        ∗ accTile c 0 1 (Vals.A I 0 c 0 1 2)
        ∗ rsTile c 0 1 2 (Vals.R I 0 c 0 1 2)
        ∗ accTile c 0 2 (Vals.A I 0 c 0 2 2)
        ∗ rsTile c 0 2 2 (Vals.R I 0 c 0 2 2)
        ∗ P)) := by
  unfold accTile rsTile rsTileAny Proto.accPts Proto.rsPts
  iintro ⟨#Hrec, ⟨%W, HO⟩, Hts0, Htr0, ⟨%fd0, Hfd0⟩, Ha22, Ha00, Hr002, Ha01, Hr012, Ha02, Hr022, HP⟩
  ihave #HIs0 := (inv_at (RdI I) K (c, Cell.send 7)) $$ Hrec
  ihave #HIr0 := (inv_at (RdI I) K (mate c 2 7, Cell.recv 7)) $$ Hrec
  ihave #Hrs0 := (reached_at (RdI I) K (c, Cell.send 7)) $$ Hrec
  ihave #Hrr0 := (reached_at (RdI I) K (mate c 2 7, Cell.recv 7)) $$ Hrec
  rw [k0_part42_eq_skeleton]
  unfold k0_part42_skel
  sl_exec
  -- the copy of part 2 at step 7 (started as number 9): its units on the partner's receive cell are owed last
  have hc0 : dueCell c 29 = recvCell (mate c 2 7) 7 := dueCell_fire c 8 2
  have ha0 : dueAmt 29 = N := dueAmt_fire 8 2
  have hO0 : owedFrom c 29 = owedFrom c 30 + tallyAt (recvCell (mate c 2 7) 7) () N :=
    (owedFrom_succ c 29 (by decide)).trans (by rw [hc0, ha0])
  iapply (wp_fire_at (accCI I) (rs0I I) c 7 2 (g := 2) (rg := 2) (s := 1) rfl rfl rfl (dev30_eq c) rfl rfl
    (sendS_eq 7) (recvS_eq 7) (accEmb 2 2 (Vals.A I 0 c 2 2 1)) rfl fd0 (owedFrom c 30) hO0) $$ [HO Hts0 Htr0 Hfd0 Ha22]
  · unfold Proto.accPts Proto.rsPts
    isplitr; · iexact HIs0
    isplitr; · iexact HIr0
    isplitl [Ha22]; · iexact Ha22
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the returned values' loads read
  have q0 : local_42.sl.v1115 I c = Vals.A I 0 c 0 0 2 := by unfold local_42.sl.v1115; exact accV_read_accEmb 0 0 _
  have q1 : local_42.sl.v1117 I c = Vals.R I 0 c 0 0 2 := by unfold local_42.sl.v1117; exact rsV_read_rsEmb 0 0 2 _
  have q2 : local_42.sl.v1120 I c = Vals.A I 0 c 0 1 2 := by unfold local_42.sl.v1120; exact accV_read_accEmb 0 1 _
  have q3 : local_42.sl.v1122 I c = Vals.R I 0 c 0 1 2 := by unfold local_42.sl.v1122; exact rsV_read_rsEmb 0 1 2 _
  have q4 : local_42.sl.v1125 I c = Vals.A I 0 c 0 2 2 := by unfold local_42.sl.v1125; exact accV_read_accEmb 0 2 _
  have q5 : local_42.sl.v1127 I c = Vals.R I 0 c 0 2 2 := by unfold local_42.sl.v1127; exact rsV_read_rsEmb 0 2 2 _
  isplitr [HO Hcs0 Ha00 Hr002 Ha01 Hr012 Ha02 Hr022 HP]
  · ipureintro; rw [q0, q1, q2, q3, q4, q5]; all_goals rfl
  isplitr [HO Hcs0 Ha00 Hr002 Ha01 Hr012 Ha02 Hr022 HP]; · iexact Hrec
  isplitl [HO]; · iexists W; iexact HO
  iframe

/-- info: 'Cert.Kernel.Body.local_42' depends on axioms: [propext, Classical.choice, Quot.sound] -/
#guard_msgs in #print axioms local_42

end Cert.Kernel.Body
-- ==== Proof.Bits.Parts.Part42.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L42
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 42 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 42 of the body, run from the place before it, ends at the place after it and returns its values; whatever else is held is kept. -/
theorem part_42 (m : (ℓ : Loc nD τ sig) → Buf (Elt F) ℓ) (K : Dev nD × Cell → ℕ) (c : Dev nD) (Fr : sProp 𝕄) :
    iprop(St (insM m) K (σ 41) c ∗ outHeld (insM m) c (σ 41).outs ∗ Fr)
      ⊢ wp frame (wpE (defs₀ (F := F)) 𝒱₀ (c : Thread nD τ) none) Set.univ
          (k0_part42 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lv14 (insM m) c) (Vals.lw1105 c) (Vals.lwc0_i32_1237 c))
          (fun tup => iprop(⌜tup = ⟨Vals.lv1131 (insM m) c, Vals.lv1133 (insM m) c⟩⌝ ∗ St (insM m) K (σ 42) c ∗ outHeld (insM m) c (σ 42).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 29 : sProp (MT nD τ sig Unit (Elt F) ℕ UU ℕ))
      = iprop(dutyTok ER (sendCell c 7) 0 2 ∗ dutyTok ER (recvCell (mate c 2 7) 7) 0 2 ∗ toksFrom c 30) := toksFrom_copy c 8 2
  have hf0 : (foreignFrom c 26 : sProp (MT nD τ sig Unit (Elt F) ℕ UU ℕ))
      = iprop(rsTileAny (mate c 2 7) (rgOf 7) 2 (sOf 7) ∗ foreignFrom c 27) := foreignFrom_succ c 8 2
  have hb6 : (rsBack (insM m) c 7 : sProp (MT nD τ sig Unit (Elt F) ℕ UU ℕ))
      = iprop((rsTile c 2 0 0 (Vals.R (insM m) 0 c 2 0 0) ∗ rsTile c 2 1 0 (Vals.R (insM m) 0 c 2 1 0) ∗ rsTile c 2 2 0 (Vals.R (insM m) 0 c 2 2 0)) ∗ rsBack (insM m) c 6) := rsBack_succ (insM m) c 6
  have hb5 : (rsBack (insM m) c 6 : sProp (MT nD τ sig Unit (Elt F) ℕ UU ℕ))
      = iprop((rsTile c 1 0 2 (Vals.R (insM m) 0 c 1 0 2) ∗ rsTile c 1 1 2 (Vals.R (insM m) 0 c 1 1 2) ∗ rsTile c 1 2 2 (Vals.R (insM m) 0 c 1 2 2)) ∗ rsBack (insM m) c 5) := rsBack_succ (insM m) c 5
  have hb4 : (rsBack (insM m) c 5 : sProp (MT nD τ sig Unit (Elt F) ℕ UU ℕ))
      = iprop((rsTile c 0 0 2 (Vals.R (insM m) 0 c 0 0 2) ∗ rsTile c 0 1 2 (Vals.R (insM m) 0 c 0 1 2) ∗ rsTile c 0 2 2 (Vals.R (insM m) 0 c 0 2 2)) ∗ rsBack (insM m) c 4) := rsBack_succ (insM m) c 4
  rw [St_open_41, St_open_42, ht0, hf0, hb6, hb5, hb4, show (σ 41).outs = (σ 42).outs from rfl]
  simp only [hemp, hemp']
  refine BIBase.Entails.trans (Entails.of_eq ?_) (BIBase.Entails.trans
    (local_42 (insM m) K c
      (iprop(levAts Proto.L Proto.lv
        ∗ toksFrom c 30
        ∗ credFrom c 24
        ∗ cred (tallyAt (sendCell c 9) () N)
        ∗ cred (tallyAt (sendCell c 9) () N)
        ∗ cred (tallyAt (sendCell c 9) () N)
        ∗ cred (tallyAt (sendCell c 7) () N)
        ∗ cred (tallyAt (sendCell c 7) () N)
        ∗ doneTo c 15
        ∗ todoFrom c 15
        ∗ foreignFrom c 27
        ∗ rsTile c 2 0 0 (Vals.R (insM m) 0 c 2 0 0)
        ∗ rsTile c 2 1 0 (Vals.R (insM m) 0 c 2 1 0)
        ∗ rsTile c 2 2 0 (Vals.R (insM m) 0 c 2 2 0)
        ∗ rsTile c 1 0 2 (Vals.R (insM m) 0 c 1 0 2)
        ∗ rsTile c 1 1 2 (Vals.R (insM m) 0 c 1 1 2)
        ∗ rsTile c 1 2 2 (Vals.R (insM m) 0 c 1 2 2)
        ∗ rsBack (insM m) c 4
        ∗ accTile c 1 0 (Vals.A (insM m) 0 c 1 0 2)
        ∗ accTile c 1 1 (Vals.A (insM m) 0 c 1 1 2)
        ∗ accTile c 1 2 (Vals.A (insM m) 0 c 1 2 2)
        ∗ outHeld (insM m) c (σ 42).outs
        ∗ Fr)))
    (wp_mono _ _ _ fun tup => Entails.of_eq ?_))
  · ac_rfl
  · ac_rfl

/-- info: 'Cert.Kernel.Body.part_42' depends on axioms: [propext, Classical.choice, Quot.sound] -/
#guard_msgs in #print axioms part_42

end Cert.Kernel.Body

end
-- ==== Proof.Bits.Parts.Part43.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L43
import proofs.«900775_g7700000000000776_dist_diff_dit_htp_i_b2_s512_d768_hq4_v7x_i8_f32_1_alg».proof.Proof.Gen.Kernel.Skeleton
import Idealize.ShloMosaic.Lib.Tactic

/-! Part 43 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 43 of the body, run from the place before it, ends at the place after it and returns its values; whatever else is held is kept. -/
theorem part_43 (m : (ℓ : Loc nD τ sig) → Buf (Elt F) ℓ) (K : Dev nD × Cell → ℕ) (c : Dev nD) (Fr : sProp 𝕄) :
    iprop(St (insM m) K (σ 42) c ∗ outHeld (insM m) c (σ 42).outs ∗ Fr)
      ⊢ wp frame (wpE (defs₀ (F := F)) 𝒱₀ (c : Thread nD τ) none) Set.univ
          (k0_part43 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv22 (insM m) c) (Vals.lv23 (insM m) c) (Vals.lv24 (insM m) c) (Vals.lv40 (insM m) c) (Vals.lv43 (insM m) c) (Vals.lv1131 (insM m) c) (Vals.lv1133 (insM m) c))
          (fun tup => iprop(⌜tup = ⟨Vals.lv1139 (insM m) c, Vals.lv1182 (insM m) c, Vals.lv1183 (insM m) c⟩⌝ ∗ St (insM m) K (σ 43) c ∗ outHeld (insM m) c (σ 43).outs ∗ Fr)) := by
  have e : σ 43 = σ 42 := rfl
  rw [e]
  exact local_43 (insM m) c _

/-- info: 'Cert.Kernel.Body.part_43' depends on axioms: [propext, Classical.choice, Quot.sound] -/
#guard_msgs in #print axioms part_43

end Cert.Kernel.Body

end
-- ==== Proof.Bits.Parts.L44.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 44 of the body: the stores into accumulator tiles (0, 0), (0, 1), (0, 2), then the start of the copy of part 0 at step 12 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_44 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 30) W)
        ∗ dutyTok ER (sendCell c 12) 0 0 ∗ dutyTok ER (recvCell (mate c 0 12) 12) 0 0
        ∗ rsTileAny (mate c 0 12) (rgOf 12) 0 (sOf 12)
        ∗ accTile c 0 0 (Vals.A I 0 c 0 0 2)
        ∗ accTile c 0 1 (Vals.A I 0 c 0 1 2)
        ∗ accTile c 0 2 (Vals.A I 0 c 0 2 2)
        ∗ P) : sProp (MT nD τ sig Unit (Elt F) ℕ UU ℕ))
      ⊢ wp frame (wpE (defs₀ (F := F)) 𝒱₀ (c : Thread nD τ) none) Set.univ
      (k0_part44 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1139 I c) (Vals.lv1182 I c) (Vals.lv1183 I c))
      (fun tup => iprop(⌜tup = ⟨Vals.lv1195 I c, Vals.lw1196 c, Vals.lw1207 c⟩⌝
        ∗ records (RdI I) K
        ∗ (∃ W, owes (c : Thread nD τ) (owedFrom c 31) W)
        ∗ cred (tallyAt (sendCell c 12) () N)
        ∗ accTile c 0 1 (Vals.A I 1 c 0 1 0)
        ∗ accTile c 0 2 (Vals.A I 1 c 0 2 0)
        ∗ P)) := by
  unfold accTile rsTileAny Proto.accPts Proto.rsPts
  iintro ⟨#Hrec, ⟨%W, HO⟩, Hts0, Htr0, ⟨%fd0, Hfd0⟩, Ha00, Ha01, Ha02, HP⟩
  ihave #HIs0 := (inv_at (RdI I) K (c, Cell.send 12)) $$ Hrec
  ihave #HIr0 := (inv_at (RdI I) K (mate c 0 12, Cell.recv 12)) $$ Hrec
  ihave #Hrs0 := (reached_at (RdI I) K (c, Cell.send 12)) $$ Hrec
  ihave #Hrr0 := (reached_at (RdI I) K (mate c 0 12, Cell.recv 12)) $$ Hrec
  rw [k0_part44_eq_skeleton]
  unfold k0_part44_skel
  sl_exec
  -- the source tile as the level names it
  have Ha00_e : View.read (Elt F) (accV 0 0) (local_44.sl.Ha00_w1 I c) = Vals.A I 1 c 0 0 0 := by
    unfold local_44.sl.Ha00_w1; exact View.read_write_univ _ _
  have Ha00_t : ((Proto.accSl 0 0).view.loc (c : Thread nD τ) ↦[(Proto.accSl 0 0).view.set]{fullShare} local_44.sl.Ha00_w1 I c : sProp (MT nD τ sig Unit (Elt F) ℕ UU ℕ)) = ((Proto.accSl 0 0).view.loc (c : Thread nD τ) ↦[(Proto.accSl 0 0).view.set]{fullShare} accEmb 0 0 (Vals.A I 1 c 0 0 0) : sProp (MT nD τ sig Unit (Elt F) ℕ UU ℕ)) := accTile_of_read c fullShare 0 0 Ha00_e
  ihave Ha00 := (Entails.of_eq Ha00_t) $$ Ha00
  -- the copy of part 0 at step 12 (started as number 10): its units on the partner's receive cell are owed last
  have hc0 : dueCell c 30 = recvCell (mate c 0 12) 12 := dueCell_fire c 9 0
  have ha0 : dueAmt 30 = N := dueAmt_fire 9 0
  have hO0 : owedFrom c 30 = owedFrom c 31 + tallyAt (recvCell (mate c 0 12) 12) () N :=
    (owedFrom_succ c 30 (by decide)).trans (by rw [hc0, ha0])
  iapply (wp_fire_at (accCI I) (rs0I I) c 12 0 (g := 0) (rg := 4) (s := 0) rfl rfl rfl (dev31_eq c) rfl rfl
    (sendS_eq 12) (recvS_eq 12) (accEmb 0 0 (Vals.A I 1 c 0 0 0)) rfl fd0 (owedFrom c 31) hO0) $$ [HO Hts0 Htr0 Hfd0 Ha00]
  · unfold Proto.accPts Proto.rsPts
    isplitr; · iexact HIs0
    isplitr; · iexact HIr0
    isplitl [Ha00]; · iexact Ha00
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha01_e : View.read (Elt F) (accV 0 1) (local_44.sl.Ha01_w2 I c) = Vals.A I 1 c 0 1 0 := by
    unfold local_44.sl.Ha01_w2; exact View.read_write_univ _ _
  have Ha01_t : ((Proto.accSl 0 1).view.loc (c : Thread nD τ) ↦[(Proto.accSl 0 1).view.set]{fullShare} local_44.sl.Ha01_w2 I c : sProp (MT nD τ sig Unit (Elt F) ℕ UU ℕ)) = ((Proto.accSl 0 1).view.loc (c : Thread nD τ) ↦[(Proto.accSl 0 1).view.set]{fullShare} accEmb 0 1 (Vals.A I 1 c 0 1 0) : sProp (MT nD τ sig Unit (Elt F) ℕ UU ℕ)) := accTile_of_read c fullShare 0 1 Ha01_e
  have Ha02_e : View.read (Elt F) (accV 0 2) (local_44.sl.Ha02_w3 I c) = Vals.A I 1 c 0 2 0 := by
    unfold local_44.sl.Ha02_w3; exact View.read_write_univ _ _
  have Ha02_t : ((Proto.accSl 0 2).view.loc (c : Thread nD τ) ↦[(Proto.accSl 0 2).view.set]{fullShare} local_44.sl.Ha02_w3 I c : sProp (MT nD τ sig Unit (Elt F) ℕ UU ℕ)) = ((Proto.accSl 0 2).view.loc (c : Thread nD τ) ↦[(Proto.accSl 0 2).view.set]{fullShare} accEmb 0 2 (Vals.A I 1 c 0 2 0) : sProp (MT nD τ sig Unit (Elt F) ℕ UU ℕ)) := accTile_of_read c fullShare 0 2 Ha02_e
  rw [← Ha01_t, ← Ha02_t]
  isplitr [HO Hcs0 Ha01 Ha02 HP]
  · ipureintro; rfl
  isplitr [HO Hcs0 Ha01 Ha02 HP]; · iexact Hrec
  isplitl [HO]; · iexists W; iexact HO
  iframe

/-- info: 'Cert.Kernel.Body.local_44' depends on axioms: [propext, Classical.choice, Quot.sound] -/
#guard_msgs in #print axioms local_44

end Cert.Kernel.Body
-- ==== Proof.Bits.Parts.Part44.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L44
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 44 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 44 of the body, run from the place before it, ends at the place after it and returns its values; whatever else is held is kept. -/
theorem part_44 (m : (ℓ : Loc nD τ sig) → Buf (Elt F) ℓ) (K : Dev nD × Cell → ℕ) (c : Dev nD) (Fr : sProp 𝕄) :
    iprop(St (insM m) K (σ 43) c ∗ outHeld (insM m) c (σ 43).outs ∗ Fr)
      ⊢ wp frame (wpE (defs₀ (F := F)) 𝒱₀ (c : Thread nD τ) none) Set.univ
          (k0_part44 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1139 (insM m) c) (Vals.lv1182 (insM m) c) (Vals.lv1183 (insM m) c))
          (fun tup => iprop(⌜tup = ⟨Vals.lv1195 (insM m) c, Vals.lw1196 c, Vals.lw1207 c⟩⌝ ∗ St (insM m) K (σ 44) c ∗ outHeld (insM m) c (σ 44).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 30 : sProp (MT nD τ sig Unit (Elt F) ℕ UU ℕ))
      = iprop(dutyTok ER (sendCell c 12) 0 0 ∗ dutyTok ER (recvCell (mate c 0 12) 12) 0 0 ∗ toksFrom c 31) := toksFrom_copy c 9 0
  have hf0 : (foreignFrom c 27 : sProp (MT nD τ sig Unit (Elt F) ℕ UU ℕ))
      = iprop(rsTileAny (mate c 0 12) (rgOf 12) 0 (sOf 12) ∗ foreignFrom c 28) := foreignFrom_succ c 9 0
  rw [St_open_43, St_open_44, ht0, hf0, show (σ 43).outs = (σ 44).outs from rfl]
  simp only [hemp, hemp']
  refine BIBase.Entails.trans (Entails.of_eq ?_) (BIBase.Entails.trans
    (local_44 (insM m) K c
      (iprop(levAts Proto.L Proto.lv
        ∗ toksFrom c 31
        ∗ credFrom c 24
        ∗ cred (tallyAt (sendCell c 9) () N)
        ∗ cred (tallyAt (sendCell c 9) () N)
        ∗ cred (tallyAt (sendCell c 9) () N)
        ∗ cred (tallyAt (sendCell c 7) () N)
        ∗ cred (tallyAt (sendCell c 7) () N)
        ∗ cred (tallyAt (sendCell c 7) () N)
        ∗ doneTo c 15
        ∗ todoFrom c 15
        ∗ foreignFrom c 28
        ∗ rsBack (insM m) c 7
        ∗ accTile c 1 0 (Vals.A (insM m) 0 c 1 0 2)
        ∗ accTile c 1 1 (Vals.A (insM m) 0 c 1 1 2)
        ∗ accTile c 1 2 (Vals.A (insM m) 0 c 1 2 2)
        ∗ outHeld (insM m) c (σ 44).outs
        ∗ Fr)))
    (wp_mono _ _ _ fun tup => Entails.of_eq ?_))
  · ac_rfl
  · ac_rfl

/-- info: 'Cert.Kernel.Body.part_44' depends on axioms: [propext, Classical.choice, Quot.sound] -/
#guard_msgs in #print axioms part_44

end Cert.Kernel.Body

end
-- ==== Proof.Bits.Parts.L45.lean ====
/-
  Part 45 of the body starts two copies of step 12 (the 10th step started; round 1, group 0, position 0): part 1 of accumulator slice (0, 1) goes to receive slice (4, 1, 0) of the device paired along mask 3, part 2 of accumulator slice (0, 2) goes to receive slice (4, 2, 0) of the device paired along mask 4.
  The accumulator slices, at level 0 of round 1, and the paired devices' receive slices leave the device's hands; it holds the departure credits of its send cell 12 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 45: the copies of parts 1 and 2 of step 12. -/
theorem local_45 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 31) W)
        ∗ dutyTok ER (sendCell c 12) 0 1 ∗ dutyTok ER (recvCell (mate c 1 12) 12) 0 1
        ∗ dutyTok ER (sendCell c 12) 0 2 ∗ dutyTok ER (recvCell (mate c 2 12) 12) 0 2
        ∗ rsTileAny (F := F) (mate c 1 12) 4 1 0
        ∗ rsTileAny (F := F) (mate c 2 12) 4 2 0
        ∗ accTile c 0 1 (A I 1 c 0 1 0)
        ∗ accTile c 0 2 (A I 1 c 0 2 0)
        ∗ P)
      ⊢ wp frame (wpE (defs₀ (F := F)) 𝒱₀ (c : Thread nD τ) none) Set.univ
          (k0_part45 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1207 c))
          (fun tup => iprop(⌜tup = Vals.lw1218 c⌝
            ∗ (∃ W, owes (c : Thread nD τ) (owedFrom c 33) W)
            ∗ cred (tallyAt (sendCell c 12) () N)
            ∗ cred (tallyAt (sendCell c 12) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 12)) $$ HR
  ihave #HRs := (reached_at (RdI I) K (c, Cell.send 12)) $$ HR
  ihave #HIr0 := (inv_at (RdI I) K (mate c 1 12, Cell.recv 12)) $$ HR
  ihave #HRr0 := (reached_at (RdI I) K (mate c 1 12, Cell.recv 12)) $$ HR
  ihave #HIr1 := (inv_at (RdI I) K (mate c 2 12, Cell.recv 12)) $$ HR
  ihave #HRr1 := (reached_at (RdI I) K (mate c 2 12, Cell.recv 12)) $$ HR
  sl_exec
  iapply (wp_fire_at (accCI I) (rs0I I) c 12 1 (g := 0) (rg := 4) (s := 0) (by decide) (by decide) (by decide)
      (dv := ⟨k0_dev32 c, k0_dev32_lt c⟩) ((dev32_eq c).trans rfl) rfl rfl (sendS_eq 12).symm (recvS_eq 12).symm
      (accEmb 0 1 (A I 1 c 0 1 0)) rfl fd0 (owedFrom c 32) (owed_copy c 9 1 31 (by decide) 12 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 12 2 (g := 0) (rg := 4) (s := 0) (by decide) (by decide) (by decide)
      (dv := ⟨k0_dev33 c, k0_dev33_lt c⟩) ((dev33_eq c).trans rfl) rfl rfl (sendS_eq 12).symm (recvS_eq 12).symm
      (accEmb 0 2 (A I 1 c 0 2 0)) rfl fd1 (owedFrom c 33) (owed_copy c 9 2 32 (by decide) 12 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_45' depends on axioms: [propext, Classical.choice, Quot.sound] -/
#guard_msgs in #print axioms Cert.Kernel.Body.local_45

end
-- ==== Proof.Bits.Parts.Part48.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L48
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 48 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 48 of the body, run from the place before it, ends at the place after it and returns its values; whatever else is held is kept. -/
theorem part_48 (m : (ℓ : Loc nD τ sig) → Buf (Elt F) ℓ) (K : Dev nD × Cell → ℕ) (c : Dev nD) (Fr : sProp 𝕄) :
    iprop(St (insM m) K (σ 47) c ∗ outHeld (insM m) c (σ 47).outs ∗ Fr)
      ⊢ wp frame (wpE (defs₀ (F := F)) 𝒱₀ (c : Thread nD τ) none) Set.univ
          (k0_part48 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1272 (insM m) c) (Vals.lv1273 (insM m) c))
          (fun tup => iprop(⌜tup = Vals.lw1295 c⌝ ∗ St (insM m) K (σ 48) c ∗ outHeld (insM m) c (σ 48).outs ∗ Fr)) := by
  have eo : (σ 48).outs = (σ 47).outs := rfl
  rw [eo]
  rw [St_eq, St_eq, StRest_congr (insM m) K c (s := σ 47) (s' := σ 48) rfl rfl rfl rfl, accAll_σ_47, accAll_σ_48, StRest_rs (insM m) K c (σ 48) rfl 9 (by decide), rs3_9]
  refine BIBase.Entails.trans ?_ ((local_48 (insM m) c iprop(rsTile c 3 0 0 (Vals.R (insM m) 0 c 3 0 0) ∗ StRestNoRs (insM m) K (σ 48) c 9 ∗ emp ∗ emp ∗ emp ∗ accTile c 1 0 (Vals.A (insM m) 0 c 1 0 2) ∗ accTile c 1 1 (Vals.A (insM m) 0 c 1 1 2) ∗ accTile c 1 2 (Vals.A (insM m) 0 c 1 2 2) ∗ emp ∗ emp ∗ emp ∗ outHeld (insM m) c (σ 47).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T30]; · iexact T30
    isplitl [T31]; · iexact T31
    isplitl [T32]; · iexact T32
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, T32, R1, R2, R0, HR, T00, T01, T02, T10, T11, T12, T20, T21, T22, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_48' depends on axioms: [propext, Classical.choice, Quot.sound] -/
#guard_msgs in #print axioms part_48

end Cert.Kernel.Body

end
-- ==== Proof.Bits.Parts.L49.lean ====
/-
  Part 49 of the body starts two copies of step 10 (the 11th step started; round 0, group 3, position 1): part 0 of accumulator slice (3, 0) goes to receive slice (3, 0, 1) of the device paired along mask 3, part 1 of accumulator slice (3, 1) goes to receive slice (3, 1, 1) of the device paired along mask 4.
  The accumulator slices, at level 1 of round 0, and the paired devices' receive slices leave the device's hands; it holds the departure credits of its send cell 10 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 49: the copies of parts 0 and 1 of step 10. -/
theorem local_49 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 33) W)
        ∗ dutyTok ER (sendCell c 10) 0 0 ∗ dutyTok ER (recvCell (mate c 0 10) 10) 0 0
        ∗ dutyTok ER (sendCell c 10) 0 1 ∗ dutyTok ER (recvCell (mate c 1 10) 10) 0 1
        ∗ rsTileAny (F := F) (mate c 0 10) 3 0 1
        ∗ rsTileAny (F := F) (mate c 1 10) 3 1 1
        ∗ accTile c 3 0 (A I 0 c 3 0 1)
        ∗ accTile c 3 1 (A I 0 c 3 1 1)
        ∗ P)
      ⊢ wp frame (wpE (defs₀ (F := F)) 𝒱₀ (c : Thread nD τ) none) Set.univ
          (k0_part49 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1295 c))
          (fun tup => iprop(⌜tup = ⟨Vals.lw1306 c, Vals.lw1317 c⟩⌝
            ∗ (∃ W, owes (c : Thread nD τ) (owedFrom c 35) W)
            ∗ cred (tallyAt (sendCell c 10) () N)
            ∗ cred (tallyAt (sendCell c 10) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 10)) $$ HR
  ihave #HRs := (reached_at (RdI I) K (c, Cell.send 10)) $$ HR
  ihave #HIr0 := (inv_at (RdI I) K (mate c 0 10, Cell.recv 10)) $$ HR
  ihave #HRr0 := (reached_at (RdI I) K (mate c 0 10, Cell.recv 10)) $$ HR
  ihave #HIr1 := (inv_at (RdI I) K (mate c 1 10, Cell.recv 10)) $$ HR
  ihave #HRr1 := (reached_at (RdI I) K (mate c 1 10, Cell.recv 10)) $$ HR
  sl_exec
  iapply (wp_fire_at (accCI I) (rs0I I) c 10 0 (g := 3) (rg := 3) (s := 1) (by decide) (by decide) (by decide)
      (dv := ⟨k0_dev34 c, k0_dev34_lt c⟩) ((dev34_eq c).trans rfl) rfl rfl (sendS_eq 10).symm (recvS_eq 10).symm
      (accEmb 3 0 (A I 0 c 3 0 1)) rfl fd0 (owedFrom c 34) (owed_copy c 10 0 33 (by decide) 10 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 10 1 (g := 3) (rg := 3) (s := 1) (by decide) (by decide) (by decide)
      (dv := ⟨k0_dev35 c, k0_dev35_lt c⟩) ((dev35_eq c).trans rfl) rfl rfl (sendS_eq 10).symm (recvS_eq 10).symm
      (accEmb 3 1 (A I 0 c 3 1 1)) rfl fd1 (owedFrom c 35) (owed_copy c 10 1 34 (by decide) 10 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_49' depends on axioms: [propext, Classical.choice, Quot.sound] -/
#guard_msgs in #print axioms Cert.Kernel.Body.local_49

end
-- ==== Proof.Bits.Parts.Part50.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L50
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 50 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 50 of the body, run from the place before it, ends at the place after it; whatever else is held is kept. -/
theorem part_50 (m : (ℓ : Loc nD τ sig) → Buf (Elt F) ℓ) (K : Dev nD × Cell → ℕ) (c : Dev nD) (Fr : sProp 𝕄) :
    iprop(St (insM m) K (σ 49) c ∗ outHeld (insM m) c (σ 49).outs ∗ Fr)
      ⊢ wp frame (wpE (defs₀ (F := F)) 𝒱₀ (c : Thread nD τ) none) Set.univ
          (k0_part50 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1082 c))
          (fun _ => iprop(St (insM m) K (σ 50) c ∗ outHeld (insM m) c (σ 50).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 35 : sProp (MT nD τ sig Unit (Elt F) ℕ UU ℕ)) = iprop(dutyTok ER (sendCell c 10) 0 2 ∗ dutyTok ER (recvCell (mate c 2 10) 10) 0 2 ∗ toksFrom c 36) := toksFrom_copy c 10 2
  have hF0 : (foreignFrom c 32 : sProp (MT nD τ sig Unit (Elt F) ℕ UU ℕ)) = iprop(rsTileAny (mate c 2 10) 3 2 1 ∗ foreignFrom c 33) := foreignFrom_succ c 10 2
  have hC : (credFrom c 27 : sProp (MT nD τ sig Unit (Elt F) ℕ UU ℕ)) = iprop(credFrom c 28 ∗ cred (tallyAt (recvCell c 7) () N)) := by
    rw [credFrom_succ c 27 (by omega), show ownCell c 27 = recvCell c 7 from ownCell_fire c 8 0, show dueAmt 27 = N from dueAmt_fire 8 0]
  have hG : (todoFrom c 17 : sProp (MT nD τ sig Unit (Elt F) ℕ UU ℕ)) = iprop(curCell (sendCell c 7) (fun p => (RdI (insM m)).payload (sendCell c 7) 0 p) 0 ∗ curCell (recvCell c 7) (fun p => (RdI (insM m)).payload (recvCell c 7) 0 p) 0 ∗ todoFrom c 19) := todo_group c 8
  rw [show (σ 50).outs = (σ 49).outs from rfl, St_open_49, St_open_50, hT0, hF0, hC, hG]
  simp only [hemp, hemp']
  refine BIBase.Entails.trans (Entails.of_eq ?_) (BIBase.Entails.trans (local_50 (insM m) K c iprop(toksFrom c 36 ∗ credFrom c 28 ∗ cred (tallyAt (sendCell c 7) () N) ∗ cred (tallyAt (sendCell c 7) () N) ∗ cred (tallyAt (sendCell c 12) () N) ∗ cred (tallyAt (sendCell c 12) () N) ∗ cred (tallyAt (sendCell c 12) () N) ∗ cred (tallyAt (sendCell c 10) () N) ∗ cred (tallyAt (sendCell c 10) () N) ∗ doneTo c 17 ∗ todoFrom c 19 ∗ foreignFrom c 33 ∗ rsBack (insM m) c 8 ∗ accTile c 1 0 (Vals.A (insM m) 0 c 1 0 2) ∗ accTile c 1 1 (Vals.A (insM m) 0 c 1 1 2) ∗ accTile c 1 2 (Vals.A (insM m) 0 c 1 2 2) ∗ outHeld (insM m) c (σ 49).outs ∗ Fr)) (wp_mono _ _ _ fun tup => Entails.of_eq ?_))
  · ac_rfl
  · ac_rfl

/-- info: 'Cert.Kernel.Body.part_50' depends on axioms: [propext, Classical.choice, Quot.sound] -/
#guard_msgs in #print axioms part_50

end Cert.Kernel.Body

end
-- ==== Proof.Bits.Parts.L53.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 53 of the body: the store into accumulator tile (2, 2), then the start of the copy of part 0 at step 8 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_53 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 36) W)
        ∗ dutyTok ER (sendCell c 8) 0 0 ∗ dutyTok ER (recvCell (mate c 0 8) 8) 0 0
        ∗ rsTileAny (mate c 0 8) (rgOf 8) 0 (sOf 8)
        ∗ accTile c 2 2 (Vals.A I 0 c 2 2 1)
        ∗ rsTile c 2 2 1 (Vals.R I 0 c 2 2 1)
        ∗ accTile c 2 0 (Vals.A I 0 c 2 0 2)
        ∗ P) : sProp (MT nD τ sig Unit (Elt F) ℕ UU ℕ))
      ⊢ wp frame (wpE (defs₀ (F := F)) 𝒱₀ (c : Thread nD τ) none) Set.univ
      (k0_part53 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw1394 c, Vals.lw1405 c⟩⌝
        ∗ records (RdI I) K
        ∗ (∃ W, owes (c : Thread nD τ) (owedFrom c 37) W)
        ∗ cred (tallyAt (sendCell c 8) () N)
        ∗ accTile c 2 2 (Vals.A I 0 c 2 2 2)
        ∗ rsTile c 2 2 1 (Vals.R I 0 c 2 2 1)
        ∗ P)) := by
  unfold accTile rsTile rsTileAny Proto.accPts Proto.rsPts
  iintro ⟨#Hrec, ⟨%W, HO⟩, Hts0, Htr0, ⟨%fd0, Hfd0⟩, Ha22, Hr221, Ha20, HP⟩
  ihave #HIs0 := (inv_at (RdI I) K (c, Cell.send 8)) $$ Hrec
  ihave #HIr0 := (inv_at (RdI I) K (mate c 0 8, Cell.recv 8)) $$ Hrec
  ihave #Hrs0 := (reached_at (RdI I) K (c, Cell.send 8)) $$ Hrec
  ihave #Hrr0 := (reached_at (RdI I) K (mate c 0 8, Cell.recv 8)) $$ Hrec
  rw [k0_part53_eq_skeleton]
  unfold k0_part53_skel
  sl_exec
  -- the copy of part 0 at step 8 (started as number 12): its units on the partner's receive cell are owed last
  have hc0 : dueCell c 36 = recvCell (mate c 0 8) 8 := dueCell_fire c 11 0
  have ha0 : dueAmt 36 = N := dueAmt_fire 11 0
  have hO0 : owedFrom c 36 = owedFrom c 37 + tallyAt (recvCell (mate c 0 8) 8) () N :=
    (owedFrom_succ c 36 (by decide)).trans (by rw [hc0, ha0])
  iapply (wp_fire_at (accCI I) (rs0I I) c 8 0 (g := 2) (rg := 2) (s := 2) rfl rfl rfl (dev37_eq c) rfl rfl
    (sendS_eq 8) (recvS_eq 8) (accEmb 2 0 (Vals.A I 0 c 2 0 2)) rfl fd0 (owedFrom c 37) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha22_r0 : local_53.sl.v1386 I c = Vals.A I 0 c 2 2 1 := by unfold local_53.sl.v1386; exact accV_read_accEmb 2 2 _
  have Ha22_r1 : local_53.sl.v1388 I c = Vals.R I 0 c 2 2 1 := by unfold local_53.sl.v1388; exact rsV_read_rsEmb 2 2 1 _
  have Ha22_e : View.read (Elt F) (accV 2 2) (local_53.sl.Ha22_w1 I c) = Vals.A I 0 c 2 2 2 := by
    unfold local_53.sl.Ha22_w1; rw [Ha22_r0, Ha22_r1]; exact View.read_write_univ _ _
  have Ha22_t : ((Proto.accSl 2 2).view.loc (c : Thread nD τ) ↦[(Proto.accSl 2 2).view.set]{fullShare} local_53.sl.Ha22_w1 I c : sProp (MT nD τ sig Unit (Elt F) ℕ UU ℕ)) = ((Proto.accSl 2 2).view.loc (c : Thread nD τ) ↦[(Proto.accSl 2 2).view.set]{fullShare} accEmb 2 2 (Vals.A I 0 c 2 2 2) : sProp (MT nD τ sig Unit (Elt F) ℕ UU ℕ)) := accTile_of_read c fullShare 2 2 Ha22_e
  rw [← Ha22_t]
  isplitr [HO Hcs0 Ha22 Hr221 HP]
  · ipureintro; rfl
  isplitr [HO Hcs0 Ha22 Hr221 HP]; · iexact Hrec
  isplitl [HO]; · iexists W; iexact HO
  iframe

/-- info: 'Cert.Kernel.Body.local_53' depends on axioms: [propext, Classical.choice, Quot.sound] -/
#guard_msgs in #print axioms local_53

end Cert.Kernel.Body
-- ==== Proof.Bits.Parts.Part53.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L53
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 53 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 53 of the body, run from the place before it, ends at the place after it and returns its values; whatever else is held is kept. -/
theorem part_53 (m : (ℓ : Loc nD τ sig) → Buf (Elt F) ℓ) (K : Dev nD × Cell → ℕ) (c : Dev nD) (Fr : sProp 𝕄) :
    iprop(St (insM m) K (σ 52) c ∗ outHeld (insM m) c (σ 52).outs ∗ Fr)
      ⊢ wp frame (wpE (defs₀ (F := F)) 𝒱₀ (c : Thread nD τ) none) Set.univ
          (k0_part53 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1394 c, Vals.lw1405 c⟩⌝ ∗ St (insM m) K (σ 53) c ∗ outHeld (insM m) c (σ 53).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 36 : sProp (MT nD τ sig Unit (Elt F) ℕ UU ℕ))
      = iprop(dutyTok ER (sendCell c 8) 0 0 ∗ dutyTok ER (recvCell (mate c 0 8) 8) 0 0 ∗ toksFrom c 37) := toksFrom_copy c 11 0
  have hf0 : (foreignFrom c 33 : sProp (MT nD τ sig Unit (Elt F) ℕ UU ℕ))
      = iprop(rsTileAny (mate c 0 8) (rgOf 8) 0 (sOf 8) ∗ foreignFrom c 34) := foreignFrom_succ c 11 0
  have hb8 : (rsBack (insM m) c 9 : sProp (MT nD τ sig Unit (Elt F) ℕ UU ℕ))
      = iprop((rsTile c 2 0 1 (Vals.R (insM m) 0 c 2 0 1) ∗ rsTile c 2 1 1 (Vals.R (insM m) 0 c 2 1 1) ∗ rsTile c 2 2 1 (Vals.R (insM m) 0 c 2 2 1)) ∗ rsBack (insM m) c 8) := rsBack_succ (insM m) c 8
  rw [St_open_52, St_open_53, ht0, hf0, hb8, show (σ 52).outs = (σ 53).outs from rfl]
  simp only [hemp, hemp']
  refine BIBase.Entails.trans (Entails.of_eq ?_) (BIBase.Entails.trans
    (local_53 (insM m) K c
      (iprop(levAts Proto.L Proto.lv
        ∗ toksFrom c 37
        ∗ credFrom c 30
        ∗ cred (tallyAt (sendCell c 12) () N)
        ∗ cred (tallyAt (sendCell c 12) () N)
        ∗ cred (tallyAt (sendCell c 12) () N)
        ∗ cred (tallyAt (sendCell c 10) () N)
        ∗ cred (tallyAt (sendCell c 10) () N)
        ∗ cred (tallyAt (sendCell c 10) () N)
        ∗ doneTo c 19
        ∗ todoFrom c 19
        ∗ foreignFrom c 34
        ∗ rsTile c 2 0 1 (Vals.R (insM m) 0 c 2 0 1)
        ∗ rsTile c 2 1 1 (Vals.R (insM m) 0 c 2 1 1)
        ∗ rsBack (insM m) c 8
        ∗ accTile c 1 0 (Vals.A (insM m) 0 c 1 0 2)
        ∗ accTile c 1 1 (Vals.A (insM m) 0 c 1 1 2)
        ∗ accTile c 1 2 (Vals.A (insM m) 0 c 1 2 2)
        ∗ accTile c 2 1 (Vals.A (insM m) 0 c 2 1 2)
        ∗ outHeld (insM m) c (σ 53).outs
        ∗ Fr)))
    (wp_mono _ _ _ fun tup => Entails.of_eq ?_))
  · ac_rfl
  · ac_rfl

/-- info: 'Cert.Kernel.Body.part_53' depends on axioms: [propext, Classical.choice, Quot.sound] -/
#guard_msgs in #print axioms part_53

end Cert.Kernel.Body

end
-- ==== Proof.Bits.Parts.L54.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 54 of the body: the start of the copies of part 1 at step 8 and part 2 at step 8 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_54 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 37) W)
        ∗ dutyTok ER (sendCell c 8) 0 1 ∗ dutyTok ER (recvCell (mate c 1 8) 8) 0 1
        ∗ rsTileAny (mate c 1 8) (rgOf 8) 1 (sOf 8)
        ∗ dutyTok ER (sendCell c 8) 0 2 ∗ dutyTok ER (recvCell (mate c 2 8) 8) 0 2
        ∗ rsTileAny (mate c 2 8) (rgOf 8) 2 (sOf 8)
        ∗ accTile c 2 1 (Vals.A I 0 c 2 1 2)
        ∗ accTile c 2 2 (Vals.A I 0 c 2 2 2)
        ∗ accTile c 1 0 (Vals.A I 0 c 1 0 2)
        ∗ rsTile c 1 0 2 (Vals.R I 0 c 1 0 2)
        ∗ accTile c 1 1 (Vals.A I 0 c 1 1 2)
        ∗ P) : sProp (MT nD τ sig Unit (Elt F) ℕ UU ℕ))
      ⊢ wp frame (wpE (defs₀ (F := F)) 𝒱₀ (c : Thread nD τ) none) Set.univ
      (k0_part54 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw1416 c, Vals.lv1431 I c, Vals.lv1433 I c⟩⌝
        ∗ records (RdI I) K
        ∗ (∃ W, owes (c : Thread nD τ) (owedFrom c 39) W)
        ∗ cred (tallyAt (sendCell c 8) () N)
        ∗ cred (tallyAt (sendCell c 8) () N)
        ∗ accTile c 1 0 (Vals.A I 0 c 1 0 2)
        ∗ rsTile c 1 0 2 (Vals.R I 0 c 1 0 2)
        ∗ accTile c 1 1 (Vals.A I 0 c 1 1 2)
        ∗ P)) := by
  unfold accTile rsTile rsTileAny Proto.accPts Proto.rsPts
  iintro ⟨#Hrec, ⟨%W, HO⟩, Hts0, Htr0, ⟨%fd0, Hfd0⟩, Hts1, Htr1, ⟨%fd1, Hfd1⟩, Ha21, Ha22, Ha10, Hr102, Ha11, HP⟩
  ihave #HIs0 := (inv_at (RdI I) K (c, Cell.send 8)) $$ Hrec
  ihave #HIr0 := (inv_at (RdI I) K (mate c 1 8, Cell.recv 8)) $$ Hrec
  ihave #Hrs0 := (reached_at (RdI I) K (c, Cell.send 8)) $$ Hrec
  ihave #Hrr0 := (reached_at (RdI I) K (mate c 1 8, Cell.recv 8)) $$ Hrec
  ihave #HIs1 := (inv_at (RdI I) K (c, Cell.send 8)) $$ Hrec
  ihave #HIr1 := (inv_at (RdI I) K (mate c 2 8, Cell.recv 8)) $$ Hrec
  ihave #Hrs1 := (reached_at (RdI I) K (c, Cell.send 8)) $$ Hrec
  ihave #Hrr1 := (reached_at (RdI I) K (mate c 2 8, Cell.recv 8)) $$ Hrec
  rw [k0_part54_eq_skeleton]
  unfold k0_part54_skel
  sl_exec
  -- the copy of part 1 at step 8 (started as number 12): its units on the partner's receive cell are owed last
  have hc0 : dueCell c 37 = recvCell (mate c 1 8) 8 := dueCell_fire c 11 1
  have ha0 : dueAmt 37 = N := dueAmt_fire 11 1
  have hO0 : owedFrom c 37 = owedFrom c 38 + tallyAt (recvCell (mate c 1 8) 8) () N :=
    (owedFrom_succ c 37 (by decide)).trans (by rw [hc0, ha0])
  iapply (wp_fire_at (accCI I) (rs0I I) c 8 1 (g := 2) (rg := 2) (s := 2) rfl rfl rfl (dev38_eq c) rfl rfl
    (sendS_eq 8) (recvS_eq 8) (accEmb 2 1 (Vals.A I 0 c 2 1 2)) rfl fd0 (owedFrom c 38) hO0) $$ [HO Hts0 Htr0 Hfd0 Ha21]
  · unfold Proto.accPts Proto.rsPts
    isplitr; · iexact HIs0
    isplitr; · iexact HIr0
    isplitl [Ha21]; · iexact Ha21
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  -- the copy of part 2 at step 8 (started as number 12): its units on the partner's receive cell are owed last
  have hc1 : dueCell c 38 = recvCell (mate c 2 8) 8 := dueCell_fire c 11 2
  have ha1 : dueAmt 38 = N := dueAmt_fire 11 2
  have hO1 : owedFrom c 38 = owedFrom c 39 + tallyAt (recvCell (mate c 2 8) 8) () N :=
    (owedFrom_succ c 38 (by decide)).trans (by rw [hc1, ha1])
  iapply (wp_fire_at (accCI I) (rs0I I) c 8 2 (g := 2) (rg := 2) (s := 2) rfl rfl rfl (dev39_eq c) rfl rfl
    (sendS_eq 8) (recvS_eq 8) (accEmb 2 2 (Vals.A I 0 c 2 2 2)) rfl fd1 (owedFrom c 39) hO1) $$ [HO Hts1 Htr1 Hfd1 Ha22]
  · unfold Proto.accPts Proto.rsPts
    isplitr; · iexact HIs1
    isplitr; · iexact HIr1
    isplitl [Ha22]; · iexact Ha22
    isplitl [Hfd1]; · iexact Hfd1
    isplitl [HO]; · iexact HO
    isplitl [Hts1]; · iexact Hts1
    isplitr; · iexact Hrs1
    isplitl [Htr1]; · iexact Htr1
    iexact Hrr1
  iintro ⟨Hcs1, HO⟩
  sl_exec
  sl_step
  -- what the returned values' loads read
  have q0 : local_54.sl.v1427 I c = Vals.A I 0 c 1 0 2 := by unfold local_54.sl.v1427; exact accV_read_accEmb 1 0 _
  have q1 : local_54.sl.v1429 I c = Vals.R I 0 c 1 0 2 := by unfold local_54.sl.v1429; exact rsV_read_rsEmb 1 0 2 _
  have q2 : local_54.sl.v1432 I c = Vals.A I 0 c 1 1 2 := by unfold local_54.sl.v1432; exact accV_read_accEmb 1 1 _
  isplitr [HO Hcs0 Hcs1 Ha10 Hr102 Ha11 HP]
  · ipureintro; rw [q0, q1, q2]; all_goals rfl
  isplitr [HO Hcs0 Hcs1 Ha10 Hr102 Ha11 HP]; · iexact Hrec
  isplitl [HO]; · iexists W; iexact HO
  iframe

/-- info: 'Cert.Kernel.Body.local_54' depends on axioms: [propext, Classical.choice, Quot.sound] -/
#guard_msgs in #print axioms local_54

end Cert.Kernel.Body
-- ==== Proof.Bits.Parts.Part54.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L54
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 54 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 54 of the body, run from the place before it, ends at the place after it and returns its values; whatever else is held is kept. -/
theorem part_54 (m : (ℓ : Loc nD τ sig) → Buf (Elt F) ℓ) (K : Dev nD × Cell → ℕ) (c : Dev nD) (Fr : sProp 𝕄) :
    iprop(St (insM m) K (σ 53) c ∗ outHeld (insM m) c (σ 53).outs ∗ Fr)
      ⊢ wp frame (wpE (defs₀ (F := F)) 𝒱₀ (c : Thread nD τ) none) Set.univ
          (k0_part54 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1416 c, Vals.lv1431 (insM m) c, Vals.lv1433 (insM m) c⟩⌝ ∗ St (insM m) K (σ 54) c ∗ outHeld (insM m) c (σ 54).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 37 : sProp (MT nD τ sig Unit (Elt F) ℕ UU ℕ))
      = iprop(dutyTok ER (sendCell c 8) 0 1 ∗ dutyTok ER (recvCell (mate c 1 8) 8) 0 1 ∗ toksFrom c 38) := toksFrom_copy c 11 1
  have ht1 : (toksFrom c 38 : sProp (MT nD τ sig Unit (Elt F) ℕ UU ℕ))
      = iprop(dutyTok ER (sendCell c 8) 0 2 ∗ dutyTok ER (recvCell (mate c 2 8) 8) 0 2 ∗ toksFrom c 39) := toksFrom_copy c 11 2
  have hf0 : (foreignFrom c 34 : sProp (MT nD τ sig Unit (Elt F) ℕ UU ℕ))
      = iprop(rsTileAny (mate c 1 8) (rgOf 8) 1 (sOf 8) ∗ foreignFrom c 35) := foreignFrom_succ c 11 1
  have hf1 : (foreignFrom c 35 : sProp (MT nD τ sig Unit (Elt F) ℕ UU ℕ))
      = iprop(rsTileAny (mate c 2 8) (rgOf 8) 2 (sOf 8) ∗ foreignFrom c 36) := foreignFrom_succ c 11 2
  have hb8 : (rsBack (insM m) c 9 : sProp (MT nD τ sig Unit (Elt F) ℕ UU ℕ))
      = iprop((rsTile c 2 0 1 (Vals.R (insM m) 0 c 2 0 1) ∗ rsTile c 2 1 1 (Vals.R (insM m) 0 c 2 1 1) ∗ rsTile c 2 2 1 (Vals.R (insM m) 0 c 2 2 1)) ∗ rsBack (insM m) c 8) := rsBack_succ (insM m) c 8
  have hb7 : (rsBack (insM m) c 8 : sProp (MT nD τ sig Unit (Elt F) ℕ UU ℕ))
      = iprop((rsTile c 3 0 0 (Vals.R (insM m) 0 c 3 0 0) ∗ rsTile c 3 1 0 (Vals.R (insM m) 0 c 3 1 0) ∗ rsTile c 3 2 0 (Vals.R (insM m) 0 c 3 2 0)) ∗ rsBack (insM m) c 7) := rsBack_succ (insM m) c 7
  have hb6 : (rsBack (insM m) c 7 : sProp (MT nD τ sig Unit (Elt F) ℕ UU ℕ))
      = iprop((rsTile c 2 0 0 (Vals.R (insM m) 0 c 2 0 0) ∗ rsTile c 2 1 0 (Vals.R (insM m) 0 c 2 1 0) ∗ rsTile c 2 2 0 (Vals.R (insM m) 0 c 2 2 0)) ∗ rsBack (insM m) c 6) := rsBack_succ (insM m) c 6
  have hb5 : (rsBack (insM m) c 6 : sProp (MT nD τ sig Unit (Elt F) ℕ UU ℕ))
      = iprop((rsTile c 1 0 2 (Vals.R (insM m) 0 c 1 0 2) ∗ rsTile c 1 1 2 (Vals.R (insM m) 0 c 1 1 2) ∗ rsTile c 1 2 2 (Vals.R (insM m) 0 c 1 2 2)) ∗ rsBack (insM m) c 5) := rsBack_succ (insM m) c 5
  rw [St_open_53, St_open_54, ht0, ht1, hf0, hf1, hb8, hb7, hb6, hb5, show (σ 53).outs = (σ 54).outs from rfl]
  simp only [hemp, hemp']
  refine BIBase.Entails.trans (Entails.of_eq ?_) (BIBase.Entails.trans
    (local_54 (insM m) K c
      (iprop(levAts Proto.L Proto.lv
        ∗ toksFrom c 39
        ∗ credFrom c 30
        ∗ cred (tallyAt (sendCell c 12) () N)
        ∗ cred (tallyAt (sendCell c 12) () N)
        ∗ cred (tallyAt (sendCell c 12) () N)
        ∗ cred (tallyAt (sendCell c 10) () N)
        ∗ cred (tallyAt (sendCell c 10) () N)
        ∗ cred (tallyAt (sendCell c 10) () N)
        ∗ cred (tallyAt (sendCell c 8) () N)
        ∗ doneTo c 19
        ∗ todoFrom c 19
        ∗ foreignFrom c 36
        ∗ rsTile c 2 0 1 (Vals.R (insM m) 0 c 2 0 1)
        ∗ rsTile c 2 1 1 (Vals.R (insM m) 0 c 2 1 1)
        ∗ rsTile c 2 2 1 (Vals.R (insM m) 0 c 2 2 1)
        ∗ rsTile c 3 0 0 (Vals.R (insM m) 0 c 3 0 0)
        ∗ rsTile c 3 1 0 (Vals.R (insM m) 0 c 3 1 0)
        ∗ rsTile c 3 2 0 (Vals.R (insM m) 0 c 3 2 0)
        ∗ rsTile c 2 0 0 (Vals.R (insM m) 0 c 2 0 0)
        ∗ rsTile c 2 1 0 (Vals.R (insM m) 0 c 2 1 0)
        ∗ rsTile c 2 2 0 (Vals.R (insM m) 0 c 2 2 0)
        ∗ rsTile c 1 1 2 (Vals.R (insM m) 0 c 1 1 2)
        ∗ rsTile c 1 2 2 (Vals.R (insM m) 0 c 1 2 2)
        ∗ rsBack (insM m) c 5
        ∗ accTile c 1 2 (Vals.A (insM m) 0 c 1 2 2)
        ∗ outHeld (insM m) c (σ 54).outs
        ∗ Fr)))
    (wp_mono _ _ _ fun tup => Entails.of_eq ?_))
  · ac_rfl
  · ac_rfl

/-- info: 'Cert.Kernel.Body.part_54' depends on axioms: [propext, Classical.choice, Quot.sound] -/
#guard_msgs in #print axioms part_54

end Cert.Kernel.Body

end
-- ==== Proof.Bits.Parts.Part55.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L55
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 55 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 55 of the body, run from the place before it, ends at the place after it and returns its values; whatever else is held is kept. -/
theorem part_55 (m : (ℓ : Loc nD τ sig) → Buf (Elt F) ℓ) (K : Dev nD × Cell → ℕ) (c : Dev nD) (Fr : sProp 𝕄) :
    iprop(St (insM m) K (σ 54) c ∗ outHeld (insM m) c (σ 54).outs ∗ Fr)
      ⊢ wp frame (wpE (defs₀ (F := F)) 𝒱₀ (c : Thread nD τ) none) Set.univ
          (k0_part55 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv14 (insM m) c) (Vals.lv22 (insM m) c) (Vals.lv23 (insM m) c) (Vals.lv1431 (insM m) c) (Vals.lv1433 (insM m) c))
          (fun tup => iprop(⌜tup = ⟨Vals.lv1451 (insM m) c, Vals.lv1471 (insM m) c, Vals.lv1474 (insM m) c, Vals.lvcst_1675 (insM m) c⟩⌝ ∗ St (insM m) K (σ 55) c ∗ outHeld (insM m) c (σ 55).outs ∗ Fr)) := by
  have eo : (σ 55).outs = (σ 54).outs := rfl
  rw [eo]
  rw [St_eq, St_eq, StRest_congr (insM m) K c (s := σ 54) (s' := σ 55) rfl rfl rfl rfl, accAll_σ_54, accAll_σ_55, StRest_rs (insM m) K c (σ 55) rfl 5 (by decide), rs3_5]
  refine BIBase.Entails.trans ?_ ((local_55 (insM m) c iprop(rsTile c 1 0 2 (Vals.R (insM m) 0 c 1 0 2) ∗ StRestNoRs (insM m) K (σ 55) c 5 ∗ emp ∗ emp ∗ emp ∗ accTile c 1 0 (Vals.A (insM m) 0 c 1 0 2) ∗ accTile c 1 1 (Vals.A (insM m) 0 c 1 1 2) ∗ emp ∗ emp ∗ emp ∗ emp ∗ emp ∗ emp ∗ outHeld (insM m) c (σ 54).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [R1]; · iexact R1
    isplitl [T12]; · iexact T12
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, R1, T12, R2, R0, HR, T00, T01, T02, T10, T11, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_55' depends on axioms: [propext, Classical.choice, Quot.sound] -/
#guard_msgs in #print axioms part_55

end Cert.Kernel.Body

end
-- ==== Proof.Bits.Parts.Part56.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.Parts.L56
import proofs.«900775_g7700000000000776_dist_diff_dit_htp_i_b2_s512_d768_hq4_v7x_i8_f32_1_alg».proof.Proof.Bits.BodyAccTable

/-! Part 56 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 56 of the body, run from the place before it, ends at the place after it and returns its values; whatever else is held is kept. -/
theorem part_56 (m : (ℓ : Loc nD τ sig) → Buf (Elt F) ℓ) (K : Dev nD × Cell → ℕ) (c : Dev nD) (Fr : sProp 𝕄) :
    iprop(St (insM m) K (σ 55) c ∗ outHeld (insM m) c (σ 55).outs ∗ Fr)
      ⊢ wp frame (wpE (defs₀ (F := F)) 𝒱₀ (c : Thread nD τ) none) Set.univ
          (k0_part56 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv24 (insM m) c) (Vals.lv40 (insM m) c) (Vals.lv43 (insM m) c) (Vals.lv1451 (insM m) c) (Vals.lv1471 (insM m) c) (Vals.lv1474 (insM m) c) (Vals.lvcst_1675 (insM m) c))
          (fun tup => iprop(⌜tup = ⟨Vals.lv1507 (insM m) c, Vals.lw1508 c⟩⌝ ∗ St (insM m) K (σ 56) c ∗ outHeld (insM m) c (σ 56).outs ∗ Fr)) := by
  have eo : (σ 56).outs = (σ 55).outs := rfl
  rw [eo]
  rw [St_eq, St_eq, StRest_congr (insM m) K c (s := σ 55) (s' := σ 56) rfl rfl rfl rfl, accAll_σ_55, accAll_σ_56]
  refine BIBase.Entails.trans ?_ ((local_56 (insM m) c iprop(StRest (insM m) K (σ 56) c ∗ emp ∗ emp ∗ emp ∗ emp ∗ emp ∗ emp ∗ emp ∗ emp ∗ emp ∗ outHeld (insM m) c (σ 55).outs ∗ Fr)).trans (wp_mono _ _ _ fun tup => ?_))
  · iintro ⟨⟨HR, T00, T01, T02, T10, T11, T12, T20, T21, T22, T30, T31, T32⟩, HO, HF⟩
    isplitl [T10]; · iexact T10
    isplitl [T11]; · iexact T11
    isplitl [T12]; · iexact T12
    isplitl [HR]; · iexact HR
    isplitl [T00]; · iexact T00
    isplitl [T01]; · iexact T01
    isplitl [T02]; · iexact T02
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T10, T11, T12, HR, T00, T01, T02, T20, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_56' depends on axioms: [propext, Classical.choice, Quot.sound] -/
#guard_msgs in #print axioms part_56

end Cert.Kernel.Body

end
-- ==== Proof.Bits.Parts.L57.lean ====
/-
  Part 57 of the body starts two copies of step 15 (the 13th step started; round 1, group 1, position 0): part 0 of accumulator slice (1, 0) goes to receive slice (5, 0, 0) of the device paired along mask 1, part 1 of accumulator slice (1, 1) goes to receive slice (5, 1, 0) of the device paired along mask 3.
  The accumulator slices, at level 0 of round 1, and the paired devices' receive slices leave the device's hands; it holds the departure credits of its send cell 15 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 57: the copies of parts 0 and 1 of step 15. -/
theorem local_57 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 39) W)
        ∗ dutyTok ER (sendCell c 15) 0 0 ∗ dutyTok ER (recvCell (mate c 0 15) 15) 0 0
        ∗ dutyTok ER (sendCell c 15) 0 1 ∗ dutyTok ER (recvCell (mate c 1 15) 15) 0 1
        ∗ rsTileAny (F := F) (mate c 0 15) 5 0 0
        ∗ rsTileAny (F := F) (mate c 1 15) 5 1 0
        ∗ accTile c 1 0 (A I 1 c 1 0 0)
        ∗ accTile c 1 1 (A I 1 c 1 1 0)
        ∗ P)
      ⊢ wp frame (wpE (defs₀ (F := F)) 𝒱₀ (c : Thread nD τ) none) Set.univ
          (k0_part57 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1508 c))
          (fun tup => iprop(⌜tup = ⟨Vals.lw1519 c, Vals.lw1530 c⟩⌝
            ∗ (∃ W, owes (c : Thread nD τ) (owedFrom c 41) W)
            ∗ cred (tallyAt (sendCell c 15) () N)
            ∗ cred (tallyAt (sendCell c 15) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 15)) $$ HR
  ihave #HRs := (reached_at (RdI I) K (c, Cell.send 15)) $$ HR
  ihave #HIr0 := (inv_at (RdI I) K (mate c 0 15, Cell.recv 15)) $$ HR
  ihave #HRr0 := (reached_at (RdI I) K (mate c 0 15, Cell.recv 15)) $$ HR
  ihave #HIr1 := (inv_at (RdI I) K (mate c 1 15, Cell.recv 15)) $$ HR
  ihave #HRr1 := (reached_at (RdI I) K (mate c 1 15, Cell.recv 15)) $$ HR
  sl_exec
  iapply (wp_fire_at (accCI I) (rs0I I) c 15 0 (g := 1) (rg := 5) (s := 0) (by decide) (by decide) (by decide)
      (dv := ⟨k0_dev40 c, k0_dev40_lt c⟩) ((dev40_eq c).trans rfl) rfl rfl (sendS_eq 15).symm (recvS_eq 15).symm
      (accEmb 1 0 (A I 1 c 1 0 0)) rfl fd0 (owedFrom c 40) (owed_copy c 12 0 39 (by decide) 15 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 15 1 (g := 1) (rg := 5) (s := 0) (by decide) (by decide) (by decide)
      (dv := ⟨k0_dev41 c, k0_dev41_lt c⟩) ((dev41_eq c).trans rfl) rfl rfl (sendS_eq 15).symm (recvS_eq 15).symm
      (accEmb 1 1 (A I 1 c 1 1 0)) rfl fd1 (owedFrom c 41) (owed_copy c 12 1 40 (by decide) 15 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_57' depends on axioms: [propext, Classical.choice, Quot.sound] -/
#guard_msgs in #print axioms Cert.Kernel.Body.local_57

end
-- ==== Proof.Bits.Parts.Part58.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L58
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 58 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 58 of the body, run from the place before it, ends at the place after it; whatever else is held is kept. -/
theorem part_58 (m : (ℓ : Loc nD τ sig) → Buf (Elt F) ℓ) (K : Dev nD × Cell → ℕ) (c : Dev nD) (Fr : sProp 𝕄) :
    iprop(St (insM m) K (σ 57) c ∗ outHeld (insM m) c (σ 57).outs ∗ Fr)
      ⊢ wp frame (wpE (defs₀ (F := F)) 𝒱₀ (c : Thread nD τ) none) Set.univ
          (k0_part58 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1196 c))
          (fun _ => iprop(St (insM m) K (σ 58) c ∗ outHeld (insM m) c (σ 58).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 41 : sProp (MT nD τ sig Unit (Elt F) ℕ UU ℕ)) = iprop(dutyTok ER (sendCell c 15) 0 2 ∗ dutyTok ER (recvCell (mate c 2 15) 15) 0 2 ∗ toksFrom c 42) := toksFrom_copy c 12 2
  have hF0 : (foreignFrom c 38 : sProp (MT nD τ sig Unit (Elt F) ℕ UU ℕ)) = iprop(rsTileAny (mate c 2 15) 5 2 0 ∗ foreignFrom c 39) := foreignFrom_succ c 12 2
  have hC : (credFrom c 30 : sProp (MT nD τ sig Unit (Elt F) ℕ UU ℕ)) = iprop(credFrom c 31 ∗ cred (tallyAt (recvCell c 12) () N)) := by
    rw [credFrom_succ c 30 (by omega), show ownCell c 30 = recvCell c 12 from ownCell_fire c 9 0, show dueAmt 30 = N from dueAmt_fire 9 0]
  have hG : (todoFrom c 19 : sProp (MT nD τ sig Unit (Elt F) ℕ UU ℕ)) = iprop(curCell (sendCell c 12) (fun p => (RdI (insM m)).payload (sendCell c 12) 0 p) 0 ∗ curCell (recvCell c 12) (fun p => (RdI (insM m)).payload (recvCell c 12) 0 p) 0 ∗ todoFrom c 21) := todo_group c 9
  rw [show (σ 58).outs = (σ 57).outs from rfl, St_open_57, St_open_58, hT0, hF0, hC, hG]
  simp only [hemp, hemp']
  refine BIBase.Entails.trans (Entails.of_eq ?_) (BIBase.Entails.trans (local_58 (insM m) K c iprop(toksFrom c 42 ∗ credFrom c 31 ∗ cred (tallyAt (sendCell c 12) () N) ∗ cred (tallyAt (sendCell c 12) () N) ∗ cred (tallyAt (sendCell c 10) () N) ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ doneTo c 19 ∗ todoFrom c 21 ∗ foreignFrom c 39 ∗ rsBack (insM m) c 9 ∗ outHeld (insM m) c (σ 57).outs ∗ Fr)) (wp_mono _ _ _ fun tup => Entails.of_eq ?_))
  · ac_rfl
  · ac_rfl

/-- info: 'Cert.Kernel.Body.part_58' depends on axioms: [propext, Classical.choice, Quot.sound] -/
#guard_msgs in #print axioms part_58

end Cert.Kernel.Body

end
-- ==== Proof.Bits.Parts.L61.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 61 of the body: the store into accumulator tile (0, 2), then the start of the copy of part 0 at step 13 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_61 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 42) W)
        ∗ dutyTok ER (sendCell c 13) 0 0 ∗ dutyTok ER (recvCell (mate c 0 13) 13) 0 0
        ∗ rsTileAny (mate c 0 13) (rgOf 13) 0 (sOf 13)
        ∗ accTile c 0 2 (Vals.A I 1 c 0 2 0)
        ∗ rsTile c 4 2 0 (Vals.R I 1 c 0 2 0)
        ∗ accTile c 0 0 (Vals.A I 1 c 0 0 1)
        ∗ P) : sProp (MT nD τ sig Unit (Elt F) ℕ UU ℕ))
      ⊢ wp frame (wpE (defs₀ (F := F)) 𝒱₀ (c : Thread nD τ) none) Set.univ
      (k0_part61 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
      (fun tup => iprop(⌜tup = ⟨Vals.lw1607 c, Vals.lw1618 c⟩⌝
        ∗ records (RdI I) K
        ∗ (∃ W, owes (c : Thread nD τ) (owedFrom c 43) W)
        ∗ cred (tallyAt (sendCell c 13) () N)
        ∗ accTile c 0 2 (Vals.A I 1 c 0 2 1)
        ∗ rsTile c 4 2 0 (Vals.R I 1 c 0 2 0)
        ∗ P)) := by
  unfold accTile rsTile rsTileAny Proto.accPts Proto.rsPts
  iintro ⟨#Hrec, ⟨%W, HO⟩, Hts0, Htr0, ⟨%fd0, Hfd0⟩, Ha02, Hr420, Ha00, HP⟩
  ihave #HIs0 := (inv_at (RdI I) K (c, Cell.send 13)) $$ Hrec
  ihave #HIr0 := (inv_at (RdI I) K (mate c 0 13, Cell.recv 13)) $$ Hrec
  ihave #Hrs0 := (reached_at (RdI I) K (c, Cell.send 13)) $$ Hrec
  ihave #Hrr0 := (reached_at (RdI I) K (mate c 0 13, Cell.recv 13)) $$ Hrec
  rw [k0_part61_eq_skeleton]
  unfold k0_part61_skel
  sl_exec
  -- the copy of part 0 at step 13 (started as number 14): its units on the partner's receive cell are owed last
  have hc0 : dueCell c 42 = recvCell (mate c 0 13) 13 := dueCell_fire c 13 0
  have ha0 : dueAmt 42 = N := dueAmt_fire 13 0
  have hO0 : owedFrom c 42 = owedFrom c 43 + tallyAt (recvCell (mate c 0 13) 13) () N :=
    (owedFrom_succ c 42 (by decide)).trans (by rw [hc0, ha0])
  iapply (wp_fire_at (accCI I) (rs0I I) c 13 0 (g := 0) (rg := 4) (s := 1) rfl rfl rfl (dev43_eq c) rfl rfl
    (sendS_eq 13) (recvS_eq 13) (accEmb 0 0 (Vals.A I 1 c 0 0 1)) rfl fd0 (owedFrom c 43) hO0) $$ [HO Hts0 Htr0 Hfd0 Ha00]
  · unfold Proto.accPts Proto.rsPts
    isplitr; · iexact HIs0
    isplitr; · iexact HIr0
    isplitl [Ha00]; · iexact Ha00
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha02_r0 : local_61.sl.v1599 I c = Vals.A I 1 c 0 2 0 := by unfold local_61.sl.v1599; exact accV_read_accEmb 0 2 _
  have Ha02_r1 : local_61.sl.v1601 I c = Vals.R I 1 c 0 2 0 := by unfold local_61.sl.v1601; exact rsV_read_rsEmb 4 2 0 _
  have Ha02_e : View.read (Elt F) (accV 0 2) (local_61.sl.Ha02_w1 I c) = Vals.A I 1 c 0 2 1 := by
    unfold local_61.sl.Ha02_w1; rw [Ha02_r0, Ha02_r1]; exact View.read_write_univ _ _
  have Ha02_t : ((Proto.accSl 0 2).view.loc (c : Thread nD τ) ↦[(Proto.accSl 0 2).view.set]{fullShare} local_61.sl.Ha02_w1 I c : sProp (MT nD τ sig Unit (Elt F) ℕ UU ℕ)) = ((Proto.accSl 0 2).view.loc (c : Thread nD τ) ↦[(Proto.accSl 0 2).view.set]{fullShare} accEmb 0 2 (Vals.A I 1 c 0 2 1) : sProp (MT nD τ sig Unit (Elt F) ℕ UU ℕ)) := accTile_of_read c fullShare 0 2 Ha02_e
  rw [← Ha02_t]
  isplitr [HO Hcs0 Ha02 Hr420 HP]
  · ipureintro; rfl
  isplitr [HO Hcs0 Ha02 Hr420 HP]; · iexact Hrec
  isplitl [HO]; · iexists W; iexact HO
  iframe

/-- info: 'Cert.Kernel.Body.local_61' depends on axioms: [propext, Classical.choice, Quot.sound] -/
#guard_msgs in #print axioms local_61

end Cert.Kernel.Body
-- ==== Proof.Bits.Parts.Part61.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L61
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 61 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 61 of the body, run from the place before it, ends at the place after it and returns its values; whatever else is held is kept. -/
theorem part_61 (m : (ℓ : Loc nD τ sig) → Buf (Elt F) ℓ) (K : Dev nD × Cell → ℕ) (c : Dev nD) (Fr : sProp 𝕄) :
    iprop(St (insM m) K (σ 60) c ∗ outHeld (insM m) c (σ 60).outs ∗ Fr)
      ⊢ wp frame (wpE (defs₀ (F := F)) 𝒱₀ (c : Thread nD τ) none) Set.univ
          (k0_part61 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1607 c, Vals.lw1618 c⟩⌝ ∗ St (insM m) K (σ 61) c ∗ outHeld (insM m) c (σ 61).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 42 : sProp (MT nD τ sig Unit (Elt F) ℕ UU ℕ))
      = iprop(dutyTok ER (sendCell c 13) 0 0 ∗ dutyTok ER (recvCell (mate c 0 13) 13) 0 0 ∗ toksFrom c 43) := toksFrom_copy c 13 0
  have hf0 : (foreignFrom c 39 : sProp (MT nD τ sig Unit (Elt F) ℕ UU ℕ))
      = iprop(rsTileAny (mate c 0 13) (rgOf 13) 0 (sOf 13) ∗ foreignFrom c 40) := foreignFrom_succ c 13 0
  have hb9 : (rsBack (insM m) c 10 : sProp (MT nD τ sig Unit (Elt F) ℕ UU ℕ))
      = iprop((rsTile c 4 0 0 (Vals.R (insM m) 1 c 0 0 0) ∗ rsTile c 4 1 0 (Vals.R (insM m) 1 c 0 1 0) ∗ rsTile c 4 2 0 (Vals.R (insM m) 1 c 0 2 0)) ∗ rsBack (insM m) c 9) := rsBack_succ (insM m) c 9
  rw [St_open_60, St_open_61, ht0, hf0, hb9, show (σ 60).outs = (σ 61).outs from rfl]
  simp only [hemp, hemp']
  refine BIBase.Entails.trans (Entails.of_eq ?_) (BIBase.Entails.trans
    (local_61 (insM m) K c
      (iprop(levAts Proto.L Proto.lv
        ∗ toksFrom c 43
        ∗ credFrom c 33
        ∗ cred (tallyAt (sendCell c 10) () N)
        ∗ cred (tallyAt (sendCell c 10) () N)
        ∗ cred (tallyAt (sendCell c 10) () N)
        ∗ cred (tallyAt (sendCell c 8) () N)
        ∗ cred (tallyAt (sendCell c 8) () N)
        ∗ cred (tallyAt (sendCell c 8) () N)
        ∗ cred (tallyAt (sendCell c 15) () N)
        ∗ cred (tallyAt (sendCell c 15) () N)
        ∗ cred (tallyAt (sendCell c 15) () N)
        ∗ doneTo c 21
        ∗ todoFrom c 21
        ∗ foreignFrom c 40
        ∗ rsTile c 4 0 0 (Vals.R (insM m) 1 c 0 0 0)
        ∗ rsTile c 4 1 0 (Vals.R (insM m) 1 c 0 1 0)
        ∗ rsBack (insM m) c 9
        ∗ accTile c 0 1 (Vals.A (insM m) 1 c 0 1 1)
        ∗ outHeld (insM m) c (σ 61).outs
        ∗ Fr)))
    (wp_mono _ _ _ fun tup => Entails.of_eq ?_))
  · ac_rfl
  · ac_rfl

/-- info: 'Cert.Kernel.Body.part_61' depends on axioms: [propext, Classical.choice, Quot.sound] -/
#guard_msgs in #print axioms part_61

end Cert.Kernel.Body

end
-- ==== Proof.Bits.Parts.Part62.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L62
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 62 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 62 of the body, run from the place before it, ends at the place after it and returns its values; whatever else is held is kept. -/
theorem part_62 (m : (ℓ : Loc nD τ sig) → Buf (Elt F) ℓ) (K : Dev nD × Cell → ℕ) (c : Dev nD) (Fr : sProp 𝕄) :
    iprop(St (insM m) K (σ 61) c ∗ outHeld (insM m) c (σ 61).outs ∗ Fr)
      ⊢ wp frame (wpE (defs₀ (F := F)) 𝒱₀ (c : Thread nD τ) none) Set.univ
          (k0_part62 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = Vals.lw1629 c⌝ ∗ St (insM m) K (σ 62) c ∗ outHeld (insM m) c (σ 62).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 43 : sProp (MT nD τ sig Unit (Elt F) ℕ UU ℕ)) = iprop(dutyTok ER (sendCell c 13) 0 1 ∗ dutyTok ER (recvCell (mate c 1 13) 13) 0 1 ∗ toksFrom c 44) := toksFrom_copy c 13 1
  have hF0 : (foreignFrom c 40 : sProp (MT nD τ sig Unit (Elt F) ℕ UU ℕ)) = iprop(rsTileAny (mate c 1 13) 4 1 1 ∗ foreignFrom c 41) := foreignFrom_succ c 13 1
  have hT1 : (toksFrom c 44 : sProp (MT nD τ sig Unit (Elt F) ℕ UU ℕ)) = iprop(dutyTok ER (sendCell c 13) 0 2 ∗ dutyTok ER (recvCell (mate c 2 13) 13) 0 2 ∗ toksFrom c 45) := toksFrom_copy c 13 2
  have hF1 : (foreignFrom c 41 : sProp (MT nD τ sig Unit (Elt F) ℕ UU ℕ)) = iprop(rsTileAny (mate c 2 13) 4 2 1 ∗ foreignFrom c 42) := foreignFrom_succ c 13 2
  have hG : (todoFrom c 21 : sProp (MT nD τ sig Unit (Elt F) ℕ UU ℕ)) = iprop(curCell (sendCell c 10) (fun p => (RdI (insM m)).payload (sendCell c 10) 0 p) 0 ∗ curCell (recvCell c 10) (fun p => (RdI (insM m)).payload (recvCell c 10) 0 p) 0 ∗ todoFrom c 23) := todo_group c 10
  rw [show (σ 62).outs = (σ 61).outs from rfl, St_open_61, St_open_62, hT0, hF0, hT1, hF1, hG]
  simp only [hemp, hemp']
  refine BIBase.Entails.trans (Entails.of_eq ?_) (BIBase.Entails.trans (local_62 (insM m) K c iprop(toksFrom c 45 ∗ credFrom c 33 ∗ cred (tallyAt (sendCell c 10) () N) ∗ cred (tallyAt (sendCell c 10) () N) ∗ cred (tallyAt (sendCell c 8) () N) ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ doneTo c 21 ∗ curCell (recvCell c 10) (fun p => (RdI (insM m)).payload (recvCell c 10) 0 p) 0 ∗ todoFrom c 23 ∗ foreignFrom c 42 ∗ rsBack (insM m) c 10 ∗ outHeld (insM m) c (σ 61).outs ∗ Fr)) (wp_mono _ _ _ fun tup => Entails.of_eq ?_))
  · ac_rfl
  · ac_rfl

/-- info: 'Cert.Kernel.Body.part_62' depends on axioms: [propext, Classical.choice, Quot.sound] -/
#guard_msgs in #print axioms part_62

end Cert.Kernel.Body

end
-- ==== Proof.Bits.Parts.Part65.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L65
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 65 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 65 of the body, run from the place before it, ends at the place after it and returns its values; whatever else is held is kept. -/
theorem part_65 (m : (ℓ : Loc nD τ sig) → Buf (Elt F) ℓ) (K : Dev nD × Cell → ℕ) (c : Dev nD) (Fr : sProp 𝕄) :
    iprop(St (insM m) K (σ 64) c ∗ outHeld (insM m) c (σ 64).outs ∗ Fr)
      ⊢ wp frame (wpE (defs₀ (F := F)) 𝒱₀ (c : Thread nD τ) none) Set.univ
          (k0_part65 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1686 (insM m) c))
          (fun tup => iprop(⌜tup = Vals.lw1706 c⌝ ∗ St (insM m) K (σ 65) c ∗ outHeld (insM m) c (σ 65).outs ∗ Fr)) := by
  have eo : (σ 65).outs = (σ 64).outs := rfl
  rw [eo]
  rw [St_eq, St_eq, StRest_congr (insM m) K c (s := σ 64) (s' := σ 65) rfl rfl rfl rfl, accAll_σ_64, accAll_σ_65, StRest_rs (insM m) K c (σ 65) rfl 10 (by decide), rs3_10]
  refine BIBase.Entails.trans ?_ ((local_65 (insM m) c iprop(rsTile c 3 0 1 (Vals.R (insM m) 0 c 3 0 1) ∗ StRestNoRs (insM m) K (σ 65) c 10 ∗ emp ∗ emp ∗ emp ∗ emp ∗ emp ∗ emp ∗ emp ∗ emp ∗ emp ∗ outHeld (insM m) c (σ 64).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T30]; · iexact T30
    isplitl [T31]; · iexact T31
    isplitl [R1]; · iexact R1
    isplitl [T32]; · iexact T32
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, R1, T32, R2, R0, HR, T00, T01, T02, T10, T11, T12, T20, T21, T22, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_65' depends on axioms: [propext, Classical.choice, Quot.sound] -/
#guard_msgs in #print axioms part_65

end Cert.Kernel.Body

end
-- ==== Proof.Bits.Parts.L66.lean ====
/-
  Part 66 of the body starts two copies of step 11 (the 15th step started; round 0, group 3, position 2): part 0 of accumulator slice (3, 0) goes to receive slice (3, 0, 2) of the device paired along mask 4, part 1 of accumulator slice (3, 1) goes to receive slice (3, 1, 2) of the device paired along mask 1.
  The accumulator slices, at level 2 of round 0, and the paired devices' receive slices leave the device's hands; it holds the departure credits of its send cell 11 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 66: the copies of parts 0 and 1 of step 11. -/
theorem local_66 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 45) W)
        ∗ dutyTok ER (sendCell c 11) 0 0 ∗ dutyTok ER (recvCell (mate c 0 11) 11) 0 0
        ∗ dutyTok ER (sendCell c 11) 0 1 ∗ dutyTok ER (recvCell (mate c 1 11) 11) 0 1
        ∗ rsTileAny (F := F) (mate c 0 11) 3 0 2
        ∗ rsTileAny (F := F) (mate c 1 11) 3 1 2
        ∗ accTile c 3 0 (A I 0 c 3 0 2)
        ∗ accTile c 3 1 (A I 0 c 3 1 2)
        ∗ P)
      ⊢ wp frame (wpE (defs₀ (F := F)) 𝒱₀ (c : Thread nD τ) none) Set.univ
          (k0_part66 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1717 c, Vals.lw1728 c⟩⌝
            ∗ (∃ W, owes (c : Thread nD τ) (owedFrom c 47) W)
            ∗ cred (tallyAt (sendCell c 11) () N)
            ∗ cred (tallyAt (sendCell c 11) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 11)) $$ HR
  ihave #HRs := (reached_at (RdI I) K (c, Cell.send 11)) $$ HR
  ihave #HIr0 := (inv_at (RdI I) K (mate c 0 11, Cell.recv 11)) $$ HR
  ihave #HRr0 := (reached_at (RdI I) K (mate c 0 11, Cell.recv 11)) $$ HR
  ihave #HIr1 := (inv_at (RdI I) K (mate c 1 11, Cell.recv 11)) $$ HR
  ihave #HRr1 := (reached_at (RdI I) K (mate c 1 11, Cell.recv 11)) $$ HR
  sl_exec
  iapply (wp_fire_at (accCI I) (rs0I I) c 11 0 (g := 3) (rg := 3) (s := 2) (by decide) (by decide) (by decide)
      (dv := ⟨k0_dev46 c, k0_dev46_lt c⟩) ((dev46_eq c).trans rfl) rfl rfl (sendS_eq 11).symm (recvS_eq 11).symm
      (accEmb 3 0 (A I 0 c 3 0 2)) rfl fd0 (owedFrom c 46) (owed_copy c 14 0 45 (by decide) 11 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 11 1 (g := 3) (rg := 3) (s := 2) (by decide) (by decide) (by decide)
      (dv := ⟨k0_dev47 c, k0_dev47_lt c⟩) ((dev47_eq c).trans rfl) rfl rfl (sendS_eq 11).symm (recvS_eq 11).symm
      (accEmb 3 1 (A I 0 c 3 1 2)) rfl fd1 (owedFrom c 47) (owed_copy c 14 1 46 (by decide) 11 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_66' depends on axioms: [propext, Classical.choice, Quot.sound] -/
#guard_msgs in #print axioms Cert.Kernel.Body.local_66

end
-- ==== Proof.Bits.Parts.Part67.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L67
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 67 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 67 of the body, run from the place before it, ends at the place after it; whatever else is held is kept. -/
theorem part_67 (m : (ℓ : Loc nD τ sig) → Buf (Elt F) ℓ) (K : Dev nD × Cell → ℕ) (c : Dev nD) (Fr : sProp 𝕄) :
    iprop(St (insM m) K (σ 66) c ∗ outHeld (insM m) c (σ 66).outs ∗ Fr)
      ⊢ wp frame (wpE (defs₀ (F := F)) 𝒱₀ (c : Thread nD τ) none) Set.univ
          (k0_part67 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1394 c))
          (fun _ => iprop(St (insM m) K (σ 67) c ∗ outHeld (insM m) c (σ 67).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 47 : sProp (MT nD τ sig Unit (Elt F) ℕ UU ℕ)) = iprop(dutyTok ER (sendCell c 11) 0 2 ∗ dutyTok ER (recvCell (mate c 2 11) 11) 0 2 ∗ toksFrom c 48) := toksFrom_copy c 14 2
  have hF0 : (foreignFrom c 44 : sProp (MT nD τ sig Unit (Elt F) ℕ UU ℕ)) = iprop(rsTileAny (mate c 2 11) 3 2 2 ∗ foreignFrom c 45) := foreignFrom_succ c 14 2
  have hC : (credFrom c 36 : sProp (MT nD τ sig Unit (Elt F) ℕ UU ℕ)) = iprop(credFrom c 37 ∗ cred (tallyAt (recvCell c 8) () N)) := by
    rw [credFrom_succ c 36 (by omega), show ownCell c 36 = recvCell c 8 from ownCell_fire c 11 0, show dueAmt 36 = N from dueAmt_fire 11 0]
  have hG : (todoFrom c 23 : sProp (MT nD τ sig Unit (Elt F) ℕ UU ℕ)) = iprop(curCell (sendCell c 8) (fun p => (RdI (insM m)).payload (sendCell c 8) 0 p) 0 ∗ curCell (recvCell c 8) (fun p => (RdI (insM m)).payload (recvCell c 8) 0 p) 0 ∗ todoFrom c 25) := todo_group c 11
  rw [show (σ 67).outs = (σ 66).outs from rfl, St_open_66, St_open_67, hT0, hF0, hC, hG]
  simp only [hemp, hemp']
  refine BIBase.Entails.trans (Entails.of_eq ?_) (BIBase.Entails.trans (local_67 (insM m) K c iprop(toksFrom c 48 ∗ credFrom c 37 ∗ cred (tallyAt (sendCell c 8) () N) ∗ cred (tallyAt (sendCell c 8) () N) ∗ cred (tallyAt (sendCell c 15) () N) ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ doneTo c 23 ∗ todoFrom c 25 ∗ foreignFrom c 45 ∗ rsBack (insM m) c 11 ∗ outHeld (insM m) c (σ 66).outs ∗ Fr)) (wp_mono _ _ _ fun tup => Entails.of_eq ?_))
  · ac_rfl
  · ac_rfl

/-- info: 'Cert.Kernel.Body.part_67' depends on axioms: [propext, Classical.choice, Quot.sound] -/
#guard_msgs in #print axioms part_67

end Cert.Kernel.Body

end
-- ==== Proof.Bits.Parts.Part70.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L70
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable

/-! Part 70 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 70 of the body, run from the place before it, ends at the place after it and returns its values; whatever else is held is kept. -/
theorem part_70 (m : (ℓ : Loc nD τ sig) → Buf (Elt F) ℓ) (K : Dev nD × Cell → ℕ) (c : Dev nD) (Fr : sProp 𝕄) :
    iprop(St (insM m) K (σ 69) c ∗ outHeld (insM m) c (σ 69).outs ∗ Fr)
      ⊢ wp frame (wpE (defs₀ (F := F)) 𝒱₀ (c : Thread nD τ) none) Set.univ
          (k0_part70 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv23 (insM m) c) (Vals.lv24 (insM m) c) (Vals.lv40 (insM m) c) (Vals.lv43 (insM m) c) (Vals.lv1805 (insM m) c))
          (fun tup => iprop(⌜tup = ⟨Vals.lv1848 (insM m) c, Vals.lv1852 (insM m) c⟩⌝ ∗ St (insM m) K (σ 70) c ∗ outHeld (insM m) c (σ 70).outs ∗ Fr)) := by
  have eo : (σ 70).outs = (σ 69).outs := rfl
  rw [eo]
  rw [St_eq, St_eq, StRest_congr (insM m) K c (s := σ 69) (s' := σ 70) rfl rfl rfl rfl, accAll_σ_69, accAll_σ_70]
  refine BIBase.Entails.trans ?_ ((local_70 (insM m) c iprop(StRest (insM m) K (σ 70) c ∗ emp ∗ emp ∗ emp ∗ emp ∗ emp ∗ emp ∗ accTile c 2 1 (Vals.A (insM m) 0 c 2 1 2) ∗ accTile c 2 2 (Vals.A (insM m) 0 c 2 2 2) ∗ emp ∗ emp ∗ emp ∗ outHeld (insM m) c (σ 69).outs ∗ Fr)).trans (wp_mono _ _ _ fun tup => ?_))
  · iintro ⟨⟨HR, T00, T01, T02, T10, T11, T12, T20, T21, T22, T30, T31, T32⟩, HO, HF⟩
    isplitl [T20]; · iexact T20
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T21]; · iexact T21
    isplitl [T22]; · iexact T22
    isplitl [T30]; · iexact T30
    isplitl [T31]; · iexact T31
    isplitl [T32]; · iexact T32
    isplitl [HO]; · iexact HO
    iexact HF
  · iintro ⟨%ht, T20, HR, T00, T01, T02, T10, T11, T12, T21, T22, T30, T31, T32, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_70' depends on axioms: [propext, Classical.choice, Quot.sound] -/
#guard_msgs in #print axioms part_70

end Cert.Kernel.Body

end
-- ==== Proof.Bits.Parts.L71.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 71 of the body: the stores into accumulator tiles (2, 0), (2, 1), (2, 2), then the start of the copy of part 0 at step 18 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_71 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 48) W)
        ∗ dutyTok ER (sendCell c 18) 0 0 ∗ dutyTok ER (recvCell (mate c 0 18) 18) 0 0
        ∗ rsTileAny (mate c 0 18) (rgOf 18) 0 (sOf 18)
        ∗ accTile c 2 0 (Vals.A I 0 c 2 0 2)
        ∗ accTile c 2 1 (Vals.A I 0 c 2 1 2)
        ∗ accTile c 2 2 (Vals.A I 0 c 2 2 2)
        ∗ P) : sProp (MT nD τ sig Unit (Elt F) ℕ UU ℕ))
      ⊢ wp frame (wpE (defs₀ (F := F)) 𝒱₀ (c : Thread nD τ) none) Set.univ
      (k0_part71 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1805 I c) (Vals.lv1848 I c) (Vals.lv1852 I c))
      (fun tup => iprop(⌜tup = ⟨Vals.lv1861 I c, Vals.lw1862 c, Vals.lw1873 c⟩⌝
        ∗ records (RdI I) K
        ∗ (∃ W, owes (c : Thread nD τ) (owedFrom c 49) W)
        ∗ cred (tallyAt (sendCell c 18) () N)
        ∗ accTile c 2 1 (Vals.A I 1 c 2 1 0)
        ∗ accTile c 2 2 (Vals.A I 1 c 2 2 0)
        ∗ P)) := by
  unfold accTile rsTileAny Proto.accPts Proto.rsPts
  iintro ⟨#Hrec, ⟨%W, HO⟩, Hts0, Htr0, ⟨%fd0, Hfd0⟩, Ha20, Ha21, Ha22, HP⟩
  ihave #HIs0 := (inv_at (RdI I) K (c, Cell.send 18)) $$ Hrec
  ihave #HIr0 := (inv_at (RdI I) K (mate c 0 18, Cell.recv 18)) $$ Hrec
  ihave #Hrs0 := (reached_at (RdI I) K (c, Cell.send 18)) $$ Hrec
  ihave #Hrr0 := (reached_at (RdI I) K (mate c 0 18, Cell.recv 18)) $$ Hrec
  rw [k0_part71_eq_skeleton]
  unfold k0_part71_skel
  sl_exec
  -- the source tile as the level names it
  have Ha20_e : View.read (Elt F) (accV 2 0) (local_71.sl.Ha20_w1 I c) = Vals.A I 1 c 2 0 0 := by
    unfold local_71.sl.Ha20_w1; exact View.read_write_univ _ _
  have Ha20_t : ((Proto.accSl 2 0).view.loc (c : Thread nD τ) ↦[(Proto.accSl 2 0).view.set]{fullShare} local_71.sl.Ha20_w1 I c : sProp (MT nD τ sig Unit (Elt F) ℕ UU ℕ)) = ((Proto.accSl 2 0).view.loc (c : Thread nD τ) ↦[(Proto.accSl 2 0).view.set]{fullShare} accEmb 2 0 (Vals.A I 1 c 2 0 0) : sProp (MT nD τ sig Unit (Elt F) ℕ UU ℕ)) := accTile_of_read c fullShare 2 0 Ha20_e
  ihave Ha20 := (Entails.of_eq Ha20_t) $$ Ha20
  -- the copy of part 0 at step 18 (started as number 16): its units on the partner's receive cell are owed last
  have hc0 : dueCell c 48 = recvCell (mate c 0 18) 18 := dueCell_fire c 15 0
  have ha0 : dueAmt 48 = N := dueAmt_fire 15 0
  have hO0 : owedFrom c 48 = owedFrom c 49 + tallyAt (recvCell (mate c 0 18) 18) () N :=
    (owedFrom_succ c 48 (by decide)).trans (by rw [hc0, ha0])
  iapply (wp_fire_at (accCI I) (rs0I I) c 18 0 (g := 2) (rg := 6) (s := 0) rfl rfl rfl (dev49_eq c) rfl rfl
    (sendS_eq 18) (recvS_eq 18) (accEmb 2 0 (Vals.A I 1 c 2 0 0)) rfl fd0 (owedFrom c 49) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha21_e : View.read (Elt F) (accV 2 1) (local_71.sl.Ha21_w2 I c) = Vals.A I 1 c 2 1 0 := by
    unfold local_71.sl.Ha21_w2; exact View.read_write_univ _ _
  have Ha21_t : ((Proto.accSl 2 1).view.loc (c : Thread nD τ) ↦[(Proto.accSl 2 1).view.set]{fullShare} local_71.sl.Ha21_w2 I c : sProp (MT nD τ sig Unit (Elt F) ℕ UU ℕ)) = ((Proto.accSl 2 1).view.loc (c : Thread nD τ) ↦[(Proto.accSl 2 1).view.set]{fullShare} accEmb 2 1 (Vals.A I 1 c 2 1 0) : sProp (MT nD τ sig Unit (Elt F) ℕ UU ℕ)) := accTile_of_read c fullShare 2 1 Ha21_e
  have Ha22_e : View.read (Elt F) (accV 2 2) (local_71.sl.Ha22_w3 I c) = Vals.A I 1 c 2 2 0 := by
    unfold local_71.sl.Ha22_w3; exact View.read_write_univ _ _
  have Ha22_t : ((Proto.accSl 2 2).view.loc (c : Thread nD τ) ↦[(Proto.accSl 2 2).view.set]{fullShare} local_71.sl.Ha22_w3 I c : sProp (MT nD τ sig Unit (Elt F) ℕ UU ℕ)) = ((Proto.accSl 2 2).view.loc (c : Thread nD τ) ↦[(Proto.accSl 2 2).view.set]{fullShare} accEmb 2 2 (Vals.A I 1 c 2 2 0) : sProp (MT nD τ sig Unit (Elt F) ℕ UU ℕ)) := accTile_of_read c fullShare 2 2 Ha22_e
  rw [← Ha21_t, ← Ha22_t]
  isplitr [HO Hcs0 Ha21 Ha22 HP]
  · ipureintro; rfl
  isplitr [HO Hcs0 Ha21 Ha22 HP]; · iexact Hrec
  isplitl [HO]; · iexists W; iexact HO
  iframe

/-- info: 'Cert.Kernel.Body.local_71' depends on axioms: [propext, Classical.choice, Quot.sound] -/
#guard_msgs in #print axioms local_71

end Cert.Kernel.Body
-- ==== Proof.Bits.Parts.Part71.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L71
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 71 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 71 of the body, run from the place before it, ends at the place after it and returns its values; whatever else is held is kept. -/
theorem part_71 (m : (ℓ : Loc nD τ sig) → Buf (Elt F) ℓ) (K : Dev nD × Cell → ℕ) (c : Dev nD) (Fr : sProp 𝕄) :
    iprop(St (insM m) K (σ 70) c ∗ outHeld (insM m) c (σ 70).outs ∗ Fr)
      ⊢ wp frame (wpE (defs₀ (F := F)) 𝒱₀ (c : Thread nD τ) none) Set.univ
          (k0_part71 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv1805 (insM m) c) (Vals.lv1848 (insM m) c) (Vals.lv1852 (insM m) c))
          (fun tup => iprop(⌜tup = ⟨Vals.lv1861 (insM m) c, Vals.lw1862 c, Vals.lw1873 c⟩⌝ ∗ St (insM m) K (σ 71) c ∗ outHeld (insM m) c (σ 71).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 48 : sProp (MT nD τ sig Unit (Elt F) ℕ UU ℕ))
      = iprop(dutyTok ER (sendCell c 18) 0 0 ∗ dutyTok ER (recvCell (mate c 0 18) 18) 0 0 ∗ toksFrom c 49) := toksFrom_copy c 15 0
  have hf0 : (foreignFrom c 45 : sProp (MT nD τ sig Unit (Elt F) ℕ UU ℕ))
      = iprop(rsTileAny (mate c 0 18) (rgOf 18) 0 (sOf 18) ∗ foreignFrom c 46) := foreignFrom_succ c 15 0
  rw [St_open_70, St_open_71, ht0, hf0, show (σ 70).outs = (σ 71).outs from rfl]
  simp only [hemp, hemp']
  refine BIBase.Entails.trans (Entails.of_eq ?_) (BIBase.Entails.trans
    (local_71 (insM m) K c
      (iprop(levAts Proto.L Proto.lv
        ∗ toksFrom c 49
        ∗ credFrom c 39
        ∗ cred (tallyAt (sendCell c 15) () N)
        ∗ cred (tallyAt (sendCell c 15) () N)
        ∗ cred (tallyAt (sendCell c 15) () N)
        ∗ cred (tallyAt (sendCell c 13) () N)
        ∗ cred (tallyAt (sendCell c 13) () N)
        ∗ cred (tallyAt (sendCell c 13) () N)
        ∗ cred (tallyAt (sendCell c 11) () N)
        ∗ cred (tallyAt (sendCell c 11) () N)
        ∗ cred (tallyAt (sendCell c 11) () N)
        ∗ doneTo c 25
        ∗ todoFrom c 25
        ∗ foreignFrom c 46
        ∗ rsBack (insM m) c 12
        ∗ outHeld (insM m) c (σ 71).outs
        ∗ Fr)))
    (wp_mono _ _ _ fun tup => Entails.of_eq ?_))
  · ac_rfl
  · ac_rfl

/-- info: 'Cert.Kernel.Body.part_71' depends on axioms: [propext, Classical.choice, Quot.sound] -/
#guard_msgs in #print axioms part_71

end Cert.Kernel.Body

end
-- ==== Proof.Bits.Parts.Part72.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L72
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 72 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 72 of the body, run from the place before it, ends at the place after it and returns its values; whatever else is held is kept. -/
theorem part_72 (m : (ℓ : Loc nD τ sig) → Buf (Elt F) ℓ) (K : Dev nD × Cell → ℕ) (c : Dev nD) (Fr : sProp 𝕄) :
    iprop(St (insM m) K (σ 71) c ∗ outHeld (insM m) c (σ 71).outs ∗ Fr)
      ⊢ wp frame (wpE (defs₀ (F := F)) 𝒱₀ (c : Thread nD τ) none) Set.univ
          (k0_part72 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = Vals.lw1884 c⌝ ∗ St (insM m) K (σ 72) c ∗ outHeld (insM m) c (σ 72).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 49 : sProp (MT nD τ sig Unit (Elt F) ℕ UU ℕ)) = iprop(dutyTok ER (sendCell c 18) 0 1 ∗ dutyTok ER (recvCell (mate c 1 18) 18) 0 1 ∗ toksFrom c 50) := toksFrom_copy c 15 1
  have hF0 : (foreignFrom c 46 : sProp (MT nD τ sig Unit (Elt F) ℕ UU ℕ)) = iprop(rsTileAny (mate c 1 18) 6 1 0 ∗ foreignFrom c 47) := foreignFrom_succ c 15 1
  have hT1 : (toksFrom c 50 : sProp (MT nD τ sig Unit (Elt F) ℕ UU ℕ)) = iprop(dutyTok ER (sendCell c 18) 0 2 ∗ dutyTok ER (recvCell (mate c 2 18) 18) 0 2 ∗ toksFrom c 51) := toksFrom_copy c 15 2
  have hF1 : (foreignFrom c 47 : sProp (MT nD τ sig Unit (Elt F) ℕ UU ℕ)) = iprop(rsTileAny (mate c 2 18) 6 2 0 ∗ foreignFrom c 48) := foreignFrom_succ c 15 2
  have hG : (todoFrom c 25 : sProp (MT nD τ sig Unit (Elt F) ℕ UU ℕ)) = iprop(curCell (sendCell c 15) (fun p => (RdI (insM m)).payload (sendCell c 15) 0 p) 0 ∗ curCell (recvCell c 15) (fun p => (RdI (insM m)).payload (recvCell c 15) 0 p) 0 ∗ todoFrom c 27) := todo_group c 12
  rw [show (σ 72).outs = (σ 71).outs from rfl, St_open_71, St_open_72, hT0, hF0, hT1, hF1, hG]
  simp only [hemp, hemp']
  refine BIBase.Entails.trans (Entails.of_eq ?_) (BIBase.Entails.trans (local_72 (insM m) K c iprop(toksFrom c 51 ∗ credFrom c 39 ∗ cred (tallyAt (sendCell c 15) () N) ∗ cred (tallyAt (sendCell c 15) () N) ∗ cred (tallyAt (sendCell c 13) () N) ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ doneTo c 25 ∗ curCell (recvCell c 15) (fun p => (RdI (insM m)).payload (recvCell c 15) 0 p) 0 ∗ todoFrom c 27 ∗ foreignFrom c 48 ∗ rsBack (insM m) c 12 ∗ outHeld (insM m) c (σ 71).outs ∗ Fr)) (wp_mono _ _ _ fun tup => Entails.of_eq ?_))
  · ac_rfl
  · ac_rfl

/-- info: 'Cert.Kernel.Body.part_72' depends on axioms: [propext, Classical.choice, Quot.sound] -/
#guard_msgs in #print axioms part_72

end Cert.Kernel.Body

end
-- ==== Proof.Bits.Parts.L74.lean ====
/-
  Part 74 of the body ends wait group 12 (round 1, group 1, first exchange): the third wait on its send cell hands back the
  three accumulator tiles of group 1 at level 0 of round 1, the third wait on its receive cell hands over the three receive
  tiles holding the partners' tiles of that level. It then reads part 0's accumulator tile and receive tile and returns
  their sum as a 256 × 256 matrix together with the accumulator tile as read.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

theorem local_74 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 51) W)
        ∗ cred (tallyAt (sendCell c 15) () N) ∗ cred (tallyAt (recvCell c 15) () N)
        ∗ curCell (sendCell c 15) (fun p => (RdI I).payload (sendCell c 15) 0 p) 2
        ∗ curCell (recvCell c 15) (fun p => (RdI I).payload (recvCell c 15) 0 p) 2 ∗ P) : sProp (MT nD τ sig Unit (Elt F) ℕ UU ℕ))
      ⊢ wp frame (wpE (defs₀ (F := F)) 𝒱₀ (c : Thread nD τ) none) Set.univ
        (k0_part74 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw1530 c))
        (fun tup => iprop(⌜tup = ⟨Vals.lv1941 I c, Vals.lv1942 I c⟩⌝ ∗ records (RdI I) K ∗ levAts Proto.L Proto.lv ∗ (∃ W, owes (c : Thread nD τ) (owedFrom c 51) W)
          ∗ curCell (sendCell c 15) (fun p => (RdI I).payload (sendCell c 15) 0 p) 3
          ∗ curCell (recvCell c 15) (fun p => (RdI I).payload (recvCell c 15) 0 p) 3
          ∗ accTile c 1 0 (Vals.A I 1 c 1 0 0) ∗ accTile c 1 1 (Vals.A I 1 c 1 1 0) ∗ accTile c 1 2 (Vals.A I 1 c 1 2 0)
          ∗ rsTile c 5 0 0 (Vals.R I 1 c 1 0 0) ∗ rsTile c 5 1 0 (Vals.R I 1 c 1 1 0) ∗ rsTile c 5 2 0 (Vals.R I 1 c 1 2 0) ∗ P)) := by
  unfold accTile rsTile Proto.accPts Proto.rsPts
  iintro ⟨#HR, #Hlev, ⟨%W, HO⟩, Cs, Cr, Hs, Hr, HP⟩
  ihave #HIs := (inv_at (RdI I) K (c, Cell.send 15)) $$ HR
  ihave #HIr := (inv_at (RdI I) K (c, Cell.recv 15)) $$ HR
  sl_unfold [k0_part74]
  sl_exec
  -- the third wait on send cell 15: the rest of its round, the three source tiles back
  iapply (wp_wait3 (RdI I) c (sendS 15) (duties_send _ _ c 15) (expect_send _ _ c 15) (hw := fun _ => rfl)) $$ [HO Cs Hs]
  · isplitr; · iexact HIs
    isplitl [Cs]; · iexact Cs
    isplitl [HO]; · iexact HO
    isplitr
    · iapply (mayWait_sendAt (F := F) c 15); iexact Hlev
    iexact Hs
  iintro ⟨HO, Hs, Ha0, Ha1, Ha2⟩
  have es : ∀ p : Fin 3, ((RdI I).payload ((c : Thread nD τ), SemLoc.dma (sendS 15)) 0 p : sProp (MT nD τ sig Unit (Elt F) ℕ UU ℕ))
      ⊢ ((Proto.accSl 1 p).view.loc (c : Thread nD τ) ↦[(Proto.accSl 1 p).view.set]{fullShare} accEmb 1 p (Vals.A I 1 c 1 p 0)) :=
    fun p => Entails.of_eq (payload_send_tile I c 15 p)
  ihave Ha0 := (es 0) $$ Ha0
  ihave Ha1 := (es 1) $$ Ha1
  ihave Ha2 := (es 2) $$ Ha2
  sl_exec
  -- the third wait on receive cell 15: the rest of its round, the three receive tiles at what landed in them
  iapply (wp_wait3 (RdI I) c (recvS 15) (duties_recv _ _ c 15) (expect_recv _ _ c 15) (hw := fun _ => rfl)) $$ [HO Cr Hr]
  · isplitr; · iexact HIr
    isplitl [Cr]; · iexact Cr
    isplitl [HO]; · iexact HO
    isplitr
    · iapply (mayWait_recvAt (F := F) c 15); iexact Hlev
    iexact Hr
  iintro ⟨HO, Hr, Hb0, Hb1, Hb2⟩
  have er : ∀ p : Fin 3, ((RdI I).payload ((c : Thread nD τ), SemLoc.dma (recvS 15)) 0 p : sProp (MT nD τ sig Unit (Elt F) ℕ UU ℕ))
      ⊢ ((Proto.rsSl 5 p 0).view.loc (c : Thread nD τ) ↦[(Proto.rsSl 5 p 0).view.set]{fullShare} rsEmb 5 p 0 (Vals.R I 1 c 1 p 0)) :=
    fun p => Entails.of_eq (payload_recv_tile I c 15 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![1, 0, 0, 0] S1x1x256x256.size inb_S4x3x256x256_S1x1x256x256_1_0_0_0).toLoadRect (accEmb 1 0 (Vals.A I 1 c 1 0 0)) = Vals.A I 1 c 1 0 0 := accV_read_accEmb 1 0 _
    have e2 : View.readAt (Elt F) (Memref.whole cc0_scratch1).view (Rect.unit (s := S8x3x3x256x256) ![5, 0, 0, 0, 0] S1x1x1x256x256.size inb_S8x3x3x256x256_S1x1x1x256x256_5_0_0_0_0).toLoadRect (rsEmb 5 0 0 (Vals.R I 1 c 1 0 0)) = Vals.R I 1 c 1 0 0 := rsV_read_rsEmb 5 0 0 _
    rw [e1, e2]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.Kernel.Body.local_74' depends on axioms: [propext, Classical.choice, Quot.sound] -/
#guard_msgs in #print axioms local_74

end Cert.Kernel.Body
-- ==== Proof.Bits.Parts.Part74.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L74
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 74 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 74 of the body, run from the place before it, ends at the place after it and returns its values; whatever else is held is kept. -/
theorem part_74 (m : (ℓ : Loc nD τ sig) → Buf (Elt F) ℓ) (K : Dev nD × Cell → ℕ) (c : Dev nD) (Fr : sProp 𝕄) :
    iprop(St (insM m) K (σ 73) c ∗ outHeld (insM m) c (σ 73).outs ∗ Fr)
      ⊢ wp frame (wpE (defs₀ (F := F)) 𝒱₀ (c : Thread nD τ) none) Set.univ
          (k0_part74 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw1530 c))
          (fun tup => iprop(⌜tup = ⟨Vals.lv1941 (insM m) c, Vals.lv1942 (insM m) c⟩⌝ ∗ St (insM m) K (σ 74) c ∗ outHeld (insM m) c (σ 74).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 41 : sProp (MT nD τ sig Unit (Elt F) ℕ UU ℕ)) = iprop(credFrom c 42 ∗ cred (tallyAt (recvCell c 15) () N)) := by
    rw [credFrom_succ c 41 (by omega), show ownCell c 41 = recvCell c 15 from ownCell_fire c 12 2, show dueAmt 41 = N from dueAmt_fire 12 2]
  have hd : (doneTo c 27 : sProp (MT nD τ sig Unit (Elt F) ℕ UU ℕ))
      = iprop(doneTo c 25 ∗ curCell (sendCell c 15) (fun p => (RdI (insM m)).payload (sendCell c 15) 0 p) 3
          ∗ curCell (recvCell c 15) (fun p => (RdI (insM m)).payload (recvCell c 15) 0 p) 3) := (done_group c 12).symm
  have hb : (rsBack (insM m) c 13 : sProp (MT nD τ sig Unit (Elt F) ℕ UU ℕ))
      = iprop((rsTile c 5 0 0 (Vals.R (insM m) 1 c 1 0 0) ∗ rsTile c 5 1 0 (Vals.R (insM m) 1 c 1 1 0) ∗ rsTile c 5 2 0 (Vals.R (insM m) 1 c 1 2 0))
          ∗ rsBack (insM m) c 12) := rsBack_succ (insM m) c 12
  rw [St_open_73, St_open_74, hc, hd, hb, show (σ 73).outs = (σ 74).outs from rfl]
  simp only [hemp, hemp']
  refine BIBase.Entails.trans (Entails.of_eq ?_) (BIBase.Entails.trans
    (local_74 (insM m) K c
      (iprop(toksFrom c 51
        ∗ credFrom c 42
        ∗ cred (tallyAt (sendCell c 13) () N)
        ∗ cred (tallyAt (sendCell c 13) () N)
        ∗ cred (tallyAt (sendCell c 13) () N)
        ∗ cred (tallyAt (sendCell c 11) () N)
        ∗ cred (tallyAt (sendCell c 11) () N)
        ∗ cred (tallyAt (sendCell c 11) () N)
        ∗ cred (tallyAt (sendCell c 18) () N)
        ∗ cred (tallyAt (sendCell c 18) () N)
        ∗ cred (tallyAt (sendCell c 18) () N)
        ∗ doneTo c 25
        ∗ todoFrom c 27
        ∗ foreignFrom c 48
        ∗ rsBack (insM m) c 12
        ∗ outHeld (insM m) c (σ 74).outs
        ∗ Fr)))
    (wp_mono _ _ _ fun tup => Entails.of_eq ?_))
  · ac_rfl
  · ac_rfl

/-- info: 'Cert.Kernel.Body.part_74' depends on axioms: [propext, Classical.choice, Quot.sound] -/
#guard_msgs in #print axioms part_74

end Cert.Kernel.Body

end
-- ==== Proof.Bits.Parts.Part75.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L75
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 75 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 75 of the body, run from the place before it, ends at the place after it and returns its values; whatever else is held is kept. -/
theorem part_75 (m : (ℓ : Loc nD τ sig) → Buf (Elt F) ℓ) (K : Dev nD × Cell → ℕ) (c : Dev nD) (Fr : sProp 𝕄) :
    iprop(St (insM m) K (σ 74) c ∗ outHeld (insM m) c (σ 74).outs ∗ Fr)
      ⊢ wp frame (wpE (defs₀ (F := F)) 𝒱₀ (c : Thread nD τ) none) Set.univ
          (k0_part75 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv1941 (insM m) c) (Vals.lv1942 (insM m) c))
          (fun tup => iprop(⌜tup = Vals.lw1961 c⌝ ∗ St (insM m) K (σ 75) c ∗ outHeld (insM m) c (σ 75).outs ∗ Fr)) := by
  have eo : (σ 75).outs = (σ 74).outs := rfl
  rw [eo]
  rw [St_eq, St_eq, StRest_congr (insM m) K c (s := σ 74) (s' := σ 75) rfl rfl rfl rfl, accAll_σ_74, accAll_σ_75, StRest_rs (insM m) K c (σ 75) rfl 15 (by decide), rs3_15]
  refine BIBase.Entails.trans ?_ ((local_75 (insM m) c iprop(rsTile c 5 0 0 (Vals.R (insM m) 1 c 1 0 0) ∗ StRestNoRs (insM m) K (σ 75) c 15 ∗ emp ∗ emp ∗ emp ∗ emp ∗ emp ∗ emp ∗ emp ∗ emp ∗ emp ∗ outHeld (insM m) c (σ 74).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T10]; · iexact T10
    isplitl [T11]; · iexact T11
    isplitl [R1]; · iexact R1
    isplitl [T12]; · iexact T12
    isplitl [R2]; · iexact R2
    isplitl [R0]; · iexact R0
    isplitl [HR]; · iexact HR
    isplitl [T00]; · iexact T00
    isplitl [T01]; · iexact T01
    isplitl [T02]; · iexact T02
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T10, T11, R1, T12, R2, R0, HR, T00, T01, T02, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_75' depends on axioms: [propext, Classical.choice, Quot.sound] -/
#guard_msgs in #print axioms part_75

end Cert.Kernel.Body

end
-- ==== Proof.Bits.Parts.L76.lean ====
/-
  Part 76 of the body starts two copies of step 16 (the 17th step started; round 1, group 1, position 1): part 0 of accumulator slice (1, 0) goes to receive slice (5, 0, 1) of the device paired along mask 3, part 1 of accumulator slice (1, 1) goes to receive slice (5, 1, 1) of the device paired along mask 4.
  The accumulator slices, at level 1 of round 1, and the paired devices' receive slices leave the device's hands; it holds the departure credits of its send cell 16 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 76: the copies of parts 0 and 1 of step 16. -/
theorem local_76 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 51) W)
        ∗ dutyTok ER (sendCell c 16) 0 0 ∗ dutyTok ER (recvCell (mate c 0 16) 16) 0 0
        ∗ dutyTok ER (sendCell c 16) 0 1 ∗ dutyTok ER (recvCell (mate c 1 16) 16) 0 1
        ∗ rsTileAny (F := F) (mate c 0 16) 5 0 1
        ∗ rsTileAny (F := F) (mate c 1 16) 5 1 1
        ∗ accTile c 1 0 (A I 1 c 1 0 1)
        ∗ accTile c 1 1 (A I 1 c 1 1 1)
        ∗ P)
      ⊢ wp frame (wpE (defs₀ (F := F)) 𝒱₀ (c : Thread nD τ) none) Set.univ
          (k0_part76 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw1972 c, Vals.lw1983 c⟩⌝
            ∗ (∃ W, owes (c : Thread nD τ) (owedFrom c 53) W)
            ∗ cred (tallyAt (sendCell c 16) () N)
            ∗ cred (tallyAt (sendCell c 16) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 16)) $$ HR
  ihave #HRs := (reached_at (RdI I) K (c, Cell.send 16)) $$ HR
  ihave #HIr0 := (inv_at (RdI I) K (mate c 0 16, Cell.recv 16)) $$ HR
  ihave #HRr0 := (reached_at (RdI I) K (mate c 0 16, Cell.recv 16)) $$ HR
  ihave #HIr1 := (inv_at (RdI I) K (mate c 1 16, Cell.recv 16)) $$ HR
  ihave #HRr1 := (reached_at (RdI I) K (mate c 1 16, Cell.recv 16)) $$ HR
  sl_exec
  iapply (wp_fire_at (accCI I) (rs0I I) c 16 0 (g := 1) (rg := 5) (s := 1) (by decide) (by decide) (by decide)
      (dv := ⟨k0_dev52 c, k0_dev52_lt c⟩) ((dev52_eq c).trans rfl) rfl rfl (sendS_eq 16).symm (recvS_eq 16).symm
      (accEmb 1 0 (A I 1 c 1 0 1)) rfl fd0 (owedFrom c 52) (owed_copy c 16 0 51 (by decide) 16 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 16 1 (g := 1) (rg := 5) (s := 1) (by decide) (by decide) (by decide)
      (dv := ⟨k0_dev53 c, k0_dev53_lt c⟩) ((dev53_eq c).trans rfl) rfl rfl (sendS_eq 16).symm (recvS_eq 16).symm
      (accEmb 1 1 (A I 1 c 1 1 1)) rfl fd1 (owedFrom c 53) (owed_copy c 16 1 52 (by decide) 16 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_76' depends on axioms: [propext, Classical.choice, Quot.sound] -/
#guard_msgs in #print axioms Cert.Kernel.Body.local_76

end
-- ==== Proof.Bits.Parts.Part77.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L77
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 77 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 77 of the body, run from the place before it, ends at the place after it; whatever else is held is kept. -/
theorem part_77 (m : (ℓ : Loc nD τ sig) → Buf (Elt F) ℓ) (K : Dev nD × Cell → ℕ) (c : Dev nD) (Fr : sProp 𝕄) :
    iprop(St (insM m) K (σ 76) c ∗ outHeld (insM m) c (σ 76).outs ∗ Fr)
      ⊢ wp frame (wpE (defs₀ (F := F)) 𝒱₀ (c : Thread nD τ) none) Set.univ
          (k0_part77 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1607 c))
          (fun _ => iprop(St (insM m) K (σ 77) c ∗ outHeld (insM m) c (σ 77).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 53 : sProp (MT nD τ sig Unit (Elt F) ℕ UU ℕ)) = iprop(dutyTok ER (sendCell c 16) 0 2 ∗ dutyTok ER (recvCell (mate c 2 16) 16) 0 2 ∗ toksFrom c 54) := toksFrom_copy c 16 2
  have hF0 : (foreignFrom c 50 : sProp (MT nD τ sig Unit (Elt F) ℕ UU ℕ)) = iprop(rsTileAny (mate c 2 16) 5 2 1 ∗ foreignFrom c 51) := foreignFrom_succ c 16 2
  have hC : (credFrom c 42 : sProp (MT nD τ sig Unit (Elt F) ℕ UU ℕ)) = iprop(credFrom c 43 ∗ cred (tallyAt (recvCell c 13) () N)) := by
    rw [credFrom_succ c 42 (by omega), show ownCell c 42 = recvCell c 13 from ownCell_fire c 13 0, show dueAmt 42 = N from dueAmt_fire 13 0]
  have hG : (todoFrom c 27 : sProp (MT nD τ sig Unit (Elt F) ℕ UU ℕ)) = iprop(curCell (sendCell c 13) (fun p => (RdI (insM m)).payload (sendCell c 13) 0 p) 0 ∗ curCell (recvCell c 13) (fun p => (RdI (insM m)).payload (recvCell c 13) 0 p) 0 ∗ todoFrom c 29) := todo_group c 13
  rw [show (σ 77).outs = (σ 76).outs from rfl, St_open_76, St_open_77, hT0, hF0, hC, hG]
  simp only [hemp, hemp']
  refine BIBase.Entails.trans (Entails.of_eq ?_) (BIBase.Entails.trans (local_77 (insM m) K c iprop(toksFrom c 54 ∗ credFrom c 43 ∗ cred (tallyAt (sendCell c 13) () N) ∗ cred (tallyAt (sendCell c 13) () N) ∗ cred (tallyAt (sendCell c 11) () N) ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ doneTo c 27 ∗ todoFrom c 29 ∗ foreignFrom c 51 ∗ rsBack (insM m) c 13 ∗ outHeld (insM m) c (σ 76).outs ∗ Fr)) (wp_mono _ _ _ fun tup => Entails.of_eq ?_))
  · ac_rfl
  · ac_rfl

/-- info: 'Cert.Kernel.Body.part_77' depends on axioms: [propext, Classical.choice, Quot.sound] -/
#guard_msgs in #print axioms part_77

end Cert.Kernel.Body

end
-- ==== Proof.Bits.Parts.L79.lean ====
/-
  Part 79 of the body ends wait group 13 (round 1, group 0, second exchange) with the third wait on its receive cell, which
  hands over the three receive tiles holding the partners' tiles of level 1; the three accumulator tiles came back with the send
  cell's third wait. It overwrites the accumulator tiles of parts 0 and 1 with their sums with the received tiles (level 1 of
  round 1 becomes level 2), reads part 2's accumulator tile and returns it as a 256 × 256 matrix.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_79 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 54) W)
        ∗ cred (tallyAt (recvCell c 13) () N)
        ∗ (RdI I).payload (sendCell c 13) 0 0 ∗ (RdI I).payload (sendCell c 13) 0 1 ∗ (RdI I).payload (sendCell c 13) 0 2
        ∗ curCell (recvCell c 13) (fun p => (RdI I).payload (recvCell c 13) 0 p) 2 ∗ P) : sProp (MT nD τ sig Unit (Elt F) ℕ UU ℕ))
      ⊢ wp frame (wpE (defs₀ (F := F)) 𝒱₀ (c : Thread nD τ) none) Set.univ
        (k0_part79 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = Vals.lv2053 I c⌝ ∗ records (RdI I) K ∗ levAts Proto.L Proto.lv ∗ (∃ W, owes (c : Thread nD τ) (owedFrom c 54) W)
          ∗ curCell (recvCell c 13) (fun p => (RdI I).payload (recvCell c 13) 0 p) 3
          ∗ accTile c 0 0 (Vals.A I 1 c 0 0 2) ∗ accTile c 0 1 (Vals.A I 1 c 0 1 2) ∗ accTile c 0 2 (Vals.A I 1 c 0 2 1)
          ∗ rsTile c 4 0 1 (Vals.R I 1 c 0 0 1) ∗ rsTile c 4 1 1 (Vals.R I 1 c 0 1 1) ∗ rsTile c 4 2 1 (Vals.R I 1 c 0 2 1) ∗ P)) := by
  unfold accTile rsTile Proto.accPts Proto.rsPts
  iintro ⟨#HR, #Hlev, ⟨%W, HO⟩, Cr, Ha0, Ha1, Ha2, Hr, HP⟩
  have es : ∀ p : Fin 3, ((RdI I).payload (sendCell c 13) 0 p : sProp (MT nD τ sig Unit (Elt F) ℕ UU ℕ))
      ⊢ ((Proto.accSl 0 p).view.loc (c : Thread nD τ) ↦[(Proto.accSl 0 p).view.set]{fullShare} accEmb 0 p (Vals.A I 1 c 0 p 1)) :=
    fun p => Entails.of_eq (payload_send_tile I c 13 p)
  ihave Ha0 := (es 0) $$ Ha0
  ihave Ha1 := (es 1) $$ Ha1
  ihave Ha2 := (es 2) $$ Ha2
  ihave #HIr := (inv_at (RdI I) K (c, Cell.recv 13)) $$ HR
  sl_unfold [k0_part79]
  sl_exec
  -- the third wait on receive cell 13: the rest of its round, the three receive tiles at what landed in them
  iapply (wp_wait3 (RdI I) c (recvS 13) (duties_recv _ _ c 13) (expect_recv _ _ c 13) (hw := fun _ => rfl)) $$ [HO Cr Hr]
  · isplitr; · iexact HIr
    isplitl [Cr]; · iexact Cr
    isplitl [HO]; · iexact HO
    isplitr
    · iapply (mayWait_recvAt (F := F) c 13); iexact Hlev
    iexact Hr
  iintro ⟨HO, Hr, Hb0, Hb1, Hb2⟩
  have er : ∀ p : Fin 3, ((RdI I).payload ((c : Thread nD τ), SemLoc.dma (recvS 13)) 0 p : sProp (MT nD τ sig Unit (Elt F) ℕ UU ℕ))
      ⊢ ((Proto.rsSl 4 p 1).view.loc (c : Thread nD τ) ↦[(Proto.rsSl 4 p 1).view.set]{fullShare} rsEmb 4 p 1 (Vals.R I 1 c 0 p 1)) :=
    fun p => Entails.of_eq (payload_recv_tile I c 13 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![0, 2, 0, 0] S1x1x256x256.size inb_S4x3x256x256_S1x1x256x256_0_2_0_0).toLoadRect (accEmb 0 2 (Vals.A I 1 c 0 2 1)) = Vals.A I 1 c 0 2 1 := accV_read_accEmb 0 2 _
    rw [e1]
    rfl
  isplitr; · iexact HR
  isplitr; · iexact Hlev
  isplitl [HO]; · iexists _; iexact HO
  isplitl [Hr]; · iexact Hr
  isplitl [Ha0]
  · iapply (accTile_at_value c 0 0)
    swap
    · iexact Ha0
    · refine (View.read_write_univ _ _).trans ?_
      refine (Vals.step_1_0_0_1 _ _).symm.trans ?_
      exact congrArg₂ (Vals.step 1 0 0 1) (accV_read_accEmb 0 0 _) (rsV_read_rsEmb 4 0 1 _)
  isplitl [Ha1]
  · iapply (accTile_at_value c 0 1)
    swap
    · iexact Ha1
    · refine (View.read_write_univ _ _).trans ?_
      refine (Vals.step_1_0_1_1 _ _).symm.trans ?_
      exact congrArg₂ (Vals.step 1 0 1 1) (accV_read_accEmb 0 1 _) (rsV_read_rsEmb 4 1 1 _)
  isplitl [Ha2]; · iexact Ha2
  isplitl [Hb0]; · iexact Hb0
  isplitl [Hb1]; · iexact Hb1
  isplitl [Hb2]; · iexact Hb2
  iexact HP

/-- info: 'Cert.Kernel.Body.local_79' depends on axioms: [propext, Classical.choice, Quot.sound] -/
#guard_msgs in #print axioms local_79

end Cert.Kernel.Body
-- ==== Proof.Bits.Parts.Part79.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L79
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 79 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 79 of the body, run from the place before it, ends at the place after it and returns its values; whatever else is held is kept. -/
theorem part_79 (m : (ℓ : Loc nD τ sig) → Buf (Elt F) ℓ) (K : Dev nD × Cell → ℕ) (c : Dev nD) (Fr : sProp 𝕄) :
    iprop(St (insM m) K (σ 78) c ∗ outHeld (insM m) c (σ 78).outs ∗ Fr)
      ⊢ wp frame (wpE (defs₀ (F := F)) 𝒱₀ (c : Thread nD τ) none) Set.univ
          (k0_part79 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = Vals.lv2053 (insM m) c⌝ ∗ St (insM m) K (σ 79) c ∗ outHeld (insM m) c (σ 79).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 44 : sProp (MT nD τ sig Unit (Elt F) ℕ UU ℕ)) = iprop(credFrom c 45 ∗ cred (tallyAt (recvCell c 13) () N)) := by
    rw [credFrom_succ c 44 (by omega), show ownCell c 44 = recvCell c 13 from ownCell_fire c 13 2, show dueAmt 44 = N from dueAmt_fire 13 2]
  have hd : (doneTo c 29 : sProp (MT nD τ sig Unit (Elt F) ℕ UU ℕ))
      = iprop(doneTo c 27 ∗ curCell (sendCell c 13) (fun p => (RdI (insM m)).payload (sendCell c 13) 0 p) 3
          ∗ curCell (recvCell c 13) (fun p => (RdI (insM m)).payload (recvCell c 13) 0 p) 3) := (done_group c 13).symm
  have hb : (rsBack (insM m) c 14 : sProp (MT nD τ sig Unit (Elt F) ℕ UU ℕ))
      = iprop((rsTile c 4 0 1 (Vals.R (insM m) 1 c 0 0 1) ∗ rsTile c 4 1 1 (Vals.R (insM m) 1 c 0 1 1) ∗ rsTile c 4 2 1 (Vals.R (insM m) 1 c 0 2 1))
          ∗ rsBack (insM m) c 13) := rsBack_succ (insM m) c 13
  rw [St_open_78, St_open_79, hc, hd, hb, show (σ 78).outs = (σ 79).outs from rfl]
  simp only [hemp, hemp']
  refine BIBase.Entails.trans (Entails.of_eq ?_) (BIBase.Entails.trans
    (local_79 (insM m) K c
      (iprop(toksFrom c 54
        ∗ credFrom c 45
        ∗ cred (tallyAt (sendCell c 11) () N)
        ∗ cred (tallyAt (sendCell c 11) () N)
        ∗ cred (tallyAt (sendCell c 11) () N)
        ∗ cred (tallyAt (sendCell c 18) () N)
        ∗ cred (tallyAt (sendCell c 18) () N)
        ∗ cred (tallyAt (sendCell c 18) () N)
        ∗ cred (tallyAt (sendCell c 16) () N)
        ∗ cred (tallyAt (sendCell c 16) () N)
        ∗ cred (tallyAt (sendCell c 16) () N)
        ∗ doneTo c 27
        ∗ curCell (sendCell c 13) (fun p => (RdI (insM m)).payload (sendCell c 13) 0 p) 3
        ∗ todoFrom c 29
        ∗ foreignFrom c 51
        ∗ rsBack (insM m) c 13
        ∗ outHeld (insM m) c (σ 79).outs
        ∗ Fr)))
    (wp_mono _ _ _ fun tup => Entails.of_eq ?_))
  · ac_rfl
  · ac_rfl

/-- info: 'Cert.Kernel.Body.part_79' depends on axioms: [propext, Classical.choice, Quot.sound] -/
#guard_msgs in #print axioms part_79

end Cert.Kernel.Body

end
-- ==== Proof.Bits.Parts.L80.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 80 of the body: the store into accumulator tile (0, 2), then the start of the copy of part 0 at step 14 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_80 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 54) W)
        ∗ dutyTok ER (sendCell c 14) 0 0 ∗ dutyTok ER (recvCell (mate c 0 14) 14) 0 0
        ∗ rsTileAny (mate c 0 14) (rgOf 14) 0 (sOf 14)
        ∗ rsTile c 4 2 1 (Vals.R I 1 c 0 2 1)
        ∗ accTile c 0 2 (Vals.A I 1 c 0 2 1)
        ∗ accTile c 0 0 (Vals.A I 1 c 0 0 2)
        ∗ P) : sProp (MT nD τ sig Unit (Elt F) ℕ UU ℕ))
      ⊢ wp frame (wpE (defs₀ (F := F)) 𝒱₀ (c : Thread nD τ) none) Set.univ
      (k0_part80 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2053 I c))
      (fun tup => iprop(⌜tup = ⟨Vals.lw2060 c, Vals.lw2071 c⟩⌝
        ∗ records (RdI I) K
        ∗ (∃ W, owes (c : Thread nD τ) (owedFrom c 55) W)
        ∗ cred (tallyAt (sendCell c 14) () N)
        ∗ rsTile c 4 2 1 (Vals.R I 1 c 0 2 1)
        ∗ accTile c 0 2 (Vals.A I 1 c 0 2 2)
        ∗ P)) := by
  unfold accTile rsTile rsTileAny Proto.accPts Proto.rsPts
  iintro ⟨#Hrec, ⟨%W, HO⟩, Hts0, Htr0, ⟨%fd0, Hfd0⟩, Hr421, Ha02, Ha00, HP⟩
  ihave #HIs0 := (inv_at (RdI I) K (c, Cell.send 14)) $$ Hrec
  ihave #HIr0 := (inv_at (RdI I) K (mate c 0 14, Cell.recv 14)) $$ Hrec
  ihave #Hrs0 := (reached_at (RdI I) K (c, Cell.send 14)) $$ Hrec
  ihave #Hrr0 := (reached_at (RdI I) K (mate c 0 14, Cell.recv 14)) $$ Hrec
  rw [k0_part80_eq_skeleton]
  unfold k0_part80_skel
  sl_exec
  -- the copy of part 0 at step 14 (started as number 18): its units on the partner's receive cell are owed last
  have hc0 : dueCell c 54 = recvCell (mate c 0 14) 14 := dueCell_fire c 17 0
  have ha0 : dueAmt 54 = N := dueAmt_fire 17 0
  have hO0 : owedFrom c 54 = owedFrom c 55 + tallyAt (recvCell (mate c 0 14) 14) () N :=
    (owedFrom_succ c 54 (by decide)).trans (by rw [hc0, ha0])
  iapply (wp_fire_at (accCI I) (rs0I I) c 14 0 (g := 0) (rg := 4) (s := 2) rfl rfl rfl (dev55_eq c) rfl rfl
    (sendS_eq 14) (recvS_eq 14) (accEmb 0 0 (Vals.A I 1 c 0 0 2)) rfl fd0 (owedFrom c 55) hO0) $$ [HO Hts0 Htr0 Hfd0 Ha00]
  · unfold Proto.accPts Proto.rsPts
    isplitr; · iexact HIs0
    isplitr; · iexact HIr0
    isplitl [Ha00]; · iexact Ha00
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha02_r0 : local_80.sl.v2054 I c = Vals.R I 1 c 0 2 1 := by unfold local_80.sl.v2054; exact rsV_read_rsEmb 4 2 1 _
  have Ha02_e : View.read (Elt F) (accV 0 2) (local_80.sl.Ha02_w1 I c) = Vals.A I 1 c 0 2 2 := by
    unfold local_80.sl.Ha02_w1; rw [Ha02_r0]; exact View.read_write_univ _ _
  have Ha02_t : ((Proto.accSl 0 2).view.loc (c : Thread nD τ) ↦[(Proto.accSl 0 2).view.set]{fullShare} local_80.sl.Ha02_w1 I c : sProp (MT nD τ sig Unit (Elt F) ℕ UU ℕ)) = ((Proto.accSl 0 2).view.loc (c : Thread nD τ) ↦[(Proto.accSl 0 2).view.set]{fullShare} accEmb 0 2 (Vals.A I 1 c 0 2 2) : sProp (MT nD τ sig Unit (Elt F) ℕ UU ℕ)) := accTile_of_read c fullShare 0 2 Ha02_e
  rw [← Ha02_t]
  isplitr [HO Hcs0 Hr421 Ha02 HP]
  · ipureintro; rfl
  isplitr [HO Hcs0 Hr421 Ha02 HP]; · iexact Hrec
  isplitl [HO]; · iexists W; iexact HO
  iframe

/-- info: 'Cert.Kernel.Body.local_80' depends on axioms: [propext, Classical.choice, Quot.sound] -/
#guard_msgs in #print axioms local_80

end Cert.Kernel.Body
-- ==== Proof.Bits.Parts.Part80.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L80
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 80 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 80 of the body, run from the place before it, ends at the place after it and returns its values; whatever else is held is kept. -/
theorem part_80 (m : (ℓ : Loc nD τ sig) → Buf (Elt F) ℓ) (K : Dev nD × Cell → ℕ) (c : Dev nD) (Fr : sProp 𝕄) :
    iprop(St (insM m) K (σ 79) c ∗ outHeld (insM m) c (σ 79).outs ∗ Fr)
      ⊢ wp frame (wpE (defs₀ (F := F)) 𝒱₀ (c : Thread nD τ) none) Set.univ
          (k0_part80 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2053 (insM m) c))
          (fun tup => iprop(⌜tup = ⟨Vals.lw2060 c, Vals.lw2071 c⟩⌝ ∗ St (insM m) K (σ 80) c ∗ outHeld (insM m) c (σ 80).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 54 : sProp (MT nD τ sig Unit (Elt F) ℕ UU ℕ))
      = iprop(dutyTok ER (sendCell c 14) 0 0 ∗ dutyTok ER (recvCell (mate c 0 14) 14) 0 0 ∗ toksFrom c 55) := toksFrom_copy c 17 0
  have hf0 : (foreignFrom c 51 : sProp (MT nD τ sig Unit (Elt F) ℕ UU ℕ))
      = iprop(rsTileAny (mate c 0 14) (rgOf 14) 0 (sOf 14) ∗ foreignFrom c 52) := foreignFrom_succ c 17 0
  have hb13 : (rsBack (insM m) c 14 : sProp (MT nD τ sig Unit (Elt F) ℕ UU ℕ))
      = iprop((rsTile c 4 0 1 (Vals.R (insM m) 1 c 0 0 1) ∗ rsTile c 4 1 1 (Vals.R (insM m) 1 c 0 1 1) ∗ rsTile c 4 2 1 (Vals.R (insM m) 1 c 0 2 1)) ∗ rsBack (insM m) c 13) := rsBack_succ (insM m) c 13
  rw [St_open_79, St_open_80, ht0, hf0, hb13, show (σ 79).outs = (σ 80).outs from rfl]
  simp only [hemp, hemp']
  refine BIBase.Entails.trans (Entails.of_eq ?_) (BIBase.Entails.trans
    (local_80 (insM m) K c
      (iprop(levAts Proto.L Proto.lv
        ∗ toksFrom c 55
        ∗ credFrom c 45
        ∗ cred (tallyAt (sendCell c 11) () N)
        ∗ cred (tallyAt (sendCell c 11) () N)
        ∗ cred (tallyAt (sendCell c 11) () N)
        ∗ cred (tallyAt (sendCell c 18) () N)
        ∗ cred (tallyAt (sendCell c 18) () N)
        ∗ cred (tallyAt (sendCell c 18) () N)
        ∗ cred (tallyAt (sendCell c 16) () N)
        ∗ cred (tallyAt (sendCell c 16) () N)
        ∗ cred (tallyAt (sendCell c 16) () N)
        ∗ doneTo c 29
        ∗ todoFrom c 29
        ∗ foreignFrom c 52
        ∗ rsTile c 4 0 1 (Vals.R (insM m) 1 c 0 0 1)
        ∗ rsTile c 4 1 1 (Vals.R (insM m) 1 c 0 1 1)
        ∗ rsBack (insM m) c 13
        ∗ accTile c 0 1 (Vals.A (insM m) 1 c 0 1 2)
        ∗ outHeld (insM m) c (σ 80).outs
        ∗ Fr)))
    (wp_mono _ _ _ fun tup => Entails.of_eq ?_))
  · ac_rfl
  · ac_rfl

/-- info: 'Cert.Kernel.Body.part_80' depends on axioms: [propext, Classical.choice, Quot.sound] -/
#guard_msgs in #print axioms part_80

end Cert.Kernel.Body

end
-- ==== Proof.Bits.Parts.Part81.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L81
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 81 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 81 of the body, run from the place before it, ends at the place after it and returns its values; whatever else is held is kept. -/
theorem part_81 (m : (ℓ : Loc nD τ sig) → Buf (Elt F) ℓ) (K : Dev nD × Cell → ℕ) (c : Dev nD) (Fr : sProp 𝕄) :
    iprop(St (insM m) K (σ 80) c ∗ outHeld (insM m) c (σ 80).outs ∗ Fr)
      ⊢ wp frame (wpE (defs₀ (F := F)) 𝒱₀ (c : Thread nD τ) none) Set.univ
          (k0_part81 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw1706 c))
          (fun tup => iprop(⌜tup = ⟨Vals.lw2082 c, Vals.lw2099 c⟩⌝ ∗ St (insM m) K (σ 81) c ∗ outHeld (insM m) c (σ 81).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 55 : sProp (MT nD τ sig Unit (Elt F) ℕ UU ℕ)) = iprop(dutyTok ER (sendCell c 14) 0 1 ∗ dutyTok ER (recvCell (mate c 1 14) 14) 0 1 ∗ toksFrom c 56) := toksFrom_copy c 17 1
  have hF0 : (foreignFrom c 52 : sProp (MT nD τ sig Unit (Elt F) ℕ UU ℕ)) = iprop(rsTileAny (mate c 1 14) 4 1 2 ∗ foreignFrom c 53) := foreignFrom_succ c 17 1
  have hT1 : (toksFrom c 56 : sProp (MT nD τ sig Unit (Elt F) ℕ UU ℕ)) = iprop(dutyTok ER (sendCell c 14) 0 2 ∗ dutyTok ER (recvCell (mate c 2 14) 14) 0 2 ∗ toksFrom c 57) := toksFrom_copy c 17 2
  have hF1 : (foreignFrom c 53 : sProp (MT nD τ sig Unit (Elt F) ℕ UU ℕ)) = iprop(rsTileAny (mate c 2 14) 4 2 2 ∗ foreignFrom c 54) := foreignFrom_succ c 17 2
  have hG : (todoFrom c 29 : sProp (MT nD τ sig Unit (Elt F) ℕ UU ℕ)) = iprop(curCell (sendCell c 11) (fun p => (RdI (insM m)).payload (sendCell c 11) 0 p) 0 ∗ curCell (recvCell c 11) (fun p => (RdI (insM m)).payload (recvCell c 11) 0 p) 0 ∗ todoFrom c 31) := todo_group c 14
  rw [show (σ 81).outs = (σ 80).outs from rfl, St_open_80, St_open_81, hT0, hF0, hT1, hF1, hG]
  simp only [hemp, hemp']
  refine BIBase.Entails.trans (Entails.of_eq ?_) (BIBase.Entails.trans (local_81 (insM m) K c iprop(toksFrom c 57 ∗ credFrom c 45 ∗ cred (tallyAt (sendCell c 11) () N) ∗ cred (tallyAt (sendCell c 11) () N) ∗ cred (tallyAt (sendCell c 18) () N) ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ doneTo c 29 ∗ curCell (recvCell c 11) (fun p => (RdI (insM m)).payload (recvCell c 11) 0 p) 0 ∗ todoFrom c 31 ∗ foreignFrom c 54 ∗ rsBack (insM m) c 14 ∗ outHeld (insM m) c (σ 80).outs ∗ Fr)) (wp_mono _ _ _ fun tup => Entails.of_eq ?_))
  · ac_rfl
  · ac_rfl

/-- info: 'Cert.Kernel.Body.part_81' depends on axioms: [propext, Classical.choice, Quot.sound] -/
#guard_msgs in #print axioms part_81

end Cert.Kernel.Body

end
-- ==== Proof.Bits.Parts.L83.lean ====
/-
  Part 83 of the body ends wait group 14 (round 0, group 3, third exchange): the third wait on its send cell hands back the
  three accumulator tiles of group 3 at their last level of round 0, the third wait on its receive cell hands over the three
  receive tiles holding the partners' tiles of that level. It then reads part 0's accumulator tile and receive tile and part
  1's accumulator tile, and returns part 0's all-reduced sum and part 1's own addend as 256 × 256 matrices.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

theorem local_83 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 57) W)
        ∗ cred (tallyAt (sendCell c 11) () N) ∗ cred (tallyAt (recvCell c 11) () N)
        ∗ curCell (sendCell c 11) (fun p => (RdI I).payload (sendCell c 11) 0 p) 2
        ∗ curCell (recvCell c 11) (fun p => (RdI I).payload (recvCell c 11) 0 p) 2 ∗ P) : sProp (MT nD τ sig Unit (Elt F) ℕ UU ℕ))
      ⊢ wp frame (wpE (defs₀ (F := F)) 𝒱₀ (c : Thread nD τ) none) Set.univ
        (k0_part83 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw1728 c))
        (fun tup => iprop(⌜tup = ⟨Vals.lv2139 I c, Vals.lv2141 I c⟩⌝ ∗ records (RdI I) K ∗ levAts Proto.L Proto.lv ∗ (∃ W, owes (c : Thread nD τ) (owedFrom c 57) W)
          ∗ curCell (sendCell c 11) (fun p => (RdI I).payload (sendCell c 11) 0 p) 3
          ∗ curCell (recvCell c 11) (fun p => (RdI I).payload (recvCell c 11) 0 p) 3
          ∗ accTile c 3 0 (Vals.A I 0 c 3 0 2) ∗ accTile c 3 1 (Vals.A I 0 c 3 1 2) ∗ accTile c 3 2 (Vals.A I 0 c 3 2 2)
          ∗ rsTile c 3 0 2 (Vals.R I 0 c 3 0 2) ∗ rsTile c 3 1 2 (Vals.R I 0 c 3 1 2) ∗ rsTile c 3 2 2 (Vals.R I 0 c 3 2 2) ∗ P)) := by
  unfold accTile rsTile Proto.accPts Proto.rsPts
  iintro ⟨#HR, #Hlev, ⟨%W, HO⟩, Cs, Cr, Hs, Hr, HP⟩
  ihave #HIs := (inv_at (RdI I) K (c, Cell.send 11)) $$ HR
  ihave #HIr := (inv_at (RdI I) K (c, Cell.recv 11)) $$ HR
  sl_unfold [k0_part83]
  sl_exec
  -- the third wait on send cell 11: the rest of its round, the three source tiles back
  iapply (wp_wait3 (RdI I) c (sendS 11) (duties_send _ _ c 11) (expect_send _ _ c 11) (hw := fun _ => rfl)) $$ [HO Cs Hs]
  · isplitr; · iexact HIs
    isplitl [Cs]; · iexact Cs
    isplitl [HO]; · iexact HO
    isplitr
    · iapply (mayWait_sendAt (F := F) c 11); iexact Hlev
    iexact Hs
  iintro ⟨HO, Hs, Ha0, Ha1, Ha2⟩
  have es : ∀ p : Fin 3, ((RdI I).payload ((c : Thread nD τ), SemLoc.dma (sendS 11)) 0 p : sProp (MT nD τ sig Unit (Elt F) ℕ UU ℕ))
      ⊢ ((Proto.accSl 3 p).view.loc (c : Thread nD τ) ↦[(Proto.accSl 3 p).view.set]{fullShare} accEmb 3 p (Vals.A I 0 c 3 p 2)) :=
    fun p => Entails.of_eq (payload_send_tile I c 11 p)
  ihave Ha0 := (es 0) $$ Ha0
  ihave Ha1 := (es 1) $$ Ha1
  ihave Ha2 := (es 2) $$ Ha2
  sl_exec
  -- the third wait on receive cell 11: the rest of its round, the three receive tiles at what landed in them
  iapply (wp_wait3 (RdI I) c (recvS 11) (duties_recv _ _ c 11) (expect_recv _ _ c 11) (hw := fun _ => rfl)) $$ [HO Cr Hr]
  · isplitr; · iexact HIr
    isplitl [Cr]; · iexact Cr
    isplitl [HO]; · iexact HO
    isplitr
    · iapply (mayWait_recvAt (F := F) c 11); iexact Hlev
    iexact Hr
  iintro ⟨HO, Hr, Hb0, Hb1, Hb2⟩
  have er : ∀ p : Fin 3, ((RdI I).payload ((c : Thread nD τ), SemLoc.dma (recvS 11)) 0 p : sProp (MT nD τ sig Unit (Elt F) ℕ UU ℕ))
      ⊢ ((Proto.rsSl 3 p 2).view.loc (c : Thread nD τ) ↦[(Proto.rsSl 3 p 2).view.set]{fullShare} rsEmb 3 p 2 (Vals.R I 0 c 3 p 2)) :=
    fun p => Entails.of_eq (payload_recv_tile I c 11 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![3, 0, 0, 0] S1x1x256x256.size inb_S4x3x256x256_S1x1x256x256_3_0_0_0).toLoadRect (accEmb 3 0 (Vals.A I 0 c 3 0 2)) = Vals.A I 0 c 3 0 2 := accV_read_accEmb 3 0 _
    have e2 : View.readAt (Elt F) (Memref.whole cc0_scratch1).view (Rect.unit (s := S8x3x3x256x256) ![3, 0, 2, 0, 0] S1x1x1x256x256.size inb_S8x3x3x256x256_S1x1x1x256x256_3_0_2_0_0).toLoadRect (rsEmb 3 0 2 (Vals.R I 0 c 3 0 2)) = Vals.R I 0 c 3 0 2 := rsV_read_rsEmb 3 0 2 _
    have e3 : View.readAt (Elt F) (Memref.whole cc0_scratch0).view (Rect.unit (s := S4x3x256x256) ![3, 1, 0, 0] S1x1x256x256.size inb_S4x3x256x256_S1x1x256x256_3_1_0_0).toLoadRect (accEmb 3 1 (Vals.A I 0 c 3 1 2)) = Vals.A I 0 c 3 1 2 := accV_read_accEmb 3 1 _
    rw [e1, e2, e3]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.Kernel.Body.local_83' depends on axioms: [propext, Classical.choice, Quot.sound] -/
#guard_msgs in #print axioms local_83

end Cert.Kernel.Body
-- ==== Proof.Bits.Parts.Part83.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L83
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 83 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 83 of the body, run from the place before it, ends at the place after it and returns its values; whatever else is held is kept. -/
theorem part_83 (m : (ℓ : Loc nD τ sig) → Buf (Elt F) ℓ) (K : Dev nD × Cell → ℕ) (c : Dev nD) (Fr : sProp 𝕄) :
    iprop(St (insM m) K (σ 82) c ∗ outHeld (insM m) c (σ 82).outs ∗ Fr)
      ⊢ wp frame (wpE (defs₀ (F := F)) 𝒱₀ (c : Thread nD τ) none) Set.univ
          (k0_part83 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw1728 c))
          (fun tup => iprop(⌜tup = ⟨Vals.lv2139 (insM m) c, Vals.lv2141 (insM m) c⟩⌝ ∗ St (insM m) K (σ 83) c ∗ outHeld (insM m) c (σ 83).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 47 : sProp (MT nD τ sig Unit (Elt F) ℕ UU ℕ)) = iprop(credFrom c 48 ∗ cred (tallyAt (recvCell c 11) () N)) := by
    rw [credFrom_succ c 47 (by omega), show ownCell c 47 = recvCell c 11 from ownCell_fire c 14 2, show dueAmt 47 = N from dueAmt_fire 14 2]
  have hd : (doneTo c 31 : sProp (MT nD τ sig Unit (Elt F) ℕ UU ℕ))
      = iprop(doneTo c 29 ∗ curCell (sendCell c 11) (fun p => (RdI (insM m)).payload (sendCell c 11) 0 p) 3
          ∗ curCell (recvCell c 11) (fun p => (RdI (insM m)).payload (recvCell c 11) 0 p) 3) := (done_group c 14).symm
  have hb : (rsBack (insM m) c 15 : sProp (MT nD τ sig Unit (Elt F) ℕ UU ℕ))
      = iprop((rsTile c 3 0 2 (Vals.R (insM m) 0 c 3 0 2) ∗ rsTile c 3 1 2 (Vals.R (insM m) 0 c 3 1 2) ∗ rsTile c 3 2 2 (Vals.R (insM m) 0 c 3 2 2))
          ∗ rsBack (insM m) c 14) := rsBack_succ (insM m) c 14
  rw [St_open_82, St_open_83, hc, hd, hb, show (σ 82).outs = (σ 83).outs from rfl]
  simp only [hemp, hemp']
  refine BIBase.Entails.trans (Entails.of_eq ?_) (BIBase.Entails.trans
    (local_83 (insM m) K c
      (iprop(toksFrom c 57
        ∗ credFrom c 48
        ∗ cred (tallyAt (sendCell c 18) () N)
        ∗ cred (tallyAt (sendCell c 18) () N)
        ∗ cred (tallyAt (sendCell c 18) () N)
        ∗ cred (tallyAt (sendCell c 16) () N)
        ∗ cred (tallyAt (sendCell c 16) () N)
        ∗ cred (tallyAt (sendCell c 16) () N)
        ∗ cred (tallyAt (sendCell c 14) () N)
        ∗ cred (tallyAt (sendCell c 14) () N)
        ∗ cred (tallyAt (sendCell c 14) () N)
        ∗ doneTo c 29
        ∗ todoFrom c 31
        ∗ foreignFrom c 54
        ∗ rsBack (insM m) c 14
        ∗ outHeld (insM m) c (σ 83).outs
        ∗ Fr)))
    (wp_mono _ _ _ fun tup => Entails.of_eq ?_))
  · ac_rfl
  · ac_rfl

/-- info: 'Cert.Kernel.Body.part_83' depends on axioms: [propext, Classical.choice, Quot.sound] -/
#guard_msgs in #print axioms part_83

end Cert.Kernel.Body

end
-- ==== Proof.Bits.Parts.Part84.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L84
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 84 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 84 of the body, run from the place before it, ends at the place after it and returns its values; whatever else is held is kept. -/
theorem part_84 (m : (ℓ : Loc nD τ sig) → Buf (Elt F) ℓ) (K : Dev nD × Cell → ℕ) (c : Dev nD) (Fr : sProp 𝕄) :
    iprop(St (insM m) K (σ 83) c ∗ outHeld (insM m) c (σ 83).outs ∗ Fr)
      ⊢ wp frame (wpE (defs₀ (F := F)) 𝒱₀ (c : Thread nD τ) none) Set.univ
          (k0_part84 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv14 (insM m) c) (Vals.lv22 (insM m) c) (Vals.lv23 (insM m) c) (Vals.lv2139 (insM m) c) (Vals.lv2141 (insM m) c))
          (fun tup => iprop(⌜tup = ⟨Vals.lv2159 (insM m) c, Vals.lv2186 (insM m) c⟩⌝ ∗ St (insM m) K (σ 84) c ∗ outHeld (insM m) c (σ 84).outs ∗ Fr)) := by
  have eo : (σ 84).outs = (σ 83).outs := rfl
  rw [eo]
  rw [St_eq, St_eq, StRest_congr (insM m) K c (s := σ 83) (s' := σ 84) rfl rfl rfl rfl, accAll_σ_83, accAll_σ_84, StRest_rs (insM m) K c (σ 84) rfl 11 (by decide), rs3_11]
  refine BIBase.Entails.trans ?_ ((local_84 (insM m) c iprop(rsTile c 3 0 2 (Vals.R (insM m) 0 c 3 0 2) ∗ StRestNoRs (insM m) K (σ 84) c 11 ∗ emp ∗ emp ∗ emp ∗ emp ∗ emp ∗ emp ∗ emp ∗ emp ∗ emp ∗ accTile c 3 0 (Vals.A (insM m) 0 c 3 0 2) ∗ accTile c 3 1 (Vals.A (insM m) 0 c 3 1 2) ∗ outHeld (insM m) c (σ 83).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T32]; · iexact T32
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [T30]; · iexact T30
    isplitl [T31]; · iexact T31
    isplitl [HO]; · iexact HO
    iexact HF
  · iintro ⟨%ht, T32, R1, R2, R0, HR, T00, T01, T02, T10, T11, T12, T20, T21, T22, T30, T31, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_84' depends on axioms: [propext, Classical.choice, Quot.sound] -/
#guard_msgs in #print axioms part_84

end Cert.Kernel.Body

end
-- ==== Proof.Bits.Parts.Part85.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.Parts.L85
import proofs.«900775_g7700000000000776_dist_diff_dit_htp_i_b2_s512_d768_hq4_v7x_i8_f32_1_alg».proof.Proof.Bits.BodyAccTable

/-! Part 85 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 85 of the body, run from the place before it, ends at the place after it and returns its values; whatever else is held is kept. -/
theorem part_85 (m : (ℓ : Loc nD τ sig) → Buf (Elt F) ℓ) (K : Dev nD × Cell → ℕ) (c : Dev nD) (Fr : sProp 𝕄) :
    iprop(St (insM m) K (σ 84) c ∗ outHeld (insM m) c (σ 84).outs ∗ Fr)
      ⊢ wp frame (wpE (defs₀ (F := F)) 𝒱₀ (c : Thread nD τ) none) Set.univ
          (k0_part85 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv24 (insM m) c) (Vals.lv40 (insM m) c) (Vals.lv43 (insM m) c) (Vals.lv2159 (insM m) c) (Vals.lv2186 (insM m) c))
          (fun tup => iprop(⌜tup = ⟨Vals.lv2215 (insM m) c, Vals.lw2216 c, Vals.lw2217 c, Vals.lwc0_i32_2648 c⟩⌝ ∗ St (insM m) K (σ 85) c ∗ outHeld (insM m) c (σ 85).outs ∗ Fr)) := by
  have eo : (σ 85).outs = (σ 84).outs := rfl
  rw [eo]
  rw [St_eq, St_eq, StRest_congr (insM m) K c (s := σ 84) (s' := σ 85) rfl rfl rfl rfl, accAll_σ_84, accAll_σ_85]
  refine BIBase.Entails.trans ?_ ((local_85 (insM m) c iprop(StRest (insM m) K (σ 85) c ∗ emp ∗ emp ∗ emp ∗ emp ∗ emp ∗ emp ∗ emp ∗ emp ∗ emp ∗ outHeld (insM m) c (σ 84).outs ∗ Fr)).trans (wp_mono _ _ _ fun tup => ?_))
  · iintro ⟨⟨HR, T00, T01, T02, T10, T11, T12, T20, T21, T22, T30, T31, T32⟩, HO, HF⟩
    isplitl [T30]; · iexact T30
    isplitl [T31]; · iexact T31
    isplitl [T32]; · iexact T32
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, T32, HR, T00, T01, T02, T10, T11, T12, T20, T21, T22, HO, HF⟩
    isplitr
    · ipureintro; exact ht
    isplitr [HO HF]
    · isplitl [HR]; · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_85' depends on axioms: [propext, Classical.choice, Quot.sound] -/
#guard_msgs in #print axioms part_85

end Cert.Kernel.Body

end
-- ==== Proof.Bits.Parts.L86.lean ====
/-
  Part 86 of the body starts two copies of step 21 (the 19th step started; round 1, group 3, position 0): part 0 of accumulator slice (3, 0) goes to receive slice (7, 0, 0) of the device paired along mask 1, part 1 of accumulator slice (3, 1) goes to receive slice (7, 1, 0) of the device paired along mask 3.
  The accumulator slices, at level 0 of round 1, and the paired devices' receive slices leave the device's hands; it holds the departure credits of its send cell 21 for them and owes 2 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 86: the copies of parts 0 and 1 of step 21. -/
theorem local_86 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 57) W)
        ∗ dutyTok ER (sendCell c 21) 0 0 ∗ dutyTok ER (recvCell (mate c 0 21) 21) 0 0
        ∗ dutyTok ER (sendCell c 21) 0 1 ∗ dutyTok ER (recvCell (mate c 1 21) 21) 0 1
        ∗ rsTileAny (F := F) (mate c 0 21) 7 0 0
        ∗ rsTileAny (F := F) (mate c 1 21) 7 1 0
        ∗ accTile c 3 0 (A I 1 c 3 0 0)
        ∗ accTile c 3 1 (A I 1 c 3 1 0)
        ∗ P)
      ⊢ wp frame (wpE (defs₀ (F := F)) 𝒱₀ (c : Thread nD τ) none) Set.univ
          (k0_part86 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw2217 c) (Vals.lwc0_i32_2648 c))
          (fun tup => iprop(⌜tup = ⟨Vals.lw2227 c, Vals.lw2238 c⟩⌝
            ∗ (∃ W, owes (c : Thread nD τ) (owedFrom c 59) W)
            ∗ cred (tallyAt (sendCell c 21) () N)
            ∗ cred (tallyAt (sendCell c 21) () N)
            ∗ P)) := by
  iintro ⟨#HR, ⟨%W, HO⟩, Ts0, Tr0, Ts1, Tr1, ⟨%fd0, Hr0⟩, ⟨%fd1, Hr1⟩, Ha0, Ha1, HP⟩
  ihave #HIs := (inv_at (RdI I) K (c, Cell.send 21)) $$ HR
  ihave #HRs := (reached_at (RdI I) K (c, Cell.send 21)) $$ HR
  ihave #HIr0 := (inv_at (RdI I) K (mate c 0 21, Cell.recv 21)) $$ HR
  ihave #HRr0 := (reached_at (RdI I) K (mate c 0 21, Cell.recv 21)) $$ HR
  ihave #HIr1 := (inv_at (RdI I) K (mate c 1 21, Cell.recv 21)) $$ HR
  ihave #HRr1 := (reached_at (RdI I) K (mate c 1 21, Cell.recv 21)) $$ HR
  sl_exec
  iapply (wp_fire_at (accCI I) (rs0I I) c 21 0 (g := 3) (rg := 7) (s := 0) (by decide) (by decide) (by decide)
      (dv := ⟨k0_dev58 c, k0_dev58_lt c⟩) ((dev58_eq c).trans rfl) rfl rfl (sendS_eq 21).symm (recvS_eq 21).symm
      (accEmb 3 0 (A I 1 c 3 0 0)) rfl fd0 (owedFrom c 58) (owed_copy c 18 0 57 (by decide) 21 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 21 1 (g := 3) (rg := 7) (s := 0) (by decide) (by decide) (by decide)
      (dv := ⟨k0_dev59 c, k0_dev59_lt c⟩) ((dev59_eq c).trans rfl) rfl rfl (sendS_eq 21).symm (recvS_eq 21).symm
      (accEmb 3 1 (A I 1 c 3 1 0)) rfl fd1 (owedFrom c 59) (owed_copy c 18 1 58 (by decide) 21 (by decide))) $$ [HO Ha1 Hr1 Ts1 Tr1]
  · fire_premises HIs HIr1 Ha1 Hr1 HO Ts1 HRs Tr1 HRr1
  iintro ⟨Hc1, HO⟩
  sl_exec
  sl_step
  isplitr
  · ipureintro; rfl
  isplitl [HO]
  · iexists W; iexact HO
  isplitl [Hc0]; · iexact Hc0
  isplitl [Hc1]; · iexact Hc1
  iexact HP

end Cert.Kernel.Body

/-- info: 'Cert.Kernel.Body.local_86' depends on axioms: [propext, Classical.choice, Quot.sound] -/
#guard_msgs in #print axioms Cert.Kernel.Body.local_86

end
-- ==== Proof.Bits.Parts.Part87.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L87
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 87 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 87 of the body, run from the place before it, ends at the place after it; whatever else is held is kept. -/
theorem part_87 (m : (ℓ : Loc nD τ sig) → Buf (Elt F) ℓ) (K : Dev nD × Cell → ℕ) (c : Dev nD) (Fr : sProp 𝕄) :
    iprop(St (insM m) K (σ 86) c ∗ outHeld (insM m) c (σ 86).outs ∗ Fr)
      ⊢ wp frame (wpE (defs₀ (F := F)) 𝒱₀ (c : Thread nD τ) none) Set.univ
          (k0_part87 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw1862 c))
          (fun _ => iprop(St (insM m) K (σ 87) c ∗ outHeld (insM m) c (σ 87).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 59 : sProp (MT nD τ sig Unit (Elt F) ℕ UU ℕ)) = iprop(dutyTok ER (sendCell c 21) 0 2 ∗ dutyTok ER (recvCell (mate c 2 21) 21) 0 2 ∗ toksFrom c 60) := toksFrom_copy c 18 2
  have hF0 : (foreignFrom c 56 : sProp (MT nD τ sig Unit (Elt F) ℕ UU ℕ)) = iprop(rsTileAny (mate c 2 21) 7 2 0 ∗ foreignFrom c 57) := foreignFrom_succ c 18 2
  have hC : (credFrom c 48 : sProp (MT nD τ sig Unit (Elt F) ℕ UU ℕ)) = iprop(credFrom c 49 ∗ cred (tallyAt (recvCell c 18) () N)) := by
    rw [credFrom_succ c 48 (by omega), show ownCell c 48 = recvCell c 18 from ownCell_fire c 15 0, show dueAmt 48 = N from dueAmt_fire 15 0]
  have hG : (todoFrom c 31 : sProp (MT nD τ sig Unit (Elt F) ℕ UU ℕ)) = iprop(curCell (sendCell c 18) (fun p => (RdI (insM m)).payload (sendCell c 18) 0 p) 0 ∗ curCell (recvCell c 18) (fun p => (RdI (insM m)).payload (recvCell c 18) 0 p) 0 ∗ todoFrom c 33) := todo_group c 15
  rw [show (σ 87).outs = (σ 86).outs from rfl, St_open_86, St_open_87, hT0, hF0, hC, hG]
  simp only [hemp, hemp']
  refine BIBase.Entails.trans (Entails.of_eq ?_) (BIBase.Entails.trans (local_87 (insM m) K c iprop(toksFrom c 60 ∗ credFrom c 49 ∗ cred (tallyAt (sendCell c 18) () N) ∗ cred (tallyAt (sendCell c 18) () N) ∗ cred (tallyAt (sendCell c 16) () N) ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ doneTo c 31 ∗ todoFrom c 33 ∗ foreignFrom c 57 ∗ rsBack (insM m) c 15 ∗ outHeld (insM m) c (σ 86).outs ∗ Fr)) (wp_mono _ _ _ fun tup => Entails.of_eq ?_))
  · ac_rfl
  · ac_rfl

/-- info: 'Cert.Kernel.Body.part_87' depends on axioms: [propext, Classical.choice, Quot.sound] -/
#guard_msgs in #print axioms part_87

end Cert.Kernel.Body

end
-- ==== Proof.Bits.Parts.L89.lean ====
/-
  Part 89 of the body ends wait group 15 (round 1, group 2, first exchange) with the third wait on its receive cell, which
  hands over the three receive tiles holding the partners' tiles of level 0; the three accumulator tiles came back with the send
  cell's third wait. It overwrites the accumulator tiles of parts 0 and 1 with their sums with the received tiles (level 0 of
  round 1 becomes level 1), reads part 2's accumulator tile and returns it as a 256 × 256 matrix.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_89 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 60) W)
        ∗ cred (tallyAt (recvCell c 18) () N)
        ∗ (RdI I).payload (sendCell c 18) 0 0 ∗ (RdI I).payload (sendCell c 18) 0 1 ∗ (RdI I).payload (sendCell c 18) 0 2
        ∗ curCell (recvCell c 18) (fun p => (RdI I).payload (recvCell c 18) 0 p) 2 ∗ P) : sProp (MT nD τ sig Unit (Elt F) ℕ UU ℕ))
      ⊢ wp frame (wpE (defs₀ (F := F)) 𝒱₀ (c : Thread nD τ) none) Set.univ
        (k0_part89 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = Vals.lv2308 I c⌝ ∗ records (RdI I) K ∗ levAts Proto.L Proto.lv ∗ (∃ W, owes (c : Thread nD τ) (owedFrom c 60) W)
          ∗ curCell (recvCell c 18) (fun p => (RdI I).payload (recvCell c 18) 0 p) 3
          ∗ accTile c 2 0 (Vals.A I 1 c 2 0 1) ∗ accTile c 2 1 (Vals.A I 1 c 2 1 1) ∗ accTile c 2 2 (Vals.A I 1 c 2 2 0)
          ∗ rsTile c 6 0 0 (Vals.R I 1 c 2 0 0) ∗ rsTile c 6 1 0 (Vals.R I 1 c 2 1 0) ∗ rsTile c 6 2 0 (Vals.R I 1 c 2 2 0) ∗ P)) := by
  unfold accTile rsTile Proto.accPts Proto.rsPts
  iintro ⟨#HR, #Hlev, ⟨%W, HO⟩, Cr, Ha0, Ha1, Ha2, Hr, HP⟩
  have es : ∀ p : Fin 3, ((RdI I).payload (sendCell c 18) 0 p : sProp (MT nD τ sig Unit (Elt F) ℕ UU ℕ))
      ⊢ ((Proto.accSl 2 p).view.loc (c : Thread nD τ) ↦[(Proto.accSl 2 p).view.set]{fullShare} accEmb 2 p (Vals.A I 1 c 2 p 0)) :=
    fun p => Entails.of_eq (payload_send_tile I c 18 p)
  ihave Ha0 := (es 0) $$ Ha0
  ihave Ha1 := (es 1) $$ Ha1
  ihave Ha2 := (es 2) $$ Ha2
  ihave #HIr := (inv_at (RdI I) K (c, Cell.recv 18)) $$ HR
  sl_unfold [k0_part89]
  sl_exec
  -- the third wait on receive cell 18: the rest of its round, the three receive tiles at what landed in them
  iapply (wp_wait3 (RdI I) c (recvS 18) (duties_recv _ _ c 18) (expect_recv _ _ c 18) (hw := fun _ => rfl)) $$ [HO Cr Hr]
  · isplitr; · iexact HIr
    isplitl [Cr]; · iexact Cr
    isplitl [HO]; · iexact HO
    isplitr
    · iapply (mayWait_recvAt (F := F) c 18); iexact Hlev
    iexact Hr
  iintro ⟨HO, Hr, Hb0, Hb1, Hb2⟩
  have er : ∀ p : Fin 3, ((RdI I).payload ((c : Thread nD τ), SemLoc.dma (recvS 18)) 0 p : sProp (MT nD τ sig Unit (Elt F) ℕ UU ℕ))
      ⊢ ((Proto.rsSl 6 p 0).view.loc (c : Thread nD τ) ↦[(Proto.rsSl 6 p 0).view.set]{fullShare} rsEmb 6 p 0 (Vals.R I 1 c 2 p 0)) :=
    fun p => Entails.of_eq (payload_recv_tile I c 18 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![2, 2, 0, 0] S1x1x256x256.size inb_S4x3x256x256_S1x1x256x256_2_2_0_0).toLoadRect (accEmb 2 2 (Vals.A I 1 c 2 2 0)) = Vals.A I 1 c 2 2 0 := accV_read_accEmb 2 2 _
    rw [e1]
    rfl
  isplitr; · iexact HR
  isplitr; · iexact Hlev
  isplitl [HO]; · iexists _; iexact HO
  isplitl [Hr]; · iexact Hr
  isplitl [Ha0]
  · iapply (accTile_at_value c 2 0)
    swap
    · iexact Ha0
    · refine (View.read_write_univ _ _).trans ?_
      refine (Vals.step_1_2_0_0 _ _).symm.trans ?_
      exact congrArg₂ (Vals.step 1 2 0 0) (accV_read_accEmb 2 0 _) (rsV_read_rsEmb 6 0 0 _)
  isplitl [Ha1]
  · iapply (accTile_at_value c 2 1)
    swap
    · iexact Ha1
    · refine (View.read_write_univ _ _).trans ?_
      refine (Vals.step_1_2_1_0 _ _).symm.trans ?_
      exact congrArg₂ (Vals.step 1 2 1 0) (accV_read_accEmb 2 1 _) (rsV_read_rsEmb 6 1 0 _)
  isplitl [Ha2]; · iexact Ha2
  isplitl [Hb0]; · iexact Hb0
  isplitl [Hb1]; · iexact Hb1
  isplitl [Hb2]; · iexact Hb2
  iexact HP

/-- info: 'Cert.Kernel.Body.local_89' depends on axioms: [propext, Classical.choice, Quot.sound] -/
#guard_msgs in #print axioms local_89

end Cert.Kernel.Body
-- ==== Proof.Bits.Parts.Part89.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L89
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 89 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 89 of the body, run from the place before it, ends at the place after it and returns its values; whatever else is held is kept. -/
theorem part_89 (m : (ℓ : Loc nD τ sig) → Buf (Elt F) ℓ) (K : Dev nD × Cell → ℕ) (c : Dev nD) (Fr : sProp 𝕄) :
    iprop(St (insM m) K (σ 88) c ∗ outHeld (insM m) c (σ 88).outs ∗ Fr)
      ⊢ wp frame (wpE (defs₀ (F := F)) 𝒱₀ (c : Thread nD τ) none) Set.univ
          (k0_part89 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = Vals.lv2308 (insM m) c⌝ ∗ St (insM m) K (σ 89) c ∗ outHeld (insM m) c (σ 89).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 50 : sProp (MT nD τ sig Unit (Elt F) ℕ UU ℕ)) = iprop(credFrom c 51 ∗ cred (tallyAt (recvCell c 18) () N)) := by
    rw [credFrom_succ c 50 (by omega), show ownCell c 50 = recvCell c 18 from ownCell_fire c 15 2, show dueAmt 50 = N from dueAmt_fire 15 2]
  have hd : (doneTo c 33 : sProp (MT nD τ sig Unit (Elt F) ℕ UU ℕ))
      = iprop(doneTo c 31 ∗ curCell (sendCell c 18) (fun p => (RdI (insM m)).payload (sendCell c 18) 0 p) 3
          ∗ curCell (recvCell c 18) (fun p => (RdI (insM m)).payload (recvCell c 18) 0 p) 3) := (done_group c 15).symm
  have hb : (rsBack (insM m) c 16 : sProp (MT nD τ sig Unit (Elt F) ℕ UU ℕ))
      = iprop((rsTile c 6 0 0 (Vals.R (insM m) 1 c 2 0 0) ∗ rsTile c 6 1 0 (Vals.R (insM m) 1 c 2 1 0) ∗ rsTile c 6 2 0 (Vals.R (insM m) 1 c 2 2 0))
          ∗ rsBack (insM m) c 15) := rsBack_succ (insM m) c 15
  rw [St_open_88, St_open_89, hc, hd, hb, show (σ 88).outs = (σ 89).outs from rfl]
  simp only [hemp, hemp']
  refine BIBase.Entails.trans (Entails.of_eq ?_) (BIBase.Entails.trans
    (local_89 (insM m) K c
      (iprop(toksFrom c 60
        ∗ credFrom c 51
        ∗ cred (tallyAt (sendCell c 16) () N)
        ∗ cred (tallyAt (sendCell c 16) () N)
        ∗ cred (tallyAt (sendCell c 16) () N)
        ∗ cred (tallyAt (sendCell c 14) () N)
        ∗ cred (tallyAt (sendCell c 14) () N)
        ∗ cred (tallyAt (sendCell c 14) () N)
        ∗ cred (tallyAt (sendCell c 21) () N)
        ∗ cred (tallyAt (sendCell c 21) () N)
        ∗ cred (tallyAt (sendCell c 21) () N)
        ∗ doneTo c 31
        ∗ curCell (sendCell c 18) (fun p => (RdI (insM m)).payload (sendCell c 18) 0 p) 3
        ∗ todoFrom c 33
        ∗ foreignFrom c 57
        ∗ rsBack (insM m) c 15
        ∗ outHeld (insM m) c (σ 89).outs
        ∗ Fr)))
    (wp_mono _ _ _ fun tup => Entails.of_eq ?_))
  · ac_rfl
  · ac_rfl

/-- info: 'Cert.Kernel.Body.part_89' depends on axioms: [propext, Classical.choice, Quot.sound] -/
#guard_msgs in #print axioms part_89

end Cert.Kernel.Body

end
-- ==== Proof.Bits.Parts.L90.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 90 of the body: the store into accumulator tile (2, 2), then the start of the copy of part 0 at step 19 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_90 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 60) W)
        ∗ dutyTok ER (sendCell c 19) 0 0 ∗ dutyTok ER (recvCell (mate c 0 19) 19) 0 0
        ∗ rsTileAny (mate c 0 19) (rgOf 19) 0 (sOf 19)
        ∗ rsTile c 6 2 0 (Vals.R I 1 c 2 2 0)
        ∗ accTile c 2 2 (Vals.A I 1 c 2 2 0)
        ∗ accTile c 2 0 (Vals.A I 1 c 2 0 1)
        ∗ P) : sProp (MT nD τ sig Unit (Elt F) ℕ UU ℕ))
      ⊢ wp frame (wpE (defs₀ (F := F)) 𝒱₀ (c : Thread nD τ) none) Set.univ
      (k0_part90 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2308 I c))
      (fun tup => iprop(⌜tup = ⟨Vals.lw2315 c, Vals.lw2326 c⟩⌝
        ∗ records (RdI I) K
        ∗ (∃ W, owes (c : Thread nD τ) (owedFrom c 61) W)
        ∗ cred (tallyAt (sendCell c 19) () N)
        ∗ rsTile c 6 2 0 (Vals.R I 1 c 2 2 0)
        ∗ accTile c 2 2 (Vals.A I 1 c 2 2 1)
        ∗ P)) := by
  unfold accTile rsTile rsTileAny Proto.accPts Proto.rsPts
  iintro ⟨#Hrec, ⟨%W, HO⟩, Hts0, Htr0, ⟨%fd0, Hfd0⟩, Hr620, Ha22, Ha20, HP⟩
  ihave #HIs0 := (inv_at (RdI I) K (c, Cell.send 19)) $$ Hrec
  ihave #HIr0 := (inv_at (RdI I) K (mate c 0 19, Cell.recv 19)) $$ Hrec
  ihave #Hrs0 := (reached_at (RdI I) K (c, Cell.send 19)) $$ Hrec
  ihave #Hrr0 := (reached_at (RdI I) K (mate c 0 19, Cell.recv 19)) $$ Hrec
  rw [k0_part90_eq_skeleton]
  unfold k0_part90_skel
  sl_exec
  -- the copy of part 0 at step 19 (started as number 20): its units on the partner's receive cell are owed last
  have hc0 : dueCell c 60 = recvCell (mate c 0 19) 19 := dueCell_fire c 19 0
  have ha0 : dueAmt 60 = N := dueAmt_fire 19 0
  have hO0 : owedFrom c 60 = owedFrom c 61 + tallyAt (recvCell (mate c 0 19) 19) () N :=
    (owedFrom_succ c 60 (by decide)).trans (by rw [hc0, ha0])
  iapply (wp_fire_at (accCI I) (rs0I I) c 19 0 (g := 2) (rg := 6) (s := 1) rfl rfl rfl (dev61_eq c) rfl rfl
    (sendS_eq 19) (recvS_eq 19) (accEmb 2 0 (Vals.A I 1 c 2 0 1)) rfl fd0 (owedFrom c 61) hO0) $$ [HO Hts0 Htr0 Hfd0 Ha20]
  · unfold Proto.accPts Proto.rsPts
    isplitr; · iexact HIs0
    isplitr; · iexact HIr0
    isplitl [Ha20]; · iexact Ha20
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha22_r0 : local_90.sl.v2309 I c = Vals.R I 1 c 2 2 0 := by unfold local_90.sl.v2309; exact rsV_read_rsEmb 6 2 0 _
  have Ha22_e : View.read (Elt F) (accV 2 2) (local_90.sl.Ha22_w1 I c) = Vals.A I 1 c 2 2 1 := by
    unfold local_90.sl.Ha22_w1; rw [Ha22_r0]; exact View.read_write_univ _ _
  have Ha22_t : ((Proto.accSl 2 2).view.loc (c : Thread nD τ) ↦[(Proto.accSl 2 2).view.set]{fullShare} local_90.sl.Ha22_w1 I c : sProp (MT nD τ sig Unit (Elt F) ℕ UU ℕ)) = ((Proto.accSl 2 2).view.loc (c : Thread nD τ) ↦[(Proto.accSl 2 2).view.set]{fullShare} accEmb 2 2 (Vals.A I 1 c 2 2 1) : sProp (MT nD τ sig Unit (Elt F) ℕ UU ℕ)) := accTile_of_read c fullShare 2 2 Ha22_e
  rw [← Ha22_t]
  isplitr [HO Hcs0 Hr620 Ha22 HP]
  · ipureintro; rfl
  isplitr [HO Hcs0 Hr620 Ha22 HP]; · iexact Hrec
  isplitl [HO]; · iexists W; iexact HO
  iframe

/-- info: 'Cert.Kernel.Body.local_90' depends on axioms: [propext, Classical.choice, Quot.sound] -/
#guard_msgs in #print axioms local_90

end Cert.Kernel.Body
-- ==== Proof.Bits.Parts.Part90.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L90
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 90 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 90 of the body, run from the place before it, ends at the place after it and returns its values; whatever else is held is kept. -/
theorem part_90 (m : (ℓ : Loc nD τ sig) → Buf (Elt F) ℓ) (K : Dev nD × Cell → ℕ) (c : Dev nD) (Fr : sProp 𝕄) :
    iprop(St (insM m) K (σ 89) c ∗ outHeld (insM m) c (σ 89).outs ∗ Fr)
      ⊢ wp frame (wpE (defs₀ (F := F)) 𝒱₀ (c : Thread nD τ) none) Set.univ
          (k0_part90 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2308 (insM m) c))
          (fun tup => iprop(⌜tup = ⟨Vals.lw2315 c, Vals.lw2326 c⟩⌝ ∗ St (insM m) K (σ 90) c ∗ outHeld (insM m) c (σ 90).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 60 : sProp (MT nD τ sig Unit (Elt F) ℕ UU ℕ))
      = iprop(dutyTok ER (sendCell c 19) 0 0 ∗ dutyTok ER (recvCell (mate c 0 19) 19) 0 0 ∗ toksFrom c 61) := toksFrom_copy c 19 0
  have hf0 : (foreignFrom c 57 : sProp (MT nD τ sig Unit (Elt F) ℕ UU ℕ))
      = iprop(rsTileAny (mate c 0 19) (rgOf 19) 0 (sOf 19) ∗ foreignFrom c 58) := foreignFrom_succ c 19 0
  have hb15 : (rsBack (insM m) c 16 : sProp (MT nD τ sig Unit (Elt F) ℕ UU ℕ))
      = iprop((rsTile c 6 0 0 (Vals.R (insM m) 1 c 2 0 0) ∗ rsTile c 6 1 0 (Vals.R (insM m) 1 c 2 1 0) ∗ rsTile c 6 2 0 (Vals.R (insM m) 1 c 2 2 0)) ∗ rsBack (insM m) c 15) := rsBack_succ (insM m) c 15
  rw [St_open_89, St_open_90, ht0, hf0, hb15, show (σ 89).outs = (σ 90).outs from rfl]
  simp only [hemp, hemp']
  refine BIBase.Entails.trans (Entails.of_eq ?_) (BIBase.Entails.trans
    (local_90 (insM m) K c
      (iprop(levAts Proto.L Proto.lv
        ∗ toksFrom c 61
        ∗ credFrom c 51
        ∗ cred (tallyAt (sendCell c 16) () N)
        ∗ cred (tallyAt (sendCell c 16) () N)
        ∗ cred (tallyAt (sendCell c 16) () N)
        ∗ cred (tallyAt (sendCell c 14) () N)
        ∗ cred (tallyAt (sendCell c 14) () N)
        ∗ cred (tallyAt (sendCell c 14) () N)
        ∗ cred (tallyAt (sendCell c 21) () N)
        ∗ cred (tallyAt (sendCell c 21) () N)
        ∗ cred (tallyAt (sendCell c 21) () N)
        ∗ doneTo c 33
        ∗ todoFrom c 33
        ∗ foreignFrom c 58
        ∗ rsTile c 6 0 0 (Vals.R (insM m) 1 c 2 0 0)
        ∗ rsTile c 6 1 0 (Vals.R (insM m) 1 c 2 1 0)
        ∗ rsBack (insM m) c 15
        ∗ accTile c 2 1 (Vals.A (insM m) 1 c 2 1 1)
        ∗ outHeld (insM m) c (σ 90).outs
        ∗ Fr)))
    (wp_mono _ _ _ fun tup => Entails.of_eq ?_))
  · ac_rfl
  · ac_rfl

/-- info: 'Cert.Kernel.Body.part_90' depends on axioms: [propext, Classical.choice, Quot.sound] -/
#guard_msgs in #print axioms part_90

end Cert.Kernel.Body

end
-- ==== Proof.Bits.Parts.Part91.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L91
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 91 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 91 of the body, run from the place before it, ends at the place after it and returns its values; whatever else is held is kept. -/
theorem part_91 (m : (ℓ : Loc nD τ sig) → Buf (Elt F) ℓ) (K : Dev nD × Cell → ℕ) (c : Dev nD) (Fr : sProp 𝕄) :
    iprop(St (insM m) K (σ 90) c ∗ outHeld (insM m) c (σ 90).outs ∗ Fr)
      ⊢ wp frame (wpE (defs₀ (F := F)) 𝒱₀ (c : Thread nD τ) none) Set.univ
          (k0_part91 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw2337 c, Vals.lwc1_i32_2854 c⟩⌝ ∗ St (insM m) K (σ 91) c ∗ outHeld (insM m) c (σ 91).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 61 : sProp (MT nD τ sig Unit (Elt F) ℕ UU ℕ)) = iprop(dutyTok ER (sendCell c 19) 0 1 ∗ dutyTok ER (recvCell (mate c 1 19) 19) 0 1 ∗ toksFrom c 62) := toksFrom_copy c 19 1
  have hF0 : (foreignFrom c 58 : sProp (MT nD τ sig Unit (Elt F) ℕ UU ℕ)) = iprop(rsTileAny (mate c 1 19) 6 1 1 ∗ foreignFrom c 59) := foreignFrom_succ c 19 1
  have hT1 : (toksFrom c 62 : sProp (MT nD τ sig Unit (Elt F) ℕ UU ℕ)) = iprop(dutyTok ER (sendCell c 19) 0 2 ∗ dutyTok ER (recvCell (mate c 2 19) 19) 0 2 ∗ toksFrom c 63) := toksFrom_copy c 19 2
  have hF1 : (foreignFrom c 59 : sProp (MT nD τ sig Unit (Elt F) ℕ UU ℕ)) = iprop(rsTileAny (mate c 2 19) 6 2 1 ∗ foreignFrom c 60) := foreignFrom_succ c 19 2
  have hG : (todoFrom c 33 : sProp (MT nD τ sig Unit (Elt F) ℕ UU ℕ)) = iprop(curCell (sendCell c 16) (fun p => (RdI (insM m)).payload (sendCell c 16) 0 p) 0 ∗ curCell (recvCell c 16) (fun p => (RdI (insM m)).payload (recvCell c 16) 0 p) 0 ∗ todoFrom c 35) := todo_group c 16
  rw [show (σ 91).outs = (σ 90).outs from rfl, St_open_90, St_open_91, hT0, hF0, hT1, hF1, hG]
  simp only [hemp, hemp']
  refine BIBase.Entails.trans (Entails.of_eq ?_) (BIBase.Entails.trans (local_91 (insM m) K c iprop(toksFrom c 63 ∗ credFrom c 51 ∗ cred (tallyAt (sendCell c 16) () N) ∗ cred (tallyAt (sendCell c 16) () N) ∗ cred (tallyAt (sendCell c 14) () N) ∗ cred (tallyAt (sendCell c 14) () N) ∗ cred (tallyAt (sendCell c 14) () N) ∗ cred (tallyAt (sendCell c 21) () N) ∗ cred (tallyAt (sendCell c 21) () N) ∗ cred (tallyAt (sendCell c 21) () N) ∗ cred (tallyAt (sendCell c 19) () N) ∗ doneTo c 33 ∗ curCell (recvCell c 16) (fun p => (RdI (insM m)).payload (recvCell c 16) 0 p) 0 ∗ todoFrom c 35 ∗ foreignFrom c 60 ∗ rsBack (insM m) c 16 ∗ outHeld (insM m) c (σ 90).outs ∗ Fr)) (wp_mono _ _ _ fun tup => Entails.of_eq ?_))
  · ac_rfl
  · ac_rfl

/-- info: 'Cert.Kernel.Body.part_91' depends on axioms: [propext, Classical.choice, Quot.sound] -/
#guard_msgs in #print axioms part_91

end Cert.Kernel.Body

end
-- ==== Proof.Bits.Parts.L93.lean ====
/-
  Part 93 of the body ends wait group 16 (round 1, group 1, second exchange): the third wait on its send cell hands back the
  three accumulator tiles of group 1 at level 1 of round 1, the third wait on its receive cell hands over the three receive
  tiles holding the partners' tiles of that level. It then overwrites part 0's accumulator tile with its sum with the
  received tile: level 1 becomes level 2.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_93 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 63) W)
        ∗ cred (tallyAt (sendCell c 16) () N) ∗ cred (tallyAt (recvCell c 16) () N)
        ∗ curCell (sendCell c 16) (fun p => (RdI I).payload (sendCell c 16) 0 p) 2
        ∗ curCell (recvCell c 16) (fun p => (RdI I).payload (recvCell c 16) 0 p) 2 ∗ P) : sProp (MT nD τ sig Unit (Elt F) ℕ UU ℕ))
      ⊢ wp frame (wpE (defs₀ (F := F)) 𝒱₀ (c : Thread nD τ) none) Set.univ
        (k0_part93 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw1983 c))
        (fun tup => iprop(records (RdI I) K ∗ levAts Proto.L Proto.lv ∗ (∃ W, owes (c : Thread nD τ) (owedFrom c 63) W)
          ∗ curCell (sendCell c 16) (fun p => (RdI I).payload (sendCell c 16) 0 p) 3
          ∗ curCell (recvCell c 16) (fun p => (RdI I).payload (recvCell c 16) 0 p) 3
          ∗ accTile c 1 0 (Vals.A I 1 c 1 0 2) ∗ accTile c 1 1 (Vals.A I 1 c 1 1 1) ∗ accTile c 1 2 (Vals.A I 1 c 1 2 1)
          ∗ rsTile c 5 0 1 (Vals.R I 1 c 1 0 1) ∗ rsTile c 5 1 1 (Vals.R I 1 c 1 1 1) ∗ rsTile c 5 2 1 (Vals.R I 1 c 1 2 1) ∗ P)) := by
  unfold accTile rsTile Proto.accPts Proto.rsPts
  iintro ⟨#HR, #Hlev, ⟨%W, HO⟩, Cs, Cr, Hs, Hr, HP⟩
  ihave #HIs := (inv_at (RdI I) K (c, Cell.send 16)) $$ HR
  ihave #HIr := (inv_at (RdI I) K (c, Cell.recv 16)) $$ HR
  sl_unfold [k0_part93]
  sl_exec
  -- the third wait on send cell 16: the rest of its round, the three source tiles back
  iapply (wp_wait3 (RdI I) c (sendS 16) (duties_send _ _ c 16) (expect_send _ _ c 16) (hw := fun _ => rfl)) $$ [HO Cs Hs]
  · isplitr; · iexact HIs
    isplitl [Cs]; · iexact Cs
    isplitl [HO]; · iexact HO
    isplitr
    · iapply (mayWait_sendAt (F := F) c 16); iexact Hlev
    iexact Hs
  iintro ⟨HO, Hs, Ha0, Ha1, Ha2⟩
  have es : ∀ p : Fin 3, ((RdI I).payload ((c : Thread nD τ), SemLoc.dma (sendS 16)) 0 p : sProp (MT nD τ sig Unit (Elt F) ℕ UU ℕ))
      ⊢ ((Proto.accSl 1 p).view.loc (c : Thread nD τ) ↦[(Proto.accSl 1 p).view.set]{fullShare} accEmb 1 p (Vals.A I 1 c 1 p 1)) :=
    fun p => Entails.of_eq (payload_send_tile I c 16 p)
  ihave Ha0 := (es 0) $$ Ha0
  ihave Ha1 := (es 1) $$ Ha1
  ihave Ha2 := (es 2) $$ Ha2
  sl_exec
  -- the third wait on receive cell 16: the rest of its round, the three receive tiles at what landed in them
  iapply (wp_wait3 (RdI I) c (recvS 16) (duties_recv _ _ c 16) (expect_recv _ _ c 16) (hw := fun _ => rfl)) $$ [HO Cr Hr]
  · isplitr; · iexact HIr
    isplitl [Cr]; · iexact Cr
    isplitl [HO]; · iexact HO
    isplitr
    · iapply (mayWait_recvAt (F := F) c 16); iexact Hlev
    iexact Hr
  iintro ⟨HO, Hr, Hb0, Hb1, Hb2⟩
  have er : ∀ p : Fin 3, ((RdI I).payload ((c : Thread nD τ), SemLoc.dma (recvS 16)) 0 p : sProp (MT nD τ sig Unit (Elt F) ℕ UU ℕ))
      ⊢ ((Proto.rsSl 5 p 1).view.loc (c : Thread nD τ) ↦[(Proto.rsSl 5 p 1).view.set]{fullShare} rsEmb 5 p 1 (Vals.R I 1 c 1 p 1)) :=
    fun p => Entails.of_eq (payload_recv_tile I c 16 p)
  ihave Hb0 := (er 0) $$ Hb0
  ihave Hb1 := (er 1) $$ Hb1
  ihave Hb2 := (er 2) $$ Hb2
  sl_exec
  sl_step
  sl_unfold_run_names

  isplitr; · iexact HR
  isplitr; · iexact Hlev
  isplitl [HO]; · iexists _; iexact HO
  isplitl [Hs]; · iexact Hs
  isplitl [Hr]; · iexact Hr
  isplitl [Ha0]
  · iapply (accTile_at_value c 1 0)
    swap
    · iexact Ha0
    · refine (View.read_write_univ _ _).trans ?_
      refine (Vals.step_1_1_0_1 _ _).symm.trans ?_
      exact congrArg₂ (Vals.step 1 1 0 1) (accV_read_accEmb 1 0 _) (rsV_read_rsEmb 5 0 1 _)
  isplitl [Ha1]; · iexact Ha1
  isplitl [Ha2]; · iexact Ha2
  isplitl [Hb0]; · iexact Hb0
  isplitl [Hb1]; · iexact Hb1
  isplitl [Hb2]; · iexact Hb2
  iexact HP

/-- info: 'Cert.Kernel.Body.local_93' depends on axioms: [propext, Classical.choice, Quot.sound] -/
#guard_msgs in #print axioms local_93

end Cert.Kernel.Body
-- ==== Proof.Bits.Parts.Part93.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L93
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 93 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 93 of the body, run from the place before it, ends at the place after it; whatever else is held is kept. -/
theorem part_93 (m : (ℓ : Loc nD τ sig) → Buf (Elt F) ℓ) (K : Dev nD × Cell → ℕ) (c : Dev nD) (Fr : sProp 𝕄) :
    iprop(St (insM m) K (σ 92) c ∗ outHeld (insM m) c (σ 92).outs ∗ Fr)
      ⊢ wp frame (wpE (defs₀ (F := F)) 𝒱₀ (c : Thread nD τ) none) Set.univ
          (k0_part93 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw1983 c))
          (fun _ => iprop(St (insM m) K (σ 93) c ∗ outHeld (insM m) c (σ 93).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 53 : sProp (MT nD τ sig Unit (Elt F) ℕ UU ℕ)) = iprop(credFrom c 54 ∗ cred (tallyAt (recvCell c 16) () N)) := by
    rw [credFrom_succ c 53 (by omega), show ownCell c 53 = recvCell c 16 from ownCell_fire c 16 2, show dueAmt 53 = N from dueAmt_fire 16 2]
  have hd : (doneTo c 35 : sProp (MT nD τ sig Unit (Elt F) ℕ UU ℕ))
      = iprop(doneTo c 33 ∗ curCell (sendCell c 16) (fun p => (RdI (insM m)).payload (sendCell c 16) 0 p) 3
          ∗ curCell (recvCell c 16) (fun p => (RdI (insM m)).payload (recvCell c 16) 0 p) 3) := (done_group c 16).symm
  have hb : (rsBack (insM m) c 17 : sProp (MT nD τ sig Unit (Elt F) ℕ UU ℕ))
      = iprop((rsTile c 5 0 1 (Vals.R (insM m) 1 c 1 0 1) ∗ rsTile c 5 1 1 (Vals.R (insM m) 1 c 1 1 1) ∗ rsTile c 5 2 1 (Vals.R (insM m) 1 c 1 2 1))
          ∗ rsBack (insM m) c 16) := rsBack_succ (insM m) c 16
  rw [St_open_92, St_open_93, hc, hd, hb, show (σ 92).outs = (σ 93).outs from rfl]
  simp only [hemp, hemp']
  refine BIBase.Entails.trans (Entails.of_eq ?_) (BIBase.Entails.trans
    (local_93 (insM m) K c
      (iprop(toksFrom c 63
        ∗ credFrom c 54
        ∗ cred (tallyAt (sendCell c 14) () N)
        ∗ cred (tallyAt (sendCell c 14) () N)
        ∗ cred (tallyAt (sendCell c 14) () N)
        ∗ cred (tallyAt (sendCell c 21) () N)
        ∗ cred (tallyAt (sendCell c 21) () N)
        ∗ cred (tallyAt (sendCell c 21) () N)
        ∗ cred (tallyAt (sendCell c 19) () N)
        ∗ cred (tallyAt (sendCell c 19) () N)
        ∗ cred (tallyAt (sendCell c 19) () N)
        ∗ doneTo c 33
        ∗ todoFrom c 35
        ∗ foreignFrom c 60
        ∗ rsBack (insM m) c 16
        ∗ outHeld (insM m) c (σ 93).outs
        ∗ Fr)))
    (wp_mono _ _ _ fun tup => Entails.of_eq ?_))
  · ac_rfl
  · ac_rfl

/-- info: 'Cert.Kernel.Body.part_93' depends on axioms: [propext, Classical.choice, Quot.sound] -/
#guard_msgs in #print axioms part_93

end Cert.Kernel.Body

end
-- ==== Proof.Bits.Parts.Part94.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L94
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 94 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 94 of the body, run from the place before it, ends at the place after it and returns its values; whatever else is held is kept. -/
theorem part_94 (m : (ℓ : Loc nD τ sig) → Buf (Elt F) ℓ) (K : Dev nD × Cell → ℕ) (c : Dev nD) (Fr : sProp 𝕄) :
    iprop(St (insM m) K (σ 93) c ∗ outHeld (insM m) c (σ 93).outs ∗ Fr)
      ⊢ wp frame (wpE (defs₀ (F := F)) 𝒱₀ (c : Thread nD τ) none) Set.univ
          (k0_part94 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c))
          (fun tup => iprop(⌜tup = Vals.lw2414 c⌝ ∗ St (insM m) K (σ 94) c ∗ outHeld (insM m) c (σ 94).outs ∗ Fr)) := by
  have eo : (σ 94).outs = (σ 93).outs := rfl
  rw [eo]
  rw [St_eq, St_eq, StRest_congr (insM m) K c (s := σ 93) (s' := σ 94) rfl rfl rfl rfl, accAll_σ_93, accAll_σ_94, StRest_rs (insM m) K c (σ 94) rfl 16 (by decide), rs3_16]
  refine BIBase.Entails.trans ?_ ((local_94 (insM m) c iprop(rsTile c 5 0 1 (Vals.R (insM m) 1 c 1 0 1) ∗ StRestNoRs (insM m) K (σ 94) c 16 ∗ emp ∗ emp ∗ emp ∗ accTile c 1 0 (Vals.A (insM m) 1 c 1 0 2) ∗ emp ∗ emp ∗ emp ∗ emp ∗ emp ∗ emp ∗ outHeld (insM m) c (σ 93).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T11]; · iexact T11
    isplitl [T12]; · iexact T12
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T20]; · iexact T20
    isplitl [T21]; · iexact T21
    isplitl [T22]; · iexact T22
    isplitl [T30]; · iexact T30
    isplitl [T31]; · iexact T31
    isplitl [T32]; · iexact T32
    isplitl [HO]; · iexact HO
    iexact HF
  · iintro ⟨%ht, T11, T12, R1, R2, R0, HR, T00, T01, T02, T10, T20, T21, T22, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_94' depends on axioms: [propext, Classical.choice, Quot.sound] -/
#guard_msgs in #print axioms part_94

end Cert.Kernel.Body

end
-- ==== Proof.Bits.Parts.L95.lean ====
/-
  Part 95 of the body starts three copies of step 17 (the 21st step started; round 1, group 1, position 2): part 0 of accumulator slice (1, 0) goes to receive slice (5, 0, 2) of the device paired along mask 4, part 1 of accumulator slice (1, 1) goes to receive slice (5, 1, 2) of the device paired along mask 1, part 2 of accumulator slice (1, 2) goes to receive slice (5, 2, 2) of the device paired along mask 3.
  The accumulator slices, at level 2 of round 1, and the paired devices' receive slices leave the device's hands; it holds the departure credits of its send cell 17 for them and owes 3 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 95: the copies of parts 0, 1 and 2 of step 17. -/
theorem local_95 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 63) W)
        ∗ dutyTok ER (sendCell c 17) 0 0 ∗ dutyTok ER (recvCell (mate c 0 17) 17) 0 0
        ∗ dutyTok ER (sendCell c 17) 0 1 ∗ dutyTok ER (recvCell (mate c 1 17) 17) 0 1
        ∗ dutyTok ER (sendCell c 17) 0 2 ∗ dutyTok ER (recvCell (mate c 2 17) 17) 0 2
        ∗ rsTileAny (F := F) (mate c 0 17) 5 0 2
        ∗ rsTileAny (F := F) (mate c 1 17) 5 1 2
        ∗ rsTileAny (F := F) (mate c 2 17) 5 2 2
        ∗ accTile c 1 0 (A I 1 c 1 0 2)
        ∗ accTile c 1 1 (A I 1 c 1 1 2)
        ∗ accTile c 1 2 (A I 1 c 1 2 2)
        ∗ P)
      ⊢ wp frame (wpE (defs₀ (F := F)) 𝒱₀ (c : Thread nD τ) none) Set.univ
          (k0_part95 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw2425 c, Vals.lw2436 c⟩⌝
            ∗ (∃ W, owes (c : Thread nD τ) (owedFrom c 66) W)
            ∗ cred (tallyAt (sendCell c 17) () N)
            ∗ cred (tallyAt (sendCell c 17) () N)
            ∗ cred (tallyAt (sendCell c 17) () N)
            ∗ P)) := by
  iintro ⟨#HR, ⟨%W, HO⟩, Ts0, Tr0, Ts1, Tr1, Ts2, Tr2, ⟨%fd0, Hr0⟩, ⟨%fd1, Hr1⟩, ⟨%fd2, Hr2⟩, Ha0, Ha1, Ha2, HP⟩
  ihave #HIs := (inv_at (RdI I) K (c, Cell.send 17)) $$ HR
  ihave #HRs := (reached_at (RdI I) K (c, Cell.send 17)) $$ HR
  ihave #HIr0 := (inv_at (RdI I) K (mate c 0 17, Cell.recv 17)) $$ HR
  ihave #HRr0 := (reached_at (RdI I) K (mate c 0 17, Cell.recv 17)) $$ HR
  ihave #HIr1 := (inv_at (RdI I) K (mate c 1 17, Cell.recv 17)) $$ HR
  ihave #HRr1 := (reached_at (RdI I) K (mate c 1 17, Cell.recv 17)) $$ HR
  ihave #HIr2 := (inv_at (RdI I) K (mate c 2 17, Cell.recv 17)) $$ HR
  ihave #HRr2 := (reached_at (RdI I) K (mate c 2 17, Cell.recv 17)) $$ HR
  sl_exec
  iapply (wp_fire_at (accCI I) (rs0I I) c 17 0 (g := 1) (rg := 5) (s := 2) (by decide) (by decide) (by decide)
      (dv := ⟨k0_dev64 c, k0_dev64_lt c⟩) ((dev64_eq c).trans rfl) rfl rfl (sendS_eq 17).symm (recvS_eq 17).symm
      (accEmb 1 0 (A I 1 c 1 0 2)) rfl fd0 (owedFrom c 64) (owed_copy c 20 0 63 (by decide) 17 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 17 1 (g := 1) (rg := 5) (s := 2) (by decide) (by decide) (by decide)
      (dv := ⟨k0_dev65 c, k0_dev65_lt c⟩) ((dev65_eq c).trans rfl) rfl rfl (sendS_eq 17).symm (recvS_eq 17).symm
      (accEmb 1 1 (A I 1 c 1 1 2)) rfl fd1 (owedFrom c 65) (owed_copy c 20 1 64 (by decide) 17 (by decide))) $$ [HO Ha1 Hr1 Ts1 Tr1]
  · fire_premises HIs HIr1 Ha1 Hr1 HO Ts1 HRs Tr1 HRr1
  iintro ⟨Hc1, HO⟩
  sl_exec
  iapply (wp_fire_at (accCI I) (rs0I I) c 17 2 (g := 1) (rg := 5) (s := 2) (by decide) (by decide) (by decide)
      (dv := ⟨k0_dev66 c, k0_dev66_lt c⟩) ((dev66_eq c).trans rfl) rfl rfl (sendS_eq 17).symm (recvS_eq 17).symm
      (accEmb 1 2 (A I 1 c 1 2 2)) rfl fd2 (owedFrom c 66) (owed_copy c 20 2 65 (by decide) 17 (by decide))) $$ [HO Ha2 Hr2 Ts2 Tr2]
  · fire_premises HIs HIr2 Ha2 Hr2 HO Ts2 HRs Tr2 HRr2
  iintro ⟨Hc2, HO⟩
  sl_exec
  sl_step
  isplitr
  · ipureintro; rfl
  isplitl [HO]
  · iexists W; iexact HO
  isplitl [Hc0]; · iexact Hc0
  isplitl [Hc1]; · iexact Hc1
  isplitl [Hc2]; · iexact Hc2
  iexact HP

end Cert.Kernel.Body

/-- info: 'Cert.Kernel.Body.local_95' depends on axioms: [propext, Classical.choice, Quot.sound] -/
#guard_msgs in #print axioms Cert.Kernel.Body.local_95

end
-- ==== Proof.Bits.Parts.Part98.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L98
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 98 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 98 of the body, run from the place before it, ends at the place after it and returns its values; whatever else is held is kept. -/
theorem part_98 (m : (ℓ : Loc nD τ sig) → Buf (Elt F) ℓ) (K : Dev nD × Cell → ℕ) (c : Dev nD) (Fr : sProp 𝕄) :
    iprop(St (insM m) K (σ 97) c ∗ outHeld (insM m) c (σ 97).outs ∗ Fr)
      ⊢ wp frame (wpE (defs₀ (F := F)) 𝒱₀ (c : Thread nD τ) none) Set.univ
          (k0_part98 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv25 (insM m) c) (Vals.lv1195 (insM m) c))
          (fun tup => iprop(⌜tup = Vals.lv2515 (insM m) c⌝ ∗ St (insM m) K (σ 98) c ∗ outHeld (insM m) c (σ 98).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 56 : sProp (MT nD τ sig Unit (Elt F) ℕ UU ℕ)) = iprop(credFrom c 57 ∗ cred (tallyAt (recvCell c 14) () N)) := by
    rw [credFrom_succ c 56 (by omega), show ownCell c 56 = recvCell c 14 from ownCell_fire c 17 2, show dueAmt 56 = N from dueAmt_fire 17 2]
  have hd : (doneTo c 37 : sProp (MT nD τ sig Unit (Elt F) ℕ UU ℕ))
      = iprop(doneTo c 35 ∗ curCell (sendCell c 14) (fun p => (RdI (insM m)).payload (sendCell c 14) 0 p) 3
          ∗ curCell (recvCell c 14) (fun p => (RdI (insM m)).payload (recvCell c 14) 0 p) 3) := (done_group c 17).symm
  have hb : (rsBack (insM m) c 18 : sProp (MT nD τ sig Unit (Elt F) ℕ UU ℕ))
      = iprop((rsTile c 4 0 2 (Vals.R (insM m) 1 c 0 0 2) ∗ rsTile c 4 1 2 (Vals.R (insM m) 1 c 0 1 2) ∗ rsTile c 4 2 2 (Vals.R (insM m) 1 c 0 2 2))
          ∗ rsBack (insM m) c 17) := rsBack_succ (insM m) c 17
  rw [St_open_97, St_open_98, hc, hd, hb, show (σ 97).outs = (σ 98).outs from rfl]
  simp only [hemp, hemp']
  refine BIBase.Entails.trans (Entails.of_eq ?_) (BIBase.Entails.trans
    (local_98 (insM m) K c
      (iprop(toksFrom c 66
        ∗ credFrom c 57
        ∗ cred (tallyAt (sendCell c 21) () N)
        ∗ cred (tallyAt (sendCell c 21) () N)
        ∗ cred (tallyAt (sendCell c 21) () N)
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 35
        ∗ curCell (sendCell c 14) (fun p => (RdI (insM m)).payload (sendCell c 14) 0 p) 3
        ∗ todoFrom c 37
        ∗ foreignFrom c 63
        ∗ rsBack (insM m) c 17
        ∗ Fr)) (σ 98).outs)
    (wp_mono _ _ _ fun tup => Entails.of_eq ?_))
  · ac_rfl
  · ac_rfl

/-- info: 'Cert.Kernel.Body.part_98' depends on axioms: [propext, Classical.choice, Quot.sound] -/
#guard_msgs in #print axioms part_98

end Cert.Kernel.Body

end
-- ==== Proof.Bits.Parts.Part99.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L99
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 99 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 99 of the body, run from the place before it, ends at the place after it; whatever else is held is kept. -/
theorem part_99 (m : (ℓ : Loc nD τ sig) → Buf (Elt F) ℓ) (K : Dev nD × Cell → ℕ) (c : Dev nD) (Fr : sProp 𝕄) :
    iprop(St (insM m) K (σ 98) c ∗ outHeld (insM m) c (σ 98).outs ∗ Fr)
      ⊢ wp frame (wpE (defs₀ (F := F)) 𝒱₀ (c : Thread nD τ) none) Set.univ
          (k0_part99 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2216 c) (Vals.lv2515 (insM m) c))
          (fun _ => iprop(St (insM m) K (σ 99) c ∗ outHeld (insM m) c (σ 99).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 57 : sProp (MT nD τ sig Unit (Elt F) ℕ UU ℕ)) = iprop(credFrom c 58 ∗ cred (tallyAt (recvCell c 21) () N)) := by
    rw [credFrom_succ c 57 (by omega), show ownCell c 57 = recvCell c 21 from ownCell_fire c 18 0, show dueAmt 57 = N from dueAmt_fire 18 0]
  have ht : (todoFrom c 37 : sProp (MT nD τ sig Unit (Elt F) ℕ UU ℕ))
      = iprop(curCell (sendCell c 21) (fun p => (RdI (insM m)).payload (sendCell c 21) 0 p) 0
          ∗ curCell (recvCell c 21) (fun p => (RdI (insM m)).payload (recvCell c 21) 0 p) 0 ∗ todoFrom c 39) := todo_group c 18
  rw [St_open_98, St_open_99, hc, ht, show (σ 98).outs = 0 from rfl, show (σ 99).outs = 1 from rfl]
  simp only [hemp, hemp']
  refine BIBase.Entails.trans (Entails.of_eq ?_) (BIBase.Entails.trans
    (local_99 (insM m) K c
      (iprop(toksFrom c 66
        ∗ credFrom c 58
        ∗ cred (tallyAt (sendCell c 21) () N)
        ∗ cred (tallyAt (sendCell c 21) () N)
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 37
        ∗ todoFrom c 39
        ∗ foreignFrom c 63
        ∗ rsBack (insM m) c 18
        ∗ accTile c 0 0 (Vals.A (insM m) 1 c 0 0 2)
        ∗ accTile c 0 1 (Vals.A (insM m) 1 c 0 1 2)
        ∗ accTile c 0 2 (Vals.A (insM m) 1 c 0 2 2)
        ∗ Fr)))
    (wp_mono _ _ _ fun tup => Entails.of_eq ?_))
  · ac_rfl
  · ac_rfl

/-- info: 'Cert.Kernel.Body.part_99' depends on axioms: [propext, Classical.choice, Quot.sound] -/
#guard_msgs in #print axioms part_99

end Cert.Kernel.Body

end
-- ==== Proof.Bits.Parts.L101.lean ====
/-
  Part 101 of the body ends wait group 18 (round 1, group 3, first exchange) with the third wait on its receive cell, which
  hands over the three receive tiles holding the partners' tiles of level 0; the three accumulator tiles came back with the send
  cell's third wait. It overwrites the accumulator tiles of parts 0 and 1 with their sums with the received tiles (level 0 of
  round 1 becomes level 1), reads part 2's accumulator tile and receive tile and returns the first as a 256 × 256 matrix and
  the second as read.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_101 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 66) W)
        ∗ cred (tallyAt (recvCell c 21) () N)
        ∗ (RdI I).payload (sendCell c 21) 0 0 ∗ (RdI I).payload (sendCell c 21) 0 1 ∗ (RdI I).payload (sendCell c 21) 0 2
        ∗ curCell (recvCell c 21) (fun p => (RdI I).payload (recvCell c 21) 0 p) 2 ∗ P) : sProp (MT nD τ sig Unit (Elt F) ℕ UU ℕ))
      ⊢ wp frame (wpE (defs₀ (F := F)) 𝒱₀ (c : Thread nD τ) none) Set.univ
        (k0_part101 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = ⟨Vals.lv2575 I c, Vals.lv2576 I c⟩⌝ ∗ records (RdI I) K ∗ levAts Proto.L Proto.lv ∗ (∃ W, owes (c : Thread nD τ) (owedFrom c 66) W)
          ∗ curCell (recvCell c 21) (fun p => (RdI I).payload (recvCell c 21) 0 p) 3
          ∗ accTile c 3 0 (Vals.A I 1 c 3 0 1) ∗ accTile c 3 1 (Vals.A I 1 c 3 1 1) ∗ accTile c 3 2 (Vals.A I 1 c 3 2 0)
          ∗ rsTile c 7 0 0 (Vals.R I 1 c 3 0 0) ∗ rsTile c 7 1 0 (Vals.R I 1 c 3 1 0) ∗ rsTile c 7 2 0 (Vals.R I 1 c 3 2 0) ∗ P)) := by
  unfold accTile rsTile Proto.accPts Proto.rsPts
  iintro ⟨#HR, #Hlev, ⟨%W, HO⟩, Cr, Ha0, Ha1, Ha2, Hr, HP⟩
  have es : ∀ p : Fin 3, ((RdI I).payload (sendCell c 21) 0 p : sProp (MT nD τ sig Unit (Elt F) ℕ UU ℕ))
      ⊢ ((Proto.accSl 3 p).view.loc (c : Thread nD τ) ↦[(Proto.accSl 3 p).view.set]{fullShare} accEmb 3 p (Vals.A I 1 c 3 p 0)) :=
    fun p => Entails.of_eq (payload_send_tile I c 21 p)
  ihave Ha0 := (es 0) $$ Ha0
  ihave Ha1 := (es 1) $$ Ha1
  ihave Ha2 := (es 2) $$ Ha2
  ihave #HIr := (inv_at (RdI I) K (c, Cell.recv 21)) $$ HR
  sl_unfold [k0_part101]
  sl_exec
  -- the third wait on receive cell 21: the rest of its round, the three receive tiles at what landed in them
  iapply (wp_wait3 (RdI I) c (recvS 21) (duties_recv _ _ c 21) (expect_recv _ _ c 21) (hw := fun _ => rfl)) $$ [HO Cr Hr]
  · isplitr; · iexact HIr
    isplitl [Cr]; · iexact Cr
    isplitl [HO]; · iexact HO
    isplitr
    · iapply (mayWait_recvAt (F := F) c 21); iexact Hlev
    iexact Hr
  iintro ⟨HO, Hr, Hb0, Hb1, Hb2⟩
  have er : ∀ p : Fin 3, ((RdI I).payload ((c : Thread nD τ), SemLoc.dma (recvS 21)) 0 p : sProp (MT nD τ sig Unit (Elt F) ℕ UU ℕ))
      ⊢ ((Proto.rsSl 7 p 0).view.loc (c : Thread nD τ) ↦[(Proto.rsSl 7 p 0).view.set]{fullShare} rsEmb 7 p 0 (Vals.R I 1 c 3 p 0)) :=
    fun p => Entails.of_eq (payload_recv_tile I c 21 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![3, 2, 0, 0] S1x1x256x256.size inb_S4x3x256x256_S1x1x256x256_3_2_0_0).toLoadRect (accEmb 3 2 (Vals.A I 1 c 3 2 0)) = Vals.A I 1 c 3 2 0 := accV_read_accEmb 3 2 _
    have e2 : View.readAt (Elt F) (Memref.whole cc0_scratch1).view (Rect.unit (s := S8x3x3x256x256) ![7, 2, 0, 0, 0] S1x1x1x256x256.size inb_S8x3x3x256x256_S1x1x1x256x256_7_2_0_0_0).toLoadRect (rsEmb 7 2 0 (Vals.R I 1 c 3 2 0)) = Vals.R I 1 c 3 2 0 := rsV_read_rsEmb 7 2 0 _
    rw [e1, e2]
    rfl
  isplitr; · iexact HR
  isplitr; · iexact Hlev
  isplitl [HO]; · iexists _; iexact HO
  isplitl [Hr]; · iexact Hr
  isplitl [Ha0]
  · iapply (accTile_at_value c 3 0)
    swap
    · iexact Ha0
    · refine (View.read_write_univ _ _).trans ?_
      refine (Vals.step_1_3_0_0 _ _).symm.trans ?_
      exact congrArg₂ (Vals.step 1 3 0 0) (accV_read_accEmb 3 0 _) (rsV_read_rsEmb 7 0 0 _)
  isplitl [Ha1]
  · iapply (accTile_at_value c 3 1)
    swap
    · iexact Ha1
    · refine (View.read_write_univ _ _).trans ?_
      refine (Vals.step_1_3_1_0 _ _).symm.trans ?_
      exact congrArg₂ (Vals.step 1 3 1 0) (accV_read_accEmb 3 1 _) (rsV_read_rsEmb 7 1 0 _)
  isplitl [Ha2]; · iexact Ha2
  isplitl [Hb0]; · iexact Hb0
  isplitl [Hb1]; · iexact Hb1
  isplitl [Hb2]; · iexact Hb2
  iexact HP

/-- info: 'Cert.Kernel.Body.local_101' depends on axioms: [propext, Classical.choice, Quot.sound] -/
#guard_msgs in #print axioms local_101

end Cert.Kernel.Body
-- ==== Proof.Bits.Parts.Part101.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L101
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 101 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 101 of the body, run from the place before it, ends at the place after it and returns its values; whatever else is held is kept. -/
theorem part_101 (m : (ℓ : Loc nD τ sig) → Buf (Elt F) ℓ) (K : Dev nD × Cell → ℕ) (c : Dev nD) (Fr : sProp 𝕄) :
    iprop(St (insM m) K (σ 100) c ∗ outHeld (insM m) c (σ 100).outs ∗ Fr)
      ⊢ wp frame (wpE (defs₀ (F := F)) 𝒱₀ (c : Thread nD τ) none) Set.univ
          (k0_part101 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = ⟨Vals.lv2575 (insM m) c, Vals.lv2576 (insM m) c⟩⌝ ∗ St (insM m) K (σ 101) c ∗ outHeld (insM m) c (σ 101).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 59 : sProp (MT nD τ sig Unit (Elt F) ℕ UU ℕ)) = iprop(credFrom c 60 ∗ cred (tallyAt (recvCell c 21) () N)) := by
    rw [credFrom_succ c 59 (by omega), show ownCell c 59 = recvCell c 21 from ownCell_fire c 18 2, show dueAmt 59 = N from dueAmt_fire 18 2]
  have hd : (doneTo c 39 : sProp (MT nD τ sig Unit (Elt F) ℕ UU ℕ))
      = iprop(doneTo c 37 ∗ curCell (sendCell c 21) (fun p => (RdI (insM m)).payload (sendCell c 21) 0 p) 3
          ∗ curCell (recvCell c 21) (fun p => (RdI (insM m)).payload (recvCell c 21) 0 p) 3) := (done_group c 18).symm
  have hb : (rsBack (insM m) c 19 : sProp (MT nD τ sig Unit (Elt F) ℕ UU ℕ))
      = iprop((rsTile c 7 0 0 (Vals.R (insM m) 1 c 3 0 0) ∗ rsTile c 7 1 0 (Vals.R (insM m) 1 c 3 1 0) ∗ rsTile c 7 2 0 (Vals.R (insM m) 1 c 3 2 0))
          ∗ rsBack (insM m) c 18) := rsBack_succ (insM m) c 18
  rw [St_open_100, St_open_101, hc, hd, hb, show (σ 100).outs = (σ 101).outs from rfl]
  simp only [hemp, hemp']
  refine BIBase.Entails.trans (Entails.of_eq ?_) (BIBase.Entails.trans
    (local_101 (insM m) K c
      (iprop(toksFrom c 66
        ∗ credFrom c 60
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 37
        ∗ curCell (sendCell c 21) (fun p => (RdI (insM m)).payload (sendCell c 21) 0 p) 3
        ∗ todoFrom c 39
        ∗ foreignFrom c 63
        ∗ rsBack (insM m) c 18
        ∗ accTile c 0 0 (Vals.A (insM m) 1 c 0 0 2)
        ∗ accTile c 0 1 (Vals.A (insM m) 1 c 0 1 2)
        ∗ accTile c 0 2 (Vals.A (insM m) 1 c 0 2 2)
        ∗ outHeld (insM m) c (σ 101).outs
        ∗ Fr)))
    (wp_mono _ _ _ fun tup => Entails.of_eq ?_))
  · ac_rfl
  · ac_rfl

/-- info: 'Cert.Kernel.Body.part_101' depends on axioms: [propext, Classical.choice, Quot.sound] -/
#guard_msgs in #print axioms part_101

end Cert.Kernel.Body

end
-- ==== Proof.Bits.Parts.L102.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 102 of the body: the store into accumulator tile (3, 2), then the start of the copy of part 0 at step 22 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_102 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 66) W)
        ∗ dutyTok ER (sendCell c 22) 0 0 ∗ dutyTok ER (recvCell (mate c 0 22) 22) 0 0
        ∗ rsTileAny (mate c 0 22) (rgOf 22) 0 (sOf 22)
        ∗ accTile c 3 2 (Vals.A I 1 c 3 2 0)
        ∗ accTile c 3 0 (Vals.A I 1 c 3 0 1)
        ∗ P) : sProp (MT nD τ sig Unit (Elt F) ℕ UU ℕ))
      ⊢ wp frame (wpE (defs₀ (F := F)) 𝒱₀ (c : Thread nD τ) none) Set.univ
      (k0_part102 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2575 I c) (Vals.lv2576 I c))
      (fun tup => iprop(⌜tup = ⟨Vals.lw2582 c, Vals.lw2593 c⟩⌝
        ∗ records (RdI I) K
        ∗ (∃ W, owes (c : Thread nD τ) (owedFrom c 67) W)
        ∗ cred (tallyAt (sendCell c 22) () N)
        ∗ accTile c 3 2 (Vals.A I 1 c 3 2 1)
        ∗ P)) := by
  unfold accTile rsTileAny Proto.accPts Proto.rsPts
  iintro ⟨#Hrec, ⟨%W, HO⟩, Hts0, Htr0, ⟨%fd0, Hfd0⟩, Ha32, Ha30, HP⟩
  ihave #HIs0 := (inv_at (RdI I) K (c, Cell.send 22)) $$ Hrec
  ihave #HIr0 := (inv_at (RdI I) K (mate c 0 22, Cell.recv 22)) $$ Hrec
  ihave #Hrs0 := (reached_at (RdI I) K (c, Cell.send 22)) $$ Hrec
  ihave #Hrr0 := (reached_at (RdI I) K (mate c 0 22, Cell.recv 22)) $$ Hrec
  rw [k0_part102_eq_skeleton]
  unfold k0_part102_skel
  sl_exec
  -- the copy of part 0 at step 22 (started as number 22): its units on the partner's receive cell are owed last
  have hc0 : dueCell c 66 = recvCell (mate c 0 22) 22 := dueCell_fire c 21 0
  have ha0 : dueAmt 66 = N := dueAmt_fire 21 0
  have hO0 : owedFrom c 66 = owedFrom c 67 + tallyAt (recvCell (mate c 0 22) 22) () N :=
    (owedFrom_succ c 66 (by decide)).trans (by rw [hc0, ha0])
  iapply (wp_fire_at (accCI I) (rs0I I) c 22 0 (g := 3) (rg := 7) (s := 1) rfl rfl rfl (dev67_eq c) rfl rfl
    (sendS_eq 22) (recvS_eq 22) (accEmb 3 0 (Vals.A I 1 c 3 0 1)) rfl fd0 (owedFrom c 67) hO0) $$ [HO Hts0 Htr0 Hfd0 Ha30]
  · unfold Proto.accPts Proto.rsPts
    isplitr; · iexact HIs0
    isplitr; · iexact HIr0
    isplitl [Ha30]; · iexact Ha30
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  sl_step
  -- what the loads read, and what each written tile's view reads back
  have Ha32_e : View.read (Elt F) (accV 3 2) (local_102.sl.Ha32_w1 I c) = Vals.A I 1 c 3 2 1 := by
    unfold local_102.sl.Ha32_w1; exact View.read_write_univ _ _
  have Ha32_t : ((Proto.accSl 3 2).view.loc (c : Thread nD τ) ↦[(Proto.accSl 3 2).view.set]{fullShare} local_102.sl.Ha32_w1 I c : sProp (MT nD τ sig Unit (Elt F) ℕ UU ℕ)) = ((Proto.accSl 3 2).view.loc (c : Thread nD τ) ↦[(Proto.accSl 3 2).view.set]{fullShare} accEmb 3 2 (Vals.A I 1 c 3 2 1) : sProp (MT nD τ sig Unit (Elt F) ℕ UU ℕ)) := accTile_of_read c fullShare 3 2 Ha32_e
  rw [← Ha32_t]
  isplitr [HO Hcs0 Ha32 HP]
  · ipureintro; rfl
  isplitr [HO Hcs0 Ha32 HP]; · iexact Hrec
  isplitl [HO]; · iexists W; iexact HO
  iframe

/-- info: 'Cert.Kernel.Body.local_102' depends on axioms: [propext, Classical.choice, Quot.sound] -/
#guard_msgs in #print axioms local_102

end Cert.Kernel.Body
-- ==== Proof.Bits.Parts.Part102.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L102
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 102 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 102 of the body, run from the place before it, ends at the place after it and returns its values; whatever else is held is kept. -/
theorem part_102 (m : (ℓ : Loc nD τ sig) → Buf (Elt F) ℓ) (K : Dev nD × Cell → ℕ) (c : Dev nD) (Fr : sProp 𝕄) :
    iprop(St (insM m) K (σ 101) c ∗ outHeld (insM m) c (σ 101).outs ∗ Fr)
      ⊢ wp frame (wpE (defs₀ (F := F)) 𝒱₀ (c : Thread nD τ) none) Set.univ
          (k0_part102 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2575 (insM m) c) (Vals.lv2576 (insM m) c))
          (fun tup => iprop(⌜tup = ⟨Vals.lw2582 c, Vals.lw2593 c⟩⌝ ∗ St (insM m) K (σ 102) c ∗ outHeld (insM m) c (σ 102).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 66 : sProp (MT nD τ sig Unit (Elt F) ℕ UU ℕ))
      = iprop(dutyTok ER (sendCell c 22) 0 0 ∗ dutyTok ER (recvCell (mate c 0 22) 22) 0 0 ∗ toksFrom c 67) := toksFrom_copy c 21 0
  have hf0 : (foreignFrom c 63 : sProp (MT nD τ sig Unit (Elt F) ℕ UU ℕ))
      = iprop(rsTileAny (mate c 0 22) (rgOf 22) 0 (sOf 22) ∗ foreignFrom c 64) := foreignFrom_succ c 21 0
  rw [St_open_101, St_open_102, ht0, hf0, show (σ 101).outs = (σ 102).outs from rfl]
  simp only [hemp, hemp']
  refine BIBase.Entails.trans (Entails.of_eq ?_) (BIBase.Entails.trans
    (local_102 (insM m) K c
      (iprop(levAts Proto.L Proto.lv
        ∗ toksFrom c 67
        ∗ credFrom c 60
        ∗ cred (tallyAt (sendCell c 19) () N)
        ∗ cred (tallyAt (sendCell c 19) () N)
        ∗ cred (tallyAt (sendCell c 19) () N)
        ∗ cred (tallyAt (sendCell c 17) () N)
        ∗ cred (tallyAt (sendCell c 17) () N)
        ∗ cred (tallyAt (sendCell c 17) () N)
        ∗ doneTo c 39
        ∗ todoFrom c 39
        ∗ foreignFrom c 64
        ∗ rsBack (insM m) c 19
        ∗ accTile c 0 0 (Vals.A (insM m) 1 c 0 0 2)
        ∗ accTile c 0 1 (Vals.A (insM m) 1 c 0 1 2)
        ∗ accTile c 0 2 (Vals.A (insM m) 1 c 0 2 2)
        ∗ accTile c 3 1 (Vals.A (insM m) 1 c 3 1 1)
        ∗ outHeld (insM m) c (σ 102).outs
        ∗ Fr)))
    (wp_mono _ _ _ fun tup => Entails.of_eq ?_))
  · ac_rfl
  · ac_rfl

/-- info: 'Cert.Kernel.Body.part_102' depends on axioms: [propext, Classical.choice, Quot.sound] -/
#guard_msgs in #print axioms part_102

end Cert.Kernel.Body

end
-- ==== Proof.Bits.Parts.Part103.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L103
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 103 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 103 of the body, run from the place before it, ends at the place after it and returns its values; whatever else is held is kept. -/
theorem part_103 (m : (ℓ : Loc nD τ sig) → Buf (Elt F) ℓ) (K : Dev nD × Cell → ℕ) (c : Dev nD) (Fr : sProp 𝕄) :
    iprop(St (insM m) K (σ 102) c ∗ outHeld (insM m) c (σ 102).outs ∗ Fr)
      ⊢ wp frame (wpE (defs₀ (F := F)) 𝒱₀ (c : Thread nD τ) none) Set.univ
          (k0_part103 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lw2315 c))
          (fun tup => iprop(⌜tup = Vals.lw2604 c⌝ ∗ St (insM m) K (σ 103) c ∗ outHeld (insM m) c (σ 103).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 67 : sProp (MT nD τ sig Unit (Elt F) ℕ UU ℕ)) = iprop(dutyTok ER (sendCell c 22) 0 1 ∗ dutyTok ER (recvCell (mate c 1 22) 22) 0 1 ∗ toksFrom c 68) := toksFrom_copy c 21 1
  have hF0 : (foreignFrom c 64 : sProp (MT nD τ sig Unit (Elt F) ℕ UU ℕ)) = iprop(rsTileAny (mate c 1 22) 7 1 1 ∗ foreignFrom c 65) := foreignFrom_succ c 21 1
  have hT1 : (toksFrom c 68 : sProp (MT nD τ sig Unit (Elt F) ℕ UU ℕ)) = iprop(dutyTok ER (sendCell c 22) 0 2 ∗ dutyTok ER (recvCell (mate c 2 22) 22) 0 2 ∗ toksFrom c 69) := toksFrom_copy c 21 2
  have hF1 : (foreignFrom c 65 : sProp (MT nD τ sig Unit (Elt F) ℕ UU ℕ)) = iprop(rsTileAny (mate c 2 22) 7 2 1 ∗ foreignFrom c 66) := foreignFrom_succ c 21 2
  have hG : (todoFrom c 39 : sProp (MT nD τ sig Unit (Elt F) ℕ UU ℕ)) = iprop(curCell (sendCell c 19) (fun p => (RdI (insM m)).payload (sendCell c 19) 0 p) 0 ∗ curCell (recvCell c 19) (fun p => (RdI (insM m)).payload (recvCell c 19) 0 p) 0 ∗ todoFrom c 41) := todo_group c 19
  rw [show (σ 103).outs = (σ 102).outs from rfl, St_open_102, St_open_103, hT0, hF0, hT1, hF1, hG]
  simp only [hemp, hemp']
  refine BIBase.Entails.trans (Entails.of_eq ?_) (BIBase.Entails.trans (local_103 (insM m) K c iprop(toksFrom c 69 ∗ credFrom c 60 ∗ cred (tallyAt (sendCell c 19) () N) ∗ cred (tallyAt (sendCell c 19) () N) ∗ cred (tallyAt (sendCell c 17) () N) ∗ cred (tallyAt (sendCell c 17) () N) ∗ cred (tallyAt (sendCell c 17) () N) ∗ cred (tallyAt (sendCell c 22) () N) ∗ doneTo c 39 ∗ curCell (recvCell c 19) (fun p => (RdI (insM m)).payload (recvCell c 19) 0 p) 0 ∗ todoFrom c 41 ∗ foreignFrom c 66 ∗ rsBack (insM m) c 19 ∗ accTile c 0 0 (Vals.A (insM m) 1 c 0 0 2) ∗ accTile c 0 1 (Vals.A (insM m) 1 c 0 1 2) ∗ accTile c 0 2 (Vals.A (insM m) 1 c 0 2 2) ∗ outHeld (insM m) c (σ 102).outs ∗ Fr)) (wp_mono _ _ _ fun tup => Entails.of_eq ?_))
  · ac_rfl
  · ac_rfl

/-- info: 'Cert.Kernel.Body.part_103' depends on axioms: [propext, Classical.choice, Quot.sound] -/
#guard_msgs in #print axioms part_103

end Cert.Kernel.Body

end
-- ==== Proof.Bits.Parts.L105.lean ====
/-
  Part 105 of the body ends wait group 19 (round 1, group 2, second exchange): the third wait on its send cell hands back the
  three accumulator tiles of group 2 at level 1 of round 1, the third wait on its receive cell hands over the three receive
  tiles holding the partners' tiles of that level. It then overwrites part 0's accumulator tile with its sum with the
  received tile (level 1 becomes level 2), reads part 1's accumulator tile and returns it as a 256 × 256 matrix.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

/-- A tile held at contents whose reading through the tile's view is `v` is held at the canonical contents for `v`. -/
private theorem accTile_at_value (c : Dev nD) (g : Fin 4) (p : Fin 3) {f : AccBuf F} {v : Vec F S1x1x256x256 .bf16}
    (h : (accV g p).read (Elt F) f = v) :
    ((Proto.accSl g p).view.loc (c : Thread nD τ) ↦[(Proto.accSl g p).view.set]{fullShare} f : sProp (MT nD τ sig Unit (Elt F) ℕ UU ℕ))
      ⊢ ((Proto.accSl g p).view.loc (c : Thread nD τ) ↦[(Proto.accSl g p).view.set]{fullShare} accEmb g p v) := by
  rw [accTile_of_read (F := F) (Ix := Unit) (Name := ℕ) (U := UU) (Lvl := ℕ) c fullShare g p h]

theorem local_105 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 69) W)
        ∗ cred (tallyAt (sendCell c 19) () N) ∗ cred (tallyAt (recvCell c 19) () N)
        ∗ curCell (sendCell c 19) (fun p => (RdI I).payload (sendCell c 19) 0 p) 2
        ∗ curCell (recvCell c 19) (fun p => (RdI I).payload (recvCell c 19) 0 p) 2 ∗ P) : sProp (MT nD τ sig Unit (Elt F) ℕ UU ℕ))
      ⊢ wp frame (wpE (defs₀ (F := F)) 𝒱₀ (c : Thread nD τ) none) Set.univ
        (k0_part105 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lw2337 c))
        (fun tup => iprop(⌜tup = Vals.lv2666 I c⌝ ∗ records (RdI I) K ∗ levAts Proto.L Proto.lv ∗ (∃ W, owes (c : Thread nD τ) (owedFrom c 69) W)
          ∗ curCell (sendCell c 19) (fun p => (RdI I).payload (sendCell c 19) 0 p) 3
          ∗ curCell (recvCell c 19) (fun p => (RdI I).payload (recvCell c 19) 0 p) 3
          ∗ accTile c 2 0 (Vals.A I 1 c 2 0 2) ∗ accTile c 2 1 (Vals.A I 1 c 2 1 1) ∗ accTile c 2 2 (Vals.A I 1 c 2 2 1)
          ∗ rsTile c 6 0 1 (Vals.R I 1 c 2 0 1) ∗ rsTile c 6 1 1 (Vals.R I 1 c 2 1 1) ∗ rsTile c 6 2 1 (Vals.R I 1 c 2 2 1) ∗ P)) := by
  unfold accTile rsTile Proto.accPts Proto.rsPts
  iintro ⟨#HR, #Hlev, ⟨%W, HO⟩, Cs, Cr, Hs, Hr, HP⟩
  ihave #HIs := (inv_at (RdI I) K (c, Cell.send 19)) $$ HR
  ihave #HIr := (inv_at (RdI I) K (c, Cell.recv 19)) $$ HR
  sl_unfold [k0_part105]
  sl_exec
  -- the third wait on send cell 19: the rest of its round, the three source tiles back
  iapply (wp_wait3 (RdI I) c (sendS 19) (duties_send _ _ c 19) (expect_send _ _ c 19) (hw := fun _ => rfl)) $$ [HO Cs Hs]
  · isplitr; · iexact HIs
    isplitl [Cs]; · iexact Cs
    isplitl [HO]; · iexact HO
    isplitr
    · iapply (mayWait_sendAt (F := F) c 19); iexact Hlev
    iexact Hs
  iintro ⟨HO, Hs, Ha0, Ha1, Ha2⟩
  have es : ∀ p : Fin 3, ((RdI I).payload ((c : Thread nD τ), SemLoc.dma (sendS 19)) 0 p : sProp (MT nD τ sig Unit (Elt F) ℕ UU ℕ))
      ⊢ ((Proto.accSl 2 p).view.loc (c : Thread nD τ) ↦[(Proto.accSl 2 p).view.set]{fullShare} accEmb 2 p (Vals.A I 1 c 2 p 1)) :=
    fun p => Entails.of_eq (payload_send_tile I c 19 p)
  ihave Ha0 := (es 0) $$ Ha0
  ihave Ha1 := (es 1) $$ Ha1
  ihave Ha2 := (es 2) $$ Ha2
  sl_exec
  -- the third wait on receive cell 19: the rest of its round, the three receive tiles at what landed in them
  iapply (wp_wait3 (RdI I) c (recvS 19) (duties_recv _ _ c 19) (expect_recv _ _ c 19) (hw := fun _ => rfl)) $$ [HO Cr Hr]
  · isplitr; · iexact HIr
    isplitl [Cr]; · iexact Cr
    isplitl [HO]; · iexact HO
    isplitr
    · iapply (mayWait_recvAt (F := F) c 19); iexact Hlev
    iexact Hr
  iintro ⟨HO, Hr, Hb0, Hb1, Hb2⟩
  have er : ∀ p : Fin 3, ((RdI I).payload ((c : Thread nD τ), SemLoc.dma (recvS 19)) 0 p : sProp (MT nD τ sig Unit (Elt F) ℕ UU ℕ))
      ⊢ ((Proto.rsSl 6 p 1).view.loc (c : Thread nD τ) ↦[(Proto.rsSl 6 p 1).view.set]{fullShare} rsEmb 6 p 1 (Vals.R I 1 c 2 p 1)) :=
    fun p => Entails.of_eq (payload_recv_tile I c 19 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![2, 1, 0, 0] S1x1x256x256.size inb_S4x3x256x256_S1x1x256x256_2_1_0_0).toLoadRect (accEmb 2 1 (Vals.A I 1 c 2 1 1)) = Vals.A I 1 c 2 1 1 := accV_read_accEmb 2 1 _
    rw [e1]
    rfl
  isplitr; · iexact HR
  isplitr; · iexact Hlev
  isplitl [HO]; · iexists _; iexact HO
  isplitl [Hs]; · iexact Hs
  isplitl [Hr]; · iexact Hr
  isplitl [Ha0]
  · iapply (accTile_at_value c 2 0)
    swap
    · iexact Ha0
    · refine (View.read_write_univ _ _).trans ?_
      refine (Vals.step_1_2_0_1 _ _).symm.trans ?_
      exact congrArg₂ (Vals.step 1 2 0 1) (accV_read_accEmb 2 0 _) (rsV_read_rsEmb 6 0 1 _)
  isplitl [Ha1]; · iexact Ha1
  isplitl [Ha2]; · iexact Ha2
  isplitl [Hb0]; · iexact Hb0
  isplitl [Hb1]; · iexact Hb1
  isplitl [Hb2]; · iexact Hb2
  iexact HP

/-- info: 'Cert.Kernel.Body.local_105' depends on axioms: [propext, Classical.choice, Quot.sound] -/
#guard_msgs in #print axioms local_105

end Cert.Kernel.Body
-- ==== Proof.Bits.Parts.Part105.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L105
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 105 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 105 of the body, run from the place before it, ends at the place after it and returns its values; whatever else is held is kept. -/
theorem part_105 (m : (ℓ : Loc nD τ sig) → Buf (Elt F) ℓ) (K : Dev nD × Cell → ℕ) (c : Dev nD) (Fr : sProp 𝕄) :
    iprop(St (insM m) K (σ 104) c ∗ outHeld (insM m) c (σ 104).outs ∗ Fr)
      ⊢ wp frame (wpE (defs₀ (F := F)) 𝒱₀ (c : Thread nD τ) none) Set.univ
          (k0_part105 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2337 c))
          (fun tup => iprop(⌜tup = Vals.lv2666 (insM m) c⌝ ∗ St (insM m) K (σ 105) c ∗ outHeld (insM m) c (σ 105).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 62 : sProp (MT nD τ sig Unit (Elt F) ℕ UU ℕ)) = iprop(credFrom c 63 ∗ cred (tallyAt (recvCell c 19) () N)) := by
    rw [credFrom_succ c 62 (by omega), show ownCell c 62 = recvCell c 19 from ownCell_fire c 19 2, show dueAmt 62 = N from dueAmt_fire 19 2]
  have hd : (doneTo c 41 : sProp (MT nD τ sig Unit (Elt F) ℕ UU ℕ))
      = iprop(doneTo c 39 ∗ curCell (sendCell c 19) (fun p => (RdI (insM m)).payload (sendCell c 19) 0 p) 3
          ∗ curCell (recvCell c 19) (fun p => (RdI (insM m)).payload (recvCell c 19) 0 p) 3) := (done_group c 19).symm
  have hb : (rsBack (insM m) c 20 : sProp (MT nD τ sig Unit (Elt F) ℕ UU ℕ))
      = iprop((rsTile c 6 0 1 (Vals.R (insM m) 1 c 2 0 1) ∗ rsTile c 6 1 1 (Vals.R (insM m) 1 c 2 1 1) ∗ rsTile c 6 2 1 (Vals.R (insM m) 1 c 2 2 1))
          ∗ rsBack (insM m) c 19) := rsBack_succ (insM m) c 19
  rw [St_open_104, St_open_105, hc, hd, hb, show (σ 104).outs = (σ 105).outs from rfl]
  simp only [hemp, hemp']
  refine BIBase.Entails.trans (Entails.of_eq ?_) (BIBase.Entails.trans
    (local_105 (insM m) K c
      (iprop(toksFrom c 69
        ∗ credFrom c 63
        ∗ cred (tallyAt (sendCell c 17) () N)
        ∗ cred (tallyAt (sendCell c 17) () N)
        ∗ cred (tallyAt (sendCell c 17) () N)
        ∗ cred (tallyAt (sendCell c 22) () N)
        ∗ cred (tallyAt (sendCell c 22) () N)
        ∗ cred (tallyAt (sendCell c 22) () N)
        ∗ doneTo c 39
        ∗ todoFrom c 41
        ∗ foreignFrom c 66
        ∗ rsBack (insM m) c 19
        ∗ accTile c 0 0 (Vals.A (insM m) 1 c 0 0 2)
        ∗ accTile c 0 1 (Vals.A (insM m) 1 c 0 1 2)
        ∗ accTile c 0 2 (Vals.A (insM m) 1 c 0 2 2)
        ∗ outHeld (insM m) c (σ 105).outs
        ∗ Fr)))
    (wp_mono _ _ _ fun tup => Entails.of_eq ?_))
  · ac_rfl
  · ac_rfl

/-- info: 'Cert.Kernel.Body.part_105' depends on axioms: [propext, Classical.choice, Quot.sound] -/
#guard_msgs in #print axioms part_105

end Cert.Kernel.Body

end
-- ==== Proof.Bits.Parts.Part106.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L106
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 106 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 106 of the body, run from the place before it, ends at the place after it and returns its values; whatever else is held is kept. -/
theorem part_106 (m : (ℓ : Loc nD τ sig) → Buf (Elt F) ℓ) (K : Dev nD × Cell → ℕ) (c : Dev nD) (Fr : sProp 𝕄) :
    iprop(St (insM m) K (σ 105) c ∗ outHeld (insM m) c (σ 105).outs ∗ Fr)
      ⊢ wp frame (wpE (defs₀ (F := F)) 𝒱₀ (c : Thread nD τ) none) Set.univ
          (k0_part106 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2 c) (Vals.lv2666 (insM m) c))
          (fun tup => iprop(⌜tup = Vals.lw2681 c⌝ ∗ St (insM m) K (σ 106) c ∗ outHeld (insM m) c (σ 106).outs ∗ Fr)) := by
  have eo : (σ 106).outs = (σ 105).outs := rfl
  rw [eo]
  rw [St_eq, St_eq, StRest_congr (insM m) K c (s := σ 105) (s' := σ 106) rfl rfl rfl rfl, accAll_σ_105, accAll_σ_106, StRest_rs (insM m) K c (σ 106) rfl 19 (by decide), rs3_19]
  refine BIBase.Entails.trans ?_ ((local_106 (insM m) c iprop(rsTile c 6 0 1 (Vals.R (insM m) 1 c 2 0 1) ∗ StRestNoRs (insM m) K (σ 106) c 19 ∗ accTile c 0 0 (Vals.A (insM m) 1 c 0 0 2) ∗ accTile c 0 1 (Vals.A (insM m) 1 c 0 1 2) ∗ accTile c 0 2 (Vals.A (insM m) 1 c 0 2 2) ∗ emp ∗ emp ∗ emp ∗ accTile c 2 0 (Vals.A (insM m) 1 c 2 0 2) ∗ emp ∗ emp ∗ emp ∗ outHeld (insM m) c (σ 105).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T21]; · iexact T21
    isplitl [T22]; · iexact T22
    isplitl [R1]; · iexact R1
    isplitl [R2]; · iexact R2
    isplitl [R0]; · iexact R0
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T30]; · iexact T30
    isplitl [T31]; · iexact T31
    isplitl [T32]; · iexact T32
    isplitl [HO]; · iexact HO
    iexact HF
  · iintro ⟨%ht, T21, T22, R1, R2, R0, HR, T00, T01, T02, T10, T11, T12, T20, T30, T31, T32, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_106' depends on axioms: [propext, Classical.choice, Quot.sound] -/
#guard_msgs in #print axioms part_106

end Cert.Kernel.Body

end
-- ==== Proof.Bits.Parts.L107.lean ====
/-
  Part 107 of the body starts three copies of step 20 (the 23rd step started; round 1, group 2, position 2): part 0 of accumulator slice (2, 0) goes to receive slice (6, 0, 2) of the device paired along mask 4, part 1 of accumulator slice (2, 1) goes to receive slice (6, 1, 2) of the device paired along mask 1, part 2 of accumulator slice (2, 2) goes to receive slice (6, 2, 2) of the device paired along mask 3.
  The accumulator slices, at level 2 of round 1, and the paired devices' receive slices leave the device's hands; it holds the departure credits of its send cell 20 for them and owes 3 payments fewer. The values it returns are pure functions of its arguments.
-/
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Launch
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Vals
open Cert.Kernel.Proto hiding accM rsM AccBuf RsBuf

variable {F : FTy → Type} [FloatOps F]

/-- Part 107: the copies of parts 0, 1 and 2 of step 20. -/
theorem local_107 (I : Dev nD → Vals.Ins F) (K : Dev nD × Cell → ℕ) (c : Dev nD) (P : sProp (MT nD τ sig Unit (Elt F) ℕ UU ℕ)) :
    iprop(records (RdI I) K
        ∗ (∃ W, owes (c : Thread nD τ) (owedFrom c 69) W)
        ∗ dutyTok ER (sendCell c 20) 0 0 ∗ dutyTok ER (recvCell (mate c 0 20) 20) 0 0
        ∗ dutyTok ER (sendCell c 20) 0 1 ∗ dutyTok ER (recvCell (mate c 1 20) 20) 0 1
        ∗ dutyTok ER (sendCell c 20) 0 2 ∗ dutyTok ER (recvCell (mate c 2 20) 20) 0 2
        ∗ rsTileAny (F := F) (mate c 0 20) 6 0 2
        ∗ rsTileAny (F := F) (mate c 1 20) 6 1 2
        ∗ rsTileAny (F := F) (mate c 2 20) 6 2 2
        ∗ accTile c 2 0 (A I 1 c 2 0 2)
        ∗ accTile c 2 1 (A I 1 c 2 1 2)
        ∗ accTile c 2 2 (A I 1 c 2 2 2)
        ∗ P)
      ⊢ wp frame (wpE (defs₀ (F := F)) 𝒱₀ (c : Thread nD τ) none) Set.univ
          (k0_part107 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c))
          (fun tup => iprop(⌜tup = ⟨Vals.lw2692 c, Vals.lw2703 c⟩⌝
            ∗ (∃ W, owes (c : Thread nD τ) (owedFrom c 72) W)
            ∗ cred (tallyAt (sendCell c 20) () N)
            ∗ cred (tallyAt (sendCell c 20) () N)
            ∗ cred (tallyAt (sendCell c 20) () N)
            ∗ P)) := by
  iintro ⟨#HR, ⟨%W, HO⟩, Ts0, Tr0, Ts1, Tr1, Ts2, Tr2, ⟨%fd0, Hr0⟩, ⟨%fd1, Hr1⟩, ⟨%fd2, Hr2⟩, Ha0, Ha1, Ha2, HP⟩
  ihave #HIs := (inv_at (RdI I) K (c, Cell.send 20)) $$ HR
  ihave #HRs := (reached_at (RdI I) K (c, Cell.send 20)) $$ HR
  ihave #HIr0 := (inv_at (RdI I) K (mate c 0 20, Cell.recv 20)) $$ HR
  ihave #HRr0 := (reached_at (RdI I) K (mate c 0 20, Cell.recv 20)) $$ HR
  ihave #HIr1 := (inv_at (RdI I) K (mate c 1 20, Cell.recv 20)) $$ HR
  ihave #HRr1 := (reached_at (RdI I) K (mate c 1 20, Cell.recv 20)) $$ HR
  ihave #HIr2 := (inv_at (RdI I) K (mate c 2 20, Cell.recv 20)) $$ HR
  ihave #HRr2 := (reached_at (RdI I) K (mate c 2 20, Cell.recv 20)) $$ HR
  sl_exec
  iapply (wp_fire_at (accCI I) (rs0I I) c 20 0 (g := 2) (rg := 6) (s := 2) (by decide) (by decide) (by decide)
      (dv := ⟨k0_dev70 c, k0_dev70_lt c⟩) ((dev70_eq c).trans rfl) rfl rfl (sendS_eq 20).symm (recvS_eq 20).symm
      (accEmb 2 0 (A I 1 c 2 0 2)) rfl fd0 (owedFrom c 70) (owed_copy c 22 0 69 (by decide) 20 (by decide))) $$ [HO Ha0 Hr0 Ts0 Tr0]
  · fire_premises HIs HIr0 Ha0 Hr0 HO Ts0 HRs Tr0 HRr0
  iintro ⟨Hc0, HO⟩
  sl_exec
  iapply (wp_fire_at (accCI I) (rs0I I) c 20 1 (g := 2) (rg := 6) (s := 2) (by decide) (by decide) (by decide)
      (dv := ⟨k0_dev71 c, k0_dev71_lt c⟩) ((dev71_eq c).trans rfl) rfl rfl (sendS_eq 20).symm (recvS_eq 20).symm
      (accEmb 2 1 (A I 1 c 2 1 2)) rfl fd1 (owedFrom c 71) (owed_copy c 22 1 70 (by decide) 20 (by decide))) $$ [HO Ha1 Hr1 Ts1 Tr1]
  · fire_premises HIs HIr1 Ha1 Hr1 HO Ts1 HRs Tr1 HRr1
  iintro ⟨Hc1, HO⟩
  sl_exec
  iapply (wp_fire_at (accCI I) (rs0I I) c 20 2 (g := 2) (rg := 6) (s := 2) (by decide) (by decide) (by decide)
      (dv := ⟨k0_dev72 c, k0_dev72_lt c⟩) ((dev72_eq c).trans rfl) rfl rfl (sendS_eq 20).symm (recvS_eq 20).symm
      (accEmb 2 2 (A I 1 c 2 2 2)) rfl fd2 (owedFrom c 72) (owed_copy c 22 2 71 (by decide) 20 (by decide))) $$ [HO Ha2 Hr2 Ts2 Tr2]
  · fire_premises HIs HIr2 Ha2 Hr2 HO Ts2 HRs Tr2 HRr2
  iintro ⟨Hc2, HO⟩
  sl_exec
  sl_step
  isplitr
  · ipureintro; rfl
  isplitl [HO]
  · iexists W; iexact HO
  isplitl [Hc0]; · iexact Hc0
  isplitl [Hc1]; · iexact Hc1
  isplitl [Hc2]; · iexact Hc2
  iexact HP

end Cert.Kernel.Body

/-- info: 'Cert.Kernel.Body.local_107' depends on axioms: [propext, Classical.choice, Quot.sound] -/
#guard_msgs in #print axioms Cert.Kernel.Body.local_107

end
-- ==== Proof.Bits.Parts.Part113.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Bits.Parts.L113
import proofs.«900775_g7700000000000776_dist_diff_dit_htp_i_b2_s512_d768_hq4_v7x_i8_f32_1_alg».proof.Proof.Gen.Kernel.Skeleton
import Idealize.ShloMosaic.Lib.Tactic
import proofs.«900775_g7700000000000776_dist_diff_dit_htp_i_b2_s512_d768_hq4_v7x_i8_f32_1_alg».proof.Proof.Bits.BodyAccTable
import proofs.«900775_g7700000000000776_dist_diff_dit_htp_i_b2_s512_d768_hq4_v7x_i8_f32_1_alg».proof.Proof.Bits.BodyRsTable

/-! Part 113 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Part 113 of the body, run from the place before it, ends at the place after it and returns its values; whatever else is held is kept. -/
theorem part_113 (m : (ℓ : Loc nD τ sig) → Buf (Elt F) ℓ) (K : Dev nD × Cell → ℕ) (c : Dev nD) (Fr : sProp 𝕄) :
    iprop(St (insM m) K (σ 112) c ∗ outHeld (insM m) c (σ 112).outs ∗ Fr)
      ⊢ wp frame (wpE (defs₀ (F := F)) 𝒱₀ (c : Thread nD τ) none) Set.univ
          (k0_part113 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
          (fun tup => iprop(⌜tup = Vals.lv2845 (insM m) c⌝ ∗ St (insM m) K (σ 113) c ∗ outHeld (insM m) c (σ 113).outs ∗ Fr)) := by
  have eo : (σ 113).outs = (σ 112).outs := rfl
  rw [eo]
  rw [St_eq, St_eq, StRest_congr (insM m) K c (s := σ 112) (s' := σ 113) rfl rfl rfl rfl, accAll_σ_112, accAll_σ_113, StRest_rs (insM m) K c (σ 113) rfl 22 (by decide), rs3_22]
  refine BIBase.Entails.trans ?_ ((local_113 (insM m) c iprop(StRestNoRs (insM m) K (σ 113) c 22 ∗ accTile c 0 0 (Vals.A (insM m) 1 c 0 0 2) ∗ accTile c 0 1 (Vals.A (insM m) 1 c 0 1 2) ∗ accTile c 0 2 (Vals.A (insM m) 1 c 0 2 2) ∗ accTile c 1 0 (Vals.A (insM m) 1 c 1 0 2) ∗ accTile c 1 1 (Vals.A (insM m) 1 c 1 1 2) ∗ accTile c 1 2 (Vals.A (insM m) 1 c 1 2 2) ∗ emp ∗ emp ∗ emp ∗ outHeld (insM m) c (σ 112).outs ∗ Fr)).trans (wp_mono _ _ _ fun tup => ?_))
  · iintro ⟨⟨⟨⟨R0, R1, R2⟩, HR⟩, T00, T01, T02, T10, T11, T12, T20, T21, T22, T30, T31, T32⟩, HO, HF⟩
    isplitl [T30]; · iexact T30
    isplitl [T31]; · iexact T31
    isplitl [T32]; · iexact T32
    isplitl [R0]; · iexact R0
    isplitl [R1]; · iexact R1
    isplitl [R2]; · iexact R2
    isplitl [HR]; · iexact HR
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    isplitl [T22]; · iexact T22
    isplitl [HO]; · iexact HO
    iexact HF
  · iintro ⟨%ht, T30, T31, T32, R0, R1, R2, HR, T00, T01, T02, T10, T11, T12, T20, T21, T22, HO, HF⟩
    isplitr
    · ipureintro; exact ht
    isplitr [HO HF]
    · isplitl [R0 R1 R2 HR]
      · isplitl [R0 R1 R2]
        · isplitl [R0]; · iexact R0
          isplitl [R1]; · iexact R1
          iexact R2
        · iexact HR
      isplitl [T00]; · iexact T00
      isplitl [T01]; · iexact T01
      isplitl [T02]; · iexact T02
      isplitl [T10]; · iexact T10
      isplitl [T11]; · iexact T11
      isplitl [T12]; · iexact T12
      isplitl [T20]; · iexact T20
      isplitl [T21]; · iexact T21
      isplitl [T22]; · iexact T22
      isplitl [T30]; · iexact T30
      isplitl [T31]; · iexact T31
      iexact T32
    · isplitl [HO]; · iexact HO
      iexact HF

/-- info: 'Cert.Kernel.Body.part_113' depends on axioms: [propext, Classical.choice, Quot.sound] -/
#guard_msgs in #print axioms part_113

end Cert.Kernel.Body

end
-- ==== Proof.Bits.Parts.L114.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyFire
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

/-! Part 114 of the body: the store into accumulator tile (3, 2), then the start of the copies of part 0 at step 23 and part 1 at step 23 (the source tile leaves the device's hands with the partner's receive slice), and the values it returns. -/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Mesh Cert.Kernel.LaunchK Cert.Kernel.Proto

variable {F : FTy → Type} [FloatOps F]

local notation "𝕄" => MT nD τ sig Unit (Elt F) ℕ UU ℕ

theorem local_114 (I : Dev nD → Vals.Ins F) (K : Dev nD × Cell → ℕ) (c : Dev nD) (P : sProp (MT nD τ sig Unit (Elt F) ℕ UU ℕ)) :
    (iprop(records (RdI I) K
        ∗ (∃ W, owes (c : Thread nD τ) (owedFrom c 72) W)
        ∗ dutyTok ER (sendCell c 23) 0 0 ∗ dutyTok ER (recvCell (mate c 0 23) 23) 0 0
        ∗ rsTileAny (mate c 0 23) (rgOf 23) 0 (sOf 23)
        ∗ dutyTok ER (sendCell c 23) 0 1 ∗ dutyTok ER (recvCell (mate c 1 23) 23) 0 1
        ∗ rsTileAny (mate c 1 23) (rgOf 23) 1 (sOf 23)
        ∗ accTile c 3 2 (Vals.A I 1 c 3 2 1)
        ∗ accTile c 3 0 (Vals.A I 1 c 3 0 2)
        ∗ accTile c 3 1 (Vals.A I 1 c 3 1 2)
        ∗ P) : sProp (MT nD τ sig Unit (Elt F) ℕ UU ℕ))
      ⊢ wp frame (wpE (defs₀ (F := F)) 𝒱₀ (c : Thread nD τ) none) Set.univ
      (k0_part114 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2845 I c))
      (fun tup => iprop(⌜tup = ⟨Vals.lw2849 c, Vals.lw2860 c, Vals.lw2871 c⟩⌝
        ∗ records (RdI I) K
        ∗ (∃ W, owes (c : Thread nD τ) (owedFrom c 74) W)
        ∗ cred (tallyAt (sendCell c 23) () N)
        ∗ cred (tallyAt (sendCell c 23) () N)
        ∗ accTile c 3 2 (Vals.A I 1 c 3 2 2)
        ∗ P)) := by
  unfold accTile rsTileAny Proto.accPts Proto.rsPts
  iintro ⟨#Hrec, ⟨%W, HO⟩, Hts0, Htr0, ⟨%fd0, Hfd0⟩, Hts1, Htr1, ⟨%fd1, Hfd1⟩, Ha32, Ha30, Ha31, HP⟩
  ihave #HIs0 := (inv_at (RdI I) K (c, Cell.send 23)) $$ Hrec
  ihave #HIr0 := (inv_at (RdI I) K (mate c 0 23, Cell.recv 23)) $$ Hrec
  ihave #Hrs0 := (reached_at (RdI I) K (c, Cell.send 23)) $$ Hrec
  ihave #Hrr0 := (reached_at (RdI I) K (mate c 0 23, Cell.recv 23)) $$ Hrec
  ihave #HIs1 := (inv_at (RdI I) K (c, Cell.send 23)) $$ Hrec
  ihave #HIr1 := (inv_at (RdI I) K (mate c 1 23, Cell.recv 23)) $$ Hrec
  ihave #Hrs1 := (reached_at (RdI I) K (c, Cell.send 23)) $$ Hrec
  ihave #Hrr1 := (reached_at (RdI I) K (mate c 1 23, Cell.recv 23)) $$ Hrec
  rw [k0_part114_eq_skeleton]
  unfold k0_part114_skel
  sl_exec
  -- the copy of part 0 at step 23 (started as number 24): its units on the partner's receive cell are owed last
  have hc0 : dueCell c 72 = recvCell (mate c 0 23) 23 := dueCell_fire c 23 0
  have ha0 : dueAmt 72 = N := dueAmt_fire 23 0
  have hO0 : owedFrom c 72 = owedFrom c 73 + tallyAt (recvCell (mate c 0 23) 23) () N :=
    (owedFrom_succ c 72 (by decide)).trans (by rw [hc0, ha0])
  iapply (wp_fire_at (accCI I) (rs0I I) c 23 0 (g := 3) (rg := 7) (s := 2) rfl rfl rfl (dev73_eq c) rfl rfl
    (sendS_eq 23) (recvS_eq 23) (accEmb 3 0 (Vals.A I 1 c 3 0 2)) rfl fd0 (owedFrom c 73) hO0) $$ [HO Hts0 Htr0 Hfd0 Ha30]
  · unfold Proto.accPts Proto.rsPts
    isplitr; · iexact HIs0
    isplitr; · iexact HIr0
    isplitl [Ha30]; · iexact Ha30
    isplitl [Hfd0]; · iexact Hfd0
    isplitl [HO]; · iexact HO
    isplitl [Hts0]; · iexact Hts0
    isplitr; · iexact Hrs0
    isplitl [Htr0]; · iexact Htr0
    iexact Hrr0
  iintro ⟨Hcs0, HO⟩
  sl_exec
  -- the copy of part 1 at step 23 (started as number 24): its units on the partner's receive cell are owed last
  have hc1 : dueCell c 73 = recvCell (mate c 1 23) 23 := dueCell_fire c 23 1
  have ha1 : dueAmt 73 = N := dueAmt_fire 23 1
  have hO1 : owedFrom c 73 = owedFrom c 74 + tallyAt (recvCell (mate c 1 23) 23) () N :=
    (owedFrom_succ c 73 (by decide)).trans (by rw [hc1, ha1])
  iapply (wp_fire_at (accCI I) (rs0I I) c 23 1 (g := 3) (rg := 7) (s := 2) rfl rfl rfl (dev74_eq c) rfl rfl
    (sendS_eq 23) (recvS_eq 23) (accEmb 3 1 (Vals.A I 1 c 3 1 2)) rfl fd1 (owedFrom c 74) hO1) $$ [HO Hts1 Htr1 Hfd1 Ha31]
  · unfold Proto.accPts Proto.rsPts
    isplitr; · iexact HIs1
    isplitr; · iexact HIr1
    isplitl [Ha31]; · iexact Ha31
    isplitl [Hfd1]; · iexact Hfd1
    isplitl [HO]; · iexact HO
    isplitl [Hts1]; · iexact Hts1
    isplitr; · iexact Hrs1
    isplitl [Htr1]; · iexact Htr1
    iexact Hrr1
  iintro ⟨Hcs1, HO⟩
  sl_exec
  sl_step
  -- what the loads read, and what each written tile's view reads back
  have Ha32_e : View.read (Elt F) (accV 3 2) (local_114.sl.Ha32_w1 I c) = Vals.A I 1 c 3 2 2 := by
    unfold local_114.sl.Ha32_w1; exact View.read_write_univ _ _
  have Ha32_t : ((Proto.accSl 3 2).view.loc (c : Thread nD τ) ↦[(Proto.accSl 3 2).view.set]{fullShare} local_114.sl.Ha32_w1 I c : sProp (MT nD τ sig Unit (Elt F) ℕ UU ℕ)) = ((Proto.accSl 3 2).view.loc (c : Thread nD τ) ↦[(Proto.accSl 3 2).view.set]{fullShare} accEmb 3 2 (Vals.A I 1 c 3 2 2) : sProp (MT nD τ sig Unit (Elt F) ℕ UU ℕ)) := accTile_of_read c fullShare 3 2 Ha32_e
  rw [← Ha32_t]
  isplitr [HO Hcs0 Hcs1 Ha32 HP]
  · ipureintro; rfl
  isplitr [HO Hcs0 Hcs1 Ha32 HP]; · iexact Hrec
  isplitl [HO]; · iexists W; iexact HO
  iframe

/-- info: 'Cert.Kernel.Body.local_114' depends on axioms: [propext, Classical.choice, Quot.sound] -/
#guard_msgs in #print axioms local_114

end Cert.Kernel.Body
-- ==== Proof.Bits.Parts.Part114.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L114
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 114 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 114 of the body, run from the place before it, ends at the place after it and returns its values; whatever else is held is kept. -/
theorem part_114 (m : (ℓ : Loc nD τ sig) → Buf (Elt F) ℓ) (K : Dev nD × Cell → ℕ) (c : Dev nD) (Fr : sProp 𝕄) :
    iprop(St (insM m) K (σ 113) c ∗ outHeld (insM m) c (σ 113).outs ∗ Fr)
      ⊢ wp frame (wpE (defs₀ (F := F)) 𝒱₀ (c : Thread nD τ) none) Set.univ
          (k0_part114 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv2845 (insM m) c))
          (fun tup => iprop(⌜tup = ⟨Vals.lw2849 c, Vals.lw2860 c, Vals.lw2871 c⟩⌝ ∗ St (insM m) K (σ 114) c ∗ outHeld (insM m) c (σ 114).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht0 : (toksFrom c 72 : sProp (MT nD τ sig Unit (Elt F) ℕ UU ℕ))
      = iprop(dutyTok ER (sendCell c 23) 0 0 ∗ dutyTok ER (recvCell (mate c 0 23) 23) 0 0 ∗ toksFrom c 73) := toksFrom_copy c 23 0
  have ht1 : (toksFrom c 73 : sProp (MT nD τ sig Unit (Elt F) ℕ UU ℕ))
      = iprop(dutyTok ER (sendCell c 23) 0 1 ∗ dutyTok ER (recvCell (mate c 1 23) 23) 0 1 ∗ toksFrom c 74) := toksFrom_copy c 23 1
  have hf0 : (foreignFrom c 69 : sProp (MT nD τ sig Unit (Elt F) ℕ UU ℕ))
      = iprop(rsTileAny (mate c 0 23) (rgOf 23) 0 (sOf 23) ∗ foreignFrom c 70) := foreignFrom_succ c 23 0
  have hf1 : (foreignFrom c 70 : sProp (MT nD τ sig Unit (Elt F) ℕ UU ℕ))
      = iprop(rsTileAny (mate c 1 23) (rgOf 23) 1 (sOf 23) ∗ foreignFrom c 71) := foreignFrom_succ c 23 1
  rw [St_open_113, St_open_114, ht0, ht1, hf0, hf1, show (σ 113).outs = (σ 114).outs from rfl]
  simp only [hemp, hemp']
  refine BIBase.Entails.trans (Entails.of_eq ?_) (BIBase.Entails.trans
    (local_114 (insM m) K c
      (iprop(levAts Proto.L Proto.lv
        ∗ toksFrom c 74
        ∗ credFrom c 69
        ∗ cred (tallyAt (sendCell c 20) () N)
        ∗ cred (tallyAt (sendCell c 20) () N)
        ∗ cred (tallyAt (sendCell c 20) () N)
        ∗ doneTo c 45
        ∗ todoFrom c 45
        ∗ foreignFrom c 71
        ∗ rsBack (insM m) c 22
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ outHeld (insM m) c (σ 114).outs
        ∗ Fr)))
    (wp_mono _ _ _ fun tup => Entails.of_eq ?_))
  · ac_rfl
  · ac_rfl

/-- info: 'Cert.Kernel.Body.part_114' depends on axioms: [propext, Classical.choice, Quot.sound] -/
#guard_msgs in #print axioms part_114

end Cert.Kernel.Body

end
-- ==== Proof.Bits.Parts.Part115.lean ====
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Bits.Parts.L115
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.BodyStateLemmas
import Idealize.ShloMosaic.Lib.Tactic

/-! Part 115 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- Separating conjunction regroups freely: the two instances the regrouping steps below take. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 115 of the body, run from the place before it, ends at the place after it; whatever else is held is kept. -/
theorem part_115 (m : (ℓ : Loc nD τ sig) → Buf (Elt F) ℓ) (K : Dev nD × Cell → ℕ) (c : Dev nD) (Fr : sProp 𝕄) :
    iprop(St (insM m) K (σ 114) c ∗ outHeld (insM m) c (σ 114).outs ∗ Fr)
      ⊢ wp frame (wpE (defs₀ (F := F)) 𝒱₀ (c : Thread nD τ) none) Set.univ
          (k0_part115 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2681 c) (Vals.lw2871 c))
          (fun _ => iprop(St (insM m) K (σ 115) c ∗ outHeld (insM m) c (σ 115).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hT0 : (toksFrom c 74 : sProp (MT nD τ sig Unit (Elt F) ℕ UU ℕ)) = iprop(dutyTok ER (sendCell c 23) 0 2 ∗ dutyTok ER (recvCell (mate c 2 23) 23) 0 2 ∗ toksFrom c 75) := toksFrom_copy c 23 2
  have hF0 : (foreignFrom c 71 : sProp (MT nD τ sig Unit (Elt F) ℕ UU ℕ)) = iprop(rsTileAny (mate c 2 23) 7 2 2 ∗ foreignFrom c 72) := foreignFrom_succ c 23 2
  have hG : (todoFrom c 45 : sProp (MT nD τ sig Unit (Elt F) ℕ UU ℕ)) = iprop(curCell (sendCell c 20) (fun p => (RdI (insM m)).payload (sendCell c 20) 0 p) 0 ∗ curCell (recvCell c 20) (fun p => (RdI (insM m)).payload (recvCell c 20) 0 p) 0 ∗ todoFrom c 47) := todo_group c 22
  rw [show (σ 115).outs = (σ 114).outs from rfl, St_open_114, St_open_115, hT0, hF0, hG]
  simp only [hemp, hemp']
  refine BIBase.Entails.trans (Entails.of_eq ?_) (BIBase.Entails.trans (local_115 (insM m) K c iprop(toksFrom c 75 ∗ credFrom c 69 ∗ cred (tallyAt (sendCell c 20) () N) ∗ cred (tallyAt (sendCell c 20) () N) ∗ cred (tallyAt (sendCell c 23) () N) ∗ cred (tallyAt (sendCell c 23) () N) ∗ doneTo c 45 ∗ curCell (recvCell c 20) (fun p => (RdI (insM m)).payload (recvCell c 20) 0 p) 0 ∗ todoFrom c 47 ∗ foreignFrom c 72 ∗ rsBack (insM m) c 22 ∗ accTile c 0 0 (Vals.A (insM m) 1 c 0 0 2) ∗ accTile c 0 1 (Vals.A (insM m) 1 c 0 1 2) ∗ accTile c 0 2 (Vals.A (insM m) 1 c 0 2 2) ∗ accTile c 1 0 (Vals.A (insM m) 1 c 1 0 2) ∗ accTile c 1 1 (Vals.A (insM m) 1 c 1 1 2) ∗ accTile c 1 2 (Vals.A (insM m) 1 c 1 2 2) ∗ outHeld (insM m) c (σ 114).outs ∗ Fr)) (wp_mono _ _ _ fun tup => Entails.of_eq ?_))
  · ac_rfl
  · ac_rfl

/-- info: 'Cert.Kernel.Body.part_115' depends on axioms: [propext, Classical.choice, Quot.sound] -/
#guard_msgs in #print axioms part_115

end Cert.Kernel.Body

end
-- ==== Proof.Bits.Parts.L117.lean ====
/-
  Part 117 of the body ends wait group 22 (round 1, group 2, third exchange): the third wait on its send cell hands back the
  three accumulator tiles of group 2 at their last level of round 1, the third wait on its receive cell hands over the three
  receive tiles holding the partners' tiles of that level. It then reads parts 0 and 1's accumulator and receive tiles and
  returns the group's block of the residual stream after attention, the batch entry's row of the feed-forward gate, and the
  all-reduced sums of parts 0 and 1 as 256 × 256 matrices.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

theorem local_117 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 75) W)
        ∗ cred (tallyAt (sendCell c 20) () N) ∗ cred (tallyAt (recvCell c 20) () N)
        ∗ curCell (sendCell c 20) (fun p => (RdI I).payload (sendCell c 20) 0 p) 2
        ∗ curCell (recvCell c 20) (fun p => (RdI I).payload (recvCell c 20) 0 p) 2 ∗ P) : sProp (MT nD τ sig Unit (Elt F) ℕ UU ℕ))
      ⊢ wp frame (wpE (defs₀ (F := F)) 𝒱₀ (c : Thread nD τ) none) Set.univ
        (k0_part117 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lv25 I c) (Vals.lv1861 I c) (Vals.lw2703 c))
        (fun tup => iprop(⌜tup = ⟨Vals.lv2924 I c, Vals.lv2927 I c, Vals.lv2932 I c, Vals.lv2937 I c⟩⌝ ∗ records (RdI I) K ∗ levAts Proto.L Proto.lv ∗ (∃ W, owes (c : Thread nD τ) (owedFrom c 75) W)
          ∗ curCell (sendCell c 20) (fun p => (RdI I).payload (sendCell c 20) 0 p) 3
          ∗ curCell (recvCell c 20) (fun p => (RdI I).payload (recvCell c 20) 0 p) 3
          ∗ accTile c 2 0 (Vals.A I 1 c 2 0 2) ∗ accTile c 2 1 (Vals.A I 1 c 2 1 2) ∗ accTile c 2 2 (Vals.A I 1 c 2 2 2)
          ∗ rsTile c 6 0 2 (Vals.R I 1 c 2 0 2) ∗ rsTile c 6 1 2 (Vals.R I 1 c 2 1 2) ∗ rsTile c 6 2 2 (Vals.R I 1 c 2 2 2) ∗ P)) := by
  unfold accTile rsTile Proto.accPts Proto.rsPts
  iintro ⟨#HR, #Hlev, ⟨%W, HO⟩, Cs, Cr, Hs, Hr, HP⟩
  ihave #HIs := (inv_at (RdI I) K (c, Cell.send 20)) $$ HR
  ihave #HIr := (inv_at (RdI I) K (c, Cell.recv 20)) $$ HR
  sl_unfold [k0_part117]
  sl_exec
  -- the third wait on send cell 20: the rest of its round, the three source tiles back
  iapply (wp_wait3 (RdI I) c (sendS 20) (duties_send _ _ c 20) (expect_send _ _ c 20) (hw := fun _ => rfl)) $$ [HO Cs Hs]
  · isplitr; · iexact HIs
    isplitl [Cs]; · iexact Cs
    isplitl [HO]; · iexact HO
    isplitr
    · iapply (mayWait_sendAt (F := F) c 20); iexact Hlev
    iexact Hs
  iintro ⟨HO, Hs, Ha0, Ha1, Ha2⟩
  have es : ∀ p : Fin 3, ((RdI I).payload ((c : Thread nD τ), SemLoc.dma (sendS 20)) 0 p : sProp (MT nD τ sig Unit (Elt F) ℕ UU ℕ))
      ⊢ ((Proto.accSl 2 p).view.loc (c : Thread nD τ) ↦[(Proto.accSl 2 p).view.set]{fullShare} accEmb 2 p (Vals.A I 1 c 2 p 2)) :=
    fun p => Entails.of_eq (payload_send_tile I c 20 p)
  ihave Ha0 := (es 0) $$ Ha0
  ihave Ha1 := (es 1) $$ Ha1
  ihave Ha2 := (es 2) $$ Ha2
  sl_exec
  -- the third wait on receive cell 20: the rest of its round, the three receive tiles at what landed in them
  iapply (wp_wait3 (RdI I) c (recvS 20) (duties_recv _ _ c 20) (expect_recv _ _ c 20) (hw := fun _ => rfl)) $$ [HO Cr Hr]
  · isplitr; · iexact HIr
    isplitl [Cr]; · iexact Cr
    isplitl [HO]; · iexact HO
    isplitr
    · iapply (mayWait_recvAt (F := F) c 20); iexact Hlev
    iexact Hr
  iintro ⟨HO, Hr, Hb0, Hb1, Hb2⟩
  have er : ∀ p : Fin 3, ((RdI I).payload ((c : Thread nD τ), SemLoc.dma (recvS 20)) 0 p : sProp (MT nD τ sig Unit (Elt F) ℕ UU ℕ))
      ⊢ ((Proto.rsSl 6 p 2).view.loc (c : Thread nD τ) ↦[(Proto.rsSl 6 p 2).view.set]{fullShare} rsEmb 6 p 2 (Vals.R I 1 c 2 p 2)) :=
    fun p => Entails.of_eq (payload_recv_tile I c 20 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![2, 0, 0, 0] S1x1x256x256.size inb_S4x3x256x256_S1x1x256x256_2_0_0_0).toLoadRect (accEmb 2 0 (Vals.A I 1 c 2 0 2)) = Vals.A I 1 c 2 0 2 := accV_read_accEmb 2 0 _
    have e2 : View.readAt (Elt F) (Memref.whole cc0_scratch1).view (Rect.unit (s := S8x3x3x256x256) ![6, 0, 2, 0, 0] S1x1x1x256x256.size inb_S8x3x3x256x256_S1x1x1x256x256_6_0_2_0_0).toLoadRect (rsEmb 6 0 2 (Vals.R I 1 c 2 0 2)) = Vals.R I 1 c 2 0 2 := rsV_read_rsEmb 6 0 2 _
    have e3 : View.readAt (Elt F) (Memref.whole cc0_scratch0).view (Rect.unit (s := S4x3x256x256) ![2, 1, 0, 0] S1x1x256x256.size inb_S4x3x256x256_S1x1x256x256_2_1_0_0).toLoadRect (accEmb 2 1 (Vals.A I 1 c 2 1 2)) = Vals.A I 1 c 2 1 2 := accV_read_accEmb 2 1 _
    have e4 : View.readAt (Elt F) (Memref.whole cc0_scratch1).view (Rect.unit (s := S8x3x3x256x256) ![6, 1, 2, 0, 0] S1x1x1x256x256.size inb_S8x3x3x256x256_S1x1x1x256x256_6_1_2_0_0).toLoadRect (rsEmb 6 1 2 (Vals.R I 1 c 2 1 2)) = Vals.R I 1 c 2 1 2 := rsV_read_rsEmb 6 1 2 _
    rw [e1, e2, e3, e4]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.Kernel.Body.local_117' depends on axioms: [propext, Classical.choice, Quot.sound] -/
#guard_msgs in #print axioms local_117

end Cert.Kernel.Body
-- ==== Proof.Bits.Parts.Part117.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L117
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 117 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 117 of the body, run from the place before it, ends at the place after it and returns its values; whatever else is held is kept. -/
theorem part_117 (m : (ℓ : Loc nD τ sig) → Buf (Elt F) ℓ) (K : Dev nD × Cell → ℕ) (c : Dev nD) (Fr : sProp 𝕄) :
    iprop(St (insM m) K (σ 116) c ∗ outHeld (insM m) c (σ 116).outs ∗ Fr)
      ⊢ wp frame (wpE (defs₀ (F := F)) 𝒱₀ (c : Thread nD τ) none) Set.univ
          (k0_part117 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv25 (insM m) c) (Vals.lv1861 (insM m) c) (Vals.lw2703 c))
          (fun tup => iprop(⌜tup = ⟨Vals.lv2924 (insM m) c, Vals.lv2927 (insM m) c, Vals.lv2932 (insM m) c, Vals.lv2937 (insM m) c⟩⌝ ∗ St (insM m) K (σ 117) c ∗ outHeld (insM m) c (σ 117).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 71 : sProp (MT nD τ sig Unit (Elt F) ℕ UU ℕ)) = iprop(credFrom c 72 ∗ cred (tallyAt (recvCell c 20) () N)) := by
    rw [credFrom_succ c 71 (by omega), show ownCell c 71 = recvCell c 20 from ownCell_fire c 22 2, show dueAmt 71 = N from dueAmt_fire 22 2]
  have hd : (doneTo c 47 : sProp (MT nD τ sig Unit (Elt F) ℕ UU ℕ))
      = iprop(doneTo c 45 ∗ curCell (sendCell c 20) (fun p => (RdI (insM m)).payload (sendCell c 20) 0 p) 3
          ∗ curCell (recvCell c 20) (fun p => (RdI (insM m)).payload (recvCell c 20) 0 p) 3) := (done_group c 22).symm
  have hb : (rsBack (insM m) c 23 : sProp (MT nD τ sig Unit (Elt F) ℕ UU ℕ))
      = iprop((rsTile c 6 0 2 (Vals.R (insM m) 1 c 2 0 2) ∗ rsTile c 6 1 2 (Vals.R (insM m) 1 c 2 1 2) ∗ rsTile c 6 2 2 (Vals.R (insM m) 1 c 2 2 2))
          ∗ rsBack (insM m) c 22) := rsBack_succ (insM m) c 22
  rw [St_open_116, St_open_117, hc, hd, hb, show (σ 116).outs = (σ 117).outs from rfl]
  simp only [hemp, hemp']
  refine BIBase.Entails.trans (Entails.of_eq ?_) (BIBase.Entails.trans
    (local_117 (insM m) K c
      (iprop(toksFrom c 75
        ∗ credFrom c 72
        ∗ cred (tallyAt (sendCell c 23) () N)
        ∗ cred (tallyAt (sendCell c 23) () N)
        ∗ cred (tallyAt (sendCell c 23) () N)
        ∗ doneTo c 45
        ∗ todoFrom c 47
        ∗ foreignFrom c 72
        ∗ rsBack (insM m) c 22
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ outHeld (insM m) c (σ 117).outs
        ∗ Fr)))
    (wp_mono _ _ _ fun tup => Entails.of_eq ?_))
  · ac_rfl
  · ac_rfl

/-- info: 'Cert.Kernel.Body.part_117' depends on axioms: [propext, Classical.choice, Quot.sound] -/
#guard_msgs in #print axioms part_117

end Cert.Kernel.Body

end
-- ==== Proof.Bits.Parts.Part118.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L118
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 118 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 118 of the body, run from the place before it, ends at the place after it; whatever else is held is kept. -/
theorem part_118 (m : (ℓ : Loc nD τ sig) → Buf (Elt F) ℓ) (K : Dev nD × Cell → ℕ) (c : Dev nD) (Fr : sProp 𝕄) :
    iprop(St (insM m) K (σ 117) c ∗ outHeld (insM m) c (σ 117).outs ∗ Fr)
      ⊢ wp frame (wpE (defs₀ (F := F)) 𝒱₀ (c : Thread nD τ) none) Set.univ
          (k0_part118 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lw2849 c) (Vals.lv2924 (insM m) c) (Vals.lv2927 (insM m) c) (Vals.lv2932 (insM m) c) (Vals.lv2937 (insM m) c))
          (fun _ => iprop(St (insM m) K (σ 118) c ∗ outHeld (insM m) c (σ 118).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have ht : (todoFrom c 47 : sProp (MT nD τ sig Unit (Elt F) ℕ UU ℕ))
      = iprop(curCell (sendCell c 23) (fun p => (RdI (insM m)).payload (sendCell c 23) 0 p) 0
          ∗ curCell (recvCell c 23) (fun p => (RdI (insM m)).payload (recvCell c 23) 0 p) 0 ∗ todoFrom c 49) := todo_group c 23
  have hb : (rsBack (insM m) c 23 : sProp (MT nD τ sig Unit (Elt F) ℕ UU ℕ))
      = iprop((rsTile c 6 0 2 (Vals.R (insM m) 1 c 2 0 2) ∗ rsTile c 6 1 2 (Vals.R (insM m) 1 c 2 1 2) ∗ rsTile c 6 2 2 (Vals.R (insM m) 1 c 2 2 2))
          ∗ (bigSep ((Finset.univ.filter fun k : Fin 24 => (posK k).val < 23).erase 20) fun k => rs3 (insM m) c k)) := rsBack_at (insM m) c 23 20 (by decide)
  rw [St_open_117, St_open_118, ht, hb, show (σ 117).outs = 2 from rfl, show (σ 118).outs = 3 from rfl]
  simp only [hemp, hemp']
  refine BIBase.Entails.trans (Entails.of_eq ?_) (BIBase.Entails.trans
    (local_118 (insM m) K c
      (iprop(toksFrom c 75
        ∗ credFrom c 72
        ∗ cred (tallyAt (sendCell c 23) () N)
        ∗ cred (tallyAt (sendCell c 23) () N)
        ∗ doneTo c 47
        ∗ curCell (recvCell c 23) (fun p => (RdI (insM m)).payload (recvCell c 23) 0 p) 0
        ∗ todoFrom c 49
        ∗ foreignFrom c 72
        ∗ rsTile c 6 0 2 (Vals.R (insM m) 1 c 2 0 2)
        ∗ rsTile c 6 1 2 (Vals.R (insM m) 1 c 2 1 2)
        ∗ (bigSep ((Finset.univ.filter fun k : Fin 24 => (posK k).val < 23).erase 20) fun k => rs3 (insM m) c k)
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ accTile c 2 0 (Vals.A (insM m) 1 c 2 0 2)
        ∗ accTile c 2 1 (Vals.A (insM m) 1 c 2 1 2)
        ∗ Fr)))
    (wp_mono _ _ _ fun tup => Entails.of_eq ?_))
  · ac_rfl
  · ac_rfl

/-- info: 'Cert.Kernel.Body.part_118' depends on axioms: [propext, Classical.choice, Quot.sound] -/
#guard_msgs in #print axioms part_118

end Cert.Kernel.Body

end
-- ==== Proof.Bits.Parts.L120.lean ====
/-
  Part 120 of the body ends wait group 23 (round 1, group 3, third exchange), the last: the third wait on its send cell hands
  back the three accumulator tiles of group 3 at their last level of round 1, the third wait on its receive cell hands over the
  three receive tiles holding the partners' tiles of that level. It then reads parts 0 and 1's accumulator and receive tiles and
  returns the group's block of the residual stream after attention, the batch entry's row of the feed-forward gate, and the
  all-reduced sums of parts 0 and 1 as 256 × 256 matrices.
-/
import proofs.«900775_g7700000000000776_dist_diff_dit_htp_i_b2_s512_d768_hq4_v7x_i8_f32_1_alg».proof.Proof.Bits.BodyState
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyWait
import proofs.«900775_g7700000000000776_dist_diff_dit_htp_i_b2_s512_d768_hq4_v7x_i8_f32_1_alg».proof.Proof.Bits.Vals.Live
import proofs.«900775_g7700000000000776_dist_diff_dit_htp_i_b2_s512_d768_hq4_v7x_i8_f32_1_alg».proof.Proof.Gen.Kernel.Skeleton
import proofs.«900775_g7700000000000776_dist_diff_dit_htp_i_b2_s512_d768_hq4_v7x_i8_f32_1_alg».proof.Proof.Gen.Kernel.Points
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Vals
open Cert.Kernel.Proto hiding accM rsM AccBuf RsBuf

variable {F : FTy → Type} [FloatOps F]

theorem local_120 (I : Dev nD → Vals.Ins F) (K : Dev nD × Cell → ℕ) (c : Dev nD) (P : sProp (MT nD τ sig Unit (Elt F) ℕ UU ℕ)) :
    (iprop(records (RdI I) K ∗ levAts Proto.L Proto.lv ∗ (∃ W, owes (c : Thread nD τ) (owedFrom c 75) W)
        ∗ cred (tallyAt (sendCell c 23) () N) ∗ cred (tallyAt (recvCell c 23) () N)
        ∗ curCell (sendCell c 23) (fun p => (RdI I).payload (sendCell c 23) 0 p) 2
        ∗ curCell (recvCell c 23) (fun p => (RdI I).payload (recvCell c 23) 0 p) 2 ∗ P) : sProp (MT nD τ sig Unit (Elt F) ℕ UU ℕ))
      ⊢ wp frame (wpE (defs₀ (F := F)) 𝒱₀ (c : Thread nD τ) none) Set.univ
        (k0_part120 (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0
          (Vals.lv25 I c) (Vals.lv2215 I c) (Vals.lw2871 c))
        (fun tup => iprop(⌜tup = ⟨Vals.lv2993 I c, Vals.lv2996 I c, Vals.lv3001 I c, Vals.lv3006 I c⟩⌝ ∗ records (RdI I) K ∗ levAts Proto.L Proto.lv ∗ (∃ W, owes (c : Thread nD τ) (owedFrom c 75) W)
          ∗ curCell (sendCell c 23) (fun p => (RdI I).payload (sendCell c 23) 0 p) 3
          ∗ curCell (recvCell c 23) (fun p => (RdI I).payload (recvCell c 23) 0 p) 3
          ∗ accTile c 3 0 (Vals.A I 1 c 3 0 2) ∗ accTile c 3 1 (Vals.A I 1 c 3 1 2) ∗ accTile c 3 2 (Vals.A I 1 c 3 2 2)
          ∗ rsTile c 7 0 2 (Vals.R I 1 c 3 0 2) ∗ rsTile c 7 1 2 (Vals.R I 1 c 3 1 2) ∗ rsTile c 7 2 2 (Vals.R I 1 c 3 2 2) ∗ P)) := by
  unfold accTile rsTile Proto.accPts Proto.rsPts
  iintro ⟨#HR, #Hlev, ⟨%W, HO⟩, Cs, Cr, Hs, Hr, HP⟩
  ihave #HIs := (inv_at (RdI I) K (c, Cell.send 23)) $$ HR
  ihave #HIr := (inv_at (RdI I) K (c, Cell.recv 23)) $$ HR
  sl_unfold [k0_part120]
  sl_exec
  -- the third wait on send cell 23: the rest of its round, the three source tiles back
  iapply (wp_wait3 (RdI I) c (sendS 23) (duties_send _ _ c 23) (expect_send _ _ c 23) (hw := fun _ => rfl)) $$ [HO Cs Hs]
  · isplitr; · iexact HIs
    isplitl [Cs]; · iexact Cs
    isplitl [HO]; · iexact HO
    isplitr
    · iapply (mayWait_sendAt (F := F) c 23); iexact Hlev
    iexact Hs
  iintro ⟨HO, Hs, Ha0, Ha1, Ha2⟩
  have es : ∀ p : Fin 3, ((RdI I).payload ((c : Thread nD τ), SemLoc.dma (sendS 23)) 0 p : sProp (MT nD τ sig Unit (Elt F) ℕ UU ℕ))
      ⊢ ((Proto.accSl 3 p).view.loc (c : Thread nD τ) ↦[(Proto.accSl 3 p).view.set]{fullShare} accEmb 3 p (Vals.A I 1 c 3 p 2)) :=
    fun p => Entails.of_eq (payload_send_tile I c 23 p)
  ihave Ha0 := (es 0) $$ Ha0
  ihave Ha1 := (es 1) $$ Ha1
  ihave Ha2 := (es 2) $$ Ha2
  sl_exec
  -- the third wait on receive cell 23: the rest of its round, the three receive tiles at what landed in them
  iapply (wp_wait3 (RdI I) c (recvS 23) (duties_recv _ _ c 23) (expect_recv _ _ c 23) (hw := fun _ => rfl)) $$ [HO Cr Hr]
  · isplitr; · iexact HIr
    isplitl [Cr]; · iexact Cr
    isplitl [HO]; · iexact HO
    isplitr
    · iapply (mayWait_recvAt (F := F) c 23); iexact Hlev
    iexact Hr
  iintro ⟨HO, Hr, Hb0, Hb1, Hb2⟩
  have er : ∀ p : Fin 3, ((RdI I).payload ((c : Thread nD τ), SemLoc.dma (recvS 23)) 0 p : sProp (MT nD τ sig Unit (Elt F) ℕ UU ℕ))
      ⊢ ((Proto.rsSl 7 p 2).view.loc (c : Thread nD τ) ↦[(Proto.rsSl 7 p 2).view.set]{fullShare} rsEmb 7 p 2 (Vals.R I 1 c 3 p 2)) :=
    fun p => Entails.of_eq (payload_recv_tile I c 23 p)
  ihave Hb0 := (er 0) $$ Hb0
  ihave Hb1 := (er 1) $$ Hb1
  ihave Hb2 := (er 2) $$ Hb2
  sl_exec
  sl_step
  sl_unfold_run_names
  isplitr
  · ipureintro
    have e1 : View.readAt (Elt F) (Memref.whole cc0_scratch0).view (Rect.unit (s := S4x3x256x256) ![3, 0, 0, 0] S1x1x256x256.size inb_S4x3x256x256_S1x1x256x256_3_0_0_0).toLoadRect (accEmb 3 0 (Vals.A I 1 c 3 0 2)) = Vals.A I 1 c 3 0 2 := accV_read_accEmb 3 0 _
    have e2 : View.readAt (Elt F) (Memref.whole cc0_scratch1).view (Rect.unit (s := S8x3x3x256x256) ![7, 0, 2, 0, 0] S1x1x1x256x256.size inb_S8x3x3x256x256_S1x1x1x256x256_7_0_2_0_0).toLoadRect (rsEmb 7 0 2 (Vals.R I 1 c 3 0 2)) = Vals.R I 1 c 3 0 2 := rsV_read_rsEmb 7 0 2 _
    have e3 : View.readAt (Elt F) (Memref.whole cc0_scratch0).view (Rect.unit (s := S4x3x256x256) ![3, 1, 0, 0] S1x1x256x256.size inb_S4x3x256x256_S1x1x256x256_3_1_0_0).toLoadRect (accEmb 3 1 (Vals.A I 1 c 3 1 2)) = Vals.A I 1 c 3 1 2 := accV_read_accEmb 3 1 _
    have e4 : View.readAt (Elt F) (Memref.whole cc0_scratch1).view (Rect.unit (s := S8x3x3x256x256) ![7, 1, 2, 0, 0] S1x1x1x256x256.size inb_S8x3x3x256x256_S1x1x1x256x256_7_1_2_0_0).toLoadRect (rsEmb 7 1 2 (Vals.R I 1 c 3 1 2)) = Vals.R I 1 c 3 1 2 := rsV_read_rsEmb 7 1 2 _
    rw [e1, e2, e3, e4]
    rfl
  isplitr; · iexact HR
  isplitr; · iexact Hlev
  isplitl [HO]; · iexists _; iexact HO
  isplitl [Hs]; · iexact Hs
  isplitl [Hr]; · iexact Hr
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  iexact HP

/-- info: 'Cert.Kernel.Body.local_120' depends on axioms: [propext, Classical.choice, Quot.sound] -/
#guard_msgs in #print axioms local_120

end Cert.Kernel.Body
-- ==== Proof.Bits.Parts.Part120.lean ====
import proofs.«900775_g7700000000000776_dist_diff_dit_htp_i_b2_s512_d768_hq4_v7x_i8_f32_1_alg».proof.Proof.Bits.BodyStateLemmas
import proofs.«900775_g7700000000000776_dist_diff_dit_htp_i_b2_s512_d768_hq4_v7x_i8_f32_1_alg».proof.Proof.Bits.BodyOpen
import proofs.«900775_g7700000000000776_dist_diff_dit_htp_i_b2_s512_d768_hq4_v7x_i8_f32_1_alg».proof.Proof.Bits.Parts.L120
import proofs.«900775_g7700000000000776_dist_diff_dit_htp_i_b2_s512_d768_hq4_v7x_i8_f32_1_alg».proof.Proof.Bits.BodyTuples
import proofs.«900775_g7700000000000776_dist_diff_dit_htp_i_b2_s512_d768_hq4_v7x_i8_f32_1_alg».proof.Proof.Bits.BodyGlue
import proofs.«900775_g7700000000000776_dist_diff_dit_htp_i_b2_s512_d768_hq4_v7x_i8_f32_1_alg».proof.Proof.Gen.Kernel.Skeleton
import Idealize.ShloMosaic.Lib.Tactic

/-! Part 120 of the body: from the place before it to the place after it. -/

set_option pp.maxSteps 4000
set_option pp.deepTerms false
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mesh Cert.Kernel.LaunchK Cert.Kernel.Proto Cert.Kernel.BodyGlue

variable {F : FTy → Type} [FloatOps F]

local notation "𝕄" => MT nD τ sig Unit (Elt F) ℕ UU ℕ

/-- `∗` on assertions is associative and commutative: what lets a state be regrouped as a footprint and the rest. -/
local instance sepAssoc : Std.Associative (BIBase.sep (PROP := sProp (MT nD τ sig Unit (Elt F) ℕ UU ℕ))) :=
  ⟨fun a b d => Std.Associative.assoc (op := (Idealize.SL.BI.sep : sProp (MT nD τ sig Unit (Elt F) ℕ UU ℕ) → _ → _)) a b d⟩
/-- See `sepAssoc`. -/
local instance sepComm : Std.Commutative (BIBase.sep (PROP := sProp (MT nD τ sig Unit (Elt F) ℕ UU ℕ))) :=
  ⟨fun a b => Std.Commutative.comm (op := (Idealize.SL.BI.sep : sProp (MT nD τ sig Unit (Elt F) ℕ UU ℕ) → _ → _)) a b⟩

/-- Part 120 of the body, run from the place before it, ends at the place after it and returns its values; whatever else is held is kept. -/
theorem part_120 (m : (ℓ : Loc nD τ sig) → Buf (Elt F) ℓ) (K : Dev nD × Cell → ℕ) (c : Dev nD) (Fr : sProp 𝕄) :
    iprop(St (insM m) K (σ 119) c ∗ outHeld (insM m) c (σ 119).outs ∗ Fr)
      ⊢ wp frame (wpE (defs₀ (F := F)) 𝒱₀ (c : Thread nD τ) none) Set.univ
          (k0_part120 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Vals.lv25 (insM m) c) (Vals.lv2215 (insM m) c) (Vals.lw2871 c))
          (fun tup => iprop(⌜tup = ⟨Vals.lv2993 (insM m) c, Vals.lv2996 (insM m) c, Vals.lv3001 (insM m) c, Vals.lv3006 (insM m) c⟩⌝ ∗ St (insM m) K (σ 120) c ∗ outHeld (insM m) c (σ 120).outs ∗ Fr)) := by
  have hemp : ∀ X : sProp (MT nD τ sig Unit (Elt F) ℕ UU ℕ), iprop(emp ∗ X) = X := fun X => equiv_iff.mp emp_sep
  have hemp' : ∀ X : sProp (MT nD τ sig Unit (Elt F) ℕ UU ℕ), iprop(X ∗ emp) = X := fun X => equiv_iff.mp sep_emp
  have hc : (credFrom c 74 : sProp (MT nD τ sig Unit (Elt F) ℕ UU ℕ)) = iprop(credFrom c 75 ∗ cred (tallyAt (recvCell c 23) () N)) := by
    rw [credFrom_succ c 74 (by omega), show ownCell c 74 = recvCell c 23 from ownCell_fire c 23 2, show dueAmt 74 = N from dueAmt_fire 23 2]
  have hd : (doneTo c 49 : sProp (MT nD τ sig Unit (Elt F) ℕ UU ℕ))
      = iprop(doneTo c 47 ∗ curCell (sendCell c 23) (fun p => (RdI (insM m)).payload (sendCell c 23) 0 p) 3
          ∗ curCell (recvCell c 23) (fun p => (RdI (insM m)).payload (recvCell c 23) 0 p) 3) := (done_group c 23).symm
  have hb : (rsBack (insM m) c 24 : sProp (MT nD τ sig Unit (Elt F) ℕ UU ℕ))
      = iprop((rsTile c 7 0 2 (Vals.R (insM m) 1 c 3 0 2) ∗ rsTile c 7 1 2 (Vals.R (insM m) 1 c 3 1 2) ∗ rsTile c 7 2 2 (Vals.R (insM m) 1 c 3 2 2))
          ∗ rsBack (insM m) c 23) := rsBack_succ (insM m) c 23
  rw [St_open_119, St_open_120, hc, hd, hb, show (σ 119).outs = (σ 120).outs from rfl]
  simp only [hemp, hemp']
  refine BIBase.Entails.trans (Entails.of_eq ?_) (BIBase.Entails.trans
    (local_120 (insM m) K c
      (iprop(toksFrom c 75
        ∗ credFrom c 75
        ∗ doneTo c 47
        ∗ todoFrom c 49
        ∗ foreignFrom c 72
        ∗ rsBack (insM m) c 23
        ∗ accTile c 0 0 (Vals.A (insM m) 1 c 0 0 2)
        ∗ accTile c 0 1 (Vals.A (insM m) 1 c 0 1 2)
        ∗ accTile c 0 2 (Vals.A (insM m) 1 c 0 2 2)
        ∗ accTile c 1 0 (Vals.A (insM m) 1 c 1 0 2)
        ∗ accTile c 1 1 (Vals.A (insM m) 1 c 1 1 2)
        ∗ accTile c 1 2 (Vals.A (insM m) 1 c 1 2 2)
        ∗ accTile c 2 0 (Vals.A (insM m) 1 c 2 0 2)
        ∗ accTile c 2 1 (Vals.A (insM m) 1 c 2 1 2)
        ∗ accTile c 2 2 (Vals.A (insM m) 1 c 2 2 2)
        ∗ outHeld (insM m) c (σ 120).outs
        ∗ Fr)))
    (wp_mono _ _ _ fun tup => Entails.of_eq ?_))
  · ac_rfl
  · ac_rfl

/-- info: 'Cert.Kernel.Body.part_120' depends on axioms: [propext, Classical.choice, Quot.sound] -/
#guard_msgs in #print axioms part_120

end Cert.Kernel.Body

end
-- ==== Proof.Bits.Parts.All.lean ====
import proofs.«900775_g7700000000000776_dist_diff_dit_htp_i_b2_s512_d768_hq4_v7x_i8_f32_1_alg».proof.Proof.Bits.Parts.Part1
import proofs.«900775_g7700000000000776_dist_diff_dit_htp_i_b2_s512_d768_hq4_v7x_i8_f32_1_alg».proof.Proof.Bits.Parts.Part2
import proofs.«900775_g7700000000000776_dist_diff_dit_htp_i_b2_s512_d768_hq4_v7x_i8_f32_1_alg».proof.Proof.Bits.Parts.Part3
import proofs.«900775_g7700000000000776_dist_diff_dit_htp_i_b2_s512_d768_hq4_v7x_i8_f32_1_alg».proof.Proof.Bits.Parts.Part4
import proofs.«900775_g7700000000000776_dist_diff_dit_htp_i_b2_s512_d768_hq4_v7x_i8_f32_1_alg».proof.Proof.Bits.Parts.Part5
import proofs.«900775_g7700000000000776_dist_diff_dit_htp_i_b2_s512_d768_hq4_v7x_i8_f32_1_alg».proof.Proof.Bits.Parts.Part6
import proofs.«900775_g7700000000000776_dist_diff_dit_htp_i_b2_s512_d768_hq4_v7x_i8_f32_1_alg».proof.Proof.Bits.Parts.Part7
import proofs.«900775_g7700000000000776_dist_diff_dit_htp_i_b2_s512_d768_hq4_v7x_i8_f32_1_alg».proof.Proof.Bits.Parts.Part8
import proofs.«900775_g7700000000000776_dist_diff_dit_htp_i_b2_s512_d768_hq4_v7x_i8_f32_1_alg».proof.Proof.Bits.Parts.Part9
import proofs.«900775_g7700000000000776_dist_diff_dit_htp_i_b2_s512_d768_hq4_v7x_i8_f32_1_alg».proof.Proof.Bits.Parts.Part10
import proofs.«900775_g7700000000000776_dist_diff_dit_htp_i_b2_s512_d768_hq4_v7x_i8_f32_1_alg».proof.Proof.Bits.Parts.Part11
import proofs.«900775_g7700000000000776_dist_diff_dit_htp_i_b2_s512_d768_hq4_v7x_i8_f32_1_alg».proof.Proof.Bits.Parts.Part12
import proofs.«900775_g7700000000000776_dist_diff_dit_htp_i_b2_s512_d768_hq4_v7x_i8_f32_1_alg».proof.Proof.Bits.Parts.Part13
import proofs.«900775_g7700000000000776_dist_diff_dit_htp_i_b2_s512_d768_hq4_v7x_i8_f32_1_alg».proof.Proof.Bits.Parts.Part14
import proofs.«900775_g7700000000000776_dist_diff_dit_htp_i_b2_s512_d768_hq4_v7x_i8_f32_1_alg».proof.Proof.Bits.Parts.Part15
import proofs.«900775_g7700000000000776_dist_diff_dit_htp_i_b2_s512_d768_hq4_v7x_i8_f32_1_alg».proof.Proof.Bits.Parts.Part16
import proofs.«900775_g7700000000000776_dist_diff_dit_htp_i_b2_s512_d768_hq4_v7x_i8_f32_1_alg».proof.Proof.Bits.Parts.Part17
import proofs.«900775_g7700000000000776_dist_diff_dit_htp_i_b2_s512_d768_hq4_v7x_i8_f32_1_alg».proof.Proof.Bits.Parts.Part18
import proofs.«900775_g7700000000000776_dist_diff_dit_htp_i_b2_s512_d768_hq4_v7x_i8_f32_1_alg».proof.Proof.Bits.Parts.Part19
import proofs.«900775_g7700000000000776_dist_diff_dit_htp_i_b2_s512_d768_hq4_v7x_i8_f32_1_alg».proof.Proof.Bits.Parts.Part20
import proofs.«900775_g7700000000000776_dist_diff_dit_htp_i_b2_s512_d768_hq4_v7x_i8_f32_1_alg».proof.Proof.Bits.Parts.Part21
import proofs.«900775_g7700000000000776_dist_diff_dit_htp_i_b2_s512_d768_hq4_v7x_i8_f32_1_alg».proof.Proof.Bits.Parts.Part22
import proofs.«900775_g7700000000000776_dist_diff_dit_htp_i_b2_s512_d768_hq4_v7x_i8_f32_1_alg».proof.Proof.Bits.Parts.Part23
import proofs.«900775_g7700000000000776_dist_diff_dit_htp_i_b2_s512_d768_hq4_v7x_i8_f32_1_alg».proof.Proof.Bits.Parts.Part24
import proofs.«900775_g7700000000000776_dist_diff_dit_htp_i_b2_s512_d768_hq4_v7x_i8_f32_1_alg».proof.Proof.Bits.Parts.Part25
import proofs.«900775_g7700000000000776_dist_diff_dit_htp_i_b2_s512_d768_hq4_v7x_i8_f32_1_alg».proof.Proof.Bits.Parts.Part26
import proofs.«900775_g7700000000000776_dist_diff_dit_htp_i_b2_s512_d768_hq4_v7x_i8_f32_1_alg».proof.Proof.Bits.Parts.Part27
import proofs.«900775_g7700000000000776_dist_diff_dit_htp_i_b2_s512_d768_hq4_v7x_i8_f32_1_alg».proof.Proof.Bits.Parts.Part28
import proofs.«900775_g7700000000000776_dist_diff_dit_htp_i_b2_s512_d768_hq4_v7x_i8_f32_1_alg».proof.Proof.Bits.Parts.Part29
import proofs.«900775_g7700000000000776_dist_diff_dit_htp_i_b2_s512_d768_hq4_v7x_i8_f32_1_alg».proof.Proof.Bits.Parts.Part30
import proofs.«900775_g7700000000000776_dist_diff_dit_htp_i_b2_s512_d768_hq4_v7x_i8_f32_1_alg».proof.Proof.Bits.Parts.Part31
import proofs.«900775_g7700000000000776_dist_diff_dit_htp_i_b2_s512_d768_hq4_v7x_i8_f32_1_alg».proof.Proof.Bits.Parts.Part32
import proofs.«900775_g7700000000000776_dist_diff_dit_htp_i_b2_s512_d768_hq4_v7x_i8_f32_1_alg».proof.Proof.Bits.Parts.Part33
import proofs.«900775_g7700000000000776_dist_diff_dit_htp_i_b2_s512_d768_hq4_v7x_i8_f32_1_alg».proof.Proof.Bits.Parts.Part34
import proofs.«900775_g7700000000000776_dist_diff_dit_htp_i_b2_s512_d768_hq4_v7x_i8_f32_1_alg».proof.Proof.Bits.Parts.Part35
import proofs.«900775_g7700000000000776_dist_diff_dit_htp_i_b2_s512_d768_hq4_v7x_i8_f32_1_alg».proof.Proof.Bits.Parts.Part36
import proofs.«900775_g7700000000000776_dist_diff_dit_htp_i_b2_s512_d768_hq4_v7x_i8_f32_1_alg».proof.Proof.Bits.Parts.Part37
import proofs.«900775_g7700000000000776_dist_diff_dit_htp_i_b2_s512_d768_hq4_v7x_i8_f32_1_alg».proof.Proof.Bits.Parts.Part38
import proofs.«900775_g7700000000000776_dist_diff_dit_htp_i_b2_s512_d768_hq4_v7x_i8_f32_1_alg».proof.Proof.Bits.Parts.Part39
import proofs.«900775_g7700000000000776_dist_diff_dit_htp_i_b2_s512_d768_hq4_v7x_i8_f32_1_alg».proof.Proof.Bits.Parts.Part40
import proofs.«900775_g7700000000000776_dist_diff_dit_htp_i_b2_s512_d768_hq4_v7x_i8_f32_1_alg».proof.Proof.Bits.Parts.Part41
import proofs.«900775_g7700000000000776_dist_diff_dit_htp_i_b2_s512_d768_hq4_v7x_i8_f32_1_alg».proof.Proof.Bits.Parts.Part42
import proofs.«900775_g7700000000000776_dist_diff_dit_htp_i_b2_s512_d768_hq4_v7x_i8_f32_1_alg».proof.Proof.Bits.Parts.Part43
import proofs.«900775_g7700000000000776_dist_diff_dit_htp_i_b2_s512_d768_hq4_v7x_i8_f32_1_alg».proof.Proof.Bits.Parts.Part44
import proofs.«900775_g7700000000000776_dist_diff_dit_htp_i_b2_s512_d768_hq4_v7x_i8_f32_1_alg».proof.Proof.Bits.Parts.Part45
import proofs.«900775_g7700000000000776_dist_diff_dit_htp_i_b2_s512_d768_hq4_v7x_i8_f32_1_alg».proof.Proof.Bits.Parts.Part46
import proofs.«900775_g7700000000000776_dist_diff_dit_htp_i_b2_s512_d768_hq4_v7x_i8_f32_1_alg».proof.Proof.Bits.Parts.Part47
import proofs.«900775_g7700000000000776_dist_diff_dit_htp_i_b2_s512_d768_hq4_v7x_i8_f32_1_alg».proof.Proof.Bits.Parts.Part48
import proofs.«900775_g7700000000000776_dist_diff_dit_htp_i_b2_s512_d768_hq4_v7x_i8_f32_1_alg».proof.Proof.Bits.Parts.Part49
import proofs.«900775_g7700000000000776_dist_diff_dit_htp_i_b2_s512_d768_hq4_v7x_i8_f32_1_alg».proof.Proof.Bits.Parts.Part50
import proofs.«900775_g7700000000000776_dist_diff_dit_htp_i_b2_s512_d768_hq4_v7x_i8_f32_1_alg».proof.Proof.Bits.Parts.Part51
import proofs.«900775_g7700000000000776_dist_diff_dit_htp_i_b2_s512_d768_hq4_v7x_i8_f32_1_alg».proof.Proof.Bits.Parts.Part52
import proofs.«900775_g7700000000000776_dist_diff_dit_htp_i_b2_s512_d768_hq4_v7x_i8_f32_1_alg».proof.Proof.Bits.Parts.Part53
import proofs.«900775_g7700000000000776_dist_diff_dit_htp_i_b2_s512_d768_hq4_v7x_i8_f32_1_alg».proof.Proof.Bits.Parts.Part54
import proofs.«900775_g7700000000000776_dist_diff_dit_htp_i_b2_s512_d768_hq4_v7x_i8_f32_1_alg».proof.Proof.Bits.Parts.Part55
import proofs.«900775_g7700000000000776_dist_diff_dit_htp_i_b2_s512_d768_hq4_v7x_i8_f32_1_alg».proof.Proof.Bits.Parts.Part56
import proofs.«900775_g7700000000000776_dist_diff_dit_htp_i_b2_s512_d768_hq4_v7x_i8_f32_1_alg».proof.Proof.Bits.Parts.Part57
import proofs.«900775_g7700000000000776_dist_diff_dit_htp_i_b2_s512_d768_hq4_v7x_i8_f32_1_alg».proof.Proof.Bits.Parts.Part58
import proofs.«900775_g7700000000000776_dist_diff_dit_htp_i_b2_s512_d768_hq4_v7x_i8_f32_1_alg».proof.Proof.Bits.Parts.Part59
import proofs.«900775_g7700000000000776_dist_diff_dit_htp_i_b2_s512_d768_hq4_v7x_i8_f32_1_alg».proof.Proof.Bits.Parts.Part60
import proofs.«900775_g7700000000000776_dist_diff_dit_htp_i_b2_s512_d768_hq4_v7x_i8_f32_1_alg».proof.Proof.Bits.Parts.Part61
import proofs.«900775_g7700000000000776_dist_diff_dit_htp_i_b2_s512_d768_hq4_v7x_i8_f32_1_alg».proof.Proof.Bits.Parts.Part62
import proofs.«900775_g7700000000000776_dist_diff_dit_htp_i_b2_s512_d768_hq4_v7x_i8_f32_1_alg».proof.Proof.Bits.Parts.Part63
import proofs.«900775_g7700000000000776_dist_diff_dit_htp_i_b2_s512_d768_hq4_v7x_i8_f32_1_alg».proof.Proof.Bits.Parts.Part64
import proofs.«900775_g7700000000000776_dist_diff_dit_htp_i_b2_s512_d768_hq4_v7x_i8_f32_1_alg».proof.Proof.Bits.Parts.Part65
import proofs.«900775_g7700000000000776_dist_diff_dit_htp_i_b2_s512_d768_hq4_v7x_i8_f32_1_alg».proof.Proof.Bits.Parts.Part66
import proofs.«900775_g7700000000000776_dist_diff_dit_htp_i_b2_s512_d768_hq4_v7x_i8_f32_1_alg».proof.Proof.Bits.Parts.Part67
import proofs.«900775_g7700000000000776_dist_diff_dit_htp_i_b2_s512_d768_hq4_v7x_i8_f32_1_alg».proof.Proof.Bits.Parts.Part68
import proofs.«900775_g7700000000000776_dist_diff_dit_htp_i_b2_s512_d768_hq4_v7x_i8_f32_1_alg».proof.Proof.Bits.Parts.Part69
import proofs.«900775_g7700000000000776_dist_diff_dit_htp_i_b2_s512_d768_hq4_v7x_i8_f32_1_alg».proof.Proof.Bits.Parts.Part70
import proofs.«900775_g7700000000000776_dist_diff_dit_htp_i_b2_s512_d768_hq4_v7x_i8_f32_1_alg».proof.Proof.Bits.Parts.Part71
import proofs.«900775_g7700000000000776_dist_diff_dit_htp_i_b2_s512_d768_hq4_v7x_i8_f32_1_alg».proof.Proof.Bits.Parts.Part72
import proofs.«900775_g7700000000000776_dist_diff_dit_htp_i_b2_s512_d768_hq4_v7x_i8_f32_1_alg».proof.Proof.Bits.Parts.Part73
import proofs.«900775_g7700000000000776_dist_diff_dit_htp_i_b2_s512_d768_hq4_v7x_i8_f32_1_alg».proof.Proof.Bits.Parts.Part74
import proofs.«900775_g7700000000000776_dist_diff_dit_htp_i_b2_s512_d768_hq4_v7x_i8_f32_1_alg».proof.Proof.Bits.Parts.Part75
import proofs.«900775_g7700000000000776_dist_diff_dit_htp_i_b2_s512_d768_hq4_v7x_i8_f32_1_alg».proof.Proof.Bits.Parts.Part76
import proofs.«900775_g7700000000000776_dist_diff_dit_htp_i_b2_s512_d768_hq4_v7x_i8_f32_1_alg».proof.Proof.Bits.Parts.Part77
import proofs.«900775_g7700000000000776_dist_diff_dit_htp_i_b2_s512_d768_hq4_v7x_i8_f32_1_alg».proof.Proof.Bits.Parts.Part78
import proofs.«900775_g7700000000000776_dist_diff_dit_htp_i_b2_s512_d768_hq4_v7x_i8_f32_1_alg».proof.Proof.Bits.Parts.Part79
import proofs.«900775_g7700000000000776_dist_diff_dit_htp_i_b2_s512_d768_hq4_v7x_i8_f32_1_alg».proof.Proof.Bits.Parts.Part80
import proofs.«900775_g7700000000000776_dist_diff_dit_htp_i_b2_s512_d768_hq4_v7x_i8_f32_1_alg».proof.Proof.Bits.Parts.Part81
import proofs.«900775_g7700000000000776_dist_diff_dit_htp_i_b2_s512_d768_hq4_v7x_i8_f32_1_alg».proof.Proof.Bits.Parts.Part82
import proofs.«900775_g7700000000000776_dist_diff_dit_htp_i_b2_s512_d768_hq4_v7x_i8_f32_1_alg».proof.Proof.Bits.Parts.Part83
import proofs.«900775_g7700000000000776_dist_diff_dit_htp_i_b2_s512_d768_hq4_v7x_i8_f32_1_alg».proof.Proof.Bits.Parts.Part84
import proofs.«900775_g7700000000000776_dist_diff_dit_htp_i_b2_s512_d768_hq4_v7x_i8_f32_1_alg».proof.Proof.Bits.Parts.Part85
import proofs.«900775_g7700000000000776_dist_diff_dit_htp_i_b2_s512_d768_hq4_v7x_i8_f32_1_alg».proof.Proof.Bits.Parts.Part86
import proofs.«900775_g7700000000000776_dist_diff_dit_htp_i_b2_s512_d768_hq4_v7x_i8_f32_1_alg».proof.Proof.Bits.Parts.Part87
import proofs.«900775_g7700000000000776_dist_diff_dit_htp_i_b2_s512_d768_hq4_v7x_i8_f32_1_alg».proof.Proof.Bits.Parts.Part88
import proofs.«900775_g7700000000000776_dist_diff_dit_htp_i_b2_s512_d768_hq4_v7x_i8_f32_1_alg».proof.Proof.Bits.Parts.Part89
import proofs.«900775_g7700000000000776_dist_diff_dit_htp_i_b2_s512_d768_hq4_v7x_i8_f32_1_alg».proof.Proof.Bits.Parts.Part90
import proofs.«900775_g7700000000000776_dist_diff_dit_htp_i_b2_s512_d768_hq4_v7x_i8_f32_1_alg».proof.Proof.Bits.Parts.Part91
import proofs.«900775_g7700000000000776_dist_diff_dit_htp_i_b2_s512_d768_hq4_v7x_i8_f32_1_alg».proof.Proof.Bits.Parts.Part92
import proofs.«900775_g7700000000000776_dist_diff_dit_htp_i_b2_s512_d768_hq4_v7x_i8_f32_1_alg».proof.Proof.Bits.Parts.Part93
import proofs.«900775_g7700000000000776_dist_diff_dit_htp_i_b2_s512_d768_hq4_v7x_i8_f32_1_alg».proof.Proof.Bits.Parts.Part94
import proofs.«900775_g7700000000000776_dist_diff_dit_htp_i_b2_s512_d768_hq4_v7x_i8_f32_1_alg».proof.Proof.Bits.Parts.Part95
import proofs.«900775_g7700000000000776_dist_diff_dit_htp_i_b2_s512_d768_hq4_v7x_i8_f32_1_alg».proof.Proof.Bits.Parts.Part96
import proofs.«900775_g7700000000000776_dist_diff_dit_htp_i_b2_s512_d768_hq4_v7x_i8_f32_1_alg».proof.Proof.Bits.Parts.Part97
import proofs.«900775_g7700000000000776_dist_diff_dit_htp_i_b2_s512_d768_hq4_v7x_i8_f32_1_alg».proof.Proof.Bits.Parts.Part98
import proofs.«900775_g7700000000000776_dist_diff_dit_htp_i_b2_s512_d768_hq4_v7x_i8_f32_1_alg».proof.Proof.Bits.Parts.Part99
import proofs.«900775_g7700000000000776_dist_diff_dit_htp_i_b2_s512_d768_hq4_v7x_i8_f32_1_alg».proof.Proof.Bits.Parts.Part100
import proofs.«900775_g7700000000000776_dist_diff_dit_htp_i_b2_s512_d768_hq4_v7x_i8_f32_1_alg».proof.Proof.Bits.Parts.Part101
import proofs.«900775_g7700000000000776_dist_diff_dit_htp_i_b2_s512_d768_hq4_v7x_i8_f32_1_alg».proof.Proof.Bits.Parts.Part102
import proofs.«900775_g7700000000000776_dist_diff_dit_htp_i_b2_s512_d768_hq4_v7x_i8_f32_1_alg».proof.Proof.Bits.Parts.Part103
import proofs.«900775_g7700000000000776_dist_diff_dit_htp_i_b2_s512_d768_hq4_v7x_i8_f32_1_alg».proof.Proof.Bits.Parts.Part104
import proofs.«900775_g7700000000000776_dist_diff_dit_htp_i_b2_s512_d768_hq4_v7x_i8_f32_1_alg».proof.Proof.Bits.Parts.Part105
import proofs.«900775_g7700000000000776_dist_diff_dit_htp_i_b2_s512_d768_hq4_v7x_i8_f32_1_alg».proof.Proof.Bits.Parts.Part106
import proofs.«900775_g7700000000000776_dist_diff_dit_htp_i_b2_s512_d768_hq4_v7x_i8_f32_1_alg».proof.Proof.Bits.Parts.Part107
import proofs.«900775_g7700000000000776_dist_diff_dit_htp_i_b2_s512_d768_hq4_v7x_i8_f32_1_alg».proof.Proof.Bits.Parts.Part108
import proofs.«900775_g7700000000000776_dist_diff_dit_htp_i_b2_s512_d768_hq4_v7x_i8_f32_1_alg».proof.Proof.Bits.Parts.Part109
import proofs.«900775_g7700000000000776_dist_diff_dit_htp_i_b2_s512_d768_hq4_v7x_i8_f32_1_alg».proof.Proof.Bits.Parts.Part110
import proofs.«900775_g7700000000000776_dist_diff_dit_htp_i_b2_s512_d768_hq4_v7x_i8_f32_1_alg».proof.Proof.Bits.Parts.Part111
import proofs.«900775_g7700000000000776_dist_diff_dit_htp_i_b2_s512_d768_hq4_v7x_i8_f32_1_alg».proof.Proof.Bits.Parts.Part112
import proofs.«900775_g7700000000000776_dist_diff_dit_htp_i_b2_s512_d768_hq4_v7x_i8_f32_1_alg».proof.Proof.Bits.Parts.Part113
import proofs.«900775_g7700000000000776_dist_diff_dit_htp_i_b2_s512_d768_hq4_v7x_i8_f32_1_alg».proof.Proof.Bits.Parts.Part114
import proofs.«900775_g7700000000000776_dist_diff_dit_htp_i_b2_s512_d768_hq4_v7x_i8_f32_1_alg».proof.Proof.Bits.Parts.Part115
import proofs.«900775_g7700000000000776_dist_diff_dit_htp_i_b2_s512_d768_hq4_v7x_i8_f32_1_alg».proof.Proof.Bits.Parts.Part116
import proofs.«900775_g7700000000000776_dist_diff_dit_htp_i_b2_s512_d768_hq4_v7x_i8_f32_1_alg».proof.Proof.Bits.Parts.Part117
import proofs.«900775_g7700000000000776_dist_diff_dit_htp_i_b2_s512_d768_hq4_v7x_i8_f32_1_alg».proof.Proof.Bits.Parts.Part118
import proofs.«900775_g7700000000000776_dist_diff_dit_htp_i_b2_s512_d768_hq4_v7x_i8_f32_1_alg».proof.Proof.Bits.Parts.Part119
import proofs.«900775_g7700000000000776_dist_diff_dit_htp_i_b2_s512_d768_hq4_v7x_i8_f32_1_alg».proof.Proof.Bits.Parts.Part120
-- ==== Proof.Bits.BodyParts.lean ====
import proofs.«900775_g7700000000000776_dist_diff_dit_htp_i_b2_s512_d768_hq4_v7x_i8_f32_1_alg».proof.Proof.Bits.BodySpine
import proofs.«900775_g7700000000000776_dist_diff_dit_htp_i_b2_s512_d768_hq4_v7x_i8_f32_1_alg».proof.Proof.Bits.Parts.All

/-! The body's two halves at the arguments the pipeline calls the body with: each is the sequence of its sixty parts' runs, the state
    between two parts the device's protocol state at that place, the output block as far as it is stored, and the nine input blocks. -/

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.LaunchK

variable {F : FTy → Type} [FloatOps F]

/-- What device `c` holds between part `n` and the next: its protocol state there, the output block with the row blocks stored so far, the nine
    input blocks. -/
abbrev Pn (m : (ℓ : Loc nD τ sig) → Buf (Elt F) ℓ) (c : Dev nD) (K : Dev nD × Cell → ℕ) (n : ℕ) : sProp (MT nD τ sig Unit (Elt F) ℕ UU ℕ) :=
  iprop(St (insM m) K (σ n) c ∗ outHeld (insM m) c (σ n).outs ∗ BodyGlue.inputs m c ∗ emp)

/-- Parts 1 to 60 at the body's arguments. -/
theorem half1 (m : (ℓ : Loc nD τ sig) → Buf (Elt F) ℓ) (K : Dev nD × Cell → ℕ) (c : Dev nD) :
    Pn m c K 0 ⊢ wp frame (wpE (defs₀ (F := F)) 𝒱₀ (c : Thread nD τ) none) Set.univ (k0_part121 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0)
        (fun tup => iprop(⌜tup = ⟨c, Vals.lw2 c, Vals.lv14 (insM m) c, Vals.lv22 (insM m) c, Vals.lv23 (insM m) c, Vals.lv24 (insM m) c, Vals.lv25 (insM m) c, Vals.lv40 (insM m) c, Vals.lv43 (insM m) c, Vals.lv1195 (insM m) c, Vals.lw1295 c, Vals.lw1306 c, Vals.lw1317 c, Vals.lw1394 c, Vals.lw1405 c, Vals.lw1416 c, Vals.lv1507 (insM m) c, Vals.lw1508 c, Vals.lw1519 c, Vals.lw1530 c⟩⌝ ∗ Pn m c K 60)) :=
  seq121 (insM m) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Pn m c K)
    (part_1 m K c iprop(emp))
    (part_2 m K c iprop(emp))
    (part_3 m K c iprop(BodyGlue.inputs m c ∗ emp))
    (part_4 m K c iprop(BodyGlue.inputs m c ∗ emp))
    (part_5 m K c iprop(BodyGlue.inputs m c ∗ emp))
    (part_6 m K c iprop(BodyGlue.inputs m c ∗ emp))
    (part_7 m K c iprop(BodyGlue.inputs m c ∗ emp))
    (part_8 m K c iprop(BodyGlue.inputs m c ∗ emp))
    (part_9 m K c iprop(BodyGlue.inputs m c ∗ emp))
    (part_10 m K c iprop(BodyGlue.inputs m c ∗ emp))
    (part_11 m K c iprop(BodyGlue.inputs m c ∗ emp))
    (part_12 m K c iprop(BodyGlue.inputs m c ∗ emp))
    (part_13 m K c iprop(BodyGlue.inputs m c ∗ emp))
    (part_14 m K c iprop(BodyGlue.inputs m c ∗ emp))
    (part_15 m K c iprop(BodyGlue.inputs m c ∗ emp))
    (part_16 m K c iprop(BodyGlue.inputs m c ∗ emp))
    (part_17 m K c iprop(BodyGlue.inputs m c ∗ emp))
    (part_18 m K c iprop(BodyGlue.inputs m c ∗ emp))
    (part_19 m K c iprop(BodyGlue.inputs m c ∗ emp))
    (part_20 m K c iprop(BodyGlue.inputs m c ∗ emp))
    (part_21 m K c iprop(BodyGlue.inputs m c ∗ emp))
    (part_22 m K c iprop(BodyGlue.inputs m c ∗ emp))
    (part_23 m K c iprop(BodyGlue.inputs m c ∗ emp))
    (part_24 m K c iprop(BodyGlue.inputs m c ∗ emp))
    (part_25 m K c iprop(BodyGlue.inputs m c ∗ emp))
    (part_26 m K c iprop(BodyGlue.inputs m c ∗ emp))
    (part_27 m K c iprop(BodyGlue.inputs m c ∗ emp))
    (part_28 m K c iprop(BodyGlue.inputs m c ∗ emp))
    (part_29 m K c iprop(BodyGlue.inputs m c ∗ emp))
    (part_30 m K c iprop(BodyGlue.inputs m c ∗ emp))
    (part_31 m K c iprop(BodyGlue.inputs m c ∗ emp))
    (part_32 m K c iprop(BodyGlue.inputs m c ∗ emp))
    (part_33 m K c iprop(BodyGlue.inputs m c ∗ emp))
    (part_34 m K c iprop(BodyGlue.inputs m c ∗ emp))
    (part_35 m K c iprop(BodyGlue.inputs m c ∗ emp))
    (part_36 m K c iprop(BodyGlue.inputs m c ∗ emp))
    (part_37 m K c iprop(BodyGlue.inputs m c ∗ emp))
    (part_38 m K c iprop(BodyGlue.inputs m c ∗ emp))
    (part_39 m K c iprop(BodyGlue.inputs m c ∗ emp))
    (part_40 m K c iprop(BodyGlue.inputs m c ∗ emp))
    (part_41 m K c iprop(BodyGlue.inputs m c ∗ emp))
    (part_42 m K c iprop(BodyGlue.inputs m c ∗ emp))
    (part_43 m K c iprop(BodyGlue.inputs m c ∗ emp))
    (part_44 m K c iprop(BodyGlue.inputs m c ∗ emp))
    (part_45 m K c iprop(BodyGlue.inputs m c ∗ emp))
    (part_46 m K c iprop(BodyGlue.inputs m c ∗ emp))
    (part_47 m K c iprop(BodyGlue.inputs m c ∗ emp))
    (part_48 m K c iprop(BodyGlue.inputs m c ∗ emp))
    (part_49 m K c iprop(BodyGlue.inputs m c ∗ emp))
    (part_50 m K c iprop(BodyGlue.inputs m c ∗ emp))
    (part_51 m K c iprop(BodyGlue.inputs m c ∗ emp))
    (part_52 m K c iprop(BodyGlue.inputs m c ∗ emp))
    (part_53 m K c iprop(BodyGlue.inputs m c ∗ emp))
    (part_54 m K c iprop(BodyGlue.inputs m c ∗ emp))
    (part_55 m K c iprop(BodyGlue.inputs m c ∗ emp))
    (part_56 m K c iprop(BodyGlue.inputs m c ∗ emp))
    (part_57 m K c iprop(BodyGlue.inputs m c ∗ emp))
    (part_58 m K c iprop(BodyGlue.inputs m c ∗ emp))
    (part_59 m K c iprop(BodyGlue.inputs m c ∗ emp))
    (part_60 m K c iprop(BodyGlue.inputs m c ∗ emp))

/-- Parts 61 to 120 at the body's arguments. -/
theorem half2 (m : (ℓ : Loc nD τ sig) → Buf (Elt F) ℓ) (K : Dev nD × Cell → ℕ) (c : Dev nD) :
    Pn m c K 60 ⊢ wp frame (wpE (defs₀ (F := F)) 𝒱₀ (c : Thread nD τ) none) Set.univ (k0_part122 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 c (Vals.lw2 c) (Vals.lv14 (insM m) c) (Vals.lv22 (insM m) c) (Vals.lv23 (insM m) c) (Vals.lv24 (insM m) c) (Vals.lv25 (insM m) c) (Vals.lv40 (insM m) c) (Vals.lv43 (insM m) c) (Vals.lv1195 (insM m) c) (Vals.lw1295 c) (Vals.lw1306 c) (Vals.lw1317 c) (Vals.lw1394 c) (Vals.lw1405 c) (Vals.lw1416 c) (Vals.lv1507 (insM m) c) (Vals.lw1508 c) (Vals.lw1519 c) (Vals.lw1530 c))
        (fun tup => iprop(⌜tup = ⟨Vals.lv2993 (insM m) c, Vals.lv2996 (insM m) c, Vals.lv3001 (insM m) c, Vals.lv3006 (insM m) c⟩⌝ ∗ Pn m c K 120)) :=
  seq122 (insM m) c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (Memref.whole cc0_scratch0) (Memref.isWhole_whole _) (Memref.whole cc0_scratch1) (Memref.isWhole_whole _) cc0_scratch2 cc0_scratch3 cc0_scoped0 (Pn m c K)
    (part_61 m K c iprop(BodyGlue.inputs m c ∗ emp))
    (part_62 m K c iprop(BodyGlue.inputs m c ∗ emp))
    (part_63 m K c iprop(BodyGlue.inputs m c ∗ emp))
    (part_64 m K c iprop(BodyGlue.inputs m c ∗ emp))
    (part_65 m K c iprop(BodyGlue.inputs m c ∗ emp))
    (part_66 m K c iprop(BodyGlue.inputs m c ∗ emp))
    (part_67 m K c iprop(BodyGlue.inputs m c ∗ emp))
    (part_68 m K c iprop(BodyGlue.inputs m c ∗ emp))
    (part_69 m K c iprop(BodyGlue.inputs m c ∗ emp))
    (part_70 m K c iprop(BodyGlue.inputs m c ∗ emp))
    (part_71 m K c iprop(BodyGlue.inputs m c ∗ emp))
    (part_72 m K c iprop(BodyGlue.inputs m c ∗ emp))
    (part_73 m K c iprop(BodyGlue.inputs m c ∗ emp))
    (part_74 m K c iprop(BodyGlue.inputs m c ∗ emp))
    (part_75 m K c iprop(BodyGlue.inputs m c ∗ emp))
    (part_76 m K c iprop(BodyGlue.inputs m c ∗ emp))
    (part_77 m K c iprop(BodyGlue.inputs m c ∗ emp))
    (part_78 m K c iprop(BodyGlue.inputs m c ∗ emp))
    (part_79 m K c iprop(BodyGlue.inputs m c ∗ emp))
    (part_80 m K c iprop(BodyGlue.inputs m c ∗ emp))
    (part_81 m K c iprop(BodyGlue.inputs m c ∗ emp))
    (part_82 m K c iprop(BodyGlue.inputs m c ∗ emp))
    (part_83 m K c iprop(BodyGlue.inputs m c ∗ emp))
    (part_84 m K c iprop(BodyGlue.inputs m c ∗ emp))
    (part_85 m K c iprop(BodyGlue.inputs m c ∗ emp))
    (part_86 m K c iprop(BodyGlue.inputs m c ∗ emp))
    (part_87 m K c iprop(BodyGlue.inputs m c ∗ emp))
    (part_88 m K c iprop(BodyGlue.inputs m c ∗ emp))
    (part_89 m K c iprop(BodyGlue.inputs m c ∗ emp))
    (part_90 m K c iprop(BodyGlue.inputs m c ∗ emp))
    (part_91 m K c iprop(BodyGlue.inputs m c ∗ emp))
    (part_92 m K c iprop(BodyGlue.inputs m c ∗ emp))
    (part_93 m K c iprop(BodyGlue.inputs m c ∗ emp))
    (part_94 m K c iprop(BodyGlue.inputs m c ∗ emp))
    (part_95 m K c iprop(BodyGlue.inputs m c ∗ emp))
    (part_96 m K c iprop(BodyGlue.inputs m c ∗ emp))
    (part_97 m K c iprop(BodyGlue.inputs m c ∗ emp))
    (part_98 m K c iprop(BodyGlue.inputs m c ∗ emp))
    (part_99 m K c iprop(BodyGlue.inputs m c ∗ emp))
    (part_100 m K c iprop(BodyGlue.inputs m c ∗ emp))
    (part_101 m K c iprop(BodyGlue.inputs m c ∗ emp))
    (part_102 m K c iprop(BodyGlue.inputs m c ∗ emp))
    (part_103 m K c iprop(BodyGlue.inputs m c ∗ emp))
    (part_104 m K c iprop(BodyGlue.inputs m c ∗ emp))
    (part_105 m K c iprop(BodyGlue.inputs m c ∗ emp))
    (part_106 m K c iprop(BodyGlue.inputs m c ∗ emp))
    (part_107 m K c iprop(BodyGlue.inputs m c ∗ emp))
    (part_108 m K c iprop(BodyGlue.inputs m c ∗ emp))
    (part_109 m K c iprop(BodyGlue.inputs m c ∗ emp))
    (part_110 m K c iprop(BodyGlue.inputs m c ∗ emp))
    (part_111 m K c iprop(BodyGlue.inputs m c ∗ emp))
    (part_112 m K c iprop(BodyGlue.inputs m c ∗ emp))
    (part_113 m K c iprop(BodyGlue.inputs m c ∗ emp))
    (part_114 m K c iprop(BodyGlue.inputs m c ∗ emp))
    (part_115 m K c iprop(BodyGlue.inputs m c ∗ emp))
    (part_116 m K c iprop(BodyGlue.inputs m c ∗ emp))
    (part_117 m K c iprop(BodyGlue.inputs m c ∗ emp))
    (part_118 m K c iprop(BodyGlue.inputs m c ∗ emp))
    (part_119 m K c iprop(BodyGlue.inputs m c ∗ emp))
    (part_120 m K c iprop(BodyGlue.inputs m c ∗ emp))

end Cert.Kernel.Body

end
-- ==== Proof.lean ====
/-
  The five conjuncts of the claim, assembled.

  The kernel is one transformer block computed by eight devices: each device holds four of the thirty-two attention heads
  and one eighth of the feed-forward width, computes its partial products, and the partial products are summed over the
  eight devices by three pairwise exchanges along the masks 1, 3, 4 of the device ids (a basis of the three-bit vectors, so
  every device ends with the sum over all eight). Over the extended reals, with every input finite, this is the reference's
  block: the normalisation by the inverse square root is the division by the square root, the softmax without the row
  maximum is the softmax with it, the scale on the queries is the scale on the scores, and a change of float format is the
  identity.

  * the reference's frame is its run (a host program: every operation's result a named stage) with the value dropped;
  * the idealization's ledger has four entries, each the f32 → bf16 → f32 round trip at a 256x768 tile;
  * the two kernel frames are the launch theorem applied to the body lemma, at the word level and at the ideal instance;
  * the value claim chains: the kernel's result names what the body stores, that is the kernel-shaped formula at every
    index, that is the reference-shaped formula, that is the reference's run's result.
-/
import proofs.«900775_g7700000000000776_dist_diff_dit_htp_i_b2_s512_d768_hq4_v7x_i8_f32_1_alg».proof.Defs
import proofs.«900775_g7700000000000776_dist_diff_dit_htp_i_b2_s512_d768_hq4_v7x_i8_f32_1_alg».proof.Proof.Gen.Kernel
import proofs.«900775_g7700000000000776_dist_diff_dit_htp_i_b2_s512_d768_hq4_v7x_i8_f32_1_alg».proof.Proof.Gen.KernelIdeal
import proofs.«900775_g7700000000000776_dist_diff_dit_htp_i_b2_s512_d768_hq4_v7x_i8_f32_1_alg».proof.Proof.Gen.ReferenceIdeal
import proofs.«900775_g7700000000000776_dist_diff_dit_htp_i_b2_s512_d768_hq4_v7x_i8_f32_1_alg».proof.Proof.Gen.Pre_finite_inputs_Kernel
import proofs.«900775_g7700000000000776_dist_diff_dit_htp_i_b2_s512_d768_hq4_v7x_i8_f32_1_alg».proof.Proof.Gen.Pre_finite_inputs_ReferenceIdeal
import proofs.«900775_g7700000000000776_dist_diff_dit_htp_i_b2_s512_d768_hq4_v7x_i8_f32_1_alg».proof.Proof.Preserves
import proofs.«900775_g7700000000000776_dist_diff_dit_htp_i_b2_s512_d768_hq4_v7x_i8_f32_1_alg».proof.Proof.RefRun
import proofs.«900775_g7700000000000776_dist_diff_dit_htp_i_b2_s512_d768_hq4_v7x_i8_f32_1_alg».proof.Proof.RefValue
import proofs.«900775_g7700000000000776_dist_diff_dit_htp_i_b2_s512_d768_hq4_v7x_i8_f32_1_alg».proof.Proof.Assemble
import proofs.«900775_g7700000000000776_dist_diff_dit_htp_i_b2_s512_d768_hq4_v7x_i8_f32_1_alg».proof.Proof.KValue.OutEq
import proofs.«900775_g7700000000000776_dist_diff_dit_htp_i_b2_s512_d768_hq4_v7x_i8_f32_1_alg».proof.Proof.BodyDone
import proofs.«900775_g7700000000000776_dist_diff_dit_htp_i_b2_s512_d768_hq4_v7x_i8_f32_1_alg».proof.Proof.Bits.BodyDone

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs_Kernel.Facts := Cert.Pre_finite_inputs_Kernel.Gen.facts
instance : Cert.Pre_finite_inputs_ReferenceIdeal.Facts := Cert.Pre_finite_inputs_ReferenceIdeal.Gen.facts

theorem frame_ri : Cert.frame_ReferenceIdeal := Cert.ReferenceIdeal.RefRun.frame

/-- The word-level kernel's frame: the launch theorem over the body lemma, at the word-level instance. -/
theorem frame_k : Cert.frame_Kernel := fun m ρ _ => Cert.Kernel.Body.frame_kernel_done (F := Bits) m ρ

/-- The idealized kernel's frame: the same at the ideal instance. -/
theorem frame_ki : Cert.frame_KernelIdeal := fun m ρ _ => Cert.KernelIdeal.Body.frame_kernel_done (F := Ideal) m ρ

/-- The value claim. The idealized kernel's run names its result as what the body stores; with one grid point a window's
    block is the whole staged array, so the body's family of loaded windows is the family of the stored argument buffers,
    and the chain of equalities of the assembly applies. -/
theorem algebraic : Cert.algebraic_KernelIdeal_ReferenceIdeal :=
  Cert.Assemble.algebraic Cert.ReferenceIdeal.RefRun.out Cert.ReferenceIdeal.RefRun.run Cert.RefValue.out_eq
    (fun m ρ _ => by
      have h := Cert.KernelIdeal.Body.run_kernel_done (F := Ideal) m ρ
      rw [show Cert.KernelIdeal.Body.insM (F := Ideal) m = Cert.Assemble.insOf m from
        funext fun c => Cert.KernelIdeal.Body.insM_eq m c] at h
      exact h)
    Cert.KValue.out_eq

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, Cert.Proof.Preserves.preserves, algebraic⟩

end Cert.Proof

end
